-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v178)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v178) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v350) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S50000 : Shape := ⟨1, ![50000]⟩
abbrev S6x64 : Shape := ⟨2, ![6, 64]⟩
abbrev S64 : Shape := ⟨1, ![64]⟩
abbrev S4 : Shape := ⟨1, ![4]⟩
abbrev S4x64x64 : Shape := ⟨3, ![4, 64, 64]⟩
abbrev S4x64 : Shape := ⟨2, ![4, 64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S4 : S_.BroadcastsInDim S4 (![] : Fin 0 → Fin S4.rank)
  reducesTo_S4_S_d0 : S4.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S64 .f32) (main_arg17 : FVec F S64x10 .f32) (main_arg18 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x10 .f32 := Host.absf main_arg17
  let main_cst_28 : FVec F S_ .f32 := constant S_ .f32 0x7F800000#32
  let main_v75 : FVec F S64x10 .f32 := broadcastInDim S64x10 ![] bcast_S_S64x10 main_cst_28
  let main_v76 : IVec S64x10 1 := cmpf .olt main_v74 main_v75
  let main_c_29 : IVec S_ 1 := constantI S_ 1 1#1
  let main_v77 : IVec S_ 1 := (fun x v => Host.reduce IntOp.andi x v reducesTo_S64x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S4x64 .f32) (main_arg14 : FVec F S4x64 .f32) (main_arg15 : FVec F S64x64 .f32) (main_arg16 : FVec F S64 .f32) (main_arg17 : FVec F S64x10 .f32) (main_arg18 : FVec F S10 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S4x64 .f32 := Host.absf main_arg13
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  let main_v59 : FVec F S4x64 .f32 := Host.absf main_arg14
  let main_cst_22 : FVec F S_ .f32 := constant S_ .f32 0x7F800000#32
  let main_v60 : FVec F S4x64 .f32 := broadcastInDim S4x64 ![] bcast_S_S4x64 main_cst_22
  let main_v61 : IVec S4x64 1 := cmpf .olt main_v59 main_v60
  let main_c_23 : IVec S_ 1 := constantI S_ 1 1#1
  let main_v62 : IVec S_ 1 := (fun x v => Host.reduce IntOp.andi x v reducesTo_S4x64_S_d0_1 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_v63 main_v67

def fn_part2 {F : FTy → Type} [FloatOps F] (main_arg9 : FVec F S4x64 .f32) (main_arg10 : FVec F S4x64 .f32) (main_arg11 : FVec F S4x64x64 .f32) (main_arg12 : FVec F S4x64 .f32) (main_arg13 : FVec F S4x64 .f32) (main_arg14 : FVec F S4x64 .f32) (main_arg15 : FVec F S64x64 .f32) (main_arg16 : FVec F S64 .f32) (main_arg17 : FVec F S64x10 .f32) (main_arg18 : FVec F S10 .f32) (main_v33 : IVec S_ 1) : IVec S_ 1 :=
  let main_v34 : FVec F S4x64 .f32 := Host.absf main_arg9
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S4x64 .f32 := Host.absf main_arg10
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S4x64x64 .f32 := Host.absf main_arg11
  let main_cst_16 : FVec F S_ .f32 := constant S_ .f32 0x7F800000#32
  let main_v45 : FVec F S4x64x64 .f32 := broadcastInDim S4x64x64 ![] bcast_S_S4x64x64 main_cst_16
  let main_v46 : IVec S4x64x64 1 := cmpf .olt main_v44 main_v45
  let main_c_17 : IVec S_ 1 := constantI S_ 1 1#1
  let main_v47 : IVec S_ 1 := (fun x v => Host.reduce IntOp.andi x v reducesTo_S4x64x64_S_d0_1_2 h_S_) main_v46 main_c_17
  let main_v48 : IVec S_ 1 := andi main_v43 main_v47
  let main_v49 : FVec F S4x64 .f32 := Host.absf main_arg12
  let main_cst_18 : FVec F S_ .f32 := constant S_ .f32 0x7F800000#32
  let main_v50 : FVec F S4x64 .f32 := broadcastInDim S4x64 ![] bcast_S_S4x64 main_cst_18
  fn_part3 (F := F) main_arg13 main_arg14 main_arg15 main_arg16 main_arg17 main_arg18 main_v48 main_v49 main_v50

def fn_part1 {F : FTy → Type} [FloatOps F] (main_arg6 : FVec F S4 .f32) (main_arg7 : FVec F S4x64x64 .f32) (main_arg8 : FVec F S4x64 .f32) (main_arg9 : FVec F S4x64 .f32) (main_arg10 : FVec F S4x64 .f32) (main_arg11 : FVec F S4x64x64 .f32) (main_arg12 : FVec F S4x64 .f32) (main_arg13 : FVec F S4x64 .f32) (main_arg14 : FVec F S4x64 .f32) (main_arg15 : FVec F S64x64 .f32) (main_arg16 : FVec F S64 .f32) (main_arg17 : FVec F S64x10 .f32) (main_arg18 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4 .f32 := Host.absf main_arg6
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x64x64 .f32 := Host.absf main_arg7
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x3 .f32) (main_arg1 : FVec F S50000x3 .f32) (main_arg2 : IVec S2x800000 32) (main_arg3 : IVec S50000 32) (main_arg4 : FVec F S6x64 .f32) (main_arg5 : FVec F S64 .f32) (main_arg6 : FVec F S4 .f32) (main_arg7 : FVec F S4x64x64 .f32) (main_arg8 : FVec F S4x64 .f32) (main_arg9 : FVec F S4x64 .f32) (main_arg10 : FVec F S4x64 .f32) (main_arg11 : FVec F S4x64x64 .f32) (main_arg12 : FVec F S4x64 .f32) (main_arg13 : FVec F S4x64 .f32) (main_arg14 : FVec F S4x64 .f32) (main_arg15 : FVec F S64x64 .f32) (main_arg16 : FVec F S64 .f32) (main_arg17 : FVec F S64x10 .f32) (main_arg18 : FVec F S10 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S6x64 .f32 := Host.absf main_arg4
  let main_cst_2 : FVec F S_ .f32 := constant S_ .f32 0x7F800000#32
  let main_v10 : FVec F S6x64 .f32 := broadcastInDim S6x64 ![] bcast_S_S6x64 main_cst_2
  let main_v11 : IVec S6x64 1 := cmpf .olt main_v9 main_v10
  let main_c_3 : IVec S_ 1 := constantI S_ 1 1#1
  let main_v12 : IVec S_ 1 := (fun x v => Host.reduce IntOp.andi x v reducesTo_S6x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x3 : Shape := ⟨2, ![50000, 3]⟩
abbrev S2x800000 : Shape := ⟨2, ![2, 800000]⟩
abbrev S50000 : Shape := ⟨1, ![50000]⟩
abbrev S6x64 : Shape := ⟨2, ![6, 64]⟩
abbrev S64 : Shape := ⟨1, ![64]⟩
abbrev S4 : Shape := ⟨1, ![4]⟩
abbrev S4x64x64 : Shape := ⟨3, ![4, 64, 64]⟩
abbrev S4x64 : Shape := ⟨2, ![4, 64]⟩
abbrev S64x64 : Shape := ⟨2, ![64, 64]⟩
abbrev S64x10 : Shape := ⟨2, ![64, 10]⟩
abbrev S10 : Shape := ⟨1, ![10]⟩
abbrev S50000x6 : Shape := ⟨2, ![50000, 6]⟩
abbrev S1x64 : Shape := ⟨2, ![1, 64]⟩
abbrev S50000x64 : Shape := ⟨2, ![50000, 64]⟩
abbrev S5000x6 : Shape := ⟨2, ![5000, 6]⟩
abbrev S5000x64 : Shape := ⟨2, ![5000, 64]⟩
abbrev S1x800000 : Shape := ⟨2, ![1, 800000]⟩
abbrev S800000 : Shape := ⟨1, ![800000]⟩
abbrev S_ : Shape := ⟨0, ![]⟩
abbrev S1 : Shape := ⟨1, ![1]⟩
abbrev S800000x1 : Shape := ⟨2, ![800000, 1]⟩
abbrev S800000x64 : Shape := ⟨2, ![800000, 64]⟩
abbrev S1x64x64 : Shape := ⟨3, ![1, 64, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 235
  | .vmem => 152
  | .smem => 0
  | _ => 0

abbrev hbmTy0_0 (i : Nat) : BufTy := match i % 128 with
  | 0 => ⟨S50000x3, .f32⟩
  | 1 => ⟨S50000x3, .f32⟩
  | 2 => ⟨S2x800000, .i32⟩
  | 3 => ⟨S50000, .i32⟩
  | 4 => ⟨S6x64, .f32⟩
  | 5 => ⟨S64, .f32⟩
  | 6 => ⟨S4, .f32⟩
  | 7 => ⟨S4x64x64, .f32⟩
  | 8 => ⟨S4x64, .f32⟩
  | 9 => ⟨S4x64, .f32⟩
  | 10 => ⟨S4x64, .f32⟩
  | 11 => ⟨S4x64x64, .f32⟩
  | 12 => ⟨S4x64, .f32⟩
  | 13 => ⟨S4x64, .f32⟩
  | 14 => ⟨S4x64, .f32⟩
  | 15 => ⟨S64x64, .f32⟩
  | 16 => ⟨S64, .f32⟩
  | 17 => ⟨S64x10, .f32⟩
  | 18 => ⟨S10, .f32⟩
  | 19 => ⟨S50000x6, .f32⟩
  | 20 => ⟨S1x64, .f32⟩
  | 21 => ⟨S50000x64, .f32⟩
  | 22 => ⟨S1x800000, .i32⟩
  | 23 => ⟨S800000, .i32⟩
  | 24 => ⟨S1x800000, .i32⟩
  | 25 => ⟨S800000, .i32⟩
  | 26 => ⟨S_, .f32⟩
  | 27 => ⟨S1, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S1, .f32⟩
  | 42 => ⟨S_, .f32⟩
  | 43 => ⟨S1x64x64, .f32⟩
  | 44 => ⟨S64x64, .f32⟩
  | 45 => ⟨S1x64, .f32⟩
  | 46 => ⟨S64, .f32⟩
  | 47 => ⟨S_, .f32⟩
  | 48 => ⟨S_, .f32⟩
  | 49 => ⟨S1x64, .f32⟩
  | 50 => ⟨S1x64, .f32⟩
  | 51 => ⟨S50000x64, .f32⟩
  | 52 => ⟨S1x64, .f32⟩
  | 53 => ⟨S1x64, .f32⟩
  | 54 => ⟨S1x64, .f32⟩
  | 55 => ⟨S64, .f32⟩
  | 56 => ⟨S1x64, .f32⟩
  | 57 => ⟨S64, .f32⟩
  | 58 => ⟨S1x64x64, .f32⟩
  | 59 => ⟨S64x64, .f32⟩
  | 60 => ⟨S1x64, .f32⟩
  | 61 => ⟨S64, .f32⟩
  | 62 => ⟨S1x64, .f32⟩
  | 63 => ⟨S1x64, .f32⟩
  | 64 => ⟨S1x64, .f32⟩
  | 65 => ⟨S50000x64, .f32⟩
  | 66 => ⟨S1x64, .f32⟩
  | 67 => ⟨S1x64, .f32⟩
  | 68 => ⟨S1x64, .f32⟩
  | 69 => ⟨S64, .f32⟩
  | 70 => ⟨S1x64, .f32⟩
  | 71 => ⟨S64, .f32⟩
  | 72 => ⟨S1x64, .f32⟩
  | 73 => ⟨S1x64, .f32⟩
  | 74 => ⟨S50000x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S1, .f32⟩
  | 89 => ⟨S_, .f32⟩
  | 90 => ⟨S1x64x64, .f32⟩
  | 91 => ⟨S64x64, .f32⟩
  | 92 => ⟨S1x64, .f32⟩
  | 93 => ⟨S64, .f32⟩
  | 94 => ⟨S_, .f32⟩
  | 95 => ⟨S_, .f32⟩
  | 96 => ⟨S1x64, .f32⟩
  | 97 => ⟨S1x64, .f32⟩
  | 98 => ⟨S50000x64, .f32⟩
  | 99 => ⟨S1x64, .f32⟩
  | 100 => ⟨S1x64, .f32⟩
  | 101 => ⟨S1x64, .f32⟩
  | 102 => ⟨S64, .f32⟩
  | 103 => ⟨S1x64, .f32⟩
  | 104 => ⟨S64, .f32⟩
  | 105 => ⟨S1x64x64, .f32⟩
  | 106 => ⟨S64x64, .f32⟩
  | 107 => ⟨S1x64, .f32⟩
  | 108 => ⟨S64, .f32⟩
  | 109 => ⟨S1x64, .f32⟩
  | 110 => ⟨S1x64, .f32⟩
  | 111 => ⟨S1x64, .f32⟩
  | 112 => ⟨S50000x64, .f32⟩
  | 113 => ⟨S1x64, .f32⟩
  | 114 => ⟨S1x64, .f32⟩
  | 115 => ⟨S1x64, .f32⟩
  | 116 => ⟨S64, .f32⟩
  | 117 => ⟨S1x64, .f32⟩
  | 118 => ⟨S64, .f32⟩
  | 119 => ⟨S1x64, .f32⟩
  | 120 => ⟨S1x64, .f32⟩
  | 121 => ⟨S50000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x3, .f32⟩

abbrev hbmTy0_1 (i : Nat) : BufTy := match i % 128 with
  | 0 => ⟨S800000, .i32⟩
  | 1 => ⟨S800000x1, .i32⟩
  | 2 => ⟨S800000x64, .f32⟩
  | 3 => ⟨S_, .f32⟩
  | 4 => ⟨S50000x64, .f32⟩
  | 5 => ⟨S800000x1, .i32⟩
  | 6 => ⟨S50000x64, .f32⟩
  | 7 => ⟨S1, .f32⟩
  | 8 => ⟨S_, .f32⟩
  | 9 => ⟨S1x64x64, .f32⟩
  | 10 => ⟨S64x64, .f32⟩
  | 11 => ⟨S1x64, .f32⟩
  | 12 => ⟨S64, .f32⟩
  | 13 => ⟨S_, .f32⟩
  | 14 => ⟨S_, .f32⟩
  | 15 => ⟨S1x64, .f32⟩
  | 16 => ⟨S1x64, .f32⟩
  | 17 => ⟨S50000x64, .f32⟩
  | 18 => ⟨S1x64, .f32⟩
  | 19 => ⟨S1x64, .f32⟩
  | 20 => ⟨S1x64, .f32⟩
  | 21 => ⟨S64, .f32⟩
  | 22 => ⟨S1x64, .f32⟩
  | 23 => ⟨S64, .f32⟩
  | 24 => ⟨S1x64x64, .f32⟩
  | 25 => ⟨S64x64, .f32⟩
  | 26 => ⟨S1x64, .f32⟩
  | 27 => ⟨S64, .f32⟩
  | 28 => ⟨S1x64, .f32⟩
  | 29 => ⟨S1x64, .f32⟩
  | 30 => ⟨S1x64, .f32⟩
  | 31 => ⟨S50000x64, .f32⟩
  | 32 => ⟨S1x64, .f32⟩
  | 33 => ⟨S1x64, .f32⟩
  | 34 => ⟨S1x64, .f32⟩
  | 35 => ⟨S64, .f32⟩
  | 36 => ⟨S1x64, .f32⟩
  | 37 => ⟨S64, .f32⟩
  | 38 => ⟨S1x64, .f32⟩
  | 39 => ⟨S1x64, .f32⟩
  | 40 => ⟨S50000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S_, .f32⟩
  | 51 => ⟨S50000x64, .f32⟩
  | 52 => ⟨S800000x1, .i32⟩
  | 53 => ⟨S50000x64, .f32⟩
  | 54 => ⟨S1, .f32⟩
  | 55 => ⟨S_, .f32⟩
  | 56 => ⟨S1x64x64, .f32⟩
  | 57 => ⟨S64x64, .f32⟩
  | 58 => ⟨S1x64, .f32⟩
  | 59 => ⟨S64, .f32⟩
  | 60 => ⟨S_, .f32⟩
  | 61 => ⟨S_, .f32⟩
  | 62 => ⟨S1x64, .f32⟩
  | 63 => ⟨S1x64, .f32⟩
  | 64 => ⟨S50000x64, .f32⟩
  | 65 => ⟨S1x64, .f32⟩
  | 66 => ⟨S1x64, .f32⟩
  | 67 => ⟨S1x64, .f32⟩
  | 68 => ⟨S64, .f32⟩
  | 69 => ⟨S1x64, .f32⟩
  | 70 => ⟨S64, .f32⟩
  | 71 => ⟨S1x64x64, .f32⟩
  | 72 => ⟨S64x64, .f32⟩
  | 73 => ⟨S1x64, .f32⟩
  | 74 => ⟨S64, .f32⟩
  | 75 => ⟨S1x64, .f32⟩
  | 76 => ⟨S1x64, .f32⟩
  | 77 => ⟨S1x64, .f32⟩
  | 78 => ⟨S50000x64, .f32⟩
  | 79 => ⟨S1x64, .f32⟩
  | 80 => ⟨S1x64, .f32⟩
  | 81 => ⟨S1x64, .f32⟩
  | 82 => ⟨S64, .f32⟩
  | 83 => ⟨S1x64, .f32⟩
  | 84 => ⟨S64, .f32⟩
  | 85 => ⟨S1x64, .f32⟩
  | 86 => ⟨S1x64, .f32⟩
  | 87 => ⟨S50000x64, .f32⟩
  | 88 => ⟨S_, .f32⟩
  | 89 => ⟨S512x64, .f32⟩
  | 90 => ⟨S50000x1, .i32⟩
  | 91 => ⟨S512x64, .f32⟩
  | 92 => ⟨S_, .f32⟩
  | 93 => ⟨S50000, .f32⟩
  | 94 => ⟨S_, .f32⟩
  | 95 => ⟨S512, .f32⟩
  | 96 => ⟨S50000x1, .i32⟩
  | 97 => ⟨S512, .f32⟩
  | 98 => ⟨S_, .f32⟩
  | 99 => ⟨S512, .f32⟩
  | 100 => ⟨S512, .f32⟩
  | 101 => ⟨S512x1, .f32⟩
  | 102 => ⟨S512x64, .f32⟩
  | 103 => ⟨S512x64, .f32⟩
  | 104 => ⟨S1x64, .f32⟩
  | 105 => ⟨S1x10, .f32⟩
  | 106 => ⟨S512x10, .f32⟩
  | _ => ⟨S50000x3, .f32⟩

abbrev hbmTy (i : Nat) : BufTy := match i / 128 with
  | 0 => hbmTy0_0 i
  | 1 => hbmTy0_1 i
  | _ => ⟨S50000x3, .f32⟩

abbrev vmemTy0_0 (i : Nat) : BufTy := match i % 128 with
  | 0 => ⟨S5000x6, .f32⟩
  | 1 => ⟨S5000x6, .f32⟩
  | 2 => ⟨S6x64, .f32⟩
  | 3 => ⟨S1x64, .f32⟩
  | 4 => ⟨S5000x64, .f32⟩
  | 5 => ⟨S5000x64, .f32⟩
  | 6 => ⟨S5000x64, .f32⟩
  | 7 => ⟨S5000x64, .f32⟩
  | 8 => ⟨S5000x64, .f32⟩
  | 9 => ⟨S5000x64, .f32⟩
  | 10 => ⟨S1x64, .f32⟩
  | 11 => ⟨S64x64, .f32⟩
  | 12 => ⟨S1x64, .f32⟩
  | 13 => ⟨S5000x64, .f32⟩
  | 14 => ⟨S5000x64, .f32⟩
  | 15 => ⟨S1x64, .f32⟩
  | 16 => ⟨S1x64, .f32⟩
  | 17 => ⟨S1x64, .f32⟩
  | 18 => ⟨S1x64, .f32⟩
  | 19 => ⟨S5000x64, .f32⟩
  | 20 => ⟨S5000x64, .f32⟩
  | 21 => ⟨S1x64, .f32⟩
  | 22 => ⟨S1x64, .f32⟩
  | 23 => ⟨S1x64, .f32⟩
  | 24 => ⟨S1x64, .f32⟩
  | 25 => ⟨S64x64, .f32⟩
  | 26 => ⟨S1x64, .f32⟩
  | 27 => ⟨S5000x64, .f32⟩
  | 28 => ⟨S5000x64, .f32⟩
  | 29 => ⟨S1x64, .f32⟩
  | 30 => ⟨S1x64, .f32⟩
  | 31 => ⟨S1x64, .f32⟩
  | 32 => ⟨S1x64, .f32⟩
  | 33 => ⟨S5000x64, .f32⟩
  | 34 => ⟨S5000x64, .f32⟩
  | 35 => ⟨S1x64, .f32⟩
  | 36 => ⟨S1x64, .f32⟩
  | 37 => ⟨S1x64, .f32⟩
  | 38 => ⟨S1x64, .f32⟩
  | 39 => ⟨S5000x64, .f32⟩
  | 40 => ⟨S5000x64, .f32⟩
  | 41 => ⟨S5000x64, .f32⟩
  | 42 => ⟨S5000x64, .f32⟩
  | 43 => ⟨S5000x64, .f32⟩
  | 44 => ⟨S5000x64, .f32⟩
  | 45 => ⟨S1x64, .f32⟩
  | 46 => ⟨S64x64, .f32⟩
  | 47 => ⟨S1x64, .f32⟩
  | 48 => ⟨S5000x64, .f32⟩
  | 49 => ⟨S5000x64, .f32⟩
  | 50 => ⟨S1x64, .f32⟩
  | 51 => ⟨S1x64, .f32⟩
  | 52 => ⟨S1x64, .f32⟩
  | 53 => ⟨S1x64, .f32⟩
  | 54 => ⟨S5000x64, .f32⟩
  | 55 => ⟨S5000x64, .f32⟩
  | 56 => ⟨S1x64, .f32⟩
  | 57 => ⟨S1x64, .f32⟩
  | 58 => ⟨S1x64, .f32⟩
  | 59 => ⟨S1x64, .f32⟩
  | 60 => ⟨S64x64, .f32⟩
  | 61 => ⟨S1x64, .f32⟩
  | 62 => ⟨S5000x64, .f32⟩
  | 63 => ⟨S5000x64, .f32⟩
  | 64 => ⟨S1x64, .f32⟩
  | 65 => ⟨S1x64, .f32⟩
  | 66 => ⟨S1x64, .f32⟩
  | 67 => ⟨S1x64, .f32⟩
  | 68 => ⟨S5000x64, .f32⟩
  | 69 => ⟨S5000x64, .f32⟩
  | 70 => ⟨S1x64, .f32⟩
  | 71 => ⟨S1x64, .f32⟩
  | 72 => ⟨S1x64, .f32⟩
  | 73 => ⟨S1x64, .f32⟩
  | 74 => ⟨S5000x64, .f32⟩
  | 75 => ⟨S5000x64, .f32⟩
  | 76 => ⟨S5000x64, .f32⟩
  | 77 => ⟨S5000x64, .f32⟩
  | 78 => ⟨S5000x64, .f32⟩
  | 79 => ⟨S5000x64, .f32⟩
  | 80 => ⟨S1x64, .f32⟩
  | 81 => ⟨S64x64, .f32⟩
  | 82 => ⟨S1x64, .f32⟩
  | 83 => ⟨S5000x64, .f32⟩
  | 84 => ⟨S5000x64, .f32⟩
  | 85 => ⟨S1x64, .f32⟩
  | 86 => ⟨S1x64, .f32⟩
  | 87 => ⟨S1x64, .f32⟩
  | 88 => ⟨S1x64, .f32⟩
  | 89 => ⟨S5000x64, .f32⟩
  | 90 => ⟨S5000x64, .f32⟩
  | 91 => ⟨S1x64, .f32⟩
  | 92 => ⟨S1x64, .f32⟩
  | 93 => ⟨S1x64, .f32⟩
  | 94 => ⟨S1x64, .f32⟩
  | 95 => ⟨S64x64, .f32⟩
  | 96 => ⟨S1x64, .f32⟩
  | 97 => ⟨S5000x64, .f32⟩
  | 98 => ⟨S5000x64, .f32⟩
  | 99 => ⟨S1x64, .f32⟩
  | 100 => ⟨S1x64, .f32⟩
  | 101 => ⟨S1x64, .f32⟩
  | 102 => ⟨S1x64, .f32⟩
  | 103 => ⟨S5000x64, .f32⟩
  | 104 => ⟨S5000x64, .f32⟩
  | 105 => ⟨S1x64, .f32⟩
  | 106 => ⟨S1x64, .f32⟩
  | 107 => ⟨S1x64, .f32⟩
  | 108 => ⟨S1x64, .f32⟩
  | 109 => ⟨S5000x64, .f32⟩
  | 110 => ⟨S5000x64, .f32⟩
  | 111 => ⟨S5000x64, .f32⟩
  | 112 => ⟨S5000x64, .f32⟩
  | 113 => ⟨S5000x64, .f32⟩
  | 114 => ⟨S5000x64, .f32⟩
  | 115 => ⟨S1x64, .f32⟩
  | 116 => ⟨S64x64, .f32⟩
  | 117 => ⟨S1x64, .f32⟩
  | 118 => ⟨S5000x64, .f32⟩
  | 119 => ⟨S5000x64, .f32⟩
  | 120 => ⟨S1x64, .f32⟩
  | 121 => ⟨S1x64, .f32⟩
  | 122 => ⟨S1x64, .f32⟩
  | 123 => ⟨S1x64, .f32⟩
  | 124 => ⟨S5000x64, .f32⟩
  | 125 => ⟨S5000x64, .f32⟩
  | 126 => ⟨S1x64, .f32⟩
  | 127 => ⟨S1x64, .f32⟩
  | _ => ⟨S50000x3, .f32⟩

abbrev vmemTy0_1 (i : Nat) : BufTy := match i % 128 with
  | 0 => ⟨S1x64, .f32⟩
  | 1 => ⟨S1x64, .f32⟩
  | 2 => ⟨S64x64, .f32⟩
  | 3 => ⟨S1x64, .f32⟩
  | 4 => ⟨S5000x64, .f32⟩
  | 5 => ⟨S5000x64, .f32⟩
  | 6 => ⟨S1x64, .f32⟩
  | 7 => ⟨S1x64, .f32⟩
  | 8 => ⟨S1x64, .f32⟩
  | 9 => ⟨S1x64, .f32⟩
  | 10 => ⟨S5000x64, .f32⟩
  | 11 => ⟨S5000x64, .f32⟩
  | 12 => ⟨S1x64, .f32⟩
  | 13 => ⟨S1x64, .f32⟩
  | 14 => ⟨S1x64, .f32⟩
  | 15 => ⟨S1x64, .f32⟩
  | 16 => ⟨S5000x64, .f32⟩
  | 17 => ⟨S5000x64, .f32⟩
  | 18 => ⟨S512x64, .f32⟩
  | 19 => ⟨S64x64, .f32⟩
  | 20 => ⟨S1x64, .f32⟩
  | 21 => ⟨S64x10, .f32⟩
  | 22 => ⟨S1x10, .f32⟩
  | 23 => ⟨S512x10, .f32⟩
  | _ => ⟨S50000x3, .f32⟩

abbrev vmemTy (i : Nat) : BufTy := match i / 128 with
  | 0 => vmemTy0_0 i
  | 1 => vmemTy0_1 i
  | _ => ⟨S50000x3, .f32⟩

abbrev bufTy : (tb : Table) → Fin (tcTables nBuf tb) → BufTy
  | .hbm, ⟨i, _⟩ => hbmTy i
  | .local _ .vmem, ⟨i, _⟩ => vmemTy i
  | _, _ => ⟨S50000x3, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 136 → Bool
  | ⟨i, _⟩ => dmaSemScopedAt i

abbrev sig : RefSig :=
  ofTc nBuf bufTy 0 136 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27_0 : Ref sig .tc := ⟨.hbm, 51, rfl⟩
abbrev main_v27_1 : Ref sig .tc := ⟨.hbm, 52, rfl⟩
abbrev main_v27_2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39_0 : Ref sig .tc := ⟨.hbm, 65, rfl⟩
abbrev main_v39_1 : Ref sig .tc := ⟨.hbm, 66, rfl⟩
abbrev main_v39_2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_3 : Ref sig .tc := ⟨.hbm, 75, rfl⟩
abbrev main_v47 : Ref sig .tc := ⟨.hbm, 76, rfl⟩
abbrev main_v48 : Ref sig .tc := ⟨.hbm, 77, rfl⟩
abbrev main_c_4 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_5 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_6 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66_0 : Ref sig .tc := ⟨.hbm, 98, rfl⟩
abbrev main_v66_1 : Ref sig .tc := ⟨.hbm, 99, rfl⟩
abbrev main_v66_2 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78_0 : Ref sig .tc := ⟨.hbm, 112, rfl⟩
abbrev main_v78_1 : Ref sig .tc := ⟨.hbm, 113, rfl⟩
abbrev main_v78_2 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_7 : Ref sig .tc := ⟨.hbm, 122, rfl⟩
abbrev main_v86 : Ref sig .tc := ⟨.hbm, 123, rfl⟩
abbrev main_v87 : Ref sig .tc := ⟨.hbm, 124, rfl⟩
abbrev main_c_8 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_9 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_10 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105_0 : Ref sig .tc := ⟨.hbm, 145, rfl⟩
abbrev main_v105_1 : Ref sig .tc := ⟨.hbm, 146, rfl⟩
abbrev main_v105_2 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117_0 : Ref sig .tc := ⟨.hbm, 159, rfl⟩
abbrev main_v117_1 : Ref sig .tc := ⟨.hbm, 160, rfl⟩
abbrev main_v117_2 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_c_11 : Ref sig .tc := ⟨.hbm, 169, rfl⟩
abbrev main_v125 : Ref sig .tc := ⟨.hbm, 170, rfl⟩
abbrev main_v126 : Ref sig .tc := ⟨.hbm, 171, rfl⟩
abbrev main_c_12 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_13 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_14 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144_0 : Ref sig .tc := ⟨.hbm, 192, rfl⟩
abbrev main_v144_1 : Ref sig .tc := ⟨.hbm, 193, rfl⟩
abbrev main_v144_2 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156_0 : Ref sig .tc := ⟨.hbm, 206, rfl⟩
abbrev main_v156_1 : Ref sig .tc := ⟨.hbm, 207, rfl⟩
abbrev main_v156_2 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_15 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_16 : Ref sig .tc := ⟨.hbm, 220, rfl⟩
abbrev main_v167 : Ref sig .tc := ⟨.hbm, 221, rfl⟩
abbrev main_cst_17 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_18 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg9_0 : Ref sig .tc := ⟨.vmem, 30, rfl⟩
abbrev cc2_scratch0 : Ref sig .tc := ⟨.vmem, 31, rfl⟩
abbrev cc2_scratch1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg5_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc4_stg6_0 : Ref sig .tc := ⟨.vmem, 50, rfl⟩
abbrev cc4_stg7_0 : Ref sig .tc := ⟨.vmem, 51, rfl⟩
abbrev cc4_scratch0 : Ref sig .tc := ⟨.vmem, 52, rfl⟩
abbrev cc4_scratch1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc5_stg7_1 : Ref sig .tc := ⟨.vmem, 63, rfl⟩
abbrev cc5_stg8_0 : Ref sig .tc := ⟨.vmem, 64, rfl⟩
abbrev cc5_stg9_0 : Ref sig .tc := ⟨.vmem, 65, rfl⟩
abbrev cc5_scratch0 : Ref sig .tc := ⟨.vmem, 66, rfl⟩
abbrev cc5_scratch1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg2_0 : Ref sig .tc := ⟨.vmem, 71, rfl⟩
abbrev cc6_stg3_0 : Ref sig .tc := ⟨.vmem, 72, rfl⟩
abbrev cc6_stg4_0 : Ref sig .tc := ⟨.vmem, 73, rfl⟩
abbrev cc6_stg5_0 : Ref sig .tc := ⟨.vmem, 74, rfl⟩
abbrev cc6_stg5_1 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg1_1 : Ref sig .tc := ⟨.vmem, 79, rfl⟩
abbrev cc7_stg2_0 : Ref sig .tc := ⟨.vmem, 80, rfl⟩
abbrev cc7_stg3_0 : Ref sig .tc := ⟨.vmem, 81, rfl⟩
abbrev cc7_stg4_0 : Ref sig .tc := ⟨.vmem, 82, rfl⟩
abbrev cc7_stg5_0 : Ref sig .tc := ⟨.vmem, 83, rfl⟩
abbrev cc7_stg5_1 : Ref sig .tc := ⟨.vmem, 84, rfl⟩
abbrev cc7_stg6_0 : Ref sig .tc := ⟨.vmem, 85, rfl⟩
abbrev cc7_stg7_0 : Ref sig .tc := ⟨.vmem, 86, rfl⟩
abbrev cc7_scratch0 : Ref sig .tc := ⟨.vmem, 87, rfl⟩
abbrev cc7_scratch1 : Ref sig .tc := ⟨.vmem, 88, rfl⟩
abbrev cc8_stg0_0 : Ref sig .tc := ⟨.vmem, 89, rfl⟩
abbrev cc8_stg0_1 : Ref sig .tc := ⟨.vmem, 90, rfl⟩
abbrev cc8_stg1_0 : Ref sig .tc := ⟨.vmem, 91, rfl⟩
abbrev cc8_stg2_0 : Ref sig .tc := ⟨.vmem, 92, rfl⟩
abbrev cc8_stg3_0 : Ref sig .tc := ⟨.vmem, 93, rfl⟩
abbrev cc8_stg4_0 : Ref sig .tc := ⟨.vmem, 94, rfl⟩
abbrev cc8_stg5_0 : Ref sig .tc := ⟨.vmem, 95, rfl⟩
abbrev cc8_stg6_0 : Ref sig .tc := ⟨.vmem, 96, rfl⟩
abbrev cc8_stg7_0 : Ref sig .tc := ⟨.vmem, 97, rfl⟩
abbrev cc8_stg7_1 : Ref sig .tc := ⟨.vmem, 98, rfl⟩
abbrev cc8_stg8_0 : Ref sig .tc := ⟨.vmem, 99, rfl⟩
abbrev cc8_stg9_0 : Ref sig .tc := ⟨.vmem, 100, rfl⟩
abbrev cc8_scratch0 : Ref sig .tc := ⟨.vmem, 101, rfl⟩
abbrev cc8_scratch1 : Ref sig .tc := ⟨.vmem, 102, rfl⟩
abbrev cc9_stg0_0 : Ref sig .tc := ⟨.vmem, 103, rfl⟩
abbrev cc9_stg0_1 : Ref sig .tc := ⟨.vmem, 104, rfl⟩
abbrev cc9_stg1_0 : Ref sig .tc := ⟨.vmem, 105, rfl⟩
abbrev cc9_stg2_0 : Ref sig .tc := ⟨.vmem, 106, rfl⟩
abbrev cc9_stg3_0 : Ref sig .tc := ⟨.vmem, 107, rfl⟩
abbrev cc9_stg4_0 : Ref sig .tc := ⟨.vmem, 108, rfl⟩
abbrev cc9_stg5_0 : Ref sig .tc := ⟨.vmem, 109, rfl⟩
abbrev cc9_stg5_1 : Ref sig .tc := ⟨.vmem, 110, rfl⟩
abbrev cc10_stg0_0 : Ref sig .tc := ⟨.vmem, 111, rfl⟩
abbrev cc10_stg0_1 : Ref sig .tc := ⟨.vmem, 112, rfl⟩
abbrev cc10_stg1_0 : Ref sig .tc := ⟨.vmem, 113, rfl⟩
abbrev cc10_stg1_1 : Ref sig .tc := ⟨.vmem, 114, rfl⟩
abbrev cc10_stg2_0 : Ref sig .tc := ⟨.vmem, 115, rfl⟩
abbrev cc10_stg3_0 : Ref sig .tc := ⟨.vmem, 116, rfl⟩
abbrev cc10_stg4_0 : Ref sig .tc := ⟨.vmem, 117, rfl⟩
abbrev cc10_stg5_0 : Ref sig .tc := ⟨.vmem, 118, rfl⟩
abbrev cc10_stg5_1 : Ref sig .tc := ⟨.vmem, 119, rfl⟩
abbrev cc10_stg6_0 : Ref sig .tc := ⟨.vmem, 120, rfl⟩
abbrev cc10_stg7_0 : Ref sig .tc := ⟨.vmem, 121, rfl⟩
abbrev cc10_scratch0 : Ref sig .tc := ⟨.vmem, 122, rfl⟩
abbrev cc10_scratch1 : Ref sig .tc := ⟨.vmem, 123, rfl⟩
abbrev cc11_stg0_0 : Ref sig .tc := ⟨.vmem, 124, rfl⟩
abbrev cc11_stg0_1 : Ref sig .tc := ⟨.vmem, 125, rfl⟩
abbrev cc11_stg1_0 : Ref sig .tc := ⟨.vmem, 126, rfl⟩
abbrev cc11_stg2_0 : Ref sig .tc := ⟨.vmem, 127, rfl⟩
abbrev cc11_stg3_0 : Ref sig .tc := ⟨.vmem, 128, rfl⟩
abbrev cc11_stg4_0 : Ref sig .tc := ⟨.vmem, 129, rfl⟩
abbrev cc11_stg5_0 : Ref sig .tc := ⟨.vmem, 130, rfl⟩
abbrev cc11_stg6_0 : Ref sig .tc := ⟨.vmem, 131, rfl⟩
abbrev cc11_stg7_0 : Ref sig .tc := ⟨.vmem, 132, rfl⟩
abbrev cc11_stg7_1 : Ref sig .tc := ⟨.vmem, 133, rfl⟩
abbrev cc11_stg8_0 : Ref sig .tc := ⟨.vmem, 134, rfl⟩
abbrev cc11_stg9_0 : Ref sig .tc := ⟨.vmem, 135, rfl⟩
abbrev cc11_scratch0 : Ref sig .tc := ⟨.vmem, 136, rfl⟩
abbrev cc11_scratch1 : Ref sig .tc := ⟨.vmem, 137, rfl⟩
abbrev cc12_stg0_0 : Ref sig .tc := ⟨.vmem, 138, rfl⟩
abbrev cc12_stg0_1 : Ref sig .tc := ⟨.vmem, 139, rfl⟩
abbrev cc12_stg1_0 : Ref sig .tc := ⟨.vmem, 140, rfl⟩
abbrev cc12_stg2_0 : Ref sig .tc := ⟨.vmem, 141, rfl⟩
abbrev cc12_stg3_0 : Ref sig .tc := ⟨.vmem, 142, rfl⟩
abbrev cc12_stg4_0 : Ref sig .tc := ⟨.vmem, 143, rfl⟩
abbrev cc12_stg5_0 : Ref sig .tc := ⟨.vmem, 144, rfl⟩
abbrev cc12_stg5_1 : Ref sig .tc := ⟨.vmem, 145, rfl⟩
abbrev cc13_stg0_0 : Ref sig .tc := ⟨.vmem, 146, rfl⟩
abbrev cc13_stg1_0 : Ref sig .tc := ⟨.vmem, 147, rfl⟩
abbrev cc13_stg2_0 : Ref sig .tc := ⟨.vmem, 148, rfl⟩
abbrev cc13_stg3_0 : Ref sig .tc := ⟨.vmem, 149, rfl⟩
abbrev cc13_stg4_0 : Ref sig .tc := ⟨.vmem, 150, rfl⟩
abbrev cc13_stg5_0 : Ref sig .tc := ⟨.vmem, 151, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26
abbrev cc2_sem8_0 : DmaSem sig := 27
abbrev cc2_sem9_0 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem5_1 : DmaSem sig := 45
abbrev cc4_sem6_0 : DmaSem sig := 46
abbrev cc4_sem7_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem7_0 : DmaSem sig := 56
abbrev cc5_sem7_1 : DmaSem sig := 57
abbrev cc5_sem8_0 : DmaSem sig := 58
abbrev cc5_sem9_0 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem5_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem5_1 : DmaSem sig := 76
abbrev cc7_sem6_0 : DmaSem sig := 77
abbrev cc7_sem7_0 : DmaSem sig := 78
abbrev cc8_sem0_0 : DmaSem sig := 79
abbrev cc8_sem0_1 : DmaSem sig := 80
abbrev cc8_sem1_0 : DmaSem sig := 81
abbrev cc8_sem2_0 : DmaSem sig := 82
abbrev cc8_sem3_0 : DmaSem sig := 83
abbrev cc8_sem4_0 : DmaSem sig := 84
abbrev cc8_sem5_0 : DmaSem sig := 85
abbrev cc8_sem6_0 : DmaSem sig := 86
abbrev cc8_sem7_0 : DmaSem sig := 87
abbrev cc8_sem7_1 : DmaSem sig := 88
abbrev cc8_sem8_0 : DmaSem sig := 89
abbrev cc8_sem9_0 : DmaSem sig := 90
abbrev cc9_sem0_0 : DmaSem sig := 91
abbrev cc9_sem0_1 : DmaSem sig := 92
abbrev cc9_sem1_0 : DmaSem sig := 93
abbrev cc9_sem2_0 : DmaSem sig := 94
abbrev cc9_sem3_0 : DmaSem sig := 95
abbrev cc9_sem4_0 : DmaSem sig := 96
abbrev cc9_sem5_0 : DmaSem sig := 97
abbrev cc9_sem5_1 : DmaSem sig := 98
abbrev cc10_sem0_0 : DmaSem sig := 99
abbrev cc10_sem0_1 : DmaSem sig := 100
abbrev cc10_sem1_0 : DmaSem sig := 101
abbrev cc10_sem1_1 : DmaSem sig := 102
abbrev cc10_sem2_0 : DmaSem sig := 103
abbrev cc10_sem3_0 : DmaSem sig := 104
abbrev cc10_sem4_0 : DmaSem sig := 105
abbrev cc10_sem5_0 : DmaSem sig := 106
abbrev cc10_sem5_1 : DmaSem sig := 107
abbrev cc10_sem6_0 : DmaSem sig := 108
abbrev cc10_sem7_0 : DmaSem sig := 109
abbrev cc11_sem0_0 : DmaSem sig := 110
abbrev cc11_sem0_1 : DmaSem sig := 111
abbrev cc11_sem1_0 : DmaSem sig := 112
abbrev cc11_sem2_0 : DmaSem sig := 113
abbrev cc11_sem3_0 : DmaSem sig := 114
abbrev cc11_sem4_0 : DmaSem sig := 115
abbrev cc11_sem5_0 : DmaSem sig := 116
abbrev cc11_sem6_0 : DmaSem sig := 117
abbrev cc11_sem7_0 : DmaSem sig := 118
abbrev cc11_sem7_1 : DmaSem sig := 119
abbrev cc11_sem8_0 : DmaSem sig := 120
abbrev cc11_sem9_0 : DmaSem sig := 121
abbrev cc12_sem0_0 : DmaSem sig := 122
abbrev cc12_sem0_1 : DmaSem sig := 123
abbrev cc12_sem1_0 : DmaSem sig := 124
abbrev cc12_sem2_0 : DmaSem sig := 125
abbrev cc12_sem3_0 : DmaSem sig := 126
abbrev cc12_sem4_0 : DmaSem sig := 127
abbrev cc12_sem5_0 : DmaSem sig := 128
abbrev cc12_sem5_1 : DmaSem sig := 129
abbrev cc13_sem0_0 : DmaSem sig := 130
abbrev cc13_sem1_0 : DmaSem sig := 131
abbrev cc13_sem2_0 : DmaSem sig := 132
abbrev cc13_sem3_0 : DmaSem sig := 133
abbrev cc13_sem4_0 : DmaSem sig := 134
abbrev cc13_sem5_0 : DmaSem sig := 135

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v37 : BitVec 1 := Scalar.cmpi .eq arg0 c9_i32
  let v38 : BitVec 32 := Scalar.extui v37
  let c0_i32_22 : BitVec 32 := 0#32
  let v39 : BitVec 1 := Scalar.cmpi .ne v38 c0_i32_22
  v39

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v57 : BitVec 1 := Scalar.cmpi .eq arg0 c9_i32
  let v58 : BitVec 32 := Scalar.extui v57
  let c0_i32_30 : BitVec 32 := 0#32
  let v59 : BitVec 1 := Scalar.cmpi .ne v58 c0_i32_30
  v59

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v37 : BitVec 1 := Scalar.cmpi .eq arg0 c9_i32
  let v38 : BitVec 32 := Scalar.extui v37
  let c0_i32_22 : BitVec 32 := 0#32
  let v39 : BitVec 1 := Scalar.cmpi .ne v38 c0_i32_22
  v39

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v57 : BitVec 1 := Scalar.cmpi .eq arg0 c9_i32
  let v58 : BitVec 32 := Scalar.extui v57
  let c0_i32_30 : BitVec 32 := 0#32
  let v59 : BitVec 1 := Scalar.cmpi .ne v58 c0_i32_30
  v59

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v37 : BitVec 1 := Scalar.cmpi .eq arg0 c9_i32
  let v38 : BitVec 32 := Scalar.extui v37
  let c0_i32_22 : BitVec 32 := 0#32
  let v39 : BitVec 1 := Scalar.cmpi .ne v38 c0_i32_22
  v39

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v57 : BitVec 1 := Scalar.cmpi .eq arg0 c9_i32
  let v58 : BitVec 32 := Scalar.extui v57
  let c0_i32_30 : BitVec 32 := 0#32
  let v59 : BitVec 1 := Scalar.cmpi .ne v58 c0_i32_30
  v59

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x64 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 1 → Memref sig .tc .vmem S1x64 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x64 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v37 : BitVec 1 := Scalar.cmpi .eq arg0 c9_i32
  let v38 : BitVec 32 := Scalar.extui v37
  let c0_i32_22 : BitVec 32 := 0#32
  let v39 : BitVec 1 := Scalar.cmpi .ne v38 c0_i32_22
  v39

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x64 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev grid11 : Pipeline.Grid := ⟨1, ![10], ![false]⟩

def k11_cond2 (i : grid11.Coords) : BitVec 1 :=
  let arg0 : BitVec 32 := BitVec.ofNat 32 (i 0).val
  let c9_i32 : BitVec 32 := 9#32
  let v57 : BitVec 1 := Scalar.cmpi .eq arg0 c9_i32
  let v58 : BitVec 32 := Scalar.extui v57
  let c0_i32_30 : BitVec 32 := 0#32
  let v59 : BitVec 1 := Scalar.cmpi .ne v58 c0_i32_30
  v59

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x64 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S5000x64 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 1 → Memref sig .tc .vmem S1x64 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S1x64 .f32 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 1 → Memref sig .tc .vmem S512x64 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 1 → Memref sig .tc .vmem S64x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S64x10 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x10 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S512x10 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

class Facts₀ : Prop where
  concatenates_S50000x3_S50000x3_S50000x6_d1 : Shape.Concatenates [S50000x3, S50000x3] S50000x6 1
  shapeCasts_S64_S1x64 : S64.ShapeCasts S1x64
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S1 : S_.BroadcastsInDim S1 (![] : Fin 0 → Fin S1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S4_S1_0 : S4.Slices ![0] S1
  shapeCasts_S1_S_ : S1.ShapeCasts S_
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S_S1x64 : S_.BroadcastsInDim S1x64 (![] : Fin 0 → Fin S1x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S5000x64_S64 : S5000x64.Reduces [0] S64
  slices_S4_S1_1 : S4.Slices ![1] S1
  slices_S4x64x64_S1x64x64_1_0_0 : S4x64x64.Slices ![1, 0, 0] S1x64x64
  slices_S4x64_S1x64_1_0 : S4x64.Slices ![1, 0] S1x64
  slices_S4_S1_2 : S4.Slices ![2] S1
  slices_S4x64x64_S1x64x64_2_0_0 : S4x64x64.Slices ![2, 0, 0] S1x64x64
  slices_S4x64_S1x64_2_0 : S4x64.Slices ![2, 0] S1x64
  slices_S4_S1_3 : S4.Slices ![3] S1
  slices_S4x64x64_S1x64x64_3_0_0 : S4x64x64.Slices ![3, 0, 0] S1x64x64
  slices_S4x64_S1x64_3_0 : S4x64.Slices ![3, 0] S1x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S5000x6_S6x64_S5000x64_1_0_0_1_n_n_wf : DotDims.WF S5000x6 S6x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S50000x6.size a
  hwx0_0 : ∀ i : grid0.Coords, EltTy.bits .f32 = 32 ∨ (Rect.block (s := S50000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S50000x64.size a
  hwx5_7 : ∀ i : grid5.Coords, EltTy.bits .f32 = 32 ∨ (Rect.block (s := S50000x64) S5000x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x64.size a ≤ S1x64.size a
  hwx5_9 : ∀ i : grid5.Coords, EltTy.bits .f32 = 32 ∨ (Rect.block (s := S1x64) S1x64.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x64.size a ≤ S1x64.size a
  hwx7_7 : ∀ i : grid7.Coords, EltTy.bits .f32 = 32 ∨ (Rect.block (s := S1x64) S1x64.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x64.size a ≤ S50000x64.size a
  hwx8_7 : ∀ i : grid8.Coords, EltTy.bits .f32 = 32 ∨ (Rect.block (s := S50000x64) S5000x64.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x64.size a ≤ S1x64.size a
  hwx8_8 : ∀ i : grid8.Coords, EltTy.bits .f32 = 32 ∨ (Rect.block (s := S1x64) S1x64.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x64.size a ≤ S1x64.size a
  hwx8_9 : ∀ i : grid8.Coords, EltTy.bits .f32 = 32 ∨ (Rect.block (s := S1x64) S1x64.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S50000x64.size a
  hwx9_5 : ∀ i : grid9.Coords, EltTy.bits .f32 = 32 ∨ (Rect.block (s := S50000x64) S5000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S50000x64.size a
  hwx10_1 : ∀ i : grid10.Coords, EltTy.bits .f32 = 32 ∨ (Rect.block (s := S50000x64) S5000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x64.size a ≤ S50000x64.size a
  hwx10_5 : ∀ i : grid10.Coords, EltTy.bits .f32 = 32 ∨ (Rect.block (s := S50000x64) S5000x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x64.size a ≤ S1x64.size a
  hwx10_7 : ∀ i : grid10.Coords, EltTy.bits .f32 = 32 ∨ (Rect.block (s := S1x64) S1x64.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S64x64.size a ≤ S64x64.size a
  hwx11_5 : ∀ i : grid11.Coords, EltTy.bits .f32 = 32 ∨ (Rect.block (s := S64x64) S64x64.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x64.size a ≤ S1x64.size a
  hwx11_6 : ∀ i : grid11.Coords, EltTy.bits .f32 = 32 ∨ (Rect.block (s := S1x64) S1x64.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S5000x64.size a ≤ S50000x64.size a
  hwx11_7 : ∀ i : grid11.Coords, EltTy.bits .f32 = 32 ∨ (Rect.block (s := S50000x64) S5000x64.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S1x64.size a ≤ S1x64.size a
  hwx11_8 : ∀ i : grid11.Coords, EltTy.bits .f32 = 32 ∨ (Rect.block (s := S1x64) S1x64.size (cc11_transform_8 i) (hinb11_8 i)).WholeWords (EltTy.packing .f32)
  hstage11_9 : ∀ j, (stage11_9 j).IsWhole
  nbuf11_9 : grid11.bufCount reads11_9 true = 1
  hreads11_9 : ∀ i i' : grid11.Coords, (∀ a, reads11_9 a = true → i a = i' a) → cc11_transform_9 i = cc11_transform_9 i'
  hinb11_9 : ∀ (i : grid11.Coords) a, (cc11_transform_9 i a + 1) * S1x64.size a ≤ S1x64.size a
  hwx11_9 : ∀ i : grid11.Coords, EltTy.bits .f32 = 32 ∨ (Rect.block (s := S1x64) S1x64.size (cc11_transform_9 i) (hinb11_9 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .f32 = 32 ∨ (Rect.block (s := S50000x64) S5000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x64.size a ≤ S1x64.size a
  hwx12_1 : ∀ i : grid12.Coords, EltTy.bits .f32 = 32 ∨ (Rect.block (s := S1x64) S1x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x64.size a ≤ S50000x64.size a
  hwx12_5 : ∀ i : grid12.Coords, EltTy.bits .f32 = 32 ∨ (Rect.block (s := S50000x64) S5000x64.size (cc12_transform_5 i) (hinb12_5 i)).WholeWords (EltTy.packing .f32)
  hrank13 : 0 < grid13.rank
  hstage13_0 : ∀ j, (stage13_0 j).IsWhole
  nbuf13_0 : grid13.bufCount reads13_0 true = 1
  hreads13_0 : ∀ i i' : grid13.Coords, (∀ a, reads13_0 a = true → i a = i' a) → cc13_transform_0 i = cc13_transform_0 i'
  hinb13_0 : ∀ (i : grid13.Coords) a, (cc13_transform_0 i a + 1) * S512x64.size a ≤ S512x64.size a
  hwx13_0 : ∀ i : grid13.Coords, EltTy.bits .f32 = 32 ∨ (Rect.block (s := S512x64) S512x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64x64.size a ≤ S64x64.size a
  hwx13_1 : ∀ i : grid13.Coords, EltTy.bits .f32 = 32 ∨ (Rect.block (s := S64x64) S64x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S64x10.size a ≤ S64x10.size a
  hwx13_3 : ∀ i : grid13.Coords, EltTy.bits .f32 = 32 ∨ (Rect.block (s := S64x10) S64x10.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x10.size a ≤ S1x10.size a
  hwx13_4 : ∀ i : grid13.Coords, EltTy.bits .f32 = 32 ∨ (Rect.block (s := S1x10) S1x10.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S512x10.size a ≤ S512x10.size a
  hwx13_5 : ∀ i : grid13.Coords, EltTy.bits .f32 = 32 ∨ (Rect.block (s := S512x10) S512x10.size (cc13_transform_5 i) (hinb13_5 i)).WholeWords (EltTy.packing .f32)

variable [Facts₀]

def dot_S5000x6_S6x64_S5000x64_1_0_0_1_n_n : DotDims S5000x6 S6x64 S5000x64 where
  lhsContracting := [1]
  rhsContracting := [0]
  lhsNonContracting := [0]
  rhsNonContracting := [1]
  lhsBatch := []
  rhsBatch := []
  wf := dot_S5000x6_S6x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_v0) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S1x64.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27_2) S1x64.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v27_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27_1) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27_2) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v39_0) S5000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v39_1) S1x64.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v39_2) S1x64.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | 9 => fun i => !(k2_cond2 i == 1#1) | ⟨_ + 10, h⟩ => absurd h (Nat.not_lt.2 (Nat.le_add_left _ _))

abbrev win3_0 : Pipeline.Window sig grid3 :=
  Pipeline.Window.ofSpec (Memref.whole main_v39_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39_1) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39_2) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v46) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66_0) S5000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v66_1) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v66_2) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v66_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66_1) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66_2) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v72) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v77) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v78_0) S5000x64.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v78_1) S1x64.size cc5_transform_8 reads5_8 true true 1 stage5_8 sem5_8
    hrank5 hreads5_8 hinb5_8 nbuf5_8 (Memref.isWhole_whole _) hwx5_8 hstage5_8

abbrev win5_9 : Pipeline.Window sig grid5 :=
  Pipeline.Window.ofSpec (Memref.whole main_v78_2) S1x64.size cc5_transform_9 reads5_9 true true 1 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev idle5 : Fin 10 → grid5.Coords → Bool := fun | 0 => fun _ => false | 1 => fun _ => false | 2 => fun _ => false | 3 => fun _ => false | 4 => fun _ => false | 5 => fun _ => false | 6 => fun _ => false | 7 => fun _ => false | 8 => fun i => !(k5_cond2 i == 1#1) | 9 => fun i => !(k5_cond2 i == 1#1) | ⟨_ + 10, h⟩ => absurd h (Nat.not_lt.2 (Nat.le_add_left _ _))

abbrev win6_0 : Pipeline.Window sig grid6 :=
  Pipeline.Window.ofSpec (Memref.whole main_v78_0) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78_1) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78_2) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v84) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v85) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v85) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v103) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v99) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v104) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v105_0) S5000x64.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v105_1) S1x64.size cc7_transform_6 reads7_6 true true 1 stage7_6 sem7_6
    hrank7 hreads7_6 hinb7_6 nbuf7_6 (Memref.isWhole_whole _) hwx7_6 hstage7_6

abbrev win7_7 : Pipeline.Window sig grid7 :=
  Pipeline.Window.ofSpec (Memref.whole main_v105_2) S1x64.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev idle7 : Fin 8 → grid7.Coords → Bool := fun | 0 => fun _ => false | 1 => fun _ => false | 2 => fun _ => false | 3 => fun _ => false | 4 => fun _ => false | 5 => fun _ => false | 6 => fun i => !(k7_cond2 i == 1#1) | 7 => fun i => !(k7_cond2 i == 1#1) | ⟨_ + 8, h⟩ => absurd h (Nat.not_lt.2 (Nat.le_add_left _ _))

abbrev win8_0 : Pipeline.Window sig grid8 :=
  Pipeline.Window.ofSpec (Memref.whole main_v105_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v105_1) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v105_2) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v114) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v115) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v111) S64x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v116) S1x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v117_0) S5000x64.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v117_1) S1x64.size cc8_transform_8 reads8_8 true true 1 stage8_8 sem8_8
    hrank8 hreads8_8 hinb8_8 nbuf8_8 (Memref.isWhole_whole _) hwx8_8 hstage8_8

abbrev win8_9 : Pipeline.Window sig grid8 :=
  Pipeline.Window.ofSpec (Memref.whole main_v117_2) S1x64.size cc8_transform_9 reads8_9 true true 1 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev idle8 : Fin 10 → grid8.Coords → Bool := fun | 0 => fun _ => false | 1 => fun _ => false | 2 => fun _ => false | 3 => fun _ => false | 4 => fun _ => false | 5 => fun _ => false | 6 => fun _ => false | 7 => fun _ => false | 8 => fun i => !(k8_cond2 i == 1#1) | 9 => fun i => !(k8_cond2 i == 1#1) | ⟨_ + 10, h⟩ => absurd h (Nat.not_lt.2 (Nat.le_add_left _ _))

abbrev win9_0 : Pipeline.Window sig grid9 :=
  Pipeline.Window.ofSpec (Memref.whole main_v117_0) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v117_1) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v117_2) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v122) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v123) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v124) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v124) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v134) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v142) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v138) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v143) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v144_0) S5000x64.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v144_1) S1x64.size cc10_transform_6 reads10_6 true true 1 stage10_6 sem10_6
    hrank10 hreads10_6 hinb10_6 nbuf10_6 (Memref.isWhole_whole _) hwx10_6 hstage10_6

abbrev win10_7 : Pipeline.Window sig grid10 :=
  Pipeline.Window.ofSpec (Memref.whole main_v144_2) S1x64.size cc10_transform_7 reads10_7 true true 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev idle10 : Fin 8 → grid10.Coords → Bool := fun | 0 => fun _ => false | 1 => fun _ => false | 2 => fun _ => false | 3 => fun _ => false | 4 => fun _ => false | 5 => fun _ => false | 6 => fun i => !(k10_cond2 i == 1#1) | 7 => fun i => !(k10_cond2 i == 1#1) | ⟨_ + 8, h⟩ => absurd h (Nat.not_lt.2 (Nat.le_add_left _ _))

abbrev win11_0 : Pipeline.Window sig grid11 :=
  Pipeline.Window.ofSpec (Memref.whole main_v144_0) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v144_1) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v144_2) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v153) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v154) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v150) S64x64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v155) S1x64.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v156_0) S5000x64.size cc11_transform_7 reads11_7 true false 2 stage11_7 sem11_7
    hrank11 hreads11_7 hinb11_7 nbuf11_7 (Memref.isWhole_whole _) hwx11_7 hstage11_7

abbrev win11_8 : Pipeline.Window sig grid11 :=
  Pipeline.Window.ofSpec (Memref.whole main_v156_1) S1x64.size cc11_transform_8 reads11_8 true true 1 stage11_8 sem11_8
    hrank11 hreads11_8 hinb11_8 nbuf11_8 (Memref.isWhole_whole _) hwx11_8 hstage11_8

abbrev win11_9 : Pipeline.Window sig grid11 :=
  Pipeline.Window.ofSpec (Memref.whole main_v156_2) S1x64.size cc11_transform_9 reads11_9 true true 1 stage11_9 sem11_9
    hrank11 hreads11_9 hinb11_9 nbuf11_9 (Memref.isWhole_whole _) hwx11_9 hstage11_9

abbrev win11 : Fin 10 → Pipeline.Window sig grid11 := fun | 0 => win11_0 | 1 => win11_1 | 2 => win11_2 | 3 => win11_3 | 4 => win11_4 | 5 => win11_5 | 6 => win11_6 | 7 => win11_7 | 8 => win11_8 | 9 => win11_9 | ⟨_ + 10, h⟩ => absurd h (Nat.not_lt.2 (Nat.le_add_left _ _))
abbrev spec11 : Fin 10 → Pipeline.WinSpec sig grid11.rank := fun w => (win11 w).toWinSpec

abbrev idle11 : Fin 10 → grid11.Coords → Bool := fun | 0 => fun _ => false | 1 => fun _ => false | 2 => fun _ => false | 3 => fun _ => false | 4 => fun _ => false | 5 => fun _ => false | 6 => fun _ => false | 7 => fun _ => false | 8 => fun i => !(k11_cond2 i == 1#1) | 9 => fun i => !(k11_cond2 i == 1#1) | ⟨_ + 10, h⟩ => absurd h (Nat.not_lt.2 (Nat.le_add_left _ _))

abbrev win12_0 : Pipeline.Window sig grid12 :=
  Pipeline.Window.ofSpec (Memref.whole main_v156_0) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v156_1) S1x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v156_2) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v161) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v162) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v163) S5000x64.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v175) S512x64.size cc13_transform_0 reads13_0 false true 1 stage13_0 sem13_0
    hrank13 hreads13_0 hinb13_0 nbuf13_0 (Memref.isWhole_whole _) hwx13_0 hstage13_0

abbrev win13_1 : Pipeline.Window sig grid13 :=
  Pipeline.Window.ofSpec (Memref.whole main_arg15) S64x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v176) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg17) S64x10.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v177) S1x10.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v178) S512x10.size cc13_transform_5 reads13_5 true true 1 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S50000 : Shape := ⟨1, ![50000]⟩
abbrev S6x64 : Shape := ⟨2, ![6, 64]⟩
abbrev S64 : Shape := ⟨1, ![64]⟩
abbrev S4 : Shape := ⟨1, ![4]⟩
abbrev S4x64x64 : Shape := ⟨3, ![4, 64, 64]⟩
abbrev S4x64 : Shape := ⟨2, ![4, 64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S50000x6 : Shape := ⟨2, ![50000, 6]⟩
abbrev S50000x64 : Shape := ⟨2, ![50000, 64]⟩
abbrev S1x64 : Shape := ⟨2, ![1, 64]⟩
abbrev S_ : Shape := ⟨0, ![]⟩
abbrev S1 : Shape := ⟨1, ![1]⟩
abbrev S800000x1 : Shape := ⟨2, ![800000, 1]⟩
abbrev S800000x64 : Shape := ⟨2, ![800000, 64]⟩
abbrev S1x64x64 : Shape := ⟨3, ![1, 64, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 609
  | .vmem => 0
  | .smem => 0
  | _ => 0

abbrev hbmTy0_0 (i : Nat) : BufTy := match i % 128 with
  | 0 => ⟨S50000x3, .f32⟩
  | 1 => ⟨S50000x3, .f32⟩
  | 2 => ⟨S2x800000, .i32⟩
  | 3 => ⟨S50000, .i32⟩
  | 4 => ⟨S6x64, .f32⟩
  | 5 => ⟨S64, .f32⟩
  | 6 => ⟨S4, .f32⟩
  | 7 => ⟨S4x64x64, .f32⟩
  | 8 => ⟨S4x64, .f32⟩
  | 9 => ⟨S4x64, .f32⟩
  | 10 => ⟨S4x64, .f32⟩
  | 11 => ⟨S4x64x64, .f32⟩
  | 12 => ⟨S4x64, .f32⟩
  | 13 => ⟨S4x64, .f32⟩
  | 14 => ⟨S4x64, .f32⟩
  | 15 => ⟨S64x64, .f32⟩
  | 16 => ⟨S64, .f32⟩
  | 17 => ⟨S64x10, .f32⟩
  | 18 => ⟨S10, .f32⟩
  | 19 => ⟨S1x800000, .i32⟩
  | 20 => ⟨S800000, .i32⟩
  | 21 => ⟨S1x800000, .i32⟩
  | 22 => ⟨S800000, .i32⟩
  | 23 => ⟨S50000x6, .f32⟩
  | 24 => ⟨S50000x64, .f32⟩
  | 25 => ⟨S1x64, .f32⟩
  | 26 => ⟨S50000x64, .f32⟩
  | 27 => ⟨S50000x64, .f32⟩
  | 28 => ⟨S_, .f32⟩
  | 29 => ⟨S1, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S1, .f32⟩
  | 44 => ⟨S_, .f32⟩
  | 45 => ⟨S_, .f32⟩
  | 46 => ⟨S_, .f32⟩
  | 47 => ⟨S50000x64, .f32⟩
  | 48 => ⟨S50000x64, .f32⟩
  | 49 => ⟨S50000x64, .f32⟩
  | 50 => ⟨S1x64x64, .f32⟩
  | 51 => ⟨S64x64, .f32⟩
  | 52 => ⟨S50000x64, .f32⟩
  | 53 => ⟨S1x64, .f32⟩
  | 54 => ⟨S64, .f32⟩
  | 55 => ⟨S1x64, .f32⟩
  | 56 => ⟨S50000x64, .f32⟩
  | 57 => ⟨S50000x64, .f32⟩
  | 58 => ⟨S1x64, .f32⟩
  | 59 => ⟨S64, .f32⟩
  | 60 => ⟨S1x64, .f32⟩
  | 61 => ⟨S64, .f32⟩
  | 62 => ⟨S_, .f32⟩
  | 63 => ⟨S64, .f32⟩
  | 64 => ⟨S_, .f32⟩
  | 65 => ⟨S64, .f32⟩
  | 66 => ⟨S64, .f32⟩
  | 67 => ⟨S_, .i32⟩
  | 68 => ⟨S_, .f32⟩
  | 69 => ⟨S64, .f32⟩
  | 70 => ⟨S1x64, .f32⟩
  | 71 => ⟨S_, .f32⟩
  | 72 => ⟨S1x64, .f32⟩
  | 73 => ⟨S1x64, .f32⟩
  | 74 => ⟨S50000x64, .f32⟩
  | 75 => ⟨S50000x64, .f32⟩
  | 76 => ⟨S50000x64, .f32⟩
  | 77 => ⟨S_, .f32⟩
  | 78 => ⟨S_, .f32⟩
  | 79 => ⟨S_, .f32⟩
  | 80 => ⟨S_, .f32⟩
  | 81 => ⟨S64, .f32⟩
  | 82 => ⟨S64, .f32⟩
  | 83 => ⟨S64, .f32⟩
  | 84 => ⟨S_, .f32⟩
  | 85 => ⟨S_, .i1⟩
  | 86 => ⟨S_, .f32⟩
  | 87 => ⟨S_, .f32⟩
  | 88 => ⟨S64, .f32⟩
  | 89 => ⟨S64, .f32⟩
  | 90 => ⟨S1x64, .f32⟩
  | 91 => ⟨S50000x64, .f32⟩
  | 92 => ⟨S50000x64, .f32⟩
  | 93 => ⟨S_, .f32⟩
  | 94 => ⟨S64, .f32⟩
  | 95 => ⟨S64, .f32⟩
  | 96 => ⟨S64, .f32⟩
  | 97 => ⟨S1x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S1x64, .f32⟩
  | 104 => ⟨S50000x64, .f32⟩
  | 105 => ⟨S50000x64, .f32⟩
  | 106 => ⟨S_, .f32⟩
  | 107 => ⟨S50000x64, .f32⟩
  | 108 => ⟨S50000x64, .f32⟩
  | 109 => ⟨S1x64x64, .f32⟩
  | 110 => ⟨S64x64, .f32⟩
  | 111 => ⟨S50000x64, .f32⟩
  | 112 => ⟨S1x64, .f32⟩
  | 113 => ⟨S64, .f32⟩
  | 114 => ⟨S1x64, .f32⟩
  | 115 => ⟨S50000x64, .f32⟩
  | 116 => ⟨S50000x64, .f32⟩
  | 117 => ⟨S1x64, .f32⟩
  | 118 => ⟨S64, .f32⟩
  | 119 => ⟨S1x64, .f32⟩
  | 120 => ⟨S64, .f32⟩
  | 121 => ⟨S_, .f32⟩
  | 122 => ⟨S64, .f32⟩
  | 123 => ⟨S_, .f32⟩
  | 124 => ⟨S64, .f32⟩
  | 125 => ⟨S64, .f32⟩
  | 126 => ⟨S_, .i32⟩
  | 127 => ⟨S_, .f32⟩
  | _ => ⟨S50000x3, .f32⟩

abbrev hbmTy0_1 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S50000x64, .f32⟩
  | 6 => ⟨S50000x64, .f32⟩
  | 7 => ⟨S50000x64, .f32⟩
  | 8 => ⟨S_, .f32⟩
  | 9 => ⟨S_, .f32⟩
  | 10 => ⟨S_, .f32⟩
  | 11 => ⟨S_, .f32⟩
  | 12 => ⟨S64, .f32⟩
  | 13 => ⟨S64, .f32⟩
  | 14 => ⟨S64, .f32⟩
  | 15 => ⟨S_, .f32⟩
  | 16 => ⟨S_, .i1⟩
  | 17 => ⟨S_, .f32⟩
  | 18 => ⟨S_, .f32⟩
  | 19 => ⟨S64, .f32⟩
  | 20 => ⟨S64, .f32⟩
  | 21 => ⟨S1x64, .f32⟩
  | 22 => ⟨S50000x64, .f32⟩
  | 23 => ⟨S50000x64, .f32⟩
  | 24 => ⟨S_, .f32⟩
  | 25 => ⟨S64, .f32⟩
  | 26 => ⟨S64, .f32⟩
  | 27 => ⟨S64, .f32⟩
  | 28 => ⟨S1x64, .f32⟩
  | 29 => ⟨S50000x64, .f32⟩
  | 30 => ⟨S50000x64, .f32⟩
  | 31 => ⟨S1x64, .f32⟩
  | 32 => ⟨S50000x64, .f32⟩
  | 33 => ⟨S50000x64, .f32⟩
  | 34 => ⟨S1x64, .f32⟩
  | 35 => ⟨S50000x64, .f32⟩
  | 36 => ⟨S50000x64, .f32⟩
  | 37 => ⟨S_, .f32⟩
  | 38 => ⟨S50000x64, .f32⟩
  | 39 => ⟨S50000x64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x64, .f32⟩
  | 49 => ⟨S_, .f32⟩
  | 50 => ⟨S50000x64, .f32⟩
  | 51 => ⟨S800000x1, .i32⟩
  | 52 => ⟨S50000x64, .f32⟩
  | 53 => ⟨S1, .f32⟩
  | 54 => ⟨S_, .f32⟩
  | 55 => ⟨S_, .f32⟩
  | 56 => ⟨S_, .f32⟩
  | 57 => ⟨S50000x64, .f32⟩
  | 58 => ⟨S50000x64, .f32⟩
  | 59 => ⟨S50000x64, .f32⟩
  | 60 => ⟨S1x64x64, .f32⟩
  | 61 => ⟨S64x64, .f32⟩
  | 62 => ⟨S50000x64, .f32⟩
  | 63 => ⟨S1x64, .f32⟩
  | 64 => ⟨S64, .f32⟩
  | 65 => ⟨S1x64, .f32⟩
  | 66 => ⟨S50000x64, .f32⟩
  | 67 => ⟨S50000x64, .f32⟩
  | 68 => ⟨S1x64, .f32⟩
  | 69 => ⟨S64, .f32⟩
  | 70 => ⟨S1x64, .f32⟩
  | 71 => ⟨S64, .f32⟩
  | 72 => ⟨S_, .f32⟩
  | 73 => ⟨S64, .f32⟩
  | 74 => ⟨S_, .f32⟩
  | 75 => ⟨S64, .f32⟩
  | 76 => ⟨S64, .f32⟩
  | 77 => ⟨S_, .i32⟩
  | 78 => ⟨S_, .f32⟩
  | 79 => ⟨S64, .f32⟩
  | 80 => ⟨S1x64, .f32⟩
  | 81 => ⟨S_, .f32⟩
  | 82 => ⟨S1x64, .f32⟩
  | 83 => ⟨S1x64, .f32⟩
  | 84 => ⟨S50000x64, .f32⟩
  | 85 => ⟨S50000x64, .f32⟩
  | 86 => ⟨S50000x64, .f32⟩
  | 87 => ⟨S_, .f32⟩
  | 88 => ⟨S_, .f32⟩
  | 89 => ⟨S_, .f32⟩
  | 90 => ⟨S_, .f32⟩
  | 91 => ⟨S64, .f32⟩
  | 92 => ⟨S64, .f32⟩
  | 93 => ⟨S64, .f32⟩
  | 94 => ⟨S_, .f32⟩
  | 95 => ⟨S_, .i1⟩
  | 96 => ⟨S_, .f32⟩
  | 97 => ⟨S_, .f32⟩
  | 98 => ⟨S64, .f32⟩
  | 99 => ⟨S64, .f32⟩
  | 100 => ⟨S1x64, .f32⟩
  | 101 => ⟨S50000x64, .f32⟩
  | 102 => ⟨S50000x64, .f32⟩
  | 103 => ⟨S_, .f32⟩
  | 104 => ⟨S64, .f32⟩
  | 105 => ⟨S64, .f32⟩
  | 106 => ⟨S64, .f32⟩
  | 107 => ⟨S1x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S1x64x64, .f32⟩
  | 120 => ⟨S64x64, .f32⟩
  | 121 => ⟨S50000x64, .f32⟩
  | 122 => ⟨S1x64, .f32⟩
  | 123 => ⟨S64, .f32⟩
  | 124 => ⟨S1x64, .f32⟩
  | 125 => ⟨S50000x64, .f32⟩
  | 126 => ⟨S50000x64, .f32⟩
  | 127 => ⟨S1x64, .f32⟩
  | _ => ⟨S50000x3, .f32⟩

abbrev hbmTy0_2 (i : Nat) : BufTy := match i % 128 with
  | 0 => ⟨S64, .f32⟩
  | 1 => ⟨S1x64, .f32⟩
  | 2 => ⟨S64, .f32⟩
  | 3 => ⟨S_, .f32⟩
  | 4 => ⟨S64, .f32⟩
  | 5 => ⟨S_, .f32⟩
  | 6 => ⟨S64, .f32⟩
  | 7 => ⟨S64, .f32⟩
  | 8 => ⟨S_, .i32⟩
  | 9 => ⟨S_, .f32⟩
  | 10 => ⟨S64, .f32⟩
  | 11 => ⟨S1x64, .f32⟩
  | 12 => ⟨S_, .f32⟩
  | 13 => ⟨S1x64, .f32⟩
  | 14 => ⟨S1x64, .f32⟩
  | 15 => ⟨S50000x64, .f32⟩
  | 16 => ⟨S50000x64, .f32⟩
  | 17 => ⟨S50000x64, .f32⟩
  | 18 => ⟨S_, .f32⟩
  | 19 => ⟨S_, .f32⟩
  | 20 => ⟨S_, .f32⟩
  | 21 => ⟨S_, .f32⟩
  | 22 => ⟨S64, .f32⟩
  | 23 => ⟨S64, .f32⟩
  | 24 => ⟨S64, .f32⟩
  | 25 => ⟨S_, .f32⟩
  | 26 => ⟨S_, .i1⟩
  | 27 => ⟨S_, .f32⟩
  | 28 => ⟨S_, .f32⟩
  | 29 => ⟨S64, .f32⟩
  | 30 => ⟨S64, .f32⟩
  | 31 => ⟨S1x64, .f32⟩
  | 32 => ⟨S50000x64, .f32⟩
  | 33 => ⟨S50000x64, .f32⟩
  | 34 => ⟨S_, .f32⟩
  | 35 => ⟨S64, .f32⟩
  | 36 => ⟨S64, .f32⟩
  | 37 => ⟨S64, .f32⟩
  | 38 => ⟨S1x64, .f32⟩
  | 39 => ⟨S50000x64, .f32⟩
  | 40 => ⟨S50000x64, .f32⟩
  | 41 => ⟨S1x64, .f32⟩
  | 42 => ⟨S50000x64, .f32⟩
  | 43 => ⟨S50000x64, .f32⟩
  | 44 => ⟨S1x64, .f32⟩
  | 45 => ⟨S50000x64, .f32⟩
  | 46 => ⟨S50000x64, .f32⟩
  | 47 => ⟨S_, .f32⟩
  | 48 => ⟨S50000x64, .f32⟩
  | 49 => ⟨S50000x64, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S_, .f32⟩
  | 60 => ⟨S50000x64, .f32⟩
  | 61 => ⟨S800000x1, .i32⟩
  | 62 => ⟨S50000x64, .f32⟩
  | 63 => ⟨S1, .f32⟩
  | 64 => ⟨S_, .f32⟩
  | 65 => ⟨S_, .f32⟩
  | 66 => ⟨S_, .f32⟩
  | 67 => ⟨S50000x64, .f32⟩
  | 68 => ⟨S50000x64, .f32⟩
  | 69 => ⟨S50000x64, .f32⟩
  | 70 => ⟨S1x64x64, .f32⟩
  | 71 => ⟨S64x64, .f32⟩
  | 72 => ⟨S50000x64, .f32⟩
  | 73 => ⟨S1x64, .f32⟩
  | 74 => ⟨S64, .f32⟩
  | 75 => ⟨S1x64, .f32⟩
  | 76 => ⟨S50000x64, .f32⟩
  | 77 => ⟨S50000x64, .f32⟩
  | 78 => ⟨S1x64, .f32⟩
  | 79 => ⟨S64, .f32⟩
  | 80 => ⟨S1x64, .f32⟩
  | 81 => ⟨S64, .f32⟩
  | 82 => ⟨S_, .f32⟩
  | 83 => ⟨S64, .f32⟩
  | 84 => ⟨S_, .f32⟩
  | 85 => ⟨S64, .f32⟩
  | 86 => ⟨S64, .f32⟩
  | 87 => ⟨S_, .i32⟩
  | 88 => ⟨S_, .f32⟩
  | 89 => ⟨S64, .f32⟩
  | 90 => ⟨S1x64, .f32⟩
  | 91 => ⟨S_, .f32⟩
  | 92 => ⟨S1x64, .f32⟩
  | 93 => ⟨S1x64, .f32⟩
  | 94 => ⟨S50000x64, .f32⟩
  | 95 => ⟨S50000x64, .f32⟩
  | 96 => ⟨S50000x64, .f32⟩
  | 97 => ⟨S_, .f32⟩
  | 98 => ⟨S_, .f32⟩
  | 99 => ⟨S_, .f32⟩
  | 100 => ⟨S_, .f32⟩
  | 101 => ⟨S64, .f32⟩
  | 102 => ⟨S64, .f32⟩
  | 103 => ⟨S64, .f32⟩
  | 104 => ⟨S_, .f32⟩
  | 105 => ⟨S_, .i1⟩
  | 106 => ⟨S_, .f32⟩
  | 107 => ⟨S_, .f32⟩
  | 108 => ⟨S64, .f32⟩
  | 109 => ⟨S64, .f32⟩
  | 110 => ⟨S1x64, .f32⟩
  | 111 => ⟨S50000x64, .f32⟩
  | 112 => ⟨S50000x64, .f32⟩
  | 113 => ⟨S_, .f32⟩
  | 114 => ⟨S64, .f32⟩
  | 115 => ⟨S64, .f32⟩
  | 116 => ⟨S64, .f32⟩
  | 117 => ⟨S1x64, .f32⟩
  | 118 => ⟨S50000x64, .f32⟩
  | 119 => ⟨S50000x64, .f32⟩
  | 120 => ⟨S1x64, .f32⟩
  | 121 => ⟨S50000x64, .f32⟩
  | 122 => ⟨S50000x64, .f32⟩
  | 123 => ⟨S1x64, .f32⟩
  | 124 => ⟨S50000x64, .f32⟩
  | 125 => ⟨S50000x64, .f32⟩
  | 126 => ⟨S_, .f32⟩
  | 127 => ⟨S50000x64, .f32⟩
  | _ => ⟨S50000x3, .f32⟩

abbrev hbmTy0_3 (i : Nat) : BufTy := match i % 128 with
  | 0 => ⟨S50000x64, .f32⟩
  | 1 => ⟨S1x64x64, .f32⟩
  | 2 => ⟨S64x64, .f32⟩
  | 3 => ⟨S50000x64, .f32⟩
  | 4 => ⟨S1x64, .f32⟩
  | 5 => ⟨S64, .f32⟩
  | 6 => ⟨S1x64, .f32⟩
  | 7 => ⟨S50000x64, .f32⟩
  | 8 => ⟨S50000x64, .f32⟩
  | 9 => ⟨S1x64, .f32⟩
  | 10 => ⟨S64, .f32⟩
  | 11 => ⟨S1x64, .f32⟩
  | 12 => ⟨S64, .f32⟩
  | 13 => ⟨S_, .f32⟩
  | 14 => ⟨S64, .f32⟩
  | 15 => ⟨S_, .f32⟩
  | 16 => ⟨S64, .f32⟩
  | 17 => ⟨S64, .f32⟩
  | 18 => ⟨S_, .i32⟩
  | 19 => ⟨S_, .f32⟩
  | 20 => ⟨S64, .f32⟩
  | 21 => ⟨S1x64, .f32⟩
  | 22 => ⟨S_, .f32⟩
  | 23 => ⟨S1x64, .f32⟩
  | 24 => ⟨S1x64, .f32⟩
  | 25 => ⟨S50000x64, .f32⟩
  | 26 => ⟨S50000x64, .f32⟩
  | 27 => ⟨S50000x64, .f32⟩
  | 28 => ⟨S_, .f32⟩
  | 29 => ⟨S_, .f32⟩
  | 30 => ⟨S_, .f32⟩
  | 31 => ⟨S_, .f32⟩
  | 32 => ⟨S64, .f32⟩
  | 33 => ⟨S64, .f32⟩
  | 34 => ⟨S64, .f32⟩
  | 35 => ⟨S_, .f32⟩
  | 36 => ⟨S_, .i1⟩
  | 37 => ⟨S_, .f32⟩
  | 38 => ⟨S_, .f32⟩
  | 39 => ⟨S64, .f32⟩
  | 40 => ⟨S64, .f32⟩
  | 41 => ⟨S1x64, .f32⟩
  | 42 => ⟨S50000x64, .f32⟩
  | 43 => ⟨S50000x64, .f32⟩
  | 44 => ⟨S_, .f32⟩
  | 45 => ⟨S64, .f32⟩
  | 46 => ⟨S64, .f32⟩
  | 47 => ⟨S64, .f32⟩
  | 48 => ⟨S1x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x64, .f32⟩
  | 69 => ⟨S_, .f32⟩
  | 70 => ⟨S50000x64, .f32⟩
  | 71 => ⟨S800000x1, .i32⟩
  | 72 => ⟨S50000x64, .f32⟩
  | 73 => ⟨S1, .f32⟩
  | 74 => ⟨S_, .f32⟩
  | 75 => ⟨S_, .f32⟩
  | 76 => ⟨S_, .f32⟩
  | 77 => ⟨S50000x64, .f32⟩
  | 78 => ⟨S50000x64, .f32⟩
  | 79 => ⟨S50000x64, .f32⟩
  | 80 => ⟨S1x64x64, .f32⟩
  | 81 => ⟨S64x64, .f32⟩
  | 82 => ⟨S50000x64, .f32⟩
  | 83 => ⟨S1x64, .f32⟩
  | 84 => ⟨S64, .f32⟩
  | 85 => ⟨S1x64, .f32⟩
  | 86 => ⟨S50000x64, .f32⟩
  | 87 => ⟨S50000x64, .f32⟩
  | 88 => ⟨S1x64, .f32⟩
  | 89 => ⟨S64, .f32⟩
  | 90 => ⟨S1x64, .f32⟩
  | 91 => ⟨S64, .f32⟩
  | 92 => ⟨S_, .f32⟩
  | 93 => ⟨S64, .f32⟩
  | 94 => ⟨S_, .f32⟩
  | 95 => ⟨S64, .f32⟩
  | 96 => ⟨S64, .f32⟩
  | 97 => ⟨S_, .i32⟩
  | 98 => ⟨S_, .f32⟩
  | 99 => ⟨S64, .f32⟩
  | 100 => ⟨S1x64, .f32⟩
  | 101 => ⟨S_, .f32⟩
  | 102 => ⟨S1x64, .f32⟩
  | 103 => ⟨S1x64, .f32⟩
  | 104 => ⟨S50000x64, .f32⟩
  | 105 => ⟨S50000x64, .f32⟩
  | 106 => ⟨S50000x64, .f32⟩
  | 107 => ⟨S_, .f32⟩
  | 108 => ⟨S_, .f32⟩
  | 109 => ⟨S_, .f32⟩
  | 110 => ⟨S_, .f32⟩
  | 111 => ⟨S64, .f32⟩
  | 112 => ⟨S64, .f32⟩
  | 113 => ⟨S64, .f32⟩
  | 114 => ⟨S_, .f32⟩
  | 115 => ⟨S_, .i1⟩
  | 116 => ⟨S_, .f32⟩
  | 117 => ⟨S_, .f32⟩
  | 118 => ⟨S64, .f32⟩
  | 119 => ⟨S64, .f32⟩
  | 120 => ⟨S1x64, .f32⟩
  | 121 => ⟨S50000x64, .f32⟩
  | 122 => ⟨S50000x64, .f32⟩
  | 123 => ⟨S_, .f32⟩
  | 124 => ⟨S64, .f32⟩
  | 125 => ⟨S64, .f32⟩
  | 126 => ⟨S64, .f32⟩
  | 127 => ⟨S1x64, .f32⟩
  | _ => ⟨S50000x3, .f32⟩

abbrev hbmTy0_4 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S1x64, .f32⟩
  | 6 => ⟨S50000x64, .f32⟩
  | 7 => ⟨S50000x64, .f32⟩
  | 8 => ⟨S_, .f32⟩
  | 9 => ⟨S50000x64, .f32⟩
  | 10 => ⟨S50000x64, .f32⟩
  | 11 => ⟨S1x64x64, .f32⟩
  | 12 => ⟨S64x64, .f32⟩
  | 13 => ⟨S50000x64, .f32⟩
  | 14 => ⟨S1x64, .f32⟩
  | 15 => ⟨S64, .f32⟩
  | 16 => ⟨S1x64, .f32⟩
  | 17 => ⟨S50000x64, .f32⟩
  | 18 => ⟨S50000x64, .f32⟩
  | 19 => ⟨S1x64, .f32⟩
  | 20 => ⟨S64, .f32⟩
  | 21 => ⟨S1x64, .f32⟩
  | 22 => ⟨S64, .f32⟩
  | 23 => ⟨S_, .f32⟩
  | 24 => ⟨S64, .f32⟩
  | 25 => ⟨S_, .f32⟩
  | 26 => ⟨S64, .f32⟩
  | 27 => ⟨S64, .f32⟩
  | 28 => ⟨S_, .i32⟩
  | 29 => ⟨S_, .f32⟩
  | 30 => ⟨S64, .f32⟩
  | 31 => ⟨S1x64, .f32⟩
  | 32 => ⟨S_, .f32⟩
  | 33 => ⟨S1x64, .f32⟩
  | 34 => ⟨S1x64, .f32⟩
  | 35 => ⟨S50000x64, .f32⟩
  | 36 => ⟨S50000x64, .f32⟩
  | 37 => ⟨S50000x64, .f32⟩
  | 38 => ⟨S_, .f32⟩
  | 39 => ⟨S_, .f32⟩
  | 40 => ⟨S_, .f32⟩
  | 41 => ⟨S_, .f32⟩
  | 42 => ⟨S64, .f32⟩
  | 43 => ⟨S64, .f32⟩
  | 44 => ⟨S64, .f32⟩
  | 45 => ⟨S_, .f32⟩
  | 46 => ⟨S_, .i1⟩
  | 47 => ⟨S_, .f32⟩
  | 48 => ⟨S_, .f32⟩
  | 49 => ⟨S64, .f32⟩
  | 50 => ⟨S64, .f32⟩
  | 51 => ⟨S1x64, .f32⟩
  | 52 => ⟨S50000x64, .f32⟩
  | 53 => ⟨S50000x64, .f32⟩
  | 54 => ⟨S_, .f32⟩
  | 55 => ⟨S64, .f32⟩
  | 56 => ⟨S64, .f32⟩
  | 57 => ⟨S64, .f32⟩
  | 58 => ⟨S1x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S_, .f32⟩
  | 71 => ⟨S512x64, .f32⟩
  | 72 => ⟨S50000x1, .i32⟩
  | 73 => ⟨S512x64, .f32⟩
  | 74 => ⟨S_, .f32⟩
  | 75 => ⟨S50000, .f32⟩
  | 76 => ⟨S_, .f32⟩
  | 77 => ⟨S512, .f32⟩
  | 78 => ⟨S50000x1, .i32⟩
  | 79 => ⟨S512, .f32⟩
  | 80 => ⟨S_, .f32⟩
  | 81 => ⟨S512, .f32⟩
  | 82 => ⟨S512, .f32⟩
  | 83 => ⟨S512x1, .f32⟩
  | 84 => ⟨S512x64, .f32⟩
  | 85 => ⟨S512x64, .f32⟩
  | 86 => ⟨S512x64, .f32⟩
  | 87 => ⟨S1x64, .f32⟩
  | 88 => ⟨S512x64, .f32⟩
  | 89 => ⟨S512x64, .f32⟩
  | 90 => ⟨S_, .f32⟩
  | 91 => ⟨S512x64, .f32⟩
  | 92 => ⟨S512x64, .f32⟩
  | 93 => ⟨S512x10, .f32⟩
  | 94 => ⟨S1x10, .f32⟩
  | 95 => ⟨S512x10, .f32⟩
  | 96 => ⟨S512x10, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_cst_3 : Ref sig .tc := ⟨.hbm, 84, rfl⟩
abbrev main_call0_v12 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_6 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_call1_cst : Ref sig .tc := ⟨.hbm, 106, rfl⟩
abbrev main_call1_v0 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_7 : Ref sig .tc := ⟨.hbm, 121, rfl⟩
abbrev main_v70 : Ref sig .tc := ⟨.hbm, 122, rfl⟩
abbrev main_cst_8 : Ref sig .tc := ⟨.hbm, 123, rfl⟩
abbrev main_v71 : Ref sig .tc := ⟨.hbm, 124, rfl⟩
abbrev main_v72 : Ref sig .tc := ⟨.hbm, 125, rfl⟩
abbrev main_c_9 : Ref sig .tc := ⟨.hbm, 126, rfl⟩
abbrev main_call2_cst : Ref sig .tc := ⟨.hbm, 127, rfl⟩
abbrev main_call2_v0 : Ref sig .tc := ⟨.hbm, 128, rfl⟩
abbrev main_call2_v1 : Ref sig .tc := ⟨.hbm, 129, rfl⟩
abbrev main_call2_cst_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_v6 : Ref sig .tc := ⟨.hbm, 135, rfl⟩
abbrev main_call2_v7 : Ref sig .tc := ⟨.hbm, 136, rfl⟩
abbrev main_call2_cst_1 : Ref sig .tc := ⟨.hbm, 137, rfl⟩
abbrev main_call2_v8 : Ref sig .tc := ⟨.hbm, 138, rfl⟩
abbrev main_call2_cst_2 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_cst_3 : Ref sig .tc := ⟨.hbm, 143, rfl⟩
abbrev main_call2_v12 : Ref sig .tc := ⟨.hbm, 144, rfl⟩
abbrev main_call2_cst_4 : Ref sig .tc := ⟨.hbm, 145, rfl⟩
abbrev main_call2_call0_v0 : Ref sig .tc := ⟨.hbm, 146, rfl⟩
abbrev main_call2_call0_v1 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_cst_10 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_call3_cst : Ref sig .tc := ⟨.hbm, 165, rfl⟩
abbrev main_call3_v0 : Ref sig .tc := ⟨.hbm, 166, rfl⟩
abbrev main_v89 : Ref sig .tc := ⟨.hbm, 167, rfl⟩
abbrev main_c_11 : Ref sig .tc := ⟨.hbm, 168, rfl⟩
abbrev main_v90 : Ref sig .tc := ⟨.hbm, 169, rfl⟩
abbrev main_v91 : Ref sig .tc := ⟨.hbm, 170, rfl⟩
abbrev main_c_12 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_cst_13 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_cst_14 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_cst_15 : Ref sig .tc := ⟨.hbm, 200, rfl⟩
abbrev main_v118 : Ref sig .tc := ⟨.hbm, 201, rfl⟩
abbrev main_cst_16 : Ref sig .tc := ⟨.hbm, 202, rfl⟩
abbrev main_v119 : Ref sig .tc := ⟨.hbm, 203, rfl⟩
abbrev main_v120 : Ref sig .tc := ⟨.hbm, 204, rfl⟩
abbrev main_c_17 : Ref sig .tc := ⟨.hbm, 205, rfl⟩
abbrev main_call4_cst : Ref sig .tc := ⟨.hbm, 206, rfl⟩
abbrev main_call4_v0 : Ref sig .tc := ⟨.hbm, 207, rfl⟩
abbrev main_call4_v1 : Ref sig .tc := ⟨.hbm, 208, rfl⟩
abbrev main_call4_cst_0 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_call4_v5 : Ref sig .tc := ⟨.hbm, 213, rfl⟩
abbrev main_call4_v6 : Ref sig .tc := ⟨.hbm, 214, rfl⟩
abbrev main_call4_v7 : Ref sig .tc := ⟨.hbm, 215, rfl⟩
abbrev main_call4_cst_1 : Ref sig .tc := ⟨.hbm, 216, rfl⟩
abbrev main_call4_v8 : Ref sig .tc := ⟨.hbm, 217, rfl⟩
abbrev main_call4_cst_2 : Ref sig .tc := ⟨.hbm, 218, rfl⟩
abbrev main_call4_v9 : Ref sig .tc := ⟨.hbm, 219, rfl⟩
abbrev main_call4_v10 : Ref sig .tc := ⟨.hbm, 220, rfl⟩
abbrev main_call4_v11 : Ref sig .tc := ⟨.hbm, 221, rfl⟩
abbrev main_call4_cst_3 : Ref sig .tc := ⟨.hbm, 222, rfl⟩
abbrev main_call4_v12 : Ref sig .tc := ⟨.hbm, 223, rfl⟩
abbrev main_call4_cst_4 : Ref sig .tc := ⟨.hbm, 224, rfl⟩
abbrev main_call4_call0_v0 : Ref sig .tc := ⟨.hbm, 225, rfl⟩
abbrev main_call4_call0_v1 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_cst_18 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_call5_cst : Ref sig .tc := ⟨.hbm, 244, rfl⟩
abbrev main_call5_v0 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_cst_19 : Ref sig .tc := ⟨.hbm, 259, rfl⟩
abbrev main_v150 : Ref sig .tc := ⟨.hbm, 260, rfl⟩
abbrev main_cst_20 : Ref sig .tc := ⟨.hbm, 261, rfl⟩
abbrev main_v151 : Ref sig .tc := ⟨.hbm, 262, rfl⟩
abbrev main_v152 : Ref sig .tc := ⟨.hbm, 263, rfl⟩
abbrev main_c_21 : Ref sig .tc := ⟨.hbm, 264, rfl⟩
abbrev main_call6_cst : Ref sig .tc := ⟨.hbm, 265, rfl⟩
abbrev main_call6_v0 : Ref sig .tc := ⟨.hbm, 266, rfl⟩
abbrev main_call6_v1 : Ref sig .tc := ⟨.hbm, 267, rfl⟩
abbrev main_call6_cst_0 : Ref sig .tc := ⟨.hbm, 268, rfl⟩
abbrev main_call6_v2 : Ref sig .tc := ⟨.hbm, 269, rfl⟩
abbrev main_call6_v3 : Ref sig .tc := ⟨.hbm, 270, rfl⟩
abbrev main_call6_v4 : Ref sig .tc := ⟨.hbm, 271, rfl⟩
abbrev main_call6_v5 : Ref sig .tc := ⟨.hbm, 272, rfl⟩
abbrev main_call6_v6 : Ref sig .tc := ⟨.hbm, 273, rfl⟩
abbrev main_call6_v7 : Ref sig .tc := ⟨.hbm, 274, rfl⟩
abbrev main_call6_cst_1 : Ref sig .tc := ⟨.hbm, 275, rfl⟩
abbrev main_call6_v8 : Ref sig .tc := ⟨.hbm, 276, rfl⟩
abbrev main_call6_cst_2 : Ref sig .tc := ⟨.hbm, 277, rfl⟩
abbrev main_call6_v9 : Ref sig .tc := ⟨.hbm, 278, rfl⟩
abbrev main_call6_v10 : Ref sig .tc := ⟨.hbm, 279, rfl⟩
abbrev main_call6_v11 : Ref sig .tc := ⟨.hbm, 280, rfl⟩
abbrev main_call6_cst_3 : Ref sig .tc := ⟨.hbm, 281, rfl⟩
abbrev main_call6_v12 : Ref sig .tc := ⟨.hbm, 282, rfl⟩
abbrev main_call6_cst_4 : Ref sig .tc := ⟨.hbm, 283, rfl⟩
abbrev main_call6_call0_v0 : Ref sig .tc := ⟨.hbm, 284, rfl⟩
abbrev main_call6_call0_v1 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_cst_22 : Ref sig .tc := ⟨.hbm, 290, rfl⟩
abbrev main_v157 : Ref sig .tc := ⟨.hbm, 291, rfl⟩
abbrev main_v158 : Ref sig .tc := ⟨.hbm, 292, rfl⟩
abbrev main_v159 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_v166 : Ref sig .tc := ⟨.hbm, 300, rfl⟩
abbrev main_v167 : Ref sig .tc := ⟨.hbm, 301, rfl⟩
abbrev main_v168 : Ref sig .tc := ⟨.hbm, 302, rfl⟩
abbrev main_call7_cst : Ref sig .tc := ⟨.hbm, 303, rfl⟩
abbrev main_call7_v0 : Ref sig .tc := ⟨.hbm, 304, rfl⟩
abbrev main_v169 : Ref sig .tc := ⟨.hbm, 305, rfl⟩
abbrev main_c_23 : Ref sig .tc := ⟨.hbm, 306, rfl⟩
abbrev main_v170 : Ref sig .tc := ⟨.hbm, 307, rfl⟩
abbrev main_v171 : Ref sig .tc := ⟨.hbm, 308, rfl⟩
abbrev main_c_24 : Ref sig .tc := ⟨.hbm, 309, rfl⟩
abbrev main_v172 : Ref sig .tc := ⟨.hbm, 310, rfl⟩
abbrev main_v173 : Ref sig .tc := ⟨.hbm, 311, rfl⟩
abbrev main_v174 : Ref sig .tc := ⟨.hbm, 312, rfl⟩
abbrev main_v175 : Ref sig .tc := ⟨.hbm, 313, rfl⟩
abbrev main_v176 : Ref sig .tc := ⟨.hbm, 314, rfl⟩
abbrev main_cst_25 : Ref sig .tc := ⟨.hbm, 315, rfl⟩
abbrev main_v177 : Ref sig .tc := ⟨.hbm, 316, rfl⟩
abbrev main_v178 : Ref sig .tc := ⟨.hbm, 317, rfl⟩
abbrev main_v179 : Ref sig .tc := ⟨.hbm, 318, rfl⟩
abbrev main_v180 : Ref sig .tc := ⟨.hbm, 319, rfl⟩
abbrev main_v181 : Ref sig .tc := ⟨.hbm, 320, rfl⟩
abbrev main_cst_26 : Ref sig .tc := ⟨.hbm, 321, rfl⟩
abbrev main_v182 : Ref sig .tc := ⟨.hbm, 322, rfl⟩
abbrev main_v183 : Ref sig .tc := ⟨.hbm, 323, rfl⟩
abbrev main_v184 : Ref sig .tc := ⟨.hbm, 324, rfl⟩
abbrev main_v185 : Ref sig .tc := ⟨.hbm, 325, rfl⟩
abbrev main_v186 : Ref sig .tc := ⟨.hbm, 326, rfl⟩
abbrev main_v187 : Ref sig .tc := ⟨.hbm, 327, rfl⟩
abbrev main_v188 : Ref sig .tc := ⟨.hbm, 328, rfl⟩
abbrev main_v189 : Ref sig .tc := ⟨.hbm, 329, rfl⟩
abbrev main_v190 : Ref sig .tc := ⟨.hbm, 330, rfl⟩
abbrev main_v191 : Ref sig .tc := ⟨.hbm, 331, rfl⟩
abbrev main_v192 : Ref sig .tc := ⟨.hbm, 332, rfl⟩
abbrev main_v193 : Ref sig .tc := ⟨.hbm, 333, rfl⟩
abbrev main_v194 : Ref sig .tc := ⟨.hbm, 334, rfl⟩
abbrev main_v195 : Ref sig .tc := ⟨.hbm, 335, rfl⟩
abbrev main_v196 : Ref sig .tc := ⟨.hbm, 336, rfl⟩
abbrev main_v197 : Ref sig .tc := ⟨.hbm, 337, rfl⟩
abbrev main_cst_27 : Ref sig .tc := ⟨.hbm, 338, rfl⟩
abbrev main_v198 : Ref sig .tc := ⟨.hbm, 339, rfl⟩
abbrev main_cst_28 : Ref sig .tc := ⟨.hbm, 340, rfl⟩
abbrev main_v199 : Ref sig .tc := ⟨.hbm, 341, rfl⟩
abbrev main_v200 : Ref sig .tc := ⟨.hbm, 342, rfl⟩
abbrev main_c_29 : Ref sig .tc := ⟨.hbm, 343, rfl⟩
abbrev main_call8_cst : Ref sig .tc := ⟨.hbm, 344, rfl⟩
abbrev main_call8_v0 : Ref sig .tc := ⟨.hbm, 345, rfl⟩
abbrev main_call8_v1 : Ref sig .tc := ⟨.hbm, 346, rfl⟩
abbrev main_call8_cst_0 : Ref sig .tc := ⟨.hbm, 347, rfl⟩
abbrev main_call8_v2 : Ref sig .tc := ⟨.hbm, 348, rfl⟩
abbrev main_call8_v3 : Ref sig .tc := ⟨.hbm, 349, rfl⟩
abbrev main_call8_v4 : Ref sig .tc := ⟨.hbm, 350, rfl⟩
abbrev main_call8_v5 : Ref sig .tc := ⟨.hbm, 351, rfl⟩
abbrev main_call8_v6 : Ref sig .tc := ⟨.hbm, 352, rfl⟩
abbrev main_call8_v7 : Ref sig .tc := ⟨.hbm, 353, rfl⟩
abbrev main_call8_cst_1 : Ref sig .tc := ⟨.hbm, 354, rfl⟩
abbrev main_call8_v8 : Ref sig .tc := ⟨.hbm, 355, rfl⟩
abbrev main_call8_cst_2 : Ref sig .tc := ⟨.hbm, 356, rfl⟩
abbrev main_call8_v9 : Ref sig .tc := ⟨.hbm, 357, rfl⟩
abbrev main_call8_v10 : Ref sig .tc := ⟨.hbm, 358, rfl⟩
abbrev main_call8_v11 : Ref sig .tc := ⟨.hbm, 359, rfl⟩
abbrev main_call8_cst_3 : Ref sig .tc := ⟨.hbm, 360, rfl⟩
abbrev main_call8_v12 : Ref sig .tc := ⟨.hbm, 361, rfl⟩
abbrev main_call8_cst_4 : Ref sig .tc := ⟨.hbm, 362, rfl⟩
abbrev main_call8_call0_v0 : Ref sig .tc := ⟨.hbm, 363, rfl⟩
abbrev main_call8_call0_v1 : Ref sig .tc := ⟨.hbm, 364, rfl⟩
abbrev main_v201 : Ref sig .tc := ⟨.hbm, 365, rfl⟩
abbrev main_v202 : Ref sig .tc := ⟨.hbm, 366, rfl⟩
abbrev main_v203 : Ref sig .tc := ⟨.hbm, 367, rfl⟩
abbrev main_v204 : Ref sig .tc := ⟨.hbm, 368, rfl⟩
abbrev main_cst_30 : Ref sig .tc := ⟨.hbm, 369, rfl⟩
abbrev main_v205 : Ref sig .tc := ⟨.hbm, 370, rfl⟩
abbrev main_v206 : Ref sig .tc := ⟨.hbm, 371, rfl⟩
abbrev main_v207 : Ref sig .tc := ⟨.hbm, 372, rfl⟩
abbrev main_v208 : Ref sig .tc := ⟨.hbm, 373, rfl⟩
abbrev main_v209 : Ref sig .tc := ⟨.hbm, 374, rfl⟩
abbrev main_v210 : Ref sig .tc := ⟨.hbm, 375, rfl⟩
abbrev main_v211 : Ref sig .tc := ⟨.hbm, 376, rfl⟩
abbrev main_v212 : Ref sig .tc := ⟨.hbm, 377, rfl⟩
abbrev main_v213 : Ref sig .tc := ⟨.hbm, 378, rfl⟩
abbrev main_v214 : Ref sig .tc := ⟨.hbm, 379, rfl⟩
abbrev main_v215 : Ref sig .tc := ⟨.hbm, 380, rfl⟩
abbrev main_v216 : Ref sig .tc := ⟨.hbm, 381, rfl⟩
abbrev main_call9_cst : Ref sig .tc := ⟨.hbm, 382, rfl⟩
abbrev main_call9_v0 : Ref sig .tc := ⟨.hbm, 383, rfl⟩
abbrev main_v217 : Ref sig .tc := ⟨.hbm, 384, rfl⟩
abbrev main_v218 : Ref sig .tc := ⟨.hbm, 385, rfl⟩
abbrev main_v219 : Ref sig .tc := ⟨.hbm, 386, rfl⟩
abbrev main_v220 : Ref sig .tc := ⟨.hbm, 387, rfl⟩
abbrev main_v221 : Ref sig .tc := ⟨.hbm, 388, rfl⟩
abbrev main_v222 : Ref sig .tc := ⟨.hbm, 389, rfl⟩
abbrev main_v223 : Ref sig .tc := ⟨.hbm, 390, rfl⟩
abbrev main_v224 : Ref sig .tc := ⟨.hbm, 391, rfl⟩
abbrev main_v225 : Ref sig .tc := ⟨.hbm, 392, rfl⟩
abbrev main_v226 : Ref sig .tc := ⟨.hbm, 393, rfl⟩
abbrev main_v227 : Ref sig .tc := ⟨.hbm, 394, rfl⟩
abbrev main_v228 : Ref sig .tc := ⟨.hbm, 395, rfl⟩
abbrev main_v229 : Ref sig .tc := ⟨.hbm, 396, rfl⟩
abbrev main_cst_31 : Ref sig .tc := ⟨.hbm, 397, rfl⟩
abbrev main_v230 : Ref sig .tc := ⟨.hbm, 398, rfl⟩
abbrev main_cst_32 : Ref sig .tc := ⟨.hbm, 399, rfl⟩
abbrev main_v231 : Ref sig .tc := ⟨.hbm, 400, rfl⟩
abbrev main_v232 : Ref sig .tc := ⟨.hbm, 401, rfl⟩
abbrev main_c_33 : Ref sig .tc := ⟨.hbm, 402, rfl⟩
abbrev main_call10_cst : Ref sig .tc := ⟨.hbm, 403, rfl⟩
abbrev main_call10_v0 : Ref sig .tc := ⟨.hbm, 404, rfl⟩
abbrev main_call10_v1 : Ref sig .tc := ⟨.hbm, 405, rfl⟩
abbrev main_call10_cst_0 : Ref sig .tc := ⟨.hbm, 406, rfl⟩
abbrev main_call10_v2 : Ref sig .tc := ⟨.hbm, 407, rfl⟩
abbrev main_call10_v3 : Ref sig .tc := ⟨.hbm, 408, rfl⟩
abbrev main_call10_v4 : Ref sig .tc := ⟨.hbm, 409, rfl⟩
abbrev main_call10_v5 : Ref sig .tc := ⟨.hbm, 410, rfl⟩
abbrev main_call10_v6 : Ref sig .tc := ⟨.hbm, 411, rfl⟩
abbrev main_call10_v7 : Ref sig .tc := ⟨.hbm, 412, rfl⟩
abbrev main_call10_cst_1 : Ref sig .tc := ⟨.hbm, 413, rfl⟩
abbrev main_call10_v8 : Ref sig .tc := ⟨.hbm, 414, rfl⟩
abbrev main_call10_cst_2 : Ref sig .tc := ⟨.hbm, 415, rfl⟩
abbrev main_call10_v9 : Ref sig .tc := ⟨.hbm, 416, rfl⟩
abbrev main_call10_v10 : Ref sig .tc := ⟨.hbm, 417, rfl⟩
abbrev main_call10_v11 : Ref sig .tc := ⟨.hbm, 418, rfl⟩
abbrev main_call10_cst_3 : Ref sig .tc := ⟨.hbm, 419, rfl⟩
abbrev main_call10_v12 : Ref sig .tc := ⟨.hbm, 420, rfl⟩
abbrev main_call10_cst_4 : Ref sig .tc := ⟨.hbm, 421, rfl⟩
abbrev main_call10_call0_v0 : Ref sig .tc := ⟨.hbm, 422, rfl⟩
abbrev main_call10_call0_v1 : Ref sig .tc := ⟨.hbm, 423, rfl⟩
abbrev main_v233 : Ref sig .tc := ⟨.hbm, 424, rfl⟩
abbrev main_v234 : Ref sig .tc := ⟨.hbm, 425, rfl⟩
abbrev main_v235 : Ref sig .tc := ⟨.hbm, 426, rfl⟩
abbrev main_v236 : Ref sig .tc := ⟨.hbm, 427, rfl⟩
abbrev main_cst_34 : Ref sig .tc := ⟨.hbm, 428, rfl⟩
abbrev main_v237 : Ref sig .tc := ⟨.hbm, 429, rfl⟩
abbrev main_v238 : Ref sig .tc := ⟨.hbm, 430, rfl⟩
abbrev main_v239 : Ref sig .tc := ⟨.hbm, 431, rfl⟩
abbrev main_v240 : Ref sig .tc := ⟨.hbm, 432, rfl⟩
abbrev main_v241 : Ref sig .tc := ⟨.hbm, 433, rfl⟩
abbrev main_v242 : Ref sig .tc := ⟨.hbm, 434, rfl⟩
abbrev main_v243 : Ref sig .tc := ⟨.hbm, 435, rfl⟩
abbrev main_v244 : Ref sig .tc := ⟨.hbm, 436, rfl⟩
abbrev main_v245 : Ref sig .tc := ⟨.hbm, 437, rfl⟩
abbrev main_v246 : Ref sig .tc := ⟨.hbm, 438, rfl⟩
abbrev main_v247 : Ref sig .tc := ⟨.hbm, 439, rfl⟩
abbrev main_v248 : Ref sig .tc := ⟨.hbm, 440, rfl⟩
abbrev main_call11_cst : Ref sig .tc := ⟨.hbm, 441, rfl⟩
abbrev main_call11_v0 : Ref sig .tc := ⟨.hbm, 442, rfl⟩
abbrev main_v249 : Ref sig .tc := ⟨.hbm, 443, rfl⟩
abbrev main_c_35 : Ref sig .tc := ⟨.hbm, 444, rfl⟩
abbrev main_v250 : Ref sig .tc := ⟨.hbm, 445, rfl⟩
abbrev main_v251 : Ref sig .tc := ⟨.hbm, 446, rfl⟩
abbrev main_c_36 : Ref sig .tc := ⟨.hbm, 447, rfl⟩
abbrev main_v252 : Ref sig .tc := ⟨.hbm, 448, rfl⟩
abbrev main_v253 : Ref sig .tc := ⟨.hbm, 449, rfl⟩
abbrev main_v254 : Ref sig .tc := ⟨.hbm, 450, rfl⟩
abbrev main_v255 : Ref sig .tc := ⟨.hbm, 451, rfl⟩
abbrev main_v256 : Ref sig .tc := ⟨.hbm, 452, rfl⟩
abbrev main_cst_37 : Ref sig .tc := ⟨.hbm, 453, rfl⟩
abbrev main_v257 : Ref sig .tc := ⟨.hbm, 454, rfl⟩
abbrev main_v258 : Ref sig .tc := ⟨.hbm, 455, rfl⟩
abbrev main_v259 : Ref sig .tc := ⟨.hbm, 456, rfl⟩
abbrev main_v260 : Ref sig .tc := ⟨.hbm, 457, rfl⟩
abbrev main_v261 : Ref sig .tc := ⟨.hbm, 458, rfl⟩
abbrev main_cst_38 : Ref sig .tc := ⟨.hbm, 459, rfl⟩
abbrev main_v262 : Ref sig .tc := ⟨.hbm, 460, rfl⟩
abbrev main_v263 : Ref sig .tc := ⟨.hbm, 461, rfl⟩
abbrev main_v264 : Ref sig .tc := ⟨.hbm, 462, rfl⟩
abbrev main_v265 : Ref sig .tc := ⟨.hbm, 463, rfl⟩
abbrev main_v266 : Ref sig .tc := ⟨.hbm, 464, rfl⟩
abbrev main_v267 : Ref sig .tc := ⟨.hbm, 465, rfl⟩
abbrev main_v268 : Ref sig .tc := ⟨.hbm, 466, rfl⟩
abbrev main_v269 : Ref sig .tc := ⟨.hbm, 467, rfl⟩
abbrev main_v270 : Ref sig .tc := ⟨.hbm, 468, rfl⟩
abbrev main_v271 : Ref sig .tc := ⟨.hbm, 469, rfl⟩
abbrev main_v272 : Ref sig .tc := ⟨.hbm, 470, rfl⟩
abbrev main_v273 : Ref sig .tc := ⟨.hbm, 471, rfl⟩
abbrev main_v274 : Ref sig .tc := ⟨.hbm, 472, rfl⟩
abbrev main_v275 : Ref sig .tc := ⟨.hbm, 473, rfl⟩
abbrev main_v276 : Ref sig .tc := ⟨.hbm, 474, rfl⟩
abbrev main_v277 : Ref sig .tc := ⟨.hbm, 475, rfl⟩
abbrev main_cst_39 : Ref sig .tc := ⟨.hbm, 476, rfl⟩
abbrev main_v278 : Ref sig .tc := ⟨.hbm, 477, rfl⟩
abbrev main_cst_40 : Ref sig .tc := ⟨.hbm, 478, rfl⟩
abbrev main_v279 : Ref sig .tc := ⟨.hbm, 479, rfl⟩
abbrev main_v280 : Ref sig .tc := ⟨.hbm, 480, rfl⟩
abbrev main_c_41 : Ref sig .tc := ⟨.hbm, 481, rfl⟩
abbrev main_call12_cst : Ref sig .tc := ⟨.hbm, 482, rfl⟩
abbrev main_call12_v0 : Ref sig .tc := ⟨.hbm, 483, rfl⟩
abbrev main_call12_v1 : Ref sig .tc := ⟨.hbm, 484, rfl⟩
abbrev main_call12_cst_0 : Ref sig .tc := ⟨.hbm, 485, rfl⟩
abbrev main_call12_v2 : Ref sig .tc := ⟨.hbm, 486, rfl⟩
abbrev main_call12_v3 : Ref sig .tc := ⟨.hbm, 487, rfl⟩
abbrev main_call12_v4 : Ref sig .tc := ⟨.hbm, 488, rfl⟩
abbrev main_call12_v5 : Ref sig .tc := ⟨.hbm, 489, rfl⟩
abbrev main_call12_v6 : Ref sig .tc := ⟨.hbm, 490, rfl⟩
abbrev main_call12_v7 : Ref sig .tc := ⟨.hbm, 491, rfl⟩
abbrev main_call12_cst_1 : Ref sig .tc := ⟨.hbm, 492, rfl⟩
abbrev main_call12_v8 : Ref sig .tc := ⟨.hbm, 493, rfl⟩
abbrev main_call12_cst_2 : Ref sig .tc := ⟨.hbm, 494, rfl⟩
abbrev main_call12_v9 : Ref sig .tc := ⟨.hbm, 495, rfl⟩
abbrev main_call12_v10 : Ref sig .tc := ⟨.hbm, 496, rfl⟩
abbrev main_call12_v11 : Ref sig .tc := ⟨.hbm, 497, rfl⟩
abbrev main_call12_cst_3 : Ref sig .tc := ⟨.hbm, 498, rfl⟩
abbrev main_call12_v12 : Ref sig .tc := ⟨.hbm, 499, rfl⟩
abbrev main_call12_cst_4 : Ref sig .tc := ⟨.hbm, 500, rfl⟩
abbrev main_call12_call0_v0 : Ref sig .tc := ⟨.hbm, 501, rfl⟩
abbrev main_call12_call0_v1 : Ref sig .tc := ⟨.hbm, 502, rfl⟩
abbrev main_v281 : Ref sig .tc := ⟨.hbm, 503, rfl⟩
abbrev main_v282 : Ref sig .tc := ⟨.hbm, 504, rfl⟩
abbrev main_v283 : Ref sig .tc := ⟨.hbm, 505, rfl⟩
abbrev main_v284 : Ref sig .tc := ⟨.hbm, 506, rfl⟩
abbrev main_cst_42 : Ref sig .tc := ⟨.hbm, 507, rfl⟩
abbrev main_v285 : Ref sig .tc := ⟨.hbm, 508, rfl⟩
abbrev main_v286 : Ref sig .tc := ⟨.hbm, 509, rfl⟩
abbrev main_v287 : Ref sig .tc := ⟨.hbm, 510, rfl⟩
abbrev main_v288 : Ref sig .tc := ⟨.hbm, 511, rfl⟩
abbrev main_v289 : Ref sig .tc := ⟨.hbm, 512, rfl⟩
abbrev main_v290 : Ref sig .tc := ⟨.hbm, 513, rfl⟩
abbrev main_v291 : Ref sig .tc := ⟨.hbm, 514, rfl⟩
abbrev main_v292 : Ref sig .tc := ⟨.hbm, 515, rfl⟩
abbrev main_v293 : Ref sig .tc := ⟨.hbm, 516, rfl⟩
abbrev main_v294 : Ref sig .tc := ⟨.hbm, 517, rfl⟩
abbrev main_v295 : Ref sig .tc := ⟨.hbm, 518, rfl⟩
abbrev main_v296 : Ref sig .tc := ⟨.hbm, 519, rfl⟩
abbrev main_call13_cst : Ref sig .tc := ⟨.hbm, 520, rfl⟩
abbrev main_call13_v0 : Ref sig .tc := ⟨.hbm, 521, rfl⟩
abbrev main_v297 : Ref sig .tc := ⟨.hbm, 522, rfl⟩
abbrev main_v298 : Ref sig .tc := ⟨.hbm, 523, rfl⟩
abbrev main_v299 : Ref sig .tc := ⟨.hbm, 524, rfl⟩
abbrev main_v300 : Ref sig .tc := ⟨.hbm, 525, rfl⟩
abbrev main_v301 : Ref sig .tc := ⟨.hbm, 526, rfl⟩
abbrev main_v302 : Ref sig .tc := ⟨.hbm, 527, rfl⟩
abbrev main_v303 : Ref sig .tc := ⟨.hbm, 528, rfl⟩
abbrev main_v304 : Ref sig .tc := ⟨.hbm, 529, rfl⟩
abbrev main_v305 : Ref sig .tc := ⟨.hbm, 530, rfl⟩
abbrev main_v306 : Ref sig .tc := ⟨.hbm, 531, rfl⟩
abbrev main_v307 : Ref sig .tc := ⟨.hbm, 532, rfl⟩
abbrev main_v308 : Ref sig .tc := ⟨.hbm, 533, rfl⟩
abbrev main_v309 : Ref sig .tc := ⟨.hbm, 534, rfl⟩
abbrev main_cst_43 : Ref sig .tc := ⟨.hbm, 535, rfl⟩
abbrev main_v310 : Ref sig .tc := ⟨.hbm, 536, rfl⟩
abbrev main_cst_44 : Ref sig .tc := ⟨.hbm, 537, rfl⟩
abbrev main_v311 : Ref sig .tc := ⟨.hbm, 538, rfl⟩
abbrev main_v312 : Ref sig .tc := ⟨.hbm, 539, rfl⟩
abbrev main_c_45 : Ref sig .tc := ⟨.hbm, 540, rfl⟩
abbrev main_call14_cst : Ref sig .tc := ⟨.hbm, 541, rfl⟩
abbrev main_call14_v0 : Ref sig .tc := ⟨.hbm, 542, rfl⟩
abbrev main_call14_v1 : Ref sig .tc := ⟨.hbm, 543, rfl⟩
abbrev main_call14_cst_0 : Ref sig .tc := ⟨.hbm, 544, rfl⟩
abbrev main_call14_v2 : Ref sig .tc := ⟨.hbm, 545, rfl⟩
abbrev main_call14_v3 : Ref sig .tc := ⟨.hbm, 546, rfl⟩
abbrev main_call14_v4 : Ref sig .tc := ⟨.hbm, 547, rfl⟩
abbrev main_call14_v5 : Ref sig .tc := ⟨.hbm, 548, rfl⟩
abbrev main_call14_v6 : Ref sig .tc := ⟨.hbm, 549, rfl⟩
abbrev main_call14_v7 : Ref sig .tc := ⟨.hbm, 550, rfl⟩
abbrev main_call14_cst_1 : Ref sig .tc := ⟨.hbm, 551, rfl⟩
abbrev main_call14_v8 : Ref sig .tc := ⟨.hbm, 552, rfl⟩
abbrev main_call14_cst_2 : Ref sig .tc := ⟨.hbm, 553, rfl⟩
abbrev main_call14_v9 : Ref sig .tc := ⟨.hbm, 554, rfl⟩
abbrev main_call14_v10 : Ref sig .tc := ⟨.hbm, 555, rfl⟩
abbrev main_call14_v11 : Ref sig .tc := ⟨.hbm, 556, rfl⟩
abbrev main_call14_cst_3 : Ref sig .tc := ⟨.hbm, 557, rfl⟩
abbrev main_call14_v12 : Ref sig .tc := ⟨.hbm, 558, rfl⟩
abbrev main_call14_cst_4 : Ref sig .tc := ⟨.hbm, 559, rfl⟩
abbrev main_call14_call0_v0 : Ref sig .tc := ⟨.hbm, 560, rfl⟩
abbrev main_call14_call0_v1 : Ref sig .tc := ⟨.hbm, 561, rfl⟩
abbrev main_v313 : Ref sig .tc := ⟨.hbm, 562, rfl⟩
abbrev main_v314 : Ref sig .tc := ⟨.hbm, 563, rfl⟩
abbrev main_v315 : Ref sig .tc := ⟨.hbm, 564, rfl⟩
abbrev main_v316 : Ref sig .tc := ⟨.hbm, 565, rfl⟩
abbrev main_cst_46 : Ref sig .tc := ⟨.hbm, 566, rfl⟩
abbrev main_v317 : Ref sig .tc := ⟨.hbm, 567, rfl⟩
abbrev main_v318 : Ref sig .tc := ⟨.hbm, 568, rfl⟩
abbrev main_v319 : Ref sig .tc := ⟨.hbm, 569, rfl⟩
abbrev main_v320 : Ref sig .tc := ⟨.hbm, 570, rfl⟩
abbrev main_v321 : Ref sig .tc := ⟨.hbm, 571, rfl⟩
abbrev main_v322 : Ref sig .tc := ⟨.hbm, 572, rfl⟩
abbrev main_v323 : Ref sig .tc := ⟨.hbm, 573, rfl⟩
abbrev main_v324 : Ref sig .tc := ⟨.hbm, 574, rfl⟩
abbrev main_v325 : Ref sig .tc := ⟨.hbm, 575, rfl⟩
abbrev main_v326 : Ref sig .tc := ⟨.hbm, 576, rfl⟩
abbrev main_v327 : Ref sig .tc := ⟨.hbm, 577, rfl⟩
abbrev main_v328 : Ref sig .tc := ⟨.hbm, 578, rfl⟩
abbrev main_call15_cst : Ref sig .tc := ⟨.hbm, 579, rfl⟩
abbrev main_call15_v0 : Ref sig .tc := ⟨.hbm, 580, rfl⟩
abbrev main_v329 : Ref sig .tc := ⟨.hbm, 581, rfl⟩
abbrev main_cst_47 : Ref sig .tc := ⟨.hbm, 582, rfl⟩
abbrev main_v330 : Ref sig .tc := ⟨.hbm, 583, rfl⟩
abbrev main_v331 : Ref sig .tc := ⟨.hbm, 584, rfl⟩
abbrev main_v332 : Ref sig .tc := ⟨.hbm, 585, rfl⟩
abbrev main_cst_48 : Ref sig .tc := ⟨.hbm, 586, rfl⟩
abbrev main_v333 : Ref sig .tc := ⟨.hbm, 587, rfl⟩
abbrev main_cst_49 : Ref sig .tc := ⟨.hbm, 588, rfl⟩
abbrev main_v334 : Ref sig .tc := ⟨.hbm, 589, rfl⟩
abbrev main_v335 : Ref sig .tc := ⟨.hbm, 590, rfl⟩
abbrev main_v336 : Ref sig .tc := ⟨.hbm, 591, rfl⟩
abbrev main_cst_50 : Ref sig .tc := ⟨.hbm, 592, rfl⟩
abbrev main_v337 : Ref sig .tc := ⟨.hbm, 593, rfl⟩
abbrev main_v338 : Ref sig .tc := ⟨.hbm, 594, rfl⟩
abbrev main_v339 : Ref sig .tc := ⟨.hbm, 595, rfl⟩
abbrev main_v340 : Ref sig .tc := ⟨.hbm, 596, rfl⟩
abbrev main_v341 : Ref sig .tc := ⟨.hbm, 597, rfl⟩
abbrev main_v342 : Ref sig .tc := ⟨.hbm, 598, rfl⟩
abbrev main_v343 : Ref sig .tc := ⟨.hbm, 599, rfl⟩
abbrev main_v344 : Ref sig .tc := ⟨.hbm, 600, rfl⟩
abbrev main_v345 : Ref sig .tc := ⟨.hbm, 601, rfl⟩
abbrev main_call16_cst : Ref sig .tc := ⟨.hbm, 602, rfl⟩
abbrev main_call16_v0 : Ref sig .tc := ⟨.hbm, 603, rfl⟩
abbrev main_v346 : Ref sig .tc := ⟨.hbm, 604, rfl⟩
abbrev main_v347 : Ref sig .tc := ⟨.hbm, 605, rfl⟩
abbrev main_v348 : Ref sig .tc := ⟨.hbm, 606, rfl⟩
abbrev main_v349 : Ref sig .tc := ⟨.hbm, 607, rfl⟩
abbrev main_v350 : Ref sig .tc := ⟨.hbm, 608, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S50000x3_S50000x3_S50000x6_d1 : Shape.Concatenates [S50000x3, S50000x3] S50000x6 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S1 : S_.BroadcastsInDim S1 (![] : Fin 0 → Fin S1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S4_S1_0 : S4.Slices ![0] S1
  shapeCasts_S1_S_ : S1.ShapeCasts S_
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S4_S1_1 : S4.Slices ![1] S1
  slices_S4x64x64_S1x64x64_1_0_0 : S4x64x64.Slices ![1, 0, 0] S1x64x64
  slices_S4x64_S1x64_1_0 : S4x64.Slices ![1, 0] S1x64
  slices_S4_S1_2 : S4.Slices ![2] S1
  slices_S4x64x64_S1x64x64_2_0_0 : S4x64x64.Slices ![2, 0, 0] S1x64x64
  slices_S4x64_S1x64_2_0 : S4x64.Slices ![2, 0] S1x64
  slices_S4_S1_3 : S4.Slices ![3] S1
  slices_S4x64x64_S1x64x64_3_0_0 : S4x64x64.Slices ![3, 0, 0] S1x64x64
  slices_S4x64_S1x64_3_0 : S4x64.Slices ![3, 0] S1x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S50000x6_S6x64_S50000x64_1_0_0_1_n_n_wf : DotDims.WF S50000x6 S6x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []
  dot_S512x64_S64x10_S512x10_1_0_0_1_n_n_wf : DotDims.WF S512x64 S64x10 S512x10 [1] [0] [0] [1] [] []

variable [Facts₀]

def dot_S50000x6_S6x64_S50000x64_1_0_0_1_n_n : DotDims S50000x6 S6x64 S50000x64 where
  lhsContracting := [1]
  rhsContracting := [0]
  lhsNonContracting := [0]
  rhsNonContracting := [1]
  lhsBatch := []
  rhsBatch := []
  wf := dot_S50000x6_S6x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KB.Reg0.lean ====
/- The embedding region, at the TensorCore's buffer contents V on entry, for any float type F.
   Four windows over a grid of ten row blocks: the row block of the node features (5000 x 6), the weight matrix
   (6 x 64), the bias row (1 x 64), and the output row block (5000 x 64).
   The body reads the three inputs whole and stores the output block whole, at every point, and keeps nothing from
   one point to the next; so after the body each input buffer still holds its block and the output buffer holds
   one payload: the features times the weights plus the bias row, as the skeleton names it. -/
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 5000-row rectangle is looked at structurally, once per row
set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input buffer holds its window's block at every point. The feature block moves with the point and is fetched
    each time; the weights and the bias are fetched at the first point only, and later points find them where they
    were left, which is right because their block index never moves. One library fact covers both: for proof data
    whose array is the entry contents and whose body leaves the block where it was, the buffer is what a fetch would
    put there. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body touches -/

/-- The whole of a 5000 x 6 feature block. -/
abbrev featRect0 : Rect S5000x6 := Rect.unit (s := S5000x6) ![0, 0] S5000x6.size inb_S5000x6_S5000x6_0_0
/-- The whole of the 6 x 64 weight matrix. -/
abbrev weightRect0 : Rect S6x64 := Rect.unit (s := S6x64) ![0, 0] S6x64.size inb_S6x64_S6x64_0_0
/-- The whole of the 1 x 64 bias row. -/
abbrev biasRect0 : Rect S1x64 := Rect.unit (s := S1x64) ![0, 0] S1x64.size inb_S1x64_S1x64_0_0
/-- The whole of a 5000 x 64 output block: the rectangle of the output's read and of its store. -/
abbrev embRect0 : Rect S5000x64 := Rect.unit (s := S5000x64) ![0, 0] S5000x64.size inb_S5000x64_S5000x64_0_0

/-! ## What the body leaves in the output buffer -/

/-- The output buffer after the body, from the three input blocks (features, weights, bias): the single store's
    payload over the whole block, whatever the buffer held before. -/
def out0_3 (x : Vec F S5000x6 .f32) (wt : Vec F S6x64 .f32) (bias : Vec F S1x64 .f32) : Vec F S5000x64 .f32 :=
  View.canon [⟨embRect0, k0_pay1 (View.ld x featRect0) (View.ld wt weightRect0) (View.ld bias biasRect0)⟩]

/-- The one store's rectangle is the whole block, so every index of the buffer lies in it. -/
theorem cover0_3 (p : Vec F S5000x64 .f32) (y : S5000x64.Idx) :
    ∃ pc ∈ ([⟨embRect0, p⟩] : List (View.Piece (Elt F) S5000x64 .f32)), y ∈ pc.1.set :=
  View.cover_of_tiled [⟨embRect0, p⟩] S5000x64.size (by rfl) y

/-! ## The body's triple -/

set_option maxHeartbeats 1000000 in
/-- Run on whole buffers — the three inputs' reading x, wt, bias and the output's holding anything — the body hands
    its continuation the inputs as they were and the output at out0_3 of them. The printed function is its skeleton
    of loads and one store; the loads read the owned contents through whole rectangles, the output's own read is
    of whatever it held and is not used, and the store covers the buffer. -/
theorem sound_kernel0 (c : Dev nD) (E : Set ℕ) (i : grid0.Coords)
    (arg1 : Memref sig .tc .vmem S5000x6 .f32) (harg1 : arg1.IsWhole) (arg2 : Memref sig .tc .vmem S6x64 .f32) (harg2 : arg2.IsWhole)
    (arg3 : Memref sig .tc .vmem S1x64 .f32) (harg3 : arg3.IsWhole) (arg4 : Memref sig .tc .vmem S5000x64 .f32) (harg4 : arg4.IsWhole)
    (x : Vec F S5000x6 .f32) (wt : Vec F S6x64 .f32) (bias : Vec F S1x64 .f32) (K : PUnit → sProp 𝕄) :
    iprop(owns (c : Thread nD τ) arg1 fullShare x ∗ owns (c : Thread nD τ) arg2 fullShare wt ∗ owns (c : Thread nD τ) arg3 fullShare bias
        ∗ (∃ d, owns (c : Thread nD τ) arg4 fullShare d)
        ∗ (iprop(owns (c : Thread nD τ) arg1 fullShare x ∗ owns (c : Thread nD τ) arg2 fullShare wt ∗ owns (c : Thread nD τ) arg3 fullShare bias
            ∗ owns (c : Thread nD τ) arg4 fullShare (out0_3 x wt bias)) -∗ K ⟨⟩))
      ⊢ wp frame (wpE (defs₀ (F := F)) Variants.none c none) E (cc0_embed_kernel i arg1 harg1 arg2 harg2 arg3 harg3 arg4 harg4) K := by
  simp only [cc0_embed_kernel_eq_skeleton]; unfold cc0_embed_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-! ## The region's proof data -/

/-- The arrays are the entry contents; after the body at point t each input buffer holds its block and the output
    buffer out0_3 of the three input blocks there; the invariant is the one of a body that touches nothing but its
    buffers; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the pipeline calls the body with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it has to give back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the body's triple applies; the invariant and what is
    owed go through untouched, being the same before and after a point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this region's proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KB.Reg1.RunFirst.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero1_first : (![0, 0] : Fin 2 → Nat) = fun _ => 0 := funext fun a => by fin_cases a <;> rfl

/-- A store through the whole-shape rectangle, made last, leaves its payload, whatever was stored before. -/
theorem storeWhole1_first {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole1_first {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the first point: the first conditional block runs and zeroes both accumulators, the last does not run. On
    whole memrefs — the five inputs at their contents, the big output and both accumulators at anything, the two small
    outputs at contents handed back untouched — it stores the affine image of the inputs into the big output and leaves
    in the accumulators the zero rows plus that block's column sums and the column sums of its square. -/
theorem run1_first (c : Dev nD) (i : grid1.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : (Scalar.cmpi .ne (Scalar.extui (Scalar.cmpi .eq (BitVec.ofNat 32 (i 0).val) 0#32)) 0#32) = 1#1) (hlast : ¬ k1_cond2 i = 1#1)
    (x1 x2 : Vec F S5000x64 .f32) (x3 : Vec F S1x64 .f32) (x4 : Vec F S64x64 .f32) (x5 : Vec F S1x64 .f32)
    (y7 y8 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k1_pay4 x3 x1 x2 x4 x5) ∗ owns (c : Thread nD τ) arg7 fullShare y7 ∗ owns (c : Thread nD τ) arg8 fullShare y8
            ∗ owns (c : Thread nD τ) arg9 fullShare (k1_pay5 x3 x1 x2 x4 x5 k1_pay2)
            ∗ owns (c : Thread nD τ) arg10 fullShare (k1_pay1 k1_pay3 (k1_pay6 x3 x1 x2 x4 x5))) -∗ K ⟨⟩))
      ⊢ wp frame (wpE (defs₀ (F := F)) Variants.none c none) E (cc1_linear_stats_kernel i arg1 harg1 arg2 harg2 arg3 harg3 arg4 harg4 arg5 harg5 arg6 harg6 arg7 harg7 arg8 harg8 arg9 harg9 arg10 harg10) K := by
  simp only [cc1_linear_stats_kernel_eq_skeleton]; unfold cc1_linear_stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole1_first (S := S5000x64) _ _ offsZero1_first inb_S5000x64_S5000x64_0_0 _ _).trans ?_
    simp only [View.readCov_unit_zero (S := S1x64) _ offsZero1_first, loadWhole1_first (S := S1x64) _ offsZero1_first, loadWhole1_first (S := S5000x64) _ offsZero1_first, loadWhole1_first (S := S64x64) _ offsZero1_first]
  isplitl [H7]; · iexact H7
  isplitl [H8]; · iexact H8
  isplitl [H9]
  · iexists _; isplitr
    swap; · iexact H9
    ipureintro
    (try sl_unfold_words)
    refine (storeWhole1_first (S := S1x64) _ _ offsZero1_first inb_S1x64_S1x64_0_0 _ _).trans ?_
    simp only [View.readCov_unit_zero (S := S1x64) _ offsZero1_first, loadWhole1_first (S := S1x64) _ offsZero1_first, loadWhole1_first (S := S5000x64) _ offsZero1_first, loadWhole1_first (S := S64x64) _ offsZero1_first]
  iexists _; isplitr
  swap; · iexact H10
  ipureintro
  (try sl_unfold_words)
  refine (storeWhole1_first (S := S1x64) _ _ offsZero1_first inb_S1x64_S1x64_0_0 _ _).trans ?_
  simp only [View.readCov_unit_zero (S := S1x64) _ offsZero1_first, loadWhole1_first (S := S1x64) _ offsZero1_first, loadWhole1_first (S := S5000x64) _ offsZero1_first, loadWhole1_first (S := S64x64) _ offsZero1_first]

end Cert.Kernel.Gen
end
-- ==== Proof.KB.Reg1.RunMid.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero1_mid : (![0, 0] : Fin 2 → Nat) = fun _ => 0 := funext fun a => by fin_cases a <;> rfl

/-- A store through the whole-shape rectangle, made last, leaves its payload, whatever was stored before. -/
theorem storeWhole1_mid {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole1_mid {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at a point that is neither the first nor the last: neither conditional block runs. On whole memrefs — the five
    inputs at their contents, the big output at anything, the two small outputs at contents handed back untouched, the
    two accumulators at what the points before left — it stores the affine image of the inputs into the big output and
    adds that block's column sums, and the column sums of its square, to the two accumulators. -/
theorem run1_mid (c : Dev nD) (i : grid1.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : ¬ k1_cond2 i = 1#1)
    (x1 x2 : Vec F S5000x64 .f32) (x3 : Vec F S1x64 .f32) (x4 : Vec F S64x64 .f32) (x5 : Vec F S1x64 .f32)
    (y7 y8 s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k1_pay4 x3 x1 x2 x4 x5) ∗ owns (c : Thread nD τ) arg7 fullShare y7 ∗ owns (c : Thread nD τ) arg8 fullShare y8
            ∗ owns (c : Thread nD τ) arg9 fullShare (k1_pay5 x3 x1 x2 x4 x5 s0)
            ∗ owns (c : Thread nD τ) arg10 fullShare (k1_pay1 s1 (k1_pay6 x3 x1 x2 x4 x5))) -∗ K ⟨⟩))
      ⊢ wp frame (wpE (defs₀ (F := F)) Variants.none c none) E (cc1_linear_stats_kernel i arg1 harg1 arg2 harg2 arg3 harg3 arg4 harg4 arg5 harg5 arg6 harg6 arg7 harg7 arg8 harg8 arg9 harg9 arg10 harg10) K := by
  simp only [cc1_linear_stats_kernel_eq_skeleton]; unfold cc1_linear_stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole1_mid (S := S5000x64) _ _ offsZero1_mid inb_S5000x64_S5000x64_0_0 _ _).trans ?_
    simp only [View.readCov_unit_zero (S := S1x64) _ offsZero1_mid, loadWhole1_mid (S := S1x64) _ offsZero1_mid, loadWhole1_mid (S := S5000x64) _ offsZero1_mid, loadWhole1_mid (S := S64x64) _ offsZero1_mid]
  isplitl [H7]; · iexact H7
  isplitl [H8]; · iexact H8
  isplitl [H9]
  · iexists _; isplitr
    swap; · iexact H9
    ipureintro
    (try sl_unfold_words)
    refine (storeWhole1_mid (S := S1x64) _ _ offsZero1_mid inb_S1x64_S1x64_0_0 _ _).trans ?_
    simp only [View.readCov_unit_zero (S := S1x64) _ offsZero1_mid, loadWhole1_mid (S := S1x64) _ offsZero1_mid, loadWhole1_mid (S := S5000x64) _ offsZero1_mid, loadWhole1_mid (S := S64x64) _ offsZero1_mid]
  iexists _; isplitr
  swap; · iexact H10
  ipureintro
  (try sl_unfold_words)
  refine (storeWhole1_mid (S := S1x64) _ _ offsZero1_mid inb_S1x64_S1x64_0_0 _ _).trans ?_
  simp only [View.readCov_unit_zero (S := S1x64) _ offsZero1_mid, loadWhole1_mid (S := S1x64) _ offsZero1_mid, loadWhole1_mid (S := S5000x64) _ offsZero1_mid, loadWhole1_mid (S := S64x64) _ offsZero1_mid]

end Cert.Kernel.Gen
end
-- ==== Proof.KB.Reg1.RunLast.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero1_last : (![0, 0] : Fin 2 → Nat) = fun _ => 0 := funext fun a => by fin_cases a <;> rfl

/-- A store through the whole-shape rectangle, made last, leaves its payload, whatever was stored before. -/
theorem storeWhole1_last {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole1_last {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the last point: the first conditional block does not run, the last one does and copies the two
    accumulators into the two small outputs. On whole memrefs — the five inputs at their contents, the three outputs at
    anything, the two accumulators at what the points before left — it stores the affine image of the inputs into the
    big output, adds that block's column sums and the column sums of its square to the accumulators, and leaves each small
    output at its accumulator's final contents. -/
theorem run1_last (c : Dev nD) (i : grid1.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : k1_cond2 i = 1#1)
    (x1 x2 : Vec F S5000x64 .f32) (x3 : Vec F S1x64 .f32) (x4 : Vec F S64x64 .f32) (x5 : Vec F S1x64 .f32)
    (s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k1_pay4 x3 x1 x2 x4 x5)
            ∗ owns (c : Thread nD τ) arg7 fullShare (k1_pay5 x3 x1 x2 x4 x5 s0)
            ∗ owns (c : Thread nD τ) arg8 fullShare (k1_pay1 s1 (k1_pay6 x3 x1 x2 x4 x5))
            ∗ owns (c : Thread nD τ) arg9 fullShare (k1_pay5 x3 x1 x2 x4 x5 s0)
            ∗ owns (c : Thread nD τ) arg10 fullShare (k1_pay1 s1 (k1_pay6 x3 x1 x2 x4 x5))) -∗ K ⟨⟩))
      ⊢ wp frame (wpE (defs₀ (F := F)) Variants.none c none) E (cc1_linear_stats_kernel i arg1 harg1 arg2 harg2 arg3 harg3 arg4 harg4 arg5 harg5 arg6 harg6 arg7 harg7 arg8 harg8 arg9 harg9 arg10 harg10) K := by
  simp only [cc1_linear_stats_kernel_eq_skeleton]; unfold cc1_linear_stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole1_last (S := S5000x64) _ _ offsZero1_last inb_S5000x64_S5000x64_0_0 _ _).trans ?_
    simp only [View.readCov_unit_zero (S := S1x64) _ offsZero1_last, loadWhole1_last (S := S1x64) _ offsZero1_last, loadWhole1_last (S := S5000x64) _ offsZero1_last, loadWhole1_last (S := S64x64) _ offsZero1_last]
  isplitl [H7]
  · iexists _; isplitr
    swap; · iexact H7
    ipureintro
    (try sl_unfold_words)
    refine (storeWhole1_last (S := S1x64) _ _ offsZero1_last inb_S1x64_S1x64_0_0 _ _).trans ?_
    simp only [View.readCov_unit_zero (S := S1x64) _ offsZero1_last, loadWhole1_last (S := S1x64) _ offsZero1_last, loadWhole1_last (S := S5000x64) _ offsZero1_last, loadWhole1_last (S := S64x64) _ offsZero1_last]
  isplitl [H8]
  · iexists _; isplitr
    swap; · iexact H8
    ipureintro
    (try sl_unfold_words)
    refine (storeWhole1_last (S := S1x64) _ _ offsZero1_last inb_S1x64_S1x64_0_0 _ _).trans ?_
    simp only [View.readCov_unit_zero (S := S1x64) _ offsZero1_last, loadWhole1_last (S := S1x64) _ offsZero1_last, loadWhole1_last (S := S5000x64) _ offsZero1_last, loadWhole1_last (S := S64x64) _ offsZero1_last]
  isplitl [H9]
  · iexists _; isplitr
    swap; · iexact H9
    ipureintro
    (try sl_unfold_words)
    refine (storeWhole1_last (S := S1x64) _ _ offsZero1_last inb_S1x64_S1x64_0_0 _ _).trans ?_
    simp only [View.readCov_unit_zero (S := S1x64) _ offsZero1_last, loadWhole1_last (S := S1x64) _ offsZero1_last, loadWhole1_last (S := S5000x64) _ offsZero1_last, loadWhole1_last (S := S64x64) _ offsZero1_last]
  iexists _; isplitr
  swap; · iexact H10
  ipureintro
  (try sl_unfold_words)
  refine (storeWhole1_last (S := S1x64) _ _ offsZero1_last inb_S1x64_S1x64_0_0 _ _).trans ?_
  simp only [View.readCov_unit_zero (S := S1x64) _ offsZero1_last, loadWhole1_last (S := S1x64) _ offsZero1_last, loadWhole1_last (S := S5000x64) _ offsZero1_last, loadWhole1_last (S := S64x64) _ offsZero1_last]

end Cert.Kernel.Gen
end
-- ==== Proof.KB.Reg1.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«140206_j52750788330061_1_alg».proof.Proof.KB.Reg1.RunFirst
import proofs.«140206_j52750788330061_1_alg».proof.Proof.KB.Reg1.RunMid
import proofs.«140206_j52750788330061_1_alg».proof.Proof.KB.Reg1.RunLast
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points run which conditional block -/

/-- The first block's condition, as the body computes it from the grid coordinate, holds at point 0 only. -/
theorem first1_iff : ∀ t : Fin cfg1.N,
    (Scalar.cmpi .ne (Scalar.extui (Scalar.cmpi .eq (BitVec.ofNat 32 ((grid1.coords t) 0).val) 0#32)) 0#32) = 1#1 ↔ t.val = 0 :=
  (by decide +kernel : ∀ t : Fin grid1.N,
    (Scalar.cmpi .ne (Scalar.extui (Scalar.cmpi .eq (BitVec.ofNat 32 ((grid1.coords t) 0).val) 0#32)) 0#32) = 1#1 ↔ t.val = 0)

/-- The last block's condition holds at point 9 only. -/
theorem last1_iff : ∀ t : Fin cfg1.N, k1_cond2 (grid1.coords t) = 1#1 ↔ t.val = 9 :=
  (by decide +kernel : ∀ t : Fin grid1.N, k1_cond2 (grid1.coords t) = 1#1 ↔ t.val = 9)

/-- The two small outputs are idle at every point but the last, -/
theorem idleAt1_6 : ∀ t : Fin cfg1.N, t.val ≠ 9 → cfg1.idle 6 (grid1.coords t) = true := by decide +kernel
theorem idleAt1_7 : ∀ t : Fin cfg1.N, t.val ≠ 9 → cfg1.idle 7 (grid1.coords t) = true := by decide +kernel
/-- live at the last, -/
theorem liveAt1_6 : ∀ t : Fin cfg1.N, t.val = 9 → cfg1.idle 6 (grid1.coords t) = false := by decide +kernel
theorem liveAt1_7 : ∀ t : Fin cfg1.N, t.val = 9 → cfg1.idle 7 (grid1.coords t) = false := by decide +kernel
/-- and not written back before it. -/
theorem noFlush1_6 : ∀ t : Fin cfg1.N, t.val ≠ 9 → (cfg1.win 6).flush t = false :=
  (by decide +kernel : ∀ t : Fin grid1.N, t.val ≠ 9 → win1_6.flush t = false)
theorem noFlush1_7 : ∀ t : Fin cfg1.N, t.val ≠ 9 → (cfg1.win 7).flush t = false :=
  (by decide +kernel : ∀ t : Fin grid1.N, t.val ≠ 9 → win1_7.flush t = false)

variable (V : (c : Dev nD) → (b : Ref sig .tc) → Buf (Elt F) ((c : Thread nD τ).loc b))

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (the three small
    inputs are fetched once, at the first point, and their block index never moves), for any proof data whose array is
    `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two running column sums -/

/-- What the two accumulators hold after the first `n` points: zero rows before any point; each point adds the column
    sums of its affine block to the first and the column sums of that block's square to the second. -/
noncomputable def acc1 (c : Dev nD) : ℕ → Vec F S1x64 .f32 × Vec F S1x64 .f32
  | 0 => (k1_pay2, k1_pay3)
  | n + 1 =>
    if h : n < cfg1.N then
      (k1_pay5 (iblk1 V c 2 ⟨n, h⟩) (iblk1 V c 0 ⟨n, h⟩) (iblk1 V c 1 ⟨n, h⟩) (iblk1 V c 3 ⟨n, h⟩) (iblk1 V c 4 ⟨n, h⟩) (acc1 c n).1,
        k1_pay1 (acc1 c n).2 (k1_pay6 (iblk1 V c 2 ⟨n, h⟩) (iblk1 V c 0 ⟨n, h⟩) (iblk1 V c 1 ⟨n, h⟩) (iblk1 V c 3 ⟨n, h⟩) (iblk1 V c 4 ⟨n, h⟩)))
    else acc1 c n

/-- Before any point both accumulators are the zero rows. -/
theorem acc1_zero (c : Dev nD) : acc1 V c 0 = (k1_pay2, k1_pay3) := rfl

/-- One point's step: the accumulators after point `n` from those before it and the point's input blocks. -/
theorem acc1_succ (c : Dev nD) (n : ℕ) (h : n < cfg1.N) :
    acc1 V c (n + 1) =
      (k1_pay5 (iblk1 V c 2 ⟨n, h⟩) (iblk1 V c 0 ⟨n, h⟩) (iblk1 V c 1 ⟨n, h⟩) (iblk1 V c 3 ⟨n, h⟩) (iblk1 V c 4 ⟨n, h⟩) (acc1 V c n).1,
        k1_pay1 (acc1 V c n).2 (k1_pay6 (iblk1 V c 2 ⟨n, h⟩) (iblk1 V c 0 ⟨n, h⟩) (iblk1 V c 1 ⟨n, h⟩) (iblk1 V c 3 ⟨n, h⟩) (iblk1 V c 4 ⟨n, h⟩))) := by
  rw [acc1]; exact dif_pos h

/-- The first point's step, from the zero rows. -/
theorem acc1_zero_step (c : Dev nD) :
    acc1 V c 1 =
      (k1_pay5 (iblk1 V c 2 t1_0) (iblk1 V c 0 t1_0) (iblk1 V c 1 t1_0) (iblk1 V c 3 t1_0) (iblk1 V c 4 t1_0) k1_pay2,
        k1_pay1 k1_pay3 (k1_pay6 (iblk1 V c 2 t1_0) (iblk1 V c 0 t1_0) (iblk1 V c 1 t1_0) (iblk1 V c 3 t1_0) (iblk1 V c 4 t1_0))) :=
  acc1_succ V c 0 t1_0.isLt

/-! ## The invariant between points -/

/-- The two accumulators, as whole memrefs of the kernel's own scoped buffers. -/
abbrev sc1_0 : Memref sig .tc .vmem S1x64 .f32 := Memref.whole cc1_scratch0
abbrev sc1_1 : Memref sig .tc .vmem S1x64 .f32 := Memref.whole cc1_scratch1

/-- Every other scoped buffer of the core that is no staging buffer of this call, at some contents each. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the launch hands the region, with the two accumulators named: each at some contents, beside the other scoped
    buffers and the generator register. -/
theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d)) ∗ rest1 c)
          ∗ (∃ r, prngReg c r)) := by
  unfold Pipeline.ΦA; rw [scopedRest1_split]; simp only [sc1_0, sc1_1, owns_whole]; try rfl

/-- The invariant before position `n`: before the first point what the launch hands over; afterwards the two accumulators
    at the running column sums over the points so far, beside the other scoped buffers and the generator register. -/
noncomputable def Phi1 (c : Dev nD) : ℕ → sProp 𝕄
  | 0 => Pipeline.ΦA spec1 c
  | n + 1 =>
    iprop(iprop(iprop(owns (c : Thread nD τ) sc1_0 fullShare (acc1 V c (n + 1)).1 ∗ owns (c : Thread nD τ) sc1_1 fullShare (acc1 V c (n + 1)).2) ∗ rest1 c)
      ∗ (∃ r, prngReg c r))

theorem Phi1_zero (c : Dev nD) : Phi1 V c 0 = Pipeline.ΦA spec1 c := rfl

theorem Phi1_succ (c : Dev nD) (n : ℕ) :
    Phi1 V c (n + 1) =
      iprop(iprop(iprop(owns (c : Thread nD τ) sc1_0 fullShare (acc1 V c (n + 1)).1 ∗ owns (c : Thread nD τ) sc1_1 fullShare (acc1 V c (n + 1)).2) ∗ rest1 c)
        ∗ (∃ r, prngReg c r)) := rfl

/-- After any point the accumulators are named. -/
theorem Phi1_pos (c : Dev nD) (n : ℕ) (hn : n ≠ 0) :
    Phi1 V c n =
      iprop(iprop(iprop(owns (c : Thread nD τ) sc1_0 fullShare (acc1 V c n).1 ∗ owns (c : Thread nD τ) sc1_1 fullShare (acc1 V c n).2) ∗ rest1 c)
        ∗ (∃ r, prngReg c r)) := by
  cases n with
  | zero => exact absurd rfl hn
  | succ n => rfl

/-! ## The proof data -/

/-- The proof data of this call on core `c`: the arrays as the region finds them (`V`); after the body at point `t` each
    input's buffer at its block, the big output's at the affine image of the point's blocks, each small output's at its
    running column sum through point `t` (consulted at the last point only: before it the window is idle); the invariant
    `Phi1`; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay4 (iblk1 V c 2 t) (iblk1 V c 0 t) (iblk1 V c 1 t) (iblk1 V c 3 t) (iblk1 V c 4 t)
    | ⟨6, _⟩ => (acc1 V c (t.val + 1)).1
    | ⟨7, _⟩ => (acc1 V c (t.val + 1)).2
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_big (c : Dev nD) (t : Fin cfg1.N) :
    (dat1 V c).after 5 t = k1_pay4 (iblk1 V c 2 t) (iblk1 V c 0 t) (iblk1 V c 1 t) (iblk1 V c 3 t) (iblk1 V c 4 t) := by dsimp only [dat1]
theorem after1_6 (c : Dev nD) (t : Fin cfg1.N) : (dat1 V c).after 6 t = (acc1 V c (t.val + 1)).1 := by dsimp only [dat1]
theorem after1_7 (c : Dev nD) (t : Fin cfg1.N) : (dat1 V c).after 7 t = (acc1 V c (t.val + 1)).2 := by dsimp only [dat1]
/-- At the last point the small outputs hold the column sums over all ten points. -/
theorem after1_s (c : Dev nD) : (dat1 V c).after 6 t1_9 = (acc1 V c 10).1 := after1_6 V c t1_9
theorem after1_ss (c : Dev nD) : (dat1 V c).after 7 t1_9 = (acc1 V c 10).2 := after1_7 V c t1_9

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The invariant at a point's start and end, at the point's number. -/
theorem Phi1_castSucc (c : Dev nD) (t : Fin cfg1.N) : (dat1 V c).Φ t.castSucc = Phi1 V c t.val := by
  dsimp only [dat1]; simp only [Fin.coe_castSucc]
theorem Phi1_succ_pt (c : Dev nD) (t : Fin cfg1.N) : (dat1 V c).Φ t.succ = Phi1 V c (t.val + 1) := by
  dsimp only [dat1]; simp only [Fin.val_succ]

/-- What the launch hands the region is the invariant before the first point. -/
theorem hin1 (c : Dev nD) : Pipeline.ΦA spec1 c ⊢ (dat1 V c).Φ 0 := by
  rw [show (dat1 V c).Φ 0 = Phi1 V c 0 from rfl, Phi1_zero]
  try exact Idealize.SL.BI.Entails.refl _

/-- After the last point the invariant gives it back: the accumulators' named contents are forgotten. -/
theorem hout1 (c : Dev nD) : (dat1 V c).Φ (Fin.last cfg1.N) ⊢ Pipeline.ΦA spec1 c := by
  rw [show (dat1 V c).Φ (Fin.last cfg1.N) = Phi1 V c cfg1.N from rfl,
    Phi1_pos V c cfg1.N (by have : cfg1.N = 10 := N_1; omega), PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! ## The body obligation -/

/-- What the body is called with at point `t`, the windows one by one, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- The inputs and the big output are live at every point: the body leaves each at its stated contents. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) :
    (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) :
    (dat1 V c).leavesExact 5 t = owns (c : Thread nD τ) (st1_5 t) fullShare
      (k1_pay4 (iblk1 V c 2 t) (iblk1 V c 0 t) (iblk1 V c 1 t) (iblk1 V c 3 t) (iblk1 V c 4 t)) := by
  unfold Dat.leavesExact; rw [show cfg1.idle 5 (cfg1.grid.coords t) = false from rfl, after1_big]
/-- The small outputs are live at the last point. -/
theorem leaves1_6_last (c : Dev nD) (t : Fin cfg1.N) (h9 : t.val = 9) :
    (dat1 V c).leavesExact 6 t = owns (c : Thread nD τ) (st1_6 t) fullShare (acc1 V c (t.val + 1)).1 := by
  unfold Dat.leavesExact; rw [liveAt1_6 t h9, after1_6]
theorem leaves1_7_last (c : Dev nD) (t : Fin cfg1.N) (h9 : t.val = 9) :
    (dat1 V c).leavesExact 7 t = owns (c : Thread nD τ) (st1_7 t) fullShare (acc1 V c (t.val + 1)).2 := by
  unfold Dat.leavesExact; rw [liveAt1_7 t h9, after1_7]

set_option maxHeartbeats 4000000 in
/-- The body at any point. The inputs' memrefs hold their blocks; the point's number says which of the three control
    cases it is in, and that case's run applies. The invariant hands the body the two accumulators — at anything at the
    first point, at the running sums afterwards — and takes them back at the sums through this point; the other scoped
    buffers, the generator register and the core's dues pass through untouched. Before the last point the small outputs'
    buffers are handed back as found; at the last they come back at the final sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi1_castSucc, Phi1_succ_pt, Phi1_succ]
  rw [leaves1_0, leaves1_1, leaves1_2, leaves1_3, leaves1_4, leaves1_5]
  have hN : t.val < 10 := lt_of_lt_of_eq t.isLt (show cfg1.N = 10 from N_1)
  by_cases h9 : t.val = 9
  · have h0 : t.val ≠ 0 := by omega
    rw [leaves1_6_last V c t h9, leaves1_7_last V c t h9, acc1_succ V c t.val t.isLt, Phi1_pos V c t.val h0]
    simp only [Fin.eta]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_last c (grid1.coords t) _ _ _ _ _ _ _ _ _ _ _ _ _ _ _ _ _ _ _ _ (fun h => h0 ((first1_iff t).mp h)) ((last1_iff t).mpr h9)
      (iblk1 V c 0 t) (iblk1 V c 1 t) (iblk1 V c 2 t) (iblk1 V c 3 t) (iblk1 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat1 V c) 6 t (idleAt1_6 t h9) (noFlush1_6 t h9),
      Dat.leavesExact_idle (dat1 V c) 7 t (idleAt1_7 t h9) (noFlush1_7 t h9), acc1_succ V c t.val t.isLt]
    simp only [Fin.eta]
    by_cases h0 : t.val = 0
    · rw [show Phi1 V c t.val = Pipeline.ΦA spec1 c from by rw [h0]; rfl,
        show acc1 V c t.val = (k1_pay2, k1_pay3) from by rw [h0]; rfl, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_first c (grid1.coords t) _ _ _ _ _ _ _ _ _ _ _ _ _ _ _ _ _ _ _ _ ((first1_iff t).mpr h0) (fun h => h9 ((last1_iff t).mp h))
        (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [Phi1_pos V c t.val h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_mid c (grid1.coords t) _ _ _ _ _ _ _ _ _ _ _ _ _ _ _ _ _ _ _ _ (fun h => h0 ((first1_iff t).mp h)) (fun h => h9 ((last1_iff t).mp h))
        (iblk1 V c 0 t) (iblk1 V c 1 t) (iblk1 V c 2 t) (iblk1 V c 3 t) (iblk1 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen
end
-- ==== Proof.KB.Reg2.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Batch-norm, relu and a linear map of a row block, with the column sums of the result and of its square
accumulated over the ten row blocks -/

/-- The offsets of every access of this kernel are zero. -/
theorem hzeroR2 : (![0, 0] : Fin 2 → Nat) = fun _ => 0 := funext fun a => by fin_cases a <;> rfl

/-! ## The body's two branch conditions -/

/-- The first conditional (the accumulators are zeroed) tests the row-block number against 0. -/
abbrev cond2_0 (i : grid2.Coords) : Prop := (Scalar.cmpi .ne (Scalar.extui (Scalar.cmpi .eq (BitVec.ofNat 32 (i 0).val) 0#32)) 0#32) = 1#1
/-- The second (the accumulators are copied to the two small outputs) tests it against 9. -/
abbrev cond2_1 (i : grid2.Coords) : Prop := k2_cond2 i = 1#1

/-- The first holds at row block 0 only. -/
theorem hcond2_0 : ∀ t : Fin cfg2.N, cond2_0 (grid2.coords t) ↔ t.val = 0 :=
  (by decide +kernel : ∀ t : Fin grid2.N, cond2_0 (grid2.coords t) ↔ t.val = 0)
/-- The second holds at row block 9 only. -/
theorem hcond2_1 : ∀ t : Fin cfg2.N, cond2_1 (grid2.coords t) ↔ t.val = 9 :=
  (by decide +kernel : ∀ t : Fin grid2.N, cond2_1 (grid2.coords t) ↔ t.val = 9)

/-! ## What one row block contributes, as functions of the seven input blocks

`xz` the row block of z, `xs` and `xq` the column sums of z and of its square over all rows, `xg`, `xe` the scale and
shift of the normalization, `xw` the weights, `xb` the bias. -/

/-- The normalized, rectified row block times the weights. -/
def mm2 (xz : Vec F S5000x64 .f32) (xs xq xg xe : Vec F S1x64 .f32) (xw : Vec F S64x64 .f32) : Vec F S5000x64 .f32 :=
  k2_pay6 xs xq xz xg xe xw
/-- The row block of the result: the product plus the bias. -/
def big2 (xz : Vec F S5000x64 .f32) (xs xq xg xe : Vec F S1x64 .f32) (xw : Vec F S64x64 .f32) (xb : Vec F S1x64 .f32) : Vec F S5000x64 .f32 :=
  k2_pay1 (mm2 xz xs xq xg xe xw) xb
/-- The running column sum `a` plus this block's column sum. -/
def sum2 (xz : Vec F S5000x64 .f32) (xs xq xg xe : Vec F S1x64 .f32) (xw : Vec F S64x64 .f32) (xb a : Vec F S1x64 .f32) : Vec F S1x64 .f32 :=
  k2_pay2 (mm2 xz xs xq xg xe xw) xb a
/-- The running column sum of squares `a` plus this block's. -/
def sq2 (xz : Vec F S5000x64 .f32) (xs xq xg xe : Vec F S1x64 .f32) (xw : Vec F S64x64 .f32) (xb a : Vec F S1x64 .f32) : Vec F S1x64 .f32 :=
  k2_pay3 (mm2 xz xs xq xg xe xw) xb a

/-- One whole-buffer store covers the buffer (a row of 64; a block of 5000 rows). -/
theorem coverRow2 (w : (Rect.unit (s := S1x64) ![0, 0] S1x64.size inb_S1x64_S1x64_0_0).shape.Idx → Elt F .f32) (y : S1x64.Idx) :
    ∃ p ∈ ([⟨Rect.unit (s := S1x64) ![0, 0] S1x64.size inb_S1x64_S1x64_0_0, w⟩] : List (View.Piece (Elt F) S1x64 .f32)), y ∈ p.1.set :=
  ⟨_, List.mem_singleton_self _, View.mem_set_unit_zero hzeroR2 inb_S1x64_S1x64_0_0 y⟩
theorem coverBlock2 (w : (Rect.unit (s := S5000x64) ![0, 0] S5000x64.size inb_S5000x64_S5000x64_0_0).shape.Idx → Elt F .f32) (y : S5000x64.Idx) :
    ∃ p ∈ ([⟨Rect.unit (s := S5000x64) ![0, 0] S5000x64.size inb_S5000x64_S5000x64_0_0, w⟩] : List (View.Piece (Elt F) S5000x64 .f32)), y ∈ p.1.set :=
  ⟨_, List.mem_singleton_self _, View.mem_set_unit_zero hzeroR2 inb_S5000x64_S5000x64_0_0 y⟩

set_option maxHeartbeats 1000000 in
/-- ROW BLOCK 0 (the first conditional taken, the second not). The accumulators, held at anything, are zeroed first:
    the body leaves them at `sum2 … 0`, `sq2 … 0` (the zero rows being the payloads the kernel stores), the big output at
    `big2`, the two small outputs untouched. -/
theorem sound_kernel2_A (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : cond2_0 i) (hc1 : ¬cond2_1 i) (xz : Vec F S5000x64 .f32) (xs xq xg xe : Vec F S1x64 .f32) (xw : Vec F S64x64 .f32) (xb : Vec F S1x64 .f32)
    (xo xp : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ (∃ d, owns (c : Thread nD τ) arg11 fullShare d) ∗ (∃ d, owns (c : Thread nD τ) arg12 fullShare d)
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big2 xz xs xq xg xe xw xb)
            ∗ owns (c : Thread nD τ) arg9 fullShare xo ∗ owns (c : Thread nD τ) arg10 fullShare xp
            ∗ owns (c : Thread nD τ) arg11 fullShare (sum2 xz xs xq xg xe xw xb (k2_pay4 (F := F))) ∗ owns (c : Thread nD τ) arg12 fullShare (sq2 xz xs xq xg xe xw xb (k2_pay5 (F := F)))) -∗ K ⟨⟩))
      ⊢ wp frame (wpE (defs₀ (F := F)) Variants.none c none) E (cc2_bn_matmul_stats_kernel i arg1 harg1 arg2 harg2 arg3 harg3 arg4 harg4 arg5 harg5 arg6 harg6 arg7 harg7 arg8 harg8 arg9 harg9 arg10 harg10 arg11 harg11 arg12 harg12) K := by
  simp only [cc2_bn_matmul_stats_kernel_eq_skeleton]; unfold cc2_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%dva, %fva, -, Hva⟩, ⟨%dvq, %fvq, -, Hvq⟩, Hk⟩
  subst hfz hfs hfq hfg hfe hfw hfb hfo hfp
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock2 _), View.canon_unit_zero hzeroR2]
    sl_unfold_words
    unfold big2 mm2
    simp only [View.readAt_eq_ld, View.ld_unit_zero (S := S5000x64) hzeroR2, View.ld_unit_zero (S := S1x64) hzeroR2, View.ld_unit_zero (S := S64x64) hzeroR2]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (fun y => ⟨_, List.mem_cons.mpr (Or.inl rfl), View.mem_set_unit_zero hzeroR2 inb_S1x64_S1x64_0_0 y⟩)]
    sl_unfold_words
    rw [View.canon_cons_unit_zero (S := S1x64) hzeroR2, View.readCov_unit_zero (S := S1x64) _ hzeroR2]
    unfold sum2 mm2
    simp only [View.readAt_eq_ld, View.ld_unit_zero (S := S5000x64) hzeroR2, View.ld_unit_zero (S := S1x64) hzeroR2, View.ld_unit_zero (S := S64x64) hzeroR2]
  iexists _; isplitr
  swap; · iexact Hvq
  ipureintro
  rw [View.read_writes_eq_canon _ _ _ (fun y => ⟨_, List.mem_cons.mpr (Or.inl rfl), View.mem_set_unit_zero hzeroR2 inb_S1x64_S1x64_0_0 y⟩)]
  sl_unfold_words
  rw [View.canon_cons_unit_zero (S := S1x64) hzeroR2, View.readCov_unit_zero (S := S1x64) _ hzeroR2]
  unfold sq2 mm2
  simp only [View.readAt_eq_ld, View.ld_unit_zero (S := S5000x64) hzeroR2, View.ld_unit_zero (S := S1x64) hzeroR2, View.ld_unit_zero (S := S64x64) hzeroR2]

set_option maxHeartbeats 1000000 in
/-- ROW BLOCKS 1 TO 8 (neither conditional taken). On whole staging memrefs, the inputs at their blocks, the big
    output at anything, the two small outputs at contents handed back untouched, the two accumulators at `va`, `vq`:
    the body leaves the big output at `big2` and the accumulators at `sum2 … va`, `sq2 … vq`. -/
theorem sound_kernel2_B (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond2_0 i) (hc1 : ¬cond2_1 i) (xz : Vec F S5000x64 .f32) (xs xq xg xe : Vec F S1x64 .f32) (xw : Vec F S64x64 .f32) (xb : Vec F S1x64 .f32)
    (xo xp va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big2 xz xs xq xg xe xw xb)
            ∗ owns (c : Thread nD τ) arg9 fullShare xo ∗ owns (c : Thread nD τ) arg10 fullShare xp
            ∗ owns (c : Thread nD τ) arg11 fullShare (sum2 xz xs xq xg xe xw xb va) ∗ owns (c : Thread nD τ) arg12 fullShare (sq2 xz xs xq xg xe xw xb vq)) -∗ K ⟨⟩))
      ⊢ wp frame (wpE (defs₀ (F := F)) Variants.none c none) E (cc2_bn_matmul_stats_kernel i arg1 harg1 arg2 harg2 arg3 harg3 arg4 harg4 arg5 harg5 arg6 harg6 arg7 harg7 arg8 harg8 arg9 harg9 arg10 harg10 arg11 harg11 arg12 harg12) K := by
  simp only [cc2_bn_matmul_stats_kernel_eq_skeleton]; unfold cc2_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%fva, %hfva, Hva⟩, ⟨%fvq, %hfvq, Hvq⟩, Hk⟩
  subst hfz hfs hfq hfg hfe hfw hfb hfo hfp hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock2 _), View.canon_unit_zero hzeroR2]
    sl_unfold_words
    unfold big2 mm2
    simp only [View.readAt_eq_ld, View.ld_unit_zero (S := S5000x64) hzeroR2, View.ld_unit_zero (S := S1x64) hzeroR2, View.ld_unit_zero (S := S64x64) hzeroR2]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (coverRow2 _), View.canon_unit_zero hzeroR2]
    sl_unfold_words
    unfold sum2 mm2
    simp only [View.readAt_eq_ld, View.ld_unit_zero (S := S5000x64) hzeroR2, View.ld_unit_zero (S := S1x64) hzeroR2, View.ld_unit_zero (S := S64x64) hzeroR2]
  iexists _; isplitr
  swap; · iexact Hvq
  ipureintro
  rw [View.read_writes_eq_canon _ _ _ (coverRow2 _), View.canon_unit_zero hzeroR2]
  sl_unfold_words
  unfold sq2 mm2
  simp only [View.readAt_eq_ld, View.ld_unit_zero (S := S5000x64) hzeroR2, View.ld_unit_zero (S := S1x64) hzeroR2, View.ld_unit_zero (S := S64x64) hzeroR2]

set_option maxHeartbeats 1000000 in
/-- ROW BLOCK 9 (the second conditional taken, the first not). As at row blocks 1 to 8, and then each accumulator is
    copied whole to its small output, held at anything before. -/
theorem sound_kernel2_C (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond2_0 i) (hc1 : cond2_1 i) (xz : Vec F S5000x64 .f32) (xs xq xg xe : Vec F S1x64 .f32) (xw : Vec F S64x64 .f32) (xb : Vec F S1x64 .f32)
    (va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big2 xz xs xq xg xe xw xb)
            ∗ owns (c : Thread nD τ) arg9 fullShare (sum2 xz xs xq xg xe xw xb va) ∗ owns (c : Thread nD τ) arg10 fullShare (sq2 xz xs xq xg xe xw xb vq)
            ∗ owns (c : Thread nD τ) arg11 fullShare (sum2 xz xs xq xg xe xw xb va) ∗ owns (c : Thread nD τ) arg12 fullShare (sq2 xz xs xq xg xe xw xb vq)) -∗ K ⟨⟩))
      ⊢ wp frame (wpE (defs₀ (F := F)) Variants.none c none) E (cc2_bn_matmul_stats_kernel i arg1 harg1 arg2 harg2 arg3 harg3 arg4 harg4 arg5 harg5 arg6 harg6 arg7 harg7 arg8 harg8 arg9 harg9 arg10 harg10 arg11 harg11 arg12 harg12) K := by
  simp only [cc2_bn_matmul_stats_kernel_eq_skeleton]; unfold cc2_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%do9, %fo, -, Ho⟩, ⟨%dp, %fp, -, Hp⟩, ⟨%fva, %hfva, Hva⟩, ⟨%fvq, %hfvq, Hvq⟩, Hk⟩
  subst hfz hfs hfq hfg hfe hfw hfb hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock2 _), View.canon_unit_zero hzeroR2]
    sl_unfold_words
    unfold big2 mm2
    simp only [View.readAt_eq_ld, View.ld_unit_zero (S := S5000x64) hzeroR2, View.ld_unit_zero (S := S1x64) hzeroR2, View.ld_unit_zero (S := S64x64) hzeroR2]
  isplitl [Ho]
  · iexists _; isplitr
    swap; · iexact Ho
    ipureintro
    rw [View.read_writes_eq_canon _ _ _ (coverRow2 _), View.canon_unit_zero hzeroR2]
    sl_unfold_words
    rw [View.readCov_unit_zero (S := S1x64) _ hzeroR2]
    unfold sum2 mm2
    simp only [View.readAt_eq_ld, View.ld_unit_zero (S := S5000x64) hzeroR2, View.ld_unit_zero (S := S1x64) hzeroR2, View.ld_unit_zero (S := S64x64) hzeroR2]
  isplitl [Hp]
  · iexists _; isplitr
    swap; · iexact Hp
    ipureintro
    rw [View.read_writes_eq_canon _ _ _ (coverRow2 _), View.canon_unit_zero hzeroR2]
    sl_unfold_words
    rw [View.readCov_unit_zero (S := S1x64) _ hzeroR2]
    unfold sq2 mm2
    simp only [View.readAt_eq_ld, View.ld_unit_zero (S := S5000x64) hzeroR2, View.ld_unit_zero (S := S1x64) hzeroR2, View.ld_unit_zero (S := S64x64) hzeroR2]
  isplitl [Hva]
  · iexists _; isplitr
    swap; · iexact Hva
    ipureintro
    sl_unfold_words
    rw [View.read_writes_eq_canon _ _ _ (coverRow2 _), View.canon_unit_zero hzeroR2]
    unfold sum2 mm2
    simp only [View.readAt_eq_ld, View.ld_unit_zero (S := S5000x64) hzeroR2, View.ld_unit_zero (S := S1x64) hzeroR2, View.ld_unit_zero (S := S64x64) hzeroR2]
  iexists _; isplitr
  swap; · iexact Hvq
  ipureintro
  sl_unfold_words
  rw [View.read_writes_eq_canon _ _ _ (coverRow2 _), View.canon_unit_zero hzeroR2]
  unfold sq2 mm2
  simp only [View.readAt_eq_ld, View.ld_unit_zero (S := S5000x64) hzeroR2, View.ld_unit_zero (S := S1x64) hzeroR2, View.ld_unit_zero (S := S64x64) hzeroR2]

-- the TensorCore's buffer contents when the region is entered
variable (V : (c : Dev nD) → (b : Ref sig .tc) → Buf (Elt F) ((c : Thread nD τ).loc b))

/-! ## The windows' blocks -/

/-- Window `w`'s block at row block `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every row block, fetched there or not, for any proof
    data whose array is the entry contents and whose body leaves the block in place (an input not fetched again keeps
    its block index). -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## Where the two small outputs are idle -/

/-- Before row block 9 the two small outputs are idle and are not written back. -/
theorem idleAt2_8 : ∀ t : Fin cfg2.N, ¬cond2_1 (grid2.coords t) → cfg2.idle 8 (grid2.coords t) = true := by decide +kernel
theorem idleAt2_9 : ∀ t : Fin cfg2.N, ¬cond2_1 (grid2.coords t) → cfg2.idle 9 (grid2.coords t) = true := by decide +kernel
theorem noFlush2_8 : ∀ t : Fin cfg2.N, ¬cond2_1 (grid2.coords t) → (cfg2.win 8).flush t = false := by decide +kernel
theorem noFlush2_9 : ∀ t : Fin cfg2.N, ¬cond2_1 (grid2.coords t) → (cfg2.win 9).flush t = false := by decide +kernel
/-- At row block 9 they are live. -/
theorem liveAt2_8 : ∀ t : Fin cfg2.N, cond2_1 (grid2.coords t) → cfg2.idle 8 (grid2.coords t) = false := by decide +kernel
theorem liveAt2_9 : ∀ t : Fin cfg2.N, cond2_1 (grid2.coords t) → cfg2.idle 9 (grid2.coords t) = false := by decide +kernel

/-! ## The two accumulators, row block by row block -/

/-- What the two accumulators hold after the first `n` row blocks: zero rows, then each block's column sums added in
    order (past the last row block nothing changes). -/
def acc2 (c : Dev nD) : ℕ → Vec F S1x64 .f32 × Vec F S1x64 .f32
  | 0 => (k2_pay4, k2_pay5)
  | n + 1 => if h : n < cfg2.N then
      (sum2 (iblk2 V c 0 ⟨n, h⟩) (iblk2 V c 1 ⟨n, h⟩) (iblk2 V c 2 ⟨n, h⟩) (iblk2 V c 3 ⟨n, h⟩) (iblk2 V c 4 ⟨n, h⟩) (iblk2 V c 5 ⟨n, h⟩) (iblk2 V c 6 ⟨n, h⟩) (acc2 c n).1,
       sq2 (iblk2 V c 0 ⟨n, h⟩) (iblk2 V c 1 ⟨n, h⟩) (iblk2 V c 2 ⟨n, h⟩) (iblk2 V c 3 ⟨n, h⟩) (iblk2 V c 4 ⟨n, h⟩) (iblk2 V c 5 ⟨n, h⟩) (iblk2 V c 6 ⟨n, h⟩) (acc2 c n).2)
    else acc2 c n

theorem acc2_zero (c : Dev nD) : acc2 V c 0 = (k2_pay4, k2_pay5) := rfl

/-- One more row block: its column sums are added to what the blocks before left. -/
theorem acc2_succ (c : Dev nD) (t : Fin cfg2.N) : acc2 V c (t.val + 1) =
      (sum2 (iblk2 V c 0 t) (iblk2 V c 1 t) (iblk2 V c 2 t) (iblk2 V c 3 t) (iblk2 V c 4 t) (iblk2 V c 5 t) (iblk2 V c 6 t) (acc2 V c t.val).1,
       sq2 (iblk2 V c 0 t) (iblk2 V c 1 t) (iblk2 V c 2 t) (iblk2 V c 3 t) (iblk2 V c 4 t) (iblk2 V c 5 t) (iblk2 V c 6 t) (acc2 V c t.val).2) := by
  obtain ⟨n, hn⟩ := t
  show (if h : n < cfg2.N then _ else _) = _
  rw [dif_pos hn]

/-- The first row block adds to the zero rows. -/
theorem acc2_zero_step (c : Dev nD) (t : Fin cfg2.N) (h : t.val = 0) : acc2 V c (t.val + 1) =
      (sum2 (iblk2 V c 0 t) (iblk2 V c 1 t) (iblk2 V c 2 t) (iblk2 V c 3 t) (iblk2 V c 4 t) (iblk2 V c 5 t) (iblk2 V c 6 t) (k2_pay4 (F := F)),
       sq2 (iblk2 V c 0 t) (iblk2 V c 1 t) (iblk2 V c 2 t) (iblk2 V c 3 t) (iblk2 V c 4 t) (iblk2 V c 5 t) (iblk2 V c 6 t) (k2_pay5 (F := F))) := by
  rw [acc2_succ, h]; rfl

theorem mm2_eq (xz : Vec F S5000x64 .f32) (xs xq xg xe : Vec F S1x64 .f32) (xw : Vec F S64x64 .f32) :
    mm2 xz xs xq xg xe xw = k2_pay6 xs xq xz xg xe xw := rfl
theorem big2_eq (xz : Vec F S5000x64 .f32) (xs xq xg xe : Vec F S1x64 .f32) (xw : Vec F S64x64 .f32) (xb : Vec F S1x64 .f32) :
    big2 xz xs xq xg xe xw xb = k2_pay1 (k2_pay6 xs xq xz xg xe xw) xb := rfl
theorem sum2_eq (xz : Vec F S5000x64 .f32) (xs xq xg xe : Vec F S1x64 .f32) (xw : Vec F S64x64 .f32) (xb a : Vec F S1x64 .f32) :
    sum2 xz xs xq xg xe xw xb a = k2_pay2 (k2_pay6 xs xq xz xg xe xw) xb a := rfl
theorem sq2_eq (xz : Vec F S5000x64 .f32) (xs xq xg xe : Vec F S1x64 .f32) (xw : Vec F S64x64 .f32) (xb a : Vec F S1x64 .f32) :
    sq2 xz xs xq xg xe xw xb a = k2_pay3 (k2_pay6 xs xq xz xg xe xw) xb a := rfl

/-! ## The region invariant -/

/-- The two accumulators: whole scoped buffers of the kernel's own. -/
abbrev scM2_0 : Memref sig .tc .vmem S1x64 .f32 := Memref.whole cc2_scratch0
abbrev scM2_1 : Memref sig .tc .vmem S1x64 .f32 := Memref.whole cc2_scratch1

/-- What the launch hands the region, with the two accumulators as memrefs owned at some contents beside the rest of the
    scoped buffers and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

/-- The invariant before row block `n`: before the first what the launch hands over; afterwards the two accumulators at
    what the row blocks so far left, beside the untouched rest. -/
def PhiS2 (c : Dev nD) : ℕ → sProp 𝕄
  | 0 => Pipeline.ΦA spec2 c
  | n + 1 => iprop(iprop(iprop(owns (c : Thread nD τ) scM2_0 fullShare (acc2 V c (n + 1)).1 ∗ owns (c : Thread nD τ) scM2_1 fullShare (acc2 V c (n + 1)).2)
          ∗ Pipeline.scopedRestBut spec2 c [cc2_scratch0, cc2_scratch1]) ∗ (∃ r, prngReg c r))

theorem PhiS2_zero (c : Dev nD) (n : ℕ) (hz : n = 0) : PhiS2 V c n = Pipeline.ΦA spec2 c := by subst hz; rfl

theorem PhiS2_pos (c : Dev nD) (n : ℕ) (hz : n ≠ 0) :
    PhiS2 V c n = iprop(iprop(iprop(owns (c : Thread nD τ) scM2_0 fullShare (acc2 V c n).1 ∗ owns (c : Thread nD τ) scM2_1 fullShare (acc2 V c n).2)
          ∗ Pipeline.scopedRestBut spec2 c [cc2_scratch0, cc2_scratch1]) ∗ (∃ r, prngReg c r)) := by
  cases n with
  | zero => exact absurd rfl hz
  | succ n => rfl

/-! ## The pipeline's proof data -/

/-- The proof data of this pipeline on core `c`: the arrays as the region finds them; after the body at row block `t`
    each input's buffer at its block, the big output's at `big2` of the input blocks, the two small outputs' at the
    accumulators after `t + 1` row blocks (what the last row block copies there; at the others, where they are idle,
    never consulted); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => big2 (iblk2 V c 0 t) (iblk2 V c 1 t) (iblk2 V c 2 t) (iblk2 V c 3 t) (iblk2 V c 4 t) (iblk2 V c 5 t) (iblk2 V c 6 t)
    | ⟨8, _⟩ => (acc2 V c (t.val + 1)).1
    | ⟨9, _⟩ => (acc2 V c (t.val + 1)).2
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_big (c : Dev nD) (t : Fin cfg2.N) : (dat2 V c).after 7 t = big2 (iblk2 V c 0 t) (iblk2 V c 1 t) (iblk2 V c 2 t) (iblk2 V c 3 t) (iblk2 V c 4 t) (iblk2 V c 5 t) (iblk2 V c 6 t) := by dsimp only [dat2]
theorem after2_s (c : Dev nD) (t : Fin cfg2.N) : (dat2 V c).after 8 t = (acc2 V c (t.val + 1)).1 := by dsimp only [dat2]
theorem after2_ss (c : Dev nD) (t : Fin cfg2.N) : (dat2 V c).after 9 t = (acc2 V c (t.val + 1)).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

theorem Phi2_castSucc (c : Dev nD) (t : Fin cfg2.N) : (dat2 V c).Φ t.castSucc = PhiS2 V c t.val := by
  dsimp only [dat2]; simp only [Fin.coe_castSucc]
theorem Phi2_succ (c : Dev nD) (t : Fin cfg2.N) : (dat2 V c).Φ t.succ = PhiS2 V c (t.val + 1) := by
  dsimp only [dat2]; simp only [Fin.val_succ]

/-! ## The body obligation, at a generic row block -/

/-- What the body is called with at row block `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

/-- Every window but the two small outputs is live at every row block: the body leaves its buffer at `after`. -/
theorem leaves2_0 (c : Dev nD) (t : Fin cfg2.N) : (dat2 V c).leavesExact 0 t = owns (c : Thread nD τ) (st2_0 t) fullShare ((dat2 V c).after 0 t) := rfl
theorem leaves2_1 (c : Dev nD) (t : Fin cfg2.N) : (dat2 V c).leavesExact 1 t = owns (c : Thread nD τ) (st2_1 t) fullShare ((dat2 V c).after 1 t) := rfl
theorem leaves2_2 (c : Dev nD) (t : Fin cfg2.N) : (dat2 V c).leavesExact 2 t = owns (c : Thread nD τ) (st2_2 t) fullShare ((dat2 V c).after 2 t) := rfl
theorem leaves2_3 (c : Dev nD) (t : Fin cfg2.N) : (dat2 V c).leavesExact 3 t = owns (c : Thread nD τ) (st2_3 t) fullShare ((dat2 V c).after 3 t) := rfl
theorem leaves2_4 (c : Dev nD) (t : Fin cfg2.N) : (dat2 V c).leavesExact 4 t = owns (c : Thread nD τ) (st2_4 t) fullShare ((dat2 V c).after 4 t) := rfl
theorem leaves2_5 (c : Dev nD) (t : Fin cfg2.N) : (dat2 V c).leavesExact 5 t = owns (c : Thread nD τ) (st2_5 t) fullShare ((dat2 V c).after 5 t) := rfl
theorem leaves2_6 (c : Dev nD) (t : Fin cfg2.N) : (dat2 V c).leavesExact 6 t = owns (c : Thread nD τ) (st2_6 t) fullShare ((dat2 V c).after 6 t) := rfl
theorem leaves2_7 (c : Dev nD) (t : Fin cfg2.N) : (dat2 V c).leavesExact 7 t = owns (c : Thread nD τ) (st2_7 t) fullShare ((dat2 V c).after 7 t) := rfl

set_option maxHeartbeats 4800000 in
/-- The body at any row block: the inputs' memrefs hold their blocks; the row-block number decides which of the three
    runs applies; the invariant hands the body the accumulators (at anything before the first row block, afterwards at
    what the blocks so far left) and takes them back with this block's column sums added; the rest of the scoped
    buffers, the generator register and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [Phi2_castSucc, Phi2_succ]
  rw [leaves2_0, leaves2_1, leaves2_2, leaves2_3, leaves2_4, leaves2_5, leaves2_6, leaves2_7,
    after2_0, after2_1, after2_2, after2_3, after2_4, after2_5, after2_6, after2_big]
  by_cases h0 : t.val = 0
  · -- row block 0
    have h9 : ¬t.val = 9 := by omega
    have hc0 : cond2_0 (grid2.coords t) := (hcond2_0 t).mpr h0
    have hc1 : ¬cond2_1 (grid2.coords t) := fun h => h9 ((hcond2_1 t).mp h)
    rw [Dat.leavesExact_idle (dat2 V c) 8 t (idleAt2_8 t hc1) (noFlush2_8 t hc1),
      Dat.leavesExact_idle (dat2 V c) 9 t (idleAt2_9 t hc1) (noFlush2_9 t hc1)]
    rw [PhiS2_zero V c _ h0, PhiA2_eq, PhiS2_pos V c _ (Nat.succ_ne_zero _), acc2_zero_step V c t h0]
    iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_A c Set.univ (grid2.coords t) _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [Hva]; · iexact Hva
    isplitl [Hvq]; · iexact Hvq
    iintro ⟨H0, H1, H2, H3, H4, H5, H6, H7, H8, H9, Hva, Hvq⟩
    isplitl [Hva Hvq Hrest Hg]
    · isplitl [Hva Hvq Hrest]
      · isplitl [Hva Hvq]
        · isplitl [Hva]; · iexact Hva
          iexact Hvq
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · by_cases h9 : t.val = 9
    · -- row block 9
      have hc0 : ¬cond2_0 (grid2.coords t) := fun h => h0 ((hcond2_0 t).mp h)
      have hc1 : cond2_1 (grid2.coords t) := (hcond2_1 t).mpr h9
      rw [show (dat2 V c).leavesExact 8 t = owns (c : Thread nD τ) (st2_8 t) fullShare ((dat2 V c).after 8 t) from by
          unfold Dat.leavesExact; rw [liveAt2_8 t hc1],
        show (dat2 V c).leavesExact 9 t = owns (c : Thread nD τ) (st2_9 t) fullShare ((dat2 V c).after 9 t) from by
          unfold Dat.leavesExact; rw [liveAt2_9 t hc1], after2_s, after2_ss]
      rw [PhiS2_pos V c _ h0, PhiS2_pos V c _ (Nat.succ_ne_zero _), acc2_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_C c Set.univ (grid2.coords t) _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- row blocks 1 to 8
      have hc0 : ¬cond2_0 (grid2.coords t) := fun h => h0 ((hcond2_0 t).mp h)
      have hc1 : ¬cond2_1 (grid2.coords t) := fun h => h9 ((hcond2_1 t).mp h)
      rw [Dat.leavesExact_idle (dat2 V c) 8 t (idleAt2_8 t hc1) (noFlush2_8 t hc1),
        Dat.leavesExact_idle (dat2 V c) 9 t (idleAt2_9 t hc1) (noFlush2_9 t hc1)]
      rw [PhiS2_pos V c _ h0, PhiS2_pos V c _ (Nat.succ_ne_zero _), acc2_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_B c Set.univ (grid2.coords t) _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every row block. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first row block. -/
theorem hin2 (c : Dev nD) : Pipeline.ΦA spec2 c ⊢ (dat2 V c).Φ 0 := by
  rw [show (dat2 V c).Φ 0 = PhiS2 V c 0 from rfl, PhiS2_zero V c 0 rfl]
  try exact Idealize.SL.BI.Entails.refl _

/-- After the last row block the invariant gives back what the launch handed over: the accumulators' named contents
    are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val from rfl,
    PhiS2_pos V c _ (by rw [Fin.val_last]; have : cfg2.N = 10 := N_2; omega), PhiA2_eq]
  iintro ⟨⟨⟨Hva, Hvq⟩, Hrest⟩, Hg⟩
  isplitl [Hva Hvq Hrest]
  · isplitl [Hva Hvq]
    · isplitl [Hva]; · iexists _; iexact Hva
      iexists _; iexact Hvq
    iexact Hrest
  iexact Hg

end Cert.Kernel.Gen

end
-- ==== Proof.KB.Reg3.lean ====
/- The batch-norm-and-relu region of one layer, at the TensorCore's buffer contents V on entry, for any float type F.
   Six windows over a grid of ten row blocks: the row block of z (5000 x 64), then four (1 x 64) rows — the column
   sums of z, the column sums of z*z, the scale and the shift — and the output row block (5000 x 64).
   The body reads the five inputs whole and stores the output block whole, at every point, and keeps nothing from
   one point to the next; so after the body each input buffer still holds its block and the output buffer holds
   one payload: relu ((z - mean) * rsqrt (var + eps) * scale + shift) of the input blocks, as the skeleton names it. -/
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 5000-row rectangle is looked at structurally, once per row
set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input buffer holds its window's block at every point. The z block moves with the point and is fetched each
    time; the four rows are fetched at the first point only, and later points find them where they were left, which
    is right because their block index never moves. One library fact covers both: for proof data whose array is the
    entry contents and whose body leaves the block where it was, the buffer is what a fetch would put there. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What the body touches -/

/-- The whole of a 5000 x 64 block: the one rectangle the z load, the output's read and the output's store go through. -/
abbrev blockRect3 : Rect S5000x64 := Rect.unit (s := S5000x64) ![0, 0] S5000x64.size inb_S5000x64_S5000x64_0_0
/-- The whole of a 1 x 64 row: the rectangle each of the four row loads goes through. -/
abbrev rowRect3 : Rect S1x64 := Rect.unit (s := S1x64) ![0, 0] S1x64.size inb_S1x64_S1x64_0_0

/-! ## What the body leaves in the output buffer -/

/-- The output buffer after the body, from the five input blocks (z, the two sums, scale, shift, in window order):
    the single store's payload over the whole block, whatever the buffer held before. -/
def out3_5 (z : Vec F S5000x64 .f32) (s ss g b : Vec F S1x64 .f32) : Vec F S5000x64 .f32 :=
  View.canon [⟨blockRect3, k3_pay1 (View.ld s rowRect3) (View.ld ss rowRect3) (View.ld z blockRect3) (View.ld g rowRect3) (View.ld b rowRect3)⟩]

/-- The one store's rectangle is the whole block, so every index of the buffer lies in it. -/
theorem cover3_5 (p : Vec F S5000x64 .f32) (y : S5000x64.Idx) :
    ∃ pc ∈ ([⟨blockRect3, p⟩] : List (View.Piece (Elt F) S5000x64 .f32)), y ∈ pc.1.set :=
  View.cover_of_tiled [⟨blockRect3, p⟩] S5000x64.size (by rfl) y

/-! ## The body's triple -/

set_option maxHeartbeats 1000000 in
/-- Run on whole buffers — the five inputs' reading z, s, ss, g, b and the output's holding anything — the body hands
    its continuation the inputs as they were and the output at out3_5 of them. The printed function is its skeleton
    of loads and one store; the loads read the owned contents through whole rectangles, the output's own read is
    of whatever it held and is not used, and the store covers the buffer. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (z : Vec F S5000x64 .f32) (s ss g b : Vec F S1x64 .f32) (K : PUnit → sProp 𝕄) :
    iprop(owns (c : Thread nD τ) arg1 fullShare z ∗ owns (c : Thread nD τ) arg2 fullShare s ∗ owns (c : Thread nD τ) arg3 fullShare ss
        ∗ owns (c : Thread nD τ) arg4 fullShare g ∗ owns (c : Thread nD τ) arg5 fullShare b ∗ (∃ d, owns (c : Thread nD τ) arg6 fullShare d)
        ∗ (iprop(owns (c : Thread nD τ) arg1 fullShare z ∗ owns (c : Thread nD τ) arg2 fullShare s ∗ owns (c : Thread nD τ) arg3 fullShare ss
            ∗ owns (c : Thread nD τ) arg4 fullShare g ∗ owns (c : Thread nD τ) arg5 fullShare b
            ∗ owns (c : Thread nD τ) arg6 fullShare (out3_5 z s ss g b)) -∗ K ⟨⟩))
      ⊢ wp frame (wpE (defs₀ (F := F)) Variants.none c none) E (cc3_bn_relu_kernel i arg1 harg1 arg2 harg2 arg3 harg3 arg4 harg4 arg5 harg5 arg6 harg6) K := by
  simp only [cc3_bn_relu_kernel_eq_skeleton]; unfold cc3_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_5 _)

/-! ## The region's proof data -/

/-- The arrays are the entry contents; after the body at point t each input buffer holds its block and the output
    buffer out3_5 of the five input blocks there; the invariant is the one of a body that touches nothing but its
    buffers; full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the pipeline calls the body with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it has to give back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- At any point the input buffers hold their blocks, so the body's triple applies; the invariant and what is
    owed go through untouched, being the same before and after a point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this region's proof data, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KB.Reg4.RunFirst.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero4_first : (![0, 0] : Fin 2 → Nat) = fun _ => 0 := funext fun a => by fin_cases a <;> rfl

/-- A store through the whole-shape rectangle, made last, leaves its payload, whatever was stored before. -/
theorem storeWhole4_first {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole4_first {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the first point: the first conditional block runs and zeroes both accumulators, the last does not run. On
    whole memrefs — the five inputs at their contents, the big output and both accumulators at anything, the two small
    outputs at contents handed back untouched — it stores the affine image of the inputs into the big output and leaves
    in the accumulators the zero rows plus that block's column sums and the column sums of its square. -/
theorem run4_first (c : Dev nD) (i : grid4.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : (Scalar.cmpi .ne (Scalar.extui (Scalar.cmpi .eq (BitVec.ofNat 32 (i 0).val) 0#32)) 0#32) = 1#1) (hlast : ¬ k4_cond2 i = 1#1)
    (x1 x2 : Vec F S5000x64 .f32) (x3 : Vec F S1x64 .f32) (x4 : Vec F S64x64 .f32) (x5 : Vec F S1x64 .f32)
    (y7 y8 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k4_pay4 x3 x1 x2 x4 x5) ∗ owns (c : Thread nD τ) arg7 fullShare y7 ∗ owns (c : Thread nD τ) arg8 fullShare y8
            ∗ owns (c : Thread nD τ) arg9 fullShare (k4_pay5 x3 x1 x2 x4 x5 k4_pay2)
            ∗ owns (c : Thread nD τ) arg10 fullShare (k4_pay1 k4_pay3 (k4_pay6 x3 x1 x2 x4 x5))) -∗ K ⟨⟩))
      ⊢ wp frame (wpE (defs₀ (F := F)) Variants.none c none) E (cc4_linear_stats_kernel i arg1 harg1 arg2 harg2 arg3 harg3 arg4 harg4 arg5 harg5 arg6 harg6 arg7 harg7 arg8 harg8 arg9 harg9 arg10 harg10) K := by
  simp only [cc4_linear_stats_kernel_eq_skeleton]; unfold cc4_linear_stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole4_first (S := S5000x64) _ _ offsZero4_first inb_S5000x64_S5000x64_0_0 _ _).trans ?_
    simp only [View.readCov_unit_zero (S := S1x64) _ offsZero4_first, loadWhole4_first (S := S1x64) _ offsZero4_first, loadWhole4_first (S := S5000x64) _ offsZero4_first, loadWhole4_first (S := S64x64) _ offsZero4_first]
  isplitl [H7]; · iexact H7
  isplitl [H8]; · iexact H8
  isplitl [H9]
  · iexists _; isplitr
    swap; · iexact H9
    ipureintro
    (try sl_unfold_words)
    refine (storeWhole4_first (S := S1x64) _ _ offsZero4_first inb_S1x64_S1x64_0_0 _ _).trans ?_
    simp only [View.readCov_unit_zero (S := S1x64) _ offsZero4_first, loadWhole4_first (S := S1x64) _ offsZero4_first, loadWhole4_first (S := S5000x64) _ offsZero4_first, loadWhole4_first (S := S64x64) _ offsZero4_first]
  iexists _; isplitr
  swap; · iexact H10
  ipureintro
  (try sl_unfold_words)
  refine (storeWhole4_first (S := S1x64) _ _ offsZero4_first inb_S1x64_S1x64_0_0 _ _).trans ?_
  simp only [View.readCov_unit_zero (S := S1x64) _ offsZero4_first, loadWhole4_first (S := S1x64) _ offsZero4_first, loadWhole4_first (S := S5000x64) _ offsZero4_first, loadWhole4_first (S := S64x64) _ offsZero4_first]

end Cert.Kernel.Gen
end
-- ==== Proof.KB.Reg4.RunMid.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero4_mid : (![0, 0] : Fin 2 → Nat) = fun _ => 0 := funext fun a => by fin_cases a <;> rfl

/-- A store through the whole-shape rectangle, made last, leaves its payload, whatever was stored before. -/
theorem storeWhole4_mid {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole4_mid {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at a point that is neither the first nor the last: neither conditional block runs. On whole memrefs — the five
    inputs at their contents, the big output at anything, the two small outputs at contents handed back untouched, the
    two accumulators at what the points before left — it stores the affine image of the inputs into the big output and
    adds that block's column sums, and the column sums of its square, to the two accumulators. -/
theorem run4_mid (c : Dev nD) (i : grid4.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : ¬ k4_cond2 i = 1#1)
    (x1 x2 : Vec F S5000x64 .f32) (x3 : Vec F S1x64 .f32) (x4 : Vec F S64x64 .f32) (x5 : Vec F S1x64 .f32)
    (y7 y8 s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k4_pay4 x3 x1 x2 x4 x5) ∗ owns (c : Thread nD τ) arg7 fullShare y7 ∗ owns (c : Thread nD τ) arg8 fullShare y8
            ∗ owns (c : Thread nD τ) arg9 fullShare (k4_pay5 x3 x1 x2 x4 x5 s0)
            ∗ owns (c : Thread nD τ) arg10 fullShare (k4_pay1 s1 (k4_pay6 x3 x1 x2 x4 x5))) -∗ K ⟨⟩))
      ⊢ wp frame (wpE (defs₀ (F := F)) Variants.none c none) E (cc4_linear_stats_kernel i arg1 harg1 arg2 harg2 arg3 harg3 arg4 harg4 arg5 harg5 arg6 harg6 arg7 harg7 arg8 harg8 arg9 harg9 arg10 harg10) K := by
  simp only [cc4_linear_stats_kernel_eq_skeleton]; unfold cc4_linear_stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole4_mid (S := S5000x64) _ _ offsZero4_mid inb_S5000x64_S5000x64_0_0 _ _).trans ?_
    simp only [View.readCov_unit_zero (S := S1x64) _ offsZero4_mid, loadWhole4_mid (S := S1x64) _ offsZero4_mid, loadWhole4_mid (S := S5000x64) _ offsZero4_mid, loadWhole4_mid (S := S64x64) _ offsZero4_mid]
  isplitl [H7]; · iexact H7
  isplitl [H8]; · iexact H8
  isplitl [H9]
  · iexists _; isplitr
    swap; · iexact H9
    ipureintro
    (try sl_unfold_words)
    refine (storeWhole4_mid (S := S1x64) _ _ offsZero4_mid inb_S1x64_S1x64_0_0 _ _).trans ?_
    simp only [View.readCov_unit_zero (S := S1x64) _ offsZero4_mid, loadWhole4_mid (S := S1x64) _ offsZero4_mid, loadWhole4_mid (S := S5000x64) _ offsZero4_mid, loadWhole4_mid (S := S64x64) _ offsZero4_mid]
  iexists _; isplitr
  swap; · iexact H10
  ipureintro
  (try sl_unfold_words)
  refine (storeWhole4_mid (S := S1x64) _ _ offsZero4_mid inb_S1x64_S1x64_0_0 _ _).trans ?_
  simp only [View.readCov_unit_zero (S := S1x64) _ offsZero4_mid, loadWhole4_mid (S := S1x64) _ offsZero4_mid, loadWhole4_mid (S := S5000x64) _ offsZero4_mid, loadWhole4_mid (S := S64x64) _ offsZero4_mid]

end Cert.Kernel.Gen
end
-- ==== Proof.KB.Reg4.RunLast.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero4_last : (![0, 0] : Fin 2 → Nat) = fun _ => 0 := funext fun a => by fin_cases a <;> rfl

/-- A store through the whole-shape rectangle, made last, leaves its payload, whatever was stored before. -/
theorem storeWhole4_last {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole4_last {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the last point: the first conditional block does not run, the last one does and copies the two
    accumulators into the two small outputs. On whole memrefs — the five inputs at their contents, the three outputs at
    anything, the two accumulators at what the points before left — it stores the affine image of the inputs into the
    big output, adds that block's column sums and the column sums of its square to the accumulators, and leaves each small
    output at its accumulator's final contents. -/
theorem run4_last (c : Dev nD) (i : grid4.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : k4_cond2 i = 1#1)
    (x1 x2 : Vec F S5000x64 .f32) (x3 : Vec F S1x64 .f32) (x4 : Vec F S64x64 .f32) (x5 : Vec F S1x64 .f32)
    (s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k4_pay4 x3 x1 x2 x4 x5)
            ∗ owns (c : Thread nD τ) arg7 fullShare (k4_pay5 x3 x1 x2 x4 x5 s0)
            ∗ owns (c : Thread nD τ) arg8 fullShare (k4_pay1 s1 (k4_pay6 x3 x1 x2 x4 x5))
            ∗ owns (c : Thread nD τ) arg9 fullShare (k4_pay5 x3 x1 x2 x4 x5 s0)
            ∗ owns (c : Thread nD τ) arg10 fullShare (k4_pay1 s1 (k4_pay6 x3 x1 x2 x4 x5))) -∗ K ⟨⟩))
      ⊢ wp frame (wpE (defs₀ (F := F)) Variants.none c none) E (cc4_linear_stats_kernel i arg1 harg1 arg2 harg2 arg3 harg3 arg4 harg4 arg5 harg5 arg6 harg6 arg7 harg7 arg8 harg8 arg9 harg9 arg10 harg10) K := by
  simp only [cc4_linear_stats_kernel_eq_skeleton]; unfold cc4_linear_stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole4_last (S := S5000x64) _ _ offsZero4_last inb_S5000x64_S5000x64_0_0 _ _).trans ?_
    simp only [View.readCov_unit_zero (S := S1x64) _ offsZero4_last, loadWhole4_last (S := S1x64) _ offsZero4_last, loadWhole4_last (S := S5000x64) _ offsZero4_last, loadWhole4_last (S := S64x64) _ offsZero4_last]
  isplitl [H7]
  · iexists _; isplitr
    swap; · iexact H7
    ipureintro
    (try sl_unfold_words)
    refine (storeWhole4_last (S := S1x64) _ _ offsZero4_last inb_S1x64_S1x64_0_0 _ _).trans ?_
    simp only [View.readCov_unit_zero (S := S1x64) _ offsZero4_last, loadWhole4_last (S := S1x64) _ offsZero4_last, loadWhole4_last (S := S5000x64) _ offsZero4_last, loadWhole4_last (S := S64x64) _ offsZero4_last]
  isplitl [H8]
  · iexists _; isplitr
    swap; · iexact H8
    ipureintro
    (try sl_unfold_words)
    refine (storeWhole4_last (S := S1x64) _ _ offsZero4_last inb_S1x64_S1x64_0_0 _ _).trans ?_
    simp only [View.readCov_unit_zero (S := S1x64) _ offsZero4_last, loadWhole4_last (S := S1x64) _ offsZero4_last, loadWhole4_last (S := S5000x64) _ offsZero4_last, loadWhole4_last (S := S64x64) _ offsZero4_last]
  isplitl [H9]
  · iexists _; isplitr
    swap; · iexact H9
    ipureintro
    (try sl_unfold_words)
    refine (storeWhole4_last (S := S1x64) _ _ offsZero4_last inb_S1x64_S1x64_0_0 _ _).trans ?_
    simp only [View.readCov_unit_zero (S := S1x64) _ offsZero4_last, loadWhole4_last (S := S1x64) _ offsZero4_last, loadWhole4_last (S := S5000x64) _ offsZero4_last, loadWhole4_last (S := S64x64) _ offsZero4_last]
  iexists _; isplitr
  swap; · iexact H10
  ipureintro
  (try sl_unfold_words)
  refine (storeWhole4_last (S := S1x64) _ _ offsZero4_last inb_S1x64_S1x64_0_0 _ _).trans ?_
  simp only [View.readCov_unit_zero (S := S1x64) _ offsZero4_last, loadWhole4_last (S := S1x64) _ offsZero4_last, loadWhole4_last (S := S5000x64) _ offsZero4_last, loadWhole4_last (S := S64x64) _ offsZero4_last]

end Cert.Kernel.Gen
end
-- ==== Proof.KB.Reg4.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«140206_j52750788330061_1_alg».proof.Proof.KB.Reg4.RunFirst
import proofs.«140206_j52750788330061_1_alg».proof.Proof.KB.Reg4.RunMid
import proofs.«140206_j52750788330061_1_alg».proof.Proof.KB.Reg4.RunLast
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points run which conditional block -/

/-- The first block's condition, as the body computes it from the grid coordinate, holds at point 0 only. -/
theorem first4_iff : ∀ t : Fin cfg4.N,
    (Scalar.cmpi .ne (Scalar.extui (Scalar.cmpi .eq (BitVec.ofNat 32 ((grid4.coords t) 0).val) 0#32)) 0#32) = 1#1 ↔ t.val = 0 :=
  (by decide +kernel : ∀ t : Fin grid4.N,
    (Scalar.cmpi .ne (Scalar.extui (Scalar.cmpi .eq (BitVec.ofNat 32 ((grid4.coords t) 0).val) 0#32)) 0#32) = 1#1 ↔ t.val = 0)

/-- The last block's condition holds at point 9 only. -/
theorem last4_iff : ∀ t : Fin cfg4.N, k4_cond2 (grid4.coords t) = 1#1 ↔ t.val = 9 :=
  (by decide +kernel : ∀ t : Fin grid4.N, k4_cond2 (grid4.coords t) = 1#1 ↔ t.val = 9)

/-- The two small outputs are idle at every point but the last, -/
theorem idleAt4_6 : ∀ t : Fin cfg4.N, t.val ≠ 9 → cfg4.idle 6 (grid4.coords t) = true := by decide +kernel
theorem idleAt4_7 : ∀ t : Fin cfg4.N, t.val ≠ 9 → cfg4.idle 7 (grid4.coords t) = true := by decide +kernel
/-- live at the last, -/
theorem liveAt4_6 : ∀ t : Fin cfg4.N, t.val = 9 → cfg4.idle 6 (grid4.coords t) = false := by decide +kernel
theorem liveAt4_7 : ∀ t : Fin cfg4.N, t.val = 9 → cfg4.idle 7 (grid4.coords t) = false := by decide +kernel
/-- and not written back before it. -/
theorem noFlush4_6 : ∀ t : Fin cfg4.N, t.val ≠ 9 → (cfg4.win 6).flush t = false :=
  (by decide +kernel : ∀ t : Fin grid4.N, t.val ≠ 9 → win4_6.flush t = false)
theorem noFlush4_7 : ∀ t : Fin cfg4.N, t.val ≠ 9 → (cfg4.win 7).flush t = false :=
  (by decide +kernel : ∀ t : Fin grid4.N, t.val ≠ 9 → win4_7.flush t = false)

variable (V : (c : Dev nD) → (b : Ref sig .tc) → Buf (Elt F) ((c : Thread nD τ).loc b))

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, fetched there or not (the three small
    inputs are fetched once, at the first point, and their block index never moves), for any proof data whose array is
    `V`'s and whose body leaves the block in place. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The two running column sums -/

/-- What the two accumulators hold after the first `n` points: zero rows before any point; each point adds the column
    sums of its affine block to the first and the column sums of that block's square to the second. -/
noncomputable def acc4 (c : Dev nD) : ℕ → Vec F S1x64 .f32 × Vec F S1x64 .f32
  | 0 => (k4_pay2, k4_pay3)
  | n + 1 =>
    if h : n < cfg4.N then
      (k4_pay5 (iblk4 V c 2 ⟨n, h⟩) (iblk4 V c 0 ⟨n, h⟩) (iblk4 V c 1 ⟨n, h⟩) (iblk4 V c 3 ⟨n, h⟩) (iblk4 V c 4 ⟨n, h⟩) (acc4 c n).1,
        k4_pay1 (acc4 c n).2 (k4_pay6 (iblk4 V c 2 ⟨n, h⟩) (iblk4 V c 0 ⟨n, h⟩) (iblk4 V c 1 ⟨n, h⟩) (iblk4 V c 3 ⟨n, h⟩) (iblk4 V c 4 ⟨n, h⟩)))
    else acc4 c n

/-- Before any point both accumulators are the zero rows. -/
theorem acc4_zero (c : Dev nD) : acc4 V c 0 = (k4_pay2, k4_pay3) := rfl

/-- One point's step: the accumulators after point `n` from those before it and the point's input blocks. -/
theorem acc4_succ (c : Dev nD) (n : ℕ) (h : n < cfg4.N) :
    acc4 V c (n + 1) =
      (k4_pay5 (iblk4 V c 2 ⟨n, h⟩) (iblk4 V c 0 ⟨n, h⟩) (iblk4 V c 1 ⟨n, h⟩) (iblk4 V c 3 ⟨n, h⟩) (iblk4 V c 4 ⟨n, h⟩) (acc4 V c n).1,
        k4_pay1 (acc4 V c n).2 (k4_pay6 (iblk4 V c 2 ⟨n, h⟩) (iblk4 V c 0 ⟨n, h⟩) (iblk4 V c 1 ⟨n, h⟩) (iblk4 V c 3 ⟨n, h⟩) (iblk4 V c 4 ⟨n, h⟩))) := by
  rw [acc4]; exact dif_pos h

/-- The first point's step, from the zero rows. -/
theorem acc4_zero_step (c : Dev nD) :
    acc4 V c 1 =
      (k4_pay5 (iblk4 V c 2 t4_0) (iblk4 V c 0 t4_0) (iblk4 V c 1 t4_0) (iblk4 V c 3 t4_0) (iblk4 V c 4 t4_0) k4_pay2,
        k4_pay1 k4_pay3 (k4_pay6 (iblk4 V c 2 t4_0) (iblk4 V c 0 t4_0) (iblk4 V c 1 t4_0) (iblk4 V c 3 t4_0) (iblk4 V c 4 t4_0))) :=
  acc4_succ V c 0 t4_0.isLt

/-! ## The invariant between points -/

/-- The two accumulators, as whole memrefs of the kernel's own scoped buffers. -/
abbrev sc4_0 : Memref sig .tc .vmem S1x64 .f32 := Memref.whole cc4_scratch0
abbrev sc4_1 : Memref sig .tc .vmem S1x64 .f32 := Memref.whole cc4_scratch1

/-- Every other scoped buffer of the core that is no staging buffer of this call, at some contents each. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- What the launch hands the region, with the two accumulators named: each at some contents, beside the other scoped
    buffers and the generator register. -/
theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d)) ∗ rest4 c)
          ∗ (∃ r, prngReg c r)) := by
  unfold Pipeline.ΦA; rw [scopedRest4_split]; simp only [sc4_0, sc4_1, owns_whole]; try rfl

/-- The invariant before position `n`: before the first point what the launch hands over; afterwards the two accumulators
    at the running column sums over the points so far, beside the other scoped buffers and the generator register. -/
noncomputable def Phi4 (c : Dev nD) : ℕ → sProp 𝕄
  | 0 => Pipeline.ΦA spec4 c
  | n + 1 =>
    iprop(iprop(iprop(owns (c : Thread nD τ) sc4_0 fullShare (acc4 V c (n + 1)).1 ∗ owns (c : Thread nD τ) sc4_1 fullShare (acc4 V c (n + 1)).2) ∗ rest4 c)
      ∗ (∃ r, prngReg c r))

theorem Phi4_zero (c : Dev nD) : Phi4 V c 0 = Pipeline.ΦA spec4 c := rfl

theorem Phi4_succ (c : Dev nD) (n : ℕ) :
    Phi4 V c (n + 1) =
      iprop(iprop(iprop(owns (c : Thread nD τ) sc4_0 fullShare (acc4 V c (n + 1)).1 ∗ owns (c : Thread nD τ) sc4_1 fullShare (acc4 V c (n + 1)).2) ∗ rest4 c)
        ∗ (∃ r, prngReg c r)) := rfl

/-- After any point the accumulators are named. -/
theorem Phi4_pos (c : Dev nD) (n : ℕ) (hn : n ≠ 0) :
    Phi4 V c n =
      iprop(iprop(iprop(owns (c : Thread nD τ) sc4_0 fullShare (acc4 V c n).1 ∗ owns (c : Thread nD τ) sc4_1 fullShare (acc4 V c n).2) ∗ rest4 c)
        ∗ (∃ r, prngReg c r)) := by
  cases n with
  | zero => exact absurd rfl hn
  | succ n => rfl

/-! ## The proof data -/

/-- The proof data of this call on core `c`: the arrays as the region finds them (`V`); after the body at point `t` each
    input's buffer at its block, the big output's at the affine image of the point's blocks, each small output's at its
    running column sum through point `t` (consulted at the last point only: before it the window is idle); the invariant
    `Phi4`; nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay4 (iblk4 V c 2 t) (iblk4 V c 0 t) (iblk4 V c 1 t) (iblk4 V c 3 t) (iblk4 V c 4 t)
    | ⟨6, _⟩ => (acc4 V c (t.val + 1)).1
    | ⟨7, _⟩ => (acc4 V c (t.val + 1)).2
  Φ t := Phi4 V c t.val
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_big (c : Dev nD) (t : Fin cfg4.N) :
    (dat4 V c).after 5 t = k4_pay4 (iblk4 V c 2 t) (iblk4 V c 0 t) (iblk4 V c 1 t) (iblk4 V c 3 t) (iblk4 V c 4 t) := by dsimp only [dat4]
theorem after4_6 (c : Dev nD) (t : Fin cfg4.N) : (dat4 V c).after 6 t = (acc4 V c (t.val + 1)).1 := by dsimp only [dat4]
theorem after4_7 (c : Dev nD) (t : Fin cfg4.N) : (dat4 V c).after 7 t = (acc4 V c (t.val + 1)).2 := by dsimp only [dat4]
/-- At the last point the small outputs hold the column sums over all ten points. -/
theorem after4_s (c : Dev nD) : (dat4 V c).after 6 t4_9 = (acc4 V c 10).1 := after4_6 V c t4_9
theorem after4_ss (c : Dev nD) : (dat4 V c).after 7 t4_9 = (acc4 V c 10).2 := after4_7 V c t4_9

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- The invariant at a point's start and end, at the point's number. -/
theorem Phi4_castSucc (c : Dev nD) (t : Fin cfg4.N) : (dat4 V c).Φ t.castSucc = Phi4 V c t.val := by
  dsimp only [dat4]; simp only [Fin.coe_castSucc]
theorem Phi4_succ_pt (c : Dev nD) (t : Fin cfg4.N) : (dat4 V c).Φ t.succ = Phi4 V c (t.val + 1) := by
  dsimp only [dat4]; simp only [Fin.val_succ]

/-- What the launch hands the region is the invariant before the first point. -/
theorem hin4 (c : Dev nD) : Pipeline.ΦA spec4 c ⊢ (dat4 V c).Φ 0 := by
  rw [show (dat4 V c).Φ 0 = Phi4 V c 0 from rfl, Phi4_zero]
  try exact Idealize.SL.BI.Entails.refl _

/-- After the last point the invariant gives it back: the accumulators' named contents are forgotten. -/
theorem hout4 (c : Dev nD) : (dat4 V c).Φ (Fin.last cfg4.N) ⊢ Pipeline.ΦA spec4 c := by
  rw [show (dat4 V c).Φ (Fin.last cfg4.N) = Phi4 V c cfg4.N from rfl,
    Phi4_pos V c cfg4.N (by have : cfg4.N = 10 := N_4; omega), PhiA4_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! ## The body obligation -/

/-- What the body is called with at point `t`, the windows one by one, -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

/-- The inputs and the big output are live at every point: the body leaves each at its stated contents. -/
theorem leaves4_0 (c : Dev nD) (t : Fin cfg4.N) :
    (dat4 V c).leavesExact 0 t = owns (c : Thread nD τ) (st4_0 t) fullShare (iblk4 V c 0 t) := by
  unfold Dat.leavesExact; rw [show cfg4.idle 0 (cfg4.grid.coords t) = false from rfl, after4_0]
theorem leaves4_1 (c : Dev nD) (t : Fin cfg4.N) :
    (dat4 V c).leavesExact 1 t = owns (c : Thread nD τ) (st4_1 t) fullShare (iblk4 V c 1 t) := by
  unfold Dat.leavesExact; rw [show cfg4.idle 1 (cfg4.grid.coords t) = false from rfl, after4_1]
theorem leaves4_2 (c : Dev nD) (t : Fin cfg4.N) :
    (dat4 V c).leavesExact 2 t = owns (c : Thread nD τ) (st4_2 t) fullShare (iblk4 V c 2 t) := by
  unfold Dat.leavesExact; rw [show cfg4.idle 2 (cfg4.grid.coords t) = false from rfl, after4_2]
theorem leaves4_3 (c : Dev nD) (t : Fin cfg4.N) :
    (dat4 V c).leavesExact 3 t = owns (c : Thread nD τ) (st4_3 t) fullShare (iblk4 V c 3 t) := by
  unfold Dat.leavesExact; rw [show cfg4.idle 3 (cfg4.grid.coords t) = false from rfl, after4_3]
theorem leaves4_4 (c : Dev nD) (t : Fin cfg4.N) :
    (dat4 V c).leavesExact 4 t = owns (c : Thread nD τ) (st4_4 t) fullShare (iblk4 V c 4 t) := by
  unfold Dat.leavesExact; rw [show cfg4.idle 4 (cfg4.grid.coords t) = false from rfl, after4_4]
theorem leaves4_5 (c : Dev nD) (t : Fin cfg4.N) :
    (dat4 V c).leavesExact 5 t = owns (c : Thread nD τ) (st4_5 t) fullShare
      (k4_pay4 (iblk4 V c 2 t) (iblk4 V c 0 t) (iblk4 V c 1 t) (iblk4 V c 3 t) (iblk4 V c 4 t)) := by
  unfold Dat.leavesExact; rw [show cfg4.idle 5 (cfg4.grid.coords t) = false from rfl, after4_big]
/-- The small outputs are live at the last point. -/
theorem leaves4_6_last (c : Dev nD) (t : Fin cfg4.N) (h9 : t.val = 9) :
    (dat4 V c).leavesExact 6 t = owns (c : Thread nD τ) (st4_6 t) fullShare (acc4 V c (t.val + 1)).1 := by
  unfold Dat.leavesExact; rw [liveAt4_6 t h9, after4_6]
theorem leaves4_7_last (c : Dev nD) (t : Fin cfg4.N) (h9 : t.val = 9) :
    (dat4 V c).leavesExact 7 t = owns (c : Thread nD τ) (st4_7 t) fullShare (acc4 V c (t.val + 1)).2 := by
  unfold Dat.leavesExact; rw [liveAt4_7 t h9, after4_7]

set_option maxHeartbeats 4000000 in
/-- The body at any point. The inputs' memrefs hold their blocks; the point's number says which of the three control
    cases it is in, and that case's run applies. The invariant hands the body the two accumulators — at anything at the
    first point, at the running sums afterwards — and takes them back at the sums through this point; the other scoped
    buffers, the generator register and the core's dues pass through untouched. Before the last point the small outputs'
    buffers are handed back as found; at the last they come back at the final sums. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [Phi4_castSucc, Phi4_succ_pt, Phi4_succ]
  rw [leaves4_0, leaves4_1, leaves4_2, leaves4_3, leaves4_4, leaves4_5]
  have hN : t.val < 10 := lt_of_lt_of_eq t.isLt (show cfg4.N = 10 from N_4)
  by_cases h9 : t.val = 9
  · have h0 : t.val ≠ 0 := by omega
    rw [leaves4_6_last V c t h9, leaves4_7_last V c t h9, acc4_succ V c t.val t.isLt, Phi4_pos V c t.val h0]
    simp only [Fin.eta]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run4_last c (grid4.coords t) _ _ _ _ _ _ _ _ _ _ _ _ _ _ _ _ _ _ _ _ (fun h => h0 ((first4_iff t).mp h)) ((last4_iff t).mpr h9)
      (iblk4 V c 0 t) (iblk4 V c 1 t) (iblk4 V c 2 t) (iblk4 V c 3 t) (iblk4 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat4 V c) 6 t (idleAt4_6 t h9) (noFlush4_6 t h9),
      Dat.leavesExact_idle (dat4 V c) 7 t (idleAt4_7 t h9) (noFlush4_7 t h9), acc4_succ V c t.val t.isLt]
    simp only [Fin.eta]
    by_cases h0 : t.val = 0
    · rw [show Phi4 V c t.val = Pipeline.ΦA spec4 c from by rw [h0]; rfl,
        show acc4 V c t.val = (k4_pay2, k4_pay3) from by rw [h0]; rfl, PhiA4_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run4_first c (grid4.coords t) _ _ _ _ _ _ _ _ _ _ _ _ _ _ _ _ _ _ _ _ ((first4_iff t).mpr h0) (fun h => h9 ((last4_iff t).mp h))
        (iblk4 V c 0 t) (iblk4 V c 1 t) (iblk4 V c 2 t) (iblk4 V c 3 t) (iblk4 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [Phi4_pos V c t.val h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run4_mid c (grid4.coords t) _ _ _ _ _ _ _ _ _ _ _ _ _ _ _ _ _ _ _ _ (fun h => h0 ((first4_iff t).mp h)) (fun h => h9 ((last4_iff t).mp h))
        (iblk4 V c 0 t) (iblk4 V c 1 t) (iblk4 V c 2 t) (iblk4 V c 3 t) (iblk4 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Gen
end
-- ==== Proof.KB.Reg5.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Batch-norm, relu and a linear map of a row block, with the column sums of the result and of its square
accumulated over the ten row blocks -/

/-- The offsets of every access of this kernel are zero. -/
theorem hzeroR5 : (![0, 0] : Fin 2 → Nat) = fun _ => 0 := funext fun a => by fin_cases a <;> rfl

/-! ## The body's two branch conditions -/

/-- The first conditional (the accumulators are zeroed) tests the row-block number against 0. -/
abbrev cond5_0 (i : grid5.Coords) : Prop := (Scalar.cmpi .ne (Scalar.extui (Scalar.cmpi .eq (BitVec.ofNat 32 (i 0).val) 0#32)) 0#32) = 1#1
/-- The second (the accumulators are copied to the two small outputs) tests it against 9. -/
abbrev cond5_1 (i : grid5.Coords) : Prop := k5_cond2 i = 1#1

/-- The first holds at row block 0 only. -/
theorem hcond5_0 : ∀ t : Fin cfg5.N, cond5_0 (grid5.coords t) ↔ t.val = 0 :=
  (by decide +kernel : ∀ t : Fin grid5.N, cond5_0 (grid5.coords t) ↔ t.val = 0)
/-- The second holds at row block 9 only. -/
theorem hcond5_1 : ∀ t : Fin cfg5.N, cond5_1 (grid5.coords t) ↔ t.val = 9 :=
  (by decide +kernel : ∀ t : Fin grid5.N, cond5_1 (grid5.coords t) ↔ t.val = 9)

/-! ## What one row block contributes, as functions of the seven input blocks

`xz` the row block of z, `xs` and `xq` the column sums of z and of its square over all rows, `xg`, `xe` the scale and
shift of the normalization, `xw` the weights, `xb` the bias. -/

/-- The normalized, rectified row block times the weights. -/
def mm5 (xz : Vec F S5000x64 .f32) (xs xq xg xe : Vec F S1x64 .f32) (xw : Vec F S64x64 .f32) : Vec F S5000x64 .f32 :=
  k5_pay6 xs xq xz xg xe xw
/-- The row block of the result: the product plus the bias. -/
def big5 (xz : Vec F S5000x64 .f32) (xs xq xg xe : Vec F S1x64 .f32) (xw : Vec F S64x64 .f32) (xb : Vec F S1x64 .f32) : Vec F S5000x64 .f32 :=
  k5_pay1 (mm5 xz xs xq xg xe xw) xb
/-- The running column sum `a` plus this block's column sum. -/
def sum5 (xz : Vec F S5000x64 .f32) (xs xq xg xe : Vec F S1x64 .f32) (xw : Vec F S64x64 .f32) (xb a : Vec F S1x64 .f32) : Vec F S1x64 .f32 :=
  k5_pay2 (mm5 xz xs xq xg xe xw) xb a
/-- The running column sum of squares `a` plus this block's. -/
def sq5 (xz : Vec F S5000x64 .f32) (xs xq xg xe : Vec F S1x64 .f32) (xw : Vec F S64x64 .f32) (xb a : Vec F S1x64 .f32) : Vec F S1x64 .f32 :=
  k5_pay3 (mm5 xz xs xq xg xe xw) xb a

/-- One whole-buffer store covers the buffer (a row of 64; a block of 5000 rows). -/
theorem coverRow5 (w : (Rect.unit (s := S1x64) ![0, 0] S1x64.size inb_S1x64_S1x64_0_0).shape.Idx → Elt F .f32) (y : S1x64.Idx) :
    ∃ p ∈ ([⟨Rect.unit (s := S1x64) ![0, 0] S1x64.size inb_S1x64_S1x64_0_0, w⟩] : List (View.Piece (Elt F) S1x64 .f32)), y ∈ p.1.set :=
  ⟨_, List.mem_singleton_self _, View.mem_set_unit_zero hzeroR5 inb_S1x64_S1x64_0_0 y⟩
theorem coverBlock5 (w : (Rect.unit (s := S5000x64) ![0, 0] S5000x64.size inb_S5000x64_S5000x64_0_0).shape.Idx → Elt F .f32) (y : S5000x64.Idx) :
    ∃ p ∈ ([⟨Rect.unit (s := S5000x64) ![0, 0] S5000x64.size inb_S5000x64_S5000x64_0_0, w⟩] : List (View.Piece (Elt F) S5000x64 .f32)), y ∈ p.1.set :=
  ⟨_, List.mem_singleton_self _, View.mem_set_unit_zero hzeroR5 inb_S5000x64_S5000x64_0_0 y⟩

set_option maxHeartbeats 1000000 in
/-- ROW BLOCK 0 (the first conditional taken, the second not). The accumulators, held at anything, are zeroed first:
    the body leaves them at `sum5 … 0`, `sq5 … 0` (the zero rows being the payloads the kernel stores), the big output at
    `big5`, the two small outputs untouched. -/
theorem sound_kernel5_A (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : cond5_0 i) (hc1 : ¬cond5_1 i) (xz : Vec F S5000x64 .f32) (xs xq xg xe : Vec F S1x64 .f32) (xw : Vec F S64x64 .f32) (xb : Vec F S1x64 .f32)
    (xo xp : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ (∃ d, owns (c : Thread nD τ) arg11 fullShare d) ∗ (∃ d, owns (c : Thread nD τ) arg12 fullShare d)
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big5 xz xs xq xg xe xw xb)
            ∗ owns (c : Thread nD τ) arg9 fullShare xo ∗ owns (c : Thread nD τ) arg10 fullShare xp
            ∗ owns (c : Thread nD τ) arg11 fullShare (sum5 xz xs xq xg xe xw xb (k5_pay4 (F := F))) ∗ owns (c : Thread nD τ) arg12 fullShare (sq5 xz xs xq xg xe xw xb (k5_pay5 (F := F)))) -∗ K ⟨⟩))
      ⊢ wp frame (wpE (defs₀ (F := F)) Variants.none c none) E (cc5_bn_matmul_stats_kernel i arg1 harg1 arg2 harg2 arg3 harg3 arg4 harg4 arg5 harg5 arg6 harg6 arg7 harg7 arg8 harg8 arg9 harg9 arg10 harg10 arg11 harg11 arg12 harg12) K := by
  simp only [cc5_bn_matmul_stats_kernel_eq_skeleton]; unfold cc5_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%dva, %fva, -, Hva⟩, ⟨%dvq, %fvq, -, Hvq⟩, Hk⟩
  subst hfz hfs hfq hfg hfe hfw hfb hfo hfp
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock5 _), View.canon_unit_zero hzeroR5]
    sl_unfold_words
    unfold big5 mm5
    simp only [View.readAt_eq_ld, View.ld_unit_zero (S := S5000x64) hzeroR5, View.ld_unit_zero (S := S1x64) hzeroR5, View.ld_unit_zero (S := S64x64) hzeroR5]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (fun y => ⟨_, List.mem_cons.mpr (Or.inl rfl), View.mem_set_unit_zero hzeroR5 inb_S1x64_S1x64_0_0 y⟩)]
    sl_unfold_words
    rw [View.canon_cons_unit_zero (S := S1x64) hzeroR5, View.readCov_unit_zero (S := S1x64) _ hzeroR5]
    unfold sum5 mm5
    simp only [View.readAt_eq_ld, View.ld_unit_zero (S := S5000x64) hzeroR5, View.ld_unit_zero (S := S1x64) hzeroR5, View.ld_unit_zero (S := S64x64) hzeroR5]
  iexists _; isplitr
  swap; · iexact Hvq
  ipureintro
  rw [View.read_writes_eq_canon _ _ _ (fun y => ⟨_, List.mem_cons.mpr (Or.inl rfl), View.mem_set_unit_zero hzeroR5 inb_S1x64_S1x64_0_0 y⟩)]
  sl_unfold_words
  rw [View.canon_cons_unit_zero (S := S1x64) hzeroR5, View.readCov_unit_zero (S := S1x64) _ hzeroR5]
  unfold sq5 mm5
  simp only [View.readAt_eq_ld, View.ld_unit_zero (S := S5000x64) hzeroR5, View.ld_unit_zero (S := S1x64) hzeroR5, View.ld_unit_zero (S := S64x64) hzeroR5]

set_option maxHeartbeats 1000000 in
/-- ROW BLOCKS 1 TO 8 (neither conditional taken). On whole staging memrefs, the inputs at their blocks, the big
    output at anything, the two small outputs at contents handed back untouched, the two accumulators at `va`, `vq`:
    the body leaves the big output at `big5` and the accumulators at `sum5 … va`, `sq5 … vq`. -/
theorem sound_kernel5_B (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond5_0 i) (hc1 : ¬cond5_1 i) (xz : Vec F S5000x64 .f32) (xs xq xg xe : Vec F S1x64 .f32) (xw : Vec F S64x64 .f32) (xb : Vec F S1x64 .f32)
    (xo xp va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big5 xz xs xq xg xe xw xb)
            ∗ owns (c : Thread nD τ) arg9 fullShare xo ∗ owns (c : Thread nD τ) arg10 fullShare xp
            ∗ owns (c : Thread nD τ) arg11 fullShare (sum5 xz xs xq xg xe xw xb va) ∗ owns (c : Thread nD τ) arg12 fullShare (sq5 xz xs xq xg xe xw xb vq)) -∗ K ⟨⟩))
      ⊢ wp frame (wpE (defs₀ (F := F)) Variants.none c none) E (cc5_bn_matmul_stats_kernel i arg1 harg1 arg2 harg2 arg3 harg3 arg4 harg4 arg5 harg5 arg6 harg6 arg7 harg7 arg8 harg8 arg9 harg9 arg10 harg10 arg11 harg11 arg12 harg12) K := by
  simp only [cc5_bn_matmul_stats_kernel_eq_skeleton]; unfold cc5_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%fva, %hfva, Hva⟩, ⟨%fvq, %hfvq, Hvq⟩, Hk⟩
  subst hfz hfs hfq hfg hfe hfw hfb hfo hfp hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock5 _), View.canon_unit_zero hzeroR5]
    sl_unfold_words
    unfold big5 mm5
    simp only [View.readAt_eq_ld, View.ld_unit_zero (S := S5000x64) hzeroR5, View.ld_unit_zero (S := S1x64) hzeroR5, View.ld_unit_zero (S := S64x64) hzeroR5]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (coverRow5 _), View.canon_unit_zero hzeroR5]
    sl_unfold_words
    unfold sum5 mm5
    simp only [View.readAt_eq_ld, View.ld_unit_zero (S := S5000x64) hzeroR5, View.ld_unit_zero (S := S1x64) hzeroR5, View.ld_unit_zero (S := S64x64) hzeroR5]
  iexists _; isplitr
  swap; · iexact Hvq
  ipureintro
  rw [View.read_writes_eq_canon _ _ _ (coverRow5 _), View.canon_unit_zero hzeroR5]
  sl_unfold_words
  unfold sq5 mm5
  simp only [View.readAt_eq_ld, View.ld_unit_zero (S := S5000x64) hzeroR5, View.ld_unit_zero (S := S1x64) hzeroR5, View.ld_unit_zero (S := S64x64) hzeroR5]

set_option maxHeartbeats 1000000 in
/-- ROW BLOCK 9 (the second conditional taken, the first not). As at row blocks 1 to 8, and then each accumulator is
    copied whole to its small output, held at anything before. -/
theorem sound_kernel5_C (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond5_0 i) (hc1 : cond5_1 i) (xz : Vec F S5000x64 .f32) (xs xq xg xe : Vec F S1x64 .f32) (xw : Vec F S64x64 .f32) (xb : Vec F S1x64 .f32)
    (va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big5 xz xs xq xg xe xw xb)
            ∗ owns (c : Thread nD τ) arg9 fullShare (sum5 xz xs xq xg xe xw xb va) ∗ owns (c : Thread nD τ) arg10 fullShare (sq5 xz xs xq xg xe xw xb vq)
            ∗ owns (c : Thread nD τ) arg11 fullShare (sum5 xz xs xq xg xe xw xb va) ∗ owns (c : Thread nD τ) arg12 fullShare (sq5 xz xs xq xg xe xw xb vq)) -∗ K ⟨⟩))
      ⊢ wp frame (wpE (defs₀ (F := F)) Variants.none c none) E (cc5_bn_matmul_stats_kernel i arg1 harg1 arg2 harg2 arg3 harg3 arg4 harg4 arg5 harg5 arg6 harg6 arg7 harg7 arg8 harg8 arg9 harg9 arg10 harg10 arg11 harg11 arg12 harg12) K := by
  simp only [cc5_bn_matmul_stats_kernel_eq_skeleton]; unfold cc5_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%do9, %fo, -, Ho⟩, ⟨%dp, %fp, -, Hp⟩, ⟨%fva, %hfva, Hva⟩, ⟨%fvq, %hfvq, Hvq⟩, Hk⟩
  subst hfz hfs hfq hfg hfe hfw hfb hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock5 _), View.canon_unit_zero hzeroR5]
    sl_unfold_words
    unfold big5 mm5
    simp only [View.readAt_eq_ld, View.ld_unit_zero (S := S5000x64) hzeroR5, View.ld_unit_zero (S := S1x64) hzeroR5, View.ld_unit_zero (S := S64x64) hzeroR5]
  isplitl [Ho]
  · iexists _; isplitr
    swap; · iexact Ho
    ipureintro
    rw [View.read_writes_eq_canon _ _ _ (coverRow5 _), View.canon_unit_zero hzeroR5]
    sl_unfold_words
    rw [View.readCov_unit_zero (S := S1x64) _ hzeroR5]
    unfold sum5 mm5
    simp only [View.readAt_eq_ld, View.ld_unit_zero (S := S5000x64) hzeroR5, View.ld_unit_zero (S := S1x64) hzeroR5, View.ld_unit_zero (S := S64x64) hzeroR5]
  isplitl [Hp]
  · iexists _; isplitr
    swap; · iexact Hp
    ipureintro
    rw [View.read_writes_eq_canon _ _ _ (coverRow5 _), View.canon_unit_zero hzeroR5]
    sl_unfold_words
    rw [View.readCov_unit_zero (S := S1x64) _ hzeroR5]
    unfold sq5 mm5
    simp only [View.readAt_eq_ld, View.ld_unit_zero (S := S5000x64) hzeroR5, View.ld_unit_zero (S := S1x64) hzeroR5, View.ld_unit_zero (S := S64x64) hzeroR5]
  isplitl [Hva]
  · iexists _; isplitr
    swap; · iexact Hva
    ipureintro
    sl_unfold_words
    rw [View.read_writes_eq_canon _ _ _ (coverRow5 _), View.canon_unit_zero hzeroR5]
    unfold sum5 mm5
    simp only [View.readAt_eq_ld, View.ld_unit_zero (S := S5000x64) hzeroR5, View.ld_unit_zero (S := S1x64) hzeroR5, View.ld_unit_zero (S := S64x64) hzeroR5]
  iexists _; isplitr
  swap; · iexact Hvq
  ipureintro
  sl_unfold_words
  rw [View.read_writes_eq_canon _ _ _ (coverRow5 _), View.canon_unit_zero hzeroR5]
  unfold sq5 mm5
  simp only [View.readAt_eq_ld, View.ld_unit_zero (S := S5000x64) hzeroR5, View.ld_unit_zero (S := S1x64) hzeroR5, View.ld_unit_zero (S := S64x64) hzeroR5]

-- the TensorCore's buffer contents when the region is entered
variable (V : (c : Dev nD) → (b : Ref sig .tc) → Buf (Elt F) ((c : Thread nD τ).loc b))

/-! ## The windows' blocks -/

/-- Window `w`'s block at row block `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current staging buffer holds its block at every row block, fetched there or not, for any proof
    data whose array is the entry contents and whose body leaves the block in place (an input not fetched again keeps
    its block index). -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## Where the two small outputs are idle -/

/-- Before row block 9 the two small outputs are idle and are not written back. -/
theorem idleAt5_8 : ∀ t : Fin cfg5.N, ¬cond5_1 (grid5.coords t) → cfg5.idle 8 (grid5.coords t) = true := by decide +kernel
theorem idleAt5_9 : ∀ t : Fin cfg5.N, ¬cond5_1 (grid5.coords t) → cfg5.idle 9 (grid5.coords t) = true := by decide +kernel
theorem noFlush5_8 : ∀ t : Fin cfg5.N, ¬cond5_1 (grid5.coords t) → (cfg5.win 8).flush t = false := by decide +kernel
theorem noFlush5_9 : ∀ t : Fin cfg5.N, ¬cond5_1 (grid5.coords t) → (cfg5.win 9).flush t = false := by decide +kernel
/-- At row block 9 they are live. -/
theorem liveAt5_8 : ∀ t : Fin cfg5.N, cond5_1 (grid5.coords t) → cfg5.idle 8 (grid5.coords t) = false := by decide +kernel
theorem liveAt5_9 : ∀ t : Fin cfg5.N, cond5_1 (grid5.coords t) → cfg5.idle 9 (grid5.coords t) = false := by decide +kernel

/-! ## The two accumulators, row block by row block -/

/-- What the two accumulators hold after the first `n` row blocks: zero rows, then each block's column sums added in
    order (past the last row block nothing changes). -/
def acc5 (c : Dev nD) : ℕ → Vec F S1x64 .f32 × Vec F S1x64 .f32
  | 0 => (k5_pay4, k5_pay5)
  | n + 1 => if h : n < cfg5.N then
      (sum5 (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩) (iblk5 V c 6 ⟨n, h⟩) (acc5 c n).1,
       sq5 (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩) (iblk5 V c 6 ⟨n, h⟩) (acc5 c n).2)
    else acc5 c n

theorem acc5_zero (c : Dev nD) : acc5 V c 0 = (k5_pay4, k5_pay5) := rfl

/-- One more row block: its column sums are added to what the blocks before left. -/
theorem acc5_succ (c : Dev nD) (t : Fin cfg5.N) : acc5 V c (t.val + 1) =
      (sum5 (iblk5 V c 0 t) (iblk5 V c 1 t) (iblk5 V c 2 t) (iblk5 V c 3 t) (iblk5 V c 4 t) (iblk5 V c 5 t) (iblk5 V c 6 t) (acc5 V c t.val).1,
       sq5 (iblk5 V c 0 t) (iblk5 V c 1 t) (iblk5 V c 2 t) (iblk5 V c 3 t) (iblk5 V c 4 t) (iblk5 V c 5 t) (iblk5 V c 6 t) (acc5 V c t.val).2) := by
  obtain ⟨n, hn⟩ := t
  show (if h : n < cfg5.N then _ else _) = _
  rw [dif_pos hn]

/-- The first row block adds to the zero rows. -/
theorem acc5_zero_step (c : Dev nD) (t : Fin cfg5.N) (h : t.val = 0) : acc5 V c (t.val + 1) =
      (sum5 (iblk5 V c 0 t) (iblk5 V c 1 t) (iblk5 V c 2 t) (iblk5 V c 3 t) (iblk5 V c 4 t) (iblk5 V c 5 t) (iblk5 V c 6 t) (k5_pay4 (F := F)),
       sq5 (iblk5 V c 0 t) (iblk5 V c 1 t) (iblk5 V c 2 t) (iblk5 V c 3 t) (iblk5 V c 4 t) (iblk5 V c 5 t) (iblk5 V c 6 t) (k5_pay5 (F := F))) := by
  rw [acc5_succ, h]; rfl

theorem mm5_eq (xz : Vec F S5000x64 .f32) (xs xq xg xe : Vec F S1x64 .f32) (xw : Vec F S64x64 .f32) :
    mm5 xz xs xq xg xe xw = k5_pay6 xs xq xz xg xe xw := rfl
theorem big5_eq (xz : Vec F S5000x64 .f32) (xs xq xg xe : Vec F S1x64 .f32) (xw : Vec F S64x64 .f32) (xb : Vec F S1x64 .f32) :
    big5 xz xs xq xg xe xw xb = k5_pay1 (k5_pay6 xs xq xz xg xe xw) xb := rfl
theorem sum5_eq (xz : Vec F S5000x64 .f32) (xs xq xg xe : Vec F S1x64 .f32) (xw : Vec F S64x64 .f32) (xb a : Vec F S1x64 .f32) :
    sum5 xz xs xq xg xe xw xb a = k5_pay2 (k5_pay6 xs xq xz xg xe xw) xb a := rfl
theorem sq5_eq (xz : Vec F S5000x64 .f32) (xs xq xg xe : Vec F S1x64 .f32) (xw : Vec F S64x64 .f32) (xb a : Vec F S1x64 .f32) :
    sq5 xz xs xq xg xe xw xb a = k5_pay3 (k5_pay6 xs xq xz xg xe xw) xb a := rfl

/-! ## The region invariant -/

/-- The two accumulators: whole scoped buffers of the kernel's own. -/
abbrev scM5_0 : Memref sig .tc .vmem S1x64 .f32 := Memref.whole cc5_scratch0
abbrev scM5_1 : Memref sig .tc .vmem S1x64 .f32 := Memref.whole cc5_scratch1

/-- What the launch hands the region, with the two accumulators as memrefs owned at some contents beside the rest of the
    scoped buffers and the generator register. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut spec5 c [cc5_scratch0, cc5_scratch1]) ∗ (∃ r, prngReg c r)) := by
  unfold Pipeline.ΦA; rw [scopedRest5_split]; simp only [scM5_0, scM5_1, owns_whole]; try rfl

/-- The invariant before row block `n`: before the first what the launch hands over; afterwards the two accumulators at
    what the row blocks so far left, beside the untouched rest. -/
def PhiS5 (c : Dev nD) : ℕ → sProp 𝕄
  | 0 => Pipeline.ΦA spec5 c
  | n + 1 => iprop(iprop(iprop(owns (c : Thread nD τ) scM5_0 fullShare (acc5 V c (n + 1)).1 ∗ owns (c : Thread nD τ) scM5_1 fullShare (acc5 V c (n + 1)).2)
          ∗ Pipeline.scopedRestBut spec5 c [cc5_scratch0, cc5_scratch1]) ∗ (∃ r, prngReg c r))

theorem PhiS5_zero (c : Dev nD) (n : ℕ) (hz : n = 0) : PhiS5 V c n = Pipeline.ΦA spec5 c := by subst hz; rfl

theorem PhiS5_pos (c : Dev nD) (n : ℕ) (hz : n ≠ 0) :
    PhiS5 V c n = iprop(iprop(iprop(owns (c : Thread nD τ) scM5_0 fullShare (acc5 V c n).1 ∗ owns (c : Thread nD τ) scM5_1 fullShare (acc5 V c n).2)
          ∗ Pipeline.scopedRestBut spec5 c [cc5_scratch0, cc5_scratch1]) ∗ (∃ r, prngReg c r)) := by
  cases n with
  | zero => exact absurd rfl hz
  | succ n => rfl

/-! ## The pipeline's proof data -/

/-- The proof data of this pipeline on core `c`: the arrays as the region finds them; after the body at row block `t`
    each input's buffer at its block, the big output's at `big5` of the input blocks, the two small outputs' at the
    accumulators after `t + 1` row blocks (what the last row block copies there; at the others, where they are idle,
    never consulted); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => big5 (iblk5 V c 0 t) (iblk5 V c 1 t) (iblk5 V c 2 t) (iblk5 V c 3 t) (iblk5 V c 4 t) (iblk5 V c 5 t) (iblk5 V c 6 t)
    | ⟨8, _⟩ => (acc5 V c (t.val + 1)).1
    | ⟨9, _⟩ => (acc5 V c (t.val + 1)).2
  Φ t := PhiS5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_big (c : Dev nD) (t : Fin cfg5.N) : (dat5 V c).after 7 t = big5 (iblk5 V c 0 t) (iblk5 V c 1 t) (iblk5 V c 2 t) (iblk5 V c 3 t) (iblk5 V c 4 t) (iblk5 V c 5 t) (iblk5 V c 6 t) := by dsimp only [dat5]
theorem after5_s (c : Dev nD) (t : Fin cfg5.N) : (dat5 V c).after 8 t = (acc5 V c (t.val + 1)).1 := by dsimp only [dat5]
theorem after5_ss (c : Dev nD) (t : Fin cfg5.N) : (dat5 V c).after 9 t = (acc5 V c (t.val + 1)).2 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

theorem Phi5_castSucc (c : Dev nD) (t : Fin cfg5.N) : (dat5 V c).Φ t.castSucc = PhiS5 V c t.val := by
  dsimp only [dat5]; simp only [Fin.coe_castSucc]
theorem Phi5_succ (c : Dev nD) (t : Fin cfg5.N) : (dat5 V c).Φ t.succ = PhiS5 V c (t.val + 1) := by
  dsimp only [dat5]; simp only [Fin.val_succ]

/-! ## The body obligation, at a generic row block -/

/-- What the body is called with at row block `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t)

/-- Every window but the two small outputs is live at every row block: the body leaves its buffer at `after`. -/
theorem leaves5_0 (c : Dev nD) (t : Fin cfg5.N) : (dat5 V c).leavesExact 0 t = owns (c : Thread nD τ) (st5_0 t) fullShare ((dat5 V c).after 0 t) := rfl
theorem leaves5_1 (c : Dev nD) (t : Fin cfg5.N) : (dat5 V c).leavesExact 1 t = owns (c : Thread nD τ) (st5_1 t) fullShare ((dat5 V c).after 1 t) := rfl
theorem leaves5_2 (c : Dev nD) (t : Fin cfg5.N) : (dat5 V c).leavesExact 2 t = owns (c : Thread nD τ) (st5_2 t) fullShare ((dat5 V c).after 2 t) := rfl
theorem leaves5_3 (c : Dev nD) (t : Fin cfg5.N) : (dat5 V c).leavesExact 3 t = owns (c : Thread nD τ) (st5_3 t) fullShare ((dat5 V c).after 3 t) := rfl
theorem leaves5_4 (c : Dev nD) (t : Fin cfg5.N) : (dat5 V c).leavesExact 4 t = owns (c : Thread nD τ) (st5_4 t) fullShare ((dat5 V c).after 4 t) := rfl
theorem leaves5_5 (c : Dev nD) (t : Fin cfg5.N) : (dat5 V c).leavesExact 5 t = owns (c : Thread nD τ) (st5_5 t) fullShare ((dat5 V c).after 5 t) := rfl
theorem leaves5_6 (c : Dev nD) (t : Fin cfg5.N) : (dat5 V c).leavesExact 6 t = owns (c : Thread nD τ) (st5_6 t) fullShare ((dat5 V c).after 6 t) := rfl
theorem leaves5_7 (c : Dev nD) (t : Fin cfg5.N) : (dat5 V c).leavesExact 7 t = owns (c : Thread nD τ) (st5_7 t) fullShare ((dat5 V c).after 7 t) := rfl

set_option maxHeartbeats 4800000 in
/-- The body at any row block: the inputs' memrefs hold their blocks; the row-block number decides which of the three
    runs applies; the invariant hands the body the accumulators (at anything before the first row block, afterwards at
    what the blocks so far left) and takes them back with this block's column sums added; the rest of the scoped
    buffers, the generator register and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).owesAt () t.succ = (dat5 V c).owesAt () t.castSucc from rfl]
  rw [Phi5_castSucc, Phi5_succ]
  rw [leaves5_0, leaves5_1, leaves5_2, leaves5_3, leaves5_4, leaves5_5, leaves5_6, leaves5_7,
    after5_0, after5_1, after5_2, after5_3, after5_4, after5_5, after5_6, after5_big]
  by_cases h0 : t.val = 0
  · -- row block 0
    have h9 : ¬t.val = 9 := by omega
    have hc0 : cond5_0 (grid5.coords t) := (hcond5_0 t).mpr h0
    have hc1 : ¬cond5_1 (grid5.coords t) := fun h => h9 ((hcond5_1 t).mp h)
    rw [Dat.leavesExact_idle (dat5 V c) 8 t (idleAt5_8 t hc1) (noFlush5_8 t hc1),
      Dat.leavesExact_idle (dat5 V c) 9 t (idleAt5_9 t hc1) (noFlush5_9 t hc1)]
    rw [PhiS5_zero V c _ h0, PhiA5_eq, PhiS5_pos V c _ (Nat.succ_ne_zero _), acc5_zero_step V c t h0]
    iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel5_A c Set.univ (grid5.coords t) _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [Hva]; · iexact Hva
    isplitl [Hvq]; · iexact Hvq
    iintro ⟨H0, H1, H2, H3, H4, H5, H6, H7, H8, H9, Hva, Hvq⟩
    isplitl [Hva Hvq Hrest Hg]
    · isplitl [Hva Hvq Hrest]
      · isplitl [Hva Hvq]
        · isplitl [Hva]; · iexact Hva
          iexact Hvq
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · by_cases h9 : t.val = 9
    · -- row block 9
      have hc0 : ¬cond5_0 (grid5.coords t) := fun h => h0 ((hcond5_0 t).mp h)
      have hc1 : cond5_1 (grid5.coords t) := (hcond5_1 t).mpr h9
      rw [show (dat5 V c).leavesExact 8 t = owns (c : Thread nD τ) (st5_8 t) fullShare ((dat5 V c).after 8 t) from by
          unfold Dat.leavesExact; rw [liveAt5_8 t hc1],
        show (dat5 V c).leavesExact 9 t = owns (c : Thread nD τ) (st5_9 t) fullShare ((dat5 V c).after 9 t) from by
          unfold Dat.leavesExact; rw [liveAt5_9 t hc1], after5_s, after5_ss]
      rw [PhiS5_pos V c _ h0, PhiS5_pos V c _ (Nat.succ_ne_zero _), acc5_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel5_C c Set.univ (grid5.coords t) _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- row blocks 1 to 8
      have hc0 : ¬cond5_0 (grid5.coords t) := fun h => h0 ((hcond5_0 t).mp h)
      have hc1 : ¬cond5_1 (grid5.coords t) := fun h => h9 ((hcond5_1 t).mp h)
      rw [Dat.leavesExact_idle (dat5 V c) 8 t (idleAt5_8 t hc1) (noFlush5_8 t hc1),
        Dat.leavesExact_idle (dat5 V c) 9 t (idleAt5_9 t hc1) (noFlush5_9 t hc1)]
      rw [PhiS5_pos V c _ h0, PhiS5_pos V c _ (Nat.succ_ne_zero _), acc5_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel5_B c Set.univ (grid5.coords t) _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every row block. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first row block. -/
theorem hin5 (c : Dev nD) : Pipeline.ΦA spec5 c ⊢ (dat5 V c).Φ 0 := by
  rw [show (dat5 V c).Φ 0 = PhiS5 V c 0 from rfl, PhiS5_zero V c 0 rfl]
  try exact Idealize.SL.BI.Entails.refl _

/-- After the last row block the invariant gives back what the launch handed over: the accumulators' named contents
    are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val from rfl,
    PhiS5_pos V c _ (by rw [Fin.val_last]; have : cfg5.N = 10 := N_5; omega), PhiA5_eq]
  iintro ⟨⟨⟨Hva, Hvq⟩, Hrest⟩, Hg⟩
  isplitl [Hva Hvq Hrest]
  · isplitl [Hva Hvq]
    · isplitl [Hva]; · iexists _; iexact Hva
      iexists _; iexact Hvq
    iexact Hrest
  iexact Hg

end Cert.Kernel.Gen

end
-- ==== Proof.KB.Reg6.lean ====
/- The batch-norm-and-relu region of one layer, at the TensorCore's buffer contents V on entry, for any float type F.
   Six windows over a grid of ten row blocks: the row block of z (5000 x 64), then four (1 x 64) rows — the column
   sums of z, the column sums of z*z, the scale and the shift — and the output row block (5000 x 64).
   The body reads the five inputs whole and stores the output block whole, at every point, and keeps nothing from
   one point to the next; so after the body each input buffer still holds its block and the output buffer holds
   one payload: relu ((z - mean) * rsqrt (var + eps) * scale + shift) of the input blocks, as the skeleton names it. -/
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 5000-row rectangle is looked at structurally, once per row
set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input buffer holds its window's block at every point. The z block moves with the point and is fetched each
    time; the four rows are fetched at the first point only, and later points find them where they were left, which
    is right because their block index never moves. One library fact covers both: for proof data whose array is the
    entry contents and whose body leaves the block where it was, the buffer is what a fetch would put there. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## What the body touches -/

/-- The whole of a 5000 x 64 block: the one rectangle the z load, the output's read and the output's store go through. -/
abbrev blockRect6 : Rect S5000x64 := Rect.unit (s := S5000x64) ![0, 0] S5000x64.size inb_S5000x64_S5000x64_0_0
/-- The whole of a 1 x 64 row: the rectangle each of the four row loads goes through. -/
abbrev rowRect6 : Rect S1x64 := Rect.unit (s := S1x64) ![0, 0] S1x64.size inb_S1x64_S1x64_0_0

/-! ## What the body leaves in the output buffer -/

/-- The output buffer after the body, from the five input blocks (z, the two sums, scale, shift, in window order):
    the single store's payload over the whole block, whatever the buffer held before. -/
def out6_5 (z : Vec F S5000x64 .f32) (s ss g b : Vec F S1x64 .f32) : Vec F S5000x64 .f32 :=
  View.canon [⟨blockRect6, k6_pay1 (View.ld s rowRect6) (View.ld ss rowRect6) (View.ld z blockRect6) (View.ld g rowRect6) (View.ld b rowRect6)⟩]

/-- The one store's rectangle is the whole block, so every index of the buffer lies in it. -/
theorem cover6_5 (p : Vec F S5000x64 .f32) (y : S5000x64.Idx) :
    ∃ pc ∈ ([⟨blockRect6, p⟩] : List (View.Piece (Elt F) S5000x64 .f32)), y ∈ pc.1.set :=
  View.cover_of_tiled [⟨blockRect6, p⟩] S5000x64.size (by rfl) y

/-! ## The body's triple -/

set_option maxHeartbeats 1000000 in
/-- Run on whole buffers — the five inputs' reading z, s, ss, g, b and the output's holding anything — the body hands
    its continuation the inputs as they were and the output at out6_5 of them. The printed function is its skeleton
    of loads and one store; the loads read the owned contents through whole rectangles, the output's own read is
    of whatever it held and is not used, and the store covers the buffer. -/
theorem sound_kernel6 (c : Dev nD) (E : Set ℕ) (i : grid6.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (z : Vec F S5000x64 .f32) (s ss g b : Vec F S1x64 .f32) (K : PUnit → sProp 𝕄) :
    iprop(owns (c : Thread nD τ) arg1 fullShare z ∗ owns (c : Thread nD τ) arg2 fullShare s ∗ owns (c : Thread nD τ) arg3 fullShare ss
        ∗ owns (c : Thread nD τ) arg4 fullShare g ∗ owns (c : Thread nD τ) arg5 fullShare b ∗ (∃ d, owns (c : Thread nD τ) arg6 fullShare d)
        ∗ (iprop(owns (c : Thread nD τ) arg1 fullShare z ∗ owns (c : Thread nD τ) arg2 fullShare s ∗ owns (c : Thread nD τ) arg3 fullShare ss
            ∗ owns (c : Thread nD τ) arg4 fullShare g ∗ owns (c : Thread nD τ) arg5 fullShare b
            ∗ owns (c : Thread nD τ) arg6 fullShare (out6_5 z s ss g b)) -∗ K ⟨⟩))
      ⊢ wp frame (wpE (defs₀ (F := F)) Variants.none c none) E (cc6_bn_relu_kernel i arg1 harg1 arg2 harg2 arg3 harg3 arg4 harg4 arg5 harg5 arg6 harg6) K := by
  simp only [cc6_bn_relu_kernel_eq_skeleton]; unfold cc6_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_5 _)

/-! ## The region's proof data -/

/-- The arrays are the entry contents; after the body at point t each input buffer holds its block and the output
    buffer out6_5 of the five input blocks there; the invariant is the one of a body that touches nothing but its
    buffers; full shares, nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

/-- What the pipeline calls the body with at point t, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it has to give back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- At any point the input buffers hold their blocks, so the body's triple applies; the invariant and what is
    owed go through untouched, being the same before and after a point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this region's proof data, at every point. -/
theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.KB.Reg7.RunFirst.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero7_first : (![0, 0] : Fin 2 → Nat) = fun _ => 0 := funext fun a => by fin_cases a <;> rfl

/-- A store through the whole-shape rectangle, made last, leaves its payload, whatever was stored before. -/
theorem storeWhole7_first {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole7_first {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the first point: the first conditional block runs and zeroes both accumulators, the last does not run. On
    whole memrefs — the five inputs at their contents, the big output and both accumulators at anything, the two small
    outputs at contents handed back untouched — it stores the affine image of the inputs into the big output and leaves
    in the accumulators the zero rows plus that block's column sums and the column sums of its square. -/
theorem run7_first (c : Dev nD) (i : grid7.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : (Scalar.cmpi .ne (Scalar.extui (Scalar.cmpi .eq (BitVec.ofNat 32 (i 0).val) 0#32)) 0#32) = 1#1) (hlast : ¬ k7_cond2 i = 1#1)
    (x1 x2 : Vec F S5000x64 .f32) (x3 : Vec F S1x64 .f32) (x4 : Vec F S64x64 .f32) (x5 : Vec F S1x64 .f32)
    (y7 y8 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k7_pay4 x3 x1 x2 x4 x5) ∗ owns (c : Thread nD τ) arg7 fullShare y7 ∗ owns (c : Thread nD τ) arg8 fullShare y8
            ∗ owns (c : Thread nD τ) arg9 fullShare (k7_pay5 x3 x1 x2 x4 x5 k7_pay2)
            ∗ owns (c : Thread nD τ) arg10 fullShare (k7_pay1 k7_pay3 (k7_pay6 x3 x1 x2 x4 x5))) -∗ K ⟨⟩))
      ⊢ wp frame (wpE (defs₀ (F := F)) Variants.none c none) E (cc7_linear_stats_kernel i arg1 harg1 arg2 harg2 arg3 harg3 arg4 harg4 arg5 harg5 arg6 harg6 arg7 harg7 arg8 harg8 arg9 harg9 arg10 harg10) K := by
  simp only [cc7_linear_stats_kernel_eq_skeleton]; unfold cc7_linear_stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole7_first (S := S5000x64) _ _ offsZero7_first inb_S5000x64_S5000x64_0_0 _ _).trans ?_
    simp only [View.readCov_unit_zero (S := S1x64) _ offsZero7_first, loadWhole7_first (S := S1x64) _ offsZero7_first, loadWhole7_first (S := S5000x64) _ offsZero7_first, loadWhole7_first (S := S64x64) _ offsZero7_first]
  isplitl [H7]; · iexact H7
  isplitl [H8]; · iexact H8
  isplitl [H9]
  · iexists _; isplitr
    swap; · iexact H9
    ipureintro
    (try sl_unfold_words)
    refine (storeWhole7_first (S := S1x64) _ _ offsZero7_first inb_S1x64_S1x64_0_0 _ _).trans ?_
    simp only [View.readCov_unit_zero (S := S1x64) _ offsZero7_first, loadWhole7_first (S := S1x64) _ offsZero7_first, loadWhole7_first (S := S5000x64) _ offsZero7_first, loadWhole7_first (S := S64x64) _ offsZero7_first]
  iexists _; isplitr
  swap; · iexact H10
  ipureintro
  (try sl_unfold_words)
  refine (storeWhole7_first (S := S1x64) _ _ offsZero7_first inb_S1x64_S1x64_0_0 _ _).trans ?_
  simp only [View.readCov_unit_zero (S := S1x64) _ offsZero7_first, loadWhole7_first (S := S1x64) _ offsZero7_first, loadWhole7_first (S := S5000x64) _ offsZero7_first, loadWhole7_first (S := S64x64) _ offsZero7_first]

end Cert.Kernel.Gen
end
-- ==== Proof.KB.Reg7.RunMid.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero7_mid : (![0, 0] : Fin 2 → Nat) = fun _ => 0 := funext fun a => by fin_cases a <;> rfl

/-- A store through the whole-shape rectangle, made last, leaves its payload, whatever was stored before. -/
theorem storeWhole7_mid {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole7_mid {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at a point that is neither the first nor the last: neither conditional block runs. On whole memrefs — the five
    inputs at their contents, the big output at anything, the two small outputs at contents handed back untouched, the
    two accumulators at what the points before left — it stores the affine image of the inputs into the big output and
    adds that block's column sums, and the column sums of its square, to the two accumulators. -/
theorem run7_mid (c : Dev nD) (i : grid7.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : ¬ k7_cond2 i = 1#1)
    (x1 x2 : Vec F S5000x64 .f32) (x3 : Vec F S1x64 .f32) (x4 : Vec F S64x64 .f32) (x5 : Vec F S1x64 .f32)
    (y7 y8 s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k7_pay4 x3 x1 x2 x4 x5) ∗ owns (c : Thread nD τ) arg7 fullShare y7 ∗ owns (c : Thread nD τ) arg8 fullShare y8
            ∗ owns (c : Thread nD τ) arg9 fullShare (k7_pay5 x3 x1 x2 x4 x5 s0)
            ∗ owns (c : Thread nD τ) arg10 fullShare (k7_pay1 s1 (k7_pay6 x3 x1 x2 x4 x5))) -∗ K ⟨⟩))
      ⊢ wp frame (wpE (defs₀ (F := F)) Variants.none c none) E (cc7_linear_stats_kernel i arg1 harg1 arg2 harg2 arg3 harg3 arg4 harg4 arg5 harg5 arg6 harg6 arg7 harg7 arg8 harg8 arg9 harg9 arg10 harg10) K := by
  simp only [cc7_linear_stats_kernel_eq_skeleton]; unfold cc7_linear_stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole7_mid (S := S5000x64) _ _ offsZero7_mid inb_S5000x64_S5000x64_0_0 _ _).trans ?_
    simp only [View.readCov_unit_zero (S := S1x64) _ offsZero7_mid, loadWhole7_mid (S := S1x64) _ offsZero7_mid, loadWhole7_mid (S := S5000x64) _ offsZero7_mid, loadWhole7_mid (S := S64x64) _ offsZero7_mid]
  isplitl [H7]; · iexact H7
  isplitl [H8]; · iexact H8
  isplitl [H9]
  · iexists _; isplitr
    swap; · iexact H9
    ipureintro
    (try sl_unfold_words)
    refine (storeWhole7_mid (S := S1x64) _ _ offsZero7_mid inb_S1x64_S1x64_0_0 _ _).trans ?_
    simp only [View.readCov_unit_zero (S := S1x64) _ offsZero7_mid, loadWhole7_mid (S := S1x64) _ offsZero7_mid, loadWhole7_mid (S := S5000x64) _ offsZero7_mid, loadWhole7_mid (S := S64x64) _ offsZero7_mid]
  iexists _; isplitr
  swap; · iexact H10
  ipureintro
  (try sl_unfold_words)
  refine (storeWhole7_mid (S := S1x64) _ _ offsZero7_mid inb_S1x64_S1x64_0_0 _ _).trans ?_
  simp only [View.readCov_unit_zero (S := S1x64) _ offsZero7_mid, loadWhole7_mid (S := S1x64) _ offsZero7_mid, loadWhole7_mid (S := S5000x64) _ offsZero7_mid, loadWhole7_mid (S := S64x64) _ offsZero7_mid]

end Cert.Kernel.Gen
end
-- ==== Proof.KB.Reg7.RunLast.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero7_last : (![0, 0] : Fin 2 → Nat) = fun _ => 0 := funext fun a => by fin_cases a <;> rfl

/-- A store through the whole-shape rectangle, made last, leaves its payload, whatever was stored before. -/
theorem storeWhole7_last {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole7_last {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the last point: the first conditional block does not run, the last one does and copies the two
    accumulators into the two small outputs. On whole memrefs — the five inputs at their contents, the three outputs at
    anything, the two accumulators at what the points before left — it stores the affine image of the inputs into the
    big output, adds that block's column sums and the column sums of its square to the accumulators, and leaves each small
    output at its accumulator's final contents. -/
theorem run7_last (c : Dev nD) (i : grid7.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : k7_cond2 i = 1#1)
    (x1 x2 : Vec F S5000x64 .f32) (x3 : Vec F S1x64 .f32) (x4 : Vec F S64x64 .f32) (x5 : Vec F S1x64 .f32)
    (s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k7_pay4 x3 x1 x2 x4 x5)
            ∗ owns (c : Thread nD τ) arg7 fullShare (k7_pay5 x3 x1 x2 x4 x5 s0)
            ∗ owns (c : Thread nD τ) arg8 fullShare (k7_pay1 s1 (k7_pay6 x3 x1 x2 x4 x5))
            ∗ owns (c : Thread nD τ) arg9 fullShare (k7_pay5 x3 x1 x2 x4 x5 s0)
            ∗ owns (c : Thread nD τ) arg10 fullShare (k7_pay1 s1 (k7_pay6 x3 x1 x2 x4 x5))) -∗ K ⟨⟩))
      ⊢ wp frame (wpE (defs₀ (F := F)) Variants.none c none) E (cc7_linear_stats_kernel i arg1 harg1 arg2 harg2 arg3 harg3 arg4 harg4 arg5 harg5 arg6 harg6 arg7 harg7 arg8 harg8 arg9 harg9 arg10 harg10) K := by
  simp only [cc7_linear_stats_kernel_eq_skeleton]; unfold cc7_linear_stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole7_last (S := S5000x64) _ _ offsZero7_last inb_S5000x64_S5000x64_0_0 _ _).trans ?_
    simp only [View.readCov_unit_zero (S := S1x64) _ offsZero7_last, loadWhole7_last (S := S1x64) _ offsZero7_last, loadWhole7_last (S := S5000x64) _ offsZero7_last, loadWhole7_last (S := S64x64) _ offsZero7_last]
  isplitl [H7]
  · iexists _; isplitr
    swap; · iexact H7
    ipureintro
    (try sl_unfold_words)
    refine (storeWhole7_last (S := S1x64) _ _ offsZero7_last inb_S1x64_S1x64_0_0 _ _).trans ?_
    simp only [View.readCov_unit_zero (S := S1x64) _ offsZero7_last, loadWhole7_last (S := S1x64) _ offsZero7_last, loadWhole7_last (S := S5000x64) _ offsZero7_last, loadWhole7_last (S := S64x64) _ offsZero7_last]
  isplitl [H8]
  · iexists _; isplitr
    swap; · iexact H8
    ipureintro
    (try sl_unfold_words)
    refine (storeWhole7_last (S := S1x64) _ _ offsZero7_last inb_S1x64_S1x64_0_0 _ _).trans ?_
    simp only [View.readCov_unit_zero (S := S1x64) _ offsZero7_last, loadWhole7_last (S := S1x64) _ offsZero7_last, loadWhole7_last (S := S5000x64) _ offsZero7_last, loadWhole7_last (S := S64x64) _ offsZero7_last]
  isplitl [H9]
  · iexists _; isplitr
    swap; · iexact H9
    ipureintro
    (try sl_unfold_words)
    refine (storeWhole7_last (S := S1x64) _ _ offsZero7_last inb_S1x64_S1x64_0_0 _ _).trans ?_
    simp only [View.readCov_unit_zero (S := S1x64) _ offsZero7_last, loadWhole7_last (S := S1x64) _ offsZero7_last, loadWhole7_last (S := S5000x64) _ offsZero7_last, loadWhole7_last (S := S64x64) _ offsZero7_last]
  iexists _; isplitr
  swap; · iexact H10
  ipureintro
  (try sl_unfold_words)
  refine (storeWhole7_last (S := S1x64) _ _ offsZero7_last inb_S1x64_S1x64_0_0 _ _).trans ?_
  simp only [View.readCov_unit_zero (S := S1x64) _ offsZero7_last, loadWhole7_last (S := S1x64) _ offsZero7_last, loadWhole7_last (S := S5000x64) _ offsZero7_last, loadWhole7_last (S := S64x64) _ offsZero7_last]

end Cert.Kernel.Gen
end
-- ==== Proof.KB.Reg7.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«140206_j52750788330061_1_alg».proof.Proof.KB.Reg7.RunFirst
import proofs.«140206_j52750788330061_1_alg».proof.Proof.KB.Reg7.RunMid
import proofs.«140206_j52750788330061_1_alg».proof.Proof.KB.Reg7.RunLast
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points run which conditional block -/

/-- The first block's condition, as the body computes it from the grid coordinate, holds at point 0 only. -/
theorem first7_iff : ∀ t : Fin cfg7.N,
    (Scalar.cmpi .ne (Scalar.extui (Scalar.cmpi .eq (BitVec.ofNat 32 ((grid7.coords t) 0).val) 0#32)) 0#32) = 1#1 ↔ t.val = 0 :=
  (by decide +kernel : ∀ t : Fin grid7.N,
    (Scalar.cmpi .ne (Scalar.extui (Scalar.cmpi .eq (BitVec.ofNat 32 ((grid7.coords t) 0).val) 0#32)) 0#32) = 1#1 ↔ t.val = 0)

/-- The last block's condition holds at point 9 only. -/
theorem last7_iff : ∀ t : Fin cfg7.N, k7_cond2 (grid7.coords t) = 1#1 ↔ t.val = 9 :=
  (by decide +kernel : ∀ t : Fin grid7.N, k7_cond2 (grid7.coords t) = 1#1 ↔ t.val = 9)

/-- The two small outputs are idle at every point but the last, -/
theorem idleAt7_6 : ∀ t : Fin cfg7.N, t.val ≠ 9 → cfg7.idle 6 (grid7.coords t) = true := by decide +kernel
theorem idleAt7_7 : ∀ t : Fin cfg7.N, t.val ≠ 9 → cfg7.idle 7 (grid7.coords t) = true := by decide +kernel
/-- live at the last, -/
theorem liveAt7_6 : ∀ t : Fin cfg7.N, t.val = 9 → cfg7.idle 6 (grid7.coords t) = false := by decide +kernel
theorem liveAt7_7 : ∀ t : Fin cfg7.N, t.val = 9 → cfg7.idle 7 (grid7.coords t) = false := by decide +kernel
/-- and not written back before it. -/
theorem noFlush7_6 : ∀ t : Fin cfg7.N, t.val ≠ 9 → (cfg7.win 6).flush t = false :=
  (by decide +kernel : ∀ t : Fin grid7.N, t.val ≠ 9 → win7_6.flush t = false)
theorem noFlush7_7 : ∀ t : Fin cfg7.N, t.val ≠ 9 → (cfg7.win 7).flush t = false :=
  (by decide +kernel : ∀ t : Fin grid7.N, t.val ≠ 9 → win7_7.flush t = false)

variable (V : (c : Dev nD) → (b : Ref sig .tc) → Buf (Elt F) ((c : Thread nD τ).loc b))

/-! ## The windows' blocks -/

/-- Window `w`'s block at point `t`, read off its array as the region finds it (`V`). -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point, fetched there or not (the three small
    inputs are fetched once, at the first point, and their block index never moves), for any proof data whose array is
    `V`'s and whose body leaves the block in place. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The two running column sums -/

/-- What the two accumulators hold after the first `n` points: zero rows before any point; each point adds the column
    sums of its affine block to the first and the column sums of that block's square to the second. -/
noncomputable def acc7 (c : Dev nD) : ℕ → Vec F S1x64 .f32 × Vec F S1x64 .f32
  | 0 => (k7_pay2, k7_pay3)
  | n + 1 =>
    if h : n < cfg7.N then
      (k7_pay5 (iblk7 V c 2 ⟨n, h⟩) (iblk7 V c 0 ⟨n, h⟩) (iblk7 V c 1 ⟨n, h⟩) (iblk7 V c 3 ⟨n, h⟩) (iblk7 V c 4 ⟨n, h⟩) (acc7 c n).1,
        k7_pay1 (acc7 c n).2 (k7_pay6 (iblk7 V c 2 ⟨n, h⟩) (iblk7 V c 0 ⟨n, h⟩) (iblk7 V c 1 ⟨n, h⟩) (iblk7 V c 3 ⟨n, h⟩) (iblk7 V c 4 ⟨n, h⟩)))
    else acc7 c n

/-- Before any point both accumulators are the zero rows. -/
theorem acc7_zero (c : Dev nD) : acc7 V c 0 = (k7_pay2, k7_pay3) := rfl

/-- One point's step: the accumulators after point `n` from those before it and the point's input blocks. -/
theorem acc7_succ (c : Dev nD) (n : ℕ) (h : n < cfg7.N) :
    acc7 V c (n + 1) =
      (k7_pay5 (iblk7 V c 2 ⟨n, h⟩) (iblk7 V c 0 ⟨n, h⟩) (iblk7 V c 1 ⟨n, h⟩) (iblk7 V c 3 ⟨n, h⟩) (iblk7 V c 4 ⟨n, h⟩) (acc7 V c n).1,
        k7_pay1 (acc7 V c n).2 (k7_pay6 (iblk7 V c 2 ⟨n, h⟩) (iblk7 V c 0 ⟨n, h⟩) (iblk7 V c 1 ⟨n, h⟩) (iblk7 V c 3 ⟨n, h⟩) (iblk7 V c 4 ⟨n, h⟩))) := by
  rw [acc7]; exact dif_pos h

/-- The first point's step, from the zero rows. -/
theorem acc7_zero_step (c : Dev nD) :
    acc7 V c 1 =
      (k7_pay5 (iblk7 V c 2 t7_0) (iblk7 V c 0 t7_0) (iblk7 V c 1 t7_0) (iblk7 V c 3 t7_0) (iblk7 V c 4 t7_0) k7_pay2,
        k7_pay1 k7_pay3 (k7_pay6 (iblk7 V c 2 t7_0) (iblk7 V c 0 t7_0) (iblk7 V c 1 t7_0) (iblk7 V c 3 t7_0) (iblk7 V c 4 t7_0))) :=
  acc7_succ V c 0 t7_0.isLt

/-! ## The invariant between points -/

/-- The two accumulators, as whole memrefs of the kernel's own scoped buffers. -/
abbrev sc7_0 : Memref sig .tc .vmem S1x64 .f32 := Memref.whole cc7_scratch0
abbrev sc7_1 : Memref sig .tc .vmem S1x64 .f32 := Memref.whole cc7_scratch1

/-- Every other scoped buffer of the core that is no staging buffer of this call, at some contents each. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- What the launch hands the region, with the two accumulators named: each at some contents, beside the other scoped
    buffers and the generator register. -/
theorem PhiA7_eq (c : Dev nD) :
    (Pipeline.ΦA spec7 c : sProp 𝕄)
      = iprop(iprop(iprop((∃ d, owns (c : Thread nD τ) sc7_0 fullShare d) ∗ (∃ d, owns (c : Thread nD τ) sc7_1 fullShare d)) ∗ rest7 c)
          ∗ (∃ r, prngReg c r)) := by
  unfold Pipeline.ΦA; rw [scopedRest7_split]; simp only [sc7_0, sc7_1, owns_whole]; try rfl

/-- The invariant before position `n`: before the first point what the launch hands over; afterwards the two accumulators
    at the running column sums over the points so far, beside the other scoped buffers and the generator register. -/
noncomputable def Phi7 (c : Dev nD) : ℕ → sProp 𝕄
  | 0 => Pipeline.ΦA spec7 c
  | n + 1 =>
    iprop(iprop(iprop(owns (c : Thread nD τ) sc7_0 fullShare (acc7 V c (n + 1)).1 ∗ owns (c : Thread nD τ) sc7_1 fullShare (acc7 V c (n + 1)).2) ∗ rest7 c)
      ∗ (∃ r, prngReg c r))

theorem Phi7_zero (c : Dev nD) : Phi7 V c 0 = Pipeline.ΦA spec7 c := rfl

theorem Phi7_succ (c : Dev nD) (n : ℕ) :
    Phi7 V c (n + 1) =
      iprop(iprop(iprop(owns (c : Thread nD τ) sc7_0 fullShare (acc7 V c (n + 1)).1 ∗ owns (c : Thread nD τ) sc7_1 fullShare (acc7 V c (n + 1)).2) ∗ rest7 c)
        ∗ (∃ r, prngReg c r)) := rfl

/-- After any point the accumulators are named. -/
theorem Phi7_pos (c : Dev nD) (n : ℕ) (hn : n ≠ 0) :
    Phi7 V c n =
      iprop(iprop(iprop(owns (c : Thread nD τ) sc7_0 fullShare (acc7 V c n).1 ∗ owns (c : Thread nD τ) sc7_1 fullShare (acc7 V c n).2) ∗ rest7 c)
        ∗ (∃ r, prngReg c r)) := by
  cases n with
  | zero => exact absurd rfl hn
  | succ n => rfl

/-! ## The proof data -/

/-- The proof data of this call on core `c`: the arrays as the region finds them (`V`); after the body at point `t` each
    input's buffer at its block, the big output's at the affine image of the point's blocks, each small output's at its
    running column sum through point `t` (consulted at the last point only: before it the window is idle); the invariant
    `Phi7`; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => k7_pay4 (iblk7 V c 2 t) (iblk7 V c 0 t) (iblk7 V c 1 t) (iblk7 V c 3 t) (iblk7 V c 4 t)
    | ⟨6, _⟩ => (acc7 V c (t.val + 1)).1
    | ⟨7, _⟩ => (acc7 V c (t.val + 1)).2
  Φ t := Phi7 V c t.val
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_big (c : Dev nD) (t : Fin cfg7.N) :
    (dat7 V c).after 5 t = k7_pay4 (iblk7 V c 2 t) (iblk7 V c 0 t) (iblk7 V c 1 t) (iblk7 V c 3 t) (iblk7 V c 4 t) := by dsimp only [dat7]
theorem after7_6 (c : Dev nD) (t : Fin cfg7.N) : (dat7 V c).after 6 t = (acc7 V c (t.val + 1)).1 := by dsimp only [dat7]
theorem after7_7 (c : Dev nD) (t : Fin cfg7.N) : (dat7 V c).after 7 t = (acc7 V c (t.val + 1)).2 := by dsimp only [dat7]
/-- At the last point the small outputs hold the column sums over all ten points. -/
theorem after7_s (c : Dev nD) : (dat7 V c).after 6 t7_9 = (acc7 V c 10).1 := after7_6 V c t7_9
theorem after7_ss (c : Dev nD) : (dat7 V c).after 7 t7_9 = (acc7 V c 10).2 := after7_7 V c t7_9

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- The invariant at a point's start and end, at the point's number. -/
theorem Phi7_castSucc (c : Dev nD) (t : Fin cfg7.N) : (dat7 V c).Φ t.castSucc = Phi7 V c t.val := by
  dsimp only [dat7]; simp only [Fin.coe_castSucc]
theorem Phi7_succ_pt (c : Dev nD) (t : Fin cfg7.N) : (dat7 V c).Φ t.succ = Phi7 V c (t.val + 1) := by
  dsimp only [dat7]; simp only [Fin.val_succ]

/-- What the launch hands the region is the invariant before the first point. -/
theorem hin7 (c : Dev nD) : Pipeline.ΦA spec7 c ⊢ (dat7 V c).Φ 0 := by
  rw [show (dat7 V c).Φ 0 = Phi7 V c 0 from rfl, Phi7_zero]
  try exact Idealize.SL.BI.Entails.refl _

/-- After the last point the invariant gives it back: the accumulators' named contents are forgotten. -/
theorem hout7 (c : Dev nD) : (dat7 V c).Φ (Fin.last cfg7.N) ⊢ Pipeline.ΦA spec7 c := by
  rw [show (dat7 V c).Φ (Fin.last cfg7.N) = Phi7 V c cfg7.N from rfl,
    Phi7_pos V c cfg7.N (by have : cfg7.N = 10 := N_7; omega), PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! ## The body obligation -/

/-- What the body is called with at point `t`, the windows one by one, -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
noncomputable def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

/-- The inputs and the big output are live at every point: the body leaves each at its stated contents. -/
theorem leaves7_0 (c : Dev nD) (t : Fin cfg7.N) :
    (dat7 V c).leavesExact 0 t = owns (c : Thread nD τ) (st7_0 t) fullShare (iblk7 V c 0 t) := by
  unfold Dat.leavesExact; rw [show cfg7.idle 0 (cfg7.grid.coords t) = false from rfl, after7_0]
theorem leaves7_1 (c : Dev nD) (t : Fin cfg7.N) :
    (dat7 V c).leavesExact 1 t = owns (c : Thread nD τ) (st7_1 t) fullShare (iblk7 V c 1 t) := by
  unfold Dat.leavesExact; rw [show cfg7.idle 1 (cfg7.grid.coords t) = false from rfl, after7_1]
theorem leaves7_2 (c : Dev nD) (t : Fin cfg7.N) :
    (dat7 V c).leavesExact 2 t = owns (c : Thread nD τ) (st7_2 t) fullShare (iblk7 V c 2 t) := by
  unfold Dat.leavesExact; rw [show cfg7.idle 2 (cfg7.grid.coords t) = false from rfl, after7_2]
theorem leaves7_3 (c : Dev nD) (t : Fin cfg7.N) :
    (dat7 V c).leavesExact 3 t = owns (c : Thread nD τ) (st7_3 t) fullShare (iblk7 V c 3 t) := by
  unfold Dat.leavesExact; rw [show cfg7.idle 3 (cfg7.grid.coords t) = false from rfl, after7_3]
theorem leaves7_4 (c : Dev nD) (t : Fin cfg7.N) :
    (dat7 V c).leavesExact 4 t = owns (c : Thread nD τ) (st7_4 t) fullShare (iblk7 V c 4 t) := by
  unfold Dat.leavesExact; rw [show cfg7.idle 4 (cfg7.grid.coords t) = false from rfl, after7_4]
theorem leaves7_5 (c : Dev nD) (t : Fin cfg7.N) :
    (dat7 V c).leavesExact 5 t = owns (c : Thread nD τ) (st7_5 t) fullShare
      (k7_pay4 (iblk7 V c 2 t) (iblk7 V c 0 t) (iblk7 V c 1 t) (iblk7 V c 3 t) (iblk7 V c 4 t)) := by
  unfold Dat.leavesExact; rw [show cfg7.idle 5 (cfg7.grid.coords t) = false from rfl, after7_big]
/-- The small outputs are live at the last point. -/
theorem leaves7_6_last (c : Dev nD) (t : Fin cfg7.N) (h9 : t.val = 9) :
    (dat7 V c).leavesExact 6 t = owns (c : Thread nD τ) (st7_6 t) fullShare (acc7 V c (t.val + 1)).1 := by
  unfold Dat.leavesExact; rw [liveAt7_6 t h9, after7_6]
theorem leaves7_7_last (c : Dev nD) (t : Fin cfg7.N) (h9 : t.val = 9) :
    (dat7 V c).leavesExact 7 t = owns (c : Thread nD τ) (st7_7 t) fullShare (acc7 V c (t.val + 1)).2 := by
  unfold Dat.leavesExact; rw [liveAt7_7 t h9, after7_7]

set_option maxHeartbeats 4000000 in
/-- The body at any point. The inputs' memrefs hold their blocks; the point's number says which of the three control
    cases it is in, and that case's run applies. The invariant hands the body the two accumulators — at anything at the
    first point, at the running sums afterwards — and takes them back at the sums through this point; the other scoped
    buffers, the generator register and the core's dues pass through untouched. Before the last point the small outputs'
    buffers are handed back as found; at the last they come back at the final sums. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [Phi7_castSucc, Phi7_succ_pt, Phi7_succ]
  rw [leaves7_0, leaves7_1, leaves7_2, leaves7_3, leaves7_4, leaves7_5]
  have hN : t.val < 10 := lt_of_lt_of_eq t.isLt (show cfg7.N = 10 from N_7)
  by_cases h9 : t.val = 9
  · have h0 : t.val ≠ 0 := by omega
    rw [leaves7_6_last V c t h9, leaves7_7_last V c t h9, acc7_succ V c t.val t.isLt, Phi7_pos V c t.val h0]
    simp only [Fin.eta]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run7_last c (grid7.coords t) _ _ _ _ _ _ _ _ _ _ _ _ _ _ _ _ _ _ _ _ (fun h => h0 ((first7_iff t).mp h)) ((last7_iff t).mpr h9)
      (iblk7 V c 0 t) (iblk7 V c 1 t) (iblk7 V c 2 t) (iblk7 V c 3 t) (iblk7 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat7 V c) 6 t (idleAt7_6 t h9) (noFlush7_6 t h9),
      Dat.leavesExact_idle (dat7 V c) 7 t (idleAt7_7 t h9) (noFlush7_7 t h9), acc7_succ V c t.val t.isLt]
    simp only [Fin.eta]
    by_cases h0 : t.val = 0
    · rw [show Phi7 V c t.val = Pipeline.ΦA spec7 c from by rw [h0]; rfl,
        show acc7 V c t.val = (k7_pay2, k7_pay3) from by rw [h0]; rfl, PhiA7_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run7_first c (grid7.coords t) _ _ _ _ _ _ _ _ _ _ _ _ _ _ _ _ _ _ _ _ ((first7_iff t).mpr h0) (fun h => h9 ((last7_iff t).mp h))
        (iblk7 V c 0 t) (iblk7 V c 1 t) (iblk7 V c 2 t) (iblk7 V c 3 t) (iblk7 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [Phi7_pos V c t.val h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run7_mid c (grid7.coords t) _ _ _ _ _ _ _ _ _ _ _ _ _ _ _ _ _ _ _ _ (fun h => h0 ((first7_iff t).mp h)) (fun h => h9 ((last7_iff t).mp h))
        (iblk7 V c 0 t) (iblk7 V c 1 t) (iblk7 V c 2 t) (iblk7 V c 3 t) (iblk7 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Gen
end
-- ==== Proof.KB.Reg8.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Batch-norm, relu and a linear map of a row block, with the column sums of the result and of its square
accumulated over the ten row blocks -/

/-- The offsets of every access of this kernel are zero. -/
theorem hzeroR8 : (![0, 0] : Fin 2 → Nat) = fun _ => 0 := funext fun a => by fin_cases a <;> rfl

/-! ## The body's two branch conditions -/

/-- The first conditional (the accumulators are zeroed) tests the row-block number against 0. -/
abbrev cond8_0 (i : grid8.Coords) : Prop := (Scalar.cmpi .ne (Scalar.extui (Scalar.cmpi .eq (BitVec.ofNat 32 (i 0).val) 0#32)) 0#32) = 1#1
/-- The second (the accumulators are copied to the two small outputs) tests it against 9. -/
abbrev cond8_1 (i : grid8.Coords) : Prop := k8_cond2 i = 1#1

/-- The first holds at row block 0 only. -/
theorem hcond8_0 : ∀ t : Fin cfg8.N, cond8_0 (grid8.coords t) ↔ t.val = 0 :=
  (by decide +kernel : ∀ t : Fin grid8.N, cond8_0 (grid8.coords t) ↔ t.val = 0)
/-- The second holds at row block 9 only. -/
theorem hcond8_1 : ∀ t : Fin cfg8.N, cond8_1 (grid8.coords t) ↔ t.val = 9 :=
  (by decide +kernel : ∀ t : Fin grid8.N, cond8_1 (grid8.coords t) ↔ t.val = 9)

/-! ## What one row block contributes, as functions of the seven input blocks

`xz` the row block of z, `xs` and `xq` the column sums of z and of its square over all rows, `xg`, `xe` the scale and
shift of the normalization, `xw` the weights, `xb` the bias. -/

/-- The normalized, rectified row block times the weights. -/
def mm8 (xz : Vec F S5000x64 .f32) (xs xq xg xe : Vec F S1x64 .f32) (xw : Vec F S64x64 .f32) : Vec F S5000x64 .f32 :=
  k8_pay6 xs xq xz xg xe xw
/-- The row block of the result: the product plus the bias. -/
def big8 (xz : Vec F S5000x64 .f32) (xs xq xg xe : Vec F S1x64 .f32) (xw : Vec F S64x64 .f32) (xb : Vec F S1x64 .f32) : Vec F S5000x64 .f32 :=
  k8_pay1 (mm8 xz xs xq xg xe xw) xb
/-- The running column sum `a` plus this block's column sum. -/
def sum8 (xz : Vec F S5000x64 .f32) (xs xq xg xe : Vec F S1x64 .f32) (xw : Vec F S64x64 .f32) (xb a : Vec F S1x64 .f32) : Vec F S1x64 .f32 :=
  k8_pay2 (mm8 xz xs xq xg xe xw) xb a
/-- The running column sum of squares `a` plus this block's. -/
def sq8 (xz : Vec F S5000x64 .f32) (xs xq xg xe : Vec F S1x64 .f32) (xw : Vec F S64x64 .f32) (xb a : Vec F S1x64 .f32) : Vec F S1x64 .f32 :=
  k8_pay3 (mm8 xz xs xq xg xe xw) xb a

/-- One whole-buffer store covers the buffer (a row of 64; a block of 5000 rows). -/
theorem coverRow8 (w : (Rect.unit (s := S1x64) ![0, 0] S1x64.size inb_S1x64_S1x64_0_0).shape.Idx → Elt F .f32) (y : S1x64.Idx) :
    ∃ p ∈ ([⟨Rect.unit (s := S1x64) ![0, 0] S1x64.size inb_S1x64_S1x64_0_0, w⟩] : List (View.Piece (Elt F) S1x64 .f32)), y ∈ p.1.set :=
  ⟨_, List.mem_singleton_self _, View.mem_set_unit_zero hzeroR8 inb_S1x64_S1x64_0_0 y⟩
theorem coverBlock8 (w : (Rect.unit (s := S5000x64) ![0, 0] S5000x64.size inb_S5000x64_S5000x64_0_0).shape.Idx → Elt F .f32) (y : S5000x64.Idx) :
    ∃ p ∈ ([⟨Rect.unit (s := S5000x64) ![0, 0] S5000x64.size inb_S5000x64_S5000x64_0_0, w⟩] : List (View.Piece (Elt F) S5000x64 .f32)), y ∈ p.1.set :=
  ⟨_, List.mem_singleton_self _, View.mem_set_unit_zero hzeroR8 inb_S5000x64_S5000x64_0_0 y⟩

set_option maxHeartbeats 1000000 in
/-- ROW BLOCK 0 (the first conditional taken, the second not). The accumulators, held at anything, are zeroed first:
    the body leaves them at `sum8 … 0`, `sq8 … 0` (the zero rows being the payloads the kernel stores), the big output at
    `big8`, the two small outputs untouched. -/
theorem sound_kernel8_A (c : Dev nD) (E : Set ℕ) (i : grid8.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : cond8_0 i) (hc1 : ¬cond8_1 i) (xz : Vec F S5000x64 .f32) (xs xq xg xe : Vec F S1x64 .f32) (xw : Vec F S64x64 .f32) (xb : Vec F S1x64 .f32)
    (xo xp : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ (∃ d, owns (c : Thread nD τ) arg11 fullShare d) ∗ (∃ d, owns (c : Thread nD τ) arg12 fullShare d)
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big8 xz xs xq xg xe xw xb)
            ∗ owns (c : Thread nD τ) arg9 fullShare xo ∗ owns (c : Thread nD τ) arg10 fullShare xp
            ∗ owns (c : Thread nD τ) arg11 fullShare (sum8 xz xs xq xg xe xw xb (k8_pay4 (F := F))) ∗ owns (c : Thread nD τ) arg12 fullShare (sq8 xz xs xq xg xe xw xb (k8_pay5 (F := F)))) -∗ K ⟨⟩))
      ⊢ wp frame (wpE (defs₀ (F := F)) Variants.none c none) E (cc8_bn_matmul_stats_kernel i arg1 harg1 arg2 harg2 arg3 harg3 arg4 harg4 arg5 harg5 arg6 harg6 arg7 harg7 arg8 harg8 arg9 harg9 arg10 harg10 arg11 harg11 arg12 harg12) K := by
  simp only [cc8_bn_matmul_stats_kernel_eq_skeleton]; unfold cc8_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%dva, %fva, -, Hva⟩, ⟨%dvq, %fvq, -, Hvq⟩, Hk⟩
  subst hfz hfs hfq hfg hfe hfw hfb hfo hfp
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock8 _), View.canon_unit_zero hzeroR8]
    sl_unfold_words
    unfold big8 mm8
    simp only [View.readAt_eq_ld, View.ld_unit_zero (S := S5000x64) hzeroR8, View.ld_unit_zero (S := S1x64) hzeroR8, View.ld_unit_zero (S := S64x64) hzeroR8]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (fun y => ⟨_, List.mem_cons.mpr (Or.inl rfl), View.mem_set_unit_zero hzeroR8 inb_S1x64_S1x64_0_0 y⟩)]
    sl_unfold_words
    rw [View.canon_cons_unit_zero (S := S1x64) hzeroR8, View.readCov_unit_zero (S := S1x64) _ hzeroR8]
    unfold sum8 mm8
    simp only [View.readAt_eq_ld, View.ld_unit_zero (S := S5000x64) hzeroR8, View.ld_unit_zero (S := S1x64) hzeroR8, View.ld_unit_zero (S := S64x64) hzeroR8]
  iexists _; isplitr
  swap; · iexact Hvq
  ipureintro
  rw [View.read_writes_eq_canon _ _ _ (fun y => ⟨_, List.mem_cons.mpr (Or.inl rfl), View.mem_set_unit_zero hzeroR8 inb_S1x64_S1x64_0_0 y⟩)]
  sl_unfold_words
  rw [View.canon_cons_unit_zero (S := S1x64) hzeroR8, View.readCov_unit_zero (S := S1x64) _ hzeroR8]
  unfold sq8 mm8
  simp only [View.readAt_eq_ld, View.ld_unit_zero (S := S5000x64) hzeroR8, View.ld_unit_zero (S := S1x64) hzeroR8, View.ld_unit_zero (S := S64x64) hzeroR8]

set_option maxHeartbeats 1000000 in
/-- ROW BLOCKS 1 TO 8 (neither conditional taken). On whole staging memrefs, the inputs at their blocks, the big
    output at anything, the two small outputs at contents handed back untouched, the two accumulators at `va`, `vq`:
    the body leaves the big output at `big8` and the accumulators at `sum8 … va`, `sq8 … vq`. -/
theorem sound_kernel8_B (c : Dev nD) (E : Set ℕ) (i : grid8.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond8_0 i) (hc1 : ¬cond8_1 i) (xz : Vec F S5000x64 .f32) (xs xq xg xe : Vec F S1x64 .f32) (xw : Vec F S64x64 .f32) (xb : Vec F S1x64 .f32)
    (xo xp va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big8 xz xs xq xg xe xw xb)
            ∗ owns (c : Thread nD τ) arg9 fullShare xo ∗ owns (c : Thread nD τ) arg10 fullShare xp
            ∗ owns (c : Thread nD τ) arg11 fullShare (sum8 xz xs xq xg xe xw xb va) ∗ owns (c : Thread nD τ) arg12 fullShare (sq8 xz xs xq xg xe xw xb vq)) -∗ K ⟨⟩))
      ⊢ wp frame (wpE (defs₀ (F := F)) Variants.none c none) E (cc8_bn_matmul_stats_kernel i arg1 harg1 arg2 harg2 arg3 harg3 arg4 harg4 arg5 harg5 arg6 harg6 arg7 harg7 arg8 harg8 arg9 harg9 arg10 harg10 arg11 harg11 arg12 harg12) K := by
  simp only [cc8_bn_matmul_stats_kernel_eq_skeleton]; unfold cc8_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%fva, %hfva, Hva⟩, ⟨%fvq, %hfvq, Hvq⟩, Hk⟩
  subst hfz hfs hfq hfg hfe hfw hfb hfo hfp hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock8 _), View.canon_unit_zero hzeroR8]
    sl_unfold_words
    unfold big8 mm8
    simp only [View.readAt_eq_ld, View.ld_unit_zero (S := S5000x64) hzeroR8, View.ld_unit_zero (S := S1x64) hzeroR8, View.ld_unit_zero (S := S64x64) hzeroR8]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (coverRow8 _), View.canon_unit_zero hzeroR8]
    sl_unfold_words
    unfold sum8 mm8
    simp only [View.readAt_eq_ld, View.ld_unit_zero (S := S5000x64) hzeroR8, View.ld_unit_zero (S := S1x64) hzeroR8, View.ld_unit_zero (S := S64x64) hzeroR8]
  iexists _; isplitr
  swap; · iexact Hvq
  ipureintro
  rw [View.read_writes_eq_canon _ _ _ (coverRow8 _), View.canon_unit_zero hzeroR8]
  sl_unfold_words
  unfold sq8 mm8
  simp only [View.readAt_eq_ld, View.ld_unit_zero (S := S5000x64) hzeroR8, View.ld_unit_zero (S := S1x64) hzeroR8, View.ld_unit_zero (S := S64x64) hzeroR8]

set_option maxHeartbeats 1000000 in
/-- ROW BLOCK 9 (the second conditional taken, the first not). As at row blocks 1 to 8, and then each accumulator is
    copied whole to its small output, held at anything before. -/
theorem sound_kernel8_C (c : Dev nD) (E : Set ℕ) (i : grid8.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond8_0 i) (hc1 : cond8_1 i) (xz : Vec F S5000x64 .f32) (xs xq xg xe : Vec F S1x64 .f32) (xw : Vec F S64x64 .f32) (xb : Vec F S1x64 .f32)
    (va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big8 xz xs xq xg xe xw xb)
            ∗ owns (c : Thread nD τ) arg9 fullShare (sum8 xz xs xq xg xe xw xb va) ∗ owns (c : Thread nD τ) arg10 fullShare (sq8 xz xs xq xg xe xw xb vq)
            ∗ owns (c : Thread nD τ) arg11 fullShare (sum8 xz xs xq xg xe xw xb va) ∗ owns (c : Thread nD τ) arg12 fullShare (sq8 xz xs xq xg xe xw xb vq)) -∗ K ⟨⟩))
      ⊢ wp frame (wpE (defs₀ (F := F)) Variants.none c none) E (cc8_bn_matmul_stats_kernel i arg1 harg1 arg2 harg2 arg3 harg3 arg4 harg4 arg5 harg5 arg6 harg6 arg7 harg7 arg8 harg8 arg9 harg9 arg10 harg10 arg11 harg11 arg12 harg12) K := by
  simp only [cc8_bn_matmul_stats_kernel_eq_skeleton]; unfold cc8_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%do9, %fo, -, Ho⟩, ⟨%dp, %fp, -, Hp⟩, ⟨%fva, %hfva, Hva⟩, ⟨%fvq, %hfvq, Hvq⟩, Hk⟩
  subst hfz hfs hfq hfg hfe hfw hfb hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock8 _), View.canon_unit_zero hzeroR8]
    sl_unfold_words
    unfold big8 mm8
    simp only [View.readAt_eq_ld, View.ld_unit_zero (S := S5000x64) hzeroR8, View.ld_unit_zero (S := S1x64) hzeroR8, View.ld_unit_zero (S := S64x64) hzeroR8]
  isplitl [Ho]
  · iexists _; isplitr
    swap; · iexact Ho
    ipureintro
    rw [View.read_writes_eq_canon _ _ _ (coverRow8 _), View.canon_unit_zero hzeroR8]
    sl_unfold_words
    rw [View.readCov_unit_zero (S := S1x64) _ hzeroR8]
    unfold sum8 mm8
    simp only [View.readAt_eq_ld, View.ld_unit_zero (S := S5000x64) hzeroR8, View.ld_unit_zero (S := S1x64) hzeroR8, View.ld_unit_zero (S := S64x64) hzeroR8]
  isplitl [Hp]
  · iexists _; isplitr
    swap; · iexact Hp
    ipureintro
    rw [View.read_writes_eq_canon _ _ _ (coverRow8 _), View.canon_unit_zero hzeroR8]
    sl_unfold_words
    rw [View.readCov_unit_zero (S := S1x64) _ hzeroR8]
    unfold sq8 mm8
    simp only [View.readAt_eq_ld, View.ld_unit_zero (S := S5000x64) hzeroR8, View.ld_unit_zero (S := S1x64) hzeroR8, View.ld_unit_zero (S := S64x64) hzeroR8]
  isplitl [Hva]
  · iexists _; isplitr
    swap; · iexact Hva
    ipureintro
    sl_unfold_words
    rw [View.read_writes_eq_canon _ _ _ (coverRow8 _), View.canon_unit_zero hzeroR8]
    unfold sum8 mm8
    simp only [View.readAt_eq_ld, View.ld_unit_zero (S := S5000x64) hzeroR8, View.ld_unit_zero (S := S1x64) hzeroR8, View.ld_unit_zero (S := S64x64) hzeroR8]
  iexists _; isplitr
  swap; · iexact Hvq
  ipureintro
  sl_unfold_words
  rw [View.read_writes_eq_canon _ _ _ (coverRow8 _), View.canon_unit_zero hzeroR8]
  unfold sq8 mm8
  simp only [View.readAt_eq_ld, View.ld_unit_zero (S := S5000x64) hzeroR8, View.ld_unit_zero (S := S1x64) hzeroR8, View.ld_unit_zero (S := S64x64) hzeroR8]

-- the TensorCore's buffer contents when the region is entered
variable (V : (c : Dev nD) → (b : Ref sig .tc) → Buf (Elt F) ((c : Thread nD τ).loc b))

/-! ## The windows' blocks -/

/-- Window `w`'s block at row block `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! Each input window's current staging buffer holds its block at every row block, fetched there or not, for any proof
    data whose array is the entry contents and whose body leaves the block in place (an input not fetched again keeps
    its block index). -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## Where the two small outputs are idle -/

/-- Before row block 9 the two small outputs are idle and are not written back. -/
theorem idleAt8_8 : ∀ t : Fin cfg8.N, ¬cond8_1 (grid8.coords t) → cfg8.idle 8 (grid8.coords t) = true := by decide +kernel
theorem idleAt8_9 : ∀ t : Fin cfg8.N, ¬cond8_1 (grid8.coords t) → cfg8.idle 9 (grid8.coords t) = true := by decide +kernel
theorem noFlush8_8 : ∀ t : Fin cfg8.N, ¬cond8_1 (grid8.coords t) → (cfg8.win 8).flush t = false := by decide +kernel
theorem noFlush8_9 : ∀ t : Fin cfg8.N, ¬cond8_1 (grid8.coords t) → (cfg8.win 9).flush t = false := by decide +kernel
/-- At row block 9 they are live. -/
theorem liveAt8_8 : ∀ t : Fin cfg8.N, cond8_1 (grid8.coords t) → cfg8.idle 8 (grid8.coords t) = false := by decide +kernel
theorem liveAt8_9 : ∀ t : Fin cfg8.N, cond8_1 (grid8.coords t) → cfg8.idle 9 (grid8.coords t) = false := by decide +kernel

/-! ## The two accumulators, row block by row block -/

/-- What the two accumulators hold after the first `n` row blocks: zero rows, then each block's column sums added in
    order (past the last row block nothing changes). -/
def acc8 (c : Dev nD) : ℕ → Vec F S1x64 .f32 × Vec F S1x64 .f32
  | 0 => (k8_pay4, k8_pay5)
  | n + 1 => if h : n < cfg8.N then
      (sum8 (iblk8 V c 0 ⟨n, h⟩) (iblk8 V c 1 ⟨n, h⟩) (iblk8 V c 2 ⟨n, h⟩) (iblk8 V c 3 ⟨n, h⟩) (iblk8 V c 4 ⟨n, h⟩) (iblk8 V c 5 ⟨n, h⟩) (iblk8 V c 6 ⟨n, h⟩) (acc8 c n).1,
       sq8 (iblk8 V c 0 ⟨n, h⟩) (iblk8 V c 1 ⟨n, h⟩) (iblk8 V c 2 ⟨n, h⟩) (iblk8 V c 3 ⟨n, h⟩) (iblk8 V c 4 ⟨n, h⟩) (iblk8 V c 5 ⟨n, h⟩) (iblk8 V c 6 ⟨n, h⟩) (acc8 c n).2)
    else acc8 c n

theorem acc8_zero (c : Dev nD) : acc8 V c 0 = (k8_pay4, k8_pay5) := rfl

/-- One more row block: its column sums are added to what the blocks before left. -/
theorem acc8_succ (c : Dev nD) (t : Fin cfg8.N) : acc8 V c (t.val + 1) =
      (sum8 (iblk8 V c 0 t) (iblk8 V c 1 t) (iblk8 V c 2 t) (iblk8 V c 3 t) (iblk8 V c 4 t) (iblk8 V c 5 t) (iblk8 V c 6 t) (acc8 V c t.val).1,
       sq8 (iblk8 V c 0 t) (iblk8 V c 1 t) (iblk8 V c 2 t) (iblk8 V c 3 t) (iblk8 V c 4 t) (iblk8 V c 5 t) (iblk8 V c 6 t) (acc8 V c t.val).2) := by
  obtain ⟨n, hn⟩ := t
  show (if h : n < cfg8.N then _ else _) = _
  rw [dif_pos hn]

/-- The first row block adds to the zero rows. -/
theorem acc8_zero_step (c : Dev nD) (t : Fin cfg8.N) (h : t.val = 0) : acc8 V c (t.val + 1) =
      (sum8 (iblk8 V c 0 t) (iblk8 V c 1 t) (iblk8 V c 2 t) (iblk8 V c 3 t) (iblk8 V c 4 t) (iblk8 V c 5 t) (iblk8 V c 6 t) (k8_pay4 (F := F)),
       sq8 (iblk8 V c 0 t) (iblk8 V c 1 t) (iblk8 V c 2 t) (iblk8 V c 3 t) (iblk8 V c 4 t) (iblk8 V c 5 t) (iblk8 V c 6 t) (k8_pay5 (F := F))) := by
  rw [acc8_succ, h]; rfl

theorem mm8_eq (xz : Vec F S5000x64 .f32) (xs xq xg xe : Vec F S1x64 .f32) (xw : Vec F S64x64 .f32) :
    mm8 xz xs xq xg xe xw = k8_pay6 xs xq xz xg xe xw := rfl
theorem big8_eq (xz : Vec F S5000x64 .f32) (xs xq xg xe : Vec F S1x64 .f32) (xw : Vec F S64x64 .f32) (xb : Vec F S1x64 .f32) :
    big8 xz xs xq xg xe xw xb = k8_pay1 (k8_pay6 xs xq xz xg xe xw) xb := rfl
theorem sum8_eq (xz : Vec F S5000x64 .f32) (xs xq xg xe : Vec F S1x64 .f32) (xw : Vec F S64x64 .f32) (xb a : Vec F S1x64 .f32) :
    sum8 xz xs xq xg xe xw xb a = k8_pay2 (k8_pay6 xs xq xz xg xe xw) xb a := rfl
theorem sq8_eq (xz : Vec F S5000x64 .f32) (xs xq xg xe : Vec F S1x64 .f32) (xw : Vec F S64x64 .f32) (xb a : Vec F S1x64 .f32) :
    sq8 xz xs xq xg xe xw xb a = k8_pay3 (k8_pay6 xs xq xz xg xe xw) xb a := rfl

/-! ## The region invariant -/

/-- The two accumulators: whole scoped buffers of the kernel's own. -/
abbrev scM8_0 : Memref sig .tc .vmem S1x64 .f32 := Memref.whole cc8_scratch0
abbrev scM8_1 : Memref sig .tc .vmem S1x64 .f32 := Memref.whole cc8_scratch1

/-- What the launch hands the region, with the two accumulators as memrefs owned at some contents beside the rest of the
    scoped buffers and the generator register. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut spec8 c [cc8_scratch0, cc8_scratch1]) ∗ (∃ r, prngReg c r)) := by
  unfold Pipeline.ΦA; rw [scopedRest8_split]; simp only [scM8_0, scM8_1, owns_whole]; try rfl

/-- The invariant before row block `n`: before the first what the launch hands over; afterwards the two accumulators at
    what the row blocks so far left, beside the untouched rest. -/
def PhiS8 (c : Dev nD) : ℕ → sProp 𝕄
  | 0 => Pipeline.ΦA spec8 c
  | n + 1 => iprop(iprop(iprop(owns (c : Thread nD τ) scM8_0 fullShare (acc8 V c (n + 1)).1 ∗ owns (c : Thread nD τ) scM8_1 fullShare (acc8 V c (n + 1)).2)
          ∗ Pipeline.scopedRestBut spec8 c [cc8_scratch0, cc8_scratch1]) ∗ (∃ r, prngReg c r))

theorem PhiS8_zero (c : Dev nD) (n : ℕ) (hz : n = 0) : PhiS8 V c n = Pipeline.ΦA spec8 c := by subst hz; rfl

theorem PhiS8_pos (c : Dev nD) (n : ℕ) (hz : n ≠ 0) :
    PhiS8 V c n = iprop(iprop(iprop(owns (c : Thread nD τ) scM8_0 fullShare (acc8 V c n).1 ∗ owns (c : Thread nD τ) scM8_1 fullShare (acc8 V c n).2)
          ∗ Pipeline.scopedRestBut spec8 c [cc8_scratch0, cc8_scratch1]) ∗ (∃ r, prngReg c r)) := by
  cases n with
  | zero => exact absurd rfl hz
  | succ n => rfl

/-! ## The pipeline's proof data -/

/-- The proof data of this pipeline on core `c`: the arrays as the region finds them; after the body at row block `t`
    each input's buffer at its block, the big output's at `big8` of the input blocks, the two small outputs' at the
    accumulators after `t + 1` row blocks (what the last row block copies there; at the others, where they are idle,
    never consulted); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => big8 (iblk8 V c 0 t) (iblk8 V c 1 t) (iblk8 V c 2 t) (iblk8 V c 3 t) (iblk8 V c 4 t) (iblk8 V c 5 t) (iblk8 V c 6 t)
    | ⟨8, _⟩ => (acc8 V c (t.val + 1)).1
    | ⟨9, _⟩ => (acc8 V c (t.val + 1)).2
  Φ t := PhiS8 V c t.val
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_big (c : Dev nD) (t : Fin cfg8.N) : (dat8 V c).after 7 t = big8 (iblk8 V c 0 t) (iblk8 V c 1 t) (iblk8 V c 2 t) (iblk8 V c 3 t) (iblk8 V c 4 t) (iblk8 V c 5 t) (iblk8 V c 6 t) := by dsimp only [dat8]
theorem after8_s (c : Dev nD) (t : Fin cfg8.N) : (dat8 V c).after 8 t = (acc8 V c (t.val + 1)).1 := by dsimp only [dat8]
theorem after8_ss (c : Dev nD) (t : Fin cfg8.N) : (dat8 V c).after 9 t = (acc8 V c (t.val + 1)).2 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

theorem Phi8_castSucc (c : Dev nD) (t : Fin cfg8.N) : (dat8 V c).Φ t.castSucc = PhiS8 V c t.val := by
  dsimp only [dat8]; simp only [Fin.coe_castSucc]
theorem Phi8_succ (c : Dev nD) (t : Fin cfg8.N) : (dat8 V c).Φ t.succ = PhiS8 V c (t.val + 1) := by
  dsimp only [dat8]; simp only [Fin.val_succ]

/-! ## The body obligation, at a generic row block -/

/-- What the body is called with at row block `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t
    ∗ (dat8 V c).leavesExact 9 t)

/-- Every window but the two small outputs is live at every row block: the body leaves its buffer at `after`. -/
theorem leaves8_0 (c : Dev nD) (t : Fin cfg8.N) : (dat8 V c).leavesExact 0 t = owns (c : Thread nD τ) (st8_0 t) fullShare ((dat8 V c).after 0 t) := rfl
theorem leaves8_1 (c : Dev nD) (t : Fin cfg8.N) : (dat8 V c).leavesExact 1 t = owns (c : Thread nD τ) (st8_1 t) fullShare ((dat8 V c).after 1 t) := rfl
theorem leaves8_2 (c : Dev nD) (t : Fin cfg8.N) : (dat8 V c).leavesExact 2 t = owns (c : Thread nD τ) (st8_2 t) fullShare ((dat8 V c).after 2 t) := rfl
theorem leaves8_3 (c : Dev nD) (t : Fin cfg8.N) : (dat8 V c).leavesExact 3 t = owns (c : Thread nD τ) (st8_3 t) fullShare ((dat8 V c).after 3 t) := rfl
theorem leaves8_4 (c : Dev nD) (t : Fin cfg8.N) : (dat8 V c).leavesExact 4 t = owns (c : Thread nD τ) (st8_4 t) fullShare ((dat8 V c).after 4 t) := rfl
theorem leaves8_5 (c : Dev nD) (t : Fin cfg8.N) : (dat8 V c).leavesExact 5 t = owns (c : Thread nD τ) (st8_5 t) fullShare ((dat8 V c).after 5 t) := rfl
theorem leaves8_6 (c : Dev nD) (t : Fin cfg8.N) : (dat8 V c).leavesExact 6 t = owns (c : Thread nD τ) (st8_6 t) fullShare ((dat8 V c).after 6 t) := rfl
theorem leaves8_7 (c : Dev nD) (t : Fin cfg8.N) : (dat8 V c).leavesExact 7 t = owns (c : Thread nD τ) (st8_7 t) fullShare ((dat8 V c).after 7 t) := rfl

set_option maxHeartbeats 4800000 in
/-- The body at any row block: the inputs' memrefs hold their blocks; the row-block number decides which of the three
    runs applies; the invariant hands the body the accumulators (at anything before the first row block, afterwards at
    what the blocks so far left) and takes them back with this block's column sums added; the rest of the scoped
    buffers, the generator register and what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).owesAt () t.succ = (dat8 V c).owesAt () t.castSucc from rfl]
  rw [Phi8_castSucc, Phi8_succ]
  rw [leaves8_0, leaves8_1, leaves8_2, leaves8_3, leaves8_4, leaves8_5, leaves8_6, leaves8_7,
    after8_0, after8_1, after8_2, after8_3, after8_4, after8_5, after8_6, after8_big]
  by_cases h0 : t.val = 0
  · -- row block 0
    have h9 : ¬t.val = 9 := by omega
    have hc0 : cond8_0 (grid8.coords t) := (hcond8_0 t).mpr h0
    have hc1 : ¬cond8_1 (grid8.coords t) := fun h => h9 ((hcond8_1 t).mp h)
    rw [Dat.leavesExact_idle (dat8 V c) 8 t (idleAt8_8 t hc1) (noFlush8_8 t hc1),
      Dat.leavesExact_idle (dat8 V c) 9 t (idleAt8_9 t hc1) (noFlush8_9 t hc1)]
    rw [PhiS8_zero V c _ h0, PhiA8_eq, PhiS8_pos V c _ (Nat.succ_ne_zero _), acc8_zero_step V c t h0]
    iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel8_A c Set.univ (grid8.coords t) _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [Hva]; · iexact Hva
    isplitl [Hvq]; · iexact Hvq
    iintro ⟨H0, H1, H2, H3, H4, H5, H6, H7, H8, H9, Hva, Hvq⟩
    isplitl [Hva Hvq Hrest Hg]
    · isplitl [Hva Hvq Hrest]
      · isplitl [Hva Hvq]
        · isplitl [Hva]; · iexact Hva
          iexact Hvq
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · by_cases h9 : t.val = 9
    · -- row block 9
      have hc0 : ¬cond8_0 (grid8.coords t) := fun h => h0 ((hcond8_0 t).mp h)
      have hc1 : cond8_1 (grid8.coords t) := (hcond8_1 t).mpr h9
      rw [show (dat8 V c).leavesExact 8 t = owns (c : Thread nD τ) (st8_8 t) fullShare ((dat8 V c).after 8 t) from by
          unfold Dat.leavesExact; rw [liveAt8_8 t hc1],
        show (dat8 V c).leavesExact 9 t = owns (c : Thread nD τ) (st8_9 t) fullShare ((dat8 V c).after 9 t) from by
          unfold Dat.leavesExact; rw [liveAt8_9 t hc1], after8_s, after8_ss]
      rw [PhiS8_pos V c _ h0, PhiS8_pos V c _ (Nat.succ_ne_zero _), acc8_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel8_C c Set.univ (grid8.coords t) _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- row blocks 1 to 8
      have hc0 : ¬cond8_0 (grid8.coords t) := fun h => h0 ((hcond8_0 t).mp h)
      have hc1 : ¬cond8_1 (grid8.coords t) := fun h => h9 ((hcond8_1 t).mp h)
      rw [Dat.leavesExact_idle (dat8 V c) 8 t (idleAt8_8 t hc1) (noFlush8_8 t hc1),
        Dat.leavesExact_idle (dat8 V c) 9 t (idleAt8_9 t hc1) (noFlush8_9 t hc1)]
      rw [PhiS8_pos V c _ h0, PhiS8_pos V c _ (Nat.succ_ne_zero _), acc8_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel8_B c Set.univ (grid8.coords t) _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every row block. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first row block. -/
theorem hin8 (c : Dev nD) : Pipeline.ΦA spec8 c ⊢ (dat8 V c).Φ 0 := by
  rw [show (dat8 V c).Φ 0 = PhiS8 V c 0 from rfl, PhiS8_zero V c 0 rfl]
  try exact Idealize.SL.BI.Entails.refl _

/-- After the last row block the invariant gives back what the launch handed over: the accumulators' named contents
    are forgotten. -/
theorem hout8 (c : Dev nD) : (dat8 V c).Φ (Fin.last cfg8.N) ⊢ Pipeline.ΦA spec8 c := by
  rw [show (dat8 V c).Φ (Fin.last cfg8.N) = PhiS8 V c (Fin.last cfg8.N).val from rfl,
    PhiS8_pos V c _ (by rw [Fin.val_last]; have : cfg8.N = 10 := N_8; omega), PhiA8_eq]
  iintro ⟨⟨⟨Hva, Hvq⟩, Hrest⟩, Hg⟩
  isplitl [Hva Hvq Hrest]
  · isplitl [Hva Hvq]
    · isplitl [Hva]; · iexists _; iexact Hva
      iexists _; iexact Hvq
    iexact Hrest
  iexact Hg

end Cert.Kernel.Gen

end
-- ==== Proof.KB.Reg9.lean ====
/- The batch-norm-and-relu region of one layer, at the TensorCore's buffer contents V on entry, for any float type F.
   Six windows over a grid of ten row blocks: the row block of z (5000 x 64), then four (1 x 64) rows — the column
   sums of z, the column sums of z*z, the scale and the shift — and the output row block (5000 x 64).
   The body reads the five inputs whole and stores the output block whole, at every point, and keeps nothing from
   one point to the next; so after the body each input buffer still holds its block and the output buffer holds
   one payload: relu ((z - mean) * rsqrt (var + eps) * scale + shift) of the input blocks, as the skeleton names it. -/
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 5000-row rectangle is looked at structurally, once per row
set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input buffer holds its window's block at every point. The z block moves with the point and is fetched each
    time; the four rows are fetched at the first point only, and later points find them where they were left, which
    is right because their block index never moves. One library fact covers both: for proof data whose array is the
    entry contents and whose body leaves the block where it was, the buffer is what a fetch would put there. -/

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## What the body touches -/

/-- The whole of a 5000 x 64 block: the one rectangle the z load, the output's read and the output's store go through. -/
abbrev blockRect9 : Rect S5000x64 := Rect.unit (s := S5000x64) ![0, 0] S5000x64.size inb_S5000x64_S5000x64_0_0
/-- The whole of a 1 x 64 row: the rectangle each of the four row loads goes through. -/
abbrev rowRect9 : Rect S1x64 := Rect.unit (s := S1x64) ![0, 0] S1x64.size inb_S1x64_S1x64_0_0

/-! ## What the body leaves in the output buffer -/

/-- The output buffer after the body, from the five input blocks (z, the two sums, scale, shift, in window order):
    the single store's payload over the whole block, whatever the buffer held before. -/
def out9_5 (z : Vec F S5000x64 .f32) (s ss g b : Vec F S1x64 .f32) : Vec F S5000x64 .f32 :=
  View.canon [⟨blockRect9, k9_pay1 (View.ld s rowRect9) (View.ld ss rowRect9) (View.ld z blockRect9) (View.ld g rowRect9) (View.ld b rowRect9)⟩]

/-- The one store's rectangle is the whole block, so every index of the buffer lies in it. -/
theorem cover9_5 (p : Vec F S5000x64 .f32) (y : S5000x64.Idx) :
    ∃ pc ∈ ([⟨blockRect9, p⟩] : List (View.Piece (Elt F) S5000x64 .f32)), y ∈ pc.1.set :=
  View.cover_of_tiled [⟨blockRect9, p⟩] S5000x64.size (by rfl) y

/-! ## The body's triple -/

set_option maxHeartbeats 1000000 in
/-- Run on whole buffers — the five inputs' reading z, s, ss, g, b and the output's holding anything — the body hands
    its continuation the inputs as they were and the output at out9_5 of them. The printed function is its skeleton
    of loads and one store; the loads read the owned contents through whole rectangles, the output's own read is
    of whatever it held and is not used, and the store covers the buffer. -/
theorem sound_kernel9 (c : Dev nD) (E : Set ℕ) (i : grid9.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (z : Vec F S5000x64 .f32) (s ss g b : Vec F S1x64 .f32) (K : PUnit → sProp 𝕄) :
    iprop(owns (c : Thread nD τ) arg1 fullShare z ∗ owns (c : Thread nD τ) arg2 fullShare s ∗ owns (c : Thread nD τ) arg3 fullShare ss
        ∗ owns (c : Thread nD τ) arg4 fullShare g ∗ owns (c : Thread nD τ) arg5 fullShare b ∗ (∃ d, owns (c : Thread nD τ) arg6 fullShare d)
        ∗ (iprop(owns (c : Thread nD τ) arg1 fullShare z ∗ owns (c : Thread nD τ) arg2 fullShare s ∗ owns (c : Thread nD τ) arg3 fullShare ss
            ∗ owns (c : Thread nD τ) arg4 fullShare g ∗ owns (c : Thread nD τ) arg5 fullShare b
            ∗ owns (c : Thread nD τ) arg6 fullShare (out9_5 z s ss g b)) -∗ K ⟨⟩))
      ⊢ wp frame (wpE (defs₀ (F := F)) Variants.none c none) E (cc9_bn_relu_kernel i arg1 harg1 arg2 harg2 arg3 harg3 arg4 harg4 arg5 harg5 arg6 harg6) K := by
  simp only [cc9_bn_relu_kernel_eq_skeleton]; unfold cc9_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_5 _)

/-! ## The region's proof data -/

/-- The arrays are the entry contents; after the body at point t each input buffer holds its block and the output
    buffer out9_5 of the five input blocks there; the invariant is the one of a body that touches nothing but its
    buffers; full shares, nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation -/

/-- What the pipeline calls the body with at point t, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it has to give back. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- At any point the input buffers hold their blocks, so the body's triple applies; the invariant and what is
    owed go through untouched, being the same before and after a point. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this region's proof data, at every point. -/
theorem body_obligation9 (c : Dev nD) : BodyObligation (dat9 (F := F) V c) (defs₀ (F := F)) Variants.none () Set.univ := fun t => by
  rw [bigSep_W9, bigSep_W9]
  exact sound_body9 V c t

end Cert.Kernel.Gen

end
-- ==== Proof.KB.Reg10.RunFirst.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero10_first : (![0, 0] : Fin 2 → Nat) = fun _ => 0 := funext fun a => by fin_cases a <;> rfl

/-- A store through the whole-shape rectangle, made last, leaves its payload, whatever was stored before. -/
theorem storeWhole10_first {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole10_first {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the first point: the first conditional block runs and zeroes both accumulators, the last does not run. On
    whole memrefs — the five inputs at their contents, the big output and both accumulators at anything, the two small
    outputs at contents handed back untouched — it stores the affine image of the inputs into the big output and leaves
    in the accumulators the zero rows plus that block's column sums and the column sums of its square. -/
theorem run10_first (c : Dev nD) (i : grid10.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : (Scalar.cmpi .ne (Scalar.extui (Scalar.cmpi .eq (BitVec.ofNat 32 (i 0).val) 0#32)) 0#32) = 1#1) (hlast : ¬ k10_cond2 i = 1#1)
    (x1 x2 : Vec F S5000x64 .f32) (x3 : Vec F S1x64 .f32) (x4 : Vec F S64x64 .f32) (x5 : Vec F S1x64 .f32)
    (y7 y8 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k10_pay4 x3 x1 x2 x4 x5) ∗ owns (c : Thread nD τ) arg7 fullShare y7 ∗ owns (c : Thread nD τ) arg8 fullShare y8
            ∗ owns (c : Thread nD τ) arg9 fullShare (k10_pay5 x3 x1 x2 x4 x5 k10_pay2)
            ∗ owns (c : Thread nD τ) arg10 fullShare (k10_pay1 k10_pay3 (k10_pay6 x3 x1 x2 x4 x5))) -∗ K ⟨⟩))
      ⊢ wp frame (wpE (defs₀ (F := F)) Variants.none c none) E (cc10_linear_stats_kernel i arg1 harg1 arg2 harg2 arg3 harg3 arg4 harg4 arg5 harg5 arg6 harg6 arg7 harg7 arg8 harg8 arg9 harg9 arg10 harg10) K := by
  simp only [cc10_linear_stats_kernel_eq_skeleton]; unfold cc10_linear_stats_kernel_skel
  simp only [k10_part1_eq_skeleton]; unfold k10_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole10_first (S := S5000x64) _ _ offsZero10_first inb_S5000x64_S5000x64_0_0 _ _).trans ?_
    simp only [View.readCov_unit_zero (S := S1x64) _ offsZero10_first, loadWhole10_first (S := S1x64) _ offsZero10_first, loadWhole10_first (S := S5000x64) _ offsZero10_first, loadWhole10_first (S := S64x64) _ offsZero10_first]
  isplitl [H7]; · iexact H7
  isplitl [H8]; · iexact H8
  isplitl [H9]
  · iexists _; isplitr
    swap; · iexact H9
    ipureintro
    (try sl_unfold_words)
    refine (storeWhole10_first (S := S1x64) _ _ offsZero10_first inb_S1x64_S1x64_0_0 _ _).trans ?_
    simp only [View.readCov_unit_zero (S := S1x64) _ offsZero10_first, loadWhole10_first (S := S1x64) _ offsZero10_first, loadWhole10_first (S := S5000x64) _ offsZero10_first, loadWhole10_first (S := S64x64) _ offsZero10_first]
  iexists _; isplitr
  swap; · iexact H10
  ipureintro
  (try sl_unfold_words)
  refine (storeWhole10_first (S := S1x64) _ _ offsZero10_first inb_S1x64_S1x64_0_0 _ _).trans ?_
  simp only [View.readCov_unit_zero (S := S1x64) _ offsZero10_first, loadWhole10_first (S := S1x64) _ offsZero10_first, loadWhole10_first (S := S5000x64) _ offsZero10_first, loadWhole10_first (S := S64x64) _ offsZero10_first]

end Cert.Kernel.Gen
end
-- ==== Proof.KB.Reg10.RunMid.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero10_mid : (![0, 0] : Fin 2 → Nat) = fun _ => 0 := funext fun a => by fin_cases a <;> rfl

/-- A store through the whole-shape rectangle, made last, leaves its payload, whatever was stored before. -/
theorem storeWhole10_mid {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole10_mid {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at a point that is neither the first nor the last: neither conditional block runs. On whole memrefs — the five
    inputs at their contents, the big output at anything, the two small outputs at contents handed back untouched, the
    two accumulators at what the points before left — it stores the affine image of the inputs into the big output and
    adds that block's column sums, and the column sums of its square, to the two accumulators. -/
theorem run10_mid (c : Dev nD) (i : grid10.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : ¬ k10_cond2 i = 1#1)
    (x1 x2 : Vec F S5000x64 .f32) (x3 : Vec F S1x64 .f32) (x4 : Vec F S64x64 .f32) (x5 : Vec F S1x64 .f32)
    (y7 y8 s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k10_pay4 x3 x1 x2 x4 x5) ∗ owns (c : Thread nD τ) arg7 fullShare y7 ∗ owns (c : Thread nD τ) arg8 fullShare y8
            ∗ owns (c : Thread nD τ) arg9 fullShare (k10_pay5 x3 x1 x2 x4 x5 s0)
            ∗ owns (c : Thread nD τ) arg10 fullShare (k10_pay1 s1 (k10_pay6 x3 x1 x2 x4 x5))) -∗ K ⟨⟩))
      ⊢ wp frame (wpE (defs₀ (F := F)) Variants.none c none) E (cc10_linear_stats_kernel i arg1 harg1 arg2 harg2 arg3 harg3 arg4 harg4 arg5 harg5 arg6 harg6 arg7 harg7 arg8 harg8 arg9 harg9 arg10 harg10) K := by
  simp only [cc10_linear_stats_kernel_eq_skeleton]; unfold cc10_linear_stats_kernel_skel
  simp only [k10_part1_eq_skeleton]; unfold k10_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole10_mid (S := S5000x64) _ _ offsZero10_mid inb_S5000x64_S5000x64_0_0 _ _).trans ?_
    simp only [View.readCov_unit_zero (S := S1x64) _ offsZero10_mid, loadWhole10_mid (S := S1x64) _ offsZero10_mid, loadWhole10_mid (S := S5000x64) _ offsZero10_mid, loadWhole10_mid (S := S64x64) _ offsZero10_mid]
  isplitl [H7]; · iexact H7
  isplitl [H8]; · iexact H8
  isplitl [H9]
  · iexists _; isplitr
    swap; · iexact H9
    ipureintro
    (try sl_unfold_words)
    refine (storeWhole10_mid (S := S1x64) _ _ offsZero10_mid inb_S1x64_S1x64_0_0 _ _).trans ?_
    simp only [View.readCov_unit_zero (S := S1x64) _ offsZero10_mid, loadWhole10_mid (S := S1x64) _ offsZero10_mid, loadWhole10_mid (S := S5000x64) _ offsZero10_mid, loadWhole10_mid (S := S64x64) _ offsZero10_mid]
  iexists _; isplitr
  swap; · iexact H10
  ipureintro
  (try sl_unfold_words)
  refine (storeWhole10_mid (S := S1x64) _ _ offsZero10_mid inb_S1x64_S1x64_0_0 _ _).trans ?_
  simp only [View.readCov_unit_zero (S := S1x64) _ offsZero10_mid, loadWhole10_mid (S := S1x64) _ offsZero10_mid, loadWhole10_mid (S := S5000x64) _ offsZero10_mid, loadWhole10_mid (S := S64x64) _ offsZero10_mid]

end Cert.Kernel.Gen
end
-- ==== Proof.KB.Reg10.RunLast.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offsZero10_last : (![0, 0] : Fin 2 → Nat) = fun _ => 0 := funext fun a => by fin_cases a <;> rfl

/-- A store through the whole-shape rectangle, made last, leaves its payload, whatever was stored before. -/
theorem storeWhole10_last {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole10_last {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the last point: the first conditional block does not run, the last one does and copies the two
    accumulators into the two small outputs. On whole memrefs — the five inputs at their contents, the three outputs at
    anything, the two accumulators at what the points before left — it stores the affine image of the inputs into the
    big output, adds that block's column sums and the column sums of its square to the accumulators, and leaves each small
    output at its accumulator's final contents. -/
theorem run10_last (c : Dev nD) (i : grid10.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : k10_cond2 i = 1#1)
    (x1 x2 : Vec F S5000x64 .f32) (x3 : Vec F S1x64 .f32) (x4 : Vec F S64x64 .f32) (x5 : Vec F S1x64 .f32)
    (s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k10_pay4 x3 x1 x2 x4 x5)
            ∗ owns (c : Thread nD τ) arg7 fullShare (k10_pay5 x3 x1 x2 x4 x5 s0)
            ∗ owns (c : Thread nD τ) arg8 fullShare (k10_pay1 s1 (k10_pay6 x3 x1 x2 x4 x5))
            ∗ owns (c : Thread nD τ) arg9 fullShare (k10_pay5 x3 x1 x2 x4 x5 s0)
            ∗ owns (c : Thread nD τ) arg10 fullShare (k10_pay1 s1 (k10_pay6 x3 x1 x2 x4 x5))) -∗ K ⟨⟩))
      ⊢ wp frame (wpE (defs₀ (F := F)) Variants.none c none) E (cc10_linear_stats_kernel i arg1 harg1 arg2 harg2 arg3 harg3 arg4 harg4 arg5 harg5 arg6 harg6 arg7 harg7 arg8 harg8 arg9 harg9 arg10 harg10) K := by
  simp only [cc10_linear_stats_kernel_eq_skeleton]; unfold cc10_linear_stats_kernel_skel
  simp only [k10_part1_eq_skeleton]; unfold k10_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole10_last (S := S5000x64) _ _ offsZero10_last inb_S5000x64_S5000x64_0_0 _ _).trans ?_
    simp only [View.readCov_unit_zero (S := S1x64) _ offsZero10_last, loadWhole10_last (S := S1x64) _ offsZero10_last, loadWhole10_last (S := S5000x64) _ offsZero10_last, loadWhole10_last (S := S64x64) _ offsZero10_last]
  isplitl [H7]
  · iexists _; isplitr
    swap; · iexact H7
    ipureintro
    (try sl_unfold_words)
    refine (storeWhole10_last (S := S1x64) _ _ offsZero10_last inb_S1x64_S1x64_0_0 _ _).trans ?_
    simp only [View.readCov_unit_zero (S := S1x64) _ offsZero10_last, loadWhole10_last (S := S1x64) _ offsZero10_last, loadWhole10_last (S := S5000x64) _ offsZero10_last, loadWhole10_last (S := S64x64) _ offsZero10_last]
  isplitl [H8]
  · iexists _; isplitr
    swap; · iexact H8
    ipureintro
    (try sl_unfold_words)
    refine (storeWhole10_last (S := S1x64) _ _ offsZero10_last inb_S1x64_S1x64_0_0 _ _).trans ?_
    simp only [View.readCov_unit_zero (S := S1x64) _ offsZero10_last, loadWhole10_last (S := S1x64) _ offsZero10_last, loadWhole10_last (S := S5000x64) _ offsZero10_last, loadWhole10_last (S := S64x64) _ offsZero10_last]
  isplitl [H9]
  · iexists _; isplitr
    swap; · iexact H9
    ipureintro
    (try sl_unfold_words)
    refine (storeWhole10_last (S := S1x64) _ _ offsZero10_last inb_S1x64_S1x64_0_0 _ _).trans ?_
    simp only [View.readCov_unit_zero (S := S1x64) _ offsZero10_last, loadWhole10_last (S := S1x64) _ offsZero10_last, loadWhole10_last (S := S5000x64) _ offsZero10_last, loadWhole10_last (S := S64x64) _ offsZero10_last]
  iexists _; isplitr
  swap; · iexact H10
  ipureintro
  (try sl_unfold_words)
  refine (storeWhole10_last (S := S1x64) _ _ offsZero10_last inb_S1x64_S1x64_0_0 _ _).trans ?_
  simp only [View.readCov_unit_zero (S := S1x64) _ offsZero10_last, loadWhole10_last (S := S1x64) _ offsZero10_last, loadWhole10_last (S := S5000x64) _ offsZero10_last, loadWhole10_last (S := S64x64) _ offsZero10_last]

end Cert.Kernel.Gen
end
-- ==== Proof.KB.Reg10.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«140206_j52750788330061_1_alg».proof.Proof.KB.Reg10.RunFirst
import proofs.«140206_j52750788330061_1_alg».proof.Proof.KB.Reg10.RunMid
import proofs.«140206_j52750788330061_1_alg».proof.Proof.KB.Reg10.RunLast
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points run which conditional block -/

/-- The first block's condition, as the body computes it from the grid coordinate, holds at point 0 only. -/
theorem first10_iff : ∀ t : Fin cfg10.N,
    (Scalar.cmpi .ne (Scalar.extui (Scalar.cmpi .eq (BitVec.ofNat 32 ((grid10.coords t) 0).val) 0#32)) 0#32) = 1#1 ↔ t.val = 0 :=
  (by decide +kernel : ∀ t : Fin grid10.N,
    (Scalar.cmpi .ne (Scalar.extui (Scalar.cmpi .eq (BitVec.ofNat 32 ((grid10.coords t) 0).val) 0#32)) 0#32) = 1#1 ↔ t.val = 0)

/-- The last block's condition holds at point 9 only. -/
theorem last10_iff : ∀ t : Fin cfg10.N, k10_cond2 (grid10.coords t) = 1#1 ↔ t.val = 9 :=
  (by decide +kernel : ∀ t : Fin grid10.N, k10_cond2 (grid10.coords t) = 1#1 ↔ t.val = 9)

/-- The two small outputs are idle at every point but the last, -/
theorem idleAt10_6 : ∀ t : Fin cfg10.N, t.val ≠ 9 → cfg10.idle 6 (grid10.coords t) = true := by decide +kernel
theorem idleAt10_7 : ∀ t : Fin cfg10.N, t.val ≠ 9 → cfg10.idle 7 (grid10.coords t) = true := by decide +kernel
/-- live at the last, -/
theorem liveAt10_6 : ∀ t : Fin cfg10.N, t.val = 9 → cfg10.idle 6 (grid10.coords t) = false := by decide +kernel
theorem liveAt10_7 : ∀ t : Fin cfg10.N, t.val = 9 → cfg10.idle 7 (grid10.coords t) = false := by decide +kernel
/-- and not written back before it. -/
theorem noFlush10_6 : ∀ t : Fin cfg10.N, t.val ≠ 9 → (cfg10.win 6).flush t = false :=
  (by decide +kernel : ∀ t : Fin grid10.N, t.val ≠ 9 → win10_6.flush t = false)
theorem noFlush10_7 : ∀ t : Fin cfg10.N, t.val ≠ 9 → (cfg10.win 7).flush t = false :=
  (by decide +kernel : ∀ t : Fin grid10.N, t.val ≠ 9 → win10_7.flush t = false)

variable (V : (c : Dev nD) → (b : Ref sig .tc) → Buf (Elt F) ((c : Thread nD τ).loc b))

/-! ## The windows' blocks -/

/-- Window `w`'s block at point `t`, read off its array as the region finds it (`V`). -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! Each input window's current staging buffer holds its block at every point, fetched there or not (the three small
    inputs are fetched once, at the first point, and their block index never moves), for any proof data whose array is
    `V`'s and whose body leaves the block in place. -/

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The two running column sums -/

/-- What the two accumulators hold after the first `n` points: zero rows before any point; each point adds the column
    sums of its affine block to the first and the column sums of that block's square to the second. -/
noncomputable def acc10 (c : Dev nD) : ℕ → Vec F S1x64 .f32 × Vec F S1x64 .f32
  | 0 => (k10_pay2, k10_pay3)
  | n + 1 =>
    if h : n < cfg10.N then
      (k10_pay5 (iblk10 V c 2 ⟨n, h⟩) (iblk10 V c 0 ⟨n, h⟩) (iblk10 V c 1 ⟨n, h⟩) (iblk10 V c 3 ⟨n, h⟩) (iblk10 V c 4 ⟨n, h⟩) (acc10 c n).1,
        k10_pay1 (acc10 c n).2 (k10_pay6 (iblk10 V c 2 ⟨n, h⟩) (iblk10 V c 0 ⟨n, h⟩) (iblk10 V c 1 ⟨n, h⟩) (iblk10 V c 3 ⟨n, h⟩) (iblk10 V c 4 ⟨n, h⟩)))
    else acc10 c n

/-- Before any point both accumulators are the zero rows. -/
theorem acc10_zero (c : Dev nD) : acc10 V c 0 = (k10_pay2, k10_pay3) := rfl

/-- One point's step: the accumulators after point `n` from those before it and the point's input blocks. -/
theorem acc10_succ (c : Dev nD) (n : ℕ) (h : n < cfg10.N) :
    acc10 V c (n + 1) =
      (k10_pay5 (iblk10 V c 2 ⟨n, h⟩) (iblk10 V c 0 ⟨n, h⟩) (iblk10 V c 1 ⟨n, h⟩) (iblk10 V c 3 ⟨n, h⟩) (iblk10 V c 4 ⟨n, h⟩) (acc10 V c n).1,
        k10_pay1 (acc10 V c n).2 (k10_pay6 (iblk10 V c 2 ⟨n, h⟩) (iblk10 V c 0 ⟨n, h⟩) (iblk10 V c 1 ⟨n, h⟩) (iblk10 V c 3 ⟨n, h⟩) (iblk10 V c 4 ⟨n, h⟩))) := by
  rw [acc10]; exact dif_pos h

/-- The first point's step, from the zero rows. -/
theorem acc10_zero_step (c : Dev nD) :
    acc10 V c 1 =
      (k10_pay5 (iblk10 V c 2 t10_0) (iblk10 V c 0 t10_0) (iblk10 V c 1 t10_0) (iblk10 V c 3 t10_0) (iblk10 V c 4 t10_0) k10_pay2,
        k10_pay1 k10_pay3 (k10_pay6 (iblk10 V c 2 t10_0) (iblk10 V c 0 t10_0) (iblk10 V c 1 t10_0) (iblk10 V c 3 t10_0) (iblk10 V c 4 t10_0))) :=
  acc10_succ V c 0 t10_0.isLt

/-! ## The invariant between points -/

/-- The two accumulators, as whole memrefs of the kernel's own scoped buffers. -/
abbrev sc10_0 : Memref sig .tc .vmem S1x64 .f32 := Memref.whole cc10_scratch0
abbrev sc10_1 : Memref sig .tc .vmem S1x64 .f32 := Memref.whole cc10_scratch1

/-- Every other scoped buffer of the core that is no staging buffer of this call, at some contents each. -/
abbrev rest10 (c : Dev nD) : sProp 𝕄 :=
  Pipeline.scopedRestBut (Ix := Unit) (Name := ℕ) (U := UR sig nD τ) (Lvl := ℕ) (Val := Elt F) spec10 c [cc10_scratch0, cc10_scratch1]

/-- What the launch hands the region, with the two accumulators named: each at some contents, beside the other scoped
    buffers and the generator register. -/
theorem PhiA10_eq (c : Dev nD) :
    (Pipeline.ΦA spec10 c : sProp 𝕄)
      = iprop(iprop(iprop((∃ d, owns (c : Thread nD τ) sc10_0 fullShare d) ∗ (∃ d, owns (c : Thread nD τ) sc10_1 fullShare d)) ∗ rest10 c)
          ∗ (∃ r, prngReg c r)) := by
  unfold Pipeline.ΦA; rw [scopedRest10_split]; simp only [sc10_0, sc10_1, owns_whole]; try rfl

/-- The invariant before position `n`: before the first point what the launch hands over; afterwards the two accumulators
    at the running column sums over the points so far, beside the other scoped buffers and the generator register. -/
noncomputable def Phi10 (c : Dev nD) : ℕ → sProp 𝕄
  | 0 => Pipeline.ΦA spec10 c
  | n + 1 =>
    iprop(iprop(iprop(owns (c : Thread nD τ) sc10_0 fullShare (acc10 V c (n + 1)).1 ∗ owns (c : Thread nD τ) sc10_1 fullShare (acc10 V c (n + 1)).2) ∗ rest10 c)
      ∗ (∃ r, prngReg c r))

theorem Phi10_zero (c : Dev nD) : Phi10 V c 0 = Pipeline.ΦA spec10 c := rfl

theorem Phi10_succ (c : Dev nD) (n : ℕ) :
    Phi10 V c (n + 1) =
      iprop(iprop(iprop(owns (c : Thread nD τ) sc10_0 fullShare (acc10 V c (n + 1)).1 ∗ owns (c : Thread nD τ) sc10_1 fullShare (acc10 V c (n + 1)).2) ∗ rest10 c)
        ∗ (∃ r, prngReg c r)) := rfl

/-- After any point the accumulators are named. -/
theorem Phi10_pos (c : Dev nD) (n : ℕ) (hn : n ≠ 0) :
    Phi10 V c n =
      iprop(iprop(iprop(owns (c : Thread nD τ) sc10_0 fullShare (acc10 V c n).1 ∗ owns (c : Thread nD τ) sc10_1 fullShare (acc10 V c n).2) ∗ rest10 c)
        ∗ (∃ r, prngReg c r)) := by
  cases n with
  | zero => exact absurd rfl hn
  | succ n => rfl

/-! ## The proof data -/

/-- The proof data of this call on core `c`: the arrays as the region finds them (`V`); after the body at point `t` each
    input's buffer at its block, the big output's at the affine image of the point's blocks, each small output's at its
    running column sum through point `t` (consulted at the last point only: before it the window is idle); the invariant
    `Phi10`; nothing owed; full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => k10_pay4 (iblk10 V c 2 t) (iblk10 V c 0 t) (iblk10 V c 1 t) (iblk10 V c 3 t) (iblk10 V c 4 t)
    | ⟨6, _⟩ => (acc10 V c (t.val + 1)).1
    | ⟨7, _⟩ => (acc10 V c (t.val + 1)).2
  Φ t := Phi10 V c t.val
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_big (c : Dev nD) (t : Fin cfg10.N) :
    (dat10 V c).after 5 t = k10_pay4 (iblk10 V c 2 t) (iblk10 V c 0 t) (iblk10 V c 1 t) (iblk10 V c 3 t) (iblk10 V c 4 t) := by dsimp only [dat10]
theorem after10_6 (c : Dev nD) (t : Fin cfg10.N) : (dat10 V c).after 6 t = (acc10 V c (t.val + 1)).1 := by dsimp only [dat10]
theorem after10_7 (c : Dev nD) (t : Fin cfg10.N) : (dat10 V c).after 7 t = (acc10 V c (t.val + 1)).2 := by dsimp only [dat10]
/-- At the last point the small outputs hold the column sums over all ten points. -/
theorem after10_s (c : Dev nD) : (dat10 V c).after 6 t10_9 = (acc10 V c 10).1 := after10_6 V c t10_9
theorem after10_ss (c : Dev nD) : (dat10 V c).after 7 t10_9 = (acc10 V c 10).2 := after10_7 V c t10_9

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- The invariant at a point's start and end, at the point's number. -/
theorem Phi10_castSucc (c : Dev nD) (t : Fin cfg10.N) : (dat10 V c).Φ t.castSucc = Phi10 V c t.val := by
  dsimp only [dat10]; simp only [Fin.coe_castSucc]
theorem Phi10_succ_pt (c : Dev nD) (t : Fin cfg10.N) : (dat10 V c).Φ t.succ = Phi10 V c (t.val + 1) := by
  dsimp only [dat10]; simp only [Fin.val_succ]

/-- What the launch hands the region is the invariant before the first point. -/
theorem hin10 (c : Dev nD) : Pipeline.ΦA spec10 c ⊢ (dat10 V c).Φ 0 := by
  rw [show (dat10 V c).Φ 0 = Phi10 V c 0 from rfl, Phi10_zero]
  try exact Idealize.SL.BI.Entails.refl _

/-- After the last point the invariant gives it back: the accumulators' named contents are forgotten. -/
theorem hout10 (c : Dev nD) : (dat10 V c).Φ (Fin.last cfg10.N) ⊢ Pipeline.ΦA spec10 c := by
  rw [show (dat10 V c).Φ (Fin.last cfg10.N) = Phi10 V c cfg10.N from rfl,
    Phi10_pos V c cfg10.N (by have : cfg10.N = 10 := N_10; omega), PhiA10_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! ## The body obligation -/

/-- What the body is called with at point `t`, the windows one by one, -/
noncomputable def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
noncomputable def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t)

/-- The inputs and the big output are live at every point: the body leaves each at its stated contents. -/
theorem leaves10_0 (c : Dev nD) (t : Fin cfg10.N) :
    (dat10 V c).leavesExact 0 t = owns (c : Thread nD τ) (st10_0 t) fullShare (iblk10 V c 0 t) := by
  unfold Dat.leavesExact; rw [show cfg10.idle 0 (cfg10.grid.coords t) = false from rfl, after10_0]
theorem leaves10_1 (c : Dev nD) (t : Fin cfg10.N) :
    (dat10 V c).leavesExact 1 t = owns (c : Thread nD τ) (st10_1 t) fullShare (iblk10 V c 1 t) := by
  unfold Dat.leavesExact; rw [show cfg10.idle 1 (cfg10.grid.coords t) = false from rfl, after10_1]
theorem leaves10_2 (c : Dev nD) (t : Fin cfg10.N) :
    (dat10 V c).leavesExact 2 t = owns (c : Thread nD τ) (st10_2 t) fullShare (iblk10 V c 2 t) := by
  unfold Dat.leavesExact; rw [show cfg10.idle 2 (cfg10.grid.coords t) = false from rfl, after10_2]
theorem leaves10_3 (c : Dev nD) (t : Fin cfg10.N) :
    (dat10 V c).leavesExact 3 t = owns (c : Thread nD τ) (st10_3 t) fullShare (iblk10 V c 3 t) := by
  unfold Dat.leavesExact; rw [show cfg10.idle 3 (cfg10.grid.coords t) = false from rfl, after10_3]
theorem leaves10_4 (c : Dev nD) (t : Fin cfg10.N) :
    (dat10 V c).leavesExact 4 t = owns (c : Thread nD τ) (st10_4 t) fullShare (iblk10 V c 4 t) := by
  unfold Dat.leavesExact; rw [show cfg10.idle 4 (cfg10.grid.coords t) = false from rfl, after10_4]
theorem leaves10_5 (c : Dev nD) (t : Fin cfg10.N) :
    (dat10 V c).leavesExact 5 t = owns (c : Thread nD τ) (st10_5 t) fullShare
      (k10_pay4 (iblk10 V c 2 t) (iblk10 V c 0 t) (iblk10 V c 1 t) (iblk10 V c 3 t) (iblk10 V c 4 t)) := by
  unfold Dat.leavesExact; rw [show cfg10.idle 5 (cfg10.grid.coords t) = false from rfl, after10_big]
/-- The small outputs are live at the last point. -/
theorem leaves10_6_last (c : Dev nD) (t : Fin cfg10.N) (h9 : t.val = 9) :
    (dat10 V c).leavesExact 6 t = owns (c : Thread nD τ) (st10_6 t) fullShare (acc10 V c (t.val + 1)).1 := by
  unfold Dat.leavesExact; rw [liveAt10_6 t h9, after10_6]
theorem leaves10_7_last (c : Dev nD) (t : Fin cfg10.N) (h9 : t.val = 9) :
    (dat10 V c).leavesExact 7 t = owns (c : Thread nD τ) (st10_7 t) fullShare (acc10 V c (t.val + 1)).2 := by
  unfold Dat.leavesExact; rw [liveAt10_7 t h9, after10_7]

set_option maxHeartbeats 4000000 in
/-- The body at any point. The inputs' memrefs hold their blocks; the point's number says which of the three control
    cases it is in, and that case's run applies. The invariant hands the body the two accumulators — at anything at the
    first point, at the running sums afterwards — and takes them back at the sums through this point; the other scoped
    buffers, the generator register and the core's dues pass through untouched. Before the last point the small outputs'
    buffers are handed back as found; at the last they come back at the final sums. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).owesAt () t.succ = (dat10 V c).owesAt () t.castSucc from rfl]
  rw [Phi10_castSucc, Phi10_succ_pt, Phi10_succ]
  rw [leaves10_0, leaves10_1, leaves10_2, leaves10_3, leaves10_4, leaves10_5]
  have hN : t.val < 10 := lt_of_lt_of_eq t.isLt (show cfg10.N = 10 from N_10)
  by_cases h9 : t.val = 9
  · have h0 : t.val ≠ 0 := by omega
    rw [leaves10_6_last V c t h9, leaves10_7_last V c t h9, acc10_succ V c t.val t.isLt, Phi10_pos V c t.val h0]
    simp only [Fin.eta]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run10_last c (grid10.coords t) _ _ _ _ _ _ _ _ _ _ _ _ _ _ _ _ _ _ _ _ (fun h => h0 ((first10_iff t).mp h)) ((last10_iff t).mpr h9)
      (iblk10 V c 0 t) (iblk10 V c 1 t) (iblk10 V c 2 t) (iblk10 V c 3 t) (iblk10 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat10 V c) 6 t (idleAt10_6 t h9) (noFlush10_6 t h9),
      Dat.leavesExact_idle (dat10 V c) 7 t (idleAt10_7 t h9) (noFlush10_7 t h9), acc10_succ V c t.val t.isLt]
    simp only [Fin.eta]
    by_cases h0 : t.val = 0
    · rw [show Phi10 V c t.val = Pipeline.ΦA spec10 c from by rw [h0]; rfl,
        show acc10 V c t.val = (k10_pay2, k10_pay3) from by rw [h0]; rfl, PhiA10_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run10_first c (grid10.coords t) _ _ _ _ _ _ _ _ _ _ _ _ _ _ _ _ _ _ _ _ ((first10_iff t).mpr h0) (fun h => h9 ((last10_iff t).mp h))
        (iblk10 V c 0 t) (iblk10 V c 1 t) (iblk10 V c 2 t) (iblk10 V c 3 t) (iblk10 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [Phi10_pos V c t.val h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run10_mid c (grid10.coords t) _ _ _ _ _ _ _ _ _ _ _ _ _ _ _ _ _ _ _ _ (fun h => h0 ((first10_iff t).mp h)) (fun h => h9 ((last10_iff t).mp h))
        (iblk10 V c 0 t) (iblk10 V c 1 t) (iblk10 V c 2 t) (iblk10 V c 3 t) (iblk10 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Gen
end
-- ==== Proof.KB.Reg11.lean ====
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Batch-norm, relu and a linear map of a row block, with the column sums of the result and of its square
accumulated over the ten row blocks -/

/-- The offsets of every access of this kernel are zero. -/
theorem hzeroR11 : (![0, 0] : Fin 2 → Nat) = fun _ => 0 := funext fun a => by fin_cases a <;> rfl

/-! ## The body's two branch conditions -/

/-- The first conditional (the accumulators are zeroed) tests the row-block number against 0. -/
abbrev cond11_0 (i : grid11.Coords) : Prop := (Scalar.cmpi .ne (Scalar.extui (Scalar.cmpi .eq (BitVec.ofNat 32 (i 0).val) 0#32)) 0#32) = 1#1
/-- The second (the accumulators are copied to the two small outputs) tests it against 9. -/
abbrev cond11_1 (i : grid11.Coords) : Prop := k11_cond2 i = 1#1

/-- The first holds at row block 0 only. -/
theorem hcond11_0 : ∀ t : Fin cfg11.N, cond11_0 (grid11.coords t) ↔ t.val = 0 :=
  (by decide +kernel : ∀ t : Fin grid11.N, cond11_0 (grid11.coords t) ↔ t.val = 0)
/-- The second holds at row block 9 only. -/
theorem hcond11_1 : ∀ t : Fin cfg11.N, cond11_1 (grid11.coords t) ↔ t.val = 9 :=
  (by decide +kernel : ∀ t : Fin grid11.N, cond11_1 (grid11.coords t) ↔ t.val = 9)

/-! ## What one row block contributes, as functions of the seven input blocks

`xz` the row block of z, `xs` and `xq` the column sums of z and of its square over all rows, `xg`, `xe` the scale and
shift of the normalization, `xw` the weights, `xb` the bias. -/

/-- The normalized, rectified row block times the weights. -/
def mm11 (xz : Vec F S5000x64 .f32) (xs xq xg xe : Vec F S1x64 .f32) (xw : Vec F S64x64 .f32) : Vec F S5000x64 .f32 :=
  k11_pay6 xs xq xz xg xe xw
/-- The row block of the result: the product plus the bias. -/
def big11 (xz : Vec F S5000x64 .f32) (xs xq xg xe : Vec F S1x64 .f32) (xw : Vec F S64x64 .f32) (xb : Vec F S1x64 .f32) : Vec F S5000x64 .f32 :=
  k11_pay1 (mm11 xz xs xq xg xe xw) xb
/-- The running column sum `a` plus this block's column sum. -/
def sum11 (xz : Vec F S5000x64 .f32) (xs xq xg xe : Vec F S1x64 .f32) (xw : Vec F S64x64 .f32) (xb a : Vec F S1x64 .f32) : Vec F S1x64 .f32 :=
  k11_pay2 (mm11 xz xs xq xg xe xw) xb a
/-- The running column sum of squares `a` plus this block's. -/
def sq11 (xz : Vec F S5000x64 .f32) (xs xq xg xe : Vec F S1x64 .f32) (xw : Vec F S64x64 .f32) (xb a : Vec F S1x64 .f32) : Vec F S1x64 .f32 :=
  k11_pay3 (mm11 xz xs xq xg xe xw) xb a

/-- One whole-buffer store covers the buffer (a row of 64; a block of 5000 rows). -/
theorem coverRow11 (w : (Rect.unit (s := S1x64) ![0, 0] S1x64.size inb_S1x64_S1x64_0_0).shape.Idx → Elt F .f32) (y : S1x64.Idx) :
    ∃ p ∈ ([⟨Rect.unit (s := S1x64) ![0, 0] S1x64.size inb_S1x64_S1x64_0_0, w⟩] : List (View.Piece (Elt F) S1x64 .f32)), y ∈ p.1.set :=
  ⟨_, List.mem_singleton_self _, View.mem_set_unit_zero hzeroR11 inb_S1x64_S1x64_0_0 y⟩
theorem coverBlock11 (w : (Rect.unit (s := S5000x64) ![0, 0] S5000x64.size inb_S5000x64_S5000x64_0_0).shape.Idx → Elt F .f32) (y : S5000x64.Idx) :
    ∃ p ∈ ([⟨Rect.unit (s := S5000x64) ![0, 0] S5000x64.size inb_S5000x64_S5000x64_0_0, w⟩] : List (View.Piece (Elt F) S5000x64 .f32)), y ∈ p.1.set :=
  ⟨_, List.mem_singleton_self _, View.mem_set_unit_zero hzeroR11 inb_S5000x64_S5000x64_0_0 y⟩

set_option maxHeartbeats 1000000 in
/-- ROW BLOCK 0 (the first conditional taken, the second not). The accumulators, held at anything, are zeroed first:
    the body leaves them at `sum11 … 0`, `sq11 … 0` (the zero rows being the payloads the kernel stores), the big output at
    `big11`, the two small outputs untouched. -/
theorem sound_kernel11_A (c : Dev nD) (E : Set ℕ) (i : grid11.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : cond11_0 i) (hc1 : ¬cond11_1 i) (xz : Vec F S5000x64 .f32) (xs xq xg xe : Vec F S1x64 .f32) (xw : Vec F S64x64 .f32) (xb : Vec F S1x64 .f32)
    (xo xp : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ (∃ d, owns (c : Thread nD τ) arg11 fullShare d) ∗ (∃ d, owns (c : Thread nD τ) arg12 fullShare d)
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big11 xz xs xq xg xe xw xb)
            ∗ owns (c : Thread nD τ) arg9 fullShare xo ∗ owns (c : Thread nD τ) arg10 fullShare xp
            ∗ owns (c : Thread nD τ) arg11 fullShare (sum11 xz xs xq xg xe xw xb (k11_pay4 (F := F))) ∗ owns (c : Thread nD τ) arg12 fullShare (sq11 xz xs xq xg xe xw xb (k11_pay5 (F := F)))) -∗ K ⟨⟩))
      ⊢ wp frame (wpE (defs₀ (F := F)) Variants.none c none) E (cc11_bn_matmul_stats_kernel i arg1 harg1 arg2 harg2 arg3 harg3 arg4 harg4 arg5 harg5 arg6 harg6 arg7 harg7 arg8 harg8 arg9 harg9 arg10 harg10 arg11 harg11 arg12 harg12) K := by
  simp only [cc11_bn_matmul_stats_kernel_eq_skeleton]; unfold cc11_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%dva, %fva, -, Hva⟩, ⟨%dvq, %fvq, -, Hvq⟩, Hk⟩
  subst hfz hfs hfq hfg hfe hfw hfb hfo hfp
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock11 _), View.canon_unit_zero hzeroR11]
    sl_unfold_words
    unfold big11 mm11
    simp only [View.readAt_eq_ld, View.ld_unit_zero (S := S5000x64) hzeroR11, View.ld_unit_zero (S := S1x64) hzeroR11, View.ld_unit_zero (S := S64x64) hzeroR11]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (fun y => ⟨_, List.mem_cons.mpr (Or.inl rfl), View.mem_set_unit_zero hzeroR11 inb_S1x64_S1x64_0_0 y⟩)]
    sl_unfold_words
    rw [View.canon_cons_unit_zero (S := S1x64) hzeroR11, View.readCov_unit_zero (S := S1x64) _ hzeroR11]
    unfold sum11 mm11
    simp only [View.readAt_eq_ld, View.ld_unit_zero (S := S5000x64) hzeroR11, View.ld_unit_zero (S := S1x64) hzeroR11, View.ld_unit_zero (S := S64x64) hzeroR11]
  iexists _; isplitr
  swap; · iexact Hvq
  ipureintro
  rw [View.read_writes_eq_canon _ _ _ (fun y => ⟨_, List.mem_cons.mpr (Or.inl rfl), View.mem_set_unit_zero hzeroR11 inb_S1x64_S1x64_0_0 y⟩)]
  sl_unfold_words
  rw [View.canon_cons_unit_zero (S := S1x64) hzeroR11, View.readCov_unit_zero (S := S1x64) _ hzeroR11]
  unfold sq11 mm11
  simp only [View.readAt_eq_ld, View.ld_unit_zero (S := S5000x64) hzeroR11, View.ld_unit_zero (S := S1x64) hzeroR11, View.ld_unit_zero (S := S64x64) hzeroR11]

set_option maxHeartbeats 1000000 in
/-- ROW BLOCKS 1 TO 8 (neither conditional taken). On whole staging memrefs, the inputs at their blocks, the big
    output at anything, the two small outputs at contents handed back untouched, the two accumulators at `va`, `vq`:
    the body leaves the big output at `big11` and the accumulators at `sum11 … va`, `sq11 … vq`. -/
theorem sound_kernel11_B (c : Dev nD) (E : Set ℕ) (i : grid11.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond11_0 i) (hc1 : ¬cond11_1 i) (xz : Vec F S5000x64 .f32) (xs xq xg xe : Vec F S1x64 .f32) (xw : Vec F S64x64 .f32) (xb : Vec F S1x64 .f32)
    (xo xp va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big11 xz xs xq xg xe xw xb)
            ∗ owns (c : Thread nD τ) arg9 fullShare xo ∗ owns (c : Thread nD τ) arg10 fullShare xp
            ∗ owns (c : Thread nD τ) arg11 fullShare (sum11 xz xs xq xg xe xw xb va) ∗ owns (c : Thread nD τ) arg12 fullShare (sq11 xz xs xq xg xe xw xb vq)) -∗ K ⟨⟩))
      ⊢ wp frame (wpE (defs₀ (F := F)) Variants.none c none) E (cc11_bn_matmul_stats_kernel i arg1 harg1 arg2 harg2 arg3 harg3 arg4 harg4 arg5 harg5 arg6 harg6 arg7 harg7 arg8 harg8 arg9 harg9 arg10 harg10 arg11 harg11 arg12 harg12) K := by
  simp only [cc11_bn_matmul_stats_kernel_eq_skeleton]; unfold cc11_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%fva, %hfva, Hva⟩, ⟨%fvq, %hfvq, Hvq⟩, Hk⟩
  subst hfz hfs hfq hfg hfe hfw hfb hfo hfp hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock11 _), View.canon_unit_zero hzeroR11]
    sl_unfold_words
    unfold big11 mm11
    simp only [View.readAt_eq_ld, View.ld_unit_zero (S := S5000x64) hzeroR11, View.ld_unit_zero (S := S1x64) hzeroR11, View.ld_unit_zero (S := S64x64) hzeroR11]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (coverRow11 _), View.canon_unit_zero hzeroR11]
    sl_unfold_words
    unfold sum11 mm11
    simp only [View.readAt_eq_ld, View.ld_unit_zero (S := S5000x64) hzeroR11, View.ld_unit_zero (S := S1x64) hzeroR11, View.ld_unit_zero (S := S64x64) hzeroR11]
  iexists _; isplitr
  swap; · iexact Hvq
  ipureintro
  rw [View.read_writes_eq_canon _ _ _ (coverRow11 _), View.canon_unit_zero hzeroR11]
  sl_unfold_words
  unfold sq11 mm11
  simp only [View.readAt_eq_ld, View.ld_unit_zero (S := S5000x64) hzeroR11, View.ld_unit_zero (S := S1x64) hzeroR11, View.ld_unit_zero (S := S64x64) hzeroR11]

set_option maxHeartbeats 1000000 in
/-- ROW BLOCK 9 (the second conditional taken, the first not). As at row blocks 1 to 8, and then each accumulator is
    copied whole to its small output, held at anything before. -/
theorem sound_kernel11_C (c : Dev nD) (E : Set ℕ) (i : grid11.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond11_0 i) (hc1 : cond11_1 i) (xz : Vec F S5000x64 .f32) (xs xq xg xe : Vec F S1x64 .f32) (xw : Vec F S64x64 .f32) (xb : Vec F S1x64 .f32)
    (va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big11 xz xs xq xg xe xw xb)
            ∗ owns (c : Thread nD τ) arg9 fullShare (sum11 xz xs xq xg xe xw xb va) ∗ owns (c : Thread nD τ) arg10 fullShare (sq11 xz xs xq xg xe xw xb vq)
            ∗ owns (c : Thread nD τ) arg11 fullShare (sum11 xz xs xq xg xe xw xb va) ∗ owns (c : Thread nD τ) arg12 fullShare (sq11 xz xs xq xg xe xw xb vq)) -∗ K ⟨⟩))
      ⊢ wp frame (wpE (defs₀ (F := F)) Variants.none c none) E (cc11_bn_matmul_stats_kernel i arg1 harg1 arg2 harg2 arg3 harg3 arg4 harg4 arg5 harg5 arg6 harg6 arg7 harg7 arg8 harg8 arg9 harg9 arg10 harg10 arg11 harg11 arg12 harg12) K := by
  simp only [cc11_bn_matmul_stats_kernel_eq_skeleton]; unfold cc11_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%do9, %fo, -, Ho⟩, ⟨%dp, %fp, -, Hp⟩, ⟨%fva, %hfva, Hva⟩, ⟨%fvq, %hfvq, Hvq⟩, Hk⟩
  subst hfz hfs hfq hfg hfe hfw hfb hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock11 _), View.canon_unit_zero hzeroR11]
    sl_unfold_words
    unfold big11 mm11
    simp only [View.readAt_eq_ld, View.ld_unit_zero (S := S5000x64) hzeroR11, View.ld_unit_zero (S := S1x64) hzeroR11, View.ld_unit_zero (S := S64x64) hzeroR11]
  isplitl [Ho]
  · iexists _; isplitr
    swap; · iexact Ho
    ipureintro
    rw [View.read_writes_eq_canon _ _ _ (coverRow11 _), View.canon_unit_zero hzeroR11]
    sl_unfold_words
    rw [View.readCov_unit_zero (S := S1x64) _ hzeroR11]
    unfold sum11 mm11
    simp only [View.readAt_eq_ld, View.ld_unit_zero (S := S5000x64) hzeroR11, View.ld_unit_zero (S := S1x64) hzeroR11, View.ld_unit_zero (S := S64x64) hzeroR11]
  isplitl [Hp]
  · iexists _; isplitr
    swap; · iexact Hp
    ipureintro
    rw [View.read_writes_eq_canon _ _ _ (coverRow11 _), View.canon_unit_zero hzeroR11]
    sl_unfold_words
    rw [View.readCov_unit_zero (S := S1x64) _ hzeroR11]
    unfold sq11 mm11
    simp only [View.readAt_eq_ld, View.ld_unit_zero (S := S5000x64) hzeroR11, View.ld_unit_zero (S := S1x64) hzeroR11, View.ld_unit_zero (S := S64x64) hzeroR11]
  isplitl [Hva]
  · iexists _; isplitr
    swap; · iexact Hva
    ipureintro
    sl_unfold_words
    rw [View.read_writes_eq_canon _ _ _ (coverRow11 _), View.canon_unit_zero hzeroR11]
    unfold sum11 mm11
    simp only [View.readAt_eq_ld, View.ld_unit_zero (S := S5000x64) hzeroR11, View.ld_unit_zero (S := S1x64) hzeroR11, View.ld_unit_zero (S := S64x64) hzeroR11]
  iexists _; isplitr
  swap; · iexact Hvq
  ipureintro
  sl_unfold_words
  rw [View.read_writes_eq_canon _ _ _ (coverRow11 _), View.canon_unit_zero hzeroR11]
  unfold sq11 mm11
  simp only [View.readAt_eq_ld, View.ld_unit_zero (S := S5000x64) hzeroR11, View.ld_unit_zero (S := S1x64) hzeroR11, View.ld_unit_zero (S := S64x64) hzeroR11]

-- the TensorCore's buffer contents when the region is entered
variable (V : (c : Dev nD) → (b : Ref sig .tc) → Buf (Elt F) ((c : Thread nD τ).loc b))

/-! ## The windows' blocks -/

/-- Window `w`'s block at row block `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! Each input window's current staging buffer holds its block at every row block, fetched there or not, for any proof
    data whose array is the entry contents and whose body leaves the block in place (an input not fetched again keeps
    its block index). -/

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)

/-! ## Where the two small outputs are idle -/

/-- Before row block 9 the two small outputs are idle and are not written back. -/
theorem idleAt11_8 : ∀ t : Fin cfg11.N, ¬cond11_1 (grid11.coords t) → cfg11.idle 8 (grid11.coords t) = true := by decide +kernel
theorem idleAt11_9 : ∀ t : Fin cfg11.N, ¬cond11_1 (grid11.coords t) → cfg11.idle 9 (grid11.coords t) = true := by decide +kernel
theorem noFlush11_8 : ∀ t : Fin cfg11.N, ¬cond11_1 (grid11.coords t) → (cfg11.win 8).flush t = false := by decide +kernel
theorem noFlush11_9 : ∀ t : Fin cfg11.N, ¬cond11_1 (grid11.coords t) → (cfg11.win 9).flush t = false := by decide +kernel
/-- At row block 9 they are live. -/
theorem liveAt11_8 : ∀ t : Fin cfg11.N, cond11_1 (grid11.coords t) → cfg11.idle 8 (grid11.coords t) = false := by decide +kernel
theorem liveAt11_9 : ∀ t : Fin cfg11.N, cond11_1 (grid11.coords t) → cfg11.idle 9 (grid11.coords t) = false := by decide +kernel

/-! ## The two accumulators, row block by row block -/

/-- What the two accumulators hold after the first `n` row blocks: zero rows, then each block's column sums added in
    order (past the last row block nothing changes). -/
def acc11 (c : Dev nD) : ℕ → Vec F S1x64 .f32 × Vec F S1x64 .f32
  | 0 => (k11_pay4, k11_pay5)
  | n + 1 => if h : n < cfg11.N then
      (sum11 (iblk11 V c 0 ⟨n, h⟩) (iblk11 V c 1 ⟨n, h⟩) (iblk11 V c 2 ⟨n, h⟩) (iblk11 V c 3 ⟨n, h⟩) (iblk11 V c 4 ⟨n, h⟩) (iblk11 V c 5 ⟨n, h⟩) (iblk11 V c 6 ⟨n, h⟩) (acc11 c n).1,
       sq11 (iblk11 V c 0 ⟨n, h⟩) (iblk11 V c 1 ⟨n, h⟩) (iblk11 V c 2 ⟨n, h⟩) (iblk11 V c 3 ⟨n, h⟩) (iblk11 V c 4 ⟨n, h⟩) (iblk11 V c 5 ⟨n, h⟩) (iblk11 V c 6 ⟨n, h⟩) (acc11 c n).2)
    else acc11 c n

theorem acc11_zero (c : Dev nD) : acc11 V c 0 = (k11_pay4, k11_pay5) := rfl

/-- One more row block: its column sums are added to what the blocks before left. -/
theorem acc11_succ (c : Dev nD) (t : Fin cfg11.N) : acc11 V c (t.val + 1) =
      (sum11 (iblk11 V c 0 t) (iblk11 V c 1 t) (iblk11 V c 2 t) (iblk11 V c 3 t) (iblk11 V c 4 t) (iblk11 V c 5 t) (iblk11 V c 6 t) (acc11 V c t.val).1,
       sq11 (iblk11 V c 0 t) (iblk11 V c 1 t) (iblk11 V c 2 t) (iblk11 V c 3 t) (iblk11 V c 4 t) (iblk11 V c 5 t) (iblk11 V c 6 t) (acc11 V c t.val).2) := by
  obtain ⟨n, hn⟩ := t
  show (if h : n < cfg11.N then _ else _) = _
  rw [dif_pos hn]

/-- The first row block adds to the zero rows. -/
theorem acc11_zero_step (c : Dev nD) (t : Fin cfg11.N) (h : t.val = 0) : acc11 V c (t.val + 1) =
      (sum11 (iblk11 V c 0 t) (iblk11 V c 1 t) (iblk11 V c 2 t) (iblk11 V c 3 t) (iblk11 V c 4 t) (iblk11 V c 5 t) (iblk11 V c 6 t) (k11_pay4 (F := F)),
       sq11 (iblk11 V c 0 t) (iblk11 V c 1 t) (iblk11 V c 2 t) (iblk11 V c 3 t) (iblk11 V c 4 t) (iblk11 V c 5 t) (iblk11 V c 6 t) (k11_pay5 (F := F))) := by
  rw [acc11_succ, h]; rfl

theorem mm11_eq (xz : Vec F S5000x64 .f32) (xs xq xg xe : Vec F S1x64 .f32) (xw : Vec F S64x64 .f32) :
    mm11 xz xs xq xg xe xw = k11_pay6 xs xq xz xg xe xw := rfl
theorem big11_eq (xz : Vec F S5000x64 .f32) (xs xq xg xe : Vec F S1x64 .f32) (xw : Vec F S64x64 .f32) (xb : Vec F S1x64 .f32) :
    big11 xz xs xq xg xe xw xb = k11_pay1 (k11_pay6 xs xq xz xg xe xw) xb := rfl
theorem sum11_eq (xz : Vec F S5000x64 .f32) (xs xq xg xe : Vec F S1x64 .f32) (xw : Vec F S64x64 .f32) (xb a : Vec F S1x64 .f32) :
    sum11 xz xs xq xg xe xw xb a = k11_pay2 (k11_pay6 xs xq xz xg xe xw) xb a := rfl
theorem sq11_eq (xz : Vec F S5000x64 .f32) (xs xq xg xe : Vec F S1x64 .f32) (xw : Vec F S64x64 .f32) (xb a : Vec F S1x64 .f32) :
    sq11 xz xs xq xg xe xw xb a = k11_pay3 (k11_pay6 xs xq xz xg xe xw) xb a := rfl

/-! ## The region invariant -/

/-- The two accumulators: whole scoped buffers of the kernel's own. -/
abbrev scM11_0 : Memref sig .tc .vmem S1x64 .f32 := Memref.whole cc11_scratch0
abbrev scM11_1 : Memref sig .tc .vmem S1x64 .f32 := Memref.whole cc11_scratch1

/-- What the launch hands the region, with the two accumulators as memrefs owned at some contents beside the rest of the
    scoped buffers and the generator register. -/
theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut spec11 c [cc11_scratch0, cc11_scratch1]) ∗ (∃ r, prngReg c r)) := by
  unfold Pipeline.ΦA; rw [scopedRest11_split]; simp only [scM11_0, scM11_1, owns_whole]; try rfl

/-- The invariant before row block `n`: before the first what the launch hands over; afterwards the two accumulators at
    what the row blocks so far left, beside the untouched rest. -/
def PhiS11 (c : Dev nD) : ℕ → sProp 𝕄
  | 0 => Pipeline.ΦA spec11 c
  | n + 1 => iprop(iprop(iprop(owns (c : Thread nD τ) scM11_0 fullShare (acc11 V c (n + 1)).1 ∗ owns (c : Thread nD τ) scM11_1 fullShare (acc11 V c (n + 1)).2)
          ∗ Pipeline.scopedRestBut spec11 c [cc11_scratch0, cc11_scratch1]) ∗ (∃ r, prngReg c r))

theorem PhiS11_zero (c : Dev nD) (n : ℕ) (hz : n = 0) : PhiS11 V c n = Pipeline.ΦA spec11 c := by subst hz; rfl

theorem PhiS11_pos (c : Dev nD) (n : ℕ) (hz : n ≠ 0) :
    PhiS11 V c n = iprop(iprop(iprop(owns (c : Thread nD τ) scM11_0 fullShare (acc11 V c n).1 ∗ owns (c : Thread nD τ) scM11_1 fullShare (acc11 V c n).2)
          ∗ Pipeline.scopedRestBut spec11 c [cc11_scratch0, cc11_scratch1]) ∗ (∃ r, prngReg c r)) := by
  cases n with
  | zero => exact absurd rfl hz
  | succ n => rfl

/-! ## The pipeline's proof data -/

/-- The proof data of this pipeline on core `c`: the arrays as the region finds them; after the body at row block `t`
    each input's buffer at its block, the big output's at `big11` of the input blocks, the two small outputs' at the
    accumulators after `t + 1` row blocks (what the last row block copies there; at the others, where they are idle,
    never consulted); nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => big11 (iblk11 V c 0 t) (iblk11 V c 1 t) (iblk11 V c 2 t) (iblk11 V c 3 t) (iblk11 V c 4 t) (iblk11 V c 5 t) (iblk11 V c 6 t)
    | ⟨8, _⟩ => (acc11 V c (t.val + 1)).1
    | ⟨9, _⟩ => (acc11 V c (t.val + 1)).2
  Φ t := PhiS11 V c t.val
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_big (c : Dev nD) (t : Fin cfg11.N) : (dat11 V c).after 7 t = big11 (iblk11 V c 0 t) (iblk11 V c 1 t) (iblk11 V c 2 t) (iblk11 V c 3 t) (iblk11 V c 4 t) (iblk11 V c 5 t) (iblk11 V c 6 t) := by dsimp only [dat11]
theorem after11_s (c : Dev nD) (t : Fin cfg11.N) : (dat11 V c).after 8 t = (acc11 V c (t.val + 1)).1 := by dsimp only [dat11]
theorem after11_ss (c : Dev nD) (t : Fin cfg11.N) : (dat11 V c).after 9 t = (acc11 V c (t.val + 1)).2 := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d

theorem Phi11_castSucc (c : Dev nD) (t : Fin cfg11.N) : (dat11 V c).Φ t.castSucc = PhiS11 V c t.val := by
  dsimp only [dat11]; simp only [Fin.coe_castSucc]
theorem Phi11_succ (c : Dev nD) (t : Fin cfg11.N) : (dat11 V c).Φ t.succ = PhiS11 V c (t.val + 1) := by
  dsimp only [dat11]; simp only [Fin.val_succ]

/-! ## The body obligation, at a generic row block -/

/-- What the body is called with at row block `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d))
    ∗ (∃ d, owns (c : Thread nD τ) (st11_8 t) fullShare ((dat11 V c).before 8 t d))
    ∗ (∃ d, owns (c : Thread nD τ) (st11_9 t) fullShare ((dat11 V c).before 9 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t
    ∗ (dat11 V c).leavesExact 4 t
    ∗ (dat11 V c).leavesExact 5 t
    ∗ (dat11 V c).leavesExact 6 t
    ∗ (dat11 V c).leavesExact 7 t
    ∗ (dat11 V c).leavesExact 8 t
    ∗ (dat11 V c).leavesExact 9 t)

/-- Every window but the two small outputs is live at every row block: the body leaves its buffer at `after`. -/
theorem leaves11_0 (c : Dev nD) (t : Fin cfg11.N) : (dat11 V c).leavesExact 0 t = owns (c : Thread nD τ) (st11_0 t) fullShare ((dat11 V c).after 0 t) := rfl
theorem leaves11_1 (c : Dev nD) (t : Fin cfg11.N) : (dat11 V c).leavesExact 1 t = owns (c : Thread nD τ) (st11_1 t) fullShare ((dat11 V c).after 1 t) := rfl
theorem leaves11_2 (c : Dev nD) (t : Fin cfg11.N) : (dat11 V c).leavesExact 2 t = owns (c : Thread nD τ) (st11_2 t) fullShare ((dat11 V c).after 2 t) := rfl
theorem leaves11_3 (c : Dev nD) (t : Fin cfg11.N) : (dat11 V c).leavesExact 3 t = owns (c : Thread nD τ) (st11_3 t) fullShare ((dat11 V c).after 3 t) := rfl
theorem leaves11_4 (c : Dev nD) (t : Fin cfg11.N) : (dat11 V c).leavesExact 4 t = owns (c : Thread nD τ) (st11_4 t) fullShare ((dat11 V c).after 4 t) := rfl
theorem leaves11_5 (c : Dev nD) (t : Fin cfg11.N) : (dat11 V c).leavesExact 5 t = owns (c : Thread nD τ) (st11_5 t) fullShare ((dat11 V c).after 5 t) := rfl
theorem leaves11_6 (c : Dev nD) (t : Fin cfg11.N) : (dat11 V c).leavesExact 6 t = owns (c : Thread nD τ) (st11_6 t) fullShare ((dat11 V c).after 6 t) := rfl
theorem leaves11_7 (c : Dev nD) (t : Fin cfg11.N) : (dat11 V c).leavesExact 7 t = owns (c : Thread nD τ) (st11_7 t) fullShare ((dat11 V c).after 7 t) := rfl

set_option maxHeartbeats 4800000 in
/-- The body at any row block: the inputs' memrefs hold their blocks; the row-block number decides which of the three
    runs applies; the invariant hands the body the accumulators (at anything before the first row block, afterwards at
    what the blocks so far left) and takes them back with this block's column sums added; the rest of the scoped
    buffers, the generator register and what the core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6]
  rw [show (dat11 V c).owesAt () t.succ = (dat11 V c).owesAt () t.castSucc from rfl]
  rw [Phi11_castSucc, Phi11_succ]
  rw [leaves11_0, leaves11_1, leaves11_2, leaves11_3, leaves11_4, leaves11_5, leaves11_6, leaves11_7,
    after11_0, after11_1, after11_2, after11_3, after11_4, after11_5, after11_6, after11_big]
  by_cases h0 : t.val = 0
  · -- row block 0
    have h9 : ¬t.val = 9 := by omega
    have hc0 : cond11_0 (grid11.coords t) := (hcond11_0 t).mpr h0
    have hc1 : ¬cond11_1 (grid11.coords t) := fun h => h9 ((hcond11_1 t).mp h)
    rw [Dat.leavesExact_idle (dat11 V c) 8 t (idleAt11_8 t hc1) (noFlush11_8 t hc1),
      Dat.leavesExact_idle (dat11 V c) 9 t (idleAt11_9 t hc1) (noFlush11_9 t hc1)]
    rw [PhiS11_zero V c _ h0, PhiA11_eq, PhiS11_pos V c _ (Nat.succ_ne_zero _), acc11_zero_step V c t h0]
    iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel11_A c Set.univ (grid11.coords t) _ _ _ _ _ _ _ _ _ _ _ _ _ _ _ _ _ _ _ _ _ _ _ _ hc0 hc1 (iblk11 V c 0 t) (iblk11 V c 1 t) (iblk11 V c 2 t) (iblk11 V c 3 t) (iblk11 V c 4 t) (iblk11 V c 5 t) (iblk11 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [Hva]; · iexact Hva
    isplitl [Hvq]; · iexact Hvq
    iintro ⟨H0, H1, H2, H3, H4, H5, H6, H7, H8, H9, Hva, Hvq⟩
    isplitl [Hva Hvq Hrest Hg]
    · isplitl [Hva Hvq Hrest]
      · isplitl [Hva Hvq]
        · isplitl [Hva]; · iexact Hva
          iexact Hvq
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · by_cases h9 : t.val = 9
    · -- row block 9
      have hc0 : ¬cond11_0 (grid11.coords t) := fun h => h0 ((hcond11_0 t).mp h)
      have hc1 : cond11_1 (grid11.coords t) := (hcond11_1 t).mpr h9
      rw [show (dat11 V c).leavesExact 8 t = owns (c : Thread nD τ) (st11_8 t) fullShare ((dat11 V c).after 8 t) from by
          unfold Dat.leavesExact; rw [liveAt11_8 t hc1],
        show (dat11 V c).leavesExact 9 t = owns (c : Thread nD τ) (st11_9 t) fullShare ((dat11 V c).after 9 t) from by
          unfold Dat.leavesExact; rw [liveAt11_9 t hc1], after11_s, after11_ss]
      rw [PhiS11_pos V c _ h0, PhiS11_pos V c _ (Nat.succ_ne_zero _), acc11_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel11_C c Set.univ (grid11.coords t) _ _ _ _ _ _ _ _ _ _ _ _ _ _ _ _ _ _ _ _ _ _ _ _ hc0 hc1 (iblk11 V c 0 t) (iblk11 V c 1 t) (iblk11 V c 2 t) (iblk11 V c 3 t) (iblk11 V c 4 t) (iblk11 V c 5 t) (iblk11 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- row blocks 1 to 8
      have hc0 : ¬cond11_0 (grid11.coords t) := fun h => h0 ((hcond11_0 t).mp h)
      have hc1 : ¬cond11_1 (grid11.coords t) := fun h => h9 ((hcond11_1 t).mp h)
      rw [Dat.leavesExact_idle (dat11 V c) 8 t (idleAt11_8 t hc1) (noFlush11_8 t hc1),
        Dat.leavesExact_idle (dat11 V c) 9 t (idleAt11_9 t hc1) (noFlush11_9 t hc1)]
      rw [PhiS11_pos V c _ h0, PhiS11_pos V c _ (Nat.succ_ne_zero _), acc11_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel11_B c Set.univ (grid11.coords t) _ _ _ _ _ _ _ _ _ _ _ _ _ _ _ _ _ _ _ _ _ _ _ _ hc0 hc1 (iblk11 V c 0 t) (iblk11 V c 1 t) (iblk11 V c 2 t) (iblk11 V c 3 t) (iblk11 V c 4 t) (iblk11 V c 5 t) (iblk11 V c 6 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every row block. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first row block. -/
theorem hin11 (c : Dev nD) : Pipeline.ΦA spec11 c ⊢ (dat11 V c).Φ 0 := by
  rw [show (dat11 V c).Φ 0 = PhiS11 V c 0 from rfl, PhiS11_zero V c 0 rfl]
  try exact Idealize.SL.BI.Entails.refl _

/-- After the last row block the invariant gives back what the launch handed over: the accumulators' named contents
    are forgotten. -/
theorem hout11 (c : Dev nD) : (dat11 V c).Φ (Fin.last cfg11.N) ⊢ Pipeline.ΦA spec11 c := by
  rw [show (dat11 V c).Φ (Fin.last cfg11.N) = PhiS11 V c (Fin.last cfg11.N).val from rfl,
    PhiS11_pos V c _ (by rw [Fin.val_last]; have : cfg11.N = 10 := N_11; omega), PhiA11_eq]
  iintro ⟨⟨⟨Hva, Hvq⟩, Hrest⟩, Hg⟩
  isplitl [Hva Hvq Hrest]
  · isplitl [Hva Hvq]
    · isplitl [Hva]; · iexists _; iexact Hva
      iexists _; iexact Hvq
    iexact Hrest
  iexact Hg

end Cert.Kernel.Gen

end
-- ==== Proof.KB.Reg12.lean ====
/- The batch-norm-and-relu region of one layer, at the TensorCore's buffer contents V on entry, for any float type F.
   Six windows over a grid of ten row blocks: the row block of z (5000 x 64), then four (1 x 64) rows — the column
   sums of z, the column sums of z*z, the scale and the shift — and the output row block (5000 x 64).
   The body reads the five inputs whole and stores the output block whole, at every point, and keeps nothing from
   one point to the next; so after the body each input buffer still holds its block and the output buffer holds
   one payload: relu ((z - mean) * rsqrt (var + eps) * scale + shift) of the input blocks, as the skeleton names it. -/
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 5000-row rectangle is looked at structurally, once per row
set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! An input buffer holds its window's block at every point. The z block moves with the point and is fetched each
    time; the four rows are fetched at the first point only, and later points find them where they were left, which
    is right because their block index never moves. One library fact covers both: for proof data whose array is the
    entry contents and whose body leaves the block where it was, the buffer is what a fetch would put there. -/

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## What the body touches -/

/-- The whole of a 5000 x 64 block: the one rectangle the z load, the output's read and the output's store go through. -/
abbrev blockRect12 : Rect S5000x64 := Rect.unit (s := S5000x64) ![0, 0] S5000x64.size inb_S5000x64_S5000x64_0_0
/-- The whole of a 1 x 64 row: the rectangle each of the four row loads goes through. -/
abbrev rowRect12 : Rect S1x64 := Rect.unit (s := S1x64) ![0, 0] S1x64.size inb_S1x64_S1x64_0_0

/-! ## What the body leaves in the output buffer -/

/-- The output buffer after the body, from the five input blocks (z, the two sums, scale, shift, in window order):
    the single store's payload over the whole block, whatever the buffer held before. -/
def out12_5 (z : Vec F S5000x64 .f32) (s ss g b : Vec F S1x64 .f32) : Vec F S5000x64 .f32 :=
  View.canon [⟨blockRect12, k12_pay1 (View.ld s rowRect12) (View.ld ss rowRect12) (View.ld z blockRect12) (View.ld g rowRect12) (View.ld b rowRect12)⟩]

/-- The one store's rectangle is the whole block, so every index of the buffer lies in it. -/
theorem cover12_5 (p : Vec F S5000x64 .f32) (y : S5000x64.Idx) :
    ∃ pc ∈ ([⟨blockRect12, p⟩] : List (View.Piece (Elt F) S5000x64 .f32)), y ∈ pc.1.set :=
  View.cover_of_tiled [⟨blockRect12, p⟩] S5000x64.size (by rfl) y

/-! ## The body's triple -/

set_option maxHeartbeats 1000000 in
/-- Run on whole buffers — the five inputs' reading z, s, ss, g, b and the output's holding anything — the body hands
    its continuation the inputs as they were and the output at out12_5 of them. The printed function is its skeleton
    of loads and one store; the loads read the owned contents through whole rectangles, the output's own read is
    of whatever it held and is not used, and the store covers the buffer. -/
theorem sound_kernel12 (c : Dev nD) (E : Set ℕ) (i : grid12.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (z : Vec F S5000x64 .f32) (s ss g b : Vec F S1x64 .f32) (K : PUnit → sProp 𝕄) :
    iprop(owns (c : Thread nD τ) arg1 fullShare z ∗ owns (c : Thread nD τ) arg2 fullShare s ∗ owns (c : Thread nD τ) arg3 fullShare ss
        ∗ owns (c : Thread nD τ) arg4 fullShare g ∗ owns (c : Thread nD τ) arg5 fullShare b ∗ (∃ d, owns (c : Thread nD τ) arg6 fullShare d)
        ∗ (iprop(owns (c : Thread nD τ) arg1 fullShare z ∗ owns (c : Thread nD τ) arg2 fullShare s ∗ owns (c : Thread nD τ) arg3 fullShare ss
            ∗ owns (c : Thread nD τ) arg4 fullShare g ∗ owns (c : Thread nD τ) arg5 fullShare b
            ∗ owns (c : Thread nD τ) arg6 fullShare (out12_5 z s ss g b)) -∗ K ⟨⟩))
      ⊢ wp frame (wpE (defs₀ (F := F)) Variants.none c none) E (cc12_bn_relu_kernel i arg1 harg1 arg2 harg2 arg3 harg3 arg4 harg4 arg5 harg5 arg6 harg6) K := by
  simp only [cc12_bn_relu_kernel_eq_skeleton]; unfold cc12_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover12_5 _)

/-! ## The region's proof data -/

/-- The arrays are the entry contents; after the body at point t each input buffer holds its block and the output
    buffer out12_5 of the five input blocks there; the invariant is the one of a body that touches nothing but its
    buffers; full shares, nothing owed. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t = out12_5 (iblk12 V c 0 t) (iblk12 V c 1 t) (iblk12 V c 2 t) (iblk12 V c 3 t) (iblk12 V c 4 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation -/

/-- What the pipeline calls the body with at point t, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it has to give back. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- At any point the input buffers hold their blocks, so the body's triple applies; the invariant and what is
    owed go through untouched, being the same before and after a point. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this region's proof data, at every point. -/
theorem body_obligation12 (c : Dev nD) : BodyObligation (dat12 (F := F) V c) (defs₀ (F := F)) Variants.none () Set.univ := fun t => by
  rw [bigSep_W12, bigSep_W12]
  exact sound_body12 V c t

end Cert.Kernel.Gen

end
-- ==== Proof.KB.Reg13.lean ====
/- The classifier region, at the TensorCore's buffer contents V on entry, for any float type F.
   Six windows over a grid of one point: the pooled graph features (512 x 64), the hidden layer's weights
   (64 x 64) and bias row (1 x 64), the output layer's weights (64 x 10) and bias row (1 x 10), and the scores
   (512 x 10). Every window is the whole of its array.
   The body reads the five inputs whole and stores the scores whole; so after the body each input buffer still holds
   its block and the output buffer holds one payload: relu (pooled * W1 + b1) * W2 + b2, the operands of each
   product rounded to bf16 first, as the skeleton names it. -/
import proofs.«140206_j52750788330061_1_alg».proof.Proof.Gen.Kernel.Launch
import proofs.«140206_j52750788330061_1_alg».proof.Proof.Gen.Kernel.Skeleton
import proofs.«140206_j52750788330061_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 512-row rectangle is looked at structurally, once per row
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! An input buffer holds its window's block at the grid's point: for proof data whose array is the entry contents
    and whose body leaves the block where it was, the buffer is what a fetch puts there, and every input is fetched
    at the one point there is. -/

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-! ## What the body touches -/

/-- The whole of the 512 x 64 pooled features. -/
abbrev pooledRect13 : Rect S512x64 := Rect.unit (s := S512x64) ![0, 0] S512x64.size inb_S512x64_S512x64_0_0
/-- The whole of the 64 x 64 hidden weights. -/
abbrev hidWRect13 : Rect S64x64 := Rect.unit (s := S64x64) ![0, 0] S64x64.size inb_S64x64_S64x64_0_0
/-- The whole of the 1 x 64 hidden bias row. -/
abbrev hidBRect13 : Rect S1x64 := Rect.unit (s := S1x64) ![0, 0] S1x64.size inb_S1x64_S1x64_0_0
/-- The whole of the 64 x 10 output weights. -/
abbrev outWRect13 : Rect S64x10 := Rect.unit (s := S64x10) ![0, 0] S64x10.size inb_S64x10_S64x10_0_0
/-- The whole of the 1 x 10 output bias row. -/
abbrev outBRect13 : Rect S1x10 := Rect.unit (s := S1x10) ![0, 0] S1x10.size inb_S1x10_S1x10_0_0
/-- The whole of the 512 x 10 scores: the rectangle of the output's read and of its store. -/
abbrev scoreRect13 : Rect S512x10 := Rect.unit (s := S512x10) ![0, 0] S512x10.size inb_S512x10_S512x10_0_0

/-! ## What the body leaves in the output buffer -/

/-- The output buffer after the body, from the five input blocks (pooled features, hidden weights and bias, output
    weights and bias, in window order): the single store's payload over the whole block, whatever the buffer held. -/
def out13_5 (p : Vec F S512x64 .f32) (w1 : Vec F S64x64 .f32) (b1 : Vec F S1x64 .f32) (w2 : Vec F S64x10 .f32) (b2 : Vec F S1x10 .f32) :
    Vec F S512x10 .f32 :=
  View.canon [⟨scoreRect13, k13_pay1 (View.ld p pooledRect13) (View.ld w1 hidWRect13) (View.ld b1 hidBRect13) (View.ld w2 outWRect13) (View.ld b2 outBRect13)⟩]

/-- The one store's rectangle is the whole block, so every index of the buffer lies in it. -/
theorem cover13_5 (q : Vec F S512x10 .f32) (y : S512x10.Idx) :
    ∃ pc ∈ ([⟨scoreRect13, q⟩] : List (View.Piece (Elt F) S512x10 .f32)), y ∈ pc.1.set :=
  View.cover_of_tiled [⟨scoreRect13, q⟩] S512x10.size (by rfl) y

/-! ## The body's triple -/

set_option maxHeartbeats 1000000 in
/-- Run on whole buffers — the five inputs' reading p, w1, b1, w2, b2 and the output's holding anything — the body
    hands its continuation the inputs as they were and the output at out13_5 of them. The printed function is its
    skeleton of loads and one store; the loads read the owned contents through whole rectangles, the output's own
    read is of whatever it held and is not used, and the store covers the buffer. -/
theorem sound_kernel13 (c : Dev nD) (E : Set ℕ) (i : grid13.Coords)
    (arg1 : Memref sig .tc .vmem S512x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S512x10 .f32) (harg6 : arg6.IsWhole)
    (p : Vec F S512x64 .f32) (w1 : Vec F S64x64 .f32) (b1 : Vec F S1x64 .f32) (w2 : Vec F S64x10 .f32) (b2 : Vec F S1x10 .f32)
    (K : PUnit → sProp 𝕄) :
    iprop(owns (c : Thread nD τ) arg1 fullShare p ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare p ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (out13_5 p w1 b1 w2 b2)) -∗ K ⟨⟩))
      ⊢ wp frame (wpE (defs₀ (F := F)) Variants.none c none) E (cc13_classifier_kernel i arg1 harg1 arg2 harg2 arg3 harg3 arg4 harg4 arg5 harg5 arg6 harg6) K := by
  simp only [cc13_classifier_kernel_eq_skeleton]; unfold cc13_classifier_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_5 _)

/-! ## The region's proof data -/

/-- The arrays are the entry contents; after the body each input buffer holds its block and the output buffer
    out13_5 of the five input blocks; the invariant is the one of a body that touches nothing but its buffers;
    full shares, nothing owed. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => out13_5 (iblk13 V c 0 t) (iblk13 V c 1 t) (iblk13 V c 2 t) (iblk13 V c 3 t) (iblk13 V c 4 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) :
    (dat13 V c).after 5 t = out13_5 (iblk13 V c 0 t) (iblk13 V c 1 t) (iblk13 V c 2 t) (iblk13 V c 3 t) (iblk13 V c 4 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d

/-! ## The body obligation -/

/-- What the pipeline calls the body with at point t, window by window, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d)))

/-- and what it has to give back. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t))

/-- At the point the input buffers hold their blocks, so the body's triple applies; the invariant and what is
    owed go through untouched, being the same before and after a point. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4]
  rw [show (dat13 V c).Φ t.succ = (dat13 V c).Φ t.castSucc from rfl,
    show (dat13 V c).owesAt () t.succ = (dat13 V c).owesAt () t.castSucc from rfl,
    after13_0, after13_1, after13_2, after13_3, after13_4, after13_5]
  iintro ⟨HΦ, Ho, ⟨%d0, H0⟩, ⟨%d1, H1⟩, ⟨%d2, H2⟩, ⟨%d3, H3⟩, ⟨%d4, H4⟩, ⟨%d5, H5⟩⟩
  iapply (sound_kernel13 c Set.univ _ _ _ _ _ _ _ _ _ _ _ _ _ (iblk13 V c 0 t) (iblk13 V c 1 t) (iblk13 V c 2 t) (iblk13 V c 3 t) (iblk13 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this region's proof data, at the grid's point. -/
theorem body_obligation13 (c : Dev nD) : BodyObligation (dat13 (F := F) V c) (defs₀ (F := F)) Variants.none () Set.univ := fun t => by
  rw [bigSep_W13, bigSep_W13]
  exact sound_body13 V c t

end Cert.Kernel.Gen

end
-- ==== Proof.KB.Fold.lean ====
/-
  The contents of every unscoped buffer of a core between the items of the program: the launch memory, then each
  host stretch's operations applied, then each kernel region's output arrays replaced by what its pipeline leaves in
  them (the region's proof data at the contents it is entered with).  The generated conditional frame speaks of the
  same contents through unknowns for what the regions leave; here the unknowns are named and the two are shown equal.
-/
import proofs.«140206_j52750788330061_1_alg».proof.Proof.KB.Reg0
import proofs.«140206_j52750788330061_1_alg».proof.Proof.KB.Reg1
import proofs.«140206_j52750788330061_1_alg».proof.Proof.KB.Reg2
import proofs.«140206_j52750788330061_1_alg».proof.Proof.KB.Reg3
import proofs.«140206_j52750788330061_1_alg».proof.Proof.KB.Reg4
import proofs.«140206_j52750788330061_1_alg».proof.Proof.KB.Reg5
import proofs.«140206_j52750788330061_1_alg».proof.Proof.KB.Reg6
import proofs.«140206_j52750788330061_1_alg».proof.Proof.KB.Reg7
import proofs.«140206_j52750788330061_1_alg».proof.Proof.KB.Reg8
import proofs.«140206_j52750788330061_1_alg».proof.Proof.KB.Reg9
import proofs.«140206_j52750788330061_1_alg».proof.Proof.KB.Reg10
import proofs.«140206_j52750788330061_1_alg».proof.Proof.KB.Reg11
import proofs.«140206_j52750788330061_1_alg».proof.Proof.KB.Reg12
import proofs.«140206_j52750788330061_1_alg».proof.Proof.KB.Reg13
import proofs.«140206_j52750788330061_1_alg».proof.Proof.Gen.Kernel.Regions

noncomputable section

namespace Cert.Kernel.Gen

open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A family of valuations read at the TensorCore's references: the form a region's proof data take. -/
abbrev tcOf (W : Dev nD → Valuation τ sig (Elt F)) : (c : Dev nD) → (b : Ref sig .tc) → Buf (Elt F) ((c : Thread nD τ).loc b) :=
  fun c b => W c b

/-- Three updates at distinct points, each with the value the thrice-updated function has there, give that function. -/
theorem upd3_fix {α : Type} [DecidableEq α] {β : α → Type} (f : ∀ a, β a) (a b c : α) (va : β a) (vb : β b) (vc : β c)
    (hab : a ≠ b) (hac : a ≠ c) (hbc : b ≠ c) :
    Function.update (Function.update (Function.update f a
        (Function.update (Function.update (Function.update f a va) b vb) c vc a)) b
        (Function.update (Function.update (Function.update f a va) b vb) c vc b)) c
        (Function.update (Function.update (Function.update f a va) b vb) c vc c)
      = Function.update (Function.update (Function.update f a va) b vb) c vc := by
  rw [Function.update_of_ne hac, Function.update_of_ne hab, Function.update_self, Function.update_of_ne hbc,
    Function.update_self, Function.update_self]

section Reads
variable {α : Type} [DecidableEq α] {β : α → Type} (f : ∀ a, β a)
/-- One update read away from its point. -/
theorem upd1_ne (a : α) (va : β a) (x : α) (h : x ≠ a) : Function.update f a va x = f x := Function.update_of_ne h _ _
/-- One update read at its point. -/
theorem upd1_a (a : α) (va : β a) : Function.update f a va a = va := Function.update_self _ _ _
/-- Three updates read away from their points. -/
theorem upd3_ne (a b c : α) (va : β a) (vb : β b) (vc : β c) (x : α) (ha : x ≠ a) (hb : x ≠ b) (hc : x ≠ c) :
    Function.update (Function.update (Function.update f a va) b vb) c vc x = f x := by
  rw [Function.update_of_ne hc, Function.update_of_ne hb, Function.update_of_ne ha]
/-- Three updates at distinct points read at the first, -/
theorem upd3_a (a b c : α) (va : β a) (vb : β b) (vc : β c) (hab : a ≠ b) (hac : a ≠ c) :
    Function.update (Function.update (Function.update f a va) b vb) c vc a = va := by
  rw [Function.update_of_ne hac, Function.update_of_ne hab, Function.update_self]
/-- at the second, -/
theorem upd3_b (a b c : α) (va : β a) (vb : β b) (vc : β c) (hbc : b ≠ c) :
    Function.update (Function.update (Function.update f a va) b vb) c vc b = vb := by
  rw [Function.update_of_ne hbc, Function.update_self]
/-- and at the third. -/
theorem upd3_c (a b c : α) (va : β a) (vb : β b) (vc : β c) :
    Function.update (Function.update (Function.update f a va) b vb) c vc c = vc := Function.update_self _ _ _
end Reads

/-- At launch. -/
def X0 (c : Dev nD) : Valuation τ sig (Elt F) := fun b => m (c, b)
/-- After the host stretch before region 0. -/
def X1 (c : Dev nD) : Valuation τ sig (Elt F) := StableHlo.after hostOps0 (X0 m c)
/-- After region 0: its output arrays at what its pipeline leaves. -/
def X2 (c : Dev nD) : Valuation τ sig (Elt F) :=
  Function.update (X1 m c) main_v2 ((dat0 (tcOf (X1 m)) c).arrAt 3 cfg0.N)
/-- After the host stretch before region 1. -/
def X3 (c : Dev nD) : Valuation τ sig (Elt F) := StableHlo.after hostOps1 (X2 m c)
/-- After region 1: its output arrays at what its pipeline leaves. -/
def X4 (c : Dev nD) : Valuation τ sig (Elt F) :=
  Function.update (Function.update (Function.update (X3 m c) main_v27_0 ((dat1 (tcOf (X3 m)) c).arrAt 5 cfg1.N)) main_v27_1 ((dat1 (tcOf (X3 m)) c).arrAt 6 cfg1.N)) main_v27_2 ((dat1 (tcOf (X3 m)) c).arrAt 7 cfg1.N)
/-- After the host stretch before region 2. -/
def X5 (c : Dev nD) : Valuation τ sig (Elt F) := StableHlo.after hostOps2 (X4 m c)
/-- After region 2: its output arrays at what its pipeline leaves. -/
def X6 (c : Dev nD) : Valuation τ sig (Elt F) :=
  Function.update (Function.update (Function.update (X5 m c) main_v39_0 ((dat2 (tcOf (X5 m)) c).arrAt 7 cfg2.N)) main_v39_1 ((dat2 (tcOf (X5 m)) c).arrAt 8 cfg2.N)) main_v39_2 ((dat2 (tcOf (X5 m)) c).arrAt 9 cfg2.N)
/-- After the host stretch before region 3. -/
def X7 (c : Dev nD) : Valuation τ sig (Elt F) := StableHlo.after hostOps3 (X6 m c)
/-- After region 3: its output arrays at what its pipeline leaves. -/
def X8 (c : Dev nD) : Valuation τ sig (Elt F) :=
  Function.update (X7 m c) main_v46 ((dat3 (tcOf (X7 m)) c).arrAt 5 cfg3.N)
/-- After the host stretch before region 4. -/
def X9 (c : Dev nD) : Valuation τ sig (Elt F) := StableHlo.after hostOps4 (X8 m c)
/-- After region 4: its output arrays at what its pipeline leaves. -/
def X10 (c : Dev nD) : Valuation τ sig (Elt F) :=
  Function.update (Function.update (Function.update (X9 m c) main_v66_0 ((dat4 (tcOf (X9 m)) c).arrAt 5 cfg4.N)) main_v66_1 ((dat4 (tcOf (X9 m)) c).arrAt 6 cfg4.N)) main_v66_2 ((dat4 (tcOf (X9 m)) c).arrAt 7 cfg4.N)
/-- After the host stretch before region 5. -/
def X11 (c : Dev nD) : Valuation τ sig (Elt F) := StableHlo.after hostOps5 (X10 m c)
/-- After region 5: its output arrays at what its pipeline leaves. -/
def X12 (c : Dev nD) : Valuation τ sig (Elt F) :=
  Function.update (Function.update (Function.update (X11 m c) main_v78_0 ((dat5 (tcOf (X11 m)) c).arrAt 7 cfg5.N)) main_v78_1 ((dat5 (tcOf (X11 m)) c).arrAt 8 cfg5.N)) main_v78_2 ((dat5 (tcOf (X11 m)) c).arrAt 9 cfg5.N)
/-- After the host stretch before region 6. -/
def X13 (c : Dev nD) : Valuation τ sig (Elt F) := StableHlo.after hostOps6 (X12 m c)
/-- After region 6: its output arrays at what its pipeline leaves. -/
def X14 (c : Dev nD) : Valuation τ sig (Elt F) :=
  Function.update (X13 m c) main_v85 ((dat6 (tcOf (X13 m)) c).arrAt 5 cfg6.N)
/-- After the host stretch before region 7. -/
def X15 (c : Dev nD) : Valuation τ sig (Elt F) := StableHlo.after hostOps7 (X14 m c)
/-- After region 7: its output arrays at what its pipeline leaves. -/
def X16 (c : Dev nD) : Valuation τ sig (Elt F) :=
  Function.update (Function.update (Function.update (X15 m c) main_v105_0 ((dat7 (tcOf (X15 m)) c).arrAt 5 cfg7.N)) main_v105_1 ((dat7 (tcOf (X15 m)) c).arrAt 6 cfg7.N)) main_v105_2 ((dat7 (tcOf (X15 m)) c).arrAt 7 cfg7.N)
/-- After the host stretch before region 8. -/
def X17 (c : Dev nD) : Valuation τ sig (Elt F) := StableHlo.after hostOps8 (X16 m c)
/-- After region 8: its output arrays at what its pipeline leaves. -/
def X18 (c : Dev nD) : Valuation τ sig (Elt F) :=
  Function.update (Function.update (Function.update (X17 m c) main_v117_0 ((dat8 (tcOf (X17 m)) c).arrAt 7 cfg8.N)) main_v117_1 ((dat8 (tcOf (X17 m)) c).arrAt 8 cfg8.N)) main_v117_2 ((dat8 (tcOf (X17 m)) c).arrAt 9 cfg8.N)
/-- After the host stretch before region 9. -/
def X19 (c : Dev nD) : Valuation τ sig (Elt F) := StableHlo.after hostOps9 (X18 m c)
/-- After region 9: its output arrays at what its pipeline leaves. -/
def X20 (c : Dev nD) : Valuation τ sig (Elt F) :=
  Function.update (X19 m c) main_v124 ((dat9 (tcOf (X19 m)) c).arrAt 5 cfg9.N)
/-- After the host stretch before region 10. -/
def X21 (c : Dev nD) : Valuation τ sig (Elt F) := StableHlo.after hostOps10 (X20 m c)
/-- After region 10: its output arrays at what its pipeline leaves. -/
def X22 (c : Dev nD) : Valuation τ sig (Elt F) :=
  Function.update (Function.update (Function.update (X21 m c) main_v144_0 ((dat10 (tcOf (X21 m)) c).arrAt 5 cfg10.N)) main_v144_1 ((dat10 (tcOf (X21 m)) c).arrAt 6 cfg10.N)) main_v144_2 ((dat10 (tcOf (X21 m)) c).arrAt 7 cfg10.N)
/-- After the host stretch before region 11. -/
def X23 (c : Dev nD) : Valuation τ sig (Elt F) := StableHlo.after hostOps11 (X22 m c)
/-- After region 11: its output arrays at what its pipeline leaves. -/
def X24 (c : Dev nD) : Valuation τ sig (Elt F) :=
  Function.update (Function.update (Function.update (X23 m c) main_v156_0 ((dat11 (tcOf (X23 m)) c).arrAt 7 cfg11.N)) main_v156_1 ((dat11 (tcOf (X23 m)) c).arrAt 8 cfg11.N)) main_v156_2 ((dat11 (tcOf (X23 m)) c).arrAt 9 cfg11.N)
/-- After the host stretch before region 12. -/
def X25 (c : Dev nD) : Valuation τ sig (Elt F) := StableHlo.after hostOps12 (X24 m c)
/-- After region 12: its output arrays at what its pipeline leaves. -/
def X26 (c : Dev nD) : Valuation τ sig (Elt F) :=
  Function.update (X25 m c) main_v163 ((dat12 (tcOf (X25 m)) c).arrAt 5 cfg12.N)
/-- After the host stretch before region 13. -/
def X27 (c : Dev nD) : Valuation τ sig (Elt F) := StableHlo.after hostOps13 (X26 m c)
/-- After region 13: its output arrays at what its pipeline leaves. -/
def X28 (c : Dev nD) : Valuation τ sig (Elt F) :=
  Function.update (X27 m c) main_v178 ((dat13 (tcOf (X27 m)) c).arrAt 5 cfg13.N)

/-- What the regions leave, as the generated conditional frame's unknowns. -/
def outsOf : Outs (F := F) := fun J r c => match J with
  | 2 => X2 m c r
  | 4 => X4 m c r
  | 6 => X6 m c r
  | 8 => X8 m c r
  | 10 => X10 m c r
  | 12 => X12 m c r
  | 14 => X14 m c r
  | 16 => X16 m c r
  | 18 => X18 m c r
  | 20 => X20 m c r
  | 22 => X22 m c r
  | 24 => X24 m c r
  | 26 => X26 m c r
  | 28 => X28 m c r
  | _ => X0 m c r

theorem V0_eq (c : Dev nD) : V0 m c = X0 m c := rfl
theorem V1_eq (c : Dev nD) : V1 m c = X1 m c := by
  show StableHlo.after hostOps0 (V0 m c) = _
  rw [V0_eq]; rfl
theorem V2_eq (c : Dev nD) : V2 m (outsOf m) c = X2 m c := by
  unfold V2
  rw [V1_eq]
  unfold X2
  simp only [outsOf, X2, Function.update_self, ne_eq, Function.update_of_ne]
theorem V3_eq (c : Dev nD) : V3 m (outsOf m) c = X3 m c := by
  show StableHlo.after hostOps1 (V2 m (outsOf m) c) = _
  rw [V2_eq]; rfl
theorem V4_eq (c : Dev nD) : V4 m (outsOf m) c = X4 m c := by
  unfold V4
  rw [V3_eq]
  unfold X4
  simp only [outsOf, X4]
  exact upd3_fix (X3 m c) _ _ _ _ _ _ (StableHlo.devRef_ne_of_ne (by decide)) (StableHlo.devRef_ne_of_ne (by decide)) (StableHlo.devRef_ne_of_ne (by decide))
theorem V5_eq (c : Dev nD) : V5 m (outsOf m) c = X5 m c := by
  show StableHlo.after hostOps2 (V4 m (outsOf m) c) = _
  rw [V4_eq]; rfl
theorem V6_eq (c : Dev nD) : V6 m (outsOf m) c = X6 m c := by
  unfold V6
  rw [V5_eq]
  unfold X6
  simp only [outsOf, X6]
  exact upd3_fix (X5 m c) _ _ _ _ _ _ (StableHlo.devRef_ne_of_ne (by decide)) (StableHlo.devRef_ne_of_ne (by decide)) (StableHlo.devRef_ne_of_ne (by decide))
theorem V7_eq (c : Dev nD) : V7 m (outsOf m) c = X7 m c := by
  show StableHlo.after hostOps3 (V6 m (outsOf m) c) = _
  rw [V6_eq]; rfl
theorem V8_eq (c : Dev nD) : V8 m (outsOf m) c = X8 m c := by
  unfold V8
  rw [V7_eq]
  unfold X8
  simp only [outsOf, X8, Function.update_self, ne_eq, Function.update_of_ne]
theorem V9_eq (c : Dev nD) : V9 m (outsOf m) c = X9 m c := by
  show StableHlo.after hostOps4 (V8 m (outsOf m) c) = _
  rw [V8_eq]; rfl
theorem V10_eq (c : Dev nD) : V10 m (outsOf m) c = X10 m c := by
  unfold V10
  rw [V9_eq]
  unfold X10
  simp only [outsOf, X10]
  exact upd3_fix (X9 m c) _ _ _ _ _ _ (StableHlo.devRef_ne_of_ne (by decide)) (StableHlo.devRef_ne_of_ne (by decide)) (StableHlo.devRef_ne_of_ne (by decide))
theorem V11_eq (c : Dev nD) : V11 m (outsOf m) c = X11 m c := by
  show StableHlo.after hostOps5 (V10 m (outsOf m) c) = _
  rw [V10_eq]; rfl
theorem V12_eq (c : Dev nD) : V12 m (outsOf m) c = X12 m c := by
  unfold V12
  rw [V11_eq]
  unfold X12
  simp only [outsOf, X12]
  exact upd3_fix (X11 m c) _ _ _ _ _ _ (StableHlo.devRef_ne_of_ne (by decide)) (StableHlo.devRef_ne_of_ne (by decide)) (StableHlo.devRef_ne_of_ne (by decide))
theorem V13_eq (c : Dev nD) : V13 m (outsOf m) c = X13 m c := by
  show StableHlo.after hostOps6 (V12 m (outsOf m) c) = _
  rw [V12_eq]; rfl
theorem V14_eq (c : Dev nD) : V14 m (outsOf m) c = X14 m c := by
  unfold V14
  rw [V13_eq]
  unfold X14
  simp only [outsOf, X14, Function.update_self, ne_eq, Function.update_of_ne]
theorem V15_eq (c : Dev nD) : V15 m (outsOf m) c = X15 m c := by
  show StableHlo.after hostOps7 (V14 m (outsOf m) c) = _
  rw [V14_eq]; rfl
theorem V16_eq (c : Dev nD) : V16 m (outsOf m) c = X16 m c := by
  unfold V16
  rw [V15_eq]
  unfold X16
  simp only [outsOf, X16]
  exact upd3_fix (X15 m c) _ _ _ _ _ _ (StableHlo.devRef_ne_of_ne (by decide)) (StableHlo.devRef_ne_of_ne (by decide)) (StableHlo.devRef_ne_of_ne (by decide))
theorem V17_eq (c : Dev nD) : V17 m (outsOf m) c = X17 m c := by
  show StableHlo.after hostOps8 (V16 m (outsOf m) c) = _
  rw [V16_eq]; rfl
theorem V18_eq (c : Dev nD) : V18 m (outsOf m) c = X18 m c := by
  unfold V18
  rw [V17_eq]
  unfold X18
  simp only [outsOf, X18]
  exact upd3_fix (X17 m c) _ _ _ _ _ _ (StableHlo.devRef_ne_of_ne (by decide)) (StableHlo.devRef_ne_of_ne (by decide)) (StableHlo.devRef_ne_of_ne (by decide))
theorem V19_eq (c : Dev nD) : V19 m (outsOf m) c = X19 m c := by
  show StableHlo.after hostOps9 (V18 m (outsOf m) c) = _
  rw [V18_eq]; rfl
theorem V20_eq (c : Dev nD) : V20 m (outsOf m) c = X20 m c := by
  unfold V20
  rw [V19_eq]
  unfold X20
  simp only [outsOf, X20, Function.update_self, ne_eq, Function.update_of_ne]
theorem V21_eq (c : Dev nD) : V21 m (outsOf m) c = X21 m c := by
  show StableHlo.after hostOps10 (V20 m (outsOf m) c) = _
  rw [V20_eq]; rfl
theorem V22_eq (c : Dev nD) : V22 m (outsOf m) c = X22 m c := by
  unfold V22
  rw [V21_eq]
  unfold X22
  simp only [outsOf, X22]
  exact upd3_fix (X21 m c) _ _ _ _ _ _ (StableHlo.devRef_ne_of_ne (by decide)) (StableHlo.devRef_ne_of_ne (by decide)) (StableHlo.devRef_ne_of_ne (by decide))
theorem V23_eq (c : Dev nD) : V23 m (outsOf m) c = X23 m c := by
  show StableHlo.after hostOps11 (V22 m (outsOf m) c) = _
  rw [V22_eq]; rfl
theorem V24_eq (c : Dev nD) : V24 m (outsOf m) c = X24 m c := by
  unfold V24
  rw [V23_eq]
  unfold X24
  simp only [outsOf, X24]
  exact upd3_fix (X23 m c) _ _ _ _ _ _ (StableHlo.devRef_ne_of_ne (by decide)) (StableHlo.devRef_ne_of_ne (by decide)) (StableHlo.devRef_ne_of_ne (by decide))
theorem V25_eq (c : Dev nD) : V25 m (outsOf m) c = X25 m c := by
  show StableHlo.after hostOps12 (V24 m (outsOf m) c) = _
  rw [V24_eq]; rfl
theorem V26_eq (c : Dev nD) : V26 m (outsOf m) c = X26 m c := by
  unfold V26
  rw [V25_eq]
  unfold X26
  simp only [outsOf, X26, Function.update_self, ne_eq, Function.update_of_ne]
theorem V27_eq (c : Dev nD) : V27 m (outsOf m) c = X27 m c := by
  show StableHlo.after hostOps13 (V26 m (outsOf m) c) = _
  rw [V26_eq]; rfl
theorem V28_eq (c : Dev nD) : V28 m (outsOf m) c = X28 m c := by
  unfold V28
  rw [V27_eq]
  unfold X28
  simp only [outsOf, X28, Function.update_self, ne_eq, Function.update_of_ne]

end Cert.Kernel.Gen

end
-- ==== Proof.KB.SegsBase.lean ====
/-
  The proof data of the program's fourteen pipelines as one family, and what rides beside the buffers through every
  item of @main.
-/
import proofs.«140206_j52750788330061_1_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at the contents its region is entered with: a literal match, so that the
    family at a numeral is the region's own data. -/
def pdats : (p : Fin 14) → (c : Dev nD) → Dat τ (Elt F) Unit ℕ (UR sig nD τ) ℕ (cfgs p) c
  | ⟨0, _⟩ => fun c => dat0 (tcOf (X1 m)) c
  | ⟨1, _⟩ => fun c => dat1 (tcOf (X3 m)) c
  | ⟨2, _⟩ => fun c => dat2 (tcOf (X5 m)) c
  | ⟨3, _⟩ => fun c => dat3 (tcOf (X7 m)) c
  | ⟨4, _⟩ => fun c => dat4 (tcOf (X9 m)) c
  | ⟨5, _⟩ => fun c => dat5 (tcOf (X11 m)) c
  | ⟨6, _⟩ => fun c => dat6 (tcOf (X13 m)) c
  | ⟨7, _⟩ => fun c => dat7 (tcOf (X15 m)) c
  | ⟨8, _⟩ => fun c => dat8 (tcOf (X17 m)) c
  | ⟨9, _⟩ => fun c => dat9 (tcOf (X19 m)) c
  | ⟨10, _⟩ => fun c => dat10 (tcOf (X21 m)) c
  | ⟨11, _⟩ => fun c => dat11 (tcOf (X23 m)) c
  | ⟨12, _⟩ => fun c => dat12 (tcOf (X25 m)) c
  | ⟨13, _⟩ => fun c => dat13 (tcOf (X27 m)) c

/-- No core owes another anything: no level is assigned. -/
abbrev Lz : GSem nD τ sig → Finset Unit := fun _ => ∅
abbrev lvz : GSem nD τ sig → Unit → ℕ := fun _ _ => 0
/-- What rides beside the buffers through every item: the generator register at some state and nothing owed. -/
abbrev Rz (c : Dev nD) : sProp 𝕄 := iprop((∃ r, prngReg c r) ∗ ∃ W, owes (c : Thread nD τ) (0 : CellTallies nD τ sig Unit) W)

end Cert.Kernel.Gen

end
-- ==== Proof.KB.Seg0.lean ====
/-
  Region 0 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 0's exit each of its arrays holds what the pipeline leaves: an output's array by the update, an input's
    array its entry contents; window by window, -/
theorem hF0_0 (c : Dev nD) : (dat0 (tcOf (X1 m)) c).arrAt 0 cfg0.N = tcOf (X2 m) c (Pipeline.arrRef spec0 0) := by
  rw [(dat0 (tcOf (X1 m)) c).arrAt_in 0 rfl cfg0.N, A_eq0 (tcOf (X1 m)) c 0]
  show X1 m c (Proc.devRef .tc main_v0) = X2 m c (Proc.devRef .tc main_v0)
  unfold X2
  symm
  exact upd1_ne _ _ _ _ (StableHlo.devRef_ne_of_ne (by decide))
theorem hF0_1 (c : Dev nD) : (dat0 (tcOf (X1 m)) c).arrAt 1 cfg0.N = tcOf (X2 m) c (Pipeline.arrRef spec0 1) := by
  rw [(dat0 (tcOf (X1 m)) c).arrAt_in 1 rfl cfg0.N, A_eq0 (tcOf (X1 m)) c 1]
  show X1 m c (Proc.devRef .tc main_arg4) = X2 m c (Proc.devRef .tc main_arg4)
  unfold X2
  symm
  exact upd1_ne _ _ _ _ (StableHlo.devRef_ne_of_ne (by decide))
theorem hF0_2 (c : Dev nD) : (dat0 (tcOf (X1 m)) c).arrAt 2 cfg0.N = tcOf (X2 m) c (Pipeline.arrRef spec0 2) := by
  rw [(dat0 (tcOf (X1 m)) c).arrAt_in 2 rfl cfg0.N, A_eq0 (tcOf (X1 m)) c 2]
  show X1 m c (Proc.devRef .tc main_v1) = X2 m c (Proc.devRef .tc main_v1)
  unfold X2
  symm
  exact upd1_ne _ _ _ _ (StableHlo.devRef_ne_of_ne (by decide))
theorem hF0_3 (c : Dev nD) : (dat0 (tcOf (X1 m)) c).arrAt 3 cfg0.N = tcOf (X2 m) c (Pipeline.arrRef spec0 3) := by
  show _ = X2 m c (Proc.devRef .tc main_v2)
  unfold X2
  symm
  exact upd1_a _ _ _

/-- and for every window. -/
theorem hF0 (c : Dev nD) : ∀ w : Fin cfg0.W, (dat0 (tcOf (X1 m)) c).arrAt w cfg0.N = tcOf (X2 m) c (Pipeline.arrRef spec0 w)
  | ⟨0, h⟩ => by rw [show (⟨0, h⟩ : Fin cfg0.W) = (0 : Fin cfg0.W) from Fin.ext rfl]; exact hF0_0 m c
  | ⟨1, h⟩ => by rw [show (⟨1, h⟩ : Fin cfg0.W) = (1 : Fin cfg0.W) from Fin.ext rfl]; exact hF0_1 m c
  | ⟨2, h⟩ => by rw [show (⟨2, h⟩ : Fin cfg0.W) = (2 : Fin cfg0.W) from Fin.ext rfl]; exact hF0_2 m c
  | ⟨3, h⟩ => by rw [show (⟨3, h⟩ : Fin cfg0.W) = (3 : Fin cfg0.W) from Fin.ext rfl]; exact hF0_3 m c

/-- Every buffer that is no array of region 0 holds at its exit what it held at its entry. -/
theorem hrest0 (c : Dev nD) : ∀ b, b ∉ Finset.univ.image (Pipeline.arrRef spec0) → tcOf (X2 m) c b = tcOf (X1 m) c b :=
  fun b hb => by
    have h0 : b ≠ main_v2 := fun e => hb (by subst e; exact Finset.mem_image.mpr ⟨⟨3, by decide⟩, Finset.mem_univ _, rfl⟩)
    unfold X2; dsimp only [tcOf]
    exact upd1_ne _ _ _ _ (StableHlo.devRef_ne_of_ne h0)

set_option backward.isDefEq.respectTransparency.types false in
/-- Region 0 over the thread state: entered with every unscoped buffer at the contents before it, left with them at
    the contents after it; its arrays split out of the unscoped buffers and put back; the generator register into the
    invariant and out; nothing owed; no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (tcOf (X1 m)) c).loose
  hwaits := Pipeline.hwaits_of_owed_zero _ _ _ _ Lz lvz 0 fun _ _ => rfl
  pre c := iprop(StableHlo.held (c : Thread nD τ) (Pipeline.ucRefs τ sig) (X1 m c) ∗ Rz c)
  post c := iprop(StableHlo.held (c : Thread nD τ) (Pipeline.ucRefs τ sig) (X2 m c) ∗ Rz c)
  X c := iprop(∃ r, prngReg c r)
  Y c := iprop(∃ r, prngReg c r)
  Z c := Pipeline.unscopedRest (Ix := Unit) (Name := ℕ) (U := UR sig nD τ) (Lvl := ℕ) spec0 c (tcOf (X1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcOf (X1 m) c) fun w => A_eq0 (tcOf (X1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (show (Pipeline.ΦA spec0 c : sProp 𝕄) ⊢ (dat0 (tcOf (X1 m)) c).Φ 0 from .rfl)
  hout c := by
    rw [Pipeline.ownSems0_none]
    have h : (Pipeline.ΦA spec0 c : sProp 𝕄)
        ⊢ iprop(iprop(∃ r, prngReg c r) ∗ BI.emp ∗ Pipeline.scopedRest spec0 c) := by
      unfold Pipeline.ΦA
      iintro ⟨Hr, Hp⟩
      isplitl [Hp]; · iexact Hp
      isplitr; · iempintro
      iexact Hr
    exact (show (dat0 (tcOf (X1 m)) c).Φ (Fin.last cfg0.N) ⊢ (Pipeline.ΦA spec0 c : sProp 𝕄) from .rfl).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcOf (X1 m) c) (tcOf (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg1.lean ====
/-
  Region 1 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 1's exit each of its arrays holds what the pipeline leaves: an output's array by the update, an input's
    array its entry contents; window by window, -/
theorem hF1_0 (c : Dev nD) : (dat1 (tcOf (X3 m)) c).arrAt 0 cfg1.N = tcOf (X4 m) c (Pipeline.arrRef spec1 0) := by
  rw [(dat1 (tcOf (X3 m)) c).arrAt_in 0 rfl cfg1.N, A_eq1 (tcOf (X3 m)) c 0]
  show X3 m c (Proc.devRef .tc main_v2) = X4 m c (Proc.devRef .tc main_v2)
  unfold X4
  symm
  exact upd3_ne _ _ _ _ _ _ _ _ (StableHlo.devRef_ne_of_ne (by decide)) (StableHlo.devRef_ne_of_ne (by decide)) (StableHlo.devRef_ne_of_ne (by decide))
theorem hF1_1 (c : Dev nD) : (dat1 (tcOf (X3 m)) c).arrAt 1 cfg1.N = tcOf (X4 m) c (Pipeline.arrRef spec1 1) := by
  rw [(dat1 (tcOf (X3 m)) c).arrAt_in 1 rfl cfg1.N, A_eq1 (tcOf (X3 m)) c 1]
  show X3 m c (Proc.devRef .tc main_v17) = X4 m c (Proc.devRef .tc main_v17)
  unfold X4
  symm
  exact upd3_ne _ _ _ _ _ _ _ _ (StableHlo.devRef_ne_of_ne (by decide)) (StableHlo.devRef_ne_of_ne (by decide)) (StableHlo.devRef_ne_of_ne (by decide))
theorem hF1_2 (c : Dev nD) : (dat1 (tcOf (X3 m)) c).arrAt 2 cfg1.N = tcOf (X4 m) c (Pipeline.arrRef spec1 2) := by
  rw [(dat1 (tcOf (X3 m)) c).arrAt_in 2 rfl cfg1.N, A_eq1 (tcOf (X3 m)) c 2]
  show X3 m c (Proc.devRef .tc main_v25) = X4 m c (Proc.devRef .tc main_v25)
  unfold X4
  symm
  exact upd3_ne _ _ _ _ _ _ _ _ (StableHlo.devRef_ne_of_ne (by decide)) (StableHlo.devRef_ne_of_ne (by decide)) (StableHlo.devRef_ne_of_ne (by decide))
theorem hF1_3 (c : Dev nD) : (dat1 (tcOf (X3 m)) c).arrAt 3 cfg1.N = tcOf (X4 m) c (Pipeline.arrRef spec1 3) := by
  rw [(dat1 (tcOf (X3 m)) c).arrAt_in 3 rfl cfg1.N, A_eq1 (tcOf (X3 m)) c 3]
  show X3 m c (Proc.devRef .tc main_v21) = X4 m c (Proc.devRef .tc main_v21)
  unfold X4
  symm
  exact upd3_ne _ _ _ _ _ _ _ _ (StableHlo.devRef_ne_of_ne (by decide)) (StableHlo.devRef_ne_of_ne (by decide)) (StableHlo.devRef_ne_of_ne (by decide))
theorem hF1_4 (c : Dev nD) : (dat1 (tcOf (X3 m)) c).arrAt 4 cfg1.N = tcOf (X4 m) c (Pipeline.arrRef spec1 4) := by
  rw [(dat1 (tcOf (X3 m)) c).arrAt_in 4 rfl cfg1.N, A_eq1 (tcOf (X3 m)) c 4]
  show X3 m c (Proc.devRef .tc main_v26) = X4 m c (Proc.devRef .tc main_v26)
  unfold X4
  symm
  exact upd3_ne _ _ _ _ _ _ _ _ (StableHlo.devRef_ne_of_ne (by decide)) (StableHlo.devRef_ne_of_ne (by decide)) (StableHlo.devRef_ne_of_ne (by decide))
theorem hF1_5 (c : Dev nD) : (dat1 (tcOf (X3 m)) c).arrAt 5 cfg1.N = tcOf (X4 m) c (Pipeline.arrRef spec1 5) := by
  show _ = X4 m c (Proc.devRef .tc main_v27_0)
  unfold X4
  symm
  exact upd3_a _ _ _ _ _ _ _ (StableHlo.devRef_ne_of_ne (by decide)) (StableHlo.devRef_ne_of_ne (by decide))
theorem hF1_6 (c : Dev nD) : (dat1 (tcOf (X3 m)) c).arrAt 6 cfg1.N = tcOf (X4 m) c (Pipeline.arrRef spec1 6) := by
  show _ = X4 m c (Proc.devRef .tc main_v27_1)
  unfold X4
  symm
  exact upd3_b _ _ _ _ _ _ _ (StableHlo.devRef_ne_of_ne (by decide))
theorem hF1_7 (c : Dev nD) : (dat1 (tcOf (X3 m)) c).arrAt 7 cfg1.N = tcOf (X4 m) c (Pipeline.arrRef spec1 7) := by
  show _ = X4 m c (Proc.devRef .tc main_v27_2)
  unfold X4
  symm
  exact upd3_c _ _ _ _ _ _ _

/-- and for every window. -/
theorem hF1 (c : Dev nD) : ∀ w : Fin cfg1.W, (dat1 (tcOf (X3 m)) c).arrAt w cfg1.N = tcOf (X4 m) c (Pipeline.arrRef spec1 w)
  | ⟨0, h⟩ => by rw [show (⟨0, h⟩ : Fin cfg1.W) = (0 : Fin cfg1.W) from Fin.ext rfl]; exact hF1_0 m c
  | ⟨1, h⟩ => by rw [show (⟨1, h⟩ : Fin cfg1.W) = (1 : Fin cfg1.W) from Fin.ext rfl]; exact hF1_1 m c
  | ⟨2, h⟩ => by rw [show (⟨2, h⟩ : Fin cfg1.W) = (2 : Fin cfg1.W) from Fin.ext rfl]; exact hF1_2 m c
  | ⟨3, h⟩ => by rw [show (⟨3, h⟩ : Fin cfg1.W) = (3 : Fin cfg1.W) from Fin.ext rfl]; exact hF1_3 m c
  | ⟨4, h⟩ => by rw [show (⟨4, h⟩ : Fin cfg1.W) = (4 : Fin cfg1.W) from Fin.ext rfl]; exact hF1_4 m c
  | ⟨5, h⟩ => by rw [show (⟨5, h⟩ : Fin cfg1.W) = (5 : Fin cfg1.W) from Fin.ext rfl]; exact hF1_5 m c
  | ⟨6, h⟩ => by rw [show (⟨6, h⟩ : Fin cfg1.W) = (6 : Fin cfg1.W) from Fin.ext rfl]; exact hF1_6 m c
  | ⟨7, h⟩ => by rw [show (⟨7, h⟩ : Fin cfg1.W) = (7 : Fin cfg1.W) from Fin.ext rfl]; exact hF1_7 m c

/-- Every buffer that is no array of region 1 holds at its exit what it held at its entry. -/
theorem hrest1 (c : Dev nD) : ∀ b, b ∉ Finset.univ.image (Pipeline.arrRef spec1) → tcOf (X4 m) c b = tcOf (X3 m) c b :=
  fun b hb => by
    have h0 : b ≠ main_v27_0 := fun e => hb (by subst e; exact Finset.mem_image.mpr ⟨⟨5, by decide⟩, Finset.mem_univ _, rfl⟩)
    have h1 : b ≠ main_v27_1 := fun e => hb (by subst e; exact Finset.mem_image.mpr ⟨⟨6, by decide⟩, Finset.mem_univ _, rfl⟩)
    have h2 : b ≠ main_v27_2 := fun e => hb (by subst e; exact Finset.mem_image.mpr ⟨⟨7, by decide⟩, Finset.mem_univ _, rfl⟩)
    unfold X4; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 1 over the thread state: entered with every unscoped buffer at the contents before it, left with them at
    the contents after it; its arrays split out of the unscoped buffers and put back; the generator register into the
    invariant and out; nothing owed; no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (tcOf (X3 m)) c).loose
  hwaits := Pipeline.hwaits_of_owed_zero _ _ _ _ Lz lvz 1 fun _ _ => rfl
  pre c := iprop(StableHlo.held (c : Thread nD τ) (Pipeline.ucRefs τ sig) (X3 m c) ∗ Rz c)
  post c := iprop(StableHlo.held (c : Thread nD τ) (Pipeline.ucRefs τ sig) (X4 m c) ∗ Rz c)
  X c := iprop(∃ r, prngReg c r)
  Y c := iprop(∃ r, prngReg c r)
  Z c := Pipeline.unscopedRest (Ix := Unit) (Name := ℕ) (U := UR sig nD τ) (Lvl := ℕ) spec1 c (tcOf (X3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcOf (X3 m) c) fun w => A_eq1 (tcOf (X3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 (tcOf (X3 m)) c)
  hout c := by
    rw [Pipeline.ownSems0_none]
    have h : (Pipeline.ΦA spec1 c : sProp 𝕄)
        ⊢ iprop(iprop(∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (tcOf (X3 m)) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcOf (X3 m) c) (tcOf (X4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg2.lean ====
/-
  Region 2 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 2's exit each of its arrays holds what the pipeline leaves: an output's array by the update, an input's
    array its entry contents; window by window, -/
theorem hF2_0 (c : Dev nD) : (dat2 (tcOf (X5 m)) c).arrAt 0 cfg2.N = tcOf (X6 m) c (Pipeline.arrRef spec2 0) := by
  rw [(dat2 (tcOf (X5 m)) c).arrAt_in 0 rfl cfg2.N, A_eq2 (tcOf (X5 m)) c 0]
  show X5 m c (Proc.devRef .tc main_v27_0) = X6 m c (Proc.devRef .tc main_v27_0)
  unfold X6
  symm
  exact upd3_ne _ _ _ _ _ _ _ _ (StableHlo.devRef_ne_of_ne (by decide)) (StableHlo.devRef_ne_of_ne (by decide)) (StableHlo.devRef_ne_of_ne (by decide))
theorem hF2_1 (c : Dev nD) : (dat2 (tcOf (X5 m)) c).arrAt 1 cfg2.N = tcOf (X6 m) c (Pipeline.arrRef spec2 1) := by
  rw [(dat2 (tcOf (X5 m)) c).arrAt_in 1 rfl cfg2.N, A_eq2 (tcOf (X5 m)) c 1]
  show X5 m c (Proc.devRef .tc main_v27_1) = X6 m c (Proc.devRef .tc main_v27_1)
  unfold X6
  symm
  exact upd3_ne _ _ _ _ _ _ _ _ (StableHlo.devRef_ne_of_ne (by decide)) (StableHlo.devRef_ne_of_ne (by decide)) (StableHlo.devRef_ne_of_ne (by decide))
theorem hF2_2 (c : Dev nD) : (dat2 (tcOf (X5 m)) c).arrAt 2 cfg2.N = tcOf (X6 m) c (Pipeline.arrRef spec2 2) := by
  rw [(dat2 (tcOf (X5 m)) c).arrAt_in 2 rfl cfg2.N, A_eq2 (tcOf (X5 m)) c 2]
  show X5 m c (Proc.devRef .tc main_v27_2) = X6 m c (Proc.devRef .tc main_v27_2)
  unfold X6
  symm
  exact upd3_ne _ _ _ _ _ _ _ _ (StableHlo.devRef_ne_of_ne (by decide)) (StableHlo.devRef_ne_of_ne (by decide)) (StableHlo.devRef_ne_of_ne (by decide))
theorem hF2_3 (c : Dev nD) : (dat2 (tcOf (X5 m)) c).arrAt 3 cfg2.N = tcOf (X6 m) c (Pipeline.arrRef spec2 3) := by
  rw [(dat2 (tcOf (X5 m)) c).arrAt_in 3 rfl cfg2.N, A_eq2 (tcOf (X5 m)) c 3]
  show X5 m c (Proc.devRef .tc main_v36) = X6 m c (Proc.devRef .tc main_v36)
  unfold X6
  symm
  exact upd3_ne _ _ _ _ _ _ _ _ (StableHlo.devRef_ne_of_ne (by decide)) (StableHlo.devRef_ne_of_ne (by decide)) (StableHlo.devRef_ne_of_ne (by decide))
theorem hF2_4 (c : Dev nD) : (dat2 (tcOf (X5 m)) c).arrAt 4 cfg2.N = tcOf (X6 m) c (Pipeline.arrRef spec2 4) := by
  rw [(dat2 (tcOf (X5 m)) c).arrAt_in 4 rfl cfg2.N, A_eq2 (tcOf (X5 m)) c 4]
  show X5 m c (Proc.devRef .tc main_v37) = X6 m c (Proc.devRef .tc main_v37)
  unfold X6
  symm
  exact upd3_ne _ _ _ _ _ _ _ _ (StableHlo.devRef_ne_of_ne (by decide)) (StableHlo.devRef_ne_of_ne (by decide)) (StableHlo.devRef_ne_of_ne (by decide))
theorem hF2_5 (c : Dev nD) : (dat2 (tcOf (X5 m)) c).arrAt 5 cfg2.N = tcOf (X6 m) c (Pipeline.arrRef spec2 5) := by
  rw [(dat2 (tcOf (X5 m)) c).arrAt_in 5 rfl cfg2.N, A_eq2 (tcOf (X5 m)) c 5]
  show X5 m c (Proc.devRef .tc main_v33) = X6 m c (Proc.devRef .tc main_v33)
  unfold X6
  symm
  exact upd3_ne _ _ _ _ _ _ _ _ (StableHlo.devRef_ne_of_ne (by decide)) (StableHlo.devRef_ne_of_ne (by decide)) (StableHlo.devRef_ne_of_ne (by decide))
theorem hF2_6 (c : Dev nD) : (dat2 (tcOf (X5 m)) c).arrAt 6 cfg2.N = tcOf (X6 m) c (Pipeline.arrRef spec2 6) := by
  rw [(dat2 (tcOf (X5 m)) c).arrAt_in 6 rfl cfg2.N, A_eq2 (tcOf (X5 m)) c 6]
  show X5 m c (Proc.devRef .tc main_v38) = X6 m c (Proc.devRef .tc main_v38)
  unfold X6
  symm
  exact upd3_ne _ _ _ _ _ _ _ _ (StableHlo.devRef_ne_of_ne (by decide)) (StableHlo.devRef_ne_of_ne (by decide)) (StableHlo.devRef_ne_of_ne (by decide))
theorem hF2_7 (c : Dev nD) : (dat2 (tcOf (X5 m)) c).arrAt 7 cfg2.N = tcOf (X6 m) c (Pipeline.arrRef spec2 7) := by
  show _ = X6 m c (Proc.devRef .tc main_v39_0)
  unfold X6
  symm
  exact upd3_a _ _ _ _ _ _ _ (StableHlo.devRef_ne_of_ne (by decide)) (StableHlo.devRef_ne_of_ne (by decide))
theorem hF2_8 (c : Dev nD) : (dat2 (tcOf (X5 m)) c).arrAt 8 cfg2.N = tcOf (X6 m) c (Pipeline.arrRef spec2 8) := by
  show _ = X6 m c (Proc.devRef .tc main_v39_1)
  unfold X6
  symm
  exact upd3_b _ _ _ _ _ _ _ (StableHlo.devRef_ne_of_ne (by decide))
theorem hF2_9 (c : Dev nD) : (dat2 (tcOf (X5 m)) c).arrAt 9 cfg2.N = tcOf (X6 m) c (Pipeline.arrRef spec2 9) := by
  show _ = X6 m c (Proc.devRef .tc main_v39_2)
  unfold X6
  symm
  exact upd3_c _ _ _ _ _ _ _

/-- and for every window. -/
theorem hF2 (c : Dev nD) : ∀ w : Fin cfg2.W, (dat2 (tcOf (X5 m)) c).arrAt w cfg2.N = tcOf (X6 m) c (Pipeline.arrRef spec2 w)
  | ⟨0, h⟩ => by rw [show (⟨0, h⟩ : Fin cfg2.W) = (0 : Fin cfg2.W) from Fin.ext rfl]; exact hF2_0 m c
  | ⟨1, h⟩ => by rw [show (⟨1, h⟩ : Fin cfg2.W) = (1 : Fin cfg2.W) from Fin.ext rfl]; exact hF2_1 m c
  | ⟨2, h⟩ => by rw [show (⟨2, h⟩ : Fin cfg2.W) = (2 : Fin cfg2.W) from Fin.ext rfl]; exact hF2_2 m c
  | ⟨3, h⟩ => by rw [show (⟨3, h⟩ : Fin cfg2.W) = (3 : Fin cfg2.W) from Fin.ext rfl]; exact hF2_3 m c
  | ⟨4, h⟩ => by rw [show (⟨4, h⟩ : Fin cfg2.W) = (4 : Fin cfg2.W) from Fin.ext rfl]; exact hF2_4 m c
  | ⟨5, h⟩ => by rw [show (⟨5, h⟩ : Fin cfg2.W) = (5 : Fin cfg2.W) from Fin.ext rfl]; exact hF2_5 m c
  | ⟨6, h⟩ => by rw [show (⟨6, h⟩ : Fin cfg2.W) = (6 : Fin cfg2.W) from Fin.ext rfl]; exact hF2_6 m c
  | ⟨7, h⟩ => by rw [show (⟨7, h⟩ : Fin cfg2.W) = (7 : Fin cfg2.W) from Fin.ext rfl]; exact hF2_7 m c
  | ⟨8, h⟩ => by rw [show (⟨8, h⟩ : Fin cfg2.W) = (8 : Fin cfg2.W) from Fin.ext rfl]; exact hF2_8 m c
  | ⟨9, h⟩ => by rw [show (⟨9, h⟩ : Fin cfg2.W) = (9 : Fin cfg2.W) from Fin.ext rfl]; exact hF2_9 m c

/-- Every buffer that is no array of region 2 holds at its exit what it held at its entry. -/
theorem hrest2 (c : Dev nD) : ∀ b, b ∉ Finset.univ.image (Pipeline.arrRef spec2) → tcOf (X6 m) c b = tcOf (X5 m) c b :=
  fun b hb => by
    have h0 : b ≠ main_v39_0 := fun e => hb (by subst e; exact Finset.mem_image.mpr ⟨⟨7, by decide⟩, Finset.mem_univ _, rfl⟩)
    have h1 : b ≠ main_v39_1 := fun e => hb (by subst e; exact Finset.mem_image.mpr ⟨⟨8, by decide⟩, Finset.mem_univ _, rfl⟩)
    have h2 : b ≠ main_v39_2 := fun e => hb (by subst e; exact Finset.mem_image.mpr ⟨⟨9, by decide⟩, Finset.mem_univ _, rfl⟩)
    unfold X6; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 2 over the thread state: entered with every unscoped buffer at the contents before it, left with them at
    the contents after it; its arrays split out of the unscoped buffers and put back; the generator register into the
    invariant and out; nothing owed; no semaphore of the kernel's own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (tcOf (X5 m)) c).loose
  hwaits := Pipeline.hwaits_of_owed_zero _ _ _ _ Lz lvz 2 fun _ _ => rfl
  pre c := iprop(StableHlo.held (c : Thread nD τ) (Pipeline.ucRefs τ sig) (X5 m c) ∗ Rz c)
  post c := iprop(StableHlo.held (c : Thread nD τ) (Pipeline.ucRefs τ sig) (X6 m c) ∗ Rz c)
  X c := iprop(∃ r, prngReg c r)
  Y c := iprop(∃ r, prngReg c r)
  Z c := Pipeline.unscopedRest (Ix := Unit) (Name := ℕ) (U := UR sig nD τ) (Lvl := ℕ) spec2 c (tcOf (X5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcOf (X5 m) c) fun w => A_eq2 (tcOf (X5 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (hin2 (tcOf (X5 m)) c)
  hout c := by
    rw [Pipeline.ownSems0_none]
    have h : (Pipeline.ΦA spec2 c : sProp 𝕄)
        ⊢ iprop(iprop(∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (tcOf (X5 m)) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcOf (X5 m) c) (tcOf (X6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg3.lean ====
/-
  Region 3 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 3's exit each of its arrays holds what the pipeline leaves: an output's array by the update, an input's
    array its entry contents; window by window, -/
theorem hF3_0 (c : Dev nD) : (dat3 (tcOf (X7 m)) c).arrAt 0 cfg3.N = tcOf (X8 m) c (Pipeline.arrRef spec3 0) := by
  rw [(dat3 (tcOf (X7 m)) c).arrAt_in 0 rfl cfg3.N, A_eq3 (tcOf (X7 m)) c 0]
  show X7 m c (Proc.devRef .tc main_v39_0) = X8 m c (Proc.devRef .tc main_v39_0)
  unfold X8
  symm
  exact upd1_ne _ _ _ _ (StableHlo.devRef_ne_of_ne (by decide))
theorem hF3_1 (c : Dev nD) : (dat3 (tcOf (X7 m)) c).arrAt 1 cfg3.N = tcOf (X8 m) c (Pipeline.arrRef spec3 1) := by
  rw [(dat3 (tcOf (X7 m)) c).arrAt_in 1 rfl cfg3.N, A_eq3 (tcOf (X7 m)) c 1]
  show X7 m c (Proc.devRef .tc main_v39_1) = X8 m c (Proc.devRef .tc main_v39_1)
  unfold X8
  symm
  exact upd1_ne _ _ _ _ (StableHlo.devRef_ne_of_ne (by decide))
theorem hF3_2 (c : Dev nD) : (dat3 (tcOf (X7 m)) c).arrAt 2 cfg3.N = tcOf (X8 m) c (Pipeline.arrRef spec3 2) := by
  rw [(dat3 (tcOf (X7 m)) c).arrAt_in 2 rfl cfg3.N, A_eq3 (tcOf (X7 m)) c 2]
  show X7 m c (Proc.devRef .tc main_v39_2) = X8 m c (Proc.devRef .tc main_v39_2)
  unfold X8
  symm
  exact upd1_ne _ _ _ _ (StableHlo.devRef_ne_of_ne (by decide))
theorem hF3_3 (c : Dev nD) : (dat3 (tcOf (X7 m)) c).arrAt 3 cfg3.N = tcOf (X8 m) c (Pipeline.arrRef spec3 3) := by
  rw [(dat3 (tcOf (X7 m)) c).arrAt_in 3 rfl cfg3.N, A_eq3 (tcOf (X7 m)) c 3]
  show X7 m c (Proc.devRef .tc main_v44) = X8 m c (Proc.devRef .tc main_v44)
  unfold X8
  symm
  exact upd1_ne _ _ _ _ (StableHlo.devRef_ne_of_ne (by decide))
theorem hF3_4 (c : Dev nD) : (dat3 (tcOf (X7 m)) c).arrAt 4 cfg3.N = tcOf (X8 m) c (Pipeline.arrRef spec3 4) := by
  rw [(dat3 (tcOf (X7 m)) c).arrAt_in 4 rfl cfg3.N, A_eq3 (tcOf (X7 m)) c 4]
  show X7 m c (Proc.devRef .tc main_v45) = X8 m c (Proc.devRef .tc main_v45)
  unfold X8
  symm
  exact upd1_ne _ _ _ _ (StableHlo.devRef_ne_of_ne (by decide))
theorem hF3_5 (c : Dev nD) : (dat3 (tcOf (X7 m)) c).arrAt 5 cfg3.N = tcOf (X8 m) c (Pipeline.arrRef spec3 5) := by
  show _ = X8 m c (Proc.devRef .tc main_v46)
  unfold X8
  symm
  exact upd1_a _ _ _

/-- and for every window. -/
theorem hF3 (c : Dev nD) : ∀ w : Fin cfg3.W, (dat3 (tcOf (X7 m)) c).arrAt w cfg3.N = tcOf (X8 m) c (Pipeline.arrRef spec3 w)
  | ⟨0, h⟩ => by rw [show (⟨0, h⟩ : Fin cfg3.W) = (0 : Fin cfg3.W) from Fin.ext rfl]; exact hF3_0 m c
  | ⟨1, h⟩ => by rw [show (⟨1, h⟩ : Fin cfg3.W) = (1 : Fin cfg3.W) from Fin.ext rfl]; exact hF3_1 m c
  | ⟨2, h⟩ => by rw [show (⟨2, h⟩ : Fin cfg3.W) = (2 : Fin cfg3.W) from Fin.ext rfl]; exact hF3_2 m c
  | ⟨3, h⟩ => by rw [show (⟨3, h⟩ : Fin cfg3.W) = (3 : Fin cfg3.W) from Fin.ext rfl]; exact hF3_3 m c
  | ⟨4, h⟩ => by rw [show (⟨4, h⟩ : Fin cfg3.W) = (4 : Fin cfg3.W) from Fin.ext rfl]; exact hF3_4 m c
  | ⟨5, h⟩ => by rw [show (⟨5, h⟩ : Fin cfg3.W) = (5 : Fin cfg3.W) from Fin.ext rfl]; exact hF3_5 m c

/-- Every buffer that is no array of region 3 holds at its exit what it held at its entry. -/
theorem hrest3 (c : Dev nD) : ∀ b, b ∉ Finset.univ.image (Pipeline.arrRef spec3) → tcOf (X8 m) c b = tcOf (X7 m) c b :=
  fun b hb => by
    have h0 : b ≠ main_v46 := fun e => hb (by subst e; exact Finset.mem_image.mpr ⟨⟨5, by decide⟩, Finset.mem_univ _, rfl⟩)
    unfold X8; dsimp only [tcOf]
    exact upd1_ne _ _ _ _ (StableHlo.devRef_ne_of_ne h0)

set_option backward.isDefEq.respectTransparency.types false in
/-- Region 3 over the thread state: entered with every unscoped buffer at the contents before it, left with them at
    the contents after it; its arrays split out of the unscoped buffers and put back; the generator register into the
    invariant and out; nothing owed; no semaphore of the kernel's own. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (tcOf (X7 m)) c).loose
  hwaits := Pipeline.hwaits_of_owed_zero _ _ _ _ Lz lvz 3 fun _ _ => rfl
  pre c := iprop(StableHlo.held (c : Thread nD τ) (Pipeline.ucRefs τ sig) (X7 m c) ∗ Rz c)
  post c := iprop(StableHlo.held (c : Thread nD τ) (Pipeline.ucRefs τ sig) (X8 m c) ∗ Rz c)
  X c := iprop(∃ r, prngReg c r)
  Y c := iprop(∃ r, prngReg c r)
  Z c := Pipeline.unscopedRest (Ix := Unit) (Name := ℕ) (U := UR sig nD τ) (Lvl := ℕ) spec3 c (tcOf (X7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (tcOf (X7 m) c) fun w => A_eq3 (tcOf (X7 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 3).pre c (fun _ => fullShare) (adm (F := F) 3).1 ∗ Pipeline.scopedRest spec3 c)
        ⊢ (Pipeline.ΦA spec3 c : sProp 𝕄) := by
      unfold Pipeline.ΦA
      iintro ⟨Hp, -, Hr⟩
      isplitl [Hr]; · iexact Hr
      iexact Hp
    exact h.trans (show (Pipeline.ΦA spec3 c : sProp 𝕄) ⊢ (dat3 (tcOf (X7 m)) c).Φ 0 from .rfl)
  hout c := by
    rw [Pipeline.ownSems0_none]
    have h : (Pipeline.ΦA spec3 c : sProp 𝕄)
        ⊢ iprop(iprop(∃ r, prngReg c r) ∗ BI.emp ∗ Pipeline.scopedRest spec3 c) := by
      unfold Pipeline.ΦA
      iintro ⟨Hr, Hp⟩
      isplitl [Hp]; · iexact Hp
      isplitr; · iempintro
      iexact Hr
    exact (show (dat3 (tcOf (X7 m)) c).Φ (Fin.last cfg3.N) ⊢ (Pipeline.ΦA spec3 c : sProp 𝕄) from .rfl).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (tcOf (X7 m) c) (tcOf (X8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg4.lean ====
/-
  Region 4 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 4's exit each of its arrays holds what the pipeline leaves: an output's array by the update, an input's
    array its entry contents; window by window, -/
theorem hF4_0 (c : Dev nD) : (dat4 (tcOf (X9 m)) c).arrAt 0 cfg4.N = tcOf (X10 m) c (Pipeline.arrRef spec4 0) := by
  rw [(dat4 (tcOf (X9 m)) c).arrAt_in 0 rfl cfg4.N, A_eq4 (tcOf (X9 m)) c 0]
  show X9 m c (Proc.devRef .tc main_v46) = X10 m c (Proc.devRef .tc main_v46)
  unfold X10
  symm
  exact upd3_ne _ _ _ _ _ _ _ _ (StableHlo.devRef_ne_of_ne (by decide)) (StableHlo.devRef_ne_of_ne (by decide)) (StableHlo.devRef_ne_of_ne (by decide))
theorem hF4_1 (c : Dev nD) : (dat4 (tcOf (X9 m)) c).arrAt 1 cfg4.N = tcOf (X10 m) c (Pipeline.arrRef spec4 1) := by
  rw [(dat4 (tcOf (X9 m)) c).arrAt_in 1 rfl cfg4.N, A_eq4 (tcOf (X9 m)) c 1]
  show X9 m c (Proc.devRef .tc main_v56) = X10 m c (Proc.devRef .tc main_v56)
  unfold X10
  symm
  exact upd3_ne _ _ _ _ _ _ _ _ (StableHlo.devRef_ne_of_ne (by decide)) (StableHlo.devRef_ne_of_ne (by decide)) (StableHlo.devRef_ne_of_ne (by decide))
theorem hF4_2 (c : Dev nD) : (dat4 (tcOf (X9 m)) c).arrAt 2 cfg4.N = tcOf (X10 m) c (Pipeline.arrRef spec4 2) := by
  rw [(dat4 (tcOf (X9 m)) c).arrAt_in 2 rfl cfg4.N, A_eq4 (tcOf (X9 m)) c 2]
  show X9 m c (Proc.devRef .tc main_v64) = X10 m c (Proc.devRef .tc main_v64)
  unfold X10
  symm
  exact upd3_ne _ _ _ _ _ _ _ _ (StableHlo.devRef_ne_of_ne (by decide)) (StableHlo.devRef_ne_of_ne (by decide)) (StableHlo.devRef_ne_of_ne (by decide))
theorem hF4_3 (c : Dev nD) : (dat4 (tcOf (X9 m)) c).arrAt 3 cfg4.N = tcOf (X10 m) c (Pipeline.arrRef spec4 3) := by
  rw [(dat4 (tcOf (X9 m)) c).arrAt_in 3 rfl cfg4.N, A_eq4 (tcOf (X9 m)) c 3]
  show X9 m c (Proc.devRef .tc main_v60) = X10 m c (Proc.devRef .tc main_v60)
  unfold X10
  symm
  exact upd3_ne _ _ _ _ _ _ _ _ (StableHlo.devRef_ne_of_ne (by decide)) (StableHlo.devRef_ne_of_ne (by decide)) (StableHlo.devRef_ne_of_ne (by decide))
theorem hF4_4 (c : Dev nD) : (dat4 (tcOf (X9 m)) c).arrAt 4 cfg4.N = tcOf (X10 m) c (Pipeline.arrRef spec4 4) := by
  rw [(dat4 (tcOf (X9 m)) c).arrAt_in 4 rfl cfg4.N, A_eq4 (tcOf (X9 m)) c 4]
  show X9 m c (Proc.devRef .tc main_v65) = X10 m c (Proc.devRef .tc main_v65)
  unfold X10
  symm
  exact upd3_ne _ _ _ _ _ _ _ _ (StableHlo.devRef_ne_of_ne (by decide)) (StableHlo.devRef_ne_of_ne (by decide)) (StableHlo.devRef_ne_of_ne (by decide))
theorem hF4_5 (c : Dev nD) : (dat4 (tcOf (X9 m)) c).arrAt 5 cfg4.N = tcOf (X10 m) c (Pipeline.arrRef spec4 5) := by
  show _ = X10 m c (Proc.devRef .tc main_v66_0)
  unfold X10
  symm
  exact upd3_a _ _ _ _ _ _ _ (StableHlo.devRef_ne_of_ne (by decide)) (StableHlo.devRef_ne_of_ne (by decide))
theorem hF4_6 (c : Dev nD) : (dat4 (tcOf (X9 m)) c).arrAt 6 cfg4.N = tcOf (X10 m) c (Pipeline.arrRef spec4 6) := by
  show _ = X10 m c (Proc.devRef .tc main_v66_1)
  unfold X10
  symm
  exact upd3_b _ _ _ _ _ _ _ (StableHlo.devRef_ne_of_ne (by decide))
theorem hF4_7 (c : Dev nD) : (dat4 (tcOf (X9 m)) c).arrAt 7 cfg4.N = tcOf (X10 m) c (Pipeline.arrRef spec4 7) := by
  show _ = X10 m c (Proc.devRef .tc main_v66_2)
  unfold X10
  symm
  exact upd3_c _ _ _ _ _ _ _

/-- and for every window. -/
theorem hF4 (c : Dev nD) : ∀ w : Fin cfg4.W, (dat4 (tcOf (X9 m)) c).arrAt w cfg4.N = tcOf (X10 m) c (Pipeline.arrRef spec4 w)
  | ⟨0, h⟩ => by rw [show (⟨0, h⟩ : Fin cfg4.W) = (0 : Fin cfg4.W) from Fin.ext rfl]; exact hF4_0 m c
  | ⟨1, h⟩ => by rw [show (⟨1, h⟩ : Fin cfg4.W) = (1 : Fin cfg4.W) from Fin.ext rfl]; exact hF4_1 m c
  | ⟨2, h⟩ => by rw [show (⟨2, h⟩ : Fin cfg4.W) = (2 : Fin cfg4.W) from Fin.ext rfl]; exact hF4_2 m c
  | ⟨3, h⟩ => by rw [show (⟨3, h⟩ : Fin cfg4.W) = (3 : Fin cfg4.W) from Fin.ext rfl]; exact hF4_3 m c
  | ⟨4, h⟩ => by rw [show (⟨4, h⟩ : Fin cfg4.W) = (4 : Fin cfg4.W) from Fin.ext rfl]; exact hF4_4 m c
  | ⟨5, h⟩ => by rw [show (⟨5, h⟩ : Fin cfg4.W) = (5 : Fin cfg4.W) from Fin.ext rfl]; exact hF4_5 m c
  | ⟨6, h⟩ => by rw [show (⟨6, h⟩ : Fin cfg4.W) = (6 : Fin cfg4.W) from Fin.ext rfl]; exact hF4_6 m c
  | ⟨7, h⟩ => by rw [show (⟨7, h⟩ : Fin cfg4.W) = (7 : Fin cfg4.W) from Fin.ext rfl]; exact hF4_7 m c

/-- Every buffer that is no array of region 4 holds at its exit what it held at its entry. -/
theorem hrest4 (c : Dev nD) : ∀ b, b ∉ Finset.univ.image (Pipeline.arrRef spec4) → tcOf (X10 m) c b = tcOf (X9 m) c b :=
  fun b hb => by
    have h0 : b ≠ main_v66_0 := fun e => hb (by subst e; exact Finset.mem_image.mpr ⟨⟨5, by decide⟩, Finset.mem_univ _, rfl⟩)
    have h1 : b ≠ main_v66_1 := fun e => hb (by subst e; exact Finset.mem_image.mpr ⟨⟨6, by decide⟩, Finset.mem_univ _, rfl⟩)
    have h2 : b ≠ main_v66_2 := fun e => hb (by subst e; exact Finset.mem_image.mpr ⟨⟨7, by decide⟩, Finset.mem_univ _, rfl⟩)
    unfold X10; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 4 over the thread state: entered with every unscoped buffer at the contents before it, left with them at
    the contents after it; its arrays split out of the unscoped buffers and put back; the generator register into the
    invariant and out; nothing owed; no semaphore of the kernel's own. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (tcOf (X9 m)) c).loose
  hwaits := Pipeline.hwaits_of_owed_zero _ _ _ _ Lz lvz 4 fun _ _ => rfl
  pre c := iprop(StableHlo.held (c : Thread nD τ) (Pipeline.ucRefs τ sig) (X9 m c) ∗ Rz c)
  post c := iprop(StableHlo.held (c : Thread nD τ) (Pipeline.ucRefs τ sig) (X10 m c) ∗ Rz c)
  X c := iprop(∃ r, prngReg c r)
  Y c := iprop(∃ r, prngReg c r)
  Z c := Pipeline.unscopedRest (Ix := Unit) (Name := ℕ) (U := UR sig nD τ) (Lvl := ℕ) spec4 c (tcOf (X9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (tcOf (X9 m) c) fun w => A_eq4 (tcOf (X9 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 4).pre c (fun _ => fullShare) (adm (F := F) 4).1 ∗ Pipeline.scopedRest spec4 c)
        ⊢ (Pipeline.ΦA spec4 c : sProp 𝕄) := by
      unfold Pipeline.ΦA
      iintro ⟨Hp, -, Hr⟩
      isplitl [Hr]; · iexact Hr
      iexact Hp
    exact h.trans (hin4 (tcOf (X9 m)) c)
  hout c := by
    rw [Pipeline.ownSems0_none]
    have h : (Pipeline.ΦA spec4 c : sProp 𝕄)
        ⊢ iprop(iprop(∃ r, prngReg c r) ∗ BI.emp ∗ Pipeline.scopedRest spec4 c) := by
      unfold Pipeline.ΦA
      iintro ⟨Hr, Hp⟩
      isplitl [Hp]; · iexact Hp
      isplitr; · iempintro
      iexact Hr
    exact (hout4 (tcOf (X9 m)) c).trans h
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (tcOf (X9 m) c) (tcOf (X10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg5.lean ====
/-
  Region 5 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 5's exit each of its arrays holds what the pipeline leaves: an output's array by the update, an input's
    array its entry contents; window by window, -/
theorem hF5_0 (c : Dev nD) : (dat5 (tcOf (X11 m)) c).arrAt 0 cfg5.N = tcOf (X12 m) c (Pipeline.arrRef spec5 0) := by
  rw [(dat5 (tcOf (X11 m)) c).arrAt_in 0 rfl cfg5.N, A_eq5 (tcOf (X11 m)) c 0]
  show X11 m c (Proc.devRef .tc main_v66_0) = X12 m c (Proc.devRef .tc main_v66_0)
  unfold X12
  symm
  exact upd3_ne _ _ _ _ _ _ _ _ (StableHlo.devRef_ne_of_ne (by decide)) (StableHlo.devRef_ne_of_ne (by decide)) (StableHlo.devRef_ne_of_ne (by decide))
theorem hF5_1 (c : Dev nD) : (dat5 (tcOf (X11 m)) c).arrAt 1 cfg5.N = tcOf (X12 m) c (Pipeline.arrRef spec5 1) := by
  rw [(dat5 (tcOf (X11 m)) c).arrAt_in 1 rfl cfg5.N, A_eq5 (tcOf (X11 m)) c 1]
  show X11 m c (Proc.devRef .tc main_v66_1) = X12 m c (Proc.devRef .tc main_v66_1)
  unfold X12
  symm
  exact upd3_ne _ _ _ _ _ _ _ _ (StableHlo.devRef_ne_of_ne (by decide)) (StableHlo.devRef_ne_of_ne (by decide)) (StableHlo.devRef_ne_of_ne (by decide))
theorem hF5_2 (c : Dev nD) : (dat5 (tcOf (X11 m)) c).arrAt 2 cfg5.N = tcOf (X12 m) c (Pipeline.arrRef spec5 2) := by
  rw [(dat5 (tcOf (X11 m)) c).arrAt_in 2 rfl cfg5.N, A_eq5 (tcOf (X11 m)) c 2]
  show X11 m c (Proc.devRef .tc main_v66_2) = X12 m c (Proc.devRef .tc main_v66_2)
  unfold X12
  symm
  exact upd3_ne _ _ _ _ _ _ _ _ (StableHlo.devRef_ne_of_ne (by decide)) (StableHlo.devRef_ne_of_ne (by decide)) (StableHlo.devRef_ne_of_ne (by decide))
theorem hF5_3 (c : Dev nD) : (dat5 (tcOf (X11 m)) c).arrAt 3 cfg5.N = tcOf (X12 m) c (Pipeline.arrRef spec5 3) := by
  rw [(dat5 (tcOf (X11 m)) c).arrAt_in 3 rfl cfg5.N, A_eq5 (tcOf (X11 m)) c 3]
  show X11 m c (Proc.devRef .tc main_v75) = X12 m c (Proc.devRef .tc main_v75)
  unfold X12
  symm
  exact upd3_ne _ _ _ _ _ _ _ _ (StableHlo.devRef_ne_of_ne (by decide)) (StableHlo.devRef_ne_of_ne (by decide)) (StableHlo.devRef_ne_of_ne (by decide))
theorem hF5_4 (c : Dev nD) : (dat5 (tcOf (X11 m)) c).arrAt 4 cfg5.N = tcOf (X12 m) c (Pipeline.arrRef spec5 4) := by
  rw [(dat5 (tcOf (X11 m)) c).arrAt_in 4 rfl cfg5.N, A_eq5 (tcOf (X11 m)) c 4]
  show X11 m c (Proc.devRef .tc main_v76) = X12 m c (Proc.devRef .tc main_v76)
  unfold X12
  symm
  exact upd3_ne _ _ _ _ _ _ _ _ (StableHlo.devRef_ne_of_ne (by decide)) (StableHlo.devRef_ne_of_ne (by decide)) (StableHlo.devRef_ne_of_ne (by decide))
theorem hF5_5 (c : Dev nD) : (dat5 (tcOf (X11 m)) c).arrAt 5 cfg5.N = tcOf (X12 m) c (Pipeline.arrRef spec5 5) := by
  rw [(dat5 (tcOf (X11 m)) c).arrAt_in 5 rfl cfg5.N, A_eq5 (tcOf (X11 m)) c 5]
  show X11 m c (Proc.devRef .tc main_v72) = X12 m c (Proc.devRef .tc main_v72)
  unfold X12
  symm
  exact upd3_ne _ _ _ _ _ _ _ _ (StableHlo.devRef_ne_of_ne (by decide)) (StableHlo.devRef_ne_of_ne (by decide)) (StableHlo.devRef_ne_of_ne (by decide))
theorem hF5_6 (c : Dev nD) : (dat5 (tcOf (X11 m)) c).arrAt 6 cfg5.N = tcOf (X12 m) c (Pipeline.arrRef spec5 6) := by
  rw [(dat5 (tcOf (X11 m)) c).arrAt_in 6 rfl cfg5.N, A_eq5 (tcOf (X11 m)) c 6]
  show X11 m c (Proc.devRef .tc main_v77) = X12 m c (Proc.devRef .tc main_v77)
  unfold X12
  symm
  exact upd3_ne _ _ _ _ _ _ _ _ (StableHlo.devRef_ne_of_ne (by decide)) (StableHlo.devRef_ne_of_ne (by decide)) (StableHlo.devRef_ne_of_ne (by decide))
theorem hF5_7 (c : Dev nD) : (dat5 (tcOf (X11 m)) c).arrAt 7 cfg5.N = tcOf (X12 m) c (Pipeline.arrRef spec5 7) := by
  show _ = X12 m c (Proc.devRef .tc main_v78_0)
  unfold X12
  symm
  exact upd3_a _ _ _ _ _ _ _ (StableHlo.devRef_ne_of_ne (by decide)) (StableHlo.devRef_ne_of_ne (by decide))
theorem hF5_8 (c : Dev nD) : (dat5 (tcOf (X11 m)) c).arrAt 8 cfg5.N = tcOf (X12 m) c (Pipeline.arrRef spec5 8) := by
  show _ = X12 m c (Proc.devRef .tc main_v78_1)
  unfold X12
  symm
  exact upd3_b _ _ _ _ _ _ _ (StableHlo.devRef_ne_of_ne (by decide))
theorem hF5_9 (c : Dev nD) : (dat5 (tcOf (X11 m)) c).arrAt 9 cfg5.N = tcOf (X12 m) c (Pipeline.arrRef spec5 9) := by
  show _ = X12 m c (Proc.devRef .tc main_v78_2)
  unfold X12
  symm
  exact upd3_c _ _ _ _ _ _ _

/-- and for every window. -/
theorem hF5 (c : Dev nD) : ∀ w : Fin cfg5.W, (dat5 (tcOf (X11 m)) c).arrAt w cfg5.N = tcOf (X12 m) c (Pipeline.arrRef spec5 w)
  | ⟨0, h⟩ => by rw [show (⟨0, h⟩ : Fin cfg5.W) = (0 : Fin cfg5.W) from Fin.ext rfl]; exact hF5_0 m c
  | ⟨1, h⟩ => by rw [show (⟨1, h⟩ : Fin cfg5.W) = (1 : Fin cfg5.W) from Fin.ext rfl]; exact hF5_1 m c
  | ⟨2, h⟩ => by rw [show (⟨2, h⟩ : Fin cfg5.W) = (2 : Fin cfg5.W) from Fin.ext rfl]; exact hF5_2 m c
  | ⟨3, h⟩ => by rw [show (⟨3, h⟩ : Fin cfg5.W) = (3 : Fin cfg5.W) from Fin.ext rfl]; exact hF5_3 m c
  | ⟨4, h⟩ => by rw [show (⟨4, h⟩ : Fin cfg5.W) = (4 : Fin cfg5.W) from Fin.ext rfl]; exact hF5_4 m c
  | ⟨5, h⟩ => by rw [show (⟨5, h⟩ : Fin cfg5.W) = (5 : Fin cfg5.W) from Fin.ext rfl]; exact hF5_5 m c
  | ⟨6, h⟩ => by rw [show (⟨6, h⟩ : Fin cfg5.W) = (6 : Fin cfg5.W) from Fin.ext rfl]; exact hF5_6 m c
  | ⟨7, h⟩ => by rw [show (⟨7, h⟩ : Fin cfg5.W) = (7 : Fin cfg5.W) from Fin.ext rfl]; exact hF5_7 m c
  | ⟨8, h⟩ => by rw [show (⟨8, h⟩ : Fin cfg5.W) = (8 : Fin cfg5.W) from Fin.ext rfl]; exact hF5_8 m c
  | ⟨9, h⟩ => by rw [show (⟨9, h⟩ : Fin cfg5.W) = (9 : Fin cfg5.W) from Fin.ext rfl]; exact hF5_9 m c

/-- Every buffer that is no array of region 5 holds at its exit what it held at its entry. -/
theorem hrest5 (c : Dev nD) : ∀ b, b ∉ Finset.univ.image (Pipeline.arrRef spec5) → tcOf (X12 m) c b = tcOf (X11 m) c b :=
  fun b hb => by
    have h0 : b ≠ main_v78_0 := fun e => hb (by subst e; exact Finset.mem_image.mpr ⟨⟨7, by decide⟩, Finset.mem_univ _, rfl⟩)
    have h1 : b ≠ main_v78_1 := fun e => hb (by subst e; exact Finset.mem_image.mpr ⟨⟨8, by decide⟩, Finset.mem_univ _, rfl⟩)
    have h2 : b ≠ main_v78_2 := fun e => hb (by subst e; exact Finset.mem_image.mpr ⟨⟨9, by decide⟩, Finset.mem_univ _, rfl⟩)
    unfold X12; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 5 over the thread state: entered with every unscoped buffer at the contents before it, left with them at
    the contents after it; its arrays split out of the unscoped buffers and put back; the generator register into the
    invariant and out; nothing owed; no semaphore of the kernel's own. -/
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (tcOf (X11 m)) c).loose
  hwaits := Pipeline.hwaits_of_owed_zero _ _ _ _ Lz lvz 5 fun _ _ => rfl
  pre c := iprop(StableHlo.held (c : Thread nD τ) (Pipeline.ucRefs τ sig) (X11 m c) ∗ Rz c)
  post c := iprop(StableHlo.held (c : Thread nD τ) (Pipeline.ucRefs τ sig) (X12 m c) ∗ Rz c)
  X c := iprop(∃ r, prngReg c r)
  Y c := iprop(∃ r, prngReg c r)
  Z c := Pipeline.unscopedRest (Ix := Unit) (Name := ℕ) (U := UR sig nD τ) (Lvl := ℕ) spec5 c (tcOf (X11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (tcOf (X11 m) c) fun w => A_eq5 (tcOf (X11 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 5).pre c (fun _ => fullShare) (adm (F := F) 5).1 ∗ Pipeline.scopedRest spec5 c)
        ⊢ (Pipeline.ΦA spec5 c : sProp 𝕄) := by
      unfold Pipeline.ΦA
      iintro ⟨Hp, -, Hr⟩
      isplitl [Hr]; · iexact Hr
      iexact Hp
    exact h.trans (hin5 (tcOf (X11 m)) c)
  hout c := by
    rw [Pipeline.ownSems0_none]
    have h : (Pipeline.ΦA spec5 c : sProp 𝕄)
        ⊢ iprop(iprop(∃ r, prngReg c r) ∗ BI.emp ∗ Pipeline.scopedRest spec5 c) := by
      unfold Pipeline.ΦA
      iintro ⟨Hr, Hp⟩
      isplitl [Hp]; · iexact Hp
      isplitr; · iempintro
      iexact Hr
    exact (hout5 (tcOf (X11 m)) c).trans h
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (tcOf (X11 m) c) (tcOf (X12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg6.lean ====
/-
  Region 6 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 6's exit each of its arrays holds what the pipeline leaves: an output's array by the update, an input's
    array its entry contents; window by window, -/
theorem hF6_0 (c : Dev nD) : (dat6 (tcOf (X13 m)) c).arrAt 0 cfg6.N = tcOf (X14 m) c (Pipeline.arrRef spec6 0) := by
  rw [(dat6 (tcOf (X13 m)) c).arrAt_in 0 rfl cfg6.N, A_eq6 (tcOf (X13 m)) c 0]
  show X13 m c (Proc.devRef .tc main_v78_0) = X14 m c (Proc.devRef .tc main_v78_0)
  unfold X14
  symm
  exact upd1_ne _ _ _ _ (StableHlo.devRef_ne_of_ne (by decide))
theorem hF6_1 (c : Dev nD) : (dat6 (tcOf (X13 m)) c).arrAt 1 cfg6.N = tcOf (X14 m) c (Pipeline.arrRef spec6 1) := by
  rw [(dat6 (tcOf (X13 m)) c).arrAt_in 1 rfl cfg6.N, A_eq6 (tcOf (X13 m)) c 1]
  show X13 m c (Proc.devRef .tc main_v78_1) = X14 m c (Proc.devRef .tc main_v78_1)
  unfold X14
  symm
  exact upd1_ne _ _ _ _ (StableHlo.devRef_ne_of_ne (by decide))
theorem hF6_2 (c : Dev nD) : (dat6 (tcOf (X13 m)) c).arrAt 2 cfg6.N = tcOf (X14 m) c (Pipeline.arrRef spec6 2) := by
  rw [(dat6 (tcOf (X13 m)) c).arrAt_in 2 rfl cfg6.N, A_eq6 (tcOf (X13 m)) c 2]
  show X13 m c (Proc.devRef .tc main_v78_2) = X14 m c (Proc.devRef .tc main_v78_2)
  unfold X14
  symm
  exact upd1_ne _ _ _ _ (StableHlo.devRef_ne_of_ne (by decide))
theorem hF6_3 (c : Dev nD) : (dat6 (tcOf (X13 m)) c).arrAt 3 cfg6.N = tcOf (X14 m) c (Pipeline.arrRef spec6 3) := by
  rw [(dat6 (tcOf (X13 m)) c).arrAt_in 3 rfl cfg6.N, A_eq6 (tcOf (X13 m)) c 3]
  show X13 m c (Proc.devRef .tc main_v83) = X14 m c (Proc.devRef .tc main_v83)
  unfold X14
  symm
  exact upd1_ne _ _ _ _ (StableHlo.devRef_ne_of_ne (by decide))
theorem hF6_4 (c : Dev nD) : (dat6 (tcOf (X13 m)) c).arrAt 4 cfg6.N = tcOf (X14 m) c (Pipeline.arrRef spec6 4) := by
  rw [(dat6 (tcOf (X13 m)) c).arrAt_in 4 rfl cfg6.N, A_eq6 (tcOf (X13 m)) c 4]
  show X13 m c (Proc.devRef .tc main_v84) = X14 m c (Proc.devRef .tc main_v84)
  unfold X14
  symm
  exact upd1_ne _ _ _ _ (StableHlo.devRef_ne_of_ne (by decide))
theorem hF6_5 (c : Dev nD) : (dat6 (tcOf (X13 m)) c).arrAt 5 cfg6.N = tcOf (X14 m) c (Pipeline.arrRef spec6 5) := by
  show _ = X14 m c (Proc.devRef .tc main_v85)
  unfold X14
  symm
  exact upd1_a _ _ _

/-- and for every window. -/
theorem hF6 (c : Dev nD) : ∀ w : Fin cfg6.W, (dat6 (tcOf (X13 m)) c).arrAt w cfg6.N = tcOf (X14 m) c (Pipeline.arrRef spec6 w)
  | ⟨0, h⟩ => by rw [show (⟨0, h⟩ : Fin cfg6.W) = (0 : Fin cfg6.W) from Fin.ext rfl]; exact hF6_0 m c
  | ⟨1, h⟩ => by rw [show (⟨1, h⟩ : Fin cfg6.W) = (1 : Fin cfg6.W) from Fin.ext rfl]; exact hF6_1 m c
  | ⟨2, h⟩ => by rw [show (⟨2, h⟩ : Fin cfg6.W) = (2 : Fin cfg6.W) from Fin.ext rfl]; exact hF6_2 m c
  | ⟨3, h⟩ => by rw [show (⟨3, h⟩ : Fin cfg6.W) = (3 : Fin cfg6.W) from Fin.ext rfl]; exact hF6_3 m c
  | ⟨4, h⟩ => by rw [show (⟨4, h⟩ : Fin cfg6.W) = (4 : Fin cfg6.W) from Fin.ext rfl]; exact hF6_4 m c
  | ⟨5, h⟩ => by rw [show (⟨5, h⟩ : Fin cfg6.W) = (5 : Fin cfg6.W) from Fin.ext rfl]; exact hF6_5 m c

/-- Every buffer that is no array of region 6 holds at its exit what it held at its entry. -/
theorem hrest6 (c : Dev nD) : ∀ b, b ∉ Finset.univ.image (Pipeline.arrRef spec6) → tcOf (X14 m) c b = tcOf (X13 m) c b :=
  fun b hb => by
    have h0 : b ≠ main_v85 := fun e => hb (by subst e; exact Finset.mem_image.mpr ⟨⟨5, by decide⟩, Finset.mem_univ _, rfl⟩)
    unfold X14; dsimp only [tcOf]
    exact upd1_ne _ _ _ _ (StableHlo.devRef_ne_of_ne h0)

set_option backward.isDefEq.respectTransparency.types false in
/-- Region 6 over the thread state: entered with every unscoped buffer at the contents before it, left with them at
    the contents after it; its arrays split out of the unscoped buffers and put back; the generator register into the
    invariant and out; nothing owed; no semaphore of the kernel's own. -/
def reg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (tcOf (X13 m)) c).loose
  hwaits := Pipeline.hwaits_of_owed_zero _ _ _ _ Lz lvz 6 fun _ _ => rfl
  pre c := iprop(StableHlo.held (c : Thread nD τ) (Pipeline.ucRefs τ sig) (X13 m c) ∗ Rz c)
  post c := iprop(StableHlo.held (c : Thread nD τ) (Pipeline.ucRefs τ sig) (X14 m c) ∗ Rz c)
  X c := iprop(∃ r, prngReg c r)
  Y c := iprop(∃ r, prngReg c r)
  Z c := Pipeline.unscopedRest (Ix := Unit) (Name := ℕ) (U := UR sig nD τ) (Lvl := ℕ) spec6 c (tcOf (X13 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (tcOf (X13 m) c) fun w => A_eq6 (tcOf (X13 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 6).pre c (fun _ => fullShare) (adm (F := F) 6).1 ∗ Pipeline.scopedRest spec6 c)
        ⊢ (Pipeline.ΦA spec6 c : sProp 𝕄) := by
      unfold Pipeline.ΦA
      iintro ⟨Hp, -, Hr⟩
      isplitl [Hr]; · iexact Hr
      iexact Hp
    exact h.trans (show (Pipeline.ΦA spec6 c : sProp 𝕄) ⊢ (dat6 (tcOf (X13 m)) c).Φ 0 from .rfl)
  hout c := by
    rw [Pipeline.ownSems0_none]
    have h : (Pipeline.ΦA spec6 c : sProp 𝕄)
        ⊢ iprop(iprop(∃ r, prngReg c r) ∗ BI.emp ∗ Pipeline.scopedRest spec6 c) := by
      unfold Pipeline.ΦA
      iintro ⟨Hr, Hp⟩
      isplitl [Hp]; · iexact Hp
      isplitr; · iempintro
      iexact Hr
    exact (show (dat6 (tcOf (X13 m)) c).Φ (Fin.last cfg6.N) ⊢ (Pipeline.ΦA spec6 c : sProp 𝕄) from .rfl).trans h
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (tcOf (X13 m) c) (tcOf (X14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg7.lean ====
/-
  Region 7 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 7's exit each of its arrays holds what the pipeline leaves: an output's array by the update, an input's
    array its entry contents; window by window, -/
theorem hF7_0 (c : Dev nD) : (dat7 (tcOf (X15 m)) c).arrAt 0 cfg7.N = tcOf (X16 m) c (Pipeline.arrRef spec7 0) := by
  rw [(dat7 (tcOf (X15 m)) c).arrAt_in 0 rfl cfg7.N, A_eq7 (tcOf (X15 m)) c 0]
  show X15 m c (Proc.devRef .tc main_v85) = X16 m c (Proc.devRef .tc main_v85)
  unfold X16
  symm
  exact upd3_ne _ _ _ _ _ _ _ _ (StableHlo.devRef_ne_of_ne (by decide)) (StableHlo.devRef_ne_of_ne (by decide)) (StableHlo.devRef_ne_of_ne (by decide))
theorem hF7_1 (c : Dev nD) : (dat7 (tcOf (X15 m)) c).arrAt 1 cfg7.N = tcOf (X16 m) c (Pipeline.arrRef spec7 1) := by
  rw [(dat7 (tcOf (X15 m)) c).arrAt_in 1 rfl cfg7.N, A_eq7 (tcOf (X15 m)) c 1]
  show X15 m c (Proc.devRef .tc main_v95) = X16 m c (Proc.devRef .tc main_v95)
  unfold X16
  symm
  exact upd3_ne _ _ _ _ _ _ _ _ (StableHlo.devRef_ne_of_ne (by decide)) (StableHlo.devRef_ne_of_ne (by decide)) (StableHlo.devRef_ne_of_ne (by decide))
theorem hF7_2 (c : Dev nD) : (dat7 (tcOf (X15 m)) c).arrAt 2 cfg7.N = tcOf (X16 m) c (Pipeline.arrRef spec7 2) := by
  rw [(dat7 (tcOf (X15 m)) c).arrAt_in 2 rfl cfg7.N, A_eq7 (tcOf (X15 m)) c 2]
  show X15 m c (Proc.devRef .tc main_v103) = X16 m c (Proc.devRef .tc main_v103)
  unfold X16
  symm
  exact upd3_ne _ _ _ _ _ _ _ _ (StableHlo.devRef_ne_of_ne (by decide)) (StableHlo.devRef_ne_of_ne (by decide)) (StableHlo.devRef_ne_of_ne (by decide))
theorem hF7_3 (c : Dev nD) : (dat7 (tcOf (X15 m)) c).arrAt 3 cfg7.N = tcOf (X16 m) c (Pipeline.arrRef spec7 3) := by
  rw [(dat7 (tcOf (X15 m)) c).arrAt_in 3 rfl cfg7.N, A_eq7 (tcOf (X15 m)) c 3]
  show X15 m c (Proc.devRef .tc main_v99) = X16 m c (Proc.devRef .tc main_v99)
  unfold X16
  symm
  exact upd3_ne _ _ _ _ _ _ _ _ (StableHlo.devRef_ne_of_ne (by decide)) (StableHlo.devRef_ne_of_ne (by decide)) (StableHlo.devRef_ne_of_ne (by decide))
theorem hF7_4 (c : Dev nD) : (dat7 (tcOf (X15 m)) c).arrAt 4 cfg7.N = tcOf (X16 m) c (Pipeline.arrRef spec7 4) := by
  rw [(dat7 (tcOf (X15 m)) c).arrAt_in 4 rfl cfg7.N, A_eq7 (tcOf (X15 m)) c 4]
  show X15 m c (Proc.devRef .tc main_v104) = X16 m c (Proc.devRef .tc main_v104)
  unfold X16
  symm
  exact upd3_ne _ _ _ _ _ _ _ _ (StableHlo.devRef_ne_of_ne (by decide)) (StableHlo.devRef_ne_of_ne (by decide)) (StableHlo.devRef_ne_of_ne (by decide))
theorem hF7_5 (c : Dev nD) : (dat7 (tcOf (X15 m)) c).arrAt 5 cfg7.N = tcOf (X16 m) c (Pipeline.arrRef spec7 5) := by
  show _ = X16 m c (Proc.devRef .tc main_v105_0)
  unfold X16
  symm
  exact upd3_a _ _ _ _ _ _ _ (StableHlo.devRef_ne_of_ne (by decide)) (StableHlo.devRef_ne_of_ne (by decide))
theorem hF7_6 (c : Dev nD) : (dat7 (tcOf (X15 m)) c).arrAt 6 cfg7.N = tcOf (X16 m) c (Pipeline.arrRef spec7 6) := by
  show _ = X16 m c (Proc.devRef .tc main_v105_1)
  unfold X16
  symm
  exact upd3_b _ _ _ _ _ _ _ (StableHlo.devRef_ne_of_ne (by decide))
theorem hF7_7 (c : Dev nD) : (dat7 (tcOf (X15 m)) c).arrAt 7 cfg7.N = tcOf (X16 m) c (Pipeline.arrRef spec7 7) := by
  show _ = X16 m c (Proc.devRef .tc main_v105_2)
  unfold X16
  symm
  exact upd3_c _ _ _ _ _ _ _

/-- and for every window. -/
theorem hF7 (c : Dev nD) : ∀ w : Fin cfg7.W, (dat7 (tcOf (X15 m)) c).arrAt w cfg7.N = tcOf (X16 m) c (Pipeline.arrRef spec7 w)
  | ⟨0, h⟩ => by rw [show (⟨0, h⟩ : Fin cfg7.W) = (0 : Fin cfg7.W) from Fin.ext rfl]; exact hF7_0 m c
  | ⟨1, h⟩ => by rw [show (⟨1, h⟩ : Fin cfg7.W) = (1 : Fin cfg7.W) from Fin.ext rfl]; exact hF7_1 m c
  | ⟨2, h⟩ => by rw [show (⟨2, h⟩ : Fin cfg7.W) = (2 : Fin cfg7.W) from Fin.ext rfl]; exact hF7_2 m c
  | ⟨3, h⟩ => by rw [show (⟨3, h⟩ : Fin cfg7.W) = (3 : Fin cfg7.W) from Fin.ext rfl]; exact hF7_3 m c
  | ⟨4, h⟩ => by rw [show (⟨4, h⟩ : Fin cfg7.W) = (4 : Fin cfg7.W) from Fin.ext rfl]; exact hF7_4 m c
  | ⟨5, h⟩ => by rw [show (⟨5, h⟩ : Fin cfg7.W) = (5 : Fin cfg7.W) from Fin.ext rfl]; exact hF7_5 m c
  | ⟨6, h⟩ => by rw [show (⟨6, h⟩ : Fin cfg7.W) = (6 : Fin cfg7.W) from Fin.ext rfl]; exact hF7_6 m c
  | ⟨7, h⟩ => by rw [show (⟨7, h⟩ : Fin cfg7.W) = (7 : Fin cfg7.W) from Fin.ext rfl]; exact hF7_7 m c

/-- Every buffer that is no array of region 7 holds at its exit what it held at its entry. -/
theorem hrest7 (c : Dev nD) : ∀ b, b ∉ Finset.univ.image (Pipeline.arrRef spec7) → tcOf (X16 m) c b = tcOf (X15 m) c b :=
  fun b hb => by
    have h0 : b ≠ main_v105_0 := fun e => hb (by subst e; exact Finset.mem_image.mpr ⟨⟨5, by decide⟩, Finset.mem_univ _, rfl⟩)
    have h1 : b ≠ main_v105_1 := fun e => hb (by subst e; exact Finset.mem_image.mpr ⟨⟨6, by decide⟩, Finset.mem_univ _, rfl⟩)
    have h2 : b ≠ main_v105_2 := fun e => hb (by subst e; exact Finset.mem_image.mpr ⟨⟨7, by decide⟩, Finset.mem_univ _, rfl⟩)
    unfold X16; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 7 over the thread state: entered with every unscoped buffer at the contents before it, left with them at
    the contents after it; its arrays split out of the unscoped buffers and put back; the generator register into the
    invariant and out; nothing owed; no semaphore of the kernel's own. -/
def reg7 : Pipeline.RegionSeg (pcfgs (F := F)) adm (pdats m) () defs₀ Variants.none Lz lvz 7 where
  win := launch7.win.to₀
  block_pos := launch7.block_pos
  stage_whole := launch7.stage_whole
  K := PEmpty
  osem k := k.elim
  ho := Pipeline.OwnSemFacts.none _
  hbody c := (body_obligation7 (tcOf (X15 m)) c).loose
  hwaits := Pipeline.hwaits_of_owed_zero _ _ _ _ Lz lvz 7 fun _ _ => rfl
  pre c := iprop(StableHlo.held (c : Thread nD τ) (Pipeline.ucRefs τ sig) (X15 m c) ∗ Rz c)
  post c := iprop(StableHlo.held (c : Thread nD τ) (Pipeline.ucRefs τ sig) (X16 m c) ∗ Rz c)
  X c := iprop(∃ r, prngReg c r)
  Y c := iprop(∃ r, prngReg c r)
  Z c := Pipeline.unscopedRest (Ix := Unit) (Name := ℕ) (U := UR sig nD τ) (Lvl := ℕ) spec7 c (tcOf (X15 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (tcOf (X15 m) c) fun w => A_eq7 (tcOf (X15 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 7).pre c (fun _ => fullShare) (adm (F := F) 7).1 ∗ Pipeline.scopedRest spec7 c)
        ⊢ (Pipeline.ΦA spec7 c : sProp 𝕄) := by
      unfold Pipeline.ΦA
      iintro ⟨Hp, -, Hr⟩
      isplitl [Hr]; · iexact Hr
      iexact Hp
    exact h.trans (hin7 (tcOf (X15 m)) c)
  hout c := by
    rw [Pipeline.ownSems0_none]
    have h : (Pipeline.ΦA spec7 c : sProp 𝕄)
        ⊢ iprop(iprop(∃ r, prngReg c r) ∗ BI.emp ∗ Pipeline.scopedRest spec7 c) := by
      unfold Pipeline.ΦA
      iintro ⟨Hr, Hp⟩
      isplitl [Hp]; · iexact Hp
      isplitr; · iempintro
      iexact Hr
    exact (hout7 (tcOf (X15 m)) c).trans h
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (tcOf (X15 m) c) (tcOf (X16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg8.lean ====
/-
  Region 8 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 8's exit each of its arrays holds what the pipeline leaves: an output's array by the update, an input's
    array its entry contents; window by window, -/
theorem hF8_0 (c : Dev nD) : (dat8 (tcOf (X17 m)) c).arrAt 0 cfg8.N = tcOf (X18 m) c (Pipeline.arrRef spec8 0) := by
  rw [(dat8 (tcOf (X17 m)) c).arrAt_in 0 rfl cfg8.N, A_eq8 (tcOf (X17 m)) c 0]
  show X17 m c (Proc.devRef .tc main_v105_0) = X18 m c (Proc.devRef .tc main_v105_0)
  unfold X18
  symm
  exact upd3_ne _ _ _ _ _ _ _ _ (StableHlo.devRef_ne_of_ne (by decide)) (StableHlo.devRef_ne_of_ne (by decide)) (StableHlo.devRef_ne_of_ne (by decide))
theorem hF8_1 (c : Dev nD) : (dat8 (tcOf (X17 m)) c).arrAt 1 cfg8.N = tcOf (X18 m) c (Pipeline.arrRef spec8 1) := by
  rw [(dat8 (tcOf (X17 m)) c).arrAt_in 1 rfl cfg8.N, A_eq8 (tcOf (X17 m)) c 1]
  show X17 m c (Proc.devRef .tc main_v105_1) = X18 m c (Proc.devRef .tc main_v105_1)
  unfold X18
  symm
  exact upd3_ne _ _ _ _ _ _ _ _ (StableHlo.devRef_ne_of_ne (by decide)) (StableHlo.devRef_ne_of_ne (by decide)) (StableHlo.devRef_ne_of_ne (by decide))
theorem hF8_2 (c : Dev nD) : (dat8 (tcOf (X17 m)) c).arrAt 2 cfg8.N = tcOf (X18 m) c (Pipeline.arrRef spec8 2) := by
  rw [(dat8 (tcOf (X17 m)) c).arrAt_in 2 rfl cfg8.N, A_eq8 (tcOf (X17 m)) c 2]
  show X17 m c (Proc.devRef .tc main_v105_2) = X18 m c (Proc.devRef .tc main_v105_2)
  unfold X18
  symm
  exact upd3_ne _ _ _ _ _ _ _ _ (StableHlo.devRef_ne_of_ne (by decide)) (StableHlo.devRef_ne_of_ne (by decide)) (StableHlo.devRef_ne_of_ne (by decide))
theorem hF8_3 (c : Dev nD) : (dat8 (tcOf (X17 m)) c).arrAt 3 cfg8.N = tcOf (X18 m) c (Pipeline.arrRef spec8 3) := by
  rw [(dat8 (tcOf (X17 m)) c).arrAt_in 3 rfl cfg8.N, A_eq8 (tcOf (X17 m)) c 3]
  show X17 m c (Proc.devRef .tc main_v114) = X18 m c (Proc.devRef .tc main_v114)
  unfold X18
  symm
  exact upd3_ne _ _ _ _ _ _ _ _ (StableHlo.devRef_ne_of_ne (by decide)) (StableHlo.devRef_ne_of_ne (by decide)) (StableHlo.devRef_ne_of_ne (by decide))
theorem hF8_4 (c : Dev nD) : (dat8 (tcOf (X17 m)) c).arrAt 4 cfg8.N = tcOf (X18 m) c (Pipeline.arrRef spec8 4) := by
  rw [(dat8 (tcOf (X17 m)) c).arrAt_in 4 rfl cfg8.N, A_eq8 (tcOf (X17 m)) c 4]
  show X17 m c (Proc.devRef .tc main_v115) = X18 m c (Proc.devRef .tc main_v115)
  unfold X18
  symm
  exact upd3_ne _ _ _ _ _ _ _ _ (StableHlo.devRef_ne_of_ne (by decide)) (StableHlo.devRef_ne_of_ne (by decide)) (StableHlo.devRef_ne_of_ne (by decide))
theorem hF8_5 (c : Dev nD) : (dat8 (tcOf (X17 m)) c).arrAt 5 cfg8.N = tcOf (X18 m) c (Pipeline.arrRef spec8 5) := by
  rw [(dat8 (tcOf (X17 m)) c).arrAt_in 5 rfl cfg8.N, A_eq8 (tcOf (X17 m)) c 5]
  show X17 m c (Proc.devRef .tc main_v111) = X18 m c (Proc.devRef .tc main_v111)
  unfold X18
  symm
  exact upd3_ne _ _ _ _ _ _ _ _ (StableHlo.devRef_ne_of_ne (by decide)) (StableHlo.devRef_ne_of_ne (by decide)) (StableHlo.devRef_ne_of_ne (by decide))
theorem hF8_6 (c : Dev nD) : (dat8 (tcOf (X17 m)) c).arrAt 6 cfg8.N = tcOf (X18 m) c (Pipeline.arrRef spec8 6) := by
  rw [(dat8 (tcOf (X17 m)) c).arrAt_in 6 rfl cfg8.N, A_eq8 (tcOf (X17 m)) c 6]
  show X17 m c (Proc.devRef .tc main_v116) = X18 m c (Proc.devRef .tc main_v116)
  unfold X18
  symm
  exact upd3_ne _ _ _ _ _ _ _ _ (StableHlo.devRef_ne_of_ne (by decide)) (StableHlo.devRef_ne_of_ne (by decide)) (StableHlo.devRef_ne_of_ne (by decide))
theorem hF8_7 (c : Dev nD) : (dat8 (tcOf (X17 m)) c).arrAt 7 cfg8.N = tcOf (X18 m) c (Pipeline.arrRef spec8 7) := by
  show _ = X18 m c (Proc.devRef .tc main_v117_0)
  unfold X18
  symm
  exact upd3_a _ _ _ _ _ _ _ (StableHlo.devRef_ne_of_ne (by decide)) (StableHlo.devRef_ne_of_ne (by decide))
theorem hF8_8 (c : Dev nD) : (dat8 (tcOf (X17 m)) c).arrAt 8 cfg8.N = tcOf (X18 m) c (Pipeline.arrRef spec8 8) := by
  show _ = X18 m c (Proc.devRef .tc main_v117_1)
  unfold X18
  symm
  exact upd3_b _ _ _ _ _ _ _ (StableHlo.devRef_ne_of_ne (by decide))
theorem hF8_9 (c : Dev nD) : (dat8 (tcOf (X17 m)) c).arrAt 9 cfg8.N = tcOf (X18 m) c (Pipeline.arrRef spec8 9) := by
  show _ = X18 m c (Proc.devRef .tc main_v117_2)
  unfold X18
  symm
  exact upd3_c _ _ _ _ _ _ _

/-- and for every window. -/
theorem hF8 (c : Dev nD) : ∀ w : Fin cfg8.W, (dat8 (tcOf (X17 m)) c).arrAt w cfg8.N = tcOf (X18 m) c (Pipeline.arrRef spec8 w)
  | ⟨0, h⟩ => by rw [show (⟨0, h⟩ : Fin cfg8.W) = (0 : Fin cfg8.W) from Fin.ext rfl]; exact hF8_0 m c
  | ⟨1, h⟩ => by rw [show (⟨1, h⟩ : Fin cfg8.W) = (1 : Fin cfg8.W) from Fin.ext rfl]; exact hF8_1 m c
  | ⟨2, h⟩ => by rw [show (⟨2, h⟩ : Fin cfg8.W) = (2 : Fin cfg8.W) from Fin.ext rfl]; exact hF8_2 m c
  | ⟨3, h⟩ => by rw [show (⟨3, h⟩ : Fin cfg8.W) = (3 : Fin cfg8.W) from Fin.ext rfl]; exact hF8_3 m c
  | ⟨4, h⟩ => by rw [show (⟨4, h⟩ : Fin cfg8.W) = (4 : Fin cfg8.W) from Fin.ext rfl]; exact hF8_4 m c
  | ⟨5, h⟩ => by rw [show (⟨5, h⟩ : Fin cfg8.W) = (5 : Fin cfg8.W) from Fin.ext rfl]; exact hF8_5 m c
  | ⟨6, h⟩ => by rw [show (⟨6, h⟩ : Fin cfg8.W) = (6 : Fin cfg8.W) from Fin.ext rfl]; exact hF8_6 m c
  | ⟨7, h⟩ => by rw [show (⟨7, h⟩ : Fin cfg8.W) = (7 : Fin cfg8.W) from Fin.ext rfl]; exact hF8_7 m c
  | ⟨8, h⟩ => by rw [show (⟨8, h⟩ : Fin cfg8.W) = (8 : Fin cfg8.W) from Fin.ext rfl]; exact hF8_8 m c
  | ⟨9, h⟩ => by rw [show (⟨9, h⟩ : Fin cfg8.W) = (9 : Fin cfg8.W) from Fin.ext rfl]; exact hF8_9 m c

/-- Every buffer that is no array of region 8 holds at its exit what it held at its entry. -/
theorem hrest8 (c : Dev nD) : ∀ b, b ∉ Finset.univ.image (Pipeline.arrRef spec8) → tcOf (X18 m) c b = tcOf (X17 m) c b :=
  fun b hb => by
    have h0 : b ≠ main_v117_0 := fun e => hb (by subst e; exact Finset.mem_image.mpr ⟨⟨7, by decide⟩, Finset.mem_univ _, rfl⟩)
    have h1 : b ≠ main_v117_1 := fun e => hb (by subst e; exact Finset.mem_image.mpr ⟨⟨8, by decide⟩, Finset.mem_univ _, rfl⟩)
    have h2 : b ≠ main_v117_2 := fun e => hb (by subst e; exact Finset.mem_image.mpr ⟨⟨9, by decide⟩, Finset.mem_univ _, rfl⟩)
    unfold X18; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 8 over the thread state: entered with every unscoped buffer at the contents before it, left with them at
    the contents after it; its arrays split out of the unscoped buffers and put back; the generator register into the
    invariant and out; nothing owed; no semaphore of the kernel's own. -/
def reg8 : Pipeline.RegionSeg (pcfgs (F := F)) adm (pdats m) () defs₀ Variants.none Lz lvz 8 where
  win := launch8.win.to₀
  block_pos := launch8.block_pos
  stage_whole := launch8.stage_whole
  K := PEmpty
  osem k := k.elim
  ho := Pipeline.OwnSemFacts.none _
  hbody c := (body_obligation8 (tcOf (X17 m)) c).loose
  hwaits := Pipeline.hwaits_of_owed_zero _ _ _ _ Lz lvz 8 fun _ _ => rfl
  pre c := iprop(StableHlo.held (c : Thread nD τ) (Pipeline.ucRefs τ sig) (X17 m c) ∗ Rz c)
  post c := iprop(StableHlo.held (c : Thread nD τ) (Pipeline.ucRefs τ sig) (X18 m c) ∗ Rz c)
  X c := iprop(∃ r, prngReg c r)
  Y c := iprop(∃ r, prngReg c r)
  Z c := Pipeline.unscopedRest (Ix := Unit) (Name := ℕ) (U := UR sig nD τ) (Lvl := ℕ) spec8 c (tcOf (X17 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (tcOf (X17 m) c) fun w => A_eq8 (tcOf (X17 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 8).pre c (fun _ => fullShare) (adm (F := F) 8).1 ∗ Pipeline.scopedRest spec8 c)
        ⊢ (Pipeline.ΦA spec8 c : sProp 𝕄) := by
      unfold Pipeline.ΦA
      iintro ⟨Hp, -, Hr⟩
      isplitl [Hr]; · iexact Hr
      iexact Hp
    exact h.trans (hin8 (tcOf (X17 m)) c)
  hout c := by
    rw [Pipeline.ownSems0_none]
    have h : (Pipeline.ΦA spec8 c : sProp 𝕄)
        ⊢ iprop(iprop(∃ r, prngReg c r) ∗ BI.emp ∗ Pipeline.scopedRest spec8 c) := by
      unfold Pipeline.ΦA
      iintro ⟨Hr, Hp⟩
      isplitl [Hp]; · iexact Hp
      isplitr; · iempintro
      iexact Hr
    exact (hout8 (tcOf (X17 m)) c).trans h
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (tcOf (X17 m) c) (tcOf (X18 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg9.lean ====
/-
  Region 9 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 9's exit each of its arrays holds what the pipeline leaves: an output's array by the update, an input's
    array its entry contents; window by window, -/
theorem hF9_0 (c : Dev nD) : (dat9 (tcOf (X19 m)) c).arrAt 0 cfg9.N = tcOf (X20 m) c (Pipeline.arrRef spec9 0) := by
  rw [(dat9 (tcOf (X19 m)) c).arrAt_in 0 rfl cfg9.N, A_eq9 (tcOf (X19 m)) c 0]
  show X19 m c (Proc.devRef .tc main_v117_0) = X20 m c (Proc.devRef .tc main_v117_0)
  unfold X20
  symm
  exact upd1_ne _ _ _ _ (StableHlo.devRef_ne_of_ne (by decide))
theorem hF9_1 (c : Dev nD) : (dat9 (tcOf (X19 m)) c).arrAt 1 cfg9.N = tcOf (X20 m) c (Pipeline.arrRef spec9 1) := by
  rw [(dat9 (tcOf (X19 m)) c).arrAt_in 1 rfl cfg9.N, A_eq9 (tcOf (X19 m)) c 1]
  show X19 m c (Proc.devRef .tc main_v117_1) = X20 m c (Proc.devRef .tc main_v117_1)
  unfold X20
  symm
  exact upd1_ne _ _ _ _ (StableHlo.devRef_ne_of_ne (by decide))
theorem hF9_2 (c : Dev nD) : (dat9 (tcOf (X19 m)) c).arrAt 2 cfg9.N = tcOf (X20 m) c (Pipeline.arrRef spec9 2) := by
  rw [(dat9 (tcOf (X19 m)) c).arrAt_in 2 rfl cfg9.N, A_eq9 (tcOf (X19 m)) c 2]
  show X19 m c (Proc.devRef .tc main_v117_2) = X20 m c (Proc.devRef .tc main_v117_2)
  unfold X20
  symm
  exact upd1_ne _ _ _ _ (StableHlo.devRef_ne_of_ne (by decide))
theorem hF9_3 (c : Dev nD) : (dat9 (tcOf (X19 m)) c).arrAt 3 cfg9.N = tcOf (X20 m) c (Pipeline.arrRef spec9 3) := by
  rw [(dat9 (tcOf (X19 m)) c).arrAt_in 3 rfl cfg9.N, A_eq9 (tcOf (X19 m)) c 3]
  show X19 m c (Proc.devRef .tc main_v122) = X20 m c (Proc.devRef .tc main_v122)
  unfold X20
  symm
  exact upd1_ne _ _ _ _ (StableHlo.devRef_ne_of_ne (by decide))
theorem hF9_4 (c : Dev nD) : (dat9 (tcOf (X19 m)) c).arrAt 4 cfg9.N = tcOf (X20 m) c (Pipeline.arrRef spec9 4) := by
  rw [(dat9 (tcOf (X19 m)) c).arrAt_in 4 rfl cfg9.N, A_eq9 (tcOf (X19 m)) c 4]
  show X19 m c (Proc.devRef .tc main_v123) = X20 m c (Proc.devRef .tc main_v123)
  unfold X20
  symm
  exact upd1_ne _ _ _ _ (StableHlo.devRef_ne_of_ne (by decide))
theorem hF9_5 (c : Dev nD) : (dat9 (tcOf (X19 m)) c).arrAt 5 cfg9.N = tcOf (X20 m) c (Pipeline.arrRef spec9 5) := by
  show _ = X20 m c (Proc.devRef .tc main_v124)
  unfold X20
  symm
  exact upd1_a _ _ _

/-- and for every window. -/
theorem hF9 (c : Dev nD) : ∀ w : Fin cfg9.W, (dat9 (tcOf (X19 m)) c).arrAt w cfg9.N = tcOf (X20 m) c (Pipeline.arrRef spec9 w)
  | ⟨0, h⟩ => by rw [show (⟨0, h⟩ : Fin cfg9.W) = (0 : Fin cfg9.W) from Fin.ext rfl]; exact hF9_0 m c
  | ⟨1, h⟩ => by rw [show (⟨1, h⟩ : Fin cfg9.W) = (1 : Fin cfg9.W) from Fin.ext rfl]; exact hF9_1 m c
  | ⟨2, h⟩ => by rw [show (⟨2, h⟩ : Fin cfg9.W) = (2 : Fin cfg9.W) from Fin.ext rfl]; exact hF9_2 m c
  | ⟨3, h⟩ => by rw [show (⟨3, h⟩ : Fin cfg9.W) = (3 : Fin cfg9.W) from Fin.ext rfl]; exact hF9_3 m c
  | ⟨4, h⟩ => by rw [show (⟨4, h⟩ : Fin cfg9.W) = (4 : Fin cfg9.W) from Fin.ext rfl]; exact hF9_4 m c
  | ⟨5, h⟩ => by rw [show (⟨5, h⟩ : Fin cfg9.W) = (5 : Fin cfg9.W) from Fin.ext rfl]; exact hF9_5 m c

/-- Every buffer that is no array of region 9 holds at its exit what it held at its entry. -/
theorem hrest9 (c : Dev nD) : ∀ b, b ∉ Finset.univ.image (Pipeline.arrRef spec9) → tcOf (X20 m) c b = tcOf (X19 m) c b :=
  fun b hb => by
    have h0 : b ≠ main_v124 := fun e => hb (by subst e; exact Finset.mem_image.mpr ⟨⟨5, by decide⟩, Finset.mem_univ _, rfl⟩)
    unfold X20; dsimp only [tcOf]
    exact upd1_ne _ _ _ _ (StableHlo.devRef_ne_of_ne h0)

set_option backward.isDefEq.respectTransparency.types false in
/-- Region 9 over the thread state: entered with every unscoped buffer at the contents before it, left with them at
    the contents after it; its arrays split out of the unscoped buffers and put back; the generator register into the
    invariant and out; nothing owed; no semaphore of the kernel's own. -/
def reg9 : Pipeline.RegionSeg (pcfgs (F := F)) adm (pdats m) () defs₀ Variants.none Lz lvz 9 where
  win := launch9.win.to₀
  block_pos := launch9.block_pos
  stage_whole := launch9.stage_whole
  K := PEmpty
  osem k := k.elim
  ho := Pipeline.OwnSemFacts.none _
  hbody c := (body_obligation9 (tcOf (X19 m)) c).loose
  hwaits := Pipeline.hwaits_of_owed_zero _ _ _ _ Lz lvz 9 fun _ _ => rfl
  pre c := iprop(StableHlo.held (c : Thread nD τ) (Pipeline.ucRefs τ sig) (X19 m c) ∗ Rz c)
  post c := iprop(StableHlo.held (c : Thread nD τ) (Pipeline.ucRefs τ sig) (X20 m c) ∗ Rz c)
  X c := iprop(∃ r, prngReg c r)
  Y c := iprop(∃ r, prngReg c r)
  Z c := Pipeline.unscopedRest (Ix := Unit) (Name := ℕ) (U := UR sig nD τ) (Lvl := ℕ) spec9 c (tcOf (X19 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (tcOf (X19 m) c) fun w => A_eq9 (tcOf (X19 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 9).pre c (fun _ => fullShare) (adm (F := F) 9).1 ∗ Pipeline.scopedRest spec9 c)
        ⊢ (Pipeline.ΦA spec9 c : sProp 𝕄) := by
      unfold Pipeline.ΦA
      iintro ⟨Hp, -, Hr⟩
      isplitl [Hr]; · iexact Hr
      iexact Hp
    exact h.trans (show (Pipeline.ΦA spec9 c : sProp 𝕄) ⊢ (dat9 (tcOf (X19 m)) c).Φ 0 from .rfl)
  hout c := by
    rw [Pipeline.ownSems0_none]
    have h : (Pipeline.ΦA spec9 c : sProp 𝕄)
        ⊢ iprop(iprop(∃ r, prngReg c r) ∗ BI.emp ∗ Pipeline.scopedRest spec9 c) := by
      unfold Pipeline.ΦA
      iintro ⟨Hr, Hp⟩
      isplitl [Hp]; · iexact Hp
      isplitr; · iempintro
      iexact Hr
    exact (show (dat9 (tcOf (X19 m)) c).Φ (Fin.last cfg9.N) ⊢ (Pipeline.ΦA spec9 c : sProp 𝕄) from .rfl).trans h
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (tcOf (X19 m) c) (tcOf (X20 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg10.lean ====
/-
  Region 10 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 10's exit each of its arrays holds what the pipeline leaves: an output's array by the update, an input's
    array its entry contents; window by window, -/
theorem hF10_0 (c : Dev nD) : (dat10 (tcOf (X21 m)) c).arrAt 0 cfg10.N = tcOf (X22 m) c (Pipeline.arrRef spec10 0) := by
  rw [(dat10 (tcOf (X21 m)) c).arrAt_in 0 rfl cfg10.N, A_eq10 (tcOf (X21 m)) c 0]
  show X21 m c (Proc.devRef .tc main_v124) = X22 m c (Proc.devRef .tc main_v124)
  unfold X22
  symm
  exact upd3_ne _ _ _ _ _ _ _ _ (StableHlo.devRef_ne_of_ne (by decide)) (StableHlo.devRef_ne_of_ne (by decide)) (StableHlo.devRef_ne_of_ne (by decide))
theorem hF10_1 (c : Dev nD) : (dat10 (tcOf (X21 m)) c).arrAt 1 cfg10.N = tcOf (X22 m) c (Pipeline.arrRef spec10 1) := by
  rw [(dat10 (tcOf (X21 m)) c).arrAt_in 1 rfl cfg10.N, A_eq10 (tcOf (X21 m)) c 1]
  show X21 m c (Proc.devRef .tc main_v134) = X22 m c (Proc.devRef .tc main_v134)
  unfold X22
  symm
  exact upd3_ne _ _ _ _ _ _ _ _ (StableHlo.devRef_ne_of_ne (by decide)) (StableHlo.devRef_ne_of_ne (by decide)) (StableHlo.devRef_ne_of_ne (by decide))
theorem hF10_2 (c : Dev nD) : (dat10 (tcOf (X21 m)) c).arrAt 2 cfg10.N = tcOf (X22 m) c (Pipeline.arrRef spec10 2) := by
  rw [(dat10 (tcOf (X21 m)) c).arrAt_in 2 rfl cfg10.N, A_eq10 (tcOf (X21 m)) c 2]
  show X21 m c (Proc.devRef .tc main_v142) = X22 m c (Proc.devRef .tc main_v142)
  unfold X22
  symm
  exact upd3_ne _ _ _ _ _ _ _ _ (StableHlo.devRef_ne_of_ne (by decide)) (StableHlo.devRef_ne_of_ne (by decide)) (StableHlo.devRef_ne_of_ne (by decide))
theorem hF10_3 (c : Dev nD) : (dat10 (tcOf (X21 m)) c).arrAt 3 cfg10.N = tcOf (X22 m) c (Pipeline.arrRef spec10 3) := by
  rw [(dat10 (tcOf (X21 m)) c).arrAt_in 3 rfl cfg10.N, A_eq10 (tcOf (X21 m)) c 3]
  show X21 m c (Proc.devRef .tc main_v138) = X22 m c (Proc.devRef .tc main_v138)
  unfold X22
  symm
  exact upd3_ne _ _ _ _ _ _ _ _ (StableHlo.devRef_ne_of_ne (by decide)) (StableHlo.devRef_ne_of_ne (by decide)) (StableHlo.devRef_ne_of_ne (by decide))
theorem hF10_4 (c : Dev nD) : (dat10 (tcOf (X21 m)) c).arrAt 4 cfg10.N = tcOf (X22 m) c (Pipeline.arrRef spec10 4) := by
  rw [(dat10 (tcOf (X21 m)) c).arrAt_in 4 rfl cfg10.N, A_eq10 (tcOf (X21 m)) c 4]
  show X21 m c (Proc.devRef .tc main_v143) = X22 m c (Proc.devRef .tc main_v143)
  unfold X22
  symm
  exact upd3_ne _ _ _ _ _ _ _ _ (StableHlo.devRef_ne_of_ne (by decide)) (StableHlo.devRef_ne_of_ne (by decide)) (StableHlo.devRef_ne_of_ne (by decide))
theorem hF10_5 (c : Dev nD) : (dat10 (tcOf (X21 m)) c).arrAt 5 cfg10.N = tcOf (X22 m) c (Pipeline.arrRef spec10 5) := by
  show _ = X22 m c (Proc.devRef .tc main_v144_0)
  unfold X22
  symm
  exact upd3_a _ _ _ _ _ _ _ (StableHlo.devRef_ne_of_ne (by decide)) (StableHlo.devRef_ne_of_ne (by decide))
theorem hF10_6 (c : Dev nD) : (dat10 (tcOf (X21 m)) c).arrAt 6 cfg10.N = tcOf (X22 m) c (Pipeline.arrRef spec10 6) := by
  show _ = X22 m c (Proc.devRef .tc main_v144_1)
  unfold X22
  symm
  exact upd3_b _ _ _ _ _ _ _ (StableHlo.devRef_ne_of_ne (by decide))
theorem hF10_7 (c : Dev nD) : (dat10 (tcOf (X21 m)) c).arrAt 7 cfg10.N = tcOf (X22 m) c (Pipeline.arrRef spec10 7) := by
  show _ = X22 m c (Proc.devRef .tc main_v144_2)
  unfold X22
  symm
  exact upd3_c _ _ _ _ _ _ _

/-- and for every window. -/
theorem hF10 (c : Dev nD) : ∀ w : Fin cfg10.W, (dat10 (tcOf (X21 m)) c).arrAt w cfg10.N = tcOf (X22 m) c (Pipeline.arrRef spec10 w)
  | ⟨0, h⟩ => by rw [show (⟨0, h⟩ : Fin cfg10.W) = (0 : Fin cfg10.W) from Fin.ext rfl]; exact hF10_0 m c
  | ⟨1, h⟩ => by rw [show (⟨1, h⟩ : Fin cfg10.W) = (1 : Fin cfg10.W) from Fin.ext rfl]; exact hF10_1 m c
  | ⟨2, h⟩ => by rw [show (⟨2, h⟩ : Fin cfg10.W) = (2 : Fin cfg10.W) from Fin.ext rfl]; exact hF10_2 m c
  | ⟨3, h⟩ => by rw [show (⟨3, h⟩ : Fin cfg10.W) = (3 : Fin cfg10.W) from Fin.ext rfl]; exact hF10_3 m c
  | ⟨4, h⟩ => by rw [show (⟨4, h⟩ : Fin cfg10.W) = (4 : Fin cfg10.W) from Fin.ext rfl]; exact hF10_4 m c
  | ⟨5, h⟩ => by rw [show (⟨5, h⟩ : Fin cfg10.W) = (5 : Fin cfg10.W) from Fin.ext rfl]; exact hF10_5 m c
  | ⟨6, h⟩ => by rw [show (⟨6, h⟩ : Fin cfg10.W) = (6 : Fin cfg10.W) from Fin.ext rfl]; exact hF10_6 m c
  | ⟨7, h⟩ => by rw [show (⟨7, h⟩ : Fin cfg10.W) = (7 : Fin cfg10.W) from Fin.ext rfl]; exact hF10_7 m c

/-- Every buffer that is no array of region 10 holds at its exit what it held at its entry. -/
theorem hrest10 (c : Dev nD) : ∀ b, b ∉ Finset.univ.image (Pipeline.arrRef spec10) → tcOf (X22 m) c b = tcOf (X21 m) c b :=
  fun b hb => by
    have h0 : b ≠ main_v144_0 := fun e => hb (by subst e; exact Finset.mem_image.mpr ⟨⟨5, by decide⟩, Finset.mem_univ _, rfl⟩)
    have h1 : b ≠ main_v144_1 := fun e => hb (by subst e; exact Finset.mem_image.mpr ⟨⟨6, by decide⟩, Finset.mem_univ _, rfl⟩)
    have h2 : b ≠ main_v144_2 := fun e => hb (by subst e; exact Finset.mem_image.mpr ⟨⟨7, by decide⟩, Finset.mem_univ _, rfl⟩)
    unfold X22; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 10 over the thread state: entered with every unscoped buffer at the contents before it, left with them at
    the contents after it; its arrays split out of the unscoped buffers and put back; the generator register into the
    invariant and out; nothing owed; no semaphore of the kernel's own. -/
def reg10 : Pipeline.RegionSeg (pcfgs (F := F)) adm (pdats m) () defs₀ Variants.none Lz lvz 10 where
  win := launch10.win.to₀
  block_pos := launch10.block_pos
  stage_whole := launch10.stage_whole
  K := PEmpty
  osem k := k.elim
  ho := Pipeline.OwnSemFacts.none _
  hbody c := (body_obligation10 (tcOf (X21 m)) c).loose
  hwaits := Pipeline.hwaits_of_owed_zero _ _ _ _ Lz lvz 10 fun _ _ => rfl
  pre c := iprop(StableHlo.held (c : Thread nD τ) (Pipeline.ucRefs τ sig) (X21 m c) ∗ Rz c)
  post c := iprop(StableHlo.held (c : Thread nD τ) (Pipeline.ucRefs τ sig) (X22 m c) ∗ Rz c)
  X c := iprop(∃ r, prngReg c r)
  Y c := iprop(∃ r, prngReg c r)
  Z c := Pipeline.unscopedRest (Ix := Unit) (Name := ℕ) (U := UR sig nD τ) (Lvl := ℕ) spec10 c (tcOf (X21 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (tcOf (X21 m) c) fun w => A_eq10 (tcOf (X21 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 10).pre c (fun _ => fullShare) (adm (F := F) 10).1 ∗ Pipeline.scopedRest spec10 c)
        ⊢ (Pipeline.ΦA spec10 c : sProp 𝕄) := by
      unfold Pipeline.ΦA
      iintro ⟨Hp, -, Hr⟩
      isplitl [Hr]; · iexact Hr
      iexact Hp
    exact h.trans (hin10 (tcOf (X21 m)) c)
  hout c := by
    rw [Pipeline.ownSems0_none]
    have h : (Pipeline.ΦA spec10 c : sProp 𝕄)
        ⊢ iprop(iprop(∃ r, prngReg c r) ∗ BI.emp ∗ Pipeline.scopedRest spec10 c) := by
      unfold Pipeline.ΦA
      iintro ⟨Hr, Hp⟩
      isplitl [Hp]; · iexact Hp
      isplitr; · iempintro
      iexact Hr
    exact (hout10 (tcOf (X21 m)) c).trans h
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (tcOf (X21 m) c) (tcOf (X22 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg11.lean ====
/-
  Region 11 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 11's exit each of its arrays holds what the pipeline leaves: an output's array by the update, an input's
    array its entry contents; window by window, -/
theorem hF11_0 (c : Dev nD) : (dat11 (tcOf (X23 m)) c).arrAt 0 cfg11.N = tcOf (X24 m) c (Pipeline.arrRef spec11 0) := by
  rw [(dat11 (tcOf (X23 m)) c).arrAt_in 0 rfl cfg11.N, A_eq11 (tcOf (X23 m)) c 0]
  show X23 m c (Proc.devRef .tc main_v144_0) = X24 m c (Proc.devRef .tc main_v144_0)
  unfold X24
  symm
  exact upd3_ne _ _ _ _ _ _ _ _ (StableHlo.devRef_ne_of_ne (by decide)) (StableHlo.devRef_ne_of_ne (by decide)) (StableHlo.devRef_ne_of_ne (by decide))
theorem hF11_1 (c : Dev nD) : (dat11 (tcOf (X23 m)) c).arrAt 1 cfg11.N = tcOf (X24 m) c (Pipeline.arrRef spec11 1) := by
  rw [(dat11 (tcOf (X23 m)) c).arrAt_in 1 rfl cfg11.N, A_eq11 (tcOf (X23 m)) c 1]
  show X23 m c (Proc.devRef .tc main_v144_1) = X24 m c (Proc.devRef .tc main_v144_1)
  unfold X24
  symm
  exact upd3_ne _ _ _ _ _ _ _ _ (StableHlo.devRef_ne_of_ne (by decide)) (StableHlo.devRef_ne_of_ne (by decide)) (StableHlo.devRef_ne_of_ne (by decide))
theorem hF11_2 (c : Dev nD) : (dat11 (tcOf (X23 m)) c).arrAt 2 cfg11.N = tcOf (X24 m) c (Pipeline.arrRef spec11 2) := by
  rw [(dat11 (tcOf (X23 m)) c).arrAt_in 2 rfl cfg11.N, A_eq11 (tcOf (X23 m)) c 2]
  show X23 m c (Proc.devRef .tc main_v144_2) = X24 m c (Proc.devRef .tc main_v144_2)
  unfold X24
  symm
  exact upd3_ne _ _ _ _ _ _ _ _ (StableHlo.devRef_ne_of_ne (by decide)) (StableHlo.devRef_ne_of_ne (by decide)) (StableHlo.devRef_ne_of_ne (by decide))
theorem hF11_3 (c : Dev nD) : (dat11 (tcOf (X23 m)) c).arrAt 3 cfg11.N = tcOf (X24 m) c (Pipeline.arrRef spec11 3) := by
  rw [(dat11 (tcOf (X23 m)) c).arrAt_in 3 rfl cfg11.N, A_eq11 (tcOf (X23 m)) c 3]
  show X23 m c (Proc.devRef .tc main_v153) = X24 m c (Proc.devRef .tc main_v153)
  unfold X24
  symm
  exact upd3_ne _ _ _ _ _ _ _ _ (StableHlo.devRef_ne_of_ne (by decide)) (StableHlo.devRef_ne_of_ne (by decide)) (StableHlo.devRef_ne_of_ne (by decide))
theorem hF11_4 (c : Dev nD) : (dat11 (tcOf (X23 m)) c).arrAt 4 cfg11.N = tcOf (X24 m) c (Pipeline.arrRef spec11 4) := by
  rw [(dat11 (tcOf (X23 m)) c).arrAt_in 4 rfl cfg11.N, A_eq11 (tcOf (X23 m)) c 4]
  show X23 m c (Proc.devRef .tc main_v154) = X24 m c (Proc.devRef .tc main_v154)
  unfold X24
  symm
  exact upd3_ne _ _ _ _ _ _ _ _ (StableHlo.devRef_ne_of_ne (by decide)) (StableHlo.devRef_ne_of_ne (by decide)) (StableHlo.devRef_ne_of_ne (by decide))
theorem hF11_5 (c : Dev nD) : (dat11 (tcOf (X23 m)) c).arrAt 5 cfg11.N = tcOf (X24 m) c (Pipeline.arrRef spec11 5) := by
  rw [(dat11 (tcOf (X23 m)) c).arrAt_in 5 rfl cfg11.N, A_eq11 (tcOf (X23 m)) c 5]
  show X23 m c (Proc.devRef .tc main_v150) = X24 m c (Proc.devRef .tc main_v150)
  unfold X24
  symm
  exact upd3_ne _ _ _ _ _ _ _ _ (StableHlo.devRef_ne_of_ne (by decide)) (StableHlo.devRef_ne_of_ne (by decide)) (StableHlo.devRef_ne_of_ne (by decide))
theorem hF11_6 (c : Dev nD) : (dat11 (tcOf (X23 m)) c).arrAt 6 cfg11.N = tcOf (X24 m) c (Pipeline.arrRef spec11 6) := by
  rw [(dat11 (tcOf (X23 m)) c).arrAt_in 6 rfl cfg11.N, A_eq11 (tcOf (X23 m)) c 6]
  show X23 m c (Proc.devRef .tc main_v155) = X24 m c (Proc.devRef .tc main_v155)
  unfold X24
  symm
  exact upd3_ne _ _ _ _ _ _ _ _ (StableHlo.devRef_ne_of_ne (by decide)) (StableHlo.devRef_ne_of_ne (by decide)) (StableHlo.devRef_ne_of_ne (by decide))
theorem hF11_7 (c : Dev nD) : (dat11 (tcOf (X23 m)) c).arrAt 7 cfg11.N = tcOf (X24 m) c (Pipeline.arrRef spec11 7) := by
  show _ = X24 m c (Proc.devRef .tc main_v156_0)
  unfold X24
  symm
  exact upd3_a _ _ _ _ _ _ _ (StableHlo.devRef_ne_of_ne (by decide)) (StableHlo.devRef_ne_of_ne (by decide))
theorem hF11_8 (c : Dev nD) : (dat11 (tcOf (X23 m)) c).arrAt 8 cfg11.N = tcOf (X24 m) c (Pipeline.arrRef spec11 8) := by
  show _ = X24 m c (Proc.devRef .tc main_v156_1)
  unfold X24
  symm
  exact upd3_b _ _ _ _ _ _ _ (StableHlo.devRef_ne_of_ne (by decide))
theorem hF11_9 (c : Dev nD) : (dat11 (tcOf (X23 m)) c).arrAt 9 cfg11.N = tcOf (X24 m) c (Pipeline.arrRef spec11 9) := by
  show _ = X24 m c (Proc.devRef .tc main_v156_2)
  unfold X24
  symm
  exact upd3_c _ _ _ _ _ _ _

/-- and for every window. -/
theorem hF11 (c : Dev nD) : ∀ w : Fin cfg11.W, (dat11 (tcOf (X23 m)) c).arrAt w cfg11.N = tcOf (X24 m) c (Pipeline.arrRef spec11 w)
  | ⟨0, h⟩ => by rw [show (⟨0, h⟩ : Fin cfg11.W) = (0 : Fin cfg11.W) from Fin.ext rfl]; exact hF11_0 m c
  | ⟨1, h⟩ => by rw [show (⟨1, h⟩ : Fin cfg11.W) = (1 : Fin cfg11.W) from Fin.ext rfl]; exact hF11_1 m c
  | ⟨2, h⟩ => by rw [show (⟨2, h⟩ : Fin cfg11.W) = (2 : Fin cfg11.W) from Fin.ext rfl]; exact hF11_2 m c
  | ⟨3, h⟩ => by rw [show (⟨3, h⟩ : Fin cfg11.W) = (3 : Fin cfg11.W) from Fin.ext rfl]; exact hF11_3 m c
  | ⟨4, h⟩ => by rw [show (⟨4, h⟩ : Fin cfg11.W) = (4 : Fin cfg11.W) from Fin.ext rfl]; exact hF11_4 m c
  | ⟨5, h⟩ => by rw [show (⟨5, h⟩ : Fin cfg11.W) = (5 : Fin cfg11.W) from Fin.ext rfl]; exact hF11_5 m c
  | ⟨6, h⟩ => by rw [show (⟨6, h⟩ : Fin cfg11.W) = (6 : Fin cfg11.W) from Fin.ext rfl]; exact hF11_6 m c
  | ⟨7, h⟩ => by rw [show (⟨7, h⟩ : Fin cfg11.W) = (7 : Fin cfg11.W) from Fin.ext rfl]; exact hF11_7 m c
  | ⟨8, h⟩ => by rw [show (⟨8, h⟩ : Fin cfg11.W) = (8 : Fin cfg11.W) from Fin.ext rfl]; exact hF11_8 m c
  | ⟨9, h⟩ => by rw [show (⟨9, h⟩ : Fin cfg11.W) = (9 : Fin cfg11.W) from Fin.ext rfl]; exact hF11_9 m c

/-- Every buffer that is no array of region 11 holds at its exit what it held at its entry. -/
theorem hrest11 (c : Dev nD) : ∀ b, b ∉ Finset.univ.image (Pipeline.arrRef spec11) → tcOf (X24 m) c b = tcOf (X23 m) c b :=
  fun b hb => by
    have h0 : b ≠ main_v156_0 := fun e => hb (by subst e; exact Finset.mem_image.mpr ⟨⟨7, by decide⟩, Finset.mem_univ _, rfl⟩)
    have h1 : b ≠ main_v156_1 := fun e => hb (by subst e; exact Finset.mem_image.mpr ⟨⟨8, by decide⟩, Finset.mem_univ _, rfl⟩)
    have h2 : b ≠ main_v156_2 := fun e => hb (by subst e; exact Finset.mem_image.mpr ⟨⟨9, by decide⟩, Finset.mem_univ _, rfl⟩)
    unfold X24; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 11 over the thread state: entered with every unscoped buffer at the contents before it, left with them at
    the contents after it; its arrays split out of the unscoped buffers and put back; the generator register into the
    invariant and out; nothing owed; no semaphore of the kernel's own. -/
def reg11 : Pipeline.RegionSeg (pcfgs (F := F)) adm (pdats m) () defs₀ Variants.none Lz lvz 11 where
  win := launch11.win.to₀
  block_pos := launch11.block_pos
  stage_whole := launch11.stage_whole
  K := PEmpty
  osem k := k.elim
  ho := Pipeline.OwnSemFacts.none _
  hbody c := (body_obligation11 (tcOf (X23 m)) c).loose
  hwaits := Pipeline.hwaits_of_owed_zero _ _ _ _ Lz lvz 11 fun _ _ => rfl
  pre c := iprop(StableHlo.held (c : Thread nD τ) (Pipeline.ucRefs τ sig) (X23 m c) ∗ Rz c)
  post c := iprop(StableHlo.held (c : Thread nD τ) (Pipeline.ucRefs τ sig) (X24 m c) ∗ Rz c)
  X c := iprop(∃ r, prngReg c r)
  Y c := iprop(∃ r, prngReg c r)
  Z c := Pipeline.unscopedRest (Ix := Unit) (Name := ℕ) (U := UR sig nD τ) (Lvl := ℕ) spec11 c (tcOf (X23 m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (tcOf (X23 m) c) fun w => A_eq11 (tcOf (X23 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 11).pre c (fun _ => fullShare) (adm (F := F) 11).1 ∗ Pipeline.scopedRest spec11 c)
        ⊢ (Pipeline.ΦA spec11 c : sProp 𝕄) := by
      unfold Pipeline.ΦA
      iintro ⟨Hp, -, Hr⟩
      isplitl [Hr]; · iexact Hr
      iexact Hp
    exact h.trans (hin11 (tcOf (X23 m)) c)
  hout c := by
    rw [Pipeline.ownSems0_none]
    have h : (Pipeline.ΦA spec11 c : sProp 𝕄)
        ⊢ iprop(iprop(∃ r, prngReg c r) ∗ BI.emp ∗ Pipeline.scopedRest spec11 c) := by
      unfold Pipeline.ΦA
      iintro ⟨Hr, Hp⟩
      isplitl [Hp]; · iexact Hp
      isplitr; · iempintro
      iexact Hr
    exact (hout11 (tcOf (X23 m)) c).trans h
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (tcOf (X23 m) c) (tcOf (X24 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg12.lean ====
/-
  Region 12 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 12's exit each of its arrays holds what the pipeline leaves: an output's array by the update, an input's
    array its entry contents; window by window, -/
theorem hF12_0 (c : Dev nD) : (dat12 (tcOf (X25 m)) c).arrAt 0 cfg12.N = tcOf (X26 m) c (Pipeline.arrRef spec12 0) := by
  rw [(dat12 (tcOf (X25 m)) c).arrAt_in 0 rfl cfg12.N, A_eq12 (tcOf (X25 m)) c 0]
  show X25 m c (Proc.devRef .tc main_v156_0) = X26 m c (Proc.devRef .tc main_v156_0)
  unfold X26
  symm
  exact upd1_ne _ _ _ _ (StableHlo.devRef_ne_of_ne (by decide))
theorem hF12_1 (c : Dev nD) : (dat12 (tcOf (X25 m)) c).arrAt 1 cfg12.N = tcOf (X26 m) c (Pipeline.arrRef spec12 1) := by
  rw [(dat12 (tcOf (X25 m)) c).arrAt_in 1 rfl cfg12.N, A_eq12 (tcOf (X25 m)) c 1]
  show X25 m c (Proc.devRef .tc main_v156_1) = X26 m c (Proc.devRef .tc main_v156_1)
  unfold X26
  symm
  exact upd1_ne _ _ _ _ (StableHlo.devRef_ne_of_ne (by decide))
theorem hF12_2 (c : Dev nD) : (dat12 (tcOf (X25 m)) c).arrAt 2 cfg12.N = tcOf (X26 m) c (Pipeline.arrRef spec12 2) := by
  rw [(dat12 (tcOf (X25 m)) c).arrAt_in 2 rfl cfg12.N, A_eq12 (tcOf (X25 m)) c 2]
  show X25 m c (Proc.devRef .tc main_v156_2) = X26 m c (Proc.devRef .tc main_v156_2)
  unfold X26
  symm
  exact upd1_ne _ _ _ _ (StableHlo.devRef_ne_of_ne (by decide))
theorem hF12_3 (c : Dev nD) : (dat12 (tcOf (X25 m)) c).arrAt 3 cfg12.N = tcOf (X26 m) c (Pipeline.arrRef spec12 3) := by
  rw [(dat12 (tcOf (X25 m)) c).arrAt_in 3 rfl cfg12.N, A_eq12 (tcOf (X25 m)) c 3]
  show X25 m c (Proc.devRef .tc main_v161) = X26 m c (Proc.devRef .tc main_v161)
  unfold X26
  symm
  exact upd1_ne _ _ _ _ (StableHlo.devRef_ne_of_ne (by decide))
theorem hF12_4 (c : Dev nD) : (dat12 (tcOf (X25 m)) c).arrAt 4 cfg12.N = tcOf (X26 m) c (Pipeline.arrRef spec12 4) := by
  rw [(dat12 (tcOf (X25 m)) c).arrAt_in 4 rfl cfg12.N, A_eq12 (tcOf (X25 m)) c 4]
  show X25 m c (Proc.devRef .tc main_v162) = X26 m c (Proc.devRef .tc main_v162)
  unfold X26
  symm
  exact upd1_ne _ _ _ _ (StableHlo.devRef_ne_of_ne (by decide))
theorem hF12_5 (c : Dev nD) : (dat12 (tcOf (X25 m)) c).arrAt 5 cfg12.N = tcOf (X26 m) c (Pipeline.arrRef spec12 5) := by
  show _ = X26 m c (Proc.devRef .tc main_v163)
  unfold X26
  symm
  exact upd1_a _ _ _

/-- and for every window. -/
theorem hF12 (c : Dev nD) : ∀ w : Fin cfg12.W, (dat12 (tcOf (X25 m)) c).arrAt w cfg12.N = tcOf (X26 m) c (Pipeline.arrRef spec12 w)
  | ⟨0, h⟩ => by rw [show (⟨0, h⟩ : Fin cfg12.W) = (0 : Fin cfg12.W) from Fin.ext rfl]; exact hF12_0 m c
  | ⟨1, h⟩ => by rw [show (⟨1, h⟩ : Fin cfg12.W) = (1 : Fin cfg12.W) from Fin.ext rfl]; exact hF12_1 m c
  | ⟨2, h⟩ => by rw [show (⟨2, h⟩ : Fin cfg12.W) = (2 : Fin cfg12.W) from Fin.ext rfl]; exact hF12_2 m c
  | ⟨3, h⟩ => by rw [show (⟨3, h⟩ : Fin cfg12.W) = (3 : Fin cfg12.W) from Fin.ext rfl]; exact hF12_3 m c
  | ⟨4, h⟩ => by rw [show (⟨4, h⟩ : Fin cfg12.W) = (4 : Fin cfg12.W) from Fin.ext rfl]; exact hF12_4 m c
  | ⟨5, h⟩ => by rw [show (⟨5, h⟩ : Fin cfg12.W) = (5 : Fin cfg12.W) from Fin.ext rfl]; exact hF12_5 m c

/-- Every buffer that is no array of region 12 holds at its exit what it held at its entry. -/
theorem hrest12 (c : Dev nD) : ∀ b, b ∉ Finset.univ.image (Pipeline.arrRef spec12) → tcOf (X26 m) c b = tcOf (X25 m) c b :=
  fun b hb => by
    have h0 : b ≠ main_v163 := fun e => hb (by subst e; exact Finset.mem_image.mpr ⟨⟨5, by decide⟩, Finset.mem_univ _, rfl⟩)
    unfold X26; dsimp only [tcOf]
    exact upd1_ne _ _ _ _ (StableHlo.devRef_ne_of_ne h0)

set_option backward.isDefEq.respectTransparency.types false in
/-- Region 12 over the thread state: entered with every unscoped buffer at the contents before it, left with them at
    the contents after it; its arrays split out of the unscoped buffers and put back; the generator register into the
    invariant and out; nothing owed; no semaphore of the kernel's own. -/
def reg12 : Pipeline.RegionSeg (pcfgs (F := F)) adm (pdats m) () defs₀ Variants.none Lz lvz 12 where
  win := launch12.win.to₀
  block_pos := launch12.block_pos
  stage_whole := launch12.stage_whole
  K := PEmpty
  osem k := k.elim
  ho := Pipeline.OwnSemFacts.none _
  hbody c := (body_obligation12 (tcOf (X25 m)) c).loose
  hwaits := Pipeline.hwaits_of_owed_zero _ _ _ _ Lz lvz 12 fun _ _ => rfl
  pre c := iprop(StableHlo.held (c : Thread nD τ) (Pipeline.ucRefs τ sig) (X25 m c) ∗ Rz c)
  post c := iprop(StableHlo.held (c : Thread nD τ) (Pipeline.ucRefs τ sig) (X26 m c) ∗ Rz c)
  X c := iprop(∃ r, prngReg c r)
  Y c := iprop(∃ r, prngReg c r)
  Z c := Pipeline.unscopedRest (Ix := Unit) (Name := ℕ) (U := UR sig nD τ) (Lvl := ℕ) spec12 c (tcOf (X25 m) c)
  hentry c := by
    rw [Pipeline.ownSems0_none]
    have hsplit := Pipeline.arrays_of_unscopedBufs (p := 12) (pcfgs (F := F)) adm (pdats m) launch12.win launch12.arr_whole c
      ((pdats m 12 c).share_full fun _ => rfl) (tcOf (X25 m) c) fun w => A_eq12 (tcOf (X25 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 12).pre c (fun _ => fullShare) (adm (F := F) 12).1 ∗ Pipeline.scopedRest spec12 c)
        ⊢ (Pipeline.ΦA spec12 c : sProp 𝕄) := by
      unfold Pipeline.ΦA
      iintro ⟨Hp, -, Hr⟩
      isplitl [Hr]; · iexact Hr
      iexact Hp
    exact h.trans (show (Pipeline.ΦA spec12 c : sProp 𝕄) ⊢ (dat12 (tcOf (X25 m)) c).Φ 0 from .rfl)
  hout c := by
    rw [Pipeline.ownSems0_none]
    have h : (Pipeline.ΦA spec12 c : sProp 𝕄)
        ⊢ iprop(iprop(∃ r, prngReg c r) ∗ BI.emp ∗ Pipeline.scopedRest spec12 c) := by
      unfold Pipeline.ΦA
      iintro ⟨Hr, Hp⟩
      isplitl [Hp]; · iexact Hp
      isplitr; · iempintro
      iexact Hr
    exact (show (dat12 (tcOf (X25 m)) c).Φ (Fin.last cfg12.N) ⊢ (Pipeline.ΦA spec12 c : sProp 𝕄) from .rfl).trans h
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (tcOf (X25 m) c) (tcOf (X26 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Seg13.lean ====
/-
  Region 13 of @main as a segment of the run: entered with every unscoped buffer at the contents before it, left with
  them at the contents after it (its output arrays replaced by what its pipeline leaves).
-/
import proofs.«140206_j52750788330061_1_alg».proof.Proof.KB.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 13's exit each of its arrays holds what the pipeline leaves: an output's array by the update, an input's
    array its entry contents; window by window, -/
theorem hF13_0 (c : Dev nD) : (dat13 (tcOf (X27 m)) c).arrAt 0 cfg13.N = tcOf (X28 m) c (Pipeline.arrRef spec13 0) := by
  rw [(dat13 (tcOf (X27 m)) c).arrAt_in 0 rfl cfg13.N, A_eq13 (tcOf (X27 m)) c 0]
  show X27 m c (Proc.devRef .tc main_v175) = X28 m c (Proc.devRef .tc main_v175)
  unfold X28
  symm
  exact upd1_ne _ _ _ _ (StableHlo.devRef_ne_of_ne (by decide))
theorem hF13_1 (c : Dev nD) : (dat13 (tcOf (X27 m)) c).arrAt 1 cfg13.N = tcOf (X28 m) c (Pipeline.arrRef spec13 1) := by
  rw [(dat13 (tcOf (X27 m)) c).arrAt_in 1 rfl cfg13.N, A_eq13 (tcOf (X27 m)) c 1]
  show X27 m c (Proc.devRef .tc main_arg15) = X28 m c (Proc.devRef .tc main_arg15)
  unfold X28
  symm
  exact upd1_ne _ _ _ _ (StableHlo.devRef_ne_of_ne (by decide))
theorem hF13_2 (c : Dev nD) : (dat13 (tcOf (X27 m)) c).arrAt 2 cfg13.N = tcOf (X28 m) c (Pipeline.arrRef spec13 2) := by
  rw [(dat13 (tcOf (X27 m)) c).arrAt_in 2 rfl cfg13.N, A_eq13 (tcOf (X27 m)) c 2]
  show X27 m c (Proc.devRef .tc main_v176) = X28 m c (Proc.devRef .tc main_v176)
  unfold X28
  symm
  exact upd1_ne _ _ _ _ (StableHlo.devRef_ne_of_ne (by decide))
theorem hF13_3 (c : Dev nD) : (dat13 (tcOf (X27 m)) c).arrAt 3 cfg13.N = tcOf (X28 m) c (Pipeline.arrRef spec13 3) := by
  rw [(dat13 (tcOf (X27 m)) c).arrAt_in 3 rfl cfg13.N, A_eq13 (tcOf (X27 m)) c 3]
  show X27 m c (Proc.devRef .tc main_arg17) = X28 m c (Proc.devRef .tc main_arg17)
  unfold X28
  symm
  exact upd1_ne _ _ _ _ (StableHlo.devRef_ne_of_ne (by decide))
theorem hF13_4 (c : Dev nD) : (dat13 (tcOf (X27 m)) c).arrAt 4 cfg13.N = tcOf (X28 m) c (Pipeline.arrRef spec13 4) := by
  rw [(dat13 (tcOf (X27 m)) c).arrAt_in 4 rfl cfg13.N, A_eq13 (tcOf (X27 m)) c 4]
  show X27 m c (Proc.devRef .tc main_v177) = X28 m c (Proc.devRef .tc main_v177)
  unfold X28
  symm
  exact upd1_ne _ _ _ _ (StableHlo.devRef_ne_of_ne (by decide))
theorem hF13_5 (c : Dev nD) : (dat13 (tcOf (X27 m)) c).arrAt 5 cfg13.N = tcOf (X28 m) c (Pipeline.arrRef spec13 5) := by
  show _ = X28 m c (Proc.devRef .tc main_v178)
  unfold X28
  symm
  exact upd1_a _ _ _

/-- and for every window. -/
theorem hF13 (c : Dev nD) : ∀ w : Fin cfg13.W, (dat13 (tcOf (X27 m)) c).arrAt w cfg13.N = tcOf (X28 m) c (Pipeline.arrRef spec13 w)
  | ⟨0, h⟩ => by rw [show (⟨0, h⟩ : Fin cfg13.W) = (0 : Fin cfg13.W) from Fin.ext rfl]; exact hF13_0 m c
  | ⟨1, h⟩ => by rw [show (⟨1, h⟩ : Fin cfg13.W) = (1 : Fin cfg13.W) from Fin.ext rfl]; exact hF13_1 m c
  | ⟨2, h⟩ => by rw [show (⟨2, h⟩ : Fin cfg13.W) = (2 : Fin cfg13.W) from Fin.ext rfl]; exact hF13_2 m c
  | ⟨3, h⟩ => by rw [show (⟨3, h⟩ : Fin cfg13.W) = (3 : Fin cfg13.W) from Fin.ext rfl]; exact hF13_3 m c
  | ⟨4, h⟩ => by rw [show (⟨4, h⟩ : Fin cfg13.W) = (4 : Fin cfg13.W) from Fin.ext rfl]; exact hF13_4 m c
  | ⟨5, h⟩ => by rw [show (⟨5, h⟩ : Fin cfg13.W) = (5 : Fin cfg13.W) from Fin.ext rfl]; exact hF13_5 m c

/-- Every buffer that is no array of region 13 holds at its exit what it held at its entry. -/
theorem hrest13 (c : Dev nD) : ∀ b, b ∉ Finset.univ.image (Pipeline.arrRef spec13) → tcOf (X28 m) c b = tcOf (X27 m) c b :=
  fun b hb => by
    have h0 : b ≠ main_v178 := fun e => hb (by subst e; exact Finset.mem_image.mpr ⟨⟨5, by decide⟩, Finset.mem_univ _, rfl⟩)
    unfold X28; dsimp only [tcOf]
    exact upd1_ne _ _ _ _ (StableHlo.devRef_ne_of_ne h0)

set_option backward.isDefEq.respectTransparency.types false in
/-- Region 13 over the thread state: entered with every unscoped buffer at the contents before it, left with them at
    the contents after it; its arrays split out of the unscoped buffers and put back; the generator register into the
    invariant and out; nothing owed; no semaphore of the kernel's own. -/
def reg13 : Pipeline.RegionSeg (pcfgs (F := F)) adm (pdats m) () defs₀ Variants.none Lz lvz 13 where
  win := launch13.win.to₀
  block_pos := launch13.block_pos
  stage_whole := launch13.stage_whole
  K := PEmpty
  osem k := k.elim
  ho := Pipeline.OwnSemFacts.none _
  hbody c := (body_obligation13 (tcOf (X27 m)) c).loose
  hwaits := Pipeline.hwaits_of_owed_zero _ _ _ _ Lz lvz 13 fun _ _ => rfl
  pre c := iprop(StableHlo.held (c : Thread nD τ) (Pipeline.ucRefs τ sig) (X27 m c) ∗ Rz c)
  post c := iprop(StableHlo.held (c : Thread nD τ) (Pipeline.ucRefs τ sig) (X28 m c) ∗ Rz c)
  X c := iprop(∃ r, prngReg c r)
  Y c := iprop(∃ r, prngReg c r)
  Z c := Pipeline.unscopedRest (Ix := Unit) (Name := ℕ) (U := UR sig nD τ) (Lvl := ℕ) spec13 c (tcOf (X27 m) c)
  hentry c := by
    rw [Pipeline.ownSems0_none]
    have hsplit := Pipeline.arrays_of_unscopedBufs (p := 13) (pcfgs (F := F)) adm (pdats m) launch13.win launch13.arr_whole c
      ((pdats m 13 c).share_full fun _ => rfl) (tcOf (X27 m) c) fun w => A_eq13 (tcOf (X27 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 13).pre c (fun _ => fullShare) (adm (F := F) 13).1 ∗ Pipeline.scopedRest spec13 c)
        ⊢ (Pipeline.ΦA spec13 c : sProp 𝕄) := by
      unfold Pipeline.ΦA
      iintro ⟨Hp, -, Hr⟩
      isplitl [Hr]; · iexact Hr
      iexact Hp
    exact h.trans (show (Pipeline.ΦA spec13 c : sProp 𝕄) ⊢ (dat13 (tcOf (X27 m)) c).Φ 0 from .rfl)
  hout c := by
    rw [Pipeline.ownSems0_none]
    have h : (Pipeline.ΦA spec13 c : sProp 𝕄)
        ⊢ iprop(iprop(∃ r, prngReg c r) ∗ BI.emp ∗ Pipeline.scopedRest spec13 c) := by
      unfold Pipeline.ΦA
      iintro ⟨Hr, Hp⟩
      isplitl [Hp]; · iexact Hp
      isplitr; · iempintro
      iexact Hr
    exact (show (dat13 (tcOf (X27 m)) c).Φ (Fin.last cfg13.N) ⊢ (Pipeline.ΦA spec13 c : sProp 𝕄) from .rfl).trans h
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (tcOf (X27 m) c) (tcOf (X28 m) c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.SegsAll.lean ====
/- The fourteen regions' segment records together. -/
import proofs.«140206_j52750788330061_1_alg».proof.Proof.KB.Seg0
import proofs.«140206_j52750788330061_1_alg».proof.Proof.KB.Seg1
import proofs.«140206_j52750788330061_1_alg».proof.Proof.KB.Seg2
import proofs.«140206_j52750788330061_1_alg».proof.Proof.KB.Seg3
import proofs.«140206_j52750788330061_1_alg».proof.Proof.KB.Seg4
import proofs.«140206_j52750788330061_1_alg».proof.Proof.KB.Seg5
import proofs.«140206_j52750788330061_1_alg».proof.Proof.KB.Seg6
import proofs.«140206_j52750788330061_1_alg».proof.Proof.KB.Seg7
import proofs.«140206_j52750788330061_1_alg».proof.Proof.KB.Seg8
import proofs.«140206_j52750788330061_1_alg».proof.Proof.KB.Seg9
import proofs.«140206_j52750788330061_1_alg».proof.Proof.KB.Seg10
import proofs.«140206_j52750788330061_1_alg».proof.Proof.KB.Seg11
import proofs.«140206_j52750788330061_1_alg».proof.Proof.KB.Seg12
import proofs.«140206_j52750788330061_1_alg».proof.Proof.KB.Seg13
-- ==== Proof.KB.RunCond.lean ====
import proofs.«140206_j52750788330061_1_alg».proof.Proof.Gen.Kernel.Regions
import Idealize.ShloMosaic.Lib.Pipeline.Frame
import Idealize.ShloMosaic.Lib.Pipeline.Regions

-- decided memberships and the launch kit's enumerations over 387 references recurse past the default depth
set_option maxRecDepth 2060

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- The conditional run: as the conditional frame, with the post reading EVERY unscoped buffer of every core off the last
    valuation (so that a result array's final contents can be named, not only the arguments'). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 14) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 15 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE14 : ∀ c : Dev nD, E 14 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c)) :
    θ_run defs (onTc (τ := τ) (main (F := F))) ⟨m, fun _ => 0, ρ⟩ (fun r => ∀ c : Dev nD, ∀ b ∈ Pipeline.ucRefs τ sig, r.2.mem ((c : Thread nD τ).1, b) = V28 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13)
    (fun c Q => by
      rewrite [main_chain c, Seg.run_eq_chain,
        show (segs m outs 𝒱₀ L lv E ι pdats R0 R1 R2 R3 R4 R5 R6 R7 R8 R9 R10 R11 R12 R13 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V28 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, (hpost13 c).trans (sep_mono .rfl (hE14 c))⟩)
    (hinit := ?_) (QY := fun c s => ∀ b ∈ Pipeline.ucRefs τ sig, s.mem ((c : Thread nD τ).1, b) = V28 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V28 m outs c) s')
    isplitl [Hh] <;> iassumption

end Cert.Kernel.Gen

end
-- ==== Proof.KB.Run.lean ====
/-
  The run of the whole program: the generated conditional run of its fourteen regions, given each region's segment
  record; what the regions leave is named by the fold of the contents between items.
-/
import proofs.«140206_j52750788330061_1_alg».proof.Proof.KB.SegsAll
import proofs.«140206_j52750788330061_1_alg».proof.Proof.KB.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

set_option maxHeartbeats 4000000 in
set_option backward.isDefEq.respectTransparency.types false in
/-- THE RUN: from any memory with zero counters every weakly fair execution of @main on the TensorCores terminates,
    nothing faulting, and every final state has every unscoped buffer of every core at the last contents of the
    fold: the generated conditional run with the regions' records, what the regions leave named by the fold. -/
theorem run_all : θ_run defs (onTc (τ := τ) (main (F := F))) ⟨m, fun _ => 0, ρ⟩
    (fun r => ∀ c : Dev nD, ∀ b ∈ Pipeline.ucRefs τ sig, r.2.mem ((c : Thread nD τ).1, b) = X28 m c b) := by
  have h := run_cond (F := F) m (Ix := Unit) (U := UR sig nD τ) (Lvl := ℕ) emb₁ () Variants.none Lz lvz (fun _ _ => rfl) ρ (outsOf m) (pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => Rz c)
      (hE0 := by
        refine Pipeline.initEach Lz lvz fun c => ?_
        iintro ⟨⟨-, HO, -, Hp, -⟩, -⟩
        imodintro
        isplitl [Hp]; · iexists _; iexact Hp
        iexists ∅; iexact HO)
      (hE14 := fun c => by
        iintro ⟨-, HO⟩
        iexact HO)
      (reg0 m) (fun c => by rw [V1_eq]; exact .rfl) (fun c => by rw [V2_eq]; exact .rfl)
      (reg1 m) (fun c => by rw [V3_eq]; exact .rfl) (fun c => by rw [V4_eq]; exact .rfl)
      (reg2 m) (fun c => by rw [V5_eq]; exact .rfl) (fun c => by rw [V6_eq]; exact .rfl)
      (reg3 m) (fun c => by rw [V7_eq]; exact .rfl) (fun c => by rw [V8_eq]; exact .rfl)
      (reg4 m) (fun c => by rw [V9_eq]; exact .rfl) (fun c => by rw [V10_eq]; exact .rfl)
      (reg5 m) (fun c => by rw [V11_eq]; exact .rfl) (fun c => by rw [V12_eq]; exact .rfl)
      (reg6 m) (fun c => by rw [V13_eq]; exact .rfl) (fun c => by rw [V14_eq]; exact .rfl)
      (reg7 m) (fun c => by rw [V15_eq]; exact .rfl) (fun c => by rw [V16_eq]; exact .rfl)
      (reg8 m) (fun c => by rw [V17_eq]; exact .rfl) (fun c => by rw [V18_eq]; exact .rfl)
      (reg9 m) (fun c => by rw [V19_eq]; exact .rfl) (fun c => by rw [V20_eq]; exact .rfl)
      (reg10 m) (fun c => by rw [V21_eq]; exact .rfl) (fun c => by rw [V22_eq]; exact .rfl)
      (reg11 m) (fun c => by rw [V23_eq]; exact .rfl) (fun c => by rw [V24_eq]; exact .rfl)
      (reg12 m) (fun c => by rw [V25_eq]; exact .rfl) (fun c => by rw [V26_eq]; exact .rfl)
      (reg13 m) (fun c => by rw [V27_eq]; exact .rfl) (fun c => by rw [V28_eq]; exact .rfl)
  exact (θ_run defs _ _).mono (fun r hr c b hb => (hr c b hb).trans (congrFun (V28_eq m c) b)) h

end Cert.Kernel.Gen

end
-- ==== Proof.KB.Frame.lean ====
/-
  The frame claim of the program at any instance of the float operations: every weakly fair execution terminates,
  nothing faulting, and each of the nineteen argument arrays ends holding its launch contents — read off the run's
  last contents, which no host stretch and no region changes at an argument.
-/
import proofs.«140206_j52750788330061_1_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem X28_main_arg0 (c : Dev nD) : X28 m c main_arg0 = m ((c : Thread nD τ).loc main_arg0) :=
  (congrFun (V28_eq m c).symm _).trans (V28_main_arg0 m (outsOf m) c)
theorem X28_main_arg1 (c : Dev nD) : X28 m c main_arg1 = m ((c : Thread nD τ).loc main_arg1) :=
  (congrFun (V28_eq m c).symm _).trans (V28_main_arg1 m (outsOf m) c)
theorem X28_main_arg2 (c : Dev nD) : X28 m c main_arg2 = m ((c : Thread nD τ).loc main_arg2) :=
  (congrFun (V28_eq m c).symm _).trans (V28_main_arg2 m (outsOf m) c)
theorem X28_main_arg3 (c : Dev nD) : X28 m c main_arg3 = m ((c : Thread nD τ).loc main_arg3) :=
  (congrFun (V28_eq m c).symm _).trans (V28_main_arg3 m (outsOf m) c)
theorem X28_main_arg4 (c : Dev nD) : X28 m c main_arg4 = m ((c : Thread nD τ).loc main_arg4) :=
  (congrFun (V28_eq m c).symm _).trans (V28_main_arg4 m (outsOf m) c)
theorem X28_main_arg5 (c : Dev nD) : X28 m c main_arg5 = m ((c : Thread nD τ).loc main_arg5) :=
  (congrFun (V28_eq m c).symm _).trans (V28_main_arg5 m (outsOf m) c)
theorem X28_main_arg6 (c : Dev nD) : X28 m c main_arg6 = m ((c : Thread nD τ).loc main_arg6) :=
  (congrFun (V28_eq m c).symm _).trans (V28_main_arg6 m (outsOf m) c)
theorem X28_main_arg7 (c : Dev nD) : X28 m c main_arg7 = m ((c : Thread nD τ).loc main_arg7) :=
  (congrFun (V28_eq m c).symm _).trans (V28_main_arg7 m (outsOf m) c)
theorem X28_main_arg8 (c : Dev nD) : X28 m c main_arg8 = m ((c : Thread nD τ).loc main_arg8) :=
  (congrFun (V28_eq m c).symm _).trans (V28_main_arg8 m (outsOf m) c)
theorem X28_main_arg9 (c : Dev nD) : X28 m c main_arg9 = m ((c : Thread nD τ).loc main_arg9) :=
  (congrFun (V28_eq m c).symm _).trans (V28_main_arg9 m (outsOf m) c)
theorem X28_main_arg10 (c : Dev nD) : X28 m c main_arg10 = m ((c : Thread nD τ).loc main_arg10) :=
  (congrFun (V28_eq m c).symm _).trans (V28_main_arg10 m (outsOf m) c)
theorem X28_main_arg11 (c : Dev nD) : X28 m c main_arg11 = m ((c : Thread nD τ).loc main_arg11) :=
  (congrFun (V28_eq m c).symm _).trans (V28_main_arg11 m (outsOf m) c)
theorem X28_main_arg12 (c : Dev nD) : X28 m c main_arg12 = m ((c : Thread nD τ).loc main_arg12) :=
  (congrFun (V28_eq m c).symm _).trans (V28_main_arg12 m (outsOf m) c)
theorem X28_main_arg13 (c : Dev nD) : X28 m c main_arg13 = m ((c : Thread nD τ).loc main_arg13) :=
  (congrFun (V28_eq m c).symm _).trans (V28_main_arg13 m (outsOf m) c)
theorem X28_main_arg14 (c : Dev nD) : X28 m c main_arg14 = m ((c : Thread nD τ).loc main_arg14) :=
  (congrFun (V28_eq m c).symm _).trans (V28_main_arg14 m (outsOf m) c)
theorem X28_main_arg15 (c : Dev nD) : X28 m c main_arg15 = m ((c : Thread nD τ).loc main_arg15) :=
  (congrFun (V28_eq m c).symm _).trans (V28_main_arg15 m (outsOf m) c)
theorem X28_main_arg16 (c : Dev nD) : X28 m c main_arg16 = m ((c : Thread nD τ).loc main_arg16) :=
  (congrFun (V28_eq m c).symm _).trans (V28_main_arg16 m (outsOf m) c)
theorem X28_main_arg17 (c : Dev nD) : X28 m c main_arg17 = m ((c : Thread nD τ).loc main_arg17) :=
  (congrFun (V28_eq m c).symm _).trans (V28_main_arg17 m (outsOf m) c)
theorem X28_main_arg18 (c : Dev nD) : X28 m c main_arg18 = m ((c : Thread nD τ).loc main_arg18) :=
  (congrFun (V28_eq m c).symm _).trans (V28_main_arg18 m (outsOf m) c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (X28_main_arg0 m c),
    (h c _ (mem_uc main_arg1 (by decide))).trans (X28_main_arg1 m c),
    (h c _ (mem_uc main_arg2 (by decide))).trans (X28_main_arg2 m c),
    (h c _ (mem_uc main_arg3 (by decide))).trans (X28_main_arg3 m c),
    (h c _ (mem_uc main_arg4 (by decide))).trans (X28_main_arg4 m c),
    (h c _ (mem_uc main_arg5 (by decide))).trans (X28_main_arg5 m c),
    (h c _ (mem_uc main_arg6 (by decide))).trans (X28_main_arg6 m c),
    (h c _ (mem_uc main_arg7 (by decide))).trans (X28_main_arg7 m c),
    (h c _ (mem_uc main_arg8 (by decide))).trans (X28_main_arg8 m c),
    (h c _ (mem_uc main_arg9 (by decide))).trans (X28_main_arg9 m c),
    (h c _ (mem_uc main_arg10 (by decide))).trans (X28_main_arg10 m c),
    (h c _ (mem_uc main_arg11 (by decide))).trans (X28_main_arg11 m c),
    (h c _ (mem_uc main_arg12 (by decide))).trans (X28_main_arg12 m c),
    (h c _ (mem_uc main_arg13 (by decide))).trans (X28_main_arg13 m c),
    (h c _ (mem_uc main_arg14 (by decide))).trans (X28_main_arg14 m c),
    (h c _ (mem_uc main_arg15 (by decide))).trans (X28_main_arg15 m c),
    (h c _ (mem_uc main_arg16 (by decide))).trans (X28_main_arg16 m c),
    (h c _ (mem_uc main_arg17 (by decide))).trans (X28_main_arg17 m c),
    (h c _ (mem_uc main_arg18 (by decide))).trans (X28_main_arg18 m c)⟩) (run_all m ρ)

end Cert.Kernel.Gen

end
-- ==== Proof.KI.Reg0.lean ====
/- The embedding region, at the TensorCore's buffer contents V on entry, for any float type F.
   Four windows over a grid of ten row blocks: the row block of the node features (5000 x 6), the weight matrix
   (6 x 64), the bias row (1 x 64), and the output row block (5000 x 64).
   The body reads the three inputs whole and stores the output block whole, at every point, and keeps nothing from
   one point to the next; so after the body each input buffer still holds its block and the output buffer holds
   one payload: the features times the weights plus the bias row, as the skeleton names it. -/
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 5000-row rectangle is looked at structurally, once per row
set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input buffer holds its window's block at every point. The feature block moves with the point and is fetched
    each time; the weights and the bias are fetched at the first point only, and later points find them where they
    were left, which is right because their block index never moves. One library fact covers both: for proof data
    whose array is the entry contents and whose body leaves the block where it was, the buffer is what a fetch would
    put there. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body touches -/

/-- The whole of a 5000 x 6 feature block. -/
abbrev featRect0 : Rect S5000x6 := Rect.unit (s := S5000x6) ![0, 0] S5000x6.size inb_S5000x6_S5000x6_0_0
/-- The whole of the 6 x 64 weight matrix. -/
abbrev weightRect0 : Rect S6x64 := Rect.unit (s := S6x64) ![0, 0] S6x64.size inb_S6x64_S6x64_0_0
/-- The whole of the 1 x 64 bias row. -/
abbrev biasRect0 : Rect S1x64 := Rect.unit (s := S1x64) ![0, 0] S1x64.size inb_S1x64_S1x64_0_0
/-- The whole of a 5000 x 64 output block: the rectangle of the output's read and of its store. -/
abbrev embRect0 : Rect S5000x64 := Rect.unit (s := S5000x64) ![0, 0] S5000x64.size inb_S5000x64_S5000x64_0_0

/-! ## What the body leaves in the output buffer -/

/-- The output buffer after the body, from the three input blocks (features, weights, bias): the single store's
    payload over the whole block, whatever the buffer held before. -/
def out0_3 (x : Vec F S5000x6 .f32) (wt : Vec F S6x64 .f32) (bias : Vec F S1x64 .f32) : Vec F S5000x64 .f32 :=
  View.canon [⟨embRect0, k0_pay1 (View.ld x featRect0) (View.ld wt weightRect0) (View.ld bias biasRect0)⟩]

/-- The one store's rectangle is the whole block, so every index of the buffer lies in it. -/
theorem cover0_3 (p : Vec F S5000x64 .f32) (y : S5000x64.Idx) :
    ∃ pc ∈ ([⟨embRect0, p⟩] : List (View.Piece (Elt F) S5000x64 .f32)), y ∈ pc.1.set :=
  View.cover_of_tiled [⟨embRect0, p⟩] S5000x64.size (by rfl) y

/-! ## The body's triple -/

set_option maxHeartbeats 1000000 in
/-- Run on whole buffers — the three inputs' reading x, wt, bias and the output's holding anything — the body hands
    its continuation the inputs as they were and the output at out0_3 of them. The printed function is its skeleton
    of loads and one store; the loads read the owned contents through whole rectangles, the output's own read is
    of whatever it held and is not used, and the store covers the buffer. -/
theorem sound_kernel0 (c : Dev nD) (E : Set ℕ) (i : grid0.Coords)
    (arg1 : Memref sig .tc .vmem S5000x6 .f32) (harg1 : arg1.IsWhole) (arg2 : Memref sig .tc .vmem S6x64 .f32) (harg2 : arg2.IsWhole)
    (arg3 : Memref sig .tc .vmem S1x64 .f32) (harg3 : arg3.IsWhole) (arg4 : Memref sig .tc .vmem S5000x64 .f32) (harg4 : arg4.IsWhole)
    (x : Vec F S5000x6 .f32) (wt : Vec F S6x64 .f32) (bias : Vec F S1x64 .f32) (K : PUnit → sProp 𝕄) :
    iprop(owns (c : Thread nD τ) arg1 fullShare x ∗ owns (c : Thread nD τ) arg2 fullShare wt ∗ owns (c : Thread nD τ) arg3 fullShare bias
        ∗ (∃ d, owns (c : Thread nD τ) arg4 fullShare d)
        ∗ (iprop(owns (c : Thread nD τ) arg1 fullShare x ∗ owns (c : Thread nD τ) arg2 fullShare wt ∗ owns (c : Thread nD τ) arg3 fullShare bias
            ∗ owns (c : Thread nD τ) arg4 fullShare (out0_3 x wt bias)) -∗ K ⟨⟩))
      ⊢ wp frame (wpE (defs₀ (F := F)) Variants.none c none) E (cc0_embed_kernel i arg1 harg1 arg2 harg2 arg3 harg3 arg4 harg4) K := by
  simp only [cc0_embed_kernel_eq_skeleton]; unfold cc0_embed_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-! ## The region's proof data -/

/-- The arrays are the entry contents; after the body at point t each input buffer holds its block and the output
    buffer out0_3 of the three input blocks there; the invariant is the one of a body that touches nothing but its
    buffers; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the pipeline calls the body with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it has to give back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the body's triple applies; the invariant and what is
    owed go through untouched, being the same before and after a point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this region's proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Reg1.RunFirst.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero1_first : (![0, 0] : Fin 2 → Nat) = fun _ => 0 := funext fun a => by fin_cases a <;> rfl

/-- A store through the whole-shape rectangle, made last, leaves its payload, whatever was stored before. -/
theorem storeWhole1_first {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole1_first {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the first point: the first conditional block runs and zeroes both accumulators, the last does not run. On
    whole memrefs — the five inputs at their contents, the big output and both accumulators at anything, the two small
    outputs at contents handed back untouched — it stores the affine image of the inputs into the big output and leaves
    in the accumulators the zero rows plus that block's column sums and the column sums of its square. -/
theorem run1_first (c : Dev nD) (i : grid1.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : (Scalar.cmpi .ne (Scalar.extui (Scalar.cmpi .eq (BitVec.ofNat 32 (i 0).val) 0#32)) 0#32) = 1#1) (hlast : ¬ k1_cond2 i = 1#1)
    (x1 x2 : Vec F S5000x64 .f32) (x3 : Vec F S1x64 .f32) (x4 : Vec F S64x64 .f32) (x5 : Vec F S1x64 .f32)
    (y7 y8 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k1_pay4 x3 x1 x2 x4 x5) ∗ owns (c : Thread nD τ) arg7 fullShare y7 ∗ owns (c : Thread nD τ) arg8 fullShare y8
            ∗ owns (c : Thread nD τ) arg9 fullShare (k1_pay5 x3 x1 x2 x4 x5 k1_pay2)
            ∗ owns (c : Thread nD τ) arg10 fullShare (k1_pay1 k1_pay3 (k1_pay6 x3 x1 x2 x4 x5))) -∗ K ⟨⟩))
      ⊢ wp frame (wpE (defs₀ (F := F)) Variants.none c none) E (cc1_linear_stats_kernel i arg1 harg1 arg2 harg2 arg3 harg3 arg4 harg4 arg5 harg5 arg6 harg6 arg7 harg7 arg8 harg8 arg9 harg9 arg10 harg10) K := by
  simp only [cc1_linear_stats_kernel_eq_skeleton]; unfold cc1_linear_stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole1_first (S := S5000x64) _ _ offsZero1_first inb_S5000x64_S5000x64_0_0 _ _).trans ?_
    simp only [View.readCov_unit_zero (S := S1x64) _ offsZero1_first, loadWhole1_first (S := S1x64) _ offsZero1_first, loadWhole1_first (S := S5000x64) _ offsZero1_first, loadWhole1_first (S := S64x64) _ offsZero1_first]
  isplitl [H7]; · iexact H7
  isplitl [H8]; · iexact H8
  isplitl [H9]
  · iexists _; isplitr
    swap; · iexact H9
    ipureintro
    (try sl_unfold_words)
    refine (storeWhole1_first (S := S1x64) _ _ offsZero1_first inb_S1x64_S1x64_0_0 _ _).trans ?_
    simp only [View.readCov_unit_zero (S := S1x64) _ offsZero1_first, loadWhole1_first (S := S1x64) _ offsZero1_first, loadWhole1_first (S := S5000x64) _ offsZero1_first, loadWhole1_first (S := S64x64) _ offsZero1_first]
  iexists _; isplitr
  swap; · iexact H10
  ipureintro
  (try sl_unfold_words)
  refine (storeWhole1_first (S := S1x64) _ _ offsZero1_first inb_S1x64_S1x64_0_0 _ _).trans ?_
  simp only [View.readCov_unit_zero (S := S1x64) _ offsZero1_first, loadWhole1_first (S := S1x64) _ offsZero1_first, loadWhole1_first (S := S5000x64) _ offsZero1_first, loadWhole1_first (S := S64x64) _ offsZero1_first]

end Cert.KernelIdeal.Gen
end
-- ==== Proof.KI.Reg1.RunMid.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero1_mid : (![0, 0] : Fin 2 → Nat) = fun _ => 0 := funext fun a => by fin_cases a <;> rfl

/-- A store through the whole-shape rectangle, made last, leaves its payload, whatever was stored before. -/
theorem storeWhole1_mid {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole1_mid {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at a point that is neither the first nor the last: neither conditional block runs. On whole memrefs — the five
    inputs at their contents, the big output at anything, the two small outputs at contents handed back untouched, the
    two accumulators at what the points before left — it stores the affine image of the inputs into the big output and
    adds that block's column sums, and the column sums of its square, to the two accumulators. -/
theorem run1_mid (c : Dev nD) (i : grid1.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : ¬ k1_cond2 i = 1#1)
    (x1 x2 : Vec F S5000x64 .f32) (x3 : Vec F S1x64 .f32) (x4 : Vec F S64x64 .f32) (x5 : Vec F S1x64 .f32)
    (y7 y8 s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k1_pay4 x3 x1 x2 x4 x5) ∗ owns (c : Thread nD τ) arg7 fullShare y7 ∗ owns (c : Thread nD τ) arg8 fullShare y8
            ∗ owns (c : Thread nD τ) arg9 fullShare (k1_pay5 x3 x1 x2 x4 x5 s0)
            ∗ owns (c : Thread nD τ) arg10 fullShare (k1_pay1 s1 (k1_pay6 x3 x1 x2 x4 x5))) -∗ K ⟨⟩))
      ⊢ wp frame (wpE (defs₀ (F := F)) Variants.none c none) E (cc1_linear_stats_kernel i arg1 harg1 arg2 harg2 arg3 harg3 arg4 harg4 arg5 harg5 arg6 harg6 arg7 harg7 arg8 harg8 arg9 harg9 arg10 harg10) K := by
  simp only [cc1_linear_stats_kernel_eq_skeleton]; unfold cc1_linear_stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole1_mid (S := S5000x64) _ _ offsZero1_mid inb_S5000x64_S5000x64_0_0 _ _).trans ?_
    simp only [View.readCov_unit_zero (S := S1x64) _ offsZero1_mid, loadWhole1_mid (S := S1x64) _ offsZero1_mid, loadWhole1_mid (S := S5000x64) _ offsZero1_mid, loadWhole1_mid (S := S64x64) _ offsZero1_mid]
  isplitl [H7]; · iexact H7
  isplitl [H8]; · iexact H8
  isplitl [H9]
  · iexists _; isplitr
    swap; · iexact H9
    ipureintro
    (try sl_unfold_words)
    refine (storeWhole1_mid (S := S1x64) _ _ offsZero1_mid inb_S1x64_S1x64_0_0 _ _).trans ?_
    simp only [View.readCov_unit_zero (S := S1x64) _ offsZero1_mid, loadWhole1_mid (S := S1x64) _ offsZero1_mid, loadWhole1_mid (S := S5000x64) _ offsZero1_mid, loadWhole1_mid (S := S64x64) _ offsZero1_mid]
  iexists _; isplitr
  swap; · iexact H10
  ipureintro
  (try sl_unfold_words)
  refine (storeWhole1_mid (S := S1x64) _ _ offsZero1_mid inb_S1x64_S1x64_0_0 _ _).trans ?_
  simp only [View.readCov_unit_zero (S := S1x64) _ offsZero1_mid, loadWhole1_mid (S := S1x64) _ offsZero1_mid, loadWhole1_mid (S := S5000x64) _ offsZero1_mid, loadWhole1_mid (S := S64x64) _ offsZero1_mid]

end Cert.KernelIdeal.Gen
end
-- ==== Proof.KI.Reg1.RunLast.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero1_last : (![0, 0] : Fin 2 → Nat) = fun _ => 0 := funext fun a => by fin_cases a <;> rfl

/-- A store through the whole-shape rectangle, made last, leaves its payload, whatever was stored before. -/
theorem storeWhole1_last {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole1_last {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the last point: the first conditional block does not run, the last one does and copies the two
    accumulators into the two small outputs. On whole memrefs — the five inputs at their contents, the three outputs at
    anything, the two accumulators at what the points before left — it stores the affine image of the inputs into the
    big output, adds that block's column sums and the column sums of its square to the accumulators, and leaves each small
    output at its accumulator's final contents. -/
theorem run1_last (c : Dev nD) (i : grid1.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : k1_cond2 i = 1#1)
    (x1 x2 : Vec F S5000x64 .f32) (x3 : Vec F S1x64 .f32) (x4 : Vec F S64x64 .f32) (x5 : Vec F S1x64 .f32)
    (s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k1_pay4 x3 x1 x2 x4 x5)
            ∗ owns (c : Thread nD τ) arg7 fullShare (k1_pay5 x3 x1 x2 x4 x5 s0)
            ∗ owns (c : Thread nD τ) arg8 fullShare (k1_pay1 s1 (k1_pay6 x3 x1 x2 x4 x5))
            ∗ owns (c : Thread nD τ) arg9 fullShare (k1_pay5 x3 x1 x2 x4 x5 s0)
            ∗ owns (c : Thread nD τ) arg10 fullShare (k1_pay1 s1 (k1_pay6 x3 x1 x2 x4 x5))) -∗ K ⟨⟩))
      ⊢ wp frame (wpE (defs₀ (F := F)) Variants.none c none) E (cc1_linear_stats_kernel i arg1 harg1 arg2 harg2 arg3 harg3 arg4 harg4 arg5 harg5 arg6 harg6 arg7 harg7 arg8 harg8 arg9 harg9 arg10 harg10) K := by
  simp only [cc1_linear_stats_kernel_eq_skeleton]; unfold cc1_linear_stats_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole1_last (S := S5000x64) _ _ offsZero1_last inb_S5000x64_S5000x64_0_0 _ _).trans ?_
    simp only [View.readCov_unit_zero (S := S1x64) _ offsZero1_last, loadWhole1_last (S := S1x64) _ offsZero1_last, loadWhole1_last (S := S5000x64) _ offsZero1_last, loadWhole1_last (S := S64x64) _ offsZero1_last]
  isplitl [H7]
  · iexists _; isplitr
    swap; · iexact H7
    ipureintro
    (try sl_unfold_words)
    refine (storeWhole1_last (S := S1x64) _ _ offsZero1_last inb_S1x64_S1x64_0_0 _ _).trans ?_
    simp only [View.readCov_unit_zero (S := S1x64) _ offsZero1_last, loadWhole1_last (S := S1x64) _ offsZero1_last, loadWhole1_last (S := S5000x64) _ offsZero1_last, loadWhole1_last (S := S64x64) _ offsZero1_last]
  isplitl [H8]
  · iexists _; isplitr
    swap; · iexact H8
    ipureintro
    (try sl_unfold_words)
    refine (storeWhole1_last (S := S1x64) _ _ offsZero1_last inb_S1x64_S1x64_0_0 _ _).trans ?_
    simp only [View.readCov_unit_zero (S := S1x64) _ offsZero1_last, loadWhole1_last (S := S1x64) _ offsZero1_last, loadWhole1_last (S := S5000x64) _ offsZero1_last, loadWhole1_last (S := S64x64) _ offsZero1_last]
  isplitl [H9]
  · iexists _; isplitr
    swap; · iexact H9
    ipureintro
    (try sl_unfold_words)
    refine (storeWhole1_last (S := S1x64) _ _ offsZero1_last inb_S1x64_S1x64_0_0 _ _).trans ?_
    simp only [View.readCov_unit_zero (S := S1x64) _ offsZero1_last, loadWhole1_last (S := S1x64) _ offsZero1_last, loadWhole1_last (S := S5000x64) _ offsZero1_last, loadWhole1_last (S := S64x64) _ offsZero1_last]
  iexists _; isplitr
  swap; · iexact H10
  ipureintro
  (try sl_unfold_words)
  refine (storeWhole1_last (S := S1x64) _ _ offsZero1_last inb_S1x64_S1x64_0_0 _ _).trans ?_
  simp only [View.readCov_unit_zero (S := S1x64) _ offsZero1_last, loadWhole1_last (S := S1x64) _ offsZero1_last, loadWhole1_last (S := S5000x64) _ offsZero1_last, loadWhole1_last (S := S64x64) _ offsZero1_last]

end Cert.KernelIdeal.Gen
end
-- ==== Proof.KI.Reg1.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«140206_j52750788330061_1_alg».proof.Proof.KI.Reg1.RunFirst
import proofs.«140206_j52750788330061_1_alg».proof.Proof.KI.Reg1.RunMid
import proofs.«140206_j52750788330061_1_alg».proof.Proof.KI.Reg1.RunLast
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which points run which conditional block -/

/-- The first block's condition, as the body computes it from the grid coordinate, holds at point 0 only. -/
theorem first1_iff : ∀ t : Fin cfg1.N,
    (Scalar.cmpi .ne (Scalar.extui (Scalar.cmpi .eq (BitVec.ofNat 32 ((grid1.coords t) 0).val) 0#32)) 0#32) = 1#1 ↔ t.val = 0 :=
  (by decide +kernel : ∀ t : Fin grid1.N,
    (Scalar.cmpi .ne (Scalar.extui (Scalar.cmpi .eq (BitVec.ofNat 32 ((grid1.coords t) 0).val) 0#32)) 0#32) = 1#1 ↔ t.val = 0)

/-- The last block's condition holds at point 9 only. -/
theorem last1_iff : ∀ t : Fin cfg1.N, k1_cond2 (grid1.coords t) = 1#1 ↔ t.val = 9 :=
  (by decide +kernel : ∀ t : Fin grid1.N, k1_cond2 (grid1.coords t) = 1#1 ↔ t.val = 9)

/-- The two small outputs are idle at every point but the last, -/
theorem idleAt1_6 : ∀ t : Fin cfg1.N, t.val ≠ 9 → cfg1.idle 6 (grid1.coords t) = true := by decide +kernel
theorem idleAt1_7 : ∀ t : Fin cfg1.N, t.val ≠ 9 → cfg1.idle 7 (grid1.coords t) = true := by decide +kernel
/-- live at the last, -/
theorem liveAt1_6 : ∀ t : Fin cfg1.N, t.val = 9 → cfg1.idle 6 (grid1.coords t) = false := by decide +kernel
theorem liveAt1_7 : ∀ t : Fin cfg1.N, t.val = 9 → cfg1.idle 7 (grid1.coords t) = false := by decide +kernel
/-- and not written back before it. -/
theorem noFlush1_6 : ∀ t : Fin cfg1.N, t.val ≠ 9 → (cfg1.win 6).flush t = false :=
  (by decide +kernel : ∀ t : Fin grid1.N, t.val ≠ 9 → win1_6.flush t = false)
theorem noFlush1_7 : ∀ t : Fin cfg1.N, t.val ≠ 9 → (cfg1.win 7).flush t = false :=
  (by decide +kernel : ∀ t : Fin grid1.N, t.val ≠ 9 → win1_7.flush t = false)

variable (V : (c : Dev nD) → (b : Ref sig .tc) → Buf (Elt F) ((c : Thread nD τ).loc b))

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (the three small
    inputs are fetched once, at the first point, and their block index never moves), for any proof data whose array is
    `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two running column sums -/

/-- What the two accumulators hold after the first `n` points: zero rows before any point; each point adds the column
    sums of its affine block to the first and the column sums of that block's square to the second. -/
noncomputable def acc1 (c : Dev nD) : ℕ → Vec F S1x64 .f32 × Vec F S1x64 .f32
  | 0 => (k1_pay2, k1_pay3)
  | n + 1 =>
    if h : n < cfg1.N then
      (k1_pay5 (iblk1 V c 2 ⟨n, h⟩) (iblk1 V c 0 ⟨n, h⟩) (iblk1 V c 1 ⟨n, h⟩) (iblk1 V c 3 ⟨n, h⟩) (iblk1 V c 4 ⟨n, h⟩) (acc1 c n).1,
        k1_pay1 (acc1 c n).2 (k1_pay6 (iblk1 V c 2 ⟨n, h⟩) (iblk1 V c 0 ⟨n, h⟩) (iblk1 V c 1 ⟨n, h⟩) (iblk1 V c 3 ⟨n, h⟩) (iblk1 V c 4 ⟨n, h⟩)))
    else acc1 c n

/-- Before any point both accumulators are the zero rows. -/
theorem acc1_zero (c : Dev nD) : acc1 V c 0 = (k1_pay2, k1_pay3) := rfl

/-- One point's step: the accumulators after point `n` from those before it and the point's input blocks. -/
theorem acc1_succ (c : Dev nD) (n : ℕ) (h : n < cfg1.N) :
    acc1 V c (n + 1) =
      (k1_pay5 (iblk1 V c 2 ⟨n, h⟩) (iblk1 V c 0 ⟨n, h⟩) (iblk1 V c 1 ⟨n, h⟩) (iblk1 V c 3 ⟨n, h⟩) (iblk1 V c 4 ⟨n, h⟩) (acc1 V c n).1,
        k1_pay1 (acc1 V c n).2 (k1_pay6 (iblk1 V c 2 ⟨n, h⟩) (iblk1 V c 0 ⟨n, h⟩) (iblk1 V c 1 ⟨n, h⟩) (iblk1 V c 3 ⟨n, h⟩) (iblk1 V c 4 ⟨n, h⟩))) := by
  rw [acc1]; exact dif_pos h

/-- The first point's step, from the zero rows. -/
theorem acc1_zero_step (c : Dev nD) :
    acc1 V c 1 =
      (k1_pay5 (iblk1 V c 2 t1_0) (iblk1 V c 0 t1_0) (iblk1 V c 1 t1_0) (iblk1 V c 3 t1_0) (iblk1 V c 4 t1_0) k1_pay2,
        k1_pay1 k1_pay3 (k1_pay6 (iblk1 V c 2 t1_0) (iblk1 V c 0 t1_0) (iblk1 V c 1 t1_0) (iblk1 V c 3 t1_0) (iblk1 V c 4 t1_0))) :=
  acc1_succ V c 0 t1_0.isLt

/-! ## The invariant between points -/

/-- The two accumulators, as whole memrefs of the kernel's own scoped buffers. -/
abbrev sc1_0 : Memref sig .tc .vmem S1x64 .f32 := Memref.whole cc1_scratch0
abbrev sc1_1 : Memref sig .tc .vmem S1x64 .f32 := Memref.whole cc1_scratch1

/-- Every other scoped buffer of the core that is no staging buffer of this call, at some contents each. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the launch hands the region, with the two accumulators named: each at some contents, beside the other scoped
    buffers and the generator register. -/
theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d)) ∗ rest1 c)
          ∗ (∃ r, prngReg c r)) := by
  unfold Pipeline.ΦA; rw [scopedRest1_split]; simp only [sc1_0, sc1_1, owns_whole]; try rfl

/-- The invariant before position `n`: before the first point what the launch hands over; afterwards the two accumulators
    at the running column sums over the points so far, beside the other scoped buffers and the generator register. -/
noncomputable def Phi1 (c : Dev nD) : ℕ → sProp 𝕄
  | 0 => Pipeline.ΦA spec1 c
  | n + 1 =>
    iprop(iprop(iprop(owns (c : Thread nD τ) sc1_0 fullShare (acc1 V c (n + 1)).1 ∗ owns (c : Thread nD τ) sc1_1 fullShare (acc1 V c (n + 1)).2) ∗ rest1 c)
      ∗ (∃ r, prngReg c r))

theorem Phi1_zero (c : Dev nD) : Phi1 V c 0 = Pipeline.ΦA spec1 c := rfl

theorem Phi1_succ (c : Dev nD) (n : ℕ) :
    Phi1 V c (n + 1) =
      iprop(iprop(iprop(owns (c : Thread nD τ) sc1_0 fullShare (acc1 V c (n + 1)).1 ∗ owns (c : Thread nD τ) sc1_1 fullShare (acc1 V c (n + 1)).2) ∗ rest1 c)
        ∗ (∃ r, prngReg c r)) := rfl

/-- After any point the accumulators are named. -/
theorem Phi1_pos (c : Dev nD) (n : ℕ) (hn : n ≠ 0) :
    Phi1 V c n =
      iprop(iprop(iprop(owns (c : Thread nD τ) sc1_0 fullShare (acc1 V c n).1 ∗ owns (c : Thread nD τ) sc1_1 fullShare (acc1 V c n).2) ∗ rest1 c)
        ∗ (∃ r, prngReg c r)) := by
  cases n with
  | zero => exact absurd rfl hn
  | succ n => rfl

/-! ## The proof data -/

/-- The proof data of this call on core `c`: the arrays as the region finds them (`V`); after the body at point `t` each
    input's buffer at its block, the big output's at the affine image of the point's blocks, each small output's at its
    running column sum through point `t` (consulted at the last point only: before it the window is idle); the invariant
    `Phi1`; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay4 (iblk1 V c 2 t) (iblk1 V c 0 t) (iblk1 V c 1 t) (iblk1 V c 3 t) (iblk1 V c 4 t)
    | ⟨6, _⟩ => (acc1 V c (t.val + 1)).1
    | ⟨7, _⟩ => (acc1 V c (t.val + 1)).2
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_big (c : Dev nD) (t : Fin cfg1.N) :
    (dat1 V c).after 5 t = k1_pay4 (iblk1 V c 2 t) (iblk1 V c 0 t) (iblk1 V c 1 t) (iblk1 V c 3 t) (iblk1 V c 4 t) := by dsimp only [dat1]
theorem after1_6 (c : Dev nD) (t : Fin cfg1.N) : (dat1 V c).after 6 t = (acc1 V c (t.val + 1)).1 := by dsimp only [dat1]
theorem after1_7 (c : Dev nD) (t : Fin cfg1.N) : (dat1 V c).after 7 t = (acc1 V c (t.val + 1)).2 := by dsimp only [dat1]
/-- At the last point the small outputs hold the column sums over all ten points. -/
theorem after1_s (c : Dev nD) : (dat1 V c).after 6 t1_9 = (acc1 V c 10).1 := after1_6 V c t1_9
theorem after1_ss (c : Dev nD) : (dat1 V c).after 7 t1_9 = (acc1 V c 10).2 := after1_7 V c t1_9

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The invariant at a point's start and end, at the point's number. -/
theorem Phi1_castSucc (c : Dev nD) (t : Fin cfg1.N) : (dat1 V c).Φ t.castSucc = Phi1 V c t.val := by
  dsimp only [dat1]; simp only [Fin.coe_castSucc]
theorem Phi1_succ_pt (c : Dev nD) (t : Fin cfg1.N) : (dat1 V c).Φ t.succ = Phi1 V c (t.val + 1) := by
  dsimp only [dat1]; simp only [Fin.val_succ]

/-- What the launch hands the region is the invariant before the first point. -/
theorem hin1 (c : Dev nD) : Pipeline.ΦA spec1 c ⊢ (dat1 V c).Φ 0 := by
  rw [show (dat1 V c).Φ 0 = Phi1 V c 0 from rfl, Phi1_zero]
  try exact Idealize.SL.BI.Entails.refl _

/-- After the last point the invariant gives it back: the accumulators' named contents are forgotten. -/
theorem hout1 (c : Dev nD) : (dat1 V c).Φ (Fin.last cfg1.N) ⊢ Pipeline.ΦA spec1 c := by
  rw [show (dat1 V c).Φ (Fin.last cfg1.N) = Phi1 V c cfg1.N from rfl,
    Phi1_pos V c cfg1.N (by have : cfg1.N = 10 := N_1; omega), PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! ## The body obligation -/

/-- What the body is called with at point `t`, the windows one by one, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- The inputs and the big output are live at every point: the body leaves each at its stated contents. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) :
    (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) :
    (dat1 V c).leavesExact 5 t = owns (c : Thread nD τ) (st1_5 t) fullShare
      (k1_pay4 (iblk1 V c 2 t) (iblk1 V c 0 t) (iblk1 V c 1 t) (iblk1 V c 3 t) (iblk1 V c 4 t)) := by
  unfold Dat.leavesExact; rw [show cfg1.idle 5 (cfg1.grid.coords t) = false from rfl, after1_big]
/-- The small outputs are live at the last point. -/
theorem leaves1_6_last (c : Dev nD) (t : Fin cfg1.N) (h9 : t.val = 9) :
    (dat1 V c).leavesExact 6 t = owns (c : Thread nD τ) (st1_6 t) fullShare (acc1 V c (t.val + 1)).1 := by
  unfold Dat.leavesExact; rw [liveAt1_6 t h9, after1_6]
theorem leaves1_7_last (c : Dev nD) (t : Fin cfg1.N) (h9 : t.val = 9) :
    (dat1 V c).leavesExact 7 t = owns (c : Thread nD τ) (st1_7 t) fullShare (acc1 V c (t.val + 1)).2 := by
  unfold Dat.leavesExact; rw [liveAt1_7 t h9, after1_7]

set_option maxHeartbeats 4000000 in
/-- The body at any point. The inputs' memrefs hold their blocks; the point's number says which of the three control
    cases it is in, and that case's run applies. The invariant hands the body the two accumulators — at anything at the
    first point, at the running sums afterwards — and takes them back at the sums through this point; the other scoped
    buffers, the generator register and the core's dues pass through untouched. Before the last point the small outputs'
    buffers are handed back as found; at the last they come back at the final sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi1_castSucc, Phi1_succ_pt, Phi1_succ]
  rw [leaves1_0, leaves1_1, leaves1_2, leaves1_3, leaves1_4, leaves1_5]
  have hN : t.val < 10 := lt_of_lt_of_eq t.isLt (show cfg1.N = 10 from N_1)
  by_cases h9 : t.val = 9
  · have h0 : t.val ≠ 0 := by omega
    rw [leaves1_6_last V c t h9, leaves1_7_last V c t h9, acc1_succ V c t.val t.isLt, Phi1_pos V c t.val h0]
    simp only [Fin.eta]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_last c (grid1.coords t) _ _ _ _ _ _ _ _ _ _ _ _ _ _ _ _ _ _ _ _ (fun h => h0 ((first1_iff t).mp h)) ((last1_iff t).mpr h9)
      (iblk1 V c 0 t) (iblk1 V c 1 t) (iblk1 V c 2 t) (iblk1 V c 3 t) (iblk1 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat1 V c) 6 t (idleAt1_6 t h9) (noFlush1_6 t h9),
      Dat.leavesExact_idle (dat1 V c) 7 t (idleAt1_7 t h9) (noFlush1_7 t h9), acc1_succ V c t.val t.isLt]
    simp only [Fin.eta]
    by_cases h0 : t.val = 0
    · rw [show Phi1 V c t.val = Pipeline.ΦA spec1 c from by rw [h0]; rfl,
        show acc1 V c t.val = (k1_pay2, k1_pay3) from by rw [h0]; rfl, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_first c (grid1.coords t) _ _ _ _ _ _ _ _ _ _ _ _ _ _ _ _ _ _ _ _ ((first1_iff t).mpr h0) (fun h => h9 ((last1_iff t).mp h))
        (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [Phi1_pos V c t.val h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_mid c (grid1.coords t) _ _ _ _ _ _ _ _ _ _ _ _ _ _ _ _ _ _ _ _ (fun h => h0 ((first1_iff t).mp h)) (fun h => h9 ((last1_iff t).mp h))
        (iblk1 V c 0 t) (iblk1 V c 1 t) (iblk1 V c 2 t) (iblk1 V c 3 t) (iblk1 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen
end
-- ==== Proof.KI.Reg2.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Batch-norm, relu and a linear map of a row block, with the column sums of the result and of its square
accumulated over the ten row blocks -/

/-- The offsets of every access of this kernel are zero. -/
theorem hzeroR2 : (![0, 0] : Fin 2 → Nat) = fun _ => 0 := funext fun a => by fin_cases a <;> rfl

/-! ## The body's two branch conditions -/

/-- The first conditional (the accumulators are zeroed) tests the row-block number against 0. -/
abbrev cond2_0 (i : grid2.Coords) : Prop := (Scalar.cmpi .ne (Scalar.extui (Scalar.cmpi .eq (BitVec.ofNat 32 (i 0).val) 0#32)) 0#32) = 1#1
/-- The second (the accumulators are copied to the two small outputs) tests it against 9. -/
abbrev cond2_1 (i : grid2.Coords) : Prop := k2_cond2 i = 1#1

/-- The first holds at row block 0 only. -/
theorem hcond2_0 : ∀ t : Fin cfg2.N, cond2_0 (grid2.coords t) ↔ t.val = 0 :=
  (by decide +kernel : ∀ t : Fin grid2.N, cond2_0 (grid2.coords t) ↔ t.val = 0)
/-- The second holds at row block 9 only. -/
theorem hcond2_1 : ∀ t : Fin cfg2.N, cond2_1 (grid2.coords t) ↔ t.val = 9 :=
  (by decide +kernel : ∀ t : Fin grid2.N, cond2_1 (grid2.coords t) ↔ t.val = 9)

/-! ## What one row block contributes, as functions of the seven input blocks

`xz` the row block of z, `xs` and `xq` the column sums of z and of its square over all rows, `xg`, `xe` the scale and
shift of the normalization, `xw` the weights, `xb` the bias. -/

/-- The normalized, rectified row block times the weights. -/
def mm2 (xz : Vec F S5000x64 .f32) (xs xq xg xe : Vec F S1x64 .f32) (xw : Vec F S64x64 .f32) : Vec F S5000x64 .f32 :=
  k2_pay6 xs xq xz xg xe xw
/-- The row block of the result: the product plus the bias. -/
def big2 (xz : Vec F S5000x64 .f32) (xs xq xg xe : Vec F S1x64 .f32) (xw : Vec F S64x64 .f32) (xb : Vec F S1x64 .f32) : Vec F S5000x64 .f32 :=
  k2_pay1 (mm2 xz xs xq xg xe xw) xb
/-- The running column sum `a` plus this block's column sum. -/
def sum2 (xz : Vec F S5000x64 .f32) (xs xq xg xe : Vec F S1x64 .f32) (xw : Vec F S64x64 .f32) (xb a : Vec F S1x64 .f32) : Vec F S1x64 .f32 :=
  k2_pay2 (mm2 xz xs xq xg xe xw) xb a
/-- The running column sum of squares `a` plus this block's. -/
def sq2 (xz : Vec F S5000x64 .f32) (xs xq xg xe : Vec F S1x64 .f32) (xw : Vec F S64x64 .f32) (xb a : Vec F S1x64 .f32) : Vec F S1x64 .f32 :=
  k2_pay3 (mm2 xz xs xq xg xe xw) xb a

/-- One whole-buffer store covers the buffer (a row of 64; a block of 5000 rows). -/
theorem coverRow2 (w : (Rect.unit (s := S1x64) ![0, 0] S1x64.size inb_S1x64_S1x64_0_0).shape.Idx → Elt F .f32) (y : S1x64.Idx) :
    ∃ p ∈ ([⟨Rect.unit (s := S1x64) ![0, 0] S1x64.size inb_S1x64_S1x64_0_0, w⟩] : List (View.Piece (Elt F) S1x64 .f32)), y ∈ p.1.set :=
  ⟨_, List.mem_singleton_self _, View.mem_set_unit_zero hzeroR2 inb_S1x64_S1x64_0_0 y⟩
theorem coverBlock2 (w : (Rect.unit (s := S5000x64) ![0, 0] S5000x64.size inb_S5000x64_S5000x64_0_0).shape.Idx → Elt F .f32) (y : S5000x64.Idx) :
    ∃ p ∈ ([⟨Rect.unit (s := S5000x64) ![0, 0] S5000x64.size inb_S5000x64_S5000x64_0_0, w⟩] : List (View.Piece (Elt F) S5000x64 .f32)), y ∈ p.1.set :=
  ⟨_, List.mem_singleton_self _, View.mem_set_unit_zero hzeroR2 inb_S5000x64_S5000x64_0_0 y⟩

set_option maxHeartbeats 1000000 in
/-- ROW BLOCK 0 (the first conditional taken, the second not). The accumulators, held at anything, are zeroed first:
    the body leaves them at `sum2 … 0`, `sq2 … 0` (the zero rows being the payloads the kernel stores), the big output at
    `big2`, the two small outputs untouched. -/
theorem sound_kernel2_A (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : cond2_0 i) (hc1 : ¬cond2_1 i) (xz : Vec F S5000x64 .f32) (xs xq xg xe : Vec F S1x64 .f32) (xw : Vec F S64x64 .f32) (xb : Vec F S1x64 .f32)
    (xo xp : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ (∃ d, owns (c : Thread nD τ) arg11 fullShare d) ∗ (∃ d, owns (c : Thread nD τ) arg12 fullShare d)
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big2 xz xs xq xg xe xw xb)
            ∗ owns (c : Thread nD τ) arg9 fullShare xo ∗ owns (c : Thread nD τ) arg10 fullShare xp
            ∗ owns (c : Thread nD τ) arg11 fullShare (sum2 xz xs xq xg xe xw xb (k2_pay4 (F := F))) ∗ owns (c : Thread nD τ) arg12 fullShare (sq2 xz xs xq xg xe xw xb (k2_pay5 (F := F)))) -∗ K ⟨⟩))
      ⊢ wp frame (wpE (defs₀ (F := F)) Variants.none c none) E (cc2_bn_matmul_stats_kernel i arg1 harg1 arg2 harg2 arg3 harg3 arg4 harg4 arg5 harg5 arg6 harg6 arg7 harg7 arg8 harg8 arg9 harg9 arg10 harg10 arg11 harg11 arg12 harg12) K := by
  simp only [cc2_bn_matmul_stats_kernel_eq_skeleton]; unfold cc2_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%dva, %fva, -, Hva⟩, ⟨%dvq, %fvq, -, Hvq⟩, Hk⟩
  subst hfz hfs hfq hfg hfe hfw hfb hfo hfp
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock2 _), View.canon_unit_zero hzeroR2]
    sl_unfold_words
    unfold big2 mm2
    simp only [View.readAt_eq_ld, View.ld_unit_zero (S := S5000x64) hzeroR2, View.ld_unit_zero (S := S1x64) hzeroR2, View.ld_unit_zero (S := S64x64) hzeroR2]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (fun y => ⟨_, List.mem_cons.mpr (Or.inl rfl), View.mem_set_unit_zero hzeroR2 inb_S1x64_S1x64_0_0 y⟩)]
    sl_unfold_words
    rw [View.canon_cons_unit_zero (S := S1x64) hzeroR2, View.readCov_unit_zero (S := S1x64) _ hzeroR2]
    unfold sum2 mm2
    simp only [View.readAt_eq_ld, View.ld_unit_zero (S := S5000x64) hzeroR2, View.ld_unit_zero (S := S1x64) hzeroR2, View.ld_unit_zero (S := S64x64) hzeroR2]
  iexists _; isplitr
  swap; · iexact Hvq
  ipureintro
  rw [View.read_writes_eq_canon _ _ _ (fun y => ⟨_, List.mem_cons.mpr (Or.inl rfl), View.mem_set_unit_zero hzeroR2 inb_S1x64_S1x64_0_0 y⟩)]
  sl_unfold_words
  rw [View.canon_cons_unit_zero (S := S1x64) hzeroR2, View.readCov_unit_zero (S := S1x64) _ hzeroR2]
  unfold sq2 mm2
  simp only [View.readAt_eq_ld, View.ld_unit_zero (S := S5000x64) hzeroR2, View.ld_unit_zero (S := S1x64) hzeroR2, View.ld_unit_zero (S := S64x64) hzeroR2]

set_option maxHeartbeats 1000000 in
/-- ROW BLOCKS 1 TO 8 (neither conditional taken). On whole staging memrefs, the inputs at their blocks, the big
    output at anything, the two small outputs at contents handed back untouched, the two accumulators at `va`, `vq`:
    the body leaves the big output at `big2` and the accumulators at `sum2 … va`, `sq2 … vq`. -/
theorem sound_kernel2_B (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond2_0 i) (hc1 : ¬cond2_1 i) (xz : Vec F S5000x64 .f32) (xs xq xg xe : Vec F S1x64 .f32) (xw : Vec F S64x64 .f32) (xb : Vec F S1x64 .f32)
    (xo xp va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big2 xz xs xq xg xe xw xb)
            ∗ owns (c : Thread nD τ) arg9 fullShare xo ∗ owns (c : Thread nD τ) arg10 fullShare xp
            ∗ owns (c : Thread nD τ) arg11 fullShare (sum2 xz xs xq xg xe xw xb va) ∗ owns (c : Thread nD τ) arg12 fullShare (sq2 xz xs xq xg xe xw xb vq)) -∗ K ⟨⟩))
      ⊢ wp frame (wpE (defs₀ (F := F)) Variants.none c none) E (cc2_bn_matmul_stats_kernel i arg1 harg1 arg2 harg2 arg3 harg3 arg4 harg4 arg5 harg5 arg6 harg6 arg7 harg7 arg8 harg8 arg9 harg9 arg10 harg10 arg11 harg11 arg12 harg12) K := by
  simp only [cc2_bn_matmul_stats_kernel_eq_skeleton]; unfold cc2_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%fva, %hfva, Hva⟩, ⟨%fvq, %hfvq, Hvq⟩, Hk⟩
  subst hfz hfs hfq hfg hfe hfw hfb hfo hfp hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock2 _), View.canon_unit_zero hzeroR2]
    sl_unfold_words
    unfold big2 mm2
    simp only [View.readAt_eq_ld, View.ld_unit_zero (S := S5000x64) hzeroR2, View.ld_unit_zero (S := S1x64) hzeroR2, View.ld_unit_zero (S := S64x64) hzeroR2]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (coverRow2 _), View.canon_unit_zero hzeroR2]
    sl_unfold_words
    unfold sum2 mm2
    simp only [View.readAt_eq_ld, View.ld_unit_zero (S := S5000x64) hzeroR2, View.ld_unit_zero (S := S1x64) hzeroR2, View.ld_unit_zero (S := S64x64) hzeroR2]
  iexists _; isplitr
  swap; · iexact Hvq
  ipureintro
  rw [View.read_writes_eq_canon _ _ _ (coverRow2 _), View.canon_unit_zero hzeroR2]
  sl_unfold_words
  unfold sq2 mm2
  simp only [View.readAt_eq_ld, View.ld_unit_zero (S := S5000x64) hzeroR2, View.ld_unit_zero (S := S1x64) hzeroR2, View.ld_unit_zero (S := S64x64) hzeroR2]

set_option maxHeartbeats 1000000 in
/-- ROW BLOCK 9 (the second conditional taken, the first not). As at row blocks 1 to 8, and then each accumulator is
    copied whole to its small output, held at anything before. -/
theorem sound_kernel2_C (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond2_0 i) (hc1 : cond2_1 i) (xz : Vec F S5000x64 .f32) (xs xq xg xe : Vec F S1x64 .f32) (xw : Vec F S64x64 .f32) (xb : Vec F S1x64 .f32)
    (va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big2 xz xs xq xg xe xw xb)
            ∗ owns (c : Thread nD τ) arg9 fullShare (sum2 xz xs xq xg xe xw xb va) ∗ owns (c : Thread nD τ) arg10 fullShare (sq2 xz xs xq xg xe xw xb vq)
            ∗ owns (c : Thread nD τ) arg11 fullShare (sum2 xz xs xq xg xe xw xb va) ∗ owns (c : Thread nD τ) arg12 fullShare (sq2 xz xs xq xg xe xw xb vq)) -∗ K ⟨⟩))
      ⊢ wp frame (wpE (defs₀ (F := F)) Variants.none c none) E (cc2_bn_matmul_stats_kernel i arg1 harg1 arg2 harg2 arg3 harg3 arg4 harg4 arg5 harg5 arg6 harg6 arg7 harg7 arg8 harg8 arg9 harg9 arg10 harg10 arg11 harg11 arg12 harg12) K := by
  simp only [cc2_bn_matmul_stats_kernel_eq_skeleton]; unfold cc2_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%do9, %fo, -, Ho⟩, ⟨%dp, %fp, -, Hp⟩, ⟨%fva, %hfva, Hva⟩, ⟨%fvq, %hfvq, Hvq⟩, Hk⟩
  subst hfz hfs hfq hfg hfe hfw hfb hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock2 _), View.canon_unit_zero hzeroR2]
    sl_unfold_words
    unfold big2 mm2
    simp only [View.readAt_eq_ld, View.ld_unit_zero (S := S5000x64) hzeroR2, View.ld_unit_zero (S := S1x64) hzeroR2, View.ld_unit_zero (S := S64x64) hzeroR2]
  isplitl [Ho]
  · iexists _; isplitr
    swap; · iexact Ho
    ipureintro
    rw [View.read_writes_eq_canon _ _ _ (coverRow2 _), View.canon_unit_zero hzeroR2]
    sl_unfold_words
    rw [View.readCov_unit_zero (S := S1x64) _ hzeroR2]
    unfold sum2 mm2
    simp only [View.readAt_eq_ld, View.ld_unit_zero (S := S5000x64) hzeroR2, View.ld_unit_zero (S := S1x64) hzeroR2, View.ld_unit_zero (S := S64x64) hzeroR2]
  isplitl [Hp]
  · iexists _; isplitr
    swap; · iexact Hp
    ipureintro
    rw [View.read_writes_eq_canon _ _ _ (coverRow2 _), View.canon_unit_zero hzeroR2]
    sl_unfold_words
    rw [View.readCov_unit_zero (S := S1x64) _ hzeroR2]
    unfold sq2 mm2
    simp only [View.readAt_eq_ld, View.ld_unit_zero (S := S5000x64) hzeroR2, View.ld_unit_zero (S := S1x64) hzeroR2, View.ld_unit_zero (S := S64x64) hzeroR2]
  isplitl [Hva]
  · iexists _; isplitr
    swap; · iexact Hva
    ipureintro
    sl_unfold_words
    rw [View.read_writes_eq_canon _ _ _ (coverRow2 _), View.canon_unit_zero hzeroR2]
    unfold sum2 mm2
    simp only [View.readAt_eq_ld, View.ld_unit_zero (S := S5000x64) hzeroR2, View.ld_unit_zero (S := S1x64) hzeroR2, View.ld_unit_zero (S := S64x64) hzeroR2]
  iexists _; isplitr
  swap; · iexact Hvq
  ipureintro
  sl_unfold_words
  rw [View.read_writes_eq_canon _ _ _ (coverRow2 _), View.canon_unit_zero hzeroR2]
  unfold sq2 mm2
  simp only [View.readAt_eq_ld, View.ld_unit_zero (S := S5000x64) hzeroR2, View.ld_unit_zero (S := S1x64) hzeroR2, View.ld_unit_zero (S := S64x64) hzeroR2]

-- the TensorCore's buffer contents when the region is entered
variable (V : (c : Dev nD) → (b : Ref sig .tc) → Buf (Elt F) ((c : Thread nD τ).loc b))

/-! ## The windows' blocks -/

/-- Window `w`'s block at row block `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every row block, fetched there or not, for any proof
    data whose array is the entry contents and whose body leaves the block in place (an input not fetched again keeps
    its block index). -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## Where the two small outputs are idle -/

/-- Before row block 9 the two small outputs are idle and are not written back. -/
theorem idleAt2_8 : ∀ t : Fin cfg2.N, ¬cond2_1 (grid2.coords t) → cfg2.idle 8 (grid2.coords t) = true := by decide +kernel
theorem idleAt2_9 : ∀ t : Fin cfg2.N, ¬cond2_1 (grid2.coords t) → cfg2.idle 9 (grid2.coords t) = true := by decide +kernel
theorem noFlush2_8 : ∀ t : Fin cfg2.N, ¬cond2_1 (grid2.coords t) → (cfg2.win 8).flush t = false := by decide +kernel
theorem noFlush2_9 : ∀ t : Fin cfg2.N, ¬cond2_1 (grid2.coords t) → (cfg2.win 9).flush t = false := by decide +kernel
/-- At row block 9 they are live. -/
theorem liveAt2_8 : ∀ t : Fin cfg2.N, cond2_1 (grid2.coords t) → cfg2.idle 8 (grid2.coords t) = false := by decide +kernel
theorem liveAt2_9 : ∀ t : Fin cfg2.N, cond2_1 (grid2.coords t) → cfg2.idle 9 (grid2.coords t) = false := by decide +kernel

/-! ## The two accumulators, row block by row block -/

/-- What the two accumulators hold after the first `n` row blocks: zero rows, then each block's column sums added in
    order (past the last row block nothing changes). -/
def acc2 (c : Dev nD) : ℕ → Vec F S1x64 .f32 × Vec F S1x64 .f32
  | 0 => (k2_pay4, k2_pay5)
  | n + 1 => if h : n < cfg2.N then
      (sum2 (iblk2 V c 0 ⟨n, h⟩) (iblk2 V c 1 ⟨n, h⟩) (iblk2 V c 2 ⟨n, h⟩) (iblk2 V c 3 ⟨n, h⟩) (iblk2 V c 4 ⟨n, h⟩) (iblk2 V c 5 ⟨n, h⟩) (iblk2 V c 6 ⟨n, h⟩) (acc2 c n).1,
       sq2 (iblk2 V c 0 ⟨n, h⟩) (iblk2 V c 1 ⟨n, h⟩) (iblk2 V c 2 ⟨n, h⟩) (iblk2 V c 3 ⟨n, h⟩) (iblk2 V c 4 ⟨n, h⟩) (iblk2 V c 5 ⟨n, h⟩) (iblk2 V c 6 ⟨n, h⟩) (acc2 c n).2)
    else acc2 c n

theorem acc2_zero (c : Dev nD) : acc2 V c 0 = (k2_pay4, k2_pay5) := rfl

/-- One more row block: its column sums are added to what the blocks before left. -/
theorem acc2_succ (c : Dev nD) (t : Fin cfg2.N) : acc2 V c (t.val + 1) =
      (sum2 (iblk2 V c 0 t) (iblk2 V c 1 t) (iblk2 V c 2 t) (iblk2 V c 3 t) (iblk2 V c 4 t) (iblk2 V c 5 t) (iblk2 V c 6 t) (acc2 V c t.val).1,
       sq2 (iblk2 V c 0 t) (iblk2 V c 1 t) (iblk2 V c 2 t) (iblk2 V c 3 t) (iblk2 V c 4 t) (iblk2 V c 5 t) (iblk2 V c 6 t) (acc2 V c t.val).2) := by
  obtain ⟨n, hn⟩ := t
  show (if h : n < cfg2.N then _ else _) = _
  rw [dif_pos hn]

/-- The first row block adds to the zero rows. -/
theorem acc2_zero_step (c : Dev nD) (t : Fin cfg2.N) (h : t.val = 0) : acc2 V c (t.val + 1) =
      (sum2 (iblk2 V c 0 t) (iblk2 V c 1 t) (iblk2 V c 2 t) (iblk2 V c 3 t) (iblk2 V c 4 t) (iblk2 V c 5 t) (iblk2 V c 6 t) (k2_pay4 (F := F)),
       sq2 (iblk2 V c 0 t) (iblk2 V c 1 t) (iblk2 V c 2 t) (iblk2 V c 3 t) (iblk2 V c 4 t) (iblk2 V c 5 t) (iblk2 V c 6 t) (k2_pay5 (F := F))) := by
  rw [acc2_succ, h]; rfl

theorem mm2_eq (xz : Vec F S5000x64 .f32) (xs xq xg xe : Vec F S1x64 .f32) (xw : Vec F S64x64 .f32) :
    mm2 xz xs xq xg xe xw = k2_pay6 xs xq xz xg xe xw := rfl
theorem big2_eq (xz : Vec F S5000x64 .f32) (xs xq xg xe : Vec F S1x64 .f32) (xw : Vec F S64x64 .f32) (xb : Vec F S1x64 .f32) :
    big2 xz xs xq xg xe xw xb = k2_pay1 (k2_pay6 xs xq xz xg xe xw) xb := rfl
theorem sum2_eq (xz : Vec F S5000x64 .f32) (xs xq xg xe : Vec F S1x64 .f32) (xw : Vec F S64x64 .f32) (xb a : Vec F S1x64 .f32) :
    sum2 xz xs xq xg xe xw xb a = k2_pay2 (k2_pay6 xs xq xz xg xe xw) xb a := rfl
theorem sq2_eq (xz : Vec F S5000x64 .f32) (xs xq xg xe : Vec F S1x64 .f32) (xw : Vec F S64x64 .f32) (xb a : Vec F S1x64 .f32) :
    sq2 xz xs xq xg xe xw xb a = k2_pay3 (k2_pay6 xs xq xz xg xe xw) xb a := rfl

/-! ## The region invariant -/

/-- The two accumulators: whole scoped buffers of the kernel's own. -/
abbrev scM2_0 : Memref sig .tc .vmem S1x64 .f32 := Memref.whole cc2_scratch0
abbrev scM2_1 : Memref sig .tc .vmem S1x64 .f32 := Memref.whole cc2_scratch1

/-- What the launch hands the region, with the two accumulators as memrefs owned at some contents beside the rest of the
    scoped buffers and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

/-- The invariant before row block `n`: before the first what the launch hands over; afterwards the two accumulators at
    what the row blocks so far left, beside the untouched rest. -/
def PhiS2 (c : Dev nD) : ℕ → sProp 𝕄
  | 0 => Pipeline.ΦA spec2 c
  | n + 1 => iprop(iprop(iprop(owns (c : Thread nD τ) scM2_0 fullShare (acc2 V c (n + 1)).1 ∗ owns (c : Thread nD τ) scM2_1 fullShare (acc2 V c (n + 1)).2)
          ∗ Pipeline.scopedRestBut spec2 c [cc2_scratch0, cc2_scratch1]) ∗ (∃ r, prngReg c r))

theorem PhiS2_zero (c : Dev nD) (n : ℕ) (hz : n = 0) : PhiS2 V c n = Pipeline.ΦA spec2 c := by subst hz; rfl

theorem PhiS2_pos (c : Dev nD) (n : ℕ) (hz : n ≠ 0) :
    PhiS2 V c n = iprop(iprop(iprop(owns (c : Thread nD τ) scM2_0 fullShare (acc2 V c n).1 ∗ owns (c : Thread nD τ) scM2_1 fullShare (acc2 V c n).2)
          ∗ Pipeline.scopedRestBut spec2 c [cc2_scratch0, cc2_scratch1]) ∗ (∃ r, prngReg c r)) := by
  cases n with
  | zero => exact absurd rfl hz
  | succ n => rfl

/-! ## The pipeline's proof data -/

/-- The proof data of this pipeline on core `c`: the arrays as the region finds them; after the body at row block `t`
    each input's buffer at its block, the big output's at `big2` of the input blocks, the two small outputs' at the
    accumulators after `t + 1` row blocks (what the last row block copies there; at the others, where they are idle,
    never consulted); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => big2 (iblk2 V c 0 t) (iblk2 V c 1 t) (iblk2 V c 2 t) (iblk2 V c 3 t) (iblk2 V c 4 t) (iblk2 V c 5 t) (iblk2 V c 6 t)
    | ⟨8, _⟩ => (acc2 V c (t.val + 1)).1
    | ⟨9, _⟩ => (acc2 V c (t.val + 1)).2
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_big (c : Dev nD) (t : Fin cfg2.N) : (dat2 V c).after 7 t = big2 (iblk2 V c 0 t) (iblk2 V c 1 t) (iblk2 V c 2 t) (iblk2 V c 3 t) (iblk2 V c 4 t) (iblk2 V c 5 t) (iblk2 V c 6 t) := by dsimp only [dat2]
theorem after2_s (c : Dev nD) (t : Fin cfg2.N) : (dat2 V c).after 8 t = (acc2 V c (t.val + 1)).1 := by dsimp only [dat2]
theorem after2_ss (c : Dev nD) (t : Fin cfg2.N) : (dat2 V c).after 9 t = (acc2 V c (t.val + 1)).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

theorem Phi2_castSucc (c : Dev nD) (t : Fin cfg2.N) : (dat2 V c).Φ t.castSucc = PhiS2 V c t.val := by
  dsimp only [dat2]; simp only [Fin.coe_castSucc]
theorem Phi2_succ (c : Dev nD) (t : Fin cfg2.N) : (dat2 V c).Φ t.succ = PhiS2 V c (t.val + 1) := by
  dsimp only [dat2]; simp only [Fin.val_succ]

/-! ## The body obligation, at a generic row block -/

/-- What the body is called with at row block `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

/-- Every window but the two small outputs is live at every row block: the body leaves its buffer at `after`. -/
theorem leaves2_0 (c : Dev nD) (t : Fin cfg2.N) : (dat2 V c).leavesExact 0 t = owns (c : Thread nD τ) (st2_0 t) fullShare ((dat2 V c).after 0 t) := rfl
theorem leaves2_1 (c : Dev nD) (t : Fin cfg2.N) : (dat2 V c).leavesExact 1 t = owns (c : Thread nD τ) (st2_1 t) fullShare ((dat2 V c).after 1 t) := rfl
theorem leaves2_2 (c : Dev nD) (t : Fin cfg2.N) : (dat2 V c).leavesExact 2 t = owns (c : Thread nD τ) (st2_2 t) fullShare ((dat2 V c).after 2 t) := rfl
theorem leaves2_3 (c : Dev nD) (t : Fin cfg2.N) : (dat2 V c).leavesExact 3 t = owns (c : Thread nD τ) (st2_3 t) fullShare ((dat2 V c).after 3 t) := rfl
theorem leaves2_4 (c : Dev nD) (t : Fin cfg2.N) : (dat2 V c).leavesExact 4 t = owns (c : Thread nD τ) (st2_4 t) fullShare ((dat2 V c).after 4 t) := rfl
theorem leaves2_5 (c : Dev nD) (t : Fin cfg2.N) : (dat2 V c).leavesExact 5 t = owns (c : Thread nD τ) (st2_5 t) fullShare ((dat2 V c).after 5 t) := rfl
theorem leaves2_6 (c : Dev nD) (t : Fin cfg2.N) : (dat2 V c).leavesExact 6 t = owns (c : Thread nD τ) (st2_6 t) fullShare ((dat2 V c).after 6 t) := rfl
theorem leaves2_7 (c : Dev nD) (t : Fin cfg2.N) : (dat2 V c).leavesExact 7 t = owns (c : Thread nD τ) (st2_7 t) fullShare ((dat2 V c).after 7 t) := rfl

set_option maxHeartbeats 4800000 in
/-- The body at any row block: the inputs' memrefs hold their blocks; the row-block number decides which of the three
    runs applies; the invariant hands the body the accumulators (at anything before the first row block, afterwards at
    what the blocks so far left) and takes them back with this block's column sums added; the rest of the scoped
    buffers, the generator register and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [Phi2_castSucc, Phi2_succ]
  rw [leaves2_0, leaves2_1, leaves2_2, leaves2_3, leaves2_4, leaves2_5, leaves2_6, leaves2_7,
    after2_0, after2_1, after2_2, after2_3, after2_4, after2_5, after2_6, after2_big]
  by_cases h0 : t.val = 0
  · -- row block 0
    have h9 : ¬t.val = 9 := by omega
    have hc0 : cond2_0 (grid2.coords t) := (hcond2_0 t).mpr h0
    have hc1 : ¬cond2_1 (grid2.coords t) := fun h => h9 ((hcond2_1 t).mp h)
    rw [Dat.leavesExact_idle (dat2 V c) 8 t (idleAt2_8 t hc1) (noFlush2_8 t hc1),
      Dat.leavesExact_idle (dat2 V c) 9 t (idleAt2_9 t hc1) (noFlush2_9 t hc1)]
    rw [PhiS2_zero V c _ h0, PhiA2_eq, PhiS2_pos V c _ (Nat.succ_ne_zero _), acc2_zero_step V c t h0]
    iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_A c Set.univ (grid2.coords t) _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [Hva]; · iexact Hva
    isplitl [Hvq]; · iexact Hvq
    iintro ⟨H0, H1, H2, H3, H4, H5, H6, H7, H8, H9, Hva, Hvq⟩
    isplitl [Hva Hvq Hrest Hg]
    · isplitl [Hva Hvq Hrest]
      · isplitl [Hva Hvq]
        · isplitl [Hva]; · iexact Hva
          iexact Hvq
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · by_cases h9 : t.val = 9
    · -- row block 9
      have hc0 : ¬cond2_0 (grid2.coords t) := fun h => h0 ((hcond2_0 t).mp h)
      have hc1 : cond2_1 (grid2.coords t) := (hcond2_1 t).mpr h9
      rw [show (dat2 V c).leavesExact 8 t = owns (c : Thread nD τ) (st2_8 t) fullShare ((dat2 V c).after 8 t) from by
          unfold Dat.leavesExact; rw [liveAt2_8 t hc1],
        show (dat2 V c).leavesExact 9 t = owns (c : Thread nD τ) (st2_9 t) fullShare ((dat2 V c).after 9 t) from by
          unfold Dat.leavesExact; rw [liveAt2_9 t hc1], after2_s, after2_ss]
      rw [PhiS2_pos V c _ h0, PhiS2_pos V c _ (Nat.succ_ne_zero _), acc2_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_C c Set.univ (grid2.coords t) _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- row blocks 1 to 8
      have hc0 : ¬cond2_0 (grid2.coords t) := fun h => h0 ((hcond2_0 t).mp h)
      have hc1 : ¬cond2_1 (grid2.coords t) := fun h => h9 ((hcond2_1 t).mp h)
      rw [Dat.leavesExact_idle (dat2 V c) 8 t (idleAt2_8 t hc1) (noFlush2_8 t hc1),
        Dat.leavesExact_idle (dat2 V c) 9 t (idleAt2_9 t hc1) (noFlush2_9 t hc1)]
      rw [PhiS2_pos V c _ h0, PhiS2_pos V c _ (Nat.succ_ne_zero _), acc2_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_B c Set.univ (grid2.coords t) _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every row block. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first row block. -/
theorem hin2 (c : Dev nD) : Pipeline.ΦA spec2 c ⊢ (dat2 V c).Φ 0 := by
  rw [show (dat2 V c).Φ 0 = PhiS2 V c 0 from rfl, PhiS2_zero V c 0 rfl]
  try exact Idealize.SL.BI.Entails.refl _

/-- After the last row block the invariant gives back what the launch handed over: the accumulators' named contents
    are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val from rfl,
    PhiS2_pos V c _ (by rw [Fin.val_last]; have : cfg2.N = 10 := N_2; omega), PhiA2_eq]
  iintro ⟨⟨⟨Hva, Hvq⟩, Hrest⟩, Hg⟩
  isplitl [Hva Hvq Hrest]
  · isplitl [Hva Hvq]
    · isplitl [Hva]; · iexists _; iexact Hva
      iexists _; iexact Hvq
    iexact Hrest
  iexact Hg

end Cert.KernelIdeal.Gen

end
-- ==== Proof.KI.Reg3.lean ====
/- The batch-norm-and-relu region of one layer, at the TensorCore's buffer contents V on entry, for any float type F.
   Six windows over a grid of ten row blocks: the row block of z (5000 x 64), then four (1 x 64) rows — the column
   sums of z, the column sums of z*z, the scale and the shift — and the output row block (5000 x 64).
   The body reads the five inputs whole and stores the output block whole, at every point, and keeps nothing from
   one point to the next; so after the body each input buffer still holds its block and the output buffer holds
   one payload: relu ((z - mean) * rsqrt (var + eps) * scale + shift) of the input blocks, as the skeleton names it. -/
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 5000-row rectangle is looked at structurally, once per row
set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input buffer holds its window's block at every point. The z block moves with the point and is fetched each
    time; the four rows are fetched at the first point only, and later points find them where they were left, which
    is right because their block index never moves. One library fact covers both: for proof data whose array is the
    entry contents and whose body leaves the block where it was, the buffer is what a fetch would put there. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What the body touches -/

/-- The whole of a 5000 x 64 block: the one rectangle the z load, the output's read and the output's store go through. -/
abbrev blockRect3 : Rect S5000x64 := Rect.unit (s := S5000x64) ![0, 0] S5000x64.size inb_S5000x64_S5000x64_0_0
/-- The whole of a 1 x 64 row: the rectangle each of the four row loads goes through. -/
abbrev rowRect3 : Rect S1x64 := Rect.unit (s := S1x64) ![0, 0] S1x64.size inb_S1x64_S1x64_0_0

/-! ## What the body leaves in the output buffer -/

/-- The output buffer after the body, from the five input blocks (z, the two sums, scale, shift, in window order):
    the single store's payload over the whole block, whatever the buffer held before. -/
def out3_5 (z : Vec F S5000x64 .f32) (s ss g b : Vec F S1x64 .f32) : Vec F S5000x64 .f32 :=
  View.canon [⟨blockRect3, k3_pay1 (View.ld s rowRect3) (View.ld ss rowRect3) (View.ld z blockRect3) (View.ld g rowRect3) (View.ld b rowRect3)⟩]

/-- The one store's rectangle is the whole block, so every index of the buffer lies in it. -/
theorem cover3_5 (p : Vec F S5000x64 .f32) (y : S5000x64.Idx) :
    ∃ pc ∈ ([⟨blockRect3, p⟩] : List (View.Piece (Elt F) S5000x64 .f32)), y ∈ pc.1.set :=
  View.cover_of_tiled [⟨blockRect3, p⟩] S5000x64.size (by rfl) y

/-! ## The body's triple -/

set_option maxHeartbeats 1000000 in
/-- Run on whole buffers — the five inputs' reading z, s, ss, g, b and the output's holding anything — the body hands
    its continuation the inputs as they were and the output at out3_5 of them. The printed function is its skeleton
    of loads and one store; the loads read the owned contents through whole rectangles, the output's own read is
    of whatever it held and is not used, and the store covers the buffer. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (z : Vec F S5000x64 .f32) (s ss g b : Vec F S1x64 .f32) (K : PUnit → sProp 𝕄) :
    iprop(owns (c : Thread nD τ) arg1 fullShare z ∗ owns (c : Thread nD τ) arg2 fullShare s ∗ owns (c : Thread nD τ) arg3 fullShare ss
        ∗ owns (c : Thread nD τ) arg4 fullShare g ∗ owns (c : Thread nD τ) arg5 fullShare b ∗ (∃ d, owns (c : Thread nD τ) arg6 fullShare d)
        ∗ (iprop(owns (c : Thread nD τ) arg1 fullShare z ∗ owns (c : Thread nD τ) arg2 fullShare s ∗ owns (c : Thread nD τ) arg3 fullShare ss
            ∗ owns (c : Thread nD τ) arg4 fullShare g ∗ owns (c : Thread nD τ) arg5 fullShare b
            ∗ owns (c : Thread nD τ) arg6 fullShare (out3_5 z s ss g b)) -∗ K ⟨⟩))
      ⊢ wp frame (wpE (defs₀ (F := F)) Variants.none c none) E (cc3_bn_relu_kernel i arg1 harg1 arg2 harg2 arg3 harg3 arg4 harg4 arg5 harg5 arg6 harg6) K := by
  simp only [cc3_bn_relu_kernel_eq_skeleton]; unfold cc3_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_5 _)

/-! ## The region's proof data -/

/-- The arrays are the entry contents; after the body at point t each input buffer holds its block and the output
    buffer out3_5 of the five input blocks there; the invariant is the one of a body that touches nothing but its
    buffers; full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the pipeline calls the body with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it has to give back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- At any point the input buffers hold their blocks, so the body's triple applies; the invariant and what is
    owed go through untouched, being the same before and after a point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this region's proof data, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Reg4.RunFirst.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero4_first : (![0, 0] : Fin 2 → Nat) = fun _ => 0 := funext fun a => by fin_cases a <;> rfl

/-- A store through the whole-shape rectangle, made last, leaves its payload, whatever was stored before. -/
theorem storeWhole4_first {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole4_first {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the first point: the first conditional block runs and zeroes both accumulators, the last does not run. On
    whole memrefs — the five inputs at their contents, the big output and both accumulators at anything, the two small
    outputs at contents handed back untouched — it stores the affine image of the inputs into the big output and leaves
    in the accumulators the zero rows plus that block's column sums and the column sums of its square. -/
theorem run4_first (c : Dev nD) (i : grid4.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : (Scalar.cmpi .ne (Scalar.extui (Scalar.cmpi .eq (BitVec.ofNat 32 (i 0).val) 0#32)) 0#32) = 1#1) (hlast : ¬ k4_cond2 i = 1#1)
    (x1 x2 : Vec F S5000x64 .f32) (x3 : Vec F S1x64 .f32) (x4 : Vec F S64x64 .f32) (x5 : Vec F S1x64 .f32)
    (y7 y8 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k4_pay4 x3 x1 x2 x4 x5) ∗ owns (c : Thread nD τ) arg7 fullShare y7 ∗ owns (c : Thread nD τ) arg8 fullShare y8
            ∗ owns (c : Thread nD τ) arg9 fullShare (k4_pay5 x3 x1 x2 x4 x5 k4_pay2)
            ∗ owns (c : Thread nD τ) arg10 fullShare (k4_pay1 k4_pay3 (k4_pay6 x3 x1 x2 x4 x5))) -∗ K ⟨⟩))
      ⊢ wp frame (wpE (defs₀ (F := F)) Variants.none c none) E (cc4_linear_stats_kernel i arg1 harg1 arg2 harg2 arg3 harg3 arg4 harg4 arg5 harg5 arg6 harg6 arg7 harg7 arg8 harg8 arg9 harg9 arg10 harg10) K := by
  simp only [cc4_linear_stats_kernel_eq_skeleton]; unfold cc4_linear_stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole4_first (S := S5000x64) _ _ offsZero4_first inb_S5000x64_S5000x64_0_0 _ _).trans ?_
    simp only [View.readCov_unit_zero (S := S1x64) _ offsZero4_first, loadWhole4_first (S := S1x64) _ offsZero4_first, loadWhole4_first (S := S5000x64) _ offsZero4_first, loadWhole4_first (S := S64x64) _ offsZero4_first]
  isplitl [H7]; · iexact H7
  isplitl [H8]; · iexact H8
  isplitl [H9]
  · iexists _; isplitr
    swap; · iexact H9
    ipureintro
    (try sl_unfold_words)
    refine (storeWhole4_first (S := S1x64) _ _ offsZero4_first inb_S1x64_S1x64_0_0 _ _).trans ?_
    simp only [View.readCov_unit_zero (S := S1x64) _ offsZero4_first, loadWhole4_first (S := S1x64) _ offsZero4_first, loadWhole4_first (S := S5000x64) _ offsZero4_first, loadWhole4_first (S := S64x64) _ offsZero4_first]
  iexists _; isplitr
  swap; · iexact H10
  ipureintro
  (try sl_unfold_words)
  refine (storeWhole4_first (S := S1x64) _ _ offsZero4_first inb_S1x64_S1x64_0_0 _ _).trans ?_
  simp only [View.readCov_unit_zero (S := S1x64) _ offsZero4_first, loadWhole4_first (S := S1x64) _ offsZero4_first, loadWhole4_first (S := S5000x64) _ offsZero4_first, loadWhole4_first (S := S64x64) _ offsZero4_first]

end Cert.KernelIdeal.Gen
end
-- ==== Proof.KI.Reg4.RunMid.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero4_mid : (![0, 0] : Fin 2 → Nat) = fun _ => 0 := funext fun a => by fin_cases a <;> rfl

/-- A store through the whole-shape rectangle, made last, leaves its payload, whatever was stored before. -/
theorem storeWhole4_mid {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole4_mid {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at a point that is neither the first nor the last: neither conditional block runs. On whole memrefs — the five
    inputs at their contents, the big output at anything, the two small outputs at contents handed back untouched, the
    two accumulators at what the points before left — it stores the affine image of the inputs into the big output and
    adds that block's column sums, and the column sums of its square, to the two accumulators. -/
theorem run4_mid (c : Dev nD) (i : grid4.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : ¬ k4_cond2 i = 1#1)
    (x1 x2 : Vec F S5000x64 .f32) (x3 : Vec F S1x64 .f32) (x4 : Vec F S64x64 .f32) (x5 : Vec F S1x64 .f32)
    (y7 y8 s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k4_pay4 x3 x1 x2 x4 x5) ∗ owns (c : Thread nD τ) arg7 fullShare y7 ∗ owns (c : Thread nD τ) arg8 fullShare y8
            ∗ owns (c : Thread nD τ) arg9 fullShare (k4_pay5 x3 x1 x2 x4 x5 s0)
            ∗ owns (c : Thread nD τ) arg10 fullShare (k4_pay1 s1 (k4_pay6 x3 x1 x2 x4 x5))) -∗ K ⟨⟩))
      ⊢ wp frame (wpE (defs₀ (F := F)) Variants.none c none) E (cc4_linear_stats_kernel i arg1 harg1 arg2 harg2 arg3 harg3 arg4 harg4 arg5 harg5 arg6 harg6 arg7 harg7 arg8 harg8 arg9 harg9 arg10 harg10) K := by
  simp only [cc4_linear_stats_kernel_eq_skeleton]; unfold cc4_linear_stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole4_mid (S := S5000x64) _ _ offsZero4_mid inb_S5000x64_S5000x64_0_0 _ _).trans ?_
    simp only [View.readCov_unit_zero (S := S1x64) _ offsZero4_mid, loadWhole4_mid (S := S1x64) _ offsZero4_mid, loadWhole4_mid (S := S5000x64) _ offsZero4_mid, loadWhole4_mid (S := S64x64) _ offsZero4_mid]
  isplitl [H7]; · iexact H7
  isplitl [H8]; · iexact H8
  isplitl [H9]
  · iexists _; isplitr
    swap; · iexact H9
    ipureintro
    (try sl_unfold_words)
    refine (storeWhole4_mid (S := S1x64) _ _ offsZero4_mid inb_S1x64_S1x64_0_0 _ _).trans ?_
    simp only [View.readCov_unit_zero (S := S1x64) _ offsZero4_mid, loadWhole4_mid (S := S1x64) _ offsZero4_mid, loadWhole4_mid (S := S5000x64) _ offsZero4_mid, loadWhole4_mid (S := S64x64) _ offsZero4_mid]
  iexists _; isplitr
  swap; · iexact H10
  ipureintro
  (try sl_unfold_words)
  refine (storeWhole4_mid (S := S1x64) _ _ offsZero4_mid inb_S1x64_S1x64_0_0 _ _).trans ?_
  simp only [View.readCov_unit_zero (S := S1x64) _ offsZero4_mid, loadWhole4_mid (S := S1x64) _ offsZero4_mid, loadWhole4_mid (S := S5000x64) _ offsZero4_mid, loadWhole4_mid (S := S64x64) _ offsZero4_mid]

end Cert.KernelIdeal.Gen
end
-- ==== Proof.KI.Reg4.RunLast.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero4_last : (![0, 0] : Fin 2 → Nat) = fun _ => 0 := funext fun a => by fin_cases a <;> rfl

/-- A store through the whole-shape rectangle, made last, leaves its payload, whatever was stored before. -/
theorem storeWhole4_last {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole4_last {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the last point: the first conditional block does not run, the last one does and copies the two
    accumulators into the two small outputs. On whole memrefs — the five inputs at their contents, the three outputs at
    anything, the two accumulators at what the points before left — it stores the affine image of the inputs into the
    big output, adds that block's column sums and the column sums of its square to the accumulators, and leaves each small
    output at its accumulator's final contents. -/
theorem run4_last (c : Dev nD) (i : grid4.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : k4_cond2 i = 1#1)
    (x1 x2 : Vec F S5000x64 .f32) (x3 : Vec F S1x64 .f32) (x4 : Vec F S64x64 .f32) (x5 : Vec F S1x64 .f32)
    (s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k4_pay4 x3 x1 x2 x4 x5)
            ∗ owns (c : Thread nD τ) arg7 fullShare (k4_pay5 x3 x1 x2 x4 x5 s0)
            ∗ owns (c : Thread nD τ) arg8 fullShare (k4_pay1 s1 (k4_pay6 x3 x1 x2 x4 x5))
            ∗ owns (c : Thread nD τ) arg9 fullShare (k4_pay5 x3 x1 x2 x4 x5 s0)
            ∗ owns (c : Thread nD τ) arg10 fullShare (k4_pay1 s1 (k4_pay6 x3 x1 x2 x4 x5))) -∗ K ⟨⟩))
      ⊢ wp frame (wpE (defs₀ (F := F)) Variants.none c none) E (cc4_linear_stats_kernel i arg1 harg1 arg2 harg2 arg3 harg3 arg4 harg4 arg5 harg5 arg6 harg6 arg7 harg7 arg8 harg8 arg9 harg9 arg10 harg10) K := by
  simp only [cc4_linear_stats_kernel_eq_skeleton]; unfold cc4_linear_stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole4_last (S := S5000x64) _ _ offsZero4_last inb_S5000x64_S5000x64_0_0 _ _).trans ?_
    simp only [View.readCov_unit_zero (S := S1x64) _ offsZero4_last, loadWhole4_last (S := S1x64) _ offsZero4_last, loadWhole4_last (S := S5000x64) _ offsZero4_last, loadWhole4_last (S := S64x64) _ offsZero4_last]
  isplitl [H7]
  · iexists _; isplitr
    swap; · iexact H7
    ipureintro
    (try sl_unfold_words)
    refine (storeWhole4_last (S := S1x64) _ _ offsZero4_last inb_S1x64_S1x64_0_0 _ _).trans ?_
    simp only [View.readCov_unit_zero (S := S1x64) _ offsZero4_last, loadWhole4_last (S := S1x64) _ offsZero4_last, loadWhole4_last (S := S5000x64) _ offsZero4_last, loadWhole4_last (S := S64x64) _ offsZero4_last]
  isplitl [H8]
  · iexists _; isplitr
    swap; · iexact H8
    ipureintro
    (try sl_unfold_words)
    refine (storeWhole4_last (S := S1x64) _ _ offsZero4_last inb_S1x64_S1x64_0_0 _ _).trans ?_
    simp only [View.readCov_unit_zero (S := S1x64) _ offsZero4_last, loadWhole4_last (S := S1x64) _ offsZero4_last, loadWhole4_last (S := S5000x64) _ offsZero4_last, loadWhole4_last (S := S64x64) _ offsZero4_last]
  isplitl [H9]
  · iexists _; isplitr
    swap; · iexact H9
    ipureintro
    (try sl_unfold_words)
    refine (storeWhole4_last (S := S1x64) _ _ offsZero4_last inb_S1x64_S1x64_0_0 _ _).trans ?_
    simp only [View.readCov_unit_zero (S := S1x64) _ offsZero4_last, loadWhole4_last (S := S1x64) _ offsZero4_last, loadWhole4_last (S := S5000x64) _ offsZero4_last, loadWhole4_last (S := S64x64) _ offsZero4_last]
  iexists _; isplitr
  swap; · iexact H10
  ipureintro
  (try sl_unfold_words)
  refine (storeWhole4_last (S := S1x64) _ _ offsZero4_last inb_S1x64_S1x64_0_0 _ _).trans ?_
  simp only [View.readCov_unit_zero (S := S1x64) _ offsZero4_last, loadWhole4_last (S := S1x64) _ offsZero4_last, loadWhole4_last (S := S5000x64) _ offsZero4_last, loadWhole4_last (S := S64x64) _ offsZero4_last]

end Cert.KernelIdeal.Gen
end
-- ==== Proof.KI.Reg4.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«140206_j52750788330061_1_alg».proof.Proof.KI.Reg4.RunFirst
import proofs.«140206_j52750788330061_1_alg».proof.Proof.KI.Reg4.RunMid
import proofs.«140206_j52750788330061_1_alg».proof.Proof.KI.Reg4.RunLast
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which points run which conditional block -/

/-- The first block's condition, as the body computes it from the grid coordinate, holds at point 0 only. -/
theorem first4_iff : ∀ t : Fin cfg4.N,
    (Scalar.cmpi .ne (Scalar.extui (Scalar.cmpi .eq (BitVec.ofNat 32 ((grid4.coords t) 0).val) 0#32)) 0#32) = 1#1 ↔ t.val = 0 :=
  (by decide +kernel : ∀ t : Fin grid4.N,
    (Scalar.cmpi .ne (Scalar.extui (Scalar.cmpi .eq (BitVec.ofNat 32 ((grid4.coords t) 0).val) 0#32)) 0#32) = 1#1 ↔ t.val = 0)

/-- The last block's condition holds at point 9 only. -/
theorem last4_iff : ∀ t : Fin cfg4.N, k4_cond2 (grid4.coords t) = 1#1 ↔ t.val = 9 :=
  (by decide +kernel : ∀ t : Fin grid4.N, k4_cond2 (grid4.coords t) = 1#1 ↔ t.val = 9)

/-- The two small outputs are idle at every point but the last, -/
theorem idleAt4_6 : ∀ t : Fin cfg4.N, t.val ≠ 9 → cfg4.idle 6 (grid4.coords t) = true := by decide +kernel
theorem idleAt4_7 : ∀ t : Fin cfg4.N, t.val ≠ 9 → cfg4.idle 7 (grid4.coords t) = true := by decide +kernel
/-- live at the last, -/
theorem liveAt4_6 : ∀ t : Fin cfg4.N, t.val = 9 → cfg4.idle 6 (grid4.coords t) = false := by decide +kernel
theorem liveAt4_7 : ∀ t : Fin cfg4.N, t.val = 9 → cfg4.idle 7 (grid4.coords t) = false := by decide +kernel
/-- and not written back before it. -/
theorem noFlush4_6 : ∀ t : Fin cfg4.N, t.val ≠ 9 → (cfg4.win 6).flush t = false :=
  (by decide +kernel : ∀ t : Fin grid4.N, t.val ≠ 9 → win4_6.flush t = false)
theorem noFlush4_7 : ∀ t : Fin cfg4.N, t.val ≠ 9 → (cfg4.win 7).flush t = false :=
  (by decide +kernel : ∀ t : Fin grid4.N, t.val ≠ 9 → win4_7.flush t = false)

variable (V : (c : Dev nD) → (b : Ref sig .tc) → Buf (Elt F) ((c : Thread nD τ).loc b))

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, fetched there or not (the three small
    inputs are fetched once, at the first point, and their block index never moves), for any proof data whose array is
    `V`'s and whose body leaves the block in place. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The two running column sums -/

/-- What the two accumulators hold after the first `n` points: zero rows before any point; each point adds the column
    sums of its affine block to the first and the column sums of that block's square to the second. -/
noncomputable def acc4 (c : Dev nD) : ℕ → Vec F S1x64 .f32 × Vec F S1x64 .f32
  | 0 => (k4_pay2, k4_pay3)
  | n + 1 =>
    if h : n < cfg4.N then
      (k4_pay5 (iblk4 V c 2 ⟨n, h⟩) (iblk4 V c 0 ⟨n, h⟩) (iblk4 V c 1 ⟨n, h⟩) (iblk4 V c 3 ⟨n, h⟩) (iblk4 V c 4 ⟨n, h⟩) (acc4 c n).1,
        k4_pay1 (acc4 c n).2 (k4_pay6 (iblk4 V c 2 ⟨n, h⟩) (iblk4 V c 0 ⟨n, h⟩) (iblk4 V c 1 ⟨n, h⟩) (iblk4 V c 3 ⟨n, h⟩) (iblk4 V c 4 ⟨n, h⟩)))
    else acc4 c n

/-- Before any point both accumulators are the zero rows. -/
theorem acc4_zero (c : Dev nD) : acc4 V c 0 = (k4_pay2, k4_pay3) := rfl

/-- One point's step: the accumulators after point `n` from those before it and the point's input blocks. -/
theorem acc4_succ (c : Dev nD) (n : ℕ) (h : n < cfg4.N) :
    acc4 V c (n + 1) =
      (k4_pay5 (iblk4 V c 2 ⟨n, h⟩) (iblk4 V c 0 ⟨n, h⟩) (iblk4 V c 1 ⟨n, h⟩) (iblk4 V c 3 ⟨n, h⟩) (iblk4 V c 4 ⟨n, h⟩) (acc4 V c n).1,
        k4_pay1 (acc4 V c n).2 (k4_pay6 (iblk4 V c 2 ⟨n, h⟩) (iblk4 V c 0 ⟨n, h⟩) (iblk4 V c 1 ⟨n, h⟩) (iblk4 V c 3 ⟨n, h⟩) (iblk4 V c 4 ⟨n, h⟩))) := by
  rw [acc4]; exact dif_pos h

/-- The first point's step, from the zero rows. -/
theorem acc4_zero_step (c : Dev nD) :
    acc4 V c 1 =
      (k4_pay5 (iblk4 V c 2 t4_0) (iblk4 V c 0 t4_0) (iblk4 V c 1 t4_0) (iblk4 V c 3 t4_0) (iblk4 V c 4 t4_0) k4_pay2,
        k4_pay1 k4_pay3 (k4_pay6 (iblk4 V c 2 t4_0) (iblk4 V c 0 t4_0) (iblk4 V c 1 t4_0) (iblk4 V c 3 t4_0) (iblk4 V c 4 t4_0))) :=
  acc4_succ V c 0 t4_0.isLt

/-! ## The invariant between points -/

/-- The two accumulators, as whole memrefs of the kernel's own scoped buffers. -/
abbrev sc4_0 : Memref sig .tc .vmem S1x64 .f32 := Memref.whole cc4_scratch0
abbrev sc4_1 : Memref sig .tc .vmem S1x64 .f32 := Memref.whole cc4_scratch1

/-- Every other scoped buffer of the core that is no staging buffer of this call, at some contents each. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- What the launch hands the region, with the two accumulators named: each at some contents, beside the other scoped
    buffers and the generator register. -/
theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d)) ∗ rest4 c)
          ∗ (∃ r, prngReg c r)) := by
  unfold Pipeline.ΦA; rw [scopedRest4_split]; simp only [sc4_0, sc4_1, owns_whole]; try rfl

/-- The invariant before position `n`: before the first point what the launch hands over; afterwards the two accumulators
    at the running column sums over the points so far, beside the other scoped buffers and the generator register. -/
noncomputable def Phi4 (c : Dev nD) : ℕ → sProp 𝕄
  | 0 => Pipeline.ΦA spec4 c
  | n + 1 =>
    iprop(iprop(iprop(owns (c : Thread nD τ) sc4_0 fullShare (acc4 V c (n + 1)).1 ∗ owns (c : Thread nD τ) sc4_1 fullShare (acc4 V c (n + 1)).2) ∗ rest4 c)
      ∗ (∃ r, prngReg c r))

theorem Phi4_zero (c : Dev nD) : Phi4 V c 0 = Pipeline.ΦA spec4 c := rfl

theorem Phi4_succ (c : Dev nD) (n : ℕ) :
    Phi4 V c (n + 1) =
      iprop(iprop(iprop(owns (c : Thread nD τ) sc4_0 fullShare (acc4 V c (n + 1)).1 ∗ owns (c : Thread nD τ) sc4_1 fullShare (acc4 V c (n + 1)).2) ∗ rest4 c)
        ∗ (∃ r, prngReg c r)) := rfl

/-- After any point the accumulators are named. -/
theorem Phi4_pos (c : Dev nD) (n : ℕ) (hn : n ≠ 0) :
    Phi4 V c n =
      iprop(iprop(iprop(owns (c : Thread nD τ) sc4_0 fullShare (acc4 V c n).1 ∗ owns (c : Thread nD τ) sc4_1 fullShare (acc4 V c n).2) ∗ rest4 c)
        ∗ (∃ r, prngReg c r)) := by
  cases n with
  | zero => exact absurd rfl hn
  | succ n => rfl

/-! ## The proof data -/

/-- The proof data of this call on core `c`: the arrays as the region finds them (`V`); after the body at point `t` each
    input's buffer at its block, the big output's at the affine image of the point's blocks, each small output's at its
    running column sum through point `t` (consulted at the last point only: before it the window is idle); the invariant
    `Phi4`; nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay4 (iblk4 V c 2 t) (iblk4 V c 0 t) (iblk4 V c 1 t) (iblk4 V c 3 t) (iblk4 V c 4 t)
    | ⟨6, _⟩ => (acc4 V c (t.val + 1)).1
    | ⟨7, _⟩ => (acc4 V c (t.val + 1)).2
  Φ t := Phi4 V c t.val
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_big (c : Dev nD) (t : Fin cfg4.N) :
    (dat4 V c).after 5 t = k4_pay4 (iblk4 V c 2 t) (iblk4 V c 0 t) (iblk4 V c 1 t) (iblk4 V c 3 t) (iblk4 V c 4 t) := by dsimp only [dat4]
theorem after4_6 (c : Dev nD) (t : Fin cfg4.N) : (dat4 V c).after 6 t = (acc4 V c (t.val + 1)).1 := by dsimp only [dat4]
theorem after4_7 (c : Dev nD) (t : Fin cfg4.N) : (dat4 V c).after 7 t = (acc4 V c (t.val + 1)).2 := by dsimp only [dat4]
/-- At the last point the small outputs hold the column sums over all ten points. -/
theorem after4_s (c : Dev nD) : (dat4 V c).after 6 t4_9 = (acc4 V c 10).1 := after4_6 V c t4_9
theorem after4_ss (c : Dev nD) : (dat4 V c).after 7 t4_9 = (acc4 V c 10).2 := after4_7 V c t4_9

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- The invariant at a point's start and end, at the point's number. -/
theorem Phi4_castSucc (c : Dev nD) (t : Fin cfg4.N) : (dat4 V c).Φ t.castSucc = Phi4 V c t.val := by
  dsimp only [dat4]; simp only [Fin.coe_castSucc]
theorem Phi4_succ_pt (c : Dev nD) (t : Fin cfg4.N) : (dat4 V c).Φ t.succ = Phi4 V c (t.val + 1) := by
  dsimp only [dat4]; simp only [Fin.val_succ]

/-- What the launch hands the region is the invariant before the first point. -/
theorem hin4 (c : Dev nD) : Pipeline.ΦA spec4 c ⊢ (dat4 V c).Φ 0 := by
  rw [show (dat4 V c).Φ 0 = Phi4 V c 0 from rfl, Phi4_zero]
  try exact Idealize.SL.BI.Entails.refl _

/-- After the last point the invariant gives it back: the accumulators' named contents are forgotten. -/
theorem hout4 (c : Dev nD) : (dat4 V c).Φ (Fin.last cfg4.N) ⊢ Pipeline.ΦA spec4 c := by
  rw [show (dat4 V c).Φ (Fin.last cfg4.N) = Phi4 V c cfg4.N from rfl,
    Phi4_pos V c cfg4.N (by have : cfg4.N = 10 := N_4; omega), PhiA4_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! ## The body obligation -/

/-- What the body is called with at point `t`, the windows one by one, -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

/-- The inputs and the big output are live at every point: the body leaves each at its stated contents. -/
theorem leaves4_0 (c : Dev nD) (t : Fin cfg4.N) :
    (dat4 V c).leavesExact 0 t = owns (c : Thread nD τ) (st4_0 t) fullShare (iblk4 V c 0 t) := by
  unfold Dat.leavesExact; rw [show cfg4.idle 0 (cfg4.grid.coords t) = false from rfl, after4_0]
theorem leaves4_1 (c : Dev nD) (t : Fin cfg4.N) :
    (dat4 V c).leavesExact 1 t = owns (c : Thread nD τ) (st4_1 t) fullShare (iblk4 V c 1 t) := by
  unfold Dat.leavesExact; rw [show cfg4.idle 1 (cfg4.grid.coords t) = false from rfl, after4_1]
theorem leaves4_2 (c : Dev nD) (t : Fin cfg4.N) :
    (dat4 V c).leavesExact 2 t = owns (c : Thread nD τ) (st4_2 t) fullShare (iblk4 V c 2 t) := by
  unfold Dat.leavesExact; rw [show cfg4.idle 2 (cfg4.grid.coords t) = false from rfl, after4_2]
theorem leaves4_3 (c : Dev nD) (t : Fin cfg4.N) :
    (dat4 V c).leavesExact 3 t = owns (c : Thread nD τ) (st4_3 t) fullShare (iblk4 V c 3 t) := by
  unfold Dat.leavesExact; rw [show cfg4.idle 3 (cfg4.grid.coords t) = false from rfl, after4_3]
theorem leaves4_4 (c : Dev nD) (t : Fin cfg4.N) :
    (dat4 V c).leavesExact 4 t = owns (c : Thread nD τ) (st4_4 t) fullShare (iblk4 V c 4 t) := by
  unfold Dat.leavesExact; rw [show cfg4.idle 4 (cfg4.grid.coords t) = false from rfl, after4_4]
theorem leaves4_5 (c : Dev nD) (t : Fin cfg4.N) :
    (dat4 V c).leavesExact 5 t = owns (c : Thread nD τ) (st4_5 t) fullShare
      (k4_pay4 (iblk4 V c 2 t) (iblk4 V c 0 t) (iblk4 V c 1 t) (iblk4 V c 3 t) (iblk4 V c 4 t)) := by
  unfold Dat.leavesExact; rw [show cfg4.idle 5 (cfg4.grid.coords t) = false from rfl, after4_big]
/-- The small outputs are live at the last point. -/
theorem leaves4_6_last (c : Dev nD) (t : Fin cfg4.N) (h9 : t.val = 9) :
    (dat4 V c).leavesExact 6 t = owns (c : Thread nD τ) (st4_6 t) fullShare (acc4 V c (t.val + 1)).1 := by
  unfold Dat.leavesExact; rw [liveAt4_6 t h9, after4_6]
theorem leaves4_7_last (c : Dev nD) (t : Fin cfg4.N) (h9 : t.val = 9) :
    (dat4 V c).leavesExact 7 t = owns (c : Thread nD τ) (st4_7 t) fullShare (acc4 V c (t.val + 1)).2 := by
  unfold Dat.leavesExact; rw [liveAt4_7 t h9, after4_7]

set_option maxHeartbeats 4000000 in
/-- The body at any point. The inputs' memrefs hold their blocks; the point's number says which of the three control
    cases it is in, and that case's run applies. The invariant hands the body the two accumulators — at anything at the
    first point, at the running sums afterwards — and takes them back at the sums through this point; the other scoped
    buffers, the generator register and the core's dues pass through untouched. Before the last point the small outputs'
    buffers are handed back as found; at the last they come back at the final sums. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [Phi4_castSucc, Phi4_succ_pt, Phi4_succ]
  rw [leaves4_0, leaves4_1, leaves4_2, leaves4_3, leaves4_4, leaves4_5]
  have hN : t.val < 10 := lt_of_lt_of_eq t.isLt (show cfg4.N = 10 from N_4)
  by_cases h9 : t.val = 9
  · have h0 : t.val ≠ 0 := by omega
    rw [leaves4_6_last V c t h9, leaves4_7_last V c t h9, acc4_succ V c t.val t.isLt, Phi4_pos V c t.val h0]
    simp only [Fin.eta]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run4_last c (grid4.coords t) _ _ _ _ _ _ _ _ _ _ _ _ _ _ _ _ _ _ _ _ (fun h => h0 ((first4_iff t).mp h)) ((last4_iff t).mpr h9)
      (iblk4 V c 0 t) (iblk4 V c 1 t) (iblk4 V c 2 t) (iblk4 V c 3 t) (iblk4 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat4 V c) 6 t (idleAt4_6 t h9) (noFlush4_6 t h9),
      Dat.leavesExact_idle (dat4 V c) 7 t (idleAt4_7 t h9) (noFlush4_7 t h9), acc4_succ V c t.val t.isLt]
    simp only [Fin.eta]
    by_cases h0 : t.val = 0
    · rw [show Phi4 V c t.val = Pipeline.ΦA spec4 c from by rw [h0]; rfl,
        show acc4 V c t.val = (k4_pay2, k4_pay3) from by rw [h0]; rfl, PhiA4_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run4_first c (grid4.coords t) _ _ _ _ _ _ _ _ _ _ _ _ _ _ _ _ _ _ _ _ ((first4_iff t).mpr h0) (fun h => h9 ((last4_iff t).mp h))
        (iblk4 V c 0 t) (iblk4 V c 1 t) (iblk4 V c 2 t) (iblk4 V c 3 t) (iblk4 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [Phi4_pos V c t.val h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run4_mid c (grid4.coords t) _ _ _ _ _ _ _ _ _ _ _ _ _ _ _ _ _ _ _ _ (fun h => h0 ((first4_iff t).mp h)) (fun h => h9 ((last4_iff t).mp h))
        (iblk4 V c 0 t) (iblk4 V c 1 t) (iblk4 V c 2 t) (iblk4 V c 3 t) (iblk4 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen
end
-- ==== Proof.KI.Reg5.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Batch-norm, relu and a linear map of a row block, with the column sums of the result and of its square
accumulated over the ten row blocks -/

/-- The offsets of every access of this kernel are zero. -/
theorem hzeroR5 : (![0, 0] : Fin 2 → Nat) = fun _ => 0 := funext fun a => by fin_cases a <;> rfl

/-! ## The body's two branch conditions -/

/-- The first conditional (the accumulators are zeroed) tests the row-block number against 0. -/
abbrev cond5_0 (i : grid5.Coords) : Prop := (Scalar.cmpi .ne (Scalar.extui (Scalar.cmpi .eq (BitVec.ofNat 32 (i 0).val) 0#32)) 0#32) = 1#1
/-- The second (the accumulators are copied to the two small outputs) tests it against 9. -/
abbrev cond5_1 (i : grid5.Coords) : Prop := k5_cond2 i = 1#1

/-- The first holds at row block 0 only. -/
theorem hcond5_0 : ∀ t : Fin cfg5.N, cond5_0 (grid5.coords t) ↔ t.val = 0 :=
  (by decide +kernel : ∀ t : Fin grid5.N, cond5_0 (grid5.coords t) ↔ t.val = 0)
/-- The second holds at row block 9 only. -/
theorem hcond5_1 : ∀ t : Fin cfg5.N, cond5_1 (grid5.coords t) ↔ t.val = 9 :=
  (by decide +kernel : ∀ t : Fin grid5.N, cond5_1 (grid5.coords t) ↔ t.val = 9)

/-! ## What one row block contributes, as functions of the seven input blocks

`xz` the row block of z, `xs` and `xq` the column sums of z and of its square over all rows, `xg`, `xe` the scale and
shift of the normalization, `xw` the weights, `xb` the bias. -/

/-- The normalized, rectified row block times the weights. -/
def mm5 (xz : Vec F S5000x64 .f32) (xs xq xg xe : Vec F S1x64 .f32) (xw : Vec F S64x64 .f32) : Vec F S5000x64 .f32 :=
  k5_pay6 xs xq xz xg xe xw
/-- The row block of the result: the product plus the bias. -/
def big5 (xz : Vec F S5000x64 .f32) (xs xq xg xe : Vec F S1x64 .f32) (xw : Vec F S64x64 .f32) (xb : Vec F S1x64 .f32) : Vec F S5000x64 .f32 :=
  k5_pay1 (mm5 xz xs xq xg xe xw) xb
/-- The running column sum `a` plus this block's column sum. -/
def sum5 (xz : Vec F S5000x64 .f32) (xs xq xg xe : Vec F S1x64 .f32) (xw : Vec F S64x64 .f32) (xb a : Vec F S1x64 .f32) : Vec F S1x64 .f32 :=
  k5_pay2 (mm5 xz xs xq xg xe xw) xb a
/-- The running column sum of squares `a` plus this block's. -/
def sq5 (xz : Vec F S5000x64 .f32) (xs xq xg xe : Vec F S1x64 .f32) (xw : Vec F S64x64 .f32) (xb a : Vec F S1x64 .f32) : Vec F S1x64 .f32 :=
  k5_pay3 (mm5 xz xs xq xg xe xw) xb a

/-- One whole-buffer store covers the buffer (a row of 64; a block of 5000 rows). -/
theorem coverRow5 (w : (Rect.unit (s := S1x64) ![0, 0] S1x64.size inb_S1x64_S1x64_0_0).shape.Idx → Elt F .f32) (y : S1x64.Idx) :
    ∃ p ∈ ([⟨Rect.unit (s := S1x64) ![0, 0] S1x64.size inb_S1x64_S1x64_0_0, w⟩] : List (View.Piece (Elt F) S1x64 .f32)), y ∈ p.1.set :=
  ⟨_, List.mem_singleton_self _, View.mem_set_unit_zero hzeroR5 inb_S1x64_S1x64_0_0 y⟩
theorem coverBlock5 (w : (Rect.unit (s := S5000x64) ![0, 0] S5000x64.size inb_S5000x64_S5000x64_0_0).shape.Idx → Elt F .f32) (y : S5000x64.Idx) :
    ∃ p ∈ ([⟨Rect.unit (s := S5000x64) ![0, 0] S5000x64.size inb_S5000x64_S5000x64_0_0, w⟩] : List (View.Piece (Elt F) S5000x64 .f32)), y ∈ p.1.set :=
  ⟨_, List.mem_singleton_self _, View.mem_set_unit_zero hzeroR5 inb_S5000x64_S5000x64_0_0 y⟩

set_option maxHeartbeats 1000000 in
/-- ROW BLOCK 0 (the first conditional taken, the second not). The accumulators, held at anything, are zeroed first:
    the body leaves them at `sum5 … 0`, `sq5 … 0` (the zero rows being the payloads the kernel stores), the big output at
    `big5`, the two small outputs untouched. -/
theorem sound_kernel5_A (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : cond5_0 i) (hc1 : ¬cond5_1 i) (xz : Vec F S5000x64 .f32) (xs xq xg xe : Vec F S1x64 .f32) (xw : Vec F S64x64 .f32) (xb : Vec F S1x64 .f32)
    (xo xp : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ (∃ d, owns (c : Thread nD τ) arg11 fullShare d) ∗ (∃ d, owns (c : Thread nD τ) arg12 fullShare d)
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big5 xz xs xq xg xe xw xb)
            ∗ owns (c : Thread nD τ) arg9 fullShare xo ∗ owns (c : Thread nD τ) arg10 fullShare xp
            ∗ owns (c : Thread nD τ) arg11 fullShare (sum5 xz xs xq xg xe xw xb (k5_pay4 (F := F))) ∗ owns (c : Thread nD τ) arg12 fullShare (sq5 xz xs xq xg xe xw xb (k5_pay5 (F := F)))) -∗ K ⟨⟩))
      ⊢ wp frame (wpE (defs₀ (F := F)) Variants.none c none) E (cc5_bn_matmul_stats_kernel i arg1 harg1 arg2 harg2 arg3 harg3 arg4 harg4 arg5 harg5 arg6 harg6 arg7 harg7 arg8 harg8 arg9 harg9 arg10 harg10 arg11 harg11 arg12 harg12) K := by
  simp only [cc5_bn_matmul_stats_kernel_eq_skeleton]; unfold cc5_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%dva, %fva, -, Hva⟩, ⟨%dvq, %fvq, -, Hvq⟩, Hk⟩
  subst hfz hfs hfq hfg hfe hfw hfb hfo hfp
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock5 _), View.canon_unit_zero hzeroR5]
    sl_unfold_words
    unfold big5 mm5
    simp only [View.readAt_eq_ld, View.ld_unit_zero (S := S5000x64) hzeroR5, View.ld_unit_zero (S := S1x64) hzeroR5, View.ld_unit_zero (S := S64x64) hzeroR5]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (fun y => ⟨_, List.mem_cons.mpr (Or.inl rfl), View.mem_set_unit_zero hzeroR5 inb_S1x64_S1x64_0_0 y⟩)]
    sl_unfold_words
    rw [View.canon_cons_unit_zero (S := S1x64) hzeroR5, View.readCov_unit_zero (S := S1x64) _ hzeroR5]
    unfold sum5 mm5
    simp only [View.readAt_eq_ld, View.ld_unit_zero (S := S5000x64) hzeroR5, View.ld_unit_zero (S := S1x64) hzeroR5, View.ld_unit_zero (S := S64x64) hzeroR5]
  iexists _; isplitr
  swap; · iexact Hvq
  ipureintro
  rw [View.read_writes_eq_canon _ _ _ (fun y => ⟨_, List.mem_cons.mpr (Or.inl rfl), View.mem_set_unit_zero hzeroR5 inb_S1x64_S1x64_0_0 y⟩)]
  sl_unfold_words
  rw [View.canon_cons_unit_zero (S := S1x64) hzeroR5, View.readCov_unit_zero (S := S1x64) _ hzeroR5]
  unfold sq5 mm5
  simp only [View.readAt_eq_ld, View.ld_unit_zero (S := S5000x64) hzeroR5, View.ld_unit_zero (S := S1x64) hzeroR5, View.ld_unit_zero (S := S64x64) hzeroR5]

set_option maxHeartbeats 1000000 in
/-- ROW BLOCKS 1 TO 8 (neither conditional taken). On whole staging memrefs, the inputs at their blocks, the big
    output at anything, the two small outputs at contents handed back untouched, the two accumulators at `va`, `vq`:
    the body leaves the big output at `big5` and the accumulators at `sum5 … va`, `sq5 … vq`. -/
theorem sound_kernel5_B (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond5_0 i) (hc1 : ¬cond5_1 i) (xz : Vec F S5000x64 .f32) (xs xq xg xe : Vec F S1x64 .f32) (xw : Vec F S64x64 .f32) (xb : Vec F S1x64 .f32)
    (xo xp va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big5 xz xs xq xg xe xw xb)
            ∗ owns (c : Thread nD τ) arg9 fullShare xo ∗ owns (c : Thread nD τ) arg10 fullShare xp
            ∗ owns (c : Thread nD τ) arg11 fullShare (sum5 xz xs xq xg xe xw xb va) ∗ owns (c : Thread nD τ) arg12 fullShare (sq5 xz xs xq xg xe xw xb vq)) -∗ K ⟨⟩))
      ⊢ wp frame (wpE (defs₀ (F := F)) Variants.none c none) E (cc5_bn_matmul_stats_kernel i arg1 harg1 arg2 harg2 arg3 harg3 arg4 harg4 arg5 harg5 arg6 harg6 arg7 harg7 arg8 harg8 arg9 harg9 arg10 harg10 arg11 harg11 arg12 harg12) K := by
  simp only [cc5_bn_matmul_stats_kernel_eq_skeleton]; unfold cc5_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%fva, %hfva, Hva⟩, ⟨%fvq, %hfvq, Hvq⟩, Hk⟩
  subst hfz hfs hfq hfg hfe hfw hfb hfo hfp hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock5 _), View.canon_unit_zero hzeroR5]
    sl_unfold_words
    unfold big5 mm5
    simp only [View.readAt_eq_ld, View.ld_unit_zero (S := S5000x64) hzeroR5, View.ld_unit_zero (S := S1x64) hzeroR5, View.ld_unit_zero (S := S64x64) hzeroR5]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (coverRow5 _), View.canon_unit_zero hzeroR5]
    sl_unfold_words
    unfold sum5 mm5
    simp only [View.readAt_eq_ld, View.ld_unit_zero (S := S5000x64) hzeroR5, View.ld_unit_zero (S := S1x64) hzeroR5, View.ld_unit_zero (S := S64x64) hzeroR5]
  iexists _; isplitr
  swap; · iexact Hvq
  ipureintro
  rw [View.read_writes_eq_canon _ _ _ (coverRow5 _), View.canon_unit_zero hzeroR5]
  sl_unfold_words
  unfold sq5 mm5
  simp only [View.readAt_eq_ld, View.ld_unit_zero (S := S5000x64) hzeroR5, View.ld_unit_zero (S := S1x64) hzeroR5, View.ld_unit_zero (S := S64x64) hzeroR5]

set_option maxHeartbeats 1000000 in
/-- ROW BLOCK 9 (the second conditional taken, the first not). As at row blocks 1 to 8, and then each accumulator is
    copied whole to its small output, held at anything before. -/
theorem sound_kernel5_C (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond5_0 i) (hc1 : cond5_1 i) (xz : Vec F S5000x64 .f32) (xs xq xg xe : Vec F S1x64 .f32) (xw : Vec F S64x64 .f32) (xb : Vec F S1x64 .f32)
    (va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big5 xz xs xq xg xe xw xb)
            ∗ owns (c : Thread nD τ) arg9 fullShare (sum5 xz xs xq xg xe xw xb va) ∗ owns (c : Thread nD τ) arg10 fullShare (sq5 xz xs xq xg xe xw xb vq)
            ∗ owns (c : Thread nD τ) arg11 fullShare (sum5 xz xs xq xg xe xw xb va) ∗ owns (c : Thread nD τ) arg12 fullShare (sq5 xz xs xq xg xe xw xb vq)) -∗ K ⟨⟩))
      ⊢ wp frame (wpE (defs₀ (F := F)) Variants.none c none) E (cc5_bn_matmul_stats_kernel i arg1 harg1 arg2 harg2 arg3 harg3 arg4 harg4 arg5 harg5 arg6 harg6 arg7 harg7 arg8 harg8 arg9 harg9 arg10 harg10 arg11 harg11 arg12 harg12) K := by
  simp only [cc5_bn_matmul_stats_kernel_eq_skeleton]; unfold cc5_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%do9, %fo, -, Ho⟩, ⟨%dp, %fp, -, Hp⟩, ⟨%fva, %hfva, Hva⟩, ⟨%fvq, %hfvq, Hvq⟩, Hk⟩
  subst hfz hfs hfq hfg hfe hfw hfb hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock5 _), View.canon_unit_zero hzeroR5]
    sl_unfold_words
    unfold big5 mm5
    simp only [View.readAt_eq_ld, View.ld_unit_zero (S := S5000x64) hzeroR5, View.ld_unit_zero (S := S1x64) hzeroR5, View.ld_unit_zero (S := S64x64) hzeroR5]
  isplitl [Ho]
  · iexists _; isplitr
    swap; · iexact Ho
    ipureintro
    rw [View.read_writes_eq_canon _ _ _ (coverRow5 _), View.canon_unit_zero hzeroR5]
    sl_unfold_words
    rw [View.readCov_unit_zero (S := S1x64) _ hzeroR5]
    unfold sum5 mm5
    simp only [View.readAt_eq_ld, View.ld_unit_zero (S := S5000x64) hzeroR5, View.ld_unit_zero (S := S1x64) hzeroR5, View.ld_unit_zero (S := S64x64) hzeroR5]
  isplitl [Hp]
  · iexists _; isplitr
    swap; · iexact Hp
    ipureintro
    rw [View.read_writes_eq_canon _ _ _ (coverRow5 _), View.canon_unit_zero hzeroR5]
    sl_unfold_words
    rw [View.readCov_unit_zero (S := S1x64) _ hzeroR5]
    unfold sq5 mm5
    simp only [View.readAt_eq_ld, View.ld_unit_zero (S := S5000x64) hzeroR5, View.ld_unit_zero (S := S1x64) hzeroR5, View.ld_unit_zero (S := S64x64) hzeroR5]
  isplitl [Hva]
  · iexists _; isplitr
    swap; · iexact Hva
    ipureintro
    sl_unfold_words
    rw [View.read_writes_eq_canon _ _ _ (coverRow5 _), View.canon_unit_zero hzeroR5]
    unfold sum5 mm5
    simp only [View.readAt_eq_ld, View.ld_unit_zero (S := S5000x64) hzeroR5, View.ld_unit_zero (S := S1x64) hzeroR5, View.ld_unit_zero (S := S64x64) hzeroR5]
  iexists _; isplitr
  swap; · iexact Hvq
  ipureintro
  sl_unfold_words
  rw [View.read_writes_eq_canon _ _ _ (coverRow5 _), View.canon_unit_zero hzeroR5]
  unfold sq5 mm5
  simp only [View.readAt_eq_ld, View.ld_unit_zero (S := S5000x64) hzeroR5, View.ld_unit_zero (S := S1x64) hzeroR5, View.ld_unit_zero (S := S64x64) hzeroR5]

-- the TensorCore's buffer contents when the region is entered
variable (V : (c : Dev nD) → (b : Ref sig .tc) → Buf (Elt F) ((c : Thread nD τ).loc b))

/-! ## The windows' blocks -/

/-- Window `w`'s block at row block `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current staging buffer holds its block at every row block, fetched there or not, for any proof
    data whose array is the entry contents and whose body leaves the block in place (an input not fetched again keeps
    its block index). -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## Where the two small outputs are idle -/

/-- Before row block 9 the two small outputs are idle and are not written back. -/
theorem idleAt5_8 : ∀ t : Fin cfg5.N, ¬cond5_1 (grid5.coords t) → cfg5.idle 8 (grid5.coords t) = true := by decide +kernel
theorem idleAt5_9 : ∀ t : Fin cfg5.N, ¬cond5_1 (grid5.coords t) → cfg5.idle 9 (grid5.coords t) = true := by decide +kernel
theorem noFlush5_8 : ∀ t : Fin cfg5.N, ¬cond5_1 (grid5.coords t) → (cfg5.win 8).flush t = false := by decide +kernel
theorem noFlush5_9 : ∀ t : Fin cfg5.N, ¬cond5_1 (grid5.coords t) → (cfg5.win 9).flush t = false := by decide +kernel
/-- At row block 9 they are live. -/
theorem liveAt5_8 : ∀ t : Fin cfg5.N, cond5_1 (grid5.coords t) → cfg5.idle 8 (grid5.coords t) = false := by decide +kernel
theorem liveAt5_9 : ∀ t : Fin cfg5.N, cond5_1 (grid5.coords t) → cfg5.idle 9 (grid5.coords t) = false := by decide +kernel

/-! ## The two accumulators, row block by row block -/

/-- What the two accumulators hold after the first `n` row blocks: zero rows, then each block's column sums added in
    order (past the last row block nothing changes). -/
def acc5 (c : Dev nD) : ℕ → Vec F S1x64 .f32 × Vec F S1x64 .f32
  | 0 => (k5_pay4, k5_pay5)
  | n + 1 => if h : n < cfg5.N then
      (sum5 (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩) (iblk5 V c 6 ⟨n, h⟩) (acc5 c n).1,
       sq5 (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩) (iblk5 V c 6 ⟨n, h⟩) (acc5 c n).2)
    else acc5 c n

theorem acc5_zero (c : Dev nD) : acc5 V c 0 = (k5_pay4, k5_pay5) := rfl

/-- One more row block: its column sums are added to what the blocks before left. -/
theorem acc5_succ (c : Dev nD) (t : Fin cfg5.N) : acc5 V c (t.val + 1) =
      (sum5 (iblk5 V c 0 t) (iblk5 V c 1 t) (iblk5 V c 2 t) (iblk5 V c 3 t) (iblk5 V c 4 t) (iblk5 V c 5 t) (iblk5 V c 6 t) (acc5 V c t.val).1,
       sq5 (iblk5 V c 0 t) (iblk5 V c 1 t) (iblk5 V c 2 t) (iblk5 V c 3 t) (iblk5 V c 4 t) (iblk5 V c 5 t) (iblk5 V c 6 t) (acc5 V c t.val).2) := by
  obtain ⟨n, hn⟩ := t
  show (if h : n < cfg5.N then _ else _) = _
  rw [dif_pos hn]

/-- The first row block adds to the zero rows. -/
theorem acc5_zero_step (c : Dev nD) (t : Fin cfg5.N) (h : t.val = 0) : acc5 V c (t.val + 1) =
      (sum5 (iblk5 V c 0 t) (iblk5 V c 1 t) (iblk5 V c 2 t) (iblk5 V c 3 t) (iblk5 V c 4 t) (iblk5 V c 5 t) (iblk5 V c 6 t) (k5_pay4 (F := F)),
       sq5 (iblk5 V c 0 t) (iblk5 V c 1 t) (iblk5 V c 2 t) (iblk5 V c 3 t) (iblk5 V c 4 t) (iblk5 V c 5 t) (iblk5 V c 6 t) (k5_pay5 (F := F))) := by
  rw [acc5_succ, h]; rfl

theorem mm5_eq (xz : Vec F S5000x64 .f32) (xs xq xg xe : Vec F S1x64 .f32) (xw : Vec F S64x64 .f32) :
    mm5 xz xs xq xg xe xw = k5_pay6 xs xq xz xg xe xw := rfl
theorem big5_eq (xz : Vec F S5000x64 .f32) (xs xq xg xe : Vec F S1x64 .f32) (xw : Vec F S64x64 .f32) (xb : Vec F S1x64 .f32) :
    big5 xz xs xq xg xe xw xb = k5_pay1 (k5_pay6 xs xq xz xg xe xw) xb := rfl
theorem sum5_eq (xz : Vec F S5000x64 .f32) (xs xq xg xe : Vec F S1x64 .f32) (xw : Vec F S64x64 .f32) (xb a : Vec F S1x64 .f32) :
    sum5 xz xs xq xg xe xw xb a = k5_pay2 (k5_pay6 xs xq xz xg xe xw) xb a := rfl
theorem sq5_eq (xz : Vec F S5000x64 .f32) (xs xq xg xe : Vec F S1x64 .f32) (xw : Vec F S64x64 .f32) (xb a : Vec F S1x64 .f32) :
    sq5 xz xs xq xg xe xw xb a = k5_pay3 (k5_pay6 xs xq xz xg xe xw) xb a := rfl

/-! ## The region invariant -/

/-- The two accumulators: whole scoped buffers of the kernel's own. -/
abbrev scM5_0 : Memref sig .tc .vmem S1x64 .f32 := Memref.whole cc5_scratch0
abbrev scM5_1 : Memref sig .tc .vmem S1x64 .f32 := Memref.whole cc5_scratch1

/-- What the launch hands the region, with the two accumulators as memrefs owned at some contents beside the rest of the
    scoped buffers and the generator register. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut spec5 c [cc5_scratch0, cc5_scratch1]) ∗ (∃ r, prngReg c r)) := by
  unfold Pipeline.ΦA; rw [scopedRest5_split]; simp only [scM5_0, scM5_1, owns_whole]; try rfl

/-- The invariant before row block `n`: before the first what the launch hands over; afterwards the two accumulators at
    what the row blocks so far left, beside the untouched rest. -/
def PhiS5 (c : Dev nD) : ℕ → sProp 𝕄
  | 0 => Pipeline.ΦA spec5 c
  | n + 1 => iprop(iprop(iprop(owns (c : Thread nD τ) scM5_0 fullShare (acc5 V c (n + 1)).1 ∗ owns (c : Thread nD τ) scM5_1 fullShare (acc5 V c (n + 1)).2)
          ∗ Pipeline.scopedRestBut spec5 c [cc5_scratch0, cc5_scratch1]) ∗ (∃ r, prngReg c r))

theorem PhiS5_zero (c : Dev nD) (n : ℕ) (hz : n = 0) : PhiS5 V c n = Pipeline.ΦA spec5 c := by subst hz; rfl

theorem PhiS5_pos (c : Dev nD) (n : ℕ) (hz : n ≠ 0) :
    PhiS5 V c n = iprop(iprop(iprop(owns (c : Thread nD τ) scM5_0 fullShare (acc5 V c n).1 ∗ owns (c : Thread nD τ) scM5_1 fullShare (acc5 V c n).2)
          ∗ Pipeline.scopedRestBut spec5 c [cc5_scratch0, cc5_scratch1]) ∗ (∃ r, prngReg c r)) := by
  cases n with
  | zero => exact absurd rfl hz
  | succ n => rfl

/-! ## The pipeline's proof data -/

/-- The proof data of this pipeline on core `c`: the arrays as the region finds them; after the body at row block `t`
    each input's buffer at its block, the big output's at `big5` of the input blocks, the two small outputs' at the
    accumulators after `t + 1` row blocks (what the last row block copies there; at the others, where they are idle,
    never consulted); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => big5 (iblk5 V c 0 t) (iblk5 V c 1 t) (iblk5 V c 2 t) (iblk5 V c 3 t) (iblk5 V c 4 t) (iblk5 V c 5 t) (iblk5 V c 6 t)
    | ⟨8, _⟩ => (acc5 V c (t.val + 1)).1
    | ⟨9, _⟩ => (acc5 V c (t.val + 1)).2
  Φ t := PhiS5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_big (c : Dev nD) (t : Fin cfg5.N) : (dat5 V c).after 7 t = big5 (iblk5 V c 0 t) (iblk5 V c 1 t) (iblk5 V c 2 t) (iblk5 V c 3 t) (iblk5 V c 4 t) (iblk5 V c 5 t) (iblk5 V c 6 t) := by dsimp only [dat5]
theorem after5_s (c : Dev nD) (t : Fin cfg5.N) : (dat5 V c).after 8 t = (acc5 V c (t.val + 1)).1 := by dsimp only [dat5]
theorem after5_ss (c : Dev nD) (t : Fin cfg5.N) : (dat5 V c).after 9 t = (acc5 V c (t.val + 1)).2 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

theorem Phi5_castSucc (c : Dev nD) (t : Fin cfg5.N) : (dat5 V c).Φ t.castSucc = PhiS5 V c t.val := by
  dsimp only [dat5]; simp only [Fin.coe_castSucc]
theorem Phi5_succ (c : Dev nD) (t : Fin cfg5.N) : (dat5 V c).Φ t.succ = PhiS5 V c (t.val + 1) := by
  dsimp only [dat5]; simp only [Fin.val_succ]

/-! ## The body obligation, at a generic row block -/

/-- What the body is called with at row block `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t)

/-- Every window but the two small outputs is live at every row block: the body leaves its buffer at `after`. -/
theorem leaves5_0 (c : Dev nD) (t : Fin cfg5.N) : (dat5 V c).leavesExact 0 t = owns (c : Thread nD τ) (st5_0 t) fullShare ((dat5 V c).after 0 t) := rfl
theorem leaves5_1 (c : Dev nD) (t : Fin cfg5.N) : (dat5 V c).leavesExact 1 t = owns (c : Thread nD τ) (st5_1 t) fullShare ((dat5 V c).after 1 t) := rfl
theorem leaves5_2 (c : Dev nD) (t : Fin cfg5.N) : (dat5 V c).leavesExact 2 t = owns (c : Thread nD τ) (st5_2 t) fullShare ((dat5 V c).after 2 t) := rfl
theorem leaves5_3 (c : Dev nD) (t : Fin cfg5.N) : (dat5 V c).leavesExact 3 t = owns (c : Thread nD τ) (st5_3 t) fullShare ((dat5 V c).after 3 t) := rfl
theorem leaves5_4 (c : Dev nD) (t : Fin cfg5.N) : (dat5 V c).leavesExact 4 t = owns (c : Thread nD τ) (st5_4 t) fullShare ((dat5 V c).after 4 t) := rfl
theorem leaves5_5 (c : Dev nD) (t : Fin cfg5.N) : (dat5 V c).leavesExact 5 t = owns (c : Thread nD τ) (st5_5 t) fullShare ((dat5 V c).after 5 t) := rfl
theorem leaves5_6 (c : Dev nD) (t : Fin cfg5.N) : (dat5 V c).leavesExact 6 t = owns (c : Thread nD τ) (st5_6 t) fullShare ((dat5 V c).after 6 t) := rfl
theorem leaves5_7 (c : Dev nD) (t : Fin cfg5.N) : (dat5 V c).leavesExact 7 t = owns (c : Thread nD τ) (st5_7 t) fullShare ((dat5 V c).after 7 t) := rfl

set_option maxHeartbeats 4800000 in
/-- The body at any row block: the inputs' memrefs hold their blocks; the row-block number decides which of the three
    runs applies; the invariant hands the body the accumulators (at anything before the first row block, afterwards at
    what the blocks so far left) and takes them back with this block's column sums added; the rest of the scoped
    buffers, the generator register and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).owesAt () t.succ = (dat5 V c).owesAt () t.castSucc from rfl]
  rw [Phi5_castSucc, Phi5_succ]
  rw [leaves5_0, leaves5_1, leaves5_2, leaves5_3, leaves5_4, leaves5_5, leaves5_6, leaves5_7,
    after5_0, after5_1, after5_2, after5_3, after5_4, after5_5, after5_6, after5_big]
  by_cases h0 : t.val = 0
  · -- row block 0
    have h9 : ¬t.val = 9 := by omega
    have hc0 : cond5_0 (grid5.coords t) := (hcond5_0 t).mpr h0
    have hc1 : ¬cond5_1 (grid5.coords t) := fun h => h9 ((hcond5_1 t).mp h)
    rw [Dat.leavesExact_idle (dat5 V c) 8 t (idleAt5_8 t hc1) (noFlush5_8 t hc1),
      Dat.leavesExact_idle (dat5 V c) 9 t (idleAt5_9 t hc1) (noFlush5_9 t hc1)]
    rw [PhiS5_zero V c _ h0, PhiA5_eq, PhiS5_pos V c _ (Nat.succ_ne_zero _), acc5_zero_step V c t h0]
    iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel5_A c Set.univ (grid5.coords t) _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [Hva]; · iexact Hva
    isplitl [Hvq]; · iexact Hvq
    iintro ⟨H0, H1, H2, H3, H4, H5, H6, H7, H8, H9, Hva, Hvq⟩
    isplitl [Hva Hvq Hrest Hg]
    · isplitl [Hva Hvq Hrest]
      · isplitl [Hva Hvq]
        · isplitl [Hva]; · iexact Hva
          iexact Hvq
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · by_cases h9 : t.val = 9
    · -- row block 9
      have hc0 : ¬cond5_0 (grid5.coords t) := fun h => h0 ((hcond5_0 t).mp h)
      have hc1 : cond5_1 (grid5.coords t) := (hcond5_1 t).mpr h9
      rw [show (dat5 V c).leavesExact 8 t = owns (c : Thread nD τ) (st5_8 t) fullShare ((dat5 V c).after 8 t) from by
          unfold Dat.leavesExact; rw [liveAt5_8 t hc1],
        show (dat5 V c).leavesExact 9 t = owns (c : Thread nD τ) (st5_9 t) fullShare ((dat5 V c).after 9 t) from by
          unfold Dat.leavesExact; rw [liveAt5_9 t hc1], after5_s, after5_ss]
      rw [PhiS5_pos V c _ h0, PhiS5_pos V c _ (Nat.succ_ne_zero _), acc5_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel5_C c Set.univ (grid5.coords t) _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- row blocks 1 to 8
      have hc0 : ¬cond5_0 (grid5.coords t) := fun h => h0 ((hcond5_0 t).mp h)
      have hc1 : ¬cond5_1 (grid5.coords t) := fun h => h9 ((hcond5_1 t).mp h)
      rw [Dat.leavesExact_idle (dat5 V c) 8 t (idleAt5_8 t hc1) (noFlush5_8 t hc1),
        Dat.leavesExact_idle (dat5 V c) 9 t (idleAt5_9 t hc1) (noFlush5_9 t hc1)]
      rw [PhiS5_pos V c _ h0, PhiS5_pos V c _ (Nat.succ_ne_zero _), acc5_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel5_B c Set.univ (grid5.coords t) _ _ _ _ _ _ _ _ _ _ _ _ _ _ _ _ _ _ _ _ _ _ _ _ hc0 hc1 (iblk5 V c 0 t) (iblk5 V c 1 t) (iblk5 V c 2 t) (iblk5 V c 3 t) (iblk5 V c 4 t) (iblk5 V c 5 t) (iblk5 V c 6 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every row block. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first row block. -/
theorem hin5 (c : Dev nD) : Pipeline.ΦA spec5 c ⊢ (dat5 V c).Φ 0 := by
  rw [show (dat5 V c).Φ 0 = PhiS5 V c 0 from rfl, PhiS5_zero V c 0 rfl]
  try exact Idealize.SL.BI.Entails.refl _

/-- After the last row block the invariant gives back what the launch handed over: the accumulators' named contents
    are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val from rfl,
    PhiS5_pos V c _ (by rw [Fin.val_last]; have : cfg5.N = 10 := N_5; omega), PhiA5_eq]
  iintro ⟨⟨⟨Hva, Hvq⟩, Hrest⟩, Hg⟩
  isplitl [Hva Hvq Hrest]
  · isplitl [Hva Hvq]
    · isplitl [Hva]; · iexists _; iexact Hva
      iexists _; iexact Hvq
    iexact Hrest
  iexact Hg

end Cert.KernelIdeal.Gen

end
-- ==== Proof.KI.Reg6.lean ====
/- The batch-norm-and-relu region of one layer, at the TensorCore's buffer contents V on entry, for any float type F.
   Six windows over a grid of ten row blocks: the row block of z (5000 x 64), then four (1 x 64) rows — the column
   sums of z, the column sums of z*z, the scale and the shift — and the output row block (5000 x 64).
   The body reads the five inputs whole and stores the output block whole, at every point, and keeps nothing from
   one point to the next; so after the body each input buffer still holds its block and the output buffer holds
   one payload: relu ((z - mean) * rsqrt (var + eps) * scale + shift) of the input blocks, as the skeleton names it. -/
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 5000-row rectangle is looked at structurally, once per row
set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input buffer holds its window's block at every point. The z block moves with the point and is fetched each
    time; the four rows are fetched at the first point only, and later points find them where they were left, which
    is right because their block index never moves. One library fact covers both: for proof data whose array is the
    entry contents and whose body leaves the block where it was, the buffer is what a fetch would put there. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## What the body touches -/

/-- The whole of a 5000 x 64 block: the one rectangle the z load, the output's read and the output's store go through. -/
abbrev blockRect6 : Rect S5000x64 := Rect.unit (s := S5000x64) ![0, 0] S5000x64.size inb_S5000x64_S5000x64_0_0
/-- The whole of a 1 x 64 row: the rectangle each of the four row loads goes through. -/
abbrev rowRect6 : Rect S1x64 := Rect.unit (s := S1x64) ![0, 0] S1x64.size inb_S1x64_S1x64_0_0

/-! ## What the body leaves in the output buffer -/

/-- The output buffer after the body, from the five input blocks (z, the two sums, scale, shift, in window order):
    the single store's payload over the whole block, whatever the buffer held before. -/
def out6_5 (z : Vec F S5000x64 .f32) (s ss g b : Vec F S1x64 .f32) : Vec F S5000x64 .f32 :=
  View.canon [⟨blockRect6, k6_pay1 (View.ld s rowRect6) (View.ld ss rowRect6) (View.ld z blockRect6) (View.ld g rowRect6) (View.ld b rowRect6)⟩]

/-- The one store's rectangle is the whole block, so every index of the buffer lies in it. -/
theorem cover6_5 (p : Vec F S5000x64 .f32) (y : S5000x64.Idx) :
    ∃ pc ∈ ([⟨blockRect6, p⟩] : List (View.Piece (Elt F) S5000x64 .f32)), y ∈ pc.1.set :=
  View.cover_of_tiled [⟨blockRect6, p⟩] S5000x64.size (by rfl) y

/-! ## The body's triple -/

set_option maxHeartbeats 1000000 in
/-- Run on whole buffers — the five inputs' reading z, s, ss, g, b and the output's holding anything — the body hands
    its continuation the inputs as they were and the output at out6_5 of them. The printed function is its skeleton
    of loads and one store; the loads read the owned contents through whole rectangles, the output's own read is
    of whatever it held and is not used, and the store covers the buffer. -/
theorem sound_kernel6 (c : Dev nD) (E : Set ℕ) (i : grid6.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (z : Vec F S5000x64 .f32) (s ss g b : Vec F S1x64 .f32) (K : PUnit → sProp 𝕄) :
    iprop(owns (c : Thread nD τ) arg1 fullShare z ∗ owns (c : Thread nD τ) arg2 fullShare s ∗ owns (c : Thread nD τ) arg3 fullShare ss
        ∗ owns (c : Thread nD τ) arg4 fullShare g ∗ owns (c : Thread nD τ) arg5 fullShare b ∗ (∃ d, owns (c : Thread nD τ) arg6 fullShare d)
        ∗ (iprop(owns (c : Thread nD τ) arg1 fullShare z ∗ owns (c : Thread nD τ) arg2 fullShare s ∗ owns (c : Thread nD τ) arg3 fullShare ss
            ∗ owns (c : Thread nD τ) arg4 fullShare g ∗ owns (c : Thread nD τ) arg5 fullShare b
            ∗ owns (c : Thread nD τ) arg6 fullShare (out6_5 z s ss g b)) -∗ K ⟨⟩))
      ⊢ wp frame (wpE (defs₀ (F := F)) Variants.none c none) E (cc6_bn_relu_kernel i arg1 harg1 arg2 harg2 arg3 harg3 arg4 harg4 arg5 harg5 arg6 harg6) K := by
  simp only [cc6_bn_relu_kernel_eq_skeleton]; unfold cc6_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_5 _)

/-! ## The region's proof data -/

/-- The arrays are the entry contents; after the body at point t each input buffer holds its block and the output
    buffer out6_5 of the five input blocks there; the invariant is the one of a body that touches nothing but its
    buffers; full shares, nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

/-- What the pipeline calls the body with at point t, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it has to give back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- At any point the input buffers hold their blocks, so the body's triple applies; the invariant and what is
    owed go through untouched, being the same before and after a point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this region's proof data, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.KI.Reg7.RunFirst.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero7_first : (![0, 0] : Fin 2 → Nat) = fun _ => 0 := funext fun a => by fin_cases a <;> rfl

/-- A store through the whole-shape rectangle, made last, leaves its payload, whatever was stored before. -/
theorem storeWhole7_first {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole7_first {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the first point: the first conditional block runs and zeroes both accumulators, the last does not run. On
    whole memrefs — the five inputs at their contents, the big output and both accumulators at anything, the two small
    outputs at contents handed back untouched — it stores the affine image of the inputs into the big output and leaves
    in the accumulators the zero rows plus that block's column sums and the column sums of its square. -/
theorem run7_first (c : Dev nD) (i : grid7.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : (Scalar.cmpi .ne (Scalar.extui (Scalar.cmpi .eq (BitVec.ofNat 32 (i 0).val) 0#32)) 0#32) = 1#1) (hlast : ¬ k7_cond2 i = 1#1)
    (x1 x2 : Vec F S5000x64 .f32) (x3 : Vec F S1x64 .f32) (x4 : Vec F S64x64 .f32) (x5 : Vec F S1x64 .f32)
    (y7 y8 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k7_pay4 x3 x1 x2 x4 x5) ∗ owns (c : Thread nD τ) arg7 fullShare y7 ∗ owns (c : Thread nD τ) arg8 fullShare y8
            ∗ owns (c : Thread nD τ) arg9 fullShare (k7_pay5 x3 x1 x2 x4 x5 k7_pay2)
            ∗ owns (c : Thread nD τ) arg10 fullShare (k7_pay1 k7_pay3 (k7_pay6 x3 x1 x2 x4 x5))) -∗ K ⟨⟩))
      ⊢ wp frame (wpE (defs₀ (F := F)) Variants.none c none) E (cc7_linear_stats_kernel i arg1 harg1 arg2 harg2 arg3 harg3 arg4 harg4 arg5 harg5 arg6 harg6 arg7 harg7 arg8 harg8 arg9 harg9 arg10 harg10) K := by
  simp only [cc7_linear_stats_kernel_eq_skeleton]; unfold cc7_linear_stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole7_first (S := S5000x64) _ _ offsZero7_first inb_S5000x64_S5000x64_0_0 _ _).trans ?_
    simp only [View.readCov_unit_zero (S := S1x64) _ offsZero7_first, loadWhole7_first (S := S1x64) _ offsZero7_first, loadWhole7_first (S := S5000x64) _ offsZero7_first, loadWhole7_first (S := S64x64) _ offsZero7_first]
  isplitl [H7]; · iexact H7
  isplitl [H8]; · iexact H8
  isplitl [H9]
  · iexists _; isplitr
    swap; · iexact H9
    ipureintro
    (try sl_unfold_words)
    refine (storeWhole7_first (S := S1x64) _ _ offsZero7_first inb_S1x64_S1x64_0_0 _ _).trans ?_
    simp only [View.readCov_unit_zero (S := S1x64) _ offsZero7_first, loadWhole7_first (S := S1x64) _ offsZero7_first, loadWhole7_first (S := S5000x64) _ offsZero7_first, loadWhole7_first (S := S64x64) _ offsZero7_first]
  iexists _; isplitr
  swap; · iexact H10
  ipureintro
  (try sl_unfold_words)
  refine (storeWhole7_first (S := S1x64) _ _ offsZero7_first inb_S1x64_S1x64_0_0 _ _).trans ?_
  simp only [View.readCov_unit_zero (S := S1x64) _ offsZero7_first, loadWhole7_first (S := S1x64) _ offsZero7_first, loadWhole7_first (S := S5000x64) _ offsZero7_first, loadWhole7_first (S := S64x64) _ offsZero7_first]

end Cert.KernelIdeal.Gen
end
-- ==== Proof.KI.Reg7.RunMid.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero7_mid : (![0, 0] : Fin 2 → Nat) = fun _ => 0 := funext fun a => by fin_cases a <;> rfl

/-- A store through the whole-shape rectangle, made last, leaves its payload, whatever was stored before. -/
theorem storeWhole7_mid {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole7_mid {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at a point that is neither the first nor the last: neither conditional block runs. On whole memrefs — the five
    inputs at their contents, the big output at anything, the two small outputs at contents handed back untouched, the
    two accumulators at what the points before left — it stores the affine image of the inputs into the big output and
    adds that block's column sums, and the column sums of its square, to the two accumulators. -/
theorem run7_mid (c : Dev nD) (i : grid7.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : ¬ k7_cond2 i = 1#1)
    (x1 x2 : Vec F S5000x64 .f32) (x3 : Vec F S1x64 .f32) (x4 : Vec F S64x64 .f32) (x5 : Vec F S1x64 .f32)
    (y7 y8 s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k7_pay4 x3 x1 x2 x4 x5) ∗ owns (c : Thread nD τ) arg7 fullShare y7 ∗ owns (c : Thread nD τ) arg8 fullShare y8
            ∗ owns (c : Thread nD τ) arg9 fullShare (k7_pay5 x3 x1 x2 x4 x5 s0)
            ∗ owns (c : Thread nD τ) arg10 fullShare (k7_pay1 s1 (k7_pay6 x3 x1 x2 x4 x5))) -∗ K ⟨⟩))
      ⊢ wp frame (wpE (defs₀ (F := F)) Variants.none c none) E (cc7_linear_stats_kernel i arg1 harg1 arg2 harg2 arg3 harg3 arg4 harg4 arg5 harg5 arg6 harg6 arg7 harg7 arg8 harg8 arg9 harg9 arg10 harg10) K := by
  simp only [cc7_linear_stats_kernel_eq_skeleton]; unfold cc7_linear_stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole7_mid (S := S5000x64) _ _ offsZero7_mid inb_S5000x64_S5000x64_0_0 _ _).trans ?_
    simp only [View.readCov_unit_zero (S := S1x64) _ offsZero7_mid, loadWhole7_mid (S := S1x64) _ offsZero7_mid, loadWhole7_mid (S := S5000x64) _ offsZero7_mid, loadWhole7_mid (S := S64x64) _ offsZero7_mid]
  isplitl [H7]; · iexact H7
  isplitl [H8]; · iexact H8
  isplitl [H9]
  · iexists _; isplitr
    swap; · iexact H9
    ipureintro
    (try sl_unfold_words)
    refine (storeWhole7_mid (S := S1x64) _ _ offsZero7_mid inb_S1x64_S1x64_0_0 _ _).trans ?_
    simp only [View.readCov_unit_zero (S := S1x64) _ offsZero7_mid, loadWhole7_mid (S := S1x64) _ offsZero7_mid, loadWhole7_mid (S := S5000x64) _ offsZero7_mid, loadWhole7_mid (S := S64x64) _ offsZero7_mid]
  iexists _; isplitr
  swap; · iexact H10
  ipureintro
  (try sl_unfold_words)
  refine (storeWhole7_mid (S := S1x64) _ _ offsZero7_mid inb_S1x64_S1x64_0_0 _ _).trans ?_
  simp only [View.readCov_unit_zero (S := S1x64) _ offsZero7_mid, loadWhole7_mid (S := S1x64) _ offsZero7_mid, loadWhole7_mid (S := S5000x64) _ offsZero7_mid, loadWhole7_mid (S := S64x64) _ offsZero7_mid]

end Cert.KernelIdeal.Gen
end
-- ==== Proof.KI.Reg7.RunLast.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero7_last : (![0, 0] : Fin 2 → Nat) = fun _ => 0 := funext fun a => by fin_cases a <;> rfl

/-- A store through the whole-shape rectangle, made last, leaves its payload, whatever was stored before. -/
theorem storeWhole7_last {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole7_last {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the last point: the first conditional block does not run, the last one does and copies the two
    accumulators into the two small outputs. On whole memrefs — the five inputs at their contents, the three outputs at
    anything, the two accumulators at what the points before left — it stores the affine image of the inputs into the
    big output, adds that block's column sums and the column sums of its square to the accumulators, and leaves each small
    output at its accumulator's final contents. -/
theorem run7_last (c : Dev nD) (i : grid7.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : k7_cond2 i = 1#1)
    (x1 x2 : Vec F S5000x64 .f32) (x3 : Vec F S1x64 .f32) (x4 : Vec F S64x64 .f32) (x5 : Vec F S1x64 .f32)
    (s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k7_pay4 x3 x1 x2 x4 x5)
            ∗ owns (c : Thread nD τ) arg7 fullShare (k7_pay5 x3 x1 x2 x4 x5 s0)
            ∗ owns (c : Thread nD τ) arg8 fullShare (k7_pay1 s1 (k7_pay6 x3 x1 x2 x4 x5))
            ∗ owns (c : Thread nD τ) arg9 fullShare (k7_pay5 x3 x1 x2 x4 x5 s0)
            ∗ owns (c : Thread nD τ) arg10 fullShare (k7_pay1 s1 (k7_pay6 x3 x1 x2 x4 x5))) -∗ K ⟨⟩))
      ⊢ wp frame (wpE (defs₀ (F := F)) Variants.none c none) E (cc7_linear_stats_kernel i arg1 harg1 arg2 harg2 arg3 harg3 arg4 harg4 arg5 harg5 arg6 harg6 arg7 harg7 arg8 harg8 arg9 harg9 arg10 harg10) K := by
  simp only [cc7_linear_stats_kernel_eq_skeleton]; unfold cc7_linear_stats_kernel_skel
  simp only [k7_part1_eq_skeleton]; unfold k7_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole7_last (S := S5000x64) _ _ offsZero7_last inb_S5000x64_S5000x64_0_0 _ _).trans ?_
    simp only [View.readCov_unit_zero (S := S1x64) _ offsZero7_last, loadWhole7_last (S := S1x64) _ offsZero7_last, loadWhole7_last (S := S5000x64) _ offsZero7_last, loadWhole7_last (S := S64x64) _ offsZero7_last]
  isplitl [H7]
  · iexists _; isplitr
    swap; · iexact H7
    ipureintro
    (try sl_unfold_words)
    refine (storeWhole7_last (S := S1x64) _ _ offsZero7_last inb_S1x64_S1x64_0_0 _ _).trans ?_
    simp only [View.readCov_unit_zero (S := S1x64) _ offsZero7_last, loadWhole7_last (S := S1x64) _ offsZero7_last, loadWhole7_last (S := S5000x64) _ offsZero7_last, loadWhole7_last (S := S64x64) _ offsZero7_last]
  isplitl [H8]
  · iexists _; isplitr
    swap; · iexact H8
    ipureintro
    (try sl_unfold_words)
    refine (storeWhole7_last (S := S1x64) _ _ offsZero7_last inb_S1x64_S1x64_0_0 _ _).trans ?_
    simp only [View.readCov_unit_zero (S := S1x64) _ offsZero7_last, loadWhole7_last (S := S1x64) _ offsZero7_last, loadWhole7_last (S := S5000x64) _ offsZero7_last, loadWhole7_last (S := S64x64) _ offsZero7_last]
  isplitl [H9]
  · iexists _; isplitr
    swap; · iexact H9
    ipureintro
    (try sl_unfold_words)
    refine (storeWhole7_last (S := S1x64) _ _ offsZero7_last inb_S1x64_S1x64_0_0 _ _).trans ?_
    simp only [View.readCov_unit_zero (S := S1x64) _ offsZero7_last, loadWhole7_last (S := S1x64) _ offsZero7_last, loadWhole7_last (S := S5000x64) _ offsZero7_last, loadWhole7_last (S := S64x64) _ offsZero7_last]
  iexists _; isplitr
  swap; · iexact H10
  ipureintro
  (try sl_unfold_words)
  refine (storeWhole7_last (S := S1x64) _ _ offsZero7_last inb_S1x64_S1x64_0_0 _ _).trans ?_
  simp only [View.readCov_unit_zero (S := S1x64) _ offsZero7_last, loadWhole7_last (S := S1x64) _ offsZero7_last, loadWhole7_last (S := S5000x64) _ offsZero7_last, loadWhole7_last (S := S64x64) _ offsZero7_last]

end Cert.KernelIdeal.Gen
end
-- ==== Proof.KI.Reg7.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«140206_j52750788330061_1_alg».proof.Proof.KI.Reg7.RunFirst
import proofs.«140206_j52750788330061_1_alg».proof.Proof.KI.Reg7.RunMid
import proofs.«140206_j52750788330061_1_alg».proof.Proof.KI.Reg7.RunLast
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which points run which conditional block -/

/-- The first block's condition, as the body computes it from the grid coordinate, holds at point 0 only. -/
theorem first7_iff : ∀ t : Fin cfg7.N,
    (Scalar.cmpi .ne (Scalar.extui (Scalar.cmpi .eq (BitVec.ofNat 32 ((grid7.coords t) 0).val) 0#32)) 0#32) = 1#1 ↔ t.val = 0 :=
  (by decide +kernel : ∀ t : Fin grid7.N,
    (Scalar.cmpi .ne (Scalar.extui (Scalar.cmpi .eq (BitVec.ofNat 32 ((grid7.coords t) 0).val) 0#32)) 0#32) = 1#1 ↔ t.val = 0)

/-- The last block's condition holds at point 9 only. -/
theorem last7_iff : ∀ t : Fin cfg7.N, k7_cond2 (grid7.coords t) = 1#1 ↔ t.val = 9 :=
  (by decide +kernel : ∀ t : Fin grid7.N, k7_cond2 (grid7.coords t) = 1#1 ↔ t.val = 9)

/-- The two small outputs are idle at every point but the last, -/
theorem idleAt7_6 : ∀ t : Fin cfg7.N, t.val ≠ 9 → cfg7.idle 6 (grid7.coords t) = true := by decide +kernel
theorem idleAt7_7 : ∀ t : Fin cfg7.N, t.val ≠ 9 → cfg7.idle 7 (grid7.coords t) = true := by decide +kernel
/-- live at the last, -/
theorem liveAt7_6 : ∀ t : Fin cfg7.N, t.val = 9 → cfg7.idle 6 (grid7.coords t) = false := by decide +kernel
theorem liveAt7_7 : ∀ t : Fin cfg7.N, t.val = 9 → cfg7.idle 7 (grid7.coords t) = false := by decide +kernel
/-- and not written back before it. -/
theorem noFlush7_6 : ∀ t : Fin cfg7.N, t.val ≠ 9 → (cfg7.win 6).flush t = false :=
  (by decide +kernel : ∀ t : Fin grid7.N, t.val ≠ 9 → win7_6.flush t = false)
theorem noFlush7_7 : ∀ t : Fin cfg7.N, t.val ≠ 9 → (cfg7.win 7).flush t = false :=
  (by decide +kernel : ∀ t : Fin grid7.N, t.val ≠ 9 → win7_7.flush t = false)

variable (V : (c : Dev nD) → (b : Ref sig .tc) → Buf (Elt F) ((c : Thread nD τ).loc b))

/-! ## The windows' blocks -/

/-- Window `w`'s block at point `t`, read off its array as the region finds it (`V`). -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point, fetched there or not (the three small
    inputs are fetched once, at the first point, and their block index never moves), for any proof data whose array is
    `V`'s and whose body leaves the block in place. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The two running column sums -/

/-- What the two accumulators hold after the first `n` points: zero rows before any point; each point adds the column
    sums of its affine block to the first and the column sums of that block's square to the second. -/
noncomputable def acc7 (c : Dev nD) : ℕ → Vec F S1x64 .f32 × Vec F S1x64 .f32
  | 0 => (k7_pay2, k7_pay3)
  | n + 1 =>
    if h : n < cfg7.N then
      (k7_pay5 (iblk7 V c 2 ⟨n, h⟩) (iblk7 V c 0 ⟨n, h⟩) (iblk7 V c 1 ⟨n, h⟩) (iblk7 V c 3 ⟨n, h⟩) (iblk7 V c 4 ⟨n, h⟩) (acc7 c n).1,
        k7_pay1 (acc7 c n).2 (k7_pay6 (iblk7 V c 2 ⟨n, h⟩) (iblk7 V c 0 ⟨n, h⟩) (iblk7 V c 1 ⟨n, h⟩) (iblk7 V c 3 ⟨n, h⟩) (iblk7 V c 4 ⟨n, h⟩)))
    else acc7 c n

/-- Before any point both accumulators are the zero rows. -/
theorem acc7_zero (c : Dev nD) : acc7 V c 0 = (k7_pay2, k7_pay3) := rfl

/-- One point's step: the accumulators after point `n` from those before it and the point's input blocks. -/
theorem acc7_succ (c : Dev nD) (n : ℕ) (h : n < cfg7.N) :
    acc7 V c (n + 1) =
      (k7_pay5 (iblk7 V c 2 ⟨n, h⟩) (iblk7 V c 0 ⟨n, h⟩) (iblk7 V c 1 ⟨n, h⟩) (iblk7 V c 3 ⟨n, h⟩) (iblk7 V c 4 ⟨n, h⟩) (acc7 V c n).1,
        k7_pay1 (acc7 V c n).2 (k7_pay6 (iblk7 V c 2 ⟨n, h⟩) (iblk7 V c 0 ⟨n, h⟩) (iblk7 V c 1 ⟨n, h⟩) (iblk7 V c 3 ⟨n, h⟩) (iblk7 V c 4 ⟨n, h⟩))) := by
  rw [acc7]; exact dif_pos h

/-- The first point's step, from the zero rows. -/
theorem acc7_zero_step (c : Dev nD) :
    acc7 V c 1 =
      (k7_pay5 (iblk7 V c 2 t7_0) (iblk7 V c 0 t7_0) (iblk7 V c 1 t7_0) (iblk7 V c 3 t7_0) (iblk7 V c 4 t7_0) k7_pay2,
        k7_pay1 k7_pay3 (k7_pay6 (iblk7 V c 2 t7_0) (iblk7 V c 0 t7_0) (iblk7 V c 1 t7_0) (iblk7 V c 3 t7_0) (iblk7 V c 4 t7_0))) :=
  acc7_succ V c 0 t7_0.isLt

/-! ## The invariant between points -/

/-- The two accumulators, as whole memrefs of the kernel's own scoped buffers. -/
abbrev sc7_0 : Memref sig .tc .vmem S1x64 .f32 := Memref.whole cc7_scratch0
abbrev sc7_1 : Memref sig .tc .vmem S1x64 .f32 := Memref.whole cc7_scratch1

/-- Every other scoped buffer of the core that is no staging buffer of this call, at some contents each. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- What the launch hands the region, with the two accumulators named: each at some contents, beside the other scoped
    buffers and the generator register. -/
theorem PhiA7_eq (c : Dev nD) :
    (Pipeline.ΦA spec7 c : sProp 𝕄)
      = iprop(iprop(iprop((∃ d, owns (c : Thread nD τ) sc7_0 fullShare d) ∗ (∃ d, owns (c : Thread nD τ) sc7_1 fullShare d)) ∗ rest7 c)
          ∗ (∃ r, prngReg c r)) := by
  unfold Pipeline.ΦA; rw [scopedRest7_split]; simp only [sc7_0, sc7_1, owns_whole]; try rfl

/-- The invariant before position `n`: before the first point what the launch hands over; afterwards the two accumulators
    at the running column sums over the points so far, beside the other scoped buffers and the generator register. -/
noncomputable def Phi7 (c : Dev nD) : ℕ → sProp 𝕄
  | 0 => Pipeline.ΦA spec7 c
  | n + 1 =>
    iprop(iprop(iprop(owns (c : Thread nD τ) sc7_0 fullShare (acc7 V c (n + 1)).1 ∗ owns (c : Thread nD τ) sc7_1 fullShare (acc7 V c (n + 1)).2) ∗ rest7 c)
      ∗ (∃ r, prngReg c r))

theorem Phi7_zero (c : Dev nD) : Phi7 V c 0 = Pipeline.ΦA spec7 c := rfl

theorem Phi7_succ (c : Dev nD) (n : ℕ) :
    Phi7 V c (n + 1) =
      iprop(iprop(iprop(owns (c : Thread nD τ) sc7_0 fullShare (acc7 V c (n + 1)).1 ∗ owns (c : Thread nD τ) sc7_1 fullShare (acc7 V c (n + 1)).2) ∗ rest7 c)
        ∗ (∃ r, prngReg c r)) := rfl

/-- After any point the accumulators are named. -/
theorem Phi7_pos (c : Dev nD) (n : ℕ) (hn : n ≠ 0) :
    Phi7 V c n =
      iprop(iprop(iprop(owns (c : Thread nD τ) sc7_0 fullShare (acc7 V c n).1 ∗ owns (c : Thread nD τ) sc7_1 fullShare (acc7 V c n).2) ∗ rest7 c)
        ∗ (∃ r, prngReg c r)) := by
  cases n with
  | zero => exact absurd rfl hn
  | succ n => rfl

/-! ## The proof data -/

/-- The proof data of this call on core `c`: the arrays as the region finds them (`V`); after the body at point `t` each
    input's buffer at its block, the big output's at the affine image of the point's blocks, each small output's at its
    running column sum through point `t` (consulted at the last point only: before it the window is idle); the invariant
    `Phi7`; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => k7_pay4 (iblk7 V c 2 t) (iblk7 V c 0 t) (iblk7 V c 1 t) (iblk7 V c 3 t) (iblk7 V c 4 t)
    | ⟨6, _⟩ => (acc7 V c (t.val + 1)).1
    | ⟨7, _⟩ => (acc7 V c (t.val + 1)).2
  Φ t := Phi7 V c t.val
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_big (c : Dev nD) (t : Fin cfg7.N) :
    (dat7 V c).after 5 t = k7_pay4 (iblk7 V c 2 t) (iblk7 V c 0 t) (iblk7 V c 1 t) (iblk7 V c 3 t) (iblk7 V c 4 t) := by dsimp only [dat7]
theorem after7_6 (c : Dev nD) (t : Fin cfg7.N) : (dat7 V c).after 6 t = (acc7 V c (t.val + 1)).1 := by dsimp only [dat7]
theorem after7_7 (c : Dev nD) (t : Fin cfg7.N) : (dat7 V c).after 7 t = (acc7 V c (t.val + 1)).2 := by dsimp only [dat7]
/-- At the last point the small outputs hold the column sums over all ten points. -/
theorem after7_s (c : Dev nD) : (dat7 V c).after 6 t7_9 = (acc7 V c 10).1 := after7_6 V c t7_9
theorem after7_ss (c : Dev nD) : (dat7 V c).after 7 t7_9 = (acc7 V c 10).2 := after7_7 V c t7_9

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- The invariant at a point's start and end, at the point's number. -/
theorem Phi7_castSucc (c : Dev nD) (t : Fin cfg7.N) : (dat7 V c).Φ t.castSucc = Phi7 V c t.val := by
  dsimp only [dat7]; simp only [Fin.coe_castSucc]
theorem Phi7_succ_pt (c : Dev nD) (t : Fin cfg7.N) : (dat7 V c).Φ t.succ = Phi7 V c (t.val + 1) := by
  dsimp only [dat7]; simp only [Fin.val_succ]

/-- What the launch hands the region is the invariant before the first point. -/
theorem hin7 (c : Dev nD) : Pipeline.ΦA spec7 c ⊢ (dat7 V c).Φ 0 := by
  rw [show (dat7 V c).Φ 0 = Phi7 V c 0 from rfl, Phi7_zero]
  try exact Idealize.SL.BI.Entails.refl _

/-- After the last point the invariant gives it back: the accumulators' named contents are forgotten. -/
theorem hout7 (c : Dev nD) : (dat7 V c).Φ (Fin.last cfg7.N) ⊢ Pipeline.ΦA spec7 c := by
  rw [show (dat7 V c).Φ (Fin.last cfg7.N) = Phi7 V c cfg7.N from rfl,
    Phi7_pos V c cfg7.N (by have : cfg7.N = 10 := N_7; omega), PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! ## The body obligation -/

/-- What the body is called with at point `t`, the windows one by one, -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
noncomputable def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

/-- The inputs and the big output are live at every point: the body leaves each at its stated contents. -/
theorem leaves7_0 (c : Dev nD) (t : Fin cfg7.N) :
    (dat7 V c).leavesExact 0 t = owns (c : Thread nD τ) (st7_0 t) fullShare (iblk7 V c 0 t) := by
  unfold Dat.leavesExact; rw [show cfg7.idle 0 (cfg7.grid.coords t) = false from rfl, after7_0]
theorem leaves7_1 (c : Dev nD) (t : Fin cfg7.N) :
    (dat7 V c).leavesExact 1 t = owns (c : Thread nD τ) (st7_1 t) fullShare (iblk7 V c 1 t) := by
  unfold Dat.leavesExact; rw [show cfg7.idle 1 (cfg7.grid.coords t) = false from rfl, after7_1]
theorem leaves7_2 (c : Dev nD) (t : Fin cfg7.N) :
    (dat7 V c).leavesExact 2 t = owns (c : Thread nD τ) (st7_2 t) fullShare (iblk7 V c 2 t) := by
  unfold Dat.leavesExact; rw [show cfg7.idle 2 (cfg7.grid.coords t) = false from rfl, after7_2]
theorem leaves7_3 (c : Dev nD) (t : Fin cfg7.N) :
    (dat7 V c).leavesExact 3 t = owns (c : Thread nD τ) (st7_3 t) fullShare (iblk7 V c 3 t) := by
  unfold Dat.leavesExact; rw [show cfg7.idle 3 (cfg7.grid.coords t) = false from rfl, after7_3]
theorem leaves7_4 (c : Dev nD) (t : Fin cfg7.N) :
    (dat7 V c).leavesExact 4 t = owns (c : Thread nD τ) (st7_4 t) fullShare (iblk7 V c 4 t) := by
  unfold Dat.leavesExact; rw [show cfg7.idle 4 (cfg7.grid.coords t) = false from rfl, after7_4]
theorem leaves7_5 (c : Dev nD) (t : Fin cfg7.N) :
    (dat7 V c).leavesExact 5 t = owns (c : Thread nD τ) (st7_5 t) fullShare
      (k7_pay4 (iblk7 V c 2 t) (iblk7 V c 0 t) (iblk7 V c 1 t) (iblk7 V c 3 t) (iblk7 V c 4 t)) := by
  unfold Dat.leavesExact; rw [show cfg7.idle 5 (cfg7.grid.coords t) = false from rfl, after7_big]
/-- The small outputs are live at the last point. -/
theorem leaves7_6_last (c : Dev nD) (t : Fin cfg7.N) (h9 : t.val = 9) :
    (dat7 V c).leavesExact 6 t = owns (c : Thread nD τ) (st7_6 t) fullShare (acc7 V c (t.val + 1)).1 := by
  unfold Dat.leavesExact; rw [liveAt7_6 t h9, after7_6]
theorem leaves7_7_last (c : Dev nD) (t : Fin cfg7.N) (h9 : t.val = 9) :
    (dat7 V c).leavesExact 7 t = owns (c : Thread nD τ) (st7_7 t) fullShare (acc7 V c (t.val + 1)).2 := by
  unfold Dat.leavesExact; rw [liveAt7_7 t h9, after7_7]

set_option maxHeartbeats 4000000 in
/-- The body at any point. The inputs' memrefs hold their blocks; the point's number says which of the three control
    cases it is in, and that case's run applies. The invariant hands the body the two accumulators — at anything at the
    first point, at the running sums afterwards — and takes them back at the sums through this point; the other scoped
    buffers, the generator register and the core's dues pass through untouched. Before the last point the small outputs'
    buffers are handed back as found; at the last they come back at the final sums. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [Phi7_castSucc, Phi7_succ_pt, Phi7_succ]
  rw [leaves7_0, leaves7_1, leaves7_2, leaves7_3, leaves7_4, leaves7_5]
  have hN : t.val < 10 := lt_of_lt_of_eq t.isLt (show cfg7.N = 10 from N_7)
  by_cases h9 : t.val = 9
  · have h0 : t.val ≠ 0 := by omega
    rw [leaves7_6_last V c t h9, leaves7_7_last V c t h9, acc7_succ V c t.val t.isLt, Phi7_pos V c t.val h0]
    simp only [Fin.eta]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run7_last c (grid7.coords t) _ _ _ _ _ _ _ _ _ _ _ _ _ _ _ _ _ _ _ _ (fun h => h0 ((first7_iff t).mp h)) ((last7_iff t).mpr h9)
      (iblk7 V c 0 t) (iblk7 V c 1 t) (iblk7 V c 2 t) (iblk7 V c 3 t) (iblk7 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat7 V c) 6 t (idleAt7_6 t h9) (noFlush7_6 t h9),
      Dat.leavesExact_idle (dat7 V c) 7 t (idleAt7_7 t h9) (noFlush7_7 t h9), acc7_succ V c t.val t.isLt]
    simp only [Fin.eta]
    by_cases h0 : t.val = 0
    · rw [show Phi7 V c t.val = Pipeline.ΦA spec7 c from by rw [h0]; rfl,
        show acc7 V c t.val = (k7_pay2, k7_pay3) from by rw [h0]; rfl, PhiA7_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run7_first c (grid7.coords t) _ _ _ _ _ _ _ _ _ _ _ _ _ _ _ _ _ _ _ _ ((first7_iff t).mpr h0) (fun h => h9 ((last7_iff t).mp h))
        (iblk7 V c 0 t) (iblk7 V c 1 t) (iblk7 V c 2 t) (iblk7 V c 3 t) (iblk7 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [Phi7_pos V c t.val h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run7_mid c (grid7.coords t) _ _ _ _ _ _ _ _ _ _ _ _ _ _ _ _ _ _ _ _ (fun h => h0 ((first7_iff t).mp h)) (fun h => h9 ((last7_iff t).mp h))
        (iblk7 V c 0 t) (iblk7 V c 1 t) (iblk7 V c 2 t) (iblk7 V c 3 t) (iblk7 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Gen
end
-- ==== Proof.KI.Reg8.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Batch-norm, relu and a linear map of a row block, with the column sums of the result and of its square
accumulated over the ten row blocks -/

/-- The offsets of every access of this kernel are zero. -/
theorem hzeroR8 : (![0, 0] : Fin 2 → Nat) = fun _ => 0 := funext fun a => by fin_cases a <;> rfl

/-! ## The body's two branch conditions -/

/-- The first conditional (the accumulators are zeroed) tests the row-block number against 0. -/
abbrev cond8_0 (i : grid8.Coords) : Prop := (Scalar.cmpi .ne (Scalar.extui (Scalar.cmpi .eq (BitVec.ofNat 32 (i 0).val) 0#32)) 0#32) = 1#1
/-- The second (the accumulators are copied to the two small outputs) tests it against 9. -/
abbrev cond8_1 (i : grid8.Coords) : Prop := k8_cond2 i = 1#1

/-- The first holds at row block 0 only. -/
theorem hcond8_0 : ∀ t : Fin cfg8.N, cond8_0 (grid8.coords t) ↔ t.val = 0 :=
  (by decide +kernel : ∀ t : Fin grid8.N, cond8_0 (grid8.coords t) ↔ t.val = 0)
/-- The second holds at row block 9 only. -/
theorem hcond8_1 : ∀ t : Fin cfg8.N, cond8_1 (grid8.coords t) ↔ t.val = 9 :=
  (by decide +kernel : ∀ t : Fin grid8.N, cond8_1 (grid8.coords t) ↔ t.val = 9)

/-! ## What one row block contributes, as functions of the seven input blocks

`xz` the row block of z, `xs` and `xq` the column sums of z and of its square over all rows, `xg`, `xe` the scale and
shift of the normalization, `xw` the weights, `xb` the bias. -/

/-- The normalized, rectified row block times the weights. -/
def mm8 (xz : Vec F S5000x64 .f32) (xs xq xg xe : Vec F S1x64 .f32) (xw : Vec F S64x64 .f32) : Vec F S5000x64 .f32 :=
  k8_pay6 xs xq xz xg xe xw
/-- The row block of the result: the product plus the bias. -/
def big8 (xz : Vec F S5000x64 .f32) (xs xq xg xe : Vec F S1x64 .f32) (xw : Vec F S64x64 .f32) (xb : Vec F S1x64 .f32) : Vec F S5000x64 .f32 :=
  k8_pay1 (mm8 xz xs xq xg xe xw) xb
/-- The running column sum `a` plus this block's column sum. -/
def sum8 (xz : Vec F S5000x64 .f32) (xs xq xg xe : Vec F S1x64 .f32) (xw : Vec F S64x64 .f32) (xb a : Vec F S1x64 .f32) : Vec F S1x64 .f32 :=
  k8_pay2 (mm8 xz xs xq xg xe xw) xb a
/-- The running column sum of squares `a` plus this block's. -/
def sq8 (xz : Vec F S5000x64 .f32) (xs xq xg xe : Vec F S1x64 .f32) (xw : Vec F S64x64 .f32) (xb a : Vec F S1x64 .f32) : Vec F S1x64 .f32 :=
  k8_pay3 (mm8 xz xs xq xg xe xw) xb a

/-- One whole-buffer store covers the buffer (a row of 64; a block of 5000 rows). -/
theorem coverRow8 (w : (Rect.unit (s := S1x64) ![0, 0] S1x64.size inb_S1x64_S1x64_0_0).shape.Idx → Elt F .f32) (y : S1x64.Idx) :
    ∃ p ∈ ([⟨Rect.unit (s := S1x64) ![0, 0] S1x64.size inb_S1x64_S1x64_0_0, w⟩] : List (View.Piece (Elt F) S1x64 .f32)), y ∈ p.1.set :=
  ⟨_, List.mem_singleton_self _, View.mem_set_unit_zero hzeroR8 inb_S1x64_S1x64_0_0 y⟩
theorem coverBlock8 (w : (Rect.unit (s := S5000x64) ![0, 0] S5000x64.size inb_S5000x64_S5000x64_0_0).shape.Idx → Elt F .f32) (y : S5000x64.Idx) :
    ∃ p ∈ ([⟨Rect.unit (s := S5000x64) ![0, 0] S5000x64.size inb_S5000x64_S5000x64_0_0, w⟩] : List (View.Piece (Elt F) S5000x64 .f32)), y ∈ p.1.set :=
  ⟨_, List.mem_singleton_self _, View.mem_set_unit_zero hzeroR8 inb_S5000x64_S5000x64_0_0 y⟩

set_option maxHeartbeats 1000000 in
/-- ROW BLOCK 0 (the first conditional taken, the second not). The accumulators, held at anything, are zeroed first:
    the body leaves them at `sum8 … 0`, `sq8 … 0` (the zero rows being the payloads the kernel stores), the big output at
    `big8`, the two small outputs untouched. -/
theorem sound_kernel8_A (c : Dev nD) (E : Set ℕ) (i : grid8.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : cond8_0 i) (hc1 : ¬cond8_1 i) (xz : Vec F S5000x64 .f32) (xs xq xg xe : Vec F S1x64 .f32) (xw : Vec F S64x64 .f32) (xb : Vec F S1x64 .f32)
    (xo xp : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ (∃ d, owns (c : Thread nD τ) arg11 fullShare d) ∗ (∃ d, owns (c : Thread nD τ) arg12 fullShare d)
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big8 xz xs xq xg xe xw xb)
            ∗ owns (c : Thread nD τ) arg9 fullShare xo ∗ owns (c : Thread nD τ) arg10 fullShare xp
            ∗ owns (c : Thread nD τ) arg11 fullShare (sum8 xz xs xq xg xe xw xb (k8_pay4 (F := F))) ∗ owns (c : Thread nD τ) arg12 fullShare (sq8 xz xs xq xg xe xw xb (k8_pay5 (F := F)))) -∗ K ⟨⟩))
      ⊢ wp frame (wpE (defs₀ (F := F)) Variants.none c none) E (cc8_bn_matmul_stats_kernel i arg1 harg1 arg2 harg2 arg3 harg3 arg4 harg4 arg5 harg5 arg6 harg6 arg7 harg7 arg8 harg8 arg9 harg9 arg10 harg10 arg11 harg11 arg12 harg12) K := by
  simp only [cc8_bn_matmul_stats_kernel_eq_skeleton]; unfold cc8_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%dva, %fva, -, Hva⟩, ⟨%dvq, %fvq, -, Hvq⟩, Hk⟩
  subst hfz hfs hfq hfg hfe hfw hfb hfo hfp
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock8 _), View.canon_unit_zero hzeroR8]
    sl_unfold_words
    unfold big8 mm8
    simp only [View.readAt_eq_ld, View.ld_unit_zero (S := S5000x64) hzeroR8, View.ld_unit_zero (S := S1x64) hzeroR8, View.ld_unit_zero (S := S64x64) hzeroR8]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (fun y => ⟨_, List.mem_cons.mpr (Or.inl rfl), View.mem_set_unit_zero hzeroR8 inb_S1x64_S1x64_0_0 y⟩)]
    sl_unfold_words
    rw [View.canon_cons_unit_zero (S := S1x64) hzeroR8, View.readCov_unit_zero (S := S1x64) _ hzeroR8]
    unfold sum8 mm8
    simp only [View.readAt_eq_ld, View.ld_unit_zero (S := S5000x64) hzeroR8, View.ld_unit_zero (S := S1x64) hzeroR8, View.ld_unit_zero (S := S64x64) hzeroR8]
  iexists _; isplitr
  swap; · iexact Hvq
  ipureintro
  rw [View.read_writes_eq_canon _ _ _ (fun y => ⟨_, List.mem_cons.mpr (Or.inl rfl), View.mem_set_unit_zero hzeroR8 inb_S1x64_S1x64_0_0 y⟩)]
  sl_unfold_words
  rw [View.canon_cons_unit_zero (S := S1x64) hzeroR8, View.readCov_unit_zero (S := S1x64) _ hzeroR8]
  unfold sq8 mm8
  simp only [View.readAt_eq_ld, View.ld_unit_zero (S := S5000x64) hzeroR8, View.ld_unit_zero (S := S1x64) hzeroR8, View.ld_unit_zero (S := S64x64) hzeroR8]

set_option maxHeartbeats 1000000 in
/-- ROW BLOCKS 1 TO 8 (neither conditional taken). On whole staging memrefs, the inputs at their blocks, the big
    output at anything, the two small outputs at contents handed back untouched, the two accumulators at `va`, `vq`:
    the body leaves the big output at `big8` and the accumulators at `sum8 … va`, `sq8 … vq`. -/
theorem sound_kernel8_B (c : Dev nD) (E : Set ℕ) (i : grid8.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond8_0 i) (hc1 : ¬cond8_1 i) (xz : Vec F S5000x64 .f32) (xs xq xg xe : Vec F S1x64 .f32) (xw : Vec F S64x64 .f32) (xb : Vec F S1x64 .f32)
    (xo xp va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big8 xz xs xq xg xe xw xb)
            ∗ owns (c : Thread nD τ) arg9 fullShare xo ∗ owns (c : Thread nD τ) arg10 fullShare xp
            ∗ owns (c : Thread nD τ) arg11 fullShare (sum8 xz xs xq xg xe xw xb va) ∗ owns (c : Thread nD τ) arg12 fullShare (sq8 xz xs xq xg xe xw xb vq)) -∗ K ⟨⟩))
      ⊢ wp frame (wpE (defs₀ (F := F)) Variants.none c none) E (cc8_bn_matmul_stats_kernel i arg1 harg1 arg2 harg2 arg3 harg3 arg4 harg4 arg5 harg5 arg6 harg6 arg7 harg7 arg8 harg8 arg9 harg9 arg10 harg10 arg11 harg11 arg12 harg12) K := by
  simp only [cc8_bn_matmul_stats_kernel_eq_skeleton]; unfold cc8_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%fva, %hfva, Hva⟩, ⟨%fvq, %hfvq, Hvq⟩, Hk⟩
  subst hfz hfs hfq hfg hfe hfw hfb hfo hfp hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock8 _), View.canon_unit_zero hzeroR8]
    sl_unfold_words
    unfold big8 mm8
    simp only [View.readAt_eq_ld, View.ld_unit_zero (S := S5000x64) hzeroR8, View.ld_unit_zero (S := S1x64) hzeroR8, View.ld_unit_zero (S := S64x64) hzeroR8]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (coverRow8 _), View.canon_unit_zero hzeroR8]
    sl_unfold_words
    unfold sum8 mm8
    simp only [View.readAt_eq_ld, View.ld_unit_zero (S := S5000x64) hzeroR8, View.ld_unit_zero (S := S1x64) hzeroR8, View.ld_unit_zero (S := S64x64) hzeroR8]
  iexists _; isplitr
  swap; · iexact Hvq
  ipureintro
  rw [View.read_writes_eq_canon _ _ _ (coverRow8 _), View.canon_unit_zero hzeroR8]
  sl_unfold_words
  unfold sq8 mm8
  simp only [View.readAt_eq_ld, View.ld_unit_zero (S := S5000x64) hzeroR8, View.ld_unit_zero (S := S1x64) hzeroR8, View.ld_unit_zero (S := S64x64) hzeroR8]

set_option maxHeartbeats 1000000 in
/-- ROW BLOCK 9 (the second conditional taken, the first not). As at row blocks 1 to 8, and then each accumulator is
    copied whole to its small output, held at anything before. -/
theorem sound_kernel8_C (c : Dev nD) (E : Set ℕ) (i : grid8.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond8_0 i) (hc1 : cond8_1 i) (xz : Vec F S5000x64 .f32) (xs xq xg xe : Vec F S1x64 .f32) (xw : Vec F S64x64 .f32) (xb : Vec F S1x64 .f32)
    (va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big8 xz xs xq xg xe xw xb)
            ∗ owns (c : Thread nD τ) arg9 fullShare (sum8 xz xs xq xg xe xw xb va) ∗ owns (c : Thread nD τ) arg10 fullShare (sq8 xz xs xq xg xe xw xb vq)
            ∗ owns (c : Thread nD τ) arg11 fullShare (sum8 xz xs xq xg xe xw xb va) ∗ owns (c : Thread nD τ) arg12 fullShare (sq8 xz xs xq xg xe xw xb vq)) -∗ K ⟨⟩))
      ⊢ wp frame (wpE (defs₀ (F := F)) Variants.none c none) E (cc8_bn_matmul_stats_kernel i arg1 harg1 arg2 harg2 arg3 harg3 arg4 harg4 arg5 harg5 arg6 harg6 arg7 harg7 arg8 harg8 arg9 harg9 arg10 harg10 arg11 harg11 arg12 harg12) K := by
  simp only [cc8_bn_matmul_stats_kernel_eq_skeleton]; unfold cc8_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%do9, %fo, -, Ho⟩, ⟨%dp, %fp, -, Hp⟩, ⟨%fva, %hfva, Hva⟩, ⟨%fvq, %hfvq, Hvq⟩, Hk⟩
  subst hfz hfs hfq hfg hfe hfw hfb hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock8 _), View.canon_unit_zero hzeroR8]
    sl_unfold_words
    unfold big8 mm8
    simp only [View.readAt_eq_ld, View.ld_unit_zero (S := S5000x64) hzeroR8, View.ld_unit_zero (S := S1x64) hzeroR8, View.ld_unit_zero (S := S64x64) hzeroR8]
  isplitl [Ho]
  · iexists _; isplitr
    swap; · iexact Ho
    ipureintro
    rw [View.read_writes_eq_canon _ _ _ (coverRow8 _), View.canon_unit_zero hzeroR8]
    sl_unfold_words
    rw [View.readCov_unit_zero (S := S1x64) _ hzeroR8]
    unfold sum8 mm8
    simp only [View.readAt_eq_ld, View.ld_unit_zero (S := S5000x64) hzeroR8, View.ld_unit_zero (S := S1x64) hzeroR8, View.ld_unit_zero (S := S64x64) hzeroR8]
  isplitl [Hp]
  · iexists _; isplitr
    swap; · iexact Hp
    ipureintro
    rw [View.read_writes_eq_canon _ _ _ (coverRow8 _), View.canon_unit_zero hzeroR8]
    sl_unfold_words
    rw [View.readCov_unit_zero (S := S1x64) _ hzeroR8]
    unfold sq8 mm8
    simp only [View.readAt_eq_ld, View.ld_unit_zero (S := S5000x64) hzeroR8, View.ld_unit_zero (S := S1x64) hzeroR8, View.ld_unit_zero (S := S64x64) hzeroR8]
  isplitl [Hva]
  · iexists _; isplitr
    swap; · iexact Hva
    ipureintro
    sl_unfold_words
    rw [View.read_writes_eq_canon _ _ _ (coverRow8 _), View.canon_unit_zero hzeroR8]
    unfold sum8 mm8
    simp only [View.readAt_eq_ld, View.ld_unit_zero (S := S5000x64) hzeroR8, View.ld_unit_zero (S := S1x64) hzeroR8, View.ld_unit_zero (S := S64x64) hzeroR8]
  iexists _; isplitr
  swap; · iexact Hvq
  ipureintro
  sl_unfold_words
  rw [View.read_writes_eq_canon _ _ _ (coverRow8 _), View.canon_unit_zero hzeroR8]
  unfold sq8 mm8
  simp only [View.readAt_eq_ld, View.ld_unit_zero (S := S5000x64) hzeroR8, View.ld_unit_zero (S := S1x64) hzeroR8, View.ld_unit_zero (S := S64x64) hzeroR8]

-- the TensorCore's buffer contents when the region is entered
variable (V : (c : Dev nD) → (b : Ref sig .tc) → Buf (Elt F) ((c : Thread nD τ).loc b))

/-! ## The windows' blocks -/

/-- Window `w`'s block at row block `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! Each input window's current staging buffer holds its block at every row block, fetched there or not, for any proof
    data whose array is the entry contents and whose body leaves the block in place (an input not fetched again keeps
    its block index). -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## Where the two small outputs are idle -/

/-- Before row block 9 the two small outputs are idle and are not written back. -/
theorem idleAt8_8 : ∀ t : Fin cfg8.N, ¬cond8_1 (grid8.coords t) → cfg8.idle 8 (grid8.coords t) = true := by decide +kernel
theorem idleAt8_9 : ∀ t : Fin cfg8.N, ¬cond8_1 (grid8.coords t) → cfg8.idle 9 (grid8.coords t) = true := by decide +kernel
theorem noFlush8_8 : ∀ t : Fin cfg8.N, ¬cond8_1 (grid8.coords t) → (cfg8.win 8).flush t = false := by decide +kernel
theorem noFlush8_9 : ∀ t : Fin cfg8.N, ¬cond8_1 (grid8.coords t) → (cfg8.win 9).flush t = false := by decide +kernel
/-- At row block 9 they are live. -/
theorem liveAt8_8 : ∀ t : Fin cfg8.N, cond8_1 (grid8.coords t) → cfg8.idle 8 (grid8.coords t) = false := by decide +kernel
theorem liveAt8_9 : ∀ t : Fin cfg8.N, cond8_1 (grid8.coords t) → cfg8.idle 9 (grid8.coords t) = false := by decide +kernel

/-! ## The two accumulators, row block by row block -/

/-- What the two accumulators hold after the first `n` row blocks: zero rows, then each block's column sums added in
    order (past the last row block nothing changes). -/
def acc8 (c : Dev nD) : ℕ → Vec F S1x64 .f32 × Vec F S1x64 .f32
  | 0 => (k8_pay4, k8_pay5)
  | n + 1 => if h : n < cfg8.N then
      (sum8 (iblk8 V c 0 ⟨n, h⟩) (iblk8 V c 1 ⟨n, h⟩) (iblk8 V c 2 ⟨n, h⟩) (iblk8 V c 3 ⟨n, h⟩) (iblk8 V c 4 ⟨n, h⟩) (iblk8 V c 5 ⟨n, h⟩) (iblk8 V c 6 ⟨n, h⟩) (acc8 c n).1,
       sq8 (iblk8 V c 0 ⟨n, h⟩) (iblk8 V c 1 ⟨n, h⟩) (iblk8 V c 2 ⟨n, h⟩) (iblk8 V c 3 ⟨n, h⟩) (iblk8 V c 4 ⟨n, h⟩) (iblk8 V c 5 ⟨n, h⟩) (iblk8 V c 6 ⟨n, h⟩) (acc8 c n).2)
    else acc8 c n

theorem acc8_zero (c : Dev nD) : acc8 V c 0 = (k8_pay4, k8_pay5) := rfl

/-- One more row block: its column sums are added to what the blocks before left. -/
theorem acc8_succ (c : Dev nD) (t : Fin cfg8.N) : acc8 V c (t.val + 1) =
      (sum8 (iblk8 V c 0 t) (iblk8 V c 1 t) (iblk8 V c 2 t) (iblk8 V c 3 t) (iblk8 V c 4 t) (iblk8 V c 5 t) (iblk8 V c 6 t) (acc8 V c t.val).1,
       sq8 (iblk8 V c 0 t) (iblk8 V c 1 t) (iblk8 V c 2 t) (iblk8 V c 3 t) (iblk8 V c 4 t) (iblk8 V c 5 t) (iblk8 V c 6 t) (acc8 V c t.val).2) := by
  obtain ⟨n, hn⟩ := t
  show (if h : n < cfg8.N then _ else _) = _
  rw [dif_pos hn]

/-- The first row block adds to the zero rows. -/
theorem acc8_zero_step (c : Dev nD) (t : Fin cfg8.N) (h : t.val = 0) : acc8 V c (t.val + 1) =
      (sum8 (iblk8 V c 0 t) (iblk8 V c 1 t) (iblk8 V c 2 t) (iblk8 V c 3 t) (iblk8 V c 4 t) (iblk8 V c 5 t) (iblk8 V c 6 t) (k8_pay4 (F := F)),
       sq8 (iblk8 V c 0 t) (iblk8 V c 1 t) (iblk8 V c 2 t) (iblk8 V c 3 t) (iblk8 V c 4 t) (iblk8 V c 5 t) (iblk8 V c 6 t) (k8_pay5 (F := F))) := by
  rw [acc8_succ, h]; rfl

theorem mm8_eq (xz : Vec F S5000x64 .f32) (xs xq xg xe : Vec F S1x64 .f32) (xw : Vec F S64x64 .f32) :
    mm8 xz xs xq xg xe xw = k8_pay6 xs xq xz xg xe xw := rfl
theorem big8_eq (xz : Vec F S5000x64 .f32) (xs xq xg xe : Vec F S1x64 .f32) (xw : Vec F S64x64 .f32) (xb : Vec F S1x64 .f32) :
    big8 xz xs xq xg xe xw xb = k8_pay1 (k8_pay6 xs xq xz xg xe xw) xb := rfl
theorem sum8_eq (xz : Vec F S5000x64 .f32) (xs xq xg xe : Vec F S1x64 .f32) (xw : Vec F S64x64 .f32) (xb a : Vec F S1x64 .f32) :
    sum8 xz xs xq xg xe xw xb a = k8_pay2 (k8_pay6 xs xq xz xg xe xw) xb a := rfl
theorem sq8_eq (xz : Vec F S5000x64 .f32) (xs xq xg xe : Vec F S1x64 .f32) (xw : Vec F S64x64 .f32) (xb a : Vec F S1x64 .f32) :
    sq8 xz xs xq xg xe xw xb a = k8_pay3 (k8_pay6 xs xq xz xg xe xw) xb a := rfl

/-! ## The region invariant -/

/-- The two accumulators: whole scoped buffers of the kernel's own. -/
abbrev scM8_0 : Memref sig .tc .vmem S1x64 .f32 := Memref.whole cc8_scratch0
abbrev scM8_1 : Memref sig .tc .vmem S1x64 .f32 := Memref.whole cc8_scratch1

/-- What the launch hands the region, with the two accumulators as memrefs owned at some contents beside the rest of the
    scoped buffers and the generator register. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut spec8 c [cc8_scratch0, cc8_scratch1]) ∗ (∃ r, prngReg c r)) := by
  unfold Pipeline.ΦA; rw [scopedRest8_split]; simp only [scM8_0, scM8_1, owns_whole]; try rfl

/-- The invariant before row block `n`: before the first what the launch hands over; afterwards the two accumulators at
    what the row blocks so far left, beside the untouched rest. -/
def PhiS8 (c : Dev nD) : ℕ → sProp 𝕄
  | 0 => Pipeline.ΦA spec8 c
  | n + 1 => iprop(iprop(iprop(owns (c : Thread nD τ) scM8_0 fullShare (acc8 V c (n + 1)).1 ∗ owns (c : Thread nD τ) scM8_1 fullShare (acc8 V c (n + 1)).2)
          ∗ Pipeline.scopedRestBut spec8 c [cc8_scratch0, cc8_scratch1]) ∗ (∃ r, prngReg c r))

theorem PhiS8_zero (c : Dev nD) (n : ℕ) (hz : n = 0) : PhiS8 V c n = Pipeline.ΦA spec8 c := by subst hz; rfl

theorem PhiS8_pos (c : Dev nD) (n : ℕ) (hz : n ≠ 0) :
    PhiS8 V c n = iprop(iprop(iprop(owns (c : Thread nD τ) scM8_0 fullShare (acc8 V c n).1 ∗ owns (c : Thread nD τ) scM8_1 fullShare (acc8 V c n).2)
          ∗ Pipeline.scopedRestBut spec8 c [cc8_scratch0, cc8_scratch1]) ∗ (∃ r, prngReg c r)) := by
  cases n with
  | zero => exact absurd rfl hz
  | succ n => rfl

/-! ## The pipeline's proof data -/

/-- The proof data of this pipeline on core `c`: the arrays as the region finds them; after the body at row block `t`
    each input's buffer at its block, the big output's at `big8` of the input blocks, the two small outputs' at the
    accumulators after `t + 1` row blocks (what the last row block copies there; at the others, where they are idle,
    never consulted); nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => big8 (iblk8 V c 0 t) (iblk8 V c 1 t) (iblk8 V c 2 t) (iblk8 V c 3 t) (iblk8 V c 4 t) (iblk8 V c 5 t) (iblk8 V c 6 t)
    | ⟨8, _⟩ => (acc8 V c (t.val + 1)).1
    | ⟨9, _⟩ => (acc8 V c (t.val + 1)).2
  Φ t := PhiS8 V c t.val
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_big (c : Dev nD) (t : Fin cfg8.N) : (dat8 V c).after 7 t = big8 (iblk8 V c 0 t) (iblk8 V c 1 t) (iblk8 V c 2 t) (iblk8 V c 3 t) (iblk8 V c 4 t) (iblk8 V c 5 t) (iblk8 V c 6 t) := by dsimp only [dat8]
theorem after8_s (c : Dev nD) (t : Fin cfg8.N) : (dat8 V c).after 8 t = (acc8 V c (t.val + 1)).1 := by dsimp only [dat8]
theorem after8_ss (c : Dev nD) (t : Fin cfg8.N) : (dat8 V c).after 9 t = (acc8 V c (t.val + 1)).2 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

theorem Phi8_castSucc (c : Dev nD) (t : Fin cfg8.N) : (dat8 V c).Φ t.castSucc = PhiS8 V c t.val := by
  dsimp only [dat8]; simp only [Fin.coe_castSucc]
theorem Phi8_succ (c : Dev nD) (t : Fin cfg8.N) : (dat8 V c).Φ t.succ = PhiS8 V c (t.val + 1) := by
  dsimp only [dat8]; simp only [Fin.val_succ]

/-! ## The body obligation, at a generic row block -/

/-- What the body is called with at row block `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t
    ∗ (dat8 V c).leavesExact 9 t)

/-- Every window but the two small outputs is live at every row block: the body leaves its buffer at `after`. -/
theorem leaves8_0 (c : Dev nD) (t : Fin cfg8.N) : (dat8 V c).leavesExact 0 t = owns (c : Thread nD τ) (st8_0 t) fullShare ((dat8 V c).after 0 t) := rfl
theorem leaves8_1 (c : Dev nD) (t : Fin cfg8.N) : (dat8 V c).leavesExact 1 t = owns (c : Thread nD τ) (st8_1 t) fullShare ((dat8 V c).after 1 t) := rfl
theorem leaves8_2 (c : Dev nD) (t : Fin cfg8.N) : (dat8 V c).leavesExact 2 t = owns (c : Thread nD τ) (st8_2 t) fullShare ((dat8 V c).after 2 t) := rfl
theorem leaves8_3 (c : Dev nD) (t : Fin cfg8.N) : (dat8 V c).leavesExact 3 t = owns (c : Thread nD τ) (st8_3 t) fullShare ((dat8 V c).after 3 t) := rfl
theorem leaves8_4 (c : Dev nD) (t : Fin cfg8.N) : (dat8 V c).leavesExact 4 t = owns (c : Thread nD τ) (st8_4 t) fullShare ((dat8 V c).after 4 t) := rfl
theorem leaves8_5 (c : Dev nD) (t : Fin cfg8.N) : (dat8 V c).leavesExact 5 t = owns (c : Thread nD τ) (st8_5 t) fullShare ((dat8 V c).after 5 t) := rfl
theorem leaves8_6 (c : Dev nD) (t : Fin cfg8.N) : (dat8 V c).leavesExact 6 t = owns (c : Thread nD τ) (st8_6 t) fullShare ((dat8 V c).after 6 t) := rfl
theorem leaves8_7 (c : Dev nD) (t : Fin cfg8.N) : (dat8 V c).leavesExact 7 t = owns (c : Thread nD τ) (st8_7 t) fullShare ((dat8 V c).after 7 t) := rfl

set_option maxHeartbeats 4800000 in
/-- The body at any row block: the inputs' memrefs hold their blocks; the row-block number decides which of the three
    runs applies; the invariant hands the body the accumulators (at anything before the first row block, afterwards at
    what the blocks so far left) and takes them back with this block's column sums added; the rest of the scoped
    buffers, the generator register and what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).owesAt () t.succ = (dat8 V c).owesAt () t.castSucc from rfl]
  rw [Phi8_castSucc, Phi8_succ]
  rw [leaves8_0, leaves8_1, leaves8_2, leaves8_3, leaves8_4, leaves8_5, leaves8_6, leaves8_7,
    after8_0, after8_1, after8_2, after8_3, after8_4, after8_5, after8_6, after8_big]
  by_cases h0 : t.val = 0
  · -- row block 0
    have h9 : ¬t.val = 9 := by omega
    have hc0 : cond8_0 (grid8.coords t) := (hcond8_0 t).mpr h0
    have hc1 : ¬cond8_1 (grid8.coords t) := fun h => h9 ((hcond8_1 t).mp h)
    rw [Dat.leavesExact_idle (dat8 V c) 8 t (idleAt8_8 t hc1) (noFlush8_8 t hc1),
      Dat.leavesExact_idle (dat8 V c) 9 t (idleAt8_9 t hc1) (noFlush8_9 t hc1)]
    rw [PhiS8_zero V c _ h0, PhiA8_eq, PhiS8_pos V c _ (Nat.succ_ne_zero _), acc8_zero_step V c t h0]
    iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel8_A c Set.univ (grid8.coords t) _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [Hva]; · iexact Hva
    isplitl [Hvq]; · iexact Hvq
    iintro ⟨H0, H1, H2, H3, H4, H5, H6, H7, H8, H9, Hva, Hvq⟩
    isplitl [Hva Hvq Hrest Hg]
    · isplitl [Hva Hvq Hrest]
      · isplitl [Hva Hvq]
        · isplitl [Hva]; · iexact Hva
          iexact Hvq
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · by_cases h9 : t.val = 9
    · -- row block 9
      have hc0 : ¬cond8_0 (grid8.coords t) := fun h => h0 ((hcond8_0 t).mp h)
      have hc1 : cond8_1 (grid8.coords t) := (hcond8_1 t).mpr h9
      rw [show (dat8 V c).leavesExact 8 t = owns (c : Thread nD τ) (st8_8 t) fullShare ((dat8 V c).after 8 t) from by
          unfold Dat.leavesExact; rw [liveAt8_8 t hc1],
        show (dat8 V c).leavesExact 9 t = owns (c : Thread nD τ) (st8_9 t) fullShare ((dat8 V c).after 9 t) from by
          unfold Dat.leavesExact; rw [liveAt8_9 t hc1], after8_s, after8_ss]
      rw [PhiS8_pos V c _ h0, PhiS8_pos V c _ (Nat.succ_ne_zero _), acc8_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel8_C c Set.univ (grid8.coords t) _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- row blocks 1 to 8
      have hc0 : ¬cond8_0 (grid8.coords t) := fun h => h0 ((hcond8_0 t).mp h)
      have hc1 : ¬cond8_1 (grid8.coords t) := fun h => h9 ((hcond8_1 t).mp h)
      rw [Dat.leavesExact_idle (dat8 V c) 8 t (idleAt8_8 t hc1) (noFlush8_8 t hc1),
        Dat.leavesExact_idle (dat8 V c) 9 t (idleAt8_9 t hc1) (noFlush8_9 t hc1)]
      rw [PhiS8_pos V c _ h0, PhiS8_pos V c _ (Nat.succ_ne_zero _), acc8_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel8_B c Set.univ (grid8.coords t) _ _ _ _ _ _ _ _ _ _ _ _ _ _ _ _ _ _ _ _ _ _ _ _ hc0 hc1 (iblk8 V c 0 t) (iblk8 V c 1 t) (iblk8 V c 2 t) (iblk8 V c 3 t) (iblk8 V c 4 t) (iblk8 V c 5 t) (iblk8 V c 6 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every row block. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first row block. -/
theorem hin8 (c : Dev nD) : Pipeline.ΦA spec8 c ⊢ (dat8 V c).Φ 0 := by
  rw [show (dat8 V c).Φ 0 = PhiS8 V c 0 from rfl, PhiS8_zero V c 0 rfl]
  try exact Idealize.SL.BI.Entails.refl _

/-- After the last row block the invariant gives back what the launch handed over: the accumulators' named contents
    are forgotten. -/
theorem hout8 (c : Dev nD) : (dat8 V c).Φ (Fin.last cfg8.N) ⊢ Pipeline.ΦA spec8 c := by
  rw [show (dat8 V c).Φ (Fin.last cfg8.N) = PhiS8 V c (Fin.last cfg8.N).val from rfl,
    PhiS8_pos V c _ (by rw [Fin.val_last]; have : cfg8.N = 10 := N_8; omega), PhiA8_eq]
  iintro ⟨⟨⟨Hva, Hvq⟩, Hrest⟩, Hg⟩
  isplitl [Hva Hvq Hrest]
  · isplitl [Hva Hvq]
    · isplitl [Hva]; · iexists _; iexact Hva
      iexists _; iexact Hvq
    iexact Hrest
  iexact Hg

end Cert.KernelIdeal.Gen

end
-- ==== Proof.KI.Reg9.lean ====
/- The batch-norm-and-relu region of one layer, at the TensorCore's buffer contents V on entry, for any float type F.
   Six windows over a grid of ten row blocks: the row block of z (5000 x 64), then four (1 x 64) rows — the column
   sums of z, the column sums of z*z, the scale and the shift — and the output row block (5000 x 64).
   The body reads the five inputs whole and stores the output block whole, at every point, and keeps nothing from
   one point to the next; so after the body each input buffer still holds its block and the output buffer holds
   one payload: relu ((z - mean) * rsqrt (var + eps) * scale + shift) of the input blocks, as the skeleton names it. -/
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 5000-row rectangle is looked at structurally, once per row
set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input buffer holds its window's block at every point. The z block moves with the point and is fetched each
    time; the four rows are fetched at the first point only, and later points find them where they were left, which
    is right because their block index never moves. One library fact covers both: for proof data whose array is the
    entry contents and whose body leaves the block where it was, the buffer is what a fetch would put there. -/

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## What the body touches -/

/-- The whole of a 5000 x 64 block: the one rectangle the z load, the output's read and the output's store go through. -/
abbrev blockRect9 : Rect S5000x64 := Rect.unit (s := S5000x64) ![0, 0] S5000x64.size inb_S5000x64_S5000x64_0_0
/-- The whole of a 1 x 64 row: the rectangle each of the four row loads goes through. -/
abbrev rowRect9 : Rect S1x64 := Rect.unit (s := S1x64) ![0, 0] S1x64.size inb_S1x64_S1x64_0_0

/-! ## What the body leaves in the output buffer -/

/-- The output buffer after the body, from the five input blocks (z, the two sums, scale, shift, in window order):
    the single store's payload over the whole block, whatever the buffer held before. -/
def out9_5 (z : Vec F S5000x64 .f32) (s ss g b : Vec F S1x64 .f32) : Vec F S5000x64 .f32 :=
  View.canon [⟨blockRect9, k9_pay1 (View.ld s rowRect9) (View.ld ss rowRect9) (View.ld z blockRect9) (View.ld g rowRect9) (View.ld b rowRect9)⟩]

/-- The one store's rectangle is the whole block, so every index of the buffer lies in it. -/
theorem cover9_5 (p : Vec F S5000x64 .f32) (y : S5000x64.Idx) :
    ∃ pc ∈ ([⟨blockRect9, p⟩] : List (View.Piece (Elt F) S5000x64 .f32)), y ∈ pc.1.set :=
  View.cover_of_tiled [⟨blockRect9, p⟩] S5000x64.size (by rfl) y

/-! ## The body's triple -/

set_option maxHeartbeats 1000000 in
/-- Run on whole buffers — the five inputs' reading z, s, ss, g, b and the output's holding anything — the body hands
    its continuation the inputs as they were and the output at out9_5 of them. The printed function is its skeleton
    of loads and one store; the loads read the owned contents through whole rectangles, the output's own read is
    of whatever it held and is not used, and the store covers the buffer. -/
theorem sound_kernel9 (c : Dev nD) (E : Set ℕ) (i : grid9.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (z : Vec F S5000x64 .f32) (s ss g b : Vec F S1x64 .f32) (K : PUnit → sProp 𝕄) :
    iprop(owns (c : Thread nD τ) arg1 fullShare z ∗ owns (c : Thread nD τ) arg2 fullShare s ∗ owns (c : Thread nD τ) arg3 fullShare ss
        ∗ owns (c : Thread nD τ) arg4 fullShare g ∗ owns (c : Thread nD τ) arg5 fullShare b ∗ (∃ d, owns (c : Thread nD τ) arg6 fullShare d)
        ∗ (iprop(owns (c : Thread nD τ) arg1 fullShare z ∗ owns (c : Thread nD τ) arg2 fullShare s ∗ owns (c : Thread nD τ) arg3 fullShare ss
            ∗ owns (c : Thread nD τ) arg4 fullShare g ∗ owns (c : Thread nD τ) arg5 fullShare b
            ∗ owns (c : Thread nD τ) arg6 fullShare (out9_5 z s ss g b)) -∗ K ⟨⟩))
      ⊢ wp frame (wpE (defs₀ (F := F)) Variants.none c none) E (cc9_bn_relu_kernel i arg1 harg1 arg2 harg2 arg3 harg3 arg4 harg4 arg5 harg5 arg6 harg6) K := by
  simp only [cc9_bn_relu_kernel_eq_skeleton]; unfold cc9_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_5 _)

/-! ## The region's proof data -/

/-- The arrays are the entry contents; after the body at point t each input buffer holds its block and the output
    buffer out9_5 of the five input blocks there; the invariant is the one of a body that touches nothing but its
    buffers; full shares, nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation -/

/-- What the pipeline calls the body with at point t, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it has to give back. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- At any point the input buffers hold their blocks, so the body's triple applies; the invariant and what is
    owed go through untouched, being the same before and after a point. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this region's proof data, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Gen

end
-- ==== Proof.KI.Reg10.RunFirst.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero10_first : (![0, 0] : Fin 2 → Nat) = fun _ => 0 := funext fun a => by fin_cases a <;> rfl

/-- A store through the whole-shape rectangle, made last, leaves its payload, whatever was stored before. -/
theorem storeWhole10_first {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole10_first {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the first point: the first conditional block runs and zeroes both accumulators, the last does not run. On
    whole memrefs — the five inputs at their contents, the big output and both accumulators at anything, the two small
    outputs at contents handed back untouched — it stores the affine image of the inputs into the big output and leaves
    in the accumulators the zero rows plus that block's column sums and the column sums of its square. -/
theorem run10_first (c : Dev nD) (i : grid10.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : (Scalar.cmpi .ne (Scalar.extui (Scalar.cmpi .eq (BitVec.ofNat 32 (i 0).val) 0#32)) 0#32) = 1#1) (hlast : ¬ k10_cond2 i = 1#1)
    (x1 x2 : Vec F S5000x64 .f32) (x3 : Vec F S1x64 .f32) (x4 : Vec F S64x64 .f32) (x5 : Vec F S1x64 .f32)
    (y7 y8 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k10_pay4 x3 x1 x2 x4 x5) ∗ owns (c : Thread nD τ) arg7 fullShare y7 ∗ owns (c : Thread nD τ) arg8 fullShare y8
            ∗ owns (c : Thread nD τ) arg9 fullShare (k10_pay5 x3 x1 x2 x4 x5 k10_pay2)
            ∗ owns (c : Thread nD τ) arg10 fullShare (k10_pay1 k10_pay3 (k10_pay6 x3 x1 x2 x4 x5))) -∗ K ⟨⟩))
      ⊢ wp frame (wpE (defs₀ (F := F)) Variants.none c none) E (cc10_linear_stats_kernel i arg1 harg1 arg2 harg2 arg3 harg3 arg4 harg4 arg5 harg5 arg6 harg6 arg7 harg7 arg8 harg8 arg9 harg9 arg10 harg10) K := by
  simp only [cc10_linear_stats_kernel_eq_skeleton]; unfold cc10_linear_stats_kernel_skel
  simp only [k10_part1_eq_skeleton]; unfold k10_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole10_first (S := S5000x64) _ _ offsZero10_first inb_S5000x64_S5000x64_0_0 _ _).trans ?_
    simp only [View.readCov_unit_zero (S := S1x64) _ offsZero10_first, loadWhole10_first (S := S1x64) _ offsZero10_first, loadWhole10_first (S := S5000x64) _ offsZero10_first, loadWhole10_first (S := S64x64) _ offsZero10_first]
  isplitl [H7]; · iexact H7
  isplitl [H8]; · iexact H8
  isplitl [H9]
  · iexists _; isplitr
    swap; · iexact H9
    ipureintro
    (try sl_unfold_words)
    refine (storeWhole10_first (S := S1x64) _ _ offsZero10_first inb_S1x64_S1x64_0_0 _ _).trans ?_
    simp only [View.readCov_unit_zero (S := S1x64) _ offsZero10_first, loadWhole10_first (S := S1x64) _ offsZero10_first, loadWhole10_first (S := S5000x64) _ offsZero10_first, loadWhole10_first (S := S64x64) _ offsZero10_first]
  iexists _; isplitr
  swap; · iexact H10
  ipureintro
  (try sl_unfold_words)
  refine (storeWhole10_first (S := S1x64) _ _ offsZero10_first inb_S1x64_S1x64_0_0 _ _).trans ?_
  simp only [View.readCov_unit_zero (S := S1x64) _ offsZero10_first, loadWhole10_first (S := S1x64) _ offsZero10_first, loadWhole10_first (S := S5000x64) _ offsZero10_first, loadWhole10_first (S := S64x64) _ offsZero10_first]

end Cert.KernelIdeal.Gen
end
-- ==== Proof.KI.Reg10.RunMid.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero10_mid : (![0, 0] : Fin 2 → Nat) = fun _ => 0 := funext fun a => by fin_cases a <;> rfl

/-- A store through the whole-shape rectangle, made last, leaves its payload, whatever was stored before. -/
theorem storeWhole10_mid {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole10_mid {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at a point that is neither the first nor the last: neither conditional block runs. On whole memrefs — the five
    inputs at their contents, the big output at anything, the two small outputs at contents handed back untouched, the
    two accumulators at what the points before left — it stores the affine image of the inputs into the big output and
    adds that block's column sums, and the column sums of its square, to the two accumulators. -/
theorem run10_mid (c : Dev nD) (i : grid10.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : ¬ k10_cond2 i = 1#1)
    (x1 x2 : Vec F S5000x64 .f32) (x3 : Vec F S1x64 .f32) (x4 : Vec F S64x64 .f32) (x5 : Vec F S1x64 .f32)
    (y7 y8 s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare y7 ∗ owns (c : Thread nD τ) arg8 fullShare y8
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k10_pay4 x3 x1 x2 x4 x5) ∗ owns (c : Thread nD τ) arg7 fullShare y7 ∗ owns (c : Thread nD τ) arg8 fullShare y8
            ∗ owns (c : Thread nD τ) arg9 fullShare (k10_pay5 x3 x1 x2 x4 x5 s0)
            ∗ owns (c : Thread nD τ) arg10 fullShare (k10_pay1 s1 (k10_pay6 x3 x1 x2 x4 x5))) -∗ K ⟨⟩))
      ⊢ wp frame (wpE (defs₀ (F := F)) Variants.none c none) E (cc10_linear_stats_kernel i arg1 harg1 arg2 harg2 arg3 harg3 arg4 harg4 arg5 harg5 arg6 harg6 arg7 harg7 arg8 harg8 arg9 harg9 arg10 harg10) K := by
  simp only [cc10_linear_stats_kernel_eq_skeleton]; unfold cc10_linear_stats_kernel_skel
  simp only [k10_part1_eq_skeleton]; unfold k10_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, H7, H8, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole10_mid (S := S5000x64) _ _ offsZero10_mid inb_S5000x64_S5000x64_0_0 _ _).trans ?_
    simp only [View.readCov_unit_zero (S := S1x64) _ offsZero10_mid, loadWhole10_mid (S := S1x64) _ offsZero10_mid, loadWhole10_mid (S := S5000x64) _ offsZero10_mid, loadWhole10_mid (S := S64x64) _ offsZero10_mid]
  isplitl [H7]; · iexact H7
  isplitl [H8]; · iexact H8
  isplitl [H9]
  · iexists _; isplitr
    swap; · iexact H9
    ipureintro
    (try sl_unfold_words)
    refine (storeWhole10_mid (S := S1x64) _ _ offsZero10_mid inb_S1x64_S1x64_0_0 _ _).trans ?_
    simp only [View.readCov_unit_zero (S := S1x64) _ offsZero10_mid, loadWhole10_mid (S := S1x64) _ offsZero10_mid, loadWhole10_mid (S := S5000x64) _ offsZero10_mid, loadWhole10_mid (S := S64x64) _ offsZero10_mid]
  iexists _; isplitr
  swap; · iexact H10
  ipureintro
  (try sl_unfold_words)
  refine (storeWhole10_mid (S := S1x64) _ _ offsZero10_mid inb_S1x64_S1x64_0_0 _ _).trans ?_
  simp only [View.readCov_unit_zero (S := S1x64) _ offsZero10_mid, loadWhole10_mid (S := S1x64) _ offsZero10_mid, loadWhole10_mid (S := S5000x64) _ offsZero10_mid, loadWhole10_mid (S := S64x64) _ offsZero10_mid]

end Cert.KernelIdeal.Gen
end
-- ==== Proof.KI.Reg10.RunLast.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, as the constant function. -/
theorem offsZero10_last : (![0, 0] : Fin 2 → Nat) = fun _ => 0 := funext fun a => by fin_cases a <;> rfl

/-- A store through the whole-shape rectangle, made last, leaves its payload, whatever was stored before. -/
theorem storeWhole10_last {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads the contents it is owned at. -/
theorem loadWhole10_last {S : Shape} {e : EltTy} {sp : Space} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 2000000 in
/-- The body at the last point: the first conditional block does not run, the last one does and copies the two
    accumulators into the two small outputs. On whole memrefs — the five inputs at their contents, the three outputs at
    anything, the two accumulators at what the points before left — it stores the affine image of the inputs into the
    big output, adds that block's column sums and the column sums of its square to the accumulators, and leaves each small
    output at its accumulator's final contents. -/
theorem run10_last (c : Dev nD) (i : grid10.Coords)
    (arg1 : Memref sig .tc .vmem S5000x64 .f32) (harg1 : arg1.IsWhole) (arg2 : Memref sig .tc .vmem S5000x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hfirst : ¬ (Scalar.cmpi .ne (Scalar.extui (Scalar.cmpi .eq (BitVec.ofNat 32 (i 0).val) 0#32)) 0#32) = 1#1) (hlast : k10_cond2 i = 1#1)
    (x1 x2 : Vec F S5000x64 .f32) (x3 : Vec F S1x64 .f32) (x4 : Vec F S64x64 .f32) (x5 : Vec F S1x64 .f32)
    (s0 s1 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k10_pay4 x3 x1 x2 x4 x5)
            ∗ owns (c : Thread nD τ) arg7 fullShare (k10_pay5 x3 x1 x2 x4 x5 s0)
            ∗ owns (c : Thread nD τ) arg8 fullShare (k10_pay1 s1 (k10_pay6 x3 x1 x2 x4 x5))
            ∗ owns (c : Thread nD τ) arg9 fullShare (k10_pay5 x3 x1 x2 x4 x5 s0)
            ∗ owns (c : Thread nD τ) arg10 fullShare (k10_pay1 s1 (k10_pay6 x3 x1 x2 x4 x5))) -∗ K ⟨⟩))
      ⊢ wp frame (wpE (defs₀ (F := F)) Variants.none c none) E (cc10_linear_stats_kernel i arg1 harg1 arg2 harg2 arg3 harg3 arg4 harg4 arg5 harg5 arg6 harg6 arg7 harg7 arg8 harg8 arg9 harg9 arg10 harg10) K := by
  simp only [cc10_linear_stats_kernel_eq_skeleton]; unfold cc10_linear_stats_kernel_skel
  simp only [k10_part1_eq_skeleton]; unfold k10_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hfirst | exact hlast)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    refine (storeWhole10_last (S := S5000x64) _ _ offsZero10_last inb_S5000x64_S5000x64_0_0 _ _).trans ?_
    simp only [View.readCov_unit_zero (S := S1x64) _ offsZero10_last, loadWhole10_last (S := S1x64) _ offsZero10_last, loadWhole10_last (S := S5000x64) _ offsZero10_last, loadWhole10_last (S := S64x64) _ offsZero10_last]
  isplitl [H7]
  · iexists _; isplitr
    swap; · iexact H7
    ipureintro
    (try sl_unfold_words)
    refine (storeWhole10_last (S := S1x64) _ _ offsZero10_last inb_S1x64_S1x64_0_0 _ _).trans ?_
    simp only [View.readCov_unit_zero (S := S1x64) _ offsZero10_last, loadWhole10_last (S := S1x64) _ offsZero10_last, loadWhole10_last (S := S5000x64) _ offsZero10_last, loadWhole10_last (S := S64x64) _ offsZero10_last]
  isplitl [H8]
  · iexists _; isplitr
    swap; · iexact H8
    ipureintro
    (try sl_unfold_words)
    refine (storeWhole10_last (S := S1x64) _ _ offsZero10_last inb_S1x64_S1x64_0_0 _ _).trans ?_
    simp only [View.readCov_unit_zero (S := S1x64) _ offsZero10_last, loadWhole10_last (S := S1x64) _ offsZero10_last, loadWhole10_last (S := S5000x64) _ offsZero10_last, loadWhole10_last (S := S64x64) _ offsZero10_last]
  isplitl [H9]
  · iexists _; isplitr
    swap; · iexact H9
    ipureintro
    (try sl_unfold_words)
    refine (storeWhole10_last (S := S1x64) _ _ offsZero10_last inb_S1x64_S1x64_0_0 _ _).trans ?_
    simp only [View.readCov_unit_zero (S := S1x64) _ offsZero10_last, loadWhole10_last (S := S1x64) _ offsZero10_last, loadWhole10_last (S := S5000x64) _ offsZero10_last, loadWhole10_last (S := S64x64) _ offsZero10_last]
  iexists _; isplitr
  swap; · iexact H10
  ipureintro
  (try sl_unfold_words)
  refine (storeWhole10_last (S := S1x64) _ _ offsZero10_last inb_S1x64_S1x64_0_0 _ _).trans ?_
  simp only [View.readCov_unit_zero (S := S1x64) _ offsZero10_last, loadWhole10_last (S := S1x64) _ offsZero10_last, loadWhole10_last (S := S5000x64) _ offsZero10_last, loadWhole10_last (S := S64x64) _ offsZero10_last]

end Cert.KernelIdeal.Gen
end
-- ==== Proof.KI.Reg10.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«140206_j52750788330061_1_alg».proof.Proof.KI.Reg10.RunFirst
import proofs.«140206_j52750788330061_1_alg».proof.Proof.KI.Reg10.RunMid
import proofs.«140206_j52750788330061_1_alg».proof.Proof.KI.Reg10.RunLast
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which points run which conditional block -/

/-- The first block's condition, as the body computes it from the grid coordinate, holds at point 0 only. -/
theorem first10_iff : ∀ t : Fin cfg10.N,
    (Scalar.cmpi .ne (Scalar.extui (Scalar.cmpi .eq (BitVec.ofNat 32 ((grid10.coords t) 0).val) 0#32)) 0#32) = 1#1 ↔ t.val = 0 :=
  (by decide +kernel : ∀ t : Fin grid10.N,
    (Scalar.cmpi .ne (Scalar.extui (Scalar.cmpi .eq (BitVec.ofNat 32 ((grid10.coords t) 0).val) 0#32)) 0#32) = 1#1 ↔ t.val = 0)

/-- The last block's condition holds at point 9 only. -/
theorem last10_iff : ∀ t : Fin cfg10.N, k10_cond2 (grid10.coords t) = 1#1 ↔ t.val = 9 :=
  (by decide +kernel : ∀ t : Fin grid10.N, k10_cond2 (grid10.coords t) = 1#1 ↔ t.val = 9)

/-- The two small outputs are idle at every point but the last, -/
theorem idleAt10_6 : ∀ t : Fin cfg10.N, t.val ≠ 9 → cfg10.idle 6 (grid10.coords t) = true := by decide +kernel
theorem idleAt10_7 : ∀ t : Fin cfg10.N, t.val ≠ 9 → cfg10.idle 7 (grid10.coords t) = true := by decide +kernel
/-- live at the last, -/
theorem liveAt10_6 : ∀ t : Fin cfg10.N, t.val = 9 → cfg10.idle 6 (grid10.coords t) = false := by decide +kernel
theorem liveAt10_7 : ∀ t : Fin cfg10.N, t.val = 9 → cfg10.idle 7 (grid10.coords t) = false := by decide +kernel
/-- and not written back before it. -/
theorem noFlush10_6 : ∀ t : Fin cfg10.N, t.val ≠ 9 → (cfg10.win 6).flush t = false :=
  (by decide +kernel : ∀ t : Fin grid10.N, t.val ≠ 9 → win10_6.flush t = false)
theorem noFlush10_7 : ∀ t : Fin cfg10.N, t.val ≠ 9 → (cfg10.win 7).flush t = false :=
  (by decide +kernel : ∀ t : Fin grid10.N, t.val ≠ 9 → win10_7.flush t = false)

variable (V : (c : Dev nD) → (b : Ref sig .tc) → Buf (Elt F) ((c : Thread nD τ).loc b))

/-! ## The windows' blocks -/

/-- Window `w`'s block at point `t`, read off its array as the region finds it (`V`). -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! Each input window's current staging buffer holds its block at every point, fetched there or not (the three small
    inputs are fetched once, at the first point, and their block index never moves), for any proof data whose array is
    `V`'s and whose body leaves the block in place. -/

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The two running column sums -/

/-- What the two accumulators hold after the first `n` points: zero rows before any point; each point adds the column
    sums of its affine block to the first and the column sums of that block's square to the second. -/
noncomputable def acc10 (c : Dev nD) : ℕ → Vec F S1x64 .f32 × Vec F S1x64 .f32
  | 0 => (k10_pay2, k10_pay3)
  | n + 1 =>
    if h : n < cfg10.N then
      (k10_pay5 (iblk10 V c 2 ⟨n, h⟩) (iblk10 V c 0 ⟨n, h⟩) (iblk10 V c 1 ⟨n, h⟩) (iblk10 V c 3 ⟨n, h⟩) (iblk10 V c 4 ⟨n, h⟩) (acc10 c n).1,
        k10_pay1 (acc10 c n).2 (k10_pay6 (iblk10 V c 2 ⟨n, h⟩) (iblk10 V c 0 ⟨n, h⟩) (iblk10 V c 1 ⟨n, h⟩) (iblk10 V c 3 ⟨n, h⟩) (iblk10 V c 4 ⟨n, h⟩)))
    else acc10 c n

/-- Before any point both accumulators are the zero rows. -/
theorem acc10_zero (c : Dev nD) : acc10 V c 0 = (k10_pay2, k10_pay3) := rfl

/-- One point's step: the accumulators after point `n` from those before it and the point's input blocks. -/
theorem acc10_succ (c : Dev nD) (n : ℕ) (h : n < cfg10.N) :
    acc10 V c (n + 1) =
      (k10_pay5 (iblk10 V c 2 ⟨n, h⟩) (iblk10 V c 0 ⟨n, h⟩) (iblk10 V c 1 ⟨n, h⟩) (iblk10 V c 3 ⟨n, h⟩) (iblk10 V c 4 ⟨n, h⟩) (acc10 V c n).1,
        k10_pay1 (acc10 V c n).2 (k10_pay6 (iblk10 V c 2 ⟨n, h⟩) (iblk10 V c 0 ⟨n, h⟩) (iblk10 V c 1 ⟨n, h⟩) (iblk10 V c 3 ⟨n, h⟩) (iblk10 V c 4 ⟨n, h⟩))) := by
  rw [acc10]; exact dif_pos h

/-- The first point's step, from the zero rows. -/
theorem acc10_zero_step (c : Dev nD) :
    acc10 V c 1 =
      (k10_pay5 (iblk10 V c 2 t10_0) (iblk10 V c 0 t10_0) (iblk10 V c 1 t10_0) (iblk10 V c 3 t10_0) (iblk10 V c 4 t10_0) k10_pay2,
        k10_pay1 k10_pay3 (k10_pay6 (iblk10 V c 2 t10_0) (iblk10 V c 0 t10_0) (iblk10 V c 1 t10_0) (iblk10 V c 3 t10_0) (iblk10 V c 4 t10_0))) :=
  acc10_succ V c 0 t10_0.isLt

/-! ## The invariant between points -/

/-- The two accumulators, as whole memrefs of the kernel's own scoped buffers. -/
abbrev sc10_0 : Memref sig .tc .vmem S1x64 .f32 := Memref.whole cc10_scratch0
abbrev sc10_1 : Memref sig .tc .vmem S1x64 .f32 := Memref.whole cc10_scratch1

/-- Every other scoped buffer of the core that is no staging buffer of this call, at some contents each. -/
abbrev rest10 (c : Dev nD) : sProp 𝕄 :=
  Pipeline.scopedRestBut (Ix := Unit) (Name := ℕ) (U := UR sig nD τ) (Lvl := ℕ) (Val := Elt F) spec10 c [cc10_scratch0, cc10_scratch1]

/-- What the launch hands the region, with the two accumulators named: each at some contents, beside the other scoped
    buffers and the generator register. -/
theorem PhiA10_eq (c : Dev nD) :
    (Pipeline.ΦA spec10 c : sProp 𝕄)
      = iprop(iprop(iprop((∃ d, owns (c : Thread nD τ) sc10_0 fullShare d) ∗ (∃ d, owns (c : Thread nD τ) sc10_1 fullShare d)) ∗ rest10 c)
          ∗ (∃ r, prngReg c r)) := by
  unfold Pipeline.ΦA; rw [scopedRest10_split]; simp only [sc10_0, sc10_1, owns_whole]; try rfl

/-- The invariant before position `n`: before the first point what the launch hands over; afterwards the two accumulators
    at the running column sums over the points so far, beside the other scoped buffers and the generator register. -/
noncomputable def Phi10 (c : Dev nD) : ℕ → sProp 𝕄
  | 0 => Pipeline.ΦA spec10 c
  | n + 1 =>
    iprop(iprop(iprop(owns (c : Thread nD τ) sc10_0 fullShare (acc10 V c (n + 1)).1 ∗ owns (c : Thread nD τ) sc10_1 fullShare (acc10 V c (n + 1)).2) ∗ rest10 c)
      ∗ (∃ r, prngReg c r))

theorem Phi10_zero (c : Dev nD) : Phi10 V c 0 = Pipeline.ΦA spec10 c := rfl

theorem Phi10_succ (c : Dev nD) (n : ℕ) :
    Phi10 V c (n + 1) =
      iprop(iprop(iprop(owns (c : Thread nD τ) sc10_0 fullShare (acc10 V c (n + 1)).1 ∗ owns (c : Thread nD τ) sc10_1 fullShare (acc10 V c (n + 1)).2) ∗ rest10 c)
        ∗ (∃ r, prngReg c r)) := rfl

/-- After any point the accumulators are named. -/
theorem Phi10_pos (c : Dev nD) (n : ℕ) (hn : n ≠ 0) :
    Phi10 V c n =
      iprop(iprop(iprop(owns (c : Thread nD τ) sc10_0 fullShare (acc10 V c n).1 ∗ owns (c : Thread nD τ) sc10_1 fullShare (acc10 V c n).2) ∗ rest10 c)
        ∗ (∃ r, prngReg c r)) := by
  cases n with
  | zero => exact absurd rfl hn
  | succ n => rfl

/-! ## The proof data -/

/-- The proof data of this call on core `c`: the arrays as the region finds them (`V`); after the body at point `t` each
    input's buffer at its block, the big output's at the affine image of the point's blocks, each small output's at its
    running column sum through point `t` (consulted at the last point only: before it the window is idle); the invariant
    `Phi10`; nothing owed; full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => k10_pay4 (iblk10 V c 2 t) (iblk10 V c 0 t) (iblk10 V c 1 t) (iblk10 V c 3 t) (iblk10 V c 4 t)
    | ⟨6, _⟩ => (acc10 V c (t.val + 1)).1
    | ⟨7, _⟩ => (acc10 V c (t.val + 1)).2
  Φ t := Phi10 V c t.val
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_big (c : Dev nD) (t : Fin cfg10.N) :
    (dat10 V c).after 5 t = k10_pay4 (iblk10 V c 2 t) (iblk10 V c 0 t) (iblk10 V c 1 t) (iblk10 V c 3 t) (iblk10 V c 4 t) := by dsimp only [dat10]
theorem after10_6 (c : Dev nD) (t : Fin cfg10.N) : (dat10 V c).after 6 t = (acc10 V c (t.val + 1)).1 := by dsimp only [dat10]
theorem after10_7 (c : Dev nD) (t : Fin cfg10.N) : (dat10 V c).after 7 t = (acc10 V c (t.val + 1)).2 := by dsimp only [dat10]
/-- At the last point the small outputs hold the column sums over all ten points. -/
theorem after10_s (c : Dev nD) : (dat10 V c).after 6 t10_9 = (acc10 V c 10).1 := after10_6 V c t10_9
theorem after10_ss (c : Dev nD) : (dat10 V c).after 7 t10_9 = (acc10 V c 10).2 := after10_7 V c t10_9

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- The invariant at a point's start and end, at the point's number. -/
theorem Phi10_castSucc (c : Dev nD) (t : Fin cfg10.N) : (dat10 V c).Φ t.castSucc = Phi10 V c t.val := by
  dsimp only [dat10]; simp only [Fin.coe_castSucc]
theorem Phi10_succ_pt (c : Dev nD) (t : Fin cfg10.N) : (dat10 V c).Φ t.succ = Phi10 V c (t.val + 1) := by
  dsimp only [dat10]; simp only [Fin.val_succ]

/-- What the launch hands the region is the invariant before the first point. -/
theorem hin10 (c : Dev nD) : Pipeline.ΦA spec10 c ⊢ (dat10 V c).Φ 0 := by
  rw [show (dat10 V c).Φ 0 = Phi10 V c 0 from rfl, Phi10_zero]
  try exact Idealize.SL.BI.Entails.refl _

/-- After the last point the invariant gives it back: the accumulators' named contents are forgotten. -/
theorem hout10 (c : Dev nD) : (dat10 V c).Φ (Fin.last cfg10.N) ⊢ Pipeline.ΦA spec10 c := by
  rw [show (dat10 V c).Φ (Fin.last cfg10.N) = Phi10 V c cfg10.N from rfl,
    Phi10_pos V c cfg10.N (by have : cfg10.N = 10 := N_10; omega), PhiA10_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! ## The body obligation -/

/-- What the body is called with at point `t`, the windows one by one, -/
noncomputable def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
noncomputable def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t)

/-- The inputs and the big output are live at every point: the body leaves each at its stated contents. -/
theorem leaves10_0 (c : Dev nD) (t : Fin cfg10.N) :
    (dat10 V c).leavesExact 0 t = owns (c : Thread nD τ) (st10_0 t) fullShare (iblk10 V c 0 t) := by
  unfold Dat.leavesExact; rw [show cfg10.idle 0 (cfg10.grid.coords t) = false from rfl, after10_0]
theorem leaves10_1 (c : Dev nD) (t : Fin cfg10.N) :
    (dat10 V c).leavesExact 1 t = owns (c : Thread nD τ) (st10_1 t) fullShare (iblk10 V c 1 t) := by
  unfold Dat.leavesExact; rw [show cfg10.idle 1 (cfg10.grid.coords t) = false from rfl, after10_1]
theorem leaves10_2 (c : Dev nD) (t : Fin cfg10.N) :
    (dat10 V c).leavesExact 2 t = owns (c : Thread nD τ) (st10_2 t) fullShare (iblk10 V c 2 t) := by
  unfold Dat.leavesExact; rw [show cfg10.idle 2 (cfg10.grid.coords t) = false from rfl, after10_2]
theorem leaves10_3 (c : Dev nD) (t : Fin cfg10.N) :
    (dat10 V c).leavesExact 3 t = owns (c : Thread nD τ) (st10_3 t) fullShare (iblk10 V c 3 t) := by
  unfold Dat.leavesExact; rw [show cfg10.idle 3 (cfg10.grid.coords t) = false from rfl, after10_3]
theorem leaves10_4 (c : Dev nD) (t : Fin cfg10.N) :
    (dat10 V c).leavesExact 4 t = owns (c : Thread nD τ) (st10_4 t) fullShare (iblk10 V c 4 t) := by
  unfold Dat.leavesExact; rw [show cfg10.idle 4 (cfg10.grid.coords t) = false from rfl, after10_4]
theorem leaves10_5 (c : Dev nD) (t : Fin cfg10.N) :
    (dat10 V c).leavesExact 5 t = owns (c : Thread nD τ) (st10_5 t) fullShare
      (k10_pay4 (iblk10 V c 2 t) (iblk10 V c 0 t) (iblk10 V c 1 t) (iblk10 V c 3 t) (iblk10 V c 4 t)) := by
  unfold Dat.leavesExact; rw [show cfg10.idle 5 (cfg10.grid.coords t) = false from rfl, after10_big]
/-- The small outputs are live at the last point. -/
theorem leaves10_6_last (c : Dev nD) (t : Fin cfg10.N) (h9 : t.val = 9) :
    (dat10 V c).leavesExact 6 t = owns (c : Thread nD τ) (st10_6 t) fullShare (acc10 V c (t.val + 1)).1 := by
  unfold Dat.leavesExact; rw [liveAt10_6 t h9, after10_6]
theorem leaves10_7_last (c : Dev nD) (t : Fin cfg10.N) (h9 : t.val = 9) :
    (dat10 V c).leavesExact 7 t = owns (c : Thread nD τ) (st10_7 t) fullShare (acc10 V c (t.val + 1)).2 := by
  unfold Dat.leavesExact; rw [liveAt10_7 t h9, after10_7]

set_option maxHeartbeats 4000000 in
/-- The body at any point. The inputs' memrefs hold their blocks; the point's number says which of the three control
    cases it is in, and that case's run applies. The invariant hands the body the two accumulators — at anything at the
    first point, at the running sums afterwards — and takes them back at the sums through this point; the other scoped
    buffers, the generator register and the core's dues pass through untouched. Before the last point the small outputs'
    buffers are handed back as found; at the last they come back at the final sums. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).owesAt () t.succ = (dat10 V c).owesAt () t.castSucc from rfl]
  rw [Phi10_castSucc, Phi10_succ_pt, Phi10_succ]
  rw [leaves10_0, leaves10_1, leaves10_2, leaves10_3, leaves10_4, leaves10_5]
  have hN : t.val < 10 := lt_of_lt_of_eq t.isLt (show cfg10.N = 10 from N_10)
  by_cases h9 : t.val = 9
  · have h0 : t.val ≠ 0 := by omega
    rw [leaves10_6_last V c t h9, leaves10_7_last V c t h9, acc10_succ V c t.val t.isLt, Phi10_pos V c t.val h0]
    simp only [Fin.eta]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run10_last c (grid10.coords t) _ _ _ _ _ _ _ _ _ _ _ _ _ _ _ _ _ _ _ _ (fun h => h0 ((first10_iff t).mp h)) ((last10_iff t).mpr h9)
      (iblk10 V c 0 t) (iblk10 V c 1 t) (iblk10 V c 2 t) (iblk10 V c 3 t) (iblk10 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat10 V c) 6 t (idleAt10_6 t h9) (noFlush10_6 t h9),
      Dat.leavesExact_idle (dat10 V c) 7 t (idleAt10_7 t h9) (noFlush10_7 t h9), acc10_succ V c t.val t.isLt]
    simp only [Fin.eta]
    by_cases h0 : t.val = 0
    · rw [show Phi10 V c t.val = Pipeline.ΦA spec10 c from by rw [h0]; rfl,
        show acc10 V c t.val = (k10_pay2, k10_pay3) from by rw [h0]; rfl, PhiA10_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run10_first c (grid10.coords t) _ _ _ _ _ _ _ _ _ _ _ _ _ _ _ _ _ _ _ _ ((first10_iff t).mpr h0) (fun h => h9 ((last10_iff t).mp h))
        (iblk10 V c 0 t) (iblk10 V c 1 t) (iblk10 V c 2 t) (iblk10 V c 3 t) (iblk10 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [Phi10_pos V c t.val h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run10_mid c (grid10.coords t) _ _ _ _ _ _ _ _ _ _ _ _ _ _ _ _ _ _ _ _ (fun h => h0 ((first10_iff t).mp h)) (fun h => h9 ((last10_iff t).mp h))
        (iblk10 V c 0 t) (iblk10 V c 1 t) (iblk10 V c 2 t) (iblk10 V c 3 t) (iblk10 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Gen
end
-- ==== Proof.KI.Reg11.lean ====
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Batch-norm, relu and a linear map of a row block, with the column sums of the result and of its square
accumulated over the ten row blocks -/

/-- The offsets of every access of this kernel are zero. -/
theorem hzeroR11 : (![0, 0] : Fin 2 → Nat) = fun _ => 0 := funext fun a => by fin_cases a <;> rfl

/-! ## The body's two branch conditions -/

/-- The first conditional (the accumulators are zeroed) tests the row-block number against 0. -/
abbrev cond11_0 (i : grid11.Coords) : Prop := (Scalar.cmpi .ne (Scalar.extui (Scalar.cmpi .eq (BitVec.ofNat 32 (i 0).val) 0#32)) 0#32) = 1#1
/-- The second (the accumulators are copied to the two small outputs) tests it against 9. -/
abbrev cond11_1 (i : grid11.Coords) : Prop := k11_cond2 i = 1#1

/-- The first holds at row block 0 only. -/
theorem hcond11_0 : ∀ t : Fin cfg11.N, cond11_0 (grid11.coords t) ↔ t.val = 0 :=
  (by decide +kernel : ∀ t : Fin grid11.N, cond11_0 (grid11.coords t) ↔ t.val = 0)
/-- The second holds at row block 9 only. -/
theorem hcond11_1 : ∀ t : Fin cfg11.N, cond11_1 (grid11.coords t) ↔ t.val = 9 :=
  (by decide +kernel : ∀ t : Fin grid11.N, cond11_1 (grid11.coords t) ↔ t.val = 9)

/-! ## What one row block contributes, as functions of the seven input blocks

`xz` the row block of z, `xs` and `xq` the column sums of z and of its square over all rows, `xg`, `xe` the scale and
shift of the normalization, `xw` the weights, `xb` the bias. -/

/-- The normalized, rectified row block times the weights. -/
def mm11 (xz : Vec F S5000x64 .f32) (xs xq xg xe : Vec F S1x64 .f32) (xw : Vec F S64x64 .f32) : Vec F S5000x64 .f32 :=
  k11_pay6 xs xq xz xg xe xw
/-- The row block of the result: the product plus the bias. -/
def big11 (xz : Vec F S5000x64 .f32) (xs xq xg xe : Vec F S1x64 .f32) (xw : Vec F S64x64 .f32) (xb : Vec F S1x64 .f32) : Vec F S5000x64 .f32 :=
  k11_pay1 (mm11 xz xs xq xg xe xw) xb
/-- The running column sum `a` plus this block's column sum. -/
def sum11 (xz : Vec F S5000x64 .f32) (xs xq xg xe : Vec F S1x64 .f32) (xw : Vec F S64x64 .f32) (xb a : Vec F S1x64 .f32) : Vec F S1x64 .f32 :=
  k11_pay2 (mm11 xz xs xq xg xe xw) xb a
/-- The running column sum of squares `a` plus this block's. -/
def sq11 (xz : Vec F S5000x64 .f32) (xs xq xg xe : Vec F S1x64 .f32) (xw : Vec F S64x64 .f32) (xb a : Vec F S1x64 .f32) : Vec F S1x64 .f32 :=
  k11_pay3 (mm11 xz xs xq xg xe xw) xb a

/-- One whole-buffer store covers the buffer (a row of 64; a block of 5000 rows). -/
theorem coverRow11 (w : (Rect.unit (s := S1x64) ![0, 0] S1x64.size inb_S1x64_S1x64_0_0).shape.Idx → Elt F .f32) (y : S1x64.Idx) :
    ∃ p ∈ ([⟨Rect.unit (s := S1x64) ![0, 0] S1x64.size inb_S1x64_S1x64_0_0, w⟩] : List (View.Piece (Elt F) S1x64 .f32)), y ∈ p.1.set :=
  ⟨_, List.mem_singleton_self _, View.mem_set_unit_zero hzeroR11 inb_S1x64_S1x64_0_0 y⟩
theorem coverBlock11 (w : (Rect.unit (s := S5000x64) ![0, 0] S5000x64.size inb_S5000x64_S5000x64_0_0).shape.Idx → Elt F .f32) (y : S5000x64.Idx) :
    ∃ p ∈ ([⟨Rect.unit (s := S5000x64) ![0, 0] S5000x64.size inb_S5000x64_S5000x64_0_0, w⟩] : List (View.Piece (Elt F) S5000x64 .f32)), y ∈ p.1.set :=
  ⟨_, List.mem_singleton_self _, View.mem_set_unit_zero hzeroR11 inb_S5000x64_S5000x64_0_0 y⟩

set_option maxHeartbeats 1000000 in
/-- ROW BLOCK 0 (the first conditional taken, the second not). The accumulators, held at anything, are zeroed first:
    the body leaves them at `sum11 … 0`, `sq11 … 0` (the zero rows being the payloads the kernel stores), the big output at
    `big11`, the two small outputs untouched. -/
theorem sound_kernel11_A (c : Dev nD) (E : Set ℕ) (i : grid11.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : cond11_0 i) (hc1 : ¬cond11_1 i) (xz : Vec F S5000x64 .f32) (xs xq xg xe : Vec F S1x64 .f32) (xw : Vec F S64x64 .f32) (xb : Vec F S1x64 .f32)
    (xo xp : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ (∃ d, owns (c : Thread nD τ) arg11 fullShare d) ∗ (∃ d, owns (c : Thread nD τ) arg12 fullShare d)
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big11 xz xs xq xg xe xw xb)
            ∗ owns (c : Thread nD τ) arg9 fullShare xo ∗ owns (c : Thread nD τ) arg10 fullShare xp
            ∗ owns (c : Thread nD τ) arg11 fullShare (sum11 xz xs xq xg xe xw xb (k11_pay4 (F := F))) ∗ owns (c : Thread nD τ) arg12 fullShare (sq11 xz xs xq xg xe xw xb (k11_pay5 (F := F)))) -∗ K ⟨⟩))
      ⊢ wp frame (wpE (defs₀ (F := F)) Variants.none c none) E (cc11_bn_matmul_stats_kernel i arg1 harg1 arg2 harg2 arg3 harg3 arg4 harg4 arg5 harg5 arg6 harg6 arg7 harg7 arg8 harg8 arg9 harg9 arg10 harg10 arg11 harg11 arg12 harg12) K := by
  simp only [cc11_bn_matmul_stats_kernel_eq_skeleton]; unfold cc11_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%dva, %fva, -, Hva⟩, ⟨%dvq, %fvq, -, Hvq⟩, Hk⟩
  subst hfz hfs hfq hfg hfe hfw hfb hfo hfp
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock11 _), View.canon_unit_zero hzeroR11]
    sl_unfold_words
    unfold big11 mm11
    simp only [View.readAt_eq_ld, View.ld_unit_zero (S := S5000x64) hzeroR11, View.ld_unit_zero (S := S1x64) hzeroR11, View.ld_unit_zero (S := S64x64) hzeroR11]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (fun y => ⟨_, List.mem_cons.mpr (Or.inl rfl), View.mem_set_unit_zero hzeroR11 inb_S1x64_S1x64_0_0 y⟩)]
    sl_unfold_words
    rw [View.canon_cons_unit_zero (S := S1x64) hzeroR11, View.readCov_unit_zero (S := S1x64) _ hzeroR11]
    unfold sum11 mm11
    simp only [View.readAt_eq_ld, View.ld_unit_zero (S := S5000x64) hzeroR11, View.ld_unit_zero (S := S1x64) hzeroR11, View.ld_unit_zero (S := S64x64) hzeroR11]
  iexists _; isplitr
  swap; · iexact Hvq
  ipureintro
  rw [View.read_writes_eq_canon _ _ _ (fun y => ⟨_, List.mem_cons.mpr (Or.inl rfl), View.mem_set_unit_zero hzeroR11 inb_S1x64_S1x64_0_0 y⟩)]
  sl_unfold_words
  rw [View.canon_cons_unit_zero (S := S1x64) hzeroR11, View.readCov_unit_zero (S := S1x64) _ hzeroR11]
  unfold sq11 mm11
  simp only [View.readAt_eq_ld, View.ld_unit_zero (S := S5000x64) hzeroR11, View.ld_unit_zero (S := S1x64) hzeroR11, View.ld_unit_zero (S := S64x64) hzeroR11]

set_option maxHeartbeats 1000000 in
/-- ROW BLOCKS 1 TO 8 (neither conditional taken). On whole staging memrefs, the inputs at their blocks, the big
    output at anything, the two small outputs at contents handed back untouched, the two accumulators at `va`, `vq`:
    the body leaves the big output at `big11` and the accumulators at `sum11 … va`, `sq11 … vq`. -/
theorem sound_kernel11_B (c : Dev nD) (E : Set ℕ) (i : grid11.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond11_0 i) (hc1 : ¬cond11_1 i) (xz : Vec F S5000x64 .f32) (xs xq xg xe : Vec F S1x64 .f32) (xw : Vec F S64x64 .f32) (xb : Vec F S1x64 .f32)
    (xo xp va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ owns (c : Thread nD τ) arg9 fullShare xo ∗ owns (c : Thread nD τ) arg10 fullShare xp
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big11 xz xs xq xg xe xw xb)
            ∗ owns (c : Thread nD τ) arg9 fullShare xo ∗ owns (c : Thread nD τ) arg10 fullShare xp
            ∗ owns (c : Thread nD τ) arg11 fullShare (sum11 xz xs xq xg xe xw xb va) ∗ owns (c : Thread nD τ) arg12 fullShare (sq11 xz xs xq xg xe xw xb vq)) -∗ K ⟨⟩))
      ⊢ wp frame (wpE (defs₀ (F := F)) Variants.none c none) E (cc11_bn_matmul_stats_kernel i arg1 harg1 arg2 harg2 arg3 harg3 arg4 harg4 arg5 harg5 arg6 harg6 arg7 harg7 arg8 harg8 arg9 harg9 arg10 harg10 arg11 harg11 arg12 harg12) K := by
  simp only [cc11_bn_matmul_stats_kernel_eq_skeleton]; unfold cc11_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%fo, %hfo, Ho⟩, ⟨%fp, %hfp, Hp⟩, ⟨%fva, %hfva, Hva⟩, ⟨%fvq, %hfvq, Hvq⟩, Hk⟩
  subst hfz hfs hfq hfg hfe hfw hfb hfo hfp hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock11 _), View.canon_unit_zero hzeroR11]
    sl_unfold_words
    unfold big11 mm11
    simp only [View.readAt_eq_ld, View.ld_unit_zero (S := S5000x64) hzeroR11, View.ld_unit_zero (S := S1x64) hzeroR11, View.ld_unit_zero (S := S64x64) hzeroR11]
  isplitl [Ho]; · iexists _; isplitr; · ipureintro; rfl
                  iexact Ho
  isplitl [Hp]; · iexists _; isplitr; · ipureintro; rfl
                  iexact Hp
  isplitl [Hva]
  · iexists _; isplitr
    swap; · iexact Hva
    ipureintro
    rw [View.read_writes_eq_canon _ _ _ (coverRow11 _), View.canon_unit_zero hzeroR11]
    sl_unfold_words
    unfold sum11 mm11
    simp only [View.readAt_eq_ld, View.ld_unit_zero (S := S5000x64) hzeroR11, View.ld_unit_zero (S := S1x64) hzeroR11, View.ld_unit_zero (S := S64x64) hzeroR11]
  iexists _; isplitr
  swap; · iexact Hvq
  ipureintro
  rw [View.read_writes_eq_canon _ _ _ (coverRow11 _), View.canon_unit_zero hzeroR11]
  sl_unfold_words
  unfold sq11 mm11
  simp only [View.readAt_eq_ld, View.ld_unit_zero (S := S5000x64) hzeroR11, View.ld_unit_zero (S := S1x64) hzeroR11, View.ld_unit_zero (S := S64x64) hzeroR11]

set_option maxHeartbeats 1000000 in
/-- ROW BLOCK 9 (the second conditional taken, the first not). As at row blocks 1 to 8, and then each accumulator is
    copied whole to its small output, held at anything before. -/
theorem sound_kernel11_C (c : Dev nD) (E : Set ℕ) (i : grid11.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole)
    (hc0 : ¬cond11_0 i) (hc1 : cond11_1 i) (xz : Vec F S5000x64 .f32) (xs xq xg xe : Vec F S1x64 .f32) (xw : Vec F S64x64 .f32) (xb : Vec F S1x64 .f32)
    (va vq : Vec F S1x64 .f32) (K : PUnit → sProp 𝕄) :
    iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ (∃ d, owns (c : Thread nD τ) arg8 fullShare d)
        ∗ (∃ d, owns (c : Thread nD τ) arg9 fullShare d) ∗ (∃ d, owns (c : Thread nD τ) arg10 fullShare d)
        ∗ owns (c : Thread nD τ) arg11 fullShare va ∗ owns (c : Thread nD τ) arg12 fullShare vq
        ∗ (iprop(owns (c : Thread nD τ) arg1 fullShare xz ∗ owns (c : Thread nD τ) arg2 fullShare xs ∗ owns (c : Thread nD τ) arg3 fullShare xq
        ∗ owns (c : Thread nD τ) arg4 fullShare xg ∗ owns (c : Thread nD τ) arg5 fullShare xe ∗ owns (c : Thread nD τ) arg6 fullShare xw
        ∗ owns (c : Thread nD τ) arg7 fullShare xb ∗ owns (c : Thread nD τ) arg8 fullShare (big11 xz xs xq xg xe xw xb)
            ∗ owns (c : Thread nD τ) arg9 fullShare (sum11 xz xs xq xg xe xw xb va) ∗ owns (c : Thread nD τ) arg10 fullShare (sq11 xz xs xq xg xe xw xb vq)
            ∗ owns (c : Thread nD τ) arg11 fullShare (sum11 xz xs xq xg xe xw xb va) ∗ owns (c : Thread nD τ) arg12 fullShare (sq11 xz xs xq xg xe xw xb vq)) -∗ K ⟨⟩))
      ⊢ wp frame (wpE (defs₀ (F := F)) Variants.none c none) E (cc11_bn_matmul_stats_kernel i arg1 harg1 arg2 harg2 arg3 harg3 arg4 harg4 arg5 harg5 arg6 harg6 arg7 harg7 arg8 harg8 arg9 harg9 arg10 harg10 arg11 harg11 arg12 harg12) K := by
  simp only [cc11_bn_matmul_stats_kernel_eq_skeleton]; unfold cc11_bn_matmul_stats_kernel_skel
  unfold owns
  iintro ⟨⟨%fz, %hfz, Hz⟩, ⟨%fs, %hfs, Hs⟩, ⟨%fq, %hfq, Hq⟩, ⟨%fg, %hfg, Hg⟩, ⟨%fe, %hfe, He⟩, ⟨%fw, %hfw, Hw⟩, ⟨%fb, %hfb, Hb⟩, ⟨%d7, %f7, -, H7⟩, ⟨%do9, %fo, -, Ho⟩, ⟨%dp, %fp, -, Hp⟩, ⟨%fva, %hfva, Hva⟩, ⟨%fvq, %hfvq, Hvq⟩, Hk⟩
  subst hfz hfs hfq hfg hfe hfw hfb hfva hfvq
  sl_exec (disch := first | exact hc0 | exact hc1)
  sl_step
  iapply Hk
  isplitl [Hz]; · iexists _; isplitr; · ipureintro; rfl
                  iexact Hz
  isplitl [Hs]; · iexists _; isplitr; · ipureintro; rfl
                  iexact Hs
  isplitl [Hq]; · iexists _; isplitr; · ipureintro; rfl
                  iexact Hq
  isplitl [Hg]; · iexists _; isplitr; · ipureintro; rfl
                  iexact Hg
  isplitl [He]; · iexists _; isplitr; · ipureintro; rfl
                  iexact He
  isplitl [Hw]; · iexists _; isplitr; · ipureintro; rfl
                  iexact Hw
  isplitl [Hb]; · iexists _; isplitr; · ipureintro; rfl
                  iexact Hb
  isplitl [H7]
  · iexists _; isplitr
    swap; · iexact H7
    ipureintro
    rw [View.read_writes_eq_canon _ _ _ (coverBlock11 _), View.canon_unit_zero hzeroR11]
    sl_unfold_words
    unfold big11 mm11
    simp only [View.readAt_eq_ld, View.ld_unit_zero (S := S5000x64) hzeroR11, View.ld_unit_zero (S := S1x64) hzeroR11, View.ld_unit_zero (S := S64x64) hzeroR11]
  isplitl [Ho]
  · iexists _; isplitr
    swap; · iexact Ho
    ipureintro
    rw [View.read_writes_eq_canon _ _ _ (coverRow11 _), View.canon_unit_zero hzeroR11]
    sl_unfold_words
    rw [View.readCov_unit_zero (S := S1x64) _ hzeroR11]
    unfold sum11 mm11
    simp only [View.readAt_eq_ld, View.ld_unit_zero (S := S5000x64) hzeroR11, View.ld_unit_zero (S := S1x64) hzeroR11, View.ld_unit_zero (S := S64x64) hzeroR11]
  isplitl [Hp]
  · iexists _; isplitr
    swap; · iexact Hp
    ipureintro
    rw [View.read_writes_eq_canon _ _ _ (coverRow11 _), View.canon_unit_zero hzeroR11]
    sl_unfold_words
    rw [View.readCov_unit_zero (S := S1x64) _ hzeroR11]
    unfold sq11 mm11
    simp only [View.readAt_eq_ld, View.ld_unit_zero (S := S5000x64) hzeroR11, View.ld_unit_zero (S := S1x64) hzeroR11, View.ld_unit_zero (S := S64x64) hzeroR11]
  isplitl [Hva]
  · iexists _; isplitr
    swap; · iexact Hva
    ipureintro
    sl_unfold_words
    rw [View.read_writes_eq_canon _ _ _ (coverRow11 _), View.canon_unit_zero hzeroR11]
    unfold sum11 mm11
    simp only [View.readAt_eq_ld, View.ld_unit_zero (S := S5000x64) hzeroR11, View.ld_unit_zero (S := S1x64) hzeroR11, View.ld_unit_zero (S := S64x64) hzeroR11]
  iexists _; isplitr
  swap; · iexact Hvq
  ipureintro
  sl_unfold_words
  rw [View.read_writes_eq_canon _ _ _ (coverRow11 _), View.canon_unit_zero hzeroR11]
  unfold sq11 mm11
  simp only [View.readAt_eq_ld, View.ld_unit_zero (S := S5000x64) hzeroR11, View.ld_unit_zero (S := S1x64) hzeroR11, View.ld_unit_zero (S := S64x64) hzeroR11]

-- the TensorCore's buffer contents when the region is entered
variable (V : (c : Dev nD) → (b : Ref sig .tc) → Buf (Elt F) ((c : Thread nD τ).loc b))

/-! ## The windows' blocks -/

/-- Window `w`'s block at row block `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! Each input window's current staging buffer holds its block at every row block, fetched there or not, for any proof
    data whose array is the entry contents and whose body leaves the block in place (an input not fetched again keeps
    its block index). -/

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)

/-! ## Where the two small outputs are idle -/

/-- Before row block 9 the two small outputs are idle and are not written back. -/
theorem idleAt11_8 : ∀ t : Fin cfg11.N, ¬cond11_1 (grid11.coords t) → cfg11.idle 8 (grid11.coords t) = true := by decide +kernel
theorem idleAt11_9 : ∀ t : Fin cfg11.N, ¬cond11_1 (grid11.coords t) → cfg11.idle 9 (grid11.coords t) = true := by decide +kernel
theorem noFlush11_8 : ∀ t : Fin cfg11.N, ¬cond11_1 (grid11.coords t) → (cfg11.win 8).flush t = false := by decide +kernel
theorem noFlush11_9 : ∀ t : Fin cfg11.N, ¬cond11_1 (grid11.coords t) → (cfg11.win 9).flush t = false := by decide +kernel
/-- At row block 9 they are live. -/
theorem liveAt11_8 : ∀ t : Fin cfg11.N, cond11_1 (grid11.coords t) → cfg11.idle 8 (grid11.coords t) = false := by decide +kernel
theorem liveAt11_9 : ∀ t : Fin cfg11.N, cond11_1 (grid11.coords t) → cfg11.idle 9 (grid11.coords t) = false := by decide +kernel

/-! ## The two accumulators, row block by row block -/

/-- What the two accumulators hold after the first `n` row blocks: zero rows, then each block's column sums added in
    order (past the last row block nothing changes). -/
def acc11 (c : Dev nD) : ℕ → Vec F S1x64 .f32 × Vec F S1x64 .f32
  | 0 => (k11_pay4, k11_pay5)
  | n + 1 => if h : n < cfg11.N then
      (sum11 (iblk11 V c 0 ⟨n, h⟩) (iblk11 V c 1 ⟨n, h⟩) (iblk11 V c 2 ⟨n, h⟩) (iblk11 V c 3 ⟨n, h⟩) (iblk11 V c 4 ⟨n, h⟩) (iblk11 V c 5 ⟨n, h⟩) (iblk11 V c 6 ⟨n, h⟩) (acc11 c n).1,
       sq11 (iblk11 V c 0 ⟨n, h⟩) (iblk11 V c 1 ⟨n, h⟩) (iblk11 V c 2 ⟨n, h⟩) (iblk11 V c 3 ⟨n, h⟩) (iblk11 V c 4 ⟨n, h⟩) (iblk11 V c 5 ⟨n, h⟩) (iblk11 V c 6 ⟨n, h⟩) (acc11 c n).2)
    else acc11 c n

theorem acc11_zero (c : Dev nD) : acc11 V c 0 = (k11_pay4, k11_pay5) := rfl

/-- One more row block: its column sums are added to what the blocks before left. -/
theorem acc11_succ (c : Dev nD) (t : Fin cfg11.N) : acc11 V c (t.val + 1) =
      (sum11 (iblk11 V c 0 t) (iblk11 V c 1 t) (iblk11 V c 2 t) (iblk11 V c 3 t) (iblk11 V c 4 t) (iblk11 V c 5 t) (iblk11 V c 6 t) (acc11 V c t.val).1,
       sq11 (iblk11 V c 0 t) (iblk11 V c 1 t) (iblk11 V c 2 t) (iblk11 V c 3 t) (iblk11 V c 4 t) (iblk11 V c 5 t) (iblk11 V c 6 t) (acc11 V c t.val).2) := by
  obtain ⟨n, hn⟩ := t
  show (if h : n < cfg11.N then _ else _) = _
  rw [dif_pos hn]

/-- The first row block adds to the zero rows. -/
theorem acc11_zero_step (c : Dev nD) (t : Fin cfg11.N) (h : t.val = 0) : acc11 V c (t.val + 1) =
      (sum11 (iblk11 V c 0 t) (iblk11 V c 1 t) (iblk11 V c 2 t) (iblk11 V c 3 t) (iblk11 V c 4 t) (iblk11 V c 5 t) (iblk11 V c 6 t) (k11_pay4 (F := F)),
       sq11 (iblk11 V c 0 t) (iblk11 V c 1 t) (iblk11 V c 2 t) (iblk11 V c 3 t) (iblk11 V c 4 t) (iblk11 V c 5 t) (iblk11 V c 6 t) (k11_pay5 (F := F))) := by
  rw [acc11_succ, h]; rfl

theorem mm11_eq (xz : Vec F S5000x64 .f32) (xs xq xg xe : Vec F S1x64 .f32) (xw : Vec F S64x64 .f32) :
    mm11 xz xs xq xg xe xw = k11_pay6 xs xq xz xg xe xw := rfl
theorem big11_eq (xz : Vec F S5000x64 .f32) (xs xq xg xe : Vec F S1x64 .f32) (xw : Vec F S64x64 .f32) (xb : Vec F S1x64 .f32) :
    big11 xz xs xq xg xe xw xb = k11_pay1 (k11_pay6 xs xq xz xg xe xw) xb := rfl
theorem sum11_eq (xz : Vec F S5000x64 .f32) (xs xq xg xe : Vec F S1x64 .f32) (xw : Vec F S64x64 .f32) (xb a : Vec F S1x64 .f32) :
    sum11 xz xs xq xg xe xw xb a = k11_pay2 (k11_pay6 xs xq xz xg xe xw) xb a := rfl
theorem sq11_eq (xz : Vec F S5000x64 .f32) (xs xq xg xe : Vec F S1x64 .f32) (xw : Vec F S64x64 .f32) (xb a : Vec F S1x64 .f32) :
    sq11 xz xs xq xg xe xw xb a = k11_pay3 (k11_pay6 xs xq xz xg xe xw) xb a := rfl

/-! ## The region invariant -/

/-- The two accumulators: whole scoped buffers of the kernel's own. -/
abbrev scM11_0 : Memref sig .tc .vmem S1x64 .f32 := Memref.whole cc11_scratch0
abbrev scM11_1 : Memref sig .tc .vmem S1x64 .f32 := Memref.whole cc11_scratch1

/-- What the launch hands the region, with the two accumulators as memrefs owned at some contents beside the rest of the
    scoped buffers and the generator register. -/
theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut spec11 c [cc11_scratch0, cc11_scratch1]) ∗ (∃ r, prngReg c r)) := by
  unfold Pipeline.ΦA; rw [scopedRest11_split]; simp only [scM11_0, scM11_1, owns_whole]; try rfl

/-- The invariant before row block `n`: before the first what the launch hands over; afterwards the two accumulators at
    what the row blocks so far left, beside the untouched rest. -/
def PhiS11 (c : Dev nD) : ℕ → sProp 𝕄
  | 0 => Pipeline.ΦA spec11 c
  | n + 1 => iprop(iprop(iprop(owns (c : Thread nD τ) scM11_0 fullShare (acc11 V c (n + 1)).1 ∗ owns (c : Thread nD τ) scM11_1 fullShare (acc11 V c (n + 1)).2)
          ∗ Pipeline.scopedRestBut spec11 c [cc11_scratch0, cc11_scratch1]) ∗ (∃ r, prngReg c r))

theorem PhiS11_zero (c : Dev nD) (n : ℕ) (hz : n = 0) : PhiS11 V c n = Pipeline.ΦA spec11 c := by subst hz; rfl

theorem PhiS11_pos (c : Dev nD) (n : ℕ) (hz : n ≠ 0) :
    PhiS11 V c n = iprop(iprop(iprop(owns (c : Thread nD τ) scM11_0 fullShare (acc11 V c n).1 ∗ owns (c : Thread nD τ) scM11_1 fullShare (acc11 V c n).2)
          ∗ Pipeline.scopedRestBut spec11 c [cc11_scratch0, cc11_scratch1]) ∗ (∃ r, prngReg c r)) := by
  cases n with
  | zero => exact absurd rfl hz
  | succ n => rfl

/-! ## The pipeline's proof data -/

/-- The proof data of this pipeline on core `c`: the arrays as the region finds them; after the body at row block `t`
    each input's buffer at its block, the big output's at `big11` of the input blocks, the two small outputs' at the
    accumulators after `t + 1` row blocks (what the last row block copies there; at the others, where they are idle,
    never consulted); nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => big11 (iblk11 V c 0 t) (iblk11 V c 1 t) (iblk11 V c 2 t) (iblk11 V c 3 t) (iblk11 V c 4 t) (iblk11 V c 5 t) (iblk11 V c 6 t)
    | ⟨8, _⟩ => (acc11 V c (t.val + 1)).1
    | ⟨9, _⟩ => (acc11 V c (t.val + 1)).2
  Φ t := PhiS11 V c t.val
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_big (c : Dev nD) (t : Fin cfg11.N) : (dat11 V c).after 7 t = big11 (iblk11 V c 0 t) (iblk11 V c 1 t) (iblk11 V c 2 t) (iblk11 V c 3 t) (iblk11 V c 4 t) (iblk11 V c 5 t) (iblk11 V c 6 t) := by dsimp only [dat11]
theorem after11_s (c : Dev nD) (t : Fin cfg11.N) : (dat11 V c).after 8 t = (acc11 V c (t.val + 1)).1 := by dsimp only [dat11]
theorem after11_ss (c : Dev nD) (t : Fin cfg11.N) : (dat11 V c).after 9 t = (acc11 V c (t.val + 1)).2 := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d

theorem Phi11_castSucc (c : Dev nD) (t : Fin cfg11.N) : (dat11 V c).Φ t.castSucc = PhiS11 V c t.val := by
  dsimp only [dat11]; simp only [Fin.coe_castSucc]
theorem Phi11_succ (c : Dev nD) (t : Fin cfg11.N) : (dat11 V c).Φ t.succ = PhiS11 V c (t.val + 1) := by
  dsimp only [dat11]; simp only [Fin.val_succ]

/-! ## The body obligation, at a generic row block -/

/-- What the body is called with at row block `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d))
    ∗ (∃ d, owns (c : Thread nD τ) (st11_8 t) fullShare ((dat11 V c).before 8 t d))
    ∗ (∃ d, owns (c : Thread nD τ) (st11_9 t) fullShare ((dat11 V c).before 9 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t
    ∗ (dat11 V c).leavesExact 4 t
    ∗ (dat11 V c).leavesExact 5 t
    ∗ (dat11 V c).leavesExact 6 t
    ∗ (dat11 V c).leavesExact 7 t
    ∗ (dat11 V c).leavesExact 8 t
    ∗ (dat11 V c).leavesExact 9 t)

/-- Every window but the two small outputs is live at every row block: the body leaves its buffer at `after`. -/
theorem leaves11_0 (c : Dev nD) (t : Fin cfg11.N) : (dat11 V c).leavesExact 0 t = owns (c : Thread nD τ) (st11_0 t) fullShare ((dat11 V c).after 0 t) := rfl
theorem leaves11_1 (c : Dev nD) (t : Fin cfg11.N) : (dat11 V c).leavesExact 1 t = owns (c : Thread nD τ) (st11_1 t) fullShare ((dat11 V c).after 1 t) := rfl
theorem leaves11_2 (c : Dev nD) (t : Fin cfg11.N) : (dat11 V c).leavesExact 2 t = owns (c : Thread nD τ) (st11_2 t) fullShare ((dat11 V c).after 2 t) := rfl
theorem leaves11_3 (c : Dev nD) (t : Fin cfg11.N) : (dat11 V c).leavesExact 3 t = owns (c : Thread nD τ) (st11_3 t) fullShare ((dat11 V c).after 3 t) := rfl
theorem leaves11_4 (c : Dev nD) (t : Fin cfg11.N) : (dat11 V c).leavesExact 4 t = owns (c : Thread nD τ) (st11_4 t) fullShare ((dat11 V c).after 4 t) := rfl
theorem leaves11_5 (c : Dev nD) (t : Fin cfg11.N) : (dat11 V c).leavesExact 5 t = owns (c : Thread nD τ) (st11_5 t) fullShare ((dat11 V c).after 5 t) := rfl
theorem leaves11_6 (c : Dev nD) (t : Fin cfg11.N) : (dat11 V c).leavesExact 6 t = owns (c : Thread nD τ) (st11_6 t) fullShare ((dat11 V c).after 6 t) := rfl
theorem leaves11_7 (c : Dev nD) (t : Fin cfg11.N) : (dat11 V c).leavesExact 7 t = owns (c : Thread nD τ) (st11_7 t) fullShare ((dat11 V c).after 7 t) := rfl

set_option maxHeartbeats 4800000 in
/-- The body at any row block: the inputs' memrefs hold their blocks; the row-block number decides which of the three
    runs applies; the invariant hands the body the accumulators (at anything before the first row block, afterwards at
    what the blocks so far left) and takes them back with this block's column sums added; the rest of the scoped
    buffers, the generator register and what the core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6]
  rw [show (dat11 V c).owesAt () t.succ = (dat11 V c).owesAt () t.castSucc from rfl]
  rw [Phi11_castSucc, Phi11_succ]
  rw [leaves11_0, leaves11_1, leaves11_2, leaves11_3, leaves11_4, leaves11_5, leaves11_6, leaves11_7,
    after11_0, after11_1, after11_2, after11_3, after11_4, after11_5, after11_6, after11_big]
  by_cases h0 : t.val = 0
  · -- row block 0
    have h9 : ¬t.val = 9 := by omega
    have hc0 : cond11_0 (grid11.coords t) := (hcond11_0 t).mpr h0
    have hc1 : ¬cond11_1 (grid11.coords t) := fun h => h9 ((hcond11_1 t).mp h)
    rw [Dat.leavesExact_idle (dat11 V c) 8 t (idleAt11_8 t hc1) (noFlush11_8 t hc1),
      Dat.leavesExact_idle (dat11 V c) 9 t (idleAt11_9 t hc1) (noFlush11_9 t hc1)]
    rw [PhiS11_zero V c _ h0, PhiA11_eq, PhiS11_pos V c _ (Nat.succ_ne_zero _), acc11_zero_step V c t h0]
    iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel11_A c Set.univ (grid11.coords t) _ _ _ _ _ _ _ _ _ _ _ _ _ _ _ _ _ _ _ _ _ _ _ _ hc0 hc1 (iblk11 V c 0 t) (iblk11 V c 1 t) (iblk11 V c 2 t) (iblk11 V c 3 t) (iblk11 V c 4 t) (iblk11 V c 5 t) (iblk11 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [Hva]; · iexact Hva
    isplitl [Hvq]; · iexact Hvq
    iintro ⟨H0, H1, H2, H3, H4, H5, H6, H7, H8, H9, Hva, Hvq⟩
    isplitl [Hva Hvq Hrest Hg]
    · isplitl [Hva Hvq Hrest]
      · isplitl [Hva Hvq]
        · isplitl [Hva]; · iexact Hva
          iexact Hvq
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · by_cases h9 : t.val = 9
    · -- row block 9
      have hc0 : ¬cond11_0 (grid11.coords t) := fun h => h0 ((hcond11_0 t).mp h)
      have hc1 : cond11_1 (grid11.coords t) := (hcond11_1 t).mpr h9
      rw [show (dat11 V c).leavesExact 8 t = owns (c : Thread nD τ) (st11_8 t) fullShare ((dat11 V c).after 8 t) from by
          unfold Dat.leavesExact; rw [liveAt11_8 t hc1],
        show (dat11 V c).leavesExact 9 t = owns (c : Thread nD τ) (st11_9 t) fullShare ((dat11 V c).after 9 t) from by
          unfold Dat.leavesExact; rw [liveAt11_9 t hc1], after11_s, after11_ss]
      rw [PhiS11_pos V c _ h0, PhiS11_pos V c _ (Nat.succ_ne_zero _), acc11_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel11_C c Set.univ (grid11.coords t) _ _ _ _ _ _ _ _ _ _ _ _ _ _ _ _ _ _ _ _ _ _ _ _ hc0 hc1 (iblk11 V c 0 t) (iblk11 V c 1 t) (iblk11 V c 2 t) (iblk11 V c 3 t) (iblk11 V c 4 t) (iblk11 V c 5 t) (iblk11 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- row blocks 1 to 8
      have hc0 : ¬cond11_0 (grid11.coords t) := fun h => h0 ((hcond11_0 t).mp h)
      have hc1 : ¬cond11_1 (grid11.coords t) := fun h => h9 ((hcond11_1 t).mp h)
      rw [Dat.leavesExact_idle (dat11 V c) 8 t (idleAt11_8 t hc1) (noFlush11_8 t hc1),
        Dat.leavesExact_idle (dat11 V c) 9 t (idleAt11_9 t hc1) (noFlush11_9 t hc1)]
      rw [PhiS11_pos V c _ h0, PhiS11_pos V c _ (Nat.succ_ne_zero _), acc11_succ V c t]
      iintro ⟨⟨⟨⟨Hva, Hvq⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel11_B c Set.univ (grid11.coords t) _ _ _ _ _ _ _ _ _ _ _ _ _ _ _ _ _ _ _ _ _ _ _ _ hc0 hc1 (iblk11 V c 0 t) (iblk11 V c 1 t) (iblk11 V c 2 t) (iblk11 V c 3 t) (iblk11 V c 4 t) (iblk11 V c 5 t) (iblk11 V c 6 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hva]; · iexact Hva
      isplitl [Hvq]; · iexact Hvq
      iintro ⟨H0, H1, H2, H3, H4, H5, H6, H7, H8, H9, Hva, Hvq⟩
      isplitl [Hva Hvq Hrest Hg]
      · isplitl [Hva Hvq Hrest]
        · isplitl [Hva Hvq]
          · isplitl [Hva]; · iexact Hva
            iexact Hvq
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every row block. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first row block. -/
theorem hin11 (c : Dev nD) : Pipeline.ΦA spec11 c ⊢ (dat11 V c).Φ 0 := by
  rw [show (dat11 V c).Φ 0 = PhiS11 V c 0 from rfl, PhiS11_zero V c 0 rfl]
  try exact Idealize.SL.BI.Entails.refl _

/-- After the last row block the invariant gives back what the launch handed over: the accumulators' named contents
    are forgotten. -/
theorem hout11 (c : Dev nD) : (dat11 V c).Φ (Fin.last cfg11.N) ⊢ Pipeline.ΦA spec11 c := by
  rw [show (dat11 V c).Φ (Fin.last cfg11.N) = PhiS11 V c (Fin.last cfg11.N).val from rfl,
    PhiS11_pos V c _ (by rw [Fin.val_last]; have : cfg11.N = 10 := N_11; omega), PhiA11_eq]
  iintro ⟨⟨⟨Hva, Hvq⟩, Hrest⟩, Hg⟩
  isplitl [Hva Hvq Hrest]
  · isplitl [Hva Hvq]
    · isplitl [Hva]; · iexists _; iexact Hva
      iexists _; iexact Hvq
    iexact Hrest
  iexact Hg

end Cert.KernelIdeal.Gen

end
-- ==== Proof.KI.Reg12.lean ====
/- The batch-norm-and-relu region of one layer, at the TensorCore's buffer contents V on entry, for any float type F.
   Six windows over a grid of ten row blocks: the row block of z (5000 x 64), then four (1 x 64) rows — the column
   sums of z, the column sums of z*z, the scale and the shift — and the output row block (5000 x 64).
   The body reads the five inputs whole and stores the output block whole, at every point, and keeps nothing from
   one point to the next; so after the body each input buffer still holds its block and the output buffer holds
   one payload: relu ((z - mean) * rsqrt (var + eps) * scale + shift) of the input blocks, as the skeleton names it. -/
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 5000-row rectangle is looked at structurally, once per row
set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! An input buffer holds its window's block at every point. The z block moves with the point and is fetched each
    time; the four rows are fetched at the first point only, and later points find them where they were left, which
    is right because their block index never moves. One library fact covers both: for proof data whose array is the
    entry contents and whose body leaves the block where it was, the buffer is what a fetch would put there. -/

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## What the body touches -/

/-- The whole of a 5000 x 64 block: the one rectangle the z load, the output's read and the output's store go through. -/
abbrev blockRect12 : Rect S5000x64 := Rect.unit (s := S5000x64) ![0, 0] S5000x64.size inb_S5000x64_S5000x64_0_0
/-- The whole of a 1 x 64 row: the rectangle each of the four row loads goes through. -/
abbrev rowRect12 : Rect S1x64 := Rect.unit (s := S1x64) ![0, 0] S1x64.size inb_S1x64_S1x64_0_0

/-! ## What the body leaves in the output buffer -/

/-- The output buffer after the body, from the five input blocks (z, the two sums, scale, shift, in window order):
    the single store's payload over the whole block, whatever the buffer held before. -/
def out12_5 (z : Vec F S5000x64 .f32) (s ss g b : Vec F S1x64 .f32) : Vec F S5000x64 .f32 :=
  View.canon [⟨blockRect12, k12_pay1 (View.ld s rowRect12) (View.ld ss rowRect12) (View.ld z blockRect12) (View.ld g rowRect12) (View.ld b rowRect12)⟩]

/-- The one store's rectangle is the whole block, so every index of the buffer lies in it. -/
theorem cover12_5 (p : Vec F S5000x64 .f32) (y : S5000x64.Idx) :
    ∃ pc ∈ ([⟨blockRect12, p⟩] : List (View.Piece (Elt F) S5000x64 .f32)), y ∈ pc.1.set :=
  View.cover_of_tiled [⟨blockRect12, p⟩] S5000x64.size (by rfl) y

/-! ## The body's triple -/

set_option maxHeartbeats 1000000 in
/-- Run on whole buffers — the five inputs' reading z, s, ss, g, b and the output's holding anything — the body hands
    its continuation the inputs as they were and the output at out12_5 of them. The printed function is its skeleton
    of loads and one store; the loads read the owned contents through whole rectangles, the output's own read is
    of whatever it held and is not used, and the store covers the buffer. -/
theorem sound_kernel12 (c : Dev nD) (E : Set ℕ) (i : grid12.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (z : Vec F S5000x64 .f32) (s ss g b : Vec F S1x64 .f32) (K : PUnit → sProp 𝕄) :
    iprop(owns (c : Thread nD τ) arg1 fullShare z ∗ owns (c : Thread nD τ) arg2 fullShare s ∗ owns (c : Thread nD τ) arg3 fullShare ss
        ∗ owns (c : Thread nD τ) arg4 fullShare g ∗ owns (c : Thread nD τ) arg5 fullShare b ∗ (∃ d, owns (c : Thread nD τ) arg6 fullShare d)
        ∗ (iprop(owns (c : Thread nD τ) arg1 fullShare z ∗ owns (c : Thread nD τ) arg2 fullShare s ∗ owns (c : Thread nD τ) arg3 fullShare ss
            ∗ owns (c : Thread nD τ) arg4 fullShare g ∗ owns (c : Thread nD τ) arg5 fullShare b
            ∗ owns (c : Thread nD τ) arg6 fullShare (out12_5 z s ss g b)) -∗ K ⟨⟩))
      ⊢ wp frame (wpE (defs₀ (F := F)) Variants.none c none) E (cc12_bn_relu_kernel i arg1 harg1 arg2 harg2 arg3 harg3 arg4 harg4 arg5 harg5 arg6 harg6) K := by
  simp only [cc12_bn_relu_kernel_eq_skeleton]; unfold cc12_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover12_5 _)

/-! ## The region's proof data -/

/-- The arrays are the entry contents; after the body at point t each input buffer holds its block and the output
    buffer out12_5 of the five input blocks there; the invariant is the one of a body that touches nothing but its
    buffers; full shares, nothing owed. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t = out12_5 (iblk12 V c 0 t) (iblk12 V c 1 t) (iblk12 V c 2 t) (iblk12 V c 3 t) (iblk12 V c 4 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation -/

/-- What the pipeline calls the body with at point t, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it has to give back. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- At any point the input buffers hold their blocks, so the body's triple applies; the invariant and what is
    owed go through untouched, being the same before and after a point. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this region's proof data, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Gen

end
-- ==== Proof.KI.Reg13.lean ====
/- The classifier region, at the TensorCore's buffer contents V on entry, for any float type F.
   Six windows over a grid of one point: the pooled graph features (512 x 64), the hidden layer's weights
   (64 x 64) and bias row (1 x 64), the output layer's weights (64 x 10) and bias row (1 x 10), and the scores
   (512 x 10). Every window is the whole of its array.
   The body reads the five inputs whole and stores the scores whole; so after the body each input buffer still holds
   its block and the output buffer holds one payload: relu (pooled * W1 + b1) * W2 + b2, the operands of each
   product rounded to bf16 first, as the skeleton names it. -/
import proofs.«140206_j52750788330061_1_alg».proof.Proof.Gen.KernelIdeal.Launch
import proofs.«140206_j52750788330061_1_alg».proof.Proof.Gen.KernelIdeal.Skeleton
import proofs.«140206_j52750788330061_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the 512-row rectangle is looked at structurally, once per row
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The blocks the windows show -/

/-- The block window w shows at point t, read off the window's array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-! An input buffer holds its window's block at the grid's point: for proof data whose array is the entry contents
    and whose body leaves the block where it was, the buffer is what a fetch puts there, and every input is fetched
    at the one point there is. -/

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-! ## What the body touches -/

/-- The whole of the 512 x 64 pooled features. -/
abbrev pooledRect13 : Rect S512x64 := Rect.unit (s := S512x64) ![0, 0] S512x64.size inb_S512x64_S512x64_0_0
/-- The whole of the 64 x 64 hidden weights. -/
abbrev hidWRect13 : Rect S64x64 := Rect.unit (s := S64x64) ![0, 0] S64x64.size inb_S64x64_S64x64_0_0
/-- The whole of the 1 x 64 hidden bias row. -/
abbrev hidBRect13 : Rect S1x64 := Rect.unit (s := S1x64) ![0, 0] S1x64.size inb_S1x64_S1x64_0_0
/-- The whole of the 64 x 10 output weights. -/
abbrev outWRect13 : Rect S64x10 := Rect.unit (s := S64x10) ![0, 0] S64x10.size inb_S64x10_S64x10_0_0
/-- The whole of the 1 x 10 output bias row. -/
abbrev outBRect13 : Rect S1x10 := Rect.unit (s := S1x10) ![0, 0] S1x10.size inb_S1x10_S1x10_0_0
/-- The whole of the 512 x 10 scores: the rectangle of the output's read and of its store. -/
abbrev scoreRect13 : Rect S512x10 := Rect.unit (s := S512x10) ![0, 0] S512x10.size inb_S512x10_S512x10_0_0

/-! ## What the body leaves in the output buffer -/

/-- The output buffer after the body, from the five input blocks (pooled features, hidden weights and bias, output
    weights and bias, in window order): the single store's payload over the whole block, whatever the buffer held. -/
def out13_5 (p : Vec F S512x64 .f32) (w1 : Vec F S64x64 .f32) (b1 : Vec F S1x64 .f32) (w2 : Vec F S64x10 .f32) (b2 : Vec F S1x10 .f32) :
    Vec F S512x10 .f32 :=
  View.canon [⟨scoreRect13, k13_pay1 (View.ld p pooledRect13) (View.ld w1 hidWRect13) (View.ld b1 hidBRect13) (View.ld w2 outWRect13) (View.ld b2 outBRect13)⟩]

/-- The one store's rectangle is the whole block, so every index of the buffer lies in it. -/
theorem cover13_5 (q : Vec F S512x10 .f32) (y : S512x10.Idx) :
    ∃ pc ∈ ([⟨scoreRect13, q⟩] : List (View.Piece (Elt F) S512x10 .f32)), y ∈ pc.1.set :=
  View.cover_of_tiled [⟨scoreRect13, q⟩] S512x10.size (by rfl) y

/-! ## The body's triple -/

set_option maxHeartbeats 1000000 in
/-- Run on whole buffers — the five inputs' reading p, w1, b1, w2, b2 and the output's holding anything — the body
    hands its continuation the inputs as they were and the output at out13_5 of them. The printed function is its
    skeleton of loads and one store; the loads read the owned contents through whole rectangles, the output's own
    read is of whatever it held and is not used, and the store covers the buffer. -/
theorem sound_kernel13 (c : Dev nD) (E : Set ℕ) (i : grid13.Coords)
    (arg1 : Memref sig .tc .vmem S512x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S512x10 .f32) (harg6 : arg6.IsWhole)
    (p : Vec F S512x64 .f32) (w1 : Vec F S64x64 .f32) (b1 : Vec F S1x64 .f32) (w2 : Vec F S64x10 .f32) (b2 : Vec F S1x10 .f32)
    (K : PUnit → sProp 𝕄) :
    iprop(owns (c : Thread nD τ) arg1 fullShare p ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare p ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (out13_5 p w1 b1 w2 b2)) -∗ K ⟨⟩))
      ⊢ wp frame (wpE (defs₀ (F := F)) Variants.none c none) E (cc13_classifier_kernel i arg1 harg1 arg2 harg2 arg3 harg3 arg4 harg4 arg5 harg5 arg6 harg6) K := by
  simp only [cc13_classifier_kernel_eq_skeleton]; unfold cc13_classifier_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_5 _)

/-! ## The region's proof data -/

/-- The arrays are the entry contents; after the body each input buffer holds its block and the output buffer
    out13_5 of the five input blocks; the invariant is the one of a body that touches nothing but its buffers;
    full shares, nothing owed. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => out13_5 (iblk13 V c 0 t) (iblk13 V c 1 t) (iblk13 V c 2 t) (iblk13 V c 3 t) (iblk13 V c 4 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) :
    (dat13 V c).after 5 t = out13_5 (iblk13 V c 0 t) (iblk13 V c 1 t) (iblk13 V c 2 t) (iblk13 V c 3 t) (iblk13 V c 4 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d

/-! ## The body obligation -/

/-- What the pipeline calls the body with at point t, window by window, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d)))

/-- and what it has to give back. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t))

/-- At the point the input buffers hold their blocks, so the body's triple applies; the invariant and what is
    owed go through untouched, being the same before and after a point. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4]
  rw [show (dat13 V c).Φ t.succ = (dat13 V c).Φ t.castSucc from rfl,
    show (dat13 V c).owesAt () t.succ = (dat13 V c).owesAt () t.castSucc from rfl,
    after13_0, after13_1, after13_2, after13_3, after13_4, after13_5]
  iintro ⟨HΦ, Ho, ⟨%d0, H0⟩, ⟨%d1, H1⟩, ⟨%d2, H2⟩, ⟨%d3, H3⟩, ⟨%d4, H4⟩, ⟨%d5, H5⟩⟩
  iapply (sound_kernel13 c Set.univ _ _ _ _ _ _ _ _ _ _ _ _ _ (iblk13 V c 0 t) (iblk13 V c 1 t) (iblk13 V c 2 t) (iblk13 V c 3 t) (iblk13 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for this region's proof data, at the grid's point. -/
theorem body_obligation13 (c : Dev nD) : BodyObligation (dat13 (F := F) V c) (defs₀ (F := F)) Variants.none () Set.univ := fun t => by
  rw [bigSep_W13, bigSep_W13]
  exact sound_body13 V c t

end Cert.KernelIdeal.Gen

end
-- ==== Proof.KI.Fold.lean ====
/-
  The contents of every unscoped buffer of a core between the items of the program: the launch memory, then each
  host stretch's operations applied, then each kernel region's output arrays replaced by what its pipeline leaves in
  them (the region's proof data at the contents it is entered with).  The generated conditional frame speaks of the
  same contents through unknowns for what the regions leave; here the unknowns are named and the two are shown equal.
-/
import proofs.«140206_j52750788330061_1_alg».proof.Proof.KI.Reg0
import proofs.«140206_j52750788330061_1_alg».proof.Proof.KI.Reg1
import proofs.«140206_j52750788330061_1_alg».proof.Proof.KI.Reg2
import proofs.«140206_j52750788330061_1_alg».proof.Proof.KI.Reg3
import proofs.«140206_j52750788330061_1_alg».proof.Proof.KI.Reg4
import proofs.«140206_j52750788330061_1_alg».proof.Proof.KI.Reg5
import proofs.«140206_j52750788330061_1_alg».proof.Proof.KI.Reg6
import proofs.«140206_j52750788330061_1_alg».proof.Proof.KI.Reg7
import proofs.«140206_j52750788330061_1_alg».proof.Proof.KI.Reg8
import proofs.«140206_j52750788330061_1_alg».proof.Proof.KI.Reg9
import proofs.«140206_j52750788330061_1_alg».proof.Proof.KI.Reg10
import proofs.«140206_j52750788330061_1_alg».proof.Proof.KI.Reg11
import proofs.«140206_j52750788330061_1_alg».proof.Proof.KI.Reg12
import proofs.«140206_j52750788330061_1_alg».proof.Proof.KI.Reg13
import proofs.«140206_j52750788330061_1_alg».proof.Proof.Gen.KernelIdeal.Regions

noncomputable section

namespace Cert.KernelIdeal.Gen

open Idealize.ShloMosaic Idealize.ShloMosaic.TcCoe
open Idealize.SL Idealize.SL.Sem
open Idealize.ShloMosaic.Pipeline (Dat)

variable {F : FTy → Type} [FloatOps F] [Named F]
variable (m : (ℓ : Loc nD τ sig) → Buf (Elt F) ℓ)

/-- A family of valuations read at the TensorCore's references: the form a region's proof data take. -/
abbrev tcOf (W : Dev nD → Valuation τ sig (Elt F)) : (c : Dev nD) → (b : Ref sig .tc) → Buf (Elt F) ((c : Thread nD τ).loc b) :=
  fun c b => W c b

/-- Three updates at distinct points, each with the value the thrice-updated function has there, give that function. -/
theorem upd3_fix {α : Type} [DecidableEq α] {β : α → Type} (f : ∀ a, β a) (a b c : α) (va : β a) (vb : β b) (vc : β c)
    (hab : a ≠ b) (hac : a ≠ c) (hbc : b ≠ c) :
    Function.update (Function.update (Function.update f a
        (Function.update (Function.update (Function.update f a va) b vb) c vc a)) b
        (Function.update (Function.update (Function.update f a va) b vb) c vc b)) c
        (Function.update (Function.update (Function.update f a va) b vb) c vc c)
      = Function.update (Function.update (Function.update f a va) b vb) c vc := by
  rw [Function.update_of_ne hac, Function.update_of_ne hab, Function.update_self, Function.update_of_ne hbc,
    Function.update_self, Function.update_self]

section Reads
variable {α : Type} [DecidableEq α] {β : α → Type} (f : ∀ a, β a)
/-- One update read away from its point. -/
theorem upd1_ne (a : α) (va : β a) (x : α) (h : x ≠ a) : Function.update f a va x = f x := Function.update_of_ne h _ _
/-- One update read at its point. -/
theorem upd1_a (a : α) (va : β a) : Function.update f a va a = va := Function.update_self _ _ _
/-- Three updates read away from their points. -/
theorem upd3_ne (a b c : α) (va : β a) (vb : β b) (vc : β c) (x : α) (ha : x ≠ a) (hb : x ≠ b) (hc : x ≠ c) :
    Function.update (Function.update (Function.update f a va) b vb) c vc x = f x := by
  rw [Function.update_of_ne hc, Function.update_of_ne hb, Function.update_of_ne ha]
/-- Three updates at distinct points read at the first, -/
theorem upd3_a (a b c : α) (va : β a) (vb : β b) (vc : β c) (hab : a ≠ b) (hac : a ≠ c) :
    Function.update (Function.update (Function.update f a va) b vb) c vc a = va := by
  rw [Function.update_of_ne hac, Function.update_of_ne hab, Function.update_self]
/-- at the second, -/
theorem upd3_b (a b c : α) (va : β a) (vb : β b) (vc : β c) (hbc : b ≠ c) :
    Function.update (Function.update (Function.update f a va) b vb) c vc b = vb := by
  rw [Function.update_of_ne hbc, Function.update_self]
/-- and at the third. -/
theorem upd3_c (a b c : α) (va : β a) (vb : β b) (vc : β c) :
    Function.update (Function.update (Function.update f a va) b vb) c vc c = vc := Function.update_self _ _ _
end Reads

/-- At launch. -/
def X0 (c : Dev nD) : Valuation τ sig (Elt F) := fun b => m (c, b)
/-- After the host stretch before region 0. -/
def X1 (c : Dev nD) : Valuation τ sig (Elt F) := StableHlo.after hostOps0 (X0 m c)
/-- After region 0: its output arrays at what its pipeline leaves. -/
def X2 (c : Dev nD) : Valuation τ sig (Elt F) :=
  Function.update (X1 m c) main_v2 ((dat0 (tcOf (X1 m)) c).arrAt 3 cfg0.N)
/-- After the host stretch before region 1. -/
def X3 (c : Dev nD) : Valuation τ sig (Elt F) := StableHlo.after hostOps1 (X2 m c)
/-- After region 1: its output arrays at what its pipeline leaves. -/
def X4 (c : Dev nD) : Valuation τ sig (Elt F) :=
  Function.update (Function.update (Function.update (X3 m c) main_v27_0 ((dat1 (tcOf (X3 m)) c).arrAt 5 cfg1.N)) main_v27_1 ((dat1 (tcOf (X3 m)) c).arrAt 6 cfg1.N)) main_v27_2 ((dat1 (tcOf (X3 m)) c).arrAt 7 cfg1.N)
/-- After the host stretch before region 2. -/
def X5 (c : Dev nD) : Valuation τ sig (Elt F) := StableHlo.after hostOps2 (X4 m c)
/-- After region 2: its output arrays at what its pipeline leaves. -/
def X6 (c : Dev nD) : Valuation τ sig (Elt F) :=
  Function.update (Function.update (Function.update (X5 m c) main_v39_0 ((dat2 (tcOf (X5 m)) c).arrAt 7 cfg2.N)) main_v39_1 ((dat2 (tcOf (X5 m)) c).arrAt 8 cfg2.N)) main_v39_2 ((dat2 (tcOf (X5 m)) c).arrAt 9 cfg2.N)
/-- After the host stretch before region 3. -/
def X7 (c : Dev nD) : Valuation τ sig (Elt F) := StableHlo.after hostOps3 (X6 m c)
/-- After region 3: its output arrays at what its pipeline leaves. -/
def X8 (c : Dev nD) : Valuation τ sig (Elt F) :=
  Function.update (X7 m c) main_v46 ((dat3 (tcOf (X7 m)) c).arrAt 5 cfg3.N)
/-- After the host stretch before region 4. -/
def X9 (c : Dev nD) : Valuation τ sig (Elt F) := StableHlo.after hostOps4 (X8 m c)
/-- After region 4: its output arrays at what its pipeline leaves. -/
def X10 (c : Dev nD) : Valuation τ sig (Elt F) :=
  Function.update (Function.update (Function.update (X9 m c) main_v66_0 ((dat4 (tcOf (X9 m)) c).arrAt 5 cfg4.N)) main_v66_1 ((dat4 (tcOf (X9 m)) c).arrAt 6 cfg4.N)) main_v66_2 ((dat4 (tcOf (X9 m)) c).arrAt 7 cfg4.N)
/-- After the host stretch before region 5. -/
def X11 (c : Dev nD) : Valuation τ sig (Elt F) := StableHlo.after hostOps5 (X10 m c)
/-- After region 5: its output arrays at what its pipeline leaves. -/
def X12 (c : Dev nD) : Valuation τ sig (Elt F) :=
  Function.update (Function.update (Function.update (X11 m c) main_v78_0 ((dat5 (tcOf (X11 m)) c).arrAt 7 cfg5.N)) main_v78_1 ((dat5 (tcOf (X11 m)) c).arrAt 8 cfg5.N)) main_v78_2 ((dat5 (tcOf (X11 m)) c).arrAt 9 cfg5.N)
/-- After the host stretch before region 6. -/
def X13 (c : Dev nD) : Valuation τ sig (Elt F) := StableHlo.after hostOps6 (X12 m c)
/-- After region 6: its output arrays at what its pipeline leaves. -/
def X14 (c : Dev nD) : Valuation τ sig (Elt F) :=
  Function.update (X13 m c) main_v85 ((dat6 (tcOf (X13 m)) c).arrAt 5 cfg6.N)
/-- After the host stretch before region 7. -/
def X15 (c : Dev nD) : Valuation τ sig (Elt F) := StableHlo.after hostOps7 (X14 m c)
/-- After region 7: its output arrays at what its pipeline leaves. -/
def X16 (c : Dev nD) : Valuation τ sig (Elt F) :=
  Function.update (Function.update (Function.update (X15 m c) main_v105_0 ((dat7 (tcOf (X15 m)) c).arrAt 5 cfg7.N)) main_v105_1 ((dat7 (tcOf (X15 m)) c).arrAt 6 cfg7.N)) main_v105_2 ((dat7 (tcOf (X15 m)) c).arrAt 7 cfg7.N)
/-- After the host stretch before region 8. -/
def X17 (c : Dev nD) : Valuation τ sig (Elt F) := StableHlo.after hostOps8 (X16 m c)
/-- After region 8: its output arrays at what its pipeline leaves. -/
def X18 (c : Dev nD) : Valuation τ sig (Elt F) :=
  Function.update (Function.update (Function.update (X17 m c) main_v117_0 ((dat8 (tcOf (X17 m)) c).arrAt 7 cfg8.N)) main_v117_1 ((dat8 (tcOf (X17 m)) c).arrAt 8 cfg8.N)) main_v117_2 ((dat8 (tcOf (X17 m)) c).arrAt 9 cfg8.N)
/-- After the host stretch before region 9. -/
def X19 (c : Dev nD) : Valuation τ sig (Elt F) := StableHlo.after hostOps9 (X18 m c)
/-- After region 9: its output arrays at what its pipeline leaves. -/
def X20 (c : Dev nD) : Valuation τ sig (Elt F) :=
  Function.update (X19 m c) main_v124 ((dat9 (tcOf (X19 m)) c).arrAt 5 cfg9.N)
/-- After the host stretch before region 10. -/
def X21 (c : Dev nD) : Valuation τ sig (Elt F) := StableHlo.after hostOps10 (X20 m c)
/-- After region 10: its output arrays at what its pipeline leaves. -/
def X22 (c : Dev nD) : Valuation τ sig (Elt F) :=
  Function.update (Function.update (Function.update (X21 m c) main_v144_0 ((dat10 (tcOf (X21 m)) c).arrAt 5 cfg10.N)) main_v144_1 ((dat10 (tcOf (X21 m)) c).arrAt 6 cfg10.N)) main_v144_2 ((dat10 (tcOf (X21 m)) c).arrAt 7 cfg10.N)
/-- After the host stretch before region 11. -/
def X23 (c : Dev nD) : Valuation τ sig (Elt F) := StableHlo.after hostOps11 (X22 m c)
/-- After region 11: its output arrays at what its pipeline leaves. -/
def X24 (c : Dev nD) : Valuation τ sig (Elt F) :=
  Function.update (Function.update (Function.update (X23 m c) main_v156_0 ((dat11 (tcOf (X23 m)) c).arrAt 7 cfg11.N)) main_v156_1 ((dat11 (tcOf (X23 m)) c).arrAt 8 cfg11.N)) main_v156_2 ((dat11 (tcOf (X23 m)) c).arrAt 9 cfg11.N)
/-- After the host stretch before region 12. -/
def X25 (c : Dev nD) : Valuation τ sig (Elt F) := StableHlo.after hostOps12 (X24 m c)
/-- After region 12: its output arrays at what its pipeline leaves. -/
def X26 (c : Dev nD) : Valuation τ sig (Elt F) :=
  Function.update (X25 m c) main_v163 ((dat12 (tcOf (X25 m)) c).arrAt 5 cfg12.N)
/-- After the host stretch before region 13. -/
def X27 (c : Dev nD) : Valuation τ sig (Elt F) := StableHlo.after hostOps13 (X26 m c)
/-- After region 13: its output arrays at what its pipeline leaves. -/
def X28 (c : Dev nD) : Valuation τ sig (Elt F) :=
  Function.update (X27 m c) main_v178 ((dat13 (tcOf (X27 m)) c).arrAt 5 cfg13.N)

/-- What the regions leave, as the generated conditional frame's unknowns. -/
def outsOf : Outs (F := F) := fun J r c => match J with
  | 2 => X2 m c r
  | 4 => X4 m c r
  | 6 => X6 m c r
  | 8 => X8 m c r
  | 10 => X10 m c r
  | 12 => X12 m c r
  | 14 => X14 m c r
  | 16 => X16 m c r
  | 18 => X18 m c r
  | 20 => X20 m c r
  | 22 => X22 m c r
  | 24 => X24 m c r
  | 26 => X26 m c r
  | 28 => X28 m c r
  | _ => X0 m c r

theorem V0_eq (c : Dev nD) : V0 m c = X0 m c := rfl
theorem V1_eq (c : Dev nD) : V1 m c = X1 m c := by
  show StableHlo.after hostOps0 (V0 m c) = _
  rw [V0_eq]; rfl
theorem V2_eq (c : Dev nD) : V2 m (outsOf m) c = X2 m c := by
  unfold V2
  rw [V1_eq]
  unfold X2
  simp only [outsOf, X2, Function.update_self, ne_eq, Function.update_of_ne]
theorem V3_eq (c : Dev nD) : V3 m (outsOf m) c = X3 m c := by
  show StableHlo.after hostOps1 (V2 m (outsOf m) c) = _
  rw [V2_eq]; rfl
theorem V4_eq (c : Dev nD) : V4 m (outsOf m) c = X4 m c := by
  unfold V4
  rw [V3_eq]
  unfold X4
  simp only [outsOf, X4]
  exact upd3_fix (X3 m c) _ _ _ _ _ _ (StableHlo.devRef_ne_of_ne (by decide)) (StableHlo.devRef_ne_of_ne (by decide)) (StableHlo.devRef_ne_of_ne (by decide))
theorem V5_eq (c : Dev nD) : V5 m (outsOf m) c = X5 m c := by
  show StableHlo.after hostOps2 (V4 m (outsOf m) c) = _
  rw [V4_eq]; rfl
theorem V6_eq (c : Dev nD) : V6 m (outsOf m) c = X6 m c := by
  unfold V6
  rw [V5_eq]
  unfold X6
  simp only [outsOf, X6]
  exact upd3_fix (X5 m c) _ _ _ _ _ _ (StableHlo.devRef_ne_of_ne (by decide)) (StableHlo.devRef_ne_of_ne (by decide)) (StableHlo.devRef_ne_of_ne (by decide))
theorem V7_eq (c : Dev nD) : V7 m (outsOf m) c = X7 m c := by
  show StableHlo.after hostOps3 (V6 m (outsOf m) c) = _
  rw [V6_eq]; rfl
theorem V8_eq (c : Dev nD) : V8 m (outsOf m) c = X8 m c := by
  unfold V8
  rw [V7_eq]
  unfold X8
  simp only [outsOf, X8, Function.update_self, ne_eq, Function.update_of_ne]
theorem V9_eq (c : Dev nD) : V9 m (outsOf m) c = X9 m c := by
  show StableHlo.after hostOps4 (V8 m (outsOf m) c) = _
  rw [V8_eq]; rfl
theorem V10_eq (c : Dev nD) : V10 m (outsOf m) c = X10 m c := by
  unfold V10
  rw [V9_eq]
  unfold X10
  simp only [outsOf, X10]
  exact upd3_fix (X9 m c) _ _ _ _ _ _ (StableHlo.devRef_ne_of_ne (by decide)) (StableHlo.devRef_ne_of_ne (by decide)) (StableHlo.devRef_ne_of_ne (by decide))
theorem V11_eq (c : Dev nD) : V11 m (outsOf m) c = X11 m c := by
  show StableHlo.after hostOps5 (V10 m (outsOf m) c) = _
  rw [V10_eq]; rfl
theorem V12_eq (c : Dev nD) : V12 m (outsOf m) c = X12 m c := by
  unfold V12
  rw [V11_eq]
  unfold X12
  simp only [outsOf, X12]
  exact upd3_fix (X11 m c) _ _ _ _ _ _ (StableHlo.devRef_ne_of_ne (by decide)) (StableHlo.devRef_ne_of_ne (by decide)) (StableHlo.devRef_ne_of_ne (by decide))
theorem V13_eq (c : Dev nD) : V13 m (outsOf m) c = X13 m c := by
  show StableHlo.after hostOps6 (V12 m (outsOf m) c) = _
  rw [V12_eq]; rfl
theorem V14_eq (c : Dev nD) : V14 m (outsOf m) c = X14 m c := by
  unfold V14
  rw [V13_eq]
  unfold X14
  simp only [outsOf, X14, Function.update_self, ne_eq, Function.update_of_ne]
theorem V15_eq (c : Dev nD) : V15 m (outsOf m) c = X15 m c := by
  show StableHlo.after hostOps7 (V14 m (outsOf m) c) = _
  rw [V14_eq]; rfl
theorem V16_eq (c : Dev nD) : V16 m (outsOf m) c = X16 m c := by
  unfold V16
  rw [V15_eq]
  unfold X16
  simp only [outsOf, X16]
  exact upd3_fix (X15 m c) _ _ _ _ _ _ (StableHlo.devRef_ne_of_ne (by decide)) (StableHlo.devRef_ne_of_ne (by decide)) (StableHlo.devRef_ne_of_ne (by decide))
theorem V17_eq (c : Dev nD) : V17 m (outsOf m) c = X17 m c := by
  show StableHlo.after hostOps8 (V16 m (outsOf m) c) = _
  rw [V16_eq]; rfl
theorem V18_eq (c : Dev nD) : V18 m (outsOf m) c = X18 m c := by
  unfold V18
  rw [V17_eq]
  unfold X18
  simp only [outsOf, X18]
  exact upd3_fix (X17 m c) _ _ _ _ _ _ (StableHlo.devRef_ne_of_ne (by decide)) (StableHlo.devRef_ne_of_ne (by decide)) (StableHlo.devRef_ne_of_ne (by decide))
theorem V19_eq (c : Dev nD) : V19 m (outsOf m) c = X19 m c := by
  show StableHlo.after hostOps9 (V18 m (outsOf m) c) = _
  rw [V18_eq]; rfl
theorem V20_eq (c : Dev nD) : V20 m (outsOf m) c = X20 m c := by
  unfold V20
  rw [V19_eq]
  unfold X20
  simp only [outsOf, X20, Function.update_self, ne_eq, Function.update_of_ne]
theorem V21_eq (c : Dev nD) : V21 m (outsOf m) c = X21 m c := by
  show StableHlo.after hostOps10 (V20 m (outsOf m) c) = _
  rw [V20_eq]; rfl
theorem V22_eq (c : Dev nD) : V22 m (outsOf m) c = X22 m c := by
  unfold V22
  rw [V21_eq]
  unfold X22
  simp only [outsOf, X22]
  exact upd3_fix (X21 m c) _ _ _ _ _ _ (StableHlo.devRef_ne_of_ne (by decide)) (StableHlo.devRef_ne_of_ne (by decide)) (StableHlo.devRef_ne_of_ne (by decide))
theorem V23_eq (c : Dev nD) : V23 m (outsOf m) c = X23 m c := by
  show StableHlo.after hostOps11 (V22 m (outsOf m) c) = _
  rw [V22_eq]; rfl
theorem V24_eq (c : Dev nD) : V24 m (outsOf m) c = X24 m c := by
  unfold V24
  rw [V23_eq]
  unfold X24
  simp only [outsOf, X24]
  exact upd3_fix (X23 m c) _ _ _ _ _ _ (StableHlo.devRef_ne_of_ne (by decide)) (StableHlo.devRef_ne_of_ne (by decide)) (StableHlo.devRef_ne_of_ne (by decide))
theorem V25_eq (c : Dev nD) : V25 m (outsOf m) c = X25 m c := by
  show StableHlo.after hostOps12 (V24 m (outsOf m) c) = _
  rw [V24_eq]; rfl
theorem V26_eq (c : Dev nD) : V26 m (outsOf m) c = X26 m c := by
  unfold V26
  rw [V25_eq]
  unfold X26
  simp only [outsOf, X26, Function.update_self, ne_eq, Function.update_of_ne]
theorem V27_eq (c : Dev nD) : V27 m (outsOf m) c = X27 m c := by
  show StableHlo.after hostOps13 (V26 m (outsOf m) c) = _
  rw [V26_eq]; rfl
theorem V28_eq (c : Dev nD) : V28 m (outsOf m) c = X28 m c := by
  unfold V28
  rw [V27_eq]
  unfold X28
  simp only [outsOf, X28, Function.update_self, ne_eq, Function.update_of_ne]

end Cert.KernelIdeal.Gen

end
-- ==== Proof.KI.SegsBase.lean ====
/-
  The proof data of the program's fourteen pipelines as one family, and what rides beside the buffers through every
  item of @main.
-/
import proofs.«140206_j52750788330061_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Every pipeline's proof data, each at the contents its region is entered with: a literal match, so that the
    family at a numeral is the region's own data. -/
def pdats : (p : Fin 14) → (c : Dev nD) → Dat τ (Elt F) Unit ℕ (UR sig nD τ) ℕ (cfgs p) c
  | ⟨0, _⟩ => fun c => dat0 (tcOf (X1 m)) c
  | ⟨1, _⟩ => fun c => dat1 (tcOf (X3 m)) c
  | ⟨2, _⟩ => fun c => dat2 (tcOf (X5 m)) c
  | ⟨3, _⟩ => fun c => dat3 (tcOf (X7 m)) c
  | ⟨4, _⟩ => fun c => dat4 (tcOf (X9 m)) c
  | ⟨5, _⟩ => fun c => dat5 (tcOf (X11 m)) c
  | ⟨6, _⟩ => fun c => dat6 (tcOf (X13 m)) c
  | ⟨7, _⟩ => fun c => dat7 (tcOf (X15 m)) c
  | ⟨8, _⟩ => fun c => dat8 (tcOf (X17 m)) c
  | ⟨9, _⟩ => fun c => dat9 (tcOf (X19 m)) c
  | ⟨10, _⟩ => fun c => dat10 (tcOf (X21 m)) c
  | ⟨11, _⟩ => fun c => dat11 (tcOf (X23 m)) c
  | ⟨12, _⟩ => fun c => dat12 (tcOf (X25 m)) c
  | ⟨13, _⟩ => fun c => dat13 (tcOf (X27 m)) c

/-- No core owes another anything: no level is assigned. -/
abbrev Lz : GSem nD τ sig → Finset Unit := fun _ => ∅
abbrev lvz : GSem nD τ sig → Unit → ℕ := fun _ _ => 0
/-- What rides beside the buffers through every item: the generator register at some state and nothing owed. -/
abbrev Rz (c : Dev nD) : sProp 𝕄 := iprop((∃ r, prngReg c r) ∗ ∃ W, owes (c : Thread nD τ) (0 : CellTallies nD τ sig Unit) W)

end Cert.KernelIdeal.Gen

end
-- ==== Proof.KI.Seg0.lean ====
/-
  Region 0 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 0's exit each of its arrays holds what the pipeline leaves: an output's array by the update, an input's
    array its entry contents; window by window, -/
theorem hF0_0 (c : Dev nD) : (dat0 (tcOf (X1 m)) c).arrAt 0 cfg0.N = tcOf (X2 m) c (Pipeline.arrRef spec0 0) := by
  rw [(dat0 (tcOf (X1 m)) c).arrAt_in 0 rfl cfg0.N, A_eq0 (tcOf (X1 m)) c 0]
  show X1 m c (Proc.devRef .tc main_v0) = X2 m c (Proc.devRef .tc main_v0)
  unfold X2
  symm
  exact upd1_ne _ _ _ _ (StableHlo.devRef_ne_of_ne (by decide))
theorem hF0_1 (c : Dev nD) : (dat0 (tcOf (X1 m)) c).arrAt 1 cfg0.N = tcOf (X2 m) c (Pipeline.arrRef spec0 1) := by
  rw [(dat0 (tcOf (X1 m)) c).arrAt_in 1 rfl cfg0.N, A_eq0 (tcOf (X1 m)) c 1]
  show X1 m c (Proc.devRef .tc main_arg4) = X2 m c (Proc.devRef .tc main_arg4)
  unfold X2
  symm
  exact upd1_ne _ _ _ _ (StableHlo.devRef_ne_of_ne (by decide))
theorem hF0_2 (c : Dev nD) : (dat0 (tcOf (X1 m)) c).arrAt 2 cfg0.N = tcOf (X2 m) c (Pipeline.arrRef spec0 2) := by
  rw [(dat0 (tcOf (X1 m)) c).arrAt_in 2 rfl cfg0.N, A_eq0 (tcOf (X1 m)) c 2]
  show X1 m c (Proc.devRef .tc main_v1) = X2 m c (Proc.devRef .tc main_v1)
  unfold X2
  symm
  exact upd1_ne _ _ _ _ (StableHlo.devRef_ne_of_ne (by decide))
theorem hF0_3 (c : Dev nD) : (dat0 (tcOf (X1 m)) c).arrAt 3 cfg0.N = tcOf (X2 m) c (Pipeline.arrRef spec0 3) := by
  show _ = X2 m c (Proc.devRef .tc main_v2)
  unfold X2
  symm
  exact upd1_a _ _ _

/-- and for every window. -/
theorem hF0 (c : Dev nD) : ∀ w : Fin cfg0.W, (dat0 (tcOf (X1 m)) c).arrAt w cfg0.N = tcOf (X2 m) c (Pipeline.arrRef spec0 w)
  | ⟨0, h⟩ => by rw [show (⟨0, h⟩ : Fin cfg0.W) = (0 : Fin cfg0.W) from Fin.ext rfl]; exact hF0_0 m c
  | ⟨1, h⟩ => by rw [show (⟨1, h⟩ : Fin cfg0.W) = (1 : Fin cfg0.W) from Fin.ext rfl]; exact hF0_1 m c
  | ⟨2, h⟩ => by rw [show (⟨2, h⟩ : Fin cfg0.W) = (2 : Fin cfg0.W) from Fin.ext rfl]; exact hF0_2 m c
  | ⟨3, h⟩ => by rw [show (⟨3, h⟩ : Fin cfg0.W) = (3 : Fin cfg0.W) from Fin.ext rfl]; exact hF0_3 m c

/-- Every buffer that is no array of region 0 holds at its exit what it held at its entry. -/
theorem hrest0 (c : Dev nD) : ∀ b, b ∉ Finset.univ.image (Pipeline.arrRef spec0) → tcOf (X2 m) c b = tcOf (X1 m) c b :=
  fun b hb => by
    have h0 : b ≠ main_v2 := fun e => hb (by subst e; exact Finset.mem_image.mpr ⟨⟨3, by decide⟩, Finset.mem_univ _, rfl⟩)
    unfold X2; dsimp only [tcOf]
    exact upd1_ne _ _ _ _ (StableHlo.devRef_ne_of_ne h0)

set_option backward.isDefEq.respectTransparency.types false in
/-- Region 0 over the thread state: entered with every unscoped buffer at the contents before it, left with them at
    the contents after it; its arrays split out of the unscoped buffers and put back; the generator register into the
    invariant and out; nothing owed; no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (tcOf (X1 m)) c).loose
  hwaits := Pipeline.hwaits_of_owed_zero _ _ _ _ Lz lvz 0 fun _ _ => rfl
  pre c := iprop(StableHlo.held (c : Thread nD τ) (Pipeline.ucRefs τ sig) (X1 m c) ∗ Rz c)
  post c := iprop(StableHlo.held (c : Thread nD τ) (Pipeline.ucRefs τ sig) (X2 m c) ∗ Rz c)
  X c := iprop(∃ r, prngReg c r)
  Y c := iprop(∃ r, prngReg c r)
  Z c := Pipeline.unscopedRest (Ix := Unit) (Name := ℕ) (U := UR sig nD τ) (Lvl := ℕ) spec0 c (tcOf (X1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcOf (X1 m) c) fun w => A_eq0 (tcOf (X1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (show (Pipeline.ΦA spec0 c : sProp 𝕄) ⊢ (dat0 (tcOf (X1 m)) c).Φ 0 from .rfl)
  hout c := by
    rw [Pipeline.ownSems0_none]
    have h : (Pipeline.ΦA spec0 c : sProp 𝕄)
        ⊢ iprop(iprop(∃ r, prngReg c r) ∗ BI.emp ∗ Pipeline.scopedRest spec0 c) := by
      unfold Pipeline.ΦA
      iintro ⟨Hr, Hp⟩
      isplitl [Hp]; · iexact Hp
      isplitr; · iempintro
      iexact Hr
    exact (show (dat0 (tcOf (X1 m)) c).Φ (Fin.last cfg0.N) ⊢ (Pipeline.ΦA spec0 c : sProp 𝕄) from .rfl).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcOf (X1 m) c) (tcOf (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg1.lean ====
/-
  Region 1 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 1's exit each of its arrays holds what the pipeline leaves: an output's array by the update, an input's
    array its entry contents; window by window, -/
theorem hF1_0 (c : Dev nD) : (dat1 (tcOf (X3 m)) c).arrAt 0 cfg1.N = tcOf (X4 m) c (Pipeline.arrRef spec1 0) := by
  rw [(dat1 (tcOf (X3 m)) c).arrAt_in 0 rfl cfg1.N, A_eq1 (tcOf (X3 m)) c 0]
  show X3 m c (Proc.devRef .tc main_v2) = X4 m c (Proc.devRef .tc main_v2)
  unfold X4
  symm
  exact upd3_ne _ _ _ _ _ _ _ _ (StableHlo.devRef_ne_of_ne (by decide)) (StableHlo.devRef_ne_of_ne (by decide)) (StableHlo.devRef_ne_of_ne (by decide))
theorem hF1_1 (c : Dev nD) : (dat1 (tcOf (X3 m)) c).arrAt 1 cfg1.N = tcOf (X4 m) c (Pipeline.arrRef spec1 1) := by
  rw [(dat1 (tcOf (X3 m)) c).arrAt_in 1 rfl cfg1.N, A_eq1 (tcOf (X3 m)) c 1]
  show X3 m c (Proc.devRef .tc main_v17) = X4 m c (Proc.devRef .tc main_v17)
  unfold X4
  symm
  exact upd3_ne _ _ _ _ _ _ _ _ (StableHlo.devRef_ne_of_ne (by decide)) (StableHlo.devRef_ne_of_ne (by decide)) (StableHlo.devRef_ne_of_ne (by decide))
theorem hF1_2 (c : Dev nD) : (dat1 (tcOf (X3 m)) c).arrAt 2 cfg1.N = tcOf (X4 m) c (Pipeline.arrRef spec1 2) := by
  rw [(dat1 (tcOf (X3 m)) c).arrAt_in 2 rfl cfg1.N, A_eq1 (tcOf (X3 m)) c 2]
  show X3 m c (Proc.devRef .tc main_v25) = X4 m c (Proc.devRef .tc main_v25)
  unfold X4
  symm
  exact upd3_ne _ _ _ _ _ _ _ _ (StableHlo.devRef_ne_of_ne (by decide)) (StableHlo.devRef_ne_of_ne (by decide)) (StableHlo.devRef_ne_of_ne (by decide))
theorem hF1_3 (c : Dev nD) : (dat1 (tcOf (X3 m)) c).arrAt 3 cfg1.N = tcOf (X4 m) c (Pipeline.arrRef spec1 3) := by
  rw [(dat1 (tcOf (X3 m)) c).arrAt_in 3 rfl cfg1.N, A_eq1 (tcOf (X3 m)) c 3]
  show X3 m c (Proc.devRef .tc main_v21) = X4 m c (Proc.devRef .tc main_v21)
  unfold X4
  symm
  exact upd3_ne _ _ _ _ _ _ _ _ (StableHlo.devRef_ne_of_ne (by decide)) (StableHlo.devRef_ne_of_ne (by decide)) (StableHlo.devRef_ne_of_ne (by decide))
theorem hF1_4 (c : Dev nD) : (dat1 (tcOf (X3 m)) c).arrAt 4 cfg1.N = tcOf (X4 m) c (Pipeline.arrRef spec1 4) := by
  rw [(dat1 (tcOf (X3 m)) c).arrAt_in 4 rfl cfg1.N, A_eq1 (tcOf (X3 m)) c 4]
  show X3 m c (Proc.devRef .tc main_v26) = X4 m c (Proc.devRef .tc main_v26)
  unfold X4
  symm
  exact upd3_ne _ _ _ _ _ _ _ _ (StableHlo.devRef_ne_of_ne (by decide)) (StableHlo.devRef_ne_of_ne (by decide)) (StableHlo.devRef_ne_of_ne (by decide))
theorem hF1_5 (c : Dev nD) : (dat1 (tcOf (X3 m)) c).arrAt 5 cfg1.N = tcOf (X4 m) c (Pipeline.arrRef spec1 5) := by
  show _ = X4 m c (Proc.devRef .tc main_v27_0)
  unfold X4
  symm
  exact upd3_a _ _ _ _ _ _ _ (StableHlo.devRef_ne_of_ne (by decide)) (StableHlo.devRef_ne_of_ne (by decide))
theorem hF1_6 (c : Dev nD) : (dat1 (tcOf (X3 m)) c).arrAt 6 cfg1.N = tcOf (X4 m) c (Pipeline.arrRef spec1 6) := by
  show _ = X4 m c (Proc.devRef .tc main_v27_1)
  unfold X4
  symm
  exact upd3_b _ _ _ _ _ _ _ (StableHlo.devRef_ne_of_ne (by decide))
theorem hF1_7 (c : Dev nD) : (dat1 (tcOf (X3 m)) c).arrAt 7 cfg1.N = tcOf (X4 m) c (Pipeline.arrRef spec1 7) := by
  show _ = X4 m c (Proc.devRef .tc main_v27_2)
  unfold X4
  symm
  exact upd3_c _ _ _ _ _ _ _

/-- and for every window. -/
theorem hF1 (c : Dev nD) : ∀ w : Fin cfg1.W, (dat1 (tcOf (X3 m)) c).arrAt w cfg1.N = tcOf (X4 m) c (Pipeline.arrRef spec1 w)
  | ⟨0, h⟩ => by rw [show (⟨0, h⟩ : Fin cfg1.W) = (0 : Fin cfg1.W) from Fin.ext rfl]; exact hF1_0 m c
  | ⟨1, h⟩ => by rw [show (⟨1, h⟩ : Fin cfg1.W) = (1 : Fin cfg1.W) from Fin.ext rfl]; exact hF1_1 m c
  | ⟨2, h⟩ => by rw [show (⟨2, h⟩ : Fin cfg1.W) = (2 : Fin cfg1.W) from Fin.ext rfl]; exact hF1_2 m c
  | ⟨3, h⟩ => by rw [show (⟨3, h⟩ : Fin cfg1.W) = (3 : Fin cfg1.W) from Fin.ext rfl]; exact hF1_3 m c
  | ⟨4, h⟩ => by rw [show (⟨4, h⟩ : Fin cfg1.W) = (4 : Fin cfg1.W) from Fin.ext rfl]; exact hF1_4 m c
  | ⟨5, h⟩ => by rw [show (⟨5, h⟩ : Fin cfg1.W) = (5 : Fin cfg1.W) from Fin.ext rfl]; exact hF1_5 m c
  | ⟨6, h⟩ => by rw [show (⟨6, h⟩ : Fin cfg1.W) = (6 : Fin cfg1.W) from Fin.ext rfl]; exact hF1_6 m c
  | ⟨7, h⟩ => by rw [show (⟨7, h⟩ : Fin cfg1.W) = (7 : Fin cfg1.W) from Fin.ext rfl]; exact hF1_7 m c

/-- Every buffer that is no array of region 1 holds at its exit what it held at its entry. -/
theorem hrest1 (c : Dev nD) : ∀ b, b ∉ Finset.univ.image (Pipeline.arrRef spec1) → tcOf (X4 m) c b = tcOf (X3 m) c b :=
  fun b hb => by
    have h0 : b ≠ main_v27_0 := fun e => hb (by subst e; exact Finset.mem_image.mpr ⟨⟨5, by decide⟩, Finset.mem_univ _, rfl⟩)
    have h1 : b ≠ main_v27_1 := fun e => hb (by subst e; exact Finset.mem_image.mpr ⟨⟨6, by decide⟩, Finset.mem_univ _, rfl⟩)
    have h2 : b ≠ main_v27_2 := fun e => hb (by subst e; exact Finset.mem_image.mpr ⟨⟨7, by decide⟩, Finset.mem_univ _, rfl⟩)
    unfold X4; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 1 over the thread state: entered with every unscoped buffer at the contents before it, left with them at
    the contents after it; its arrays split out of the unscoped buffers and put back; the generator register into the
    invariant and out; nothing owed; no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (tcOf (X3 m)) c).loose
  hwaits := Pipeline.hwaits_of_owed_zero _ _ _ _ Lz lvz 1 fun _ _ => rfl
  pre c := iprop(StableHlo.held (c : Thread nD τ) (Pipeline.ucRefs τ sig) (X3 m c) ∗ Rz c)
  post c := iprop(StableHlo.held (c : Thread nD τ) (Pipeline.ucRefs τ sig) (X4 m c) ∗ Rz c)
  X c := iprop(∃ r, prngReg c r)
  Y c := iprop(∃ r, prngReg c r)
  Z c := Pipeline.unscopedRest (Ix := Unit) (Name := ℕ) (U := UR sig nD τ) (Lvl := ℕ) spec1 c (tcOf (X3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcOf (X3 m) c) fun w => A_eq1 (tcOf (X3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 (tcOf (X3 m)) c)
  hout c := by
    rw [Pipeline.ownSems0_none]
    have h : (Pipeline.ΦA spec1 c : sProp 𝕄)
        ⊢ iprop(iprop(∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (tcOf (X3 m)) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcOf (X3 m) c) (tcOf (X4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg2.lean ====
/-
  Region 2 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 2's exit each of its arrays holds what the pipeline leaves: an output's array by the update, an input's
    array its entry contents; window by window, -/
theorem hF2_0 (c : Dev nD) : (dat2 (tcOf (X5 m)) c).arrAt 0 cfg2.N = tcOf (X6 m) c (Pipeline.arrRef spec2 0) := by
  rw [(dat2 (tcOf (X5 m)) c).arrAt_in 0 rfl cfg2.N, A_eq2 (tcOf (X5 m)) c 0]
  show X5 m c (Proc.devRef .tc main_v27_0) = X6 m c (Proc.devRef .tc main_v27_0)
  unfold X6
  symm
  exact upd3_ne _ _ _ _ _ _ _ _ (StableHlo.devRef_ne_of_ne (by decide)) (StableHlo.devRef_ne_of_ne (by decide)) (StableHlo.devRef_ne_of_ne (by decide))
theorem hF2_1 (c : Dev nD) : (dat2 (tcOf (X5 m)) c).arrAt 1 cfg2.N = tcOf (X6 m) c (Pipeline.arrRef spec2 1) := by
  rw [(dat2 (tcOf (X5 m)) c).arrAt_in 1 rfl cfg2.N, A_eq2 (tcOf (X5 m)) c 1]
  show X5 m c (Proc.devRef .tc main_v27_1) = X6 m c (Proc.devRef .tc main_v27_1)
  unfold X6
  symm
  exact upd3_ne _ _ _ _ _ _ _ _ (StableHlo.devRef_ne_of_ne (by decide)) (StableHlo.devRef_ne_of_ne (by decide)) (StableHlo.devRef_ne_of_ne (by decide))
theorem hF2_2 (c : Dev nD) : (dat2 (tcOf (X5 m)) c).arrAt 2 cfg2.N = tcOf (X6 m) c (Pipeline.arrRef spec2 2) := by
  rw [(dat2 (tcOf (X5 m)) c).arrAt_in 2 rfl cfg2.N, A_eq2 (tcOf (X5 m)) c 2]
  show X5 m c (Proc.devRef .tc main_v27_2) = X6 m c (Proc.devRef .tc main_v27_2)
  unfold X6
  symm
  exact upd3_ne _ _ _ _ _ _ _ _ (StableHlo.devRef_ne_of_ne (by decide)) (StableHlo.devRef_ne_of_ne (by decide)) (StableHlo.devRef_ne_of_ne (by decide))
theorem hF2_3 (c : Dev nD) : (dat2 (tcOf (X5 m)) c).arrAt 3 cfg2.N = tcOf (X6 m) c (Pipeline.arrRef spec2 3) := by
  rw [(dat2 (tcOf (X5 m)) c).arrAt_in 3 rfl cfg2.N, A_eq2 (tcOf (X5 m)) c 3]
  show X5 m c (Proc.devRef .tc main_v36) = X6 m c (Proc.devRef .tc main_v36)
  unfold X6
  symm
  exact upd3_ne _ _ _ _ _ _ _ _ (StableHlo.devRef_ne_of_ne (by decide)) (StableHlo.devRef_ne_of_ne (by decide)) (StableHlo.devRef_ne_of_ne (by decide))
theorem hF2_4 (c : Dev nD) : (dat2 (tcOf (X5 m)) c).arrAt 4 cfg2.N = tcOf (X6 m) c (Pipeline.arrRef spec2 4) := by
  rw [(dat2 (tcOf (X5 m)) c).arrAt_in 4 rfl cfg2.N, A_eq2 (tcOf (X5 m)) c 4]
  show X5 m c (Proc.devRef .tc main_v37) = X6 m c (Proc.devRef .tc main_v37)
  unfold X6
  symm
  exact upd3_ne _ _ _ _ _ _ _ _ (StableHlo.devRef_ne_of_ne (by decide)) (StableHlo.devRef_ne_of_ne (by decide)) (StableHlo.devRef_ne_of_ne (by decide))
theorem hF2_5 (c : Dev nD) : (dat2 (tcOf (X5 m)) c).arrAt 5 cfg2.N = tcOf (X6 m) c (Pipeline.arrRef spec2 5) := by
  rw [(dat2 (tcOf (X5 m)) c).arrAt_in 5 rfl cfg2.N, A_eq2 (tcOf (X5 m)) c 5]
  show X5 m c (Proc.devRef .tc main_v33) = X6 m c (Proc.devRef .tc main_v33)
  unfold X6
  symm
  exact upd3_ne _ _ _ _ _ _ _ _ (StableHlo.devRef_ne_of_ne (by decide)) (StableHlo.devRef_ne_of_ne (by decide)) (StableHlo.devRef_ne_of_ne (by decide))
theorem hF2_6 (c : Dev nD) : (dat2 (tcOf (X5 m)) c).arrAt 6 cfg2.N = tcOf (X6 m) c (Pipeline.arrRef spec2 6) := by
  rw [(dat2 (tcOf (X5 m)) c).arrAt_in 6 rfl cfg2.N, A_eq2 (tcOf (X5 m)) c 6]
  show X5 m c (Proc.devRef .tc main_v38) = X6 m c (Proc.devRef .tc main_v38)
  unfold X6
  symm
  exact upd3_ne _ _ _ _ _ _ _ _ (StableHlo.devRef_ne_of_ne (by decide)) (StableHlo.devRef_ne_of_ne (by decide)) (StableHlo.devRef_ne_of_ne (by decide))
theorem hF2_7 (c : Dev nD) : (dat2 (tcOf (X5 m)) c).arrAt 7 cfg2.N = tcOf (X6 m) c (Pipeline.arrRef spec2 7) := by
  show _ = X6 m c (Proc.devRef .tc main_v39_0)
  unfold X6
  symm
  exact upd3_a _ _ _ _ _ _ _ (StableHlo.devRef_ne_of_ne (by decide)) (StableHlo.devRef_ne_of_ne (by decide))
theorem hF2_8 (c : Dev nD) : (dat2 (tcOf (X5 m)) c).arrAt 8 cfg2.N = tcOf (X6 m) c (Pipeline.arrRef spec2 8) := by
  show _ = X6 m c (Proc.devRef .tc main_v39_1)
  unfold X6
  symm
  exact upd3_b _ _ _ _ _ _ _ (StableHlo.devRef_ne_of_ne (by decide))
theorem hF2_9 (c : Dev nD) : (dat2 (tcOf (X5 m)) c).arrAt 9 cfg2.N = tcOf (X6 m) c (Pipeline.arrRef spec2 9) := by
  show _ = X6 m c (Proc.devRef .tc main_v39_2)
  unfold X6
  symm
  exact upd3_c _ _ _ _ _ _ _

/-- and for every window. -/
theorem hF2 (c : Dev nD) : ∀ w : Fin cfg2.W, (dat2 (tcOf (X5 m)) c).arrAt w cfg2.N = tcOf (X6 m) c (Pipeline.arrRef spec2 w)
  | ⟨0, h⟩ => by rw [show (⟨0, h⟩ : Fin cfg2.W) = (0 : Fin cfg2.W) from Fin.ext rfl]; exact hF2_0 m c
  | ⟨1, h⟩ => by rw [show (⟨1, h⟩ : Fin cfg2.W) = (1 : Fin cfg2.W) from Fin.ext rfl]; exact hF2_1 m c
  | ⟨2, h⟩ => by rw [show (⟨2, h⟩ : Fin cfg2.W) = (2 : Fin cfg2.W) from Fin.ext rfl]; exact hF2_2 m c
  | ⟨3, h⟩ => by rw [show (⟨3, h⟩ : Fin cfg2.W) = (3 : Fin cfg2.W) from Fin.ext rfl]; exact hF2_3 m c
  | ⟨4, h⟩ => by rw [show (⟨4, h⟩ : Fin cfg2.W) = (4 : Fin cfg2.W) from Fin.ext rfl]; exact hF2_4 m c
  | ⟨5, h⟩ => by rw [show (⟨5, h⟩ : Fin cfg2.W) = (5 : Fin cfg2.W) from Fin.ext rfl]; exact hF2_5 m c
  | ⟨6, h⟩ => by rw [show (⟨6, h⟩ : Fin cfg2.W) = (6 : Fin cfg2.W) from Fin.ext rfl]; exact hF2_6 m c
  | ⟨7, h⟩ => by rw [show (⟨7, h⟩ : Fin cfg2.W) = (7 : Fin cfg2.W) from Fin.ext rfl]; exact hF2_7 m c
  | ⟨8, h⟩ => by rw [show (⟨8, h⟩ : Fin cfg2.W) = (8 : Fin cfg2.W) from Fin.ext rfl]; exact hF2_8 m c
  | ⟨9, h⟩ => by rw [show (⟨9, h⟩ : Fin cfg2.W) = (9 : Fin cfg2.W) from Fin.ext rfl]; exact hF2_9 m c

/-- Every buffer that is no array of region 2 holds at its exit what it held at its entry. -/
theorem hrest2 (c : Dev nD) : ∀ b, b ∉ Finset.univ.image (Pipeline.arrRef spec2) → tcOf (X6 m) c b = tcOf (X5 m) c b :=
  fun b hb => by
    have h0 : b ≠ main_v39_0 := fun e => hb (by subst e; exact Finset.mem_image.mpr ⟨⟨7, by decide⟩, Finset.mem_univ _, rfl⟩)
    have h1 : b ≠ main_v39_1 := fun e => hb (by subst e; exact Finset.mem_image.mpr ⟨⟨8, by decide⟩, Finset.mem_univ _, rfl⟩)
    have h2 : b ≠ main_v39_2 := fun e => hb (by subst e; exact Finset.mem_image.mpr ⟨⟨9, by decide⟩, Finset.mem_univ _, rfl⟩)
    unfold X6; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 2 over the thread state: entered with every unscoped buffer at the contents before it, left with them at
    the contents after it; its arrays split out of the unscoped buffers and put back; the generator register into the
    invariant and out; nothing owed; no semaphore of the kernel's own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (tcOf (X5 m)) c).loose
  hwaits := Pipeline.hwaits_of_owed_zero _ _ _ _ Lz lvz 2 fun _ _ => rfl
  pre c := iprop(StableHlo.held (c : Thread nD τ) (Pipeline.ucRefs τ sig) (X5 m c) ∗ Rz c)
  post c := iprop(StableHlo.held (c : Thread nD τ) (Pipeline.ucRefs τ sig) (X6 m c) ∗ Rz c)
  X c := iprop(∃ r, prngReg c r)
  Y c := iprop(∃ r, prngReg c r)
  Z c := Pipeline.unscopedRest (Ix := Unit) (Name := ℕ) (U := UR sig nD τ) (Lvl := ℕ) spec2 c (tcOf (X5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcOf (X5 m) c) fun w => A_eq2 (tcOf (X5 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (hin2 (tcOf (X5 m)) c)
  hout c := by
    rw [Pipeline.ownSems0_none]
    have h : (Pipeline.ΦA spec2 c : sProp 𝕄)
        ⊢ iprop(iprop(∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (tcOf (X5 m)) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcOf (X5 m) c) (tcOf (X6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg3.lean ====
/-
  Region 3 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 3's exit each of its arrays holds what the pipeline leaves: an output's array by the update, an input's
    array its entry contents; window by window, -/
theorem hF3_0 (c : Dev nD) : (dat3 (tcOf (X7 m)) c).arrAt 0 cfg3.N = tcOf (X8 m) c (Pipeline.arrRef spec3 0) := by
  rw [(dat3 (tcOf (X7 m)) c).arrAt_in 0 rfl cfg3.N, A_eq3 (tcOf (X7 m)) c 0]
  show X7 m c (Proc.devRef .tc main_v39_0) = X8 m c (Proc.devRef .tc main_v39_0)
  unfold X8
  symm
  exact upd1_ne _ _ _ _ (StableHlo.devRef_ne_of_ne (by decide))
theorem hF3_1 (c : Dev nD) : (dat3 (tcOf (X7 m)) c).arrAt 1 cfg3.N = tcOf (X8 m) c (Pipeline.arrRef spec3 1) := by
  rw [(dat3 (tcOf (X7 m)) c).arrAt_in 1 rfl cfg3.N, A_eq3 (tcOf (X7 m)) c 1]
  show X7 m c (Proc.devRef .tc main_v39_1) = X8 m c (Proc.devRef .tc main_v39_1)
  unfold X8
  symm
  exact upd1_ne _ _ _ _ (StableHlo.devRef_ne_of_ne (by decide))
theorem hF3_2 (c : Dev nD) : (dat3 (tcOf (X7 m)) c).arrAt 2 cfg3.N = tcOf (X8 m) c (Pipeline.arrRef spec3 2) := by
  rw [(dat3 (tcOf (X7 m)) c).arrAt_in 2 rfl cfg3.N, A_eq3 (tcOf (X7 m)) c 2]
  show X7 m c (Proc.devRef .tc main_v39_2) = X8 m c (Proc.devRef .tc main_v39_2)
  unfold X8
  symm
  exact upd1_ne _ _ _ _ (StableHlo.devRef_ne_of_ne (by decide))
theorem hF3_3 (c : Dev nD) : (dat3 (tcOf (X7 m)) c).arrAt 3 cfg3.N = tcOf (X8 m) c (Pipeline.arrRef spec3 3) := by
  rw [(dat3 (tcOf (X7 m)) c).arrAt_in 3 rfl cfg3.N, A_eq3 (tcOf (X7 m)) c 3]
  show X7 m c (Proc.devRef .tc main_v44) = X8 m c (Proc.devRef .tc main_v44)
  unfold X8
  symm
  exact upd1_ne _ _ _ _ (StableHlo.devRef_ne_of_ne (by decide))
theorem hF3_4 (c : Dev nD) : (dat3 (tcOf (X7 m)) c).arrAt 4 cfg3.N = tcOf (X8 m) c (Pipeline.arrRef spec3 4) := by
  rw [(dat3 (tcOf (X7 m)) c).arrAt_in 4 rfl cfg3.N, A_eq3 (tcOf (X7 m)) c 4]
  show X7 m c (Proc.devRef .tc main_v45) = X8 m c (Proc.devRef .tc main_v45)
  unfold X8
  symm
  exact upd1_ne _ _ _ _ (StableHlo.devRef_ne_of_ne (by decide))
theorem hF3_5 (c : Dev nD) : (dat3 (tcOf (X7 m)) c).arrAt 5 cfg3.N = tcOf (X8 m) c (Pipeline.arrRef spec3 5) := by
  show _ = X8 m c (Proc.devRef .tc main_v46)
  unfold X8
  symm
  exact upd1_a _ _ _

/-- and for every window. -/
theorem hF3 (c : Dev nD) : ∀ w : Fin cfg3.W, (dat3 (tcOf (X7 m)) c).arrAt w cfg3.N = tcOf (X8 m) c (Pipeline.arrRef spec3 w)
  | ⟨0, h⟩ => by rw [show (⟨0, h⟩ : Fin cfg3.W) = (0 : Fin cfg3.W) from Fin.ext rfl]; exact hF3_0 m c
  | ⟨1, h⟩ => by rw [show (⟨1, h⟩ : Fin cfg3.W) = (1 : Fin cfg3.W) from Fin.ext rfl]; exact hF3_1 m c
  | ⟨2, h⟩ => by rw [show (⟨2, h⟩ : Fin cfg3.W) = (2 : Fin cfg3.W) from Fin.ext rfl]; exact hF3_2 m c
  | ⟨3, h⟩ => by rw [show (⟨3, h⟩ : Fin cfg3.W) = (3 : Fin cfg3.W) from Fin.ext rfl]; exact hF3_3 m c
  | ⟨4, h⟩ => by rw [show (⟨4, h⟩ : Fin cfg3.W) = (4 : Fin cfg3.W) from Fin.ext rfl]; exact hF3_4 m c
  | ⟨5, h⟩ => by rw [show (⟨5, h⟩ : Fin cfg3.W) = (5 : Fin cfg3.W) from Fin.ext rfl]; exact hF3_5 m c

/-- Every buffer that is no array of region 3 holds at its exit what it held at its entry. -/
theorem hrest3 (c : Dev nD) : ∀ b, b ∉ Finset.univ.image (Pipeline.arrRef spec3) → tcOf (X8 m) c b = tcOf (X7 m) c b :=
  fun b hb => by
    have h0 : b ≠ main_v46 := fun e => hb (by subst e; exact Finset.mem_image.mpr ⟨⟨5, by decide⟩, Finset.mem_univ _, rfl⟩)
    unfold X8; dsimp only [tcOf]
    exact upd1_ne _ _ _ _ (StableHlo.devRef_ne_of_ne h0)

set_option backward.isDefEq.respectTransparency.types false in
/-- Region 3 over the thread state: entered with every unscoped buffer at the contents before it, left with them at
    the contents after it; its arrays split out of the unscoped buffers and put back; the generator register into the
    invariant and out; nothing owed; no semaphore of the kernel's own. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (tcOf (X7 m)) c).loose
  hwaits := Pipeline.hwaits_of_owed_zero _ _ _ _ Lz lvz 3 fun _ _ => rfl
  pre c := iprop(StableHlo.held (c : Thread nD τ) (Pipeline.ucRefs τ sig) (X7 m c) ∗ Rz c)
  post c := iprop(StableHlo.held (c : Thread nD τ) (Pipeline.ucRefs τ sig) (X8 m c) ∗ Rz c)
  X c := iprop(∃ r, prngReg c r)
  Y c := iprop(∃ r, prngReg c r)
  Z c := Pipeline.unscopedRest (Ix := Unit) (Name := ℕ) (U := UR sig nD τ) (Lvl := ℕ) spec3 c (tcOf (X7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (tcOf (X7 m) c) fun w => A_eq3 (tcOf (X7 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 3).pre c (fun _ => fullShare) (adm (F := F) 3).1 ∗ Pipeline.scopedRest spec3 c)
        ⊢ (Pipeline.ΦA spec3 c : sProp 𝕄) := by
      unfold Pipeline.ΦA
      iintro ⟨Hp, -, Hr⟩
      isplitl [Hr]; · iexact Hr
      iexact Hp
    exact h.trans (show (Pipeline.ΦA spec3 c : sProp 𝕄) ⊢ (dat3 (tcOf (X7 m)) c).Φ 0 from .rfl)
  hout c := by
    rw [Pipeline.ownSems0_none]
    have h : (Pipeline.ΦA spec3 c : sProp 𝕄)
        ⊢ iprop(iprop(∃ r, prngReg c r) ∗ BI.emp ∗ Pipeline.scopedRest spec3 c) := by
      unfold Pipeline.ΦA
      iintro ⟨Hr, Hp⟩
      isplitl [Hp]; · iexact Hp
      isplitr; · iempintro
      iexact Hr
    exact (show (dat3 (tcOf (X7 m)) c).Φ (Fin.last cfg3.N) ⊢ (Pipeline.ΦA spec3 c : sProp 𝕄) from .rfl).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (tcOf (X7 m) c) (tcOf (X8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg4.lean ====
/-
  Region 4 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 4's exit each of its arrays holds what the pipeline leaves: an output's array by the update, an input's
    array its entry contents; window by window, -/
theorem hF4_0 (c : Dev nD) : (dat4 (tcOf (X9 m)) c).arrAt 0 cfg4.N = tcOf (X10 m) c (Pipeline.arrRef spec4 0) := by
  rw [(dat4 (tcOf (X9 m)) c).arrAt_in 0 rfl cfg4.N, A_eq4 (tcOf (X9 m)) c 0]
  show X9 m c (Proc.devRef .tc main_v46) = X10 m c (Proc.devRef .tc main_v46)
  unfold X10
  symm
  exact upd3_ne _ _ _ _ _ _ _ _ (StableHlo.devRef_ne_of_ne (by decide)) (StableHlo.devRef_ne_of_ne (by decide)) (StableHlo.devRef_ne_of_ne (by decide))
theorem hF4_1 (c : Dev nD) : (dat4 (tcOf (X9 m)) c).arrAt 1 cfg4.N = tcOf (X10 m) c (Pipeline.arrRef spec4 1) := by
  rw [(dat4 (tcOf (X9 m)) c).arrAt_in 1 rfl cfg4.N, A_eq4 (tcOf (X9 m)) c 1]
  show X9 m c (Proc.devRef .tc main_v56) = X10 m c (Proc.devRef .tc main_v56)
  unfold X10
  symm
  exact upd3_ne _ _ _ _ _ _ _ _ (StableHlo.devRef_ne_of_ne (by decide)) (StableHlo.devRef_ne_of_ne (by decide)) (StableHlo.devRef_ne_of_ne (by decide))
theorem hF4_2 (c : Dev nD) : (dat4 (tcOf (X9 m)) c).arrAt 2 cfg4.N = tcOf (X10 m) c (Pipeline.arrRef spec4 2) := by
  rw [(dat4 (tcOf (X9 m)) c).arrAt_in 2 rfl cfg4.N, A_eq4 (tcOf (X9 m)) c 2]
  show X9 m c (Proc.devRef .tc main_v64) = X10 m c (Proc.devRef .tc main_v64)
  unfold X10
  symm
  exact upd3_ne _ _ _ _ _ _ _ _ (StableHlo.devRef_ne_of_ne (by decide)) (StableHlo.devRef_ne_of_ne (by decide)) (StableHlo.devRef_ne_of_ne (by decide))
theorem hF4_3 (c : Dev nD) : (dat4 (tcOf (X9 m)) c).arrAt 3 cfg4.N = tcOf (X10 m) c (Pipeline.arrRef spec4 3) := by
  rw [(dat4 (tcOf (X9 m)) c).arrAt_in 3 rfl cfg4.N, A_eq4 (tcOf (X9 m)) c 3]
  show X9 m c (Proc.devRef .tc main_v60) = X10 m c (Proc.devRef .tc main_v60)
  unfold X10
  symm
  exact upd3_ne _ _ _ _ _ _ _ _ (StableHlo.devRef_ne_of_ne (by decide)) (StableHlo.devRef_ne_of_ne (by decide)) (StableHlo.devRef_ne_of_ne (by decide))
theorem hF4_4 (c : Dev nD) : (dat4 (tcOf (X9 m)) c).arrAt 4 cfg4.N = tcOf (X10 m) c (Pipeline.arrRef spec4 4) := by
  rw [(dat4 (tcOf (X9 m)) c).arrAt_in 4 rfl cfg4.N, A_eq4 (tcOf (X9 m)) c 4]
  show X9 m c (Proc.devRef .tc main_v65) = X10 m c (Proc.devRef .tc main_v65)
  unfold X10
  symm
  exact upd3_ne _ _ _ _ _ _ _ _ (StableHlo.devRef_ne_of_ne (by decide)) (StableHlo.devRef_ne_of_ne (by decide)) (StableHlo.devRef_ne_of_ne (by decide))
theorem hF4_5 (c : Dev nD) : (dat4 (tcOf (X9 m)) c).arrAt 5 cfg4.N = tcOf (X10 m) c (Pipeline.arrRef spec4 5) := by
  show _ = X10 m c (Proc.devRef .tc main_v66_0)
  unfold X10
  symm
  exact upd3_a _ _ _ _ _ _ _ (StableHlo.devRef_ne_of_ne (by decide)) (StableHlo.devRef_ne_of_ne (by decide))
theorem hF4_6 (c : Dev nD) : (dat4 (tcOf (X9 m)) c).arrAt 6 cfg4.N = tcOf (X10 m) c (Pipeline.arrRef spec4 6) := by
  show _ = X10 m c (Proc.devRef .tc main_v66_1)
  unfold X10
  symm
  exact upd3_b _ _ _ _ _ _ _ (StableHlo.devRef_ne_of_ne (by decide))
theorem hF4_7 (c : Dev nD) : (dat4 (tcOf (X9 m)) c).arrAt 7 cfg4.N = tcOf (X10 m) c (Pipeline.arrRef spec4 7) := by
  show _ = X10 m c (Proc.devRef .tc main_v66_2)
  unfold X10
  symm
  exact upd3_c _ _ _ _ _ _ _

/-- and for every window. -/
theorem hF4 (c : Dev nD) : ∀ w : Fin cfg4.W, (dat4 (tcOf (X9 m)) c).arrAt w cfg4.N = tcOf (X10 m) c (Pipeline.arrRef spec4 w)
  | ⟨0, h⟩ => by rw [show (⟨0, h⟩ : Fin cfg4.W) = (0 : Fin cfg4.W) from Fin.ext rfl]; exact hF4_0 m c
  | ⟨1, h⟩ => by rw [show (⟨1, h⟩ : Fin cfg4.W) = (1 : Fin cfg4.W) from Fin.ext rfl]; exact hF4_1 m c
  | ⟨2, h⟩ => by rw [show (⟨2, h⟩ : Fin cfg4.W) = (2 : Fin cfg4.W) from Fin.ext rfl]; exact hF4_2 m c
  | ⟨3, h⟩ => by rw [show (⟨3, h⟩ : Fin cfg4.W) = (3 : Fin cfg4.W) from Fin.ext rfl]; exact hF4_3 m c
  | ⟨4, h⟩ => by rw [show (⟨4, h⟩ : Fin cfg4.W) = (4 : Fin cfg4.W) from Fin.ext rfl]; exact hF4_4 m c
  | ⟨5, h⟩ => by rw [show (⟨5, h⟩ : Fin cfg4.W) = (5 : Fin cfg4.W) from Fin.ext rfl]; exact hF4_5 m c
  | ⟨6, h⟩ => by rw [show (⟨6, h⟩ : Fin cfg4.W) = (6 : Fin cfg4.W) from Fin.ext rfl]; exact hF4_6 m c
  | ⟨7, h⟩ => by rw [show (⟨7, h⟩ : Fin cfg4.W) = (7 : Fin cfg4.W) from Fin.ext rfl]; exact hF4_7 m c

/-- Every buffer that is no array of region 4 holds at its exit what it held at its entry. -/
theorem hrest4 (c : Dev nD) : ∀ b, b ∉ Finset.univ.image (Pipeline.arrRef spec4) → tcOf (X10 m) c b = tcOf (X9 m) c b :=
  fun b hb => by
    have h0 : b ≠ main_v66_0 := fun e => hb (by subst e; exact Finset.mem_image.mpr ⟨⟨5, by decide⟩, Finset.mem_univ _, rfl⟩)
    have h1 : b ≠ main_v66_1 := fun e => hb (by subst e; exact Finset.mem_image.mpr ⟨⟨6, by decide⟩, Finset.mem_univ _, rfl⟩)
    have h2 : b ≠ main_v66_2 := fun e => hb (by subst e; exact Finset.mem_image.mpr ⟨⟨7, by decide⟩, Finset.mem_univ _, rfl⟩)
    unfold X10; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 4 over the thread state: entered with every unscoped buffer at the contents before it, left with them at
    the contents after it; its arrays split out of the unscoped buffers and put back; the generator register into the
    invariant and out; nothing owed; no semaphore of the kernel's own. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (tcOf (X9 m)) c).loose
  hwaits := Pipeline.hwaits_of_owed_zero _ _ _ _ Lz lvz 4 fun _ _ => rfl
  pre c := iprop(StableHlo.held (c : Thread nD τ) (Pipeline.ucRefs τ sig) (X9 m c) ∗ Rz c)
  post c := iprop(StableHlo.held (c : Thread nD τ) (Pipeline.ucRefs τ sig) (X10 m c) ∗ Rz c)
  X c := iprop(∃ r, prngReg c r)
  Y c := iprop(∃ r, prngReg c r)
  Z c := Pipeline.unscopedRest (Ix := Unit) (Name := ℕ) (U := UR sig nD τ) (Lvl := ℕ) spec4 c (tcOf (X9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (tcOf (X9 m) c) fun w => A_eq4 (tcOf (X9 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 4).pre c (fun _ => fullShare) (adm (F := F) 4).1 ∗ Pipeline.scopedRest spec4 c)
        ⊢ (Pipeline.ΦA spec4 c : sProp 𝕄) := by
      unfold Pipeline.ΦA
      iintro ⟨Hp, -, Hr⟩
      isplitl [Hr]; · iexact Hr
      iexact Hp
    exact h.trans (hin4 (tcOf (X9 m)) c)
  hout c := by
    rw [Pipeline.ownSems0_none]
    have h : (Pipeline.ΦA spec4 c : sProp 𝕄)
        ⊢ iprop(iprop(∃ r, prngReg c r) ∗ BI.emp ∗ Pipeline.scopedRest spec4 c) := by
      unfold Pipeline.ΦA
      iintro ⟨Hr, Hp⟩
      isplitl [Hp]; · iexact Hp
      isplitr; · iempintro
      iexact Hr
    exact (hout4 (tcOf (X9 m)) c).trans h
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (tcOf (X9 m) c) (tcOf (X10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg5.lean ====
/-
  Region 5 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 5's exit each of its arrays holds what the pipeline leaves: an output's array by the update, an input's
    array its entry contents; window by window, -/
theorem hF5_0 (c : Dev nD) : (dat5 (tcOf (X11 m)) c).arrAt 0 cfg5.N = tcOf (X12 m) c (Pipeline.arrRef spec5 0) := by
  rw [(dat5 (tcOf (X11 m)) c).arrAt_in 0 rfl cfg5.N, A_eq5 (tcOf (X11 m)) c 0]
  show X11 m c (Proc.devRef .tc main_v66_0) = X12 m c (Proc.devRef .tc main_v66_0)
  unfold X12
  symm
  exact upd3_ne _ _ _ _ _ _ _ _ (StableHlo.devRef_ne_of_ne (by decide)) (StableHlo.devRef_ne_of_ne (by decide)) (StableHlo.devRef_ne_of_ne (by decide))
theorem hF5_1 (c : Dev nD) : (dat5 (tcOf (X11 m)) c).arrAt 1 cfg5.N = tcOf (X12 m) c (Pipeline.arrRef spec5 1) := by
  rw [(dat5 (tcOf (X11 m)) c).arrAt_in 1 rfl cfg5.N, A_eq5 (tcOf (X11 m)) c 1]
  show X11 m c (Proc.devRef .tc main_v66_1) = X12 m c (Proc.devRef .tc main_v66_1)
  unfold X12
  symm
  exact upd3_ne _ _ _ _ _ _ _ _ (StableHlo.devRef_ne_of_ne (by decide)) (StableHlo.devRef_ne_of_ne (by decide)) (StableHlo.devRef_ne_of_ne (by decide))
theorem hF5_2 (c : Dev nD) : (dat5 (tcOf (X11 m)) c).arrAt 2 cfg5.N = tcOf (X12 m) c (Pipeline.arrRef spec5 2) := by
  rw [(dat5 (tcOf (X11 m)) c).arrAt_in 2 rfl cfg5.N, A_eq5 (tcOf (X11 m)) c 2]
  show X11 m c (Proc.devRef .tc main_v66_2) = X12 m c (Proc.devRef .tc main_v66_2)
  unfold X12
  symm
  exact upd3_ne _ _ _ _ _ _ _ _ (StableHlo.devRef_ne_of_ne (by decide)) (StableHlo.devRef_ne_of_ne (by decide)) (StableHlo.devRef_ne_of_ne (by decide))
theorem hF5_3 (c : Dev nD) : (dat5 (tcOf (X11 m)) c).arrAt 3 cfg5.N = tcOf (X12 m) c (Pipeline.arrRef spec5 3) := by
  rw [(dat5 (tcOf (X11 m)) c).arrAt_in 3 rfl cfg5.N, A_eq5 (tcOf (X11 m)) c 3]
  show X11 m c (Proc.devRef .tc main_v75) = X12 m c (Proc.devRef .tc main_v75)
  unfold X12
  symm
  exact upd3_ne _ _ _ _ _ _ _ _ (StableHlo.devRef_ne_of_ne (by decide)) (StableHlo.devRef_ne_of_ne (by decide)) (StableHlo.devRef_ne_of_ne (by decide))
theorem hF5_4 (c : Dev nD) : (dat5 (tcOf (X11 m)) c).arrAt 4 cfg5.N = tcOf (X12 m) c (Pipeline.arrRef spec5 4) := by
  rw [(dat5 (tcOf (X11 m)) c).arrAt_in 4 rfl cfg5.N, A_eq5 (tcOf (X11 m)) c 4]
  show X11 m c (Proc.devRef .tc main_v76) = X12 m c (Proc.devRef .tc main_v76)
  unfold X12
  symm
  exact upd3_ne _ _ _ _ _ _ _ _ (StableHlo.devRef_ne_of_ne (by decide)) (StableHlo.devRef_ne_of_ne (by decide)) (StableHlo.devRef_ne_of_ne (by decide))
theorem hF5_5 (c : Dev nD) : (dat5 (tcOf (X11 m)) c).arrAt 5 cfg5.N = tcOf (X12 m) c (Pipeline.arrRef spec5 5) := by
  rw [(dat5 (tcOf (X11 m)) c).arrAt_in 5 rfl cfg5.N, A_eq5 (tcOf (X11 m)) c 5]
  show X11 m c (Proc.devRef .tc main_v72) = X12 m c (Proc.devRef .tc main_v72)
  unfold X12
  symm
  exact upd3_ne _ _ _ _ _ _ _ _ (StableHlo.devRef_ne_of_ne (by decide)) (StableHlo.devRef_ne_of_ne (by decide)) (StableHlo.devRef_ne_of_ne (by decide))
theorem hF5_6 (c : Dev nD) : (dat5 (tcOf (X11 m)) c).arrAt 6 cfg5.N = tcOf (X12 m) c (Pipeline.arrRef spec5 6) := by
  rw [(dat5 (tcOf (X11 m)) c).arrAt_in 6 rfl cfg5.N, A_eq5 (tcOf (X11 m)) c 6]
  show X11 m c (Proc.devRef .tc main_v77) = X12 m c (Proc.devRef .tc main_v77)
  unfold X12
  symm
  exact upd3_ne _ _ _ _ _ _ _ _ (StableHlo.devRef_ne_of_ne (by decide)) (StableHlo.devRef_ne_of_ne (by decide)) (StableHlo.devRef_ne_of_ne (by decide))
theorem hF5_7 (c : Dev nD) : (dat5 (tcOf (X11 m)) c).arrAt 7 cfg5.N = tcOf (X12 m) c (Pipeline.arrRef spec5 7) := by
  show _ = X12 m c (Proc.devRef .tc main_v78_0)
  unfold X12
  symm
  exact upd3_a _ _ _ _ _ _ _ (StableHlo.devRef_ne_of_ne (by decide)) (StableHlo.devRef_ne_of_ne (by decide))
theorem hF5_8 (c : Dev nD) : (dat5 (tcOf (X11 m)) c).arrAt 8 cfg5.N = tcOf (X12 m) c (Pipeline.arrRef spec5 8) := by
  show _ = X12 m c (Proc.devRef .tc main_v78_1)
  unfold X12
  symm
  exact upd3_b _ _ _ _ _ _ _ (StableHlo.devRef_ne_of_ne (by decide))
theorem hF5_9 (c : Dev nD) : (dat5 (tcOf (X11 m)) c).arrAt 9 cfg5.N = tcOf (X12 m) c (Pipeline.arrRef spec5 9) := by
  show _ = X12 m c (Proc.devRef .tc main_v78_2)
  unfold X12
  symm
  exact upd3_c _ _ _ _ _ _ _

/-- and for every window. -/
theorem hF5 (c : Dev nD) : ∀ w : Fin cfg5.W, (dat5 (tcOf (X11 m)) c).arrAt w cfg5.N = tcOf (X12 m) c (Pipeline.arrRef spec5 w)
  | ⟨0, h⟩ => by rw [show (⟨0, h⟩ : Fin cfg5.W) = (0 : Fin cfg5.W) from Fin.ext rfl]; exact hF5_0 m c
  | ⟨1, h⟩ => by rw [show (⟨1, h⟩ : Fin cfg5.W) = (1 : Fin cfg5.W) from Fin.ext rfl]; exact hF5_1 m c
  | ⟨2, h⟩ => by rw [show (⟨2, h⟩ : Fin cfg5.W) = (2 : Fin cfg5.W) from Fin.ext rfl]; exact hF5_2 m c
  | ⟨3, h⟩ => by rw [show (⟨3, h⟩ : Fin cfg5.W) = (3 : Fin cfg5.W) from Fin.ext rfl]; exact hF5_3 m c
  | ⟨4, h⟩ => by rw [show (⟨4, h⟩ : Fin cfg5.W) = (4 : Fin cfg5.W) from Fin.ext rfl]; exact hF5_4 m c
  | ⟨5, h⟩ => by rw [show (⟨5, h⟩ : Fin cfg5.W) = (5 : Fin cfg5.W) from Fin.ext rfl]; exact hF5_5 m c
  | ⟨6, h⟩ => by rw [show (⟨6, h⟩ : Fin cfg5.W) = (6 : Fin cfg5.W) from Fin.ext rfl]; exact hF5_6 m c
  | ⟨7, h⟩ => by rw [show (⟨7, h⟩ : Fin cfg5.W) = (7 : Fin cfg5.W) from Fin.ext rfl]; exact hF5_7 m c
  | ⟨8, h⟩ => by rw [show (⟨8, h⟩ : Fin cfg5.W) = (8 : Fin cfg5.W) from Fin.ext rfl]; exact hF5_8 m c
  | ⟨9, h⟩ => by rw [show (⟨9, h⟩ : Fin cfg5.W) = (9 : Fin cfg5.W) from Fin.ext rfl]; exact hF5_9 m c

/-- Every buffer that is no array of region 5 holds at its exit what it held at its entry. -/
theorem hrest5 (c : Dev nD) : ∀ b, b ∉ Finset.univ.image (Pipeline.arrRef spec5) → tcOf (X12 m) c b = tcOf (X11 m) c b :=
  fun b hb => by
    have h0 : b ≠ main_v78_0 := fun e => hb (by subst e; exact Finset.mem_image.mpr ⟨⟨7, by decide⟩, Finset.mem_univ _, rfl⟩)
    have h1 : b ≠ main_v78_1 := fun e => hb (by subst e; exact Finset.mem_image.mpr ⟨⟨8, by decide⟩, Finset.mem_univ _, rfl⟩)
    have h2 : b ≠ main_v78_2 := fun e => hb (by subst e; exact Finset.mem_image.mpr ⟨⟨9, by decide⟩, Finset.mem_univ _, rfl⟩)
    unfold X12; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 5 over the thread state: entered with every unscoped buffer at the contents before it, left with them at
    the contents after it; its arrays split out of the unscoped buffers and put back; the generator register into the
    invariant and out; nothing owed; no semaphore of the kernel's own. -/
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (tcOf (X11 m)) c).loose
  hwaits := Pipeline.hwaits_of_owed_zero _ _ _ _ Lz lvz 5 fun _ _ => rfl
  pre c := iprop(StableHlo.held (c : Thread nD τ) (Pipeline.ucRefs τ sig) (X11 m c) ∗ Rz c)
  post c := iprop(StableHlo.held (c : Thread nD τ) (Pipeline.ucRefs τ sig) (X12 m c) ∗ Rz c)
  X c := iprop(∃ r, prngReg c r)
  Y c := iprop(∃ r, prngReg c r)
  Z c := Pipeline.unscopedRest (Ix := Unit) (Name := ℕ) (U := UR sig nD τ) (Lvl := ℕ) spec5 c (tcOf (X11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (tcOf (X11 m) c) fun w => A_eq5 (tcOf (X11 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 5).pre c (fun _ => fullShare) (adm (F := F) 5).1 ∗ Pipeline.scopedRest spec5 c)
        ⊢ (Pipeline.ΦA spec5 c : sProp 𝕄) := by
      unfold Pipeline.ΦA
      iintro ⟨Hp, -, Hr⟩
      isplitl [Hr]; · iexact Hr
      iexact Hp
    exact h.trans (hin5 (tcOf (X11 m)) c)
  hout c := by
    rw [Pipeline.ownSems0_none]
    have h : (Pipeline.ΦA spec5 c : sProp 𝕄)
        ⊢ iprop(iprop(∃ r, prngReg c r) ∗ BI.emp ∗ Pipeline.scopedRest spec5 c) := by
      unfold Pipeline.ΦA
      iintro ⟨Hr, Hp⟩
      isplitl [Hp]; · iexact Hp
      isplitr; · iempintro
      iexact Hr
    exact (hout5 (tcOf (X11 m)) c).trans h
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (tcOf (X11 m) c) (tcOf (X12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg6.lean ====
/-
  Region 6 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 6's exit each of its arrays holds what the pipeline leaves: an output's array by the update, an input's
    array its entry contents; window by window, -/
theorem hF6_0 (c : Dev nD) : (dat6 (tcOf (X13 m)) c).arrAt 0 cfg6.N = tcOf (X14 m) c (Pipeline.arrRef spec6 0) := by
  rw [(dat6 (tcOf (X13 m)) c).arrAt_in 0 rfl cfg6.N, A_eq6 (tcOf (X13 m)) c 0]
  show X13 m c (Proc.devRef .tc main_v78_0) = X14 m c (Proc.devRef .tc main_v78_0)
  unfold X14
  symm
  exact upd1_ne _ _ _ _ (StableHlo.devRef_ne_of_ne (by decide))
theorem hF6_1 (c : Dev nD) : (dat6 (tcOf (X13 m)) c).arrAt 1 cfg6.N = tcOf (X14 m) c (Pipeline.arrRef spec6 1) := by
  rw [(dat6 (tcOf (X13 m)) c).arrAt_in 1 rfl cfg6.N, A_eq6 (tcOf (X13 m)) c 1]
  show X13 m c (Proc.devRef .tc main_v78_1) = X14 m c (Proc.devRef .tc main_v78_1)
  unfold X14
  symm
  exact upd1_ne _ _ _ _ (StableHlo.devRef_ne_of_ne (by decide))
theorem hF6_2 (c : Dev nD) : (dat6 (tcOf (X13 m)) c).arrAt 2 cfg6.N = tcOf (X14 m) c (Pipeline.arrRef spec6 2) := by
  rw [(dat6 (tcOf (X13 m)) c).arrAt_in 2 rfl cfg6.N, A_eq6 (tcOf (X13 m)) c 2]
  show X13 m c (Proc.devRef .tc main_v78_2) = X14 m c (Proc.devRef .tc main_v78_2)
  unfold X14
  symm
  exact upd1_ne _ _ _ _ (StableHlo.devRef_ne_of_ne (by decide))
theorem hF6_3 (c : Dev nD) : (dat6 (tcOf (X13 m)) c).arrAt 3 cfg6.N = tcOf (X14 m) c (Pipeline.arrRef spec6 3) := by
  rw [(dat6 (tcOf (X13 m)) c).arrAt_in 3 rfl cfg6.N, A_eq6 (tcOf (X13 m)) c 3]
  show X13 m c (Proc.devRef .tc main_v83) = X14 m c (Proc.devRef .tc main_v83)
  unfold X14
  symm
  exact upd1_ne _ _ _ _ (StableHlo.devRef_ne_of_ne (by decide))
theorem hF6_4 (c : Dev nD) : (dat6 (tcOf (X13 m)) c).arrAt 4 cfg6.N = tcOf (X14 m) c (Pipeline.arrRef spec6 4) := by
  rw [(dat6 (tcOf (X13 m)) c).arrAt_in 4 rfl cfg6.N, A_eq6 (tcOf (X13 m)) c 4]
  show X13 m c (Proc.devRef .tc main_v84) = X14 m c (Proc.devRef .tc main_v84)
  unfold X14
  symm
  exact upd1_ne _ _ _ _ (StableHlo.devRef_ne_of_ne (by decide))
theorem hF6_5 (c : Dev nD) : (dat6 (tcOf (X13 m)) c).arrAt 5 cfg6.N = tcOf (X14 m) c (Pipeline.arrRef spec6 5) := by
  show _ = X14 m c (Proc.devRef .tc main_v85)
  unfold X14
  symm
  exact upd1_a _ _ _

/-- and for every window. -/
theorem hF6 (c : Dev nD) : ∀ w : Fin cfg6.W, (dat6 (tcOf (X13 m)) c).arrAt w cfg6.N = tcOf (X14 m) c (Pipeline.arrRef spec6 w)
  | ⟨0, h⟩ => by rw [show (⟨0, h⟩ : Fin cfg6.W) = (0 : Fin cfg6.W) from Fin.ext rfl]; exact hF6_0 m c
  | ⟨1, h⟩ => by rw [show (⟨1, h⟩ : Fin cfg6.W) = (1 : Fin cfg6.W) from Fin.ext rfl]; exact hF6_1 m c
  | ⟨2, h⟩ => by rw [show (⟨2, h⟩ : Fin cfg6.W) = (2 : Fin cfg6.W) from Fin.ext rfl]; exact hF6_2 m c
  | ⟨3, h⟩ => by rw [show (⟨3, h⟩ : Fin cfg6.W) = (3 : Fin cfg6.W) from Fin.ext rfl]; exact hF6_3 m c
  | ⟨4, h⟩ => by rw [show (⟨4, h⟩ : Fin cfg6.W) = (4 : Fin cfg6.W) from Fin.ext rfl]; exact hF6_4 m c
  | ⟨5, h⟩ => by rw [show (⟨5, h⟩ : Fin cfg6.W) = (5 : Fin cfg6.W) from Fin.ext rfl]; exact hF6_5 m c

/-- Every buffer that is no array of region 6 holds at its exit what it held at its entry. -/
theorem hrest6 (c : Dev nD) : ∀ b, b ∉ Finset.univ.image (Pipeline.arrRef spec6) → tcOf (X14 m) c b = tcOf (X13 m) c b :=
  fun b hb => by
    have h0 : b ≠ main_v85 := fun e => hb (by subst e; exact Finset.mem_image.mpr ⟨⟨5, by decide⟩, Finset.mem_univ _, rfl⟩)
    unfold X14; dsimp only [tcOf]
    exact upd1_ne _ _ _ _ (StableHlo.devRef_ne_of_ne h0)

set_option backward.isDefEq.respectTransparency.types false in
/-- Region 6 over the thread state: entered with every unscoped buffer at the contents before it, left with them at
    the contents after it; its arrays split out of the unscoped buffers and put back; the generator register into the
    invariant and out; nothing owed; no semaphore of the kernel's own. -/
def reg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (tcOf (X13 m)) c).loose
  hwaits := Pipeline.hwaits_of_owed_zero _ _ _ _ Lz lvz 6 fun _ _ => rfl
  pre c := iprop(StableHlo.held (c : Thread nD τ) (Pipeline.ucRefs τ sig) (X13 m c) ∗ Rz c)
  post c := iprop(StableHlo.held (c : Thread nD τ) (Pipeline.ucRefs τ sig) (X14 m c) ∗ Rz c)
  X c := iprop(∃ r, prngReg c r)
  Y c := iprop(∃ r, prngReg c r)
  Z c := Pipeline.unscopedRest (Ix := Unit) (Name := ℕ) (U := UR sig nD τ) (Lvl := ℕ) spec6 c (tcOf (X13 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (tcOf (X13 m) c) fun w => A_eq6 (tcOf (X13 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 6).pre c (fun _ => fullShare) (adm (F := F) 6).1 ∗ Pipeline.scopedRest spec6 c)
        ⊢ (Pipeline.ΦA spec6 c : sProp 𝕄) := by
      unfold Pipeline.ΦA
      iintro ⟨Hp, -, Hr⟩
      isplitl [Hr]; · iexact Hr
      iexact Hp
    exact h.trans (show (Pipeline.ΦA spec6 c : sProp 𝕄) ⊢ (dat6 (tcOf (X13 m)) c).Φ 0 from .rfl)
  hout c := by
    rw [Pipeline.ownSems0_none]
    have h : (Pipeline.ΦA spec6 c : sProp 𝕄)
        ⊢ iprop(iprop(∃ r, prngReg c r) ∗ BI.emp ∗ Pipeline.scopedRest spec6 c) := by
      unfold Pipeline.ΦA
      iintro ⟨Hr, Hp⟩
      isplitl [Hp]; · iexact Hp
      isplitr; · iempintro
      iexact Hr
    exact (show (dat6 (tcOf (X13 m)) c).Φ (Fin.last cfg6.N) ⊢ (Pipeline.ΦA spec6 c : sProp 𝕄) from .rfl).trans h
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (tcOf (X13 m) c) (tcOf (X14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg7.lean ====
/-
  Region 7 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 7's exit each of its arrays holds what the pipeline leaves: an output's array by the update, an input's
    array its entry contents; window by window, -/
theorem hF7_0 (c : Dev nD) : (dat7 (tcOf (X15 m)) c).arrAt 0 cfg7.N = tcOf (X16 m) c (Pipeline.arrRef spec7 0) := by
  rw [(dat7 (tcOf (X15 m)) c).arrAt_in 0 rfl cfg7.N, A_eq7 (tcOf (X15 m)) c 0]
  show X15 m c (Proc.devRef .tc main_v85) = X16 m c (Proc.devRef .tc main_v85)
  unfold X16
  symm
  exact upd3_ne _ _ _ _ _ _ _ _ (StableHlo.devRef_ne_of_ne (by decide)) (StableHlo.devRef_ne_of_ne (by decide)) (StableHlo.devRef_ne_of_ne (by decide))
theorem hF7_1 (c : Dev nD) : (dat7 (tcOf (X15 m)) c).arrAt 1 cfg7.N = tcOf (X16 m) c (Pipeline.arrRef spec7 1) := by
  rw [(dat7 (tcOf (X15 m)) c).arrAt_in 1 rfl cfg7.N, A_eq7 (tcOf (X15 m)) c 1]
  show X15 m c (Proc.devRef .tc main_v95) = X16 m c (Proc.devRef .tc main_v95)
  unfold X16
  symm
  exact upd3_ne _ _ _ _ _ _ _ _ (StableHlo.devRef_ne_of_ne (by decide)) (StableHlo.devRef_ne_of_ne (by decide)) (StableHlo.devRef_ne_of_ne (by decide))
theorem hF7_2 (c : Dev nD) : (dat7 (tcOf (X15 m)) c).arrAt 2 cfg7.N = tcOf (X16 m) c (Pipeline.arrRef spec7 2) := by
  rw [(dat7 (tcOf (X15 m)) c).arrAt_in 2 rfl cfg7.N, A_eq7 (tcOf (X15 m)) c 2]
  show X15 m c (Proc.devRef .tc main_v103) = X16 m c (Proc.devRef .tc main_v103)
  unfold X16
  symm
  exact upd3_ne _ _ _ _ _ _ _ _ (StableHlo.devRef_ne_of_ne (by decide)) (StableHlo.devRef_ne_of_ne (by decide)) (StableHlo.devRef_ne_of_ne (by decide))
theorem hF7_3 (c : Dev nD) : (dat7 (tcOf (X15 m)) c).arrAt 3 cfg7.N = tcOf (X16 m) c (Pipeline.arrRef spec7 3) := by
  rw [(dat7 (tcOf (X15 m)) c).arrAt_in 3 rfl cfg7.N, A_eq7 (tcOf (X15 m)) c 3]
  show X15 m c (Proc.devRef .tc main_v99) = X16 m c (Proc.devRef .tc main_v99)
  unfold X16
  symm
  exact upd3_ne _ _ _ _ _ _ _ _ (StableHlo.devRef_ne_of_ne (by decide)) (StableHlo.devRef_ne_of_ne (by decide)) (StableHlo.devRef_ne_of_ne (by decide))
theorem hF7_4 (c : Dev nD) : (dat7 (tcOf (X15 m)) c).arrAt 4 cfg7.N = tcOf (X16 m) c (Pipeline.arrRef spec7 4) := by
  rw [(dat7 (tcOf (X15 m)) c).arrAt_in 4 rfl cfg7.N, A_eq7 (tcOf (X15 m)) c 4]
  show X15 m c (Proc.devRef .tc main_v104) = X16 m c (Proc.devRef .tc main_v104)
  unfold X16
  symm
  exact upd3_ne _ _ _ _ _ _ _ _ (StableHlo.devRef_ne_of_ne (by decide)) (StableHlo.devRef_ne_of_ne (by decide)) (StableHlo.devRef_ne_of_ne (by decide))
theorem hF7_5 (c : Dev nD) : (dat7 (tcOf (X15 m)) c).arrAt 5 cfg7.N = tcOf (X16 m) c (Pipeline.arrRef spec7 5) := by
  show _ = X16 m c (Proc.devRef .tc main_v105_0)
  unfold X16
  symm
  exact upd3_a _ _ _ _ _ _ _ (StableHlo.devRef_ne_of_ne (by decide)) (StableHlo.devRef_ne_of_ne (by decide))
theorem hF7_6 (c : Dev nD) : (dat7 (tcOf (X15 m)) c).arrAt 6 cfg7.N = tcOf (X16 m) c (Pipeline.arrRef spec7 6) := by
  show _ = X16 m c (Proc.devRef .tc main_v105_1)
  unfold X16
  symm
  exact upd3_b _ _ _ _ _ _ _ (StableHlo.devRef_ne_of_ne (by decide))
theorem hF7_7 (c : Dev nD) : (dat7 (tcOf (X15 m)) c).arrAt 7 cfg7.N = tcOf (X16 m) c (Pipeline.arrRef spec7 7) := by
  show _ = X16 m c (Proc.devRef .tc main_v105_2)
  unfold X16
  symm
  exact upd3_c _ _ _ _ _ _ _

/-- and for every window. -/
theorem hF7 (c : Dev nD) : ∀ w : Fin cfg7.W, (dat7 (tcOf (X15 m)) c).arrAt w cfg7.N = tcOf (X16 m) c (Pipeline.arrRef spec7 w)
  | ⟨0, h⟩ => by rw [show (⟨0, h⟩ : Fin cfg7.W) = (0 : Fin cfg7.W) from Fin.ext rfl]; exact hF7_0 m c
  | ⟨1, h⟩ => by rw [show (⟨1, h⟩ : Fin cfg7.W) = (1 : Fin cfg7.W) from Fin.ext rfl]; exact hF7_1 m c
  | ⟨2, h⟩ => by rw [show (⟨2, h⟩ : Fin cfg7.W) = (2 : Fin cfg7.W) from Fin.ext rfl]; exact hF7_2 m c
  | ⟨3, h⟩ => by rw [show (⟨3, h⟩ : Fin cfg7.W) = (3 : Fin cfg7.W) from Fin.ext rfl]; exact hF7_3 m c
  | ⟨4, h⟩ => by rw [show (⟨4, h⟩ : Fin cfg7.W) = (4 : Fin cfg7.W) from Fin.ext rfl]; exact hF7_4 m c
  | ⟨5, h⟩ => by rw [show (⟨5, h⟩ : Fin cfg7.W) = (5 : Fin cfg7.W) from Fin.ext rfl]; exact hF7_5 m c
  | ⟨6, h⟩ => by rw [show (⟨6, h⟩ : Fin cfg7.W) = (6 : Fin cfg7.W) from Fin.ext rfl]; exact hF7_6 m c
  | ⟨7, h⟩ => by rw [show (⟨7, h⟩ : Fin cfg7.W) = (7 : Fin cfg7.W) from Fin.ext rfl]; exact hF7_7 m c

/-- Every buffer that is no array of region 7 holds at its exit what it held at its entry. -/
theorem hrest7 (c : Dev nD) : ∀ b, b ∉ Finset.univ.image (Pipeline.arrRef spec7) → tcOf (X16 m) c b = tcOf (X15 m) c b :=
  fun b hb => by
    have h0 : b ≠ main_v105_0 := fun e => hb (by subst e; exact Finset.mem_image.mpr ⟨⟨5, by decide⟩, Finset.mem_univ _, rfl⟩)
    have h1 : b ≠ main_v105_1 := fun e => hb (by subst e; exact Finset.mem_image.mpr ⟨⟨6, by decide⟩, Finset.mem_univ _, rfl⟩)
    have h2 : b ≠ main_v105_2 := fun e => hb (by subst e; exact Finset.mem_image.mpr ⟨⟨7, by decide⟩, Finset.mem_univ _, rfl⟩)
    unfold X16; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 7 over the thread state: entered with every unscoped buffer at the contents before it, left with them at
    the contents after it; its arrays split out of the unscoped buffers and put back; the generator register into the
    invariant and out; nothing owed; no semaphore of the kernel's own. -/
def reg7 : Pipeline.RegionSeg (pcfgs (F := F)) adm (pdats m) () defs₀ Variants.none Lz lvz 7 where
  win := launch7.win.to₀
  block_pos := launch7.block_pos
  stage_whole := launch7.stage_whole
  K := PEmpty
  osem k := k.elim
  ho := Pipeline.OwnSemFacts.none _
  hbody c := (body_obligation7 (tcOf (X15 m)) c).loose
  hwaits := Pipeline.hwaits_of_owed_zero _ _ _ _ Lz lvz 7 fun _ _ => rfl
  pre c := iprop(StableHlo.held (c : Thread nD τ) (Pipeline.ucRefs τ sig) (X15 m c) ∗ Rz c)
  post c := iprop(StableHlo.held (c : Thread nD τ) (Pipeline.ucRefs τ sig) (X16 m c) ∗ Rz c)
  X c := iprop(∃ r, prngReg c r)
  Y c := iprop(∃ r, prngReg c r)
  Z c := Pipeline.unscopedRest (Ix := Unit) (Name := ℕ) (U := UR sig nD τ) (Lvl := ℕ) spec7 c (tcOf (X15 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (tcOf (X15 m) c) fun w => A_eq7 (tcOf (X15 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 7).pre c (fun _ => fullShare) (adm (F := F) 7).1 ∗ Pipeline.scopedRest spec7 c)
        ⊢ (Pipeline.ΦA spec7 c : sProp 𝕄) := by
      unfold Pipeline.ΦA
      iintro ⟨Hp, -, Hr⟩
      isplitl [Hr]; · iexact Hr
      iexact Hp
    exact h.trans (hin7 (tcOf (X15 m)) c)
  hout c := by
    rw [Pipeline.ownSems0_none]
    have h : (Pipeline.ΦA spec7 c : sProp 𝕄)
        ⊢ iprop(iprop(∃ r, prngReg c r) ∗ BI.emp ∗ Pipeline.scopedRest spec7 c) := by
      unfold Pipeline.ΦA
      iintro ⟨Hr, Hp⟩
      isplitl [Hp]; · iexact Hp
      isplitr; · iempintro
      iexact Hr
    exact (hout7 (tcOf (X15 m)) c).trans h
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (tcOf (X15 m) c) (tcOf (X16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg8.lean ====
/-
  Region 8 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 8's exit each of its arrays holds what the pipeline leaves: an output's array by the update, an input's
    array its entry contents; window by window, -/
theorem hF8_0 (c : Dev nD) : (dat8 (tcOf (X17 m)) c).arrAt 0 cfg8.N = tcOf (X18 m) c (Pipeline.arrRef spec8 0) := by
  rw [(dat8 (tcOf (X17 m)) c).arrAt_in 0 rfl cfg8.N, A_eq8 (tcOf (X17 m)) c 0]
  show X17 m c (Proc.devRef .tc main_v105_0) = X18 m c (Proc.devRef .tc main_v105_0)
  unfold X18
  symm
  exact upd3_ne _ _ _ _ _ _ _ _ (StableHlo.devRef_ne_of_ne (by decide)) (StableHlo.devRef_ne_of_ne (by decide)) (StableHlo.devRef_ne_of_ne (by decide))
theorem hF8_1 (c : Dev nD) : (dat8 (tcOf (X17 m)) c).arrAt 1 cfg8.N = tcOf (X18 m) c (Pipeline.arrRef spec8 1) := by
  rw [(dat8 (tcOf (X17 m)) c).arrAt_in 1 rfl cfg8.N, A_eq8 (tcOf (X17 m)) c 1]
  show X17 m c (Proc.devRef .tc main_v105_1) = X18 m c (Proc.devRef .tc main_v105_1)
  unfold X18
  symm
  exact upd3_ne _ _ _ _ _ _ _ _ (StableHlo.devRef_ne_of_ne (by decide)) (StableHlo.devRef_ne_of_ne (by decide)) (StableHlo.devRef_ne_of_ne (by decide))
theorem hF8_2 (c : Dev nD) : (dat8 (tcOf (X17 m)) c).arrAt 2 cfg8.N = tcOf (X18 m) c (Pipeline.arrRef spec8 2) := by
  rw [(dat8 (tcOf (X17 m)) c).arrAt_in 2 rfl cfg8.N, A_eq8 (tcOf (X17 m)) c 2]
  show X17 m c (Proc.devRef .tc main_v105_2) = X18 m c (Proc.devRef .tc main_v105_2)
  unfold X18
  symm
  exact upd3_ne _ _ _ _ _ _ _ _ (StableHlo.devRef_ne_of_ne (by decide)) (StableHlo.devRef_ne_of_ne (by decide)) (StableHlo.devRef_ne_of_ne (by decide))
theorem hF8_3 (c : Dev nD) : (dat8 (tcOf (X17 m)) c).arrAt 3 cfg8.N = tcOf (X18 m) c (Pipeline.arrRef spec8 3) := by
  rw [(dat8 (tcOf (X17 m)) c).arrAt_in 3 rfl cfg8.N, A_eq8 (tcOf (X17 m)) c 3]
  show X17 m c (Proc.devRef .tc main_v114) = X18 m c (Proc.devRef .tc main_v114)
  unfold X18
  symm
  exact upd3_ne _ _ _ _ _ _ _ _ (StableHlo.devRef_ne_of_ne (by decide)) (StableHlo.devRef_ne_of_ne (by decide)) (StableHlo.devRef_ne_of_ne (by decide))
theorem hF8_4 (c : Dev nD) : (dat8 (tcOf (X17 m)) c).arrAt 4 cfg8.N = tcOf (X18 m) c (Pipeline.arrRef spec8 4) := by
  rw [(dat8 (tcOf (X17 m)) c).arrAt_in 4 rfl cfg8.N, A_eq8 (tcOf (X17 m)) c 4]
  show X17 m c (Proc.devRef .tc main_v115) = X18 m c (Proc.devRef .tc main_v115)
  unfold X18
  symm
  exact upd3_ne _ _ _ _ _ _ _ _ (StableHlo.devRef_ne_of_ne (by decide)) (StableHlo.devRef_ne_of_ne (by decide)) (StableHlo.devRef_ne_of_ne (by decide))
theorem hF8_5 (c : Dev nD) : (dat8 (tcOf (X17 m)) c).arrAt 5 cfg8.N = tcOf (X18 m) c (Pipeline.arrRef spec8 5) := by
  rw [(dat8 (tcOf (X17 m)) c).arrAt_in 5 rfl cfg8.N, A_eq8 (tcOf (X17 m)) c 5]
  show X17 m c (Proc.devRef .tc main_v111) = X18 m c (Proc.devRef .tc main_v111)
  unfold X18
  symm
  exact upd3_ne _ _ _ _ _ _ _ _ (StableHlo.devRef_ne_of_ne (by decide)) (StableHlo.devRef_ne_of_ne (by decide)) (StableHlo.devRef_ne_of_ne (by decide))
theorem hF8_6 (c : Dev nD) : (dat8 (tcOf (X17 m)) c).arrAt 6 cfg8.N = tcOf (X18 m) c (Pipeline.arrRef spec8 6) := by
  rw [(dat8 (tcOf (X17 m)) c).arrAt_in 6 rfl cfg8.N, A_eq8 (tcOf (X17 m)) c 6]
  show X17 m c (Proc.devRef .tc main_v116) = X18 m c (Proc.devRef .tc main_v116)
  unfold X18
  symm
  exact upd3_ne _ _ _ _ _ _ _ _ (StableHlo.devRef_ne_of_ne (by decide)) (StableHlo.devRef_ne_of_ne (by decide)) (StableHlo.devRef_ne_of_ne (by decide))
theorem hF8_7 (c : Dev nD) : (dat8 (tcOf (X17 m)) c).arrAt 7 cfg8.N = tcOf (X18 m) c (Pipeline.arrRef spec8 7) := by
  show _ = X18 m c (Proc.devRef .tc main_v117_0)
  unfold X18
  symm
  exact upd3_a _ _ _ _ _ _ _ (StableHlo.devRef_ne_of_ne (by decide)) (StableHlo.devRef_ne_of_ne (by decide))
theorem hF8_8 (c : Dev nD) : (dat8 (tcOf (X17 m)) c).arrAt 8 cfg8.N = tcOf (X18 m) c (Pipeline.arrRef spec8 8) := by
  show _ = X18 m c (Proc.devRef .tc main_v117_1)
  unfold X18
  symm
  exact upd3_b _ _ _ _ _ _ _ (StableHlo.devRef_ne_of_ne (by decide))
theorem hF8_9 (c : Dev nD) : (dat8 (tcOf (X17 m)) c).arrAt 9 cfg8.N = tcOf (X18 m) c (Pipeline.arrRef spec8 9) := by
  show _ = X18 m c (Proc.devRef .tc main_v117_2)
  unfold X18
  symm
  exact upd3_c _ _ _ _ _ _ _

/-- and for every window. -/
theorem hF8 (c : Dev nD) : ∀ w : Fin cfg8.W, (dat8 (tcOf (X17 m)) c).arrAt w cfg8.N = tcOf (X18 m) c (Pipeline.arrRef spec8 w)
  | ⟨0, h⟩ => by rw [show (⟨0, h⟩ : Fin cfg8.W) = (0 : Fin cfg8.W) from Fin.ext rfl]; exact hF8_0 m c
  | ⟨1, h⟩ => by rw [show (⟨1, h⟩ : Fin cfg8.W) = (1 : Fin cfg8.W) from Fin.ext rfl]; exact hF8_1 m c
  | ⟨2, h⟩ => by rw [show (⟨2, h⟩ : Fin cfg8.W) = (2 : Fin cfg8.W) from Fin.ext rfl]; exact hF8_2 m c
  | ⟨3, h⟩ => by rw [show (⟨3, h⟩ : Fin cfg8.W) = (3 : Fin cfg8.W) from Fin.ext rfl]; exact hF8_3 m c
  | ⟨4, h⟩ => by rw [show (⟨4, h⟩ : Fin cfg8.W) = (4 : Fin cfg8.W) from Fin.ext rfl]; exact hF8_4 m c
  | ⟨5, h⟩ => by rw [show (⟨5, h⟩ : Fin cfg8.W) = (5 : Fin cfg8.W) from Fin.ext rfl]; exact hF8_5 m c
  | ⟨6, h⟩ => by rw [show (⟨6, h⟩ : Fin cfg8.W) = (6 : Fin cfg8.W) from Fin.ext rfl]; exact hF8_6 m c
  | ⟨7, h⟩ => by rw [show (⟨7, h⟩ : Fin cfg8.W) = (7 : Fin cfg8.W) from Fin.ext rfl]; exact hF8_7 m c
  | ⟨8, h⟩ => by rw [show (⟨8, h⟩ : Fin cfg8.W) = (8 : Fin cfg8.W) from Fin.ext rfl]; exact hF8_8 m c
  | ⟨9, h⟩ => by rw [show (⟨9, h⟩ : Fin cfg8.W) = (9 : Fin cfg8.W) from Fin.ext rfl]; exact hF8_9 m c

/-- Every buffer that is no array of region 8 holds at its exit what it held at its entry. -/
theorem hrest8 (c : Dev nD) : ∀ b, b ∉ Finset.univ.image (Pipeline.arrRef spec8) → tcOf (X18 m) c b = tcOf (X17 m) c b :=
  fun b hb => by
    have h0 : b ≠ main_v117_0 := fun e => hb (by subst e; exact Finset.mem_image.mpr ⟨⟨7, by decide⟩, Finset.mem_univ _, rfl⟩)
    have h1 : b ≠ main_v117_1 := fun e => hb (by subst e; exact Finset.mem_image.mpr ⟨⟨8, by decide⟩, Finset.mem_univ _, rfl⟩)
    have h2 : b ≠ main_v117_2 := fun e => hb (by subst e; exact Finset.mem_image.mpr ⟨⟨9, by decide⟩, Finset.mem_univ _, rfl⟩)
    unfold X18; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 8 over the thread state: entered with every unscoped buffer at the contents before it, left with them at
    the contents after it; its arrays split out of the unscoped buffers and put back; the generator register into the
    invariant and out; nothing owed; no semaphore of the kernel's own. -/
def reg8 : Pipeline.RegionSeg (pcfgs (F := F)) adm (pdats m) () defs₀ Variants.none Lz lvz 8 where
  win := launch8.win.to₀
  block_pos := launch8.block_pos
  stage_whole := launch8.stage_whole
  K := PEmpty
  osem k := k.elim
  ho := Pipeline.OwnSemFacts.none _
  hbody c := (body_obligation8 (tcOf (X17 m)) c).loose
  hwaits := Pipeline.hwaits_of_owed_zero _ _ _ _ Lz lvz 8 fun _ _ => rfl
  pre c := iprop(StableHlo.held (c : Thread nD τ) (Pipeline.ucRefs τ sig) (X17 m c) ∗ Rz c)
  post c := iprop(StableHlo.held (c : Thread nD τ) (Pipeline.ucRefs τ sig) (X18 m c) ∗ Rz c)
  X c := iprop(∃ r, prngReg c r)
  Y c := iprop(∃ r, prngReg c r)
  Z c := Pipeline.unscopedRest (Ix := Unit) (Name := ℕ) (U := UR sig nD τ) (Lvl := ℕ) spec8 c (tcOf (X17 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (tcOf (X17 m) c) fun w => A_eq8 (tcOf (X17 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 8).pre c (fun _ => fullShare) (adm (F := F) 8).1 ∗ Pipeline.scopedRest spec8 c)
        ⊢ (Pipeline.ΦA spec8 c : sProp 𝕄) := by
      unfold Pipeline.ΦA
      iintro ⟨Hp, -, Hr⟩
      isplitl [Hr]; · iexact Hr
      iexact Hp
    exact h.trans (hin8 (tcOf (X17 m)) c)
  hout c := by
    rw [Pipeline.ownSems0_none]
    have h : (Pipeline.ΦA spec8 c : sProp 𝕄)
        ⊢ iprop(iprop(∃ r, prngReg c r) ∗ BI.emp ∗ Pipeline.scopedRest spec8 c) := by
      unfold Pipeline.ΦA
      iintro ⟨Hr, Hp⟩
      isplitl [Hp]; · iexact Hp
      isplitr; · iempintro
      iexact Hr
    exact (hout8 (tcOf (X17 m)) c).trans h
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (tcOf (X17 m) c) (tcOf (X18 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg9.lean ====
/-
  Region 9 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 9's exit each of its arrays holds what the pipeline leaves: an output's array by the update, an input's
    array its entry contents; window by window, -/
theorem hF9_0 (c : Dev nD) : (dat9 (tcOf (X19 m)) c).arrAt 0 cfg9.N = tcOf (X20 m) c (Pipeline.arrRef spec9 0) := by
  rw [(dat9 (tcOf (X19 m)) c).arrAt_in 0 rfl cfg9.N, A_eq9 (tcOf (X19 m)) c 0]
  show X19 m c (Proc.devRef .tc main_v117_0) = X20 m c (Proc.devRef .tc main_v117_0)
  unfold X20
  symm
  exact upd1_ne _ _ _ _ (StableHlo.devRef_ne_of_ne (by decide))
theorem hF9_1 (c : Dev nD) : (dat9 (tcOf (X19 m)) c).arrAt 1 cfg9.N = tcOf (X20 m) c (Pipeline.arrRef spec9 1) := by
  rw [(dat9 (tcOf (X19 m)) c).arrAt_in 1 rfl cfg9.N, A_eq9 (tcOf (X19 m)) c 1]
  show X19 m c (Proc.devRef .tc main_v117_1) = X20 m c (Proc.devRef .tc main_v117_1)
  unfold X20
  symm
  exact upd1_ne _ _ _ _ (StableHlo.devRef_ne_of_ne (by decide))
theorem hF9_2 (c : Dev nD) : (dat9 (tcOf (X19 m)) c).arrAt 2 cfg9.N = tcOf (X20 m) c (Pipeline.arrRef spec9 2) := by
  rw [(dat9 (tcOf (X19 m)) c).arrAt_in 2 rfl cfg9.N, A_eq9 (tcOf (X19 m)) c 2]
  show X19 m c (Proc.devRef .tc main_v117_2) = X20 m c (Proc.devRef .tc main_v117_2)
  unfold X20
  symm
  exact upd1_ne _ _ _ _ (StableHlo.devRef_ne_of_ne (by decide))
theorem hF9_3 (c : Dev nD) : (dat9 (tcOf (X19 m)) c).arrAt 3 cfg9.N = tcOf (X20 m) c (Pipeline.arrRef spec9 3) := by
  rw [(dat9 (tcOf (X19 m)) c).arrAt_in 3 rfl cfg9.N, A_eq9 (tcOf (X19 m)) c 3]
  show X19 m c (Proc.devRef .tc main_v122) = X20 m c (Proc.devRef .tc main_v122)
  unfold X20
  symm
  exact upd1_ne _ _ _ _ (StableHlo.devRef_ne_of_ne (by decide))
theorem hF9_4 (c : Dev nD) : (dat9 (tcOf (X19 m)) c).arrAt 4 cfg9.N = tcOf (X20 m) c (Pipeline.arrRef spec9 4) := by
  rw [(dat9 (tcOf (X19 m)) c).arrAt_in 4 rfl cfg9.N, A_eq9 (tcOf (X19 m)) c 4]
  show X19 m c (Proc.devRef .tc main_v123) = X20 m c (Proc.devRef .tc main_v123)
  unfold X20
  symm
  exact upd1_ne _ _ _ _ (StableHlo.devRef_ne_of_ne (by decide))
theorem hF9_5 (c : Dev nD) : (dat9 (tcOf (X19 m)) c).arrAt 5 cfg9.N = tcOf (X20 m) c (Pipeline.arrRef spec9 5) := by
  show _ = X20 m c (Proc.devRef .tc main_v124)
  unfold X20
  symm
  exact upd1_a _ _ _

/-- and for every window. -/
theorem hF9 (c : Dev nD) : ∀ w : Fin cfg9.W, (dat9 (tcOf (X19 m)) c).arrAt w cfg9.N = tcOf (X20 m) c (Pipeline.arrRef spec9 w)
  | ⟨0, h⟩ => by rw [show (⟨0, h⟩ : Fin cfg9.W) = (0 : Fin cfg9.W) from Fin.ext rfl]; exact hF9_0 m c
  | ⟨1, h⟩ => by rw [show (⟨1, h⟩ : Fin cfg9.W) = (1 : Fin cfg9.W) from Fin.ext rfl]; exact hF9_1 m c
  | ⟨2, h⟩ => by rw [show (⟨2, h⟩ : Fin cfg9.W) = (2 : Fin cfg9.W) from Fin.ext rfl]; exact hF9_2 m c
  | ⟨3, h⟩ => by rw [show (⟨3, h⟩ : Fin cfg9.W) = (3 : Fin cfg9.W) from Fin.ext rfl]; exact hF9_3 m c
  | ⟨4, h⟩ => by rw [show (⟨4, h⟩ : Fin cfg9.W) = (4 : Fin cfg9.W) from Fin.ext rfl]; exact hF9_4 m c
  | ⟨5, h⟩ => by rw [show (⟨5, h⟩ : Fin cfg9.W) = (5 : Fin cfg9.W) from Fin.ext rfl]; exact hF9_5 m c

/-- Every buffer that is no array of region 9 holds at its exit what it held at its entry. -/
theorem hrest9 (c : Dev nD) : ∀ b, b ∉ Finset.univ.image (Pipeline.arrRef spec9) → tcOf (X20 m) c b = tcOf (X19 m) c b :=
  fun b hb => by
    have h0 : b ≠ main_v124 := fun e => hb (by subst e; exact Finset.mem_image.mpr ⟨⟨5, by decide⟩, Finset.mem_univ _, rfl⟩)
    unfold X20; dsimp only [tcOf]
    exact upd1_ne _ _ _ _ (StableHlo.devRef_ne_of_ne h0)

set_option backward.isDefEq.respectTransparency.types false in
/-- Region 9 over the thread state: entered with every unscoped buffer at the contents before it, left with them at
    the contents after it; its arrays split out of the unscoped buffers and put back; the generator register into the
    invariant and out; nothing owed; no semaphore of the kernel's own. -/
def reg9 : Pipeline.RegionSeg (pcfgs (F := F)) adm (pdats m) () defs₀ Variants.none Lz lvz 9 where
  win := launch9.win.to₀
  block_pos := launch9.block_pos
  stage_whole := launch9.stage_whole
  K := PEmpty
  osem k := k.elim
  ho := Pipeline.OwnSemFacts.none _
  hbody c := (body_obligation9 (tcOf (X19 m)) c).loose
  hwaits := Pipeline.hwaits_of_owed_zero _ _ _ _ Lz lvz 9 fun _ _ => rfl
  pre c := iprop(StableHlo.held (c : Thread nD τ) (Pipeline.ucRefs τ sig) (X19 m c) ∗ Rz c)
  post c := iprop(StableHlo.held (c : Thread nD τ) (Pipeline.ucRefs τ sig) (X20 m c) ∗ Rz c)
  X c := iprop(∃ r, prngReg c r)
  Y c := iprop(∃ r, prngReg c r)
  Z c := Pipeline.unscopedRest (Ix := Unit) (Name := ℕ) (U := UR sig nD τ) (Lvl := ℕ) spec9 c (tcOf (X19 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (tcOf (X19 m) c) fun w => A_eq9 (tcOf (X19 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 9).pre c (fun _ => fullShare) (adm (F := F) 9).1 ∗ Pipeline.scopedRest spec9 c)
        ⊢ (Pipeline.ΦA spec9 c : sProp 𝕄) := by
      unfold Pipeline.ΦA
      iintro ⟨Hp, -, Hr⟩
      isplitl [Hr]; · iexact Hr
      iexact Hp
    exact h.trans (show (Pipeline.ΦA spec9 c : sProp 𝕄) ⊢ (dat9 (tcOf (X19 m)) c).Φ 0 from .rfl)
  hout c := by
    rw [Pipeline.ownSems0_none]
    have h : (Pipeline.ΦA spec9 c : sProp 𝕄)
        ⊢ iprop(iprop(∃ r, prngReg c r) ∗ BI.emp ∗ Pipeline.scopedRest spec9 c) := by
      unfold Pipeline.ΦA
      iintro ⟨Hr, Hp⟩
      isplitl [Hp]; · iexact Hp
      isplitr; · iempintro
      iexact Hr
    exact (show (dat9 (tcOf (X19 m)) c).Φ (Fin.last cfg9.N) ⊢ (Pipeline.ΦA spec9 c : sProp 𝕄) from .rfl).trans h
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (tcOf (X19 m) c) (tcOf (X20 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg10.lean ====
/-
  Region 10 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 10's exit each of its arrays holds what the pipeline leaves: an output's array by the update, an input's
    array its entry contents; window by window, -/
theorem hF10_0 (c : Dev nD) : (dat10 (tcOf (X21 m)) c).arrAt 0 cfg10.N = tcOf (X22 m) c (Pipeline.arrRef spec10 0) := by
  rw [(dat10 (tcOf (X21 m)) c).arrAt_in 0 rfl cfg10.N, A_eq10 (tcOf (X21 m)) c 0]
  show X21 m c (Proc.devRef .tc main_v124) = X22 m c (Proc.devRef .tc main_v124)
  unfold X22
  symm
  exact upd3_ne _ _ _ _ _ _ _ _ (StableHlo.devRef_ne_of_ne (by decide)) (StableHlo.devRef_ne_of_ne (by decide)) (StableHlo.devRef_ne_of_ne (by decide))
theorem hF10_1 (c : Dev nD) : (dat10 (tcOf (X21 m)) c).arrAt 1 cfg10.N = tcOf (X22 m) c (Pipeline.arrRef spec10 1) := by
  rw [(dat10 (tcOf (X21 m)) c).arrAt_in 1 rfl cfg10.N, A_eq10 (tcOf (X21 m)) c 1]
  show X21 m c (Proc.devRef .tc main_v134) = X22 m c (Proc.devRef .tc main_v134)
  unfold X22
  symm
  exact upd3_ne _ _ _ _ _ _ _ _ (StableHlo.devRef_ne_of_ne (by decide)) (StableHlo.devRef_ne_of_ne (by decide)) (StableHlo.devRef_ne_of_ne (by decide))
theorem hF10_2 (c : Dev nD) : (dat10 (tcOf (X21 m)) c).arrAt 2 cfg10.N = tcOf (X22 m) c (Pipeline.arrRef spec10 2) := by
  rw [(dat10 (tcOf (X21 m)) c).arrAt_in 2 rfl cfg10.N, A_eq10 (tcOf (X21 m)) c 2]
  show X21 m c (Proc.devRef .tc main_v142) = X22 m c (Proc.devRef .tc main_v142)
  unfold X22
  symm
  exact upd3_ne _ _ _ _ _ _ _ _ (StableHlo.devRef_ne_of_ne (by decide)) (StableHlo.devRef_ne_of_ne (by decide)) (StableHlo.devRef_ne_of_ne (by decide))
theorem hF10_3 (c : Dev nD) : (dat10 (tcOf (X21 m)) c).arrAt 3 cfg10.N = tcOf (X22 m) c (Pipeline.arrRef spec10 3) := by
  rw [(dat10 (tcOf (X21 m)) c).arrAt_in 3 rfl cfg10.N, A_eq10 (tcOf (X21 m)) c 3]
  show X21 m c (Proc.devRef .tc main_v138) = X22 m c (Proc.devRef .tc main_v138)
  unfold X22
  symm
  exact upd3_ne _ _ _ _ _ _ _ _ (StableHlo.devRef_ne_of_ne (by decide)) (StableHlo.devRef_ne_of_ne (by decide)) (StableHlo.devRef_ne_of_ne (by decide))
theorem hF10_4 (c : Dev nD) : (dat10 (tcOf (X21 m)) c).arrAt 4 cfg10.N = tcOf (X22 m) c (Pipeline.arrRef spec10 4) := by
  rw [(dat10 (tcOf (X21 m)) c).arrAt_in 4 rfl cfg10.N, A_eq10 (tcOf (X21 m)) c 4]
  show X21 m c (Proc.devRef .tc main_v143) = X22 m c (Proc.devRef .tc main_v143)
  unfold X22
  symm
  exact upd3_ne _ _ _ _ _ _ _ _ (StableHlo.devRef_ne_of_ne (by decide)) (StableHlo.devRef_ne_of_ne (by decide)) (StableHlo.devRef_ne_of_ne (by decide))
theorem hF10_5 (c : Dev nD) : (dat10 (tcOf (X21 m)) c).arrAt 5 cfg10.N = tcOf (X22 m) c (Pipeline.arrRef spec10 5) := by
  show _ = X22 m c (Proc.devRef .tc main_v144_0)
  unfold X22
  symm
  exact upd3_a _ _ _ _ _ _ _ (StableHlo.devRef_ne_of_ne (by decide)) (StableHlo.devRef_ne_of_ne (by decide))
theorem hF10_6 (c : Dev nD) : (dat10 (tcOf (X21 m)) c).arrAt 6 cfg10.N = tcOf (X22 m) c (Pipeline.arrRef spec10 6) := by
  show _ = X22 m c (Proc.devRef .tc main_v144_1)
  unfold X22
  symm
  exact upd3_b _ _ _ _ _ _ _ (StableHlo.devRef_ne_of_ne (by decide))
theorem hF10_7 (c : Dev nD) : (dat10 (tcOf (X21 m)) c).arrAt 7 cfg10.N = tcOf (X22 m) c (Pipeline.arrRef spec10 7) := by
  show _ = X22 m c (Proc.devRef .tc main_v144_2)
  unfold X22
  symm
  exact upd3_c _ _ _ _ _ _ _

/-- and for every window. -/
theorem hF10 (c : Dev nD) : ∀ w : Fin cfg10.W, (dat10 (tcOf (X21 m)) c).arrAt w cfg10.N = tcOf (X22 m) c (Pipeline.arrRef spec10 w)
  | ⟨0, h⟩ => by rw [show (⟨0, h⟩ : Fin cfg10.W) = (0 : Fin cfg10.W) from Fin.ext rfl]; exact hF10_0 m c
  | ⟨1, h⟩ => by rw [show (⟨1, h⟩ : Fin cfg10.W) = (1 : Fin cfg10.W) from Fin.ext rfl]; exact hF10_1 m c
  | ⟨2, h⟩ => by rw [show (⟨2, h⟩ : Fin cfg10.W) = (2 : Fin cfg10.W) from Fin.ext rfl]; exact hF10_2 m c
  | ⟨3, h⟩ => by rw [show (⟨3, h⟩ : Fin cfg10.W) = (3 : Fin cfg10.W) from Fin.ext rfl]; exact hF10_3 m c
  | ⟨4, h⟩ => by rw [show (⟨4, h⟩ : Fin cfg10.W) = (4 : Fin cfg10.W) from Fin.ext rfl]; exact hF10_4 m c
  | ⟨5, h⟩ => by rw [show (⟨5, h⟩ : Fin cfg10.W) = (5 : Fin cfg10.W) from Fin.ext rfl]; exact hF10_5 m c
  | ⟨6, h⟩ => by rw [show (⟨6, h⟩ : Fin cfg10.W) = (6 : Fin cfg10.W) from Fin.ext rfl]; exact hF10_6 m c
  | ⟨7, h⟩ => by rw [show (⟨7, h⟩ : Fin cfg10.W) = (7 : Fin cfg10.W) from Fin.ext rfl]; exact hF10_7 m c

/-- Every buffer that is no array of region 10 holds at its exit what it held at its entry. -/
theorem hrest10 (c : Dev nD) : ∀ b, b ∉ Finset.univ.image (Pipeline.arrRef spec10) → tcOf (X22 m) c b = tcOf (X21 m) c b :=
  fun b hb => by
    have h0 : b ≠ main_v144_0 := fun e => hb (by subst e; exact Finset.mem_image.mpr ⟨⟨5, by decide⟩, Finset.mem_univ _, rfl⟩)
    have h1 : b ≠ main_v144_1 := fun e => hb (by subst e; exact Finset.mem_image.mpr ⟨⟨6, by decide⟩, Finset.mem_univ _, rfl⟩)
    have h2 : b ≠ main_v144_2 := fun e => hb (by subst e; exact Finset.mem_image.mpr ⟨⟨7, by decide⟩, Finset.mem_univ _, rfl⟩)
    unfold X22; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 10 over the thread state: entered with every unscoped buffer at the contents before it, left with them at
    the contents after it; its arrays split out of the unscoped buffers and put back; the generator register into the
    invariant and out; nothing owed; no semaphore of the kernel's own. -/
def reg10 : Pipeline.RegionSeg (pcfgs (F := F)) adm (pdats m) () defs₀ Variants.none Lz lvz 10 where
  win := launch10.win.to₀
  block_pos := launch10.block_pos
  stage_whole := launch10.stage_whole
  K := PEmpty
  osem k := k.elim
  ho := Pipeline.OwnSemFacts.none _
  hbody c := (body_obligation10 (tcOf (X21 m)) c).loose
  hwaits := Pipeline.hwaits_of_owed_zero _ _ _ _ Lz lvz 10 fun _ _ => rfl
  pre c := iprop(StableHlo.held (c : Thread nD τ) (Pipeline.ucRefs τ sig) (X21 m c) ∗ Rz c)
  post c := iprop(StableHlo.held (c : Thread nD τ) (Pipeline.ucRefs τ sig) (X22 m c) ∗ Rz c)
  X c := iprop(∃ r, prngReg c r)
  Y c := iprop(∃ r, prngReg c r)
  Z c := Pipeline.unscopedRest (Ix := Unit) (Name := ℕ) (U := UR sig nD τ) (Lvl := ℕ) spec10 c (tcOf (X21 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (tcOf (X21 m) c) fun w => A_eq10 (tcOf (X21 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 10).pre c (fun _ => fullShare) (adm (F := F) 10).1 ∗ Pipeline.scopedRest spec10 c)
        ⊢ (Pipeline.ΦA spec10 c : sProp 𝕄) := by
      unfold Pipeline.ΦA
      iintro ⟨Hp, -, Hr⟩
      isplitl [Hr]; · iexact Hr
      iexact Hp
    exact h.trans (hin10 (tcOf (X21 m)) c)
  hout c := by
    rw [Pipeline.ownSems0_none]
    have h : (Pipeline.ΦA spec10 c : sProp 𝕄)
        ⊢ iprop(iprop(∃ r, prngReg c r) ∗ BI.emp ∗ Pipeline.scopedRest spec10 c) := by
      unfold Pipeline.ΦA
      iintro ⟨Hr, Hp⟩
      isplitl [Hp]; · iexact Hp
      isplitr; · iempintro
      iexact Hr
    exact (hout10 (tcOf (X21 m)) c).trans h
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (tcOf (X21 m) c) (tcOf (X22 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg11.lean ====
/-
  Region 11 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 11's exit each of its arrays holds what the pipeline leaves: an output's array by the update, an input's
    array its entry contents; window by window, -/
theorem hF11_0 (c : Dev nD) : (dat11 (tcOf (X23 m)) c).arrAt 0 cfg11.N = tcOf (X24 m) c (Pipeline.arrRef spec11 0) := by
  rw [(dat11 (tcOf (X23 m)) c).arrAt_in 0 rfl cfg11.N, A_eq11 (tcOf (X23 m)) c 0]
  show X23 m c (Proc.devRef .tc main_v144_0) = X24 m c (Proc.devRef .tc main_v144_0)
  unfold X24
  symm
  exact upd3_ne _ _ _ _ _ _ _ _ (StableHlo.devRef_ne_of_ne (by decide)) (StableHlo.devRef_ne_of_ne (by decide)) (StableHlo.devRef_ne_of_ne (by decide))
theorem hF11_1 (c : Dev nD) : (dat11 (tcOf (X23 m)) c).arrAt 1 cfg11.N = tcOf (X24 m) c (Pipeline.arrRef spec11 1) := by
  rw [(dat11 (tcOf (X23 m)) c).arrAt_in 1 rfl cfg11.N, A_eq11 (tcOf (X23 m)) c 1]
  show X23 m c (Proc.devRef .tc main_v144_1) = X24 m c (Proc.devRef .tc main_v144_1)
  unfold X24
  symm
  exact upd3_ne _ _ _ _ _ _ _ _ (StableHlo.devRef_ne_of_ne (by decide)) (StableHlo.devRef_ne_of_ne (by decide)) (StableHlo.devRef_ne_of_ne (by decide))
theorem hF11_2 (c : Dev nD) : (dat11 (tcOf (X23 m)) c).arrAt 2 cfg11.N = tcOf (X24 m) c (Pipeline.arrRef spec11 2) := by
  rw [(dat11 (tcOf (X23 m)) c).arrAt_in 2 rfl cfg11.N, A_eq11 (tcOf (X23 m)) c 2]
  show X23 m c (Proc.devRef .tc main_v144_2) = X24 m c (Proc.devRef .tc main_v144_2)
  unfold X24
  symm
  exact upd3_ne _ _ _ _ _ _ _ _ (StableHlo.devRef_ne_of_ne (by decide)) (StableHlo.devRef_ne_of_ne (by decide)) (StableHlo.devRef_ne_of_ne (by decide))
theorem hF11_3 (c : Dev nD) : (dat11 (tcOf (X23 m)) c).arrAt 3 cfg11.N = tcOf (X24 m) c (Pipeline.arrRef spec11 3) := by
  rw [(dat11 (tcOf (X23 m)) c).arrAt_in 3 rfl cfg11.N, A_eq11 (tcOf (X23 m)) c 3]
  show X23 m c (Proc.devRef .tc main_v153) = X24 m c (Proc.devRef .tc main_v153)
  unfold X24
  symm
  exact upd3_ne _ _ _ _ _ _ _ _ (StableHlo.devRef_ne_of_ne (by decide)) (StableHlo.devRef_ne_of_ne (by decide)) (StableHlo.devRef_ne_of_ne (by decide))
theorem hF11_4 (c : Dev nD) : (dat11 (tcOf (X23 m)) c).arrAt 4 cfg11.N = tcOf (X24 m) c (Pipeline.arrRef spec11 4) := by
  rw [(dat11 (tcOf (X23 m)) c).arrAt_in 4 rfl cfg11.N, A_eq11 (tcOf (X23 m)) c 4]
  show X23 m c (Proc.devRef .tc main_v154) = X24 m c (Proc.devRef .tc main_v154)
  unfold X24
  symm
  exact upd3_ne _ _ _ _ _ _ _ _ (StableHlo.devRef_ne_of_ne (by decide)) (StableHlo.devRef_ne_of_ne (by decide)) (StableHlo.devRef_ne_of_ne (by decide))
theorem hF11_5 (c : Dev nD) : (dat11 (tcOf (X23 m)) c).arrAt 5 cfg11.N = tcOf (X24 m) c (Pipeline.arrRef spec11 5) := by
  rw [(dat11 (tcOf (X23 m)) c).arrAt_in 5 rfl cfg11.N, A_eq11 (tcOf (X23 m)) c 5]
  show X23 m c (Proc.devRef .tc main_v150) = X24 m c (Proc.devRef .tc main_v150)
  unfold X24
  symm
  exact upd3_ne _ _ _ _ _ _ _ _ (StableHlo.devRef_ne_of_ne (by decide)) (StableHlo.devRef_ne_of_ne (by decide)) (StableHlo.devRef_ne_of_ne (by decide))
theorem hF11_6 (c : Dev nD) : (dat11 (tcOf (X23 m)) c).arrAt 6 cfg11.N = tcOf (X24 m) c (Pipeline.arrRef spec11 6) := by
  rw [(dat11 (tcOf (X23 m)) c).arrAt_in 6 rfl cfg11.N, A_eq11 (tcOf (X23 m)) c 6]
  show X23 m c (Proc.devRef .tc main_v155) = X24 m c (Proc.devRef .tc main_v155)
  unfold X24
  symm
  exact upd3_ne _ _ _ _ _ _ _ _ (StableHlo.devRef_ne_of_ne (by decide)) (StableHlo.devRef_ne_of_ne (by decide)) (StableHlo.devRef_ne_of_ne (by decide))
theorem hF11_7 (c : Dev nD) : (dat11 (tcOf (X23 m)) c).arrAt 7 cfg11.N = tcOf (X24 m) c (Pipeline.arrRef spec11 7) := by
  show _ = X24 m c (Proc.devRef .tc main_v156_0)
  unfold X24
  symm
  exact upd3_a _ _ _ _ _ _ _ (StableHlo.devRef_ne_of_ne (by decide)) (StableHlo.devRef_ne_of_ne (by decide))
theorem hF11_8 (c : Dev nD) : (dat11 (tcOf (X23 m)) c).arrAt 8 cfg11.N = tcOf (X24 m) c (Pipeline.arrRef spec11 8) := by
  show _ = X24 m c (Proc.devRef .tc main_v156_1)
  unfold X24
  symm
  exact upd3_b _ _ _ _ _ _ _ (StableHlo.devRef_ne_of_ne (by decide))
theorem hF11_9 (c : Dev nD) : (dat11 (tcOf (X23 m)) c).arrAt 9 cfg11.N = tcOf (X24 m) c (Pipeline.arrRef spec11 9) := by
  show _ = X24 m c (Proc.devRef .tc main_v156_2)
  unfold X24
  symm
  exact upd3_c _ _ _ _ _ _ _

/-- and for every window. -/
theorem hF11 (c : Dev nD) : ∀ w : Fin cfg11.W, (dat11 (tcOf (X23 m)) c).arrAt w cfg11.N = tcOf (X24 m) c (Pipeline.arrRef spec11 w)
  | ⟨0, h⟩ => by rw [show (⟨0, h⟩ : Fin cfg11.W) = (0 : Fin cfg11.W) from Fin.ext rfl]; exact hF11_0 m c
  | ⟨1, h⟩ => by rw [show (⟨1, h⟩ : Fin cfg11.W) = (1 : Fin cfg11.W) from Fin.ext rfl]; exact hF11_1 m c
  | ⟨2, h⟩ => by rw [show (⟨2, h⟩ : Fin cfg11.W) = (2 : Fin cfg11.W) from Fin.ext rfl]; exact hF11_2 m c
  | ⟨3, h⟩ => by rw [show (⟨3, h⟩ : Fin cfg11.W) = (3 : Fin cfg11.W) from Fin.ext rfl]; exact hF11_3 m c
  | ⟨4, h⟩ => by rw [show (⟨4, h⟩ : Fin cfg11.W) = (4 : Fin cfg11.W) from Fin.ext rfl]; exact hF11_4 m c
  | ⟨5, h⟩ => by rw [show (⟨5, h⟩ : Fin cfg11.W) = (5 : Fin cfg11.W) from Fin.ext rfl]; exact hF11_5 m c
  | ⟨6, h⟩ => by rw [show (⟨6, h⟩ : Fin cfg11.W) = (6 : Fin cfg11.W) from Fin.ext rfl]; exact hF11_6 m c
  | ⟨7, h⟩ => by rw [show (⟨7, h⟩ : Fin cfg11.W) = (7 : Fin cfg11.W) from Fin.ext rfl]; exact hF11_7 m c
  | ⟨8, h⟩ => by rw [show (⟨8, h⟩ : Fin cfg11.W) = (8 : Fin cfg11.W) from Fin.ext rfl]; exact hF11_8 m c
  | ⟨9, h⟩ => by rw [show (⟨9, h⟩ : Fin cfg11.W) = (9 : Fin cfg11.W) from Fin.ext rfl]; exact hF11_9 m c

/-- Every buffer that is no array of region 11 holds at its exit what it held at its entry. -/
theorem hrest11 (c : Dev nD) : ∀ b, b ∉ Finset.univ.image (Pipeline.arrRef spec11) → tcOf (X24 m) c b = tcOf (X23 m) c b :=
  fun b hb => by
    have h0 : b ≠ main_v156_0 := fun e => hb (by subst e; exact Finset.mem_image.mpr ⟨⟨7, by decide⟩, Finset.mem_univ _, rfl⟩)
    have h1 : b ≠ main_v156_1 := fun e => hb (by subst e; exact Finset.mem_image.mpr ⟨⟨8, by decide⟩, Finset.mem_univ _, rfl⟩)
    have h2 : b ≠ main_v156_2 := fun e => hb (by subst e; exact Finset.mem_image.mpr ⟨⟨9, by decide⟩, Finset.mem_univ _, rfl⟩)
    unfold X24; dsimp only [tcOf]
    exact upd3_ne _ _ _ _ _ _ _ _ (StableHlo.devRef_ne_of_ne h0) (StableHlo.devRef_ne_of_ne h1) (StableHlo.devRef_ne_of_ne h2)

set_option backward.isDefEq.respectTransparency.types false in
/-- Region 11 over the thread state: entered with every unscoped buffer at the contents before it, left with them at
    the contents after it; its arrays split out of the unscoped buffers and put back; the generator register into the
    invariant and out; nothing owed; no semaphore of the kernel's own. -/
def reg11 : Pipeline.RegionSeg (pcfgs (F := F)) adm (pdats m) () defs₀ Variants.none Lz lvz 11 where
  win := launch11.win.to₀
  block_pos := launch11.block_pos
  stage_whole := launch11.stage_whole
  K := PEmpty
  osem k := k.elim
  ho := Pipeline.OwnSemFacts.none _
  hbody c := (body_obligation11 (tcOf (X23 m)) c).loose
  hwaits := Pipeline.hwaits_of_owed_zero _ _ _ _ Lz lvz 11 fun _ _ => rfl
  pre c := iprop(StableHlo.held (c : Thread nD τ) (Pipeline.ucRefs τ sig) (X23 m c) ∗ Rz c)
  post c := iprop(StableHlo.held (c : Thread nD τ) (Pipeline.ucRefs τ sig) (X24 m c) ∗ Rz c)
  X c := iprop(∃ r, prngReg c r)
  Y c := iprop(∃ r, prngReg c r)
  Z c := Pipeline.unscopedRest (Ix := Unit) (Name := ℕ) (U := UR sig nD τ) (Lvl := ℕ) spec11 c (tcOf (X23 m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (tcOf (X23 m) c) fun w => A_eq11 (tcOf (X23 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 11).pre c (fun _ => fullShare) (adm (F := F) 11).1 ∗ Pipeline.scopedRest spec11 c)
        ⊢ (Pipeline.ΦA spec11 c : sProp 𝕄) := by
      unfold Pipeline.ΦA
      iintro ⟨Hp, -, Hr⟩
      isplitl [Hr]; · iexact Hr
      iexact Hp
    exact h.trans (hin11 (tcOf (X23 m)) c)
  hout c := by
    rw [Pipeline.ownSems0_none]
    have h : (Pipeline.ΦA spec11 c : sProp 𝕄)
        ⊢ iprop(iprop(∃ r, prngReg c r) ∗ BI.emp ∗ Pipeline.scopedRest spec11 c) := by
      unfold Pipeline.ΦA
      iintro ⟨Hr, Hp⟩
      isplitl [Hp]; · iexact Hp
      isplitr; · iempintro
      iexact Hr
    exact (hout11 (tcOf (X23 m)) c).trans h
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (tcOf (X23 m) c) (tcOf (X24 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg12.lean ====
/-
  Region 12 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 12's exit each of its arrays holds what the pipeline leaves: an output's array by the update, an input's
    array its entry contents; window by window, -/
theorem hF12_0 (c : Dev nD) : (dat12 (tcOf (X25 m)) c).arrAt 0 cfg12.N = tcOf (X26 m) c (Pipeline.arrRef spec12 0) := by
  rw [(dat12 (tcOf (X25 m)) c).arrAt_in 0 rfl cfg12.N, A_eq12 (tcOf (X25 m)) c 0]
  show X25 m c (Proc.devRef .tc main_v156_0) = X26 m c (Proc.devRef .tc main_v156_0)
  unfold X26
  symm
  exact upd1_ne _ _ _ _ (StableHlo.devRef_ne_of_ne (by decide))
theorem hF12_1 (c : Dev nD) : (dat12 (tcOf (X25 m)) c).arrAt 1 cfg12.N = tcOf (X26 m) c (Pipeline.arrRef spec12 1) := by
  rw [(dat12 (tcOf (X25 m)) c).arrAt_in 1 rfl cfg12.N, A_eq12 (tcOf (X25 m)) c 1]
  show X25 m c (Proc.devRef .tc main_v156_1) = X26 m c (Proc.devRef .tc main_v156_1)
  unfold X26
  symm
  exact upd1_ne _ _ _ _ (StableHlo.devRef_ne_of_ne (by decide))
theorem hF12_2 (c : Dev nD) : (dat12 (tcOf (X25 m)) c).arrAt 2 cfg12.N = tcOf (X26 m) c (Pipeline.arrRef spec12 2) := by
  rw [(dat12 (tcOf (X25 m)) c).arrAt_in 2 rfl cfg12.N, A_eq12 (tcOf (X25 m)) c 2]
  show X25 m c (Proc.devRef .tc main_v156_2) = X26 m c (Proc.devRef .tc main_v156_2)
  unfold X26
  symm
  exact upd1_ne _ _ _ _ (StableHlo.devRef_ne_of_ne (by decide))
theorem hF12_3 (c : Dev nD) : (dat12 (tcOf (X25 m)) c).arrAt 3 cfg12.N = tcOf (X26 m) c (Pipeline.arrRef spec12 3) := by
  rw [(dat12 (tcOf (X25 m)) c).arrAt_in 3 rfl cfg12.N, A_eq12 (tcOf (X25 m)) c 3]
  show X25 m c (Proc.devRef .tc main_v161) = X26 m c (Proc.devRef .tc main_v161)
  unfold X26
  symm
  exact upd1_ne _ _ _ _ (StableHlo.devRef_ne_of_ne (by decide))
theorem hF12_4 (c : Dev nD) : (dat12 (tcOf (X25 m)) c).arrAt 4 cfg12.N = tcOf (X26 m) c (Pipeline.arrRef spec12 4) := by
  rw [(dat12 (tcOf (X25 m)) c).arrAt_in 4 rfl cfg12.N, A_eq12 (tcOf (X25 m)) c 4]
  show X25 m c (Proc.devRef .tc main_v162) = X26 m c (Proc.devRef .tc main_v162)
  unfold X26
  symm
  exact upd1_ne _ _ _ _ (StableHlo.devRef_ne_of_ne (by decide))
theorem hF12_5 (c : Dev nD) : (dat12 (tcOf (X25 m)) c).arrAt 5 cfg12.N = tcOf (X26 m) c (Pipeline.arrRef spec12 5) := by
  show _ = X26 m c (Proc.devRef .tc main_v163)
  unfold X26
  symm
  exact upd1_a _ _ _

/-- and for every window. -/
theorem hF12 (c : Dev nD) : ∀ w : Fin cfg12.W, (dat12 (tcOf (X25 m)) c).arrAt w cfg12.N = tcOf (X26 m) c (Pipeline.arrRef spec12 w)
  | ⟨0, h⟩ => by rw [show (⟨0, h⟩ : Fin cfg12.W) = (0 : Fin cfg12.W) from Fin.ext rfl]; exact hF12_0 m c
  | ⟨1, h⟩ => by rw [show (⟨1, h⟩ : Fin cfg12.W) = (1 : Fin cfg12.W) from Fin.ext rfl]; exact hF12_1 m c
  | ⟨2, h⟩ => by rw [show (⟨2, h⟩ : Fin cfg12.W) = (2 : Fin cfg12.W) from Fin.ext rfl]; exact hF12_2 m c
  | ⟨3, h⟩ => by rw [show (⟨3, h⟩ : Fin cfg12.W) = (3 : Fin cfg12.W) from Fin.ext rfl]; exact hF12_3 m c
  | ⟨4, h⟩ => by rw [show (⟨4, h⟩ : Fin cfg12.W) = (4 : Fin cfg12.W) from Fin.ext rfl]; exact hF12_4 m c
  | ⟨5, h⟩ => by rw [show (⟨5, h⟩ : Fin cfg12.W) = (5 : Fin cfg12.W) from Fin.ext rfl]; exact hF12_5 m c

/-- Every buffer that is no array of region 12 holds at its exit what it held at its entry. -/
theorem hrest12 (c : Dev nD) : ∀ b, b ∉ Finset.univ.image (Pipeline.arrRef spec12) → tcOf (X26 m) c b = tcOf (X25 m) c b :=
  fun b hb => by
    have h0 : b ≠ main_v163 := fun e => hb (by subst e; exact Finset.mem_image.mpr ⟨⟨5, by decide⟩, Finset.mem_univ _, rfl⟩)
    unfold X26; dsimp only [tcOf]
    exact upd1_ne _ _ _ _ (StableHlo.devRef_ne_of_ne h0)

set_option backward.isDefEq.respectTransparency.types false in
/-- Region 12 over the thread state: entered with every unscoped buffer at the contents before it, left with them at
    the contents after it; its arrays split out of the unscoped buffers and put back; the generator register into the
    invariant and out; nothing owed; no semaphore of the kernel's own. -/
def reg12 : Pipeline.RegionSeg (pcfgs (F := F)) adm (pdats m) () defs₀ Variants.none Lz lvz 12 where
  win := launch12.win.to₀
  block_pos := launch12.block_pos
  stage_whole := launch12.stage_whole
  K := PEmpty
  osem k := k.elim
  ho := Pipeline.OwnSemFacts.none _
  hbody c := (body_obligation12 (tcOf (X25 m)) c).loose
  hwaits := Pipeline.hwaits_of_owed_zero _ _ _ _ Lz lvz 12 fun _ _ => rfl
  pre c := iprop(StableHlo.held (c : Thread nD τ) (Pipeline.ucRefs τ sig) (X25 m c) ∗ Rz c)
  post c := iprop(StableHlo.held (c : Thread nD τ) (Pipeline.ucRefs τ sig) (X26 m c) ∗ Rz c)
  X c := iprop(∃ r, prngReg c r)
  Y c := iprop(∃ r, prngReg c r)
  Z c := Pipeline.unscopedRest (Ix := Unit) (Name := ℕ) (U := UR sig nD τ) (Lvl := ℕ) spec12 c (tcOf (X25 m) c)
  hentry c := by
    rw [Pipeline.ownSems0_none]
    have hsplit := Pipeline.arrays_of_unscopedBufs (p := 12) (pcfgs (F := F)) adm (pdats m) launch12.win launch12.arr_whole c
      ((pdats m 12 c).share_full fun _ => rfl) (tcOf (X25 m) c) fun w => A_eq12 (tcOf (X25 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 12).pre c (fun _ => fullShare) (adm (F := F) 12).1 ∗ Pipeline.scopedRest spec12 c)
        ⊢ (Pipeline.ΦA spec12 c : sProp 𝕄) := by
      unfold Pipeline.ΦA
      iintro ⟨Hp, -, Hr⟩
      isplitl [Hr]; · iexact Hr
      iexact Hp
    exact h.trans (show (Pipeline.ΦA spec12 c : sProp 𝕄) ⊢ (dat12 (tcOf (X25 m)) c).Φ 0 from .rfl)
  hout c := by
    rw [Pipeline.ownSems0_none]
    have h : (Pipeline.ΦA spec12 c : sProp 𝕄)
        ⊢ iprop(iprop(∃ r, prngReg c r) ∗ BI.emp ∗ Pipeline.scopedRest spec12 c) := by
      unfold Pipeline.ΦA
      iintro ⟨Hr, Hp⟩
      isplitl [Hp]; · iexact Hp
      isplitr; · iempintro
      iexact Hr
    exact (show (dat12 (tcOf (X25 m)) c).Φ (Fin.last cfg12.N) ⊢ (Pipeline.ΦA spec12 c : sProp 𝕄) from .rfl).trans h
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (tcOf (X25 m) c) (tcOf (X26 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Seg13.lean ====
/-
  Region 13 of @main as a segment of the run: entered with every unscoped buffer at the contents before it, left with
  them at the contents after it (its output arrays replaced by what its pipeline leaves).
-/
import proofs.«140206_j52750788330061_1_alg».proof.Proof.KI.SegsBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- At region 13's exit each of its arrays holds what the pipeline leaves: an output's array by the update, an input's
    array its entry contents; window by window, -/
theorem hF13_0 (c : Dev nD) : (dat13 (tcOf (X27 m)) c).arrAt 0 cfg13.N = tcOf (X28 m) c (Pipeline.arrRef spec13 0) := by
  rw [(dat13 (tcOf (X27 m)) c).arrAt_in 0 rfl cfg13.N, A_eq13 (tcOf (X27 m)) c 0]
  show X27 m c (Proc.devRef .tc main_v175) = X28 m c (Proc.devRef .tc main_v175)
  unfold X28
  symm
  exact upd1_ne _ _ _ _ (StableHlo.devRef_ne_of_ne (by decide))
theorem hF13_1 (c : Dev nD) : (dat13 (tcOf (X27 m)) c).arrAt 1 cfg13.N = tcOf (X28 m) c (Pipeline.arrRef spec13 1) := by
  rw [(dat13 (tcOf (X27 m)) c).arrAt_in 1 rfl cfg13.N, A_eq13 (tcOf (X27 m)) c 1]
  show X27 m c (Proc.devRef .tc main_arg15) = X28 m c (Proc.devRef .tc main_arg15)
  unfold X28
  symm
  exact upd1_ne _ _ _ _ (StableHlo.devRef_ne_of_ne (by decide))
theorem hF13_2 (c : Dev nD) : (dat13 (tcOf (X27 m)) c).arrAt 2 cfg13.N = tcOf (X28 m) c (Pipeline.arrRef spec13 2) := by
  rw [(dat13 (tcOf (X27 m)) c).arrAt_in 2 rfl cfg13.N, A_eq13 (tcOf (X27 m)) c 2]
  show X27 m c (Proc.devRef .tc main_v176) = X28 m c (Proc.devRef .tc main_v176)
  unfold X28
  symm
  exact upd1_ne _ _ _ _ (StableHlo.devRef_ne_of_ne (by decide))
theorem hF13_3 (c : Dev nD) : (dat13 (tcOf (X27 m)) c).arrAt 3 cfg13.N = tcOf (X28 m) c (Pipeline.arrRef spec13 3) := by
  rw [(dat13 (tcOf (X27 m)) c).arrAt_in 3 rfl cfg13.N, A_eq13 (tcOf (X27 m)) c 3]
  show X27 m c (Proc.devRef .tc main_arg17) = X28 m c (Proc.devRef .tc main_arg17)
  unfold X28
  symm
  exact upd1_ne _ _ _ _ (StableHlo.devRef_ne_of_ne (by decide))
theorem hF13_4 (c : Dev nD) : (dat13 (tcOf (X27 m)) c).arrAt 4 cfg13.N = tcOf (X28 m) c (Pipeline.arrRef spec13 4) := by
  rw [(dat13 (tcOf (X27 m)) c).arrAt_in 4 rfl cfg13.N, A_eq13 (tcOf (X27 m)) c 4]
  show X27 m c (Proc.devRef .tc main_v177) = X28 m c (Proc.devRef .tc main_v177)
  unfold X28
  symm
  exact upd1_ne _ _ _ _ (StableHlo.devRef_ne_of_ne (by decide))
theorem hF13_5 (c : Dev nD) : (dat13 (tcOf (X27 m)) c).arrAt 5 cfg13.N = tcOf (X28 m) c (Pipeline.arrRef spec13 5) := by
  show _ = X28 m c (Proc.devRef .tc main_v178)
  unfold X28
  symm
  exact upd1_a _ _ _

/-- and for every window. -/
theorem hF13 (c : Dev nD) : ∀ w : Fin cfg13.W, (dat13 (tcOf (X27 m)) c).arrAt w cfg13.N = tcOf (X28 m) c (Pipeline.arrRef spec13 w)
  | ⟨0, h⟩ => by rw [show (⟨0, h⟩ : Fin cfg13.W) = (0 : Fin cfg13.W) from Fin.ext rfl]; exact hF13_0 m c
  | ⟨1, h⟩ => by rw [show (⟨1, h⟩ : Fin cfg13.W) = (1 : Fin cfg13.W) from Fin.ext rfl]; exact hF13_1 m c
  | ⟨2, h⟩ => by rw [show (⟨2, h⟩ : Fin cfg13.W) = (2 : Fin cfg13.W) from Fin.ext rfl]; exact hF13_2 m c
  | ⟨3, h⟩ => by rw [show (⟨3, h⟩ : Fin cfg13.W) = (3 : Fin cfg13.W) from Fin.ext rfl]; exact hF13_3 m c
  | ⟨4, h⟩ => by rw [show (⟨4, h⟩ : Fin cfg13.W) = (4 : Fin cfg13.W) from Fin.ext rfl]; exact hF13_4 m c
  | ⟨5, h⟩ => by rw [show (⟨5, h⟩ : Fin cfg13.W) = (5 : Fin cfg13.W) from Fin.ext rfl]; exact hF13_5 m c

/-- Every buffer that is no array of region 13 holds at its exit what it held at its entry. -/
theorem hrest13 (c : Dev nD) : ∀ b, b ∉ Finset.univ.image (Pipeline.arrRef spec13) → tcOf (X28 m) c b = tcOf (X27 m) c b :=
  fun b hb => by
    have h0 : b ≠ main_v178 := fun e => hb (by subst e; exact Finset.mem_image.mpr ⟨⟨5, by decide⟩, Finset.mem_univ _, rfl⟩)
    unfold X28; dsimp only [tcOf]
    exact upd1_ne _ _ _ _ (StableHlo.devRef_ne_of_ne h0)

set_option backward.isDefEq.respectTransparency.types false in
/-- Region 13 over the thread state: entered with every unscoped buffer at the contents before it, left with them at
    the contents after it; its arrays split out of the unscoped buffers and put back; the generator register into the
    invariant and out; nothing owed; no semaphore of the kernel's own. -/
def reg13 : Pipeline.RegionSeg (pcfgs (F := F)) adm (pdats m) () defs₀ Variants.none Lz lvz 13 where
  win := launch13.win.to₀
  block_pos := launch13.block_pos
  stage_whole := launch13.stage_whole
  K := PEmpty
  osem k := k.elim
  ho := Pipeline.OwnSemFacts.none _
  hbody c := (body_obligation13 (tcOf (X27 m)) c).loose
  hwaits := Pipeline.hwaits_of_owed_zero _ _ _ _ Lz lvz 13 fun _ _ => rfl
  pre c := iprop(StableHlo.held (c : Thread nD τ) (Pipeline.ucRefs τ sig) (X27 m c) ∗ Rz c)
  post c := iprop(StableHlo.held (c : Thread nD τ) (Pipeline.ucRefs τ sig) (X28 m c) ∗ Rz c)
  X c := iprop(∃ r, prngReg c r)
  Y c := iprop(∃ r, prngReg c r)
  Z c := Pipeline.unscopedRest (Ix := Unit) (Name := ℕ) (U := UR sig nD τ) (Lvl := ℕ) spec13 c (tcOf (X27 m) c)
  hentry c := by
    rw [Pipeline.ownSems0_none]
    have hsplit := Pipeline.arrays_of_unscopedBufs (p := 13) (pcfgs (F := F)) adm (pdats m) launch13.win launch13.arr_whole c
      ((pdats m 13 c).share_full fun _ => rfl) (tcOf (X27 m) c) fun w => A_eq13 (tcOf (X27 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 13).pre c (fun _ => fullShare) (adm (F := F) 13).1 ∗ Pipeline.scopedRest spec13 c)
        ⊢ (Pipeline.ΦA spec13 c : sProp 𝕄) := by
      unfold Pipeline.ΦA
      iintro ⟨Hp, -, Hr⟩
      isplitl [Hr]; · iexact Hr
      iexact Hp
    exact h.trans (show (Pipeline.ΦA spec13 c : sProp 𝕄) ⊢ (dat13 (tcOf (X27 m)) c).Φ 0 from .rfl)
  hout c := by
    rw [Pipeline.ownSems0_none]
    have h : (Pipeline.ΦA spec13 c : sProp 𝕄)
        ⊢ iprop(iprop(∃ r, prngReg c r) ∗ BI.emp ∗ Pipeline.scopedRest spec13 c) := by
      unfold Pipeline.ΦA
      iintro ⟨Hr, Hp⟩
      isplitl [Hp]; · iexact Hp
      isplitr; · iempintro
      iexact Hr
    exact (show (dat13 (tcOf (X27 m)) c).Φ (Fin.last cfg13.N) ⊢ (Pipeline.ΦA spec13 c : sProp 𝕄) from .rfl).trans h
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (tcOf (X27 m) c) (tcOf (X28 m) c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.SegsAll.lean ====
/- The fourteen regions' segment records together. -/
import proofs.«140206_j52750788330061_1_alg».proof.Proof.KI.Seg0
import proofs.«140206_j52750788330061_1_alg».proof.Proof.KI.Seg1
import proofs.«140206_j52750788330061_1_alg».proof.Proof.KI.Seg2
import proofs.«140206_j52750788330061_1_alg».proof.Proof.KI.Seg3
import proofs.«140206_j52750788330061_1_alg».proof.Proof.KI.Seg4
import proofs.«140206_j52750788330061_1_alg».proof.Proof.KI.Seg5
import proofs.«140206_j52750788330061_1_alg».proof.Proof.KI.Seg6
import proofs.«140206_j52750788330061_1_alg».proof.Proof.KI.Seg7
import proofs.«140206_j52750788330061_1_alg».proof.Proof.KI.Seg8
import proofs.«140206_j52750788330061_1_alg».proof.Proof.KI.Seg9
import proofs.«140206_j52750788330061_1_alg».proof.Proof.KI.Seg10
import proofs.«140206_j52750788330061_1_alg».proof.Proof.KI.Seg11
import proofs.«140206_j52750788330061_1_alg».proof.Proof.KI.Seg12
import proofs.«140206_j52750788330061_1_alg».proof.Proof.KI.Seg13
-- ==== Proof.KI.RunCond.lean ====
import proofs.«140206_j52750788330061_1_alg».proof.Proof.Gen.KernelIdeal.Regions
import Idealize.ShloMosaic.Lib.Pipeline.Frame
import Idealize.ShloMosaic.Lib.Pipeline.Regions

-- decided memberships and the launch kit's enumerations over 387 references recurse past the default depth
set_option maxRecDepth 2060

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

variable (m : (ℓ : Loc nD τ sig) → Buf (Elt F) ℓ) (outs : Outs (F := F))

set_option backward.isDefEq.respectTransparency.types false in
/-- The conditional run: as the conditional frame, with the post reading EVERY unscoped buffer of every core off the last
    valuation (so that a result array's final contents can be named, not only the arguments'). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 14) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 15 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE14 : ∀ c : Dev nD, E 14 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c)) :
    θ_run defs (onTc (τ := τ) (main (F := F))) ⟨m, fun _ => 0, ρ⟩ (fun r => ∀ c : Dev nD, ∀ b ∈ Pipeline.ucRefs τ sig, r.2.mem ((c : Thread nD τ).1, b) = V28 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13)
    (fun c Q => by
      rewrite [main_chain c, Seg.run_eq_chain,
        show (segs m outs 𝒱₀ L lv E ι pdats R0 R1 R2 R3 R4 R5 R6 R7 R8 R9 R10 R11 R12 R13 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V28 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, (hpost13 c).trans (sep_mono .rfl (hE14 c))⟩)
    (hinit := ?_) (QY := fun c s => ∀ b ∈ Pipeline.ucRefs τ sig, s.mem ((c : Thread nD τ).1, b) = V28 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V28 m outs c) s')
    isplitl [Hh] <;> iassumption

end Cert.KernelIdeal.Gen

end
-- ==== Proof.KI.Run.lean ====
/-
  The run of the whole program: the generated conditional run of its fourteen regions, given each region's segment
  record; what the regions leave is named by the fold of the contents between items.
-/
import proofs.«140206_j52750788330061_1_alg».proof.Proof.KI.SegsAll
import proofs.«140206_j52750788330061_1_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)
variable (ρ : Dev nD → PrngReg)

set_option maxHeartbeats 4000000 in
set_option backward.isDefEq.respectTransparency.types false in
/-- THE RUN: from any memory with zero counters every weakly fair execution of @main on the TensorCores terminates,
    nothing faulting, and every final state has every unscoped buffer of every core at the last contents of the
    fold: the generated conditional run with the regions' records, what the regions leave named by the fold. -/
theorem run_all : θ_run defs (onTc (τ := τ) (main (F := F))) ⟨m, fun _ => 0, ρ⟩
    (fun r => ∀ c : Dev nD, ∀ b ∈ Pipeline.ucRefs τ sig, r.2.mem ((c : Thread nD τ).1, b) = X28 m c b) := by
  have h := run_cond (F := F) m (Ix := Unit) (U := UR sig nD τ) (Lvl := ℕ) emb₁ () Variants.none Lz lvz (fun _ _ => rfl) ρ (outsOf m) (pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => Rz c)
      (hE0 := by
        refine Pipeline.initEach Lz lvz fun c => ?_
        iintro ⟨⟨-, HO, -, Hp, -⟩, -⟩
        imodintro
        isplitl [Hp]; · iexists _; iexact Hp
        iexists ∅; iexact HO)
      (hE14 := fun c => by
        iintro ⟨-, HO⟩
        iexact HO)
      (reg0 m) (fun c => by rw [V1_eq]; exact .rfl) (fun c => by rw [V2_eq]; exact .rfl)
      (reg1 m) (fun c => by rw [V3_eq]; exact .rfl) (fun c => by rw [V4_eq]; exact .rfl)
      (reg2 m) (fun c => by rw [V5_eq]; exact .rfl) (fun c => by rw [V6_eq]; exact .rfl)
      (reg3 m) (fun c => by rw [V7_eq]; exact .rfl) (fun c => by rw [V8_eq]; exact .rfl)
      (reg4 m) (fun c => by rw [V9_eq]; exact .rfl) (fun c => by rw [V10_eq]; exact .rfl)
      (reg5 m) (fun c => by rw [V11_eq]; exact .rfl) (fun c => by rw [V12_eq]; exact .rfl)
      (reg6 m) (fun c => by rw [V13_eq]; exact .rfl) (fun c => by rw [V14_eq]; exact .rfl)
      (reg7 m) (fun c => by rw [V15_eq]; exact .rfl) (fun c => by rw [V16_eq]; exact .rfl)
      (reg8 m) (fun c => by rw [V17_eq]; exact .rfl) (fun c => by rw [V18_eq]; exact .rfl)
      (reg9 m) (fun c => by rw [V19_eq]; exact .rfl) (fun c => by rw [V20_eq]; exact .rfl)
      (reg10 m) (fun c => by rw [V21_eq]; exact .rfl) (fun c => by rw [V22_eq]; exact .rfl)
      (reg11 m) (fun c => by rw [V23_eq]; exact .rfl) (fun c => by rw [V24_eq]; exact .rfl)
      (reg12 m) (fun c => by rw [V25_eq]; exact .rfl) (fun c => by rw [V26_eq]; exact .rfl)
      (reg13 m) (fun c => by rw [V27_eq]; exact .rfl) (fun c => by rw [V28_eq]; exact .rfl)
  exact (θ_run defs _ _).mono (fun r hr c b hb => (hr c b hb).trans (congrFun (V28_eq m c) b)) h

end Cert.KernelIdeal.Gen

end
-- ==== Proof.KI.Frame.lean ====
/-
  The frame claim of the program at any instance of the float operations: every weakly fair execution terminates,
  nothing faulting, and each of the nineteen argument arrays ends holding its launch contents — read off the run's
  last contents, which no host stretch and no region changes at an argument.
-/
import proofs.«140206_j52750788330061_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)
variable (ρ : Dev nD → PrngReg)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem X28_main_arg0 (c : Dev nD) : X28 m c main_arg0 = m ((c : Thread nD τ).loc main_arg0) :=
  (congrFun (V28_eq m c).symm _).trans (V28_main_arg0 m (outsOf m) c)
theorem X28_main_arg1 (c : Dev nD) : X28 m c main_arg1 = m ((c : Thread nD τ).loc main_arg1) :=
  (congrFun (V28_eq m c).symm _).trans (V28_main_arg1 m (outsOf m) c)
theorem X28_main_arg2 (c : Dev nD) : X28 m c main_arg2 = m ((c : Thread nD τ).loc main_arg2) :=
  (congrFun (V28_eq m c).symm _).trans (V28_main_arg2 m (outsOf m) c)
theorem X28_main_arg3 (c : Dev nD) : X28 m c main_arg3 = m ((c : Thread nD τ).loc main_arg3) :=
  (congrFun (V28_eq m c).symm _).trans (V28_main_arg3 m (outsOf m) c)
theorem X28_main_arg4 (c : Dev nD) : X28 m c main_arg4 = m ((c : Thread nD τ).loc main_arg4) :=
  (congrFun (V28_eq m c).symm _).trans (V28_main_arg4 m (outsOf m) c)
theorem X28_main_arg5 (c : Dev nD) : X28 m c main_arg5 = m ((c : Thread nD τ).loc main_arg5) :=
  (congrFun (V28_eq m c).symm _).trans (V28_main_arg5 m (outsOf m) c)
theorem X28_main_arg6 (c : Dev nD) : X28 m c main_arg6 = m ((c : Thread nD τ).loc main_arg6) :=
  (congrFun (V28_eq m c).symm _).trans (V28_main_arg6 m (outsOf m) c)
theorem X28_main_arg7 (c : Dev nD) : X28 m c main_arg7 = m ((c : Thread nD τ).loc main_arg7) :=
  (congrFun (V28_eq m c).symm _).trans (V28_main_arg7 m (outsOf m) c)
theorem X28_main_arg8 (c : Dev nD) : X28 m c main_arg8 = m ((c : Thread nD τ).loc main_arg8) :=
  (congrFun (V28_eq m c).symm _).trans (V28_main_arg8 m (outsOf m) c)
theorem X28_main_arg9 (c : Dev nD) : X28 m c main_arg9 = m ((c : Thread nD τ).loc main_arg9) :=
  (congrFun (V28_eq m c).symm _).trans (V28_main_arg9 m (outsOf m) c)
theorem X28_main_arg10 (c : Dev nD) : X28 m c main_arg10 = m ((c : Thread nD τ).loc main_arg10) :=
  (congrFun (V28_eq m c).symm _).trans (V28_main_arg10 m (outsOf m) c)
theorem X28_main_arg11 (c : Dev nD) : X28 m c main_arg11 = m ((c : Thread nD τ).loc main_arg11) :=
  (congrFun (V28_eq m c).symm _).trans (V28_main_arg11 m (outsOf m) c)
theorem X28_main_arg12 (c : Dev nD) : X28 m c main_arg12 = m ((c : Thread nD τ).loc main_arg12) :=
  (congrFun (V28_eq m c).symm _).trans (V28_main_arg12 m (outsOf m) c)
theorem X28_main_arg13 (c : Dev nD) : X28 m c main_arg13 = m ((c : Thread nD τ).loc main_arg13) :=
  (congrFun (V28_eq m c).symm _).trans (V28_main_arg13 m (outsOf m) c)
theorem X28_main_arg14 (c : Dev nD) : X28 m c main_arg14 = m ((c : Thread nD τ).loc main_arg14) :=
  (congrFun (V28_eq m c).symm _).trans (V28_main_arg14 m (outsOf m) c)
theorem X28_main_arg15 (c : Dev nD) : X28 m c main_arg15 = m ((c : Thread nD τ).loc main_arg15) :=
  (congrFun (V28_eq m c).symm _).trans (V28_main_arg15 m (outsOf m) c)
theorem X28_main_arg16 (c : Dev nD) : X28 m c main_arg16 = m ((c : Thread nD τ).loc main_arg16) :=
  (congrFun (V28_eq m c).symm _).trans (V28_main_arg16 m (outsOf m) c)
theorem X28_main_arg17 (c : Dev nD) : X28 m c main_arg17 = m ((c : Thread nD τ).loc main_arg17) :=
  (congrFun (V28_eq m c).symm _).trans (V28_main_arg17 m (outsOf m) c)
theorem X28_main_arg18 (c : Dev nD) : X28 m c main_arg18 = m ((c : Thread nD τ).loc main_arg18) :=
  (congrFun (V28_eq m c).symm _).trans (V28_main_arg18 m (outsOf m) c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (X28_main_arg0 m c),
    (h c _ (mem_uc main_arg1 (by decide))).trans (X28_main_arg1 m c),
    (h c _ (mem_uc main_arg2 (by decide))).trans (X28_main_arg2 m c),
    (h c _ (mem_uc main_arg3 (by decide))).trans (X28_main_arg3 m c),
    (h c _ (mem_uc main_arg4 (by decide))).trans (X28_main_arg4 m c),
    (h c _ (mem_uc main_arg5 (by decide))).trans (X28_main_arg5 m c),
    (h c _ (mem_uc main_arg6 (by decide))).trans (X28_main_arg6 m c),
    (h c _ (mem_uc main_arg7 (by decide))).trans (X28_main_arg7 m c),
    (h c _ (mem_uc main_arg8 (by decide))).trans (X28_main_arg8 m c),
    (h c _ (mem_uc main_arg9 (by decide))).trans (X28_main_arg9 m c),
    (h c _ (mem_uc main_arg10 (by decide))).trans (X28_main_arg10 m c),
    (h c _ (mem_uc main_arg11 (by decide))).trans (X28_main_arg11 m c),
    (h c _ (mem_uc main_arg12 (by decide))).trans (X28_main_arg12 m c),
    (h c _ (mem_uc main_arg13 (by decide))).trans (X28_main_arg13 m c),
    (h c _ (mem_uc main_arg14 (by decide))).trans (X28_main_arg14 m c),
    (h c _ (mem_uc main_arg15 (by decide))).trans (X28_main_arg15 m c),
    (h c _ (mem_uc main_arg16 (by decide))).trans (X28_main_arg16 m c),
    (h c _ (mem_uc main_arg17 (by decide))).trans (X28_main_arg17 m c),
    (h c _ (mem_uc main_arg18 (by decide))).trans (X28_main_arg18 m c)⟩) (run_all m ρ)

end Cert.KernelIdeal.Gen

end
-- ==== Proof.RefRun.Table.lean ====
/- The reference network's host program read as a list of operations, in the order its text runs them.  Each printed
   statement is one operation on named buffers; where the text calls an outlined function (the column variance, the
   positive part) that function's own operations stand in the call's place, over the buffers that call was given.
   The list is cut where the network's stages end: the embedding of the concatenated node features, four layers
   (the neighbour sum, then twice an affine map followed by batch normalisation and the positive part), and the
   per-graph mean with the two-layer classifier.  Each stage is a concatenation of short sub-lists, none crossing
   an end of the text's own windows. -/
import proofs.«140206_j52750788330061_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 11 of @main (window 0), within opsPre: 11 operations. -/
abbrev opsPre_a : List (HloOp τ sig (Elt F)) :=
  [ StableHlo.unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg1 main_v4 ((fun a b => concatenate S50000x6 1 [⟨S50000x3, a⟩, ⟨S50000x3, b⟩] concatenates_S50000x3_S50000x3_S50000x6_d1) : (⟨S50000x3, .f32⟩ : BufTy).Contents (Elt F) → (⟨S50000x3, .f32⟩ : BufTy).Contents (Elt F) → (⟨S50000x6, .f32⟩ : BufTy).Contents (Elt F)),
    StableHlo.binary main_v4 main_arg4 main_v5 ((fun l r => Host.dotGeneral dot_S50000x6_S6x64_S50000x64_1_0_0_1_n_n none l r) : (⟨S50000x6, .f32⟩ : BufTy).Contents (Elt F) → (⟨S6x64, .f32⟩ : BufTy).Contents (Elt F) → (⟨S50000x64, .f32⟩ : BufTy).Contents (Elt F)),
    StableHlo.unary main_arg5 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S50000x64 ![0, 1] bcast_S1x64_S50000x64_0_1 : (⟨S1x64, .f32⟩ : BufTy).Contents (Elt F) → (⟨S50000x64, .f32⟩ : BufTy).Contents (Elt F)),
    StableHlo.binary main_v5 main_v7 main_v8 (addf : (⟨S50000x64, .f32⟩ : BufTy).Contents (Elt F) → (⟨S50000x64, .f32⟩ : BufTy).Contents (Elt F) → (⟨S50000x64, .f32⟩ : BufTy).Contents (Elt F)),
    StableHlo.nullary main_cst (constant S_ .f32 0x00000000#32),
    StableHlo.unary main_cst main_v9 (broadcastInDim S1 ![] bcast_S_S1 : (⟨S_, .f32⟩ : BufTy).Contents (Elt F) → (⟨S1, .f32⟩ : BufTy).Contents (Elt F)) ]

/-- Statements 12 … 47 of @main (window 0), within opsL0: 36 operations. -/
abbrev opsL0_a : List (HloOp τ sig (Elt F)) :=
  [ StableHlo.nullary main_c (constantI S_ 32 0#32),
    StableHlo.unary main_c main_v10 (broadcastInDim S800000 ![] bcast_S_S800000 : (⟨S_, .i32⟩ : BufTy).Contents (Elt F) → (⟨S800000, .i32⟩ : BufTy).Contents (Elt F)),
    StableHlo.binary main_v1 main_v10 main_v11 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v12 (broadcastInDim S800000 ![] bcast_S_S800000 : (⟨S_, .i32⟩ : BufTy).Contents (Elt F) → (⟨S800000, .i32⟩ : BufTy).Contents (Elt F)),
    StableHlo.binary main_v1 main_v12 main_v13 (addi : (⟨S800000, .i32⟩ : BufTy).Contents (Elt F) → (⟨S800000, .i32⟩ : BufTy).Contents (Elt F) → (⟨S800000, .i32⟩ : BufTy).Contents (Elt F)),
    StableHlo.ternary main_v11 main_v13 main_v1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v14 main_v15 (broadcastInDim S800000x1 ![0] bcast_S800000_S800000x1_0 : (⟨S800000, .i32⟩ : BufTy).Contents (Elt F) → (⟨S800000x1, .i32⟩ : BufTy).Contents (Elt F)),
    StableHlo.binary main_v8 main_v15 main_v16 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_1 (constant S_ .f32 0x00000000#32),
    StableHlo.unary main_cst_1 main_v17 (broadcastInDim S50000x64 ![] bcast_S_S50000x64 : (⟨S_, .f32⟩ : BufTy).Contents (Elt F) → (⟨S50000x64, .f32⟩ : BufTy).Contents (Elt F)),
    StableHlo.unary main_v3 main_v18 (broadcastInDim S800000x1 ![0] bcast_S800000_S800000x1_0 : (⟨S800000, .i32⟩ : BufTy).Contents (Elt F) → (⟨S800000x1, .i32⟩ : BufTy).Contents (Elt F)),
    StableHlo.ternary main_v17 main_v18 main_v16 main_v19 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_arg6 main_v20 ((extractStridedSlice S1 ![0] · slices_S4_S1_0) : (⟨S4, .f32⟩ : BufTy).Contents (Elt F) → (⟨S1, .f32⟩ : BufTy).Contents (Elt F)),
    StableHlo.reshape main_v20 main_v21 rfl shapeCasts_S1_S_,
    StableHlo.nullary main_cst_2 (constant S_ .f32 0x3F800000#32),
    StableHlo.binary main_cst_2 main_v21 main_v22 (addf : (⟨S_, .f32⟩ : BufTy).Contents (Elt F) → (⟨S_, .f32⟩ : BufTy).Contents (Elt F) → (⟨S_, .f32⟩ : BufTy).Contents (Elt F)),
    StableHlo.unary main_v22 main_v23 (broadcastInDim S50000x64 ![] bcast_S_S50000x64 : (⟨S_, .f32⟩ : BufTy).Contents (Elt F) → (⟨S50000x64, .f32⟩ : BufTy).Contents (Elt F)),
    StableHlo.binary main_v23 main_v8 main_v24 (mulf : (⟨S50000x64, .f32⟩ : BufTy).Contents (Elt F) → (⟨S50000x64, .f32⟩ : BufTy).Contents (Elt F) → (⟨S50000x64, .f32⟩ : BufTy).Contents (Elt F)),
    StableHlo.binary main_v24 main_v19 main_v25 (addf : (⟨S50000x64, .f32⟩ : BufTy).Contents (Elt F) → (⟨S50000x64, .f32⟩ : BufTy).Contents (Elt F) → (⟨S50000x64, .f32⟩ : BufTy).Contents (Elt F)),
    StableHlo.unary main_arg7 main_v26 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v26 main_v27 rfl shapeCasts_S1x64x64_S64x64,
    StableHlo.binary main_v25 main_v27 main_v28 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v29 ((extractStridedSlice S1x64 ![0, 0] · slices_S4x64_S1x64_0_0) : (⟨S4x64, .f32⟩ : BufTy).Contents (Elt F) → (⟨S1x64, .f32⟩ : BufTy).Contents (Elt F)),
    StableHlo.reshape main_v29 main_v30 rfl shapeCasts_S1x64_S64,
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S50000x64 ![0, 1] bcast_S1x64_S50000x64_0_1 : (⟨S1x64, .f32⟩ : BufTy).Contents (Elt F) → (⟨S50000x64, .f32⟩ : BufTy).Contents (Elt F)),
    StableHlo.binary main_v28 main_v32 main_v33 (addf : (⟨S50000x64, .f32⟩ : BufTy).Contents (Elt F) → (⟨S50000x64, .f32⟩ : BufTy).Contents (Elt F) → (⟨S50000x64, .f32⟩ : BufTy).Contents (Elt F)),
    StableHlo.unary main_arg9 main_v34 ((extractStridedSlice S1x64 ![0, 0] · slices_S4x64_S1x64_0_0) : (⟨S4x64, .f32⟩ : BufTy).Contents (Elt F) → (⟨S1x64, .f32⟩ : BufTy).Contents (Elt F)),
    StableHlo.reshape main_v34 main_v35 rfl shapeCasts_S1x64_S64,
    StableHlo.unary main_arg10 main_v36 ((extractStridedSlice S1x64 ![0, 0] · slices_S4x64_S1x64_0_0) : (⟨S4x64, .f32⟩ : BufTy).Contents (Elt F) → (⟨S1x64, .f32⟩ : BufTy).Contents (Elt F)),
    StableHlo.reshape main_v36 main_v37 rfl shapeCasts_S1x64_S64,
    StableHlo.nullary main_cst_3 (constant S_ .f32 0x00000000#32),
    StableHlo.binary main_v33 main_cst_3 main_v38 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_4 (constant S_ .f32 0x47435000#32),
    StableHlo.unary main_cst_4 main_v39 (broadcastInDim S64 ![] bcast_S_S64 : (⟨S_, .f32⟩ : BufTy).Contents (Elt F) → (⟨S64, .f32⟩ : BufTy).Contents (Elt F)) ]

/-- Statements 48 … 60 of @main (window 0), within opsL0: 34 operations. -/
abbrev opsL0_b : List (HloOp τ sig (Elt F)) :=
  [ StableHlo.binary main_v38 main_v39 main_v40 (Host.divf : (⟨S64, .f32⟩ : BufTy).Contents (Elt F) → (⟨S64, .f32⟩ : BufTy).Contents (Elt F) → (⟨S64, .f32⟩ : BufTy).Contents (Elt F)),
    StableHlo.nullary main_c_5 (constantI S_ 32 0#32),
    StableHlo.TRef.nullary main_call0.cst (constant S_ .f32 0x00000000#32),
    StableHlo.TRef.binary (.of main_v33 : StableHlo.TRef sig ⟨S50000x64, .f32⟩) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v33 : StableHlo.TRef sig ⟨S50000x64, .f32⟩) main_call0.v4 main_call0.v5 subf,
    StableHlo.TRef.binary main_call0.v5 main_call0.v5 main_call0.v6 mulf,
    StableHlo.TRef.unary (.of main_c_5 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v40 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S50000x64 ![0, 1] bcast_S1x64_S50000x64_0_1 : (⟨S1x64, .f32⟩ : BufTy).Contents (Elt F) → (⟨S50000x64, .f32⟩ : BufTy).Contents (Elt F)),
    StableHlo.binary main_v33 main_v43 main_v44 (subf : (⟨S50000x64, .f32⟩ : BufTy).Contents (Elt F) → (⟨S50000x64, .f32⟩ : BufTy).Contents (Elt F) → (⟨S50000x64, .f32⟩ : BufTy).Contents (Elt F)),
    StableHlo.nullary main_cst_6 (constant S_ .f32 0x3727C5AC#32),
    StableHlo.unary main_cst_6 main_v45 (broadcastInDim S64 ![] bcast_S_S64 : (⟨S_, .f32⟩ : BufTy).Contents (Elt F) → (⟨S64, .f32⟩ : BufTy).Contents (Elt F)),
    StableHlo.binary main_v41 main_v45 main_v46 (addf : (⟨S64, .f32⟩ : BufTy).Contents (Elt F) → (⟨S64, .f32⟩ : BufTy).Contents (Elt F) → (⟨S64, .f32⟩ : BufTy).Contents (Elt F)),
    StableHlo.unary main_v46 main_v47 (Host.rsqrt : (⟨S64, .f32⟩ : BufTy).Contents (Elt F) → (⟨S64, .f32⟩ : BufTy).Contents (Elt F)),
    StableHlo.unary main_v47 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S50000x64 ![0, 1] bcast_S1x64_S50000x64_0_1 : (⟨S1x64, .f32⟩ : BufTy).Contents (Elt F) → (⟨S50000x64, .f32⟩ : BufTy).Contents (Elt F)),
    StableHlo.binary main_v44 main_v49 main_v50 (mulf : (⟨S50000x64, .f32⟩ : BufTy).Contents (Elt F) → (⟨S50000x64, .f32⟩ : BufTy).Contents (Elt F) → (⟨S50000x64, .f32⟩ : BufTy).Contents (Elt F)) ]

/-- Statements 61 … 85 of @main (window 1), within opsL0: 27 operations. -/
abbrev opsL0_c : List (HloOp τ sig (Elt F)) :=
  [ StableHlo.unary main_v35 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S50000x64 ![0, 1] bcast_S1x64_S50000x64_0_1 : (⟨S1x64, .f32⟩ : BufTy).Contents (Elt F) → (⟨S50000x64, .f32⟩ : BufTy).Contents (Elt F)),
    StableHlo.binary main_v50 main_v52 main_v53 (mulf : (⟨S50000x64, .f32⟩ : BufTy).Contents (Elt F) → (⟨S50000x64, .f32⟩ : BufTy).Contents (Elt F) → (⟨S50000x64, .f32⟩ : BufTy).Contents (Elt F)),
    StableHlo.unary main_v37 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S50000x64 ![0, 1] bcast_S1x64_S50000x64_0_1 : (⟨S1x64, .f32⟩ : BufTy).Contents (Elt F) → (⟨S50000x64, .f32⟩ : BufTy).Contents (Elt F)),
    StableHlo.binary main_v53 main_v55 main_v56 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v56 : StableHlo.TRef sig ⟨S50000x64, .f32⟩) main_call1.v0 main_call1.v1 maximumf,
    StableHlo.unary main_arg11 main_v58 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v58 main_v59 rfl shapeCasts_S1x64x64_S64x64,
    StableHlo.binary main_v57 main_v59 main_v60 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg12 main_v61 ((extractStridedSlice S1x64 ![0, 0] · slices_S4x64_S1x64_0_0) : (⟨S4x64, .f32⟩ : BufTy).Contents (Elt F) → (⟨S1x64, .f32⟩ : BufTy).Contents (Elt F)),
    StableHlo.reshape main_v61 main_v62 rfl shapeCasts_S1x64_S64,
    StableHlo.unary main_v62 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S50000x64 ![0, 1] bcast_S1x64_S50000x64_0_1 : (⟨S1x64, .f32⟩ : BufTy).Contents (Elt F) → (⟨S50000x64, .f32⟩ : BufTy).Contents (Elt F)),
    StableHlo.binary main_v60 main_v64 main_v65 (addf : (⟨S50000x64, .f32⟩ : BufTy).Contents (Elt F) → (⟨S50000x64, .f32⟩ : BufTy).Contents (Elt F) → (⟨S50000x64, .f32⟩ : BufTy).Contents (Elt F)),
    StableHlo.unary main_arg13 main_v66 ((extractStridedSlice S1x64 ![0, 0] · slices_S4x64_S1x64_0_0) : (⟨S4x64, .f32⟩ : BufTy).Contents (Elt F) → (⟨S1x64, .f32⟩ : BufTy).Contents (Elt F)),
    StableHlo.reshape main_v66 main_v67 rfl shapeCasts_S1x64_S64,
    StableHlo.unary main_arg14 main_v68 ((extractStridedSlice S1x64 ![0, 0] · slices_S4x64_S1x64_0_0) : (⟨S4x64, .f32⟩ : BufTy).Contents (Elt F) → (⟨S1x64, .f32⟩ : BufTy).Contents (Elt F)),
    StableHlo.reshape main_v68 main_v69 rfl shapeCasts_S1x64_S64,
    StableHlo.nullary main_cst_7 (constant S_ .f32 0x00000000#32),
    StableHlo.binary main_v65 main_cst_7 main_v70 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_8 (constant S_ .f32 0x47435000#32),
    StableHlo.unary main_cst_8 main_v71 (broadcastInDim S64 ![] bcast_S_S64 : (⟨S_, .f32⟩ : BufTy).Contents (Elt F) → (⟨S64, .f32⟩ : BufTy).Contents (Elt F)),
    StableHlo.binary main_v70 main_v71 main_v72 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32) ]

/-- Statements 86 … 100 of @main (window 1), within opsL0: 36 operations. -/
abbrev opsL0_d : List (HloOp τ sig (Elt F)) :=
  [ StableHlo.TRef.nullary main_call2.cst (constant S_ .f32 0x00000000#32),
    StableHlo.TRef.binary (.of main_v65 : StableHlo.TRef sig ⟨S50000x64, .f32⟩) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v65 : StableHlo.TRef sig ⟨S50000x64, .f32⟩) main_call2.v4 main_call2.v5 subf,
    StableHlo.TRef.binary main_call2.v5 main_call2.v5 main_call2.v6 mulf,
    StableHlo.TRef.unary (.of main_c_9 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v72 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S50000x64 ![0, 1] bcast_S1x64_S50000x64_0_1 : (⟨S1x64, .f32⟩ : BufTy).Contents (Elt F) → (⟨S50000x64, .f32⟩ : BufTy).Contents (Elt F)),
    StableHlo.binary main_v65 main_v75 main_v76 (subf : (⟨S50000x64, .f32⟩ : BufTy).Contents (Elt F) → (⟨S50000x64, .f32⟩ : BufTy).Contents (Elt F) → (⟨S50000x64, .f32⟩ : BufTy).Contents (Elt F)),
    StableHlo.nullary main_cst_10 (constant S_ .f32 0x3727C5AC#32),
    StableHlo.unary main_cst_10 main_v77 (broadcastInDim S64 ![] bcast_S_S64 : (⟨S_, .f32⟩ : BufTy).Contents (Elt F) → (⟨S64, .f32⟩ : BufTy).Contents (Elt F)),
    StableHlo.binary main_v73 main_v77 main_v78 (addf : (⟨S64, .f32⟩ : BufTy).Contents (Elt F) → (⟨S64, .f32⟩ : BufTy).Contents (Elt F) → (⟨S64, .f32⟩ : BufTy).Contents (Elt F)),
    StableHlo.unary main_v78 main_v79 (Host.rsqrt : (⟨S64, .f32⟩ : BufTy).Contents (Elt F) → (⟨S64, .f32⟩ : BufTy).Contents (Elt F)),
    StableHlo.unary main_v79 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S50000x64 ![0, 1] bcast_S1x64_S50000x64_0_1 : (⟨S1x64, .f32⟩ : BufTy).Contents (Elt F) → (⟨S50000x64, .f32⟩ : BufTy).Contents (Elt F)),
    StableHlo.binary main_v76 main_v81 main_v82 (mulf : (⟨S50000x64, .f32⟩ : BufTy).Contents (Elt F) → (⟨S50000x64, .f32⟩ : BufTy).Contents (Elt F) → (⟨S50000x64, .f32⟩ : BufTy).Contents (Elt F)),
    StableHlo.unary main_v67 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S50000x64 ![0, 1] bcast_S1x64_S50000x64_0_1 : (⟨S1x64, .f32⟩ : BufTy).Contents (Elt F) → (⟨S50000x64, .f32⟩ : BufTy).Contents (Elt F)),
    StableHlo.binary main_v82 main_v84 main_v85 (mulf : (⟨S50000x64, .f32⟩ : BufTy).Contents (Elt F) → (⟨S50000x64, .f32⟩ : BufTy).Contents (Elt F) → (⟨S50000x64, .f32⟩ : BufTy).Contents (Elt F)),
    StableHlo.unary main_v69 main_v86 (broadcastInDim S1x64 ![1] bcast_S64_S1x64_1 : (⟨S64, .f32⟩ : BufTy).Contents (Elt F) → (⟨S1x64, .f32⟩ : BufTy).Contents (Elt F)) ]

/-- Statements 101 … 103 of @main (window 1), within opsL0: 5 operations. -/
abbrev opsL0_e : List (HloOp τ sig (Elt F)) :=
  [ StableHlo.unary main_v86 main_v87 (broadcastInDim S50000x64 ![0, 1] bcast_S1x64_S50000x64_0_1 : (⟨S1x64, .f32⟩ : BufTy).Contents (Elt F) → (⟨S50000x64, .f32⟩ : BufTy).Contents (Elt F)),
    StableHlo.binary main_v85 main_v87 main_v88 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v88 : StableHlo.TRef sig ⟨S50000x64, .f32⟩) main_call3.v0 main_call3.v1 maximumf ]

/-- Statements 104 … 120 of @main (window 1), within opsL1: 17 operations. -/
abbrev opsL1_a : List (HloOp τ sig (Elt F)) :=
  [ StableHlo.nullary main_c_11 (constantI S_ 32 0#32),
    StableHlo.unary main_c_11 main_v90 (broadcastInDim S800000 ![] bcast_S_S800000 : (⟨S_, .i32⟩ : BufTy).Contents (Elt F) → (⟨S800000, .i32⟩ : BufTy).Contents (Elt F)),
    StableHlo.binary main_v1 main_v90 main_v91 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v92 (broadcastInDim S800000 ![] bcast_S_S800000 : (⟨S_, .i32⟩ : BufTy).Contents (Elt F) → (⟨S800000, .i32⟩ : BufTy).Contents (Elt F)),
    StableHlo.binary main_v1 main_v92 main_v93 (addi : (⟨S800000, .i32⟩ : BufTy).Contents (Elt F) → (⟨S800000, .i32⟩ : BufTy).Contents (Elt F) → (⟨S800000, .i32⟩ : BufTy).Contents (Elt F)),
    StableHlo.ternary main_v91 main_v93 main_v1 main_v94 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v94 main_v95 (broadcastInDim S800000x1 ![0] bcast_S800000_S800000x1_0 : (⟨S800000, .i32⟩ : BufTy).Contents (Elt F) → (⟨S800000x1, .i32⟩ : BufTy).Contents (Elt F)),
    StableHlo.binary main_v89 main_v95 main_v96 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_13 (constant S_ .f32 0x00000000#32),
    StableHlo.unary main_cst_13 main_v97 (broadcastInDim S50000x64 ![] bcast_S_S50000x64 : (⟨S_, .f32⟩ : BufTy).Contents (Elt F) → (⟨S50000x64, .f32⟩ : BufTy).Contents (Elt F)),
    StableHlo.unary main_v3 main_v98 (broadcastInDim S800000x1 ![0] bcast_S800000_S800000x1_0 : (⟨S800000, .i32⟩ : BufTy).Contents (Elt F) → (⟨S800000x1, .i32⟩ : BufTy).Contents (Elt F)),
    StableHlo.ternary main_v97 main_v98 main_v96 main_v99 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_arg6 main_v100 ((extractStridedSlice S1 ![1] · slices_S4_S1_1) : (⟨S4, .f32⟩ : BufTy).Contents (Elt F) → (⟨S1, .f32⟩ : BufTy).Contents (Elt F)),
    StableHlo.reshape main_v100 main_v101 rfl shapeCasts_S1_S_,
    StableHlo.nullary main_cst_14 (constant S_ .f32 0x3F800000#32),
    StableHlo.binary main_cst_14 main_v101 main_v102 (addf : (⟨S_, .f32⟩ : BufTy).Contents (Elt F) → (⟨S_, .f32⟩ : BufTy).Contents (Elt F) → (⟨S_, .f32⟩ : BufTy).Contents (Elt F)) ]

/-- Statements 121 … 141 of @main (window 2), within opsL1: 21 operations. -/
abbrev opsL1_b : List (HloOp τ sig (Elt F)) :=
  [ StableHlo.unary main_v102 main_v103 (broadcastInDim S50000x64 ![] bcast_S_S50000x64 : (⟨S_, .f32⟩ : BufTy).Contents (Elt F) → (⟨S50000x64, .f32⟩ : BufTy).Contents (Elt F)),
    StableHlo.binary main_v103 main_v89 main_v104 (mulf : (⟨S50000x64, .f32⟩ : BufTy).Contents (Elt F) → (⟨S50000x64, .f32⟩ : BufTy).Contents (Elt F) → (⟨S50000x64, .f32⟩ : BufTy).Contents (Elt F)),
    StableHlo.binary main_v104 main_v99 main_v105 (addf : (⟨S50000x64, .f32⟩ : BufTy).Contents (Elt F) → (⟨S50000x64, .f32⟩ : BufTy).Contents (Elt F) → (⟨S50000x64, .f32⟩ : BufTy).Contents (Elt F)),
    StableHlo.unary main_arg7 main_v106 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v106 main_v107 rfl shapeCasts_S1x64x64_S64x64,
    StableHlo.binary main_v105 main_v107 main_v108 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v109 ((extractStridedSlice S1x64 ![1, 0] · slices_S4x64_S1x64_1_0) : (⟨S4x64, .f32⟩ : BufTy).Contents (Elt F) → (⟨S1x64, .f32⟩ : BufTy).Contents (Elt F)),
    StableHlo.reshape main_v109 main_v110 rfl shapeCasts_S1x64_S64,
    StableHlo.unary main_v110 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S50000x64 ![0, 1] bcast_S1x64_S50000x64_0_1 : (⟨S1x64, .f32⟩ : BufTy).Contents (Elt F) → (⟨S50000x64, .f32⟩ : BufTy).Contents (Elt F)),
    StableHlo.binary main_v108 main_v112 main_v113 (addf : (⟨S50000x64, .f32⟩ : BufTy).Contents (Elt F) → (⟨S50000x64, .f32⟩ : BufTy).Contents (Elt F) → (⟨S50000x64, .f32⟩ : BufTy).Contents (Elt F)),
    StableHlo.unary main_arg9 main_v114 ((extractStridedSlice S1x64 ![1, 0] · slices_S4x64_S1x64_1_0) : (⟨S4x64, .f32⟩ : BufTy).Contents (Elt F) → (⟨S1x64, .f32⟩ : BufTy).Contents (Elt F)),
    StableHlo.reshape main_v114 main_v115 rfl shapeCasts_S1x64_S64,
    StableHlo.unary main_arg10 main_v116 ((extractStridedSlice S1x64 ![1, 0] · slices_S4x64_S1x64_1_0) : (⟨S4x64, .f32⟩ : BufTy).Contents (Elt F) → (⟨S1x64, .f32⟩ : BufTy).Contents (Elt F)),
    StableHlo.reshape main_v116 main_v117 rfl shapeCasts_S1x64_S64,
    StableHlo.nullary main_cst_15 (constant S_ .f32 0x00000000#32),
    StableHlo.binary main_v113 main_cst_15 main_v118 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_16 (constant S_ .f32 0x47435000#32),
    StableHlo.unary main_cst_16 main_v119 (broadcastInDim S64 ![] bcast_S_S64 : (⟨S_, .f32⟩ : BufTy).Contents (Elt F) → (⟨S64, .f32⟩ : BufTy).Contents (Elt F)),
    StableHlo.binary main_v118 main_v119 main_v120 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32) ]

/-- Statements 142 … 156 of @main (window 2), within opsL1: 36 operations. -/
abbrev opsL1_c : List (HloOp τ sig (Elt F)) :=
  [ StableHlo.TRef.nullary main_call4.cst (constant S_ .f32 0x00000000#32),
    StableHlo.TRef.binary (.of main_v113 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v113 : StableHlo.TRef sig ⟨S50000x64, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v120 main_v122 (broadcastInDim S1x64 ![1] bcast_S64_S1x64_1 : (⟨S64, .f32⟩ : BufTy).Contents (Elt F) → (⟨S1x64, .f32⟩ : BufTy).Contents (Elt F)),
    StableHlo.unary main_v122 main_v123 (broadcastInDim S50000x64 ![0, 1] bcast_S1x64_S50000x64_0_1 : (⟨S1x64, .f32⟩ : BufTy).Contents (Elt F) → (⟨S50000x64, .f32⟩ : BufTy).Contents (Elt F)),
    StableHlo.binary main_v113 main_v123 main_v124 (subf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x3727C5AC#32),
    StableHlo.unary main_cst_18 main_v125 (broadcastInDim S64 ![] bcast_S_S64 : (⟨S_, .f32⟩ : BufTy).Contents (Elt F) → (⟨S64, .f32⟩ : BufTy).Contents (Elt F)),
    StableHlo.binary main_v121 main_v125 main_v126 (addf : (⟨S64, .f32⟩ : BufTy).Contents (Elt F) → (⟨S64, .f32⟩ : BufTy).Contents (Elt F) → (⟨S64, .f32⟩ : BufTy).Contents (Elt F)),
    StableHlo.unary main_v126 main_v127 (Host.rsqrt : (⟨S64, .f32⟩ : BufTy).Contents (Elt F) → (⟨S64, .f32⟩ : BufTy).Contents (Elt F)),
    StableHlo.unary main_v127 main_v128 (broadcastInDim S1x64 ![1] bcast_S64_S1x64_1 : (⟨S64, .f32⟩ : BufTy).Contents (Elt F) → (⟨S1x64, .f32⟩ : BufTy).Contents (Elt F)),
    StableHlo.unary main_v128 main_v129 (broadcastInDim S50000x64 ![0, 1] bcast_S1x64_S50000x64_0_1 : (⟨S1x64, .f32⟩ : BufTy).Contents (Elt F) → (⟨S50000x64, .f32⟩ : BufTy).Contents (Elt F)),
    StableHlo.binary main_v124 main_v129 main_v130 (mulf : (⟨S50000x64, .f32⟩ : BufTy).Contents (Elt F) → (⟨S50000x64, .f32⟩ : BufTy).Contents (Elt F) → (⟨S50000x64, .f32⟩ : BufTy).Contents (Elt F)),
    StableHlo.unary main_v115 main_v131 (broadcastInDim S1x64 ![1] bcast_S64_S1x64_1 : (⟨S64, .f32⟩ : BufTy).Contents (Elt F) → (⟨S1x64, .f32⟩ : BufTy).Contents (Elt F)),
    StableHlo.unary main_v131 main_v132 (broadcastInDim S50000x64 ![0, 1] bcast_S1x64_S50000x64_0_1 : (⟨S1x64, .f32⟩ : BufTy).Contents (Elt F) → (⟨S50000x64, .f32⟩ : BufTy).Contents (Elt F)),
    StableHlo.binary main_v130 main_v132 main_v133 (mulf : (⟨S50000x64, .f32⟩ : BufTy).Contents (Elt F) → (⟨S50000x64, .f32⟩ : BufTy).Contents (Elt F) → (⟨S50000x64, .f32⟩ : BufTy).Contents (Elt F)),
    StableHlo.unary main_v117 main_v134 (broadcastInDim S1x64 ![1] bcast_S64_S1x64_1 : (⟨S64, .f32⟩ : BufTy).Contents (Elt F) → (⟨S1x64, .f32⟩ : BufTy).Contents (Elt F)) ]

/-- Statements 157 … 177 of @main (window 2), within opsL1: 23 operations. -/
abbrev opsL1_d : List (HloOp τ sig (Elt F)) :=
  [ StableHlo.unary main_v134 main_v135 (broadcastInDim S50000x64 ![0, 1] bcast_S1x64_S50000x64_0_1 : (⟨S1x64, .f32⟩ : BufTy).Contents (Elt F) → (⟨S50000x64, .f32⟩ : BufTy).Contents (Elt F)),
    StableHlo.binary main_v133 main_v135 main_v136 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v136 : StableHlo.TRef sig ⟨S50000x64, .f32⟩) main_call5.v0 main_call5.v1 maximumf,
    StableHlo.unary main_arg11 main_v138 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v138 main_v139 rfl shapeCasts_S1x64x64_S64x64,
    StableHlo.binary main_v137 main_v139 main_v140 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg12 main_v141 ((extractStridedSlice S1x64 ![1, 0] · slices_S4x64_S1x64_1_0) : (⟨S4x64, .f32⟩ : BufTy).Contents (Elt F) → (⟨S1x64, .f32⟩ : BufTy).Contents (Elt F)),
    StableHlo.reshape main_v141 main_v142 rfl shapeCasts_S1x64_S64,
    StableHlo.unary main_v142 main_v143 (broadcastInDim S1x64 ![1] bcast_S64_S1x64_1 : (⟨S64, .f32⟩ : BufTy).Contents (Elt F) → (⟨S1x64, .f32⟩ : BufTy).Contents (Elt F)),
    StableHlo.unary main_v143 main_v144 (broadcastInDim S50000x64 ![0, 1] bcast_S1x64_S50000x64_0_1 : (⟨S1x64, .f32⟩ : BufTy).Contents (Elt F) → (⟨S50000x64, .f32⟩ : BufTy).Contents (Elt F)),
    StableHlo.binary main_v140 main_v144 main_v145 (addf : (⟨S50000x64, .f32⟩ : BufTy).Contents (Elt F) → (⟨S50000x64, .f32⟩ : BufTy).Contents (Elt F) → (⟨S50000x64, .f32⟩ : BufTy).Contents (Elt F)),
    StableHlo.unary main_arg13 main_v146 ((extractStridedSlice S1x64 ![1, 0] · slices_S4x64_S1x64_1_0) : (⟨S4x64, .f32⟩ : BufTy).Contents (Elt F) → (⟨S1x64, .f32⟩ : BufTy).Contents (Elt F)),
    StableHlo.reshape main_v146 main_v147 rfl shapeCasts_S1x64_S64,
    StableHlo.unary main_arg14 main_v148 ((extractStridedSlice S1x64 ![1, 0] · slices_S4x64_S1x64_1_0) : (⟨S4x64, .f32⟩ : BufTy).Contents (Elt F) → (⟨S1x64, .f32⟩ : BufTy).Contents (Elt F)),
    StableHlo.reshape main_v148 main_v149 rfl shapeCasts_S1x64_S64,
    StableHlo.nullary main_cst_19 (constant S_ .f32 0x00000000#32),
    StableHlo.binary main_v145 main_cst_19 main_v150 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_20 (constant S_ .f32 0x47435000#32),
    StableHlo.unary main_cst_20 main_v151 (broadcastInDim S64 ![] bcast_S_S64 : (⟨S_, .f32⟩ : BufTy).Contents (Elt F) → (⟨S64, .f32⟩ : BufTy).Contents (Elt F)),
    StableHlo.binary main_v150 main_v151 main_v152 (Host.divf : (⟨S64, .f32⟩ : BufTy).Contents (Elt F) → (⟨S64, .f32⟩ : BufTy).Contents (Elt F) → (⟨S64, .f32⟩ : BufTy).Contents (Elt F)),
    StableHlo.nullary main_c_21 (constantI S_ 32 0#32) ]

/-- Statements 178 … 180 of @main (window 2), within opsL1: 24 operations. -/
abbrev opsL1_e : List (HloOp τ sig (Elt F)) :=
  [ StableHlo.TRef.nullary main_call6.cst (constant S_ .f32 0x00000000#32),
    StableHlo.TRef.binary (.of main_v145 : StableHlo.TRef sig ⟨S50000x64, .f32⟩) main_call6.cst main_call6.v0 (fun x v => Host.reduceAdd x v reducesTo_S50000x64_S64_d0 h_S_),
    StableHlo.TRef.unary main_call6.v0 main_call6.v1 (broadcastInDim S1x64 ![1] bcast_S64_S1x64_1),
    StableHlo.TRef.nullary main_call6.cst_0 (constant S_ .f32 0x47435000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S50000x64 ![0, 1] bcast_S1x64_S50000x64_0_1),
    StableHlo.TRef.binary (.of main_v145 : StableHlo.TRef sig ⟨S50000x64, .f32⟩) main_call6.v4 main_call6.v5 subf,
    StableHlo.TRef.binary main_call6.v5 main_call6.v5 main_call6.v6 mulf,
    StableHlo.TRef.unary (.of main_c_21 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v152 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S50000x64 ![0, 1] bcast_S1x64_S50000x64_0_1 : (⟨S1x64, .f32⟩ : BufTy).Contents (Elt F) → (⟨S50000x64, .f32⟩ : BufTy).Contents (Elt F)) ]

/-- Statements 181 … 195 of @main (window 3), within opsL1: 17 operations. -/
abbrev opsL1_f : List (HloOp τ sig (Elt F)) :=
  [ StableHlo.binary main_v145 main_v155 main_v156 (subf : (⟨S50000x64, .f32⟩ : BufTy).Contents (Elt F) → (⟨S50000x64, .f32⟩ : BufTy).Contents (Elt F) → (⟨S50000x64, .f32⟩ : BufTy).Contents (Elt F)),
    StableHlo.nullary main_cst_22 (constant S_ .f32 0x3727C5AC#32),
    StableHlo.unary main_cst_22 main_v157 (broadcastInDim S64 ![] bcast_S_S64 : (⟨S_, .f32⟩ : BufTy).Contents (Elt F) → (⟨S64, .f32⟩ : BufTy).Contents (Elt F)),
    StableHlo.binary main_v153 main_v157 main_v158 (addf : (⟨S64, .f32⟩ : BufTy).Contents (Elt F) → (⟨S64, .f32⟩ : BufTy).Contents (Elt F) → (⟨S64, .f32⟩ : BufTy).Contents (Elt F)),
    StableHlo.unary main_v158 main_v159 (Host.rsqrt : (⟨S64, .f32⟩ : BufTy).Contents (Elt F) → (⟨S64, .f32⟩ : BufTy).Contents (Elt F)),
    StableHlo.unary main_v159 main_v160 (broadcastInDim S1x64 ![1] bcast_S64_S1x64_1 : (⟨S64, .f32⟩ : BufTy).Contents (Elt F) → (⟨S1x64, .f32⟩ : BufTy).Contents (Elt F)),
    StableHlo.unary main_v160 main_v161 (broadcastInDim S50000x64 ![0, 1] bcast_S1x64_S50000x64_0_1 : (⟨S1x64, .f32⟩ : BufTy).Contents (Elt F) → (⟨S50000x64, .f32⟩ : BufTy).Contents (Elt F)),
    StableHlo.binary main_v156 main_v161 main_v162 (mulf : (⟨S50000x64, .f32⟩ : BufTy).Contents (Elt F) → (⟨S50000x64, .f32⟩ : BufTy).Contents (Elt F) → (⟨S50000x64, .f32⟩ : BufTy).Contents (Elt F)),
    StableHlo.unary main_v147 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S50000x64 ![0, 1] bcast_S1x64_S50000x64_0_1 : (⟨S1x64, .f32⟩ : BufTy).Contents (Elt F) → (⟨S50000x64, .f32⟩ : BufTy).Contents (Elt F)),
    StableHlo.binary main_v162 main_v164 main_v165 (mulf : (⟨S50000x64, .f32⟩ : BufTy).Contents (Elt F) → (⟨S50000x64, .f32⟩ : BufTy).Contents (Elt F) → (⟨S50000x64, .f32⟩ : BufTy).Contents (Elt F)),
    StableHlo.unary main_v149 main_v166 (broadcastInDim S1x64 ![1] bcast_S64_S1x64_1 : (⟨S64, .f32⟩ : BufTy).Contents (Elt F) → (⟨S1x64, .f32⟩ : BufTy).Contents (Elt F)),
    StableHlo.unary main_v166 main_v167 (broadcastInDim S50000x64 ![0, 1] bcast_S1x64_S50000x64_0_1 : (⟨S1x64, .f32⟩ : BufTy).Contents (Elt F) → (⟨S50000x64, .f32⟩ : BufTy).Contents (Elt F)),
    StableHlo.binary main_v165 main_v167 main_v168 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (.of main_v168 : StableHlo.TRef sig ⟨S50000x64, .f32⟩) main_call7.v0 main_call7.v1 maximumf ]

/-- Statements 196 … 231 of @main (window 3), within opsL2: 36 operations. -/
abbrev opsL2_a : List (HloOp τ sig (Elt F)) :=
  [ StableHlo.nullary main_c_23 (constantI S_ 32 0#32),
    StableHlo.unary main_c_23 main_v170 (broadcastInDim S800000 ![] bcast_S_S800000 : (⟨S_, .i32⟩ : BufTy).Contents (Elt F) → (⟨S800000, .i32⟩ : BufTy).Contents (Elt F)),
    StableHlo.binary main_v1 main_v170 main_v171 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v172 (broadcastInDim S800000 ![] bcast_S_S800000 : (⟨S_, .i32⟩ : BufTy).Contents (Elt F) → (⟨S800000, .i32⟩ : BufTy).Contents (Elt F)),
    StableHlo.binary main_v1 main_v172 main_v173 (addi : (⟨S800000, .i32⟩ : BufTy).Contents (Elt F) → (⟨S800000, .i32⟩ : BufTy).Contents (Elt F) → (⟨S800000, .i32⟩ : BufTy).Contents (Elt F)),
    StableHlo.ternary main_v171 main_v173 main_v1 main_v174 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v174 main_v175 (broadcastInDim S800000x1 ![0] bcast_S800000_S800000x1_0 : (⟨S800000, .i32⟩ : BufTy).Contents (Elt F) → (⟨S800000x1, .i32⟩ : BufTy).Contents (Elt F)),
    StableHlo.binary main_v169 main_v175 main_v176 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_25 (constant S_ .f32 0x00000000#32),
    StableHlo.unary main_cst_25 main_v177 (broadcastInDim S50000x64 ![] bcast_S_S50000x64 : (⟨S_, .f32⟩ : BufTy).Contents (Elt F) → (⟨S50000x64, .f32⟩ : BufTy).Contents (Elt F)),
    StableHlo.unary main_v3 main_v178 (broadcastInDim S800000x1 ![0] bcast_S800000_S800000x1_0 : (⟨S800000, .i32⟩ : BufTy).Contents (Elt F) → (⟨S800000x1, .i32⟩ : BufTy).Contents (Elt F)),
    StableHlo.ternary main_v177 main_v178 main_v176 main_v179 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_arg6 main_v180 ((extractStridedSlice S1 ![2] · slices_S4_S1_2) : (⟨S4, .f32⟩ : BufTy).Contents (Elt F) → (⟨S1, .f32⟩ : BufTy).Contents (Elt F)),
    StableHlo.reshape main_v180 main_v181 rfl shapeCasts_S1_S_,
    StableHlo.nullary main_cst_26 (constant S_ .f32 0x3F800000#32),
    StableHlo.binary main_cst_26 main_v181 main_v182 (addf : (⟨S_, .f32⟩ : BufTy).Contents (Elt F) → (⟨S_, .f32⟩ : BufTy).Contents (Elt F) → (⟨S_, .f32⟩ : BufTy).Contents (Elt F)),
    StableHlo.unary main_v182 main_v183 (broadcastInDim S50000x64 ![] bcast_S_S50000x64 : (⟨S_, .f32⟩ : BufTy).Contents (Elt F) → (⟨S50000x64, .f32⟩ : BufTy).Contents (Elt F)),
    StableHlo.binary main_v183 main_v169 main_v184 (mulf : (⟨S50000x64, .f32⟩ : BufTy).Contents (Elt F) → (⟨S50000x64, .f32⟩ : BufTy).Contents (Elt F) → (⟨S50000x64, .f32⟩ : BufTy).Contents (Elt F)),
    StableHlo.binary main_v184 main_v179 main_v185 (addf : (⟨S50000x64, .f32⟩ : BufTy).Contents (Elt F) → (⟨S50000x64, .f32⟩ : BufTy).Contents (Elt F) → (⟨S50000x64, .f32⟩ : BufTy).Contents (Elt F)),
    StableHlo.unary main_arg7 main_v186 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v186 main_v187 rfl shapeCasts_S1x64x64_S64x64,
    StableHlo.binary main_v185 main_v187 main_v188 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v189 ((extractStridedSlice S1x64 ![2, 0] · slices_S4x64_S1x64_2_0) : (⟨S4x64, .f32⟩ : BufTy).Contents (Elt F) → (⟨S1x64, .f32⟩ : BufTy).Contents (Elt F)),
    StableHlo.reshape main_v189 main_v190 rfl shapeCasts_S1x64_S64,
    StableHlo.unary main_v190 main_v191 (broadcastInDim S1x64 ![1] bcast_S64_S1x64_1 : (⟨S64, .f32⟩ : BufTy).Contents (Elt F) → (⟨S1x64, .f32⟩ : BufTy).Contents (Elt F)),
    StableHlo.unary main_v191 main_v192 (broadcastInDim S50000x64 ![0, 1] bcast_S1x64_S50000x64_0_1 : (⟨S1x64, .f32⟩ : BufTy).Contents (Elt F) → (⟨S50000x64, .f32⟩ : BufTy).Contents (Elt F)),
    StableHlo.binary main_v188 main_v192 main_v193 (addf : (⟨S50000x64, .f32⟩ : BufTy).Contents (Elt F) → (⟨S50000x64, .f32⟩ : BufTy).Contents (Elt F) → (⟨S50000x64, .f32⟩ : BufTy).Contents (Elt F)),
    StableHlo.unary main_arg9 main_v194 ((extractStridedSlice S1x64 ![2, 0] · slices_S4x64_S1x64_2_0) : (⟨S4x64, .f32⟩ : BufTy).Contents (Elt F) → (⟨S1x64, .f32⟩ : BufTy).Contents (Elt F)),
    StableHlo.reshape main_v194 main_v195 rfl shapeCasts_S1x64_S64,
    StableHlo.unary main_arg10 main_v196 ((extractStridedSlice S1x64 ![2, 0] · slices_S4x64_S1x64_2_0) : (⟨S4x64, .f32⟩ : BufTy).Contents (Elt F) → (⟨S1x64, .f32⟩ : BufTy).Contents (Elt F)),
    StableHlo.reshape main_v196 main_v197 rfl shapeCasts_S1x64_S64,
    StableHlo.nullary main_cst_27 (constant S_ .f32 0x00000000#32),
    StableHlo.binary main_v193 main_cst_27 main_v198 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_28 (constant S_ .f32 0x47435000#32),
    StableHlo.unary main_cst_28 main_v199 (broadcastInDim S64 ![] bcast_S_S64 : (⟨S_, .f32⟩ : BufTy).Contents (Elt F) → (⟨S64, .f32⟩ : BufTy).Contents (Elt F)) ]

/-- Statements 232 … 240 of @main (window 3), within opsL2: 30 operations. -/
abbrev opsL2_b : List (HloOp τ sig (Elt F)) :=
  [ StableHlo.binary main_v198 main_v199 main_v200 (Host.divf : (⟨S64, .f32⟩ : BufTy).Contents (Elt F) → (⟨S64, .f32⟩ : BufTy).Contents (Elt F) → (⟨S64, .f32⟩ : BufTy).Contents (Elt F)),
    StableHlo.nullary main_c_29 (constantI S_ 32 0#32),
    StableHlo.TRef.nullary main_call8.cst (constant S_ .f32 0x00000000#32),
    StableHlo.TRef.binary (.of main_v193 : StableHlo.TRef sig ⟨S50000x64, .f32⟩) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (.of main_v193 : StableHlo.TRef sig ⟨S50000x64, .f32⟩) main_call8.v4 main_call8.v5 subf,
    StableHlo.TRef.binary main_call8.v5 main_call8.v5 main_call8.v6 mulf,
    StableHlo.TRef.unary (.of main_c_29 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v200 main_v202 (broadcastInDim S1x64 ![1] bcast_S64_S1x64_1 : (⟨S64, .f32⟩ : BufTy).Contents (Elt F) → (⟨S1x64, .f32⟩ : BufTy).Contents (Elt F)),
    StableHlo.unary main_v202 main_v203 (broadcastInDim S50000x64 ![0, 1] bcast_S1x64_S50000x64_0_1 : (⟨S1x64, .f32⟩ : BufTy).Contents (Elt F) → (⟨S50000x64, .f32⟩ : BufTy).Contents (Elt F)),
    StableHlo.binary main_v193 main_v203 main_v204 (subf : (⟨S50000x64, .f32⟩ : BufTy).Contents (Elt F) → (⟨S50000x64, .f32⟩ : BufTy).Contents (Elt F) → (⟨S50000x64, .f32⟩ : BufTy).Contents (Elt F)),
    StableHlo.nullary main_cst_30 (constant S_ .f32 0x3727C5AC#32),
    StableHlo.unary main_cst_30 main_v205 (broadcastInDim S64 ![] bcast_S_S64 : (⟨S_, .f32⟩ : BufTy).Contents (Elt F) → (⟨S64, .f32⟩ : BufTy).Contents (Elt F)),
    StableHlo.binary main_v201 main_v205 main_v206 (addf : (⟨S64, .f32⟩ : BufTy).Contents (Elt F) → (⟨S64, .f32⟩ : BufTy).Contents (Elt F) → (⟨S64, .f32⟩ : BufTy).Contents (Elt F)) ]

/-- Statements 241 … 269 of @main (window 4), within opsL2: 31 operations. -/
abbrev opsL2_c : List (HloOp τ sig (Elt F)) :=
  [ StableHlo.unary main_v206 main_v207 (Host.rsqrt : (⟨S64, .f32⟩ : BufTy).Contents (Elt F) → (⟨S64, .f32⟩ : BufTy).Contents (Elt F)),
    StableHlo.unary main_v207 main_v208 (broadcastInDim S1x64 ![1] bcast_S64_S1x64_1 : (⟨S64, .f32⟩ : BufTy).Contents (Elt F) → (⟨S1x64, .f32⟩ : BufTy).Contents (Elt F)),
    StableHlo.unary main_v208 main_v209 (broadcastInDim S50000x64 ![0, 1] bcast_S1x64_S50000x64_0_1 : (⟨S1x64, .f32⟩ : BufTy).Contents (Elt F) → (⟨S50000x64, .f32⟩ : BufTy).Contents (Elt F)),
    StableHlo.binary main_v204 main_v209 main_v210 (mulf : (⟨S50000x64, .f32⟩ : BufTy).Contents (Elt F) → (⟨S50000x64, .f32⟩ : BufTy).Contents (Elt F) → (⟨S50000x64, .f32⟩ : BufTy).Contents (Elt F)),
    StableHlo.unary main_v195 main_v211 (broadcastInDim S1x64 ![1] bcast_S64_S1x64_1 : (⟨S64, .f32⟩ : BufTy).Contents (Elt F) → (⟨S1x64, .f32⟩ : BufTy).Contents (Elt F)),
    StableHlo.unary main_v211 main_v212 (broadcastInDim S50000x64 ![0, 1] bcast_S1x64_S50000x64_0_1 : (⟨S1x64, .f32⟩ : BufTy).Contents (Elt F) → (⟨S50000x64, .f32⟩ : BufTy).Contents (Elt F)),
    StableHlo.binary main_v210 main_v212 main_v213 (mulf : (⟨S50000x64, .f32⟩ : BufTy).Contents (Elt F) → (⟨S50000x64, .f32⟩ : BufTy).Contents (Elt F) → (⟨S50000x64, .f32⟩ : BufTy).Contents (Elt F)),
    StableHlo.unary main_v197 main_v214 (broadcastInDim S1x64 ![1] bcast_S64_S1x64_1 : (⟨S64, .f32⟩ : BufTy).Contents (Elt F) → (⟨S1x64, .f32⟩ : BufTy).Contents (Elt F)),
    StableHlo.unary main_v214 main_v215 (broadcastInDim S50000x64 ![0, 1] bcast_S1x64_S50000x64_0_1 : (⟨S1x64, .f32⟩ : BufTy).Contents (Elt F) → (⟨S50000x64, .f32⟩ : BufTy).Contents (Elt F)),
    StableHlo.binary main_v213 main_v215 main_v216 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (.of main_v216 : StableHlo.TRef sig ⟨S50000x64, .f32⟩) main_call9.v0 main_call9.v1 maximumf,
    StableHlo.unary main_arg11 main_v218 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v218 main_v219 rfl shapeCasts_S1x64x64_S64x64,
    StableHlo.binary main_v217 main_v219 main_v220 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg12 main_v221 ((extractStridedSlice S1x64 ![2, 0] · slices_S4x64_S1x64_2_0) : (⟨S4x64, .f32⟩ : BufTy).Contents (Elt F) → (⟨S1x64, .f32⟩ : BufTy).Contents (Elt F)),
    StableHlo.reshape main_v221 main_v222 rfl shapeCasts_S1x64_S64,
    StableHlo.unary main_v222 main_v223 (broadcastInDim S1x64 ![1] bcast_S64_S1x64_1 : (⟨S64, .f32⟩ : BufTy).Contents (Elt F) → (⟨S1x64, .f32⟩ : BufTy).Contents (Elt F)),
    StableHlo.unary main_v223 main_v224 (broadcastInDim S50000x64 ![0, 1] bcast_S1x64_S50000x64_0_1 : (⟨S1x64, .f32⟩ : BufTy).Contents (Elt F) → (⟨S50000x64, .f32⟩ : BufTy).Contents (Elt F)),
    StableHlo.binary main_v220 main_v224 main_v225 (addf : (⟨S50000x64, .f32⟩ : BufTy).Contents (Elt F) → (⟨S50000x64, .f32⟩ : BufTy).Contents (Elt F) → (⟨S50000x64, .f32⟩ : BufTy).Contents (Elt F)),
    StableHlo.unary main_arg13 main_v226 ((extractStridedSlice S1x64 ![2, 0] · slices_S4x64_S1x64_2_0) : (⟨S4x64, .f32⟩ : BufTy).Contents (Elt F) → (⟨S1x64, .f32⟩ : BufTy).Contents (Elt F)),
    StableHlo.reshape main_v226 main_v227 rfl shapeCasts_S1x64_S64,
    StableHlo.unary main_arg14 main_v228 ((extractStridedSlice S1x64 ![2, 0] · slices_S4x64_S1x64_2_0) : (⟨S4x64, .f32⟩ : BufTy).Contents (Elt F) → (⟨S1x64, .f32⟩ : BufTy).Contents (Elt F)),
    StableHlo.reshape main_v228 main_v229 rfl shapeCasts_S1x64_S64,
    StableHlo.nullary main_cst_31 (constant S_ .f32 0x00000000#32),
    StableHlo.binary main_v225 main_cst_31 main_v230 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_32 (constant S_ .f32 0x47435000#32),
    StableHlo.unary main_cst_32 main_v231 (broadcastInDim S64 ![] bcast_S_S64 : (⟨S_, .f32⟩ : BufTy).Contents (Elt F) → (⟨S64, .f32⟩ : BufTy).Contents (Elt F)),
    StableHlo.binary main_v230 main_v231 main_v232 (Host.divf : (⟨S64, .f32⟩ : BufTy).Contents (Elt F) → (⟨S64, .f32⟩ : BufTy).Contents (Elt F) → (⟨S64, .f32⟩ : BufTy).Contents (Elt F)),
    StableHlo.nullary main_c_33 (constantI S_ 32 0#32) ]

/-- Statements 270 … 284 of @main (window 4), within opsL2: 36 operations. -/
abbrev opsL2_d : List (HloOp τ sig (Elt F)) :=
  [ StableHlo.TRef.nullary main_call10.cst (constant S_ .f32 0x00000000#32),
    StableHlo.TRef.binary (.of main_v225 : StableHlo.TRef sig ⟨S50000x64, .f32⟩) main_call10.cst main_call10.v0 (fun x v => Host.reduceAdd x v reducesTo_S50000x64_S64_d0 h_S_),
    StableHlo.TRef.unary main_call10.v0 main_call10.v1 (broadcastInDim S1x64 ![1] bcast_S64_S1x64_1),
    StableHlo.TRef.nullary main_call10.cst_0 (constant S_ .f32 0x47435000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S50000x64 ![0, 1] bcast_S1x64_S50000x64_0_1),
    StableHlo.TRef.binary (.of main_v225 : StableHlo.TRef sig ⟨S50000x64, .f32⟩) main_call10.v4 main_call10.v5 subf,
    StableHlo.TRef.binary main_call10.v5 main_call10.v5 main_call10.v6 mulf,
    StableHlo.TRef.unary (.of main_c_33 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v232 main_v234 (broadcastInDim S1x64 ![1] bcast_S64_S1x64_1 : (⟨S64, .f32⟩ : BufTy).Contents (Elt F) → (⟨S1x64, .f32⟩ : BufTy).Contents (Elt F)),
    StableHlo.unary main_v234 main_v235 (broadcastInDim S50000x64 ![0, 1] bcast_S1x64_S50000x64_0_1 : (⟨S1x64, .f32⟩ : BufTy).Contents (Elt F) → (⟨S50000x64, .f32⟩ : BufTy).Contents (Elt F)),
    StableHlo.binary main_v225 main_v235 main_v236 (subf : (⟨S50000x64, .f32⟩ : BufTy).Contents (Elt F) → (⟨S50000x64, .f32⟩ : BufTy).Contents (Elt F) → (⟨S50000x64, .f32⟩ : BufTy).Contents (Elt F)),
    StableHlo.nullary main_cst_34 (constant S_ .f32 0x3727C5AC#32),
    StableHlo.unary main_cst_34 main_v237 (broadcastInDim S64 ![] bcast_S_S64 : (⟨S_, .f32⟩ : BufTy).Contents (Elt F) → (⟨S64, .f32⟩ : BufTy).Contents (Elt F)),
    StableHlo.binary main_v233 main_v237 main_v238 (addf : (⟨S64, .f32⟩ : BufTy).Contents (Elt F) → (⟨S64, .f32⟩ : BufTy).Contents (Elt F) → (⟨S64, .f32⟩ : BufTy).Contents (Elt F)),
    StableHlo.unary main_v238 main_v239 (Host.rsqrt : (⟨S64, .f32⟩ : BufTy).Contents (Elt F) → (⟨S64, .f32⟩ : BufTy).Contents (Elt F)),
    StableHlo.unary main_v239 main_v240 (broadcastInDim S1x64 ![1] bcast_S64_S1x64_1 : (⟨S64, .f32⟩ : BufTy).Contents (Elt F) → (⟨S1x64, .f32⟩ : BufTy).Contents (Elt F)),
    StableHlo.unary main_v240 main_v241 (broadcastInDim S50000x64 ![0, 1] bcast_S1x64_S50000x64_0_1 : (⟨S1x64, .f32⟩ : BufTy).Contents (Elt F) → (⟨S50000x64, .f32⟩ : BufTy).Contents (Elt F)),
    StableHlo.binary main_v236 main_v241 main_v242 (mulf : (⟨S50000x64, .f32⟩ : BufTy).Contents (Elt F) → (⟨S50000x64, .f32⟩ : BufTy).Contents (Elt F) → (⟨S50000x64, .f32⟩ : BufTy).Contents (Elt F)),
    StableHlo.unary main_v227 main_v243 (broadcastInDim S1x64 ![1] bcast_S64_S1x64_1 : (⟨S64, .f32⟩ : BufTy).Contents (Elt F) → (⟨S1x64, .f32⟩ : BufTy).Contents (Elt F)),
    StableHlo.unary main_v243 main_v244 (broadcastInDim S50000x64 ![0, 1] bcast_S1x64_S50000x64_0_1 : (⟨S1x64, .f32⟩ : BufTy).Contents (Elt F) → (⟨S50000x64, .f32⟩ : BufTy).Contents (Elt F)),
    StableHlo.binary main_v242 main_v244 main_v245 (mulf : (⟨S50000x64, .f32⟩ : BufTy).Contents (Elt F) → (⟨S50000x64, .f32⟩ : BufTy).Contents (Elt F) → (⟨S50000x64, .f32⟩ : BufTy).Contents (Elt F)),
    StableHlo.unary main_v229 main_v246 (broadcastInDim S1x64 ![1] bcast_S64_S1x64_1 : (⟨S64, .f32⟩ : BufTy).Contents (Elt F) → (⟨S1x64, .f32⟩ : BufTy).Contents (Elt F)) ]

/-- Statements 285 … 287 of @main (window 4), within opsL2: 5 operations. -/
abbrev opsL2_e : List (HloOp τ sig (Elt F)) :=
  [ StableHlo.unary main_v246 main_v247 (broadcastInDim S50000x64 ![0, 1] bcast_S1x64_S50000x64_0_1 : (⟨S1x64, .f32⟩ : BufTy).Contents (Elt F) → (⟨S50000x64, .f32⟩ : BufTy).Contents (Elt F)),
    StableHlo.binary main_v245 main_v247 main_v248 (addf : (⟨S50000x64, .f32⟩ : BufTy).Contents (Elt F) → (⟨S50000x64, .f32⟩ : BufTy).Contents (Elt F) → (⟨S50000x64, .f32⟩ : BufTy).Contents (Elt F)),
    StableHlo.TRef.nullary main_call11.cst (constant S_ .f32 0x00000000#32),
    StableHlo.TRef.unary main_call11.cst main_call11.v0 (broadcastInDim S50000x64 ![] bcast_S_S50000x64),
    StableHlo.TRef.binary (.of main_v248 : StableHlo.TRef sig ⟨S50000x64, .f32⟩) main_call11.v0 main_call11.v1 maximumf ]

/-- Statements 288 … 300 of @main (window 4), within opsL3: 13 operations. -/
abbrev opsL3_a : List (HloOp τ sig (Elt F)) :=
  [ StableHlo.nullary main_c_35 (constantI S_ 32 0#32),
    StableHlo.unary main_c_35 main_v250 (broadcastInDim S800000 ![] bcast_S_S800000 : (⟨S_, .i32⟩ : BufTy).Contents (Elt F) → (⟨S800000, .i32⟩ : BufTy).Contents (Elt F)),
    StableHlo.binary main_v1 main_v250 main_v251 (cmpi .slt : (⟨S800000, .i32⟩ : BufTy).Contents (Elt F) → (⟨S800000, .i32⟩ : BufTy).Contents (Elt F) → (⟨S800000, .i1⟩ : BufTy).Contents (Elt F)),
    StableHlo.nullary main_c_36 (constantI S_ 32 50000#32),
    StableHlo.unary main_c_36 main_v252 (broadcastInDim S800000 ![] bcast_S_S800000 : (⟨S_, .i32⟩ : BufTy).Contents (Elt F) → (⟨S800000, .i32⟩ : BufTy).Contents (Elt F)),
    StableHlo.binary main_v1 main_v252 main_v253 (addi : (⟨S800000, .i32⟩ : BufTy).Contents (Elt F) → (⟨S800000, .i32⟩ : BufTy).Contents (Elt F) → (⟨S800000, .i32⟩ : BufTy).Contents (Elt F)),
    StableHlo.ternary main_v251 main_v253 main_v1 main_v254 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v254 main_v255 (broadcastInDim S800000x1 ![0] bcast_S800000_S800000x1_0 : (⟨S800000, .i32⟩ : BufTy).Contents (Elt F) → (⟨S800000x1, .i32⟩ : BufTy).Contents (Elt F)),
    StableHlo.binary main_v249 main_v255 main_v256 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_37 (constant S_ .f32 0x00000000#32),
    StableHlo.unary main_cst_37 main_v257 (broadcastInDim S50000x64 ![] bcast_S_S50000x64 : (⟨S_, .f32⟩ : BufTy).Contents (Elt F) → (⟨S50000x64, .f32⟩ : BufTy).Contents (Elt F)),
    StableHlo.unary main_v3 main_v258 (broadcastInDim S800000x1 ![0] bcast_S800000_S800000x1_0 : (⟨S800000, .i32⟩ : BufTy).Contents (Elt F) → (⟨S800000x1, .i32⟩ : BufTy).Contents (Elt F)),
    StableHlo.ternary main_v257 main_v258 main_v256 main_v259 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Statements 301 … 325 of @main (window 5), within opsL3: 25 operations. -/
abbrev opsL3_b : List (HloOp τ sig (Elt F)) :=
  [ StableHlo.unary main_arg6 main_v260 ((extractStridedSlice S1 ![3] · slices_S4_S1_3) : (⟨S4, .f32⟩ : BufTy).Contents (Elt F) → (⟨S1, .f32⟩ : BufTy).Contents (Elt F)),
    StableHlo.reshape main_v260 main_v261 rfl shapeCasts_S1_S_,
    StableHlo.nullary main_cst_38 (constant S_ .f32 0x3F800000#32),
    StableHlo.binary main_cst_38 main_v261 main_v262 (addf : (⟨S_, .f32⟩ : BufTy).Contents (Elt F) → (⟨S_, .f32⟩ : BufTy).Contents (Elt F) → (⟨S_, .f32⟩ : BufTy).Contents (Elt F)),
    StableHlo.unary main_v262 main_v263 (broadcastInDim S50000x64 ![] bcast_S_S50000x64 : (⟨S_, .f32⟩ : BufTy).Contents (Elt F) → (⟨S50000x64, .f32⟩ : BufTy).Contents (Elt F)),
    StableHlo.binary main_v263 main_v249 main_v264 (mulf : (⟨S50000x64, .f32⟩ : BufTy).Contents (Elt F) → (⟨S50000x64, .f32⟩ : BufTy).Contents (Elt F) → (⟨S50000x64, .f32⟩ : BufTy).Contents (Elt F)),
    StableHlo.binary main_v264 main_v259 main_v265 (addf : (⟨S50000x64, .f32⟩ : BufTy).Contents (Elt F) → (⟨S50000x64, .f32⟩ : BufTy).Contents (Elt F) → (⟨S50000x64, .f32⟩ : BufTy).Contents (Elt F)),
    StableHlo.unary main_arg7 main_v266 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v266 main_v267 rfl shapeCasts_S1x64x64_S64x64,
    StableHlo.binary main_v265 main_v267 main_v268 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v269 ((extractStridedSlice S1x64 ![3, 0] · slices_S4x64_S1x64_3_0) : (⟨S4x64, .f32⟩ : BufTy).Contents (Elt F) → (⟨S1x64, .f32⟩ : BufTy).Contents (Elt F)),
    StableHlo.reshape main_v269 main_v270 rfl shapeCasts_S1x64_S64,
    StableHlo.unary main_v270 main_v271 (broadcastInDim S1x64 ![1] bcast_S64_S1x64_1 : (⟨S64, .f32⟩ : BufTy).Contents (Elt F) → (⟨S1x64, .f32⟩ : BufTy).Contents (Elt F)),
    StableHlo.unary main_v271 main_v272 (broadcastInDim S50000x64 ![0, 1] bcast_S1x64_S50000x64_0_1 : (⟨S1x64, .f32⟩ : BufTy).Contents (Elt F) → (⟨S50000x64, .f32⟩ : BufTy).Contents (Elt F)),
    StableHlo.binary main_v268 main_v272 main_v273 (addf : (⟨S50000x64, .f32⟩ : BufTy).Contents (Elt F) → (⟨S50000x64, .f32⟩ : BufTy).Contents (Elt F) → (⟨S50000x64, .f32⟩ : BufTy).Contents (Elt F)),
    StableHlo.unary main_arg9 main_v274 ((extractStridedSlice S1x64 ![3, 0] · slices_S4x64_S1x64_3_0) : (⟨S4x64, .f32⟩ : BufTy).Contents (Elt F) → (⟨S1x64, .f32⟩ : BufTy).Contents (Elt F)),
    StableHlo.reshape main_v274 main_v275 rfl shapeCasts_S1x64_S64,
    StableHlo.unary main_arg10 main_v276 ((extractStridedSlice S1x64 ![3, 0] · slices_S4x64_S1x64_3_0) : (⟨S4x64, .f32⟩ : BufTy).Contents (Elt F) → (⟨S1x64, .f32⟩ : BufTy).Contents (Elt F)),
    StableHlo.reshape main_v276 main_v277 rfl shapeCasts_S1x64_S64,
    StableHlo.nullary main_cst_39 (constant S_ .f32 0x00000000#32),
    StableHlo.binary main_v273 main_cst_39 main_v278 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_40 (constant S_ .f32 0x47435000#32),
    StableHlo.unary main_cst_40 main_v279 (broadcastInDim S64 ![] bcast_S_S64 : (⟨S_, .f32⟩ : BufTy).Contents (Elt F) → (⟨S64, .f32⟩ : BufTy).Contents (Elt F)),
    StableHlo.binary main_v278 main_v279 main_v280 (Host.divf : (⟨S64, .f32⟩ : BufTy).Contents (Elt F) → (⟨S64, .f32⟩ : BufTy).Contents (Elt F) → (⟨S64, .f32⟩ : BufTy).Contents (Elt F)),
    StableHlo.nullary main_c_41 (constantI S_ 32 0#32) ]

/-- Statements 326 … 340 of @main (window 5), within opsL3: 36 operations. -/
abbrev opsL3_c : List (HloOp τ sig (Elt F)) :=
  [ StableHlo.TRef.nullary main_call12.cst (constant S_ .f32 0x00000000#32),
    StableHlo.TRef.binary (.of main_v273 : StableHlo.TRef sig ⟨S50000x64, .f32⟩) main_call12.cst main_call12.v0 (fun x v => Host.reduceAdd x v reducesTo_S50000x64_S64_d0 h_S_),
    StableHlo.TRef.unary main_call12.v0 main_call12.v1 (broadcastInDim S1x64 ![1] bcast_S64_S1x64_1),
    StableHlo.TRef.nullary main_call12.cst_0 (constant S_ .f32 0x47435000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S50000x64 ![0, 1] bcast_S1x64_S50000x64_0_1),
    StableHlo.TRef.binary (.of main_v273 : StableHlo.TRef sig ⟨S50000x64, .f32⟩) main_call12.v4 main_call12.v5 subf,
    StableHlo.TRef.binary main_call12.v5 main_call12.v5 main_call12.v6 mulf,
    StableHlo.TRef.unary (.of main_c_41 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S64 ![] bcast_S_S64),
    StableHlo.TRef.ternary main_call12.v12 main_call12.v11 main_call12.call0.v1 main_call12.call0.v2 (fun p a b => select (broadcastInDim S64 ![] bcast_S_S64 p) a b),
    StableHlo.unary main_v280 main_v282 (broadcastInDim S1x64 ![1] bcast_S64_S1x64_1 : (⟨S64, .f32⟩ : BufTy).Contents (Elt F) → (⟨S1x64, .f32⟩ : BufTy).Contents (Elt F)),
    StableHlo.unary main_v282 main_v283 (broadcastInDim S50000x64 ![0, 1] bcast_S1x64_S50000x64_0_1 : (⟨S1x64, .f32⟩ : BufTy).Contents (Elt F) → (⟨S50000x64, .f32⟩ : BufTy).Contents (Elt F)),
    StableHlo.binary main_v273 main_v283 main_v284 (subf : (⟨S50000x64, .f32⟩ : BufTy).Contents (Elt F) → (⟨S50000x64, .f32⟩ : BufTy).Contents (Elt F) → (⟨S50000x64, .f32⟩ : BufTy).Contents (Elt F)),
    StableHlo.nullary main_cst_42 (constant S_ .f32 0x3727C5AC#32),
    StableHlo.unary main_cst_42 main_v285 (broadcastInDim S64 ![] bcast_S_S64 : (⟨S_, .f32⟩ : BufTy).Contents (Elt F) → (⟨S64, .f32⟩ : BufTy).Contents (Elt F)),
    StableHlo.binary main_v281 main_v285 main_v286 (addf : (⟨S64, .f32⟩ : BufTy).Contents (Elt F) → (⟨S64, .f32⟩ : BufTy).Contents (Elt F) → (⟨S64, .f32⟩ : BufTy).Contents (Elt F)),
    StableHlo.unary main_v286 main_v287 (Host.rsqrt : (⟨S64, .f32⟩ : BufTy).Contents (Elt F) → (⟨S64, .f32⟩ : BufTy).Contents (Elt F)),
    StableHlo.unary main_v287 main_v288 (broadcastInDim S1x64 ![1] bcast_S64_S1x64_1 : (⟨S64, .f32⟩ : BufTy).Contents (Elt F) → (⟨S1x64, .f32⟩ : BufTy).Contents (Elt F)),
    StableHlo.unary main_v288 main_v289 (broadcastInDim S50000x64 ![0, 1] bcast_S1x64_S50000x64_0_1 : (⟨S1x64, .f32⟩ : BufTy).Contents (Elt F) → (⟨S50000x64, .f32⟩ : BufTy).Contents (Elt F)),
    StableHlo.binary main_v284 main_v289 main_v290 (mulf : (⟨S50000x64, .f32⟩ : BufTy).Contents (Elt F) → (⟨S50000x64, .f32⟩ : BufTy).Contents (Elt F) → (⟨S50000x64, .f32⟩ : BufTy).Contents (Elt F)),
    StableHlo.unary main_v275 main_v291 (broadcastInDim S1x64 ![1] bcast_S64_S1x64_1 : (⟨S64, .f32⟩ : BufTy).Contents (Elt F) → (⟨S1x64, .f32⟩ : BufTy).Contents (Elt F)),
    StableHlo.unary main_v291 main_v292 (broadcastInDim S50000x64 ![0, 1] bcast_S1x64_S50000x64_0_1 : (⟨S1x64, .f32⟩ : BufTy).Contents (Elt F) → (⟨S50000x64, .f32⟩ : BufTy).Contents (Elt F)),
    StableHlo.binary main_v290 main_v292 main_v293 (mulf : (⟨S50000x64, .f32⟩ : BufTy).Contents (Elt F) → (⟨S50000x64, .f32⟩ : BufTy).Contents (Elt F) → (⟨S50000x64, .f32⟩ : BufTy).Contents (Elt F)),
    StableHlo.unary main_v277 main_v294 (broadcastInDim S1x64 ![1] bcast_S64_S1x64_1 : (⟨S64, .f32⟩ : BufTy).Contents (Elt F) → (⟨S1x64, .f32⟩ : BufTy).Contents (Elt F)) ]

/-- Statements 341 … 360 of @main (window 5), within opsL3: 22 operations. -/
abbrev opsL3_d : List (HloOp τ sig (Elt F)) :=
  [ StableHlo.unary main_v294 main_v295 (broadcastInDim S50000x64 ![0, 1] bcast_S1x64_S50000x64_0_1 : (⟨S1x64, .f32⟩ : BufTy).Contents (Elt F) → (⟨S50000x64, .f32⟩ : BufTy).Contents (Elt F)),
    StableHlo.binary main_v293 main_v295 main_v296 (addf : (⟨S50000x64, .f32⟩ : BufTy).Contents (Elt F) → (⟨S50000x64, .f32⟩ : BufTy).Contents (Elt F) → (⟨S50000x64, .f32⟩ : BufTy).Contents (Elt F)),
    StableHlo.TRef.nullary main_call13.cst (constant S_ .f32 0x00000000#32),
    StableHlo.TRef.unary main_call13.cst main_call13.v0 (broadcastInDim S50000x64 ![] bcast_S_S50000x64),
    StableHlo.TRef.binary (.of main_v296 : StableHlo.TRef sig ⟨S50000x64, .f32⟩) main_call13.v0 main_call13.v1 maximumf,
    StableHlo.unary main_arg11 main_v298 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v298 main_v299 rfl shapeCasts_S1x64x64_S64x64,
    StableHlo.binary main_v297 main_v299 main_v300 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg12 main_v301 ((extractStridedSlice S1x64 ![3, 0] · slices_S4x64_S1x64_3_0) : (⟨S4x64, .f32⟩ : BufTy).Contents (Elt F) → (⟨S1x64, .f32⟩ : BufTy).Contents (Elt F)),
    StableHlo.reshape main_v301 main_v302 rfl shapeCasts_S1x64_S64,
    StableHlo.unary main_v302 main_v303 (broadcastInDim S1x64 ![1] bcast_S64_S1x64_1 : (⟨S64, .f32⟩ : BufTy).Contents (Elt F) → (⟨S1x64, .f32⟩ : BufTy).Contents (Elt F)),
    StableHlo.unary main_v303 main_v304 (broadcastInDim S50000x64 ![0, 1] bcast_S1x64_S50000x64_0_1 : (⟨S1x64, .f32⟩ : BufTy).Contents (Elt F) → (⟨S50000x64, .f32⟩ : BufTy).Contents (Elt F)),
    StableHlo.binary main_v300 main_v304 main_v305 (addf : (⟨S50000x64, .f32⟩ : BufTy).Contents (Elt F) → (⟨S50000x64, .f32⟩ : BufTy).Contents (Elt F) → (⟨S50000x64, .f32⟩ : BufTy).Contents (Elt F)),
    StableHlo.unary main_arg13 main_v306 ((extractStridedSlice S1x64 ![3, 0] · slices_S4x64_S1x64_3_0) : (⟨S4x64, .f32⟩ : BufTy).Contents (Elt F) → (⟨S1x64, .f32⟩ : BufTy).Contents (Elt F)),
    StableHlo.reshape main_v306 main_v307 rfl shapeCasts_S1x64_S64,
    StableHlo.unary main_arg14 main_v308 ((extractStridedSlice S1x64 ![3, 0] · slices_S4x64_S1x64_3_0) : (⟨S4x64, .f32⟩ : BufTy).Contents (Elt F) → (⟨S1x64, .f32⟩ : BufTy).Contents (Elt F)),
    StableHlo.reshape main_v308 main_v309 rfl shapeCasts_S1x64_S64,
    StableHlo.nullary main_cst_43 (constant S_ .f32 0x00000000#32),
    StableHlo.binary main_v305 main_cst_43 main_v310 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_44 (constant S_ .f32 0x47435000#32),
    StableHlo.unary main_cst_44 main_v311 (broadcastInDim S64 ![] bcast_S_S64 : (⟨S_, .f32⟩ : BufTy).Contents (Elt F) → (⟨S64, .f32⟩ : BufTy).Contents (Elt F)),
    StableHlo.binary main_v310 main_v311 main_v312 (Host.divf : (⟨S64, .f32⟩ : BufTy).Contents (Elt F) → (⟨S64, .f32⟩ : BufTy).Contents (Elt F) → (⟨S64, .f32⟩ : BufTy).Contents (Elt F)) ]

/-- Statements 361 … 375 of @main (window 6), within opsL3: 36 operations. -/
abbrev opsL3_e : List (HloOp τ sig (Elt F)) :=
  [ StableHlo.nullary main_c_45 (constantI S_ 32 0#32),
    StableHlo.TRef.nullary main_call14.cst (constant S_ .f32 0x00000000#32),
    StableHlo.TRef.binary (.of main_v305 : StableHlo.TRef sig ⟨S50000x64, .f32⟩) main_call14.cst main_call14.v0 (fun x v => Host.reduceAdd x v reducesTo_S50000x64_S64_d0 h_S_),
    StableHlo.TRef.unary main_call14.v0 main_call14.v1 (broadcastInDim S1x64 ![1] bcast_S64_S1x64_1),
    StableHlo.TRef.nullary main_call14.cst_0 (constant S_ .f32 0x47435000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S50000x64 ![0, 1] bcast_S1x64_S50000x64_0_1),
    StableHlo.TRef.binary (.of main_v305 : StableHlo.TRef sig ⟨S50000x64, .f32⟩) main_call14.v4 main_call14.v5 subf,
    StableHlo.TRef.binary main_call14.v5 main_call14.v5 main_call14.v6 mulf,
    StableHlo.TRef.unary (.of main_c_45 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x64_S64_d0 h_S_),
    StableHlo.TRef.unary main_call14.v8 main_call14.v10 (broadcastInDim S64 ![] bcast_S_S64),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S64 ![] bcast_S_S64),
    StableHlo.TRef.ternary main_call14.v12 main_call14.v11 main_call14.call0.v1 main_call14.call0.v2 (fun p a b => select (broadcastInDim S64 ![] bcast_S_S64 p) a b),
    StableHlo.unary main_v312 main_v314 (broadcastInDim S1x64 ![1] bcast_S64_S1x64_1 : (⟨S64, .f32⟩ : BufTy).Contents (Elt F) → (⟨S1x64, .f32⟩ : BufTy).Contents (Elt F)),
    StableHlo.unary main_v314 main_v315 (broadcastInDim S50000x64 ![0, 1] bcast_S1x64_S50000x64_0_1 : (⟨S1x64, .f32⟩ : BufTy).Contents (Elt F) → (⟨S50000x64, .f32⟩ : BufTy).Contents (Elt F)),
    StableHlo.binary main_v305 main_v315 main_v316 (subf : (⟨S50000x64, .f32⟩ : BufTy).Contents (Elt F) → (⟨S50000x64, .f32⟩ : BufTy).Contents (Elt F) → (⟨S50000x64, .f32⟩ : BufTy).Contents (Elt F)),
    StableHlo.nullary main_cst_46 (constant S_ .f32 0x3727C5AC#32),
    StableHlo.unary main_cst_46 main_v317 (broadcastInDim S64 ![] bcast_S_S64 : (⟨S_, .f32⟩ : BufTy).Contents (Elt F) → (⟨S64, .f32⟩ : BufTy).Contents (Elt F)),
    StableHlo.binary main_v313 main_v317 main_v318 (addf : (⟨S64, .f32⟩ : BufTy).Contents (Elt F) → (⟨S64, .f32⟩ : BufTy).Contents (Elt F) → (⟨S64, .f32⟩ : BufTy).Contents (Elt F)),
    StableHlo.unary main_v318 main_v319 (Host.rsqrt : (⟨S64, .f32⟩ : BufTy).Contents (Elt F) → (⟨S64, .f32⟩ : BufTy).Contents (Elt F)),
    StableHlo.unary main_v319 main_v320 (broadcastInDim S1x64 ![1] bcast_S64_S1x64_1 : (⟨S64, .f32⟩ : BufTy).Contents (Elt F) → (⟨S1x64, .f32⟩ : BufTy).Contents (Elt F)),
    StableHlo.unary main_v320 main_v321 (broadcastInDim S50000x64 ![0, 1] bcast_S1x64_S50000x64_0_1 : (⟨S1x64, .f32⟩ : BufTy).Contents (Elt F) → (⟨S50000x64, .f32⟩ : BufTy).Contents (Elt F)),
    StableHlo.binary main_v316 main_v321 main_v322 (mulf : (⟨S50000x64, .f32⟩ : BufTy).Contents (Elt F) → (⟨S50000x64, .f32⟩ : BufTy).Contents (Elt F) → (⟨S50000x64, .f32⟩ : BufTy).Contents (Elt F)),
    StableHlo.unary main_v307 main_v323 (broadcastInDim S1x64 ![1] bcast_S64_S1x64_1 : (⟨S64, .f32⟩ : BufTy).Contents (Elt F) → (⟨S1x64, .f32⟩ : BufTy).Contents (Elt F)),
    StableHlo.unary main_v323 main_v324 (broadcastInDim S50000x64 ![0, 1] bcast_S1x64_S50000x64_0_1 : (⟨S1x64, .f32⟩ : BufTy).Contents (Elt F) → (⟨S50000x64, .f32⟩ : BufTy).Contents (Elt F)),
    StableHlo.binary main_v322 main_v324 main_v325 (mulf : (⟨S50000x64, .f32⟩ : BufTy).Contents (Elt F) → (⟨S50000x64, .f32⟩ : BufTy).Contents (Elt F) → (⟨S50000x64, .f32⟩ : BufTy).Contents (Elt F)) ]

/-- Statements 376 … 379 of @main (window 6), within opsL3: 6 operations. -/
abbrev opsL3_f : List (HloOp τ sig (Elt F)) :=
  [ StableHlo.unary main_v309 main_v326 (broadcastInDim S1x64 ![1] bcast_S64_S1x64_1 : (⟨S64, .f32⟩ : BufTy).Contents (Elt F) → (⟨S1x64, .f32⟩ : BufTy).Contents (Elt F)),
    StableHlo.unary main_v326 main_v327 (broadcastInDim S50000x64 ![0, 1] bcast_S1x64_S50000x64_0_1 : (⟨S1x64, .f32⟩ : BufTy).Contents (Elt F) → (⟨S50000x64, .f32⟩ : BufTy).Contents (Elt F)),
    StableHlo.binary main_v325 main_v327 main_v328 (addf : (⟨S50000x64, .f32⟩ : BufTy).Contents (Elt F) → (⟨S50000x64, .f32⟩ : BufTy).Contents (Elt F) → (⟨S50000x64, .f32⟩ : BufTy).Contents (Elt F)),
    StableHlo.TRef.nullary main_call15.cst (constant S_ .f32 0x00000000#32),
    StableHlo.TRef.unary main_call15.cst main_call15.v0 (broadcastInDim S50000x64 ![] bcast_S_S50000x64),
    StableHlo.TRef.binary (.of main_v328 : StableHlo.TRef sig ⟨S50000x64, .f32⟩) main_call15.v0 main_call15.v1 maximumf ]

/-- Statements 380 … 404 of @main (window 6), within opsPost: 27 operations. -/
abbrev opsPost_a : List (HloOp τ sig (Elt F)) :=
  [ StableHlo.nullary main_cst_47 (constant S_ .f32 0x00000000#32),
    StableHlo.unary main_cst_47 main_v330 (broadcastInDim S512x64 ![] bcast_S_S512x64 : (⟨S_, .f32⟩ : BufTy).Contents (Elt F) → (⟨S512x64, .f32⟩ : BufTy).Contents (Elt F)),
    StableHlo.unary main_arg3 main_v331 (broadcastInDim S50000x1 ![0] bcast_S50000_S50000x1_0 : (⟨S50000, .i32⟩ : BufTy).Contents (Elt F) → (⟨S50000x1, .i32⟩ : BufTy).Contents (Elt F)),
    StableHlo.ternary main_v330 main_v331 main_v329 main_v332 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_cst_48 (constant S_ .f32 0x3F800000#32),
    StableHlo.unary main_cst_48 main_v333 (broadcastInDim S50000 ![] bcast_S_S50000 : (⟨S_, .f32⟩ : BufTy).Contents (Elt F) → (⟨S50000, .f32⟩ : BufTy).Contents (Elt F)),
    StableHlo.nullary main_cst_49 (constant S_ .f32 0x00000000#32),
    StableHlo.unary main_cst_49 main_v334 (broadcastInDim S512 ![] bcast_S_S512 : (⟨S_, .f32⟩ : BufTy).Contents (Elt F) → (⟨S512, .f32⟩ : BufTy).Contents (Elt F)),
    StableHlo.unary main_arg3 main_v335 (broadcastInDim S50000x1 ![0] bcast_S50000_S50000x1_0 : (⟨S50000, .i32⟩ : BufTy).Contents (Elt F) → (⟨S50000x1, .i32⟩ : BufTy).Contents (Elt F)),
    StableHlo.ternary main_v334 main_v335 main_v333 main_v336 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_50 (constant S_ .f32 0x3F800000#32),
    StableHlo.unary main_cst_50 main_v337 (broadcastInDim S512 ![] bcast_S_S512 : (⟨S_, .f32⟩ : BufTy).Contents (Elt F) → (⟨S512, .f32⟩ : BufTy).Contents (Elt F)),
    StableHlo.binary main_v336 main_v337 main_v338 (maximumf : (⟨S512, .f32⟩ : BufTy).Contents (Elt F) → (⟨S512, .f32⟩ : BufTy).Contents (Elt F) → (⟨S512, .f32⟩ : BufTy).Contents (Elt F)),
    StableHlo.unary main_v338 main_v339 (broadcastInDim S512x1 ![0] bcast_S512_S512x1_0 : (⟨S512, .f32⟩ : BufTy).Contents (Elt F) → (⟨S512x1, .f32⟩ : BufTy).Contents (Elt F)),
    StableHlo.unary main_v339 main_v340 (broadcastInDim S512x64 ![0, 1] bcast_S512x1_S512x64_0_1 : (⟨S512x1, .f32⟩ : BufTy).Contents (Elt F) → (⟨S512x64, .f32⟩ : BufTy).Contents (Elt F)),
    StableHlo.binary main_v332 main_v340 main_v341 (Host.divf : (⟨S512x64, .f32⟩ : BufTy).Contents (Elt F) → (⟨S512x64, .f32⟩ : BufTy).Contents (Elt F) → (⟨S512x64, .f32⟩ : BufTy).Contents (Elt F)),
    StableHlo.binary main_v341 main_arg15 main_v342 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    StableHlo.unary main_arg16 main_v343 (broadcastInDim S1x64 ![1] bcast_S64_S1x64_1 : (⟨S64, .f32⟩ : BufTy).Contents (Elt F) → (⟨S1x64, .f32⟩ : BufTy).Contents (Elt F)),
    StableHlo.unary main_v343 main_v344 (broadcastInDim S512x64 ![0, 1] bcast_S1x64_S512x64_0_1 : (⟨S1x64, .f32⟩ : BufTy).Contents (Elt F) → (⟨S512x64, .f32⟩ : BufTy).Contents (Elt F)),
    StableHlo.binary main_v342 main_v344 main_v345 (addf : (⟨S512x64, .f32⟩ : BufTy).Contents (Elt F) → (⟨S512x64, .f32⟩ : BufTy).Contents (Elt F) → (⟨S512x64, .f32⟩ : BufTy).Contents (Elt F)),
    StableHlo.TRef.nullary main_call16.cst (constant S_ .f32 0x00000000#32),
    StableHlo.TRef.unary main_call16.cst main_call16.v0 (broadcastInDim S512x64 ![] bcast_S_S512x64),
    StableHlo.TRef.binary (.of main_v345 : StableHlo.TRef sig ⟨S512x64, .f32⟩) main_call16.v0 main_call16.v1 maximumf,
    StableHlo.binary main_v346 main_arg17 main_v347 ((fun l r => Host.dotGeneral dot_S512x64_S64x10_S512x10_1_0_0_1_n_n none l r) : (⟨S512x64, .f32⟩ : BufTy).Contents (Elt F) → (⟨S64x10, .f32⟩ : BufTy).Contents (Elt F) → (⟨S512x10, .f32⟩ : BufTy).Contents (Elt F)),
    StableHlo.unary main_arg18 main_v348 (broadcastInDim S1x10 ![1] bcast_S10_S1x10_1 : (⟨S10, .f32⟩ : BufTy).Contents (Elt F) → (⟨S1x10, .f32⟩ : BufTy).Contents (Elt F)),
    StableHlo.unary main_v348 main_v349 (broadcastInDim S512x10 ![0, 1] bcast_S1x10_S512x10_0_1 : (⟨S1x10, .f32⟩ : BufTy).Contents (Elt F) → (⟨S512x10, .f32⟩ : BufTy).Contents (Elt F)),
    StableHlo.binary main_v347 main_v349 main_v350 (addf : (⟨S512x10, .f32⟩ : BufTy).Contents (Elt F) → (⟨S512x10, .f32⟩ : BufTy).Contents (Elt F) → (⟨S512x10, .f32⟩ : BufTy).Contents (Elt F)) ]

/-- The embedding: the two rows of the edge table, the concatenated features times the embedding weights plus the bias, and the zero result. -/
abbrev opsPre : List (HloOp τ sig (Elt F)) :=
  opsPre_a

/-- Layer 0: from the neighbour sum to the second positive part. -/
abbrev opsL0 : List (HloOp τ sig (Elt F)) :=
  opsL0_a ++ opsL0_b ++ opsL0_c ++ opsL0_d ++ opsL0_e

/-- Layer 1: from the neighbour sum to the second positive part. -/
abbrev opsL1 : List (HloOp τ sig (Elt F)) :=
  opsL1_a ++ opsL1_b ++ opsL1_c ++ opsL1_d ++ opsL1_e ++ opsL1_f

/-- Layer 2: from the neighbour sum to the second positive part. -/
abbrev opsL2 : List (HloOp τ sig (Elt F)) :=
  opsL2_a ++ opsL2_b ++ opsL2_c ++ opsL2_d ++ opsL2_e

/-- Layer 3: from the neighbour sum to the second positive part. -/
abbrev opsL3 : List (HloOp τ sig (Elt F)) :=
  opsL3_a ++ opsL3_b ++ opsL3_c ++ opsL3_d ++ opsL3_e ++ opsL3_f

/-- The per-graph mean and the classifier. -/
abbrev opsPost : List (HloOp τ sig (Elt F)) :=
  opsPost_a

/-- The whole program, stage after stage. -/
abbrev ops : List (HloOp τ sig (Elt F)) :=
  opsPre ++ opsL0 ++ opsL1 ++ opsL2 ++ opsL3 ++ opsPost

end Cert.ReferenceIdeal.RefRun

end
-- ==== Proof.RefRun.lean ====
/- The reference network's host program as ONE straight line of operations, and what a run of it leaves in memory.

   The program text comes in seven consecutive windows, and inside them it calls outlined functions (the column
   variance with its select, the positive part).  Unfolding each called body over the buffers its call was given and
   re-associating the sequencing turns every window into the line of its listed sub-lists, by computation.  The seven
   lines in order are the whole list, because concatenation is associative: the list cut at the layers' ends and the
   list cut at the windows' ends have the same elements in the same order.  A straight line that touches TensorCore
   buffers only, and in which every operation determines what it writes, runs to completion from any memory, and
   leaves each buffer at the fold of the operations' results over the contents it started from. -/
import proofs.«140206_j52750788330061_1_alg».proof.Proof.RefRun.Table

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each window of the text is the line of its sub-lists -/

set_option maxRecDepth 8192 in
/-- Statements 1 to 60: the embedding, and layer 0 up to the first normalisation's scale. -/
theorem main_part0_eq (c : Dev nD) : main_part0 (F := F) c = seq (opsPre_a ++ opsL0_a ++ opsL0_b) := rfl

set_option maxRecDepth 8192 in
/-- Statements 61 to 120: the rest of layer 0, and layer 1 as far as its first bias. -/
theorem main_part1_eq (c : Dev nD) : main_part1 (F := F) c = seq (opsL0_c ++ opsL0_d ++ opsL0_e ++ opsL1_a) := rfl

set_option maxRecDepth 8192 in
/-- Statements 121 to 180: layer 1 from its first mean to its second variance. -/
theorem main_part2_eq (c : Dev nD) : main_part2 (F := F) c = seq (opsL1_b ++ opsL1_c ++ opsL1_d ++ opsL1_e) := rfl

set_option maxRecDepth 8192 in
/-- Statements 181 to 240: the end of layer 1, and layer 2 up to its first positive part. -/
theorem main_part3_eq (c : Dev nD) : main_part3 (F := F) c = seq (opsL1_f ++ opsL2_a ++ opsL2_b) := rfl

set_option maxRecDepth 8192 in
/-- Statements 241 to 300: the rest of layer 2, and the start of layer 3. -/
theorem main_part4_eq (c : Dev nD) : main_part4 (F := F) c = seq (opsL2_c ++ opsL2_d ++ opsL2_e ++ opsL3_a) := rfl

set_option maxRecDepth 8192 in
/-- Statements 301 to 360: layer 3 from its first affine map to its second mean. -/
theorem main_part5_eq (c : Dev nD) : main_part5 (F := F) c = seq (opsL3_b ++ opsL3_c ++ opsL3_d) := rfl

set_option maxRecDepth 8192 in
/-- Statements 361 to the end: the end of layer 3, the per-graph mean and the classifier. -/
theorem main_part6_eq (c : Dev nD) : main_part6 (F := F) c = seq (opsL3_e ++ opsL3_f ++ opsPost_a) := rfl

/-! ## The seven lines in order are the whole list -/

/-- Seven lines run one after the other are their concatenation run as one. -/
theorem seq_append7 {Val : EltTy → Type} {Λ : Labels} (l0 l1 l2 l3 l4 l5 l6 : List (HloOp τ sig Val)) :
    (seq (l0 ++ (l1 ++ (l2 ++ (l3 ++ (l4 ++ (l5 ++ l6)))))) : Prog (TpuEff nD τ sig Val Λ .tc) PUnit)
      = seq l0 >>= fun _ => seq l1 >>= fun _ => seq l2 >>= fun _ => seq l3 >>= fun _ => seq l4 >>= fun _ =>
          seq l5 >>= fun _ => seq l6 := by
  simp only [seq_append]

/-- The list cut at the layers' ends is the list cut at the windows' ends: both are the sub-lists in order, and
    concatenation is associative. -/
theorem ops_eq_windows : (ops : List (HloOp τ sig (Elt F)))
    = (opsPre_a ++ opsL0_a ++ opsL0_b) ++ ((opsL0_c ++ opsL0_d ++ opsL0_e ++ opsL1_a)
      ++ ((opsL1_b ++ opsL1_c ++ opsL1_d ++ opsL1_e) ++ ((opsL1_f ++ opsL2_a ++ opsL2_b)
      ++ ((opsL2_c ++ opsL2_d ++ opsL2_e ++ opsL3_a) ++ ((opsL3_b ++ opsL3_c ++ opsL3_d)
      ++ (opsL3_e ++ opsL3_f ++ opsPost_a)))))) := by
  simp only [ops, opsPre, opsL0, opsL1, opsL2, opsL3, opsPost, List.append_assoc]

/-- The program is that straight line. -/
theorem main_eq (c : Dev nD) : main (F := F) c = seq ops := by
  rw [ops_eq_windows, seq_append7, ← main_part0_eq c, ← main_part1_eq c, ← main_part2_eq c, ← main_part3_eq c,
    ← main_part4_eq c, ← main_part5_eq c, ← main_part6_eq c]
  rfl

/-! ## Nothing in the signature is scoped -/

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

/-- A statement about every operation of a concatenation of literal lists, reduced to one goal per operation, each
    closed on the spot by the given tactic: a concatenation is split, a literal list is walked from its head. -/
local macro "each_operation " t:tacticSeq : tactic =>
  `(tactic| repeat' (first
      | refine List.forall_append.mpr ⟨?_, ?_⟩
      | refine (List.forall_cons _ _ _).mpr ⟨by $t, ?_⟩
      | exact trivial))

-- 590 operations, one membership fact each: the work is linear in the program, past the default budget of one declaration
set_option maxHeartbeats 4000000 in
set_option maxRecDepth 8192 in
/-- Each operation reads and writes references of the TensorCore: whichever builder made it, its buffers are the
    builder's operands and result. -/
theorem ops_sub : (ops : List (HloOp τ sig (Elt F))).Forall fun op => op.bufs ⊆ tcRefs τ sig := by
  each_operation simp only [nullary_bufs_sub, unary_bufs_sub, binary_bufs_sub, ternary_bufs_sub, reshape_bufs_sub]

set_option maxHeartbeats 4000000 in
set_option maxRecDepth 8192 in
/-- No operation leaves a buffer undetermined: each is a function of its operands. -/
theorem ops_fresh : (ops : List (HloOp τ sig (Elt F))).Forall fun op => op.fresh = ∅ := by
  each_operation rfl

/-! ## The run -/

/-- On every device, for any float values, from any memory with zero counters: every weakly fair execution of the
    program terminates, and every final state has each TensorCore buffer at the fold of the operations' results over
    the launch contents.  The fold is left standing: a value lemma reads it off stage by stage. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefRun.Frame.lean ====
/- The reference program leaves its nineteen arguments as they were.

   Each operation of the line writes exactly one buffer, its result, and every result is a value the program itself
   names: as a reference it differs from each of the nineteen arguments.  A buffer that no operation of a line writes
   keeps its contents through the fold of the operations' results; so after the run each argument holds what memory
   held at the start. -/
import proofs.«140206_j52750788330061_1_alg».proof.Defs
import proofs.«140206_j52750788330061_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's nineteen arguments. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18]

/-- An operation that writes none of the arguments. -/
def KeepsArgs (op : HloOp τ sig (Elt F)) : Prop :=
  ∀ r ∈ argRefs, (Proc.devRef .tc r : DevRef τ sig) ∉ op.writes

/-- An operation whose one written buffer is a reference other than the arguments writes none of them: distinct
    references are distinct buffers of the device. -/
theorem keepsArgs_of {op : HloOp τ sig (Elt F)} (y : Ref sig .tc) (hw : op.writes = {Proc.devRef .tc y})
    (hy : y ∉ argRefs) : KeepsArgs op := fun r hr hm => by
  rw [hw, Finset.mem_singleton] at hm
  exact hy (Proc.devRef_injective _ hm ▸ hr)

/-- A statement about every operation of a concatenation of literal lists, reduced to one goal per operation, each
    closed on the spot by the given tactic: a concatenation is split, a literal list is walked from its head. -/
local macro "each_operation " t:tacticSeq : tactic =>
  `(tactic| repeat' (first
      | refine List.forall_append.mpr ⟨?_, ?_⟩
      | refine (List.forall_cons _ _ _).mpr ⟨by $t, ?_⟩
      | exact trivial))

set_option maxRecDepth 8192 in
/-- Every operation of the program writes its own result only, which is none of the arguments. -/
theorem ops_keepsArgs : (ops : List (HloOp τ sig (Elt F))).Forall KeepsArgs := by
  each_operation exact keepsArgs_of _ rfl (by decide)

/-- Through the whole line an argument keeps its contents. -/
theorem after_arg (V : Valuation τ sig (Elt F)) {r : Ref sig .tc} (hr : r ∈ argRefs) :
    after ops V (Proc.devRef .tc r) = V (Proc.devRef .tc r) :=
  after_of_forall_not_mem ops V fun op hop => List.forall_iff_forall_mem.mp ops_keepsArgs op hop r hr

/-- Every weakly fair execution of the reference program terminates with the nineteen arguments unchanged. -/
theorem frame_ref [hReferenceIdeal : Cert.ReferenceIdeal.Facts] [hPre_finite_inputs : Cert.Pre_finite_inputs.Facts] :
    Cert.frame_ReferenceIdeal := by
  unfold Cert.frame_ReferenceIdeal
  intro m g _
  refine (θ_run _ _ _).mono (fun _ h c => ?_) (run_after (F := Ideal) m g)
  exact ⟨(h c main_arg0).trans (after_arg _ (by decide)), (h c main_arg1).trans (after_arg _ (by decide)),
    (h c main_arg2).trans (after_arg _ (by decide)), (h c main_arg3).trans (after_arg _ (by decide)),
    (h c main_arg4).trans (after_arg _ (by decide)), (h c main_arg5).trans (after_arg _ (by decide)),
    (h c main_arg6).trans (after_arg _ (by decide)), (h c main_arg7).trans (after_arg _ (by decide)),
    (h c main_arg8).trans (after_arg _ (by decide)), (h c main_arg9).trans (after_arg _ (by decide)),
    (h c main_arg10).trans (after_arg _ (by decide)), (h c main_arg11).trans (after_arg _ (by decide)),
    (h c main_arg12).trans (after_arg _ (by decide)), (h c main_arg13).trans (after_arg _ (by decide)),
    (h c main_arg14).trans (after_arg _ (by decide)), (h c main_arg15).trans (after_arg _ (by decide)),
    (h c main_arg16).trans (after_arg _ (by decide)), (h c main_arg17).trans (after_arg _ (by decide)),
    (h c main_arg18).trans (after_arg _ (by decide))⟩

end Cert.ReferenceIdeal.RefRun

end
-- ==== Proof.FiniteIn.lean ====
/-
  Finiteness of the float arguments, read back from the precondition. The predicate `finite_inputs` takes, for each
  of the seventeen float argument arrays, the conjunction over all entries of `|x| < +inf` (the bound is the f32
  pattern with exponent all ones and significand zero), and conjoins the seventeen results; the two integer arrays
  (edge list and batch vector) do not occur in it. At the ideal instance a float is an extended real, `|x|` is
  `max x (-x)` and the pattern denotes `⊤`, so `|x| < ⊤` excludes exactly `x = ⊤` and `x = ⊥`: what is left is a
  real number. Hence, when the predicate is all ones, every entry of every float argument is a real.
-/
import proofs.«140206_j52750788330061_1_alg».proof.Defs
import Idealize.ShloMosaic.Lib.ReduceAll
import Idealize.ShloMosaic.Lib.ValueIdx

noncomputable section

namespace Cert.FiniteIn

open Idealize.ShloMosaic Idealize.SL.Sem

/-- The f32 pattern with all exponent bits set and a zero significand is plus infinity. -/
theorem ofBits_inf : Ideal.ofBits .f32 0x7F800000#32 = (⊤ : EReal) := by simp [Ideal.ofBits, Ideal.ieee]

/-- An extended real whose absolute value `max x (-x)` compares strictly below plus infinity is a real number:
    at `⊤` the maximum is `⊤`, at `⊥` it is `-⊥ = ⊤`, and `⊤ < ⊤` is false. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- A rank-0 array has one index. -/
local instance scalarIdx_subsingleton : Subsingleton (⟨0, ![]⟩ : Shape).Idx := ⟨fun a b => funext fun d => d.elim0⟩

/-- One argument's clause of the predicate: the conjunction over ALL entries of `|x| < +inf` came out one, so each
    entry passed the comparison, and so each entry is a real. -/
theorem real_of_all {S : Shape} {axes : List (Fin S.rank)} (x : FVec Ideal S .f32)
    (hb : (⟨0, ![]⟩ : Shape).BroadcastsInDim S (![] : Fin 0 → Fin S.rank))
    (hr : S.ReducesTo axes ⟨0, ![]⟩) (hu : 0 < (⟨0, ![]⟩ : Shape).numel)
    (e : Host.reduce IntOp.andi
          (cmpf .olt (Host.absf x) (broadcastInDim S ![] hb (constant (F := Ideal) ⟨0, ![]⟩ .f32 0x7F800000#32)))
          (constantI ⟨0, ![]⟩ 1 1#1) hr hu ValueIdx.ix0 = 1#1) (i : S.Idx) : ∃ r : ℝ, x i = (r : EReal) :=
  real_of_abs_lt_inf (x i) (Host.reduce_andi_all _ _ hr hu ValueIdx.ix0 e i)

/-- The `and` of two rank-0 truth values is one only when both are. -/
theorem and_at_scalar (a b : IVec (⟨0, ![]⟩ : Shape) 1) (h : andi a b ValueIdx.ix0 = 1#1) :
    a ValueIdx.ix0 = 1#1 ∧ b ValueIdx.ix0 = 1#1 := IntOp.andi_eq_one.1 h

/-- Under the precondition every entry of every float argument is a real number: the predicate is the left-nested
    `and` of seventeen all-entries clauses, one per float argument in argument order; each conjunct is read back
    with `real_of_all`. -/
theorem finite_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S50000x3.Idx, ∃ r : ℝ, m ((c.tc : Thread Cert.KernelIdeal.nD Cert.KernelIdeal.τ).loc Cert.KernelIdeal.main_arg0) i = (r : EReal))
    ∧ (∀ i : Cert.KernelIdeal.S50000x3.Idx, ∃ r : ℝ, m ((c.tc : Thread Cert.KernelIdeal.nD Cert.KernelIdeal.τ).loc Cert.KernelIdeal.main_arg1) i = (r : EReal))
    ∧ (∀ i : Cert.KernelIdeal.S6x64.Idx, ∃ r : ℝ, m ((c.tc : Thread Cert.KernelIdeal.nD Cert.KernelIdeal.τ).loc Cert.KernelIdeal.main_arg4) i = (r : EReal))
    ∧ (∀ i : Cert.KernelIdeal.S64.Idx, ∃ r : ℝ, m ((c.tc : Thread Cert.KernelIdeal.nD Cert.KernelIdeal.τ).loc Cert.KernelIdeal.main_arg5) i = (r : EReal))
    ∧ (∀ i : Cert.KernelIdeal.S4.Idx, ∃ r : ℝ, m ((c.tc : Thread Cert.KernelIdeal.nD Cert.KernelIdeal.τ).loc Cert.KernelIdeal.main_arg6) i = (r : EReal))
    ∧ (∀ i : Cert.KernelIdeal.S4x64x64.Idx, ∃ r : ℝ, m ((c.tc : Thread Cert.KernelIdeal.nD Cert.KernelIdeal.τ).loc Cert.KernelIdeal.main_arg7) i = (r : EReal))
    ∧ (∀ i : Cert.KernelIdeal.S4x64.Idx, ∃ r : ℝ, m ((c.tc : Thread Cert.KernelIdeal.nD Cert.KernelIdeal.τ).loc Cert.KernelIdeal.main_arg8) i = (r : EReal))
    ∧ (∀ i : Cert.KernelIdeal.S4x64.Idx, ∃ r : ℝ, m ((c.tc : Thread Cert.KernelIdeal.nD Cert.KernelIdeal.τ).loc Cert.KernelIdeal.main_arg9) i = (r : EReal))
    ∧ (∀ i : Cert.KernelIdeal.S4x64.Idx, ∃ r : ℝ, m ((c.tc : Thread Cert.KernelIdeal.nD Cert.KernelIdeal.τ).loc Cert.KernelIdeal.main_arg10) i = (r : EReal))
    ∧ (∀ i : Cert.KernelIdeal.S4x64x64.Idx, ∃ r : ℝ, m ((c.tc : Thread Cert.KernelIdeal.nD Cert.KernelIdeal.τ).loc Cert.KernelIdeal.main_arg11) i = (r : EReal))
    ∧ (∀ i : Cert.KernelIdeal.S4x64.Idx, ∃ r : ℝ, m ((c.tc : Thread Cert.KernelIdeal.nD Cert.KernelIdeal.τ).loc Cert.KernelIdeal.main_arg12) i = (r : EReal))
    ∧ (∀ i : Cert.KernelIdeal.S4x64.Idx, ∃ r : ℝ, m ((c.tc : Thread Cert.KernelIdeal.nD Cert.KernelIdeal.τ).loc Cert.KernelIdeal.main_arg13) i = (r : EReal))
    ∧ (∀ i : Cert.KernelIdeal.S4x64.Idx, ∃ r : ℝ, m ((c.tc : Thread Cert.KernelIdeal.nD Cert.KernelIdeal.τ).loc Cert.KernelIdeal.main_arg14) i = (r : EReal))
    ∧ (∀ i : Cert.KernelIdeal.S64x64.Idx, ∃ r : ℝ, m ((c.tc : Thread Cert.KernelIdeal.nD Cert.KernelIdeal.τ).loc Cert.KernelIdeal.main_arg15) i = (r : EReal))
    ∧ (∀ i : Cert.KernelIdeal.S64.Idx, ∃ r : ℝ, m ((c.tc : Thread Cert.KernelIdeal.nD Cert.KernelIdeal.τ).loc Cert.KernelIdeal.main_arg16) i = (r : EReal))
    ∧ (∀ i : Cert.KernelIdeal.S64x10.Idx, ∃ r : ℝ, m ((c.tc : Thread Cert.KernelIdeal.nD Cert.KernelIdeal.τ).loc Cert.KernelIdeal.main_arg17) i = (r : EReal))
    ∧ (∀ i : Cert.KernelIdeal.S10.Idx, ∃ r : ℝ, m ((c.tc : Thread Cert.KernelIdeal.nD Cert.KernelIdeal.τ).loc Cert.KernelIdeal.main_arg18) i = (r : EReal)) := by
  have hc := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at hc
  obtain ⟨hc, h18⟩ := and_at_scalar _ _ hc
  obtain ⟨hc, h17⟩ := and_at_scalar _ _ hc
  obtain ⟨hc, h16⟩ := and_at_scalar _ _ hc
  obtain ⟨hc, h15⟩ := and_at_scalar _ _ hc
  obtain ⟨hc, h14⟩ := and_at_scalar _ _ hc
  obtain ⟨hc, h13⟩ := and_at_scalar _ _ hc
  obtain ⟨hc, h12⟩ := and_at_scalar _ _ hc
  obtain ⟨hc, h11⟩ := and_at_scalar _ _ hc
  obtain ⟨hc, h10⟩ := and_at_scalar _ _ hc
  obtain ⟨hc, h9⟩ := and_at_scalar _ _ hc
  obtain ⟨hc, h8⟩ := and_at_scalar _ _ hc
  obtain ⟨hc, h7⟩ := and_at_scalar _ _ hc
  obtain ⟨hc, h6⟩ := and_at_scalar _ _ hc
  obtain ⟨hc, h5⟩ := and_at_scalar _ _ hc
  obtain ⟨hc, h4⟩ := and_at_scalar _ _ hc
  obtain ⟨h0, h1⟩ := and_at_scalar _ _ hc
  exact ⟨real_of_all _ _ _ _ h0,
    real_of_all _ _ _ _ h1,
    real_of_all _ _ _ _ h4,
    real_of_all _ _ _ _ h5,
    real_of_all _ _ _ _ h6,
    real_of_all _ _ _ _ h7,
    real_of_all _ _ _ _ h8,
    real_of_all _ _ _ _ h9,
    real_of_all _ _ _ _ h10,
    real_of_all _ _ _ _ h11,
    real_of_all _ _ _ _ h12,
    real_of_all _ _ _ _ h13,
    real_of_all _ _ _ _ h14,
    real_of_all _ _ _ _ h15,
    real_of_all _ _ _ _ h16,
    real_of_all _ _ _ _ h17,
    real_of_all _ _ _ _ h18⟩

/-- Every entry of argument 0 is a real number. -/
theorem finite_arg0 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S50000x3.Idx, ∃ r : ℝ, m ((c.tc : Thread Cert.KernelIdeal.nD Cert.KernelIdeal.τ).loc Cert.KernelIdeal.main_arg0) i = (r : EReal)) :=
  (finite_of_pre m h c).1

/-- Every entry of argument 1 is a real number. -/
theorem finite_arg1 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S50000x3.Idx, ∃ r : ℝ, m ((c.tc : Thread Cert.KernelIdeal.nD Cert.KernelIdeal.τ).loc Cert.KernelIdeal.main_arg1) i = (r : EReal)) :=
  (finite_of_pre m h c).2.1

/-- Every entry of argument 4 is a real number. -/
theorem finite_arg4 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S6x64.Idx, ∃ r : ℝ, m ((c.tc : Thread Cert.KernelIdeal.nD Cert.KernelIdeal.τ).loc Cert.KernelIdeal.main_arg4) i = (r : EReal)) :=
  (finite_of_pre m h c).2.2.1

/-- Every entry of argument 5 is a real number. -/
theorem finite_arg5 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S64.Idx, ∃ r : ℝ, m ((c.tc : Thread Cert.KernelIdeal.nD Cert.KernelIdeal.τ).loc Cert.KernelIdeal.main_arg5) i = (r : EReal)) :=
  (finite_of_pre m h c).2.2.2.1

/-- Every entry of argument 6 is a real number. -/
theorem finite_arg6 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4.Idx, ∃ r : ℝ, m ((c.tc : Thread Cert.KernelIdeal.nD Cert.KernelIdeal.τ).loc Cert.KernelIdeal.main_arg6) i = (r : EReal)) :=
  (finite_of_pre m h c).2.2.2.2.1

/-- Every entry of argument 7 is a real number. -/
theorem finite_arg7 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x64x64.Idx, ∃ r : ℝ, m ((c.tc : Thread Cert.KernelIdeal.nD Cert.KernelIdeal.τ).loc Cert.KernelIdeal.main_arg7) i = (r : EReal)) :=
  (finite_of_pre m h c).2.2.2.2.2.1

/-- Every entry of argument 8 is a real number. -/
theorem finite_arg8 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x64.Idx, ∃ r : ℝ, m ((c.tc : Thread Cert.KernelIdeal.nD Cert.KernelIdeal.τ).loc Cert.KernelIdeal.main_arg8) i = (r : EReal)) :=
  (finite_of_pre m h c).2.2.2.2.2.2.1

/-- Every entry of argument 9 is a real number. -/
theorem finite_arg9 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x64.Idx, ∃ r : ℝ, m ((c.tc : Thread Cert.KernelIdeal.nD Cert.KernelIdeal.τ).loc Cert.KernelIdeal.main_arg9) i = (r : EReal)) :=
  (finite_of_pre m h c).2.2.2.2.2.2.2.1

/-- Every entry of argument 10 is a real number. -/
theorem finite_arg10 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x64.Idx, ∃ r : ℝ, m ((c.tc : Thread Cert.KernelIdeal.nD Cert.KernelIdeal.τ).loc Cert.KernelIdeal.main_arg10) i = (r : EReal)) :=
  (finite_of_pre m h c).2.2.2.2.2.2.2.2.1

/-- Every entry of argument 11 is a real number. -/
theorem finite_arg11 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x64x64.Idx, ∃ r : ℝ, m ((c.tc : Thread Cert.KernelIdeal.nD Cert.KernelIdeal.τ).loc Cert.KernelIdeal.main_arg11) i = (r : EReal)) :=
  (finite_of_pre m h c).2.2.2.2.2.2.2.2.2.1

/-- Every entry of argument 12 is a real number. -/
theorem finite_arg12 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x64.Idx, ∃ r : ℝ, m ((c.tc : Thread Cert.KernelIdeal.nD Cert.KernelIdeal.τ).loc Cert.KernelIdeal.main_arg12) i = (r : EReal)) :=
  (finite_of_pre m h c).2.2.2.2.2.2.2.2.2.2.1

/-- Every entry of argument 13 is a real number. -/
theorem finite_arg13 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x64.Idx, ∃ r : ℝ, m ((c.tc : Thread Cert.KernelIdeal.nD Cert.KernelIdeal.τ).loc Cert.KernelIdeal.main_arg13) i = (r : EReal)) :=
  (finite_of_pre m h c).2.2.2.2.2.2.2.2.2.2.2.1

/-- Every entry of argument 14 is a real number. -/
theorem finite_arg14 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x64.Idx, ∃ r : ℝ, m ((c.tc : Thread Cert.KernelIdeal.nD Cert.KernelIdeal.τ).loc Cert.KernelIdeal.main_arg14) i = (r : EReal)) :=
  (finite_of_pre m h c).2.2.2.2.2.2.2.2.2.2.2.2.1

/-- Every entry of argument 15 is a real number. -/
theorem finite_arg15 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S64x64.Idx, ∃ r : ℝ, m ((c.tc : Thread Cert.KernelIdeal.nD Cert.KernelIdeal.τ).loc Cert.KernelIdeal.main_arg15) i = (r : EReal)) :=
  (finite_of_pre m h c).2.2.2.2.2.2.2.2.2.2.2.2.2.1

/-- Every entry of argument 16 is a real number. -/
theorem finite_arg16 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S64.Idx, ∃ r : ℝ, m ((c.tc : Thread Cert.KernelIdeal.nD Cert.KernelIdeal.τ).loc Cert.KernelIdeal.main_arg16) i = (r : EReal)) :=
  (finite_of_pre m h c).2.2.2.2.2.2.2.2.2.2.2.2.2.2.1

/-- Every entry of argument 17 is a real number. -/
theorem finite_arg17 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S64x10.Idx, ∃ r : ℝ, m ((c.tc : Thread Cert.KernelIdeal.nD Cert.KernelIdeal.τ).loc Cert.KernelIdeal.main_arg17) i = (r : EReal)) :=
  (finite_of_pre m h c).2.2.2.2.2.2.2.2.2.2.2.2.2.2.2.1

/-- Every entry of argument 18 is a real number. -/
theorem finite_arg18 [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S10.Idx, ∃ r : ℝ, m ((c.tc : Thread Cert.KernelIdeal.nD Cert.KernelIdeal.τ).loc Cert.KernelIdeal.main_arg18) i = (r : EReal)) :=
  (finite_of_pre m h c).2.2.2.2.2.2.2.2.2.2.2.2.2.2.2.2

end Cert.FiniteIn

end
-- ==== Proof.Spec.lean ====
/-
  The mathematics of one layer of the network, on the extended reals, over plain coordinate-indexed functions:
  a matrix is a function of a row and a column.  Two transcriptions of batch normalisation are stated side by
  side: the one that takes the column sum and the column sum of squares and forms the variance as the mean of
  squares minus the squared mean, scaling by a reciprocal; and the one that divides the column sum by the row
  count, centres, and divides the sum of the centred squares by the row count.
-/
import Idealize.ShloMosaic.PureOps.Ideal
import Mathlib.Algebra.BigOperators.Group.Finset.Basic

noncomputable section

namespace Cert.Spec

open Idealize.ShloMosaic

/-- A matrix of extended reals by row and column. -/
abbrev Mat (n k : Nat) : Type := Fin n → Fin k → EReal
/-- A row of 64 extended reals. -/
abbrev Row : Type := Fin 64 → EReal

/-- Rows times a weight matrix, plus a bias row. -/
def affine {n k : Nat} (x : Mat n k) (W : Mat k 64) (b : Row) : Mat n 64 :=
  fun i j => (∑ t : Fin k, x i t * W t j) + b j

/-- The node features scaled columnwise and added to the aggregated neighbour features. -/
def mix {n : Nat} (e : Row) (h agg : Mat n 64) : Mat n 64 := fun i j => e j * h i j + agg i j

/-- Column sums. -/
def colSum {n : Nat} (y : Mat n 64) : Row := fun j => ∑ i : Fin n, y i j
/-- Column sums of squares. -/
def colSumSq {n : Nat} (y : Mat n 64) : Row := fun j => ∑ i : Fin n, y i j * y i j

/-- Batch normalisation then the positive part, from the two column statistics `s`, `ss` and the reciprocal
    `inv` of the row count: mean `s·inv`, variance `ss·inv − mean²`. -/
def bnStats {n : Nat} (inv eps : EReal) (z : Mat n 64) (s ss g be : Row) : Mat n 64 := fun i j =>
  max (((z i j - s j * inv) * Ideal.rsqrt ((ss j * inv - (s j * inv) * (s j * inv)) + eps)) * g j + be j) 0

/-- The column mean as a quotient by the row count `N`. -/
def meanDiv {n : Nat} (N : EReal) (z : Mat n 64) : Row := fun j => Ideal.div (0 + ∑ i : Fin n, z i j) N
/-- The column variance: the centred squares summed, divided by the row count. -/
def varDiv {n : Nat} (N : EReal) (z : Mat n 64) : Row := fun j =>
  Ideal.div (0 + ∑ i : Fin n, (z i j - meanDiv N z j) * (z i j - meanDiv N z j)) N
/-- Batch normalisation then the positive part, from the quotient mean and the centred variance. -/
def bnCentred {n : Nat} (N eps : EReal) (z : Mat n 64) (g be : Row) : Mat n 64 := fun i j =>
  max (((z i j - meanDiv N z j) * Ideal.rsqrt (varDiv N z j + eps)) * g j + be j) 0

/-- One layer by column statistics. -/
def layerStats {n : Nat} (inv eps : EReal) (e : Row) (h agg : Mat n 64) (W1 : Mat 64 64) (b1 g1 be1 : Row)
    (W2 : Mat 64 64) (b2 g2 be2 : Row) : Mat n 64 :=
  let z1 := affine (mix e h agg) W1 b1
  let a1 := bnStats inv eps z1 (colSum z1) (colSumSq z1) g1 be1
  let z2 := affine a1 W2 b2
  bnStats inv eps z2 (colSum z2) (colSumSq z2) g2 be2

/-- One layer by centred statistics. -/
def layerCentred {n : Nat} (N eps : EReal) (e : Row) (h agg : Mat n 64) (W1 : Mat 64 64) (b1 g1 be1 : Row)
    (W2 : Mat 64 64) (b2 g2 be2 : Row) : Mat n 64 :=
  let z1 := affine (mix e h agg) W1 b1
  let a1 := bnCentred N eps z1 g1 be1
  let z2 := affine a1 W2 b2
  bnCentred N eps z2 g2 be2

/-- Every entry is a real number. -/
def FinMat {n k : Nat} (x : Mat n k) : Prop := ∀ i j, ∃ r : ℝ, x i j = (r : EReal)
/-- Every entry of a row is a real number. -/
def FinRow (x : Row) : Prop := ∀ j, ∃ r : ℝ, x j = (r : EReal)

end Cert.Spec

end
-- ==== Proof.SpecAlg.lean ====
/-
  The algebra of one layer, with no program in sight.

  Over the reals, the mean of squares minus the squared mean equals the mean of the centred squares; both are the
  variance of a column.  A matrix of extended reals all of whose entries are real is the image of a real matrix, and on
  such a matrix every operation of a layer (sums, products, differences, division by the nonzero row count, the
  reciprocal square root of a positive number, the positive part) stays inside the reals.  Hence the transcription of
  batch normalisation by the two column statistics and a reciprocal row count, and the transcription by a quotient mean
  and a centred variance, are the same real matrix; a whole layer follows by applying this twice.

  A sum over a * b rows is the sum over a blocks of b rows, and a running total that adds one block's contribution per
  step ends at the whole sum.
-/
import proofs.«140206_j52750788330061_1_alg».proof.Proof.Spec
import Mathlib.Algebra.BigOperators.Group.Finset.Basic
import Mathlib.Algebra.BigOperators.Fin
import Mathlib.Algebra.BigOperators.Ring.Finset
import Mathlib.Algebra.Order.BigOperators.Ring.Finset
import Mathlib.Data.EReal.Basic
import Mathlib.Data.EReal.Operations
import Mathlib.Analysis.SpecialFunctions.Sqrt
import Mathlib.Tactic.Ring
import Mathlib.Tactic.FieldSimp
import Mathlib.Tactic.Positivity
import Mathlib.Logic.Equiv.Fin.Basic

noncomputable section

namespace Cert.Spec

open Idealize.ShloMosaic

/-! ### Real numbers inside the extended reals -/

/-- The inclusion of the reals commutes with a finite sum. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real reciprocal of its square root. -/
theorem rsqrt_coe_of_pos {r : ℝ} (hr : 0 < r) :
    Ideal.rsqrt (r : EReal) = (((Real.sqrt r)⁻¹ : ℝ) : EReal) := by
  rw [Ideal.rsqrt_coe, if_neg (not_lt.2 hr.le), if_neg hr.ne']

/-- One normalised entry, all of whose ingredients are real and whose variance term is positive, is real. -/
theorem bn_entry_coe (x m r g b : ℝ) (hr : 0 < r) :
    max ((((x : EReal) - (m : EReal)) * Ideal.rsqrt (r : EReal)) * (g : EReal) + (b : EReal)) 0
      = ((max (((x - m) * (Real.sqrt r)⁻¹) * g + b) 0 : ℝ) : EReal) := by
  rw [rsqrt_coe_of_pos hr, ← EReal.coe_sub, ← EReal.coe_mul, ← EReal.coe_mul, ← EReal.coe_add,
    ← EReal.coe_zero]
  exact (EReal.coe_strictMono.monotone.map_max).symm

/-! ### The variance identity over the reals -/

/-- Mean of squares minus squared mean is the mean of the centred squares. -/
theorem real_variance_identity {n : Nat} (hn : 0 < n) (z : Fin n → ℝ) :
    (∑ i, z i * z i) * (1 / (n : ℝ)) - ((∑ i, z i) * (1 / (n : ℝ))) * ((∑ i, z i) * (1 / (n : ℝ)))
      = (∑ i, (z i - (∑ k, z k) * (1 / (n : ℝ))) * (z i - (∑ k, z k) * (1 / (n : ℝ)))) * (1 / (n : ℝ)) := by
  have hn' : (n : ℝ) ≠ 0 := by exact_mod_cast hn.ne'
  generalize hm : (∑ k, z k) * (1 / (n : ℝ)) = m
  have hs : (∑ k, z k) = (n : ℝ) * m := by rw [← hm]; field_simp
  have hexp : ∀ i, (z i - m) * (z i - m) = z i * z i - 2 * m * z i + m * m := fun i => by ring
  simp only [hexp, Finset.sum_add_distrib, Finset.sum_sub_distrib, ← Finset.mul_sum, Finset.sum_const,
    Finset.card_univ, Fintype.card_fin, nsmul_eq_mul, hs]
  field_simp
  ring

/-- The mean of centred squares is not negative. -/
theorem real_centred_variance_nonneg {n : Nat} (z : Fin n → ℝ) (m : ℝ) :
    0 ≤ (∑ i, (z i - m) * (z i - m)) * (1 / (n : ℝ)) := by
  apply mul_nonneg
  · exact Finset.sum_nonneg fun i _ => mul_self_nonneg _
  · positivity

/-! ### Batch normalisation of a real matrix -/

/-- The column mean of a real matrix: the column sum times the reciprocal of the row count. -/
def meanR {n : Nat} (z : Fin n → Fin 64 → ℝ) (j : Fin 64) : ℝ := (∑ i, z i j) * (1 / (n : ℝ))

/-- The column variance of a real matrix: the mean of the centred squares. -/
def varR {n : Nat} (z : Fin n → Fin 64 → ℝ) (j : Fin 64) : ℝ :=
  (∑ i, (z i j - meanR z j) * (z i j - meanR z j)) * (1 / (n : ℝ))

/-- Batch normalisation and the positive part, over the reals. -/
def bnR {n : Nat} (εr : ℝ) (z : Fin n → Fin 64 → ℝ) (g be : Fin 64 → ℝ) (i : Fin n) (j : Fin 64) : ℝ :=
  max (((z i j - meanR z j) * (Real.sqrt (varR z j + εr))⁻¹) * g j + be j) 0

theorem varR_nonneg {n : Nat} (z : Fin n → Fin 64 → ℝ) (j : Fin 64) : 0 ≤ varR z j :=
  real_centred_variance_nonneg (fun i => z i j) (meanR z j)

/-- The column sum of a matrix of reals is the real column sum. -/
theorem colSum_coe {n : Nat} (z : Fin n → Fin 64 → ℝ) (j : Fin 64) :
    colSum (fun i j => (z i j : EReal)) j = ((∑ i, z i j : ℝ) : EReal) :=
  (coe_finsum _ _).symm

/-- The column sum of squares of a matrix of reals is the real column sum of squares. -/
theorem colSumSq_coe {n : Nat} (z : Fin n → Fin 64 → ℝ) (j : Fin 64) :
    colSumSq (fun i j => (z i j : EReal)) j = ((∑ i, z i j * z i j : ℝ) : EReal) := by
  simp only [colSumSq, ← EReal.coe_mul]
  exact (coe_finsum _ _).symm

/-- On a real matrix, normalising by the two column statistics gives the real normalisation. -/
theorem bnStats_coe {n : Nat} (hn : 0 < n) (εr : ℝ) (hε : 0 < εr) (z : Fin n → Fin 64 → ℝ) (g be : Fin 64 → ℝ) :
    bnStats (((1 / (n : ℝ) : ℝ)) : EReal) (εr : EReal) (fun i j => (z i j : EReal))
        (colSum fun i j => (z i j : EReal)) (colSumSq fun i j => (z i j : EReal))
        (fun j => (g j : EReal)) (fun j => (be j : EReal))
      = fun i j => ((bnR εr z g be i j : ℝ) : EReal) := by
  funext i j
  have hpos : 0 < varR z j + εr := add_pos_of_nonneg_of_pos (varR_nonneg z j) hε
  have hvar : (∑ i, z i j * z i j) * (1 / (n : ℝ)) - meanR z j * meanR z j = varR z j :=
    real_variance_identity hn (fun i => z i j)
  simp only [bnStats]
  rw [colSum_coe, colSumSq_coe, ← EReal.coe_mul, ← EReal.coe_mul, ← EReal.coe_mul, ← EReal.coe_sub (_ * _),
    ← EReal.coe_add]
  show max (((z i j : EReal) - (meanR z j : EReal)) * Ideal.rsqrt
      (((∑ i, z i j * z i j) * (1 / (n : ℝ)) - meanR z j * meanR z j + εr : ℝ) : EReal) * (g j : EReal)
      + (be j : EReal)) 0 = _
  rw [hvar]
  exact bn_entry_coe _ _ _ _ _ hpos

/-- On a real matrix, normalising by the quotient mean and centred variance gives the real normalisation. -/
theorem bnCentred_coe {n : Nat} (hn : 0 < n) (εr : ℝ) (hε : 0 < εr) (z : Fin n → Fin 64 → ℝ) (g be : Fin 64 → ℝ) :
    bnCentred (((n : ℝ)) : EReal) (εr : EReal) (fun i j => (z i j : EReal))
        (fun j => (g j : EReal)) (fun j => (be j : EReal))
      = fun i j => ((bnR εr z g be i j : ℝ) : EReal) := by
  have hn' : (n : ℝ) ≠ 0 := by exact_mod_cast hn.ne'
  have hmean : ∀ j, meanDiv ((n : ℝ) : EReal) (fun i j => (z i j : EReal)) j = (meanR z j : EReal) := by
    intro j
    simp only [meanDiv]
    rw [zero_add, Ideal.div_coe hn', ← coe_finsum, ← EReal.coe_mul]
    rfl
  have hvarD : ∀ j, varDiv ((n : ℝ) : EReal) (fun i j => (z i j : EReal)) j = (varR z j : EReal) := by
    intro j
    simp only [varDiv, hmean, ← EReal.coe_sub, ← EReal.coe_mul]
    rw [zero_add, Ideal.div_coe hn', ← coe_finsum, ← EReal.coe_mul]
    rfl
  funext i j
  have hpos : 0 < varR z j + εr := add_pos_of_nonneg_of_pos (varR_nonneg z j) hε
  simp only [bnCentred, hmean, hvarD]
  rw [← EReal.coe_add]
  exact bn_entry_coe _ _ _ _ _ hpos

/-! ### The two transcriptions agree on finite data -/

/-- A matrix all of whose entries are real is the image of a real matrix. -/
theorem FinMat.exists_real {n k : Nat} {x : Mat n k} (hx : FinMat x) :
    ∃ xr : Fin n → Fin k → ℝ, x = fun i j => (xr i j : EReal) := by
  choose xr hxr using hx
  exact ⟨xr, funext fun i => funext fun j => hxr i j⟩

/-- A row all of whose entries are real is the image of a real row. -/
theorem FinRow.exists_real {x : Row} (hx : FinRow x) : ∃ xr : Fin 64 → ℝ, x = fun j => (xr j : EReal) := by
  choose xr hxr using hx
  exact ⟨xr, funext fun j => hxr j⟩

/-- Normalising with the variance taken as mean of squares minus squared mean, scaled by the reciprocal of the row
    count, equals normalising with the quotient mean and the centred variance, on finite data with a positive
    stabiliser. -/
theorem bnStats_eq_bnCentred {n : Nat} (hn : 0 < n) (εr : ℝ) (hε : 0 < εr) (z : Mat n 64) (g be : Row)
    (hz : FinMat z) (hg : FinRow g) (hbe : FinRow be) :
    bnStats (((1 / (n : ℝ) : ℝ)) : EReal) (εr : EReal) z (colSum z) (colSumSq z) g be
      = bnCentred (((n : ℝ)) : EReal) (εr : EReal) z g be := by
  obtain ⟨zr, rfl⟩ := hz.exists_real
  obtain ⟨gr, rfl⟩ := hg.exists_real
  obtain ⟨ber, rfl⟩ := hbe.exists_real
  rw [bnStats_coe hn εr hε, bnCentred_coe hn εr hε]

/-- The normalised matrix is finite: the variance is a real that is not negative, so adding the positive stabiliser
    keeps the reciprocal square root real. -/
theorem finMat_bnStats {n : Nat} (hn : 0 < n) (εr : ℝ) (hε : 0 < εr) (z : Mat n 64) (g be : Row)
    (hz : FinMat z) (hg : FinRow g) (hbe : FinRow be) :
    FinMat (bnStats (((1 / (n : ℝ) : ℝ)) : EReal) (εr : EReal) z (colSum z) (colSumSq z) g be) := by
  obtain ⟨zr, rfl⟩ := hz.exists_real
  obtain ⟨gr, rfl⟩ := hg.exists_real
  obtain ⟨ber, rfl⟩ := hbe.exists_real
  rw [bnStats_coe hn εr hε]
  exact fun i j => ⟨_, rfl⟩

/-- The same for the centred transcription. -/
theorem finMat_bnCentred {n : Nat} (hn : 0 < n) (εr : ℝ) (hε : 0 < εr) (z : Mat n 64) (g be : Row)
    (hz : FinMat z) (hg : FinRow g) (hbe : FinRow be) :
    FinMat (bnCentred (((n : ℝ)) : EReal) (εr : EReal) z g be) := by
  rw [← bnStats_eq_bnCentred hn εr hε z g be hz hg hbe]
  exact finMat_bnStats hn εr hε z g be hz hg hbe

/-- A finite matrix times a finite weight matrix plus a finite bias row is finite. -/
theorem finMat_affine {n k : Nat} (x : Mat n k) (W : Mat k 64) (b : Row) :
    FinMat x → FinMat W → FinRow b → FinMat (affine x W b) := by
  intro hx hW hb
  obtain ⟨xr, rfl⟩ := hx.exists_real
  obtain ⟨Wr, rfl⟩ := hW.exists_real
  obtain ⟨br, rfl⟩ := hb.exists_real
  intro i j
  refine ⟨(∑ t : Fin k, xr i t * Wr t j) + br j, ?_⟩
  simp only [affine, ← EReal.coe_mul]
  rw [← coe_finsum, ← EReal.coe_add]

/-- A finite scaling row times finite features plus finite aggregated features is finite. -/
theorem finMat_mix {n : Nat} (e : Row) (h agg : Mat n 64) :
    FinRow e → FinMat h → FinMat agg → FinMat (mix e h agg) := by
  intro he hh hagg i j
  obtain ⟨er, her⟩ := he j
  obtain ⟨hr, hhr⟩ := hh i j
  obtain ⟨ar, har⟩ := hagg i j
  exact ⟨er * hr + ar, by simp only [mix, her, hhr, har, EReal.coe_add, EReal.coe_mul]⟩

/-! ### One whole layer -/

/-- A layer computed with column statistics equals the layer computed with centred statistics, on finite data. -/
theorem layerStats_eq_layerCentred {n : Nat} (hn : 0 < n) (εr : ℝ) (hε : 0 < εr) (e : Row) (h agg : Mat n 64)
    (W1 : Mat 64 64) (b1 g1 be1 : Row) (W2 : Mat 64 64) (b2 g2 be2 : Row)
    (he : FinRow e) (hh : FinMat h) (hagg : FinMat agg)
    (hW1 : FinMat W1) (hb1 : FinRow b1) (hg1 : FinRow g1) (hbe1 : FinRow be1)
    (hW2 : FinMat W2) (hb2 : FinRow b2) (hg2 : FinRow g2) (hbe2 : FinRow be2) :
    layerStats (((1 / (n : ℝ) : ℝ)) : EReal) (εr : EReal) e h agg W1 b1 g1 be1 W2 b2 g2 be2
      = layerCentred (((n : ℝ)) : EReal) (εr : EReal) e h agg W1 b1 g1 be1 W2 b2 g2 be2 := by
  have hz1 : FinMat (affine (mix e h agg) W1 b1) :=
    finMat_affine _ _ _ (finMat_mix _ _ _ he hh hagg) hW1 hb1
  have h1 := bnStats_eq_bnCentred hn εr hε _ g1 be1 hz1 hg1 hbe1
  have ha1 := finMat_bnCentred hn εr hε _ g1 be1 hz1 hg1 hbe1
  have hz2 := finMat_affine _ W2 b2 ha1 hW2 hb2
  have h2 := bnStats_eq_bnCentred hn εr hε _ g2 be2 hz2 hg2 hbe2
  simp only [layerStats, layerCentred]
  rw [h1, h2]

/-- A layer computed with column statistics is finite on finite data. -/
theorem finMat_layerStats {n : Nat} (hn : 0 < n) (εr : ℝ) (hε : 0 < εr) (e : Row) (h agg : Mat n 64)
    (W1 : Mat 64 64) (b1 g1 be1 : Row) (W2 : Mat 64 64) (b2 g2 be2 : Row)
    (he : FinRow e) (hh : FinMat h) (hagg : FinMat agg)
    (hW1 : FinMat W1) (hb1 : FinRow b1) (hg1 : FinRow g1) (hbe1 : FinRow be1)
    (hW2 : FinMat W2) (hb2 : FinRow b2) (hg2 : FinRow g2) (hbe2 : FinRow be2) :
    FinMat (layerStats (((1 / (n : ℝ) : ℝ)) : EReal) (εr : EReal) e h agg W1 b1 g1 be1 W2 b2 g2 be2) := by
  have hz1 : FinMat (affine (mix e h agg) W1 b1) :=
    finMat_affine _ _ _ (finMat_mix _ _ _ he hh hagg) hW1 hb1
  have ha1 := finMat_bnStats hn εr hε _ g1 be1 hz1 hg1 hbe1
  have hz2 := finMat_affine _ W2 b2 ha1 hW2 hb2
  exact finMat_bnStats hn εr hε _ g2 be2 hz2 hg2 hbe2

/-- A layer computed with centred statistics is finite on finite data. -/
theorem finMat_layerCentred {n : Nat} (hn : 0 < n) (εr : ℝ) (hε : 0 < εr) (e : Row) (h agg : Mat n 64)
    (W1 : Mat 64 64) (b1 g1 be1 : Row) (W2 : Mat 64 64) (b2 g2 be2 : Row)
    (he : FinRow e) (hh : FinMat h) (hagg : FinMat agg)
    (hW1 : FinMat W1) (hb1 : FinRow b1) (hg1 : FinRow g1) (hbe1 : FinRow be1)
    (hW2 : FinMat W2) (hb2 : FinRow b2) (hg2 : FinRow g2) (hbe2 : FinRow be2) :
    FinMat (layerCentred (((n : ℝ)) : EReal) (εr : EReal) e h agg W1 b1 g1 be1 W2 b2 g2 be2) := by
  rw [← layerStats_eq_layerCentred hn εr hε e h agg W1 b1 g1 be1 W2 b2 g2 be2 he hh hagg hW1 hb1 hg1 hbe1
    hW2 hb2 hg2 hbe2]
  exact finMat_layerStats hn εr hε e h agg W1 b1 g1 be1 W2 b2 g2 be2 he hh hagg hW1 hb1 hg1 hbe1 hW2 hb2 hg2 hbe2

/-! ### A sum over rows, taken block by block -/

/-- Row `r` of block `t`, of `a` blocks of `b` rows each, is a row of the whole. -/
theorem block_index_lt {a b : Nat} (t : Fin a) (r : Fin b) : t.val * b + r.val < a * b :=
  calc t.val * b + r.val < t.val * b + b := Nat.add_lt_add_left r.isLt _
    _ = (t.val + 1) * b := (Nat.succ_mul _ _).symm
    _ ≤ a * b := Nat.mul_le_mul_right b t.isLt

/-- A sum over `a * b` indices is the sum over the `a` blocks of the sums over the `b` indices of a block. -/
theorem sum_blocks {M : Type} [AddCommMonoid M] (a b : Nat) (f : Fin (a * b) → M) :
    ∑ i : Fin (a * b), f i = ∑ t : Fin a, ∑ r : Fin b, f ⟨t.val * b + r.val, block_index_lt t r⟩ := by
  rw [← Equiv.sum_comp finProdFinEquiv f, Fintype.sum_prod_type]
  refine Finset.sum_congr rfl fun t _ => Finset.sum_congr rfl fun r _ => ?_
  congr 1
  apply Fin.ext
  show r.val + b * t.val = t.val * b + r.val
  rw [Nat.add_comm, Nat.mul_comm]

/-- The same with the row count given as a number equal to `a * b`. -/
theorem sum_blocks_of_eq {M : Type} [AddCommMonoid M] {n : Nat} (a b : Nat) (hab : n = a * b) (f : Fin n → M) :
    ∑ i : Fin n, f i = ∑ t : Fin a, ∑ r : Fin b, f ⟨t.val * b + r.val, hab ▸ block_index_lt t r⟩ := by
  subst hab
  exact sum_blocks a b f

/-- Column sums of a matrix of `a * b` rows are the sums over the blocks of the blocks' column sums. -/
theorem colSum_blocks (a b : Nat) (y : Mat (a * b) 64) (j : Fin 64) :
    colSum y j = ∑ t : Fin a, colSum (fun (r : Fin b) c => y ⟨t.val * b + r.val, block_index_lt t r⟩ c) j :=
  sum_blocks a b fun i => y i j

/-- Column sums of squares of a matrix of `a * b` rows are the sums over the blocks of the blocks' column sums of
    squares. -/
theorem colSumSq_blocks (a b : Nat) (y : Mat (a * b) 64) (j : Fin 64) :
    colSumSq y j = ∑ t : Fin a, colSumSq (fun (r : Fin b) c => y ⟨t.val * b + r.val, block_index_lt t r⟩ c) j :=
  sum_blocks a b fun i => y i j * y i j

/-- Column sums by blocks, the row count given as a number equal to `a * b`. -/
theorem colSum_blocks_of_eq {n : Nat} (a b : Nat) (hab : n = a * b) (y : Mat n 64) (j : Fin 64) :
    colSum y j
      = ∑ t : Fin a, colSum (fun (r : Fin b) c => y ⟨t.val * b + r.val, hab ▸ block_index_lt t r⟩ c) j :=
  sum_blocks_of_eq a b hab fun i => y i j

/-- Column sums of squares by blocks, the row count given as a number equal to `a * b`. -/
theorem colSumSq_blocks_of_eq {n : Nat} (a b : Nat) (hab : n = a * b) (y : Mat n 64) (j : Fin 64) :
    colSumSq y j
      = ∑ t : Fin a, colSumSq (fun (r : Fin b) c => y ⟨t.val * b + r.val, hab ▸ block_index_lt t r⟩ c) j :=
  sum_blocks_of_eq a b hab fun i => y i j * y i j

/-! ### A running total -/

/-- A running total that starts at `c` and adds `g t` at step `t` holds, after `k` steps, `c` plus the first `k`
    terms. -/
theorem running_total_range {M : Type} [AddCommMonoid M] (g : Nat → M) (acc : Nat → M) (c : M) (h0 : acc 0 = c)
    (hs : ∀ t, acc (t + 1) = acc t + g t) (k : Nat) : acc k = c + ∑ t ∈ Finset.range k, g t := by
  induction k with
  | zero => rw [h0, Finset.range_zero, Finset.sum_empty, add_zero]
  | succ k ih => rw [hs, ih, Finset.sum_range_succ, add_assoc]

/-- A running total over `a` steps whose terms are indexed by `Fin a`: after `k ≤ a` steps it holds the start value
    plus the first `k` terms. -/
theorem running_total_fin_le {M : Type} [AddCommMonoid M] {a : Nat} (g : Fin a → M) (acc : Nat → M) (c : M)
    (h0 : acc 0 = c) (hs : ∀ (t : Nat) (ht : t < a), acc (t + 1) = acc t + g ⟨t, ht⟩) (k : Nat) (hk : k ≤ a) :
    acc k = c + ∑ t : Fin k, g ⟨t.val, Nat.lt_of_lt_of_le t.isLt hk⟩ := by
  induction k with
  | zero => rw [h0, Finset.univ_eq_empty, Finset.sum_empty, add_zero]
  | succ k ih =>
    rw [hs k hk, ih (Nat.le_of_succ_le hk), Fin.sum_univ_castSucc, add_assoc]
    rfl

/-- A running total that starts at zero and adds `g t` at step `t` holds the whole sum after the last step. -/
theorem running_total_fin {M : Type} [AddCommMonoid M] {a : Nat} (g : Fin a → M) (acc : Nat → M)
    (h0 : acc 0 = 0) (hs : ∀ (t : Nat) (ht : t < a), acc (t + 1) = acc t + g ⟨t, ht⟩) :
    acc a = ∑ t : Fin a, g t := by
  rw [running_total_fin_le g acc 0 h0 hs a le_rfl, zero_add]

end Cert.Spec

end
-- ==== Proof.KI.Glue.AggDef.lean ====
/-
  The neighbour sum and the graph mean as the program's host operations compose them, each named once.

  An edge list is a [2, E] array of node numbers: row 0 the source of each edge, row 1 its target.  A negative source
  number counts from the end (the node count is added to it).  The neighbour sum of node features h gathers the source's
  row for every edge and adds it into the target's row of an array of zeros.  The graph mean adds every node's row into
  the row of its graph, counts the nodes of each graph the same way, and divides by the count, taken as at least one.
-/
import proofs.«140206_j52750788330061_1_alg».proof.Proof.Gen.KernelIdeal

noncomputable section

namespace Cert.KernelIdeal.Glue

open Idealize.ShloMosaic
open Cert.KernelIdeal.Gen

/-- The source node of each edge: row 0 of the edge list, as a vector. -/
def srcOf (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

/-- The target node of each edge: row 1 of the edge list, as a vector. -/
def dstOf (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- The neighbour sum from the two vectors of node numbers: gather the source rows (a negative number counted from the
    end), add them into the target rows of zeros. -/
def aggFrom (h : (⟨S50000x64, .f32⟩ : BufTy).Contents (Elt Ideal))
    (src dst : (⟨S800000, .i32⟩ : BufTy).Contents (Elt Ideal)) : (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The neighbour sum of node features `h` along the edge list `ei`. -/
def aggK (h : (⟨S50000x64, .f32⟩ : BufTy).Contents (Elt Ideal))
    (ei : (⟨S2x800000, .i32⟩ : BufTy).Contents (Elt Ideal)) : (⟨S50000x64, .f32⟩ : BufTy).Contents (Elt Ideal) :=
  aggFrom h (srcOf ei) (dstOf ei)

end Cert.KernelIdeal.Glue

end
-- ==== Proof.Agg.lean ====
/-
  The two graph reductions of the network, each named once over the reference program's shape records, with the
  two facts the rest of the argument needs of them.

  The neighbour sum.  The edge list is a [2, E] array of node numbers, row 0 the sources and row 1 the targets.  A
  negative source number has the node count added to it.  For every edge the source's feature row is read (a number
  outside the table is moved to the nearest row), and the rows read are added into the target's row of an array of
  zeros (an edge whose target lies outside the table adds nothing).  So every entry of the result is a zero plus a
  finite sum of entries of the feature table, whatever the node numbers are: if the table is real, so is the result.

  The graph mean.  Every node's feature row is added into the row of its graph, ones are added the same way to count
  the nodes of each graph, and each sum is divided by its count taken as at least one.  A count is a zero plus a finite
  sum of ones, hence real; the larger of it and one is a real number not below one, hence not zero; so the quotient is
  a product of reals.

  The kernel program states the same operations over its own copies of the shape records, which have the same fields:
  its compositions are these functions.
-/
import proofs.«140206_j52750788330061_1_alg».proof.Proof.Gen.ReferenceIdeal
import proofs.«140206_j52750788330061_1_alg».proof.Proof.KI.Glue.AggDef
import Idealize.ShloMosaic.PureOps.Ideal
import Idealize.ShloMosaic.PureOps.Ideal.Laws
import Mathlib.Algebra.BigOperators.Group.Finset.Defs
import Mathlib.Data.EReal.Basic

noncomputable section

namespace Cert.Agg

open Idealize.ShloMosaic
open Cert.ReferenceIdeal Cert.ReferenceIdeal.Facts₀

/-! ## The neighbour sum -/

/-- The source node of each edge: row 0 of the edge list. -/
def srcOf (ei : IVec S2x800000 32) : IVec S800000 32 :=
  shapeCast S800000 (extractStridedSlice S1x800000 ![0, 0] ei slices_S2x800000_S1x800000_0_0) shapeCasts_S1x800000_S800000

/-- The target node of each edge: row 1 of the edge list. -/
def dstOf (ei : IVec S2x800000 32) : IVec S800000 32 :=
  shapeCast S800000 (extractStridedSlice S1x800000 ![1, 0] ei slices_S2x800000_S1x800000_1_0) shapeCasts_S1x800000_S800000

/-- Node numbers as the gather reads them: a negative one has the node count added; one index per row. -/
def srcNorm (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The neighbour sum from the two vectors of node numbers. -/
def aggFrom (h : Vec Ideal S50000x64 .f32) (src dst : IVec S800000 32) : Vec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h (srcNorm src))

/-- The neighbour sum of the node features `h` along the edge list `ei`. -/
def aggOf (h : Vec Ideal S50000x64 .f32) (ei : IVec S2x800000 32) : Vec Ideal S50000x64 .f32 :=
  aggFrom h (srcOf ei) (dstOf ei)

/-- The kernel program's neighbour sum, stated over its own records, is this function. -/
theorem aggK_eq_aggOf (h : Vec Ideal S50000x64 .f32) (ei : IVec S2x800000 32) :
    Cert.KernelIdeal.Glue.aggK h ei = aggOf h ei := rfl

/-- The same from the two vectors of node numbers. -/
theorem aggFromK_eq_aggFrom (h : Vec Ideal S50000x64 .f32) (src dst : IVec S800000 32) :
    Cert.KernelIdeal.Glue.aggFrom h src dst = aggFrom h src dst := rfl

/-! ## The graph mean -/

/-- The graph number of each node, one index per row. -/
def batchCol (batch : IVec S50000 32) : IVec S50000x1 32 :=
  broadcastInDim S50000x1 ![0] bcast_S50000_S50000x1_0 batch

/-- The feature rows of each graph's nodes, added up. -/
def poolSums (h : Vec Ideal S50000x64 .f32) (batch : IVec S50000 32) : Vec Ideal S512x64 .f32 :=
  Host.scatterAdd scatter_S512x64_S50000x1_S50000x64_1_0_0_1
    (broadcastInDim S512x64 ![] bcast_S_S512x64 (constant (F := Ideal) S_ .f32 0x00000000#32)) (batchCol batch) h

/-- The number of nodes of each graph: ones added up. -/
def poolCounts (batch : IVec S50000 32) : Vec Ideal S512 .f32 :=
  Host.scatterAdd scatter_S512_S50000x1_S50000_n_0_0_1
    (broadcastInDim S512 ![] bcast_S_S512 (constant (F := Ideal) S_ .f32 0x00000000#32)) (batchCol batch)
    (broadcastInDim S50000 ![] bcast_S_S50000 (constant (F := Ideal) S_ .f32 0x3F800000#32))

/-- The divisor of each entry: its graph's count, taken as at least one. -/
def poolDen (batch : IVec S50000 32) : Vec Ideal S512x64 .f32 :=
  broadcastInDim S512x64 ![0, 1] bcast_S512x1_S512x64_0_1
    (broadcastInDim S512x1 ![0] bcast_S512_S512x1_0
      (maximumf (poolCounts batch) (broadcastInDim S512 ![] bcast_S_S512 (constant (F := Ideal) S_ .f32 0x3F800000#32))))

/-- The mean feature row of each graph. -/
def poolOf (h : Vec Ideal S50000x64 .f32) (batch : IVec S50000 32) : Vec Ideal S512x64 .f32 :=
  Host.divf (F := Ideal) (φ := .f32) (poolSums h batch) (poolDen batch)

/-! ## Real entries -/

/-- A finite sum of real numbers, taken in the extended reals, is a real number. -/
theorem sum_real {ι : Type} (s : Finset ι) (f : ι → EReal) (hf : ∀ j ∈ s, ∃ r : ℝ, f j = (r : EReal)) :
    ∃ r : ℝ, ∑ j ∈ s, f j = (r : EReal) := by
  refine Finset.sum_induction f (fun x => ∃ r : ℝ, x = (r : EReal)) ?_ ⟨0, rfl⟩ hf
  rintro a b ⟨ra, rfl⟩ ⟨rb, rfl⟩
  exact ⟨ra + rb, (EReal.coe_add ra rb).symm⟩

/-- The accumulating scatter of real updates into a real operand is real at every position, whatever the
    indices: a position receives its operand entry plus the sum of the updates that land on it. -/
theorem scatterAdd_real {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) := by
  unfold Ideal.hostScatterAdd
  obtain ⟨a, ha⟩ := hx i
  obtain ⟨b, hb⟩ := sum_real (Finset.univ.filter fun j => d.resultIdx? j idx = some i) upd (fun j _ => hu j)
  exact ⟨a + b, by rw [ha, hb]; exact (EReal.coe_add a b).symm⟩

/-- The broadcast zero constant is the real number zero at every position. -/
theorem zeros_real {t : Shape} (hb : Shape.BroadcastsInDim ⟨0, ![]⟩ t (![] : Fin 0 → Fin t.rank)) (i : t.Idx) :
    ∃ r : ℝ, broadcastInDim t ![] hb (constant (F := Ideal) ⟨0, ![]⟩ .f32 0x00000000#32) i = (r : EReal) :=
  ⟨0, Ideal.ofBits_zero_f32⟩

/-- The word 0x3F800000 read as a binary32 number: sign bit clear, exponent field 127, fraction field 0, so
    2^23 · 2^(127 − 127 − 23) = 1. -/
theorem one_bits : Ideal.ofBits .f32 0x3F800000#32 = ((1 : ℝ) : EReal) := by
  have hneg : ((0x3F800000#32 : BitVec 32).extractLsb' (8 + 23) 1 == 1#1) = false := by decide
  have hex : ((0x3F800000#32 : BitVec 32).extractLsb' 23 8).toNat = 127 := by decide
  have hfr : ((0x3F800000#32 : BitVec 32).extractLsb' 0 23).toNat = 0 := by decide
  show Ideal.ieee 8 23 (0x3F800000#32 : BitVec 32) = _
  unfold Ideal.ieee
  simp only [hneg, hex, hfr]
  norm_num

/-- The broadcast constant one is the real number one at every position. -/
theorem ones_real {t : Shape} (hb : Shape.BroadcastsInDim ⟨0, ![]⟩ t (![] : Fin 0 → Fin t.rank)) (i : t.Idx) :
    broadcastInDim t ![] hb (constant (F := Ideal) ⟨0, ![]⟩ .f32 0x3F800000#32) i = ((1 : ℝ) : EReal) :=
  one_bits

/-- The larger of a real number and one is a nonzero real number. -/
theorem max_one_real {c : EReal} (hc : ∃ a : ℝ, c = (a : EReal)) :
    ∃ b : ℝ, max c ((1 : ℝ) : EReal) = (b : EReal) ∧ b ≠ 0 := by
  obtain ⟨a, rfl⟩ := hc
  refine ⟨max a 1, (EReal.coe_strictMono.monotone.map_max).symm, ?_⟩
  have h1 : (1 : ℝ) ≤ max a 1 := le_max_right a 1
  intro h0; rw [h0] at h1; exact absurd h1 (by norm_num)

/-- The quotient of a real number by a nonzero real number is a real number. -/
theorem div_real {x y : EReal} (hx : ∃ a : ℝ, x = (a : EReal)) (hy : ∃ b : ℝ, y = (b : EReal) ∧ b ≠ 0) :
    ∃ r : ℝ, Ideal.div x y = (r : EReal) := by
  obtain ⟨a, rfl⟩ := hx
  obtain ⟨b, rfl, hb⟩ := hy
  exact ⟨a * (1 / b), by rw [Ideal.div_coe hb, EReal.coe_mul]⟩

/-- A broadcast reads some entry of its operand. -/
theorem bcast_reads {s t : Shape} {α : Type} (dims : Fin s.rank → Fin t.rank) (hb : s.BroadcastsInDim t dims)
    (x : s.Idx → α) (j : t.Idx) : ∃ k : s.Idx, broadcastInDim t dims hb x j = x k := ⟨_, rfl⟩

/-- The pointwise maximum and the pointwise quotient, at an index. -/
theorem maximumf_apply {s : Shape} (x y : FVec Ideal s .f32) (k : s.Idx) : maximumf x y k = max (x k) (y k) := rfl
theorem divf_apply {s : Shape} (x y : FVec Ideal s .f32) (k : s.Idx) : Host.divf x y k = Ideal.div (x k) (y k) := rfl

/-- The neighbour sum as the exact accumulating scatter. -/
theorem aggFrom_ideal (h : Vec Ideal S50000x64 .f32) (src dst : IVec S800000 32) :
    aggFrom h src dst = Ideal.hostScatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 dst)
      (Host.gather gather_S50000x64_S800000x1_S800000x64_1_0_n_n_0_1_164 h (srcNorm src)) := rfl

/-- Every entry of the neighbour sum of a real table is real, whatever the node numbers are. -/
theorem finite_aggFrom (h : Vec Ideal S50000x64 .f32) (src dst : IVec S800000 32)
    (hh : ∀ i, ∃ r : ℝ, h i = (r : EReal)) : ∀ i, ∃ r : ℝ, aggFrom h src dst i = (r : EReal) := by
  intro i
  rw [aggFrom_ideal]
  exact scatterAdd_real _ _ _ _ (fun i => zeros_real bcast_S_S50000x64 i) (fun _ => hh _) i

theorem finite_aggOf (h : Vec Ideal S50000x64 .f32) (ei : IVec S2x800000 32)
    (hh : ∀ i, ∃ r : ℝ, h i = (r : EReal)) : ∀ i, ∃ r : ℝ, aggOf h ei i = (r : EReal) :=
  finite_aggFrom h (srcOf ei) (dstOf ei) hh

theorem poolSums_ideal (h : Vec Ideal S50000x64 .f32) (batch : IVec S50000 32) :
    poolSums h batch = Ideal.hostScatterAdd scatter_S512x64_S50000x1_S50000x64_1_0_0_1
      (broadcastInDim S512x64 ![] bcast_S_S512x64 (constant (F := Ideal) S_ .f32 0x00000000#32)) (batchCol batch) h := rfl

theorem poolCounts_ideal (batch : IVec S50000 32) :
    poolCounts batch = Ideal.hostScatterAdd scatter_S512_S50000x1_S50000_n_0_0_1
      (broadcastInDim S512 ![] bcast_S_S512 (constant (F := Ideal) S_ .f32 0x00000000#32)) (batchCol batch)
      (broadcastInDim S50000 ![] bcast_S_S50000 (constant (F := Ideal) S_ .f32 0x3F800000#32)) := rfl

theorem finite_poolSums (h : Vec Ideal S50000x64 .f32) (batch : IVec S50000 32)
    (hh : ∀ i, ∃ r : ℝ, h i = (r : EReal)) : ∀ i, ∃ r : ℝ, poolSums h batch i = (r : EReal) := by
  intro i
  rw [poolSums_ideal]
  exact scatterAdd_real _ _ _ _ (fun i => zeros_real bcast_S_S512x64 i) hh i

theorem finite_poolCounts (batch : IVec S50000 32) : ∀ k, ∃ r : ℝ, poolCounts batch k = (r : EReal) := by
  intro k
  rw [poolCounts_ideal]
  exact scatterAdd_real _ _ _ _ (fun i => zeros_real bcast_S_S512 i) (fun j => ⟨1, ones_real bcast_S_S50000 j⟩) k

/-- Every divisor is a nonzero real number. -/
theorem poolDen_real (batch : IVec S50000 32) (i : S512x64.Idx) :
    ∃ b : ℝ, poolDen batch i = (b : EReal) ∧ b ≠ 0 := by
  rw [poolDen]
  obtain ⟨k1, h1⟩ := bcast_reads ![0, 1] bcast_S512x1_S512x64_0_1
    (broadcastInDim S512x1 ![0] bcast_S512_S512x1_0
      (maximumf (poolCounts batch) (broadcastInDim S512 ![] bcast_S_S512 (constant (F := Ideal) S_ .f32 0x3F800000#32)))) i
  obtain ⟨k, h2⟩ := bcast_reads ![0] bcast_S512_S512x1_0
    (maximumf (poolCounts batch) (broadcastInDim S512 ![] bcast_S_S512 (constant (F := Ideal) S_ .f32 0x3F800000#32))) k1
  rw [h1, h2, maximumf_apply, ones_real]
  exact max_one_real (finite_poolCounts batch k)

/-- Every entry of the graph mean of a real table is real, whatever the graph numbers are. -/
theorem finite_poolOf (h : Vec Ideal S50000x64 .f32) (batch : IVec S50000 32)
    (hh : ∀ i, ∃ r : ℝ, h i = (r : EReal)) : ∀ i, ∃ r : ℝ, poolOf h batch i = (r : EReal) := by
  intro i
  rw [poolOf, divf_apply]
  exact div_real (finite_poolSums h batch hh i) (poolDen_real batch i)

end Cert.Agg

end
-- ==== Proof.RefVal.Batchnorm.lean ====
/-
  Batch normalisation followed by the positive part, as the reference composes it from host operations, and the
  same read at one entry on the extended reals.

  For a 50000 x 64 matrix z: the column mean is the column sum (started from zero) divided by the row count; the
  column variance recomputes that mean through a one-row matrix, subtracts it, squares, sums down the rows (from
  zero again) and divides by the row count less an integer correction read as a float, the correction being 0;
  a guard keeps that quotient where the divisor is positive, which it is.  The entry (i, j) of the result is
  max (((z i j - mean j) * rsqrt (var j + eps)) * g j + be j) 0.
-/
import proofs.«140206_j52750788330061_1_alg».proof.Proof.Spec
import proofs.«140206_j52750788330061_1_alg».proof.Proof.Gen.ReferenceIdeal
import Idealize.ShloMosaic.Lib.IdealHost
import Idealize.ShloMosaic.Lib.Pipeline.Value

noncomputable section

namespace Cert.ReferenceIdeal.RefVal

open Idealize.ShloMosaic Idealize.ShloMosaic.ValueIdx
open Cert.ReferenceIdeal.Facts₀

/-- The small constant added to the variance, as the extended real its word denotes. -/
abbrev EPS : EReal := Ideal.ofBits .f32 0x3727C5AC#32

/-! ## Constants -/

/-- The word of the row count denotes the real 50000. -/
theorem ofBits_50000 : Ideal.ofBits .f32 0x47435000#32 = ((50000 : ℝ) : EReal) := by
  simp [Ideal.ofBits, Ideal.ieee, -EReal.coe_mul]; norm_num

/-! ## Rows repeated down a matrix -/

/-- A row of 64 entries repeated down the 50000 rows, by way of a one-row matrix. -/
def downRows (r : FVec Ideal S64 .f32) : FVec Ideal S50000x64 .f32 :=
  broadcastInDim S50000x64 ![0, 1] bcast_S1x64_S50000x64_0_1 (broadcastInDim S1x64 ![1] bcast_S64_S1x64_1 r)

/-- A row made a one-row matrix reads the row's entry of the same column. -/
theorem oneRow_apply (r : FVec Ideal S64 .f32) (j : Fin 64) :
    broadcastInDim S1x64 ![1] bcast_S64_S1x64_1 r (ix2 (0 : Fin 1) j) = r (ix1 j) :=
  broadcastInDim_apply _ _ r _ (ix1 j) (fun a => by
    match a with
    | ⟨0, _⟩ => rfl)

/-- A one-row matrix repeated down the rows reads its one row at the same column. -/
theorem overRows_apply (r : FVec Ideal S1x64 .f32) (i : Fin 50000) (j : Fin 64) :
    broadcastInDim S50000x64 ![0, 1] bcast_S1x64_S50000x64_0_1 r (ix2 i j) = r (ix2 (0 : Fin 1) j) :=
  broadcastInDim_apply _ _ r _ (ix2 (0 : Fin 1) j) (fun a => by
    match a with
    | ⟨0, _⟩ => rfl
    | ⟨1, _⟩ => rfl)

/-- A row repeated down the rows reads, at (i, j), the row's entry j. -/
theorem downRows_apply (r : FVec Ideal S64 .f32) (i : Fin 50000) (j : Fin 64) :
    downRows r (ix2 i j) = r (ix1 j) := by
  unfold downRows
  rw [overRows_apply, oneRow_apply]

/-! ## Column sums -/

/-- The sum down the rows, started from the zero word: zero plus the sum over the rows of the column's entries. -/
theorem colSum_apply (z : FVec Ideal S50000x64 .f32) (j : Fin 64) :
    Host.reduceAdd z (constant (F := Ideal) S_ .f32 0x00000000#32) reducesTo_S50000x64_S64_d0 h_S_ (ix1 j)
      = 0 + ∑ i : Fin 50000, z (ix2 i j) := by
  have hR : S50000x64.Reduces [0] S64 := by decide
  rw [hostReduceAdd_apply, Ideal.hostReduceAdd_single _ hR, constant_apply, Ideal.ofBits_zero_f32]
  refine congrArg (0 + ·) (Finset.sum_congr rfl fun k _ => congrArg z ?_)
  funext a
  match a with
  | ⟨0, _⟩ => rfl
  | ⟨1, _⟩ => rfl

/-! ## The mean -/

/-- The column mean: the column sum divided by the row count repeated along the row. -/
def colMean (z : FVec Ideal S50000x64 .f32) : FVec Ideal S64 .f32 :=
  Host.divf (Host.reduceAdd z (constant (F := Ideal) S_ .f32 0x00000000#32) reducesTo_S50000x64_S64_d0 h_S_)
    (broadcastInDim S64 ![] bcast_S_S64 (constant (F := Ideal) S_ .f32 0x47435000#32))

/-- It is the quotient of zero plus the column sum by 50000. -/
theorem colMean_apply (z : FVec Ideal S50000x64 .f32) (j : Fin 64) :
    colMean z (ix1 j) = Cert.Spec.meanDiv ((50000 : ℝ) : EReal) (fun i j => z (ix2 i j)) j := by
  unfold colMean Cert.Spec.meanDiv
  rw [hostDivf_apply, colSum_apply, broadcastInDim_scalar_apply, constant_apply, ofBits_50000]

/-! ## The variance -/

/-- The variance's divisor: the row count less the integer correction 0 converted to a float. -/
def varDivisor : FVec Ideal S_ .f32 :=
  subf (constant (F := Ideal) S_ .f32 0x47435000#32) (sitofp (F := Ideal) .f32 (constantI S_ 32 0#32))

/-- It is 50000. -/
theorem varDivisor_apply : varDivisor ix0 = ((50000 : ℝ) : EReal) := by
  unfold varDivisor
  rw [subf_apply, constant_apply, sitofp_apply, ofBits_50000]
  show ((50000 : ℝ) : EReal) - ((((0#32 : BitVec 32).toInt : ℤ) : ℝ) : EReal) = _
  simp

/-- The matrix less its column mean, the mean formed through a one-row matrix as the variance forms it. -/
def centredForVar (z : FVec Ideal S50000x64 .f32) : FVec Ideal S50000x64 .f32 :=
  subf z (broadcastInDim S50000x64 ![0, 1] bcast_S1x64_S50000x64_0_1
    (Host.divf
      (broadcastInDim S1x64 ![1] bcast_S64_S1x64_1
        (Host.reduceAdd z (constant (F := Ideal) S_ .f32 0x00000000#32) reducesTo_S50000x64_S64_d0 h_S_))
      (broadcastInDim S1x64 ![] bcast_S_S1x64 (constant (F := Ideal) S_ .f32 0x47435000#32))))

/-- At (i, j) it is the entry less the column's mean. -/
theorem centredForVar_apply (z : FVec Ideal S50000x64 .f32) (i : Fin 50000) (j : Fin 64) :
    centredForVar z (ix2 i j)
      = z (ix2 i j) - Cert.Spec.meanDiv ((50000 : ℝ) : EReal) (fun i j => z (ix2 i j)) j := by
  unfold centredForVar Cert.Spec.meanDiv
  rw [subf_apply, overRows_apply, hostDivf_apply, oneRow_apply, colSum_apply, broadcastInDim_scalar_apply,
    constant_apply, ofBits_50000]

/-- The column variance: the centred squares summed down the rows and divided by the divisor, kept by the guard
    that the divisor is positive (its other branch is the not-a-number word). -/
def colVar (z : FVec Ideal S50000x64 .f32) : FVec Ideal S64 .f32 :=
  select (broadcastInDim S64 ![] bcast_S_S64 (cmpf .ogt varDivisor (constant (F := Ideal) S_ .f32 0x00000000#32)))
    (Host.divf
      (Host.reduceAdd (mulf (centredForVar z) (centredForVar z)) (constant (F := Ideal) S_ .f32 0x00000000#32)
        reducesTo_S50000x64_S64_d0 h_S_)
      (broadcastInDim S64 ![] bcast_S_S64 varDivisor))
    (broadcastInDim S64 ![] bcast_S_S64 (id (constant (F := Ideal) S_ .f32 0x7FC00000#32)))

/-- The guard holds: 50000 is above zero. -/
theorem guard_apply :
    cmpf .ogt varDivisor (constant (F := Ideal) S_ .f32 0x00000000#32) ix0 = 1#1 := by
  rw [cmpf_apply, varDivisor_apply, constant_apply, Ideal.ofBits_zero_f32, Ideal.cmpf_def]
  unfold Ideal.cmp
  have h : (0 : EReal) < ((50000 : ℝ) : EReal) := by exact_mod_cast (by norm_num : (0 : ℝ) < 50000)
  simp [h]

/-- It is the quotient of zero plus the sum of the centred squares by 50000. -/
theorem colVar_apply (z : FVec Ideal S50000x64 .f32) (j : Fin 64) :
    colVar z (ix1 j) = Cert.Spec.varDiv ((50000 : ℝ) : EReal) (fun i j => z (ix2 i j)) j := by
  unfold colVar Cert.Spec.varDiv
  rw [select_apply, broadcastInDim_scalar_apply, guard_apply, select_one, hostDivf_apply, colSum_apply,
    broadcastInDim_scalar_apply, varDivisor_apply]
  simp only [mulf_apply, centredForVar_apply]

/-! ## Normalise, scale, shift, positive part -/

/-- Batch normalisation of z with scale g and shift be, then the positive part, as the host operations compose. -/
def refBn (z : FVec Ideal S50000x64 .f32) (g be : FVec Ideal S64 .f32) : FVec Ideal S50000x64 .f32 :=
  maximumf
    (addf
      (mulf
        (mulf (subf z (downRows (colMean z)))
          (downRows (Host.rsqrt (addf (colVar z)
            (broadcastInDim S64 ![] bcast_S_S64 (constant (F := Ideal) S_ .f32 0x3727C5AC#32))))))
        (downRows g))
      (downRows be))
    (broadcastInDim S50000x64 ![] bcast_S_S50000x64 (constant (F := Ideal) S_ .f32 0x00000000#32))

/-- Its entry (i, j) is the centred-variance batch normalisation of the specification. -/
theorem refBn_apply (z : FVec Ideal S50000x64 .f32) (g be : FVec Ideal S64 .f32) (i : Fin 50000) (j : Fin 64) :
    refBn z g be (ix2 i j)
      = Cert.Spec.bnCentred ((50000 : ℝ) : EReal) EPS (fun i j => z (ix2 i j)) (fun j => g (ix1 j))
          (fun j => be (ix1 j)) i j := by
  unfold refBn Cert.Spec.bnCentred
  rw [maximumf_apply, addf_apply, mulf_apply, mulf_apply, subf_apply, downRows_apply, downRows_apply, downRows_apply,
    downRows_apply, colMean_apply, broadcastInDim_scalar_apply, constant_apply, Ideal.ofBits_zero_f32]
  show max (((z (ix2 i j) - _) * Ideal.rsqrt (addf (colVar z) _ (ix1 j))) * _ + _) 0 = _
  rw [addf_apply, colVar_apply, broadcastInDim_scalar_apply, constant_apply]

end Cert.ReferenceIdeal.RefVal

end
-- ==== Proof.RefVal.Pre.lean ====
/-
  The embedding stage of the reference: the two rows of the edge table as vectors, the two node feature arrays side
  by side times the embedding weights plus the bias row, and a one-entry zero array.  The embedded features read at
  one entry are the specification's affine map of the side-by-side features; the matrix product has a contraction
  of extent 6.  Run as a list of host operations the stage leaves exactly these four values in its result buffers.
-/
import proofs.«140206_j52750788330061_1_alg».proof.Proof.RefVal.Batchnorm
import proofs.«140206_j52750788330061_1_alg».proof.Proof.RefRun.Table
import Idealize.ShloMosaic.PureOps.Ideal.Laws
import Idealize.ShloMosaic.Lib.StableHlo.Run

noncomputable section

namespace Cert.ReferenceIdeal.RefVal

open Idealize.ShloMosaic Idealize.ShloMosaic.ValueIdx
open Cert.ReferenceIdeal.Facts₀

/-! ## The embedding's product: operand indices axis by axis, and the product at an entry -/

/-- The left operand's row coordinate at output index j is j's row. -/
theorem lhs_dot_S50000x6_S6x64_S50000x64_1_0_0_1_n_n_0 (j : S50000x64.Idx) (q : dot_S50000x6_S6x64_S50000x64_1_0_0_1_n_n.contr.Idx) :
    (dot_S50000x6_S6x64_S50000x64_1_0_0_1_n_n.lhsIdx j q 0).val = (j 0).val := rfl
/-- The left operand's column coordinate is the contraction index's one coordinate. -/
theorem lhs_dot_S50000x6_S6x64_S50000x64_1_0_0_1_n_n_1 (j : S50000x64.Idx) (q : dot_S50000x6_S6x64_S50000x64_1_0_0_1_n_n.contr.Idx) :
    (dot_S50000x6_S6x64_S50000x64_1_0_0_1_n_n.lhsIdx j q 1).val = (q ⟨0, Nat.one_pos⟩).val :=
  dot_S50000x6_S6x64_S50000x64_1_0_0_1_n_n.lhsIdx_val_of_single rfl j q
/-- The right operand's row coordinate is the contraction index's one coordinate. -/
theorem rhs_dot_S50000x6_S6x64_S50000x64_1_0_0_1_n_n_0 (j : S50000x64.Idx) (q : dot_S50000x6_S6x64_S50000x64_1_0_0_1_n_n.contr.Idx) :
    (dot_S50000x6_S6x64_S50000x64_1_0_0_1_n_n.rhsIdx j q 0).val = (q ⟨0, Nat.one_pos⟩).val :=
  dot_S50000x6_S6x64_S50000x64_1_0_0_1_n_n.rhsIdx_val_of_single rfl j q
/-- The right operand's column coordinate at output index j is j's column. -/
theorem rhs_dot_S50000x6_S6x64_S50000x64_1_0_0_1_n_n_1 (j : S50000x64.Idx) (q : dot_S50000x6_S6x64_S50000x64_1_0_0_1_n_n.contr.Idx) :
    (dot_S50000x6_S6x64_S50000x64_1_0_0_1_n_n.rhsIdx j q 1).val = (j 1).val := rfl

/-- The matrix product at entry (i, j): the sum over t of x (i, t) * W (t, j). -/
theorem dotEmbed_apply (x : FVec Ideal S50000x6 .f32) (W : FVec Ideal S6x64 .f32) (i : Fin 50000) (j : Fin 64) :
    Host.dotGeneral (F := Ideal) dot_S50000x6_S6x64_S50000x64_1_0_0_1_n_n none x W (ix2 i j)
      = ∑ t : Fin 6, x (ix2 i t) * W (ix2 t j) := by
  simp only [Host.dotGeneral]
  rw [Ideal.dotGeneral_apply,
    ← Equiv.sum_comp (contrEquiv1 dot_S50000x6_S6x64_S50000x64_1_0_0_1_n_n 6 rfl rfl).symm]
  refine Finset.sum_congr rfl fun k _ => ?_
  have hk := contrEquiv1_symm_val dot_S50000x6_S6x64_S50000x64_1_0_0_1_n_n 6 rfl rfl k
  have el : dot_S50000x6_S6x64_S50000x64_1_0_0_1_n_n.lhsIdx (ix2 i j)
      ((contrEquiv1 dot_S50000x6_S6x64_S50000x64_1_0_0_1_n_n 6 rfl rfl).symm k) = ix2 i k :=
    funext fun b => Fin.ext (by
      match b with
      | ⟨0, _⟩ => exact lhs_dot_S50000x6_S6x64_S50000x64_1_0_0_1_n_n_0 _ _
      | ⟨1, _⟩ => exact (lhs_dot_S50000x6_S6x64_S50000x64_1_0_0_1_n_n_1 _ _).trans hk)
  have er : dot_S50000x6_S6x64_S50000x64_1_0_0_1_n_n.rhsIdx (ix2 i j)
      ((contrEquiv1 dot_S50000x6_S6x64_S50000x64_1_0_0_1_n_n 6 rfl rfl).symm k) = ix2 k j :=
    funext fun b => Fin.ext (by
      match b with
      | ⟨0, _⟩ => exact (rhs_dot_S50000x6_S6x64_S50000x64_1_0_0_1_n_n_0 _ _).trans hk
      | ⟨1, _⟩ => exact rhs_dot_S50000x6_S6x64_S50000x64_1_0_0_1_n_n_1 _ _)
  rw [el, er]

/-! ## The stage's four values -/

/-- The source node of each edge: row 0 of the edge table, as a vector. -/
def refSrc (ei : IVec S2x800000 32) : IVec S800000 32 :=
  shapeCast S800000 (extractStridedSlice S1x800000 ![0, 0] ei slices_S2x800000_S1x800000_0_0) shapeCasts_S1x800000_S800000
/-- The destination node of each edge: row 1 of the edge table, as a vector. -/
def refDst (ei : IVec S2x800000 32) : IVec S800000 32 :=
  shapeCast S800000 (extractStridedSlice S1x800000 ![1, 0] ei slices_S2x800000_S1x800000_1_0) shapeCasts_S1x800000_S800000
/-- The two node feature arrays side by side. -/
def refXin (x pos : FVec Ideal S50000x3 .f32) : FVec Ideal S50000x6 .f32 :=
  concatenate S50000x6 1 [⟨S50000x3, x⟩, ⟨S50000x3, pos⟩] concatenates_S50000x3_S50000x3_S50000x6_d1
/-- The embedded features: the side-by-side features times the embedding weights, plus the bias row. -/
def refEmbed (x pos : FVec Ideal S50000x3 .f32) (W : FVec Ideal S6x64 .f32) (b : FVec Ideal S64 .f32) :
    FVec Ideal S50000x64 .f32 :=
  addf (Host.dotGeneral (F := Ideal) dot_S50000x6_S6x64_S50000x64_1_0_0_1_n_n none (refXin x pos) W) (downRows b)
/-- The one-entry zero array. -/
def refZero1 : FVec Ideal S1 .f32 :=
  broadcastInDim S1 ![] bcast_S_S1 (constant (F := Ideal) S_ .f32 0x00000000#32)

/-- The embedded features at entry (i, j): the specification's affine map of the side-by-side features. -/
theorem refEmbed_apply (x pos : FVec Ideal S50000x3 .f32) (W : FVec Ideal S6x64 .f32) (b : FVec Ideal S64 .f32)
    (i : Fin 50000) (j : Fin 64) :
    refEmbed x pos W b (ix2 i j)
      = Cert.Spec.affine (fun i t => refXin x pos (ix2 i t)) (fun t j => W (ix2 t j)) (fun j => b (ix1 j)) i j := by
  unfold refEmbed Cert.Spec.affine
  rw [addf_apply, dotEmbed_apply, downRows_apply]

/-- The zero array's entry is zero. -/
theorem refZero1_apply (i : S1.Idx) : refZero1 i = 0 := by
  unfold refZero1
  rw [broadcastInDim_scalar_apply, constant_apply, Ideal.ofBits_zero_f32]

/-! ## The stage run as a list of operations -/

open Cert.ReferenceIdeal Idealize.ShloMosaic.TcCoe Idealize.SL.Sem Idealize.ShloMosaic.StableHlo
open Cert.ReferenceIdeal.RefRun

/-- After the embedding's operations the source row's buffer holds row 0 of the edge table. -/
theorem after_opsPre_src (V : Valuation τ sig (Elt Ideal)) :
    StableHlo.after (opsPre (F := Ideal)) V (Proc.devRef .tc main_v1) = refSrc (V (Proc.devRef .tc main_arg2)) := by
  simp only [opsPre, opsPre_a]
  after_results_simp
  rfl
/-- After them the destination row's buffer holds row 1 of the edge table. -/
theorem after_opsPre_dst (V : Valuation τ sig (Elt Ideal)) :
    StableHlo.after (opsPre (F := Ideal)) V (Proc.devRef .tc main_v3) = refDst (V (Proc.devRef .tc main_arg2)) := by
  simp only [opsPre, opsPre_a]
  after_results_simp
  rfl
/-- After them the features' buffer holds the embedded features. -/
theorem after_opsPre_embed (V : Valuation τ sig (Elt Ideal)) :
    StableHlo.after (opsPre (F := Ideal)) V (Proc.devRef .tc main_v8)
      = refEmbed (V (Proc.devRef .tc main_arg0)) (V (Proc.devRef .tc main_arg1)) (V (Proc.devRef .tc main_arg4))
          (V (Proc.devRef .tc main_arg5)) := by
  simp only [opsPre, opsPre_a]
  after_results_simp
  rfl
/-- After them the zero result's buffer holds the one-entry zero array. -/
theorem after_opsPre_zero (V : Valuation τ sig (Elt Ideal)) :
    StableHlo.after (opsPre (F := Ideal)) V (Proc.devRef .tc main_v9) = refZero1 := by
  simp only [opsPre, opsPre_a]
  after_results_simp
  rfl

end Cert.ReferenceIdeal.RefVal

end
-- ==== Proof.RefVal.Params.lean ====
/-
  The neighbour sum of a layer and the layer's parameters, as the reference forms them from host operations.

  The neighbour sum gathers the rows of the node features at the source node of every edge (an index below zero is
  first moved up by the row count) and adds them into a zero matrix at the edge's destination node.  The parameters
  of layer k are entry k of a vector of four scalars, row k of 4 x 64 arrays and matrix k of 4 x 64 x 64 arrays,
  each cut out as a block with a leading axis of extent one which a reshape then drops; read at an index they are
  the array's entries at leading coordinate k.
-/
import proofs.«140206_j52750788330061_1_alg».proof.Proof.Gen.ReferenceIdeal
import Idealize.ShloMosaic.Lib.IdealHost
import Idealize.ShloMosaic.Lib.Pipeline.Value
import Idealize.ShloMosaic.Lib.ValueLayout

noncomputable section

namespace Cert.ReferenceIdeal.RefVal

open Idealize.ShloMosaic Idealize.ShloMosaic.ValueIdx
open Cert.ReferenceIdeal.Facts₀

/-! ## The neighbour sum -/

/-- The aggregated neighbour features: the rows of h gathered at the source nodes (a negative index moved up by the
    row count first) and added into a zero matrix at the destination nodes. -/
def refAgg (h : FVec Ideal S50000x64 .f32) (src dst : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-! ## The parameter slices -/

/-- Entry k of the four per-layer scalars, as a scalar. -/
def pickScalar (k : Nat) (hs : S4.Slices ![k] S1) (a : FVec Ideal S4 .f32) : FVec Ideal S_ .f32 :=
  fun i => shapeCast S_ (extractStridedSlice S1 ![k] a hs) shapeCasts_S1_S_ i
/-- Row k of the four per-layer rows. -/
def pickRow (k : Nat) (hs : S4x64.Slices ![k, 0] S1x64) (a : FVec Ideal S4x64 .f32) : FVec Ideal S64 .f32 :=
  fun i => shapeCast S64 (extractStridedSlice S1x64 ![k, 0] a hs) shapeCasts_S1x64_S64 i
/-- Matrix k of the four per-layer weight matrices. -/
def pickMat (k : Nat) (hs : S4x64x64.Slices ![k, 0, 0] S1x64x64) (a : FVec Ideal S4x64x64 .f32) : FVec Ideal S64x64 .f32 :=
  fun i => shapeCast S64x64 (extractStridedSlice S1x64x64 ![k, 0, 0] a hs) shapeCasts_S1x64x64_S64x64 i

/-- The picked scalar is entry k. -/
theorem pickScalar_apply (k : Fin 4) (hs : S4.Slices ![k.val] S1) (a : FVec Ideal S4 .f32) :
    pickScalar k.val hs a ix0 = a (ix1 k) := by
  unfold pickScalar
  rw [shapeCast_dropUnit_apply]
  exact extractStridedSlice_apply _ a hs _ (ix1 k) (fun b => by
    match b with
    | ⟨0, _⟩ => rfl)

/-- The picked row's entry j is entry (k, j). -/
theorem pickRow_apply (k : Fin 4) (hs : S4x64.Slices ![k.val, 0] S1x64) (a : FVec Ideal S4x64 .f32) (j : Fin 64) :
    pickRow k.val hs a (ix1 j) = a (ix2 k j) := by
  unfold pickRow
  rw [shapeCast_1a_a_apply]
  exact extractStridedSlice_apply _ a hs _ (ix2 k j) (fun b => by
    match b with
    | ⟨0, _⟩ => rfl
    | ⟨1, _⟩ => exact (Nat.zero_add _).symm)

/-- The picked matrix's entry (t, j) is entry (k, t, j). -/
theorem pickMat_apply (k : Fin 4) (hs : S4x64x64.Slices ![k.val, 0, 0] S1x64x64) (a : FVec Ideal S4x64x64 .f32)
    (t j : Fin 64) : pickMat k.val hs a (ix2 t j) = a (ix3 k t j) := by
  unfold pickMat
  rw [shapeCast_1ab_ab_apply]
  exact extractStridedSlice_apply _ a hs _ (ix3 k t j) (fun b => by
    match b with
    | ⟨0, _⟩ => rfl
    | ⟨1, _⟩ => exact (Nat.zero_add _).symm
    | ⟨2, _⟩ => exact (Nat.zero_add _).symm)

end Cert.ReferenceIdeal.RefVal

end
-- ==== Proof.KI.PayConst.lean ====
/-
  The two constants of the normalisation bodies, as extended reals.

  The reciprocal of the row count, which the program carries under the name "inv_50000", is the rational 1/50000
  by the program's table of named constants.  The epsilon added to the variance is the single-precision pattern
  0x3727C5AC: sign 0, exponent field 110, fraction field 2606508, that is (2^23 + 2606508) * 2^(110 - 127 - 23)
  = 10995116 * 2^(-40), a positive real.
-/
import proofs.«140206_j52750788330061_1_alg».proof.KernelIdeal
import Idealize.ShloMosaic.PureOps.Ideal
import Idealize.ShloMosaic.PureOps.IdealRules

noncomputable section

namespace Cert.KernelIdeal.PayVal

open Idealize.ShloMosaic

/-- The named reciprocal of the row count is the rational 1/50000. -/
theorem inv_50000 :
    Named.named (F := Ideal) Cert.KernelIdeal.κ "inv_50000" (φ := .f32) 0x37A7C5AC#32 = ((1 / 50000 : ℝ) : EReal) :=
  IdealRules.named_const.ideal_named_scalar _ _ _ _ rfl

/-- The epsilon pattern denotes 10995116 * 2^(-40). -/
theorem eps_val : Ideal.ofBits .f32 0x3727C5AC#32 = (((10995116 : ℝ) * (2 : ℝ) ^ (-40 : ℤ) : ℝ) : EReal) := by
  simp [Ideal.ofBits, Ideal.ieee, -EReal.coe_mul]

/-- The epsilon is a positive real. -/
theorem eps_pos : ∃ r : ℝ, 0 < r ∧ Ideal.ofBits .f32 0x3727C5AC#32 = (r : EReal) :=
  ⟨(10995116 : ℝ) * (2 : ℝ) ^ (-40 : ℤ), by positivity, eps_val⟩

end Cert.KernelIdeal.PayVal

end
-- ==== Proof.FinalCore.lean ====
/-
  The two transcriptions of the network agree on real data: the step of one layer, and the first features.

  Take features h of 50000 nodes, every entry a real number, and parameters every entry of which is a real number.
  One program forms the next features as the layer by column statistics (the mean as the column sum times 1/50000,
  the variance as the mean of squares less the squared mean); the other as the layer by centred statistics (the mean
  as the column sum divided by 50000, the variance as the centred squares summed and divided by 50000). On real data
  the two are the same matrix, and its entries are again real numbers; so the agreement and the finiteness pass from
  each layer to the next. The neighbour sum both programs use is the same function of the features and the edge
  list. The first features are the same affine map of the two node arrays set side by side, whose entries are
  entries of one or the other array.
-/
import proofs.«140206_j52750788330061_1_alg».proof.Proof.Spec
import proofs.«140206_j52750788330061_1_alg».proof.Proof.SpecAlg
import proofs.«140206_j52750788330061_1_alg».proof.Proof.Agg
import proofs.«140206_j52750788330061_1_alg».proof.Proof.RefVal.Pre
import proofs.«140206_j52750788330061_1_alg».proof.Proof.RefVal.Params
import proofs.«140206_j52750788330061_1_alg».proof.Proof.KI.PayConst
import Idealize.ShloMosaic.Lib.ValueIdx
import Idealize.ShloMosaic.Lib.Pipeline.Value

noncomputable section

namespace Cert.Final

open Idealize.ShloMosaic Idealize.ShloMosaic.ValueIdx
open Cert.Spec Cert.ReferenceIdeal Cert.ReferenceIdeal.RefVal

/-- Every entry of an array of extended reals is a real number. -/
def Real {S : Shape} (x : S.Idx → EReal) : Prop := ∀ k, ∃ r : ℝ, x k = (r : EReal)

/-- The neighbour sum of the one transcription, along the two rows of the edge list, is the neighbour sum of the
    other along the edge list. -/
theorem refAgg_eq_aggOf (h : FVec Ideal S50000x64 .f32) (ei : IVec S2x800000 32) :
    refAgg h (refSrc ei) (refDst ei) = Cert.Agg.aggOf h ei := rfl

/-- One plus a real number is a real number. -/
theorem one_add_real {x : EReal} (hx : ∃ r : ℝ, x = (r : EReal)) : ∃ r : ℝ, (1 : EReal) + x = (r : EReal) := by
  obtain ⟨r, rfl⟩ := hx
  exact ⟨1 + r, by rw [EReal.coe_add, EReal.coe_one]⟩

/-- THE STEP OF A LAYER. From real features and real parameters, the next features by column statistics (with the
    reciprocal row count 1/50000) and the next features by centred statistics (with the row count 50000) are the
    same array, and every entry of it is a real number. -/
theorem layer_agree (l : Fin 4) (h : FVec Ideal S50000x64 .f32) (ei : IVec S2x800000 32)
    (a6 : FVec Ideal S4 .f32) (a7 : FVec Ideal S4x64x64 .f32) (a8 a9 a10 : FVec Ideal S4x64 .f32)
    (a11 : FVec Ideal S4x64x64 .f32) (a12 a13 a14 : FVec Ideal S4x64 .f32)
    (inv : EReal) (hinv : inv = ((1 / 50000 : ℝ) : EReal))
    (hK' hR' : FVec Ideal S50000x64 .f32)
    (eK : ∀ i j, hK' (ix2 i j) = layerStats inv EPS (fun _ => 1 + a6 (ix1 l))
        (fun i j => h (ix2 i j)) (fun i j => Cert.Agg.aggOf h ei (ix2 i j))
        (fun t j => a7 (ix3 l t j)) (fun j => a8 (ix2 l j)) (fun j => a9 (ix2 l j)) (fun j => a10 (ix2 l j))
        (fun t j => a11 (ix3 l t j)) (fun j => a12 (ix2 l j)) (fun j => a13 (ix2 l j)) (fun j => a14 (ix2 l j)) i j)
    (eR : ∀ i j, hR' (ix2 i j) = layerCentred ((50000 : ℝ) : EReal) EPS (fun _ => 1 + a6 (ix1 l))
        (fun i j => h (ix2 i j)) (fun i j => Cert.Agg.aggOf h ei (ix2 i j))
        (fun t j => a7 (ix3 l t j)) (fun j => a8 (ix2 l j)) (fun j => a9 (ix2 l j)) (fun j => a10 (ix2 l j))
        (fun t j => a11 (ix3 l t j)) (fun j => a12 (ix2 l j)) (fun j => a13 (ix2 l j)) (fun j => a14 (ix2 l j)) i j)
    (fh : Real h) (f6 : Real a6) (f7 : Real a7) (f8 : Real a8) (f9 : Real a9) (f10 : Real a10)
    (f11 : Real a11) (f12 : Real a12) (f13 : Real a13) (f14 : Real a14) :
    hK' = hR' ∧ Real hK' := by
  obtain ⟨εr, hε, hEPS⟩ := Cert.KernelIdeal.PayVal.eps_pos
  have hE : EPS = (εr : EReal) := hEPS
  have hn : (0 : ℕ) < 50000 := by norm_num
  have cN : ((50000 : ℕ) : ℝ) = 50000 := by norm_num
  have ge : FinRow (fun _ : Fin 64 => 1 + a6 (ix1 l)) := fun _ => one_add_real (f6 _)
  have gh : FinMat (fun (i : Fin 50000) (j : Fin 64) => h (ix2 i j)) := fun i j => fh _
  have gagg : FinMat (fun (i : Fin 50000) (j : Fin 64) => Cert.Agg.aggOf h ei (ix2 i j)) :=
    fun i j => Cert.Agg.finite_aggOf h ei fh _
  have g7 : FinMat (fun (t j : Fin 64) => a7 (ix3 l t j)) := fun t j => f7 _
  have g8 : FinRow (fun j => a8 (ix2 l j)) := fun j => f8 _
  have g9 : FinRow (fun j => a9 (ix2 l j)) := fun j => f9 _
  have g10 : FinRow (fun j => a10 (ix2 l j)) := fun j => f10 _
  have g11 : FinMat (fun (t j : Fin 64) => a11 (ix3 l t j)) := fun t j => f11 _
  have g12 : FinRow (fun j => a12 (ix2 l j)) := fun j => f12 _
  have g13 : FinRow (fun j => a13 (ix2 l j)) := fun j => f13 _
  have g14 : FinRow (fun j => a14 (ix2 l j)) := fun j => f14 _
  have key := layerStats_eq_layerCentred hn εr hε _ _ _ _ _ _ _ _ _ _ _ ge gh gagg g7 g8 g9 g10 g11 g12 g13 g14
  have fin := finMat_layerStats hn εr hε _ _ _ _ _ _ _ _ _ _ _ ge gh gagg g7 g8 g9 g10 g11 g12 g13 g14
  rw [cN] at key fin
  refine ⟨funext fun k => ?_, fun k => ?_⟩
  · obtain ⟨i, j, rfl⟩ : ∃ (i : Fin 50000) (j : Fin 64), k = ix2 i j := ⟨k 0, k 1, eq_ix2 k⟩
    rw [eK, eR, hinv, hE, key]
  · obtain ⟨i, j, rfl⟩ : ∃ (i : Fin 50000) (j : Fin 64), k = ix2 i j := ⟨k 0, k 1, eq_ix2 k⟩
    rw [eK, hinv, hE]
    exact fin i j

/-- The two node arrays set side by side: a column among the first three is that column of the first array, a later
    column the column three to the left of the second array; so every entry of the joined array is a real number
    when the entries of both arrays are. -/
theorem xin_real (x pos : FVec Ideal S50000x3 .f32) (fx : Real x) (fp : Real pos) (i : Fin 50000) (t : Fin 6) :
    ∃ r : ℝ, refXin x pos (ix2 i t) = (r : EReal) := by
  unfold refXin
  by_cases ht : t.val < 3
  · rw [concatenate_pair_apply_left (s₁ := S50000x3) (s₂ := S50000x3) 1 _ _ _ (ix2 i t) rfl (ix2 i ⟨t.val, ht⟩) (fun b => by
      match b with
      | ⟨0, _⟩ => rfl
      | ⟨1, _⟩ => rfl)]
    exact fx _
  · have h3 : 3 ≤ t.val := Nat.le_of_not_lt ht
    have h6 : t.val < 6 := t.isLt
    rw [concatenate_pair_apply_right (s₁ := S50000x3) (s₂ := S50000x3) 1 _ _ _ (ix2 i t) rfl rfl
      (ix2 i ⟨t.val - 3, by omega⟩) (fun b hb => by
        match b with
        | ⟨0, _⟩ => rfl
        | ⟨1, _⟩ => exact absurd rfl hb) (by show (t.val - 3) + 3 = t.val; omega)]
    exact fp _

/-- The first features — the joined node arrays times the embedding weights plus the bias row — are real numbers
    when the four arrays' entries are. -/
theorem embed_real (x pos : FVec Ideal S50000x3 .f32) (W : FVec Ideal S6x64 .f32) (b : FVec Ideal S64 .f32)
    (fx : Real x) (fp : Real pos) (fW : Real W) (fb : Real b) : Real (refEmbed x pos W b) := by
  intro k
  obtain ⟨i, j, rfl⟩ : ∃ (i : Fin 50000) (j : Fin 64), k = ix2 i j := ⟨k 0, k 1, eq_ix2 k⟩
  rw [refEmbed_apply]
  exact finMat_affine _ _ _ (fun i t => xin_real x pos fx fp i t) (fun t j => fW _) (fun j => fb _) i j

/-- THE FOUR LAYERS. Two sequences of features over the same real arguments: k0 … k4, each next one the layer by
    column statistics of the one before, and r0 … r4, each next one the layer by centred statistics of the one
    before with the neighbour sum taken along the two rows of the edge list; both start at the embedded features.
    Then the last features are equal: at each stage the two are equal and real, by the step of a layer. -/
theorem network_agree (a0 a1 : FVec Ideal S50000x3 .f32) (a2 : IVec S2x800000 32) (a4 : FVec Ideal S6x64 .f32) (a5 : FVec Ideal S64 .f32)
    (a6 : FVec Ideal S4 .f32) (a7 : FVec Ideal S4x64x64 .f32) (a8 a9 a10 : FVec Ideal S4x64 .f32)
    (a11 : FVec Ideal S4x64x64 .f32) (a12 a13 a14 : FVec Ideal S4x64 .f32)
    (inv : EReal) (hinv : inv = ((1 / 50000 : ℝ) : EReal))
    (k0 k1 k2 k3 k4 r0 r1 r2 r3 r4 : FVec Ideal S50000x64 .f32)
    (ek0 : ∀ i j, k0 (ix2 i j) = refEmbed a0 a1 a4 a5 (ix2 i j))
    (er0 : r0 = refEmbed a0 a1 a4 a5)
    (ek1 : ∀ i j, k1 (ix2 i j) = layerStats inv EPS (fun _ => 1 + a6 (ix1 (0 : Fin 4)))
        (fun i j => k0 (ix2 i j)) (fun i j => Cert.Agg.aggOf k0 a2 (ix2 i j))
        (fun t j => a7 (ix3 (0 : Fin 4) t j)) (fun j => a8 (ix2 (0 : Fin 4) j)) (fun j => a9 (ix2 (0 : Fin 4) j))
        (fun j => a10 (ix2 (0 : Fin 4) j)) (fun t j => a11 (ix3 (0 : Fin 4) t j)) (fun j => a12 (ix2 (0 : Fin 4) j))
        (fun j => a13 (ix2 (0 : Fin 4) j)) (fun j => a14 (ix2 (0 : Fin 4) j)) i j)
    (er1 : ∀ i j, r1 (ix2 i j) = layerCentred ((50000 : ℝ) : EReal) EPS (fun _ => 1 + a6 (ix1 (0 : Fin 4)))
        (fun i j => r0 (ix2 i j)) (fun i j => refAgg r0 (refSrc a2) (refDst a2) (ix2 i j))
        (fun t j => a7 (ix3 (0 : Fin 4) t j)) (fun j => a8 (ix2 (0 : Fin 4) j)) (fun j => a9 (ix2 (0 : Fin 4) j))
        (fun j => a10 (ix2 (0 : Fin 4) j)) (fun t j => a11 (ix3 (0 : Fin 4) t j)) (fun j => a12 (ix2 (0 : Fin 4) j))
        (fun j => a13 (ix2 (0 : Fin 4) j)) (fun j => a14 (ix2 (0 : Fin 4) j)) i j)
    (ek2 : ∀ i j, k2 (ix2 i j) = layerStats inv EPS (fun _ => 1 + a6 (ix1 (1 : Fin 4)))
        (fun i j => k1 (ix2 i j)) (fun i j => Cert.Agg.aggOf k1 a2 (ix2 i j))
        (fun t j => a7 (ix3 (1 : Fin 4) t j)) (fun j => a8 (ix2 (1 : Fin 4) j)) (fun j => a9 (ix2 (1 : Fin 4) j))
        (fun j => a10 (ix2 (1 : Fin 4) j)) (fun t j => a11 (ix3 (1 : Fin 4) t j)) (fun j => a12 (ix2 (1 : Fin 4) j))
        (fun j => a13 (ix2 (1 : Fin 4) j)) (fun j => a14 (ix2 (1 : Fin 4) j)) i j)
    (er2 : ∀ i j, r2 (ix2 i j) = layerCentred ((50000 : ℝ) : EReal) EPS (fun _ => 1 + a6 (ix1 (1 : Fin 4)))
        (fun i j => r1 (ix2 i j)) (fun i j => refAgg r1 (refSrc a2) (refDst a2) (ix2 i j))
        (fun t j => a7 (ix3 (1 : Fin 4) t j)) (fun j => a8 (ix2 (1 : Fin 4) j)) (fun j => a9 (ix2 (1 : Fin 4) j))
        (fun j => a10 (ix2 (1 : Fin 4) j)) (fun t j => a11 (ix3 (1 : Fin 4) t j)) (fun j => a12 (ix2 (1 : Fin 4) j))
        (fun j => a13 (ix2 (1 : Fin 4) j)) (fun j => a14 (ix2 (1 : Fin 4) j)) i j)
    (ek3 : ∀ i j, k3 (ix2 i j) = layerStats inv EPS (fun _ => 1 + a6 (ix1 (2 : Fin 4)))
        (fun i j => k2 (ix2 i j)) (fun i j => Cert.Agg.aggOf k2 a2 (ix2 i j))
        (fun t j => a7 (ix3 (2 : Fin 4) t j)) (fun j => a8 (ix2 (2 : Fin 4) j)) (fun j => a9 (ix2 (2 : Fin 4) j))
        (fun j => a10 (ix2 (2 : Fin 4) j)) (fun t j => a11 (ix3 (2 : Fin 4) t j)) (fun j => a12 (ix2 (2 : Fin 4) j))
        (fun j => a13 (ix2 (2 : Fin 4) j)) (fun j => a14 (ix2 (2 : Fin 4) j)) i j)
    (er3 : ∀ i j, r3 (ix2 i j) = layerCentred ((50000 : ℝ) : EReal) EPS (fun _ => 1 + a6 (ix1 (2 : Fin 4)))
        (fun i j => r2 (ix2 i j)) (fun i j => refAgg r2 (refSrc a2) (refDst a2) (ix2 i j))
        (fun t j => a7 (ix3 (2 : Fin 4) t j)) (fun j => a8 (ix2 (2 : Fin 4) j)) (fun j => a9 (ix2 (2 : Fin 4) j))
        (fun j => a10 (ix2 (2 : Fin 4) j)) (fun t j => a11 (ix3 (2 : Fin 4) t j)) (fun j => a12 (ix2 (2 : Fin 4) j))
        (fun j => a13 (ix2 (2 : Fin 4) j)) (fun j => a14 (ix2 (2 : Fin 4) j)) i j)
    (ek4 : ∀ i j, k4 (ix2 i j) = layerStats inv EPS (fun _ => 1 + a6 (ix1 (3 : Fin 4)))
        (fun i j => k3 (ix2 i j)) (fun i j => Cert.Agg.aggOf k3 a2 (ix2 i j))
        (fun t j => a7 (ix3 (3 : Fin 4) t j)) (fun j => a8 (ix2 (3 : Fin 4) j)) (fun j => a9 (ix2 (3 : Fin 4) j))
        (fun j => a10 (ix2 (3 : Fin 4) j)) (fun t j => a11 (ix3 (3 : Fin 4) t j)) (fun j => a12 (ix2 (3 : Fin 4) j))
        (fun j => a13 (ix2 (3 : Fin 4) j)) (fun j => a14 (ix2 (3 : Fin 4) j)) i j)
    (er4 : ∀ i j, r4 (ix2 i j) = layerCentred ((50000 : ℝ) : EReal) EPS (fun _ => 1 + a6 (ix1 (3 : Fin 4)))
        (fun i j => r3 (ix2 i j)) (fun i j => refAgg r3 (refSrc a2) (refDst a2) (ix2 i j))
        (fun t j => a7 (ix3 (3 : Fin 4) t j)) (fun j => a8 (ix2 (3 : Fin 4) j)) (fun j => a9 (ix2 (3 : Fin 4) j))
        (fun j => a10 (ix2 (3 : Fin 4) j)) (fun t j => a11 (ix3 (3 : Fin 4) t j)) (fun j => a12 (ix2 (3 : Fin 4) j))
        (fun j => a13 (ix2 (3 : Fin 4) j)) (fun j => a14 (ix2 (3 : Fin 4) j)) i j)
    (f0 : Real a0) (f1 : Real a1) (f4 : Real a4) (f5 : Real a5) (f6 : Real a6) (f7 : Real a7) (f8 : Real a8)
    (f9 : Real a9) (f10 : Real a10) (f11 : Real a11) (f12 : Real a12) (f13 : Real a13) (f14 : Real a14) :
    k4 = r4 := by
  have h0 : k0 = r0 := by
    rw [er0]
    funext k
    obtain ⟨i, j, rfl⟩ : ∃ (i : Fin 50000) (j : Fin 64), k = ix2 i j := ⟨k 0, k 1, eq_ix2 k⟩
    exact ek0 i j
  have g0 : Real k0 := by rw [h0, er0]; exact embed_real a0 a1 a4 a5 f0 f1 f4 f5
  subst h0
  obtain ⟨h1, g1⟩ := layer_agree (0 : Fin 4) k0 a2 a6 a7 a8 a9 a10 a11 a12 a13 a14 inv hinv k1 r1 ek1
    (fun i j => by rw [er1 i j, refAgg_eq_aggOf]) g0 f6 f7 f8 f9 f10 f11 f12 f13 f14
  subst h1
  obtain ⟨h2, g2⟩ := layer_agree (1 : Fin 4) k1 a2 a6 a7 a8 a9 a10 a11 a12 a13 a14 inv hinv k2 r2 ek2
    (fun i j => by rw [er2 i j, refAgg_eq_aggOf]) g1 f6 f7 f8 f9 f10 f11 f12 f13 f14
  subst h2
  obtain ⟨h3, g3⟩ := layer_agree (2 : Fin 4) k2 a2 a6 a7 a8 a9 a10 a11 a12 a13 a14 inv hinv k3 r3 ek3
    (fun i j => by rw [er3 i j, refAgg_eq_aggOf]) g2 f6 f7 f8 f9 f10 f11 f12 f13 f14
  subst h3
  obtain ⟨h4, g4⟩ := layer_agree (3 : Fin 4) k3 a2 a6 a7 a8 a9 a10 a11 a12 a13 a14 inv hinv k4 r4 ek4
    (fun i j => by rw [er4 i j, refAgg_eq_aggOf]) g3 f6 f7 f8 f9 f10 f11 f12 f13 f14
  exact h4

end Cert.Final

end
-- ==== Proof.RefVal.Post.lean ====
/-
  The tail of the reference: the per-graph mean of the last layer's features and the two-layer classifier.

  The per-graph mean adds every node's row into the row of its graph (into a zero 512 x 64 matrix), counts the nodes
  of each graph the same way (ones added into a zero vector of 512), takes the count as at least one, and divides
  each row by its count.  The classifier multiplies by a 64 x 64 weight matrix, adds a bias row, takes the positive
  part, multiplies by a 64 x 10 weight matrix and adds a second bias row.  Read at entry (i, q) the result is the
  sum over t of max (affine map of the pooled features at (i, t)) 0 times the second weights at (t, q), plus the
  second bias at q.  Run as a list of host operations the stage leaves this value in the result buffer.
-/
import proofs.«140206_j52750788330061_1_alg».proof.Proof.RefVal.Batchnorm
import proofs.«140206_j52750788330061_1_alg».proof.Proof.RefRun.Table
import Idealize.ShloMosaic.PureOps.Ideal.Laws
import Idealize.ShloMosaic.Lib.StableHlo.Run

noncomputable section

namespace Cert.ReferenceIdeal.RefVal

open Idealize.ShloMosaic Idealize.ShloMosaic.ValueIdx
open Cert.ReferenceIdeal.Facts₀

/-! ## The classifier's first product: operand indices axis by axis, and the product at an entry -/

/-- The left operand's row coordinate at output index j is j's row. -/
theorem lhs_dot_S512x64_S64x64_S512x64_1_0_0_1_n_n_0 (j : S512x64.Idx) (q : dot_S512x64_S64x64_S512x64_1_0_0_1_n_n.contr.Idx) :
    (dot_S512x64_S64x64_S512x64_1_0_0_1_n_n.lhsIdx j q 0).val = (j 0).val := rfl
/-- The left operand's column coordinate is the contraction index's one coordinate. -/
theorem lhs_dot_S512x64_S64x64_S512x64_1_0_0_1_n_n_1 (j : S512x64.Idx) (q : dot_S512x64_S64x64_S512x64_1_0_0_1_n_n.contr.Idx) :
    (dot_S512x64_S64x64_S512x64_1_0_0_1_n_n.lhsIdx j q 1).val = (q ⟨0, Nat.one_pos⟩).val :=
  dot_S512x64_S64x64_S512x64_1_0_0_1_n_n.lhsIdx_val_of_single rfl j q
/-- The right operand's row coordinate is the contraction index's one coordinate. -/
theorem rhs_dot_S512x64_S64x64_S512x64_1_0_0_1_n_n_0 (j : S512x64.Idx) (q : dot_S512x64_S64x64_S512x64_1_0_0_1_n_n.contr.Idx) :
    (dot_S512x64_S64x64_S512x64_1_0_0_1_n_n.rhsIdx j q 0).val = (q ⟨0, Nat.one_pos⟩).val :=
  dot_S512x64_S64x64_S512x64_1_0_0_1_n_n.rhsIdx_val_of_single rfl j q
/-- The right operand's column coordinate at output index j is j's column. -/
theorem rhs_dot_S512x64_S64x64_S512x64_1_0_0_1_n_n_1 (j : S512x64.Idx) (q : dot_S512x64_S64x64_S512x64_1_0_0_1_n_n.contr.Idx) :
    (dot_S512x64_S64x64_S512x64_1_0_0_1_n_n.rhsIdx j q 1).val = (j 1).val := rfl

/-- The matrix product at entry (i, j): the sum over t of x (i, t) * W (t, j). -/
theorem dotHidden_apply (x : FVec Ideal S512x64 .f32) (W : FVec Ideal S64x64 .f32) (i : Fin 512) (j : Fin 64) :
    Host.dotGeneral (F := Ideal) dot_S512x64_S64x64_S512x64_1_0_0_1_n_n none x W (ix2 i j)
      = ∑ t : Fin 64, x (ix2 i t) * W (ix2 t j) := by
  simp only [Host.dotGeneral]
  rw [Ideal.dotGeneral_apply,
    ← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 i j)
      ((contrEquiv1 dot_S512x64_S64x64_S512x64_1_0_0_1_n_n 64 rfl rfl).symm k) = ix2 i k :=
    funext fun b => Fin.ext (by
      match b with
      | ⟨0, _⟩ => exact lhs_dot_S512x64_S64x64_S512x64_1_0_0_1_n_n_0 _ _
      | ⟨1, _⟩ => exact (lhs_dot_S512x64_S64x64_S512x64_1_0_0_1_n_n_1 _ _).trans hk)
  have er : dot_S512x64_S64x64_S512x64_1_0_0_1_n_n.rhsIdx (ix2 i j)
      ((contrEquiv1 dot_S512x64_S64x64_S512x64_1_0_0_1_n_n 64 rfl rfl).symm k) = ix2 k j :=
    funext fun b => Fin.ext (by
      match b with
      | ⟨0, _⟩ => exact (rhs_dot_S512x64_S64x64_S512x64_1_0_0_1_n_n_0 _ _).trans hk
      | ⟨1, _⟩ => exact rhs_dot_S512x64_S64x64_S512x64_1_0_0_1_n_n_1 _ _)
  rw [el, er]

/-! ## The classifier's second product: operand indices axis by axis, and the product at an entry -/

/-- The left operand's row coordinate at output index j is j's row. -/
theorem lhs_dot_S512x64_S64x10_S512x10_1_0_0_1_n_n_0 (j : S512x10.Idx) (q : dot_S512x64_S64x10_S512x10_1_0_0_1_n_n.contr.Idx) :
    (dot_S512x64_S64x10_S512x10_1_0_0_1_n_n.lhsIdx j q 0).val = (j 0).val := rfl
/-- The left operand's column coordinate is the contraction index's one coordinate. -/
theorem lhs_dot_S512x64_S64x10_S512x10_1_0_0_1_n_n_1 (j : S512x10.Idx) (q : dot_S512x64_S64x10_S512x10_1_0_0_1_n_n.contr.Idx) :
    (dot_S512x64_S64x10_S512x10_1_0_0_1_n_n.lhsIdx j q 1).val = (q ⟨0, Nat.one_pos⟩).val :=
  dot_S512x64_S64x10_S512x10_1_0_0_1_n_n.lhsIdx_val_of_single rfl j q
/-- The right operand's row coordinate is the contraction index's one coordinate. -/
theorem rhs_dot_S512x64_S64x10_S512x10_1_0_0_1_n_n_0 (j : S512x10.Idx) (q : dot_S512x64_S64x10_S512x10_1_0_0_1_n_n.contr.Idx) :
    (dot_S512x64_S64x10_S512x10_1_0_0_1_n_n.rhsIdx j q 0).val = (q ⟨0, Nat.one_pos⟩).val :=
  dot_S512x64_S64x10_S512x10_1_0_0_1_n_n.rhsIdx_val_of_single rfl j q
/-- The right operand's column coordinate at output index j is j's column. -/
theorem rhs_dot_S512x64_S64x10_S512x10_1_0_0_1_n_n_1 (j : S512x10.Idx) (q : dot_S512x64_S64x10_S512x10_1_0_0_1_n_n.contr.Idx) :
    (dot_S512x64_S64x10_S512x10_1_0_0_1_n_n.rhsIdx j q 1).val = (j 1).val := rfl

/-- The matrix product at entry (i, j): the sum over t of x (i, t) * W (t, j). -/
theorem dotOut_apply (x : FVec Ideal S512x64 .f32) (W : FVec Ideal S64x10 .f32) (i : Fin 512) (j : Fin 10) :
    Host.dotGeneral (F := Ideal) dot_S512x64_S64x10_S512x10_1_0_0_1_n_n none x W (ix2 i j)
      = ∑ t : Fin 64, x (ix2 i t) * W (ix2 t j) := by
  simp only [Host.dotGeneral]
  rw [Ideal.dotGeneral_apply,
    ← Equiv.sum_comp (contrEquiv1 dot_S512x64_S64x10_S512x10_1_0_0_1_n_n 64 rfl rfl).symm]
  refine Finset.sum_congr rfl fun k _ => ?_
  have hk := contrEquiv1_symm_val dot_S512x64_S64x10_S512x10_1_0_0_1_n_n 64 rfl rfl k
  have el : dot_S512x64_S64x10_S512x10_1_0_0_1_n_n.lhsIdx (ix2 i j)
      ((contrEquiv1 dot_S512x64_S64x10_S512x10_1_0_0_1_n_n 64 rfl rfl).symm k) = ix2 i k :=
    funext fun b => Fin.ext (by
      match b with
      | ⟨0, _⟩ => exact lhs_dot_S512x64_S64x10_S512x10_1_0_0_1_n_n_0 _ _
      | ⟨1, _⟩ => exact (lhs_dot_S512x64_S64x10_S512x10_1_0_0_1_n_n_1 _ _).trans hk)
  have er : dot_S512x64_S64x10_S512x10_1_0_0_1_n_n.rhsIdx (ix2 i j)
      ((contrEquiv1 dot_S512x64_S64x10_S512x10_1_0_0_1_n_n 64 rfl rfl).symm k) = ix2 k j :=
    funext fun b => Fin.ext (by
      match b with
      | ⟨0, _⟩ => exact (rhs_dot_S512x64_S64x10_S512x10_1_0_0_1_n_n_0 _ _).trans hk
      | ⟨1, _⟩ => exact rhs_dot_S512x64_S64x10_S512x10_1_0_0_1_n_n_1 _ _)
  rw [el, er]

/-! ## Bias rows repeated down 512 rows -/

/-- A one-row matrix of 64 columns repeated down 512 rows reads its one row at the same column. -/
theorem overGraphs64_apply (r : FVec Ideal S1x64 .f32) (i : Fin 512) (j : Fin 64) :
    broadcastInDim S512x64 ![0, 1] bcast_S1x64_S512x64_0_1 r (ix2 i j) = r (ix2 (0 : Fin 1) j) :=
  broadcastInDim_apply _ _ r _ (ix2 (0 : Fin 1) j) (fun a => by
    match a with
    | ⟨0, _⟩ => rfl
    | ⟨1, _⟩ => rfl)
/-- A row of 10 made a one-row matrix reads the row's entry of the same column. -/
theorem oneRow10_apply (r : FVec Ideal S10 .f32) (q : Fin 10) :
    broadcastInDim S1x10 ![1] bcast_S10_S1x10_1 r (ix2 (0 : Fin 1) q) = r (ix1 q) :=
  broadcastInDim_apply _ _ r _ (ix1 q) (fun a => by
    match a with
    | ⟨0, _⟩ => rfl)
/-- A one-row matrix of 10 columns repeated down 512 rows reads its one row at the same column. -/
theorem overGraphs10_apply (r : FVec Ideal S1x10 .f32) (i : Fin 512) (q : Fin 10) :
    broadcastInDim S512x10 ![0, 1] bcast_S1x10_S512x10_0_1 r (ix2 i q) = r (ix2 (0 : Fin 1) q) :=
  broadcastInDim_apply _ _ r _ (ix2 (0 : Fin 1) q) (fun a => by
    match a with
    | ⟨0, _⟩ => rfl
    | ⟨1, _⟩ => rfl)

/-! ## The pooled features and the classifier -/

/-- The per-graph mean of the node features h under the graph number of each node. -/
def refPool (h : FVec Ideal S50000x64 .f32) (batch : IVec S50000 32) : FVec Ideal S512x64 .f32 :=
  Host.divf
    (Host.scatterAdd scatter_S512x64_S50000x1_S50000x64_1_0_0_1
      (broadcastInDim S512x64 ![] bcast_S_S512x64 (constant (F := Ideal) S_ .f32 0x00000000#32))
      (broadcastInDim S50000x1 ![0] bcast_S50000_S50000x1_0 batch) h)
    (broadcastInDim S512x64 ![0, 1] bcast_S512x1_S512x64_0_1
      (broadcastInDim S512x1 ![0] bcast_S512_S512x1_0
        (maximumf
          (Host.scatterAdd scatter_S512_S50000x1_S50000_n_0_0_1
            (broadcastInDim S512 ![] bcast_S_S512 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S512 ![] bcast_S_S512 (constant (F := Ideal) S_ .f32 0x3F800000#32)))))

/-- The classifier applied to the pooled features. -/
def refTail (h : FVec Ideal S50000x64 .f32) (batch : IVec S50000 32) (Wc1 : FVec Ideal S64x64 .f32)
    (bc1 : FVec Ideal S64 .f32) (Wc2 : FVec Ideal S64x10 .f32) (bc2 : FVec Ideal S10 .f32) : FVec Ideal S512x10 .f32 :=
  addf
    (Host.dotGeneral (F := Ideal) dot_S512x64_S64x10_S512x10_1_0_0_1_n_n none
      (maximumf
        (addf (Host.dotGeneral (F := Ideal) dot_S512x64_S64x64_S512x64_1_0_0_1_n_n none (refPool h batch) Wc1)
          (broadcastInDim S512x64 ![0, 1] bcast_S1x64_S512x64_0_1 (broadcastInDim S1x64 ![1] bcast_S64_S1x64_1 bc1)))
        (broadcastInDim S512x64 ![] bcast_S_S512x64 (constant (F := Ideal) S_ .f32 0x00000000#32)))
      Wc2)
    (broadcastInDim S512x10 ![0, 1] bcast_S1x10_S512x10_0_1 (broadcastInDim S1x10 ![1] bcast_S10_S1x10_1 bc2))

/-- The classifier's result at entry (i, q). -/
theorem refTail_apply (h : FVec Ideal S50000x64 .f32) (batch : IVec S50000 32) (Wc1 : FVec Ideal S64x64 .f32)
    (bc1 : FVec Ideal S64 .f32) (Wc2 : FVec Ideal S64x10 .f32) (bc2 : FVec Ideal S10 .f32) (i : Fin 512) (q : Fin 10) :
    refTail h batch Wc1 bc1 Wc2 bc2 (ix2 i q)
      = (∑ t : Fin 64,
          max (Cert.Spec.affine (fun i j => refPool h batch (ix2 i j)) (fun t j => Wc1 (ix2 t j))
                (fun j => bc1 (ix1 j)) i t) 0 * Wc2 (ix2 t q))
        + bc2 (ix1 q) := by
  unfold refTail Cert.Spec.affine
  rw [addf_apply, dotOut_apply, overGraphs10_apply, oneRow10_apply]
  refine congrArg (· + bc2 (ix1 q)) (Finset.sum_congr rfl fun t _ => ?_)
  rw [maximumf_apply, addf_apply, dotHidden_apply, overGraphs64_apply, oneRow_apply, broadcastInDim_scalar_apply,
    constant_apply, Ideal.ofBits_zero_f32]

/-! ## The stage run as a list of operations -/

open Cert.ReferenceIdeal Idealize.ShloMosaic.TcCoe Idealize.SL.Sem Idealize.ShloMosaic.StableHlo
open Cert.ReferenceIdeal.RefRun

/-- After the tail's operations the result buffer holds the classifier of the pooled last-layer features. -/
theorem after_opsPost (V : Valuation τ sig (Elt Ideal)) :
    StableHlo.after (opsPost (F := Ideal)) V (Proc.devRef .tc main_v350)
      = refTail (V (Proc.devRef .tc main_v329)) (V (Proc.devRef .tc main_arg3)) (V (Proc.devRef .tc main_arg15))
          (V (Proc.devRef .tc main_arg16)) (V (Proc.devRef .tc main_arg17)) (V (Proc.devRef .tc main_arg18)) := by
  simp only [opsPost, opsPost_a]
  after_results_simp
  rfl

end Cert.ReferenceIdeal.RefVal

end
-- ==== Proof.RefVal.Affine.lean ====
/-
  The two linear pieces of a layer, as the reference composes them from host operations, read at one entry on the
  extended reals.

  The mixing step scales the node features by one plus a scalar (the scalar one is added to the layer's scalar, the
  sum repeated over the whole matrix) and adds the aggregated neighbour features.  The affine step multiplies a
  50000 x 64 matrix by a 64 x 64 weight matrix, the left operand contracted on its second axis and the right on its
  first, and adds a bias row repeated down the rows.  The product's contraction index has one axis of extent 64 and
  is re-indexed by its one coordinate; the operand indices at output (i, j) and contraction t are (i, t) and (t, j).
-/
import proofs.«140206_j52750788330061_1_alg».proof.Proof.RefVal.Batchnorm
import Idealize.ShloMosaic.PureOps.Ideal.Laws

noncomputable section

namespace Cert.ReferenceIdeal.RefVal

open Idealize.ShloMosaic Idealize.ShloMosaic.ValueIdx
open Cert.ReferenceIdeal.Facts₀

/-! ## The product's operand indices, axis by axis -/

/-- The left operand's row coordinate at output index j is j's row. -/
theorem lhs_dot_S50000x64_S64x64_S50000x64_1_0_0_1_n_n_0 (j : S50000x64.Idx)
    (q : dot_S50000x64_S64x64_S50000x64_1_0_0_1_n_n.contr.Idx) :
    (dot_S50000x64_S64x64_S50000x64_1_0_0_1_n_n.lhsIdx j q 0).val = (j 0).val := rfl
/-- The left operand's column coordinate is the contraction index's one coordinate. -/
theorem lhs_dot_S50000x64_S64x64_S50000x64_1_0_0_1_n_n_1 (j : S50000x64.Idx)
    (q : dot_S50000x64_S64x64_S50000x64_1_0_0_1_n_n.contr.Idx) :
    (dot_S50000x64_S64x64_S50000x64_1_0_0_1_n_n.lhsIdx j q 1).val = (q ⟨0, Nat.one_pos⟩).val :=
  dot_S50000x64_S64x64_S50000x64_1_0_0_1_n_n.lhsIdx_val_of_single rfl j q
/-- The right operand's row coordinate is the contraction index's one coordinate. -/
theorem rhs_dot_S50000x64_S64x64_S50000x64_1_0_0_1_n_n_0 (j : S50000x64.Idx)
    (q : dot_S50000x64_S64x64_S50000x64_1_0_0_1_n_n.contr.Idx) :
    (dot_S50000x64_S64x64_S50000x64_1_0_0_1_n_n.rhsIdx j q 0).val = (q ⟨0, Nat.one_pos⟩).val :=
  dot_S50000x64_S64x64_S50000x64_1_0_0_1_n_n.rhsIdx_val_of_single rfl j q
/-- The right operand's column coordinate at output index j is j's column. -/
theorem rhs_dot_S50000x64_S64x64_S50000x64_1_0_0_1_n_n_1 (j : S50000x64.Idx)
    (q : dot_S50000x64_S64x64_S50000x64_1_0_0_1_n_n.contr.Idx) :
    (dot_S50000x64_S64x64_S50000x64_1_0_0_1_n_n.rhsIdx j q 1).val = (j 1).val := rfl

/-! ## The product at an entry -/

/-- The matrix product at entry (i, j): the sum over t of x (i, t) * W (t, j). -/
theorem dot_apply (x : FVec Ideal S50000x64 .f32) (W : FVec Ideal S64x64 .f32) (i : Fin 50000) (j : Fin 64) :
    Host.dotGeneral (F := Ideal) dot_S50000x64_S64x64_S50000x64_1_0_0_1_n_n none x W (ix2 i j)
      = ∑ t : Fin 64, x (ix2 i t) * W (ix2 t j) := by
  simp only [Host.dotGeneral]
  rw [Ideal.dotGeneral_apply,
    ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 i j)
      ((contrEquiv1 dot_S50000x64_S64x64_S50000x64_1_0_0_1_n_n 64 rfl rfl).symm k) = ix2 i k :=
    funext fun b => Fin.ext (by
      match b with
      | ⟨0, _⟩ => exact lhs_dot_S50000x64_S64x64_S50000x64_1_0_0_1_n_n_0 _ _
      | ⟨1, _⟩ => exact (lhs_dot_S50000x64_S64x64_S50000x64_1_0_0_1_n_n_1 _ _).trans hk)
  have er : dot_S50000x64_S64x64_S50000x64_1_0_0_1_n_n.rhsIdx (ix2 i j)
      ((contrEquiv1 dot_S50000x64_S64x64_S50000x64_1_0_0_1_n_n 64 rfl rfl).symm k) = ix2 k j :=
    funext fun b => Fin.ext (by
      match b with
      | ⟨0, _⟩ => exact (rhs_dot_S50000x64_S64x64_S50000x64_1_0_0_1_n_n_0 _ _).trans hk
      | ⟨1, _⟩ => exact rhs_dot_S50000x64_S64x64_S50000x64_1_0_0_1_n_n_1 _ _)
  rw [el, er]

/-! ## Weights and bias -/

/-- The matrix times the weights, plus the bias row repeated down the rows. -/
def refAffine (x : FVec Ideal S50000x64 .f32) (W : FVec Ideal S64x64 .f32) (b : FVec Ideal S64 .f32) :
    FVec Ideal S50000x64 .f32 :=
  addf (Host.dotGeneral (F := Ideal) dot_S50000x64_S64x64_S50000x64_1_0_0_1_n_n none x W) (downRows b)

/-- Its entry (i, j) is the specification's affine map. -/
theorem refAffine_apply (x : FVec Ideal S50000x64 .f32) (W : FVec Ideal S64x64 .f32) (b : FVec Ideal S64 .f32)
    (i : Fin 50000) (j : Fin 64) :
    refAffine x W b (ix2 i j)
      = Cert.Spec.affine (fun i j => x (ix2 i j)) (fun t j => W (ix2 t j)) (fun j => b (ix1 j)) i j := by
  unfold refAffine Cert.Spec.affine
  rw [addf_apply, dot_apply, downRows_apply]

/-! ## Mixing the node's own features with its neighbours' -/

/-- One plus the layer's scalar, repeated over the matrix, times the features, plus the aggregate. -/
def refMix (eps : FVec Ideal S_ .f32) (h agg : FVec Ideal S50000x64 .f32) : FVec Ideal S50000x64 .f32 :=
  addf
    (mulf (broadcastInDim S50000x64 ![] bcast_S_S50000x64 (addf (constant (F := Ideal) S_ .f32 0x3F800000#32) eps)) h)
    agg

/-- Its entry (i, j) is the specification's mix with every column scaled by one plus the scalar. -/
theorem refMix_apply (eps : FVec Ideal S_ .f32) (h agg : FVec Ideal S50000x64 .f32) (i : Fin 50000) (j : Fin 64) :
    refMix eps h agg (ix2 i j)
      = Cert.Spec.mix (fun _ => 1 + eps ix0) (fun i j => h (ix2 i j)) (fun i j => agg (ix2 i j)) i j := by
  unfold refMix Cert.Spec.mix
  rw [addf_apply, mulf_apply, broadcastInDim_scalar_apply, addf_apply, constant_apply, Ideal.ofBits_one_f32]

end Cert.ReferenceIdeal.RefVal

end
-- ==== Proof.RefVal.Layer.lean ====
/-
  One layer of the network as the reference composes it, read at one entry on the extended reals: the entry is the
  specification's layer by centred statistics.  The layer is the composition mix, affine map, batch normalisation
  with positive part, affine map, batch normalisation with positive part; each piece has been read at an entry, and
  the pieces compose as functions of row and column.
-/
import proofs.«140206_j52750788330061_1_alg».proof.Proof.RefVal.Affine

noncomputable section

namespace Cert.ReferenceIdeal.RefVal

open Idealize.ShloMosaic Idealize.ShloMosaic.ValueIdx
open Cert.ReferenceIdeal.Facts₀

/-! ## One layer -/

/-- One layer of the network as the reference composes it: mix, affine, batch normalisation and positive part,
    affine again, batch normalisation and positive part again. -/
def refLayer (h agg : FVec Ideal S50000x64 .f32) (eps : FVec Ideal S_ .f32)
    (W1 : FVec Ideal S64x64 .f32) (b1 g1 be1 : FVec Ideal S64 .f32)
    (W2 : FVec Ideal S64x64 .f32) (b2 g2 be2 : FVec Ideal S64 .f32) : FVec Ideal S50000x64 .f32 :=
  refBn (refAffine (refBn (refAffine (refMix eps h agg) W1 b1) g1 be1) W2 b2) g2 be2

/-- Its entry (i, j) is the specification's layer by centred statistics, at row count 50000, the scaling row being
    one plus the layer's scalar in every column. -/
theorem refLayer_apply (h agg : FVec Ideal S50000x64 .f32) (eps : FVec Ideal S_ .f32)
    (W1 : FVec Ideal S64x64 .f32) (b1 g1 be1 : FVec Ideal S64 .f32)
    (W2 : FVec Ideal S64x64 .f32) (b2 g2 be2 : FVec Ideal S64 .f32) (i : Fin 50000) (j : Fin 64) :
    refLayer h agg eps W1 b1 g1 be1 W2 b2 g2 be2 (ix2 i j)
      = Cert.Spec.layerCentred ((50000 : ℝ) : EReal) EPS (fun _ => 1 + eps ix0)
          (fun i j => h (ix2 i j)) (fun i j => agg (ix2 i j))
          (fun t j => W1 (ix2 t j)) (fun j => b1 (ix1 j)) (fun j => g1 (ix1 j)) (fun j => be1 (ix1 j))
          (fun t j => W2 (ix2 t j)) (fun j => b2 (ix1 j)) (fun j => g2 (ix1 j)) (fun j => be2 (ix1 j)) i j := by
  have e1 : (fun i j => refMix eps h agg (ix2 i j))
      = Cert.Spec.mix (fun _ => 1 + eps ix0) (fun i j => h (ix2 i j)) (fun i j => agg (ix2 i j)) :=
    funext fun i => funext fun j => refMix_apply eps h agg i j
  have e2 : (fun i j => refAffine (refMix eps h agg) W1 b1 (ix2 i j))
      = Cert.Spec.affine (Cert.Spec.mix (fun _ => 1 + eps ix0) (fun i j => h (ix2 i j)) (fun i j => agg (ix2 i j)))
          (fun t j => W1 (ix2 t j)) (fun j => b1 (ix1 j)) :=
    funext fun i => funext fun j => by rw [refAffine_apply, e1]
  have e3 : (fun i j => refBn (refAffine (refMix eps h agg) W1 b1) g1 be1 (ix2 i j))
      = Cert.Spec.bnCentred ((50000 : ℝ) : EReal) EPS
          (Cert.Spec.affine (Cert.Spec.mix (fun _ => 1 + eps ix0) (fun i j => h (ix2 i j)) (fun i j => agg (ix2 i j)))
            (fun t j => W1 (ix2 t j)) (fun j => b1 (ix1 j)))
          (fun j => g1 (ix1 j)) (fun j => be1 (ix1 j)) :=
    funext fun i => funext fun j => by rw [refBn_apply, e2]
  have e4 : (fun i j => refAffine (refBn (refAffine (refMix eps h agg) W1 b1) g1 be1) W2 b2 (ix2 i j))
      = Cert.Spec.affine
          (Cert.Spec.bnCentred ((50000 : ℝ) : EReal) EPS
            (Cert.Spec.affine (Cert.Spec.mix (fun _ => 1 + eps ix0) (fun i j => h (ix2 i j)) (fun i j => agg (ix2 i j)))
              (fun t j => W1 (ix2 t j)) (fun j => b1 (ix1 j)))
            (fun j => g1 (ix1 j)) (fun j => be1 (ix1 j)))
          (fun t j => W2 (ix2 t j)) (fun j => b2 (ix1 j)) :=
    funext fun i => funext fun j => by rw [refAffine_apply, e3]
  unfold refLayer
  rw [refBn_apply, e4]
  rfl

end Cert.ReferenceIdeal.RefVal

end
-- ==== Proof.RefVal.LayerAt.lean ====
/-
  The four layers over the argument arrays.  Layer k is the layer function of the features, of their neighbour sum
  along the edges, and of the parameters cut from the argument arrays at leading coordinate k; read at one entry it
  is the specification's layer by centred statistics with the parameters read as the argument arrays' entries at
  leading coordinate k.
-/
import proofs.«140206_j52750788330061_1_alg».proof.Proof.RefVal.Layer
import proofs.«140206_j52750788330061_1_alg».proof.Proof.RefVal.Params

noncomputable section

namespace Cert.ReferenceIdeal.RefVal

open Idealize.ShloMosaic Idealize.ShloMosaic.ValueIdx
open Cert.ReferenceIdeal.Facts₀

/-! ## The layers as functions of the arguments -/

/-- Layer 0 over the argument arrays: the layer function of the features, their neighbour sum along the edges, and
    the parameters at leading coordinate 0. -/
def refLayer0 (h : FVec Ideal S50000x64 .f32) (src dst : IVec S800000 32) (a6 : FVec Ideal S4 .f32)
    (a7 : FVec Ideal S4x64x64 .f32) (a8 a9 a10 : FVec Ideal S4x64 .f32) (a11 : FVec Ideal S4x64x64 .f32)
    (a12 a13 a14 : FVec Ideal S4x64 .f32) : FVec Ideal S50000x64 .f32 :=
  refLayer h (refAgg h src dst) (pickScalar 0 slices_S4_S1_0 a6)
    (pickMat 0 slices_S4x64x64_S1x64x64_0_0_0 a7) (pickRow 0 slices_S4x64_S1x64_0_0 a8)
    (pickRow 0 slices_S4x64_S1x64_0_0 a9) (pickRow 0 slices_S4x64_S1x64_0_0 a10)
    (pickMat 0 slices_S4x64x64_S1x64x64_0_0_0 a11) (pickRow 0 slices_S4x64_S1x64_0_0 a12)
    (pickRow 0 slices_S4x64_S1x64_0_0 a13) (pickRow 0 slices_S4x64_S1x64_0_0 a14)

/-- Layer 1 over the argument arrays: the layer function of the features, their neighbour sum along the edges, and
    the parameters at leading coordinate 1. -/
def refLayer1 (h : FVec Ideal S50000x64 .f32) (src dst : IVec S800000 32) (a6 : FVec Ideal S4 .f32)
    (a7 : FVec Ideal S4x64x64 .f32) (a8 a9 a10 : FVec Ideal S4x64 .f32) (a11 : FVec Ideal S4x64x64 .f32)
    (a12 a13 a14 : FVec Ideal S4x64 .f32) : FVec Ideal S50000x64 .f32 :=
  refLayer h (refAgg h src dst) (pickScalar 1 slices_S4_S1_1 a6)
    (pickMat 1 slices_S4x64x64_S1x64x64_1_0_0 a7) (pickRow 1 slices_S4x64_S1x64_1_0 a8)
    (pickRow 1 slices_S4x64_S1x64_1_0 a9) (pickRow 1 slices_S4x64_S1x64_1_0 a10)
    (pickMat 1 slices_S4x64x64_S1x64x64_1_0_0 a11) (pickRow 1 slices_S4x64_S1x64_1_0 a12)
    (pickRow 1 slices_S4x64_S1x64_1_0 a13) (pickRow 1 slices_S4x64_S1x64_1_0 a14)

/-- Layer 2 over the argument arrays: the layer function of the features, their neighbour sum along the edges, and
    the parameters at leading coordinate 2. -/
def refLayer2 (h : FVec Ideal S50000x64 .f32) (src dst : IVec S800000 32) (a6 : FVec Ideal S4 .f32)
    (a7 : FVec Ideal S4x64x64 .f32) (a8 a9 a10 : FVec Ideal S4x64 .f32) (a11 : FVec Ideal S4x64x64 .f32)
    (a12 a13 a14 : FVec Ideal S4x64 .f32) : FVec Ideal S50000x64 .f32 :=
  refLayer h (refAgg h src dst) (pickScalar 2 slices_S4_S1_2 a6)
    (pickMat 2 slices_S4x64x64_S1x64x64_2_0_0 a7) (pickRow 2 slices_S4x64_S1x64_2_0 a8)
    (pickRow 2 slices_S4x64_S1x64_2_0 a9) (pickRow 2 slices_S4x64_S1x64_2_0 a10)
    (pickMat 2 slices_S4x64x64_S1x64x64_2_0_0 a11) (pickRow 2 slices_S4x64_S1x64_2_0 a12)
    (pickRow 2 slices_S4x64_S1x64_2_0 a13) (pickRow 2 slices_S4x64_S1x64_2_0 a14)

/-- Layer 3 over the argument arrays: the layer function of the features, their neighbour sum along the edges, and
    the parameters at leading coordinate 3. -/
def refLayer3 (h : FVec Ideal S50000x64 .f32) (src dst : IVec S800000 32) (a6 : FVec Ideal S4 .f32)
    (a7 : FVec Ideal S4x64x64 .f32) (a8 a9 a10 : FVec Ideal S4x64 .f32) (a11 : FVec Ideal S4x64x64 .f32)
    (a12 a13 a14 : FVec Ideal S4x64 .f32) : FVec Ideal S50000x64 .f32 :=
  refLayer h (refAgg h src dst) (pickScalar 3 slices_S4_S1_3 a6)
    (pickMat 3 slices_S4x64x64_S1x64x64_3_0_0 a7) (pickRow 3 slices_S4x64_S1x64_3_0 a8)
    (pickRow 3 slices_S4x64_S1x64_3_0 a9) (pickRow 3 slices_S4x64_S1x64_3_0 a10)
    (pickMat 3 slices_S4x64x64_S1x64x64_3_0_0 a11) (pickRow 3 slices_S4x64_S1x64_3_0 a12)
    (pickRow 3 slices_S4x64_S1x64_3_0 a13) (pickRow 3 slices_S4x64_S1x64_3_0 a14)

/-! ## Each layer at an entry -/

/-- Layer 0 at entry (i, j): the specification's layer by centred statistics, its parameters the argument arrays'
    entries at leading coordinate 0. -/
theorem refLayer0_apply (h : FVec Ideal S50000x64 .f32) (src dst : IVec S800000 32) (a6 : FVec Ideal S4 .f32)
    (a7 : FVec Ideal S4x64x64 .f32) (a8 a9 a10 : FVec Ideal S4x64 .f32) (a11 : FVec Ideal S4x64x64 .f32)
    (a12 a13 a14 : FVec Ideal S4x64 .f32) (i : Fin 50000) (j : Fin 64) :
    refLayer0 h src dst a6 a7 a8 a9 a10 a11 a12 a13 a14 (ix2 i j)
      = Cert.Spec.layerCentred ((50000 : ℝ) : EReal) EPS (fun _ => 1 + a6 (ix1 (⟨0, by decide⟩ : Fin 4)))
          (fun i j => h (ix2 i j)) (fun i j => refAgg h src dst (ix2 i j))
          (fun t j => a7 (ix3 (⟨0, by decide⟩ : Fin 4) t j)) (fun j => a8 (ix2 (⟨0, by decide⟩ : Fin 4) j))
          (fun j => a9 (ix2 (⟨0, by decide⟩ : Fin 4) j)) (fun j => a10 (ix2 (⟨0, by decide⟩ : Fin 4) j))
          (fun t j => a11 (ix3 (⟨0, by decide⟩ : Fin 4) t j)) (fun j => a12 (ix2 (⟨0, by decide⟩ : Fin 4) j))
          (fun j => a13 (ix2 (⟨0, by decide⟩ : Fin 4) j)) (fun j => a14 (ix2 (⟨0, by decide⟩ : Fin 4) j)) i j := by
  have p6 : pickScalar 0 slices_S4_S1_0 a6 ix0 = a6 (ix1 (⟨0, by decide⟩ : Fin 4)) :=
    pickScalar_apply ⟨0, by decide⟩ slices_S4_S1_0 a6
  have pr : ∀ (a : FVec Ideal S4x64 .f32), (fun j => pickRow 0 slices_S4x64_S1x64_0_0 a (ix1 j))
      = fun j => a (ix2 (⟨0, by decide⟩ : Fin 4) j) :=
    fun a => funext fun j => pickRow_apply ⟨0, by decide⟩ slices_S4x64_S1x64_0_0 a j
  have pm : ∀ (a : FVec Ideal S4x64x64 .f32), (fun t j => pickMat 0 slices_S4x64x64_S1x64x64_0_0_0 a (ix2 t j))
      = fun t j => a (ix3 (⟨0, by decide⟩ : Fin 4) t j) :=
    fun a => funext fun t => funext fun j => pickMat_apply ⟨0, by decide⟩ slices_S4x64x64_S1x64x64_0_0_0 a t j
  unfold refLayer0
  rw [refLayer_apply, p6, pr a8, pr a9, pr a10, pr a12, pr a13, pr a14, pm a7, pm a11]

/-- Layer 1 at entry (i, j): the specification's layer by centred statistics, its parameters the argument arrays'
    entries at leading coordinate 1. -/
theorem refLayer1_apply (h : FVec Ideal S50000x64 .f32) (src dst : IVec S800000 32) (a6 : FVec Ideal S4 .f32)
    (a7 : FVec Ideal S4x64x64 .f32) (a8 a9 a10 : FVec Ideal S4x64 .f32) (a11 : FVec Ideal S4x64x64 .f32)
    (a12 a13 a14 : FVec Ideal S4x64 .f32) (i : Fin 50000) (j : Fin 64) :
    refLayer1 h src dst a6 a7 a8 a9 a10 a11 a12 a13 a14 (ix2 i j)
      = Cert.Spec.layerCentred ((50000 : ℝ) : EReal) EPS (fun _ => 1 + a6 (ix1 (⟨1, by decide⟩ : Fin 4)))
          (fun i j => h (ix2 i j)) (fun i j => refAgg h src dst (ix2 i j))
          (fun t j => a7 (ix3 (⟨1, by decide⟩ : Fin 4) t j)) (fun j => a8 (ix2 (⟨1, by decide⟩ : Fin 4) j))
          (fun j => a9 (ix2 (⟨1, by decide⟩ : Fin 4) j)) (fun j => a10 (ix2 (⟨1, by decide⟩ : Fin 4) j))
          (fun t j => a11 (ix3 (⟨1, by decide⟩ : Fin 4) t j)) (fun j => a12 (ix2 (⟨1, by decide⟩ : Fin 4) j))
          (fun j => a13 (ix2 (⟨1, by decide⟩ : Fin 4) j)) (fun j => a14 (ix2 (⟨1, by decide⟩ : Fin 4) j)) i j := by
  have p6 : pickScalar 1 slices_S4_S1_1 a6 ix0 = a6 (ix1 (⟨1, by decide⟩ : Fin 4)) :=
    pickScalar_apply ⟨1, by decide⟩ slices_S4_S1_1 a6
  have pr : ∀ (a : FVec Ideal S4x64 .f32), (fun j => pickRow 1 slices_S4x64_S1x64_1_0 a (ix1 j))
      = fun j => a (ix2 (⟨1, by decide⟩ : Fin 4) j) :=
    fun a => funext fun j => pickRow_apply ⟨1, by decide⟩ slices_S4x64_S1x64_1_0 a j
  have pm : ∀ (a : FVec Ideal S4x64x64 .f32), (fun t j => pickMat 1 slices_S4x64x64_S1x64x64_1_0_0 a (ix2 t j))
      = fun t j => a (ix3 (⟨1, by decide⟩ : Fin 4) t j) :=
    fun a => funext fun t => funext fun j => pickMat_apply ⟨1, by decide⟩ slices_S4x64x64_S1x64x64_1_0_0 a t j
  unfold refLayer1
  rw [refLayer_apply, p6, pr a8, pr a9, pr a10, pr a12, pr a13, pr a14, pm a7, pm a11]

/-- Layer 2 at entry (i, j): the specification's layer by centred statistics, its parameters the argument arrays'
    entries at leading coordinate 2. -/
theorem refLayer2_apply (h : FVec Ideal S50000x64 .f32) (src dst : IVec S800000 32) (a6 : FVec Ideal S4 .f32)
    (a7 : FVec Ideal S4x64x64 .f32) (a8 a9 a10 : FVec Ideal S4x64 .f32) (a11 : FVec Ideal S4x64x64 .f32)
    (a12 a13 a14 : FVec Ideal S4x64 .f32) (i : Fin 50000) (j : Fin 64) :
    refLayer2 h src dst a6 a7 a8 a9 a10 a11 a12 a13 a14 (ix2 i j)
      = Cert.Spec.layerCentred ((50000 : ℝ) : EReal) EPS (fun _ => 1 + a6 (ix1 (⟨2, by decide⟩ : Fin 4)))
          (fun i j => h (ix2 i j)) (fun i j => refAgg h src dst (ix2 i j))
          (fun t j => a7 (ix3 (⟨2, by decide⟩ : Fin 4) t j)) (fun j => a8 (ix2 (⟨2, by decide⟩ : Fin 4) j))
          (fun j => a9 (ix2 (⟨2, by decide⟩ : Fin 4) j)) (fun j => a10 (ix2 (⟨2, by decide⟩ : Fin 4) j))
          (fun t j => a11 (ix3 (⟨2, by decide⟩ : Fin 4) t j)) (fun j => a12 (ix2 (⟨2, by decide⟩ : Fin 4) j))
          (fun j => a13 (ix2 (⟨2, by decide⟩ : Fin 4) j)) (fun j => a14 (ix2 (⟨2, by decide⟩ : Fin 4) j)) i j := by
  have p6 : pickScalar 2 slices_S4_S1_2 a6 ix0 = a6 (ix1 (⟨2, by decide⟩ : Fin 4)) :=
    pickScalar_apply ⟨2, by decide⟩ slices_S4_S1_2 a6
  have pr : ∀ (a : FVec Ideal S4x64 .f32), (fun j => pickRow 2 slices_S4x64_S1x64_2_0 a (ix1 j))
      = fun j => a (ix2 (⟨2, by decide⟩ : Fin 4) j) :=
    fun a => funext fun j => pickRow_apply ⟨2, by decide⟩ slices_S4x64_S1x64_2_0 a j
  have pm : ∀ (a : FVec Ideal S4x64x64 .f32), (fun t j => pickMat 2 slices_S4x64x64_S1x64x64_2_0_0 a (ix2 t j))
      = fun t j => a (ix3 (⟨2, by decide⟩ : Fin 4) t j) :=
    fun a => funext fun t => funext fun j => pickMat_apply ⟨2, by decide⟩ slices_S4x64x64_S1x64x64_2_0_0 a t j
  unfold refLayer2
  rw [refLayer_apply, p6, pr a8, pr a9, pr a10, pr a12, pr a13, pr a14, pm a7, pm a11]

/-- Layer 3 at entry (i, j): the specification's layer by centred statistics, its parameters the argument arrays'
    entries at leading coordinate 3. -/
theorem refLayer3_apply (h : FVec Ideal S50000x64 .f32) (src dst : IVec S800000 32) (a6 : FVec Ideal S4 .f32)
    (a7 : FVec Ideal S4x64x64 .f32) (a8 a9 a10 : FVec Ideal S4x64 .f32) (a11 : FVec Ideal S4x64x64 .f32)
    (a12 a13 a14 : FVec Ideal S4x64 .f32) (i : Fin 50000) (j : Fin 64) :
    refLayer3 h src dst a6 a7 a8 a9 a10 a11 a12 a13 a14 (ix2 i j)
      = Cert.Spec.layerCentred ((50000 : ℝ) : EReal) EPS (fun _ => 1 + a6 (ix1 (⟨3, by decide⟩ : Fin 4)))
          (fun i j => h (ix2 i j)) (fun i j => refAgg h src dst (ix2 i j))
          (fun t j => a7 (ix3 (⟨3, by decide⟩ : Fin 4) t j)) (fun j => a8 (ix2 (⟨3, by decide⟩ : Fin 4) j))
          (fun j => a9 (ix2 (⟨3, by decide⟩ : Fin 4) j)) (fun j => a10 (ix2 (⟨3, by decide⟩ : Fin 4) j))
          (fun t j => a11 (ix3 (⟨3, by decide⟩ : Fin 4) t j)) (fun j => a12 (ix2 (⟨3, by decide⟩ : Fin 4) j))
          (fun j => a13 (ix2 (⟨3, by decide⟩ : Fin 4) j)) (fun j => a14 (ix2 (⟨3, by decide⟩ : Fin 4) j)) i j := by
  have p6 : pickScalar 3 slices_S4_S1_3 a6 ix0 = a6 (ix1 (⟨3, by decide⟩ : Fin 4)) :=
    pickScalar_apply ⟨3, by decide⟩ slices_S4_S1_3 a6
  have pr : ∀ (a : FVec Ideal S4x64 .f32), (fun j => pickRow 3 slices_S4x64_S1x64_3_0 a (ix1 j))
      = fun j => a (ix2 (⟨3, by decide⟩ : Fin 4) j) :=
    fun a => funext fun j => pickRow_apply ⟨3, by decide⟩ slices_S4x64_S1x64_3_0 a j
  have pm : ∀ (a : FVec Ideal S4x64x64 .f32), (fun t j => pickMat 3 slices_S4x64x64_S1x64x64_3_0_0 a (ix2 t j))
      = fun t j => a (ix3 (⟨3, by decide⟩ : Fin 4) t j) :=
    fun a => funext fun t => funext fun j => pickMat_apply ⟨3, by decide⟩ slices_S4x64x64_S1x64x64_3_0_0 a t j
  unfold refLayer3
  rw [refLayer_apply, p6, pr a8, pr a9, pr a10, pr a12, pr a13, pr a14, pm a7, pm a11]

end Cert.ReferenceIdeal.RefVal

end
-- ==== Proof.RefVal.After0.lean ====
/-
  Layer 0 of the reference, run as a list of host operations: the buffer of the layer's result holds the layer
  function applied to the buffer of the layer's input, the neighbour sum formed from that input and the two rows of
  the edge table, and the layer's parameters cut from the argument arrays at leading coordinate 0.  Every operation
  writes one buffer from the contents of its operand buffers, so the result buffer's contents after the list are
  the composition of the operations' functions, which is the layer function by unfolding.
-/
import proofs.«140206_j52750788330061_1_alg».proof.Proof.RefVal.Layer
import proofs.«140206_j52750788330061_1_alg».proof.Proof.RefVal.Params
import proofs.«140206_j52750788330061_1_alg».proof.Proof.RefRun.Table
import Idealize.ShloMosaic.Lib.StableHlo.Run

noncomputable section

namespace Cert.ReferenceIdeal.RefVal

open Cert.ReferenceIdeal Idealize.ShloMosaic Idealize.ShloMosaic.TcCoe Idealize.SL.Sem Idealize.ShloMosaic.StableHlo
open Cert.ReferenceIdeal.RefRun
open Cert.ReferenceIdeal.Facts₀

set_option maxHeartbeats 4000000 in
set_option maxRecDepth 100000 in
/-- After layer 0's operations the layer's result buffer holds the layer function of the input buffer. -/
theorem after_opsL0 (V : Valuation τ sig (Elt Ideal)) :
    StableHlo.after (opsL0 (F := Ideal)) V (Proc.devRef .tc main_v89)
      = refLayer (V (Proc.devRef .tc main_v8))
          (refAgg (V (Proc.devRef .tc main_v8)) (V (Proc.devRef .tc main_v1)) (V (Proc.devRef .tc main_v3)))
          (pickScalar 0 slices_S4_S1_0 (V (Proc.devRef .tc main_arg6)))
          (pickMat 0 slices_S4x64x64_S1x64x64_0_0_0 (V (Proc.devRef .tc main_arg7)))
          (pickRow 0 slices_S4x64_S1x64_0_0 (V (Proc.devRef .tc main_arg8)))
          (pickRow 0 slices_S4x64_S1x64_0_0 (V (Proc.devRef .tc main_arg9)))
          (pickRow 0 slices_S4x64_S1x64_0_0 (V (Proc.devRef .tc main_arg10)))
          (pickMat 0 slices_S4x64x64_S1x64x64_0_0_0 (V (Proc.devRef .tc main_arg11)))
          (pickRow 0 slices_S4x64_S1x64_0_0 (V (Proc.devRef .tc main_arg12)))
          (pickRow 0 slices_S4x64_S1x64_0_0 (V (Proc.devRef .tc main_arg13)))
          (pickRow 0 slices_S4x64_S1x64_0_0 (V (Proc.devRef .tc main_arg14))) := by
  simp only [opsL0, opsL0_a, opsL0_b, opsL0_c, opsL0_d, opsL0_e, List.cons_append, List.nil_append]
  after_results_simp
  rfl

end Cert.ReferenceIdeal.RefVal

end
-- ==== Proof.RefVal.After1.lean ====
/-
  Layer 1 of the reference, run as a list of host operations: the buffer of the layer's result holds the layer
  function applied to the buffer of the layer's input, the neighbour sum formed from that input and the two rows of
  the edge table, and the layer's parameters cut from the argument arrays at leading coordinate 1.  Every operation
  writes one buffer from the contents of its operand buffers, so the result buffer's contents after the list are
  the composition of the operations' functions, which is the layer function by unfolding.
-/
import proofs.«140206_j52750788330061_1_alg».proof.Proof.RefVal.Layer
import proofs.«140206_j52750788330061_1_alg».proof.Proof.RefVal.Params
import proofs.«140206_j52750788330061_1_alg».proof.Proof.RefRun.Table
import Idealize.ShloMosaic.Lib.StableHlo.Run

noncomputable section

namespace Cert.ReferenceIdeal.RefVal

open Cert.ReferenceIdeal Idealize.ShloMosaic Idealize.ShloMosaic.TcCoe Idealize.SL.Sem Idealize.ShloMosaic.StableHlo
open Cert.ReferenceIdeal.RefRun
open Cert.ReferenceIdeal.Facts₀

set_option maxHeartbeats 4000000 in
set_option maxRecDepth 100000 in
/-- After layer 1's operations the layer's result buffer holds the layer function of the input buffer. -/
theorem after_opsL1 (V : Valuation τ sig (Elt Ideal)) :
    StableHlo.after (opsL1 (F := Ideal)) V (Proc.devRef .tc main_v169)
      = refLayer (V (Proc.devRef .tc main_v89))
          (refAgg (V (Proc.devRef .tc main_v89)) (V (Proc.devRef .tc main_v1)) (V (Proc.devRef .tc main_v3)))
          (pickScalar 1 slices_S4_S1_1 (V (Proc.devRef .tc main_arg6)))
          (pickMat 1 slices_S4x64x64_S1x64x64_1_0_0 (V (Proc.devRef .tc main_arg7)))
          (pickRow 1 slices_S4x64_S1x64_1_0 (V (Proc.devRef .tc main_arg8)))
          (pickRow 1 slices_S4x64_S1x64_1_0 (V (Proc.devRef .tc main_arg9)))
          (pickRow 1 slices_S4x64_S1x64_1_0 (V (Proc.devRef .tc main_arg10)))
          (pickMat 1 slices_S4x64x64_S1x64x64_1_0_0 (V (Proc.devRef .tc main_arg11)))
          (pickRow 1 slices_S4x64_S1x64_1_0 (V (Proc.devRef .tc main_arg12)))
          (pickRow 1 slices_S4x64_S1x64_1_0 (V (Proc.devRef .tc main_arg13)))
          (pickRow 1 slices_S4x64_S1x64_1_0 (V (Proc.devRef .tc main_arg14))) := by
  simp only [opsL1, opsL1_a, opsL1_b, opsL1_c, opsL1_d, opsL1_e, opsL1_f, List.cons_append, List.nil_append]
  after_results_simp
  rfl

end Cert.ReferenceIdeal.RefVal

end
-- ==== Proof.RefVal.After2.lean ====
/-
  Layer 2 of the reference, run as a list of host operations: the buffer of the layer's result holds the layer
  function applied to the buffer of the layer's input, the neighbour sum formed from that input and the two rows of
  the edge table, and the layer's parameters cut from the argument arrays at leading coordinate 2.  Every operation
  writes one buffer from the contents of its operand buffers, so the result buffer's contents after the list are
  the composition of the operations' functions, which is the layer function by unfolding.
-/
import proofs.«140206_j52750788330061_1_alg».proof.Proof.RefVal.Layer
import proofs.«140206_j52750788330061_1_alg».proof.Proof.RefVal.Params
import proofs.«140206_j52750788330061_1_alg».proof.Proof.RefRun.Table
import Idealize.ShloMosaic.Lib.StableHlo.Run

noncomputable section

namespace Cert.ReferenceIdeal.RefVal

open Cert.ReferenceIdeal Idealize.ShloMosaic Idealize.ShloMosaic.TcCoe Idealize.SL.Sem Idealize.ShloMosaic.StableHlo
open Cert.ReferenceIdeal.RefRun
open Cert.ReferenceIdeal.Facts₀

set_option maxHeartbeats 4000000 in
set_option maxRecDepth 100000 in
/-- After layer 2's operations the layer's result buffer holds the layer function of the input buffer. -/
theorem after_opsL2 (V : Valuation τ sig (Elt Ideal)) :
    StableHlo.after (opsL2 (F := Ideal)) V (Proc.devRef .tc main_v249)
      = refLayer (V (Proc.devRef .tc main_v169))
          (refAgg (V (Proc.devRef .tc main_v169)) (V (Proc.devRef .tc main_v1)) (V (Proc.devRef .tc main_v3)))
          (pickScalar 2 slices_S4_S1_2 (V (Proc.devRef .tc main_arg6)))
          (pickMat 2 slices_S4x64x64_S1x64x64_2_0_0 (V (Proc.devRef .tc main_arg7)))
          (pickRow 2 slices_S4x64_S1x64_2_0 (V (Proc.devRef .tc main_arg8)))
          (pickRow 2 slices_S4x64_S1x64_2_0 (V (Proc.devRef .tc main_arg9)))
          (pickRow 2 slices_S4x64_S1x64_2_0 (V (Proc.devRef .tc main_arg10)))
          (pickMat 2 slices_S4x64x64_S1x64x64_2_0_0 (V (Proc.devRef .tc main_arg11)))
          (pickRow 2 slices_S4x64_S1x64_2_0 (V (Proc.devRef .tc main_arg12)))
          (pickRow 2 slices_S4x64_S1x64_2_0 (V (Proc.devRef .tc main_arg13)))
          (pickRow 2 slices_S4x64_S1x64_2_0 (V (Proc.devRef .tc main_arg14))) := by
  simp only [opsL2, opsL2_a, opsL2_b, opsL2_c, opsL2_d, opsL2_e, List.cons_append, List.nil_append]
  after_results_simp
  rfl

end Cert.ReferenceIdeal.RefVal

end
-- ==== Proof.RefVal.After3.lean ====
/-
  Layer 3 of the reference, run as a list of host operations: the buffer of the layer's result holds the layer
  function applied to the buffer of the layer's input, the neighbour sum formed from that input and the two rows of
  the edge table, and the layer's parameters cut from the argument arrays at leading coordinate 3.  Every operation
  writes one buffer from the contents of its operand buffers, so the result buffer's contents after the list are
  the composition of the operations' functions, which is the layer function by unfolding.
-/
import proofs.«140206_j52750788330061_1_alg».proof.Proof.RefVal.Layer
import proofs.«140206_j52750788330061_1_alg».proof.Proof.RefVal.Params
import proofs.«140206_j52750788330061_1_alg».proof.Proof.RefRun.Table
import Idealize.ShloMosaic.Lib.StableHlo.Run

noncomputable section

namespace Cert.ReferenceIdeal.RefVal

open Cert.ReferenceIdeal Idealize.ShloMosaic Idealize.ShloMosaic.TcCoe Idealize.SL.Sem Idealize.ShloMosaic.StableHlo
open Cert.ReferenceIdeal.RefRun
open Cert.ReferenceIdeal.Facts₀

set_option maxHeartbeats 4000000 in
set_option maxRecDepth 100000 in
/-- After layer 3's operations the layer's result buffer holds the layer function of the input buffer. -/
theorem after_opsL3 (V : Valuation τ sig (Elt Ideal)) :
    StableHlo.after (opsL3 (F := Ideal)) V (Proc.devRef .tc main_v329)
      = refLayer (V (Proc.devRef .tc main_v249))
          (refAgg (V (Proc.devRef .tc main_v249)) (V (Proc.devRef .tc main_v1)) (V (Proc.devRef .tc main_v3)))
          (pickScalar 3 slices_S4_S1_3 (V (Proc.devRef .tc main_arg6)))
          (pickMat 3 slices_S4x64x64_S1x64x64_3_0_0 (V (Proc.devRef .tc main_arg7)))
          (pickRow 3 slices_S4x64_S1x64_3_0 (V (Proc.devRef .tc main_arg8)))
          (pickRow 3 slices_S4x64_S1x64_3_0 (V (Proc.devRef .tc main_arg9)))
          (pickRow 3 slices_S4x64_S1x64_3_0 (V (Proc.devRef .tc main_arg10)))
          (pickMat 3 slices_S4x64x64_S1x64x64_3_0_0 (V (Proc.devRef .tc main_arg11)))
          (pickRow 3 slices_S4x64_S1x64_3_0 (V (Proc.devRef .tc main_arg12)))
          (pickRow 3 slices_S4x64_S1x64_3_0 (V (Proc.devRef .tc main_arg13)))
          (pickRow 3 slices_S4x64_S1x64_3_0 (V (Proc.devRef .tc main_arg14))) := by
  simp only [opsL3, opsL3_a, opsL3_b, opsL3_c, opsL3_d, opsL3_e, opsL3_f, List.cons_append, List.nil_append]
  after_results_simp
  rfl

end Cert.ReferenceIdeal.RefVal

end
-- ==== Proof.RefVal.Keep.lean ====
/-
  What each stage of the reference program leaves alone.

  Every operation of the line writes exactly one buffer, its result.  A stage whose results are all different, as
  references, from a given list of references writes no buffer of that list, so through the stage each of them keeps
  its contents.  The lists: the nineteen arguments for every stage; beside them, for the stages after the embedding,
  the two rows of the edge table, the embedded features and the zero array; and for each later stage the layer
  results formed before it.
-/
import proofs.«140206_j52750788330061_1_alg».proof.Proof.RefRun.Table
import Idealize.ShloMosaic.Lib.StableHlo.Run

noncomputable section

namespace Cert.ReferenceIdeal.RefVal

open Cert.ReferenceIdeal Idealize.ShloMosaic Idealize.ShloMosaic.TcCoe Idealize.SL.Sem Idealize.ShloMosaic.StableHlo
open Cert.ReferenceIdeal.RefRun

variable {F : FTy → Type} [FloatOps F]

/-- An operation that writes none of the references of a list. -/
def Keeps (K : List (Ref sig .tc)) (op : HloOp τ sig (Elt F)) : Prop :=
  ∀ r ∈ K, (Proc.devRef .tc r : DevRef τ sig) ∉ op.writes

/-- An operation whose one written buffer is a reference outside the list writes none of the list: distinct
    references are distinct buffers of the device. -/
theorem keeps_of {K : List (Ref sig .tc)} {op : HloOp τ sig (Elt F)} (y : Ref sig .tc)
    (hw : op.writes = {Proc.devRef .tc y}) (hy : y ∉ K) : Keeps K op := fun r hr hm => by
  rw [hw, Finset.mem_singleton] at hm
  exact hy (Proc.devRef_injective _ hm ▸ hr)

/-- Through a line of such operations each reference of the list keeps its contents. -/
theorem after_keep {K : List (Ref sig .tc)} (l : List (HloOp τ sig (Elt F))) (hl : l.Forall (Keeps K))
    (V : Valuation τ sig (Elt F)) {r : Ref sig .tc} (hr : r ∈ K) :
    after l V (Proc.devRef .tc r) = V (Proc.devRef .tc r) :=
  after_of_forall_not_mem l V fun op hop => List.forall_iff_forall_mem.mp hl op hop r hr

/-- A statement about every operation of a concatenation of literal lists, reduced to one goal per operation, each
    closed on the spot by the given tactic: a concatenation is split, a literal list is walked from its head. -/
local macro "each_operation " t:tacticSeq : tactic =>
  `(tactic| repeat' (first
      | refine List.forall_append.mpr ⟨?_, ?_⟩
      | refine (List.forall_cons _ _ _).mpr ⟨by $t, ?_⟩
      | exact trivial))

/-- The program's nineteen arguments. -/
abbrev keepPre : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18]
/-- The arguments, the two rows of the edge table, the embedded features and the zero array. -/
abbrev keepL0 : List (Ref sig .tc) := keepPre ++ [main_v1, main_v3, main_v8, main_v9]
/-- Those and layer 0's result. -/
abbrev keepL1 : List (Ref sig .tc) := keepL0 ++ [main_v89]
/-- Those and layer 1's result. -/
abbrev keepL2 : List (Ref sig .tc) := keepL1 ++ [main_v169]
/-- Those and layer 2's result. -/
abbrev keepL3 : List (Ref sig .tc) := keepL2 ++ [main_v249]
/-- Those and layer 3's result. -/
abbrev keepPost : List (Ref sig .tc) := keepL3 ++ [main_v329]

set_option maxRecDepth 8192 in
theorem opsPre_keeps : (opsPre : List (HloOp τ sig (Elt F))).Forall (Keeps keepPre) := by
  each_operation exact keeps_of _ rfl (by decide)
set_option maxHeartbeats 1000000 in
set_option maxRecDepth 8192 in
theorem opsL0_keeps : (opsL0 : List (HloOp τ sig (Elt F))).Forall (Keeps keepL0) := by
  each_operation exact keeps_of _ rfl (by decide)
set_option maxHeartbeats 1000000 in
set_option maxRecDepth 8192 in
theorem opsL1_keeps : (opsL1 : List (HloOp τ sig (Elt F))).Forall (Keeps keepL1) := by
  each_operation exact keeps_of _ rfl (by decide)
set_option maxHeartbeats 1000000 in
set_option maxRecDepth 8192 in
theorem opsL2_keeps : (opsL2 : List (HloOp τ sig (Elt F))).Forall (Keeps keepL2) := by
  each_operation exact keeps_of _ rfl (by decide)
set_option maxHeartbeats 1000000 in
set_option maxRecDepth 8192 in
theorem opsL3_keeps : (opsL3 : List (HloOp τ sig (Elt F))).Forall (Keeps keepL3) := by
  each_operation exact keeps_of _ rfl (by decide)
set_option maxRecDepth 8192 in
theorem opsPost_keeps : (opsPost : List (HloOp τ sig (Elt F))).Forall (Keeps keepPost) := by
  each_operation exact keeps_of _ rfl (by decide)

/-- Through the embedding an argument keeps its contents. -/
theorem after_opsPre_keep (V : Valuation τ sig (Elt F)) {r : Ref sig .tc} (hr : r ∈ keepPre) :
    after opsPre V (Proc.devRef .tc r) = V (Proc.devRef .tc r) := after_keep opsPre opsPre_keeps V hr
/-- Through layer 0 the arguments, the edge rows, the embedded features and the zero array keep their contents. -/
theorem after_opsL0_keep (V : Valuation τ sig (Elt F)) {r : Ref sig .tc} (hr : r ∈ keepL0) :
    after opsL0 V (Proc.devRef .tc r) = V (Proc.devRef .tc r) := after_keep opsL0 opsL0_keeps V hr
/-- Through layer 1 those and layer 0's result keep their contents. -/
theorem after_opsL1_keep (V : Valuation τ sig (Elt F)) {r : Ref sig .tc} (hr : r ∈ keepL1) :
    after opsL1 V (Proc.devRef .tc r) = V (Proc.devRef .tc r) := after_keep opsL1 opsL1_keeps V hr
/-- Through layer 2 those and layer 1's result keep their contents. -/
theorem after_opsL2_keep (V : Valuation τ sig (Elt F)) {r : Ref sig .tc} (hr : r ∈ keepL2) :
    after opsL2 V (Proc.devRef .tc r) = V (Proc.devRef .tc r) := after_keep opsL2 opsL2_keeps V hr
/-- Through layer 3 those and layer 2's result keep their contents. -/
theorem after_opsL3_keep (V : Valuation τ sig (Elt F)) {r : Ref sig .tc} (hr : r ∈ keepL3) :
    after opsL3 V (Proc.devRef .tc r) = V (Proc.devRef .tc r) := after_keep opsL3 opsL3_keeps V hr
/-- Through the tail those and layer 3's result keep their contents. -/
theorem after_opsPost_keep (V : Valuation τ sig (Elt F)) {r : Ref sig .tc} (hr : r ∈ keepPost) :
    after opsPost V (Proc.devRef .tc r) = V (Proc.devRef .tc r) := after_keep opsPost opsPost_keeps V hr

end Cert.ReferenceIdeal.RefVal

end
-- ==== Proof.RefVal.Whole.lean ====
/-
  The whole reference program, run as one list of host operations: the result buffer holds the network function of
  the nineteen argument arrays.  The list is the six stages in order; the contents after a concatenation are the
  contents after the second part from the contents after the first.  Stage by stage: the embedding leaves the edge
  rows and the embedded features; each layer leaves its result as the layer function of the previous features, of the
  edge rows and of the argument arrays, all of which the earlier stages kept; the tail reads the last layer's result
  and five arguments.
-/
import proofs.«140206_j52750788330061_1_alg».proof.Proof.RefVal.After0
import proofs.«140206_j52750788330061_1_alg».proof.Proof.RefVal.After1
import proofs.«140206_j52750788330061_1_alg».proof.Proof.RefVal.After2
import proofs.«140206_j52750788330061_1_alg».proof.Proof.RefVal.After3
import proofs.«140206_j52750788330061_1_alg».proof.Proof.RefVal.Pre
import proofs.«140206_j52750788330061_1_alg».proof.Proof.RefVal.Post
import proofs.«140206_j52750788330061_1_alg».proof.Proof.RefVal.Keep
import proofs.«140206_j52750788330061_1_alg».proof.Proof.RefVal.LayerAt
import Idealize.ShloMosaic.Lib.Pipeline.Frame

noncomputable section

namespace Cert.ReferenceIdeal.RefVal

open Cert.ReferenceIdeal Idealize.ShloMosaic Idealize.ShloMosaic.TcCoe Idealize.SL.Sem Idealize.ShloMosaic.StableHlo
open Cert.ReferenceIdeal.RefRun
open Cert.ReferenceIdeal.Facts₀

/-! ## The network as a function of the arguments -/

/-- The features after the embedding and the first k layers, over the argument arrays. -/
def refH0 (a0 : FVec Ideal S50000x3 .f32) (a1 : FVec Ideal S50000x3 .f32) (a2 : IVec S2x800000 32) (a3 : IVec S50000 32) (a4 : FVec Ideal S6x64 .f32) (a5 : FVec Ideal S64 .f32) (a6 : FVec Ideal S4 .f32) (a7 : FVec Ideal S4x64x64 .f32) (a8 : FVec Ideal S4x64 .f32) (a9 : FVec Ideal S4x64 .f32) (a10 : FVec Ideal S4x64 .f32) (a11 : FVec Ideal S4x64x64 .f32) (a12 : FVec Ideal S4x64 .f32) (a13 : FVec Ideal S4x64 .f32) (a14 : FVec Ideal S4x64 .f32) (a15 : FVec Ideal S64x64 .f32) (a16 : FVec Ideal S64 .f32) (a17 : FVec Ideal S64x10 .f32) (a18 : FVec Ideal S10 .f32) : FVec Ideal S50000x64 .f32 := refEmbed a0 a1 a4 a5
def refH1 (a0 : FVec Ideal S50000x3 .f32) (a1 : FVec Ideal S50000x3 .f32) (a2 : IVec S2x800000 32) (a3 : IVec S50000 32) (a4 : FVec Ideal S6x64 .f32) (a5 : FVec Ideal S64 .f32) (a6 : FVec Ideal S4 .f32) (a7 : FVec Ideal S4x64x64 .f32) (a8 : FVec Ideal S4x64 .f32) (a9 : FVec Ideal S4x64 .f32) (a10 : FVec Ideal S4x64 .f32) (a11 : FVec Ideal S4x64x64 .f32) (a12 : FVec Ideal S4x64 .f32) (a13 : FVec Ideal S4x64 .f32) (a14 : FVec Ideal S4x64 .f32) (a15 : FVec Ideal S64x64 .f32) (a16 : FVec Ideal S64 .f32) (a17 : FVec Ideal S64x10 .f32) (a18 : FVec Ideal S10 .f32) : FVec Ideal S50000x64 .f32 :=
  refLayer0 (refH0 a0 a1 a2 a3 a4 a5 a6 a7 a8 a9 a10 a11 a12 a13 a14 a15 a16 a17 a18) (refSrc a2) (refDst a2) a6 a7 a8 a9 a10 a11 a12 a13 a14
def refH2 (a0 : FVec Ideal S50000x3 .f32) (a1 : FVec Ideal S50000x3 .f32) (a2 : IVec S2x800000 32) (a3 : IVec S50000 32) (a4 : FVec Ideal S6x64 .f32) (a5 : FVec Ideal S64 .f32) (a6 : FVec Ideal S4 .f32) (a7 : FVec Ideal S4x64x64 .f32) (a8 : FVec Ideal S4x64 .f32) (a9 : FVec Ideal S4x64 .f32) (a10 : FVec Ideal S4x64 .f32) (a11 : FVec Ideal S4x64x64 .f32) (a12 : FVec Ideal S4x64 .f32) (a13 : FVec Ideal S4x64 .f32) (a14 : FVec Ideal S4x64 .f32) (a15 : FVec Ideal S64x64 .f32) (a16 : FVec Ideal S64 .f32) (a17 : FVec Ideal S64x10 .f32) (a18 : FVec Ideal S10 .f32) : FVec Ideal S50000x64 .f32 :=
  refLayer1 (refH1 a0 a1 a2 a3 a4 a5 a6 a7 a8 a9 a10 a11 a12 a13 a14 a15 a16 a17 a18) (refSrc a2) (refDst a2) a6 a7 a8 a9 a10 a11 a12 a13 a14
def refH3 (a0 : FVec Ideal S50000x3 .f32) (a1 : FVec Ideal S50000x3 .f32) (a2 : IVec S2x800000 32) (a3 : IVec S50000 32) (a4 : FVec Ideal S6x64 .f32) (a5 : FVec Ideal S64 .f32) (a6 : FVec Ideal S4 .f32) (a7 : FVec Ideal S4x64x64 .f32) (a8 : FVec Ideal S4x64 .f32) (a9 : FVec Ideal S4x64 .f32) (a10 : FVec Ideal S4x64 .f32) (a11 : FVec Ideal S4x64x64 .f32) (a12 : FVec Ideal S4x64 .f32) (a13 : FVec Ideal S4x64 .f32) (a14 : FVec Ideal S4x64 .f32) (a15 : FVec Ideal S64x64 .f32) (a16 : FVec Ideal S64 .f32) (a17 : FVec Ideal S64x10 .f32) (a18 : FVec Ideal S10 .f32) : FVec Ideal S50000x64 .f32 :=
  refLayer2 (refH2 a0 a1 a2 a3 a4 a5 a6 a7 a8 a9 a10 a11 a12 a13 a14 a15 a16 a17 a18) (refSrc a2) (refDst a2) a6 a7 a8 a9 a10 a11 a12 a13 a14
def refH4 (a0 : FVec Ideal S50000x3 .f32) (a1 : FVec Ideal S50000x3 .f32) (a2 : IVec S2x800000 32) (a3 : IVec S50000 32) (a4 : FVec Ideal S6x64 .f32) (a5 : FVec Ideal S64 .f32) (a6 : FVec Ideal S4 .f32) (a7 : FVec Ideal S4x64x64 .f32) (a8 : FVec Ideal S4x64 .f32) (a9 : FVec Ideal S4x64 .f32) (a10 : FVec Ideal S4x64 .f32) (a11 : FVec Ideal S4x64x64 .f32) (a12 : FVec Ideal S4x64 .f32) (a13 : FVec Ideal S4x64 .f32) (a14 : FVec Ideal S4x64 .f32) (a15 : FVec Ideal S64x64 .f32) (a16 : FVec Ideal S64 .f32) (a17 : FVec Ideal S64x10 .f32) (a18 : FVec Ideal S10 .f32) : FVec Ideal S50000x64 .f32 :=
  refLayer3 (refH3 a0 a1 a2 a3 a4 a5 a6 a7 a8 a9 a10 a11 a12 a13 a14 a15 a16 a17 a18) (refSrc a2) (refDst a2) a6 a7 a8 a9 a10 a11 a12 a13 a14
/-- The whole network over the argument arrays: embedding, four layers, per-graph mean and classifier. -/
def refNet (a0 : FVec Ideal S50000x3 .f32) (a1 : FVec Ideal S50000x3 .f32) (a2 : IVec S2x800000 32) (a3 : IVec S50000 32) (a4 : FVec Ideal S6x64 .f32) (a5 : FVec Ideal S64 .f32) (a6 : FVec Ideal S4 .f32) (a7 : FVec Ideal S4x64x64 .f32) (a8 : FVec Ideal S4x64 .f32) (a9 : FVec Ideal S4x64 .f32) (a10 : FVec Ideal S4x64 .f32) (a11 : FVec Ideal S4x64x64 .f32) (a12 : FVec Ideal S4x64 .f32) (a13 : FVec Ideal S4x64 .f32) (a14 : FVec Ideal S4x64 .f32) (a15 : FVec Ideal S64x64 .f32) (a16 : FVec Ideal S64 .f32) (a17 : FVec Ideal S64x10 .f32) (a18 : FVec Ideal S10 .f32) : FVec Ideal S512x10 .f32 :=
  refTail (refH4 a0 a1 a2 a3 a4 a5 a6 a7 a8 a9 a10 a11 a12 a13 a14 a15 a16 a17 a18) a3 a15 a16 a17 a18

/-! ## The run -/

set_option maxHeartbeats 2000000 in
set_option maxRecDepth 8192 in
/-- After the whole list of operations the result buffer holds the network function of the argument arrays. -/
theorem after_ops (V : Valuation τ sig (Elt Ideal)) :
    StableHlo.after (ops (F := Ideal)) V (Proc.devRef .tc main_v350) = refNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  have s0 : (StableHlo.after (opsPre (F := Ideal)) V) (Proc.devRef .tc main_v1) = refSrc (V (Proc.devRef .tc main_arg2)) := after_opsPre_src V
  have d0 : (StableHlo.after (opsPre (F := Ideal)) V) (Proc.devRef .tc main_v3) = refDst (V (Proc.devRef .tc main_arg2)) := after_opsPre_dst V
  have e0 : (StableHlo.after (opsPre (F := Ideal)) V) (Proc.devRef .tc main_v8) = refH0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := after_opsPre_embed V
  have a0_3 : (StableHlo.after (opsPre (F := Ideal)) V) (Proc.devRef .tc main_arg3) = V (Proc.devRef .tc main_arg3) := after_opsPre_keep V (by decide)
  have a0_6 : (StableHlo.after (opsPre (F := Ideal)) V) (Proc.devRef .tc main_arg6) = V (Proc.devRef .tc main_arg6) := after_opsPre_keep V (by decide)
  have a0_7 : (StableHlo.after (opsPre (F := Ideal)) V) (Proc.devRef .tc main_arg7) = V (Proc.devRef .tc main_arg7) := after_opsPre_keep V (by decide)
  have a0_8 : (StableHlo.after (opsPre (F := Ideal)) V) (Proc.devRef .tc main_arg8) = V (Proc.devRef .tc main_arg8) := after_opsPre_keep V (by decide)
  have a0_9 : (StableHlo.after (opsPre (F := Ideal)) V) (Proc.devRef .tc main_arg9) = V (Proc.devRef .tc main_arg9) := after_opsPre_keep V (by decide)
  have a0_10 : (StableHlo.after (opsPre (F := Ideal)) V) (Proc.devRef .tc main_arg10) = V (Proc.devRef .tc main_arg10) := after_opsPre_keep V (by decide)
  have a0_11 : (StableHlo.after (opsPre (F := Ideal)) V) (Proc.devRef .tc main_arg11) = V (Proc.devRef .tc main_arg11) := after_opsPre_keep V (by decide)
  have a0_12 : (StableHlo.after (opsPre (F := Ideal)) V) (Proc.devRef .tc main_arg12) = V (Proc.devRef .tc main_arg12) := after_opsPre_keep V (by decide)
  have a0_13 : (StableHlo.after (opsPre (F := Ideal)) V) (Proc.devRef .tc main_arg13) = V (Proc.devRef .tc main_arg13) := after_opsPre_keep V (by decide)
  have a0_14 : (StableHlo.after (opsPre (F := Ideal)) V) (Proc.devRef .tc main_arg14) = V (Proc.devRef .tc main_arg14) := after_opsPre_keep V (by decide)
  have a0_15 : (StableHlo.after (opsPre (F := Ideal)) V) (Proc.devRef .tc main_arg15) = V (Proc.devRef .tc main_arg15) := after_opsPre_keep V (by decide)
  have a0_16 : (StableHlo.after (opsPre (F := Ideal)) V) (Proc.devRef .tc main_arg16) = V (Proc.devRef .tc main_arg16) := after_opsPre_keep V (by decide)
  have a0_17 : (StableHlo.after (opsPre (F := Ideal)) V) (Proc.devRef .tc main_arg17) = V (Proc.devRef .tc main_arg17) := after_opsPre_keep V (by decide)
  have a0_18 : (StableHlo.after (opsPre (F := Ideal)) V) (Proc.devRef .tc main_arg18) = V (Proc.devRef .tc main_arg18) := after_opsPre_keep V (by decide)
  have s1 : (StableHlo.after (opsL0 (F := Ideal)) (StableHlo.after (opsPre (F := Ideal)) V)) (Proc.devRef .tc main_v1) = refSrc (V (Proc.devRef .tc main_arg2)) := (after_opsL0_keep (StableHlo.after (opsPre (F := Ideal)) V) (by decide)).trans s0
  have d1 : (StableHlo.after (opsL0 (F := Ideal)) (StableHlo.after (opsPre (F := Ideal)) V)) (Proc.devRef .tc main_v3) = refDst (V (Proc.devRef .tc main_arg2)) := (after_opsL0_keep (StableHlo.after (opsPre (F := Ideal)) V) (by decide)).trans d0
  have a1_3 : (StableHlo.after (opsL0 (F := Ideal)) (StableHlo.after (opsPre (F := Ideal)) V)) (Proc.devRef .tc main_arg3) = V (Proc.devRef .tc main_arg3) := (after_opsL0_keep (StableHlo.after (opsPre (F := Ideal)) V) (by decide)).trans a0_3
  have a1_6 : (StableHlo.after (opsL0 (F := Ideal)) (StableHlo.after (opsPre (F := Ideal)) V)) (Proc.devRef .tc main_arg6) = V (Proc.devRef .tc main_arg6) := (after_opsL0_keep (StableHlo.after (opsPre (F := Ideal)) V) (by decide)).trans a0_6
  have a1_7 : (StableHlo.after (opsL0 (F := Ideal)) (StableHlo.after (opsPre (F := Ideal)) V)) (Proc.devRef .tc main_arg7) = V (Proc.devRef .tc main_arg7) := (after_opsL0_keep (StableHlo.after (opsPre (F := Ideal)) V) (by decide)).trans a0_7
  have a1_8 : (StableHlo.after (opsL0 (F := Ideal)) (StableHlo.after (opsPre (F := Ideal)) V)) (Proc.devRef .tc main_arg8) = V (Proc.devRef .tc main_arg8) := (after_opsL0_keep (StableHlo.after (opsPre (F := Ideal)) V) (by decide)).trans a0_8
  have a1_9 : (StableHlo.after (opsL0 (F := Ideal)) (StableHlo.after (opsPre (F := Ideal)) V)) (Proc.devRef .tc main_arg9) = V (Proc.devRef .tc main_arg9) := (after_opsL0_keep (StableHlo.after (opsPre (F := Ideal)) V) (by decide)).trans a0_9
  have a1_10 : (StableHlo.after (opsL0 (F := Ideal)) (StableHlo.after (opsPre (F := Ideal)) V)) (Proc.devRef .tc main_arg10) = V (Proc.devRef .tc main_arg10) := (after_opsL0_keep (StableHlo.after (opsPre (F := Ideal)) V) (by decide)).trans a0_10
  have a1_11 : (StableHlo.after (opsL0 (F := Ideal)) (StableHlo.after (opsPre (F := Ideal)) V)) (Proc.devRef .tc main_arg11) = V (Proc.devRef .tc main_arg11) := (after_opsL0_keep (StableHlo.after (opsPre (F := Ideal)) V) (by decide)).trans a0_11
  have a1_12 : (StableHlo.after (opsL0 (F := Ideal)) (StableHlo.after (opsPre (F := Ideal)) V)) (Proc.devRef .tc main_arg12) = V (Proc.devRef .tc main_arg12) := (after_opsL0_keep (StableHlo.after (opsPre (F := Ideal)) V) (by decide)).trans a0_12
  have a1_13 : (StableHlo.after (opsL0 (F := Ideal)) (StableHlo.after (opsPre (F := Ideal)) V)) (Proc.devRef .tc main_arg13) = V (Proc.devRef .tc main_arg13) := (after_opsL0_keep (StableHlo.after (opsPre (F := Ideal)) V) (by decide)).trans a0_13
  have a1_14 : (StableHlo.after (opsL0 (F := Ideal)) (StableHlo.after (opsPre (F := Ideal)) V)) (Proc.devRef .tc main_arg14) = V (Proc.devRef .tc main_arg14) := (after_opsL0_keep (StableHlo.after (opsPre (F := Ideal)) V) (by decide)).trans a0_14
  have a1_15 : (StableHlo.after (opsL0 (F := Ideal)) (StableHlo.after (opsPre (F := Ideal)) V)) (Proc.devRef .tc main_arg15) = V (Proc.devRef .tc main_arg15) := (after_opsL0_keep (StableHlo.after (opsPre (F := Ideal)) V) (by decide)).trans a0_15
  have a1_16 : (StableHlo.after (opsL0 (F := Ideal)) (StableHlo.after (opsPre (F := Ideal)) V)) (Proc.devRef .tc main_arg16) = V (Proc.devRef .tc main_arg16) := (after_opsL0_keep (StableHlo.after (opsPre (F := Ideal)) V) (by decide)).trans a0_16
  have a1_17 : (StableHlo.after (opsL0 (F := Ideal)) (StableHlo.after (opsPre (F := Ideal)) V)) (Proc.devRef .tc main_arg17) = V (Proc.devRef .tc main_arg17) := (after_opsL0_keep (StableHlo.after (opsPre (F := Ideal)) V) (by decide)).trans a0_17
  have a1_18 : (StableHlo.after (opsL0 (F := Ideal)) (StableHlo.after (opsPre (F := Ideal)) V)) (Proc.devRef .tc main_arg18) = V (Proc.devRef .tc main_arg18) := (after_opsL0_keep (StableHlo.after (opsPre (F := Ideal)) V) (by decide)).trans a0_18
  have e1 : (StableHlo.after (opsL0 (F := Ideal)) (StableHlo.after (opsPre (F := Ideal)) V)) (Proc.devRef .tc main_v89) = refH1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
    rw [after_opsL0 (StableHlo.after (opsPre (F := Ideal)) V), e0, s0, d0, a0_6, a0_7, a0_8, a0_9, a0_10, a0_11, a0_12, a0_13, a0_14]
    rfl
  have s2 : (StableHlo.after (opsL1 (F := Ideal)) (StableHlo.after (opsL0 (F := Ideal)) (StableHlo.after (opsPre (F := Ideal)) V))) (Proc.devRef .tc main_v1) = refSrc (V (Proc.devRef .tc main_arg2)) := (after_opsL1_keep (StableHlo.after (opsL0 (F := Ideal)) (StableHlo.after (opsPre (F := Ideal)) V)) (by decide)).trans s1
  have d2 : (StableHlo.after (opsL1 (F := Ideal)) (StableHlo.after (opsL0 (F := Ideal)) (StableHlo.after (opsPre (F := Ideal)) V))) (Proc.devRef .tc main_v3) = refDst (V (Proc.devRef .tc main_arg2)) := (after_opsL1_keep (StableHlo.after (opsL0 (F := Ideal)) (StableHlo.after (opsPre (F := Ideal)) V)) (by decide)).trans d1
  have a2_3 : (StableHlo.after (opsL1 (F := Ideal)) (StableHlo.after (opsL0 (F := Ideal)) (StableHlo.after (opsPre (F := Ideal)) V))) (Proc.devRef .tc main_arg3) = V (Proc.devRef .tc main_arg3) := (after_opsL1_keep (StableHlo.after (opsL0 (F := Ideal)) (StableHlo.after (opsPre (F := Ideal)) V)) (by decide)).trans a1_3
  have a2_6 : (StableHlo.after (opsL1 (F := Ideal)) (StableHlo.after (opsL0 (F := Ideal)) (StableHlo.after (opsPre (F := Ideal)) V))) (Proc.devRef .tc main_arg6) = V (Proc.devRef .tc main_arg6) := (after_opsL1_keep (StableHlo.after (opsL0 (F := Ideal)) (StableHlo.after (opsPre (F := Ideal)) V)) (by decide)).trans a1_6
  have a2_7 : (StableHlo.after (opsL1 (F := Ideal)) (StableHlo.after (opsL0 (F := Ideal)) (StableHlo.after (opsPre (F := Ideal)) V))) (Proc.devRef .tc main_arg7) = V (Proc.devRef .tc main_arg7) := (after_opsL1_keep (StableHlo.after (opsL0 (F := Ideal)) (StableHlo.after (opsPre (F := Ideal)) V)) (by decide)).trans a1_7
  have a2_8 : (StableHlo.after (opsL1 (F := Ideal)) (StableHlo.after (opsL0 (F := Ideal)) (StableHlo.after (opsPre (F := Ideal)) V))) (Proc.devRef .tc main_arg8) = V (Proc.devRef .tc main_arg8) := (after_opsL1_keep (StableHlo.after (opsL0 (F := Ideal)) (StableHlo.after (opsPre (F := Ideal)) V)) (by decide)).trans a1_8
  have a2_9 : (StableHlo.after (opsL1 (F := Ideal)) (StableHlo.after (opsL0 (F := Ideal)) (StableHlo.after (opsPre (F := Ideal)) V))) (Proc.devRef .tc main_arg9) = V (Proc.devRef .tc main_arg9) := (after_opsL1_keep (StableHlo.after (opsL0 (F := Ideal)) (StableHlo.after (opsPre (F := Ideal)) V)) (by decide)).trans a1_9
  have a2_10 : (StableHlo.after (opsL1 (F := Ideal)) (StableHlo.after (opsL0 (F := Ideal)) (StableHlo.after (opsPre (F := Ideal)) V))) (Proc.devRef .tc main_arg10) = V (Proc.devRef .tc main_arg10) := (after_opsL1_keep (StableHlo.after (opsL0 (F := Ideal)) (StableHlo.after (opsPre (F := Ideal)) V)) (by decide)).trans a1_10
  have a2_11 : (StableHlo.after (opsL1 (F := Ideal)) (StableHlo.after (opsL0 (F := Ideal)) (StableHlo.after (opsPre (F := Ideal)) V))) (Proc.devRef .tc main_arg11) = V (Proc.devRef .tc main_arg11) := (after_opsL1_keep (StableHlo.after (opsL0 (F := Ideal)) (StableHlo.after (opsPre (F := Ideal)) V)) (by decide)).trans a1_11
  have a2_12 : (StableHlo.after (opsL1 (F := Ideal)) (StableHlo.after (opsL0 (F := Ideal)) (StableHlo.after (opsPre (F := Ideal)) V))) (Proc.devRef .tc main_arg12) = V (Proc.devRef .tc main_arg12) := (after_opsL1_keep (StableHlo.after (opsL0 (F := Ideal)) (StableHlo.after (opsPre (F := Ideal)) V)) (by decide)).trans a1_12
  have a2_13 : (StableHlo.after (opsL1 (F := Ideal)) (StableHlo.after (opsL0 (F := Ideal)) (StableHlo.after (opsPre (F := Ideal)) V))) (Proc.devRef .tc main_arg13) = V (Proc.devRef .tc main_arg13) := (after_opsL1_keep (StableHlo.after (opsL0 (F := Ideal)) (StableHlo.after (opsPre (F := Ideal)) V)) (by decide)).trans a1_13
  have a2_14 : (StableHlo.after (opsL1 (F := Ideal)) (StableHlo.after (opsL0 (F := Ideal)) (StableHlo.after (opsPre (F := Ideal)) V))) (Proc.devRef .tc main_arg14) = V (Proc.devRef .tc main_arg14) := (after_opsL1_keep (StableHlo.after (opsL0 (F := Ideal)) (StableHlo.after (opsPre (F := Ideal)) V)) (by decide)).trans a1_14
  have a2_15 : (StableHlo.after (opsL1 (F := Ideal)) (StableHlo.after (opsL0 (F := Ideal)) (StableHlo.after (opsPre (F := Ideal)) V))) (Proc.devRef .tc main_arg15) = V (Proc.devRef .tc main_arg15) := (after_opsL1_keep (StableHlo.after (opsL0 (F := Ideal)) (StableHlo.after (opsPre (F := Ideal)) V)) (by decide)).trans a1_15
  have a2_16 : (StableHlo.after (opsL1 (F := Ideal)) (StableHlo.after (opsL0 (F := Ideal)) (StableHlo.after (opsPre (F := Ideal)) V))) (Proc.devRef .tc main_arg16) = V (Proc.devRef .tc main_arg16) := (after_opsL1_keep (StableHlo.after (opsL0 (F := Ideal)) (StableHlo.after (opsPre (F := Ideal)) V)) (by decide)).trans a1_16
  have a2_17 : (StableHlo.after (opsL1 (F := Ideal)) (StableHlo.after (opsL0 (F := Ideal)) (StableHlo.after (opsPre (F := Ideal)) V))) (Proc.devRef .tc main_arg17) = V (Proc.devRef .tc main_arg17) := (after_opsL1_keep (StableHlo.after (opsL0 (F := Ideal)) (StableHlo.after (opsPre (F := Ideal)) V)) (by decide)).trans a1_17
  have a2_18 : (StableHlo.after (opsL1 (F := Ideal)) (StableHlo.after (opsL0 (F := Ideal)) (StableHlo.after (opsPre (F := Ideal)) V))) (Proc.devRef .tc main_arg18) = V (Proc.devRef .tc main_arg18) := (after_opsL1_keep (StableHlo.after (opsL0 (F := Ideal)) (StableHlo.after (opsPre (F := Ideal)) V)) (by decide)).trans a1_18
  have e2 : (StableHlo.after (opsL1 (F := Ideal)) (StableHlo.after (opsL0 (F := Ideal)) (StableHlo.after (opsPre (F := Ideal)) V))) (Proc.devRef .tc main_v169) = refH2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
    rw [after_opsL1 (StableHlo.after (opsL0 (F := Ideal)) (StableHlo.after (opsPre (F := Ideal)) V)), e1, s1, d1, a1_6, a1_7, a1_8, a1_9, a1_10, a1_11, a1_12, a1_13, a1_14]
    rfl
  have s3 : (StableHlo.after (opsL2 (F := Ideal)) (StableHlo.after (opsL1 (F := Ideal)) (StableHlo.after (opsL0 (F := Ideal)) (StableHlo.after (opsPre (F := Ideal)) V)))) (Proc.devRef .tc main_v1) = refSrc (V (Proc.devRef .tc main_arg2)) := (after_opsL2_keep (StableHlo.after (opsL1 (F := Ideal)) (StableHlo.after (opsL0 (F := Ideal)) (StableHlo.after (opsPre (F := Ideal)) V))) (by decide)).trans s2
  have d3 : (StableHlo.after (opsL2 (F := Ideal)) (StableHlo.after (opsL1 (F := Ideal)) (StableHlo.after (opsL0 (F := Ideal)) (StableHlo.after (opsPre (F := Ideal)) V)))) (Proc.devRef .tc main_v3) = refDst (V (Proc.devRef .tc main_arg2)) := (after_opsL2_keep (StableHlo.after (opsL1 (F := Ideal)) (StableHlo.after (opsL0 (F := Ideal)) (StableHlo.after (opsPre (F := Ideal)) V))) (by decide)).trans d2
  have a3_3 : (StableHlo.after (opsL2 (F := Ideal)) (StableHlo.after (opsL1 (F := Ideal)) (StableHlo.after (opsL0 (F := Ideal)) (StableHlo.after (opsPre (F := Ideal)) V)))) (Proc.devRef .tc main_arg3) = V (Proc.devRef .tc main_arg3) := (after_opsL2_keep (StableHlo.after (opsL1 (F := Ideal)) (StableHlo.after (opsL0 (F := Ideal)) (StableHlo.after (opsPre (F := Ideal)) V))) (by decide)).trans a2_3
  have a3_6 : (StableHlo.after (opsL2 (F := Ideal)) (StableHlo.after (opsL1 (F := Ideal)) (StableHlo.after (opsL0 (F := Ideal)) (StableHlo.after (opsPre (F := Ideal)) V)))) (Proc.devRef .tc main_arg6) = V (Proc.devRef .tc main_arg6) := (after_opsL2_keep (StableHlo.after (opsL1 (F := Ideal)) (StableHlo.after (opsL0 (F := Ideal)) (StableHlo.after (opsPre (F := Ideal)) V))) (by decide)).trans a2_6
  have a3_7 : (StableHlo.after (opsL2 (F := Ideal)) (StableHlo.after (opsL1 (F := Ideal)) (StableHlo.after (opsL0 (F := Ideal)) (StableHlo.after (opsPre (F := Ideal)) V)))) (Proc.devRef .tc main_arg7) = V (Proc.devRef .tc main_arg7) := (after_opsL2_keep (StableHlo.after (opsL1 (F := Ideal)) (StableHlo.after (opsL0 (F := Ideal)) (StableHlo.after (opsPre (F := Ideal)) V))) (by decide)).trans a2_7
  have a3_8 : (StableHlo.after (opsL2 (F := Ideal)) (StableHlo.after (opsL1 (F := Ideal)) (StableHlo.after (opsL0 (F := Ideal)) (StableHlo.after (opsPre (F := Ideal)) V)))) (Proc.devRef .tc main_arg8) = V (Proc.devRef .tc main_arg8) := (after_opsL2_keep (StableHlo.after (opsL1 (F := Ideal)) (StableHlo.after (opsL0 (F := Ideal)) (StableHlo.after (opsPre (F := Ideal)) V))) (by decide)).trans a2_8
  have a3_9 : (StableHlo.after (opsL2 (F := Ideal)) (StableHlo.after (opsL1 (F := Ideal)) (StableHlo.after (opsL0 (F := Ideal)) (StableHlo.after (opsPre (F := Ideal)) V)))) (Proc.devRef .tc main_arg9) = V (Proc.devRef .tc main_arg9) := (after_opsL2_keep (StableHlo.after (opsL1 (F := Ideal)) (StableHlo.after (opsL0 (F := Ideal)) (StableHlo.after (opsPre (F := Ideal)) V))) (by decide)).trans a2_9
  have a3_10 : (StableHlo.after (opsL2 (F := Ideal)) (StableHlo.after (opsL1 (F := Ideal)) (StableHlo.after (opsL0 (F := Ideal)) (StableHlo.after (opsPre (F := Ideal)) V)))) (Proc.devRef .tc main_arg10) = V (Proc.devRef .tc main_arg10) := (after_opsL2_keep (StableHlo.after (opsL1 (F := Ideal)) (StableHlo.after (opsL0 (F := Ideal)) (StableHlo.after (opsPre (F := Ideal)) V))) (by decide)).trans a2_10
  have a3_11 : (StableHlo.after (opsL2 (F := Ideal)) (StableHlo.after (opsL1 (F := Ideal)) (StableHlo.after (opsL0 (F := Ideal)) (StableHlo.after (opsPre (F := Ideal)) V)))) (Proc.devRef .tc main_arg11) = V (Proc.devRef .tc main_arg11) := (after_opsL2_keep (StableHlo.after (opsL1 (F := Ideal)) (StableHlo.after (opsL0 (F := Ideal)) (StableHlo.after (opsPre (F := Ideal)) V))) (by decide)).trans a2_11
  have a3_12 : (StableHlo.after (opsL2 (F := Ideal)) (StableHlo.after (opsL1 (F := Ideal)) (StableHlo.after (opsL0 (F := Ideal)) (StableHlo.after (opsPre (F := Ideal)) V)))) (Proc.devRef .tc main_arg12) = V (Proc.devRef .tc main_arg12) := (after_opsL2_keep (StableHlo.after (opsL1 (F := Ideal)) (StableHlo.after (opsL0 (F := Ideal)) (StableHlo.after (opsPre (F := Ideal)) V))) (by decide)).trans a2_12
  have a3_13 : (StableHlo.after (opsL2 (F := Ideal)) (StableHlo.after (opsL1 (F := Ideal)) (StableHlo.after (opsL0 (F := Ideal)) (StableHlo.after (opsPre (F := Ideal)) V)))) (Proc.devRef .tc main_arg13) = V (Proc.devRef .tc main_arg13) := (after_opsL2_keep (StableHlo.after (opsL1 (F := Ideal)) (StableHlo.after (opsL0 (F := Ideal)) (StableHlo.after (opsPre (F := Ideal)) V))) (by decide)).trans a2_13
  have a3_14 : (StableHlo.after (opsL2 (F := Ideal)) (StableHlo.after (opsL1 (F := Ideal)) (StableHlo.after (opsL0 (F := Ideal)) (StableHlo.after (opsPre (F := Ideal)) V)))) (Proc.devRef .tc main_arg14) = V (Proc.devRef .tc main_arg14) := (after_opsL2_keep (StableHlo.after (opsL1 (F := Ideal)) (StableHlo.after (opsL0 (F := Ideal)) (StableHlo.after (opsPre (F := Ideal)) V))) (by decide)).trans a2_14
  have a3_15 : (StableHlo.after (opsL2 (F := Ideal)) (StableHlo.after (opsL1 (F := Ideal)) (StableHlo.after (opsL0 (F := Ideal)) (StableHlo.after (opsPre (F := Ideal)) V)))) (Proc.devRef .tc main_arg15) = V (Proc.devRef .tc main_arg15) := (after_opsL2_keep (StableHlo.after (opsL1 (F := Ideal)) (StableHlo.after (opsL0 (F := Ideal)) (StableHlo.after (opsPre (F := Ideal)) V))) (by decide)).trans a2_15
  have a3_16 : (StableHlo.after (opsL2 (F := Ideal)) (StableHlo.after (opsL1 (F := Ideal)) (StableHlo.after (opsL0 (F := Ideal)) (StableHlo.after (opsPre (F := Ideal)) V)))) (Proc.devRef .tc main_arg16) = V (Proc.devRef .tc main_arg16) := (after_opsL2_keep (StableHlo.after (opsL1 (F := Ideal)) (StableHlo.after (opsL0 (F := Ideal)) (StableHlo.after (opsPre (F := Ideal)) V))) (by decide)).trans a2_16
  have a3_17 : (StableHlo.after (opsL2 (F := Ideal)) (StableHlo.after (opsL1 (F := Ideal)) (StableHlo.after (opsL0 (F := Ideal)) (StableHlo.after (opsPre (F := Ideal)) V)))) (Proc.devRef .tc main_arg17) = V (Proc.devRef .tc main_arg17) := (after_opsL2_keep (StableHlo.after (opsL1 (F := Ideal)) (StableHlo.after (opsL0 (F := Ideal)) (StableHlo.after (opsPre (F := Ideal)) V))) (by decide)).trans a2_17
  have a3_18 : (StableHlo.after (opsL2 (F := Ideal)) (StableHlo.after (opsL1 (F := Ideal)) (StableHlo.after (opsL0 (F := Ideal)) (StableHlo.after (opsPre (F := Ideal)) V)))) (Proc.devRef .tc main_arg18) = V (Proc.devRef .tc main_arg18) := (after_opsL2_keep (StableHlo.after (opsL1 (F := Ideal)) (StableHlo.after (opsL0 (F := Ideal)) (StableHlo.after (opsPre (F := Ideal)) V))) (by decide)).trans a2_18
  have e3 : (StableHlo.after (opsL2 (F := Ideal)) (StableHlo.after (opsL1 (F := Ideal)) (StableHlo.after (opsL0 (F := Ideal)) (StableHlo.after (opsPre (F := Ideal)) V)))) (Proc.devRef .tc main_v249) = refH3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
    rw [after_opsL2 (StableHlo.after (opsL1 (F := Ideal)) (StableHlo.after (opsL0 (F := Ideal)) (StableHlo.after (opsPre (F := Ideal)) V))), e2, s2, d2, a2_6, a2_7, a2_8, a2_9, a2_10, a2_11, a2_12, a2_13, a2_14]
    rfl
  have s4 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_v1) = refSrc (V (Proc.devRef .tc main_arg2)) := (after_opsL3_keep (StableHlo.after (opsL2 (F := Ideal)) (StableHlo.after (opsL1 (F := Ideal)) (StableHlo.after (opsL0 (F := Ideal)) (StableHlo.after (opsPre (F := Ideal)) V)))) (by decide)).trans s3
  have d4 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_v3) = refDst (V (Proc.devRef .tc main_arg2)) := (after_opsL3_keep (StableHlo.after (opsL2 (F := Ideal)) (StableHlo.after (opsL1 (F := Ideal)) (StableHlo.after (opsL0 (F := Ideal)) (StableHlo.after (opsPre (F := Ideal)) V)))) (by decide)).trans d3
  have a4_3 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg3) = V (Proc.devRef .tc main_arg3) := (after_opsL3_keep (StableHlo.after (opsL2 (F := Ideal)) (StableHlo.after (opsL1 (F := Ideal)) (StableHlo.after (opsL0 (F := Ideal)) (StableHlo.after (opsPre (F := Ideal)) V)))) (by decide)).trans a3_3
  have a4_6 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg6) = V (Proc.devRef .tc main_arg6) := (after_opsL3_keep (StableHlo.after (opsL2 (F := Ideal)) (StableHlo.after (opsL1 (F := Ideal)) (StableHlo.after (opsL0 (F := Ideal)) (StableHlo.after (opsPre (F := Ideal)) V)))) (by decide)).trans a3_6
  have a4_7 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg7) = V (Proc.devRef .tc main_arg7) := (after_opsL3_keep (StableHlo.after (opsL2 (F := Ideal)) (StableHlo.after (opsL1 (F := Ideal)) (StableHlo.after (opsL0 (F := Ideal)) (StableHlo.after (opsPre (F := Ideal)) V)))) (by decide)).trans a3_7
  have a4_8 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg8) = V (Proc.devRef .tc main_arg8) := (after_opsL3_keep (StableHlo.after (opsL2 (F := Ideal)) (StableHlo.after (opsL1 (F := Ideal)) (StableHlo.after (opsL0 (F := Ideal)) (StableHlo.after (opsPre (F := Ideal)) V)))) (by decide)).trans a3_8
  have a4_9 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg9) = V (Proc.devRef .tc main_arg9) := (after_opsL3_keep (StableHlo.after (opsL2 (F := Ideal)) (StableHlo.after (opsL1 (F := Ideal)) (StableHlo.after (opsL0 (F := Ideal)) (StableHlo.after (opsPre (F := Ideal)) V)))) (by decide)).trans a3_9
  have a4_10 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg10) = V (Proc.devRef .tc main_arg10) := (after_opsL3_keep (StableHlo.after (opsL2 (F := Ideal)) (StableHlo.after (opsL1 (F := Ideal)) (StableHlo.after (opsL0 (F := Ideal)) (StableHlo.after (opsPre (F := Ideal)) V)))) (by decide)).trans a3_10
  have a4_11 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg11) = V (Proc.devRef .tc main_arg11) := (after_opsL3_keep (StableHlo.after (opsL2 (F := Ideal)) (StableHlo.after (opsL1 (F := Ideal)) (StableHlo.after (opsL0 (F := Ideal)) (StableHlo.after (opsPre (F := Ideal)) V)))) (by decide)).trans a3_11
  have a4_12 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg12) = V (Proc.devRef .tc main_arg12) := (after_opsL3_keep (StableHlo.after (opsL2 (F := Ideal)) (StableHlo.after (opsL1 (F := Ideal)) (StableHlo.after (opsL0 (F := Ideal)) (StableHlo.after (opsPre (F := Ideal)) V)))) (by decide)).trans a3_12
  have a4_13 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg13) = V (Proc.devRef .tc main_arg13) := (after_opsL3_keep (StableHlo.after (opsL2 (F := Ideal)) (StableHlo.after (opsL1 (F := Ideal)) (StableHlo.after (opsL0 (F := Ideal)) (StableHlo.after (opsPre (F := Ideal)) V)))) (by decide)).trans a3_13
  have a4_14 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg14) = V (Proc.devRef .tc main_arg14) := (after_opsL3_keep (StableHlo.after (opsL2 (F := Ideal)) (StableHlo.after (opsL1 (F := Ideal)) (StableHlo.after (opsL0 (F := Ideal)) (StableHlo.after (opsPre (F := Ideal)) V)))) (by decide)).trans a3_14
  have a4_15 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg15) = V (Proc.devRef .tc main_arg15) := (after_opsL3_keep (StableHlo.after (opsL2 (F := Ideal)) (StableHlo.after (opsL1 (F := Ideal)) (StableHlo.after (opsL0 (F := Ideal)) (StableHlo.after (opsPre (F := Ideal)) V)))) (by decide)).trans a3_15
  have a4_16 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg16) = V (Proc.devRef .tc main_arg16) := (after_opsL3_keep (StableHlo.after (opsL2 (F := Ideal)) (StableHlo.after (opsL1 (F := Ideal)) (StableHlo.after (opsL0 (F := Ideal)) (StableHlo.after (opsPre (F := Ideal)) V)))) (by decide)).trans a3_16
  have a4_17 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg17) = V (Proc.devRef .tc main_arg17) := (after_opsL3_keep (StableHlo.after (opsL2 (F := Ideal)) (StableHlo.after (opsL1 (F := Ideal)) (StableHlo.after (opsL0 (F := Ideal)) (StableHlo.after (opsPre (F := Ideal)) V)))) (by decide)).trans a3_17
  have a4_18 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_arg18) = V (Proc.devRef .tc main_arg18) := (after_opsL3_keep (StableHlo.after (opsL2 (F := Ideal)) (StableHlo.after (opsL1 (F := Ideal)) (StableHlo.after (opsL0 (F := Ideal)) (StableHlo.after (opsPre (F := Ideal)) V)))) (by decide)).trans a3_18
  have e4 : (StableHlo.after (opsL3 (F := Ideal)) (StableHlo.after (opsL2 (F := Ideal)) (StableHlo.after (opsL1 (F := Ideal)) (StableHlo.after (opsL0 (F := Ideal)) (StableHlo.after (opsPre (F := Ideal)) V))))) (Proc.devRef .tc main_v329) = refH4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
    rw [after_opsL3 (StableHlo.after (opsL2 (F := Ideal)) (StableHlo.after (opsL1 (F := Ideal)) (StableHlo.after (opsL0 (F := Ideal)) (StableHlo.after (opsPre (F := Ideal)) V)))), e3, s3, d3, a3_6, a3_7, a3_8, a3_9, a3_10, a3_11, a3_12, a3_13, a3_14]
    rfl
  have cut : StableHlo.after (ops (F := Ideal)) V
      = StableHlo.after (opsPost (F := Ideal)) (StableHlo.after (opsL3 (F := Ideal)) (StableHlo.after (opsL2 (F := Ideal)) (StableHlo.after (opsL1 (F := Ideal)) (StableHlo.after (opsL0 (F := Ideal)) (StableHlo.after (opsPre (F := Ideal)) V))))) := by
    show StableHlo.after (((((opsPre ++ opsL0) ++ opsL1) ++ opsL2) ++ opsL3) ++ opsPost) V = _
    rw [StableHlo.after_append ((((opsPre ++ opsL0) ++ opsL1) ++ opsL2) ++ opsL3) opsPost V,
      StableHlo.after_append (((opsPre ++ opsL0) ++ opsL1) ++ opsL2) opsL3 V,
      StableHlo.after_append ((opsPre ++ opsL0) ++ opsL1) opsL2 V,
      StableHlo.after_append (opsPre ++ opsL0) opsL1 V,
      StableHlo.after_append opsPre opsL0 V]
  rw [congrFun cut (Proc.devRef .tc main_v350), after_opsPost (StableHlo.after (opsL3 (F := Ideal)) (StableHlo.after (opsL2 (F := Ideal)) (StableHlo.after (opsL1 (F := Ideal)) (StableHlo.after (opsL0 (F := Ideal)) (StableHlo.after (opsPre (F := Ideal)) V))))), e4, a4_3, a4_15, a4_16, a4_17, a4_18]
  rfl

end Cert.ReferenceIdeal.RefVal

end
-- ==== Proof.RefVal.Zero.lean ====
/-
  The program's second result, the one-entry zero array: the embedding stage writes it and no later stage touches
  its buffer, so after the whole list of operations the buffer still holds it.
-/
import proofs.«140206_j52750788330061_1_alg».proof.Proof.RefVal.Pre
import proofs.«140206_j52750788330061_1_alg».proof.Proof.RefVal.Keep
import Idealize.ShloMosaic.Lib.Pipeline.Frame

noncomputable section

namespace Cert.ReferenceIdeal.RefVal

open Cert.ReferenceIdeal Idealize.ShloMosaic Idealize.ShloMosaic.TcCoe Idealize.SL.Sem Idealize.ShloMosaic.StableHlo
open Cert.ReferenceIdeal.RefRun

/-- The contents after the whole list are the contents after the six stages in order. -/
theorem after_ops_stages (V : Valuation τ sig (Elt Ideal)) :
    StableHlo.after (ops (F := Ideal)) V
      = StableHlo.after (opsPost (F := Ideal)) (StableHlo.after (opsL3 (F := Ideal)) (StableHlo.after (opsL2 (F := Ideal)) (StableHlo.after (opsL1 (F := Ideal)) (StableHlo.after (opsL0 (F := Ideal)) (StableHlo.after (opsPre (F := Ideal)) V))))) := by
  show StableHlo.after (((((opsPre ++ opsL0) ++ opsL1) ++ opsL2) ++ opsL3) ++ opsPost) V = _
  rw [StableHlo.after_append ((((opsPre ++ opsL0) ++ opsL1) ++ opsL2) ++ opsL3) opsPost V,
    StableHlo.after_append (((opsPre ++ opsL0) ++ opsL1) ++ opsL2) opsL3 V,
    StableHlo.after_append ((opsPre ++ opsL0) ++ opsL1) opsL2 V,
    StableHlo.after_append (opsPre ++ opsL0) opsL1 V,
    StableHlo.after_append opsPre opsL0 V]

/-- After the whole list the zero result's buffer holds the one-entry zero array. -/
theorem after_ops_zero (V : Valuation τ sig (Elt Ideal)) :
    StableHlo.after (ops (F := Ideal)) V (Proc.devRef .tc main_v9) = refZero1 := by
  rw [congrFun (after_ops_stages V) (Proc.devRef .tc main_v9), after_opsPost_keep _ (by decide),
    after_opsL3_keep _ (by decide), after_opsL2_keep _ (by decide), after_opsL1_keep _ (by decide),
    after_opsL0_keep _ (by decide), after_opsPre_zero]

end Cert.ReferenceIdeal.RefVal

end
-- ==== Proof.Final.lean ====
/-
  The top of the certificate's fifth claim: the two programs, run from memories that agree on the nineteen arguments,
  end with equal results and unchanged arguments.

  The one program runs fourteen kernel regions among host stretches; what its stages leave is named by the fold of
  its buffer contents, and read as mathematics it is: the embedded features, then four times the layer by column
  statistics, then the classifier's scores over the per-graph mean, and a one-entry zero array (`KernelStages`: the
  interface this file takes from the modules that read the stages). The other program is one line of host operations
  whose result is the network function of its arguments: the embedded features, four times the layer by centred
  statistics, the same classifier. The precondition makes every float argument's entries real numbers; on real data
  the two layer transcriptions agree and stay real (the mathematics is in the module of the layer step); the
  neighbour sum, the per-graph mean and the classifier are the same functions on both sides. So the result arrays
  are equal, and each program leaves its arguments as they were.
-/
import proofs.«140206_j52750788330061_1_alg».proof.Defs
import proofs.«140206_j52750788330061_1_alg».proof.Proof.FiniteIn
import proofs.«140206_j52750788330061_1_alg».proof.Proof.FinalCore
import proofs.«140206_j52750788330061_1_alg».proof.Proof.KI.Frame
import proofs.«140206_j52750788330061_1_alg».proof.Proof.RefRun
import proofs.«140206_j52750788330061_1_alg».proof.Proof.RefRun.Frame
import proofs.«140206_j52750788330061_1_alg».proof.Proof.RefVal.Pre
import proofs.«140206_j52750788330061_1_alg».proof.Proof.RefVal.Post
import proofs.«140206_j52750788330061_1_alg».proof.Proof.RefVal.LayerAt
import proofs.«140206_j52750788330061_1_alg».proof.Proof.RefVal.Whole
import proofs.«140206_j52750788330061_1_alg».proof.Proof.RefVal.Zero
import Idealize.ShloMosaic.Lib.ValueIdx

noncomputable section

namespace Cert.Final

open Idealize.ShloMosaic Idealize.ShloMosaic.ValueIdx Idealize.ShloMosaic.TcCoe Idealize.SL.Sem
open Cert.Spec Cert.ReferenceIdeal Cert.ReferenceIdeal.RefVal

/-- What the one program's stages leave, read as mathematics over its launch memory: the features after the
    embedding, after each of the four layers (by column statistics with the reciprocal row count `inv`), the
    classifier's scores, and the one-entry zero array. -/
structure KernelStages (m : (ℓ : Loc Cert.KernelIdeal.nD Cert.KernelIdeal.τ Cert.KernelIdeal.sig) → Buf (Elt Ideal) ℓ) (c : Dev Cert.KernelIdeal.nD) (inv : EReal) : Prop where
  /-- the features after the embedding region -/
  embed : ∀ (i : Fin 50000) (j : Fin 64), (Cert.KernelIdeal.Gen.X2 m c Cert.KernelIdeal.main_v2 : FVec Ideal Cert.ReferenceIdeal.S50000x64 .f32) (ix2 i j) = Cert.ReferenceIdeal.RefVal.refEmbed (m ((c.tc : Thread Cert.KernelIdeal.nD Cert.KernelIdeal.τ).loc Cert.KernelIdeal.main_arg0) : FVec Ideal Cert.ReferenceIdeal.S50000x3 .f32) (m ((c.tc : Thread Cert.KernelIdeal.nD Cert.KernelIdeal.τ).loc Cert.KernelIdeal.main_arg1) : FVec Ideal Cert.ReferenceIdeal.S50000x3 .f32) (m ((c.tc : Thread Cert.KernelIdeal.nD Cert.KernelIdeal.τ).loc Cert.KernelIdeal.main_arg4) : FVec Ideal Cert.ReferenceIdeal.S6x64 .f32) (m ((c.tc : Thread Cert.KernelIdeal.nD Cert.KernelIdeal.τ).loc Cert.KernelIdeal.main_arg5) : FVec Ideal Cert.ReferenceIdeal.S64 .f32) (ix2 i j)
  /-- the features after layer 0's three regions -/
  layer0 : ∀ (i : Fin 50000) (j : Fin 64), (Cert.KernelIdeal.Gen.X8 m c Cert.KernelIdeal.main_v46 : FVec Ideal Cert.ReferenceIdeal.S50000x64 .f32) (ix2 i j) = layerStats inv Cert.ReferenceIdeal.RefVal.EPS (fun _ => 1 + (m ((c.tc : Thread Cert.KernelIdeal.nD Cert.KernelIdeal.τ).loc Cert.KernelIdeal.main_arg6) : FVec Ideal Cert.ReferenceIdeal.S4 .f32) (ix1 (0 : Fin 4)))
        (fun i j => (Cert.KernelIdeal.Gen.X2 m c Cert.KernelIdeal.main_v2 : FVec Ideal Cert.ReferenceIdeal.S50000x64 .f32) (ix2 i j)) (fun i j => Cert.Agg.aggOf (Cert.KernelIdeal.Gen.X2 m c Cert.KernelIdeal.main_v2 : FVec Ideal Cert.ReferenceIdeal.S50000x64 .f32) (m ((c.tc : Thread Cert.KernelIdeal.nD Cert.KernelIdeal.τ).loc Cert.KernelIdeal.main_arg2) : IVec Cert.ReferenceIdeal.S2x800000 32) (ix2 i j))
        (fun t j => (m ((c.tc : Thread Cert.KernelIdeal.nD Cert.KernelIdeal.τ).loc Cert.KernelIdeal.main_arg7) : FVec Ideal Cert.ReferenceIdeal.S4x64x64 .f32) (ix3 (0 : Fin 4) t j)) (fun j => (m ((c.tc : Thread Cert.KernelIdeal.nD Cert.KernelIdeal.τ).loc Cert.KernelIdeal.main_arg8) : FVec Ideal Cert.ReferenceIdeal.S4x64 .f32) (ix2 (0 : Fin 4) j))
        (fun j => (m ((c.tc : Thread Cert.KernelIdeal.nD Cert.KernelIdeal.τ).loc Cert.KernelIdeal.main_arg9) : FVec Ideal Cert.ReferenceIdeal.S4x64 .f32) (ix2 (0 : Fin 4) j)) (fun j => (m ((c.tc : Thread Cert.KernelIdeal.nD Cert.KernelIdeal.τ).loc Cert.KernelIdeal.main_arg10) : FVec Ideal Cert.ReferenceIdeal.S4x64 .f32) (ix2 (0 : Fin 4) j))
        (fun t j => (m ((c.tc : Thread Cert.KernelIdeal.nD Cert.KernelIdeal.τ).loc Cert.KernelIdeal.main_arg11) : FVec Ideal Cert.ReferenceIdeal.S4x64x64 .f32) (ix3 (0 : Fin 4) t j)) (fun j => (m ((c.tc : Thread Cert.KernelIdeal.nD Cert.KernelIdeal.τ).loc Cert.KernelIdeal.main_arg12) : FVec Ideal Cert.ReferenceIdeal.S4x64 .f32) (ix2 (0 : Fin 4) j))
        (fun j => (m ((c.tc : Thread Cert.KernelIdeal.nD Cert.KernelIdeal.τ).loc Cert.KernelIdeal.main_arg13) : FVec Ideal Cert.ReferenceIdeal.S4x64 .f32) (ix2 (0 : Fin 4) j)) (fun j => (m ((c.tc : Thread Cert.KernelIdeal.nD Cert.KernelIdeal.τ).loc Cert.KernelIdeal.main_arg14) : FVec Ideal Cert.ReferenceIdeal.S4x64 .f32) (ix2 (0 : Fin 4) j)) i j
  /-- the features after layer 1's three regions -/
  layer1 : ∀ (i : Fin 50000) (j : Fin 64), (Cert.KernelIdeal.Gen.X14 m c Cert.KernelIdeal.main_v85 : FVec Ideal Cert.ReferenceIdeal.S50000x64 .f32) (ix2 i j) = layerStats inv Cert.ReferenceIdeal.RefVal.EPS (fun _ => 1 + (m ((c.tc : Thread Cert.KernelIdeal.nD Cert.KernelIdeal.τ).loc Cert.KernelIdeal.main_arg6) : FVec Ideal Cert.ReferenceIdeal.S4 .f32) (ix1 (1 : Fin 4)))
        (fun i j => (Cert.KernelIdeal.Gen.X8 m c Cert.KernelIdeal.main_v46 : FVec Ideal Cert.ReferenceIdeal.S50000x64 .f32) (ix2 i j)) (fun i j => Cert.Agg.aggOf (Cert.KernelIdeal.Gen.X8 m c Cert.KernelIdeal.main_v46 : FVec Ideal Cert.ReferenceIdeal.S50000x64 .f32) (m ((c.tc : Thread Cert.KernelIdeal.nD Cert.KernelIdeal.τ).loc Cert.KernelIdeal.main_arg2) : IVec Cert.ReferenceIdeal.S2x800000 32) (ix2 i j))
        (fun t j => (m ((c.tc : Thread Cert.KernelIdeal.nD Cert.KernelIdeal.τ).loc Cert.KernelIdeal.main_arg7) : FVec Ideal Cert.ReferenceIdeal.S4x64x64 .f32) (ix3 (1 : Fin 4) t j)) (fun j => (m ((c.tc : Thread Cert.KernelIdeal.nD Cert.KernelIdeal.τ).loc Cert.KernelIdeal.main_arg8) : FVec Ideal Cert.ReferenceIdeal.S4x64 .f32) (ix2 (1 : Fin 4) j))
        (fun j => (m ((c.tc : Thread Cert.KernelIdeal.nD Cert.KernelIdeal.τ).loc Cert.KernelIdeal.main_arg9) : FVec Ideal Cert.ReferenceIdeal.S4x64 .f32) (ix2 (1 : Fin 4) j)) (fun j => (m ((c.tc : Thread Cert.KernelIdeal.nD Cert.KernelIdeal.τ).loc Cert.KernelIdeal.main_arg10) : FVec Ideal Cert.ReferenceIdeal.S4x64 .f32) (ix2 (1 : Fin 4) j))
        (fun t j => (m ((c.tc : Thread Cert.KernelIdeal.nD Cert.KernelIdeal.τ).loc Cert.KernelIdeal.main_arg11) : FVec Ideal Cert.ReferenceIdeal.S4x64x64 .f32) (ix3 (1 : Fin 4) t j)) (fun j => (m ((c.tc : Thread Cert.KernelIdeal.nD Cert.KernelIdeal.τ).loc Cert.KernelIdeal.main_arg12) : FVec Ideal Cert.ReferenceIdeal.S4x64 .f32) (ix2 (1 : Fin 4) j))
        (fun j => (m ((c.tc : Thread Cert.KernelIdeal.nD Cert.KernelIdeal.τ).loc Cert.KernelIdeal.main_arg13) : FVec Ideal Cert.ReferenceIdeal.S4x64 .f32) (ix2 (1 : Fin 4) j)) (fun j => (m ((c.tc : Thread Cert.KernelIdeal.nD Cert.KernelIdeal.τ).loc Cert.KernelIdeal.main_arg14) : FVec Ideal Cert.ReferenceIdeal.S4x64 .f32) (ix2 (1 : Fin 4) j)) i j
  /-- the features after layer 2's three regions -/
  layer2 : ∀ (i : Fin 50000) (j : Fin 64), (Cert.KernelIdeal.Gen.X20 m c Cert.KernelIdeal.main_v124 : FVec Ideal Cert.ReferenceIdeal.S50000x64 .f32) (ix2 i j) = layerStats inv Cert.ReferenceIdeal.RefVal.EPS (fun _ => 1 + (m ((c.tc : Thread Cert.KernelIdeal.nD Cert.KernelIdeal.τ).loc Cert.KernelIdeal.main_arg6) : FVec Ideal Cert.ReferenceIdeal.S4 .f32) (ix1 (2 : Fin 4)))
        (fun i j => (Cert.KernelIdeal.Gen.X14 m c Cert.KernelIdeal.main_v85 : FVec Ideal Cert.ReferenceIdeal.S50000x64 .f32) (ix2 i j)) (fun i j => Cert.Agg.aggOf (Cert.KernelIdeal.Gen.X14 m c Cert.KernelIdeal.main_v85 : FVec Ideal Cert.ReferenceIdeal.S50000x64 .f32) (m ((c.tc : Thread Cert.KernelIdeal.nD Cert.KernelIdeal.τ).loc Cert.KernelIdeal.main_arg2) : IVec Cert.ReferenceIdeal.S2x800000 32) (ix2 i j))
        (fun t j => (m ((c.tc : Thread Cert.KernelIdeal.nD Cert.KernelIdeal.τ).loc Cert.KernelIdeal.main_arg7) : FVec Ideal Cert.ReferenceIdeal.S4x64x64 .f32) (ix3 (2 : Fin 4) t j)) (fun j => (m ((c.tc : Thread Cert.KernelIdeal.nD Cert.KernelIdeal.τ).loc Cert.KernelIdeal.main_arg8) : FVec Ideal Cert.ReferenceIdeal.S4x64 .f32) (ix2 (2 : Fin 4) j))
        (fun j => (m ((c.tc : Thread Cert.KernelIdeal.nD Cert.KernelIdeal.τ).loc Cert.KernelIdeal.main_arg9) : FVec Ideal Cert.ReferenceIdeal.S4x64 .f32) (ix2 (2 : Fin 4) j)) (fun j => (m ((c.tc : Thread Cert.KernelIdeal.nD Cert.KernelIdeal.τ).loc Cert.KernelIdeal.main_arg10) : FVec Ideal Cert.ReferenceIdeal.S4x64 .f32) (ix2 (2 : Fin 4) j))
        (fun t j => (m ((c.tc : Thread Cert.KernelIdeal.nD Cert.KernelIdeal.τ).loc Cert.KernelIdeal.main_arg11) : FVec Ideal Cert.ReferenceIdeal.S4x64x64 .f32) (ix3 (2 : Fin 4) t j)) (fun j => (m ((c.tc : Thread Cert.KernelIdeal.nD Cert.KernelIdeal.τ).loc Cert.KernelIdeal.main_arg12) : FVec Ideal Cert.ReferenceIdeal.S4x64 .f32) (ix2 (2 : Fin 4) j))
        (fun j => (m ((c.tc : Thread Cert.KernelIdeal.nD Cert.KernelIdeal.τ).loc Cert.KernelIdeal.main_arg13) : FVec Ideal Cert.ReferenceIdeal.S4x64 .f32) (ix2 (2 : Fin 4) j)) (fun j => (m ((c.tc : Thread Cert.KernelIdeal.nD Cert.KernelIdeal.τ).loc Cert.KernelIdeal.main_arg14) : FVec Ideal Cert.ReferenceIdeal.S4x64 .f32) (ix2 (2 : Fin 4) j)) i j
  /-- the features after layer 3's three regions -/
  layer3 : ∀ (i : Fin 50000) (j : Fin 64), (Cert.KernelIdeal.Gen.X26 m c Cert.KernelIdeal.main_v163 : FVec Ideal Cert.ReferenceIdeal.S50000x64 .f32) (ix2 i j) = layerStats inv Cert.ReferenceIdeal.RefVal.EPS (fun _ => 1 + (m ((c.tc : Thread Cert.KernelIdeal.nD Cert.KernelIdeal.τ).loc Cert.KernelIdeal.main_arg6) : FVec Ideal Cert.ReferenceIdeal.S4 .f32) (ix1 (3 : Fin 4)))
        (fun i j => (Cert.KernelIdeal.Gen.X20 m c Cert.KernelIdeal.main_v124 : FVec Ideal Cert.ReferenceIdeal.S50000x64 .f32) (ix2 i j)) (fun i j => Cert.Agg.aggOf (Cert.KernelIdeal.Gen.X20 m c Cert.KernelIdeal.main_v124 : FVec Ideal Cert.ReferenceIdeal.S50000x64 .f32) (m ((c.tc : Thread Cert.KernelIdeal.nD Cert.KernelIdeal.τ).loc Cert.KernelIdeal.main_arg2) : IVec Cert.ReferenceIdeal.S2x800000 32) (ix2 i j))
        (fun t j => (m ((c.tc : Thread Cert.KernelIdeal.nD Cert.KernelIdeal.τ).loc Cert.KernelIdeal.main_arg7) : FVec Ideal Cert.ReferenceIdeal.S4x64x64 .f32) (ix3 (3 : Fin 4) t j)) (fun j => (m ((c.tc : Thread Cert.KernelIdeal.nD Cert.KernelIdeal.τ).loc Cert.KernelIdeal.main_arg8) : FVec Ideal Cert.ReferenceIdeal.S4x64 .f32) (ix2 (3 : Fin 4) j))
        (fun j => (m ((c.tc : Thread Cert.KernelIdeal.nD Cert.KernelIdeal.τ).loc Cert.KernelIdeal.main_arg9) : FVec Ideal Cert.ReferenceIdeal.S4x64 .f32) (ix2 (3 : Fin 4) j)) (fun j => (m ((c.tc : Thread Cert.KernelIdeal.nD Cert.KernelIdeal.τ).loc Cert.KernelIdeal.main_arg10) : FVec Ideal Cert.ReferenceIdeal.S4x64 .f32) (ix2 (3 : Fin 4) j))
        (fun t j => (m ((c.tc : Thread Cert.KernelIdeal.nD Cert.KernelIdeal.τ).loc Cert.KernelIdeal.main_arg11) : FVec Ideal Cert.ReferenceIdeal.S4x64x64 .f32) (ix3 (3 : Fin 4) t j)) (fun j => (m ((c.tc : Thread Cert.KernelIdeal.nD Cert.KernelIdeal.τ).loc Cert.KernelIdeal.main_arg12) : FVec Ideal Cert.ReferenceIdeal.S4x64 .f32) (ix2 (3 : Fin 4) j))
        (fun j => (m ((c.tc : Thread Cert.KernelIdeal.nD Cert.KernelIdeal.τ).loc Cert.KernelIdeal.main_arg13) : FVec Ideal Cert.ReferenceIdeal.S4x64 .f32) (ix2 (3 : Fin 4) j)) (fun j => (m ((c.tc : Thread Cert.KernelIdeal.nD Cert.KernelIdeal.τ).loc Cert.KernelIdeal.main_arg14) : FVec Ideal Cert.ReferenceIdeal.S4x64 .f32) (ix2 (3 : Fin 4) j)) i j
  /-- the scores after the classifier region, over whatever the last features are -/
  tail : ∀ (hR : FVec Ideal Cert.ReferenceIdeal.S50000x64 .f32), (Cert.KernelIdeal.Gen.X26 m c Cert.KernelIdeal.main_v163 : FVec Ideal Cert.ReferenceIdeal.S50000x64 .f32) = hR → ∀ (i : Fin 512) (q : Fin 10),
      (Cert.KernelIdeal.Gen.X28 m c Cert.KernelIdeal.main_v178 : Cert.ReferenceIdeal.S512x10.Idx → EReal) (ix2 i q)
        = Cert.ReferenceIdeal.RefVal.refTail hR (m ((c.tc : Thread Cert.KernelIdeal.nD Cert.KernelIdeal.τ).loc Cert.KernelIdeal.main_arg3) : IVec Cert.ReferenceIdeal.S50000 32) (m ((c.tc : Thread Cert.KernelIdeal.nD Cert.KernelIdeal.τ).loc Cert.KernelIdeal.main_arg15) : FVec Ideal Cert.ReferenceIdeal.S64x64 .f32) (m ((c.tc : Thread Cert.KernelIdeal.nD Cert.KernelIdeal.τ).loc Cert.KernelIdeal.main_arg16) : FVec Ideal Cert.ReferenceIdeal.S64 .f32) (m ((c.tc : Thread Cert.KernelIdeal.nD Cert.KernelIdeal.τ).loc Cert.KernelIdeal.main_arg17) : FVec Ideal Cert.ReferenceIdeal.S64x10 .f32) (m ((c.tc : Thread Cert.KernelIdeal.nD Cert.KernelIdeal.τ).loc Cert.KernelIdeal.main_arg18) : FVec Ideal Cert.ReferenceIdeal.S10 .f32) (ix2 i q)
  /-- the one-entry array of zeros -/
  zero : (Cert.KernelIdeal.Gen.X28 m c Cert.KernelIdeal.main_v7 : Cert.ReferenceIdeal.S1.Idx → EReal) = Cert.ReferenceIdeal.RefVal.refZero1

/-- THE TWO RESULTS ARE EQUAL, given what each program's stages leave. On the one side the features after the
    embedding and after each layer (by column statistics) and the classifier's scores over them; on the other the
    whole line of host operations read as the network function of the arguments (by centred statistics). The
    arguments agree and are real numbers, so the last features agree by the four layers, and the scores are the same
    function of them; the one-entry zero array is the same constant on both sides. -/
theorem values_eq_of [hPre : Cert.Pre_finite_inputs.Facts] (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (c : Dev Cert.KernelIdeal.nD) (inv : EReal) (hinv : inv = ((1 / 50000 : ℝ) : EReal))
    (hs : KernelStages m c inv) :
    (StableHlo.after (Cert.ReferenceIdeal.RefRun.ops (F := Ideal)) (StableHlo.launchContents m' c) (Proc.devRef .tc Cert.ReferenceIdeal.main_v350) : Cert.ReferenceIdeal.S512x10.Idx → EReal) = Cert.KernelIdeal.Gen.X28 m c Cert.KernelIdeal.main_v178
    ∧ (StableHlo.after (Cert.ReferenceIdeal.RefRun.ops (F := Ideal)) (StableHlo.launchContents m' c) (Proc.devRef .tc Cert.ReferenceIdeal.main_v9) : Cert.ReferenceIdeal.S1.Idx → EReal) = Cert.KernelIdeal.Gen.X28 m c Cert.KernelIdeal.main_v7 := by
  obtain ⟨A0, A1, A2, A3, A4, A5, A6, A7, A8, A9, A10, A11, A12, A13, A14, A15, A16, A17, A18⟩ := hagree c
  have e0 : StableHlo.launchContents m' c (Proc.devRef .tc Cert.ReferenceIdeal.main_arg0) = (m ((c.tc : Thread Cert.KernelIdeal.nD Cert.KernelIdeal.τ).loc Cert.KernelIdeal.main_arg0) : FVec Ideal Cert.ReferenceIdeal.S50000x3 .f32) := A0
  have e1 : StableHlo.launchContents m' c (Proc.devRef .tc Cert.ReferenceIdeal.main_arg1) = (m ((c.tc : Thread Cert.KernelIdeal.nD Cert.KernelIdeal.τ).loc Cert.KernelIdeal.main_arg1) : FVec Ideal Cert.ReferenceIdeal.S50000x3 .f32) := A1
  have e2 : StableHlo.launchContents m' c (Proc.devRef .tc Cert.ReferenceIdeal.main_arg2) = (m ((c.tc : Thread Cert.KernelIdeal.nD Cert.KernelIdeal.τ).loc Cert.KernelIdeal.main_arg2) : IVec Cert.ReferenceIdeal.S2x800000 32) := A2
  have e3 : StableHlo.launchContents m' c (Proc.devRef .tc Cert.ReferenceIdeal.main_arg3) = (m ((c.tc : Thread Cert.KernelIdeal.nD Cert.KernelIdeal.τ).loc Cert.KernelIdeal.main_arg3) : IVec Cert.ReferenceIdeal.S50000 32) := A3
  have e4 : StableHlo.launchContents m' c (Proc.devRef .tc Cert.ReferenceIdeal.main_arg4) = (m ((c.tc : Thread Cert.KernelIdeal.nD Cert.KernelIdeal.τ).loc Cert.KernelIdeal.main_arg4) : FVec Ideal Cert.ReferenceIdeal.S6x64 .f32) := A4
  have e5 : StableHlo.launchContents m' c (Proc.devRef .tc Cert.ReferenceIdeal.main_arg5) = (m ((c.tc : Thread Cert.KernelIdeal.nD Cert.KernelIdeal.τ).loc Cert.KernelIdeal.main_arg5) : FVec Ideal Cert.ReferenceIdeal.S64 .f32) := A5
  have e6 : StableHlo.launchContents m' c (Proc.devRef .tc Cert.ReferenceIdeal.main_arg6) = (m ((c.tc : Thread Cert.KernelIdeal.nD Cert.KernelIdeal.τ).loc Cert.KernelIdeal.main_arg6) : FVec Ideal Cert.ReferenceIdeal.S4 .f32) := A6
  have e7 : StableHlo.launchContents m' c (Proc.devRef .tc Cert.ReferenceIdeal.main_arg7) = (m ((c.tc : Thread Cert.KernelIdeal.nD Cert.KernelIdeal.τ).loc Cert.KernelIdeal.main_arg7) : FVec Ideal Cert.ReferenceIdeal.S4x64x64 .f32) := A7
  have e8 : StableHlo.launchContents m' c (Proc.devRef .tc Cert.ReferenceIdeal.main_arg8) = (m ((c.tc : Thread Cert.KernelIdeal.nD Cert.KernelIdeal.τ).loc Cert.KernelIdeal.main_arg8) : FVec Ideal Cert.ReferenceIdeal.S4x64 .f32) := A8
  have e9 : StableHlo.launchContents m' c (Proc.devRef .tc Cert.ReferenceIdeal.main_arg9) = (m ((c.tc : Thread Cert.KernelIdeal.nD Cert.KernelIdeal.τ).loc Cert.KernelIdeal.main_arg9) : FVec Ideal Cert.ReferenceIdeal.S4x64 .f32) := A9
  have e10 : StableHlo.launchContents m' c (Proc.devRef .tc Cert.ReferenceIdeal.main_arg10) = (m ((c.tc : Thread Cert.KernelIdeal.nD Cert.KernelIdeal.τ).loc Cert.KernelIdeal.main_arg10) : FVec Ideal Cert.ReferenceIdeal.S4x64 .f32) := A10
  have e11 : StableHlo.launchContents m' c (Proc.devRef .tc Cert.ReferenceIdeal.main_arg11) = (m ((c.tc : Thread Cert.KernelIdeal.nD Cert.KernelIdeal.τ).loc Cert.KernelIdeal.main_arg11) : FVec Ideal Cert.ReferenceIdeal.S4x64x64 .f32) := A11
  have e12 : StableHlo.launchContents m' c (Proc.devRef .tc Cert.ReferenceIdeal.main_arg12) = (m ((c.tc : Thread Cert.KernelIdeal.nD Cert.KernelIdeal.τ).loc Cert.KernelIdeal.main_arg12) : FVec Ideal Cert.ReferenceIdeal.S4x64 .f32) := A12
  have e13 : StableHlo.launchContents m' c (Proc.devRef .tc Cert.ReferenceIdeal.main_arg13) = (m ((c.tc : Thread Cert.KernelIdeal.nD Cert.KernelIdeal.τ).loc Cert.KernelIdeal.main_arg13) : FVec Ideal Cert.ReferenceIdeal.S4x64 .f32) := A13
  have e14 : StableHlo.launchContents m' c (Proc.devRef .tc Cert.ReferenceIdeal.main_arg14) = (m ((c.tc : Thread Cert.KernelIdeal.nD Cert.KernelIdeal.τ).loc Cert.KernelIdeal.main_arg14) : FVec Ideal Cert.ReferenceIdeal.S4x64 .f32) := A14
  have e15 : StableHlo.launchContents m' c (Proc.devRef .tc Cert.ReferenceIdeal.main_arg15) = (m ((c.tc : Thread Cert.KernelIdeal.nD Cert.KernelIdeal.τ).loc Cert.KernelIdeal.main_arg15) : FVec Ideal Cert.ReferenceIdeal.S64x64 .f32) := A15
  have e16 : StableHlo.launchContents m' c (Proc.devRef .tc Cert.ReferenceIdeal.main_arg16) = (m ((c.tc : Thread Cert.KernelIdeal.nD Cert.KernelIdeal.τ).loc Cert.KernelIdeal.main_arg16) : FVec Ideal Cert.ReferenceIdeal.S64 .f32) := A16
  have e17 : StableHlo.launchContents m' c (Proc.devRef .tc Cert.ReferenceIdeal.main_arg17) = (m ((c.tc : Thread Cert.KernelIdeal.nD Cert.KernelIdeal.τ).loc Cert.KernelIdeal.main_arg17) : FVec Ideal Cert.ReferenceIdeal.S64x10 .f32) := A17
  have e18 : StableHlo.launchContents m' c (Proc.devRef .tc Cert.ReferenceIdeal.main_arg18) = (m ((c.tc : Thread Cert.KernelIdeal.nD Cert.KernelIdeal.τ).loc Cert.KernelIdeal.main_arg18) : FVec Ideal Cert.ReferenceIdeal.S10 .f32) := A18
  have hh : (Cert.KernelIdeal.Gen.X26 m c Cert.KernelIdeal.main_v163 : FVec Ideal Cert.ReferenceIdeal.S50000x64 .f32) = Cert.ReferenceIdeal.RefVal.refH4 (m ((c.tc : Thread Cert.KernelIdeal.nD Cert.KernelIdeal.τ).loc Cert.KernelIdeal.main_arg0) : FVec Ideal Cert.ReferenceIdeal.S50000x3 .f32) (m ((c.tc : Thread Cert.KernelIdeal.nD Cert.KernelIdeal.τ).loc Cert.KernelIdeal.main_arg1) : FVec Ideal Cert.ReferenceIdeal.S50000x3 .f32) (m ((c.tc : Thread Cert.KernelIdeal.nD Cert.KernelIdeal.τ).loc Cert.KernelIdeal.main_arg2) : IVec Cert.ReferenceIdeal.S2x800000 32) (m ((c.tc : Thread Cert.KernelIdeal.nD Cert.KernelIdeal.τ).loc Cert.KernelIdeal.main_arg3) : IVec Cert.ReferenceIdeal.S50000 32) (m ((c.tc : Thread Cert.KernelIdeal.nD Cert.KernelIdeal.τ).loc Cert.KernelIdeal.main_arg4) : FVec Ideal Cert.ReferenceIdeal.S6x64 .f32) (m ((c.tc : Thread Cert.KernelIdeal.nD Cert.KernelIdeal.τ).loc Cert.KernelIdeal.main_arg5) : FVec Ideal Cert.ReferenceIdeal.S64 .f32) (m ((c.tc : Thread Cert.KernelIdeal.nD Cert.KernelIdeal.τ).loc Cert.KernelIdeal.main_arg6) : FVec Ideal Cert.ReferenceIdeal.S4 .f32) (m ((c.tc : Thread Cert.KernelIdeal.nD Cert.KernelIdeal.τ).loc Cert.KernelIdeal.main_arg7) : FVec Ideal Cert.ReferenceIdeal.S4x64x64 .f32) (m ((c.tc : Thread Cert.KernelIdeal.nD Cert.KernelIdeal.τ).loc Cert.KernelIdeal.main_arg8) : FVec Ideal Cert.ReferenceIdeal.S4x64 .f32) (m ((c.tc : Thread Cert.KernelIdeal.nD Cert.KernelIdeal.τ).loc Cert.KernelIdeal.main_arg9) : FVec Ideal Cert.ReferenceIdeal.S4x64 .f32) (m ((c.tc : Thread Cert.KernelIdeal.nD Cert.KernelIdeal.τ).loc Cert.KernelIdeal.main_arg10) : FVec Ideal Cert.ReferenceIdeal.S4x64 .f32) (m ((c.tc : Thread Cert.KernelIdeal.nD Cert.KernelIdeal.τ).loc Cert.KernelIdeal.main_arg11) : FVec Ideal Cert.ReferenceIdeal.S4x64x64 .f32) (m ((c.tc : Thread Cert.KernelIdeal.nD Cert.KernelIdeal.τ).loc Cert.KernelIdeal.main_arg12) : FVec Ideal Cert.ReferenceIdeal.S4x64 .f32) (m ((c.tc : Thread Cert.KernelIdeal.nD Cert.KernelIdeal.τ).loc Cert.KernelIdeal.main_arg13) : FVec Ideal Cert.ReferenceIdeal.S4x64 .f32) (m ((c.tc : Thread Cert.KernelIdeal.nD Cert.KernelIdeal.τ).loc Cert.KernelIdeal.main_arg14) : FVec Ideal Cert.ReferenceIdeal.S4x64 .f32) (m ((c.tc : Thread Cert.KernelIdeal.nD Cert.KernelIdeal.τ).loc Cert.KernelIdeal.main_arg15) : FVec Ideal Cert.ReferenceIdeal.S64x64 .f32) (m ((c.tc : Thread Cert.KernelIdeal.nD Cert.KernelIdeal.τ).loc Cert.KernelIdeal.main_arg16) : FVec Ideal Cert.ReferenceIdeal.S64 .f32) (m ((c.tc : Thread Cert.KernelIdeal.nD Cert.KernelIdeal.τ).loc Cert.KernelIdeal.main_arg17) : FVec Ideal Cert.ReferenceIdeal.S64x10 .f32) (m ((c.tc : Thread Cert.KernelIdeal.nD Cert.KernelIdeal.τ).loc Cert.KernelIdeal.main_arg18) : FVec Ideal Cert.ReferenceIdeal.S10 .f32) :=
    network_agree (m ((c.tc : Thread Cert.KernelIdeal.nD Cert.KernelIdeal.τ).loc Cert.KernelIdeal.main_arg0) : FVec Ideal Cert.ReferenceIdeal.S50000x3 .f32) (m ((c.tc : Thread Cert.KernelIdeal.nD Cert.KernelIdeal.τ).loc Cert.KernelIdeal.main_arg1) : FVec Ideal Cert.ReferenceIdeal.S50000x3 .f32) (m ((c.tc : Thread Cert.KernelIdeal.nD Cert.KernelIdeal.τ).loc Cert.KernelIdeal.main_arg2) : IVec Cert.ReferenceIdeal.S2x800000 32) (m ((c.tc : Thread Cert.KernelIdeal.nD Cert.KernelIdeal.τ).loc Cert.KernelIdeal.main_arg4) : FVec Ideal Cert.ReferenceIdeal.S6x64 .f32) (m ((c.tc : Thread Cert.KernelIdeal.nD Cert.KernelIdeal.τ).loc Cert.KernelIdeal.main_arg5) : FVec Ideal Cert.ReferenceIdeal.S64 .f32) (m ((c.tc : Thread Cert.KernelIdeal.nD Cert.KernelIdeal.τ).loc Cert.KernelIdeal.main_arg6) : FVec Ideal Cert.ReferenceIdeal.S4 .f32) (m ((c.tc : Thread Cert.KernelIdeal.nD Cert.KernelIdeal.τ).loc Cert.KernelIdeal.main_arg7) : FVec Ideal Cert.ReferenceIdeal.S4x64x64 .f32) (m ((c.tc : Thread Cert.KernelIdeal.nD Cert.KernelIdeal.τ).loc Cert.KernelIdeal.main_arg8) : FVec Ideal Cert.ReferenceIdeal.S4x64 .f32) (m ((c.tc : Thread Cert.KernelIdeal.nD Cert.KernelIdeal.τ).loc Cert.KernelIdeal.main_arg9) : FVec Ideal Cert.ReferenceIdeal.S4x64 .f32) (m ((c.tc : Thread Cert.KernelIdeal.nD Cert.KernelIdeal.τ).loc Cert.KernelIdeal.main_arg10) : FVec Ideal Cert.ReferenceIdeal.S4x64 .f32) (m ((c.tc : Thread Cert.KernelIdeal.nD Cert.KernelIdeal.τ).loc Cert.KernelIdeal.main_arg11) : FVec Ideal Cert.ReferenceIdeal.S4x64x64 .f32) (m ((c.tc : Thread Cert.KernelIdeal.nD Cert.KernelIdeal.τ).loc Cert.KernelIdeal.main_arg12) : FVec Ideal Cert.ReferenceIdeal.S4x64 .f32) (m ((c.tc : Thread Cert.KernelIdeal.nD Cert.KernelIdeal.τ).loc Cert.KernelIdeal.main_arg13) : FVec Ideal Cert.ReferenceIdeal.S4x64 .f32) (m ((c.tc : Thread Cert.KernelIdeal.nD Cert.KernelIdeal.τ).loc Cert.KernelIdeal.main_arg14) : FVec Ideal Cert.ReferenceIdeal.S4x64 .f32) inv hinv
      (Cert.KernelIdeal.Gen.X2 m c Cert.KernelIdeal.main_v2 : FVec Ideal Cert.ReferenceIdeal.S50000x64 .f32) (Cert.KernelIdeal.Gen.X8 m c Cert.KernelIdeal.main_v46 : FVec Ideal Cert.ReferenceIdeal.S50000x64 .f32) (Cert.KernelIdeal.Gen.X14 m c Cert.KernelIdeal.main_v85 : FVec Ideal Cert.ReferenceIdeal.S50000x64 .f32) (Cert.KernelIdeal.Gen.X20 m c Cert.KernelIdeal.main_v124 : FVec Ideal Cert.ReferenceIdeal.S50000x64 .f32) (Cert.KernelIdeal.Gen.X26 m c Cert.KernelIdeal.main_v163 : FVec Ideal Cert.ReferenceIdeal.S50000x64 .f32)
      (Cert.ReferenceIdeal.RefVal.refH0 (m ((c.tc : Thread Cert.KernelIdeal.nD Cert.KernelIdeal.τ).loc Cert.KernelIdeal.main_arg0) : FVec Ideal Cert.ReferenceIdeal.S50000x3 .f32) (m ((c.tc : Thread Cert.KernelIdeal.nD Cert.KernelIdeal.τ).loc Cert.KernelIdeal.main_arg1) : FVec Ideal Cert.ReferenceIdeal.S50000x3 .f32) (m ((c.tc : Thread Cert.KernelIdeal.nD Cert.KernelIdeal.τ).loc Cert.KernelIdeal.main_arg2) : IVec Cert.ReferenceIdeal.S2x800000 32) (m ((c.tc : Thread Cert.KernelIdeal.nD Cert.KernelIdeal.τ).loc Cert.KernelIdeal.main_arg3) : IVec Cert.ReferenceIdeal.S50000 32) (m ((c.tc : Thread Cert.KernelIdeal.nD Cert.KernelIdeal.τ).loc Cert.KernelIdeal.main_arg4) : FVec Ideal Cert.ReferenceIdeal.S6x64 .f32) (m ((c.tc : Thread Cert.KernelIdeal.nD Cert.KernelIdeal.τ).loc Cert.KernelIdeal.main_arg5) : FVec Ideal Cert.ReferenceIdeal.S64 .f32) (m ((c.tc : Thread Cert.KernelIdeal.nD Cert.KernelIdeal.τ).loc Cert.KernelIdeal.main_arg6) : FVec Ideal Cert.ReferenceIdeal.S4 .f32) (m ((c.tc : Thread Cert.KernelIdeal.nD Cert.KernelIdeal.τ).loc Cert.KernelIdeal.main_arg7) : FVec Ideal Cert.ReferenceIdeal.S4x64x64 .f32) (m ((c.tc : Thread Cert.KernelIdeal.nD Cert.KernelIdeal.τ).loc Cert.KernelIdeal.main_arg8) : FVec Ideal Cert.ReferenceIdeal.S4x64 .f32) (m ((c.tc : Thread Cert.KernelIdeal.nD Cert.KernelIdeal.τ).loc Cert.KernelIdeal.main_arg9) : FVec Ideal Cert.ReferenceIdeal.S4x64 .f32) (m ((c.tc : Thread Cert.KernelIdeal.nD Cert.KernelIdeal.τ).loc Cert.KernelIdeal.main_arg10) : FVec Ideal Cert.ReferenceIdeal.S4x64 .f32) (m ((c.tc : Thread Cert.KernelIdeal.nD Cert.KernelIdeal.τ).loc Cert.KernelIdeal.main_arg11) : FVec Ideal Cert.ReferenceIdeal.S4x64x64 .f32) (m ((c.tc : Thread Cert.KernelIdeal.nD Cert.KernelIdeal.τ).loc Cert.KernelIdeal.main_arg12) : FVec Ideal Cert.ReferenceIdeal.S4x64 .f32) (m ((c.tc : Thread Cert.KernelIdeal.nD Cert.KernelIdeal.τ).loc Cert.KernelIdeal.main_arg13) : FVec Ideal Cert.ReferenceIdeal.S4x64 .f32) (m ((c.tc : Thread Cert.KernelIdeal.nD Cert.KernelIdeal.τ).loc Cert.KernelIdeal.main_arg14) : FVec Ideal Cert.ReferenceIdeal.S4x64 .f32) (m ((c.tc : Thread Cert.KernelIdeal.nD Cert.KernelIdeal.τ).loc Cert.KernelIdeal.main_arg15) : FVec Ideal Cert.ReferenceIdeal.S64x64 .f32) (m ((c.tc : Thread Cert.KernelIdeal.nD Cert.KernelIdeal.τ).loc Cert.KernelIdeal.main_arg16) : FVec Ideal Cert.ReferenceIdeal.S64 .f32) (m ((c.tc : Thread Cert.KernelIdeal.nD Cert.KernelIdeal.τ).loc Cert.KernelIdeal.main_arg17) : FVec Ideal Cert.ReferenceIdeal.S64x10 .f32) (m ((c.tc : Thread Cert.KernelIdeal.nD Cert.KernelIdeal.τ).loc Cert.KernelIdeal.main_arg18) : FVec Ideal Cert.ReferenceIdeal.S10 .f32)) (Cert.ReferenceIdeal.RefVal.refH1 (m ((c.tc : Thread Cert.KernelIdeal.nD Cert.KernelIdeal.τ).loc Cert.KernelIdeal.main_arg0) : FVec Ideal Cert.ReferenceIdeal.S50000x3 .f32) (m ((c.tc : Thread Cert.KernelIdeal.nD Cert.KernelIdeal.τ).loc Cert.KernelIdeal.main_arg1) : FVec Ideal Cert.ReferenceIdeal.S50000x3 .f32) (m ((c.tc : Thread Cert.KernelIdeal.nD Cert.KernelIdeal.τ).loc Cert.KernelIdeal.main_arg2) : IVec Cert.ReferenceIdeal.S2x800000 32) (m ((c.tc : Thread Cert.KernelIdeal.nD Cert.KernelIdeal.τ).loc Cert.KernelIdeal.main_arg3) : IVec Cert.ReferenceIdeal.S50000 32) (m ((c.tc : Thread Cert.KernelIdeal.nD Cert.KernelIdeal.τ).loc Cert.KernelIdeal.main_arg4) : FVec Ideal Cert.ReferenceIdeal.S6x64 .f32) (m ((c.tc : Thread Cert.KernelIdeal.nD Cert.KernelIdeal.τ).loc Cert.KernelIdeal.main_arg5) : FVec Ideal Cert.ReferenceIdeal.S64 .f32) (m ((c.tc : Thread Cert.KernelIdeal.nD Cert.KernelIdeal.τ).loc Cert.KernelIdeal.main_arg6) : FVec Ideal Cert.ReferenceIdeal.S4 .f32) (m ((c.tc : Thread Cert.KernelIdeal.nD Cert.KernelIdeal.τ).loc Cert.KernelIdeal.main_arg7) : FVec Ideal Cert.ReferenceIdeal.S4x64x64 .f32) (m ((c.tc : Thread Cert.KernelIdeal.nD Cert.KernelIdeal.τ).loc Cert.KernelIdeal.main_arg8) : FVec Ideal Cert.ReferenceIdeal.S4x64 .f32) (m ((c.tc : Thread Cert.KernelIdeal.nD Cert.KernelIdeal.τ).loc Cert.KernelIdeal.main_arg9) : FVec Ideal Cert.ReferenceIdeal.S4x64 .f32) (m ((c.tc : Thread Cert.KernelIdeal.nD Cert.KernelIdeal.τ).loc Cert.KernelIdeal.main_arg10) : FVec Ideal Cert.ReferenceIdeal.S4x64 .f32) (m ((c.tc : Thread Cert.KernelIdeal.nD Cert.KernelIdeal.τ).loc Cert.KernelIdeal.main_arg11) : FVec Ideal Cert.ReferenceIdeal.S4x64x64 .f32) (m ((c.tc : Thread Cert.KernelIdeal.nD Cert.KernelIdeal.τ).loc Cert.KernelIdeal.main_arg12) : FVec Ideal Cert.ReferenceIdeal.S4x64 .f32) (m ((c.tc : Thread Cert.KernelIdeal.nD Cert.KernelIdeal.τ).loc Cert.KernelIdeal.main_arg13) : FVec Ideal Cert.ReferenceIdeal.S4x64 .f32) (m ((c.tc : Thread Cert.KernelIdeal.nD Cert.KernelIdeal.τ).loc Cert.KernelIdeal.main_arg14) : FVec Ideal Cert.ReferenceIdeal.S4x64 .f32) (m ((c.tc : Thread Cert.KernelIdeal.nD Cert.KernelIdeal.τ).loc Cert.KernelIdeal.main_arg15) : FVec Ideal Cert.ReferenceIdeal.S64x64 .f32) (m ((c.tc : Thread Cert.KernelIdeal.nD Cert.KernelIdeal.τ).loc Cert.KernelIdeal.main_arg16) : FVec Ideal Cert.ReferenceIdeal.S64 .f32) (m ((c.tc : Thread Cert.KernelIdeal.nD Cert.KernelIdeal.τ).loc Cert.KernelIdeal.main_arg17) : FVec Ideal Cert.ReferenceIdeal.S64x10 .f32) (m ((c.tc : Thread Cert.KernelIdeal.nD Cert.KernelIdeal.τ).loc Cert.KernelIdeal.main_arg18) : FVec Ideal Cert.ReferenceIdeal.S10 .f32)) (Cert.ReferenceIdeal.RefVal.refH2 (m ((c.tc : Thread Cert.KernelIdeal.nD Cert.KernelIdeal.τ).loc Cert.KernelIdeal.main_arg0) : FVec Ideal Cert.ReferenceIdeal.S50000x3 .f32) (m ((c.tc : Thread Cert.KernelIdeal.nD Cert.KernelIdeal.τ).loc Cert.KernelIdeal.main_arg1) : FVec Ideal Cert.ReferenceIdeal.S50000x3 .f32) (m ((c.tc : Thread Cert.KernelIdeal.nD Cert.KernelIdeal.τ).loc Cert.KernelIdeal.main_arg2) : IVec Cert.ReferenceIdeal.S2x800000 32) (m ((c.tc : Thread Cert.KernelIdeal.nD Cert.KernelIdeal.τ).loc Cert.KernelIdeal.main_arg3) : IVec Cert.ReferenceIdeal.S50000 32) (m ((c.tc : Thread Cert.KernelIdeal.nD Cert.KernelIdeal.τ).loc Cert.KernelIdeal.main_arg4) : FVec Ideal Cert.ReferenceIdeal.S6x64 .f32) (m ((c.tc : Thread Cert.KernelIdeal.nD Cert.KernelIdeal.τ).loc Cert.KernelIdeal.main_arg5) : FVec Ideal Cert.ReferenceIdeal.S64 .f32) (m ((c.tc : Thread Cert.KernelIdeal.nD Cert.KernelIdeal.τ).loc Cert.KernelIdeal.main_arg6) : FVec Ideal Cert.ReferenceIdeal.S4 .f32) (m ((c.tc : Thread Cert.KernelIdeal.nD Cert.KernelIdeal.τ).loc Cert.KernelIdeal.main_arg7) : FVec Ideal Cert.ReferenceIdeal.S4x64x64 .f32) (m ((c.tc : Thread Cert.KernelIdeal.nD Cert.KernelIdeal.τ).loc Cert.KernelIdeal.main_arg8) : FVec Ideal Cert.ReferenceIdeal.S4x64 .f32) (m ((c.tc : Thread Cert.KernelIdeal.nD Cert.KernelIdeal.τ).loc Cert.KernelIdeal.main_arg9) : FVec Ideal Cert.ReferenceIdeal.S4x64 .f32) (m ((c.tc : Thread Cert.KernelIdeal.nD Cert.KernelIdeal.τ).loc Cert.KernelIdeal.main_arg10) : FVec Ideal Cert.ReferenceIdeal.S4x64 .f32) (m ((c.tc : Thread Cert.KernelIdeal.nD Cert.KernelIdeal.τ).loc Cert.KernelIdeal.main_arg11) : FVec Ideal Cert.ReferenceIdeal.S4x64x64 .f32) (m ((c.tc : Thread Cert.KernelIdeal.nD Cert.KernelIdeal.τ).loc Cert.KernelIdeal.main_arg12) : FVec Ideal Cert.ReferenceIdeal.S4x64 .f32) (m ((c.tc : Thread Cert.KernelIdeal.nD Cert.KernelIdeal.τ).loc Cert.KernelIdeal.main_arg13) : FVec Ideal Cert.ReferenceIdeal.S4x64 .f32) (m ((c.tc : Thread Cert.KernelIdeal.nD Cert.KernelIdeal.τ).loc Cert.KernelIdeal.main_arg14) : FVec Ideal Cert.ReferenceIdeal.S4x64 .f32) (m ((c.tc : Thread Cert.KernelIdeal.nD Cert.KernelIdeal.τ).loc Cert.KernelIdeal.main_arg15) : FVec Ideal Cert.ReferenceIdeal.S64x64 .f32) (m ((c.tc : Thread Cert.KernelIdeal.nD Cert.KernelIdeal.τ).loc Cert.KernelIdeal.main_arg16) : FVec Ideal Cert.ReferenceIdeal.S64 .f32) (m ((c.tc : Thread Cert.KernelIdeal.nD Cert.KernelIdeal.τ).loc Cert.KernelIdeal.main_arg17) : FVec Ideal Cert.ReferenceIdeal.S64x10 .f32) (m ((c.tc : Thread Cert.KernelIdeal.nD Cert.KernelIdeal.τ).loc Cert.KernelIdeal.main_arg18) : FVec Ideal Cert.ReferenceIdeal.S10 .f32))
      (Cert.ReferenceIdeal.RefVal.refH3 (m ((c.tc : Thread Cert.KernelIdeal.nD Cert.KernelIdeal.τ).loc Cert.KernelIdeal.main_arg0) : FVec Ideal Cert.ReferenceIdeal.S50000x3 .f32) (m ((c.tc : Thread Cert.KernelIdeal.nD Cert.KernelIdeal.τ).loc Cert.KernelIdeal.main_arg1) : FVec Ideal Cert.ReferenceIdeal.S50000x3 .f32) (m ((c.tc : Thread Cert.KernelIdeal.nD Cert.KernelIdeal.τ).loc Cert.KernelIdeal.main_arg2) : IVec Cert.ReferenceIdeal.S2x800000 32) (m ((c.tc : Thread Cert.KernelIdeal.nD Cert.KernelIdeal.τ).loc Cert.KernelIdeal.main_arg3) : IVec Cert.ReferenceIdeal.S50000 32) (m ((c.tc : Thread Cert.KernelIdeal.nD Cert.KernelIdeal.τ).loc Cert.KernelIdeal.main_arg4) : FVec Ideal Cert.ReferenceIdeal.S6x64 .f32) (m ((c.tc : Thread Cert.KernelIdeal.nD Cert.KernelIdeal.τ).loc Cert.KernelIdeal.main_arg5) : FVec Ideal Cert.ReferenceIdeal.S64 .f32) (m ((c.tc : Thread Cert.KernelIdeal.nD Cert.KernelIdeal.τ).loc Cert.KernelIdeal.main_arg6) : FVec Ideal Cert.ReferenceIdeal.S4 .f32) (m ((c.tc : Thread Cert.KernelIdeal.nD Cert.KernelIdeal.τ).loc Cert.KernelIdeal.main_arg7) : FVec Ideal Cert.ReferenceIdeal.S4x64x64 .f32) (m ((c.tc : Thread Cert.KernelIdeal.nD Cert.KernelIdeal.τ).loc Cert.KernelIdeal.main_arg8) : FVec Ideal Cert.ReferenceIdeal.S4x64 .f32) (m ((c.tc : Thread Cert.KernelIdeal.nD Cert.KernelIdeal.τ).loc Cert.KernelIdeal.main_arg9) : FVec Ideal Cert.ReferenceIdeal.S4x64 .f32) (m ((c.tc : Thread Cert.KernelIdeal.nD Cert.KernelIdeal.τ).loc Cert.KernelIdeal.main_arg10) : FVec Ideal Cert.ReferenceIdeal.S4x64 .f32) (m ((c.tc : Thread Cert.KernelIdeal.nD Cert.KernelIdeal.τ).loc Cert.KernelIdeal.main_arg11) : FVec Ideal Cert.ReferenceIdeal.S4x64x64 .f32) (m ((c.tc : Thread Cert.KernelIdeal.nD Cert.KernelIdeal.τ).loc Cert.KernelIdeal.main_arg12) : FVec Ideal Cert.ReferenceIdeal.S4x64 .f32) (m ((c.tc : Thread Cert.KernelIdeal.nD Cert.KernelIdeal.τ).loc Cert.KernelIdeal.main_arg13) : FVec Ideal Cert.ReferenceIdeal.S4x64 .f32) (m ((c.tc : Thread Cert.KernelIdeal.nD Cert.KernelIdeal.τ).loc Cert.KernelIdeal.main_arg14) : FVec Ideal Cert.ReferenceIdeal.S4x64 .f32) (m ((c.tc : Thread Cert.KernelIdeal.nD Cert.KernelIdeal.τ).loc Cert.KernelIdeal.main_arg15) : FVec Ideal Cert.ReferenceIdeal.S64x64 .f32) (m ((c.tc : Thread Cert.KernelIdeal.nD Cert.KernelIdeal.τ).loc Cert.KernelIdeal.main_arg16) : FVec Ideal Cert.ReferenceIdeal.S64 .f32) (m ((c.tc : Thread Cert.KernelIdeal.nD Cert.KernelIdeal.τ).loc Cert.KernelIdeal.main_arg17) : FVec Ideal Cert.ReferenceIdeal.S64x10 .f32) (m ((c.tc : Thread Cert.KernelIdeal.nD Cert.KernelIdeal.τ).loc Cert.KernelIdeal.main_arg18) : FVec Ideal Cert.ReferenceIdeal.S10 .f32)) (Cert.ReferenceIdeal.RefVal.refH4 (m ((c.tc : Thread Cert.KernelIdeal.nD Cert.KernelIdeal.τ).loc Cert.KernelIdeal.main_arg0) : FVec Ideal Cert.ReferenceIdeal.S50000x3 .f32) (m ((c.tc : Thread Cert.KernelIdeal.nD Cert.KernelIdeal.τ).loc Cert.KernelIdeal.main_arg1) : FVec Ideal Cert.ReferenceIdeal.S50000x3 .f32) (m ((c.tc : Thread Cert.KernelIdeal.nD Cert.KernelIdeal.τ).loc Cert.KernelIdeal.main_arg2) : IVec Cert.ReferenceIdeal.S2x800000 32) (m ((c.tc : Thread Cert.KernelIdeal.nD Cert.KernelIdeal.τ).loc Cert.KernelIdeal.main_arg3) : IVec Cert.ReferenceIdeal.S50000 32) (m ((c.tc : Thread Cert.KernelIdeal.nD Cert.KernelIdeal.τ).loc Cert.KernelIdeal.main_arg4) : FVec Ideal Cert.ReferenceIdeal.S6x64 .f32) (m ((c.tc : Thread Cert.KernelIdeal.nD Cert.KernelIdeal.τ).loc Cert.KernelIdeal.main_arg5) : FVec Ideal Cert.ReferenceIdeal.S64 .f32) (m ((c.tc : Thread Cert.KernelIdeal.nD Cert.KernelIdeal.τ).loc Cert.KernelIdeal.main_arg6) : FVec Ideal Cert.ReferenceIdeal.S4 .f32) (m ((c.tc : Thread Cert.KernelIdeal.nD Cert.KernelIdeal.τ).loc Cert.KernelIdeal.main_arg7) : FVec Ideal Cert.ReferenceIdeal.S4x64x64 .f32) (m ((c.tc : Thread Cert.KernelIdeal.nD Cert.KernelIdeal.τ).loc Cert.KernelIdeal.main_arg8) : FVec Ideal Cert.ReferenceIdeal.S4x64 .f32) (m ((c.tc : Thread Cert.KernelIdeal.nD Cert.KernelIdeal.τ).loc Cert.KernelIdeal.main_arg9) : FVec Ideal Cert.ReferenceIdeal.S4x64 .f32) (m ((c.tc : Thread Cert.KernelIdeal.nD Cert.KernelIdeal.τ).loc Cert.KernelIdeal.main_arg10) : FVec Ideal Cert.ReferenceIdeal.S4x64 .f32) (m ((c.tc : Thread Cert.KernelIdeal.nD Cert.KernelIdeal.τ).loc Cert.KernelIdeal.main_arg11) : FVec Ideal Cert.ReferenceIdeal.S4x64x64 .f32) (m ((c.tc : Thread Cert.KernelIdeal.nD Cert.KernelIdeal.τ).loc Cert.KernelIdeal.main_arg12) : FVec Ideal Cert.ReferenceIdeal.S4x64 .f32) (m ((c.tc : Thread Cert.KernelIdeal.nD Cert.KernelIdeal.τ).loc Cert.KernelIdeal.main_arg13) : FVec Ideal Cert.ReferenceIdeal.S4x64 .f32) (m ((c.tc : Thread Cert.KernelIdeal.nD Cert.KernelIdeal.τ).loc Cert.KernelIdeal.main_arg14) : FVec Ideal Cert.ReferenceIdeal.S4x64 .f32) (m ((c.tc : Thread Cert.KernelIdeal.nD Cert.KernelIdeal.τ).loc Cert.KernelIdeal.main_arg15) : FVec Ideal Cert.ReferenceIdeal.S64x64 .f32) (m ((c.tc : Thread Cert.KernelIdeal.nD Cert.KernelIdeal.τ).loc Cert.KernelIdeal.main_arg16) : FVec Ideal Cert.ReferenceIdeal.S64 .f32) (m ((c.tc : Thread Cert.KernelIdeal.nD Cert.KernelIdeal.τ).loc Cert.KernelIdeal.main_arg17) : FVec Ideal Cert.ReferenceIdeal.S64x10 .f32) (m ((c.tc : Thread Cert.KernelIdeal.nD Cert.KernelIdeal.τ).loc Cert.KernelIdeal.main_arg18) : FVec Ideal Cert.ReferenceIdeal.S10 .f32))
      hs.embed rfl
      hs.layer0 (fun i j => Cert.ReferenceIdeal.RefVal.refLayer0_apply _ _ _ _ _ _ _ _ _ _ _ _ i j)
      hs.layer1 (fun i j => Cert.ReferenceIdeal.RefVal.refLayer1_apply _ _ _ _ _ _ _ _ _ _ _ _ i j)
      hs.layer2 (fun i j => Cert.ReferenceIdeal.RefVal.refLayer2_apply _ _ _ _ _ _ _ _ _ _ _ _ i j)
      hs.layer3 (fun i j => Cert.ReferenceIdeal.RefVal.refLayer3_apply _ _ _ _ _ _ _ _ _ _ _ _ i j)
      (Cert.FiniteIn.finite_arg0 m hpre c) (Cert.FiniteIn.finite_arg1 m hpre c) (Cert.FiniteIn.finite_arg4 m hpre c) (Cert.FiniteIn.finite_arg5 m hpre c) (Cert.FiniteIn.finite_arg6 m hpre c) (Cert.FiniteIn.finite_arg7 m hpre c) (Cert.FiniteIn.finite_arg8 m hpre c) (Cert.FiniteIn.finite_arg9 m hpre c) (Cert.FiniteIn.finite_arg10 m hpre c) (Cert.FiniteIn.finite_arg11 m hpre c) (Cert.FiniteIn.finite_arg12 m hpre c) (Cert.FiniteIn.finite_arg13 m hpre c) (Cert.FiniteIn.finite_arg14 m hpre c)
  refine ⟨?_, ?_⟩
  · rw [Cert.ReferenceIdeal.RefVal.after_ops, e0, e1, e2, e3, e4, e5, e6, e7, e8, e9, e10, e11, e12, e13, e14, e15, e16, e17, e18]
    funext k
    obtain ⟨i, q, rfl⟩ : ∃ (i : Fin 512) (q : Fin 10), k = ix2 i q := ⟨k 0, k 1, eq_ix2 k⟩
    exact (hs.tail _ hh i q).symm
  · rw [Cert.ReferenceIdeal.RefVal.after_ops_zero]
    exact hs.zero.symm

/-- THE CLAIM: both programs run, and from memories that agree on the nineteen arguments (real numbers, by the
    precondition) they end with equal results and unchanged arguments. The results named are the one program's
    last contents of its two result arrays; the other program's line of operations leaves the same two arrays, by
    `values_eq_of`. -/
theorem algebraic_of [hKernelIdeal : Cert.KernelIdeal.Facts] [hReferenceIdeal : Cert.ReferenceIdeal.Facts] [hPre_finite_inputs : Cert.Pre_finite_inputs.Facts]
    (inv : EReal) (hinv : inv = ((1 / 50000 : ℝ) : EReal))
    (hs : ∀ (m : (ℓ : Loc Cert.KernelIdeal.nD Cert.KernelIdeal.τ Cert.KernelIdeal.sig) → Buf (Elt Ideal) ℓ) (c : Dev Cert.KernelIdeal.nD), KernelStages m c inv) :
    Cert.algebraic_KernelIdeal_ReferenceIdeal := by
  intro m g m' g' hpre hagree
  refine ⟨fun c => Cert.KernelIdeal.Gen.X28 m c Cert.KernelIdeal.main_v178, fun c => Cert.KernelIdeal.Gen.X28 m c Cert.KernelIdeal.main_v7, ?_, ?_⟩
  · refine (θ_run Cert.KernelIdeal.defs _ _).mono (fun r h c => ?_) (Cert.KernelIdeal.Gen.run_all (F := Ideal) m g)
    exact ⟨h c _ (Cert.KernelIdeal.Gen.mem_uc Cert.KernelIdeal.main_v178 (by decide)), h c _ (Cert.KernelIdeal.Gen.mem_uc Cert.KernelIdeal.main_v7 (by decide)),
      (h c _ (Cert.KernelIdeal.Gen.mem_uc Cert.KernelIdeal.main_arg0 (by decide))).trans (Cert.KernelIdeal.Gen.X28_main_arg0 m c),
      (h c _ (Cert.KernelIdeal.Gen.mem_uc Cert.KernelIdeal.main_arg1 (by decide))).trans (Cert.KernelIdeal.Gen.X28_main_arg1 m c),
      (h c _ (Cert.KernelIdeal.Gen.mem_uc Cert.KernelIdeal.main_arg2 (by decide))).trans (Cert.KernelIdeal.Gen.X28_main_arg2 m c),
      (h c _ (Cert.KernelIdeal.Gen.mem_uc Cert.KernelIdeal.main_arg3 (by decide))).trans (Cert.KernelIdeal.Gen.X28_main_arg3 m c),
      (h c _ (Cert.KernelIdeal.Gen.mem_uc Cert.KernelIdeal.main_arg4 (by decide))).trans (Cert.KernelIdeal.Gen.X28_main_arg4 m c),
      (h c _ (Cert.KernelIdeal.Gen.mem_uc Cert.KernelIdeal.main_arg5 (by decide))).trans (Cert.KernelIdeal.Gen.X28_main_arg5 m c),
      (h c _ (Cert.KernelIdeal.Gen.mem_uc Cert.KernelIdeal.main_arg6 (by decide))).trans (Cert.KernelIdeal.Gen.X28_main_arg6 m c),
      (h c _ (Cert.KernelIdeal.Gen.mem_uc Cert.KernelIdeal.main_arg7 (by decide))).trans (Cert.KernelIdeal.Gen.X28_main_arg7 m c),
      (h c _ (Cert.KernelIdeal.Gen.mem_uc Cert.KernelIdeal.main_arg8 (by decide))).trans (Cert.KernelIdeal.Gen.X28_main_arg8 m c),
      (h c _ (Cert.KernelIdeal.Gen.mem_uc Cert.KernelIdeal.main_arg9 (by decide))).trans (Cert.KernelIdeal.Gen.X28_main_arg9 m c),
      (h c _ (Cert.KernelIdeal.Gen.mem_uc Cert.KernelIdeal.main_arg10 (by decide))).trans (Cert.KernelIdeal.Gen.X28_main_arg10 m c),
      (h c _ (Cert.KernelIdeal.Gen.mem_uc Cert.KernelIdeal.main_arg11 (by decide))).trans (Cert.KernelIdeal.Gen.X28_main_arg11 m c),
      (h c _ (Cert.KernelIdeal.Gen.mem_uc Cert.KernelIdeal.main_arg12 (by decide))).trans (Cert.KernelIdeal.Gen.X28_main_arg12 m c),
      (h c _ (Cert.KernelIdeal.Gen.mem_uc Cert.KernelIdeal.main_arg13 (by decide))).trans (Cert.KernelIdeal.Gen.X28_main_arg13 m c),
      (h c _ (Cert.KernelIdeal.Gen.mem_uc Cert.KernelIdeal.main_arg14 (by decide))).trans (Cert.KernelIdeal.Gen.X28_main_arg14 m c),
      (h c _ (Cert.KernelIdeal.Gen.mem_uc Cert.KernelIdeal.main_arg15 (by decide))).trans (Cert.KernelIdeal.Gen.X28_main_arg15 m c),
      (h c _ (Cert.KernelIdeal.Gen.mem_uc Cert.KernelIdeal.main_arg16 (by decide))).trans (Cert.KernelIdeal.Gen.X28_main_arg16 m c),
      (h c _ (Cert.KernelIdeal.Gen.mem_uc Cert.KernelIdeal.main_arg17 (by decide))).trans (Cert.KernelIdeal.Gen.X28_main_arg17 m c),
      (h c _ (Cert.KernelIdeal.Gen.mem_uc Cert.KernelIdeal.main_arg18 (by decide))).trans (Cert.KernelIdeal.Gen.X28_main_arg18 m c)⟩
  · refine (θ_run Cert.ReferenceIdeal.defs _ _).mono (fun r h c => ?_) (Cert.ReferenceIdeal.RefRun.run_after (F := Ideal) m' g')
    obtain ⟨v0, v1⟩ := values_eq_of m m' hpre hagree c inv hinv (hs m c)
    exact ⟨(h c Cert.ReferenceIdeal.main_v350).trans v0, (h c Cert.ReferenceIdeal.main_v9).trans v1,
      (h c Cert.ReferenceIdeal.main_arg0).trans (Cert.ReferenceIdeal.RefRun.after_arg _ (by decide)),
      (h c Cert.ReferenceIdeal.main_arg1).trans (Cert.ReferenceIdeal.RefRun.after_arg _ (by decide)),
      (h c Cert.ReferenceIdeal.main_arg2).trans (Cert.ReferenceIdeal.RefRun.after_arg _ (by decide)),
      (h c Cert.ReferenceIdeal.main_arg3).trans (Cert.ReferenceIdeal.RefRun.after_arg _ (by decide)),
      (h c Cert.ReferenceIdeal.main_arg4).trans (Cert.ReferenceIdeal.RefRun.after_arg _ (by decide)),
      (h c Cert.ReferenceIdeal.main_arg5).trans (Cert.ReferenceIdeal.RefRun.after_arg _ (by decide)),
      (h c Cert.ReferenceIdeal.main_arg6).trans (Cert.ReferenceIdeal.RefRun.after_arg _ (by decide)),
      (h c Cert.ReferenceIdeal.main_arg7).trans (Cert.ReferenceIdeal.RefRun.after_arg _ (by decide)),
      (h c Cert.ReferenceIdeal.main_arg8).trans (Cert.ReferenceIdeal.RefRun.after_arg _ (by decide)),
      (h c Cert.ReferenceIdeal.main_arg9).trans (Cert.ReferenceIdeal.RefRun.after_arg _ (by decide)),
      (h c Cert.ReferenceIdeal.main_arg10).trans (Cert.ReferenceIdeal.RefRun.after_arg _ (by decide)),
      (h c Cert.ReferenceIdeal.main_arg11).trans (Cert.ReferenceIdeal.RefRun.after_arg _ (by decide)),
      (h c Cert.ReferenceIdeal.main_arg12).trans (Cert.ReferenceIdeal.RefRun.after_arg _ (by decide)),
      (h c Cert.ReferenceIdeal.main_arg13).trans (Cert.ReferenceIdeal.RefRun.after_arg _ (by decide)),
      (h c Cert.ReferenceIdeal.main_arg14).trans (Cert.ReferenceIdeal.RefRun.after_arg _ (by decide)),
      (h c Cert.ReferenceIdeal.main_arg15).trans (Cert.ReferenceIdeal.RefRun.after_arg _ (by decide)),
      (h c Cert.ReferenceIdeal.main_arg16).trans (Cert.ReferenceIdeal.RefRun.after_arg _ (by decide)),
      (h c Cert.ReferenceIdeal.main_arg17).trans (Cert.ReferenceIdeal.RefRun.after_arg _ (by decide)),
      (h c Cert.ReferenceIdeal.main_arg18).trans (Cert.ReferenceIdeal.RefRun.after_arg _ (by decide))⟩

end Cert.Final

end
-- ==== Proof.KI.Glue.Layout.lean ====
/-
  Small shapes read at an index: one row of a stack of rows, one matrix of a stack of matrices, one entry of a short
  vector taken as a number, and a number spread over an array.  Each is the general reading of a slice, a cast or a
  spread at coordinates written out, so that it applies to a printed operation by unification.
-/
import Idealize.ShloMosaic.Lib.ValueLayout
import Idealize.ShloMosaic.Lib.IdealHost

noncomputable section

namespace Cert.KernelIdeal.Glue

open Idealize.ShloMosaic Idealize.ShloMosaic.ValueIdx

variable {α : Type}

/-- Row `l` cut out of an `[n, b]` array as a `[1, b]` array reads, at `(u, j)`, the source at `(l, j)`. -/
theorem row_slice_apply {n b : Nat} (l : Nat) (hl : l < n) (X : (⟨2, ![n, b]⟩ : Shape).Idx → α)
    (h : (⟨2, ![n, b]⟩ : Shape).Slices ![l, 0] ⟨2, ![1, b]⟩) (u : Fin 1) (j : Fin b) :
    extractStridedSlice ⟨2, ![1, b]⟩ ![l, 0] X h (ix2 u j) = X (ix2 ⟨l, hl⟩ j) :=
  slice2_axis0_apply l X h u j ⟨l, hl⟩ (by show l = l + u.val; omega)

/-- Matrix `l` cut out of an `[n, a, b]` stack as a `[1, a, b]` array reads, at `(u, i, j)`, the source at `(l, i, j)`. -/
theorem mat_slice_apply {n a b : Nat} (l : Nat) (hl : l < n) (X : (⟨3, ![n, a, b]⟩ : Shape).Idx → α)
    (h : (⟨3, ![n, a, b]⟩ : Shape).Slices ![l, 0, 0] ⟨3, ![1, a, b]⟩) (u : Fin 1) (i : Fin a) (j : Fin b) :
    extractStridedSlice ⟨3, ![1, a, b]⟩ ![l, 0, 0] X h (ix3 u i j) = X (ix3 ⟨l, hl⟩ i j) :=
  extractStridedSlice_apply _ _ _ _ _ (fun ax => by
    match ax with
    | ⟨0, _⟩ => show l = l + u.val; omega
    | ⟨1, _⟩ => exact (Nat.zero_add _).symm
    | ⟨2, _⟩ => exact (Nat.zero_add _).symm)

/-- Entry `l` cut out of an `[n]` vector as a `[1]` vector reads, at its one index, the source at `l`. -/
theorem entry_slice_apply {n : Nat} (l : Nat) (hl : l < n) (X : (⟨1, ![n]⟩ : Shape).Idx → α)
    (h : (⟨1, ![n]⟩ : Shape).Slices ![l] ⟨1, ![1]⟩) (u : Fin 1) :
    extractStridedSlice ⟨1, ![1]⟩ ![l] X h (ix1 u) = X (ix1 ⟨l, hl⟩) :=
  extractStridedSlice_apply _ _ _ _ _ (fun ax => by
    match ax with
    | ⟨0, _⟩ => show l = l + u.val; omega)

/-- A `[1]` vector taken as a number is its one entry. -/
theorem number_of_vec1_apply (x : (⟨1, ![1]⟩ : Shape).Idx → α) (h : (⟨1, ![1]⟩ : Shape).ShapeCasts ⟨0, ![]⟩)
    (i : (⟨0, ![]⟩ : Shape).Idx) : shapeCast ⟨0, ![]⟩ x h i = x (ix1 (0 : Fin 1)) :=
  shapeCast_apply x h _ _ (by
    rw [Shape.rowMajor_val_one]
    have := ((⟨0, ![]⟩ : Shape).rowMajor i).isLt
    show (0 : Nat) = _
    simp [Shape.numel] at this
    omega)

/-- A number spread over an array reads the number everywhere. -/
theorem spread_number_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

end Cert.KernelIdeal.Glue

end
-- ==== Proof.KI.Glue.Host0.lean ====
/-
  The host operations before the embedding region, read back over whatever contents they are entered with: the node
  inputs are the two three-column arrays side by side, and the bias row is the bias vector as one row.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- A column among the first three of the joined inputs is that column of the first array. -/
theorem host0_x_left (i : Fin 50000) (t : Fin 6) (ht : t.val < 3) :
    (StableHlo.after hostOps0 Y main_v0 : S50000x6.Idx → EReal) (ix2 i t)
      = (Y main_arg0 : S50000x3.Idx → EReal) (ix2 i ⟨t.val, ht⟩) := by
  have e : (StableHlo.after hostOps0 Y main_v0 : S50000x6.Idx → EReal)
      = concatenate S50000x6 1 [⟨S50000x3, (Y main_arg0 : S50000x3.Idx → EReal)⟩,
          ⟨S50000x3, (Y main_arg1 : S50000x3.Idx → EReal)⟩] concatenates_S50000x3_S50000x3_S50000x6_d1 := by
    dsimp only [hostOps0]; after_results
  rw [e]
  exact concatenate_pair_apply_left (s₁ := S50000x3) (s₂ := S50000x3) 1 _ _ _ (ix2 i t) rfl (ix2 i ⟨t.val, ht⟩) (fun b => by
    match b with
    | ⟨0, _⟩ => rfl
    | ⟨1, _⟩ => rfl)

/-- A column among the last three of the joined inputs is the column three to the left of the second array. -/
theorem host0_x_right (i : Fin 50000) (t : Fin 6) (ht : 3 ≤ t.val) :
    (StableHlo.after hostOps0 Y main_v0 : S50000x6.Idx → EReal) (ix2 i t)
      = (Y main_arg1 : S50000x3.Idx → EReal) (ix2 i ⟨t.val - 3, by omega⟩) := by
  have e : (StableHlo.after hostOps0 Y main_v0 : S50000x6.Idx → EReal)
      = concatenate S50000x6 1 [⟨S50000x3, (Y main_arg0 : S50000x3.Idx → EReal)⟩,
          ⟨S50000x3, (Y main_arg1 : S50000x3.Idx → EReal)⟩] concatenates_S50000x3_S50000x3_S50000x6_d1 := by
    dsimp only [hostOps0]; after_results
  rw [e]
  exact concatenate_pair_apply_right (s₁ := S50000x3) (s₂ := S50000x3) 1 _ _ _ (ix2 i t) rfl rfl (ix2 i ⟨t.val - 3, by omega⟩) (fun b hb => by
    match b with
    | ⟨0, _⟩ => rfl
    | ⟨1, _⟩ => exact absurd rfl hb) (by show (t.val - 3) + 3 = t.val; omega)

/-- The bias row of the embedding: the bias vector as one row. -/
theorem host0_b (u : Fin 1) (j : Fin 64) :
    (StableHlo.after hostOps0 Y main_v1 : S1x64.Idx → EReal) (ix2 u j) = (Y main_arg5 : S64.Idx → EReal) (ix1 j) := by
  have e : (StableHlo.after hostOps0 Y main_v1 : S1x64.Idx → EReal)
      = shapeCast S1x64 (Y main_arg5 : S64.Idx → EReal) shapeCasts_S64_S1x64 := by
    dsimp only [hostOps0]; after_results; rfl
  rw [e, shapeCast_a_1a_apply]

end Cert.KernelIdeal.Glue

end
-- ==== Proof.KI.Glue.Host1.lean ====
/-
  The host operations before layer 0's first region, read back over whatever contents they are entered with: the bias
  row and the weight matrix are row 0 and matrix 0 of the stacked parameters, the self-weight row is one plus entry 0
  of the self-weights in every column, the neighbour sum is the composed gather and scatter-add along the edge list,
  and the two vectors of node numbers cut from the edge list stay for the later layers.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The bias row of the first linear map: row 0 of the stack of bias rows. -/
theorem host1_b1 (u : Fin 1) (j : Fin 64) :
    (StableHlo.after hostOps1 Y main_v26 : S1x64.Idx → EReal) (ix2 u j) = (Y main_arg8 : S4x64.Idx → EReal) (ix2 0 j) := by
  have e : (StableHlo.after hostOps1 Y main_v26 : S1x64.Idx → EReal)
      = shapeCast S1x64 (shapeCast S64 (extractStridedSlice S1x64 ![0, 0] (Y main_arg8 : S4x64.Idx → EReal)
          slices_S4x64_S1x64_0_0) shapeCasts_S1x64_S64) shapeCasts_S64_S1x64 := by
    dsimp only [hostOps1]; after_results; rfl
  rw [e, shapeCast_a_1a_apply, shapeCast_1a_a_apply, row_slice_apply 0 (by decide)]
  rfl

/-- The weight matrix of the first linear map: matrix 0 of the stack. -/
theorem host1_W1 (t j : Fin 64) :
    (StableHlo.after hostOps1 Y main_v21 : S64x64.Idx → EReal) (ix2 t j) = (Y main_arg7 : S4x64x64.Idx → EReal) (ix3 0 t j) := by
  have e : (StableHlo.after hostOps1 Y main_v21 : S64x64.Idx → EReal)
      = shapeCast S64x64 (extractStridedSlice S1x64x64 ![0, 0, 0] (Y main_arg7 : S4x64x64.Idx → EReal)
          slices_S4x64x64_S1x64x64_0_0_0) shapeCasts_S1x64x64_S64x64 := by
    dsimp only [hostOps1]; after_results; rfl
  rw [e, shapeCast_1ab_ab_apply, mat_slice_apply 0 (by decide)]
  rfl

/-- The self-weight row: one plus entry 0 of the vector of self-weights, in every column. -/
theorem host1_epsb (u : Fin 1) (j : Fin 64) :
    (StableHlo.after hostOps1 Y main_v25 : S1x64.Idx → EReal) (ix2 u j)
      = ((1 : EReal) + (Y main_arg6 : S4.Idx → EReal) (ix1 0) : EReal) := by
  have e : (StableHlo.after hostOps1 Y main_v25 : S1x64.Idx → EReal)
      = broadcastInDim S1x64 ![] bcast_S_S1x64 (addf (constant (F := Ideal) S_ .f32 0x3F800000#32)
          (shapeCast S_ (extractStridedSlice S1 ![0] (Y main_arg6 : S4.Idx → EReal) slices_S4_S1_0) shapeCasts_S1_S_)) := by
    dsimp only [hostOps1]; after_results; rfl
  rw [e, spread_number_apply, addf_apply, constant_apply, Ideal.ofBits_one_f32, number_of_vec1_apply,
    entry_slice_apply 0 (by decide)]
  rfl

/-- The neighbour sum of the features the stretch is entered with, along the edge list. -/
theorem host1_agg :
    (StableHlo.after hostOps1 Y main_v17 : (⟨S50000x64, .f32⟩ : BufTy).Contents (Elt Ideal))
      = aggK (Y main_v2) (Y main_arg2) := by
  dsimp only [hostOps1]; after_results_simp; try rfl

/-- The vector of source nodes the stretch leaves for the later layers. -/
theorem host1_src :
    (StableHlo.after hostOps1 Y main_v4 : (⟨S800000, .i32⟩ : BufTy).Contents (Elt Ideal)) = srcOf (Y main_arg2) := by
  dsimp only [hostOps1]; after_results_simp; try rfl

/-- The vector of target nodes the stretch leaves for the later layers. -/
theorem host1_dst :
    (StableHlo.after hostOps1 Y main_v6 : (⟨S800000, .i32⟩ : BufTy).Contents (Elt Ideal)) = dstOf (Y main_arg2) := by
  dsimp only [hostOps1]; after_results_simp; try rfl

/-- The one-entry array of zeros the stretch leaves: the program's second result. -/
theorem host1_zero :
    (StableHlo.after hostOps1 Y main_v7 : S1.Idx → EReal)
      = broadcastInDim S1 ![] bcast_S_S1 (constant (F := Ideal) S_ .f32 0x00000000#32) := by
  dsimp only [hostOps1]; after_results; try rfl

end Cert.KernelIdeal.Glue

end
-- ==== Proof.KI.Glue.PoolDef.lean ====
/-
  The graph mean as the program's host operations compose it, named once: every node's row is added into the row of
  its graph in an array of zeros, the nodes of each graph are counted the same way (a one added per node), and each
  graph's sum is divided by its count taken as at least one.
-/
import proofs.«140206_j52750788330061_1_alg».proof.Proof.Gen.KernelIdeal

noncomputable section

namespace Cert.KernelIdeal.Glue

open Idealize.ShloMosaic
open Cert.KernelIdeal.Gen

/-- The mean of the node features `h` over each graph, `batch` giving every node's graph. -/
def poolK (h : (⟨S50000x64, .f32⟩ : BufTy).Contents (Elt Ideal))
    (batch : (⟨S50000, .i32⟩ : BufTy).Contents (Elt Ideal)) : (⟨S512x64, .f32⟩ : BufTy).Contents (Elt Ideal) :=
  Host.divf
    (Host.scatterAdd scatter_S512x64_S50000x1_S50000x64_1_0_0_1
      (broadcastInDim S512x64 ![] bcast_S_S512x64 (constant (F := Ideal) S_ .f32 0x00000000#32))
      (broadcastInDim S50000x1 ![0] bcast_S50000_S50000x1_0 batch) h)
    (broadcastInDim S512x64 ![0, 1] bcast_S512x1_S512x64_0_1
      (broadcastInDim S512x1 ![0] bcast_S512_S512x1_0
        (maximumf
          (Host.scatterAdd scatter_S512_S50000x1_S50000_n_0_0_1
            (broadcastInDim S512 ![] bcast_S_S512 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S512 ![] bcast_S_S512 (constant (F := Ideal) S_ .f32 0x3F800000#32)))))

end Cert.KernelIdeal.Glue

end
-- ==== Proof.KI.Glue.Host13.lean ====
/-
  The host operations before the classifier region, read back over whatever contents they are entered with: the pooled
  window is the graph mean of the last layer's features, and the two bias rows are the bias vectors as one row each.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import proofs.«140206_j52750788330061_1_alg».proof.Proof.KI.Glue.PoolDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The pooled window: the graph mean of the last layer's features. -/
theorem host13_pool :
    (StableHlo.after hostOps13 Y main_v175 : (⟨S512x64, .f32⟩ : BufTy).Contents (Elt Ideal))
      = poolK (Y main_v163) (Y main_arg3) := by
  dsimp only [hostOps13]; after_results; try rfl

/-- The first classifier bias as one row. -/
theorem host13_b1 (u : Fin 1) (j : Fin 64) :
    (StableHlo.after hostOps13 Y main_v176 : S1x64.Idx → EReal) (ix2 u j) = (Y main_arg16 : S64.Idx → EReal) (ix1 j) := by
  have e : (StableHlo.after hostOps13 Y main_v176 : S1x64.Idx → EReal)
      = shapeCast S1x64 (Y main_arg16 : S64.Idx → EReal) shapeCasts_S64_S1x64 := by
    dsimp only [hostOps13]; after_results; rfl
  rw [e, shapeCast_a_1a_apply]

/-- The second classifier bias as one row. -/
theorem host13_b2 (u : Fin 1) (q : Fin 10) :
    (StableHlo.after hostOps13 Y main_v177 : S1x10.Idx → EReal) (ix2 u q) = (Y main_arg18 : S10.Idx → EReal) (ix1 q) := by
  have e : (StableHlo.after hostOps13 Y main_v177 : S1x10.Idx → EReal)
      = shapeCast S1x10 (Y main_arg18 : S10.Idx → EReal) shapeCasts_S10_S1x10 := by
    dsimp only [hostOps13]; after_results; rfl
  rw [e, shapeCast_a_1a_apply]

end Cert.KernelIdeal.Glue

end
-- ==== Proof.KI.Glue.Steps.lean ====
/-
  The contents between the items, one item at a time: an item leaves alone every reference it does not write (a host
  stretch writes its operations' results, a region may change its output arrays), so a reference that no item writes
  holds its launch contents at every point of the program.
-/
import proofs.«140206_j52750788330061_1_alg».proof.Proof.KI.Fold

noncomputable section

namespace Cert.KernelIdeal.Glue

open Idealize.ShloMosaic Idealize.ShloMosaic.TcCoe
open Idealize.SL Idealize.SL.Sem
open Cert.KernelIdeal.Gen

variable (m : (ℓ : Loc nD τ sig) → Buf (Elt Ideal) ℓ) (c : Dev nD)

/-! ### One item -/

/-- Item 0 leaves alone what it does not write. -/
theorem X1_of (r : Ref sig .tc) (h : r ∉ hostOps0_W) : X1 m c r = X0 m c r :=
  (congrFun (V1_eq m c) _).symm.trans ((V1_of m c r h).trans (congrFun (V0_eq m c) _))
/-- Item 1 leaves alone what it does not write. -/
theorem X2_of (r : Ref sig .tc) (h : r ∉ ([main_v2] : List (Ref sig .tc))) : X2 m c r = X1 m c r :=
  (congrFun (V2_eq m c) _).symm.trans ((V2_of m (outsOf m) c r h).trans (congrFun (V1_eq m c) _))
/-- Item 2 leaves alone what it does not write. -/
theorem X3_of (r : Ref sig .tc) (h : r ∉ hostOps1_W) : X3 m c r = X2 m c r :=
  (congrFun (V3_eq m c) _).symm.trans ((V3_of m (outsOf m) c r h).trans (congrFun (V2_eq m c) _))
/-- Item 3 leaves alone what it does not write. -/
theorem X4_of (r : Ref sig .tc) (h : r ∉ ([main_v27_0, main_v27_1, main_v27_2] : List (Ref sig .tc))) : X4 m c r = X3 m c r :=
  (congrFun (V4_eq m c) _).symm.trans ((V4_of m (outsOf m) c r h).trans (congrFun (V3_eq m c) _))
/-- Item 4 leaves alone what it does not write. -/
theorem X5_of (r : Ref sig .tc) (h : r ∉ hostOps2_W) : X5 m c r = X4 m c r :=
  (congrFun (V5_eq m c) _).symm.trans ((V5_of m (outsOf m) c r h).trans (congrFun (V4_eq m c) _))
/-- Item 5 leaves alone what it does not write. -/
theorem X6_of (r : Ref sig .tc) (h : r ∉ ([main_v39_0, main_v39_1, main_v39_2] : List (Ref sig .tc))) : X6 m c r = X5 m c r :=
  (congrFun (V6_eq m c) _).symm.trans ((V6_of m (outsOf m) c r h).trans (congrFun (V5_eq m c) _))
/-- Item 6 leaves alone what it does not write. -/
theorem X7_of (r : Ref sig .tc) (h : r ∉ hostOps3_W) : X7 m c r = X6 m c r :=
  (congrFun (V7_eq m c) _).symm.trans ((V7_of m (outsOf m) c r h).trans (congrFun (V6_eq m c) _))
/-- Item 7 leaves alone what it does not write. -/
theorem X8_of (r : Ref sig .tc) (h : r ∉ ([main_v46] : List (Ref sig .tc))) : X8 m c r = X7 m c r :=
  (congrFun (V8_eq m c) _).symm.trans ((V8_of m (outsOf m) c r h).trans (congrFun (V7_eq m c) _))
/-- Item 8 leaves alone what it does not write. -/
theorem X9_of (r : Ref sig .tc) (h : r ∉ hostOps4_W) : X9 m c r = X8 m c r :=
  (congrFun (V9_eq m c) _).symm.trans ((V9_of m (outsOf m) c r h).trans (congrFun (V8_eq m c) _))
/-- Item 9 leaves alone what it does not write. -/
theorem X10_of (r : Ref sig .tc) (h : r ∉ ([main_v66_0, main_v66_1, main_v66_2] : List (Ref sig .tc))) : X10 m c r = X9 m c r :=
  (congrFun (V10_eq m c) _).symm.trans ((V10_of m (outsOf m) c r h).trans (congrFun (V9_eq m c) _))
/-- Item 10 leaves alone what it does not write. -/
theorem X11_of (r : Ref sig .tc) (h : r ∉ hostOps5_W) : X11 m c r = X10 m c r :=
  (congrFun (V11_eq m c) _).symm.trans ((V11_of m (outsOf m) c r h).trans (congrFun (V10_eq m c) _))
/-- Item 11 leaves alone what it does not write. -/
theorem X12_of (r : Ref sig .tc) (h : r ∉ ([main_v78_0, main_v78_1, main_v78_2] : List (Ref sig .tc))) : X12 m c r = X11 m c r :=
  (congrFun (V12_eq m c) _).symm.trans ((V12_of m (outsOf m) c r h).trans (congrFun (V11_eq m c) _))
/-- Item 12 leaves alone what it does not write. -/
theorem X13_of (r : Ref sig .tc) (h : r ∉ hostOps6_W) : X13 m c r = X12 m c r :=
  (congrFun (V13_eq m c) _).symm.trans ((V13_of m (outsOf m) c r h).trans (congrFun (V12_eq m c) _))
/-- Item 13 leaves alone what it does not write. -/
theorem X14_of (r : Ref sig .tc) (h : r ∉ ([main_v85] : List (Ref sig .tc))) : X14 m c r = X13 m c r :=
  (congrFun (V14_eq m c) _).symm.trans ((V14_of m (outsOf m) c r h).trans (congrFun (V13_eq m c) _))
/-- Item 14 leaves alone what it does not write. -/
theorem X15_of (r : Ref sig .tc) (h : r ∉ hostOps7_W) : X15 m c r = X14 m c r :=
  (congrFun (V15_eq m c) _).symm.trans ((V15_of m (outsOf m) c r h).trans (congrFun (V14_eq m c) _))
/-- Item 15 leaves alone what it does not write. -/
theorem X16_of (r : Ref sig .tc) (h : r ∉ ([main_v105_0, main_v105_1, main_v105_2] : List (Ref sig .tc))) : X16 m c r = X15 m c r :=
  (congrFun (V16_eq m c) _).symm.trans ((V16_of m (outsOf m) c r h).trans (congrFun (V15_eq m c) _))
/-- Item 16 leaves alone what it does not write. -/
theorem X17_of (r : Ref sig .tc) (h : r ∉ hostOps8_W) : X17 m c r = X16 m c r :=
  (congrFun (V17_eq m c) _).symm.trans ((V17_of m (outsOf m) c r h).trans (congrFun (V16_eq m c) _))
/-- Item 17 leaves alone what it does not write. -/
theorem X18_of (r : Ref sig .tc) (h : r ∉ ([main_v117_0, main_v117_1, main_v117_2] : List (Ref sig .tc))) : X18 m c r = X17 m c r :=
  (congrFun (V18_eq m c) _).symm.trans ((V18_of m (outsOf m) c r h).trans (congrFun (V17_eq m c) _))
/-- Item 18 leaves alone what it does not write. -/
theorem X19_of (r : Ref sig .tc) (h : r ∉ hostOps9_W) : X19 m c r = X18 m c r :=
  (congrFun (V19_eq m c) _).symm.trans ((V19_of m (outsOf m) c r h).trans (congrFun (V18_eq m c) _))
/-- Item 19 leaves alone what it does not write. -/
theorem X20_of (r : Ref sig .tc) (h : r ∉ ([main_v124] : List (Ref sig .tc))) : X20 m c r = X19 m c r :=
  (congrFun (V20_eq m c) _).symm.trans ((V20_of m (outsOf m) c r h).trans (congrFun (V19_eq m c) _))
/-- Item 20 leaves alone what it does not write. -/
theorem X21_of (r : Ref sig .tc) (h : r ∉ hostOps10_W) : X21 m c r = X20 m c r :=
  (congrFun (V21_eq m c) _).symm.trans ((V21_of m (outsOf m) c r h).trans (congrFun (V20_eq m c) _))
/-- Item 21 leaves alone what it does not write. -/
theorem X22_of (r : Ref sig .tc) (h : r ∉ ([main_v144_0, main_v144_1, main_v144_2] : List (Ref sig .tc))) : X22 m c r = X21 m c r :=
  (congrFun (V22_eq m c) _).symm.trans ((V22_of m (outsOf m) c r h).trans (congrFun (V21_eq m c) _))
/-- Item 22 leaves alone what it does not write. -/
theorem X23_of (r : Ref sig .tc) (h : r ∉ hostOps11_W) : X23 m c r = X22 m c r :=
  (congrFun (V23_eq m c) _).symm.trans ((V23_of m (outsOf m) c r h).trans (congrFun (V22_eq m c) _))
/-- Item 23 leaves alone what it does not write. -/
theorem X24_of (r : Ref sig .tc) (h : r ∉ ([main_v156_0, main_v156_1, main_v156_2] : List (Ref sig .tc))) : X24 m c r = X23 m c r :=
  (congrFun (V24_eq m c) _).symm.trans ((V24_of m (outsOf m) c r h).trans (congrFun (V23_eq m c) _))
/-- Item 24 leaves alone what it does not write. -/
theorem X25_of (r : Ref sig .tc) (h : r ∉ hostOps12_W) : X25 m c r = X24 m c r :=
  (congrFun (V25_eq m c) _).symm.trans ((V25_of m (outsOf m) c r h).trans (congrFun (V24_eq m c) _))
/-- Item 25 leaves alone what it does not write. -/
theorem X26_of (r : Ref sig .tc) (h : r ∉ ([main_v163] : List (Ref sig .tc))) : X26 m c r = X25 m c r :=
  (congrFun (V26_eq m c) _).symm.trans ((V26_of m (outsOf m) c r h).trans (congrFun (V25_eq m c) _))
/-- Item 26 leaves alone what it does not write. -/
theorem X27_of (r : Ref sig .tc) (h : r ∉ hostOps13_W) : X27 m c r = X26 m c r :=
  (congrFun (V27_eq m c) _).symm.trans ((V27_of m (outsOf m) c r h).trans (congrFun (V26_eq m c) _))
/-- Item 27 leaves alone what it does not write. -/
theorem X28_of (r : Ref sig .tc) (h : r ∉ ([main_v178] : List (Ref sig .tc))) : X28 m c r = X27 m c r :=
  (congrFun (V28_eq m c) _).symm.trans ((V28_of m (outsOf m) c r h).trans (congrFun (V27_eq m c) _))

/-! ### From the launch -/

/-- The references the items write, item by item. -/
abbrev writtenBy : List (List (Ref sig .tc)) :=
  [hostOps0_W,
   ([main_v2] : List (Ref sig .tc)),
   hostOps1_W,
   ([main_v27_0, main_v27_1, main_v27_2] : List (Ref sig .tc)),
   hostOps2_W,
   ([main_v39_0, main_v39_1, main_v39_2] : List (Ref sig .tc)),
   hostOps3_W,
   ([main_v46] : List (Ref sig .tc)),
   hostOps4_W,
   ([main_v66_0, main_v66_1, main_v66_2] : List (Ref sig .tc)),
   hostOps5_W,
   ([main_v78_0, main_v78_1, main_v78_2] : List (Ref sig .tc)),
   hostOps6_W,
   ([main_v85] : List (Ref sig .tc)),
   hostOps7_W,
   ([main_v105_0, main_v105_1, main_v105_2] : List (Ref sig .tc)),
   hostOps8_W,
   ([main_v117_0, main_v117_1, main_v117_2] : List (Ref sig .tc)),
   hostOps9_W,
   ([main_v124] : List (Ref sig .tc)),
   hostOps10_W,
   ([main_v144_0, main_v144_1, main_v144_2] : List (Ref sig .tc)),
   hostOps11_W,
   ([main_v156_0, main_v156_1, main_v156_2] : List (Ref sig .tc)),
   hostOps12_W,
   ([main_v163] : List (Ref sig .tc)),
   hostOps13_W,
   ([main_v178] : List (Ref sig .tc))]

/-- A reference that no host stretch writes and no region may change. -/
abbrev Untouched (r : Ref sig .tc) : Prop := r ∉ writtenBy.flatten

/-- At launch every reference holds the launch memory. -/
theorem X0_launch (r : Ref sig .tc) : X0 m c r = m ((c : Thread nD τ).loc r) := rfl
/-- An untouched reference holds its launch contents after item 0. -/
theorem X1_launch (r : Ref sig .tc) (h : Untouched r) : X1 m c r = m ((c : Thread nD τ).loc r) :=
  (X1_of m c r (fun hk => h (List.mem_flatten.2 ⟨hostOps0_W, .head _, hk⟩))).trans (X0_launch m c r)
/-- An untouched reference holds its launch contents after item 1. -/
theorem X2_launch (r : Ref sig .tc) (h : Untouched r) : X2 m c r = m ((c : Thread nD τ).loc r) :=
  (X2_of m c r (fun hk => h (List.mem_flatten.2 ⟨([main_v2] : List (Ref sig .tc)), .tail _ (.head _), hk⟩))).trans (X1_launch m c r h)
/-- An untouched reference holds its launch contents after item 2. -/
theorem X3_launch (r : Ref sig .tc) (h : Untouched r) : X3 m c r = m ((c : Thread nD τ).loc r) :=
  (X3_of m c r (fun hk => h (List.mem_flatten.2 ⟨hostOps1_W, .tail _ (.tail _ (.head _)), hk⟩))).trans (X2_launch m c r h)
/-- An untouched reference holds its launch contents after item 3. -/
theorem X4_launch (r : Ref sig .tc) (h : Untouched r) : X4 m c r = m ((c : Thread nD τ).loc r) :=
  (X4_of m c r (fun hk => h (List.mem_flatten.2 ⟨([main_v27_0, main_v27_1, main_v27_2] : List (Ref sig .tc)), .tail _ (.tail _ (.tail _ (.head _))), hk⟩))).trans (X3_launch m c r h)
/-- An untouched reference holds its launch contents after item 4. -/
theorem X5_launch (r : Ref sig .tc) (h : Untouched r) : X5 m c r = m ((c : Thread nD τ).loc r) :=
  (X5_of m c r (fun hk => h (List.mem_flatten.2 ⟨hostOps2_W, .tail _ (.tail _ (.tail _ (.tail _ (.head _)))), hk⟩))).trans (X4_launch m c r h)
/-- An untouched reference holds its launch contents after item 5. -/
theorem X6_launch (r : Ref sig .tc) (h : Untouched r) : X6 m c r = m ((c : Thread nD τ).loc r) :=
  (X6_of m c r (fun hk => h (List.mem_flatten.2 ⟨([main_v39_0, main_v39_1, main_v39_2] : List (Ref sig .tc)), .tail _ (.tail _ (.tail _ (.tail _ (.tail _ (.head _))))), hk⟩))).trans (X5_launch m c r h)
/-- An untouched reference holds its launch contents after item 6. -/
theorem X7_launch (r : Ref sig .tc) (h : Untouched r) : X7 m c r = m ((c : Thread nD τ).loc r) :=
  (X7_of m c r (fun hk => h (List.mem_flatten.2 ⟨hostOps3_W, .tail _ (.tail _ (.tail _ (.tail _ (.tail _ (.tail _ (.head _)))))), hk⟩))).trans (X6_launch m c r h)
/-- An untouched reference holds its launch contents after item 7. -/
theorem X8_launch (r : Ref sig .tc) (h : Untouched r) : X8 m c r = m ((c : Thread nD τ).loc r) :=
  (X8_of m c r (fun hk => h (List.mem_flatten.2 ⟨([main_v46] : List (Ref sig .tc)), .tail _ (.tail _ (.tail _ (.tail _ (.tail _ (.tail _ (.tail _ (.head _))))))), hk⟩))).trans (X7_launch m c r h)
/-- An untouched reference holds its launch contents after item 8. -/
theorem X9_launch (r : Ref sig .tc) (h : Untouched r) : X9 m c r = m ((c : Thread nD τ).loc r) :=
  (X9_of m c r (fun hk => h (List.mem_flatten.2 ⟨hostOps4_W, .tail _ (.tail _ (.tail _ (.tail _ (.tail _ (.tail _ (.tail _ (.tail _ (.head _)))))))), hk⟩))).trans (X8_launch m c r h)
/-- An untouched reference holds its launch contents after item 9. -/
theorem X10_launch (r : Ref sig .tc) (h : Untouched r) : X10 m c r = m ((c : Thread nD τ).loc r) :=
  (X10_of m c r (fun hk => h (List.mem_flatten.2 ⟨([main_v66_0, main_v66_1, main_v66_2] : List (Ref sig .tc)), .tail _ (.tail _ (.tail _ (.tail _ (.tail _ (.tail _ (.tail _ (.tail _ (.tail _ (.head _))))))))), hk⟩))).trans (X9_launch m c r h)
/-- An untouched reference holds its launch contents after item 10. -/
theorem X11_launch (r : Ref sig .tc) (h : Untouched r) : X11 m c r = m ((c : Thread nD τ).loc r) :=
  (X11_of m c r (fun hk => h (List.mem_flatten.2 ⟨hostOps5_W, .tail _ (.tail _ (.tail _ (.tail _ (.tail _ (.tail _ (.tail _ (.tail _ (.tail _ (.tail _ (.head _)))))))))), hk⟩))).trans (X10_launch m c r h)
/-- An untouched reference holds its launch contents after item 11. -/
theorem X12_launch (r : Ref sig .tc) (h : Untouched r) : X12 m c r = m ((c : Thread nD τ).loc r) :=
  (X12_of m c r (fun hk => h (List.mem_flatten.2 ⟨([main_v78_0, main_v78_1, main_v78_2] : List (Ref sig .tc)), .tail _ (.tail _ (.tail _ (.tail _ (.tail _ (.tail _ (.tail _ (.tail _ (.tail _ (.tail _ (.tail _ (.head _))))))))))), hk⟩))).trans (X11_launch m c r h)
/-- An untouched reference holds its launch contents after item 12. -/
theorem X13_launch (r : Ref sig .tc) (h : Untouched r) : X13 m c r = m ((c : Thread nD τ).loc r) :=
  (X13_of m c r (fun hk => h (List.mem_flatten.2 ⟨hostOps6_W, .tail _ (.tail _ (.tail _ (.tail _ (.tail _ (.tail _ (.tail _ (.tail _ (.tail _ (.tail _ (.tail _ (.tail _ (.head _)))))))))))), hk⟩))).trans (X12_launch m c r h)
/-- An untouched reference holds its launch contents after item 13. -/
theorem X14_launch (r : Ref sig .tc) (h : Untouched r) : X14 m c r = m ((c : Thread nD τ).loc r) :=
  (X14_of m c r (fun hk => h (List.mem_flatten.2 ⟨([main_v85] : List (Ref sig .tc)), .tail _ (.tail _ (.tail _ (.tail _ (.tail _ (.tail _ (.tail _ (.tail _ (.tail _ (.tail _ (.tail _ (.tail _ (.tail _ (.head _))))))))))))), hk⟩))).trans (X13_launch m c r h)
/-- An untouched reference holds its launch contents after item 14. -/
theorem X15_launch (r : Ref sig .tc) (h : Untouched r) : X15 m c r = m ((c : Thread nD τ).loc r) :=
  (X15_of m c r (fun hk => h (List.mem_flatten.2 ⟨hostOps7_W, .tail _ (.tail _ (.tail _ (.tail _ (.tail _ (.tail _ (.tail _ (.tail _ (.tail _ (.tail _ (.tail _ (.tail _ (.tail _ (.tail _ (.head _)))))))))))))), hk⟩))).trans (X14_launch m c r h)
/-- An untouched reference holds its launch contents after item 15. -/
theorem X16_launch (r : Ref sig .tc) (h : Untouched r) : X16 m c r = m ((c : Thread nD τ).loc r) :=
  (X16_of m c r (fun hk => h (List.mem_flatten.2 ⟨([main_v105_0, main_v105_1, main_v105_2] : List (Ref sig .tc)), .tail _ (.tail _ (.tail _ (.tail _ (.tail _ (.tail _ (.tail _ (.tail _ (.tail _ (.tail _ (.tail _ (.tail _ (.tail _ (.tail _ (.tail _ (.head _))))))))))))))), hk⟩))).trans (X15_launch m c r h)
/-- An untouched reference holds its launch contents after item 16. -/
theorem X17_launch (r : Ref sig .tc) (h : Untouched r) : X17 m c r = m ((c : Thread nD τ).loc r) :=
  (X17_of m c r (fun hk => h (List.mem_flatten.2 ⟨hostOps8_W, .tail _ (.tail _ (.tail _ (.tail _ (.tail _ (.tail _ (.tail _ (.tail _ (.tail _ (.tail _ (.tail _ (.tail _ (.tail _ (.tail _ (.tail _ (.tail _ (.head _)))))))))))))))), hk⟩))).trans (X16_launch m c r h)
/-- An untouched reference holds its launch contents after item 17. -/
theorem X18_launch (r : Ref sig .tc) (h : Untouched r) : X18 m c r = m ((c : Thread nD τ).loc r) :=
  (X18_of m c r (fun hk => h (List.mem_flatten.2 ⟨([main_v117_0, main_v117_1, main_v117_2] : List (Ref sig .tc)), .tail _ (.tail _ (.tail _ (.tail _ (.tail _ (.tail _ (.tail _ (.tail _ (.tail _ (.tail _ (.tail _ (.tail _ (.tail _ (.tail _ (.tail _ (.tail _ (.tail _ (.head _))))))))))))))))), hk⟩))).trans (X17_launch m c r h)
/-- An untouched reference holds its launch contents after item 18. -/
theorem X19_launch (r : Ref sig .tc) (h : Untouched r) : X19 m c r = m ((c : Thread nD τ).loc r) :=
  (X19_of m c r (fun hk => h (List.mem_flatten.2 ⟨hostOps9_W, .tail _ (.tail _ (.tail _ (.tail _ (.tail _ (.tail _ (.tail _ (.tail _ (.tail _ (.tail _ (.tail _ (.tail _ (.tail _ (.tail _ (.tail _ (.tail _ (.tail _ (.tail _ (.head _)))))))))))))))))), hk⟩))).trans (X18_launch m c r h)
/-- An untouched reference holds its launch contents after item 19. -/
theorem X20_launch (r : Ref sig .tc) (h : Untouched r) : X20 m c r = m ((c : Thread nD τ).loc r) :=
  (X20_of m c r (fun hk => h (List.mem_flatten.2 ⟨([main_v124] : List (Ref sig .tc)), .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), hk⟩))).trans (X19_launch m c r h)
/-- An untouched reference holds its launch contents after item 20. -/
theorem X21_launch (r : Ref sig .tc) (h : Untouched r) : X21 m c r = m ((c : Thread nD τ).loc r) :=
  (X21_of m c r (fun hk => h (List.mem_flatten.2 ⟨hostOps10_W, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), hk⟩))).trans (X20_launch m c r h)
/-- An untouched reference holds its launch contents after item 21. -/
theorem X22_launch (r : Ref sig .tc) (h : Untouched r) : X22 m c r = m ((c : Thread nD τ).loc r) :=
  (X22_of m c r (fun hk => h (List.mem_flatten.2 ⟨([main_v144_0, main_v144_1, main_v144_2] : List (Ref sig .tc)), .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), hk⟩))).trans (X21_launch m c r h)
/-- An untouched reference holds its launch contents after item 22. -/
theorem X23_launch (r : Ref sig .tc) (h : Untouched r) : X23 m c r = m ((c : Thread nD τ).loc r) :=
  (X23_of m c r (fun hk => h (List.mem_flatten.2 ⟨hostOps11_W, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), hk⟩))).trans (X22_launch m c r h)
/-- An untouched reference holds its launch contents after item 23. -/
theorem X24_launch (r : Ref sig .tc) (h : Untouched r) : X24 m c r = m ((c : Thread nD τ).loc r) :=
  (X24_of m c r (fun hk => h (List.mem_flatten.2 ⟨([main_v156_0, main_v156_1, main_v156_2] : List (Ref sig .tc)), .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), hk⟩))).trans (X23_launch m c r h)
/-- An untouched reference holds its launch contents after item 24. -/
theorem X25_launch (r : Ref sig .tc) (h : Untouched r) : X25 m c r = m ((c : Thread nD τ).loc r) :=
  (X25_of m c r (fun hk => h (List.mem_flatten.2 ⟨hostOps12_W, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), hk⟩))).trans (X24_launch m c r h)
/-- An untouched reference holds its launch contents after item 25. -/
theorem X26_launch (r : Ref sig .tc) (h : Untouched r) : X26 m c r = m ((c : Thread nD τ).loc r) :=
  (X26_of m c r (fun hk => h (List.mem_flatten.2 ⟨([main_v163] : List (Ref sig .tc)), .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), hk⟩))).trans (X25_launch m c r h)
/-- An untouched reference holds its launch contents after item 26. -/
theorem X27_launch (r : Ref sig .tc) (h : Untouched r) : X27 m c r = m ((c : Thread nD τ).loc r) :=
  (X27_of m c r (fun hk => h (List.mem_flatten.2 ⟨hostOps13_W, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), hk⟩))).trans (X26_launch m c r h)
/-- An untouched reference holds its launch contents after item 27. -/
theorem X28_launch (r : Ref sig .tc) (h : Untouched r) : X28 m c r = m ((c : Thread nD τ).loc r) :=
  (X28_of m c r (fun hk => h (List.mem_flatten.2 ⟨([main_v178] : List (Ref sig .tc)), .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), hk⟩))).trans (X27_launch m c r h)

end Cert.KernelIdeal.Glue

end
-- ==== Proof.KI.PayLib.lean ====
/-
  Block operations of a dense layer, read at one entry on the extended reals, for blocks of any size.

  * The product of an M x K block with a K x N block (the left contracted on its second axis, the right on its
    first, no batch axis), accumulated into the zero block: entry (a, j) is the sum over k of
    left (a, k) * right (k, j).  The two operands may be stored in any float formats: on the extended reals a
    change of format is the identity, so the formats are parameters of the statement and play no part in it.
  * The sum of an M x N block down its rows: at column q, the sum over the rows i of the entry (i, q).
  * The reciprocal square root of a block, entry by entry.
-/
import Idealize.ShloMosaic.PureOps.Ideal.Laws
import Idealize.ShloMosaic.Lib.ValueIdx
import Idealize.ShloMosaic.Lib.Pipeline.Value

noncomputable section

namespace Cert.PayLib

open Idealize.ShloMosaic Idealize.ShloMosaic.ValueIdx

variable (M K N : Nat)

/-- The contraction index of the plain product, named by its one coordinate. -/
abbrev contr : (DotDims.plain M K N).contr.Idx ≃ Fin K := contrEquiv1 (DotDims.plain M K N) K rfl rfl

/-- At output entry (a, j) and contraction coordinate k the left operand is read at (a, k). -/
theorem left_at (a : Fin M) (j : Fin N) (k : Fin K) :
    (DotDims.plain M K N).lhsIdx (ix2 a j) ((contr M K N).symm k) = ix2 a k :=
  Shape.idx_ext₂ rfl
    (((DotDims.plain M K N).lhsIdx_val_of_single rfl _ _).trans (contrEquiv1_symm_val (DotDims.plain M K N) K rfl rfl k))

/-- At output entry (a, j) and contraction coordinate k the right operand is read at (k, j). -/
theorem right_at (a : Fin M) (j : Fin N) (k : Fin K) :
    (DotDims.plain M K N).rhsIdx (ix2 a j) ((contr M K N).symm k) = ix2 k j :=
  Shape.idx_ext₂
    (((DotDims.plain M K N).rhsIdx_val_of_single rfl _ _).trans (contrEquiv1_symm_val (DotDims.plain M K N) K rfl rfl k)) rfl

/-- The plain product into the zero block, at entry (a, j). -/
theorem plainProduct_apply {φ₁ φ₂ : FTy} (A : FVec Ideal ⟨2, ![M, K]⟩ φ₁) (B : FVec Ideal ⟨2, ![K, N]⟩ φ₂)
    (a : Fin M) (j : Fin N) :
    matmul (DotDims.plain M K N) none A B (constant (F := Ideal) ⟨2, ![M, N]⟩ .f32 0x00000000#32) (ix2 a j)
      = ∑ k : Fin K, A (ix2 a k) * B (ix2 k j) := by
  simp only [matmul]
  rw [Ideal.matmul_constant_zero_apply, ← Equiv.sum_comp (contr M K N).symm]
  exact Finset.sum_congr rfl fun k _ => by rw [left_at, right_at]

/-- The sum of a block down its rows, at column q. -/
theorem rowSum_apply (src : FVec Ideal ⟨2, ![M, N]⟩ .f32) (h : Shape.Reduces ⟨2, ![M, N]⟩ [0] ⟨1, ![N]⟩)
    (hφ : FKind.Formats .f32) (hacc : (0x00000000#32 : BitVec 32) = 0x00000000#32) (q : Fin N) :
    multiReduction .add [0] ⟨1, ![N]⟩ src 0x00000000#32 h hφ hacc (ix1 q) = ∑ i : Fin M, src (ix2 i q) := by
  refine (Ideal.multiReduction_add_single src 0x00000000#32 h hφ hacc (ix1 q)).trans ?_
  exact Finset.sum_congr rfl fun i _ => congrArg src (Shape.idx_ext₂ rfl rfl)

/-- The reciprocal square root of a block is taken entry by entry. -/
theorem rsqrt_apply {s : Shape} {φ : FTy} (x : FVec Ideal s φ) (i : s.Idx) : rsqrt x i = Ideal.rsqrt (x i) := rfl

end Cert.PayLib

end
-- ==== Proof.KI.Pay0.lean ====
/-
  The embedding body, read at one entry on the extended reals: the 5000 x 6 input block times the 6 x 64 weight,
  plus the bias row.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The embedding's product has the plain dimension numbers: left contracted on axis 1, right on axis 0. -/
theorem k0_dot_plain : dot_S5000x6_S6x64_S5000x64_1_0_0_1_n_n = DotDims.plain 5000 6 64 := rfl

/-- The block written back: input rows times the weight, plus the bias. -/
theorem k0_pay1_apply (v0 : Vec Ideal S5000x6 .f32) (v3 : Vec Ideal S6x64 .f32) (v6 : Vec Ideal S1x64 .f32)
    (p : Fin 5000) (q : Fin 64) :
    Gen.k0_pay1 (F := Ideal) v0 v3 v6 (ix2 p q)
      = affine (fun i t => v0 (ix2 i t)) (fun t j => v3 (ix2 t j)) (fun j => v6 (ix2 0 j)) p q := by
  unfold Gen.k0_pay1
  rw [addf_apply, k0_dot_plain, Cert.PayLib.plainProduct_apply, broadcastTo_1b_ab_apply]
  simp only [truncf_apply, shapeCast_self]
  rfl

end Cert.KernelIdeal.PayVal

end
-- ==== Proof.KI.Val0.lean ====
/-
  The embedding region, from blocks to the array, on the extended reals.

  The region's grid has ten points; point t works on rows t * 5000 .. t * 5000 + 4999. The feature window shows row
  block t of the 50000 x 6 feature matrix, the output window row block t of the 50000 x 64 output; the weight window
  and the bias window show the whole 6 x 64 matrix and the whole 1 x 64 row at every point. At each point the body
  writes, over the whole output block, the feature block times the weights plus the bias row. Row i of that product
  needs only row i of the features, so block t of the output is block t of ONE function of the whole input arrays;
  the ten blocks tile the output array (row r lies in block r / 5000); so after the last write-back the output array
  is the feature matrix times the weights plus the bias, entry by entry.
-/
import proofs.«140206_j52750788330061_1_alg».proof.Proof.KI.Reg0
import proofs.«140206_j52750788330061_1_alg».proof.Proof.KI.Pay0
import proofs.«140206_j52750788330061_1_alg».proof.Proof.Spec
import Idealize.ShloMosaic.Lib.ValueIdx
import Idealize.ShloMosaic.Lib.Pipeline.Value
import Idealize.ShloMosaic.Lib.Tactic

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- A whole block is read and written from its origin. -/
theorem origin0 : (![0, 0] : Fin 2 → Nat) = fun _ => 0 := funext fun a => by fin_cases a <;> rfl

/-- Rows times a weight matrix plus a bias row, at entry (i, j), needs row i of the rows, column j of the weights and
    entry j of the bias: two instances agree at an entry as soon as those agree. -/
theorem affineEntry0 {n n' k : Nat} (x : Mat n k) (x' : Mat n' k) (W W' : Mat k 64) (b b' : Row) (i : Fin n) (i' : Fin n')
    (j : Fin 64) (hx : ∀ t, x i t = x' i' t) (hW : ∀ t, W t j = W' t j) (hb : b j = b' j) :
    affine x W b i j = affine x' W' b' i' j := by
  unfold affine
  rw [hb]
  exact congrArg (· + b' j) (Finset.sum_congr rfl fun t _ => by rw [hx, hW])

/-- The output array of the region as one function of the three input arrays as the region finds them. -/
def embedArr0 (c : Dev nD) : S50000x64.Idx → EReal := fun k =>
  affine (fun i t => V c (Pipeline.arrRef spec0 0) (ix2 i t)) (fun t j => V c (Pipeline.arrRef spec0 1) (ix2 t j))
    (fun j => V c (Pipeline.arrRef spec0 2) (ix2 0 j)) (k 0) (k 1)

/-- The block indices over the grid: the feature window and the output window are at row block t, column block 0;
    the weight window and the bias window stay at block (0, 0). -/
theorem blockIndex0 : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The feature block at point t, entry (p, u), is the feature matrix at row t * 5000 + p, column u. -/
theorem featBlock0_apply (c : Dev nD) (t : Fin cfg0.N) (p : Fin 5000) (u : Fin 6) (k : S50000x6.Idx)
    (hk0 : (k 0).val = t.val * 5000 + p.val) (hk1 : (k 1).val = u.val) :
    (iblk0 V c 0 t : Vec Ideal S5000x6 .f32) (ix2 p u) = (V c (Pipeline.arrRef spec0 0) : S50000x6.Idx → EReal) k := by
  obtain ⟨e0, e1, -⟩ := blockIndex0 t
  unfold iblk0
  rw [View.read_apply]
  refine congrArg (V c (Pipeline.arrRef spec0 0) : S50000x6.Idx → EReal) ?_
  funext a
  apply Fin.ext
  match a with
  | ⟨0, _⟩ => show win0_0.index t 0 * 5000 + 1 * p.val = (k 0).val; rw [e0, hk0]; omega
  | ⟨1, _⟩ => show win0_0.index t 1 * 6 + 1 * u.val = (k 1).val; rw [e1, hk1]; omega

/-- The weight window shows the whole weight matrix at every point. -/
theorem weightBlock0_apply (c : Dev nD) (t : Fin cfg0.N) (u : Fin 6) (q : Fin 64) :
    (iblk0 V c 1 t : Vec Ideal S6x64 .f32) (ix2 u q) = (V c (Pipeline.arrRef spec0 1) : S6x64.Idx → EReal) (ix2 u q) := by
  obtain ⟨-, -, -, -, e0, e1, -, -⟩ := blockIndex0 t
  unfold iblk0
  rw [View.read_apply]
  refine congrArg (V c (Pipeline.arrRef spec0 1) : S6x64.Idx → EReal) ?_
  funext a
  apply Fin.ext
  match a with
  | ⟨0, _⟩ => show win0_1.index t 0 * 6 + 1 * u.val = u.val; rw [e0]; omega
  | ⟨1, _⟩ => show win0_1.index t 1 * 64 + 1 * q.val = q.val; rw [e1]; omega

/-- The bias window shows the whole bias row at every point. -/
theorem biasBlock0_apply (c : Dev nD) (t : Fin cfg0.N) (q : Fin 64) :
    (iblk0 V c 2 t : Vec Ideal S1x64 .f32) (ix2 0 q) = (V c (Pipeline.arrRef spec0 2) : S1x64.Idx → EReal) (ix2 0 q) := by
  obtain ⟨-, -, -, -, -, -, e0, e1⟩ := blockIndex0 t
  unfold iblk0
  rw [View.read_apply]
  refine congrArg (V c (Pipeline.arrRef spec0 2) : S1x64.Idx → EReal) ?_
  funext a
  apply Fin.ext
  match a with
  | ⟨0, _⟩ => show win0_2.index t 0 * 1 + 1 * 0 = 0; rw [e0]
  | ⟨1, _⟩ => show win0_2.index t 1 * 64 + 1 * q.val = q.val; rw [e1]; omega

/-- What point t writes back is block t of the region's output function. The body's one store leaves its payload
    over the whole block; at entry (p, q) the payload is row p of the feature block times column q of the weights
    plus entry q of the bias; row p of the feature block is row t * 5000 + p of the feature matrix, which is the row
    in which the output block's entry (p, q) lies in the output array. -/
theorem flushed0_eq (c : Dev nD) (t : Fin cfg0.N) :
    (dat0 V c).flushed 3 t = ((cfg0.win 3).blk t).view.read (Elt Ideal) (embedArr0 V c) := by
  show (cfg0.win 3).cut (grid0.coords t) ((dat0 V c).after 3 t) = _
  rw [after0_3]
  unfold out0_3
  rw [View.canon_unit_zero origin0]
  simp only [View.ld_unit_zero (S := S5000x6) origin0, View.ld_unit_zero (S := S6x64) origin0,
    View.ld_unit_zero (S := S1x64) origin0]
  obtain ⟨-, -, e0, e1, -⟩ := blockIndex0 t
  funext y
  obtain ⟨p, q, rfl⟩ : ∃ (p : Fin 5000) (q : Fin 64), y = ix2 p q := ⟨y 0, y 1, eq_ix2 y⟩
  show k0_pay1 (iblk0 V c 0 t) (iblk0 V c 1 t) (iblk0 V c 2 t) (ix2 p q)
    = embedArr0 V c (((cfg0.win 3).blk t).view.emb (ix2 p q))
  refine (Cert.KernelIdeal.PayVal.k0_pay1_apply _ _ _ p q).trans ?_
  unfold embedArr0
  have hrow : ((((cfg0.win 3).blk t).view.emb (ix2 p q) : S50000x64.Idx) 0).val = t.val * 5000 + p.val := by
    show win0_3.index t 0 * 5000 + 1 * p.val = _; rw [e0]; omega
  have hcol : ((((cfg0.win 3).blk t).view.emb (ix2 p q) : S50000x64.Idx) 1).val = q.val := by
    show win0_3.index t 1 * 64 + 1 * q.val = _; rw [e1]; omega
  have hq : ((((cfg0.win 3).blk t).view.emb (ix2 p q) : S50000x64.Idx) 1) = q := Fin.ext hcol
  rw [hq]
  refine affineEntry0 _ _ _ _ _ _ _ _ q (fun u => ?_) (fun u => ?_) ?_
  · exact featBlock0_apply V c t p u _ hrow rfl
  · exact weightBlock0_apply V c t u q
  · exact biasBlock0_apply V c t q

/-- An index of the output array lies in point t's block exactly when each coordinate lies in the block's range. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole (Pipeline.arrRef spec0 3)).slice (win0_3.rect t)).set ↔ _
  rw [View.set_slice_whole, Rect.mem_set_unit]
  exact Iff.rfl

/-- Every index of the output array lies in the block of a point that writes back: row r lies in the block of
    point r / 5000, and the one column block spans all 64 columns. -/
theorem cover0 (i : S50000x64.Idx) :
    ∃ t : Fin cfg0.N, (cfg0.win 3).flush t = true ∧ i ∈ ((cfg0.win 3).blk t).view.set := by
  have h0 : (i 0).val < 50000 := (i 0).isLt
  have h1 : (i 1).val < 64 := (i 1).isLt
  have hN : grid0.N = 10 := N_0
  let t : Fin cfg0.N := ⟨(i 0).val / 5000, by show _ < grid0.N; rw [hN]; omega⟩
  obtain ⟨-, -, e0, e1, -⟩ := blockIndex0 t
  have ht : t.val = (i 0).val / 5000 := rfl
  refine ⟨t, flush0_3 t, ?_⟩
  rw [mem_blk0]
  intro a
  match a with
  | ⟨0, _⟩ => show win0_3.index t 0 * 5000 ≤ (i 0).val ∧ (i 0).val < win0_3.index t 0 * 5000 + 5000; rw [e0, ht]; omega
  | ⟨1, _⟩ => show win0_3.index t 1 * 64 ≤ (i 1).val ∧ (i 1).val < win0_3.index t 1 * 64 + 64; rw [e1]; omega

/-- The output array after the region's last write-back is the region's output function of the input arrays. -/
theorem arrAt0_eq (c : Dev nD) : (dat0 (F := Ideal) V c).arrAt 3 cfg0.N = embedArr0 V c :=
  (dat0 V c).arrAt_eq_of_cover 3 (embedArr0 V c) (fun t _ => flushed0_eq V c t) (cover0)

/-- Entry (i, j) of the output array after the region: row i of the feature matrix the region finds in its first
    window times column j of the weights it finds in its second, plus entry j of the bias row it finds in its third. -/
theorem arrAt0_apply (c : Dev nD) (i : Fin 50000) (j : Fin 64) :
    (dat0 (F := Ideal) V c).arrAt 3 cfg0.N (ix2 i j)
      = affine (fun i t => V c (Pipeline.arrRef spec0 0) (ix2 i t)) (fun t j => V c (Pipeline.arrRef spec0 1) (ix2 t j))
          (fun j => V c (Pipeline.arrRef spec0 2) (ix2 0 j)) i j := by
  rw [arrAt0_eq]
  rfl

end Cert.KernelIdeal.Val

end
-- ==== Proof.KI.Pay13.lean ====
/-
  The classifier body, read at one entry on the extended reals: the 512 x 64 pooled block through a first weight
  and bias, the positive part, then through a second weight with 10 columns and its bias.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The hidden product has the plain dimension numbers: left contracted on axis 1, right on axis 0. -/
theorem k13_dot_hidden : dot_S512x64_S64x64_S512x64_1_0_0_1_n_n = DotDims.plain 512 64 64 := rfl

/-- So has the product onto the 10 classes. -/
theorem k13_dot_out : dot_S512x64_S64x10_S512x10_1_0_0_1_n_n = DotDims.plain 512 64 10 := rfl

/-- The block written back: the clipped hidden layer times the second weight, plus the second bias. -/
theorem k13_pay1_apply (v0 : Vec Ideal S512x64 .f32) (v3 : Vec Ideal S64x64 .f32) (v6 : Vec Ideal S1x64 .f32)
    (v13 : Vec Ideal S64x10 .f32) (v16 : Vec Ideal S1x10 .f32) (p : Fin 512) (q : Fin 10) :
    Gen.k13_pay1 (F := Ideal) v0 v3 v6 v13 v16 (ix2 p q)
      = (∑ t : Fin 64,
            max (affine (fun i j => v0 (ix2 i j)) (fun t j => v3 (ix2 t j)) (fun j => v6 (ix2 0 j)) p t) 0
              * v13 (ix2 t q))
          + v16 (ix2 0 q) := by
  unfold Gen.k13_pay1
  rw [addf_apply, k13_dot_out, Cert.PayLib.plainProduct_apply, broadcastTo_1b_ab_apply]
  simp only [truncf_apply, maximumf_apply, addf_apply, shapeCast_self, broadcast_apply, broadcastTo_1b_ab_apply,
    k13_dot_hidden, Cert.PayLib.plainProduct_apply]
  simp only [show Scalar.ofBits (F := Ideal) .f32 0x00000000#32 = (0 : EReal) from Ideal.ofBits_zero_f32]
  rfl

end Cert.KernelIdeal.PayVal

end
-- ==== Proof.KI.Val13.lean ====
/-
  The classifier region, from blocks to the array, on the extended reals.

  The region's grid has one point, and each of its six windows shows the whole of its array: the 512 x 64 pooled
  features, the 64 x 64 hidden weights, the 1 x 64 hidden bias, the 64 x 10 output weights, the 1 x 10 output bias,
  and the 512 x 10 scores. The body writes, over the whole score block, the positive part of the hidden layer
  (pooled features times hidden weights plus hidden bias) times the output weights plus the output bias. The one
  block is the whole array, so after the write-back the score array is that function of the input arrays as the
  region found them, entry by entry.
-/
import proofs.«140206_j52750788330061_1_alg».proof.Proof.KI.Reg13
import proofs.«140206_j52750788330061_1_alg».proof.Proof.KI.Pay13
import proofs.«140206_j52750788330061_1_alg».proof.Proof.Spec
import Idealize.ShloMosaic.Lib.ValueIdx
import Idealize.ShloMosaic.Lib.Pipeline.Value
import Idealize.ShloMosaic.Lib.Tactic

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- A whole block is read and written from its origin. -/
theorem origin13 : (![0, 0] : Fin 2 → Nat) = fun _ => 0 := funext fun a => by fin_cases a <;> rfl

/-- The score array of the region as one function of the five input arrays as the region finds them: at (i, q) the
    sum over the 64 hidden units t of the positive part of hidden unit (i, t) times output weight (t, q), plus
    output bias q. -/
def scoreArr13 (c : Dev nD) : S512x10.Idx → EReal := fun k =>
  (∑ t : Fin 64,
      max (affine (fun i j => V c (Pipeline.arrRef spec13 0) (ix2 i j)) (fun t j => V c (Pipeline.arrRef spec13 1) (ix2 t j))
          (fun j => V c (Pipeline.arrRef spec13 2) (ix2 0 j)) (k 0) t) 0
        * (V c (Pipeline.arrRef spec13 3) : S64x10.Idx → EReal) (ix2 t (k 1)))
    + (V c (Pipeline.arrRef spec13 4) : S1x10.Idx → EReal) (ix2 0 (k 1))

/-- Every window's block index at the grid's one point is (0, 0). -/
theorem blockIndex13 : ∀ t : Fin cfg13.N,
    win13_0.index t (0 : Fin 2) = 0 ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0 :=
  (by decide +kernel : ∀ t : Fin grid13.N, _)

/-- The pooled-feature window shows the whole array at the grid's one point. -/
theorem wholeBlock13_0 (c : Dev nD) (t : Fin cfg13.N) :
    (iblk13 V c 0 t : Vec Ideal S512x64 .f32) = (V c (Pipeline.arrRef spec13 0) : S512x64.Idx → EReal) := by
  obtain ⟨e0, e1, -, -, -, -, -, -, -, -, -, -⟩ := blockIndex13 t
  funext y
  unfold iblk13
  rw [View.read_apply]
  refine congrArg (V c (Pipeline.arrRef spec13 0) : S512x64.Idx → EReal) ?_
  funext a
  apply Fin.ext
  match a with
  | ⟨0, _⟩ => show win13_0.index t 0 * 512 + 1 * (y 0).val = (y 0).val; rw [e0]; omega
  | ⟨1, _⟩ => show win13_0.index t 1 * 64 + 1 * (y 1).val = (y 1).val; rw [e1]; omega

/-- The hidden-weight window shows the whole array at the grid's one point. -/
theorem wholeBlock13_1 (c : Dev nD) (t : Fin cfg13.N) :
    (iblk13 V c 1 t : Vec Ideal S64x64 .f32) = (V c (Pipeline.arrRef spec13 1) : S64x64.Idx → EReal) := by
  obtain ⟨-, -, e0, e1, -, -, -, -, -, -, -, -⟩ := blockIndex13 t
  funext y
  unfold iblk13
  rw [View.read_apply]
  refine congrArg (V c (Pipeline.arrRef spec13 1) : S64x64.Idx → EReal) ?_
  funext a
  apply Fin.ext
  match a with
  | ⟨0, _⟩ => show win13_1.index t 0 * 64 + 1 * (y 0).val = (y 0).val; rw [e0]; omega
  | ⟨1, _⟩ => show win13_1.index t 1 * 64 + 1 * (y 1).val = (y 1).val; rw [e1]; omega

/-- The hidden-bias window shows the whole array at the grid's one point. -/
theorem wholeBlock13_2 (c : Dev nD) (t : Fin cfg13.N) :
    (iblk13 V c 2 t : Vec Ideal S1x64 .f32) = (V c (Pipeline.arrRef spec13 2) : S1x64.Idx → EReal) := by
  obtain ⟨-, -, -, -, e0, e1, -, -, -, -, -, -⟩ := blockIndex13 t
  funext y
  unfold iblk13
  rw [View.read_apply]
  refine congrArg (V c (Pipeline.arrRef spec13 2) : S1x64.Idx → EReal) ?_
  funext a
  apply Fin.ext
  match a with
  | ⟨0, _⟩ => show win13_2.index t 0 * 1 + 1 * (y 0).val = (y 0).val; rw [e0]; omega
  | ⟨1, _⟩ => show win13_2.index t 1 * 64 + 1 * (y 1).val = (y 1).val; rw [e1]; omega

/-- The output-weight window shows the whole array at the grid's one point. -/
theorem wholeBlock13_3 (c : Dev nD) (t : Fin cfg13.N) :
    (iblk13 V c 3 t : Vec Ideal S64x10 .f32) = (V c (Pipeline.arrRef spec13 3) : S64x10.Idx → EReal) := by
  obtain ⟨-, -, -, -, -, -, e0, e1, -, -, -, -⟩ := blockIndex13 t
  funext y
  unfold iblk13
  rw [View.read_apply]
  refine congrArg (V c (Pipeline.arrRef spec13 3) : S64x10.Idx → EReal) ?_
  funext a
  apply Fin.ext
  match a with
  | ⟨0, _⟩ => show win13_3.index t 0 * 64 + 1 * (y 0).val = (y 0).val; rw [e0]; omega
  | ⟨1, _⟩ => show win13_3.index t 1 * 10 + 1 * (y 1).val = (y 1).val; rw [e1]; omega

/-- The output-bias window shows the whole array at the grid's one point. -/
theorem wholeBlock13_4 (c : Dev nD) (t : Fin cfg13.N) :
    (iblk13 V c 4 t : Vec Ideal S1x10 .f32) = (V c (Pipeline.arrRef spec13 4) : S1x10.Idx → EReal) := by
  obtain ⟨-, -, -, -, -, -, -, -, e0, e1, -, -⟩ := blockIndex13 t
  funext y
  unfold iblk13
  rw [View.read_apply]
  refine congrArg (V c (Pipeline.arrRef spec13 4) : S1x10.Idx → EReal) ?_
  funext a
  apply Fin.ext
  match a with
  | ⟨0, _⟩ => show win13_4.index t 0 * 1 + 1 * (y 0).val = (y 0).val; rw [e0]; omega
  | ⟨1, _⟩ => show win13_4.index t 1 * 10 + 1 * (y 1).val = (y 1).val; rw [e1]; omega

/-- What the one point writes back is the region's output function, read through the output window's block, which
    is the whole array: the body's one store leaves its payload over the whole block, and the payload at (p, q) is
    the classifier of the five input blocks, each of which is its whole array. -/
theorem flushed13_eq (c : Dev nD) (t : Fin cfg13.N) :
    (dat13 V c).flushed 5 t = ((cfg13.win 5).blk t).view.read (Elt Ideal) (scoreArr13 V c) := by
  show (cfg13.win 5).cut (grid13.coords t) ((dat13 V c).after 5 t) = _
  rw [after13_5]
  unfold out13_5
  rw [View.canon_unit_zero origin13]
  simp only [View.ld_unit_zero (S := S512x64) origin13, View.ld_unit_zero (S := S64x64) origin13,
    View.ld_unit_zero (S := S1x64) origin13, View.ld_unit_zero (S := S64x10) origin13,
    View.ld_unit_zero (S := S1x10) origin13]
  obtain ⟨-, -, -, -, -, -, -, -, -, -, e0, e1⟩ := blockIndex13 t
  funext y
  obtain ⟨p, q, rfl⟩ : ∃ (p : Fin 512) (q : Fin 10), y = ix2 p q := ⟨y 0, y 1, eq_ix2 y⟩
  show k13_pay1 (iblk13 V c 0 t) (iblk13 V c 1 t) (iblk13 V c 2 t) (iblk13 V c 3 t) (iblk13 V c 4 t) (ix2 p q)
    = scoreArr13 V c (((cfg13.win 5).blk t).view.emb (ix2 p q))
  have hemb : (((cfg13.win 5).blk t).view.emb (ix2 p q) : S512x10.Idx) = ix2 p q := by
    funext a
    apply Fin.ext
    match a with
    | ⟨0, _⟩ => show win13_5.index t 0 * 512 + 1 * p.val = p.val; rw [e0]; omega
    | ⟨1, _⟩ => show win13_5.index t 1 * 10 + 1 * q.val = q.val; rw [e1]; omega
  rw [hemb, wholeBlock13_0 V c t, wholeBlock13_1 V c t, wholeBlock13_2 V c t, wholeBlock13_3 V c t, wholeBlock13_4 V c t]
  exact Cert.KernelIdeal.PayVal.k13_pay1_apply _ _ _ _ _ p q

/-- An index of the score array lies in the point's block exactly when each coordinate lies in the block's range. -/
theorem mem_blk13 (t : Fin cfg13.N) (i : S512x10.Idx) :
    i ∈ ((cfg13.win 5).blk t).view.set ↔ ∀ a : Fin 2, win13_5.index t a * S512x10.size a ≤ (i a).val ∧ (i a).val < win13_5.index t a * S512x10.size a + S512x10.size a := by
  show i ∈ ((View.whole (Pipeline.arrRef spec13 5)).slice (win13_5.rect t)).set ↔ _
  rw [View.set_slice_whole, Rect.mem_set_unit]
  exact Iff.rfl

/-- Every index of the score array lies in the block of the one point, which writes back. -/
theorem cover13 (i : S512x10.Idx) :
    ∃ t : Fin cfg13.N, (cfg13.win 5).flush t = true ∧ i ∈ ((cfg13.win 5).blk t).view.set := by
  have h0 : (i 0).val < 512 := (i 0).isLt
  have h1 : (i 1).val < 10 := (i 1).isLt
  have hN : grid13.N = 1 := N_13
  let t : Fin cfg13.N := ⟨0, by show _ < grid13.N; rw [hN]; omega⟩
  obtain ⟨-, -, -, -, -, -, -, -, -, -, e0, e1⟩ := blockIndex13 t
  refine ⟨t, flush13_5 t, ?_⟩
  rw [mem_blk13]
  intro a
  match a with
  | ⟨0, _⟩ => show win13_5.index t 0 * 512 ≤ (i 0).val ∧ (i 0).val < win13_5.index t 0 * 512 + 512; rw [e0]; omega
  | ⟨1, _⟩ => show win13_5.index t 1 * 10 ≤ (i 1).val ∧ (i 1).val < win13_5.index t 1 * 10 + 10; rw [e1]; omega

/-- The score array after the region's write-back is the region's output function of the input arrays. -/
theorem arrAt13_eq (c : Dev nD) : (dat13 (F := Ideal) V c).arrAt 5 cfg13.N = scoreArr13 V c :=
  (dat13 V c).arrAt_eq_of_cover 5 (scoreArr13 V c) (fun t _ => flushed13_eq V c t) (cover13)

/-- Entry (i, q) of the score array after the region: the sum over the hidden units t of the positive part of
    (row i of the pooled features times column t of the hidden weights plus hidden bias t) times output weight
    (t, q), plus output bias q. -/
theorem arrAt13_apply (c : Dev nD) (i : Fin 512) (q : Fin 10) :
    (dat13 (F := Ideal) V c).arrAt 5 cfg13.N (ix2 i q)
      = (∑ t : Fin 64,
            max (affine (fun i j => V c (Pipeline.arrRef spec13 0) (ix2 i j)) (fun t j => V c (Pipeline.arrRef spec13 1) (ix2 t j))
                (fun j => V c (Pipeline.arrRef spec13 2) (ix2 0 j)) i t) 0
              * (V c (Pipeline.arrRef spec13 3) : S64x10.Idx → EReal) (ix2 t q))
          + (V c (Pipeline.arrRef spec13 4) : S1x10.Idx → EReal) (ix2 0 q) := by
  rw [arrAt13_eq]
  rfl

end Cert.KernelIdeal.Val

end
-- ==== Proof.KI.Ends.lean ====
/- The two ends of the kernel program's chain of values, each matched with the reference's.

   At the front, the first host stretch joins the two node input arrays side by side and turns the bias into one row;
   the first region then leaves, in its output array, what it finds in its feature window times what it finds in its
   weight window, plus the bias row it finds.  Read back through the stretch these are the joined launch inputs, the
   embedding weights as launched and the launch bias: entry by entry the array is the reference's embedded features.

   At the back, the last host stretch forms the per-graph mean of the last layer's features and turns the two
   classifier biases into rows; the last region leaves, at entry (i, q), the sum over the hidden units of the positive
   part of the first affine map of the pooled row i, times the second weights, plus the second bias.  The pooled mean
   is the same composition of operations as the reference's, and the weights are as launched: entry by entry the score
   array is the reference's classifier of the same features.

   The one-entry zero array is made by the second host stretch and written by nothing after it. -/
import proofs.«140206_j52750788330061_1_alg».proof.Proof.KI.Fold
import proofs.«140206_j52750788330061_1_alg».proof.Proof.KI.Glue.Host0
import proofs.«140206_j52750788330061_1_alg».proof.Proof.KI.Glue.Host1
import proofs.«140206_j52750788330061_1_alg».proof.Proof.KI.Glue.Host13
import proofs.«140206_j52750788330061_1_alg».proof.Proof.KI.Glue.Steps
import proofs.«140206_j52750788330061_1_alg».proof.Proof.KI.Val0
import proofs.«140206_j52750788330061_1_alg».proof.Proof.KI.Val13
import proofs.«140206_j52750788330061_1_alg».proof.Proof.RefVal.Pre
import proofs.«140206_j52750788330061_1_alg».proof.Proof.RefVal.Post
import proofs.«140206_j52750788330061_1_alg».proof.Proof.Spec
import Idealize.ShloMosaic.Lib.ValueIdx
import Idealize.ShloMosaic.Lib.Pipeline.Value

noncomputable section

namespace Cert.KernelIdeal.Net

open Idealize.ShloMosaic Idealize.ShloMosaic.TcCoe Idealize.ShloMosaic.ValueIdx
open Idealize.SL Idealize.SL.Sem
open Cert.KernelIdeal Cert.KernelIdeal.Gen Cert.KernelIdeal.Glue Cert.Spec
open Cert.ReferenceIdeal.RefVal (refXin refEmbed refEmbed_apply refZero1 refPool refTail refTail_apply)

variable (m : (ℓ : Loc nD τ sig) → Buf (Elt Ideal) ℓ) (c : Dev nD)

/-- Rows times a weight matrix plus a bias row, at entry (i, j), needs row i of the rows, column j of the weights and
    entry j of the bias: two instances agree at an entry as soon as those agree. -/
theorem affine_entry_congr {n k : Nat} (x x' : Mat n k) (W W' : Mat k 64) (b b' : Row) (i : Fin n) (j : Fin 64)
    (hx : ∀ t, x i t = x' i t) (hW : ∀ t, W t j = W' t j) (hb : b j = b' j) :
    affine x W b i j = affine x' W' b' i j := by
  unfold affine
  rw [hb]
  exact congrArg (· + b' j) (Finset.sum_congr rfl fun t _ => by rw [hx, hW])

/-! ## The embedding -/

/-- The joined node inputs the first host stretch leaves are the reference's side-by-side features of the two input
    arrays it is entered with: both are the same concatenation along the columns. -/
theorem joined_eq (Y : Valuation τ sig (Elt Ideal)) :
    (StableHlo.after hostOps0 Y main_v0 : S50000x6.Idx → EReal)
      = refXin (Y main_arg0 : S50000x3.Idx → EReal) (Y main_arg1 : S50000x3.Idx → EReal) := by
  have e : (StableHlo.after hostOps0 Y main_v0 : S50000x6.Idx → EReal)
      = concatenate S50000x6 1 [⟨S50000x3, (Y main_arg0 : S50000x3.Idx → EReal)⟩,
          ⟨S50000x3, (Y main_arg1 : S50000x3.Idx → EReal)⟩] concatenates_S50000x3_S50000x3_S50000x6_d1 := by
    dsimp only [hostOps0]; after_results
  exact e.trans rfl

/-- After the first region the feature array is the reference's embedded features of the launch arguments, entry by
    entry: the region multiplies what it finds in its windows, which are the joined inputs, the embedding weights as
    launched and the bias as one row. -/
theorem embedK (i : Fin 50000) (j : Fin 64) :
    (X2 m c main_v2 : S50000x64.Idx → EReal) (ix2 i j)
      = refEmbed (m ((c : Thread nD τ).loc main_arg0)) (m ((c : Thread nD τ).loc main_arg1))
          (m ((c : Thread nD τ).loc main_arg4)) (m ((c : Thread nD τ).loc main_arg5)) (ix2 i j) := by
  have hX : (X2 m c main_v2 : S50000x64.Idx → EReal) = (dat0 (tcOf (X1 m)) c).arrAt 3 cfg0.N := by
    unfold X2; exact upd1_a _ _ _
  rw [hX, Cert.KernelIdeal.Val.arrAt0_apply (tcOf (X1 m)) c i j, refEmbed_apply]
  refine affine_entry_congr _ _ _ _ _ _ i j (fun t => ?_) (fun t => ?_) ?_
  · show (StableHlo.after hostOps0 (X0 m c) main_v0 : S50000x6.Idx → EReal) (ix2 i t) = _
    rw [joined_eq]
    rfl
  · show (X1 m c main_arg4 : S6x64.Idx → EReal) (ix2 t j) = _
    rw [X1_launch m c main_arg4 (by decide)]
  · show (StableHlo.after hostOps0 (X0 m c) main_v1 : S1x64.Idx → EReal) (ix2 0 j) = _
    exact (host0_b (X0 m c) 0 j).trans rfl

/-! ## The pooled mean and the classifier -/

/-- The pooled window of the last region is the graph mean of the last layer's features, and that is the reference's
    per-graph mean of the same features under the same graph numbers: one composition of the same operations. -/
theorem pooled_eq (hR : S50000x64.Idx → EReal) (hh : (X26 m c main_v163 : S50000x64.Idx → EReal) = hR) :
    (X27 m c main_v175 : S512x64.Idx → EReal) = refPool hR (m ((c : Thread nD τ).loc main_arg3)) := by
  subst hh
  show (StableHlo.after hostOps13 (X26 m c) main_v175 : S512x64.Idx → EReal) = _
  rw [host13_pool, X26_launch m c main_arg3 (by decide)]
  rfl

/-- After the last region the score array is the reference's classifier of the last layer's features, entry by
    entry: the region's windows are the pooled mean, the two weight matrices as launched and the two biases as rows. -/
theorem tailK (hR : S50000x64.Idx → EReal) (hh : (X26 m c main_v163 : S50000x64.Idx → EReal) = hR)
    (i : Fin 512) (q : Fin 10) :
    (X28 m c main_v178 : S512x10.Idx → EReal) (ix2 i q)
      = refTail hR (m ((c : Thread nD τ).loc main_arg3)) (m ((c : Thread nD τ).loc main_arg15))
          (m ((c : Thread nD τ).loc main_arg16)) (m ((c : Thread nD τ).loc main_arg17))
          (m ((c : Thread nD τ).loc main_arg18)) (ix2 i q) := by
  have hX : (X28 m c main_v178 : S512x10.Idx → EReal) = (dat13 (tcOf (X27 m)) c).arrAt 5 cfg13.N := by
    unfold X28; exact upd1_a _ _ _
  rw [hX, Cert.KernelIdeal.Val.arrAt13_apply (tcOf (X27 m)) c i q, refTail_apply]
  have hb2 : (X27 m c main_v177 : S1x10.Idx → EReal) (ix2 0 q)
      = (m ((c : Thread nD τ).loc main_arg18) : S10.Idx → EReal) (ix1 q) := by
    show (StableHlo.after hostOps13 (X26 m c) main_v177 : S1x10.Idx → EReal) (ix2 0 q) = _
    rw [host13_b2, X26_launch m c main_arg18 (by decide)]
  refine congrArg₂ (· + ·) (Finset.sum_congr rfl fun t _ => ?_) hb2
  refine congrArg₂ (fun a b : EReal => max a 0 * b) ?_ ?_
  · refine affine_entry_congr _ _ _ _ _ _ i t (fun u => ?_) (fun u => ?_) ?_
    · show (X27 m c main_v175 : S512x64.Idx → EReal) (ix2 i u) = _
      rw [pooled_eq m c hR hh]
    · show (X27 m c main_arg15 : S64x64.Idx → EReal) (ix2 u t) = _
      rw [X27_launch m c main_arg15 (by decide)]
    · show (StableHlo.after hostOps13 (X26 m c) main_v176 : S1x64.Idx → EReal) (ix2 0 t) = _
      rw [host13_b1, X26_launch m c main_arg16 (by decide)]
  · show (X27 m c main_arg17 : S64x10.Idx → EReal) (ix2 t q) = _
    rw [X27_launch m c main_arg17 (by decide)]

/-! ## The zero result -/

/-- The one-entry zero array the second host stretch leaves is never written again, and it is the reference's. -/
theorem zeroK : (X28 m c main_v7 : S1.Idx → EReal) = refZero1 := by
  rw [X28_of m c main_v7 (by decide), X27_of m c main_v7 (by decide), X26_of m c main_v7 (by decide),
    X25_of m c main_v7 (by decide), X24_of m c main_v7 (by decide), X23_of m c main_v7 (by decide),
    X22_of m c main_v7 (by decide), X21_of m c main_v7 (by decide), X20_of m c main_v7 (by decide),
    X19_of m c main_v7 (by decide), X18_of m c main_v7 (by decide), X17_of m c main_v7 (by decide),
    X16_of m c main_v7 (by decide), X15_of m c main_v7 (by decide), X14_of m c main_v7 (by decide),
    X13_of m c main_v7 (by decide), X12_of m c main_v7 (by decide), X11_of m c main_v7 (by decide),
    X10_of m c main_v7 (by decide), X9_of m c main_v7 (by decide), X8_of m c main_v7 (by decide),
    X7_of m c main_v7 (by decide), X6_of m c main_v7 (by decide), X5_of m c main_v7 (by decide),
    X4_of m c main_v7 (by decide)]
  show (StableHlo.after hostOps1 (X2 m c) main_v7 : S1.Idx → EReal) = _
  exact (host1_zero (X2 m c)).trans rfl

end Cert.KernelIdeal.Net

end
-- ==== Proof.KI.Glue.Host2.lean ====
/-
  The host operations before layer 0's second region, read back over whatever contents they are entered with: the
  scale and shift rows of the first normalisation, the second weight matrix and its bias row are row 0, or matrix 0, of
  the stacked parameters.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The scale row of the first normalisation: row 0 of the stack. -/
theorem host2_g1 (u : Fin 1) (j : Fin 64) :
    (StableHlo.after hostOps2 Y main_v36 : S1x64.Idx → EReal) (ix2 u j) = (Y main_arg9 : S4x64.Idx → EReal) (ix2 0 j) := by
  have e : (StableHlo.after hostOps2 Y main_v36 : S1x64.Idx → EReal)
      = shapeCast S1x64 (shapeCast S64 (extractStridedSlice S1x64 ![0, 0] (Y main_arg9 : S4x64.Idx → EReal)
          slices_S4x64_S1x64_0_0) shapeCasts_S1x64_S64) shapeCasts_S64_S1x64 := by
    dsimp only [hostOps2]; after_results; rfl
  rw [e, shapeCast_a_1a_apply, shapeCast_1a_a_apply, row_slice_apply 0 (by decide)]
  rfl

/-- The shift row of the first normalisation: row 0 of the stack. -/
theorem host2_be1 (u : Fin 1) (j : Fin 64) :
    (StableHlo.after hostOps2 Y main_v37 : S1x64.Idx → EReal) (ix2 u j) = (Y main_arg10 : S4x64.Idx → EReal) (ix2 0 j) := by
  have e : (StableHlo.after hostOps2 Y main_v37 : S1x64.Idx → EReal)
      = shapeCast S1x64 (shapeCast S64 (extractStridedSlice S1x64 ![0, 0] (Y main_arg10 : S4x64.Idx → EReal)
          slices_S4x64_S1x64_0_0) shapeCasts_S1x64_S64) shapeCasts_S64_S1x64 := by
    dsimp only [hostOps2]; after_results; rfl
  rw [e, shapeCast_a_1a_apply, shapeCast_1a_a_apply, row_slice_apply 0 (by decide)]
  rfl

/-- The weight matrix of the second linear map: matrix 0 of the stack. -/
theorem host2_W2 (t j : Fin 64) :
    (StableHlo.after hostOps2 Y main_v33 : S64x64.Idx → EReal) (ix2 t j) = (Y main_arg11 : S4x64x64.Idx → EReal) (ix3 0 t j) := by
  have e : (StableHlo.after hostOps2 Y main_v33 : S64x64.Idx → EReal)
      = shapeCast S64x64 (extractStridedSlice S1x64x64 ![0, 0, 0] (Y main_arg11 : S4x64x64.Idx → EReal)
          slices_S4x64x64_S1x64x64_0_0_0) shapeCasts_S1x64x64_S64x64 := by
    dsimp only [hostOps2]; after_results; rfl
  rw [e, shapeCast_1ab_ab_apply, mat_slice_apply 0 (by decide)]
  rfl

/-- The bias row of the second linear map: row 0 of the stack. -/
theorem host2_b2 (u : Fin 1) (j : Fin 64) :
    (StableHlo.after hostOps2 Y main_v38 : S1x64.Idx → EReal) (ix2 u j) = (Y main_arg12 : S4x64.Idx → EReal) (ix2 0 j) := by
  have e : (StableHlo.after hostOps2 Y main_v38 : S1x64.Idx → EReal)
      = shapeCast S1x64 (shapeCast S64 (extractStridedSlice S1x64 ![0, 0] (Y main_arg12 : S4x64.Idx → EReal)
          slices_S4x64_S1x64_0_0) shapeCasts_S1x64_S64) shapeCasts_S64_S1x64 := by
    dsimp only [hostOps2]; after_results; rfl
  rw [e, shapeCast_a_1a_apply, shapeCast_1a_a_apply, row_slice_apply 0 (by decide)]
  rfl

end Cert.KernelIdeal.Glue

end
-- ==== Proof.KI.Glue.Host3.lean ====
/-
  The host operations before layer 0's third region, read back over whatever contents they are entered with: the
  scale and shift rows of the second normalisation are row 0 of the stacked parameters.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The scale row of the second normalisation: row 0 of the stack. -/
theorem host3_g2 (u : Fin 1) (j : Fin 64) :
    (StableHlo.after hostOps3 Y main_v44 : S1x64.Idx → EReal) (ix2 u j) = (Y main_arg13 : S4x64.Idx → EReal) (ix2 0 j) := by
  have e : (StableHlo.after hostOps3 Y main_v44 : S1x64.Idx → EReal)
      = shapeCast S1x64 (shapeCast S64 (extractStridedSlice S1x64 ![0, 0] (Y main_arg13 : S4x64.Idx → EReal)
          slices_S4x64_S1x64_0_0) shapeCasts_S1x64_S64) shapeCasts_S64_S1x64 := by
    dsimp only [hostOps3]; after_results; rfl
  rw [e, shapeCast_a_1a_apply, shapeCast_1a_a_apply, row_slice_apply 0 (by decide)]
  rfl

/-- The shift row of the second normalisation: row 0 of the stack. -/
theorem host3_be2 (u : Fin 1) (j : Fin 64) :
    (StableHlo.after hostOps3 Y main_v45 : S1x64.Idx → EReal) (ix2 u j) = (Y main_arg14 : S4x64.Idx → EReal) (ix2 0 j) := by
  have e : (StableHlo.after hostOps3 Y main_v45 : S1x64.Idx → EReal)
      = shapeCast S1x64 (shapeCast S64 (extractStridedSlice S1x64 ![0, 0] (Y main_arg14 : S4x64.Idx → EReal)
          slices_S4x64_S1x64_0_0) shapeCasts_S1x64_S64) shapeCasts_S64_S1x64 := by
    dsimp only [hostOps3]; after_results; rfl
  rw [e, shapeCast_a_1a_apply, shapeCast_1a_a_apply, row_slice_apply 0 (by decide)]
  rfl

end Cert.KernelIdeal.Glue

end
-- ==== Proof.KI.Glue.Layer0.lean ====
/-
  What layer 0's three regions are entered with, in terms of the launch memory and of what the region before left.
  A window that stages a previous region's output holds that output, since the host stretch in between does not write
  it.  A parameter window holds row 0 (or matrix 0) of the stacked parameter it was cut from, the parameter being an
  argument that nothing writes.  The self-weight row is one plus entry 0 of the self-weights.  The neighbour-sum window
  is the composed gather and scatter-add of the features region 0 left, along the edge list.
-/
import proofs.«140206_j52750788330061_1_alg».proof.Proof.KI.Glue.Steps
import proofs.«140206_j52750788330061_1_alg».proof.Proof.KI.Glue.Host1
import proofs.«140206_j52750788330061_1_alg».proof.Proof.KI.Glue.Host2
import proofs.«140206_j52750788330061_1_alg».proof.Proof.KI.Glue.Host3

noncomputable section

namespace Cert.KernelIdeal.Glue

open Idealize.ShloMosaic Idealize.ShloMosaic.TcCoe Idealize.ShloMosaic.ValueIdx
open Idealize.SL Idealize.SL.Sem
open Cert.KernelIdeal.Gen

variable (m : (ℓ : Loc nD τ sig) → Buf (Elt Ideal) ℓ) (c : Dev nD)

/-! ### The first region of layer 0 (region 1), entered at `X3` -/

/-- The features window: what region 0 left. -/
theorem X3_h : X3 m c main_v2 = X2 m c main_v2 := X3_of m c main_v2 (by decide)

/-- The neighbour-sum window. -/
theorem X3_agg :
    (X3 m c main_v17 : (⟨S50000x64, .f32⟩ : BufTy).Contents (Elt Ideal))
      = aggK (X2 m c main_v2) (m ((c : Thread nD τ).loc main_arg2)) :=
  (host1_agg (X2 m c)).trans (congrArg (aggK (X2 m c main_v2)) (X2_launch m c main_arg2 (by decide)))

/-- The vector of source nodes, kept for the later layers. -/
theorem X3_src :
    (X3 m c main_v4 : (⟨S800000, .i32⟩ : BufTy).Contents (Elt Ideal)) = srcOf (m ((c : Thread nD τ).loc main_arg2)) :=
  (host1_src (X2 m c)).trans (congrArg srcOf (X2_launch m c main_arg2 (by decide)))

/-- The vector of target nodes, kept for the later layers. -/
theorem X3_dst :
    (X3 m c main_v6 : (⟨S800000, .i32⟩ : BufTy).Contents (Elt Ideal)) = dstOf (m ((c : Thread nD τ).loc main_arg2)) :=
  (host1_dst (X2 m c)).trans (congrArg dstOf (X2_launch m c main_arg2 (by decide)))

/-- The self-weight window. -/
theorem X3_epsb (u : Fin 1) (j : Fin 64) :
    (X3 m c main_v25 : S1x64.Idx → EReal) (ix2 u j)
      = ((1 : EReal) + (m ((c : Thread nD τ).loc main_arg6) : S4.Idx → EReal) (ix1 0) : EReal) :=
  (host1_epsb (X2 m c) u j).trans (by rw [X2_launch m c main_arg6 (by decide)])

/-- The first weight window. -/
theorem X3_W1 (t j : Fin 64) :
    (X3 m c main_v21 : S64x64.Idx → EReal) (ix2 t j)
      = (m ((c : Thread nD τ).loc main_arg7) : S4x64x64.Idx → EReal) (ix3 0 t j) :=
  (host1_W1 (X2 m c) t j).trans (by rw [X2_launch m c main_arg7 (by decide)])

/-- The first bias window. -/
theorem X3_b1 (u : Fin 1) (j : Fin 64) :
    (X3 m c main_v26 : S1x64.Idx → EReal) (ix2 u j)
      = (m ((c : Thread nD τ).loc main_arg8) : S4x64.Idx → EReal) (ix2 0 j) :=
  (host1_b1 (X2 m c) u j).trans (by rw [X2_launch m c main_arg8 (by decide)])

/-- The one-entry array of zeros written before region 1. -/
theorem X3_zero :
    (X3 m c main_v7 : S1.Idx → EReal) = broadcastInDim S1 ![] bcast_S_S1 (constant (F := Ideal) S_ .f32 0x00000000#32) :=
  host1_zero (X2 m c)

/-! ### The second region of layer 0 (region 2), entered at `X5` -/

/-- The pre-activation window: what region 1 left. -/
theorem X5_z : X5 m c main_v27_0 = X4 m c main_v27_0 := X5_of m c main_v27_0 (by decide)
/-- The column-sum window: what region 1 left. -/
theorem X5_s : X5 m c main_v27_1 = X4 m c main_v27_1 := X5_of m c main_v27_1 (by decide)
/-- The column-sum-of-squares window: what region 1 left. -/
theorem X5_ss : X5 m c main_v27_2 = X4 m c main_v27_2 := X5_of m c main_v27_2 (by decide)

/-- The first scale window. -/
theorem X5_g1 (u : Fin 1) (j : Fin 64) :
    (X5 m c main_v36 : S1x64.Idx → EReal) (ix2 u j)
      = (m ((c : Thread nD τ).loc main_arg9) : S4x64.Idx → EReal) (ix2 0 j) :=
  (host2_g1 (X4 m c) u j).trans (by rw [X4_launch m c main_arg9 (by decide)])

/-- The first shift window. -/
theorem X5_be1 (u : Fin 1) (j : Fin 64) :
    (X5 m c main_v37 : S1x64.Idx → EReal) (ix2 u j)
      = (m ((c : Thread nD τ).loc main_arg10) : S4x64.Idx → EReal) (ix2 0 j) :=
  (host2_be1 (X4 m c) u j).trans (by rw [X4_launch m c main_arg10 (by decide)])

/-- The second weight window. -/
theorem X5_W2 (t j : Fin 64) :
    (X5 m c main_v33 : S64x64.Idx → EReal) (ix2 t j)
      = (m ((c : Thread nD τ).loc main_arg11) : S4x64x64.Idx → EReal) (ix3 0 t j) :=
  (host2_W2 (X4 m c) t j).trans (by rw [X4_launch m c main_arg11 (by decide)])

/-- The second bias window. -/
theorem X5_b2 (u : Fin 1) (j : Fin 64) :
    (X5 m c main_v38 : S1x64.Idx → EReal) (ix2 u j)
      = (m ((c : Thread nD τ).loc main_arg12) : S4x64.Idx → EReal) (ix2 0 j) :=
  (host2_b2 (X4 m c) u j).trans (by rw [X4_launch m c main_arg12 (by decide)])

/-! ### The third region of layer 0 (region 3), entered at `X7` -/

/-- The pre-activation window: what region 2 left. -/
theorem X7_z : X7 m c main_v39_0 = X6 m c main_v39_0 := X7_of m c main_v39_0 (by decide)
/-- The column-sum window: what region 2 left. -/
theorem X7_s : X7 m c main_v39_1 = X6 m c main_v39_1 := X7_of m c main_v39_1 (by decide)
/-- The column-sum-of-squares window: what region 2 left. -/
theorem X7_ss : X7 m c main_v39_2 = X6 m c main_v39_2 := X7_of m c main_v39_2 (by decide)

/-- The second scale window. -/
theorem X7_g2 (u : Fin 1) (j : Fin 64) :
    (X7 m c main_v44 : S1x64.Idx → EReal) (ix2 u j)
      = (m ((c : Thread nD τ).loc main_arg13) : S4x64.Idx → EReal) (ix2 0 j) :=
  (host3_g2 (X6 m c) u j).trans (by rw [X6_launch m c main_arg13 (by decide)])

/-- The second shift window. -/
theorem X7_be2 (u : Fin 1) (j : Fin 64) :
    (X7 m c main_v45 : S1x64.Idx → EReal) (ix2 u j)
      = (m ((c : Thread nD τ).loc main_arg14) : S4x64.Idx → EReal) (ix2 0 j) :=
  (host3_be2 (X6 m c) u j).trans (by rw [X6_launch m c main_arg14 (by decide)])

end Cert.KernelIdeal.Glue

end
-- ==== Proof.KI.ValLib.lean ====
/-
  Facts about one layer's matrices that the passage from row blocks to whole arrays uses, with no program in sight.

  * An entry of a product-plus-bias depends on the left matrix only through the entry's row; so does an entry of the
    linear layer over the mixed features, and batch normalisation by given statistics is entrywise in the matrix.
    Hence a row block of such a matrix is the same expression of the row blocks of its operands.
  * A running row that starts at zero and, at step t, adds the column sums (or the column sums of squares) of block t
    of a matrix of a * b rows, holds after the last step the column sums (of squares) of the whole matrix.
-/
import proofs.«140206_j52750788330061_1_alg».proof.Proof.Spec
import proofs.«140206_j52750788330061_1_alg».proof.Proof.SpecAlg

noncomputable section

namespace Cert.ValLib

open Cert.Spec

/-- An entry of rows-times-weight-plus-bias reads only its own row of the left matrix. -/
theorem affine_row {n m k : Nat} (x : Mat n k) (x' : Mat m k) (W : Mat k 64) (b : Row) (p : Fin n) (r : Fin m)
    (hx : ∀ t, x p t = x' r t) (q : Fin 64) : affine x W b p q = affine x' W b r q := by
  unfold affine
  simp only [hx]

/-- An entry of the linear layer reads only its own row of the node features and of the neighbour features. -/
theorem affine_mix_row {n m : Nat} (e : Row) (h agg : Mat n 64) (h' agg' : Mat m 64) (W : Mat 64 64) (b : Row)
    (p : Fin n) (r : Fin m) (hh : ∀ t, h p t = h' r t) (ha : ∀ t, agg p t = agg' r t) (q : Fin 64) :
    affine (mix e h agg) W b p q = affine (mix e h' agg') W b r q :=
  affine_row _ _ W b p r (fun t => by unfold mix; rw [hh, ha]) q

/-- The same with every operand replaced by one that agrees with it where the entry reads it. -/
theorem affine_mix_congr {n m : Nat} (e e' : Row) (h agg : Mat n 64) (h' agg' : Mat m 64) (W W' : Mat 64 64) (b b' : Row)
    (p : Fin n) (r : Fin m) (he : ∀ t, e t = e' t) (hh : ∀ t, h p t = h' r t) (ha : ∀ t, agg p t = agg' r t)
    (hW : ∀ t q, W t q = W' t q) (hb : ∀ q, b q = b' q) (q : Fin 64) :
    affine (mix e h agg) W b p q = affine (mix e' h' agg') W' b' r q := by
  unfold affine mix
  simp only [he, hh, ha, hW, hb]

/-- Rows-times-weight-plus-bias with every operand replaced by one that agrees with it where the entry reads it. -/
theorem affine_congr {n m k : Nat} (x : Mat n k) (x' : Mat m k) (W W' : Mat k 64) (b b' : Row) (p : Fin n) (r : Fin m)
    (hx : ∀ t, x p t = x' r t) (hW : ∀ t q, W t q = W' t q) (hb : ∀ q, b q = b' q) (q : Fin 64) :
    affine x W b p q = affine x' W' b' r q := by
  unfold affine
  simp only [hx, hW, hb]

/-- Batch normalisation with every operand replaced by one that agrees with it where the entry reads it. -/
theorem bnStats_congr {n m : Nat} (inv eps : EReal) (z : Mat n 64) (z' : Mat m 64) (s s' ss ss' g g' be be' : Row)
    (p : Fin n) (r : Fin m) (q : Fin 64) (hz : z p q = z' r q) (hs : s q = s' q) (hss : ss q = ss' q) (hg : g q = g' q)
    (hbe : be q = be' q) : bnStats inv eps z s ss g be p q = bnStats inv eps z' s' ss' g' be' r q := by
  unfold bnStats
  rw [hz, hs, hss, hg, hbe]

/-- Batch normalisation by given statistics reads only the entry it normalises. -/
theorem bnStats_entry {n m : Nat} (inv eps : EReal) (z : Mat n 64) (z' : Mat m 64) (s ss g be : Row)
    (p : Fin n) (r : Fin m) (q : Fin 64) (hz : z p q = z' r q) :
    bnStats inv eps z s ss g be p q = bnStats inv eps z' s ss g be r q := by
  unfold bnStats
  rw [hz]

/-- A running row of column sums, block by block: started at zero, after step t it has added the column sums of a
    block B t that is rows t * b … t * b + b - 1 of y; after the last step it holds the column sums of y. -/
theorem colSum_running {n : Nat} (a b : Nat) (hab : n = a * b) (y : Mat n 64) (acc : Nat → Row)
    (B : (t : Nat) → t < a → Mat b 64)
    (hB : ∀ (t : Nat) (ht : t < a) (r : Fin b) (c : Fin 64),
      B t ht r c = y ⟨t * b + r.val, hab ▸ block_index_lt (⟨t, ht⟩ : Fin a) r⟩ c)
    (h0 : ∀ j, acc 0 j = 0) (hs : ∀ (t : Nat) (ht : t < a) (j : Fin 64), acc (t + 1) j = acc t j + colSum (B t ht) j)
    (j : Fin 64) : acc a j = colSum y j := by
  rw [colSum_blocks_of_eq a b hab y j]
  refine running_total_fin (fun t : Fin a => colSum (fun (r : Fin b) c => y ⟨t.val * b + r.val, hab ▸ block_index_lt t r⟩ c) j)
    (fun k => acc k j) (h0 j) (fun t ht => ?_)
  rw [hs t ht j]
  congr 1
  unfold colSum
  exact Finset.sum_congr rfl fun r _ => hB t ht r j

/-- The same for the column sums of squares. -/
theorem colSumSq_running {n : Nat} (a b : Nat) (hab : n = a * b) (y : Mat n 64) (acc : Nat → Row)
    (B : (t : Nat) → t < a → Mat b 64)
    (hB : ∀ (t : Nat) (ht : t < a) (r : Fin b) (c : Fin 64),
      B t ht r c = y ⟨t * b + r.val, hab ▸ block_index_lt (⟨t, ht⟩ : Fin a) r⟩ c)
    (h0 : ∀ j, acc 0 j = 0) (hs : ∀ (t : Nat) (ht : t < a) (j : Fin 64), acc (t + 1) j = acc t j + colSumSq (B t ht) j)
    (j : Fin 64) : acc a j = colSumSq y j := by
  rw [colSumSq_blocks_of_eq a b hab y j]
  refine running_total_fin (fun t : Fin a => colSumSq (fun (r : Fin b) c => y ⟨t.val * b + r.val, hab ▸ block_index_lt t r⟩ c) j)
    (fun k => acc k j) (h0 j) (fun t ht => ?_)
  rw [hs t ht j]
  congr 1
  unfold colSumSq
  exact Finset.sum_congr rfl fun r _ => by rw [hB t ht r j]

end Cert.ValLib

end
-- ==== Proof.KI.Pay1.lean ====
/-
  The linear-with-statistics body, read at one entry on the extended reals.

  From the scale row e, the node block h, the neighbour block agg, the weight W and the bias b the body forms
  z = (e * h + agg) W + b on its 5000 x 64 row block; it adds the column sums of z to one running row and hands
  the column sums of z * z on to be added to a second running row; at the first grid point both running rows
  are set to zero.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The layer's product has the plain dimension numbers: left contracted on axis 1, right on axis 0. -/
theorem k1_dot_plain : dot_S5000x64_S64x64_S5000x64_1_0_0_1_n_n = DotDims.plain 5000 64 64 := rfl

/-- The block written back: the mixed features times the weight, plus the bias. -/
theorem k1_pay4_apply (v3 : Vec Ideal S1x64 .f32) (v5 : Vec Ideal S5000x64 .f32) (v9 : Vec Ideal S5000x64 .f32)
    (v13 : Vec Ideal S64x64 .f32) (v17 : Vec Ideal S1x64 .f32) (p : Fin 5000) (q : Fin 64) :
    Gen.k1_pay4 (F := Ideal) v3 v5 v9 v13 v17 (ix2 p q)
      = affine (mix (fun j => v3 (ix2 0 j)) (fun i j => v5 (ix2 i j)) (fun i j => v9 (ix2 i j)))
          (fun t j => v13 (ix2 t j)) (fun j => v17 (ix2 0 j)) p q := by
  unfold Gen.k1_pay4
  rw [addf_apply, k1_dot_plain, Cert.PayLib.plainProduct_apply, broadcastTo_1b_ab_apply]
  simp only [truncf_apply, addf_apply, mulf_apply, shapeCast_self, broadcastTo_1b_ab_apply]
  rfl

/-- The first running row after the body: its old value plus the column sums of the block. -/
theorem k1_pay5_apply (v3 : Vec Ideal S1x64 .f32) (v5 : Vec Ideal S5000x64 .f32) (v9 : Vec Ideal S5000x64 .f32)
    (v13 : Vec Ideal S64x64 .f32) (v17 : Vec Ideal S1x64 .f32) (v22 : Vec Ideal S1x64 .f32) (q : Fin 64) :
    Gen.k1_pay5 (F := Ideal) v3 v5 v9 v13 v17 v22 (ix2 0 q)
      = v22 (ix2 0 q) + colSum (fun i j => Gen.k1_pay4 (F := Ideal) v3 v5 v9 v13 v17 (ix2 i j)) q := by
  unfold Gen.k1_pay5
  dsimp only
  rw [shapeCast_self, addf_apply, shapeCast_a_1a_apply, Cert.PayLib.rowSum_apply]
  rfl

/-- The row handed on to the second running row: the column sums of the block's squares. -/
theorem k1_pay6_apply (v3 : Vec Ideal S1x64 .f32) (v5 : Vec Ideal S5000x64 .f32) (v9 : Vec Ideal S5000x64 .f32)
    (v13 : Vec Ideal S64x64 .f32) (v17 : Vec Ideal S1x64 .f32) (q : Fin 64) :
    Gen.k1_pay6 (F := Ideal) v3 v5 v9 v13 v17 (ix2 0 q)
      = colSumSq (fun i j => Gen.k1_pay4 (F := Ideal) v3 v5 v9 v13 v17 (ix2 i j)) q := by
  unfold Gen.k1_pay6
  dsimp only
  rw [shapeCast_a_1a_apply, Cert.PayLib.rowSum_apply]
  rfl

/-- The second running row after the body: its old value plus the row handed on. -/
theorem k1_pay1_apply (v29 : Vec Ideal S1x64 .f32) (v32 : FVec Ideal S1x64 .f32) (q : Fin 64) :
    Gen.k1_pay1 (F := Ideal) v29 v32 (ix2 0 q) = v29 (ix2 0 q) + v32 (ix2 0 q) := by
  unfold Gen.k1_pay1
  rw [shapeCast_self, addf_apply]

/-- At the first grid point the first running row is set to zero. -/
theorem k1_pay2_apply (q : Fin 64) : Gen.k1_pay2 (F := Ideal) (ix2 0 q) = 0 := by
  unfold Gen.k1_pay2
  rw [shapeCast_self, broadcast_apply]
  exact Ideal.ofBits_zero_f32

/-- At the first grid point the second running row is set to zero. -/
theorem k1_pay3_apply (q : Fin 64) : Gen.k1_pay3 (F := Ideal) (ix2 0 q) = 0 := by
  unfold Gen.k1_pay3
  rw [shapeCast_self, broadcast_apply]
  exact Ideal.ofBits_zero_f32

end Cert.KernelIdeal.PayVal

end
-- ==== Proof.KI.Val1.lean ====
/-
  From row blocks to whole arrays, for the linear-with-statistics region, on the extended reals.

  The region walks ten grid points; point t stages rows t * 5000 … t * 5000 + 4999 of the node features and of the
  neighbour features, and the whole of the scale row, the weight and the bias row.  What the body writes back at
  point t is therefore rows t * 5000 … of one matrix over all 50000 rows, the linear layer's output
  Z = (e * h + agg) W + b; the ten blocks tile the output array, so the array ends holding Z.  The two running rows
  start at zero, point t adds the column sums (the column sums of squares) of its rows of Z, and the last point alone
  writes them back; so the two statistics arrays end holding the column sums and the column sums of squares of Z.
-/
import proofs.«140206_j52750788330061_1_alg».proof.Proof.KI.Reg1
import proofs.«140206_j52750788330061_1_alg».proof.Proof.KI.Pay1
import proofs.«140206_j52750788330061_1_alg».proof.Proof.KI.ValLib
import proofs.«140206_j52750788330061_1_alg».proof.Proof.Spec
import proofs.«140206_j52750788330061_1_alg».proof.Proof.SpecAlg
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Spec

variable (V : (c : Dev nD) → (b : Ref sig .tc) → Buf (Elt Ideal) ((c : Thread nD τ).loc b))

/-! ## Where the windows' blocks lie -/

/-- Where the index maps put each window's block at grid point t: the three row-block windows (node features,
    neighbour features, output) at block row t, the five whole-array windows at the origin. -/
theorem idx1_facts : ∀ t : Fin cfg1.N,
    win1_0.index t 0 = t.val ∧ win1_0.index t 1 = 0 ∧ win1_1.index t 0 = t.val ∧ win1_1.index t 1 = 0
    ∧ win1_2.index t 0 = 0 ∧ win1_2.index t 1 = 0 ∧ win1_3.index t 0 = 0 ∧ win1_3.index t 1 = 0
    ∧ win1_4.index t 0 = 0 ∧ win1_4.index t 1 = 0 ∧ win1_5.index t 0 = t.val ∧ win1_5.index t 1 = 0
    ∧ win1_6.index t 0 = 0 ∧ win1_6.index t 1 = 0 ∧ win1_7.index t 0 = 0 ∧ win1_7.index t 1 = 0 :=
  (by decide +kernel : ∀ t : Fin grid1.N, _)

/-- Row p of block t is a row of the array. -/
theorem rows1_lt (t : Fin cfg1.N) (p : Fin 5000) : t.val * 5000 + p.val < 50000 := by
  have ht : t.val < 10 := lt_of_lt_of_eq t.isLt N_1
  have hp := p.isLt
  omega

/-- The node-feature block at point t is rows t * 5000 … of the node-feature array. -/
theorem iblk1_0_apply (c : Dev nD) (t : Fin cfg1.N) (p : Fin 5000) (q : Fin 64) :
    (iblk1 V c 0 t : Vec Ideal S5000x64 .f32) (ix2 p q)
      = V c (Pipeline.arrRef spec1 0) (ix2 ⟨t.val * 5000 + p.val, rows1_lt t p⟩ q) := by
  unfold iblk1
  rw [View.read_apply]
  show V c (Pipeline.arrRef spec1 0) _ = V c (Pipeline.arrRef spec1 0) _
  congr 1
  funext a
  apply Fin.ext
  obtain ⟨e0, e1, -⟩ := idx1_facts t
  match a with
  | ⟨0, _⟩ => show win1_0.index t 0 * 5000 + 1 * p.val = t.val * 5000 + p.val; rw [e0]; omega
  | ⟨1, _⟩ => show win1_0.index t 1 * 64 + 1 * q.val = q.val; rw [e1]; omega

/-- The neighbour-feature block at point t is rows t * 5000 … of the neighbour-feature array. -/
theorem iblk1_1_apply (c : Dev nD) (t : Fin cfg1.N) (p : Fin 5000) (q : Fin 64) :
    (iblk1 V c 1 t : Vec Ideal S5000x64 .f32) (ix2 p q)
      = V c (Pipeline.arrRef spec1 1) (ix2 ⟨t.val * 5000 + p.val, rows1_lt t p⟩ q) := by
  unfold iblk1
  rw [View.read_apply]
  show V c (Pipeline.arrRef spec1 1) _ = V c (Pipeline.arrRef spec1 1) _
  congr 1
  funext a
  apply Fin.ext
  obtain ⟨-, -, e0, e1, -⟩ := idx1_facts t
  match a with
  | ⟨0, _⟩ => show win1_1.index t 0 * 5000 + 1 * p.val = t.val * 5000 + p.val; rw [e0]; omega
  | ⟨1, _⟩ => show win1_1.index t 1 * 64 + 1 * q.val = q.val; rw [e1]; omega

/-- The scale row's block at every point is the scale row. -/
theorem iblk1_2_apply (c : Dev nD) (t : Fin cfg1.N) (q : Fin 64) :
    (iblk1 V c 2 t : Vec Ideal S1x64 .f32) (ix2 0 q) = V c (Pipeline.arrRef spec1 2) (ix2 0 q) := by
  unfold iblk1
  rw [View.read_apply]
  show V c (Pipeline.arrRef spec1 2) _ = V c (Pipeline.arrRef spec1 2) _
  congr 1
  funext a
  apply Fin.ext
  obtain ⟨-, -, -, -, e0, e1, -⟩ := idx1_facts t
  match a with
  | ⟨0, _⟩ => show win1_2.index t 0 * 1 + 1 * 0 = 0; rw [e0]
  | ⟨1, _⟩ => show win1_2.index t 1 * 64 + 1 * q.val = q.val; rw [e1]; omega

/-- The weight's block at every point is the weight. -/
theorem iblk1_3_apply (c : Dev nD) (t : Fin cfg1.N) (a' : Fin 64) (q : Fin 64) :
    (iblk1 V c 3 t : Vec Ideal S64x64 .f32) (ix2 a' q) = V c (Pipeline.arrRef spec1 3) (ix2 a' q) := by
  unfold iblk1
  rw [View.read_apply]
  show V c (Pipeline.arrRef spec1 3) _ = V c (Pipeline.arrRef spec1 3) _
  congr 1
  funext a
  apply Fin.ext
  obtain ⟨-, -, -, -, -, -, e0, e1, -⟩ := idx1_facts t
  match a with
  | ⟨0, _⟩ => show win1_3.index t 0 * 64 + 1 * a'.val = a'.val; rw [e0]; omega
  | ⟨1, _⟩ => show win1_3.index t 1 * 64 + 1 * q.val = q.val; rw [e1]; omega

/-- The bias row's block at every point is the bias row. -/
theorem iblk1_4_apply (c : Dev nD) (t : Fin cfg1.N) (q : Fin 64) :
    (iblk1 V c 4 t : Vec Ideal S1x64 .f32) (ix2 0 q) = V c (Pipeline.arrRef spec1 4) (ix2 0 q) := by
  unfold iblk1
  rw [View.read_apply]
  show V c (Pipeline.arrRef spec1 4) _ = V c (Pipeline.arrRef spec1 4) _
  congr 1
  funext a
  apply Fin.ext
  obtain ⟨-, -, -, -, -, -, -, -, e0, e1, -⟩ := idx1_facts t
  match a with
  | ⟨0, _⟩ => show win1_4.index t 0 * 1 + 1 * 0 = 0; rw [e0]
  | ⟨1, _⟩ => show win1_4.index t 1 * 64 + 1 * q.val = q.val; rw [e1]; omega

/-! ## The linear layer's output over the whole array -/

/-- The linear layer's output: the mixed features of all 50000 rows times the weight, plus the bias. -/
abbrev Z1 (c : Dev nD) : Mat 50000 64 :=
  affine (mix (fun j => V c (Pipeline.arrRef spec1 2) (ix2 0 j)) (fun i j => V c (Pipeline.arrRef spec1 0) (ix2 i j))
      (fun i j => V c (Pipeline.arrRef spec1 1) (ix2 i j)))
    (fun t j => V c (Pipeline.arrRef spec1 3) (ix2 t j)) (fun j => V c (Pipeline.arrRef spec1 4) (ix2 0 j))

/-- What the body computes from the blocks at point t is rows t * 5000 … of that output. -/
theorem block1_z (c : Dev nD) (t : Fin cfg1.N) (p : Fin 5000) (q : Fin 64) :
    k1_pay4 (F := Ideal) (iblk1 V c 2 t) (iblk1 V c 0 t) (iblk1 V c 1 t) (iblk1 V c 3 t) (iblk1 V c 4 t) (ix2 p q)
      = Z1 V c ⟨t.val * 5000 + p.val, rows1_lt t p⟩ q :=
  (PayVal.k1_pay4_apply (iblk1 V c 2 t) (iblk1 V c 0 t) (iblk1 V c 1 t) (iblk1 V c 3 t) (iblk1 V c 4 t) p q).trans
    (Cert.ValLib.affine_mix_congr _ _ _ _ _ _ _ _ _ _ p ⟨t.val * 5000 + p.val, rows1_lt t p⟩
      (fun s => iblk1_2_apply V c t s) (fun s => iblk1_0_apply V c t p s) (fun s => iblk1_1_apply V c t p s)
      (fun s s' => iblk1_3_apply V c t s s') (fun s => iblk1_4_apply V c t s) q)

/-- What point t writes back to the output array is block t of the linear layer's output. -/
theorem flushed1_z (c : Dev nD) (t : Fin cfg1.N) :
    (dat1 V c).flushed 5 t
      = ((cfg1.win 5).blk t).view.read (Elt Ideal) (fun i : S50000x64.Idx => Z1 V c (i 0) (i 1)) := by
  show (cfg1.win 5).cut (grid1.coords t) ((dat1 V c).after 5 t) = _
  rw [after1_big]
  refine funext fun (y : S5000x64.Idx) => ?_
  obtain ⟨p, q, rfl⟩ : ∃ (p : Fin 5000) (q : Fin 64), y = ix2 p q := ⟨y 0, y 1, eq_ix2 y⟩
  rw [View.read_apply]
  refine (block1_z V c t p q).trans ?_
  rw [cast_eq]
  obtain ⟨-, -, -, -, -, -, -, -, -, -, e0, e1, -⟩ := idx1_facts t
  have h0 : t.val * 5000 + p.val = ((((cfg1.win 5).blk t).view.emb (ix2 p q) : S50000x64.Idx) 0).val := by
    show _ = win1_5.index t 0 * 5000 + 1 * p.val
    rw [e0]; omega
  have h1 : q.val = ((((cfg1.win 5).blk t).view.emb (ix2 p q) : S50000x64.Idx) 1).val := by
    show _ = win1_5.index t 1 * 64 + 1 * q.val
    rw [e1]; omega
  exact congrArg₂ (Z1 V c) (Fin.ext h0) (Fin.ext h1)

/-- Every row of the output array lies in the block of the point that is the row's number divided by 5000. -/
theorem cover1_z (i : S50000x64.Idx) :
    ∃ t : Fin cfg1.N, (cfg1.win 5).flush t = true ∧ i ∈ ((cfg1.win 5).blk t).view.set := by
  have hi : (i 0).val < 50000 := (i 0).isLt
  have hq : (i 1).val < 64 := (i 1).isLt
  have hN : cfg1.N = 10 := N_1
  have ht : (i 0).val / 5000 < cfg1.N := by rw [hN]; omega
  refine ⟨⟨(i 0).val / 5000, ht⟩, flush1_5 _, ?_⟩
  show i ∈ ((View.whole (Pipeline.arrRef spec1 5)).slice (win1_5.rect ⟨(i 0).val / 5000, ht⟩)).set
  rw [View.set_slice_whole, Rect.mem_set_unit]
  obtain ⟨-, -, -, -, -, -, -, -, -, -, e0, e1, -⟩ := idx1_facts ⟨(i 0).val / 5000, ht⟩
  intro a
  match a with
  | ⟨0, _⟩ =>
    show win1_5.index ⟨(i 0).val / 5000, ht⟩ 0 * 5000 ≤ (i 0).val
      ∧ (i 0).val < win1_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ 1 * 64 ≤ (i 1).val
      ∧ (i 1).val < win1_5.index ⟨(i 0).val / 5000, ht⟩ 1 * 64 + 64
    rw [e1]; omega

/-- After the region the output array holds the linear layer's output. -/
theorem arrAt1_z (c : Dev nD) (i : Fin 50000) (j : Fin 64) : (dat1 V c).arrAt 5 cfg1.N (ix2 i j) = Z1 V c i j :=
  congrFun ((dat1 V c).arrAt_eq_of_cover 5 (fun i : S50000x64.Idx => Z1 V c (i 0) (i 1)) (fun t _ => flushed1_z V c t)
    (cover1_z)) (ix2 i j)

/-! ## The two statistics rows -/

/-- One point's step of the first running row: it adds the column sums of the point's rows of the output. -/
theorem acc1_s_step (c : Dev nD) (n : ℕ) (h : n < cfg1.N) (q : Fin 64) :
    (acc1 V c (n + 1)).1 (ix2 0 q)
      = (acc1 V c n).1 (ix2 0 q)
        + colSum (fun (r : Fin 5000) j => Z1 V c ⟨n * 5000 + r.val, rows1_lt ⟨n, h⟩ r⟩ j) q := by
  rw [acc1_succ V c n h]
  refine (PayVal.k1_pay5_apply (iblk1 V c 2 ⟨n, h⟩) (iblk1 V c 0 ⟨n, h⟩) (iblk1 V c 1 ⟨n, h⟩) (iblk1 V c 3 ⟨n, h⟩)
    (iblk1 V c 4 ⟨n, h⟩) (acc1 V c n).1 q).trans ?_
  refine congrArg (_ + ·) ?_
  unfold colSum
  exact Finset.sum_congr rfl fun r _ => block1_z V c ⟨n, h⟩ r q

/-- One point's step of the second running row: it adds the column sums of squares of the point's rows. -/
theorem acc1_ss_step (c : Dev nD) (n : ℕ) (h : n < cfg1.N) (q : Fin 64) :
    (acc1 V c (n + 1)).2 (ix2 0 q)
      = (acc1 V c n).2 (ix2 0 q)
        + colSumSq (fun (r : Fin 5000) j => Z1 V c ⟨n * 5000 + r.val, rows1_lt ⟨n, h⟩ r⟩ j) q := by
  rw [acc1_succ V c n h]
  refine (PayVal.k1_pay1_apply (acc1 V c n).2 (k1_pay6 (F := Ideal) (iblk1 V c 2 ⟨n, h⟩) (iblk1 V c 0 ⟨n, h⟩)
    (iblk1 V c 1 ⟨n, h⟩) (iblk1 V c 3 ⟨n, h⟩) (iblk1 V c 4 ⟨n, h⟩)) q).trans ?_
  refine congrArg (_ + ·) ?_
  refine (PayVal.k1_pay6_apply (iblk1 V c 2 ⟨n, h⟩) (iblk1 V c 0 ⟨n, h⟩) (iblk1 V c 1 ⟨n, h⟩) (iblk1 V c 3 ⟨n, h⟩)
    (iblk1 V c 4 ⟨n, h⟩) q).trans ?_
  unfold colSumSq
  exact Finset.sum_congr rfl fun r _ =>
    congrArg₂ (· * ·) (block1_z V c ⟨n, h⟩ r q) (block1_z V c ⟨n, h⟩ r q)

/-- The only point that writes a statistics row back is the last one. -/
theorem last1_of_flush (t : Fin cfg1.N) (h : t.val % 10 = 9) : t.val + 1 = 10 := by
  have h2 : t.val < 10 := lt_of_lt_of_eq t.isLt N_1
  omega

/-- After the region the first statistics array holds the first running row after all ten points. -/
theorem arrAt1_6_eq (c : Dev nD) : (dat1 V c).arrAt 6 cfg1.N = (acc1 V c 10).1 := by
  refine (dat1 V c).arrAt_eq_of_cover 6 ((acc1 V c 10).1) (fun t hf => ?_) (fun i => ?_)
  · show (cfg1.win 6).cut (grid1.coords t) ((dat1 V c).after 6 t) = _
    rw [after1_6, last1_of_flush t ((flush1_6 t).mp hf)]
    refine funext fun (y : S1x64.Idx) => ?_
    rw [View.read_apply, cast_eq]
    refine congrArg (acc1 V c 10).1 (?_ : y = ((cfg1.win 6).blk t).view.emb y)
    obtain ⟨-, -, -, -, -, -, -, -, -, -, -, -, e0, e1, -⟩ := idx1_facts t
    funext a
    apply Fin.ext
    match a with
    | ⟨0, _⟩ => show (y 0).val = win1_6.index t 0 * 1 + 1 * (y 0).val; rw [e0]; omega
    | ⟨1, _⟩ => show (y 1).val = win1_6.index t 1 * 64 + 1 * (y 1).val; rw [e1]; omega
  · refine ⟨t1_9, (flush1_6 t1_9).mpr rfl, ?_⟩
    show i ∈ ((View.whole (Pipeline.arrRef spec1 6)).slice (win1_6.rect t1_9)).set
    rw [View.set_slice_whole, Rect.mem_set_unit]
    obtain ⟨-, -, -, -, -, -, -, -, -, -, -, -, e0, e1, -⟩ := idx1_facts t1_9
    have h0 : (i 0).val < 1 := (i 0).isLt
    have h1 : (i 1).val < 64 := (i 1).isLt
    intro a
    match a with
    | ⟨0, _⟩ => show win1_6.index t1_9 0 * 1 ≤ (i 0).val ∧ (i 0).val < win1_6.index t1_9 0 * 1 + 1; rw [e0]; omega
    | ⟨1, _⟩ => show win1_6.index t1_9 1 * 64 ≤ (i 1).val ∧ (i 1).val < win1_6.index t1_9 1 * 64 + 64; rw [e1]; omega

/-- After the region the second statistics array holds the second running row after all ten points. -/
theorem arrAt1_7_eq (c : Dev nD) : (dat1 V c).arrAt 7 cfg1.N = (acc1 V c 10).2 := by
  refine (dat1 V c).arrAt_eq_of_cover 7 ((acc1 V c 10).2) (fun t hf => ?_) (fun i => ?_)
  · show (cfg1.win 7).cut (grid1.coords t) ((dat1 V c).after 7 t) = _
    rw [after1_7, last1_of_flush t ((flush1_7 t).mp hf)]
    refine funext fun (y : S1x64.Idx) => ?_
    rw [View.read_apply, cast_eq]
    refine congrArg (acc1 V c 10).2 (?_ : y = ((cfg1.win 7).blk t).view.emb y)
    obtain ⟨-, -, -, -, -, -, -, -, -, -, -, -, -, -, e0, e1⟩ := idx1_facts t
    funext a
    apply Fin.ext
    match a with
    | ⟨0, _⟩ => show (y 0).val = win1_7.index t 0 * 1 + 1 * (y 0).val; rw [e0]; omega
    | ⟨1, _⟩ => show (y 1).val = win1_7.index t 1 * 64 + 1 * (y 1).val; rw [e1]; omega
  · refine ⟨t1_9, (flush1_7 t1_9).mpr rfl, ?_⟩
    show i ∈ ((View.whole (Pipeline.arrRef spec1 7)).slice (win1_7.rect t1_9)).set
    rw [View.set_slice_whole, Rect.mem_set_unit]
    obtain ⟨-, -, -, -, -, -, -, -, -, -, -, -, -, -, e0, e1⟩ := idx1_facts t1_9
    have h0 : (i 0).val < 1 := (i 0).isLt
    have h1 : (i 1).val < 64 := (i 1).isLt
    intro a
    match a with
    | ⟨0, _⟩ => show win1_7.index t1_9 0 * 1 ≤ (i 0).val ∧ (i 0).val < win1_7.index t1_9 0 * 1 + 1; rw [e0]; omega
    | ⟨1, _⟩ => show win1_7.index t1_9 1 * 64 ≤ (i 1).val ∧ (i 1).val < win1_7.index t1_9 1 * 64 + 64; rw [e1]; omega

/-- After the region the first statistics array holds the column sums of the linear layer's output. -/
theorem arrAt1_s (c : Dev nD) (j : Fin 64) : (dat1 V c).arrAt 6 cfg1.N (ix2 0 j) = colSum (Z1 V c) j := by
  rw [arrAt1_6_eq]
  exact Cert.ValLib.colSum_running 10 5000 (by decide) (Z1 V c) (fun n q => (acc1 V c n).1 (ix2 0 q))
    (fun t ht r c' => Z1 V c ⟨t * 5000 + r.val, rows1_lt ⟨t, lt_of_lt_of_eq ht N_1.symm⟩ r⟩ c') (fun _ _ _ _ => rfl)
    (fun q => by
      show (acc1 V c 0).1 (ix2 0 q) = 0
      rw [acc1_zero]
      exact PayVal.k1_pay2_apply q)
    (fun t ht q => acc1_s_step V c t (lt_of_lt_of_eq ht N_1.symm) q) j

/-- After the region the second statistics array holds the column sums of squares of the linear layer's output. -/
theorem arrAt1_ss (c : Dev nD) (j : Fin 64) : (dat1 V c).arrAt 7 cfg1.N (ix2 0 j) = colSumSq (Z1 V c) j := by
  rw [arrAt1_7_eq]
  exact Cert.ValLib.colSumSq_running 10 5000 (by decide) (Z1 V c) (fun n q => (acc1 V c n).2 (ix2 0 q))
    (fun t ht r c' => Z1 V c ⟨t * 5000 + r.val, rows1_lt ⟨t, lt_of_lt_of_eq ht N_1.symm⟩ r⟩ c') (fun _ _ _ _ => rfl)
    (fun q => by
      show (acc1 V c 0).2 (ix2 0 q) = 0
      rw [acc1_zero]
      exact PayVal.k1_pay3_apply q)
    (fun t ht q => acc1_ss_step V c t (lt_of_lt_of_eq ht N_1.symm) q) j

end Cert.KernelIdeal.Val

end
-- ==== Proof.KI.Pay2.lean ====
/-
  The normalise-multiply-with-statistics body, read at one entry on the extended reals.

  From the statistics rows s and ss of the incoming block z, the scale row g and the shift row be, the body forms
  a = max ((z - mean) * rsqrt (variance + eps) * g + be) 0 with mean s * c and variance ss * c - (s * c) * (s * c),
  c the named reciprocal of the row count; it multiplies a by the weight W, and only then, in a second step, adds
  the bias row b to give the block y it writes back.  It adds the column sums of y to one running row and the
  column sums of y * y to a second running row; at the first grid point both running rows are set to zero.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The layer's product has the plain dimension numbers: left contracted on axis 1, right on axis 0. -/
theorem k2_dot_plain : dot_S5000x64_S64x64_S5000x64_1_0_0_1_n_n = DotDims.plain 5000 64 64 := rfl

/-- The product alone, before the bias: the normalised, clipped block times the weight. -/
theorem k2_pay6_apply (v3 : Vec Ideal S1x64 .f32) (v7 : Vec Ideal S1x64 .f32) (v13 : Vec Ideal S5000x64 .f32)
    (v22 : Vec Ideal S1x64 .f32) (v26 : Vec Ideal S1x64 .f32) (v33 : Vec Ideal S64x64 .f32) (p : Fin 5000) (q : Fin 64) :
    Gen.k2_pay6 (F := Ideal) v3 v7 v13 v22 v26 v33 (ix2 p q)
      = ∑ t : Fin 64, bnStats (Named.named (F := Ideal) κ "inv_50000" (φ := .f32) 0x37A7C5AC#32) (Ideal.ofBits .f32 0x3727C5AC#32)
          (fun i j => v13 (ix2 i j)) (fun j => v3 (ix2 0 j)) (fun j => v7 (ix2 0 j)) (fun j => v22 (ix2 0 j))
          (fun j => v26 (ix2 0 j)) p t * v33 (ix2 t q) := by
  unfold Gen.k2_pay6
  rw [k2_dot_plain, Cert.PayLib.plainProduct_apply]
  simp only [truncf_apply, maximumf_apply, addf_apply, mulf_apply, subf_apply, broadcastTo_1b_ab_apply, shapeCast_self,
    broadcast_apply, Cert.PayLib.rsqrt_apply]
  simp only [show Scalar.ofBits (F := Ideal) .f32 0x00000000#32 = (0 : EReal) from Ideal.ofBits_zero_f32]
  rfl

/-- The block written back: the product plus the bias row. -/
theorem k2_pay1_apply (v36 : FVec Ideal S5000x64 .f32) (v37 : Vec Ideal S1x64 .f32) (p : Fin 5000) (q : Fin 64) :
    Gen.k2_pay1 (F := Ideal) v36 v37 (ix2 p q) = v36 (ix2 p q) + v37 (ix2 0 q) := by
  unfold Gen.k2_pay1
  rw [addf_apply, broadcastTo_1b_ab_apply, shapeCast_self]

/-- The two steps together: the block written back is the normalised, clipped block through the weight and bias. -/
theorem k2_pay1_pay6_apply (v3 : Vec Ideal S1x64 .f32) (v7 : Vec Ideal S1x64 .f32) (v13 : Vec Ideal S5000x64 .f32)
    (v22 : Vec Ideal S1x64 .f32) (v26 : Vec Ideal S1x64 .f32) (v33 : Vec Ideal S64x64 .f32) (v37 : Vec Ideal S1x64 .f32)
    (p : Fin 5000) (q : Fin 64) :
    Gen.k2_pay1 (F := Ideal) (Gen.k2_pay6 (F := Ideal) v3 v7 v13 v22 v26 v33) v37 (ix2 p q)
      = affine (bnStats (Named.named (F := Ideal) κ "inv_50000" (φ := .f32) 0x37A7C5AC#32) (Ideal.ofBits .f32 0x3727C5AC#32)
          (fun i j => v13 (ix2 i j)) (fun j => v3 (ix2 0 j)) (fun j => v7 (ix2 0 j)) (fun j => v22 (ix2 0 j))
          (fun j => v26 (ix2 0 j))) (fun t j => v33 (ix2 t j)) (fun j => v37 (ix2 0 j)) p q := by
  rw [k2_pay1_apply]
  simp only [k2_pay6_apply]
  rfl

/-- The first running row after the body: its old value plus the column sums of the block written back. -/
theorem k2_pay2_apply (v36 : FVec Ideal S5000x64 .f32) (v37 : Vec Ideal S1x64 .f32) (v42 : Vec Ideal S1x64 .f32) (q : Fin 64) :
    Gen.k2_pay2 (F := Ideal) v36 v37 v42 (ix2 0 q)
      = v42 (ix2 0 q) + colSum (fun i j => Gen.k2_pay1 (F := Ideal) v36 v37 (ix2 i j)) q := by
  unfold Gen.k2_pay2
  dsimp only
  rw [shapeCast_self, addf_apply, shapeCast_a_1a_apply, Cert.PayLib.rowSum_apply]
  rfl

/-- The second running row after the body: its old value plus the column sums of the block's squares. -/
theorem k2_pay3_apply (v36 : FVec Ideal S5000x64 .f32) (v37 : Vec Ideal S1x64 .f32) (v49 : Vec Ideal S1x64 .f32) (q : Fin 64) :
    Gen.k2_pay3 (F := Ideal) v36 v37 v49 (ix2 0 q)
      = v49 (ix2 0 q) + colSumSq (fun i j => Gen.k2_pay1 (F := Ideal) v36 v37 (ix2 i j)) q := by
  unfold Gen.k2_pay3
  dsimp only
  rw [shapeCast_self, addf_apply, shapeCast_a_1a_apply, Cert.PayLib.rowSum_apply]
  rfl

/-- At the first grid point the first running row is set to zero. -/
theorem k2_pay4_apply (q : Fin 64) : Gen.k2_pay4 (F := Ideal) (ix2 0 q) = 0 := by
  unfold Gen.k2_pay4
  rw [shapeCast_self, broadcast_apply]
  exact Ideal.ofBits_zero_f32

/-- At the first grid point the second running row is set to zero. -/
theorem k2_pay5_apply (q : Fin 64) : Gen.k2_pay5 (F := Ideal) (ix2 0 q) = 0 := by
  unfold Gen.k2_pay5
  rw [shapeCast_self, broadcast_apply]
  exact Ideal.ofBits_zero_f32

end Cert.KernelIdeal.PayVal

end
-- ==== Proof.KI.Val2.lean ====
/-
  From row blocks to whole arrays, for the normalise-multiply-with-statistics region, on the extended reals.

  The region walks ten grid points; point t stages rows t * 5000 … t * 5000 + 4999 of the incoming matrix z, and the
  whole of six small operands: the column sums and column sums of squares of z over all rows, the scale and shift rows,
  the weight and the bias row.  Batch normalisation by given statistics is entrywise, and a product with a weight reads
  only a row of its left factor; so what the body writes back at point t is rows t * 5000 … of one matrix over all
  50000 rows, Z = relu (bn z) W + b, and the ten blocks tile the output array.  The two running rows start at zero,
  point t adds the column sums (the column sums of squares) of its rows of Z, and the last point alone writes them
  back; so the two statistics arrays end holding the column sums and the column sums of squares of Z.
-/
import proofs.«140206_j52750788330061_1_alg».proof.Proof.KI.Reg2
import proofs.«140206_j52750788330061_1_alg».proof.Proof.KI.Pay2
import proofs.«140206_j52750788330061_1_alg».proof.Proof.KI.ValLib
import proofs.«140206_j52750788330061_1_alg».proof.Proof.Spec
import proofs.«140206_j52750788330061_1_alg».proof.Proof.SpecAlg
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Spec

variable (V : (c : Dev nD) → (b : Ref sig .tc) → Buf (Elt Ideal) ((c : Thread nD τ).loc b))

/-! ## Where the windows' blocks lie

The two row-block windows (the incoming matrix, the output) sit at block row t at grid point t; the eight whole-array
windows sit at the origin at every point. -/

theorem idx2_0 : ∀ t : Fin cfg2.N, win2_0.index t 0 = t.val ∧ win2_0.index t 1 = 0 :=
  (by decide +kernel : ∀ t : Fin grid2.N, _)
theorem idx2_1 : ∀ t : Fin cfg2.N, win2_1.index t 0 = 0 ∧ win2_1.index t 1 = 0 :=
  (by decide +kernel : ∀ t : Fin grid2.N, _)
theorem idx2_2 : ∀ t : Fin cfg2.N, win2_2.index t 0 = 0 ∧ win2_2.index t 1 = 0 :=
  (by decide +kernel : ∀ t : Fin grid2.N, _)
theorem idx2_3 : ∀ t : Fin cfg2.N, win2_3.index t 0 = 0 ∧ win2_3.index t 1 = 0 :=
  (by decide +kernel : ∀ t : Fin grid2.N, _)
theorem idx2_4 : ∀ t : Fin cfg2.N, win2_4.index t 0 = 0 ∧ win2_4.index t 1 = 0 :=
  (by decide +kernel : ∀ t : Fin grid2.N, _)
theorem idx2_5 : ∀ t : Fin cfg2.N, win2_5.index t 0 = 0 ∧ win2_5.index t 1 = 0 :=
  (by decide +kernel : ∀ t : Fin grid2.N, _)
theorem idx2_6 : ∀ t : Fin cfg2.N, win2_6.index t 0 = 0 ∧ win2_6.index t 1 = 0 :=
  (by decide +kernel : ∀ t : Fin grid2.N, _)
theorem idx2_7 : ∀ t : Fin cfg2.N, win2_7.index t 0 = t.val ∧ win2_7.index t 1 = 0 :=
  (by decide +kernel : ∀ t : Fin grid2.N, _)
theorem idx2_8 : ∀ t : Fin cfg2.N, win2_8.index t 0 = 0 ∧ win2_8.index t 1 = 0 :=
  (by decide +kernel : ∀ t : Fin grid2.N, _)
theorem idx2_9 : ∀ t : Fin cfg2.N, win2_9.index t 0 = 0 ∧ win2_9.index t 1 = 0 :=
  (by decide +kernel : ∀ t : Fin grid2.N, _)

/-- Row p of block t is a row of the array. -/
theorem rows2_lt (t : Fin cfg2.N) (p : Fin 5000) : t.val * 5000 + p.val < 50000 := by
  have ht : t.val < 10 := lt_of_lt_of_eq t.isLt N_2
  have hp := p.isLt
  omega

/-- The incoming block at point t is rows t * 5000 … of the incoming array. -/
theorem iblk2_0_apply (c : Dev nD) (t : Fin cfg2.N) (p : Fin 5000) (q : Fin 64) :
    (iblk2 V c 0 t : Vec Ideal S5000x64 .f32) (ix2 p q)
      = V c (Pipeline.arrRef spec2 0) (ix2 ⟨t.val * 5000 + p.val, rows2_lt t p⟩ q) := by
  unfold iblk2
  rw [View.read_apply]
  show V c (Pipeline.arrRef spec2 0) _ = V c (Pipeline.arrRef spec2 0) _
  congr 1
  funext a
  apply Fin.ext
  obtain ⟨e0, e1⟩ := idx2_0 t
  match a with
  | ⟨0, _⟩ => show win2_0.index t 0 * 5000 + 1 * p.val = t.val * 5000 + p.val; rw [e0]; omega
  | ⟨1, _⟩ => show win2_0.index t 1 * 64 + 1 * q.val = q.val; rw [e1]; omega

/-- The column-sum row's block at every point is the column-sum row. -/
theorem iblk2_1_apply (c : Dev nD) (t : Fin cfg2.N) (q : Fin 64) :
    (iblk2 V c 1 t : Vec Ideal S1x64 .f32) (ix2 0 q) = V c (Pipeline.arrRef spec2 1) (ix2 0 q) := by
  unfold iblk2
  rw [View.read_apply]
  show V c (Pipeline.arrRef spec2 1) _ = V c (Pipeline.arrRef spec2 1) _
  congr 1
  funext a
  apply Fin.ext
  obtain ⟨e0, e1⟩ := idx2_1 t
  match a with
  | ⟨0, _⟩ => show win2_1.index t 0 * 1 + 1 * 0 = 0; rw [e0]
  | ⟨1, _⟩ => show win2_1.index t 1 * 64 + 1 * q.val = q.val; rw [e1]; omega

/-- The column-sum-of-squares row's block at every point is that row. -/
theorem iblk2_2_apply (c : Dev nD) (t : Fin cfg2.N) (q : Fin 64) :
    (iblk2 V c 2 t : Vec Ideal S1x64 .f32) (ix2 0 q) = V c (Pipeline.arrRef spec2 2) (ix2 0 q) := by
  unfold iblk2
  rw [View.read_apply]
  show V c (Pipeline.arrRef spec2 2) _ = V c (Pipeline.arrRef spec2 2) _
  congr 1
  funext a
  apply Fin.ext
  obtain ⟨e0, e1⟩ := idx2_2 t
  match a with
  | ⟨0, _⟩ => show win2_2.index t 0 * 1 + 1 * 0 = 0; rw [e0]
  | ⟨1, _⟩ => show win2_2.index t 1 * 64 + 1 * q.val = q.val; rw [e1]; omega

/-- The scale row's block at every point is the scale row. -/
theorem iblk2_3_apply (c : Dev nD) (t : Fin cfg2.N) (q : Fin 64) :
    (iblk2 V c 3 t : Vec Ideal S1x64 .f32) (ix2 0 q) = V c (Pipeline.arrRef spec2 3) (ix2 0 q) := by
  unfold iblk2
  rw [View.read_apply]
  show V c (Pipeline.arrRef spec2 3) _ = V c (Pipeline.arrRef spec2 3) _
  congr 1
  funext a
  apply Fin.ext
  obtain ⟨e0, e1⟩ := idx2_3 t
  match a with
  | ⟨0, _⟩ => show win2_3.index t 0 * 1 + 1 * 0 = 0; rw [e0]
  | ⟨1, _⟩ => show win2_3.index t 1 * 64 + 1 * q.val = q.val; rw [e1]; omega

/-- The shift row's block at every point is the shift row. -/
theorem iblk2_4_apply (c : Dev nD) (t : Fin cfg2.N) (q : Fin 64) :
    (iblk2 V c 4 t : Vec Ideal S1x64 .f32) (ix2 0 q) = V c (Pipeline.arrRef spec2 4) (ix2 0 q) := by
  unfold iblk2
  rw [View.read_apply]
  show V c (Pipeline.arrRef spec2 4) _ = V c (Pipeline.arrRef spec2 4) _
  congr 1
  funext a
  apply Fin.ext
  obtain ⟨e0, e1⟩ := idx2_4 t
  match a with
  | ⟨0, _⟩ => show win2_4.index t 0 * 1 + 1 * 0 = 0; rw [e0]
  | ⟨1, _⟩ => show win2_4.index t 1 * 64 + 1 * q.val = q.val; rw [e1]; omega

/-- The weight's block at every point is the weight. -/
theorem iblk2_5_apply (c : Dev nD) (t : Fin cfg2.N) (a' : Fin 64) (q : Fin 64) :
    (iblk2 V c 5 t : Vec Ideal S64x64 .f32) (ix2 a' q) = V c (Pipeline.arrRef spec2 5) (ix2 a' q) := by
  unfold iblk2
  rw [View.read_apply]
  show V c (Pipeline.arrRef spec2 5) _ = V c (Pipeline.arrRef spec2 5) _
  congr 1
  funext a
  apply Fin.ext
  obtain ⟨e0, e1⟩ := idx2_5 t
  match a with
  | ⟨0, _⟩ => show win2_5.index t 0 * 64 + 1 * a'.val = a'.val; rw [e0]; omega
  | ⟨1, _⟩ => show win2_5.index t 1 * 64 + 1 * q.val = q.val; rw [e1]; omega

/-- The bias row's block at every point is the bias row. -/
theorem iblk2_6_apply (c : Dev nD) (t : Fin cfg2.N) (q : Fin 64) :
    (iblk2 V c 6 t : Vec Ideal S1x64 .f32) (ix2 0 q) = V c (Pipeline.arrRef spec2 6) (ix2 0 q) := by
  unfold iblk2
  rw [View.read_apply]
  show V c (Pipeline.arrRef spec2 6) _ = V c (Pipeline.arrRef spec2 6) _
  congr 1
  funext a
  apply Fin.ext
  obtain ⟨e0, e1⟩ := idx2_6 t
  match a with
  | ⟨0, _⟩ => show win2_6.index t 0 * 1 + 1 * 0 = 0; rw [e0]
  | ⟨1, _⟩ => show win2_6.index t 1 * 64 + 1 * q.val = q.val; rw [e1]; omega

/-! ## The region's output over the whole array -/

/-- The region's output: the incoming matrix normalised by the given statistics and clipped, times the weight, plus the
    bias, over all 50000 rows. -/
abbrev Z2 (c : Dev nD) : Mat 50000 64 :=
  affine (bnStats (Named.named (F := Ideal) κ "inv_50000" (φ := .f32) 0x37A7C5AC#32) (Ideal.ofBits .f32 0x3727C5AC#32)
      (fun i j => V c (Pipeline.arrRef spec2 0) (ix2 i j)) (fun j => V c (Pipeline.arrRef spec2 1) (ix2 0 j))
      (fun j => V c (Pipeline.arrRef spec2 2) (ix2 0 j)) (fun j => V c (Pipeline.arrRef spec2 3) (ix2 0 j))
      (fun j => V c (Pipeline.arrRef spec2 4) (ix2 0 j)))
    (fun t j => V c (Pipeline.arrRef spec2 5) (ix2 t j)) (fun j => V c (Pipeline.arrRef spec2 6) (ix2 0 j))

/-- What the body computes from the blocks at point t is rows t * 5000 … of that output. -/
theorem block2_z (c : Dev nD) (t : Fin cfg2.N) (p : Fin 5000) (q : Fin 64) :
    k2_pay1 (F := Ideal) (k2_pay6 (F := Ideal) (iblk2 V c 1 t) (iblk2 V c 2 t) (iblk2 V c 0 t) (iblk2 V c 3 t) (iblk2 V c 4 t) (iblk2 V c 5 t)) (iblk2 V c 6 t) (ix2 p q)
      = Z2 V c ⟨t.val * 5000 + p.val, rows2_lt t p⟩ q :=
  (PayVal.k2_pay1_pay6_apply (iblk2 V c 1 t) (iblk2 V c 2 t) (iblk2 V c 0 t) (iblk2 V c 3 t) (iblk2 V c 4 t) (iblk2 V c 5 t) (iblk2 V c 6 t) p q).trans
    (Cert.ValLib.affine_congr _ _ _ _ _ _ p ⟨t.val * 5000 + p.val, rows2_lt t p⟩
      (fun s => Cert.ValLib.bnStats_congr _ _ _ _ _ _ _ _ _ _ _ _ p ⟨t.val * 5000 + p.val, rows2_lt t p⟩ s
        (iblk2_0_apply V c t p s) (iblk2_1_apply V c t s) (iblk2_2_apply V c t s) (iblk2_3_apply V c t s)
        (iblk2_4_apply V c t s))
      (fun s s' => iblk2_5_apply V c t s s') (fun s => iblk2_6_apply V c t s) q)

/-- What point t writes back to the output array is block t of the region's output. -/
theorem flushed2_z (c : Dev nD) (t : Fin cfg2.N) :
    (dat2 V c).flushed 7 t
      = ((cfg2.win 7).blk t).view.read (Elt Ideal) (fun i : S50000x64.Idx => Z2 V c (i 0) (i 1)) := by
  show (cfg2.win 7).cut (grid2.coords t) ((dat2 V c).after 7 t) = _
  rw [after2_big, big2_eq]
  refine funext fun (y : S5000x64.Idx) => ?_
  obtain ⟨p, q, rfl⟩ : ∃ (p : Fin 5000) (q : Fin 64), y = ix2 p q := ⟨y 0, y 1, eq_ix2 y⟩
  rw [View.read_apply]
  refine (block2_z V c t p q).trans ?_
  rw [cast_eq]
  obtain ⟨e0, e1⟩ := idx2_7 t
  have h0 : t.val * 5000 + p.val = ((((cfg2.win 7).blk t).view.emb (ix2 p q) : S50000x64.Idx) 0).val := by
    show _ = win2_7.index t 0 * 5000 + 1 * p.val
    rw [e0]; omega
  have h1 : q.val = ((((cfg2.win 7).blk t).view.emb (ix2 p q) : S50000x64.Idx) 1).val := by
    show _ = win2_7.index t 1 * 64 + 1 * q.val
    rw [e1]; omega
  exact congrArg₂ (Z2 V c) (Fin.ext h0) (Fin.ext h1)

/-- Every row of the output array lies in the block of the point that is the row's number divided by 5000. -/
theorem cover2_z (i : S50000x64.Idx) :
    ∃ t : Fin cfg2.N, (cfg2.win 7).flush t = true ∧ i ∈ ((cfg2.win 7).blk t).view.set := by
  have hi : (i 0).val < 50000 := (i 0).isLt
  have hq : (i 1).val < 64 := (i 1).isLt
  have hN : cfg2.N = 10 := N_2
  have ht : (i 0).val / 5000 < cfg2.N := by rw [hN]; omega
  refine ⟨⟨(i 0).val / 5000, ht⟩, flush2_7 _, ?_⟩
  show i ∈ ((View.whole (Pipeline.arrRef spec2 7)).slice (win2_7.rect ⟨(i 0).val / 5000, ht⟩)).set
  rw [View.set_slice_whole, Rect.mem_set_unit]
  obtain ⟨e0, e1⟩ := idx2_7 ⟨(i 0).val / 5000, ht⟩
  intro a
  match a with
  | ⟨0, _⟩ =>
    show win2_7.index ⟨(i 0).val / 5000, ht⟩ 0 * 5000 ≤ (i 0).val
      ∧ (i 0).val < win2_7.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win2_7.index ⟨(i 0).val / 5000, ht⟩ 1 * 64 ≤ (i 1).val
      ∧ (i 1).val < win2_7.index ⟨(i 0).val / 5000, ht⟩ 1 * 64 + 64
    rw [e1]; omega

/-- After the region the output array holds the region's output. -/
theorem arrAt2_z (c : Dev nD) (i : Fin 50000) (j : Fin 64) : (dat2 V c).arrAt 7 cfg2.N (ix2 i j) = Z2 V c i j :=
  congrFun ((dat2 V c).arrAt_eq_of_cover 7 (fun i : S50000x64.Idx => Z2 V c (i 0) (i 1)) (fun t _ => flushed2_z V c t)
    (cover2_z)) (ix2 i j)

/-! ## The two statistics rows -/

/-- One point's step of the first running row: it adds the column sums of the point's rows of the output. -/
theorem acc2_s_step (c : Dev nD) (t : Fin cfg2.N) (q : Fin 64) :
    (acc2 V c (t.val + 1)).1 (ix2 0 q)
      = (acc2 V c t.val).1 (ix2 0 q)
        + colSum (fun (r : Fin 5000) j => Z2 V c ⟨t.val * 5000 + r.val, rows2_lt t r⟩ j) q := by
  rw [acc2_succ V c t]
  refine (PayVal.k2_pay2_apply (k2_pay6 (F := Ideal) (iblk2 V c 1 t) (iblk2 V c 2 t) (iblk2 V c 0 t) (iblk2 V c 3 t) (iblk2 V c 4 t) (iblk2 V c 5 t)) (iblk2 V c 6 t) (acc2 V c t.val).1 q).trans ?_
  refine congrArg (_ + ·) ?_
  unfold colSum
  exact Finset.sum_congr rfl fun r _ => block2_z V c t r q

/-- One point's step of the second running row: it adds the column sums of squares of the point's rows. -/
theorem acc2_ss_step (c : Dev nD) (t : Fin cfg2.N) (q : Fin 64) :
    (acc2 V c (t.val + 1)).2 (ix2 0 q)
      = (acc2 V c t.val).2 (ix2 0 q)
        + colSumSq (fun (r : Fin 5000) j => Z2 V c ⟨t.val * 5000 + r.val, rows2_lt t r⟩ j) q := by
  rw [acc2_succ V c t]
  refine (PayVal.k2_pay3_apply (k2_pay6 (F := Ideal) (iblk2 V c 1 t) (iblk2 V c 2 t) (iblk2 V c 0 t) (iblk2 V c 3 t) (iblk2 V c 4 t) (iblk2 V c 5 t)) (iblk2 V c 6 t) (acc2 V c t.val).2 q).trans ?_
  refine congrArg (_ + ·) ?_
  unfold colSumSq
  exact Finset.sum_congr rfl fun r _ => congrArg₂ (· * ·) (block2_z V c t r q) (block2_z V c t r q)

/-- The only point that writes a statistics row back is the last one. -/
theorem last2_of_flush (t : Fin cfg2.N) (h : t.val % 10 = 9) : t.val + 1 = 10 := by
  have h2 : t.val < 10 := lt_of_lt_of_eq t.isLt N_2
  omega

/-- After the region the first statistics array holds the first running row after all ten points. -/
theorem arrAt2_8_eq (c : Dev nD) : (dat2 V c).arrAt 8 cfg2.N = (acc2 V c 10).1 := by
  refine (dat2 V c).arrAt_eq_of_cover 8 ((acc2 V c 10).1) (fun t hf => ?_) (fun i => ?_)
  · show (cfg2.win 8).cut (grid2.coords t) ((dat2 V c).after 8 t) = _
    rw [after2_s, last2_of_flush t ((flush2_8 t).mp hf)]
    refine funext fun (y : S1x64.Idx) => ?_
    rw [View.read_apply, cast_eq]
    refine congrArg (acc2 V c 10).1 (?_ : y = ((cfg2.win 8).blk t).view.emb y)
    obtain ⟨e0, e1⟩ := idx2_8 t
    funext a
    apply Fin.ext
    match a with
    | ⟨0, _⟩ => show (y 0).val = win2_8.index t 0 * 1 + 1 * (y 0).val; rw [e0]; omega
    | ⟨1, _⟩ => show (y 1).val = win2_8.index t 1 * 64 + 1 * (y 1).val; rw [e1]; omega
  · refine ⟨t2_9, (flush2_8 t2_9).mpr rfl, ?_⟩
    show i ∈ ((View.whole (Pipeline.arrRef spec2 8)).slice (win2_8.rect t2_9)).set
    rw [View.set_slice_whole, Rect.mem_set_unit]
    obtain ⟨e0, e1⟩ := idx2_8 t2_9
    have h0 : (i 0).val < 1 := (i 0).isLt
    have h1 : (i 1).val < 64 := (i 1).isLt
    intro a
    match a with
    | ⟨0, _⟩ => show win2_8.index t2_9 0 * 1 ≤ (i 0).val ∧ (i 0).val < win2_8.index t2_9 0 * 1 + 1; rw [e0]; omega
    | ⟨1, _⟩ => show win2_8.index t2_9 1 * 64 ≤ (i 1).val ∧ (i 1).val < win2_8.index t2_9 1 * 64 + 64; rw [e1]; omega

/-- After the region the second statistics array holds the second running row after all ten points. -/
theorem arrAt2_9_eq (c : Dev nD) : (dat2 V c).arrAt 9 cfg2.N = (acc2 V c 10).2 := by
  refine (dat2 V c).arrAt_eq_of_cover 9 ((acc2 V c 10).2) (fun t hf => ?_) (fun i => ?_)
  · show (cfg2.win 9).cut (grid2.coords t) ((dat2 V c).after 9 t) = _
    rw [after2_ss, last2_of_flush t ((flush2_9 t).mp hf)]
    refine funext fun (y : S1x64.Idx) => ?_
    rw [View.read_apply, cast_eq]
    refine congrArg (acc2 V c 10).2 (?_ : y = ((cfg2.win 9).blk t).view.emb y)
    obtain ⟨e0, e1⟩ := idx2_9 t
    funext a
    apply Fin.ext
    match a with
    | ⟨0, _⟩ => show (y 0).val = win2_9.index t 0 * 1 + 1 * (y 0).val; rw [e0]; omega
    | ⟨1, _⟩ => show (y 1).val = win2_9.index t 1 * 64 + 1 * (y 1).val; rw [e1]; omega
  · refine ⟨t2_9, (flush2_9 t2_9).mpr rfl, ?_⟩
    show i ∈ ((View.whole (Pipeline.arrRef spec2 9)).slice (win2_9.rect t2_9)).set
    rw [View.set_slice_whole, Rect.mem_set_unit]
    obtain ⟨e0, e1⟩ := idx2_9 t2_9
    have h0 : (i 0).val < 1 := (i 0).isLt
    have h1 : (i 1).val < 64 := (i 1).isLt
    intro a
    match a with
    | ⟨0, _⟩ => show win2_9.index t2_9 0 * 1 ≤ (i 0).val ∧ (i 0).val < win2_9.index t2_9 0 * 1 + 1; rw [e0]; omega
    | ⟨1, _⟩ => show win2_9.index t2_9 1 * 64 ≤ (i 1).val ∧ (i 1).val < win2_9.index t2_9 1 * 64 + 64; rw [e1]; omega

/-- After the region the first statistics array holds the column sums of the region's output. -/
theorem arrAt2_s (c : Dev nD) (j : Fin 64) : (dat2 V c).arrAt 8 cfg2.N (ix2 0 j) = colSum (Z2 V c) j := by
  rw [arrAt2_8_eq]
  exact Cert.ValLib.colSum_running 10 5000 (by decide) (Z2 V c) (fun n q => (acc2 V c n).1 (ix2 0 q))
    (fun t ht r c' => Z2 V c ⟨t * 5000 + r.val, rows2_lt ⟨t, lt_of_lt_of_eq ht N_2.symm⟩ r⟩ c') (fun _ _ _ _ => rfl)
    (fun q => by
      show (acc2 V c 0).1 (ix2 0 q) = 0
      rw [acc2_zero]
      exact PayVal.k2_pay4_apply q)
    (fun t ht q => acc2_s_step V c ⟨t, lt_of_lt_of_eq ht N_2.symm⟩ q) j

/-- After the region the second statistics array holds the column sums of squares of the region's output. -/
theorem arrAt2_ss (c : Dev nD) (j : Fin 64) : (dat2 V c).arrAt 9 cfg2.N (ix2 0 j) = colSumSq (Z2 V c) j := by
  rw [arrAt2_9_eq]
  exact Cert.ValLib.colSumSq_running 10 5000 (by decide) (Z2 V c) (fun n q => (acc2 V c n).2 (ix2 0 q))
    (fun t ht r c' => Z2 V c ⟨t * 5000 + r.val, rows2_lt ⟨t, lt_of_lt_of_eq ht N_2.symm⟩ r⟩ c') (fun _ _ _ _ => rfl)
    (fun q => by
      show (acc2 V c 0).2 (ix2 0 q) = 0
      rw [acc2_zero]
      exact PayVal.k2_pay5_apply q)
    (fun t ht q => acc2_ss_step V c ⟨t, lt_of_lt_of_eq ht N_2.symm⟩ q) j

end Cert.KernelIdeal.Val

end
-- ==== Proof.KI.Pay3.lean ====
/-
  The normalise-and-clip body, read at one entry on the extended reals.

  From the column-sum row s, the column-sum-of-squares row ss, the block z, the scale row g and the shift row be,
  the body forms the mean s * c and the variance ss * c - (s * c) * (s * c), where c is the reciprocal of the row
  count that the program carries under a name, and writes max ((z - mean) * rsqrt (variance + eps) * g + be) 0.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The block written back: batch normalisation from the two statistics rows, then the positive part. -/
theorem k3_pay1_apply (v0 : Vec Ideal S1x64 .f32) (v4 : Vec Ideal S1x64 .f32) (v10 : Vec Ideal S5000x64 .f32)
    (v19 : Vec Ideal S1x64 .f32) (v23 : Vec Ideal S1x64 .f32) (p : Fin 5000) (q : Fin 64) :
    Gen.k3_pay1 (F := Ideal) v0 v4 v10 v19 v23 (ix2 p q)
      = bnStats (Named.named (F := Ideal) κ "inv_50000" (φ := .f32) 0x37A7C5AC#32) (Ideal.ofBits .f32 0x3727C5AC#32)
          (fun i j => v10 (ix2 i j)) (fun j => v0 (ix2 0 j)) (fun j => v4 (ix2 0 j)) (fun j => v19 (ix2 0 j))
          (fun j => v23 (ix2 0 j)) p q := by
  unfold Gen.k3_pay1
  simp only [maximumf_apply, addf_apply, mulf_apply, subf_apply, broadcastTo_1b_ab_apply, shapeCast_self,
    broadcast_apply, Cert.PayLib.rsqrt_apply]
  rw [show Scalar.ofBits (F := Ideal) .f32 0x00000000#32 = 0 from Ideal.ofBits_zero_f32]
  rfl

end Cert.KernelIdeal.PayVal

end
-- ==== Proof.KI.Val3.lean ====
/-
  The batch-normalisation region of a layer, from blocks to the array, on the extended reals.

  The region's grid has ten points; point t works on rows t * 5000 .. t * 5000 + 4999 of a 50000 x 64 matrix. Its
  matrix windows (the input and the output) show row block t; its four row windows (column sums, column sums of
  squares, scale, shift) show the one 1 x 64 row at every point. At each point the body writes, over the whole
  output block, batch normalisation with the positive part of the input block by the four rows. Because that
  function is entrywise in the matrix and columnwise in the rows, block t of the output is block t of ONE function
  of the whole input arrays; the ten blocks tile the output array (row r lies in block r / 5000); so after the last
  write-back the output array is that function of the input arrays as the region found them, entry by entry.
-/
import proofs.«140206_j52750788330061_1_alg».proof.Proof.KI.Reg3
import proofs.«140206_j52750788330061_1_alg».proof.Proof.KI.Pay3
import proofs.«140206_j52750788330061_1_alg».proof.Proof.Spec
import Idealize.ShloMosaic.Lib.ValueIdx
import Idealize.ShloMosaic.Lib.Pipeline.Value
import Idealize.ShloMosaic.Lib.Tactic

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- A whole block is read and written from its origin. -/
theorem origin3 : (![0, 0] : Fin 2 → Nat) = fun _ => 0 := funext fun a => by fin_cases a <;> rfl

/-- Batch normalisation with the positive part is entrywise in the matrix and columnwise in the four rows: two
    instances agree at an entry as soon as the matrix entries and the four row entries there agree. -/
theorem bnEntry3 {n n' : Nat} (inv eps : EReal) (z : Mat n 64) (z' : Mat n' 64) (s ss g be s' ss' g' be' : Row)
    (i : Fin n) (i' : Fin n') (j : Fin 64) (hz : z i j = z' i' j) (hs : s j = s' j) (hss : ss j = ss' j)
    (hg : g j = g' j) (hbe : be j = be' j) :
    bnStats inv eps z s ss g be i j = bnStats inv eps z' s' ss' g' be' i' j := by
  unfold bnStats; rw [hz, hs, hss, hg, hbe]

/-- The output array of the region as one function of the five input arrays as the region finds them: batch
    normalisation of the 50000 x 64 matrix by the two statistics rows, the scale row and the shift row. -/
def bnArr3 (c : Dev nD) : S50000x64.Idx → EReal := fun k =>
  bnStats (Named.named (F := Ideal) κ "inv_50000" (φ := .f32) 0x37A7C5AC#32) (Ideal.ofBits .f32 0x3727C5AC#32)
    (fun i j => V c (Pipeline.arrRef spec3 0) (ix2 i j)) (fun j => V c (Pipeline.arrRef spec3 1) (ix2 0 j))
    (fun j => V c (Pipeline.arrRef spec3 2) (ix2 0 j)) (fun j => V c (Pipeline.arrRef spec3 3) (ix2 0 j))
    (fun j => V c (Pipeline.arrRef spec3 4) (ix2 0 j)) (k 0) (k 1)

/-- The block indices over the grid: the matrix windows (input 0, output 5) are at row block t, column block 0; the
    four row windows stay at block (0, 0). -/
theorem blockIndex3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The matrix block at point t, entry (p, q), is the matrix at row t * 5000 + p, column q. -/
theorem matBlock3_apply (c : Dev nD) (t : Fin cfg3.N) (p : Fin 5000) (q : Fin 64) (k : S50000x64.Idx)
    (hk0 : (k 0).val = t.val * 5000 + p.val) (hk1 : (k 1).val = q.val) :
    (iblk3 V c 0 t : Vec Ideal S5000x64 .f32) (ix2 p q) = (V c (Pipeline.arrRef spec3 0) : S50000x64.Idx → EReal) k := by
  obtain ⟨e0, e1, -⟩ := blockIndex3 t
  unfold iblk3
  rw [View.read_apply]
  refine congrArg (V c (Pipeline.arrRef spec3 0) : S50000x64.Idx → EReal) ?_
  funext a
  apply Fin.ext
  match a with
  | ⟨0, _⟩ => show win3_0.index t 0 * 5000 + 1 * p.val = (k 0).val; rw [e0, hk0]; omega
  | ⟨1, _⟩ => show win3_0.index t 1 * 64 + 1 * q.val = (k 1).val; rw [e1, hk1]; omega

/-- The column-sum row window shows the whole row at every point. -/
theorem rowBlock3_1_apply (c : Dev nD) (t : Fin cfg3.N) (q : Fin 64) :
    (iblk3 V c 1 t : Vec Ideal S1x64 .f32) (ix2 0 q) = (V c (Pipeline.arrRef spec3 1) : S1x64.Idx → EReal) (ix2 0 q) := by
  obtain ⟨-, -, -, -, e0, e1, -, -, -, -, -, -⟩ := blockIndex3 t
  unfold iblk3
  rw [View.read_apply]
  refine congrArg (V c (Pipeline.arrRef spec3 1) : S1x64.Idx → EReal) ?_
  funext a
  apply Fin.ext
  match a with
  | ⟨0, _⟩ => show win3_1.index t 0 * 1 + 1 * 0 = 0; rw [e0]
  | ⟨1, _⟩ => show win3_1.index t 1 * 64 + 1 * q.val = q.val; rw [e1]; omega

/-- The sum-of-squares row window shows the whole row at every point. -/
theorem rowBlock3_2_apply (c : Dev nD) (t : Fin cfg3.N) (q : Fin 64) :
    (iblk3 V c 2 t : Vec Ideal S1x64 .f32) (ix2 0 q) = (V c (Pipeline.arrRef spec3 2) : S1x64.Idx → EReal) (ix2 0 q) := by
  obtain ⟨-, -, -, -, -, -, e0, e1, -, -, -, -⟩ := blockIndex3 t
  unfold iblk3
  rw [View.read_apply]
  refine congrArg (V c (Pipeline.arrRef spec3 2) : S1x64.Idx → EReal) ?_
  funext a
  apply Fin.ext
  match a with
  | ⟨0, _⟩ => show win3_2.index t 0 * 1 + 1 * 0 = 0; rw [e0]
  | ⟨1, _⟩ => show win3_2.index t 1 * 64 + 1 * q.val = q.val; rw [e1]; omega

/-- The scale row window shows the whole row at every point. -/
theorem rowBlock3_3_apply (c : Dev nD) (t : Fin cfg3.N) (q : Fin 64) :
    (iblk3 V c 3 t : Vec Ideal S1x64 .f32) (ix2 0 q) = (V c (Pipeline.arrRef spec3 3) : S1x64.Idx → EReal) (ix2 0 q) := by
  obtain ⟨-, -, -, -, -, -, -, -, e0, e1, -, -⟩ := blockIndex3 t
  unfold iblk3
  rw [View.read_apply]
  refine congrArg (V c (Pipeline.arrRef spec3 3) : S1x64.Idx → EReal) ?_
  funext a
  apply Fin.ext
  match a with
  | ⟨0, _⟩ => show win3_3.index t 0 * 1 + 1 * 0 = 0; rw [e0]
  | ⟨1, _⟩ => show win3_3.index t 1 * 64 + 1 * q.val = q.val; rw [e1]; omega

/-- The shift row window shows the whole row at every point. -/
theorem rowBlock3_4_apply (c : Dev nD) (t : Fin cfg3.N) (q : Fin 64) :
    (iblk3 V c 4 t : Vec Ideal S1x64 .f32) (ix2 0 q) = (V c (Pipeline.arrRef spec3 4) : S1x64.Idx → EReal) (ix2 0 q) := by
  obtain ⟨-, -, -, -, -, -, -, -, -, -, e0, e1⟩ := blockIndex3 t
  unfold iblk3
  rw [View.read_apply]
  refine congrArg (V c (Pipeline.arrRef spec3 4) : S1x64.Idx → EReal) ?_
  funext a
  apply Fin.ext
  match a with
  | ⟨0, _⟩ => show win3_4.index t 0 * 1 + 1 * 0 = 0; rw [e0]
  | ⟨1, _⟩ => show win3_4.index t 1 * 64 + 1 * q.val = q.val; rw [e1]; omega

/-- What point t writes back is block t of the region's output function. The body's one store leaves its payload
    over the whole block; at entry (p, q) the payload is batch normalisation of the blocks, which reads the matrix
    block at (p, q) and the four rows at q; the matrix block's entry (p, q) is the matrix entry in row
    t * 5000 + p, which is where the output block's entry (p, q) lies in the output array. -/
theorem flushed3_eq (c : Dev nD) (t : Fin cfg3.N) :
    (dat3 V c).flushed 5 t = ((cfg3.win 5).blk t).view.read (Elt Ideal) (bnArr3 V c) := by
  show (cfg3.win 5).cut (grid3.coords t) ((dat3 V c).after 5 t) = _
  rw [after3_5]
  unfold out3_5
  rw [View.canon_unit_zero origin3]
  simp only [View.ld_unit_zero (S := S5000x64) origin3, View.ld_unit_zero (S := S1x64) origin3]
  obtain ⟨-, -, e0, e1, -⟩ := blockIndex3 t
  funext y
  obtain ⟨p, q, rfl⟩ : ∃ (p : Fin 5000) (q : Fin 64), y = ix2 p q := ⟨y 0, y 1, eq_ix2 y⟩
  show k3_pay1 (iblk3 V c 1 t) (iblk3 V c 2 t) (iblk3 V c 0 t) (iblk3 V c 3 t) (iblk3 V c 4 t) (ix2 p q)
    = bnArr3 V c (((cfg3.win 5).blk t).view.emb (ix2 p q))
  refine (Cert.KernelIdeal.PayVal.k3_pay1_apply _ _ _ _ _ p q).trans ?_
  unfold bnArr3
  have hrow : ((((cfg3.win 5).blk t).view.emb (ix2 p q) : S50000x64.Idx) 0).val = t.val * 5000 + p.val := by
    show win3_5.index t 0 * 5000 + 1 * p.val = _; rw [e0]; omega
  have hcol : ((((cfg3.win 5).blk t).view.emb (ix2 p q) : S50000x64.Idx) 1).val = q.val := by
    show win3_5.index t 1 * 64 + 1 * q.val = _; rw [e1]; omega
  have hq : ((((cfg3.win 5).blk t).view.emb (ix2 p q) : S50000x64.Idx) 1) = q := Fin.ext hcol
  rw [hq]
  refine bnEntry3 _ _ _ _ _ _ _ _ _ _ _ _ _ _ q ?_ ?_ ?_ ?_ ?_
  · exact (matBlock3_apply V c t p q _ hrow hcol).trans (congrArg _ (Shape.idx_ext₂ rfl hcol))
  · exact rowBlock3_1_apply V c t q
  · exact rowBlock3_2_apply V c t q
  · exact rowBlock3_3_apply V c t q
  · exact rowBlock3_4_apply V c t q

/-- An index of the output array lies in point t's block exactly when each coordinate lies in the block's range. -/
theorem mem_blk3 (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole (Pipeline.arrRef spec3 5)).slice (win3_5.rect t)).set ↔ _
  rw [View.set_slice_whole, Rect.mem_set_unit]
  exact Iff.rfl

/-- Every index of the output array lies in the block of a point that writes back: row r lies in the block of
    point r / 5000, and the one column block spans all 64 columns. -/
theorem cover3 (i : S50000x64.Idx) :
    ∃ t : Fin cfg3.N, (cfg3.win 5).flush t = true ∧ i ∈ ((cfg3.win 5).blk t).view.set := by
  have h0 : (i 0).val < 50000 := (i 0).isLt
  have h1 : (i 1).val < 64 := (i 1).isLt
  have hN : grid3.N = 10 := N_3
  let t : Fin cfg3.N := ⟨(i 0).val / 5000, by show _ < grid3.N; rw [hN]; omega⟩
  obtain ⟨-, -, e0, e1, -⟩ := blockIndex3 t
  have ht : t.val = (i 0).val / 5000 := rfl
  refine ⟨t, flush3_5 t, ?_⟩
  rw [mem_blk3]
  intro a
  match a with
  | ⟨0, _⟩ => show win3_5.index t 0 * 5000 ≤ (i 0).val ∧ (i 0).val < win3_5.index t 0 * 5000 + 5000; rw [e0, ht]; omega
  | ⟨1, _⟩ => show win3_5.index t 1 * 64 ≤ (i 1).val ∧ (i 1).val < win3_5.index t 1 * 64 + 64; rw [e1]; omega

/-- The output array after the region's last write-back is the region's output function of the input arrays. -/
theorem arrAt3_eq (c : Dev nD) : (dat3 (F := Ideal) V c).arrAt 5 cfg3.N = bnArr3 V c :=
  (dat3 V c).arrAt_eq_of_cover 5 (bnArr3 V c) (fun t _ => flushed3_eq V c t) (cover3)

/-- Entry (i, j) of the output array after the region: batch normalisation with the positive part of the matrix
    the region finds in its first window, by the statistics, scale and shift rows it finds in the next four. -/
theorem arrAt3_apply (c : Dev nD) (i : Fin 50000) (j : Fin 64) :
    (dat3 (F := Ideal) V c).arrAt 5 cfg3.N (ix2 i j)
      = bnStats (Named.named (F := Ideal) κ "inv_50000" (φ := .f32) 0x37A7C5AC#32) (Ideal.ofBits .f32 0x3727C5AC#32)
          (fun i j => V c (Pipeline.arrRef spec3 0) (ix2 i j)) (fun j => V c (Pipeline.arrRef spec3 1) (ix2 0 j))
          (fun j => V c (Pipeline.arrRef spec3 2) (ix2 0 j)) (fun j => V c (Pipeline.arrRef spec3 3) (ix2 0 j))
          (fun j => V c (Pipeline.arrRef spec3 4) (ix2 0 j)) i j := by
  rw [arrAt3_eq]
  rfl

end Cert.KernelIdeal.Val
end
-- ==== Proof.KI.Layer0.lean ====
/-
  The kernel side of layer 0 as one equation.  The layer is three kernel regions with host stretches between them.  The
  first leaves the linear map of the mixed features and that matrix's column sums and column sums of squares; the
  second normalises by those statistics, takes the positive part, applies the second linear map and leaves its two
  column statistics; the third normalises by them.  Each region's arrays are read through its value lemma at the
  contents it is entered with; what it is entered with is, window by window, what the region before left (the host
  stretch in between does not write it) or a row of a stacked parameter that nothing writes.  Chaining the three
  gives the layer's output as one layer by column statistics of the features the embedding left.  Every intermediate
  matrix is kept under a name, and each step is a congruence on the entries an expression reads; nothing is unfolded.
-/
import proofs.«140206_j52750788330061_1_alg».proof.Proof.KI.Fold
import proofs.«140206_j52750788330061_1_alg».proof.Proof.KI.Glue.Layer0
import proofs.«140206_j52750788330061_1_alg».proof.Proof.KI.ValLib
import proofs.«140206_j52750788330061_1_alg».proof.Proof.KI.Val1
import proofs.«140206_j52750788330061_1_alg».proof.Proof.KI.Val2
import proofs.«140206_j52750788330061_1_alg».proof.Proof.KI.Val3
import proofs.«140206_j52750788330061_1_alg».proof.Proof.Agg
import proofs.«140206_j52750788330061_1_alg».proof.Proof.Spec
import Idealize.ShloMosaic.Lib.ValueIdx

noncomputable section

namespace Cert.KernelIdeal.Net

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Glue Cert.Spec

variable (m : (ℓ : Loc nD τ sig) → Buf (Elt Ideal) ℓ) (c : Dev nD)

/-- The reciprocal of the row count and the variance offset, as the program spells them. -/
abbrev INV_L0 : EReal := Named.named (F := Ideal) κ "inv_50000" (φ := .f32) 0x37A7C5AC#32
abbrev EPS_L0 : EReal := Ideal.ofBits .f32 0x3727C5AC#32

/-! ## Layer 0's operands, off the launch memory and the features the embedding left -/

/-- The self-weight row: one plus entry 0 of the self-weights, in every column. -/
def e_L0 : Row := fun _ => 1 + (m ((c : Thread nD τ).loc main_arg6) : S4.Idx → EReal) (ix1 0)
/-- The node features the layer is entered with. -/
def h_L0 : Mat 50000 64 := fun i j => (X2 m c main_v2 : S50000x64.Idx → EReal) (ix2 i j)
/-- Their sums over each node's neighbours along the edge list. -/
def ag_L0 : Mat 50000 64 := fun i j => Cert.Agg.aggOf (X2 m c main_v2) (m ((c : Thread nD τ).loc main_arg2)) (ix2 i j)
/-- The layer's two weight matrices and its bias, scale and shift rows: matrix 0, row 0 of the stacked parameters. -/
def w1_L0 : Mat 64 64 := fun t j => (m ((c : Thread nD τ).loc main_arg7) : S4x64x64.Idx → EReal) (ix3 0 t j)
def b1_L0 : Row := fun j => (m ((c : Thread nD τ).loc main_arg8) : S4x64.Idx → EReal) (ix2 0 j)
def g1_L0 : Row := fun j => (m ((c : Thread nD τ).loc main_arg9) : S4x64.Idx → EReal) (ix2 0 j)
def be1_L0 : Row := fun j => (m ((c : Thread nD τ).loc main_arg10) : S4x64.Idx → EReal) (ix2 0 j)
def w2_L0 : Mat 64 64 := fun t j => (m ((c : Thread nD τ).loc main_arg11) : S4x64x64.Idx → EReal) (ix3 0 t j)
def b2_L0 : Row := fun j => (m ((c : Thread nD τ).loc main_arg12) : S4x64.Idx → EReal) (ix2 0 j)
def g2_L0 : Row := fun j => (m ((c : Thread nD τ).loc main_arg13) : S4x64.Idx → EReal) (ix2 0 j)
def be2_L0 : Row := fun j => (m ((c : Thread nD τ).loc main_arg14) : S4x64.Idx → EReal) (ix2 0 j)

/-! ## The layer's intermediate matrices, named -/

/-- The first linear map of the mixed features. -/
def z1_L0 : Mat 50000 64 := affine (mix (e_L0 m c) (h_L0 m c) (ag_L0 m c)) (w1_L0 m c) (b1_L0 m c)
/-- Its batch normalisation by its own column statistics, positive part. -/
def a1_L0 : Mat 50000 64 := bnStats INV_L0 EPS_L0 (z1_L0 m c) (colSum (z1_L0 m c)) (colSumSq (z1_L0 m c)) (g1_L0 m c) (be1_L0 m c)
/-- The second linear map. -/
def z2_L0 : Mat 50000 64 := affine (a1_L0 m c) (w2_L0 m c) (b2_L0 m c)

/-! ## Arrays read as matrices and rows -/

/-- A `[50000,64]` array as a matrix, a `[1,64]` array as its row, a `[64,64]` array as a matrix. -/
abbrev mat_L0 (X : S50000x64.Idx → EReal) : Mat 50000 64 := fun i j => X (ix2 i j)
abbrev row_L0 (X : S1x64.Idx → EReal) : Row := fun j => X (ix2 0 j)
abbrev sqm_L0 (X : S64x64.Idx → EReal) : Mat 64 64 := fun t j => X (ix2 t j)

/-! ## What each region's value lemma reads its entry contents as -/

/-- Region 1's affine matrix, read off the contents `V` the region is entered with. -/
abbrev z1V_L0 (V : (c : Dev nD) → (b : Ref sig .tc) → Buf (Elt Ideal) ((c : Thread nD τ).loc b)) (c : Dev nD) : Mat 50000 64 :=
  affine (mix (row_L0 (V c main_v25)) (mat_L0 (V c main_v2)) (mat_L0 (V c main_v17))) (sqm_L0 (V c main_v21)) (row_L0 (V c main_v26))

/-- Region 2's affine matrix, read off the contents `V` the region is entered with. -/
abbrev z2V_L0 (V : (c : Dev nD) → (b : Ref sig .tc) → Buf (Elt Ideal) ((c : Thread nD τ).loc b)) (c : Dev nD) : Mat 50000 64 :=
  affine (bnStats INV_L0 EPS_L0 (mat_L0 (V c main_v27_0)) (row_L0 (V c main_v27_1)) (row_L0 (V c main_v27_2)) (row_L0 (V c main_v36)) (row_L0 (V c main_v37)))
    (sqm_L0 (V c main_v33)) (row_L0 (V c main_v38))

/-! ## Region 1: the first linear map and its two column statistics -/

/-! What region 1 is entered with (`X3`), window by window, as the layer's operands. -/
theorem e_atA_L0 (t : Fin 64) : row_L0 (X3 m c main_v25) t = e_L0 m c t := X3_epsb m c 0 t
theorem h_atA_L0 (i : Fin 50000) (t : Fin 64) : mat_L0 (X3 m c main_v2) i t = h_L0 m c i t := congrFun (X3_h m c) (ix2 i t)
theorem ag_atA_L0 (i : Fin 50000) (t : Fin 64) : mat_L0 (X3 m c main_v17) i t = ag_L0 m c i t := by
  unfold ag_L0; rw [X3_agg, Cert.Agg.aggK_eq_aggOf]
theorem w1_atA_L0 (t q : Fin 64) : sqm_L0 (X3 m c main_v21) t q = w1_L0 m c t q := X3_W1 m c t q
theorem b1_atA_L0 (q : Fin 64) : row_L0 (X3 m c main_v26) q = b1_L0 m c q := X3_b1 m c 0 q

/-- So region 1's affine matrix is the layer's first linear map. -/
theorem z1_entry_L0 (i : Fin 50000) (j : Fin 64) : z1V_L0 (tcOf (X3 m)) c i j = z1_L0 m c i j :=
  Cert.ValLib.affine_mix_congr (row_L0 (X3 m c main_v25)) (e_L0 m c) (mat_L0 (X3 m c main_v2)) (mat_L0 (X3 m c main_v17)) (h_L0 m c) (ag_L0 m c)
    (sqm_L0 (X3 m c main_v21)) (w1_L0 m c) (row_L0 (X3 m c main_v26)) (b1_L0 m c) i i
    (e_atA_L0 m c) (h_atA_L0 m c i) (ag_atA_L0 m c i) (w1_atA_L0 m c) (b1_atA_L0 m c) j

theorem z1_fun_L0 : z1V_L0 (tcOf (X3 m)) c = z1_L0 m c := funext fun i => funext fun j => z1_entry_L0 m c i j

/-- What region 1 leaves in its three output arrays. -/
theorem xa_z_L0 : X4 m c main_v27_0 = (dat1 (F := Ideal) (tcOf (X3 m)) c).arrAt 5 cfg1.N := by
  unfold X4; exact upd3_a _ _ _ _ _ _ _ (by decide) (by decide)
theorem xa_s_L0 : X4 m c main_v27_1 = (dat1 (F := Ideal) (tcOf (X3 m)) c).arrAt 6 cfg1.N := by
  unfold X4; exact upd3_b _ _ _ _ _ _ _ (by decide)
theorem xa_ss_L0 : X4 m c main_v27_2 = (dat1 (F := Ideal) (tcOf (X3 m)) c).arrAt 7 cfg1.N := by
  unfold X4; exact upd3_c _ _ _ _ _ _ _

theorem ra_z_L0 (i : Fin 50000) (j : Fin 64) : mat_L0 (X4 m c main_v27_0) i j = z1_L0 m c i j := by
  rw [xa_z_L0]; exact (Cert.KernelIdeal.Val.arrAt1_z (tcOf (X3 m)) c i j).trans (z1_entry_L0 m c i j)
theorem ra_s_L0 (j : Fin 64) : row_L0 (X4 m c main_v27_1) j = colSum (z1_L0 m c) j := by
  rw [xa_s_L0]; exact (Cert.KernelIdeal.Val.arrAt1_s (tcOf (X3 m)) c j).trans (congrArg (fun y => colSum y j) (z1_fun_L0 m c))
theorem ra_ss_L0 (j : Fin 64) : row_L0 (X4 m c main_v27_2) j = colSumSq (z1_L0 m c) j := by
  rw [xa_ss_L0]; exact (Cert.KernelIdeal.Val.arrAt1_ss (tcOf (X3 m)) c j).trans (congrArg (fun y => colSumSq y j) (z1_fun_L0 m c))

/-! ## Region 2: the normalised activations and the second linear map -/

/-! What region 2 is entered with (`X5`): region 1's three arrays, carried through the host stretch, and row 0 / matrix 0
    of the next parameters. -/
theorem z_atB_L0 (i : Fin 50000) (t : Fin 64) : mat_L0 (X5 m c main_v27_0) i t = z1_L0 m c i t :=
  (congrFun (X5_z m c) (ix2 i t)).trans (ra_z_L0 m c i t)
theorem s_atB_L0 (t : Fin 64) : row_L0 (X5 m c main_v27_1) t = colSum (z1_L0 m c) t :=
  (congrFun (X5_s m c) (ix2 0 t)).trans (ra_s_L0 m c t)
theorem ss_atB_L0 (t : Fin 64) : row_L0 (X5 m c main_v27_2) t = colSumSq (z1_L0 m c) t :=
  (congrFun (X5_ss m c) (ix2 0 t)).trans (ra_ss_L0 m c t)
theorem g1_atB_L0 (t : Fin 64) : row_L0 (X5 m c main_v36) t = g1_L0 m c t := X5_g1 m c 0 t
theorem be1_atB_L0 (t : Fin 64) : row_L0 (X5 m c main_v37) t = be1_L0 m c t := X5_be1 m c 0 t
theorem w2_atB_L0 (t q : Fin 64) : sqm_L0 (X5 m c main_v33) t q = w2_L0 m c t q := X5_W2 m c t q
theorem b2_atB_L0 (q : Fin 64) : row_L0 (X5 m c main_v38) q = b2_L0 m c q := X5_b2 m c 0 q

/-- Region 2 normalises what region 1 left by region 1's own column statistics. -/
theorem a1_entry_L0 (i : Fin 50000) (t : Fin 64) :
    bnStats INV_L0 EPS_L0 (mat_L0 (X5 m c main_v27_0)) (row_L0 (X5 m c main_v27_1)) (row_L0 (X5 m c main_v27_2)) (row_L0 (X5 m c main_v36)) (row_L0 (X5 m c main_v37)) i t
      = a1_L0 m c i t :=
  Cert.ValLib.bnStats_congr INV_L0 EPS_L0 (mat_L0 (X5 m c main_v27_0)) (z1_L0 m c) (row_L0 (X5 m c main_v27_1)) (colSum (z1_L0 m c))
    (row_L0 (X5 m c main_v27_2)) (colSumSq (z1_L0 m c)) (row_L0 (X5 m c main_v36)) (g1_L0 m c) (row_L0 (X5 m c main_v37)) (be1_L0 m c) i i t
    (z_atB_L0 m c i t) (s_atB_L0 m c t) (ss_atB_L0 m c t) (g1_atB_L0 m c t) (be1_atB_L0 m c t)

/-- So region 2's affine matrix is the layer's second linear map. -/
theorem z2_entry_L0 (i : Fin 50000) (j : Fin 64) : z2V_L0 (tcOf (X5 m)) c i j = z2_L0 m c i j :=
  Cert.ValLib.affine_congr
    (bnStats INV_L0 EPS_L0 (mat_L0 (X5 m c main_v27_0)) (row_L0 (X5 m c main_v27_1)) (row_L0 (X5 m c main_v27_2)) (row_L0 (X5 m c main_v36)) (row_L0 (X5 m c main_v37)))
    (a1_L0 m c) (sqm_L0 (X5 m c main_v33)) (w2_L0 m c) (row_L0 (X5 m c main_v38)) (b2_L0 m c) i i
    (a1_entry_L0 m c i) (w2_atB_L0 m c) (b2_atB_L0 m c) j

theorem z2_fun_L0 : z2V_L0 (tcOf (X5 m)) c = z2_L0 m c := funext fun i => funext fun j => z2_entry_L0 m c i j

/-- What region 2 leaves in its three output arrays. -/
theorem xb_z_L0 : X6 m c main_v39_0 = (dat2 (F := Ideal) (tcOf (X5 m)) c).arrAt 7 cfg2.N := by
  unfold X6; exact upd3_a _ _ _ _ _ _ _ (by decide) (by decide)
theorem xb_s_L0 : X6 m c main_v39_1 = (dat2 (F := Ideal) (tcOf (X5 m)) c).arrAt 8 cfg2.N := by
  unfold X6; exact upd3_b _ _ _ _ _ _ _ (by decide)
theorem xb_ss_L0 : X6 m c main_v39_2 = (dat2 (F := Ideal) (tcOf (X5 m)) c).arrAt 9 cfg2.N := by
  unfold X6; exact upd3_c _ _ _ _ _ _ _

theorem rb_z_L0 (i : Fin 50000) (j : Fin 64) : mat_L0 (X6 m c main_v39_0) i j = z2_L0 m c i j := by
  rw [xb_z_L0]; exact (Cert.KernelIdeal.Val.arrAt2_z (tcOf (X5 m)) c i j).trans (z2_entry_L0 m c i j)
theorem rb_s_L0 (j : Fin 64) : row_L0 (X6 m c main_v39_1) j = colSum (z2_L0 m c) j := by
  rw [xb_s_L0]; exact (Cert.KernelIdeal.Val.arrAt2_s (tcOf (X5 m)) c j).trans (congrArg (fun y => colSum y j) (z2_fun_L0 m c))
theorem rb_ss_L0 (j : Fin 64) : row_L0 (X6 m c main_v39_2) j = colSumSq (z2_L0 m c) j := by
  rw [xb_ss_L0]; exact (Cert.KernelIdeal.Val.arrAt2_ss (tcOf (X5 m)) c j).trans (congrArg (fun y => colSumSq y j) (z2_fun_L0 m c))

/-! ## Region 3: the layer's output -/

/-! What region 3 is entered with (`X7`): region 2's three arrays and row 0 of the second scale and shift. -/
theorem z_atC_L0 (i : Fin 50000) (j : Fin 64) : mat_L0 (X7 m c main_v39_0) i j = z2_L0 m c i j :=
  (congrFun (X7_z m c) (ix2 i j)).trans (rb_z_L0 m c i j)
theorem s_atC_L0 (j : Fin 64) : row_L0 (X7 m c main_v39_1) j = colSum (z2_L0 m c) j :=
  (congrFun (X7_s m c) (ix2 0 j)).trans (rb_s_L0 m c j)
theorem ss_atC_L0 (j : Fin 64) : row_L0 (X7 m c main_v39_2) j = colSumSq (z2_L0 m c) j :=
  (congrFun (X7_ss m c) (ix2 0 j)).trans (rb_ss_L0 m c j)
theorem g2_atC_L0 (j : Fin 64) : row_L0 (X7 m c main_v44) j = g2_L0 m c j := X7_g2 m c 0 j
theorem be2_atC_L0 (j : Fin 64) : row_L0 (X7 m c main_v45) j = be2_L0 m c j := X7_be2 m c 0 j

/-- What region 3 leaves in its output array. -/
theorem xc_out_L0 : X8 m c main_v46 = (dat3 (F := Ideal) (tcOf (X7 m)) c).arrAt 5 cfg3.N := by
  unfold X8; exact upd1_a _ _ _

/-- The layer's output, over the named intermediates. -/
theorem layer0_named (i : Fin 50000) (j : Fin 64) :
    mat_L0 (X8 m c main_v46) i j
      = bnStats INV_L0 EPS_L0 (z2_L0 m c) (colSum (z2_L0 m c)) (colSumSq (z2_L0 m c)) (g2_L0 m c) (be2_L0 m c) i j := by
  rw [xc_out_L0]
  exact (Cert.KernelIdeal.Val.arrAt3_apply (tcOf (X7 m)) c i j).trans
    (Cert.ValLib.bnStats_congr INV_L0 EPS_L0 (mat_L0 (X7 m c main_v39_0)) (z2_L0 m c) (row_L0 (X7 m c main_v39_1)) (colSum (z2_L0 m c))
      (row_L0 (X7 m c main_v39_2)) (colSumSq (z2_L0 m c)) (row_L0 (X7 m c main_v44)) (g2_L0 m c) (row_L0 (X7 m c main_v45)) (be2_L0 m c) i i j
      (z_atC_L0 m c i j) (s_atC_L0 m c j) (ss_atC_L0 m c j) (g2_atC_L0 m c j) (be2_atC_L0 m c j))

/-- THE KERNEL SIDE OF LAYER 0 AS ONE EQUATION: what region 3 leaves, entry by entry, is one layer by column statistics of
    the features the embedding left, their neighbour sums, and matrix 0 / row 0 of the stacked parameters. -/
theorem layer0 (i : Fin 50000) (j : Fin 64) :
    (X8 m c main_v46 : S50000x64.Idx → EReal) (ix2 i j)
      = Cert.Spec.layerStats INV_L0 EPS_L0
          (fun _ => 1 + (m ((c : Thread nD τ).loc main_arg6) : S4.Idx → EReal) (ix1 0))
          (fun i j => (X2 m c main_v2 : S50000x64.Idx → EReal) (ix2 i j))
          (fun i j => Cert.Agg.aggOf (X2 m c main_v2) (m ((c : Thread nD τ).loc main_arg2)) (ix2 i j))
          (fun t j => (m ((c : Thread nD τ).loc main_arg7) : S4x64x64.Idx → EReal) (ix3 0 t j))
          (fun j => (m ((c : Thread nD τ).loc main_arg8) : S4x64.Idx → EReal) (ix2 0 j))
          (fun j => (m ((c : Thread nD τ).loc main_arg9) : S4x64.Idx → EReal) (ix2 0 j))
          (fun j => (m ((c : Thread nD τ).loc main_arg10) : S4x64.Idx → EReal) (ix2 0 j))
          (fun t j => (m ((c : Thread nD τ).loc main_arg11) : S4x64x64.Idx → EReal) (ix3 0 t j))
          (fun j => (m ((c : Thread nD τ).loc main_arg12) : S4x64.Idx → EReal) (ix2 0 j))
          (fun j => (m ((c : Thread nD τ).loc main_arg13) : S4x64.Idx → EReal) (ix2 0 j))
          (fun j => (m ((c : Thread nD τ).loc main_arg14) : S4x64.Idx → EReal) (ix2 0 j)) i j :=
  layer0_named m c i j

end Cert.KernelIdeal.Net
end
-- ==== Proof.KI.Glue.Edges.lean ====
/-
  The two vectors of node numbers, cut from the edge list before layer 0's first region, are written by nothing
  afterwards: every later layer finds them as they were left.  The same holds of the one-entry array of zeros written
  in that stretch, which is the program's second result: it reaches the end as it was written.
-/
import proofs.«140206_j52750788330061_1_alg».proof.Proof.KI.Glue.Layer0

noncomputable section

namespace Cert.KernelIdeal.Glue

open Idealize.ShloMosaic Idealize.ShloMosaic.TcCoe
open Idealize.SL Idealize.SL.Sem
open Cert.KernelIdeal.Gen

variable (m : (ℓ : Loc nD τ sig) → Buf (Elt Ideal) ℓ) (c : Dev nD)

/-- The source nodes after item 3. -/
theorem X4_src : (X4 m c main_v4 : (⟨S800000, .i32⟩ : BufTy).Contents (Elt Ideal)) = srcOf (m ((c : Thread nD τ).loc main_arg2)) :=
  (X4_of m c main_v4 (by decide)).trans (X3_src m c)
/-- The target nodes after item 3. -/
theorem X4_dst : (X4 m c main_v6 : (⟨S800000, .i32⟩ : BufTy).Contents (Elt Ideal)) = dstOf (m ((c : Thread nD τ).loc main_arg2)) :=
  (X4_of m c main_v6 (by decide)).trans (X3_dst m c)
/-- The source nodes after item 4. -/
theorem X5_src : (X5 m c main_v4 : (⟨S800000, .i32⟩ : BufTy).Contents (Elt Ideal)) = srcOf (m ((c : Thread nD τ).loc main_arg2)) :=
  (X5_of m c main_v4 (by decide)).trans (X4_src m c)
/-- The target nodes after item 4. -/
theorem X5_dst : (X5 m c main_v6 : (⟨S800000, .i32⟩ : BufTy).Contents (Elt Ideal)) = dstOf (m ((c : Thread nD τ).loc main_arg2)) :=
  (X5_of m c main_v6 (by decide)).trans (X4_dst m c)
/-- The source nodes after item 5. -/
theorem X6_src : (X6 m c main_v4 : (⟨S800000, .i32⟩ : BufTy).Contents (Elt Ideal)) = srcOf (m ((c : Thread nD τ).loc main_arg2)) :=
  (X6_of m c main_v4 (by decide)).trans (X5_src m c)
/-- The target nodes after item 5. -/
theorem X6_dst : (X6 m c main_v6 : (⟨S800000, .i32⟩ : BufTy).Contents (Elt Ideal)) = dstOf (m ((c : Thread nD τ).loc main_arg2)) :=
  (X6_of m c main_v6 (by decide)).trans (X5_dst m c)
/-- The source nodes after item 6. -/
theorem X7_src : (X7 m c main_v4 : (⟨S800000, .i32⟩ : BufTy).Contents (Elt Ideal)) = srcOf (m ((c : Thread nD τ).loc main_arg2)) :=
  (X7_of m c main_v4 (by decide)).trans (X6_src m c)
/-- The target nodes after item 6. -/
theorem X7_dst : (X7 m c main_v6 : (⟨S800000, .i32⟩ : BufTy).Contents (Elt Ideal)) = dstOf (m ((c : Thread nD τ).loc main_arg2)) :=
  (X7_of m c main_v6 (by decide)).trans (X6_dst m c)
/-- The source nodes after item 7. -/
theorem X8_src : (X8 m c main_v4 : (⟨S800000, .i32⟩ : BufTy).Contents (Elt Ideal)) = srcOf (m ((c : Thread nD τ).loc main_arg2)) :=
  (X8_of m c main_v4 (by decide)).trans (X7_src m c)
/-- The target nodes after item 7. -/
theorem X8_dst : (X8 m c main_v6 : (⟨S800000, .i32⟩ : BufTy).Contents (Elt Ideal)) = dstOf (m ((c : Thread nD τ).loc main_arg2)) :=
  (X8_of m c main_v6 (by decide)).trans (X7_dst m c)
/-- The source nodes after item 8. -/
theorem X9_src : (X9 m c main_v4 : (⟨S800000, .i32⟩ : BufTy).Contents (Elt Ideal)) = srcOf (m ((c : Thread nD τ).loc main_arg2)) :=
  (X9_of m c main_v4 (by decide)).trans (X8_src m c)
/-- The target nodes after item 8. -/
theorem X9_dst : (X9 m c main_v6 : (⟨S800000, .i32⟩ : BufTy).Contents (Elt Ideal)) = dstOf (m ((c : Thread nD τ).loc main_arg2)) :=
  (X9_of m c main_v6 (by decide)).trans (X8_dst m c)
/-- The source nodes after item 9. -/
theorem X10_src : (X10 m c main_v4 : (⟨S800000, .i32⟩ : BufTy).Contents (Elt Ideal)) = srcOf (m ((c : Thread nD τ).loc main_arg2)) :=
  (X10_of m c main_v4 (by decide)).trans (X9_src m c)
/-- The target nodes after item 9. -/
theorem X10_dst : (X10 m c main_v6 : (⟨S800000, .i32⟩ : BufTy).Contents (Elt Ideal)) = dstOf (m ((c : Thread nD τ).loc main_arg2)) :=
  (X10_of m c main_v6 (by decide)).trans (X9_dst m c)
/-- The source nodes after item 10. -/
theorem X11_src : (X11 m c main_v4 : (⟨S800000, .i32⟩ : BufTy).Contents (Elt Ideal)) = srcOf (m ((c : Thread nD τ).loc main_arg2)) :=
  (X11_of m c main_v4 (by decide)).trans (X10_src m c)
/-- The target nodes after item 10. -/
theorem X11_dst : (X11 m c main_v6 : (⟨S800000, .i32⟩ : BufTy).Contents (Elt Ideal)) = dstOf (m ((c : Thread nD τ).loc main_arg2)) :=
  (X11_of m c main_v6 (by decide)).trans (X10_dst m c)
/-- The source nodes after item 11. -/
theorem X12_src : (X12 m c main_v4 : (⟨S800000, .i32⟩ : BufTy).Contents (Elt Ideal)) = srcOf (m ((c : Thread nD τ).loc main_arg2)) :=
  (X12_of m c main_v4 (by decide)).trans (X11_src m c)
/-- The target nodes after item 11. -/
theorem X12_dst : (X12 m c main_v6 : (⟨S800000, .i32⟩ : BufTy).Contents (Elt Ideal)) = dstOf (m ((c : Thread nD τ).loc main_arg2)) :=
  (X12_of m c main_v6 (by decide)).trans (X11_dst m c)
/-- The source nodes after item 12. -/
theorem X13_src : (X13 m c main_v4 : (⟨S800000, .i32⟩ : BufTy).Contents (Elt Ideal)) = srcOf (m ((c : Thread nD τ).loc main_arg2)) :=
  (X13_of m c main_v4 (by decide)).trans (X12_src m c)
/-- The target nodes after item 12. -/
theorem X13_dst : (X13 m c main_v6 : (⟨S800000, .i32⟩ : BufTy).Contents (Elt Ideal)) = dstOf (m ((c : Thread nD τ).loc main_arg2)) :=
  (X13_of m c main_v6 (by decide)).trans (X12_dst m c)
/-- The source nodes after item 13. -/
theorem X14_src : (X14 m c main_v4 : (⟨S800000, .i32⟩ : BufTy).Contents (Elt Ideal)) = srcOf (m ((c : Thread nD τ).loc main_arg2)) :=
  (X14_of m c main_v4 (by decide)).trans (X13_src m c)
/-- The target nodes after item 13. -/
theorem X14_dst : (X14 m c main_v6 : (⟨S800000, .i32⟩ : BufTy).Contents (Elt Ideal)) = dstOf (m ((c : Thread nD τ).loc main_arg2)) :=
  (X14_of m c main_v6 (by decide)).trans (X13_dst m c)
/-- The source nodes after item 14. -/
theorem X15_src : (X15 m c main_v4 : (⟨S800000, .i32⟩ : BufTy).Contents (Elt Ideal)) = srcOf (m ((c : Thread nD τ).loc main_arg2)) :=
  (X15_of m c main_v4 (by decide)).trans (X14_src m c)
/-- The target nodes after item 14. -/
theorem X15_dst : (X15 m c main_v6 : (⟨S800000, .i32⟩ : BufTy).Contents (Elt Ideal)) = dstOf (m ((c : Thread nD τ).loc main_arg2)) :=
  (X15_of m c main_v6 (by decide)).trans (X14_dst m c)
/-- The source nodes after item 15. -/
theorem X16_src : (X16 m c main_v4 : (⟨S800000, .i32⟩ : BufTy).Contents (Elt Ideal)) = srcOf (m ((c : Thread nD τ).loc main_arg2)) :=
  (X16_of m c main_v4 (by decide)).trans (X15_src m c)
/-- The target nodes after item 15. -/
theorem X16_dst : (X16 m c main_v6 : (⟨S800000, .i32⟩ : BufTy).Contents (Elt Ideal)) = dstOf (m ((c : Thread nD τ).loc main_arg2)) :=
  (X16_of m c main_v6 (by decide)).trans (X15_dst m c)
/-- The source nodes after item 16. -/
theorem X17_src : (X17 m c main_v4 : (⟨S800000, .i32⟩ : BufTy).Contents (Elt Ideal)) = srcOf (m ((c : Thread nD τ).loc main_arg2)) :=
  (X17_of m c main_v4 (by decide)).trans (X16_src m c)
/-- The target nodes after item 16. -/
theorem X17_dst : (X17 m c main_v6 : (⟨S800000, .i32⟩ : BufTy).Contents (Elt Ideal)) = dstOf (m ((c : Thread nD τ).loc main_arg2)) :=
  (X17_of m c main_v6 (by decide)).trans (X16_dst m c)
/-- The source nodes after item 17. -/
theorem X18_src : (X18 m c main_v4 : (⟨S800000, .i32⟩ : BufTy).Contents (Elt Ideal)) = srcOf (m ((c : Thread nD τ).loc main_arg2)) :=
  (X18_of m c main_v4 (by decide)).trans (X17_src m c)
/-- The target nodes after item 17. -/
theorem X18_dst : (X18 m c main_v6 : (⟨S800000, .i32⟩ : BufTy).Contents (Elt Ideal)) = dstOf (m ((c : Thread nD τ).loc main_arg2)) :=
  (X18_of m c main_v6 (by decide)).trans (X17_dst m c)
/-- The source nodes after item 18. -/
theorem X19_src : (X19 m c main_v4 : (⟨S800000, .i32⟩ : BufTy).Contents (Elt Ideal)) = srcOf (m ((c : Thread nD τ).loc main_arg2)) :=
  (X19_of m c main_v4 (by decide)).trans (X18_src m c)
/-- The target nodes after item 18. -/
theorem X19_dst : (X19 m c main_v6 : (⟨S800000, .i32⟩ : BufTy).Contents (Elt Ideal)) = dstOf (m ((c : Thread nD τ).loc main_arg2)) :=
  (X19_of m c main_v6 (by decide)).trans (X18_dst m c)
/-- The source nodes after item 19. -/
theorem X20_src : (X20 m c main_v4 : (⟨S800000, .i32⟩ : BufTy).Contents (Elt Ideal)) = srcOf (m ((c : Thread nD τ).loc main_arg2)) :=
  (X20_of m c main_v4 (by decide)).trans (X19_src m c)
/-- The target nodes after item 19. -/
theorem X20_dst : (X20 m c main_v6 : (⟨S800000, .i32⟩ : BufTy).Contents (Elt Ideal)) = dstOf (m ((c : Thread nD τ).loc main_arg2)) :=
  (X20_of m c main_v6 (by decide)).trans (X19_dst m c)
/-- The one-entry array of zeros after item 3. -/
theorem X4_zero : (X4 m c main_v7 : S1.Idx → EReal) = broadcastInDim S1 ![] bcast_S_S1 (constant (F := Ideal) S_ .f32 0x00000000#32) :=
  (X4_of m c main_v7 (by decide)).trans (X3_zero m c)
/-- The one-entry array of zeros after item 4. -/
theorem X5_zero : (X5 m c main_v7 : S1.Idx → EReal) = broadcastInDim S1 ![] bcast_S_S1 (constant (F := Ideal) S_ .f32 0x00000000#32) :=
  (X5_of m c main_v7 (by decide)).trans (X4_zero m c)
/-- The one-entry array of zeros after item 5. -/
theorem X6_zero : (X6 m c main_v7 : S1.Idx → EReal) = broadcastInDim S1 ![] bcast_S_S1 (constant (F := Ideal) S_ .f32 0x00000000#32) :=
  (X6_of m c main_v7 (by decide)).trans (X5_zero m c)
/-- The one-entry array of zeros after item 6. -/
theorem X7_zero : (X7 m c main_v7 : S1.Idx → EReal) = broadcastInDim S1 ![] bcast_S_S1 (constant (F := Ideal) S_ .f32 0x00000000#32) :=
  (X7_of m c main_v7 (by decide)).trans (X6_zero m c)
/-- The one-entry array of zeros after item 7. -/
theorem X8_zero : (X8 m c main_v7 : S1.Idx → EReal) = broadcastInDim S1 ![] bcast_S_S1 (constant (F := Ideal) S_ .f32 0x00000000#32) :=
  (X8_of m c main_v7 (by decide)).trans (X7_zero m c)
/-- The one-entry array of zeros after item 8. -/
theorem X9_zero : (X9 m c main_v7 : S1.Idx → EReal) = broadcastInDim S1 ![] bcast_S_S1 (constant (F := Ideal) S_ .f32 0x00000000#32) :=
  (X9_of m c main_v7 (by decide)).trans (X8_zero m c)
/-- The one-entry array of zeros after item 9. -/
theorem X10_zero : (X10 m c main_v7 : S1.Idx → EReal) = broadcastInDim S1 ![] bcast_S_S1 (constant (F := Ideal) S_ .f32 0x00000000#32) :=
  (X10_of m c main_v7 (by decide)).trans (X9_zero m c)
/-- The one-entry array of zeros after item 10. -/
theorem X11_zero : (X11 m c main_v7 : S1.Idx → EReal) = broadcastInDim S1 ![] bcast_S_S1 (constant (F := Ideal) S_ .f32 0x00000000#32) :=
  (X11_of m c main_v7 (by decide)).trans (X10_zero m c)
/-- The one-entry array of zeros after item 11. -/
theorem X12_zero : (X12 m c main_v7 : S1.Idx → EReal) = broadcastInDim S1 ![] bcast_S_S1 (constant (F := Ideal) S_ .f32 0x00000000#32) :=
  (X12_of m c main_v7 (by decide)).trans (X11_zero m c)
/-- The one-entry array of zeros after item 12. -/
theorem X13_zero : (X13 m c main_v7 : S1.Idx → EReal) = broadcastInDim S1 ![] bcast_S_S1 (constant (F := Ideal) S_ .f32 0x00000000#32) :=
  (X13_of m c main_v7 (by decide)).trans (X12_zero m c)
/-- The one-entry array of zeros after item 13. -/
theorem X14_zero : (X14 m c main_v7 : S1.Idx → EReal) = broadcastInDim S1 ![] bcast_S_S1 (constant (F := Ideal) S_ .f32 0x00000000#32) :=
  (X14_of m c main_v7 (by decide)).trans (X13_zero m c)
/-- The one-entry array of zeros after item 14. -/
theorem X15_zero : (X15 m c main_v7 : S1.Idx → EReal) = broadcastInDim S1 ![] bcast_S_S1 (constant (F := Ideal) S_ .f32 0x00000000#32) :=
  (X15_of m c main_v7 (by decide)).trans (X14_zero m c)
/-- The one-entry array of zeros after item 15. -/
theorem X16_zero : (X16 m c main_v7 : S1.Idx → EReal) = broadcastInDim S1 ![] bcast_S_S1 (constant (F := Ideal) S_ .f32 0x00000000#32) :=
  (X16_of m c main_v7 (by decide)).trans (X15_zero m c)
/-- The one-entry array of zeros after item 16. -/
theorem X17_zero : (X17 m c main_v7 : S1.Idx → EReal) = broadcastInDim S1 ![] bcast_S_S1 (constant (F := Ideal) S_ .f32 0x00000000#32) :=
  (X17_of m c main_v7 (by decide)).trans (X16_zero m c)
/-- The one-entry array of zeros after item 17. -/
theorem X18_zero : (X18 m c main_v7 : S1.Idx → EReal) = broadcastInDim S1 ![] bcast_S_S1 (constant (F := Ideal) S_ .f32 0x00000000#32) :=
  (X18_of m c main_v7 (by decide)).trans (X17_zero m c)
/-- The one-entry array of zeros after item 18. -/
theorem X19_zero : (X19 m c main_v7 : S1.Idx → EReal) = broadcastInDim S1 ![] bcast_S_S1 (constant (F := Ideal) S_ .f32 0x00000000#32) :=
  (X19_of m c main_v7 (by decide)).trans (X18_zero m c)
/-- The one-entry array of zeros after item 19. -/
theorem X20_zero : (X20 m c main_v7 : S1.Idx → EReal) = broadcastInDim S1 ![] bcast_S_S1 (constant (F := Ideal) S_ .f32 0x00000000#32) :=
  (X20_of m c main_v7 (by decide)).trans (X19_zero m c)
/-- The one-entry array of zeros after item 20. -/
theorem X21_zero : (X21 m c main_v7 : S1.Idx → EReal) = broadcastInDim S1 ![] bcast_S_S1 (constant (F := Ideal) S_ .f32 0x00000000#32) :=
  (X21_of m c main_v7 (by decide)).trans (X20_zero m c)
/-- The one-entry array of zeros after item 21. -/
theorem X22_zero : (X22 m c main_v7 : S1.Idx → EReal) = broadcastInDim S1 ![] bcast_S_S1 (constant (F := Ideal) S_ .f32 0x00000000#32) :=
  (X22_of m c main_v7 (by decide)).trans (X21_zero m c)
/-- The one-entry array of zeros after item 22. -/
theorem X23_zero : (X23 m c main_v7 : S1.Idx → EReal) = broadcastInDim S1 ![] bcast_S_S1 (constant (F := Ideal) S_ .f32 0x00000000#32) :=
  (X23_of m c main_v7 (by decide)).trans (X22_zero m c)
/-- The one-entry array of zeros after item 23. -/
theorem X24_zero : (X24 m c main_v7 : S1.Idx → EReal) = broadcastInDim S1 ![] bcast_S_S1 (constant (F := Ideal) S_ .f32 0x00000000#32) :=
  (X24_of m c main_v7 (by decide)).trans (X23_zero m c)
/-- The one-entry array of zeros after item 24. -/
theorem X25_zero : (X25 m c main_v7 : S1.Idx → EReal) = broadcastInDim S1 ![] bcast_S_S1 (constant (F := Ideal) S_ .f32 0x00000000#32) :=
  (X25_of m c main_v7 (by decide)).trans (X24_zero m c)
/-- The one-entry array of zeros after item 25. -/
theorem X26_zero : (X26 m c main_v7 : S1.Idx → EReal) = broadcastInDim S1 ![] bcast_S_S1 (constant (F := Ideal) S_ .f32 0x00000000#32) :=
  (X26_of m c main_v7 (by decide)).trans (X25_zero m c)
/-- The one-entry array of zeros after item 26. -/
theorem X27_zero : (X27 m c main_v7 : S1.Idx → EReal) = broadcastInDim S1 ![] bcast_S_S1 (constant (F := Ideal) S_ .f32 0x00000000#32) :=
  (X27_of m c main_v7 (by decide)).trans (X26_zero m c)
/-- The one-entry array of zeros after item 27. -/
theorem X28_zero : (X28 m c main_v7 : S1.Idx → EReal) = broadcastInDim S1 ![] bcast_S_S1 (constant (F := Ideal) S_ .f32 0x00000000#32) :=
  (X28_of m c main_v7 (by decide)).trans (X27_zero m c)

end Cert.KernelIdeal.Glue

end
-- ==== Proof.KI.Glue.Host4.lean ====
/-
  The host operations before layer 1's first region, read back over whatever contents they are entered with: the bias
  row and the weight matrix are row 1 and matrix 1 of the stacked parameters, the self-weight row is one plus entry 1
  of the self-weights in every column, and the neighbour sum is the composed gather and scatter-add along the two
  vectors of node numbers found in the incoming contents.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The bias row of the first linear map: row 1 of the stack of bias rows. -/
theorem host4_b1 (u : Fin 1) (j : Fin 64) :
    (StableHlo.after hostOps4 Y main_v65 : S1x64.Idx → EReal) (ix2 u j) = (Y main_arg8 : S4x64.Idx → EReal) (ix2 1 j) := by
  have e : (StableHlo.after hostOps4 Y main_v65 : S1x64.Idx → EReal)
      = shapeCast S1x64 (shapeCast S64 (extractStridedSlice S1x64 ![1, 0] (Y main_arg8 : S4x64.Idx → EReal)
          slices_S4x64_S1x64_1_0) shapeCasts_S1x64_S64) shapeCasts_S64_S1x64 := by
    dsimp only [hostOps4]; after_results; rfl
  rw [e, shapeCast_a_1a_apply, shapeCast_1a_a_apply, row_slice_apply 1 (by decide)]
  rfl

/-- The weight matrix of the first linear map: matrix 1 of the stack. -/
theorem host4_W1 (t j : Fin 64) :
    (StableHlo.after hostOps4 Y main_v60 : S64x64.Idx → EReal) (ix2 t j) = (Y main_arg7 : S4x64x64.Idx → EReal) (ix3 1 t j) := by
  have e : (StableHlo.after hostOps4 Y main_v60 : S64x64.Idx → EReal)
      = shapeCast S64x64 (extractStridedSlice S1x64x64 ![1, 0, 0] (Y main_arg7 : S4x64x64.Idx → EReal)
          slices_S4x64x64_S1x64x64_1_0_0) shapeCasts_S1x64x64_S64x64 := by
    dsimp only [hostOps4]; after_results; rfl
  rw [e, shapeCast_1ab_ab_apply, mat_slice_apply 1 (by decide)]
  rfl

/-- The self-weight row: one plus entry 1 of the vector of self-weights, in every column. -/
theorem host4_epsb (u : Fin 1) (j : Fin 64) :
    (StableHlo.after hostOps4 Y main_v64 : S1x64.Idx → EReal) (ix2 u j)
      = ((1 : EReal) + (Y main_arg6 : S4.Idx → EReal) (ix1 1) : EReal) := by
  have e : (StableHlo.after hostOps4 Y main_v64 : S1x64.Idx → EReal)
      = broadcastInDim S1x64 ![] bcast_S_S1x64 (addf (constant (F := Ideal) S_ .f32 0x3F800000#32)
          (shapeCast S_ (extractStridedSlice S1 ![1] (Y main_arg6 : S4.Idx → EReal) slices_S4_S1_1) shapeCasts_S1_S_)) := by
    dsimp only [hostOps4]; after_results; rfl
  rw [e, spread_number_apply, addf_apply, constant_apply, Ideal.ofBits_one_f32, number_of_vec1_apply,
    entry_slice_apply 1 (by decide)]
  rfl

/-- The neighbour sum of the features the stretch is entered with, along the node-number vectors it is entered with. -/
theorem host4_agg :
    (StableHlo.after hostOps4 Y main_v56 : (⟨S50000x64, .f32⟩ : BufTy).Contents (Elt Ideal))
      = aggFrom (Y main_v46) (Y main_v4) (Y main_v6) := by
  dsimp only [hostOps4]; after_results_simp; try rfl

end Cert.KernelIdeal.Glue

end
-- ==== Proof.KI.Glue.Host5.lean ====
/-
  The host operations before layer 1's second region, read back over whatever contents they are entered with: the
  scale and shift rows of the first normalisation, the second weight matrix and its bias row are row 1, or matrix 1, of
  the stacked parameters.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The scale row of the first normalisation: row 1 of the stack. -/
theorem host5_g1 (u : Fin 1) (j : Fin 64) :
    (StableHlo.after hostOps5 Y main_v75 : S1x64.Idx → EReal) (ix2 u j) = (Y main_arg9 : S4x64.Idx → EReal) (ix2 1 j) := by
  have e : (StableHlo.after hostOps5 Y main_v75 : S1x64.Idx → EReal)
      = shapeCast S1x64 (shapeCast S64 (extractStridedSlice S1x64 ![1, 0] (Y main_arg9 : S4x64.Idx → EReal)
          slices_S4x64_S1x64_1_0) shapeCasts_S1x64_S64) shapeCasts_S64_S1x64 := by
    dsimp only [hostOps5]; after_results; rfl
  rw [e, shapeCast_a_1a_apply, shapeCast_1a_a_apply, row_slice_apply 1 (by decide)]
  rfl

/-- The shift row of the first normalisation: row 1 of the stack. -/
theorem host5_be1 (u : Fin 1) (j : Fin 64) :
    (StableHlo.after hostOps5 Y main_v76 : S1x64.Idx → EReal) (ix2 u j) = (Y main_arg10 : S4x64.Idx → EReal) (ix2 1 j) := by
  have e : (StableHlo.after hostOps5 Y main_v76 : S1x64.Idx → EReal)
      = shapeCast S1x64 (shapeCast S64 (extractStridedSlice S1x64 ![1, 0] (Y main_arg10 : S4x64.Idx → EReal)
          slices_S4x64_S1x64_1_0) shapeCasts_S1x64_S64) shapeCasts_S64_S1x64 := by
    dsimp only [hostOps5]; after_results; rfl
  rw [e, shapeCast_a_1a_apply, shapeCast_1a_a_apply, row_slice_apply 1 (by decide)]
  rfl

/-- The weight matrix of the second linear map: matrix 1 of the stack. -/
theorem host5_W2 (t j : Fin 64) :
    (StableHlo.after hostOps5 Y main_v72 : S64x64.Idx → EReal) (ix2 t j) = (Y main_arg11 : S4x64x64.Idx → EReal) (ix3 1 t j) := by
  have e : (StableHlo.after hostOps5 Y main_v72 : S64x64.Idx → EReal)
      = shapeCast S64x64 (extractStridedSlice S1x64x64 ![1, 0, 0] (Y main_arg11 : S4x64x64.Idx → EReal)
          slices_S4x64x64_S1x64x64_1_0_0) shapeCasts_S1x64x64_S64x64 := by
    dsimp only [hostOps5]; after_results; rfl
  rw [e, shapeCast_1ab_ab_apply, mat_slice_apply 1 (by decide)]
  rfl

/-- The bias row of the second linear map: row 1 of the stack. -/
theorem host5_b2 (u : Fin 1) (j : Fin 64) :
    (StableHlo.after hostOps5 Y main_v77 : S1x64.Idx → EReal) (ix2 u j) = (Y main_arg12 : S4x64.Idx → EReal) (ix2 1 j) := by
  have e : (StableHlo.after hostOps5 Y main_v77 : S1x64.Idx → EReal)
      = shapeCast S1x64 (shapeCast S64 (extractStridedSlice S1x64 ![1, 0] (Y main_arg12 : S4x64.Idx → EReal)
          slices_S4x64_S1x64_1_0) shapeCasts_S1x64_S64) shapeCasts_S64_S1x64 := by
    dsimp only [hostOps5]; after_results; rfl
  rw [e, shapeCast_a_1a_apply, shapeCast_1a_a_apply, row_slice_apply 1 (by decide)]
  rfl

end Cert.KernelIdeal.Glue

end
-- ==== Proof.KI.Glue.Host6.lean ====
/-
  The host operations before layer 1's third region, read back over whatever contents they are entered with: the
  scale and shift rows of the second normalisation are row 1 of the stacked parameters.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The scale row of the second normalisation: row 1 of the stack. -/
theorem host6_g2 (u : Fin 1) (j : Fin 64) :
    (StableHlo.after hostOps6 Y main_v83 : S1x64.Idx → EReal) (ix2 u j) = (Y main_arg13 : S4x64.Idx → EReal) (ix2 1 j) := by
  have e : (StableHlo.after hostOps6 Y main_v83 : S1x64.Idx → EReal)
      = shapeCast S1x64 (shapeCast S64 (extractStridedSlice S1x64 ![1, 0] (Y main_arg13 : S4x64.Idx → EReal)
          slices_S4x64_S1x64_1_0) shapeCasts_S1x64_S64) shapeCasts_S64_S1x64 := by
    dsimp only [hostOps6]; after_results; rfl
  rw [e, shapeCast_a_1a_apply, shapeCast_1a_a_apply, row_slice_apply 1 (by decide)]
  rfl

/-- The shift row of the second normalisation: row 1 of the stack. -/
theorem host6_be2 (u : Fin 1) (j : Fin 64) :
    (StableHlo.after hostOps6 Y main_v84 : S1x64.Idx → EReal) (ix2 u j) = (Y main_arg14 : S4x64.Idx → EReal) (ix2 1 j) := by
  have e : (StableHlo.after hostOps6 Y main_v84 : S1x64.Idx → EReal)
      = shapeCast S1x64 (shapeCast S64 (extractStridedSlice S1x64 ![1, 0] (Y main_arg14 : S4x64.Idx → EReal)
          slices_S4x64_S1x64_1_0) shapeCasts_S1x64_S64) shapeCasts_S64_S1x64 := by
    dsimp only [hostOps6]; after_results; rfl
  rw [e, shapeCast_a_1a_apply, shapeCast_1a_a_apply, row_slice_apply 1 (by decide)]
  rfl

end Cert.KernelIdeal.Glue

end
-- ==== Proof.KI.Glue.Layer1.lean ====
/-
  What layer 1's three regions are entered with, in terms of the launch memory and of what the region before left.
  A window that stages a previous region's output holds that output, since the host stretch in between does not write
  it.  A parameter window holds row 1 (or matrix 1) of the stacked parameter it was cut from, the parameter being an
  argument that nothing writes.  The self-weight row is one plus entry 1 of the self-weights.  The neighbour-sum window
  is the composed gather and scatter-add of the features the layer before left, along the edge list, whose two vectors
  of node numbers were cut before layer 0 and left alone since.
-/
import proofs.«140206_j52750788330061_1_alg».proof.Proof.KI.Glue.Edges
import proofs.«140206_j52750788330061_1_alg».proof.Proof.KI.Glue.Host4
import proofs.«140206_j52750788330061_1_alg».proof.Proof.KI.Glue.Host5
import proofs.«140206_j52750788330061_1_alg».proof.Proof.KI.Glue.Host6

noncomputable section

namespace Cert.KernelIdeal.Glue

open Idealize.ShloMosaic Idealize.ShloMosaic.TcCoe Idealize.ShloMosaic.ValueIdx
open Idealize.SL Idealize.SL.Sem
open Cert.KernelIdeal.Gen

variable (m : (ℓ : Loc nD τ sig) → Buf (Elt Ideal) ℓ) (c : Dev nD)

/-! ### The first region of layer 1 (region 4), entered at `X9` -/

/-- The features window: what region 3 left. -/
theorem X9_h : X9 m c main_v46 = X8 m c main_v46 := X9_of m c main_v46 (by decide)

/-- The neighbour-sum window. -/
theorem X9_agg :
    (X9 m c main_v56 : (⟨S50000x64, .f32⟩ : BufTy).Contents (Elt Ideal))
      = aggK (X8 m c main_v46) (m ((c : Thread nD τ).loc main_arg2)) :=
  (host4_agg (X8 m c)).trans (by rw [X8_src m c, X8_dst m c]; rfl)

/-- The self-weight window. -/
theorem X9_epsb (u : Fin 1) (j : Fin 64) :
    (X9 m c main_v64 : S1x64.Idx → EReal) (ix2 u j)
      = ((1 : EReal) + (m ((c : Thread nD τ).loc main_arg6) : S4.Idx → EReal) (ix1 1) : EReal) :=
  (host4_epsb (X8 m c) u j).trans (by rw [X8_launch m c main_arg6 (by decide)])

/-- The first weight window. -/
theorem X9_W1 (t j : Fin 64) :
    (X9 m c main_v60 : S64x64.Idx → EReal) (ix2 t j)
      = (m ((c : Thread nD τ).loc main_arg7) : S4x64x64.Idx → EReal) (ix3 1 t j) :=
  (host4_W1 (X8 m c) t j).trans (by rw [X8_launch m c main_arg7 (by decide)])

/-- The first bias window. -/
theorem X9_b1 (u : Fin 1) (j : Fin 64) :
    (X9 m c main_v65 : S1x64.Idx → EReal) (ix2 u j)
      = (m ((c : Thread nD τ).loc main_arg8) : S4x64.Idx → EReal) (ix2 1 j) :=
  (host4_b1 (X8 m c) u j).trans (by rw [X8_launch m c main_arg8 (by decide)])

/-! ### The second region of layer 1 (region 5), entered at `X11` -/

/-- The pre-activation window: what region 4 left. -/
theorem X11_z : X11 m c main_v66_0 = X10 m c main_v66_0 := X11_of m c main_v66_0 (by decide)
/-- The column-sum window: what region 4 left. -/
theorem X11_s : X11 m c main_v66_1 = X10 m c main_v66_1 := X11_of m c main_v66_1 (by decide)
/-- The column-sum-of-squares window: what region 4 left. -/
theorem X11_ss : X11 m c main_v66_2 = X10 m c main_v66_2 := X11_of m c main_v66_2 (by decide)

/-- The first scale window. -/
theorem X11_g1 (u : Fin 1) (j : Fin 64) :
    (X11 m c main_v75 : S1x64.Idx → EReal) (ix2 u j)
      = (m ((c : Thread nD τ).loc main_arg9) : S4x64.Idx → EReal) (ix2 1 j) :=
  (host5_g1 (X10 m c) u j).trans (by rw [X10_launch m c main_arg9 (by decide)])

/-- The first shift window. -/
theorem X11_be1 (u : Fin 1) (j : Fin 64) :
    (X11 m c main_v76 : S1x64.Idx → EReal) (ix2 u j)
      = (m ((c : Thread nD τ).loc main_arg10) : S4x64.Idx → EReal) (ix2 1 j) :=
  (host5_be1 (X10 m c) u j).trans (by rw [X10_launch m c main_arg10 (by decide)])

/-- The second weight window. -/
theorem X11_W2 (t j : Fin 64) :
    (X11 m c main_v72 : S64x64.Idx → EReal) (ix2 t j)
      = (m ((c : Thread nD τ).loc main_arg11) : S4x64x64.Idx → EReal) (ix3 1 t j) :=
  (host5_W2 (X10 m c) t j).trans (by rw [X10_launch m c main_arg11 (by decide)])

/-- The second bias window. -/
theorem X11_b2 (u : Fin 1) (j : Fin 64) :
    (X11 m c main_v77 : S1x64.Idx → EReal) (ix2 u j)
      = (m ((c : Thread nD τ).loc main_arg12) : S4x64.Idx → EReal) (ix2 1 j) :=
  (host5_b2 (X10 m c) u j).trans (by rw [X10_launch m c main_arg12 (by decide)])

/-! ### The third region of layer 1 (region 6), entered at `X13` -/

/-- The pre-activation window: what region 5 left. -/
theorem X13_z : X13 m c main_v78_0 = X12 m c main_v78_0 := X13_of m c main_v78_0 (by decide)
/-- The column-sum window: what region 5 left. -/
theorem X13_s : X13 m c main_v78_1 = X12 m c main_v78_1 := X13_of m c main_v78_1 (by decide)
/-- The column-sum-of-squares window: what region 5 left. -/
theorem X13_ss : X13 m c main_v78_2 = X12 m c main_v78_2 := X13_of m c main_v78_2 (by decide)

/-- The second scale window. -/
theorem X13_g2 (u : Fin 1) (j : Fin 64) :
    (X13 m c main_v83 : S1x64.Idx → EReal) (ix2 u j)
      = (m ((c : Thread nD τ).loc main_arg13) : S4x64.Idx → EReal) (ix2 1 j) :=
  (host6_g2 (X12 m c) u j).trans (by rw [X12_launch m c main_arg13 (by decide)])

/-- The second shift window. -/
theorem X13_be2 (u : Fin 1) (j : Fin 64) :
    (X13 m c main_v84 : S1x64.Idx → EReal) (ix2 u j)
      = (m ((c : Thread nD τ).loc main_arg14) : S4x64.Idx → EReal) (ix2 1 j) :=
  (host6_be2 (X12 m c) u j).trans (by rw [X12_launch m c main_arg14 (by decide)])

end Cert.KernelIdeal.Glue

end
-- ==== Proof.KI.Pay4.lean ====
/-
  The linear-with-statistics body, read at one entry on the extended reals.

  From the scale row e, the node block h, the neighbour block agg, the weight W and the bias b the body forms
  z = (e * h + agg) W + b on its 5000 x 64 row block; it adds the column sums of z to one running row and hands
  the column sums of z * z on to be added to a second running row; at the first grid point both running rows
  are set to zero.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The layer's product has the plain dimension numbers: left contracted on axis 1, right on axis 0. -/
theorem k4_dot_plain : dot_S5000x64_S64x64_S5000x64_1_0_0_1_n_n = DotDims.plain 5000 64 64 := rfl

/-- The block written back: the mixed features times the weight, plus the bias. -/
theorem k4_pay4_apply (v3 : Vec Ideal S1x64 .f32) (v5 : Vec Ideal S5000x64 .f32) (v9 : Vec Ideal S5000x64 .f32)
    (v13 : Vec Ideal S64x64 .f32) (v17 : Vec Ideal S1x64 .f32) (p : Fin 5000) (q : Fin 64) :
    Gen.k4_pay4 (F := Ideal) v3 v5 v9 v13 v17 (ix2 p q)
      = affine (mix (fun j => v3 (ix2 0 j)) (fun i j => v5 (ix2 i j)) (fun i j => v9 (ix2 i j)))
          (fun t j => v13 (ix2 t j)) (fun j => v17 (ix2 0 j)) p q := by
  unfold Gen.k4_pay4
  rw [addf_apply, k4_dot_plain, Cert.PayLib.plainProduct_apply, broadcastTo_1b_ab_apply]
  simp only [truncf_apply, addf_apply, mulf_apply, shapeCast_self, broadcastTo_1b_ab_apply]
  rfl

/-- The first running row after the body: its old value plus the column sums of the block. -/
theorem k4_pay5_apply (v3 : Vec Ideal S1x64 .f32) (v5 : Vec Ideal S5000x64 .f32) (v9 : Vec Ideal S5000x64 .f32)
    (v13 : Vec Ideal S64x64 .f32) (v17 : Vec Ideal S1x64 .f32) (v22 : Vec Ideal S1x64 .f32) (q : Fin 64) :
    Gen.k4_pay5 (F := Ideal) v3 v5 v9 v13 v17 v22 (ix2 0 q)
      = v22 (ix2 0 q) + colSum (fun i j => Gen.k4_pay4 (F := Ideal) v3 v5 v9 v13 v17 (ix2 i j)) q := by
  unfold Gen.k4_pay5
  dsimp only
  rw [shapeCast_self, addf_apply, shapeCast_a_1a_apply, Cert.PayLib.rowSum_apply]
  rfl

/-- The row handed on to the second running row: the column sums of the block's squares. -/
theorem k4_pay6_apply (v3 : Vec Ideal S1x64 .f32) (v5 : Vec Ideal S5000x64 .f32) (v9 : Vec Ideal S5000x64 .f32)
    (v13 : Vec Ideal S64x64 .f32) (v17 : Vec Ideal S1x64 .f32) (q : Fin 64) :
    Gen.k4_pay6 (F := Ideal) v3 v5 v9 v13 v17 (ix2 0 q)
      = colSumSq (fun i j => Gen.k4_pay4 (F := Ideal) v3 v5 v9 v13 v17 (ix2 i j)) q := by
  unfold Gen.k4_pay6
  dsimp only
  rw [shapeCast_a_1a_apply, Cert.PayLib.rowSum_apply]
  rfl

/-- The second running row after the body: its old value plus the row handed on. -/
theorem k4_pay1_apply (v29 : Vec Ideal S1x64 .f32) (v32 : FVec Ideal S1x64 .f32) (q : Fin 64) :
    Gen.k4_pay1 (F := Ideal) v29 v32 (ix2 0 q) = v29 (ix2 0 q) + v32 (ix2 0 q) := by
  unfold Gen.k4_pay1
  rw [shapeCast_self, addf_apply]

/-- At the first grid point the first running row is set to zero. -/
theorem k4_pay2_apply (q : Fin 64) : Gen.k4_pay2 (F := Ideal) (ix2 0 q) = 0 := by
  unfold Gen.k4_pay2
  rw [shapeCast_self, broadcast_apply]
  exact Ideal.ofBits_zero_f32

/-- At the first grid point the second running row is set to zero. -/
theorem k4_pay3_apply (q : Fin 64) : Gen.k4_pay3 (F := Ideal) (ix2 0 q) = 0 := by
  unfold Gen.k4_pay3
  rw [shapeCast_self, broadcast_apply]
  exact Ideal.ofBits_zero_f32

end Cert.KernelIdeal.PayVal

end
-- ==== Proof.KI.Val4.lean ====
/-
  From row blocks to whole arrays, for the linear-with-statistics region, on the extended reals.

  The region walks ten grid points; point t stages rows t * 5000 … t * 5000 + 4999 of the node features and of the
  neighbour features, and the whole of the scale row, the weight and the bias row.  What the body writes back at
  point t is therefore rows t * 5000 … of one matrix over all 50000 rows, the linear layer's output
  Z = (e * h + agg) W + b; the ten blocks tile the output array, so the array ends holding Z.  The two running rows
  start at zero, point t adds the column sums (the column sums of squares) of its rows of Z, and the last point alone
  writes them back; so the two statistics arrays end holding the column sums and the column sums of squares of Z.
-/
import proofs.«140206_j52750788330061_1_alg».proof.Proof.KI.Reg4
import proofs.«140206_j52750788330061_1_alg».proof.Proof.KI.Pay4
import proofs.«140206_j52750788330061_1_alg».proof.Proof.KI.ValLib
import proofs.«140206_j52750788330061_1_alg».proof.Proof.Spec
import proofs.«140206_j52750788330061_1_alg».proof.Proof.SpecAlg
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Spec

variable (V : (c : Dev nD) → (b : Ref sig .tc) → Buf (Elt Ideal) ((c : Thread nD τ).loc b))

/-! ## Where the windows' blocks lie -/

/-- Where the index maps put each window's block at grid point t: the three row-block windows (node features,
    neighbour features, output) at block row t, the five whole-array windows at the origin. -/
theorem idx4_facts : ∀ t : Fin cfg4.N,
    win4_0.index t 0 = t.val ∧ win4_0.index t 1 = 0 ∧ win4_1.index t 0 = t.val ∧ win4_1.index t 1 = 0
    ∧ win4_2.index t 0 = 0 ∧ win4_2.index t 1 = 0 ∧ win4_3.index t 0 = 0 ∧ win4_3.index t 1 = 0
    ∧ win4_4.index t 0 = 0 ∧ win4_4.index t 1 = 0 ∧ win4_5.index t 0 = t.val ∧ win4_5.index t 1 = 0
    ∧ win4_6.index t 0 = 0 ∧ win4_6.index t 1 = 0 ∧ win4_7.index t 0 = 0 ∧ win4_7.index t 1 = 0 :=
  (by decide +kernel : ∀ t : Fin grid4.N, _)

/-- Row p of block t is a row of the array. -/
theorem rows4_lt (t : Fin cfg4.N) (p : Fin 5000) : t.val * 5000 + p.val < 50000 := by
  have ht : t.val < 10 := lt_of_lt_of_eq t.isLt N_4
  have hp := p.isLt
  omega

/-- The node-feature block at point t is rows t * 5000 … of the node-feature array. -/
theorem iblk4_0_apply (c : Dev nD) (t : Fin cfg4.N) (p : Fin 5000) (q : Fin 64) :
    (iblk4 V c 0 t : Vec Ideal S5000x64 .f32) (ix2 p q)
      = V c (Pipeline.arrRef spec4 0) (ix2 ⟨t.val * 5000 + p.val, rows4_lt t p⟩ q) := by
  unfold iblk4
  rw [View.read_apply]
  show V c (Pipeline.arrRef spec4 0) _ = V c (Pipeline.arrRef spec4 0) _
  congr 1
  funext a
  apply Fin.ext
  obtain ⟨e0, e1, -⟩ := idx4_facts t
  match a with
  | ⟨0, _⟩ => show win4_0.index t 0 * 5000 + 1 * p.val = t.val * 5000 + p.val; rw [e0]; omega
  | ⟨1, _⟩ => show win4_0.index t 1 * 64 + 1 * q.val = q.val; rw [e1]; omega

/-- The neighbour-feature block at point t is rows t * 5000 … of the neighbour-feature array. -/
theorem iblk4_1_apply (c : Dev nD) (t : Fin cfg4.N) (p : Fin 5000) (q : Fin 64) :
    (iblk4 V c 1 t : Vec Ideal S5000x64 .f32) (ix2 p q)
      = V c (Pipeline.arrRef spec4 1) (ix2 ⟨t.val * 5000 + p.val, rows4_lt t p⟩ q) := by
  unfold iblk4
  rw [View.read_apply]
  show V c (Pipeline.arrRef spec4 1) _ = V c (Pipeline.arrRef spec4 1) _
  congr 1
  funext a
  apply Fin.ext
  obtain ⟨-, -, e0, e1, -⟩ := idx4_facts t
  match a with
  | ⟨0, _⟩ => show win4_1.index t 0 * 5000 + 1 * p.val = t.val * 5000 + p.val; rw [e0]; omega
  | ⟨1, _⟩ => show win4_1.index t 1 * 64 + 1 * q.val = q.val; rw [e1]; omega

/-- The scale row's block at every point is the scale row. -/
theorem iblk4_2_apply (c : Dev nD) (t : Fin cfg4.N) (q : Fin 64) :
    (iblk4 V c 2 t : Vec Ideal S1x64 .f32) (ix2 0 q) = V c (Pipeline.arrRef spec4 2) (ix2 0 q) := by
  unfold iblk4
  rw [View.read_apply]
  show V c (Pipeline.arrRef spec4 2) _ = V c (Pipeline.arrRef spec4 2) _
  congr 1
  funext a
  apply Fin.ext
  obtain ⟨-, -, -, -, e0, e1, -⟩ := idx4_facts t
  match a with
  | ⟨0, _⟩ => show win4_2.index t 0 * 1 + 1 * 0 = 0; rw [e0]
  | ⟨1, _⟩ => show win4_2.index t 1 * 64 + 1 * q.val = q.val; rw [e1]; omega

/-- The weight's block at every point is the weight. -/
theorem iblk4_3_apply (c : Dev nD) (t : Fin cfg4.N) (a' : Fin 64) (q : Fin 64) :
    (iblk4 V c 3 t : Vec Ideal S64x64 .f32) (ix2 a' q) = V c (Pipeline.arrRef spec4 3) (ix2 a' q) := by
  unfold iblk4
  rw [View.read_apply]
  show V c (Pipeline.arrRef spec4 3) _ = V c (Pipeline.arrRef spec4 3) _
  congr 1
  funext a
  apply Fin.ext
  obtain ⟨-, -, -, -, -, -, e0, e1, -⟩ := idx4_facts t
  match a with
  | ⟨0, _⟩ => show win4_3.index t 0 * 64 + 1 * a'.val = a'.val; rw [e0]; omega
  | ⟨1, _⟩ => show win4_3.index t 1 * 64 + 1 * q.val = q.val; rw [e1]; omega

/-- The bias row's block at every point is the bias row. -/
theorem iblk4_4_apply (c : Dev nD) (t : Fin cfg4.N) (q : Fin 64) :
    (iblk4 V c 4 t : Vec Ideal S1x64 .f32) (ix2 0 q) = V c (Pipeline.arrRef spec4 4) (ix2 0 q) := by
  unfold iblk4
  rw [View.read_apply]
  show V c (Pipeline.arrRef spec4 4) _ = V c (Pipeline.arrRef spec4 4) _
  congr 1
  funext a
  apply Fin.ext
  obtain ⟨-, -, -, -, -, -, -, -, e0, e1, -⟩ := idx4_facts t
  match a with
  | ⟨0, _⟩ => show win4_4.index t 0 * 1 + 1 * 0 = 0; rw [e0]
  | ⟨1, _⟩ => show win4_4.index t 1 * 64 + 1 * q.val = q.val; rw [e1]; omega

/-! ## The linear layer's output over the whole array -/

/-- The linear layer's output: the mixed features of all 50000 rows times the weight, plus the bias. -/
abbrev Z4 (c : Dev nD) : Mat 50000 64 :=
  affine (mix (fun j => V c (Pipeline.arrRef spec4 2) (ix2 0 j)) (fun i j => V c (Pipeline.arrRef spec4 0) (ix2 i j))
      (fun i j => V c (Pipeline.arrRef spec4 1) (ix2 i j)))
    (fun t j => V c (Pipeline.arrRef spec4 3) (ix2 t j)) (fun j => V c (Pipeline.arrRef spec4 4) (ix2 0 j))

/-- What the body computes from the blocks at point t is rows t * 5000 … of that output. -/
theorem block4_z (c : Dev nD) (t : Fin cfg4.N) (p : Fin 5000) (q : Fin 64) :
    k4_pay4 (F := Ideal) (iblk4 V c 2 t) (iblk4 V c 0 t) (iblk4 V c 1 t) (iblk4 V c 3 t) (iblk4 V c 4 t) (ix2 p q)
      = Z4 V c ⟨t.val * 5000 + p.val, rows4_lt t p⟩ q :=
  (PayVal.k4_pay4_apply (iblk4 V c 2 t) (iblk4 V c 0 t) (iblk4 V c 1 t) (iblk4 V c 3 t) (iblk4 V c 4 t) p q).trans
    (Cert.ValLib.affine_mix_congr _ _ _ _ _ _ _ _ _ _ p ⟨t.val * 5000 + p.val, rows4_lt t p⟩
      (fun s => iblk4_2_apply V c t s) (fun s => iblk4_0_apply V c t p s) (fun s => iblk4_1_apply V c t p s)
      (fun s s' => iblk4_3_apply V c t s s') (fun s => iblk4_4_apply V c t s) q)

/-- What point t writes back to the output array is block t of the linear layer's output. -/
theorem flushed4_z (c : Dev nD) (t : Fin cfg4.N) :
    (dat4 V c).flushed 5 t
      = ((cfg4.win 5).blk t).view.read (Elt Ideal) (fun i : S50000x64.Idx => Z4 V c (i 0) (i 1)) := by
  show (cfg4.win 5).cut (grid4.coords t) ((dat4 V c).after 5 t) = _
  rw [after4_big]
  refine funext fun (y : S5000x64.Idx) => ?_
  obtain ⟨p, q, rfl⟩ : ∃ (p : Fin 5000) (q : Fin 64), y = ix2 p q := ⟨y 0, y 1, eq_ix2 y⟩
  rw [View.read_apply]
  refine (block4_z V c t p q).trans ?_
  rw [cast_eq]
  obtain ⟨-, -, -, -, -, -, -, -, -, -, e0, e1, -⟩ := idx4_facts t
  have h0 : t.val * 5000 + p.val = ((((cfg4.win 5).blk t).view.emb (ix2 p q) : S50000x64.Idx) 0).val := by
    show _ = win4_5.index t 0 * 5000 + 1 * p.val
    rw [e0]; omega
  have h1 : q.val = ((((cfg4.win 5).blk t).view.emb (ix2 p q) : S50000x64.Idx) 1).val := by
    show _ = win4_5.index t 1 * 64 + 1 * q.val
    rw [e1]; omega
  exact congrArg₂ (Z4 V c) (Fin.ext h0) (Fin.ext h1)

/-- Every row of the output array lies in the block of the point that is the row's number divided by 5000. -/
theorem cover4_z (i : S50000x64.Idx) :
    ∃ t : Fin cfg4.N, (cfg4.win 5).flush t = true ∧ i ∈ ((cfg4.win 5).blk t).view.set := by
  have hi : (i 0).val < 50000 := (i 0).isLt
  have hq : (i 1).val < 64 := (i 1).isLt
  have hN : cfg4.N = 10 := N_4
  have ht : (i 0).val / 5000 < cfg4.N := by rw [hN]; omega
  refine ⟨⟨(i 0).val / 5000, ht⟩, flush4_5 _, ?_⟩
  show i ∈ ((View.whole (Pipeline.arrRef spec4 5)).slice (win4_5.rect ⟨(i 0).val / 5000, ht⟩)).set
  rw [View.set_slice_whole, Rect.mem_set_unit]
  obtain ⟨-, -, -, -, -, -, -, -, -, -, e0, e1, -⟩ := idx4_facts ⟨(i 0).val / 5000, ht⟩
  intro a
  match a with
  | ⟨0, _⟩ =>
    show win4_5.index ⟨(i 0).val / 5000, ht⟩ 0 * 5000 ≤ (i 0).val
      ∧ (i 0).val < win4_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win4_5.index ⟨(i 0).val / 5000, ht⟩ 1 * 64 ≤ (i 1).val
      ∧ (i 1).val < win4_5.index ⟨(i 0).val / 5000, ht⟩ 1 * 64 + 64
    rw [e1]; omega

/-- After the region the output array holds the linear layer's output. -/
theorem arrAt4_z (c : Dev nD) (i : Fin 50000) (j : Fin 64) : (dat4 V c).arrAt 5 cfg4.N (ix2 i j) = Z4 V c i j :=
  congrFun ((dat4 V c).arrAt_eq_of_cover 5 (fun i : S50000x64.Idx => Z4 V c (i 0) (i 1)) (fun t _ => flushed4_z V c t)
    (cover4_z)) (ix2 i j)

/-! ## The two statistics rows -/

/-- One point's step of the first running row: it adds the column sums of the point's rows of the output. -/
theorem acc4_s_step (c : Dev nD) (n : ℕ) (h : n < cfg4.N) (q : Fin 64) :
    (acc4 V c (n + 1)).1 (ix2 0 q)
      = (acc4 V c n).1 (ix2 0 q)
        + colSum (fun (r : Fin 5000) j => Z4 V c ⟨n * 5000 + r.val, rows4_lt ⟨n, h⟩ r⟩ j) q := by
  rw [acc4_succ V c n h]
  refine (PayVal.k4_pay5_apply (iblk4 V c 2 ⟨n, h⟩) (iblk4 V c 0 ⟨n, h⟩) (iblk4 V c 1 ⟨n, h⟩) (iblk4 V c 3 ⟨n, h⟩)
    (iblk4 V c 4 ⟨n, h⟩) (acc4 V c n).1 q).trans ?_
  refine congrArg (_ + ·) ?_
  unfold colSum
  exact Finset.sum_congr rfl fun r _ => block4_z V c ⟨n, h⟩ r q

/-- One point's step of the second running row: it adds the column sums of squares of the point's rows. -/
theorem acc4_ss_step (c : Dev nD) (n : ℕ) (h : n < cfg4.N) (q : Fin 64) :
    (acc4 V c (n + 1)).2 (ix2 0 q)
      = (acc4 V c n).2 (ix2 0 q)
        + colSumSq (fun (r : Fin 5000) j => Z4 V c ⟨n * 5000 + r.val, rows4_lt ⟨n, h⟩ r⟩ j) q := by
  rw [acc4_succ V c n h]
  refine (PayVal.k4_pay1_apply (acc4 V c n).2 (k4_pay6 (F := Ideal) (iblk4 V c 2 ⟨n, h⟩) (iblk4 V c 0 ⟨n, h⟩)
    (iblk4 V c 1 ⟨n, h⟩) (iblk4 V c 3 ⟨n, h⟩) (iblk4 V c 4 ⟨n, h⟩)) q).trans ?_
  refine congrArg (_ + ·) ?_
  refine (PayVal.k4_pay6_apply (iblk4 V c 2 ⟨n, h⟩) (iblk4 V c 0 ⟨n, h⟩) (iblk4 V c 1 ⟨n, h⟩) (iblk4 V c 3 ⟨n, h⟩)
    (iblk4 V c 4 ⟨n, h⟩) q).trans ?_
  unfold colSumSq
  exact Finset.sum_congr rfl fun r _ =>
    congrArg₂ (· * ·) (block4_z V c ⟨n, h⟩ r q) (block4_z V c ⟨n, h⟩ r q)

/-- The only point that writes a statistics row back is the last one. -/
theorem last4_of_flush (t : Fin cfg4.N) (h : t.val % 10 = 9) : t.val + 1 = 10 := by
  have h2 : t.val < 10 := lt_of_lt_of_eq t.isLt N_4
  omega

/-- After the region the first statistics array holds the first running row after all ten points. -/
theorem arrAt4_6_eq (c : Dev nD) : (dat4 V c).arrAt 6 cfg4.N = (acc4 V c 10).1 := by
  refine (dat4 V c).arrAt_eq_of_cover 6 ((acc4 V c 10).1) (fun t hf => ?_) (fun i => ?_)
  · show (cfg4.win 6).cut (grid4.coords t) ((dat4 V c).after 6 t) = _
    rw [after4_6, last4_of_flush t ((flush4_6 t).mp hf)]
    refine funext fun (y : S1x64.Idx) => ?_
    rw [View.read_apply, cast_eq]
    refine congrArg (acc4 V c 10).1 (?_ : y = ((cfg4.win 6).blk t).view.emb y)
    obtain ⟨-, -, -, -, -, -, -, -, -, -, -, -, e0, e1, -⟩ := idx4_facts t
    funext a
    apply Fin.ext
    match a with
    | ⟨0, _⟩ => show (y 0).val = win4_6.index t 0 * 1 + 1 * (y 0).val; rw [e0]; omega
    | ⟨1, _⟩ => show (y 1).val = win4_6.index t 1 * 64 + 1 * (y 1).val; rw [e1]; omega
  · refine ⟨t4_9, (flush4_6 t4_9).mpr rfl, ?_⟩
    show i ∈ ((View.whole (Pipeline.arrRef spec4 6)).slice (win4_6.rect t4_9)).set
    rw [View.set_slice_whole, Rect.mem_set_unit]
    obtain ⟨-, -, -, -, -, -, -, -, -, -, -, -, e0, e1, -⟩ := idx4_facts t4_9
    have h0 : (i 0).val < 1 := (i 0).isLt
    have h1 : (i 1).val < 64 := (i 1).isLt
    intro a
    match a with
    | ⟨0, _⟩ => show win4_6.index t4_9 0 * 1 ≤ (i 0).val ∧ (i 0).val < win4_6.index t4_9 0 * 1 + 1; rw [e0]; omega
    | ⟨1, _⟩ => show win4_6.index t4_9 1 * 64 ≤ (i 1).val ∧ (i 1).val < win4_6.index t4_9 1 * 64 + 64; rw [e1]; omega

/-- After the region the second statistics array holds the second running row after all ten points. -/
theorem arrAt4_7_eq (c : Dev nD) : (dat4 V c).arrAt 7 cfg4.N = (acc4 V c 10).2 := by
  refine (dat4 V c).arrAt_eq_of_cover 7 ((acc4 V c 10).2) (fun t hf => ?_) (fun i => ?_)
  · show (cfg4.win 7).cut (grid4.coords t) ((dat4 V c).after 7 t) = _
    rw [after4_7, last4_of_flush t ((flush4_7 t).mp hf)]
    refine funext fun (y : S1x64.Idx) => ?_
    rw [View.read_apply, cast_eq]
    refine congrArg (acc4 V c 10).2 (?_ : y = ((cfg4.win 7).blk t).view.emb y)
    obtain ⟨-, -, -, -, -, -, -, -, -, -, -, -, -, -, e0, e1⟩ := idx4_facts t
    funext a
    apply Fin.ext
    match a with
    | ⟨0, _⟩ => show (y 0).val = win4_7.index t 0 * 1 + 1 * (y 0).val; rw [e0]; omega
    | ⟨1, _⟩ => show (y 1).val = win4_7.index t 1 * 64 + 1 * (y 1).val; rw [e1]; omega
  · refine ⟨t4_9, (flush4_7 t4_9).mpr rfl, ?_⟩
    show i ∈ ((View.whole (Pipeline.arrRef spec4 7)).slice (win4_7.rect t4_9)).set
    rw [View.set_slice_whole, Rect.mem_set_unit]
    obtain ⟨-, -, -, -, -, -, -, -, -, -, -, -, -, -, e0, e1⟩ := idx4_facts t4_9
    have h0 : (i 0).val < 1 := (i 0).isLt
    have h1 : (i 1).val < 64 := (i 1).isLt
    intro a
    match a with
    | ⟨0, _⟩ => show win4_7.index t4_9 0 * 1 ≤ (i 0).val ∧ (i 0).val < win4_7.index t4_9 0 * 1 + 1; rw [e0]; omega
    | ⟨1, _⟩ => show win4_7.index t4_9 1 * 64 ≤ (i 1).val ∧ (i 1).val < win4_7.index t4_9 1 * 64 + 64; rw [e1]; omega

/-- After the region the first statistics array holds the column sums of the linear layer's output. -/
theorem arrAt4_s (c : Dev nD) (j : Fin 64) : (dat4 V c).arrAt 6 cfg4.N (ix2 0 j) = colSum (Z4 V c) j := by
  rw [arrAt4_6_eq]
  exact Cert.ValLib.colSum_running 10 5000 (by decide) (Z4 V c) (fun n q => (acc4 V c n).1 (ix2 0 q))
    (fun t ht r c' => Z4 V c ⟨t * 5000 + r.val, rows4_lt ⟨t, lt_of_lt_of_eq ht N_4.symm⟩ r⟩ c') (fun _ _ _ _ => rfl)
    (fun q => by
      show (acc4 V c 0).1 (ix2 0 q) = 0
      rw [acc4_zero]
      exact PayVal.k4_pay2_apply q)
    (fun t ht q => acc4_s_step V c t (lt_of_lt_of_eq ht N_4.symm) q) j

/-- After the region the second statistics array holds the column sums of squares of the linear layer's output. -/
theorem arrAt4_ss (c : Dev nD) (j : Fin 64) : (dat4 V c).arrAt 7 cfg4.N (ix2 0 j) = colSumSq (Z4 V c) j := by
  rw [arrAt4_7_eq]
  exact Cert.ValLib.colSumSq_running 10 5000 (by decide) (Z4 V c) (fun n q => (acc4 V c n).2 (ix2 0 q))
    (fun t ht r c' => Z4 V c ⟨t * 5000 + r.val, rows4_lt ⟨t, lt_of_lt_of_eq ht N_4.symm⟩ r⟩ c') (fun _ _ _ _ => rfl)
    (fun q => by
      show (acc4 V c 0).2 (ix2 0 q) = 0
      rw [acc4_zero]
      exact PayVal.k4_pay3_apply q)
    (fun t ht q => acc4_ss_step V c t (lt_of_lt_of_eq ht N_4.symm) q) j

end Cert.KernelIdeal.Val

end
-- ==== Proof.KI.Pay5.lean ====
/-
  The normalise-multiply-with-statistics body, read at one entry on the extended reals.

  From the statistics rows s and ss of the incoming block z, the scale row g and the shift row be, the body forms
  a = max ((z - mean) * rsqrt (variance + eps) * g + be) 0 with mean s * c and variance ss * c - (s * c) * (s * c),
  c the named reciprocal of the row count; it multiplies a by the weight W, and only then, in a second step, adds
  the bias row b to give the block y it writes back.  It adds the column sums of y to one running row and the
  column sums of y * y to a second running row; at the first grid point both running rows are set to zero.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The layer's product has the plain dimension numbers: left contracted on axis 1, right on axis 0. -/
theorem k5_dot_plain : dot_S5000x64_S64x64_S5000x64_1_0_0_1_n_n = DotDims.plain 5000 64 64 := rfl

/-- The product alone, before the bias: the normalised, clipped block times the weight. -/
theorem k5_pay6_apply (v3 : Vec Ideal S1x64 .f32) (v7 : Vec Ideal S1x64 .f32) (v13 : Vec Ideal S5000x64 .f32)
    (v22 : Vec Ideal S1x64 .f32) (v26 : Vec Ideal S1x64 .f32) (v33 : Vec Ideal S64x64 .f32) (p : Fin 5000) (q : Fin 64) :
    Gen.k5_pay6 (F := Ideal) v3 v7 v13 v22 v26 v33 (ix2 p q)
      = ∑ t : Fin 64, bnStats (Named.named (F := Ideal) κ "inv_50000" (φ := .f32) 0x37A7C5AC#32) (Ideal.ofBits .f32 0x3727C5AC#32)
          (fun i j => v13 (ix2 i j)) (fun j => v3 (ix2 0 j)) (fun j => v7 (ix2 0 j)) (fun j => v22 (ix2 0 j))
          (fun j => v26 (ix2 0 j)) p t * v33 (ix2 t q) := by
  unfold Gen.k5_pay6
  rw [k5_dot_plain, Cert.PayLib.plainProduct_apply]
  simp only [truncf_apply, maximumf_apply, addf_apply, mulf_apply, subf_apply, broadcastTo_1b_ab_apply, shapeCast_self,
    broadcast_apply, Cert.PayLib.rsqrt_apply]
  simp only [show Scalar.ofBits (F := Ideal) .f32 0x00000000#32 = (0 : EReal) from Ideal.ofBits_zero_f32]
  rfl

/-- The block written back: the product plus the bias row. -/
theorem k5_pay1_apply (v36 : FVec Ideal S5000x64 .f32) (v37 : Vec Ideal S1x64 .f32) (p : Fin 5000) (q : Fin 64) :
    Gen.k5_pay1 (F := Ideal) v36 v37 (ix2 p q) = v36 (ix2 p q) + v37 (ix2 0 q) := by
  unfold Gen.k5_pay1
  rw [addf_apply, broadcastTo_1b_ab_apply, shapeCast_self]

/-- The two steps together: the block written back is the normalised, clipped block through the weight and bias. -/
theorem k5_pay1_pay6_apply (v3 : Vec Ideal S1x64 .f32) (v7 : Vec Ideal S1x64 .f32) (v13 : Vec Ideal S5000x64 .f32)
    (v22 : Vec Ideal S1x64 .f32) (v26 : Vec Ideal S1x64 .f32) (v33 : Vec Ideal S64x64 .f32) (v37 : Vec Ideal S1x64 .f32)
    (p : Fin 5000) (q : Fin 64) :
    Gen.k5_pay1 (F := Ideal) (Gen.k5_pay6 (F := Ideal) v3 v7 v13 v22 v26 v33) v37 (ix2 p q)
      = affine (bnStats (Named.named (F := Ideal) κ "inv_50000" (φ := .f32) 0x37A7C5AC#32) (Ideal.ofBits .f32 0x3727C5AC#32)
          (fun i j => v13 (ix2 i j)) (fun j => v3 (ix2 0 j)) (fun j => v7 (ix2 0 j)) (fun j => v22 (ix2 0 j))
          (fun j => v26 (ix2 0 j))) (fun t j => v33 (ix2 t j)) (fun j => v37 (ix2 0 j)) p q := by
  rw [k5_pay1_apply]
  simp only [k5_pay6_apply]
  rfl

/-- The first running row after the body: its old value plus the column sums of the block written back. -/
theorem k5_pay2_apply (v36 : FVec Ideal S5000x64 .f32) (v37 : Vec Ideal S1x64 .f32) (v42 : Vec Ideal S1x64 .f32) (q : Fin 64) :
    Gen.k5_pay2 (F := Ideal) v36 v37 v42 (ix2 0 q)
      = v42 (ix2 0 q) + colSum (fun i j => Gen.k5_pay1 (F := Ideal) v36 v37 (ix2 i j)) q := by
  unfold Gen.k5_pay2
  dsimp only
  rw [shapeCast_self, addf_apply, shapeCast_a_1a_apply, Cert.PayLib.rowSum_apply]
  rfl

/-- The second running row after the body: its old value plus the column sums of the block's squares. -/
theorem k5_pay3_apply (v36 : FVec Ideal S5000x64 .f32) (v37 : Vec Ideal S1x64 .f32) (v49 : Vec Ideal S1x64 .f32) (q : Fin 64) :
    Gen.k5_pay3 (F := Ideal) v36 v37 v49 (ix2 0 q)
      = v49 (ix2 0 q) + colSumSq (fun i j => Gen.k5_pay1 (F := Ideal) v36 v37 (ix2 i j)) q := by
  unfold Gen.k5_pay3
  dsimp only
  rw [shapeCast_self, addf_apply, shapeCast_a_1a_apply, Cert.PayLib.rowSum_apply]
  rfl

/-- At the first grid point the first running row is set to zero. -/
theorem k5_pay4_apply (q : Fin 64) : Gen.k5_pay4 (F := Ideal) (ix2 0 q) = 0 := by
  unfold Gen.k5_pay4
  rw [shapeCast_self, broadcast_apply]
  exact Ideal.ofBits_zero_f32

/-- At the first grid point the second running row is set to zero. -/
theorem k5_pay5_apply (q : Fin 64) : Gen.k5_pay5 (F := Ideal) (ix2 0 q) = 0 := by
  unfold Gen.k5_pay5
  rw [shapeCast_self, broadcast_apply]
  exact Ideal.ofBits_zero_f32

end Cert.KernelIdeal.PayVal

end
-- ==== Proof.KI.Val5.lean ====
/-
  From row blocks to whole arrays, for the normalise-multiply-with-statistics region, on the extended reals.

  The region walks ten grid points; point t stages rows t * 5000 … t * 5000 + 4999 of the incoming matrix z, and the
  whole of six small operands: the column sums and column sums of squares of z over all rows, the scale and shift rows,
  the weight and the bias row.  Batch normalisation by given statistics is entrywise, and a product with a weight reads
  only a row of its left factor; so what the body writes back at point t is rows t * 5000 … of one matrix over all
  50000 rows, Z = relu (bn z) W + b, and the ten blocks tile the output array.  The two running rows start at zero,
  point t adds the column sums (the column sums of squares) of its rows of Z, and the last point alone writes them
  back; so the two statistics arrays end holding the column sums and the column sums of squares of Z.
-/
import proofs.«140206_j52750788330061_1_alg».proof.Proof.KI.Reg5
import proofs.«140206_j52750788330061_1_alg».proof.Proof.KI.Pay5
import proofs.«140206_j52750788330061_1_alg».proof.Proof.KI.ValLib
import proofs.«140206_j52750788330061_1_alg».proof.Proof.Spec
import proofs.«140206_j52750788330061_1_alg».proof.Proof.SpecAlg
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Spec

variable (V : (c : Dev nD) → (b : Ref sig .tc) → Buf (Elt Ideal) ((c : Thread nD τ).loc b))

/-! ## Where the windows' blocks lie

The two row-block windows (the incoming matrix, the output) sit at block row t at grid point t; the eight whole-array
windows sit at the origin at every point. -/

theorem idx5_0 : ∀ t : Fin cfg5.N, win5_0.index t 0 = t.val ∧ win5_0.index t 1 = 0 :=
  (by decide +kernel : ∀ t : Fin grid5.N, _)
theorem idx5_1 : ∀ t : Fin cfg5.N, win5_1.index t 0 = 0 ∧ win5_1.index t 1 = 0 :=
  (by decide +kernel : ∀ t : Fin grid5.N, _)
theorem idx5_2 : ∀ t : Fin cfg5.N, win5_2.index t 0 = 0 ∧ win5_2.index t 1 = 0 :=
  (by decide +kernel : ∀ t : Fin grid5.N, _)
theorem idx5_3 : ∀ t : Fin cfg5.N, win5_3.index t 0 = 0 ∧ win5_3.index t 1 = 0 :=
  (by decide +kernel : ∀ t : Fin grid5.N, _)
theorem idx5_4 : ∀ t : Fin cfg5.N, win5_4.index t 0 = 0 ∧ win5_4.index t 1 = 0 :=
  (by decide +kernel : ∀ t : Fin grid5.N, _)
theorem idx5_5 : ∀ t : Fin cfg5.N, win5_5.index t 0 = 0 ∧ win5_5.index t 1 = 0 :=
  (by decide +kernel : ∀ t : Fin grid5.N, _)
theorem idx5_6 : ∀ t : Fin cfg5.N, win5_6.index t 0 = 0 ∧ win5_6.index t 1 = 0 :=
  (by decide +kernel : ∀ t : Fin grid5.N, _)
theorem idx5_7 : ∀ t : Fin cfg5.N, win5_7.index t 0 = t.val ∧ win5_7.index t 1 = 0 :=
  (by decide +kernel : ∀ t : Fin grid5.N, _)
theorem idx5_8 : ∀ t : Fin cfg5.N, win5_8.index t 0 = 0 ∧ win5_8.index t 1 = 0 :=
  (by decide +kernel : ∀ t : Fin grid5.N, _)
theorem idx5_9 : ∀ t : Fin cfg5.N, win5_9.index t 0 = 0 ∧ win5_9.index t 1 = 0 :=
  (by decide +kernel : ∀ t : Fin grid5.N, _)

/-- Row p of block t is a row of the array. -/
theorem rows5_lt (t : Fin cfg5.N) (p : Fin 5000) : t.val * 5000 + p.val < 50000 := by
  have ht : t.val < 10 := lt_of_lt_of_eq t.isLt N_5
  have hp := p.isLt
  omega

/-- The incoming block at point t is rows t * 5000 … of the incoming array. -/
theorem iblk5_0_apply (c : Dev nD) (t : Fin cfg5.N) (p : Fin 5000) (q : Fin 64) :
    (iblk5 V c 0 t : Vec Ideal S5000x64 .f32) (ix2 p q)
      = V c (Pipeline.arrRef spec5 0) (ix2 ⟨t.val * 5000 + p.val, rows5_lt t p⟩ q) := by
  unfold iblk5
  rw [View.read_apply]
  show V c (Pipeline.arrRef spec5 0) _ = V c (Pipeline.arrRef spec5 0) _
  congr 1
  funext a
  apply Fin.ext
  obtain ⟨e0, e1⟩ := idx5_0 t
  match a with
  | ⟨0, _⟩ => show win5_0.index t 0 * 5000 + 1 * p.val = t.val * 5000 + p.val; rw [e0]; omega
  | ⟨1, _⟩ => show win5_0.index t 1 * 64 + 1 * q.val = q.val; rw [e1]; omega

/-- The column-sum row's block at every point is the column-sum row. -/
theorem iblk5_1_apply (c : Dev nD) (t : Fin cfg5.N) (q : Fin 64) :
    (iblk5 V c 1 t : Vec Ideal S1x64 .f32) (ix2 0 q) = V c (Pipeline.arrRef spec5 1) (ix2 0 q) := by
  unfold iblk5
  rw [View.read_apply]
  show V c (Pipeline.arrRef spec5 1) _ = V c (Pipeline.arrRef spec5 1) _
  congr 1
  funext a
  apply Fin.ext
  obtain ⟨e0, e1⟩ := idx5_1 t
  match a with
  | ⟨0, _⟩ => show win5_1.index t 0 * 1 + 1 * 0 = 0; rw [e0]
  | ⟨1, _⟩ => show win5_1.index t 1 * 64 + 1 * q.val = q.val; rw [e1]; omega

/-- The column-sum-of-squares row's block at every point is that row. -/
theorem iblk5_2_apply (c : Dev nD) (t : Fin cfg5.N) (q : Fin 64) :
    (iblk5 V c 2 t : Vec Ideal S1x64 .f32) (ix2 0 q) = V c (Pipeline.arrRef spec5 2) (ix2 0 q) := by
  unfold iblk5
  rw [View.read_apply]
  show V c (Pipeline.arrRef spec5 2) _ = V c (Pipeline.arrRef spec5 2) _
  congr 1
  funext a
  apply Fin.ext
  obtain ⟨e0, e1⟩ := idx5_2 t
  match a with
  | ⟨0, _⟩ => show win5_2.index t 0 * 1 + 1 * 0 = 0; rw [e0]
  | ⟨1, _⟩ => show win5_2.index t 1 * 64 + 1 * q.val = q.val; rw [e1]; omega

/-- The scale row's block at every point is the scale row. -/
theorem iblk5_3_apply (c : Dev nD) (t : Fin cfg5.N) (q : Fin 64) :
    (iblk5 V c 3 t : Vec Ideal S1x64 .f32) (ix2 0 q) = V c (Pipeline.arrRef spec5 3) (ix2 0 q) := by
  unfold iblk5
  rw [View.read_apply]
  show V c (Pipeline.arrRef spec5 3) _ = V c (Pipeline.arrRef spec5 3) _
  congr 1
  funext a
  apply Fin.ext
  obtain ⟨e0, e1⟩ := idx5_3 t
  match a with
  | ⟨0, _⟩ => show win5_3.index t 0 * 1 + 1 * 0 = 0; rw [e0]
  | ⟨1, _⟩ => show win5_3.index t 1 * 64 + 1 * q.val = q.val; rw [e1]; omega

/-- The shift row's block at every point is the shift row. -/
theorem iblk5_4_apply (c : Dev nD) (t : Fin cfg5.N) (q : Fin 64) :
    (iblk5 V c 4 t : Vec Ideal S1x64 .f32) (ix2 0 q) = V c (Pipeline.arrRef spec5 4) (ix2 0 q) := by
  unfold iblk5
  rw [View.read_apply]
  show V c (Pipeline.arrRef spec5 4) _ = V c (Pipeline.arrRef spec5 4) _
  congr 1
  funext a
  apply Fin.ext
  obtain ⟨e0, e1⟩ := idx5_4 t
  match a with
  | ⟨0, _⟩ => show win5_4.index t 0 * 1 + 1 * 0 = 0; rw [e0]
  | ⟨1, _⟩ => show win5_4.index t 1 * 64 + 1 * q.val = q.val; rw [e1]; omega

/-- The weight's block at every point is the weight. -/
theorem iblk5_5_apply (c : Dev nD) (t : Fin cfg5.N) (a' : Fin 64) (q : Fin 64) :
    (iblk5 V c 5 t : Vec Ideal S64x64 .f32) (ix2 a' q) = V c (Pipeline.arrRef spec5 5) (ix2 a' q) := by
  unfold iblk5
  rw [View.read_apply]
  show V c (Pipeline.arrRef spec5 5) _ = V c (Pipeline.arrRef spec5 5) _
  congr 1
  funext a
  apply Fin.ext
  obtain ⟨e0, e1⟩ := idx5_5 t
  match a with
  | ⟨0, _⟩ => show win5_5.index t 0 * 64 + 1 * a'.val = a'.val; rw [e0]; omega
  | ⟨1, _⟩ => show win5_5.index t 1 * 64 + 1 * q.val = q.val; rw [e1]; omega

/-- The bias row's block at every point is the bias row. -/
theorem iblk5_6_apply (c : Dev nD) (t : Fin cfg5.N) (q : Fin 64) :
    (iblk5 V c 6 t : Vec Ideal S1x64 .f32) (ix2 0 q) = V c (Pipeline.arrRef spec5 6) (ix2 0 q) := by
  unfold iblk5
  rw [View.read_apply]
  show V c (Pipeline.arrRef spec5 6) _ = V c (Pipeline.arrRef spec5 6) _
  congr 1
  funext a
  apply Fin.ext
  obtain ⟨e0, e1⟩ := idx5_6 t
  match a with
  | ⟨0, _⟩ => show win5_6.index t 0 * 1 + 1 * 0 = 0; rw [e0]
  | ⟨1, _⟩ => show win5_6.index t 1 * 64 + 1 * q.val = q.val; rw [e1]; omega

/-! ## The region's output over the whole array -/

/-- The region's output: the incoming matrix normalised by the given statistics and clipped, times the weight, plus the
    bias, over all 50000 rows. -/
abbrev Z5 (c : Dev nD) : Mat 50000 64 :=
  affine (bnStats (Named.named (F := Ideal) κ "inv_50000" (φ := .f32) 0x37A7C5AC#32) (Ideal.ofBits .f32 0x3727C5AC#32)
      (fun i j => V c (Pipeline.arrRef spec5 0) (ix2 i j)) (fun j => V c (Pipeline.arrRef spec5 1) (ix2 0 j))
      (fun j => V c (Pipeline.arrRef spec5 2) (ix2 0 j)) (fun j => V c (Pipeline.arrRef spec5 3) (ix2 0 j))
      (fun j => V c (Pipeline.arrRef spec5 4) (ix2 0 j)))
    (fun t j => V c (Pipeline.arrRef spec5 5) (ix2 t j)) (fun j => V c (Pipeline.arrRef spec5 6) (ix2 0 j))

/-- What the body computes from the blocks at point t is rows t * 5000 … of that output. -/
theorem block5_z (c : Dev nD) (t : Fin cfg5.N) (p : Fin 5000) (q : Fin 64) :
    k5_pay1 (F := Ideal) (k5_pay6 (F := Ideal) (iblk5 V c 1 t) (iblk5 V c 2 t) (iblk5 V c 0 t) (iblk5 V c 3 t) (iblk5 V c 4 t) (iblk5 V c 5 t)) (iblk5 V c 6 t) (ix2 p q)
      = Z5 V c ⟨t.val * 5000 + p.val, rows5_lt t p⟩ q :=
  (PayVal.k5_pay1_pay6_apply (iblk5 V c 1 t) (iblk5 V c 2 t) (iblk5 V c 0 t) (iblk5 V c 3 t) (iblk5 V c 4 t) (iblk5 V c 5 t) (iblk5 V c 6 t) p q).trans
    (Cert.ValLib.affine_congr _ _ _ _ _ _ p ⟨t.val * 5000 + p.val, rows5_lt t p⟩
      (fun s => Cert.ValLib.bnStats_congr _ _ _ _ _ _ _ _ _ _ _ _ p ⟨t.val * 5000 + p.val, rows5_lt t p⟩ s
        (iblk5_0_apply V c t p s) (iblk5_1_apply V c t s) (iblk5_2_apply V c t s) (iblk5_3_apply V c t s)
        (iblk5_4_apply V c t s))
      (fun s s' => iblk5_5_apply V c t s s') (fun s => iblk5_6_apply V c t s) q)

/-- What point t writes back to the output array is block t of the region's output. -/
theorem flushed5_z (c : Dev nD) (t : Fin cfg5.N) :
    (dat5 V c).flushed 7 t
      = ((cfg5.win 7).blk t).view.read (Elt Ideal) (fun i : S50000x64.Idx => Z5 V c (i 0) (i 1)) := by
  show (cfg5.win 7).cut (grid5.coords t) ((dat5 V c).after 7 t) = _
  rw [after5_big, big5_eq]
  refine funext fun (y : S5000x64.Idx) => ?_
  obtain ⟨p, q, rfl⟩ : ∃ (p : Fin 5000) (q : Fin 64), y = ix2 p q := ⟨y 0, y 1, eq_ix2 y⟩
  rw [View.read_apply]
  refine (block5_z V c t p q).trans ?_
  rw [cast_eq]
  obtain ⟨e0, e1⟩ := idx5_7 t
  have h0 : t.val * 5000 + p.val = ((((cfg5.win 7).blk t).view.emb (ix2 p q) : S50000x64.Idx) 0).val := by
    show _ = win5_7.index t 0 * 5000 + 1 * p.val
    rw [e0]; omega
  have h1 : q.val = ((((cfg5.win 7).blk t).view.emb (ix2 p q) : S50000x64.Idx) 1).val := by
    show _ = win5_7.index t 1 * 64 + 1 * q.val
    rw [e1]; omega
  exact congrArg₂ (Z5 V c) (Fin.ext h0) (Fin.ext h1)

/-- Every row of the output array lies in the block of the point that is the row's number divided by 5000. -/
theorem cover5_z (i : S50000x64.Idx) :
    ∃ t : Fin cfg5.N, (cfg5.win 7).flush t = true ∧ i ∈ ((cfg5.win 7).blk t).view.set := by
  have hi : (i 0).val < 50000 := (i 0).isLt
  have hq : (i 1).val < 64 := (i 1).isLt
  have hN : cfg5.N = 10 := N_5
  have ht : (i 0).val / 5000 < cfg5.N := by rw [hN]; omega
  refine ⟨⟨(i 0).val / 5000, ht⟩, flush5_7 _, ?_⟩
  show i ∈ ((View.whole (Pipeline.arrRef spec5 7)).slice (win5_7.rect ⟨(i 0).val / 5000, ht⟩)).set
  rw [View.set_slice_whole, Rect.mem_set_unit]
  obtain ⟨e0, e1⟩ := idx5_7 ⟨(i 0).val / 5000, ht⟩
  intro a
  match a with
  | ⟨0, _⟩ =>
    show win5_7.index ⟨(i 0).val / 5000, ht⟩ 0 * 5000 ≤ (i 0).val
      ∧ (i 0).val < win5_7.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win5_7.index ⟨(i 0).val / 5000, ht⟩ 1 * 64 ≤ (i 1).val
      ∧ (i 1).val < win5_7.index ⟨(i 0).val / 5000, ht⟩ 1 * 64 + 64
    rw [e1]; omega

/-- After the region the output array holds the region's output. -/
theorem arrAt5_z (c : Dev nD) (i : Fin 50000) (j : Fin 64) : (dat5 V c).arrAt 7 cfg5.N (ix2 i j) = Z5 V c i j :=
  congrFun ((dat5 V c).arrAt_eq_of_cover 7 (fun i : S50000x64.Idx => Z5 V c (i 0) (i 1)) (fun t _ => flushed5_z V c t)
    (cover5_z)) (ix2 i j)

/-! ## The two statistics rows -/

/-- One point's step of the first running row: it adds the column sums of the point's rows of the output. -/
theorem acc5_s_step (c : Dev nD) (t : Fin cfg5.N) (q : Fin 64) :
    (acc5 V c (t.val + 1)).1 (ix2 0 q)
      = (acc5 V c t.val).1 (ix2 0 q)
        + colSum (fun (r : Fin 5000) j => Z5 V c ⟨t.val * 5000 + r.val, rows5_lt t r⟩ j) q := by
  rw [acc5_succ V c t]
  refine (PayVal.k5_pay2_apply (k5_pay6 (F := Ideal) (iblk5 V c 1 t) (iblk5 V c 2 t) (iblk5 V c 0 t) (iblk5 V c 3 t) (iblk5 V c 4 t) (iblk5 V c 5 t)) (iblk5 V c 6 t) (acc5 V c t.val).1 q).trans ?_
  refine congrArg (_ + ·) ?_
  unfold colSum
  exact Finset.sum_congr rfl fun r _ => block5_z V c t r q

/-- One point's step of the second running row: it adds the column sums of squares of the point's rows. -/
theorem acc5_ss_step (c : Dev nD) (t : Fin cfg5.N) (q : Fin 64) :
    (acc5 V c (t.val + 1)).2 (ix2 0 q)
      = (acc5 V c t.val).2 (ix2 0 q)
        + colSumSq (fun (r : Fin 5000) j => Z5 V c ⟨t.val * 5000 + r.val, rows5_lt t r⟩ j) q := by
  rw [acc5_succ V c t]
  refine (PayVal.k5_pay3_apply (k5_pay6 (F := Ideal) (iblk5 V c 1 t) (iblk5 V c 2 t) (iblk5 V c 0 t) (iblk5 V c 3 t) (iblk5 V c 4 t) (iblk5 V c 5 t)) (iblk5 V c 6 t) (acc5 V c t.val).2 q).trans ?_
  refine congrArg (_ + ·) ?_
  unfold colSumSq
  exact Finset.sum_congr rfl fun r _ => congrArg₂ (· * ·) (block5_z V c t r q) (block5_z V c t r q)

/-- The only point that writes a statistics row back is the last one. -/
theorem last5_of_flush (t : Fin cfg5.N) (h : t.val % 10 = 9) : t.val + 1 = 10 := by
  have h2 : t.val < 10 := lt_of_lt_of_eq t.isLt N_5
  omega

/-- After the region the first statistics array holds the first running row after all ten points. -/
theorem arrAt5_8_eq (c : Dev nD) : (dat5 V c).arrAt 8 cfg5.N = (acc5 V c 10).1 := by
  refine (dat5 V c).arrAt_eq_of_cover 8 ((acc5 V c 10).1) (fun t hf => ?_) (fun i => ?_)
  · show (cfg5.win 8).cut (grid5.coords t) ((dat5 V c).after 8 t) = _
    rw [after5_s, last5_of_flush t ((flush5_8 t).mp hf)]
    refine funext fun (y : S1x64.Idx) => ?_
    rw [View.read_apply, cast_eq]
    refine congrArg (acc5 V c 10).1 (?_ : y = ((cfg5.win 8).blk t).view.emb y)
    obtain ⟨e0, e1⟩ := idx5_8 t
    funext a
    apply Fin.ext
    match a with
    | ⟨0, _⟩ => show (y 0).val = win5_8.index t 0 * 1 + 1 * (y 0).val; rw [e0]; omega
    | ⟨1, _⟩ => show (y 1).val = win5_8.index t 1 * 64 + 1 * (y 1).val; rw [e1]; omega
  · refine ⟨t5_9, (flush5_8 t5_9).mpr rfl, ?_⟩
    show i ∈ ((View.whole (Pipeline.arrRef spec5 8)).slice (win5_8.rect t5_9)).set
    rw [View.set_slice_whole, Rect.mem_set_unit]
    obtain ⟨e0, e1⟩ := idx5_8 t5_9
    have h0 : (i 0).val < 1 := (i 0).isLt
    have h1 : (i 1).val < 64 := (i 1).isLt
    intro a
    match a with
    | ⟨0, _⟩ => show win5_8.index t5_9 0 * 1 ≤ (i 0).val ∧ (i 0).val < win5_8.index t5_9 0 * 1 + 1; rw [e0]; omega
    | ⟨1, _⟩ => show win5_8.index t5_9 1 * 64 ≤ (i 1).val ∧ (i 1).val < win5_8.index t5_9 1 * 64 + 64; rw [e1]; omega

/-- After the region the second statistics array holds the second running row after all ten points. -/
theorem arrAt5_9_eq (c : Dev nD) : (dat5 V c).arrAt 9 cfg5.N = (acc5 V c 10).2 := by
  refine (dat5 V c).arrAt_eq_of_cover 9 ((acc5 V c 10).2) (fun t hf => ?_) (fun i => ?_)
  · show (cfg5.win 9).cut (grid5.coords t) ((dat5 V c).after 9 t) = _
    rw [after5_ss, last5_of_flush t ((flush5_9 t).mp hf)]
    refine funext fun (y : S1x64.Idx) => ?_
    rw [View.read_apply, cast_eq]
    refine congrArg (acc5 V c 10).2 (?_ : y = ((cfg5.win 9).blk t).view.emb y)
    obtain ⟨e0, e1⟩ := idx5_9 t
    funext a
    apply Fin.ext
    match a with
    | ⟨0, _⟩ => show (y 0).val = win5_9.index t 0 * 1 + 1 * (y 0).val; rw [e0]; omega
    | ⟨1, _⟩ => show (y 1).val = win5_9.index t 1 * 64 + 1 * (y 1).val; rw [e1]; omega
  · refine ⟨t5_9, (flush5_9 t5_9).mpr rfl, ?_⟩
    show i ∈ ((View.whole (Pipeline.arrRef spec5 9)).slice (win5_9.rect t5_9)).set
    rw [View.set_slice_whole, Rect.mem_set_unit]
    obtain ⟨e0, e1⟩ := idx5_9 t5_9
    have h0 : (i 0).val < 1 := (i 0).isLt
    have h1 : (i 1).val < 64 := (i 1).isLt
    intro a
    match a with
    | ⟨0, _⟩ => show win5_9.index t5_9 0 * 1 ≤ (i 0).val ∧ (i 0).val < win5_9.index t5_9 0 * 1 + 1; rw [e0]; omega
    | ⟨1, _⟩ => show win5_9.index t5_9 1 * 64 ≤ (i 1).val ∧ (i 1).val < win5_9.index t5_9 1 * 64 + 64; rw [e1]; omega

/-- After the region the first statistics array holds the column sums of the region's output. -/
theorem arrAt5_s (c : Dev nD) (j : Fin 64) : (dat5 V c).arrAt 8 cfg5.N (ix2 0 j) = colSum (Z5 V c) j := by
  rw [arrAt5_8_eq]
  exact Cert.ValLib.colSum_running 10 5000 (by decide) (Z5 V c) (fun n q => (acc5 V c n).1 (ix2 0 q))
    (fun t ht r c' => Z5 V c ⟨t * 5000 + r.val, rows5_lt ⟨t, lt_of_lt_of_eq ht N_5.symm⟩ r⟩ c') (fun _ _ _ _ => rfl)
    (fun q => by
      show (acc5 V c 0).1 (ix2 0 q) = 0
      rw [acc5_zero]
      exact PayVal.k5_pay4_apply q)
    (fun t ht q => acc5_s_step V c ⟨t, lt_of_lt_of_eq ht N_5.symm⟩ q) j

/-- After the region the second statistics array holds the column sums of squares of the region's output. -/
theorem arrAt5_ss (c : Dev nD) (j : Fin 64) : (dat5 V c).arrAt 9 cfg5.N (ix2 0 j) = colSumSq (Z5 V c) j := by
  rw [arrAt5_9_eq]
  exact Cert.ValLib.colSumSq_running 10 5000 (by decide) (Z5 V c) (fun n q => (acc5 V c n).2 (ix2 0 q))
    (fun t ht r c' => Z5 V c ⟨t * 5000 + r.val, rows5_lt ⟨t, lt_of_lt_of_eq ht N_5.symm⟩ r⟩ c') (fun _ _ _ _ => rfl)
    (fun q => by
      show (acc5 V c 0).2 (ix2 0 q) = 0
      rw [acc5_zero]
      exact PayVal.k5_pay5_apply q)
    (fun t ht q => acc5_ss_step V c ⟨t, lt_of_lt_of_eq ht N_5.symm⟩ q) j

end Cert.KernelIdeal.Val

end
-- ==== Proof.KI.Pay6.lean ====
/-
  The normalise-and-clip body, read at one entry on the extended reals.

  From the column-sum row s, the column-sum-of-squares row ss, the block z, the scale row g and the shift row be,
  the body forms the mean s * c and the variance ss * c - (s * c) * (s * c), where c is the reciprocal of the row
  count that the program carries under a name, and writes max ((z - mean) * rsqrt (variance + eps) * g + be) 0.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The block written back: batch normalisation from the two statistics rows, then the positive part. -/
theorem k6_pay1_apply (v0 : Vec Ideal S1x64 .f32) (v4 : Vec Ideal S1x64 .f32) (v10 : Vec Ideal S5000x64 .f32)
    (v19 : Vec Ideal S1x64 .f32) (v23 : Vec Ideal S1x64 .f32) (p : Fin 5000) (q : Fin 64) :
    Gen.k6_pay1 (F := Ideal) v0 v4 v10 v19 v23 (ix2 p q)
      = bnStats (Named.named (F := Ideal) κ "inv_50000" (φ := .f32) 0x37A7C5AC#32) (Ideal.ofBits .f32 0x3727C5AC#32)
          (fun i j => v10 (ix2 i j)) (fun j => v0 (ix2 0 j)) (fun j => v4 (ix2 0 j)) (fun j => v19 (ix2 0 j))
          (fun j => v23 (ix2 0 j)) p q := by
  unfold Gen.k6_pay1
  simp only [maximumf_apply, addf_apply, mulf_apply, subf_apply, broadcastTo_1b_ab_apply, shapeCast_self,
    broadcast_apply, Cert.PayLib.rsqrt_apply]
  rw [show Scalar.ofBits (F := Ideal) .f32 0x00000000#32 = 0 from Ideal.ofBits_zero_f32]
  rfl

end Cert.KernelIdeal.PayVal

end
-- ==== Proof.KI.Val6.lean ====
/-
  The batch-normalisation region of a layer, from blocks to the array, on the extended reals.

  The region's grid has ten points; point t works on rows t * 5000 .. t * 5000 + 4999 of a 50000 x 64 matrix. Its
  matrix windows (the input and the output) show row block t; its four row windows (column sums, column sums of
  squares, scale, shift) show the one 1 x 64 row at every point. At each point the body writes, over the whole
  output block, batch normalisation with the positive part of the input block by the four rows. Because that
  function is entrywise in the matrix and columnwise in the rows, block t of the output is block t of ONE function
  of the whole input arrays; the ten blocks tile the output array (row r lies in block r / 5000); so after the last
  write-back the output array is that function of the input arrays as the region found them, entry by entry.
-/
import proofs.«140206_j52750788330061_1_alg».proof.Proof.KI.Reg6
import proofs.«140206_j52750788330061_1_alg».proof.Proof.KI.Pay6
import proofs.«140206_j52750788330061_1_alg».proof.Proof.Spec
import Idealize.ShloMosaic.Lib.ValueIdx
import Idealize.ShloMosaic.Lib.Pipeline.Value
import Idealize.ShloMosaic.Lib.Tactic

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- A whole block is read and written from its origin. -/
theorem origin6 : (![0, 0] : Fin 2 → Nat) = fun _ => 0 := funext fun a => by fin_cases a <;> rfl

/-- Batch normalisation with the positive part is entrywise in the matrix and columnwise in the four rows: two
    instances agree at an entry as soon as the matrix entries and the four row entries there agree. -/
theorem bnEntry6 {n n' : Nat} (inv eps : EReal) (z : Mat n 64) (z' : Mat n' 64) (s ss g be s' ss' g' be' : Row)
    (i : Fin n) (i' : Fin n') (j : Fin 64) (hz : z i j = z' i' j) (hs : s j = s' j) (hss : ss j = ss' j)
    (hg : g j = g' j) (hbe : be j = be' j) :
    bnStats inv eps z s ss g be i j = bnStats inv eps z' s' ss' g' be' i' j := by
  unfold bnStats; rw [hz, hs, hss, hg, hbe]

/-- The output array of the region as one function of the five input arrays as the region finds them: batch
    normalisation of the 50000 x 64 matrix by the two statistics rows, the scale row and the shift row. -/
def bnArr6 (c : Dev nD) : S50000x64.Idx → EReal := fun k =>
  bnStats (Named.named (F := Ideal) κ "inv_50000" (φ := .f32) 0x37A7C5AC#32) (Ideal.ofBits .f32 0x3727C5AC#32)
    (fun i j => V c (Pipeline.arrRef spec6 0) (ix2 i j)) (fun j => V c (Pipeline.arrRef spec6 1) (ix2 0 j))
    (fun j => V c (Pipeline.arrRef spec6 2) (ix2 0 j)) (fun j => V c (Pipeline.arrRef spec6 3) (ix2 0 j))
    (fun j => V c (Pipeline.arrRef spec6 4) (ix2 0 j)) (k 0) (k 1)

/-- The block indices over the grid: the matrix windows (input 0, output 5) are at row block t, column block 0; the
    four row windows stay at block (0, 0). -/
theorem blockIndex6 : ∀ t : Fin cfg6.N,
    win6_0.index t (0 : Fin 2) = t.val ∧ win6_0.index t (1 : Fin 2) = 0
    ∧ win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- The matrix block at point t, entry (p, q), is the matrix at row t * 5000 + p, column q. -/
theorem matBlock6_apply (c : Dev nD) (t : Fin cfg6.N) (p : Fin 5000) (q : Fin 64) (k : S50000x64.Idx)
    (hk0 : (k 0).val = t.val * 5000 + p.val) (hk1 : (k 1).val = q.val) :
    (iblk6 V c 0 t : Vec Ideal S5000x64 .f32) (ix2 p q) = (V c (Pipeline.arrRef spec6 0) : S50000x64.Idx → EReal) k := by
  obtain ⟨e0, e1, -⟩ := blockIndex6 t
  unfold iblk6
  rw [View.read_apply]
  refine congrArg (V c (Pipeline.arrRef spec6 0) : S50000x64.Idx → EReal) ?_
  funext a
  apply Fin.ext
  match a with
  | ⟨0, _⟩ => show win6_0.index t 0 * 5000 + 1 * p.val = (k 0).val; rw [e0, hk0]; omega
  | ⟨1, _⟩ => show win6_0.index t 1 * 64 + 1 * q.val = (k 1).val; rw [e1, hk1]; omega

/-- The column-sum row window shows the whole row at every point. -/
theorem rowBlock6_1_apply (c : Dev nD) (t : Fin cfg6.N) (q : Fin 64) :
    (iblk6 V c 1 t : Vec Ideal S1x64 .f32) (ix2 0 q) = (V c (Pipeline.arrRef spec6 1) : S1x64.Idx → EReal) (ix2 0 q) := by
  obtain ⟨-, -, -, -, e0, e1, -, -, -, -, -, -⟩ := blockIndex6 t
  unfold iblk6
  rw [View.read_apply]
  refine congrArg (V c (Pipeline.arrRef spec6 1) : S1x64.Idx → EReal) ?_
  funext a
  apply Fin.ext
  match a with
  | ⟨0, _⟩ => show win6_1.index t 0 * 1 + 1 * 0 = 0; rw [e0]
  | ⟨1, _⟩ => show win6_1.index t 1 * 64 + 1 * q.val = q.val; rw [e1]; omega

/-- The sum-of-squares row window shows the whole row at every point. -/
theorem rowBlock6_2_apply (c : Dev nD) (t : Fin cfg6.N) (q : Fin 64) :
    (iblk6 V c 2 t : Vec Ideal S1x64 .f32) (ix2 0 q) = (V c (Pipeline.arrRef spec6 2) : S1x64.Idx → EReal) (ix2 0 q) := by
  obtain ⟨-, -, -, -, -, -, e0, e1, -, -, -, -⟩ := blockIndex6 t
  unfold iblk6
  rw [View.read_apply]
  refine congrArg (V c (Pipeline.arrRef spec6 2) : S1x64.Idx → EReal) ?_
  funext a
  apply Fin.ext
  match a with
  | ⟨0, _⟩ => show win6_2.index t 0 * 1 + 1 * 0 = 0; rw [e0]
  | ⟨1, _⟩ => show win6_2.index t 1 * 64 + 1 * q.val = q.val; rw [e1]; omega

/-- The scale row window shows the whole row at every point. -/
theorem rowBlock6_3_apply (c : Dev nD) (t : Fin cfg6.N) (q : Fin 64) :
    (iblk6 V c 3 t : Vec Ideal S1x64 .f32) (ix2 0 q) = (V c (Pipeline.arrRef spec6 3) : S1x64.Idx → EReal) (ix2 0 q) := by
  obtain ⟨-, -, -, -, -, -, -, -, e0, e1, -, -⟩ := blockIndex6 t
  unfold iblk6
  rw [View.read_apply]
  refine congrArg (V c (Pipeline.arrRef spec6 3) : S1x64.Idx → EReal) ?_
  funext a
  apply Fin.ext
  match a with
  | ⟨0, _⟩ => show win6_3.index t 0 * 1 + 1 * 0 = 0; rw [e0]
  | ⟨1, _⟩ => show win6_3.index t 1 * 64 + 1 * q.val = q.val; rw [e1]; omega

/-- The shift row window shows the whole row at every point. -/
theorem rowBlock6_4_apply (c : Dev nD) (t : Fin cfg6.N) (q : Fin 64) :
    (iblk6 V c 4 t : Vec Ideal S1x64 .f32) (ix2 0 q) = (V c (Pipeline.arrRef spec6 4) : S1x64.Idx → EReal) (ix2 0 q) := by
  obtain ⟨-, -, -, -, -, -, -, -, -, -, e0, e1⟩ := blockIndex6 t
  unfold iblk6
  rw [View.read_apply]
  refine congrArg (V c (Pipeline.arrRef spec6 4) : S1x64.Idx → EReal) ?_
  funext a
  apply Fin.ext
  match a with
  | ⟨0, _⟩ => show win6_4.index t 0 * 1 + 1 * 0 = 0; rw [e0]
  | ⟨1, _⟩ => show win6_4.index t 1 * 64 + 1 * q.val = q.val; rw [e1]; omega

/-- What point t writes back is block t of the region's output function. The body's one store leaves its payload
    over the whole block; at entry (p, q) the payload is batch normalisation of the blocks, which reads the matrix
    block at (p, q) and the four rows at q; the matrix block's entry (p, q) is the matrix entry in row
    t * 5000 + p, which is where the output block's entry (p, q) lies in the output array. -/
theorem flushed6_eq (c : Dev nD) (t : Fin cfg6.N) :
    (dat6 V c).flushed 5 t = ((cfg6.win 5).blk t).view.read (Elt Ideal) (bnArr6 V c) := by
  show (cfg6.win 5).cut (grid6.coords t) ((dat6 V c).after 5 t) = _
  rw [after6_5]
  unfold out6_5
  rw [View.canon_unit_zero origin6]
  simp only [View.ld_unit_zero (S := S5000x64) origin6, View.ld_unit_zero (S := S1x64) origin6]
  obtain ⟨-, -, e0, e1, -⟩ := blockIndex6 t
  funext y
  obtain ⟨p, q, rfl⟩ : ∃ (p : Fin 5000) (q : Fin 64), y = ix2 p q := ⟨y 0, y 1, eq_ix2 y⟩
  show k6_pay1 (iblk6 V c 1 t) (iblk6 V c 2 t) (iblk6 V c 0 t) (iblk6 V c 3 t) (iblk6 V c 4 t) (ix2 p q)
    = bnArr6 V c (((cfg6.win 5).blk t).view.emb (ix2 p q))
  refine (Cert.KernelIdeal.PayVal.k6_pay1_apply _ _ _ _ _ p q).trans ?_
  unfold bnArr6
  have hrow : ((((cfg6.win 5).blk t).view.emb (ix2 p q) : S50000x64.Idx) 0).val = t.val * 5000 + p.val := by
    show win6_5.index t 0 * 5000 + 1 * p.val = _; rw [e0]; omega
  have hcol : ((((cfg6.win 5).blk t).view.emb (ix2 p q) : S50000x64.Idx) 1).val = q.val := by
    show win6_5.index t 1 * 64 + 1 * q.val = _; rw [e1]; omega
  have hq : ((((cfg6.win 5).blk t).view.emb (ix2 p q) : S50000x64.Idx) 1) = q := Fin.ext hcol
  rw [hq]
  refine bnEntry6 _ _ _ _ _ _ _ _ _ _ _ _ _ _ q ?_ ?_ ?_ ?_ ?_
  · exact (matBlock6_apply V c t p q _ hrow hcol).trans (congrArg _ (Shape.idx_ext₂ rfl hcol))
  · exact rowBlock6_1_apply V c t q
  · exact rowBlock6_2_apply V c t q
  · exact rowBlock6_3_apply V c t q
  · exact rowBlock6_4_apply V c t q

/-- An index of the output array lies in point t's block exactly when each coordinate lies in the block's range. -/
theorem mem_blk6 (t : Fin cfg6.N) (i : S50000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole (Pipeline.arrRef spec6 5)).slice (win6_5.rect t)).set ↔ _
  rw [View.set_slice_whole, Rect.mem_set_unit]
  exact Iff.rfl

/-- Every index of the output array lies in the block of a point that writes back: row r lies in the block of
    point r / 5000, and the one column block spans all 64 columns. -/
theorem cover6 (i : S50000x64.Idx) :
    ∃ t : Fin cfg6.N, (cfg6.win 5).flush t = true ∧ i ∈ ((cfg6.win 5).blk t).view.set := by
  have h0 : (i 0).val < 50000 := (i 0).isLt
  have h1 : (i 1).val < 64 := (i 1).isLt
  have hN : grid6.N = 10 := N_6
  let t : Fin cfg6.N := ⟨(i 0).val / 5000, by show _ < grid6.N; rw [hN]; omega⟩
  obtain ⟨-, -, e0, e1, -⟩ := blockIndex6 t
  have ht : t.val = (i 0).val / 5000 := rfl
  refine ⟨t, flush6_5 t, ?_⟩
  rw [mem_blk6]
  intro a
  match a with
  | ⟨0, _⟩ => show win6_5.index t 0 * 5000 ≤ (i 0).val ∧ (i 0).val < win6_5.index t 0 * 5000 + 5000; rw [e0, ht]; omega
  | ⟨1, _⟩ => show win6_5.index t 1 * 64 ≤ (i 1).val ∧ (i 1).val < win6_5.index t 1 * 64 + 64; rw [e1]; omega

/-- The output array after the region's last write-back is the region's output function of the input arrays. -/
theorem arrAt6_eq (c : Dev nD) : (dat6 (F := Ideal) V c).arrAt 5 cfg6.N = bnArr6 V c :=
  (dat6 V c).arrAt_eq_of_cover 5 (bnArr6 V c) (fun t _ => flushed6_eq V c t) (cover6)

/-- Entry (i, j) of the output array after the region: batch normalisation with the positive part of the matrix
    the region finds in its first window, by the statistics, scale and shift rows it finds in the next four. -/
theorem arrAt6_apply (c : Dev nD) (i : Fin 50000) (j : Fin 64) :
    (dat6 (F := Ideal) V c).arrAt 5 cfg6.N (ix2 i j)
      = bnStats (Named.named (F := Ideal) κ "inv_50000" (φ := .f32) 0x37A7C5AC#32) (Ideal.ofBits .f32 0x3727C5AC#32)
          (fun i j => V c (Pipeline.arrRef spec6 0) (ix2 i j)) (fun j => V c (Pipeline.arrRef spec6 1) (ix2 0 j))
          (fun j => V c (Pipeline.arrRef spec6 2) (ix2 0 j)) (fun j => V c (Pipeline.arrRef spec6 3) (ix2 0 j))
          (fun j => V c (Pipeline.arrRef spec6 4) (ix2 0 j)) i j := by
  rw [arrAt6_eq]
  rfl

end Cert.KernelIdeal.Val
end
-- ==== Proof.KI.Layer1.lean ====
/-
  The kernel side of layer 1 as one equation.  The layer is three kernel regions with host stretches between them.  The
  first leaves the linear map of the mixed features and that matrix's column sums and column sums of squares; the
  second normalises by those statistics, takes the positive part, applies the second linear map and leaves its two
  column statistics; the third normalises by them.  Each region's arrays are read through its value lemma at the
  contents it is entered with; what it is entered with is, window by window, what the region before left (the host
  stretch in between does not write it) or a row of a stacked parameter that nothing writes.  Chaining the three
  gives the layer's output as one layer by column statistics of the features the layer before left.  Every intermediate
  matrix is kept under a name, and each step is a congruence on the entries an expression reads; nothing is unfolded.
-/
import proofs.«140206_j52750788330061_1_alg».proof.Proof.KI.Fold
import proofs.«140206_j52750788330061_1_alg».proof.Proof.KI.Glue.Layer1
import proofs.«140206_j52750788330061_1_alg».proof.Proof.KI.ValLib
import proofs.«140206_j52750788330061_1_alg».proof.Proof.KI.Val4
import proofs.«140206_j52750788330061_1_alg».proof.Proof.KI.Val5
import proofs.«140206_j52750788330061_1_alg».proof.Proof.KI.Val6
import proofs.«140206_j52750788330061_1_alg».proof.Proof.Agg
import proofs.«140206_j52750788330061_1_alg».proof.Proof.Spec
import Idealize.ShloMosaic.Lib.ValueIdx

noncomputable section

namespace Cert.KernelIdeal.Net

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Glue Cert.Spec

variable (m : (ℓ : Loc nD τ sig) → Buf (Elt Ideal) ℓ) (c : Dev nD)

/-- The reciprocal of the row count and the variance offset, as the program spells them. -/
abbrev INV_L1 : EReal := Named.named (F := Ideal) κ "inv_50000" (φ := .f32) 0x37A7C5AC#32
abbrev EPS_L1 : EReal := Ideal.ofBits .f32 0x3727C5AC#32

/-! ## Layer 1's operands, off the launch memory and the features the layer before left -/

/-- The self-weight row: one plus entry 1 of the self-weights, in every column. -/
def e_L1 : Row := fun _ => 1 + (m ((c : Thread nD τ).loc main_arg6) : S4.Idx → EReal) (ix1 1)
/-- The node features the layer is entered with. -/
def h_L1 : Mat 50000 64 := fun i j => (X8 m c main_v46 : S50000x64.Idx → EReal) (ix2 i j)
/-- Their sums over each node's neighbours along the edge list. -/
def ag_L1 : Mat 50000 64 := fun i j => Cert.Agg.aggOf (X8 m c main_v46) (m ((c : Thread nD τ).loc main_arg2)) (ix2 i j)
/-- The layer's two weight matrices and its bias, scale and shift rows: matrix 1, row 1 of the stacked parameters. -/
def w1_L1 : Mat 64 64 := fun t j => (m ((c : Thread nD τ).loc main_arg7) : S4x64x64.Idx → EReal) (ix3 1 t j)
def b1_L1 : Row := fun j => (m ((c : Thread nD τ).loc main_arg8) : S4x64.Idx → EReal) (ix2 1 j)
def g1_L1 : Row := fun j => (m ((c : Thread nD τ).loc main_arg9) : S4x64.Idx → EReal) (ix2 1 j)
def be1_L1 : Row := fun j => (m ((c : Thread nD τ).loc main_arg10) : S4x64.Idx → EReal) (ix2 1 j)
def w2_L1 : Mat 64 64 := fun t j => (m ((c : Thread nD τ).loc main_arg11) : S4x64x64.Idx → EReal) (ix3 1 t j)
def b2_L1 : Row := fun j => (m ((c : Thread nD τ).loc main_arg12) : S4x64.Idx → EReal) (ix2 1 j)
def g2_L1 : Row := fun j => (m ((c : Thread nD τ).loc main_arg13) : S4x64.Idx → EReal) (ix2 1 j)
def be2_L1 : Row := fun j => (m ((c : Thread nD τ).loc main_arg14) : S4x64.Idx → EReal) (ix2 1 j)

/-! ## The layer's intermediate matrices, named -/

/-- The first linear map of the mixed features. -/
def z1_L1 : Mat 50000 64 := affine (mix (e_L1 m c) (h_L1 m c) (ag_L1 m c)) (w1_L1 m c) (b1_L1 m c)
/-- Its batch normalisation by its own column statistics, positive part. -/
def a1_L1 : Mat 50000 64 := bnStats INV_L1 EPS_L1 (z1_L1 m c) (colSum (z1_L1 m c)) (colSumSq (z1_L1 m c)) (g1_L1 m c) (be1_L1 m c)
/-- The second linear map. -/
def z2_L1 : Mat 50000 64 := affine (a1_L1 m c) (w2_L1 m c) (b2_L1 m c)

/-! ## Arrays read as matrices and rows -/

/-- A `[50000,64]` array as a matrix, a `[1,64]` array as its row, a `[64,64]` array as a matrix. -/
abbrev mat_L1 (X : S50000x64.Idx → EReal) : Mat 50000 64 := fun i j => X (ix2 i j)
abbrev row_L1 (X : S1x64.Idx → EReal) : Row := fun j => X (ix2 0 j)
abbrev sqm_L1 (X : S64x64.Idx → EReal) : Mat 64 64 := fun t j => X (ix2 t j)

/-! ## What each region's value lemma reads its entry contents as -/

/-- Region 1's affine matrix, read off the contents `V` the region is entered with. -/
abbrev z1V_L1 (V : (c : Dev nD) → (b : Ref sig .tc) → Buf (Elt Ideal) ((c : Thread nD τ).loc b)) (c : Dev nD) : Mat 50000 64 :=
  affine (mix (row_L1 (V c main_v64)) (mat_L1 (V c main_v46)) (mat_L1 (V c main_v56))) (sqm_L1 (V c main_v60)) (row_L1 (V c main_v65))

/-- Region 2's affine matrix, read off the contents `V` the region is entered with. -/
abbrev z2V_L1 (V : (c : Dev nD) → (b : Ref sig .tc) → Buf (Elt Ideal) ((c : Thread nD τ).loc b)) (c : Dev nD) : Mat 50000 64 :=
  affine (bnStats INV_L1 EPS_L1 (mat_L1 (V c main_v66_0)) (row_L1 (V c main_v66_1)) (row_L1 (V c main_v66_2)) (row_L1 (V c main_v75)) (row_L1 (V c main_v76)))
    (sqm_L1 (V c main_v72)) (row_L1 (V c main_v77))

/-! ## Region 1: the first linear map and its two column statistics -/

/-! What region 1 is entered with (`X9`), window by window, as the layer's operands. -/
theorem e_atA_L1 (t : Fin 64) : row_L1 (X9 m c main_v64) t = e_L1 m c t := X9_epsb m c 0 t
theorem h_atA_L1 (i : Fin 50000) (t : Fin 64) : mat_L1 (X9 m c main_v46) i t = h_L1 m c i t := congrFun (X9_h m c) (ix2 i t)
theorem ag_atA_L1 (i : Fin 50000) (t : Fin 64) : mat_L1 (X9 m c main_v56) i t = ag_L1 m c i t := by
  unfold ag_L1; rw [X9_agg, Cert.Agg.aggK_eq_aggOf]
theorem w1_atA_L1 (t q : Fin 64) : sqm_L1 (X9 m c main_v60) t q = w1_L1 m c t q := X9_W1 m c t q
theorem b1_atA_L1 (q : Fin 64) : row_L1 (X9 m c main_v65) q = b1_L1 m c q := X9_b1 m c 0 q

/-- So region 1's affine matrix is the layer's first linear map. -/
theorem z1_entry_L1 (i : Fin 50000) (j : Fin 64) : z1V_L1 (tcOf (X9 m)) c i j = z1_L1 m c i j :=
  Cert.ValLib.affine_mix_congr (row_L1 (X9 m c main_v64)) (e_L1 m c) (mat_L1 (X9 m c main_v46)) (mat_L1 (X9 m c main_v56)) (h_L1 m c) (ag_L1 m c)
    (sqm_L1 (X9 m c main_v60)) (w1_L1 m c) (row_L1 (X9 m c main_v65)) (b1_L1 m c) i i
    (e_atA_L1 m c) (h_atA_L1 m c i) (ag_atA_L1 m c i) (w1_atA_L1 m c) (b1_atA_L1 m c) j

theorem z1_fun_L1 : z1V_L1 (tcOf (X9 m)) c = z1_L1 m c := funext fun i => funext fun j => z1_entry_L1 m c i j

/-- What region 1 leaves in its three output arrays. -/
theorem xa_z_L1 : X10 m c main_v66_0 = (dat4 (F := Ideal) (tcOf (X9 m)) c).arrAt 5 cfg4.N := by
  unfold X10; exact upd3_a _ _ _ _ _ _ _ (by decide) (by decide)
theorem xa_s_L1 : X10 m c main_v66_1 = (dat4 (F := Ideal) (tcOf (X9 m)) c).arrAt 6 cfg4.N := by
  unfold X10; exact upd3_b _ _ _ _ _ _ _ (by decide)
theorem xa_ss_L1 : X10 m c main_v66_2 = (dat4 (F := Ideal) (tcOf (X9 m)) c).arrAt 7 cfg4.N := by
  unfold X10; exact upd3_c _ _ _ _ _ _ _

theorem ra_z_L1 (i : Fin 50000) (j : Fin 64) : mat_L1 (X10 m c main_v66_0) i j = z1_L1 m c i j := by
  rw [xa_z_L1]; exact (Cert.KernelIdeal.Val.arrAt4_z (tcOf (X9 m)) c i j).trans (z1_entry_L1 m c i j)
theorem ra_s_L1 (j : Fin 64) : row_L1 (X10 m c main_v66_1) j = colSum (z1_L1 m c) j := by
  rw [xa_s_L1]; exact (Cert.KernelIdeal.Val.arrAt4_s (tcOf (X9 m)) c j).trans (congrArg (fun y => colSum y j) (z1_fun_L1 m c))
theorem ra_ss_L1 (j : Fin 64) : row_L1 (X10 m c main_v66_2) j = colSumSq (z1_L1 m c) j := by
  rw [xa_ss_L1]; exact (Cert.KernelIdeal.Val.arrAt4_ss (tcOf (X9 m)) c j).trans (congrArg (fun y => colSumSq y j) (z1_fun_L1 m c))

/-! ## Region 2: the normalised activations and the second linear map -/

/-! What region 2 is entered with (`X11`): region 1's three arrays, carried through the host stretch, and row 1 / matrix 1
    of the next parameters. -/
theorem z_atB_L1 (i : Fin 50000) (t : Fin 64) : mat_L1 (X11 m c main_v66_0) i t = z1_L1 m c i t :=
  (congrFun (X11_z m c) (ix2 i t)).trans (ra_z_L1 m c i t)
theorem s_atB_L1 (t : Fin 64) : row_L1 (X11 m c main_v66_1) t = colSum (z1_L1 m c) t :=
  (congrFun (X11_s m c) (ix2 0 t)).trans (ra_s_L1 m c t)
theorem ss_atB_L1 (t : Fin 64) : row_L1 (X11 m c main_v66_2) t = colSumSq (z1_L1 m c) t :=
  (congrFun (X11_ss m c) (ix2 0 t)).trans (ra_ss_L1 m c t)
theorem g1_atB_L1 (t : Fin 64) : row_L1 (X11 m c main_v75) t = g1_L1 m c t := X11_g1 m c 0 t
theorem be1_atB_L1 (t : Fin 64) : row_L1 (X11 m c main_v76) t = be1_L1 m c t := X11_be1 m c 0 t
theorem w2_atB_L1 (t q : Fin 64) : sqm_L1 (X11 m c main_v72) t q = w2_L1 m c t q := X11_W2 m c t q
theorem b2_atB_L1 (q : Fin 64) : row_L1 (X11 m c main_v77) q = b2_L1 m c q := X11_b2 m c 0 q

/-- Region 2 normalises what region 1 left by region 1's own column statistics. -/
theorem a1_entry_L1 (i : Fin 50000) (t : Fin 64) :
    bnStats INV_L1 EPS_L1 (mat_L1 (X11 m c main_v66_0)) (row_L1 (X11 m c main_v66_1)) (row_L1 (X11 m c main_v66_2)) (row_L1 (X11 m c main_v75)) (row_L1 (X11 m c main_v76)) i t
      = a1_L1 m c i t :=
  Cert.ValLib.bnStats_congr INV_L1 EPS_L1 (mat_L1 (X11 m c main_v66_0)) (z1_L1 m c) (row_L1 (X11 m c main_v66_1)) (colSum (z1_L1 m c))
    (row_L1 (X11 m c main_v66_2)) (colSumSq (z1_L1 m c)) (row_L1 (X11 m c main_v75)) (g1_L1 m c) (row_L1 (X11 m c main_v76)) (be1_L1 m c) i i t
    (z_atB_L1 m c i t) (s_atB_L1 m c t) (ss_atB_L1 m c t) (g1_atB_L1 m c t) (be1_atB_L1 m c t)

/-- So region 2's affine matrix is the layer's second linear map. -/
theorem z2_entry_L1 (i : Fin 50000) (j : Fin 64) : z2V_L1 (tcOf (X11 m)) c i j = z2_L1 m c i j :=
  Cert.ValLib.affine_congr
    (bnStats INV_L1 EPS_L1 (mat_L1 (X11 m c main_v66_0)) (row_L1 (X11 m c main_v66_1)) (row_L1 (X11 m c main_v66_2)) (row_L1 (X11 m c main_v75)) (row_L1 (X11 m c main_v76)))
    (a1_L1 m c) (sqm_L1 (X11 m c main_v72)) (w2_L1 m c) (row_L1 (X11 m c main_v77)) (b2_L1 m c) i i
    (a1_entry_L1 m c i) (w2_atB_L1 m c) (b2_atB_L1 m c) j

theorem z2_fun_L1 : z2V_L1 (tcOf (X11 m)) c = z2_L1 m c := funext fun i => funext fun j => z2_entry_L1 m c i j

/-- What region 2 leaves in its three output arrays. -/
theorem xb_z_L1 : X12 m c main_v78_0 = (dat5 (F := Ideal) (tcOf (X11 m)) c).arrAt 7 cfg5.N := by
  unfold X12; exact upd3_a _ _ _ _ _ _ _ (by decide) (by decide)
theorem xb_s_L1 : X12 m c main_v78_1 = (dat5 (F := Ideal) (tcOf (X11 m)) c).arrAt 8 cfg5.N := by
  unfold X12; exact upd3_b _ _ _ _ _ _ _ (by decide)
theorem xb_ss_L1 : X12 m c main_v78_2 = (dat5 (F := Ideal) (tcOf (X11 m)) c).arrAt 9 cfg5.N := by
  unfold X12; exact upd3_c _ _ _ _ _ _ _

theorem rb_z_L1 (i : Fin 50000) (j : Fin 64) : mat_L1 (X12 m c main_v78_0) i j = z2_L1 m c i j := by
  rw [xb_z_L1]; exact (Cert.KernelIdeal.Val.arrAt5_z (tcOf (X11 m)) c i j).trans (z2_entry_L1 m c i j)
theorem rb_s_L1 (j : Fin 64) : row_L1 (X12 m c main_v78_1) j = colSum (z2_L1 m c) j := by
  rw [xb_s_L1]; exact (Cert.KernelIdeal.Val.arrAt5_s (tcOf (X11 m)) c j).trans (congrArg (fun y => colSum y j) (z2_fun_L1 m c))
theorem rb_ss_L1 (j : Fin 64) : row_L1 (X12 m c main_v78_2) j = colSumSq (z2_L1 m c) j := by
  rw [xb_ss_L1]; exact (Cert.KernelIdeal.Val.arrAt5_ss (tcOf (X11 m)) c j).trans (congrArg (fun y => colSumSq y j) (z2_fun_L1 m c))

/-! ## Region 3: the layer's output -/

/-! What region 3 is entered with (`X13`): region 2's three arrays and row 1 of the second scale and shift. -/
theorem z_atC_L1 (i : Fin 50000) (j : Fin 64) : mat_L1 (X13 m c main_v78_0) i j = z2_L1 m c i j :=
  (congrFun (X13_z m c) (ix2 i j)).trans (rb_z_L1 m c i j)
theorem s_atC_L1 (j : Fin 64) : row_L1 (X13 m c main_v78_1) j = colSum (z2_L1 m c) j :=
  (congrFun (X13_s m c) (ix2 0 j)).trans (rb_s_L1 m c j)
theorem ss_atC_L1 (j : Fin 64) : row_L1 (X13 m c main_v78_2) j = colSumSq (z2_L1 m c) j :=
  (congrFun (X13_ss m c) (ix2 0 j)).trans (rb_ss_L1 m c j)
theorem g2_atC_L1 (j : Fin 64) : row_L1 (X13 m c main_v83) j = g2_L1 m c j := X13_g2 m c 0 j
theorem be2_atC_L1 (j : Fin 64) : row_L1 (X13 m c main_v84) j = be2_L1 m c j := X13_be2 m c 0 j

/-- What region 3 leaves in its output array. -/
theorem xc_out_L1 : X14 m c main_v85 = (dat6 (F := Ideal) (tcOf (X13 m)) c).arrAt 5 cfg6.N := by
  unfold X14; exact upd1_a _ _ _

/-- The layer's output, over the named intermediates. -/
theorem layer1_named (i : Fin 50000) (j : Fin 64) :
    mat_L1 (X14 m c main_v85) i j
      = bnStats INV_L1 EPS_L1 (z2_L1 m c) (colSum (z2_L1 m c)) (colSumSq (z2_L1 m c)) (g2_L1 m c) (be2_L1 m c) i j := by
  rw [xc_out_L1]
  exact (Cert.KernelIdeal.Val.arrAt6_apply (tcOf (X13 m)) c i j).trans
    (Cert.ValLib.bnStats_congr INV_L1 EPS_L1 (mat_L1 (X13 m c main_v78_0)) (z2_L1 m c) (row_L1 (X13 m c main_v78_1)) (colSum (z2_L1 m c))
      (row_L1 (X13 m c main_v78_2)) (colSumSq (z2_L1 m c)) (row_L1 (X13 m c main_v83)) (g2_L1 m c) (row_L1 (X13 m c main_v84)) (be2_L1 m c) i i j
      (z_atC_L1 m c i j) (s_atC_L1 m c j) (ss_atC_L1 m c j) (g2_atC_L1 m c j) (be2_atC_L1 m c j))

/-- THE KERNEL SIDE OF LAYER 1 AS ONE EQUATION: what region 3 leaves, entry by entry, is one layer by column statistics of
    the features the layer before left, their neighbour sums, and matrix 1 / row 1 of the stacked parameters. -/
theorem layer1 (i : Fin 50000) (j : Fin 64) :
    (X14 m c main_v85 : S50000x64.Idx → EReal) (ix2 i j)
      = Cert.Spec.layerStats INV_L1 EPS_L1
          (fun _ => 1 + (m ((c : Thread nD τ).loc main_arg6) : S4.Idx → EReal) (ix1 1))
          (fun i j => (X8 m c main_v46 : S50000x64.Idx → EReal) (ix2 i j))
          (fun i j => Cert.Agg.aggOf (X8 m c main_v46) (m ((c : Thread nD τ).loc main_arg2)) (ix2 i j))
          (fun t j => (m ((c : Thread nD τ).loc main_arg7) : S4x64x64.Idx → EReal) (ix3 1 t j))
          (fun j => (m ((c : Thread nD τ).loc main_arg8) : S4x64.Idx → EReal) (ix2 1 j))
          (fun j => (m ((c : Thread nD τ).loc main_arg9) : S4x64.Idx → EReal) (ix2 1 j))
          (fun j => (m ((c : Thread nD τ).loc main_arg10) : S4x64.Idx → EReal) (ix2 1 j))
          (fun t j => (m ((c : Thread nD τ).loc main_arg11) : S4x64x64.Idx → EReal) (ix3 1 t j))
          (fun j => (m ((c : Thread nD τ).loc main_arg12) : S4x64.Idx → EReal) (ix2 1 j))
          (fun j => (m ((c : Thread nD τ).loc main_arg13) : S4x64.Idx → EReal) (ix2 1 j))
          (fun j => (m ((c : Thread nD τ).loc main_arg14) : S4x64.Idx → EReal) (ix2 1 j)) i j :=
  layer1_named m c i j

end Cert.KernelIdeal.Net
end
-- ==== Proof.KI.Glue.Host7.lean ====
/-
  The host operations before layer 2's first region, read back over whatever contents they are entered with: the bias
  row and the weight matrix are row 2 and matrix 2 of the stacked parameters, the self-weight row is one plus entry 2
  of the self-weights in every column, and the neighbour sum is the composed gather and scatter-add along the two
  vectors of node numbers found in the incoming contents.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The bias row of the first linear map: row 2 of the stack of bias rows. -/
theorem host7_b1 (u : Fin 1) (j : Fin 64) :
    (StableHlo.after hostOps7 Y main_v104 : S1x64.Idx → EReal) (ix2 u j) = (Y main_arg8 : S4x64.Idx → EReal) (ix2 2 j) := by
  have e : (StableHlo.after hostOps7 Y main_v104 : S1x64.Idx → EReal)
      = shapeCast S1x64 (shapeCast S64 (extractStridedSlice S1x64 ![2, 0] (Y main_arg8 : S4x64.Idx → EReal)
          slices_S4x64_S1x64_2_0) shapeCasts_S1x64_S64) shapeCasts_S64_S1x64 := by
    dsimp only [hostOps7]; after_results; rfl
  rw [e, shapeCast_a_1a_apply, shapeCast_1a_a_apply, row_slice_apply 2 (by decide)]
  rfl

/-- The weight matrix of the first linear map: matrix 2 of the stack. -/
theorem host7_W1 (t j : Fin 64) :
    (StableHlo.after hostOps7 Y main_v99 : S64x64.Idx → EReal) (ix2 t j) = (Y main_arg7 : S4x64x64.Idx → EReal) (ix3 2 t j) := by
  have e : (StableHlo.after hostOps7 Y main_v99 : S64x64.Idx → EReal)
      = shapeCast S64x64 (extractStridedSlice S1x64x64 ![2, 0, 0] (Y main_arg7 : S4x64x64.Idx → EReal)
          slices_S4x64x64_S1x64x64_2_0_0) shapeCasts_S1x64x64_S64x64 := by
    dsimp only [hostOps7]; after_results; rfl
  rw [e, shapeCast_1ab_ab_apply, mat_slice_apply 2 (by decide)]
  rfl

/-- The self-weight row: one plus entry 2 of the vector of self-weights, in every column. -/
theorem host7_epsb (u : Fin 1) (j : Fin 64) :
    (StableHlo.after hostOps7 Y main_v103 : S1x64.Idx → EReal) (ix2 u j)
      = ((1 : EReal) + (Y main_arg6 : S4.Idx → EReal) (ix1 2) : EReal) := by
  have e : (StableHlo.after hostOps7 Y main_v103 : S1x64.Idx → EReal)
      = broadcastInDim S1x64 ![] bcast_S_S1x64 (addf (constant (F := Ideal) S_ .f32 0x3F800000#32)
          (shapeCast S_ (extractStridedSlice S1 ![2] (Y main_arg6 : S4.Idx → EReal) slices_S4_S1_2) shapeCasts_S1_S_)) := by
    dsimp only [hostOps7]; after_results; rfl
  rw [e, spread_number_apply, addf_apply, constant_apply, Ideal.ofBits_one_f32, number_of_vec1_apply,
    entry_slice_apply 2 (by decide)]
  rfl

/-- The neighbour sum of the features the stretch is entered with, along the node-number vectors it is entered with. -/
theorem host7_agg :
    (StableHlo.after hostOps7 Y main_v95 : (⟨S50000x64, .f32⟩ : BufTy).Contents (Elt Ideal))
      = aggFrom (Y main_v85) (Y main_v4) (Y main_v6) := by
  dsimp only [hostOps7]; after_results_simp; try rfl

end Cert.KernelIdeal.Glue

end
-- ==== Proof.KI.Glue.Host8.lean ====
/-
  The host operations before layer 2's second region, read back over whatever contents they are entered with: the
  scale and shift rows of the first normalisation, the second weight matrix and its bias row are row 2, or matrix 2, of
  the stacked parameters.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The scale row of the first normalisation: row 2 of the stack. -/
theorem host8_g1 (u : Fin 1) (j : Fin 64) :
    (StableHlo.after hostOps8 Y main_v114 : S1x64.Idx → EReal) (ix2 u j) = (Y main_arg9 : S4x64.Idx → EReal) (ix2 2 j) := by
  have e : (StableHlo.after hostOps8 Y main_v114 : S1x64.Idx → EReal)
      = shapeCast S1x64 (shapeCast S64 (extractStridedSlice S1x64 ![2, 0] (Y main_arg9 : S4x64.Idx → EReal)
          slices_S4x64_S1x64_2_0) shapeCasts_S1x64_S64) shapeCasts_S64_S1x64 := by
    dsimp only [hostOps8]; after_results; rfl
  rw [e, shapeCast_a_1a_apply, shapeCast_1a_a_apply, row_slice_apply 2 (by decide)]
  rfl

/-- The shift row of the first normalisation: row 2 of the stack. -/
theorem host8_be1 (u : Fin 1) (j : Fin 64) :
    (StableHlo.after hostOps8 Y main_v115 : S1x64.Idx → EReal) (ix2 u j) = (Y main_arg10 : S4x64.Idx → EReal) (ix2 2 j) := by
  have e : (StableHlo.after hostOps8 Y main_v115 : S1x64.Idx → EReal)
      = shapeCast S1x64 (shapeCast S64 (extractStridedSlice S1x64 ![2, 0] (Y main_arg10 : S4x64.Idx → EReal)
          slices_S4x64_S1x64_2_0) shapeCasts_S1x64_S64) shapeCasts_S64_S1x64 := by
    dsimp only [hostOps8]; after_results; rfl
  rw [e, shapeCast_a_1a_apply, shapeCast_1a_a_apply, row_slice_apply 2 (by decide)]
  rfl

/-- The weight matrix of the second linear map: matrix 2 of the stack. -/
theorem host8_W2 (t j : Fin 64) :
    (StableHlo.after hostOps8 Y main_v111 : S64x64.Idx → EReal) (ix2 t j) = (Y main_arg11 : S4x64x64.Idx → EReal) (ix3 2 t j) := by
  have e : (StableHlo.after hostOps8 Y main_v111 : S64x64.Idx → EReal)
      = shapeCast S64x64 (extractStridedSlice S1x64x64 ![2, 0, 0] (Y main_arg11 : S4x64x64.Idx → EReal)
          slices_S4x64x64_S1x64x64_2_0_0) shapeCasts_S1x64x64_S64x64 := by
    dsimp only [hostOps8]; after_results; rfl
  rw [e, shapeCast_1ab_ab_apply, mat_slice_apply 2 (by decide)]
  rfl

/-- The bias row of the second linear map: row 2 of the stack. -/
theorem host8_b2 (u : Fin 1) (j : Fin 64) :
    (StableHlo.after hostOps8 Y main_v116 : S1x64.Idx → EReal) (ix2 u j) = (Y main_arg12 : S4x64.Idx → EReal) (ix2 2 j) := by
  have e : (StableHlo.after hostOps8 Y main_v116 : S1x64.Idx → EReal)
      = shapeCast S1x64 (shapeCast S64 (extractStridedSlice S1x64 ![2, 0] (Y main_arg12 : S4x64.Idx → EReal)
          slices_S4x64_S1x64_2_0) shapeCasts_S1x64_S64) shapeCasts_S64_S1x64 := by
    dsimp only [hostOps8]; after_results; rfl
  rw [e, shapeCast_a_1a_apply, shapeCast_1a_a_apply, row_slice_apply 2 (by decide)]
  rfl

end Cert.KernelIdeal.Glue

end
-- ==== Proof.KI.Glue.Host9.lean ====
/-
  The host operations before layer 2's third region, read back over whatever contents they are entered with: the
  scale and shift rows of the second normalisation are row 2 of the stacked parameters.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The scale row of the second normalisation: row 2 of the stack. -/
theorem host9_g2 (u : Fin 1) (j : Fin 64) :
    (StableHlo.after hostOps9 Y main_v122 : S1x64.Idx → EReal) (ix2 u j) = (Y main_arg13 : S4x64.Idx → EReal) (ix2 2 j) := by
  have e : (StableHlo.after hostOps9 Y main_v122 : S1x64.Idx → EReal)
      = shapeCast S1x64 (shapeCast S64 (extractStridedSlice S1x64 ![2, 0] (Y main_arg13 : S4x64.Idx → EReal)
          slices_S4x64_S1x64_2_0) shapeCasts_S1x64_S64) shapeCasts_S64_S1x64 := by
    dsimp only [hostOps9]; after_results; rfl
  rw [e, shapeCast_a_1a_apply, shapeCast_1a_a_apply, row_slice_apply 2 (by decide)]
  rfl

/-- The shift row of the second normalisation: row 2 of the stack. -/
theorem host9_be2 (u : Fin 1) (j : Fin 64) :
    (StableHlo.after hostOps9 Y main_v123 : S1x64.Idx → EReal) (ix2 u j) = (Y main_arg14 : S4x64.Idx → EReal) (ix2 2 j) := by
  have e : (StableHlo.after hostOps9 Y main_v123 : S1x64.Idx → EReal)
      = shapeCast S1x64 (shapeCast S64 (extractStridedSlice S1x64 ![2, 0] (Y main_arg14 : S4x64.Idx → EReal)
          slices_S4x64_S1x64_2_0) shapeCasts_S1x64_S64) shapeCasts_S64_S1x64 := by
    dsimp only [hostOps9]; after_results; rfl
  rw [e, shapeCast_a_1a_apply, shapeCast_1a_a_apply, row_slice_apply 2 (by decide)]
  rfl

end Cert.KernelIdeal.Glue

end
-- ==== Proof.KI.Glue.Layer2.lean ====
/-
  What layer 2's three regions are entered with, in terms of the launch memory and of what the region before left.
  A window that stages a previous region's output holds that output, since the host stretch in between does not write
  it.  A parameter window holds row 2 (or matrix 2) of the stacked parameter it was cut from, the parameter being an
  argument that nothing writes.  The self-weight row is one plus entry 2 of the self-weights.  The neighbour-sum window
  is the composed gather and scatter-add of the features the layer before left, along the edge list, whose two vectors
  of node numbers were cut before layer 0 and left alone since.
-/
import proofs.«140206_j52750788330061_1_alg».proof.Proof.KI.Glue.Edges
import proofs.«140206_j52750788330061_1_alg».proof.Proof.KI.Glue.Host7
import proofs.«140206_j52750788330061_1_alg».proof.Proof.KI.Glue.Host8
import proofs.«140206_j52750788330061_1_alg».proof.Proof.KI.Glue.Host9

noncomputable section

namespace Cert.KernelIdeal.Glue

open Idealize.ShloMosaic Idealize.ShloMosaic.TcCoe Idealize.ShloMosaic.ValueIdx
open Idealize.SL Idealize.SL.Sem
open Cert.KernelIdeal.Gen

variable (m : (ℓ : Loc nD τ sig) → Buf (Elt Ideal) ℓ) (c : Dev nD)

/-! ### The first region of layer 2 (region 7), entered at `X15` -/

/-- The features window: what region 6 left. -/
theorem X15_h : X15 m c main_v85 = X14 m c main_v85 := X15_of m c main_v85 (by decide)

/-- The neighbour-sum window. -/
theorem X15_agg :
    (X15 m c main_v95 : (⟨S50000x64, .f32⟩ : BufTy).Contents (Elt Ideal))
      = aggK (X14 m c main_v85) (m ((c : Thread nD τ).loc main_arg2)) :=
  (host7_agg (X14 m c)).trans (by rw [X14_src m c, X14_dst m c]; rfl)

/-- The self-weight window. -/
theorem X15_epsb (u : Fin 1) (j : Fin 64) :
    (X15 m c main_v103 : S1x64.Idx → EReal) (ix2 u j)
      = ((1 : EReal) + (m ((c : Thread nD τ).loc main_arg6) : S4.Idx → EReal) (ix1 2) : EReal) :=
  (host7_epsb (X14 m c) u j).trans (by rw [X14_launch m c main_arg6 (by decide)])

/-- The first weight window. -/
theorem X15_W1 (t j : Fin 64) :
    (X15 m c main_v99 : S64x64.Idx → EReal) (ix2 t j)
      = (m ((c : Thread nD τ).loc main_arg7) : S4x64x64.Idx → EReal) (ix3 2 t j) :=
  (host7_W1 (X14 m c) t j).trans (by rw [X14_launch m c main_arg7 (by decide)])

/-- The first bias window. -/
theorem X15_b1 (u : Fin 1) (j : Fin 64) :
    (X15 m c main_v104 : S1x64.Idx → EReal) (ix2 u j)
      = (m ((c : Thread nD τ).loc main_arg8) : S4x64.Idx → EReal) (ix2 2 j) :=
  (host7_b1 (X14 m c) u j).trans (by rw [X14_launch m c main_arg8 (by decide)])

/-! ### The second region of layer 2 (region 8), entered at `X17` -/

/-- The pre-activation window: what region 7 left. -/
theorem X17_z : X17 m c main_v105_0 = X16 m c main_v105_0 := X17_of m c main_v105_0 (by decide)
/-- The column-sum window: what region 7 left. -/
theorem X17_s : X17 m c main_v105_1 = X16 m c main_v105_1 := X17_of m c main_v105_1 (by decide)
/-- The column-sum-of-squares window: what region 7 left. -/
theorem X17_ss : X17 m c main_v105_2 = X16 m c main_v105_2 := X17_of m c main_v105_2 (by decide)

/-- The first scale window. -/
theorem X17_g1 (u : Fin 1) (j : Fin 64) :
    (X17 m c main_v114 : S1x64.Idx → EReal) (ix2 u j)
      = (m ((c : Thread nD τ).loc main_arg9) : S4x64.Idx → EReal) (ix2 2 j) :=
  (host8_g1 (X16 m c) u j).trans (by rw [X16_launch m c main_arg9 (by decide)])

/-- The first shift window. -/
theorem X17_be1 (u : Fin 1) (j : Fin 64) :
    (X17 m c main_v115 : S1x64.Idx → EReal) (ix2 u j)
      = (m ((c : Thread nD τ).loc main_arg10) : S4x64.Idx → EReal) (ix2 2 j) :=
  (host8_be1 (X16 m c) u j).trans (by rw [X16_launch m c main_arg10 (by decide)])

/-- The second weight window. -/
theorem X17_W2 (t j : Fin 64) :
    (X17 m c main_v111 : S64x64.Idx → EReal) (ix2 t j)
      = (m ((c : Thread nD τ).loc main_arg11) : S4x64x64.Idx → EReal) (ix3 2 t j) :=
  (host8_W2 (X16 m c) t j).trans (by rw [X16_launch m c main_arg11 (by decide)])

/-- The second bias window. -/
theorem X17_b2 (u : Fin 1) (j : Fin 64) :
    (X17 m c main_v116 : S1x64.Idx → EReal) (ix2 u j)
      = (m ((c : Thread nD τ).loc main_arg12) : S4x64.Idx → EReal) (ix2 2 j) :=
  (host8_b2 (X16 m c) u j).trans (by rw [X16_launch m c main_arg12 (by decide)])

/-! ### The third region of layer 2 (region 9), entered at `X19` -/

/-- The pre-activation window: what region 8 left. -/
theorem X19_z : X19 m c main_v117_0 = X18 m c main_v117_0 := X19_of m c main_v117_0 (by decide)
/-- The column-sum window: what region 8 left. -/
theorem X19_s : X19 m c main_v117_1 = X18 m c main_v117_1 := X19_of m c main_v117_1 (by decide)
/-- The column-sum-of-squares window: what region 8 left. -/
theorem X19_ss : X19 m c main_v117_2 = X18 m c main_v117_2 := X19_of m c main_v117_2 (by decide)

/-- The second scale window. -/
theorem X19_g2 (u : Fin 1) (j : Fin 64) :
    (X19 m c main_v122 : S1x64.Idx → EReal) (ix2 u j)
      = (m ((c : Thread nD τ).loc main_arg13) : S4x64.Idx → EReal) (ix2 2 j) :=
  (host9_g2 (X18 m c) u j).trans (by rw [X18_launch m c main_arg13 (by decide)])

/-- The second shift window. -/
theorem X19_be2 (u : Fin 1) (j : Fin 64) :
    (X19 m c main_v123 : S1x64.Idx → EReal) (ix2 u j)
      = (m ((c : Thread nD τ).loc main_arg14) : S4x64.Idx → EReal) (ix2 2 j) :=
  (host9_be2 (X18 m c) u j).trans (by rw [X18_launch m c main_arg14 (by decide)])

end Cert.KernelIdeal.Glue

end
-- ==== Proof.KI.Pay7.lean ====
/-
  The linear-with-statistics body, read at one entry on the extended reals.

  From the scale row e, the node block h, the neighbour block agg, the weight W and the bias b the body forms
  z = (e * h + agg) W + b on its 5000 x 64 row block; it adds the column sums of z to one running row and hands
  the column sums of z * z on to be added to a second running row; at the first grid point both running rows
  are set to zero.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The layer's product has the plain dimension numbers: left contracted on axis 1, right on axis 0. -/
theorem k7_dot_plain : dot_S5000x64_S64x64_S5000x64_1_0_0_1_n_n = DotDims.plain 5000 64 64 := rfl

/-- The block written back: the mixed features times the weight, plus the bias. -/
theorem k7_pay4_apply (v3 : Vec Ideal S1x64 .f32) (v5 : Vec Ideal S5000x64 .f32) (v9 : Vec Ideal S5000x64 .f32)
    (v13 : Vec Ideal S64x64 .f32) (v17 : Vec Ideal S1x64 .f32) (p : Fin 5000) (q : Fin 64) :
    Gen.k7_pay4 (F := Ideal) v3 v5 v9 v13 v17 (ix2 p q)
      = affine (mix (fun j => v3 (ix2 0 j)) (fun i j => v5 (ix2 i j)) (fun i j => v9 (ix2 i j)))
          (fun t j => v13 (ix2 t j)) (fun j => v17 (ix2 0 j)) p q := by
  unfold Gen.k7_pay4
  rw [addf_apply, k7_dot_plain, Cert.PayLib.plainProduct_apply, broadcastTo_1b_ab_apply]
  simp only [truncf_apply, addf_apply, mulf_apply, shapeCast_self, broadcastTo_1b_ab_apply]
  rfl

/-- The first running row after the body: its old value plus the column sums of the block. -/
theorem k7_pay5_apply (v3 : Vec Ideal S1x64 .f32) (v5 : Vec Ideal S5000x64 .f32) (v9 : Vec Ideal S5000x64 .f32)
    (v13 : Vec Ideal S64x64 .f32) (v17 : Vec Ideal S1x64 .f32) (v22 : Vec Ideal S1x64 .f32) (q : Fin 64) :
    Gen.k7_pay5 (F := Ideal) v3 v5 v9 v13 v17 v22 (ix2 0 q)
      = v22 (ix2 0 q) + colSum (fun i j => Gen.k7_pay4 (F := Ideal) v3 v5 v9 v13 v17 (ix2 i j)) q := by
  unfold Gen.k7_pay5
  dsimp only
  rw [shapeCast_self, addf_apply, shapeCast_a_1a_apply, Cert.PayLib.rowSum_apply]
  rfl

/-- The row handed on to the second running row: the column sums of the block's squares. -/
theorem k7_pay6_apply (v3 : Vec Ideal S1x64 .f32) (v5 : Vec Ideal S5000x64 .f32) (v9 : Vec Ideal S5000x64 .f32)
    (v13 : Vec Ideal S64x64 .f32) (v17 : Vec Ideal S1x64 .f32) (q : Fin 64) :
    Gen.k7_pay6 (F := Ideal) v3 v5 v9 v13 v17 (ix2 0 q)
      = colSumSq (fun i j => Gen.k7_pay4 (F := Ideal) v3 v5 v9 v13 v17 (ix2 i j)) q := by
  unfold Gen.k7_pay6
  dsimp only
  rw [shapeCast_a_1a_apply, Cert.PayLib.rowSum_apply]
  rfl

/-- The second running row after the body: its old value plus the row handed on. -/
theorem k7_pay1_apply (v29 : Vec Ideal S1x64 .f32) (v32 : FVec Ideal S1x64 .f32) (q : Fin 64) :
    Gen.k7_pay1 (F := Ideal) v29 v32 (ix2 0 q) = v29 (ix2 0 q) + v32 (ix2 0 q) := by
  unfold Gen.k7_pay1
  rw [shapeCast_self, addf_apply]

/-- At the first grid point the first running row is set to zero. -/
theorem k7_pay2_apply (q : Fin 64) : Gen.k7_pay2 (F := Ideal) (ix2 0 q) = 0 := by
  unfold Gen.k7_pay2
  rw [shapeCast_self, broadcast_apply]
  exact Ideal.ofBits_zero_f32

/-- At the first grid point the second running row is set to zero. -/
theorem k7_pay3_apply (q : Fin 64) : Gen.k7_pay3 (F := Ideal) (ix2 0 q) = 0 := by
  unfold Gen.k7_pay3
  rw [shapeCast_self, broadcast_apply]
  exact Ideal.ofBits_zero_f32

end Cert.KernelIdeal.PayVal

end
-- ==== Proof.KI.Val7.lean ====
/-
  From row blocks to whole arrays, for the linear-with-statistics region, on the extended reals.

  The region walks ten grid points; point t stages rows t * 5000 … t * 5000 + 4999 of the node features and of the
  neighbour features, and the whole of the scale row, the weight and the bias row.  What the body writes back at
  point t is therefore rows t * 5000 … of one matrix over all 50000 rows, the linear layer's output
  Z = (e * h + agg) W + b; the ten blocks tile the output array, so the array ends holding Z.  The two running rows
  start at zero, point t adds the column sums (the column sums of squares) of its rows of Z, and the last point alone
  writes them back; so the two statistics arrays end holding the column sums and the column sums of squares of Z.
-/
import proofs.«140206_j52750788330061_1_alg».proof.Proof.KI.Reg7
import proofs.«140206_j52750788330061_1_alg».proof.Proof.KI.Pay7
import proofs.«140206_j52750788330061_1_alg».proof.Proof.KI.ValLib
import proofs.«140206_j52750788330061_1_alg».proof.Proof.Spec
import proofs.«140206_j52750788330061_1_alg».proof.Proof.SpecAlg
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Spec

variable (V : (c : Dev nD) → (b : Ref sig .tc) → Buf (Elt Ideal) ((c : Thread nD τ).loc b))

/-! ## Where the windows' blocks lie -/

/-- Where the index maps put each window's block at grid point t: the three row-block windows (node features,
    neighbour features, output) at block row t, the five whole-array windows at the origin. -/
theorem idx7_facts : ∀ t : Fin cfg7.N,
    win7_0.index t 0 = t.val ∧ win7_0.index t 1 = 0 ∧ win7_1.index t 0 = t.val ∧ win7_1.index t 1 = 0
    ∧ win7_2.index t 0 = 0 ∧ win7_2.index t 1 = 0 ∧ win7_3.index t 0 = 0 ∧ win7_3.index t 1 = 0
    ∧ win7_4.index t 0 = 0 ∧ win7_4.index t 1 = 0 ∧ win7_5.index t 0 = t.val ∧ win7_5.index t 1 = 0
    ∧ win7_6.index t 0 = 0 ∧ win7_6.index t 1 = 0 ∧ win7_7.index t 0 = 0 ∧ win7_7.index t 1 = 0 :=
  (by decide +kernel : ∀ t : Fin grid7.N, _)

/-- Row p of block t is a row of the array. -/
theorem rows7_lt (t : Fin cfg7.N) (p : Fin 5000) : t.val * 5000 + p.val < 50000 := by
  have ht : t.val < 10 := lt_of_lt_of_eq t.isLt N_7
  have hp := p.isLt
  omega

/-- The node-feature block at point t is rows t * 5000 … of the node-feature array. -/
theorem iblk7_0_apply (c : Dev nD) (t : Fin cfg7.N) (p : Fin 5000) (q : Fin 64) :
    (iblk7 V c 0 t : Vec Ideal S5000x64 .f32) (ix2 p q)
      = V c (Pipeline.arrRef spec7 0) (ix2 ⟨t.val * 5000 + p.val, rows7_lt t p⟩ q) := by
  unfold iblk7
  rw [View.read_apply]
  show V c (Pipeline.arrRef spec7 0) _ = V c (Pipeline.arrRef spec7 0) _
  congr 1
  funext a
  apply Fin.ext
  obtain ⟨e0, e1, -⟩ := idx7_facts t
  match a with
  | ⟨0, _⟩ => show win7_0.index t 0 * 5000 + 1 * p.val = t.val * 5000 + p.val; rw [e0]; omega
  | ⟨1, _⟩ => show win7_0.index t 1 * 64 + 1 * q.val = q.val; rw [e1]; omega

/-- The neighbour-feature block at point t is rows t * 5000 … of the neighbour-feature array. -/
theorem iblk7_1_apply (c : Dev nD) (t : Fin cfg7.N) (p : Fin 5000) (q : Fin 64) :
    (iblk7 V c 1 t : Vec Ideal S5000x64 .f32) (ix2 p q)
      = V c (Pipeline.arrRef spec7 1) (ix2 ⟨t.val * 5000 + p.val, rows7_lt t p⟩ q) := by
  unfold iblk7
  rw [View.read_apply]
  show V c (Pipeline.arrRef spec7 1) _ = V c (Pipeline.arrRef spec7 1) _
  congr 1
  funext a
  apply Fin.ext
  obtain ⟨-, -, e0, e1, -⟩ := idx7_facts t
  match a with
  | ⟨0, _⟩ => show win7_1.index t 0 * 5000 + 1 * p.val = t.val * 5000 + p.val; rw [e0]; omega
  | ⟨1, _⟩ => show win7_1.index t 1 * 64 + 1 * q.val = q.val; rw [e1]; omega

/-- The scale row's block at every point is the scale row. -/
theorem iblk7_2_apply (c : Dev nD) (t : Fin cfg7.N) (q : Fin 64) :
    (iblk7 V c 2 t : Vec Ideal S1x64 .f32) (ix2 0 q) = V c (Pipeline.arrRef spec7 2) (ix2 0 q) := by
  unfold iblk7
  rw [View.read_apply]
  show V c (Pipeline.arrRef spec7 2) _ = V c (Pipeline.arrRef spec7 2) _
  congr 1
  funext a
  apply Fin.ext
  obtain ⟨-, -, -, -, e0, e1, -⟩ := idx7_facts t
  match a with
  | ⟨0, _⟩ => show win7_2.index t 0 * 1 + 1 * 0 = 0; rw [e0]
  | ⟨1, _⟩ => show win7_2.index t 1 * 64 + 1 * q.val = q.val; rw [e1]; omega

/-- The weight's block at every point is the weight. -/
theorem iblk7_3_apply (c : Dev nD) (t : Fin cfg7.N) (a' : Fin 64) (q : Fin 64) :
    (iblk7 V c 3 t : Vec Ideal S64x64 .f32) (ix2 a' q) = V c (Pipeline.arrRef spec7 3) (ix2 a' q) := by
  unfold iblk7
  rw [View.read_apply]
  show V c (Pipeline.arrRef spec7 3) _ = V c (Pipeline.arrRef spec7 3) _
  congr 1
  funext a
  apply Fin.ext
  obtain ⟨-, -, -, -, -, -, e0, e1, -⟩ := idx7_facts t
  match a with
  | ⟨0, _⟩ => show win7_3.index t 0 * 64 + 1 * a'.val = a'.val; rw [e0]; omega
  | ⟨1, _⟩ => show win7_3.index t 1 * 64 + 1 * q.val = q.val; rw [e1]; omega

/-- The bias row's block at every point is the bias row. -/
theorem iblk7_4_apply (c : Dev nD) (t : Fin cfg7.N) (q : Fin 64) :
    (iblk7 V c 4 t : Vec Ideal S1x64 .f32) (ix2 0 q) = V c (Pipeline.arrRef spec7 4) (ix2 0 q) := by
  unfold iblk7
  rw [View.read_apply]
  show V c (Pipeline.arrRef spec7 4) _ = V c (Pipeline.arrRef spec7 4) _
  congr 1
  funext a
  apply Fin.ext
  obtain ⟨-, -, -, -, -, -, -, -, e0, e1, -⟩ := idx7_facts t
  match a with
  | ⟨0, _⟩ => show win7_4.index t 0 * 1 + 1 * 0 = 0; rw [e0]
  | ⟨1, _⟩ => show win7_4.index t 1 * 64 + 1 * q.val = q.val; rw [e1]; omega

/-! ## The linear layer's output over the whole array -/

/-- The linear layer's output: the mixed features of all 50000 rows times the weight, plus the bias. -/
abbrev Z7 (c : Dev nD) : Mat 50000 64 :=
  affine (mix (fun j => V c (Pipeline.arrRef spec7 2) (ix2 0 j)) (fun i j => V c (Pipeline.arrRef spec7 0) (ix2 i j))
      (fun i j => V c (Pipeline.arrRef spec7 1) (ix2 i j)))
    (fun t j => V c (Pipeline.arrRef spec7 3) (ix2 t j)) (fun j => V c (Pipeline.arrRef spec7 4) (ix2 0 j))

/-- What the body computes from the blocks at point t is rows t * 5000 … of that output. -/
theorem block7_z (c : Dev nD) (t : Fin cfg7.N) (p : Fin 5000) (q : Fin 64) :
    k7_pay4 (F := Ideal) (iblk7 V c 2 t) (iblk7 V c 0 t) (iblk7 V c 1 t) (iblk7 V c 3 t) (iblk7 V c 4 t) (ix2 p q)
      = Z7 V c ⟨t.val * 5000 + p.val, rows7_lt t p⟩ q :=
  (PayVal.k7_pay4_apply (iblk7 V c 2 t) (iblk7 V c 0 t) (iblk7 V c 1 t) (iblk7 V c 3 t) (iblk7 V c 4 t) p q).trans
    (Cert.ValLib.affine_mix_congr _ _ _ _ _ _ _ _ _ _ p ⟨t.val * 5000 + p.val, rows7_lt t p⟩
      (fun s => iblk7_2_apply V c t s) (fun s => iblk7_0_apply V c t p s) (fun s => iblk7_1_apply V c t p s)
      (fun s s' => iblk7_3_apply V c t s s') (fun s => iblk7_4_apply V c t s) q)

/-- What point t writes back to the output array is block t of the linear layer's output. -/
theorem flushed7_z (c : Dev nD) (t : Fin cfg7.N) :
    (dat7 V c).flushed 5 t
      = ((cfg7.win 5).blk t).view.read (Elt Ideal) (fun i : S50000x64.Idx => Z7 V c (i 0) (i 1)) := by
  show (cfg7.win 5).cut (grid7.coords t) ((dat7 V c).after 5 t) = _
  rw [after7_big]
  refine funext fun (y : S5000x64.Idx) => ?_
  obtain ⟨p, q, rfl⟩ : ∃ (p : Fin 5000) (q : Fin 64), y = ix2 p q := ⟨y 0, y 1, eq_ix2 y⟩
  rw [View.read_apply]
  refine (block7_z V c t p q).trans ?_
  rw [cast_eq]
  obtain ⟨-, -, -, -, -, -, -, -, -, -, e0, e1, -⟩ := idx7_facts t
  have h0 : t.val * 5000 + p.val = ((((cfg7.win 5).blk t).view.emb (ix2 p q) : S50000x64.Idx) 0).val := by
    show _ = win7_5.index t 0 * 5000 + 1 * p.val
    rw [e0]; omega
  have h1 : q.val = ((((cfg7.win 5).blk t).view.emb (ix2 p q) : S50000x64.Idx) 1).val := by
    show _ = win7_5.index t 1 * 64 + 1 * q.val
    rw [e1]; omega
  exact congrArg₂ (Z7 V c) (Fin.ext h0) (Fin.ext h1)

/-- Every row of the output array lies in the block of the point that is the row's number divided by 5000. -/
theorem cover7_z (i : S50000x64.Idx) :
    ∃ t : Fin cfg7.N, (cfg7.win 5).flush t = true ∧ i ∈ ((cfg7.win 5).blk t).view.set := by
  have hi : (i 0).val < 50000 := (i 0).isLt
  have hq : (i 1).val < 64 := (i 1).isLt
  have hN : cfg7.N = 10 := N_7
  have ht : (i 0).val / 5000 < cfg7.N := by rw [hN]; omega
  refine ⟨⟨(i 0).val / 5000, ht⟩, flush7_5 _, ?_⟩
  show i ∈ ((View.whole (Pipeline.arrRef spec7 5)).slice (win7_5.rect ⟨(i 0).val / 5000, ht⟩)).set
  rw [View.set_slice_whole, Rect.mem_set_unit]
  obtain ⟨-, -, -, -, -, -, -, -, -, -, e0, e1, -⟩ := idx7_facts ⟨(i 0).val / 5000, ht⟩
  intro a
  match a with
  | ⟨0, _⟩ =>
    show win7_5.index ⟨(i 0).val / 5000, ht⟩ 0 * 5000 ≤ (i 0).val
      ∧ (i 0).val < win7_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win7_5.index ⟨(i 0).val / 5000, ht⟩ 1 * 64 ≤ (i 1).val
      ∧ (i 1).val < win7_5.index ⟨(i 0).val / 5000, ht⟩ 1 * 64 + 64
    rw [e1]; omega

/-- After the region the output array holds the linear layer's output. -/
theorem arrAt7_z (c : Dev nD) (i : Fin 50000) (j : Fin 64) : (dat7 V c).arrAt 5 cfg7.N (ix2 i j) = Z7 V c i j :=
  congrFun ((dat7 V c).arrAt_eq_of_cover 5 (fun i : S50000x64.Idx => Z7 V c (i 0) (i 1)) (fun t _ => flushed7_z V c t)
    (cover7_z)) (ix2 i j)

/-! ## The two statistics rows -/

/-- One point's step of the first running row: it adds the column sums of the point's rows of the output. -/
theorem acc7_s_step (c : Dev nD) (n : ℕ) (h : n < cfg7.N) (q : Fin 64) :
    (acc7 V c (n + 1)).1 (ix2 0 q)
      = (acc7 V c n).1 (ix2 0 q)
        + colSum (fun (r : Fin 5000) j => Z7 V c ⟨n * 5000 + r.val, rows7_lt ⟨n, h⟩ r⟩ j) q := by
  rw [acc7_succ V c n h]
  refine (PayVal.k7_pay5_apply (iblk7 V c 2 ⟨n, h⟩) (iblk7 V c 0 ⟨n, h⟩) (iblk7 V c 1 ⟨n, h⟩) (iblk7 V c 3 ⟨n, h⟩)
    (iblk7 V c 4 ⟨n, h⟩) (acc7 V c n).1 q).trans ?_
  refine congrArg (_ + ·) ?_
  unfold colSum
  exact Finset.sum_congr rfl fun r _ => block7_z V c ⟨n, h⟩ r q

/-- One point's step of the second running row: it adds the column sums of squares of the point's rows. -/
theorem acc7_ss_step (c : Dev nD) (n : ℕ) (h : n < cfg7.N) (q : Fin 64) :
    (acc7 V c (n + 1)).2 (ix2 0 q)
      = (acc7 V c n).2 (ix2 0 q)
        + colSumSq (fun (r : Fin 5000) j => Z7 V c ⟨n * 5000 + r.val, rows7_lt ⟨n, h⟩ r⟩ j) q := by
  rw [acc7_succ V c n h]
  refine (PayVal.k7_pay1_apply (acc7 V c n).2 (k7_pay6 (F := Ideal) (iblk7 V c 2 ⟨n, h⟩) (iblk7 V c 0 ⟨n, h⟩)
    (iblk7 V c 1 ⟨n, h⟩) (iblk7 V c 3 ⟨n, h⟩) (iblk7 V c 4 ⟨n, h⟩)) q).trans ?_
  refine congrArg (_ + ·) ?_
  refine (PayVal.k7_pay6_apply (iblk7 V c 2 ⟨n, h⟩) (iblk7 V c 0 ⟨n, h⟩) (iblk7 V c 1 ⟨n, h⟩) (iblk7 V c 3 ⟨n, h⟩)
    (iblk7 V c 4 ⟨n, h⟩) q).trans ?_
  unfold colSumSq
  exact Finset.sum_congr rfl fun r _ =>
    congrArg₂ (· * ·) (block7_z V c ⟨n, h⟩ r q) (block7_z V c ⟨n, h⟩ r q)

/-- The only point that writes a statistics row back is the last one. -/
theorem last7_of_flush (t : Fin cfg7.N) (h : t.val % 10 = 9) : t.val + 1 = 10 := by
  have h2 : t.val < 10 := lt_of_lt_of_eq t.isLt N_7
  omega

/-- After the region the first statistics array holds the first running row after all ten points. -/
theorem arrAt7_6_eq (c : Dev nD) : (dat7 V c).arrAt 6 cfg7.N = (acc7 V c 10).1 := by
  refine (dat7 V c).arrAt_eq_of_cover 6 ((acc7 V c 10).1) (fun t hf => ?_) (fun i => ?_)
  · show (cfg7.win 6).cut (grid7.coords t) ((dat7 V c).after 6 t) = _
    rw [after7_6, last7_of_flush t ((flush7_6 t).mp hf)]
    refine funext fun (y : S1x64.Idx) => ?_
    rw [View.read_apply, cast_eq]
    refine congrArg (acc7 V c 10).1 (?_ : y = ((cfg7.win 6).blk t).view.emb y)
    obtain ⟨-, -, -, -, -, -, -, -, -, -, -, -, e0, e1, -⟩ := idx7_facts t
    funext a
    apply Fin.ext
    match a with
    | ⟨0, _⟩ => show (y 0).val = win7_6.index t 0 * 1 + 1 * (y 0).val; rw [e0]; omega
    | ⟨1, _⟩ => show (y 1).val = win7_6.index t 1 * 64 + 1 * (y 1).val; rw [e1]; omega
  · refine ⟨t7_9, (flush7_6 t7_9).mpr rfl, ?_⟩
    show i ∈ ((View.whole (Pipeline.arrRef spec7 6)).slice (win7_6.rect t7_9)).set
    rw [View.set_slice_whole, Rect.mem_set_unit]
    obtain ⟨-, -, -, -, -, -, -, -, -, -, -, -, e0, e1, -⟩ := idx7_facts t7_9
    have h0 : (i 0).val < 1 := (i 0).isLt
    have h1 : (i 1).val < 64 := (i 1).isLt
    intro a
    match a with
    | ⟨0, _⟩ => show win7_6.index t7_9 0 * 1 ≤ (i 0).val ∧ (i 0).val < win7_6.index t7_9 0 * 1 + 1; rw [e0]; omega
    | ⟨1, _⟩ => show win7_6.index t7_9 1 * 64 ≤ (i 1).val ∧ (i 1).val < win7_6.index t7_9 1 * 64 + 64; rw [e1]; omega

/-- After the region the second statistics array holds the second running row after all ten points. -/
theorem arrAt7_7_eq (c : Dev nD) : (dat7 V c).arrAt 7 cfg7.N = (acc7 V c 10).2 := by
  refine (dat7 V c).arrAt_eq_of_cover 7 ((acc7 V c 10).2) (fun t hf => ?_) (fun i => ?_)
  · show (cfg7.win 7).cut (grid7.coords t) ((dat7 V c).after 7 t) = _
    rw [after7_7, last7_of_flush t ((flush7_7 t).mp hf)]
    refine funext fun (y : S1x64.Idx) => ?_
    rw [View.read_apply, cast_eq]
    refine congrArg (acc7 V c 10).2 (?_ : y = ((cfg7.win 7).blk t).view.emb y)
    obtain ⟨-, -, -, -, -, -, -, -, -, -, -, -, -, -, e0, e1⟩ := idx7_facts t
    funext a
    apply Fin.ext
    match a with
    | ⟨0, _⟩ => show (y 0).val = win7_7.index t 0 * 1 + 1 * (y 0).val; rw [e0]; omega
    | ⟨1, _⟩ => show (y 1).val = win7_7.index t 1 * 64 + 1 * (y 1).val; rw [e1]; omega
  · refine ⟨t7_9, (flush7_7 t7_9).mpr rfl, ?_⟩
    show i ∈ ((View.whole (Pipeline.arrRef spec7 7)).slice (win7_7.rect t7_9)).set
    rw [View.set_slice_whole, Rect.mem_set_unit]
    obtain ⟨-, -, -, -, -, -, -, -, -, -, -, -, -, -, e0, e1⟩ := idx7_facts t7_9
    have h0 : (i 0).val < 1 := (i 0).isLt
    have h1 : (i 1).val < 64 := (i 1).isLt
    intro a
    match a with
    | ⟨0, _⟩ => show win7_7.index t7_9 0 * 1 ≤ (i 0).val ∧ (i 0).val < win7_7.index t7_9 0 * 1 + 1; rw [e0]; omega
    | ⟨1, _⟩ => show win7_7.index t7_9 1 * 64 ≤ (i 1).val ∧ (i 1).val < win7_7.index t7_9 1 * 64 + 64; rw [e1]; omega

/-- After the region the first statistics array holds the column sums of the linear layer's output. -/
theorem arrAt7_s (c : Dev nD) (j : Fin 64) : (dat7 V c).arrAt 6 cfg7.N (ix2 0 j) = colSum (Z7 V c) j := by
  rw [arrAt7_6_eq]
  exact Cert.ValLib.colSum_running 10 5000 (by decide) (Z7 V c) (fun n q => (acc7 V c n).1 (ix2 0 q))
    (fun t ht r c' => Z7 V c ⟨t * 5000 + r.val, rows7_lt ⟨t, lt_of_lt_of_eq ht N_7.symm⟩ r⟩ c') (fun _ _ _ _ => rfl)
    (fun q => by
      show (acc7 V c 0).1 (ix2 0 q) = 0
      rw [acc7_zero]
      exact PayVal.k7_pay2_apply q)
    (fun t ht q => acc7_s_step V c t (lt_of_lt_of_eq ht N_7.symm) q) j

/-- After the region the second statistics array holds the column sums of squares of the linear layer's output. -/
theorem arrAt7_ss (c : Dev nD) (j : Fin 64) : (dat7 V c).arrAt 7 cfg7.N (ix2 0 j) = colSumSq (Z7 V c) j := by
  rw [arrAt7_7_eq]
  exact Cert.ValLib.colSumSq_running 10 5000 (by decide) (Z7 V c) (fun n q => (acc7 V c n).2 (ix2 0 q))
    (fun t ht r c' => Z7 V c ⟨t * 5000 + r.val, rows7_lt ⟨t, lt_of_lt_of_eq ht N_7.symm⟩ r⟩ c') (fun _ _ _ _ => rfl)
    (fun q => by
      show (acc7 V c 0).2 (ix2 0 q) = 0
      rw [acc7_zero]
      exact PayVal.k7_pay3_apply q)
    (fun t ht q => acc7_ss_step V c t (lt_of_lt_of_eq ht N_7.symm) q) j

end Cert.KernelIdeal.Val

end
-- ==== Proof.KI.Pay8.lean ====
/-
  The normalise-multiply-with-statistics body, read at one entry on the extended reals.

  From the statistics rows s and ss of the incoming block z, the scale row g and the shift row be, the body forms
  a = max ((z - mean) * rsqrt (variance + eps) * g + be) 0 with mean s * c and variance ss * c - (s * c) * (s * c),
  c the named reciprocal of the row count; it multiplies a by the weight W, and only then, in a second step, adds
  the bias row b to give the block y it writes back.  It adds the column sums of y to one running row and the
  column sums of y * y to a second running row; at the first grid point both running rows are set to zero.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The layer's product has the plain dimension numbers: left contracted on axis 1, right on axis 0. -/
theorem k8_dot_plain : dot_S5000x64_S64x64_S5000x64_1_0_0_1_n_n = DotDims.plain 5000 64 64 := rfl

/-- The product alone, before the bias: the normalised, clipped block times the weight. -/
theorem k8_pay6_apply (v3 : Vec Ideal S1x64 .f32) (v7 : Vec Ideal S1x64 .f32) (v13 : Vec Ideal S5000x64 .f32)
    (v22 : Vec Ideal S1x64 .f32) (v26 : Vec Ideal S1x64 .f32) (v33 : Vec Ideal S64x64 .f32) (p : Fin 5000) (q : Fin 64) :
    Gen.k8_pay6 (F := Ideal) v3 v7 v13 v22 v26 v33 (ix2 p q)
      = ∑ t : Fin 64, bnStats (Named.named (F := Ideal) κ "inv_50000" (φ := .f32) 0x37A7C5AC#32) (Ideal.ofBits .f32 0x3727C5AC#32)
          (fun i j => v13 (ix2 i j)) (fun j => v3 (ix2 0 j)) (fun j => v7 (ix2 0 j)) (fun j => v22 (ix2 0 j))
          (fun j => v26 (ix2 0 j)) p t * v33 (ix2 t q) := by
  unfold Gen.k8_pay6
  rw [k8_dot_plain, Cert.PayLib.plainProduct_apply]
  simp only [truncf_apply, maximumf_apply, addf_apply, mulf_apply, subf_apply, broadcastTo_1b_ab_apply, shapeCast_self,
    broadcast_apply, Cert.PayLib.rsqrt_apply]
  simp only [show Scalar.ofBits (F := Ideal) .f32 0x00000000#32 = (0 : EReal) from Ideal.ofBits_zero_f32]
  rfl

/-- The block written back: the product plus the bias row. -/
theorem k8_pay1_apply (v36 : FVec Ideal S5000x64 .f32) (v37 : Vec Ideal S1x64 .f32) (p : Fin 5000) (q : Fin 64) :
    Gen.k8_pay1 (F := Ideal) v36 v37 (ix2 p q) = v36 (ix2 p q) + v37 (ix2 0 q) := by
  unfold Gen.k8_pay1
  rw [addf_apply, broadcastTo_1b_ab_apply, shapeCast_self]

/-- The two steps together: the block written back is the normalised, clipped block through the weight and bias. -/
theorem k8_pay1_pay6_apply (v3 : Vec Ideal S1x64 .f32) (v7 : Vec Ideal S1x64 .f32) (v13 : Vec Ideal S5000x64 .f32)
    (v22 : Vec Ideal S1x64 .f32) (v26 : Vec Ideal S1x64 .f32) (v33 : Vec Ideal S64x64 .f32) (v37 : Vec Ideal S1x64 .f32)
    (p : Fin 5000) (q : Fin 64) :
    Gen.k8_pay1 (F := Ideal) (Gen.k8_pay6 (F := Ideal) v3 v7 v13 v22 v26 v33) v37 (ix2 p q)
      = affine (bnStats (Named.named (F := Ideal) κ "inv_50000" (φ := .f32) 0x37A7C5AC#32) (Ideal.ofBits .f32 0x3727C5AC#32)
          (fun i j => v13 (ix2 i j)) (fun j => v3 (ix2 0 j)) (fun j => v7 (ix2 0 j)) (fun j => v22 (ix2 0 j))
          (fun j => v26 (ix2 0 j))) (fun t j => v33 (ix2 t j)) (fun j => v37 (ix2 0 j)) p q := by
  rw [k8_pay1_apply]
  simp only [k8_pay6_apply]
  rfl

/-- The first running row after the body: its old value plus the column sums of the block written back. -/
theorem k8_pay2_apply (v36 : FVec Ideal S5000x64 .f32) (v37 : Vec Ideal S1x64 .f32) (v42 : Vec Ideal S1x64 .f32) (q : Fin 64) :
    Gen.k8_pay2 (F := Ideal) v36 v37 v42 (ix2 0 q)
      = v42 (ix2 0 q) + colSum (fun i j => Gen.k8_pay1 (F := Ideal) v36 v37 (ix2 i j)) q := by
  unfold Gen.k8_pay2
  dsimp only
  rw [shapeCast_self, addf_apply, shapeCast_a_1a_apply, Cert.PayLib.rowSum_apply]
  rfl

/-- The second running row after the body: its old value plus the column sums of the block's squares. -/
theorem k8_pay3_apply (v36 : FVec Ideal S5000x64 .f32) (v37 : Vec Ideal S1x64 .f32) (v49 : Vec Ideal S1x64 .f32) (q : Fin 64) :
    Gen.k8_pay3 (F := Ideal) v36 v37 v49 (ix2 0 q)
      = v49 (ix2 0 q) + colSumSq (fun i j => Gen.k8_pay1 (F := Ideal) v36 v37 (ix2 i j)) q := by
  unfold Gen.k8_pay3
  dsimp only
  rw [shapeCast_self, addf_apply, shapeCast_a_1a_apply, Cert.PayLib.rowSum_apply]
  rfl

/-- At the first grid point the first running row is set to zero. -/
theorem k8_pay4_apply (q : Fin 64) : Gen.k8_pay4 (F := Ideal) (ix2 0 q) = 0 := by
  unfold Gen.k8_pay4
  rw [shapeCast_self, broadcast_apply]
  exact Ideal.ofBits_zero_f32

/-- At the first grid point the second running row is set to zero. -/
theorem k8_pay5_apply (q : Fin 64) : Gen.k8_pay5 (F := Ideal) (ix2 0 q) = 0 := by
  unfold Gen.k8_pay5
  rw [shapeCast_self, broadcast_apply]
  exact Ideal.ofBits_zero_f32

end Cert.KernelIdeal.PayVal

end
-- ==== Proof.KI.Val8.lean ====
/-
  From row blocks to whole arrays, for the normalise-multiply-with-statistics region, on the extended reals.

  The region walks ten grid points; point t stages rows t * 5000 … t * 5000 + 4999 of the incoming matrix z, and the
  whole of six small operands: the column sums and column sums of squares of z over all rows, the scale and shift rows,
  the weight and the bias row.  Batch normalisation by given statistics is entrywise, and a product with a weight reads
  only a row of its left factor; so what the body writes back at point t is rows t * 5000 … of one matrix over all
  50000 rows, Z = relu (bn z) W + b, and the ten blocks tile the output array.  The two running rows start at zero,
  point t adds the column sums (the column sums of squares) of its rows of Z, and the last point alone writes them
  back; so the two statistics arrays end holding the column sums and the column sums of squares of Z.
-/
import proofs.«140206_j52750788330061_1_alg».proof.Proof.KI.Reg8
import proofs.«140206_j52750788330061_1_alg».proof.Proof.KI.Pay8
import proofs.«140206_j52750788330061_1_alg».proof.Proof.KI.ValLib
import proofs.«140206_j52750788330061_1_alg».proof.Proof.Spec
import proofs.«140206_j52750788330061_1_alg».proof.Proof.SpecAlg
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Spec

variable (V : (c : Dev nD) → (b : Ref sig .tc) → Buf (Elt Ideal) ((c : Thread nD τ).loc b))

/-! ## Where the windows' blocks lie

The two row-block windows (the incoming matrix, the output) sit at block row t at grid point t; the eight whole-array
windows sit at the origin at every point. -/

theorem idx8_0 : ∀ t : Fin cfg8.N, win8_0.index t 0 = t.val ∧ win8_0.index t 1 = 0 :=
  (by decide +kernel : ∀ t : Fin grid8.N, _)
theorem idx8_1 : ∀ t : Fin cfg8.N, win8_1.index t 0 = 0 ∧ win8_1.index t 1 = 0 :=
  (by decide +kernel : ∀ t : Fin grid8.N, _)
theorem idx8_2 : ∀ t : Fin cfg8.N, win8_2.index t 0 = 0 ∧ win8_2.index t 1 = 0 :=
  (by decide +kernel : ∀ t : Fin grid8.N, _)
theorem idx8_3 : ∀ t : Fin cfg8.N, win8_3.index t 0 = 0 ∧ win8_3.index t 1 = 0 :=
  (by decide +kernel : ∀ t : Fin grid8.N, _)
theorem idx8_4 : ∀ t : Fin cfg8.N, win8_4.index t 0 = 0 ∧ win8_4.index t 1 = 0 :=
  (by decide +kernel : ∀ t : Fin grid8.N, _)
theorem idx8_5 : ∀ t : Fin cfg8.N, win8_5.index t 0 = 0 ∧ win8_5.index t 1 = 0 :=
  (by decide +kernel : ∀ t : Fin grid8.N, _)
theorem idx8_6 : ∀ t : Fin cfg8.N, win8_6.index t 0 = 0 ∧ win8_6.index t 1 = 0 :=
  (by decide +kernel : ∀ t : Fin grid8.N, _)
theorem idx8_7 : ∀ t : Fin cfg8.N, win8_7.index t 0 = t.val ∧ win8_7.index t 1 = 0 :=
  (by decide +kernel : ∀ t : Fin grid8.N, _)
theorem idx8_8 : ∀ t : Fin cfg8.N, win8_8.index t 0 = 0 ∧ win8_8.index t 1 = 0 :=
  (by decide +kernel : ∀ t : Fin grid8.N, _)
theorem idx8_9 : ∀ t : Fin cfg8.N, win8_9.index t 0 = 0 ∧ win8_9.index t 1 = 0 :=
  (by decide +kernel : ∀ t : Fin grid8.N, _)

/-- Row p of block t is a row of the array. -/
theorem rows8_lt (t : Fin cfg8.N) (p : Fin 5000) : t.val * 5000 + p.val < 50000 := by
  have ht : t.val < 10 := lt_of_lt_of_eq t.isLt N_8
  have hp := p.isLt
  omega

/-- The incoming block at point t is rows t * 5000 … of the incoming array. -/
theorem iblk8_0_apply (c : Dev nD) (t : Fin cfg8.N) (p : Fin 5000) (q : Fin 64) :
    (iblk8 V c 0 t : Vec Ideal S5000x64 .f32) (ix2 p q)
      = V c (Pipeline.arrRef spec8 0) (ix2 ⟨t.val * 5000 + p.val, rows8_lt t p⟩ q) := by
  unfold iblk8
  rw [View.read_apply]
  show V c (Pipeline.arrRef spec8 0) _ = V c (Pipeline.arrRef spec8 0) _
  congr 1
  funext a
  apply Fin.ext
  obtain ⟨e0, e1⟩ := idx8_0 t
  match a with
  | ⟨0, _⟩ => show win8_0.index t 0 * 5000 + 1 * p.val = t.val * 5000 + p.val; rw [e0]; omega
  | ⟨1, _⟩ => show win8_0.index t 1 * 64 + 1 * q.val = q.val; rw [e1]; omega

/-- The column-sum row's block at every point is the column-sum row. -/
theorem iblk8_1_apply (c : Dev nD) (t : Fin cfg8.N) (q : Fin 64) :
    (iblk8 V c 1 t : Vec Ideal S1x64 .f32) (ix2 0 q) = V c (Pipeline.arrRef spec8 1) (ix2 0 q) := by
  unfold iblk8
  rw [View.read_apply]
  show V c (Pipeline.arrRef spec8 1) _ = V c (Pipeline.arrRef spec8 1) _
  congr 1
  funext a
  apply Fin.ext
  obtain ⟨e0, e1⟩ := idx8_1 t
  match a with
  | ⟨0, _⟩ => show win8_1.index t 0 * 1 + 1 * 0 = 0; rw [e0]
  | ⟨1, _⟩ => show win8_1.index t 1 * 64 + 1 * q.val = q.val; rw [e1]; omega

/-- The column-sum-of-squares row's block at every point is that row. -/
theorem iblk8_2_apply (c : Dev nD) (t : Fin cfg8.N) (q : Fin 64) :
    (iblk8 V c 2 t : Vec Ideal S1x64 .f32) (ix2 0 q) = V c (Pipeline.arrRef spec8 2) (ix2 0 q) := by
  unfold iblk8
  rw [View.read_apply]
  show V c (Pipeline.arrRef spec8 2) _ = V c (Pipeline.arrRef spec8 2) _
  congr 1
  funext a
  apply Fin.ext
  obtain ⟨e0, e1⟩ := idx8_2 t
  match a with
  | ⟨0, _⟩ => show win8_2.index t 0 * 1 + 1 * 0 = 0; rw [e0]
  | ⟨1, _⟩ => show win8_2.index t 1 * 64 + 1 * q.val = q.val; rw [e1]; omega

/-- The scale row's block at every point is the scale row. -/
theorem iblk8_3_apply (c : Dev nD) (t : Fin cfg8.N) (q : Fin 64) :
    (iblk8 V c 3 t : Vec Ideal S1x64 .f32) (ix2 0 q) = V c (Pipeline.arrRef spec8 3) (ix2 0 q) := by
  unfold iblk8
  rw [View.read_apply]
  show V c (Pipeline.arrRef spec8 3) _ = V c (Pipeline.arrRef spec8 3) _
  congr 1
  funext a
  apply Fin.ext
  obtain ⟨e0, e1⟩ := idx8_3 t
  match a with
  | ⟨0, _⟩ => show win8_3.index t 0 * 1 + 1 * 0 = 0; rw [e0]
  | ⟨1, _⟩ => show win8_3.index t 1 * 64 + 1 * q.val = q.val; rw [e1]; omega

/-- The shift row's block at every point is the shift row. -/
theorem iblk8_4_apply (c : Dev nD) (t : Fin cfg8.N) (q : Fin 64) :
    (iblk8 V c 4 t : Vec Ideal S1x64 .f32) (ix2 0 q) = V c (Pipeline.arrRef spec8 4) (ix2 0 q) := by
  unfold iblk8
  rw [View.read_apply]
  show V c (Pipeline.arrRef spec8 4) _ = V c (Pipeline.arrRef spec8 4) _
  congr 1
  funext a
  apply Fin.ext
  obtain ⟨e0, e1⟩ := idx8_4 t
  match a with
  | ⟨0, _⟩ => show win8_4.index t 0 * 1 + 1 * 0 = 0; rw [e0]
  | ⟨1, _⟩ => show win8_4.index t 1 * 64 + 1 * q.val = q.val; rw [e1]; omega

/-- The weight's block at every point is the weight. -/
theorem iblk8_5_apply (c : Dev nD) (t : Fin cfg8.N) (a' : Fin 64) (q : Fin 64) :
    (iblk8 V c 5 t : Vec Ideal S64x64 .f32) (ix2 a' q) = V c (Pipeline.arrRef spec8 5) (ix2 a' q) := by
  unfold iblk8
  rw [View.read_apply]
  show V c (Pipeline.arrRef spec8 5) _ = V c (Pipeline.arrRef spec8 5) _
  congr 1
  funext a
  apply Fin.ext
  obtain ⟨e0, e1⟩ := idx8_5 t
  match a with
  | ⟨0, _⟩ => show win8_5.index t 0 * 64 + 1 * a'.val = a'.val; rw [e0]; omega
  | ⟨1, _⟩ => show win8_5.index t 1 * 64 + 1 * q.val = q.val; rw [e1]; omega

/-- The bias row's block at every point is the bias row. -/
theorem iblk8_6_apply (c : Dev nD) (t : Fin cfg8.N) (q : Fin 64) :
    (iblk8 V c 6 t : Vec Ideal S1x64 .f32) (ix2 0 q) = V c (Pipeline.arrRef spec8 6) (ix2 0 q) := by
  unfold iblk8
  rw [View.read_apply]
  show V c (Pipeline.arrRef spec8 6) _ = V c (Pipeline.arrRef spec8 6) _
  congr 1
  funext a
  apply Fin.ext
  obtain ⟨e0, e1⟩ := idx8_6 t
  match a with
  | ⟨0, _⟩ => show win8_6.index t 0 * 1 + 1 * 0 = 0; rw [e0]
  | ⟨1, _⟩ => show win8_6.index t 1 * 64 + 1 * q.val = q.val; rw [e1]; omega

/-! ## The region's output over the whole array -/

/-- The region's output: the incoming matrix normalised by the given statistics and clipped, times the weight, plus the
    bias, over all 50000 rows. -/
abbrev Z8 (c : Dev nD) : Mat 50000 64 :=
  affine (bnStats (Named.named (F := Ideal) κ "inv_50000" (φ := .f32) 0x37A7C5AC#32) (Ideal.ofBits .f32 0x3727C5AC#32)
      (fun i j => V c (Pipeline.arrRef spec8 0) (ix2 i j)) (fun j => V c (Pipeline.arrRef spec8 1) (ix2 0 j))
      (fun j => V c (Pipeline.arrRef spec8 2) (ix2 0 j)) (fun j => V c (Pipeline.arrRef spec8 3) (ix2 0 j))
      (fun j => V c (Pipeline.arrRef spec8 4) (ix2 0 j)))
    (fun t j => V c (Pipeline.arrRef spec8 5) (ix2 t j)) (fun j => V c (Pipeline.arrRef spec8 6) (ix2 0 j))

/-- What the body computes from the blocks at point t is rows t * 5000 … of that output. -/
theorem block8_z (c : Dev nD) (t : Fin cfg8.N) (p : Fin 5000) (q : Fin 64) :
    k8_pay1 (F := Ideal) (k8_pay6 (F := Ideal) (iblk8 V c 1 t) (iblk8 V c 2 t) (iblk8 V c 0 t) (iblk8 V c 3 t) (iblk8 V c 4 t) (iblk8 V c 5 t)) (iblk8 V c 6 t) (ix2 p q)
      = Z8 V c ⟨t.val * 5000 + p.val, rows8_lt t p⟩ q :=
  (PayVal.k8_pay1_pay6_apply (iblk8 V c 1 t) (iblk8 V c 2 t) (iblk8 V c 0 t) (iblk8 V c 3 t) (iblk8 V c 4 t) (iblk8 V c 5 t) (iblk8 V c 6 t) p q).trans
    (Cert.ValLib.affine_congr _ _ _ _ _ _ p ⟨t.val * 5000 + p.val, rows8_lt t p⟩
      (fun s => Cert.ValLib.bnStats_congr _ _ _ _ _ _ _ _ _ _ _ _ p ⟨t.val * 5000 + p.val, rows8_lt t p⟩ s
        (iblk8_0_apply V c t p s) (iblk8_1_apply V c t s) (iblk8_2_apply V c t s) (iblk8_3_apply V c t s)
        (iblk8_4_apply V c t s))
      (fun s s' => iblk8_5_apply V c t s s') (fun s => iblk8_6_apply V c t s) q)

/-- What point t writes back to the output array is block t of the region's output. -/
theorem flushed8_z (c : Dev nD) (t : Fin cfg8.N) :
    (dat8 V c).flushed 7 t
      = ((cfg8.win 7).blk t).view.read (Elt Ideal) (fun i : S50000x64.Idx => Z8 V c (i 0) (i 1)) := by
  show (cfg8.win 7).cut (grid8.coords t) ((dat8 V c).after 7 t) = _
  rw [after8_big, big8_eq]
  refine funext fun (y : S5000x64.Idx) => ?_
  obtain ⟨p, q, rfl⟩ : ∃ (p : Fin 5000) (q : Fin 64), y = ix2 p q := ⟨y 0, y 1, eq_ix2 y⟩
  rw [View.read_apply]
  refine (block8_z V c t p q).trans ?_
  rw [cast_eq]
  obtain ⟨e0, e1⟩ := idx8_7 t
  have h0 : t.val * 5000 + p.val = ((((cfg8.win 7).blk t).view.emb (ix2 p q) : S50000x64.Idx) 0).val := by
    show _ = win8_7.index t 0 * 5000 + 1 * p.val
    rw [e0]; omega
  have h1 : q.val = ((((cfg8.win 7).blk t).view.emb (ix2 p q) : S50000x64.Idx) 1).val := by
    show _ = win8_7.index t 1 * 64 + 1 * q.val
    rw [e1]; omega
  exact congrArg₂ (Z8 V c) (Fin.ext h0) (Fin.ext h1)

/-- Every row of the output array lies in the block of the point that is the row's number divided by 5000. -/
theorem cover8_z (i : S50000x64.Idx) :
    ∃ t : Fin cfg8.N, (cfg8.win 7).flush t = true ∧ i ∈ ((cfg8.win 7).blk t).view.set := by
  have hi : (i 0).val < 50000 := (i 0).isLt
  have hq : (i 1).val < 64 := (i 1).isLt
  have hN : cfg8.N = 10 := N_8
  have ht : (i 0).val / 5000 < cfg8.N := by rw [hN]; omega
  refine ⟨⟨(i 0).val / 5000, ht⟩, flush8_7 _, ?_⟩
  show i ∈ ((View.whole (Pipeline.arrRef spec8 7)).slice (win8_7.rect ⟨(i 0).val / 5000, ht⟩)).set
  rw [View.set_slice_whole, Rect.mem_set_unit]
  obtain ⟨e0, e1⟩ := idx8_7 ⟨(i 0).val / 5000, ht⟩
  intro a
  match a with
  | ⟨0, _⟩ =>
    show win8_7.index ⟨(i 0).val / 5000, ht⟩ 0 * 5000 ≤ (i 0).val
      ∧ (i 0).val < win8_7.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win8_7.index ⟨(i 0).val / 5000, ht⟩ 1 * 64 ≤ (i 1).val
      ∧ (i 1).val < win8_7.index ⟨(i 0).val / 5000, ht⟩ 1 * 64 + 64
    rw [e1]; omega

/-- After the region the output array holds the region's output. -/
theorem arrAt8_z (c : Dev nD) (i : Fin 50000) (j : Fin 64) : (dat8 V c).arrAt 7 cfg8.N (ix2 i j) = Z8 V c i j :=
  congrFun ((dat8 V c).arrAt_eq_of_cover 7 (fun i : S50000x64.Idx => Z8 V c (i 0) (i 1)) (fun t _ => flushed8_z V c t)
    (cover8_z)) (ix2 i j)

/-! ## The two statistics rows -/

/-- One point's step of the first running row: it adds the column sums of the point's rows of the output. -/
theorem acc8_s_step (c : Dev nD) (t : Fin cfg8.N) (q : Fin 64) :
    (acc8 V c (t.val + 1)).1 (ix2 0 q)
      = (acc8 V c t.val).1 (ix2 0 q)
        + colSum (fun (r : Fin 5000) j => Z8 V c ⟨t.val * 5000 + r.val, rows8_lt t r⟩ j) q := by
  rw [acc8_succ V c t]
  refine (PayVal.k8_pay2_apply (k8_pay6 (F := Ideal) (iblk8 V c 1 t) (iblk8 V c 2 t) (iblk8 V c 0 t) (iblk8 V c 3 t) (iblk8 V c 4 t) (iblk8 V c 5 t)) (iblk8 V c 6 t) (acc8 V c t.val).1 q).trans ?_
  refine congrArg (_ + ·) ?_
  unfold colSum
  exact Finset.sum_congr rfl fun r _ => block8_z V c t r q

/-- One point's step of the second running row: it adds the column sums of squares of the point's rows. -/
theorem acc8_ss_step (c : Dev nD) (t : Fin cfg8.N) (q : Fin 64) :
    (acc8 V c (t.val + 1)).2 (ix2 0 q)
      = (acc8 V c t.val).2 (ix2 0 q)
        + colSumSq (fun (r : Fin 5000) j => Z8 V c ⟨t.val * 5000 + r.val, rows8_lt t r⟩ j) q := by
  rw [acc8_succ V c t]
  refine (PayVal.k8_pay3_apply (k8_pay6 (F := Ideal) (iblk8 V c 1 t) (iblk8 V c 2 t) (iblk8 V c 0 t) (iblk8 V c 3 t) (iblk8 V c 4 t) (iblk8 V c 5 t)) (iblk8 V c 6 t) (acc8 V c t.val).2 q).trans ?_
  refine congrArg (_ + ·) ?_
  unfold colSumSq
  exact Finset.sum_congr rfl fun r _ => congrArg₂ (· * ·) (block8_z V c t r q) (block8_z V c t r q)

/-- The only point that writes a statistics row back is the last one. -/
theorem last8_of_flush (t : Fin cfg8.N) (h : t.val % 10 = 9) : t.val + 1 = 10 := by
  have h2 : t.val < 10 := lt_of_lt_of_eq t.isLt N_8
  omega

/-- After the region the first statistics array holds the first running row after all ten points. -/
theorem arrAt8_8_eq (c : Dev nD) : (dat8 V c).arrAt 8 cfg8.N = (acc8 V c 10).1 := by
  refine (dat8 V c).arrAt_eq_of_cover 8 ((acc8 V c 10).1) (fun t hf => ?_) (fun i => ?_)
  · show (cfg8.win 8).cut (grid8.coords t) ((dat8 V c).after 8 t) = _
    rw [after8_s, last8_of_flush t ((flush8_8 t).mp hf)]
    refine funext fun (y : S1x64.Idx) => ?_
    rw [View.read_apply, cast_eq]
    refine congrArg (acc8 V c 10).1 (?_ : y = ((cfg8.win 8).blk t).view.emb y)
    obtain ⟨e0, e1⟩ := idx8_8 t
    funext a
    apply Fin.ext
    match a with
    | ⟨0, _⟩ => show (y 0).val = win8_8.index t 0 * 1 + 1 * (y 0).val; rw [e0]; omega
    | ⟨1, _⟩ => show (y 1).val = win8_8.index t 1 * 64 + 1 * (y 1).val; rw [e1]; omega
  · refine ⟨t8_9, (flush8_8 t8_9).mpr rfl, ?_⟩
    show i ∈ ((View.whole (Pipeline.arrRef spec8 8)).slice (win8_8.rect t8_9)).set
    rw [View.set_slice_whole, Rect.mem_set_unit]
    obtain ⟨e0, e1⟩ := idx8_8 t8_9
    have h0 : (i 0).val < 1 := (i 0).isLt
    have h1 : (i 1).val < 64 := (i 1).isLt
    intro a
    match a with
    | ⟨0, _⟩ => show win8_8.index t8_9 0 * 1 ≤ (i 0).val ∧ (i 0).val < win8_8.index t8_9 0 * 1 + 1; rw [e0]; omega
    | ⟨1, _⟩ => show win8_8.index t8_9 1 * 64 ≤ (i 1).val ∧ (i 1).val < win8_8.index t8_9 1 * 64 + 64; rw [e1]; omega

/-- After the region the second statistics array holds the second running row after all ten points. -/
theorem arrAt8_9_eq (c : Dev nD) : (dat8 V c).arrAt 9 cfg8.N = (acc8 V c 10).2 := by
  refine (dat8 V c).arrAt_eq_of_cover 9 ((acc8 V c 10).2) (fun t hf => ?_) (fun i => ?_)
  · show (cfg8.win 9).cut (grid8.coords t) ((dat8 V c).after 9 t) = _
    rw [after8_ss, last8_of_flush t ((flush8_9 t).mp hf)]
    refine funext fun (y : S1x64.Idx) => ?_
    rw [View.read_apply, cast_eq]
    refine congrArg (acc8 V c 10).2 (?_ : y = ((cfg8.win 9).blk t).view.emb y)
    obtain ⟨e0, e1⟩ := idx8_9 t
    funext a
    apply Fin.ext
    match a with
    | ⟨0, _⟩ => show (y 0).val = win8_9.index t 0 * 1 + 1 * (y 0).val; rw [e0]; omega
    | ⟨1, _⟩ => show (y 1).val = win8_9.index t 1 * 64 + 1 * (y 1).val; rw [e1]; omega
  · refine ⟨t8_9, (flush8_9 t8_9).mpr rfl, ?_⟩
    show i ∈ ((View.whole (Pipeline.arrRef spec8 9)).slice (win8_9.rect t8_9)).set
    rw [View.set_slice_whole, Rect.mem_set_unit]
    obtain ⟨e0, e1⟩ := idx8_9 t8_9
    have h0 : (i 0).val < 1 := (i 0).isLt
    have h1 : (i 1).val < 64 := (i 1).isLt
    intro a
    match a with
    | ⟨0, _⟩ => show win8_9.index t8_9 0 * 1 ≤ (i 0).val ∧ (i 0).val < win8_9.index t8_9 0 * 1 + 1; rw [e0]; omega
    | ⟨1, _⟩ => show win8_9.index t8_9 1 * 64 ≤ (i 1).val ∧ (i 1).val < win8_9.index t8_9 1 * 64 + 64; rw [e1]; omega

/-- After the region the first statistics array holds the column sums of the region's output. -/
theorem arrAt8_s (c : Dev nD) (j : Fin 64) : (dat8 V c).arrAt 8 cfg8.N (ix2 0 j) = colSum (Z8 V c) j := by
  rw [arrAt8_8_eq]
  exact Cert.ValLib.colSum_running 10 5000 (by decide) (Z8 V c) (fun n q => (acc8 V c n).1 (ix2 0 q))
    (fun t ht r c' => Z8 V c ⟨t * 5000 + r.val, rows8_lt ⟨t, lt_of_lt_of_eq ht N_8.symm⟩ r⟩ c') (fun _ _ _ _ => rfl)
    (fun q => by
      show (acc8 V c 0).1 (ix2 0 q) = 0
      rw [acc8_zero]
      exact PayVal.k8_pay4_apply q)
    (fun t ht q => acc8_s_step V c ⟨t, lt_of_lt_of_eq ht N_8.symm⟩ q) j

/-- After the region the second statistics array holds the column sums of squares of the region's output. -/
theorem arrAt8_ss (c : Dev nD) (j : Fin 64) : (dat8 V c).arrAt 9 cfg8.N (ix2 0 j) = colSumSq (Z8 V c) j := by
  rw [arrAt8_9_eq]
  exact Cert.ValLib.colSumSq_running 10 5000 (by decide) (Z8 V c) (fun n q => (acc8 V c n).2 (ix2 0 q))
    (fun t ht r c' => Z8 V c ⟨t * 5000 + r.val, rows8_lt ⟨t, lt_of_lt_of_eq ht N_8.symm⟩ r⟩ c') (fun _ _ _ _ => rfl)
    (fun q => by
      show (acc8 V c 0).2 (ix2 0 q) = 0
      rw [acc8_zero]
      exact PayVal.k8_pay5_apply q)
    (fun t ht q => acc8_ss_step V c ⟨t, lt_of_lt_of_eq ht N_8.symm⟩ q) j

end Cert.KernelIdeal.Val

end
-- ==== Proof.KI.Pay9.lean ====
/-
  The normalise-and-clip body, read at one entry on the extended reals.

  From the column-sum row s, the column-sum-of-squares row ss, the block z, the scale row g and the shift row be,
  the body forms the mean s * c and the variance ss * c - (s * c) * (s * c), where c is the reciprocal of the row
  count that the program carries under a name, and writes max ((z - mean) * rsqrt (variance + eps) * g + be) 0.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The block written back: batch normalisation from the two statistics rows, then the positive part. -/
theorem k9_pay1_apply (v0 : Vec Ideal S1x64 .f32) (v4 : Vec Ideal S1x64 .f32) (v10 : Vec Ideal S5000x64 .f32)
    (v19 : Vec Ideal S1x64 .f32) (v23 : Vec Ideal S1x64 .f32) (p : Fin 5000) (q : Fin 64) :
    Gen.k9_pay1 (F := Ideal) v0 v4 v10 v19 v23 (ix2 p q)
      = bnStats (Named.named (F := Ideal) κ "inv_50000" (φ := .f32) 0x37A7C5AC#32) (Ideal.ofBits .f32 0x3727C5AC#32)
          (fun i j => v10 (ix2 i j)) (fun j => v0 (ix2 0 j)) (fun j => v4 (ix2 0 j)) (fun j => v19 (ix2 0 j))
          (fun j => v23 (ix2 0 j)) p q := by
  unfold Gen.k9_pay1
  simp only [maximumf_apply, addf_apply, mulf_apply, subf_apply, broadcastTo_1b_ab_apply, shapeCast_self,
    broadcast_apply, Cert.PayLib.rsqrt_apply]
  rw [show Scalar.ofBits (F := Ideal) .f32 0x00000000#32 = 0 from Ideal.ofBits_zero_f32]
  rfl

end Cert.KernelIdeal.PayVal

end
-- ==== Proof.KI.Val9.lean ====
/-
  The batch-normalisation region of a layer, from blocks to the array, on the extended reals.

  The region's grid has ten points; point t works on rows t * 5000 .. t * 5000 + 4999 of a 50000 x 64 matrix. Its
  matrix windows (the input and the output) show row block t; its four row windows (column sums, column sums of
  squares, scale, shift) show the one 1 x 64 row at every point. At each point the body writes, over the whole
  output block, batch normalisation with the positive part of the input block by the four rows. Because that
  function is entrywise in the matrix and columnwise in the rows, block t of the output is block t of ONE function
  of the whole input arrays; the ten blocks tile the output array (row r lies in block r / 5000); so after the last
  write-back the output array is that function of the input arrays as the region found them, entry by entry.
-/
import proofs.«140206_j52750788330061_1_alg».proof.Proof.KI.Reg9
import proofs.«140206_j52750788330061_1_alg».proof.Proof.KI.Pay9
import proofs.«140206_j52750788330061_1_alg».proof.Proof.Spec
import Idealize.ShloMosaic.Lib.ValueIdx
import Idealize.ShloMosaic.Lib.Pipeline.Value
import Idealize.ShloMosaic.Lib.Tactic

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- A whole block is read and written from its origin. -/
theorem origin9 : (![0, 0] : Fin 2 → Nat) = fun _ => 0 := funext fun a => by fin_cases a <;> rfl

/-- Batch normalisation with the positive part is entrywise in the matrix and columnwise in the four rows: two
    instances agree at an entry as soon as the matrix entries and the four row entries there agree. -/
theorem bnEntry9 {n n' : Nat} (inv eps : EReal) (z : Mat n 64) (z' : Mat n' 64) (s ss g be s' ss' g' be' : Row)
    (i : Fin n) (i' : Fin n') (j : Fin 64) (hz : z i j = z' i' j) (hs : s j = s' j) (hss : ss j = ss' j)
    (hg : g j = g' j) (hbe : be j = be' j) :
    bnStats inv eps z s ss g be i j = bnStats inv eps z' s' ss' g' be' i' j := by
  unfold bnStats; rw [hz, hs, hss, hg, hbe]

/-- The output array of the region as one function of the five input arrays as the region finds them: batch
    normalisation of the 50000 x 64 matrix by the two statistics rows, the scale row and the shift row. -/
def bnArr9 (c : Dev nD) : S50000x64.Idx → EReal := fun k =>
  bnStats (Named.named (F := Ideal) κ "inv_50000" (φ := .f32) 0x37A7C5AC#32) (Ideal.ofBits .f32 0x3727C5AC#32)
    (fun i j => V c (Pipeline.arrRef spec9 0) (ix2 i j)) (fun j => V c (Pipeline.arrRef spec9 1) (ix2 0 j))
    (fun j => V c (Pipeline.arrRef spec9 2) (ix2 0 j)) (fun j => V c (Pipeline.arrRef spec9 3) (ix2 0 j))
    (fun j => V c (Pipeline.arrRef spec9 4) (ix2 0 j)) (k 0) (k 1)

/-- The block indices over the grid: the matrix windows (input 0, output 5) are at row block t, column block 0; the
    four row windows stay at block (0, 0). -/
theorem blockIndex9 : ∀ t : Fin cfg9.N,
    win9_0.index t (0 : Fin 2) = t.val ∧ win9_0.index t (1 : Fin 2) = 0
    ∧ win9_5.index t (0 : Fin 2) = t.val ∧ win9_5.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- The matrix block at point t, entry (p, q), is the matrix at row t * 5000 + p, column q. -/
theorem matBlock9_apply (c : Dev nD) (t : Fin cfg9.N) (p : Fin 5000) (q : Fin 64) (k : S50000x64.Idx)
    (hk0 : (k 0).val = t.val * 5000 + p.val) (hk1 : (k 1).val = q.val) :
    (iblk9 V c 0 t : Vec Ideal S5000x64 .f32) (ix2 p q) = (V c (Pipeline.arrRef spec9 0) : S50000x64.Idx → EReal) k := by
  obtain ⟨e0, e1, -⟩ := blockIndex9 t
  unfold iblk9
  rw [View.read_apply]
  refine congrArg (V c (Pipeline.arrRef spec9 0) : S50000x64.Idx → EReal) ?_
  funext a
  apply Fin.ext
  match a with
  | ⟨0, _⟩ => show win9_0.index t 0 * 5000 + 1 * p.val = (k 0).val; rw [e0, hk0]; omega
  | ⟨1, _⟩ => show win9_0.index t 1 * 64 + 1 * q.val = (k 1).val; rw [e1, hk1]; omega

/-- The column-sum row window shows the whole row at every point. -/
theorem rowBlock9_1_apply (c : Dev nD) (t : Fin cfg9.N) (q : Fin 64) :
    (iblk9 V c 1 t : Vec Ideal S1x64 .f32) (ix2 0 q) = (V c (Pipeline.arrRef spec9 1) : S1x64.Idx → EReal) (ix2 0 q) := by
  obtain ⟨-, -, -, -, e0, e1, -, -, -, -, -, -⟩ := blockIndex9 t
  unfold iblk9
  rw [View.read_apply]
  refine congrArg (V c (Pipeline.arrRef spec9 1) : S1x64.Idx → EReal) ?_
  funext a
  apply Fin.ext
  match a with
  | ⟨0, _⟩ => show win9_1.index t 0 * 1 + 1 * 0 = 0; rw [e0]
  | ⟨1, _⟩ => show win9_1.index t 1 * 64 + 1 * q.val = q.val; rw [e1]; omega

/-- The sum-of-squares row window shows the whole row at every point. -/
theorem rowBlock9_2_apply (c : Dev nD) (t : Fin cfg9.N) (q : Fin 64) :
    (iblk9 V c 2 t : Vec Ideal S1x64 .f32) (ix2 0 q) = (V c (Pipeline.arrRef spec9 2) : S1x64.Idx → EReal) (ix2 0 q) := by
  obtain ⟨-, -, -, -, -, -, e0, e1, -, -, -, -⟩ := blockIndex9 t
  unfold iblk9
  rw [View.read_apply]
  refine congrArg (V c (Pipeline.arrRef spec9 2) : S1x64.Idx → EReal) ?_
  funext a
  apply Fin.ext
  match a with
  | ⟨0, _⟩ => show win9_2.index t 0 * 1 + 1 * 0 = 0; rw [e0]
  | ⟨1, _⟩ => show win9_2.index t 1 * 64 + 1 * q.val = q.val; rw [e1]; omega

/-- The scale row window shows the whole row at every point. -/
theorem rowBlock9_3_apply (c : Dev nD) (t : Fin cfg9.N) (q : Fin 64) :
    (iblk9 V c 3 t : Vec Ideal S1x64 .f32) (ix2 0 q) = (V c (Pipeline.arrRef spec9 3) : S1x64.Idx → EReal) (ix2 0 q) := by
  obtain ⟨-, -, -, -, -, -, -, -, e0, e1, -, -⟩ := blockIndex9 t
  unfold iblk9
  rw [View.read_apply]
  refine congrArg (V c (Pipeline.arrRef spec9 3) : S1x64.Idx → EReal) ?_
  funext a
  apply Fin.ext
  match a with
  | ⟨0, _⟩ => show win9_3.index t 0 * 1 + 1 * 0 = 0; rw [e0]
  | ⟨1, _⟩ => show win9_3.index t 1 * 64 + 1 * q.val = q.val; rw [e1]; omega

/-- The shift row window shows the whole row at every point. -/
theorem rowBlock9_4_apply (c : Dev nD) (t : Fin cfg9.N) (q : Fin 64) :
    (iblk9 V c 4 t : Vec Ideal S1x64 .f32) (ix2 0 q) = (V c (Pipeline.arrRef spec9 4) : S1x64.Idx → EReal) (ix2 0 q) := by
  obtain ⟨-, -, -, -, -, -, -, -, -, -, e0, e1⟩ := blockIndex9 t
  unfold iblk9
  rw [View.read_apply]
  refine congrArg (V c (Pipeline.arrRef spec9 4) : S1x64.Idx → EReal) ?_
  funext a
  apply Fin.ext
  match a with
  | ⟨0, _⟩ => show win9_4.index t 0 * 1 + 1 * 0 = 0; rw [e0]
  | ⟨1, _⟩ => show win9_4.index t 1 * 64 + 1 * q.val = q.val; rw [e1]; omega

/-- What point t writes back is block t of the region's output function. The body's one store leaves its payload
    over the whole block; at entry (p, q) the payload is batch normalisation of the blocks, which reads the matrix
    block at (p, q) and the four rows at q; the matrix block's entry (p, q) is the matrix entry in row
    t * 5000 + p, which is where the output block's entry (p, q) lies in the output array. -/
theorem flushed9_eq (c : Dev nD) (t : Fin cfg9.N) :
    (dat9 V c).flushed 5 t = ((cfg9.win 5).blk t).view.read (Elt Ideal) (bnArr9 V c) := by
  show (cfg9.win 5).cut (grid9.coords t) ((dat9 V c).after 5 t) = _
  rw [after9_5]
  unfold out9_5
  rw [View.canon_unit_zero origin9]
  simp only [View.ld_unit_zero (S := S5000x64) origin9, View.ld_unit_zero (S := S1x64) origin9]
  obtain ⟨-, -, e0, e1, -⟩ := blockIndex9 t
  funext y
  obtain ⟨p, q, rfl⟩ : ∃ (p : Fin 5000) (q : Fin 64), y = ix2 p q := ⟨y 0, y 1, eq_ix2 y⟩
  show k9_pay1 (iblk9 V c 1 t) (iblk9 V c 2 t) (iblk9 V c 0 t) (iblk9 V c 3 t) (iblk9 V c 4 t) (ix2 p q)
    = bnArr9 V c (((cfg9.win 5).blk t).view.emb (ix2 p q))
  refine (Cert.KernelIdeal.PayVal.k9_pay1_apply _ _ _ _ _ p q).trans ?_
  unfold bnArr9
  have hrow : ((((cfg9.win 5).blk t).view.emb (ix2 p q) : S50000x64.Idx) 0).val = t.val * 5000 + p.val := by
    show win9_5.index t 0 * 5000 + 1 * p.val = _; rw [e0]; omega
  have hcol : ((((cfg9.win 5).blk t).view.emb (ix2 p q) : S50000x64.Idx) 1).val = q.val := by
    show win9_5.index t 1 * 64 + 1 * q.val = _; rw [e1]; omega
  have hq : ((((cfg9.win 5).blk t).view.emb (ix2 p q) : S50000x64.Idx) 1) = q := Fin.ext hcol
  rw [hq]
  refine bnEntry9 _ _ _ _ _ _ _ _ _ _ _ _ _ _ q ?_ ?_ ?_ ?_ ?_
  · exact (matBlock9_apply V c t p q _ hrow hcol).trans (congrArg _ (Shape.idx_ext₂ rfl hcol))
  · exact rowBlock9_1_apply V c t q
  · exact rowBlock9_2_apply V c t q
  · exact rowBlock9_3_apply V c t q
  · exact rowBlock9_4_apply V c t q

/-- An index of the output array lies in point t's block exactly when each coordinate lies in the block's range. -/
theorem mem_blk9 (t : Fin cfg9.N) (i : S50000x64.Idx) :
    i ∈ ((cfg9.win 5).blk t).view.set ↔ ∀ a : Fin 2, win9_5.index t a * S5000x64.size a ≤ (i a).val ∧ (i a).val < win9_5.index t a * S5000x64.size a + S5000x64.size a := by
  show i ∈ ((View.whole (Pipeline.arrRef spec9 5)).slice (win9_5.rect t)).set ↔ _
  rw [View.set_slice_whole, Rect.mem_set_unit]
  exact Iff.rfl

/-- Every index of the output array lies in the block of a point that writes back: row r lies in the block of
    point r / 5000, and the one column block spans all 64 columns. -/
theorem cover9 (i : S50000x64.Idx) :
    ∃ t : Fin cfg9.N, (cfg9.win 5).flush t = true ∧ i ∈ ((cfg9.win 5).blk t).view.set := by
  have h0 : (i 0).val < 50000 := (i 0).isLt
  have h1 : (i 1).val < 64 := (i 1).isLt
  have hN : grid9.N = 10 := N_9
  let t : Fin cfg9.N := ⟨(i 0).val / 5000, by show _ < grid9.N; rw [hN]; omega⟩
  obtain ⟨-, -, e0, e1, -⟩ := blockIndex9 t
  have ht : t.val = (i 0).val / 5000 := rfl
  refine ⟨t, flush9_5 t, ?_⟩
  rw [mem_blk9]
  intro a
  match a with
  | ⟨0, _⟩ => show win9_5.index t 0 * 5000 ≤ (i 0).val ∧ (i 0).val < win9_5.index t 0 * 5000 + 5000; rw [e0, ht]; omega
  | ⟨1, _⟩ => show win9_5.index t 1 * 64 ≤ (i 1).val ∧ (i 1).val < win9_5.index t 1 * 64 + 64; rw [e1]; omega

/-- The output array after the region's last write-back is the region's output function of the input arrays. -/
theorem arrAt9_eq (c : Dev nD) : (dat9 (F := Ideal) V c).arrAt 5 cfg9.N = bnArr9 V c :=
  (dat9 V c).arrAt_eq_of_cover 5 (bnArr9 V c) (fun t _ => flushed9_eq V c t) (cover9)

/-- Entry (i, j) of the output array after the region: batch normalisation with the positive part of the matrix
    the region finds in its first window, by the statistics, scale and shift rows it finds in the next four. -/
theorem arrAt9_apply (c : Dev nD) (i : Fin 50000) (j : Fin 64) :
    (dat9 (F := Ideal) V c).arrAt 5 cfg9.N (ix2 i j)
      = bnStats (Named.named (F := Ideal) κ "inv_50000" (φ := .f32) 0x37A7C5AC#32) (Ideal.ofBits .f32 0x3727C5AC#32)
          (fun i j => V c (Pipeline.arrRef spec9 0) (ix2 i j)) (fun j => V c (Pipeline.arrRef spec9 1) (ix2 0 j))
          (fun j => V c (Pipeline.arrRef spec9 2) (ix2 0 j)) (fun j => V c (Pipeline.arrRef spec9 3) (ix2 0 j))
          (fun j => V c (Pipeline.arrRef spec9 4) (ix2 0 j)) i j := by
  rw [arrAt9_eq]
  rfl

end Cert.KernelIdeal.Val
end
-- ==== Proof.KI.Layer2.lean ====
/-
  The kernel side of layer 2 as one equation.  The layer is three kernel regions with host stretches between them.  The
  first leaves the linear map of the mixed features and that matrix's column sums and column sums of squares; the
  second normalises by those statistics, takes the positive part, applies the second linear map and leaves its two
  column statistics; the third normalises by them.  Each region's arrays are read through its value lemma at the
  contents it is entered with; what it is entered with is, window by window, what the region before left (the host
  stretch in between does not write it) or a row of a stacked parameter that nothing writes.  Chaining the three
  gives the layer's output as one layer by column statistics of the features the layer before left.  Every intermediate
  matrix is kept under a name, and each step is a congruence on the entries an expression reads; nothing is unfolded.
-/
import proofs.«140206_j52750788330061_1_alg».proof.Proof.KI.Fold
import proofs.«140206_j52750788330061_1_alg».proof.Proof.KI.Glue.Layer2
import proofs.«140206_j52750788330061_1_alg».proof.Proof.KI.ValLib
import proofs.«140206_j52750788330061_1_alg».proof.Proof.KI.Val7
import proofs.«140206_j52750788330061_1_alg».proof.Proof.KI.Val8
import proofs.«140206_j52750788330061_1_alg».proof.Proof.KI.Val9
import proofs.«140206_j52750788330061_1_alg».proof.Proof.Agg
import proofs.«140206_j52750788330061_1_alg».proof.Proof.Spec
import Idealize.ShloMosaic.Lib.ValueIdx

noncomputable section

namespace Cert.KernelIdeal.Net

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Glue Cert.Spec

variable (m : (ℓ : Loc nD τ sig) → Buf (Elt Ideal) ℓ) (c : Dev nD)

/-- The reciprocal of the row count and the variance offset, as the program spells them. -/
abbrev INV_L2 : EReal := Named.named (F := Ideal) κ "inv_50000" (φ := .f32) 0x37A7C5AC#32
abbrev EPS_L2 : EReal := Ideal.ofBits .f32 0x3727C5AC#32

/-! ## Layer 2's operands, off the launch memory and the features the layer before left -/

/-- The self-weight row: one plus entry 2 of the self-weights, in every column. -/
def e_L2 : Row := fun _ => 1 + (m ((c : Thread nD τ).loc main_arg6) : S4.Idx → EReal) (ix1 2)
/-- The node features the layer is entered with. -/
def h_L2 : Mat 50000 64 := fun i j => (X14 m c main_v85 : S50000x64.Idx → EReal) (ix2 i j)
/-- Their sums over each node's neighbours along the edge list. -/
def ag_L2 : Mat 50000 64 := fun i j => Cert.Agg.aggOf (X14 m c main_v85) (m ((c : Thread nD τ).loc main_arg2)) (ix2 i j)
/-- The layer's two weight matrices and its bias, scale and shift rows: matrix 2, row 2 of the stacked parameters. -/
def w1_L2 : Mat 64 64 := fun t j => (m ((c : Thread nD τ).loc main_arg7) : S4x64x64.Idx → EReal) (ix3 2 t j)
def b1_L2 : Row := fun j => (m ((c : Thread nD τ).loc main_arg8) : S4x64.Idx → EReal) (ix2 2 j)
def g1_L2 : Row := fun j => (m ((c : Thread nD τ).loc main_arg9) : S4x64.Idx → EReal) (ix2 2 j)
def be1_L2 : Row := fun j => (m ((c : Thread nD τ).loc main_arg10) : S4x64.Idx → EReal) (ix2 2 j)
def w2_L2 : Mat 64 64 := fun t j => (m ((c : Thread nD τ).loc main_arg11) : S4x64x64.Idx → EReal) (ix3 2 t j)
def b2_L2 : Row := fun j => (m ((c : Thread nD τ).loc main_arg12) : S4x64.Idx → EReal) (ix2 2 j)
def g2_L2 : Row := fun j => (m ((c : Thread nD τ).loc main_arg13) : S4x64.Idx → EReal) (ix2 2 j)
def be2_L2 : Row := fun j => (m ((c : Thread nD τ).loc main_arg14) : S4x64.Idx → EReal) (ix2 2 j)

/-! ## The layer's intermediate matrices, named -/

/-- The first linear map of the mixed features. -/
def z1_L2 : Mat 50000 64 := affine (mix (e_L2 m c) (h_L2 m c) (ag_L2 m c)) (w1_L2 m c) (b1_L2 m c)
/-- Its batch normalisation by its own column statistics, positive part. -/
def a1_L2 : Mat 50000 64 := bnStats INV_L2 EPS_L2 (z1_L2 m c) (colSum (z1_L2 m c)) (colSumSq (z1_L2 m c)) (g1_L2 m c) (be1_L2 m c)
/-- The second linear map. -/
def z2_L2 : Mat 50000 64 := affine (a1_L2 m c) (w2_L2 m c) (b2_L2 m c)

/-! ## Arrays read as matrices and rows -/

/-- A `[50000,64]` array as a matrix, a `[1,64]` array as its row, a `[64,64]` array as a matrix. -/
abbrev mat_L2 (X : S50000x64.Idx → EReal) : Mat 50000 64 := fun i j => X (ix2 i j)
abbrev row_L2 (X : S1x64.Idx → EReal) : Row := fun j => X (ix2 0 j)
abbrev sqm_L2 (X : S64x64.Idx → EReal) : Mat 64 64 := fun t j => X (ix2 t j)

/-! ## What each region's value lemma reads its entry contents as -/

/-- Region 1's affine matrix, read off the contents `V` the region is entered with. -/
abbrev z1V_L2 (V : (c : Dev nD) → (b : Ref sig .tc) → Buf (Elt Ideal) ((c : Thread nD τ).loc b)) (c : Dev nD) : Mat 50000 64 :=
  affine (mix (row_L2 (V c main_v103)) (mat_L2 (V c main_v85)) (mat_L2 (V c main_v95))) (sqm_L2 (V c main_v99)) (row_L2 (V c main_v104))

/-- Region 2's affine matrix, read off the contents `V` the region is entered with. -/
abbrev z2V_L2 (V : (c : Dev nD) → (b : Ref sig .tc) → Buf (Elt Ideal) ((c : Thread nD τ).loc b)) (c : Dev nD) : Mat 50000 64 :=
  affine (bnStats INV_L2 EPS_L2 (mat_L2 (V c main_v105_0)) (row_L2 (V c main_v105_1)) (row_L2 (V c main_v105_2)) (row_L2 (V c main_v114)) (row_L2 (V c main_v115)))
    (sqm_L2 (V c main_v111)) (row_L2 (V c main_v116))

/-! ## Region 1: the first linear map and its two column statistics -/

/-! What region 1 is entered with (`X15`), window by window, as the layer's operands. -/
theorem e_atA_L2 (t : Fin 64) : row_L2 (X15 m c main_v103) t = e_L2 m c t := X15_epsb m c 0 t
theorem h_atA_L2 (i : Fin 50000) (t : Fin 64) : mat_L2 (X15 m c main_v85) i t = h_L2 m c i t := congrFun (X15_h m c) (ix2 i t)
theorem ag_atA_L2 (i : Fin 50000) (t : Fin 64) : mat_L2 (X15 m c main_v95) i t = ag_L2 m c i t := by
  unfold ag_L2; rw [X15_agg, Cert.Agg.aggK_eq_aggOf]
theorem w1_atA_L2 (t q : Fin 64) : sqm_L2 (X15 m c main_v99) t q = w1_L2 m c t q := X15_W1 m c t q
theorem b1_atA_L2 (q : Fin 64) : row_L2 (X15 m c main_v104) q = b1_L2 m c q := X15_b1 m c 0 q

/-- So region 1's affine matrix is the layer's first linear map. -/
theorem z1_entry_L2 (i : Fin 50000) (j : Fin 64) : z1V_L2 (tcOf (X15 m)) c i j = z1_L2 m c i j :=
  Cert.ValLib.affine_mix_congr (row_L2 (X15 m c main_v103)) (e_L2 m c) (mat_L2 (X15 m c main_v85)) (mat_L2 (X15 m c main_v95)) (h_L2 m c) (ag_L2 m c)
    (sqm_L2 (X15 m c main_v99)) (w1_L2 m c) (row_L2 (X15 m c main_v104)) (b1_L2 m c) i i
    (e_atA_L2 m c) (h_atA_L2 m c i) (ag_atA_L2 m c i) (w1_atA_L2 m c) (b1_atA_L2 m c) j

theorem z1_fun_L2 : z1V_L2 (tcOf (X15 m)) c = z1_L2 m c := funext fun i => funext fun j => z1_entry_L2 m c i j

/-- What region 1 leaves in its three output arrays. -/
theorem xa_z_L2 : X16 m c main_v105_0 = (dat7 (F := Ideal) (tcOf (X15 m)) c).arrAt 5 cfg7.N := by
  unfold X16; exact upd3_a _ _ _ _ _ _ _ (by decide) (by decide)
theorem xa_s_L2 : X16 m c main_v105_1 = (dat7 (F := Ideal) (tcOf (X15 m)) c).arrAt 6 cfg7.N := by
  unfold X16; exact upd3_b _ _ _ _ _ _ _ (by decide)
theorem xa_ss_L2 : X16 m c main_v105_2 = (dat7 (F := Ideal) (tcOf (X15 m)) c).arrAt 7 cfg7.N := by
  unfold X16; exact upd3_c _ _ _ _ _ _ _

theorem ra_z_L2 (i : Fin 50000) (j : Fin 64) : mat_L2 (X16 m c main_v105_0) i j = z1_L2 m c i j := by
  rw [xa_z_L2]; exact (Cert.KernelIdeal.Val.arrAt7_z (tcOf (X15 m)) c i j).trans (z1_entry_L2 m c i j)
theorem ra_s_L2 (j : Fin 64) : row_L2 (X16 m c main_v105_1) j = colSum (z1_L2 m c) j := by
  rw [xa_s_L2]; exact (Cert.KernelIdeal.Val.arrAt7_s (tcOf (X15 m)) c j).trans (congrArg (fun y => colSum y j) (z1_fun_L2 m c))
theorem ra_ss_L2 (j : Fin 64) : row_L2 (X16 m c main_v105_2) j = colSumSq (z1_L2 m c) j := by
  rw [xa_ss_L2]; exact (Cert.KernelIdeal.Val.arrAt7_ss (tcOf (X15 m)) c j).trans (congrArg (fun y => colSumSq y j) (z1_fun_L2 m c))

/-! ## Region 2: the normalised activations and the second linear map -/

/-! What region 2 is entered with (`X17`): region 1's three arrays, carried through the host stretch, and row 2 / matrix 2
    of the next parameters. -/
theorem z_atB_L2 (i : Fin 50000) (t : Fin 64) : mat_L2 (X17 m c main_v105_0) i t = z1_L2 m c i t :=
  (congrFun (X17_z m c) (ix2 i t)).trans (ra_z_L2 m c i t)
theorem s_atB_L2 (t : Fin 64) : row_L2 (X17 m c main_v105_1) t = colSum (z1_L2 m c) t :=
  (congrFun (X17_s m c) (ix2 0 t)).trans (ra_s_L2 m c t)
theorem ss_atB_L2 (t : Fin 64) : row_L2 (X17 m c main_v105_2) t = colSumSq (z1_L2 m c) t :=
  (congrFun (X17_ss m c) (ix2 0 t)).trans (ra_ss_L2 m c t)
theorem g1_atB_L2 (t : Fin 64) : row_L2 (X17 m c main_v114) t = g1_L2 m c t := X17_g1 m c 0 t
theorem be1_atB_L2 (t : Fin 64) : row_L2 (X17 m c main_v115) t = be1_L2 m c t := X17_be1 m c 0 t
theorem w2_atB_L2 (t q : Fin 64) : sqm_L2 (X17 m c main_v111) t q = w2_L2 m c t q := X17_W2 m c t q
theorem b2_atB_L2 (q : Fin 64) : row_L2 (X17 m c main_v116) q = b2_L2 m c q := X17_b2 m c 0 q

/-- Region 2 normalises what region 1 left by region 1's own column statistics. -/
theorem a1_entry_L2 (i : Fin 50000) (t : Fin 64) :
    bnStats INV_L2 EPS_L2 (mat_L2 (X17 m c main_v105_0)) (row_L2 (X17 m c main_v105_1)) (row_L2 (X17 m c main_v105_2)) (row_L2 (X17 m c main_v114)) (row_L2 (X17 m c main_v115)) i t
      = a1_L2 m c i t :=
  Cert.ValLib.bnStats_congr INV_L2 EPS_L2 (mat_L2 (X17 m c main_v105_0)) (z1_L2 m c) (row_L2 (X17 m c main_v105_1)) (colSum (z1_L2 m c))
    (row_L2 (X17 m c main_v105_2)) (colSumSq (z1_L2 m c)) (row_L2 (X17 m c main_v114)) (g1_L2 m c) (row_L2 (X17 m c main_v115)) (be1_L2 m c) i i t
    (z_atB_L2 m c i t) (s_atB_L2 m c t) (ss_atB_L2 m c t) (g1_atB_L2 m c t) (be1_atB_L2 m c t)

/-- So region 2's affine matrix is the layer's second linear map. -/
theorem z2_entry_L2 (i : Fin 50000) (j : Fin 64) : z2V_L2 (tcOf (X17 m)) c i j = z2_L2 m c i j :=
  Cert.ValLib.affine_congr
    (bnStats INV_L2 EPS_L2 (mat_L2 (X17 m c main_v105_0)) (row_L2 (X17 m c main_v105_1)) (row_L2 (X17 m c main_v105_2)) (row_L2 (X17 m c main_v114)) (row_L2 (X17 m c main_v115)))
    (a1_L2 m c) (sqm_L2 (X17 m c main_v111)) (w2_L2 m c) (row_L2 (X17 m c main_v116)) (b2_L2 m c) i i
    (a1_entry_L2 m c i) (w2_atB_L2 m c) (b2_atB_L2 m c) j

theorem z2_fun_L2 : z2V_L2 (tcOf (X17 m)) c = z2_L2 m c := funext fun i => funext fun j => z2_entry_L2 m c i j

/-- What region 2 leaves in its three output arrays. -/
theorem xb_z_L2 : X18 m c main_v117_0 = (dat8 (F := Ideal) (tcOf (X17 m)) c).arrAt 7 cfg8.N := by
  unfold X18; exact upd3_a _ _ _ _ _ _ _ (by decide) (by decide)
theorem xb_s_L2 : X18 m c main_v117_1 = (dat8 (F := Ideal) (tcOf (X17 m)) c).arrAt 8 cfg8.N := by
  unfold X18; exact upd3_b _ _ _ _ _ _ _ (by decide)
theorem xb_ss_L2 : X18 m c main_v117_2 = (dat8 (F := Ideal) (tcOf (X17 m)) c).arrAt 9 cfg8.N := by
  unfold X18; exact upd3_c _ _ _ _ _ _ _

theorem rb_z_L2 (i : Fin 50000) (j : Fin 64) : mat_L2 (X18 m c main_v117_0) i j = z2_L2 m c i j := by
  rw [xb_z_L2]; exact (Cert.KernelIdeal.Val.arrAt8_z (tcOf (X17 m)) c i j).trans (z2_entry_L2 m c i j)
theorem rb_s_L2 (j : Fin 64) : row_L2 (X18 m c main_v117_1) j = colSum (z2_L2 m c) j := by
  rw [xb_s_L2]; exact (Cert.KernelIdeal.Val.arrAt8_s (tcOf (X17 m)) c j).trans (congrArg (fun y => colSum y j) (z2_fun_L2 m c))
theorem rb_ss_L2 (j : Fin 64) : row_L2 (X18 m c main_v117_2) j = colSumSq (z2_L2 m c) j := by
  rw [xb_ss_L2]; exact (Cert.KernelIdeal.Val.arrAt8_ss (tcOf (X17 m)) c j).trans (congrArg (fun y => colSumSq y j) (z2_fun_L2 m c))

/-! ## Region 3: the layer's output -/

/-! What region 3 is entered with (`X19`): region 2's three arrays and row 2 of the second scale and shift. -/
theorem z_atC_L2 (i : Fin 50000) (j : Fin 64) : mat_L2 (X19 m c main_v117_0) i j = z2_L2 m c i j :=
  (congrFun (X19_z m c) (ix2 i j)).trans (rb_z_L2 m c i j)
theorem s_atC_L2 (j : Fin 64) : row_L2 (X19 m c main_v117_1) j = colSum (z2_L2 m c) j :=
  (congrFun (X19_s m c) (ix2 0 j)).trans (rb_s_L2 m c j)
theorem ss_atC_L2 (j : Fin 64) : row_L2 (X19 m c main_v117_2) j = colSumSq (z2_L2 m c) j :=
  (congrFun (X19_ss m c) (ix2 0 j)).trans (rb_ss_L2 m c j)
theorem g2_atC_L2 (j : Fin 64) : row_L2 (X19 m c main_v122) j = g2_L2 m c j := X19_g2 m c 0 j
theorem be2_atC_L2 (j : Fin 64) : row_L2 (X19 m c main_v123) j = be2_L2 m c j := X19_be2 m c 0 j

/-- What region 3 leaves in its output array. -/
theorem xc_out_L2 : X20 m c main_v124 = (dat9 (F := Ideal) (tcOf (X19 m)) c).arrAt 5 cfg9.N := by
  unfold X20; exact upd1_a _ _ _

/-- The layer's output, over the named intermediates. -/
theorem layer2_named (i : Fin 50000) (j : Fin 64) :
    mat_L2 (X20 m c main_v124) i j
      = bnStats INV_L2 EPS_L2 (z2_L2 m c) (colSum (z2_L2 m c)) (colSumSq (z2_L2 m c)) (g2_L2 m c) (be2_L2 m c) i j := by
  rw [xc_out_L2]
  exact (Cert.KernelIdeal.Val.arrAt9_apply (tcOf (X19 m)) c i j).trans
    (Cert.ValLib.bnStats_congr INV_L2 EPS_L2 (mat_L2 (X19 m c main_v117_0)) (z2_L2 m c) (row_L2 (X19 m c main_v117_1)) (colSum (z2_L2 m c))
      (row_L2 (X19 m c main_v117_2)) (colSumSq (z2_L2 m c)) (row_L2 (X19 m c main_v122)) (g2_L2 m c) (row_L2 (X19 m c main_v123)) (be2_L2 m c) i i j
      (z_atC_L2 m c i j) (s_atC_L2 m c j) (ss_atC_L2 m c j) (g2_atC_L2 m c j) (be2_atC_L2 m c j))

/-- THE KERNEL SIDE OF LAYER 2 AS ONE EQUATION: what region 3 leaves, entry by entry, is one layer by column statistics of
    the features the layer before left, their neighbour sums, and matrix 2 / row 2 of the stacked parameters. -/
theorem layer2 (i : Fin 50000) (j : Fin 64) :
    (X20 m c main_v124 : S50000x64.Idx → EReal) (ix2 i j)
      = Cert.Spec.layerStats INV_L2 EPS_L2
          (fun _ => 1 + (m ((c : Thread nD τ).loc main_arg6) : S4.Idx → EReal) (ix1 2))
          (fun i j => (X14 m c main_v85 : S50000x64.Idx → EReal) (ix2 i j))
          (fun i j => Cert.Agg.aggOf (X14 m c main_v85) (m ((c : Thread nD τ).loc main_arg2)) (ix2 i j))
          (fun t j => (m ((c : Thread nD τ).loc main_arg7) : S4x64x64.Idx → EReal) (ix3 2 t j))
          (fun j => (m ((c : Thread nD τ).loc main_arg8) : S4x64.Idx → EReal) (ix2 2 j))
          (fun j => (m ((c : Thread nD τ).loc main_arg9) : S4x64.Idx → EReal) (ix2 2 j))
          (fun j => (m ((c : Thread nD τ).loc main_arg10) : S4x64.Idx → EReal) (ix2 2 j))
          (fun t j => (m ((c : Thread nD τ).loc main_arg11) : S4x64x64.Idx → EReal) (ix3 2 t j))
          (fun j => (m ((c : Thread nD τ).loc main_arg12) : S4x64.Idx → EReal) (ix2 2 j))
          (fun j => (m ((c : Thread nD τ).loc main_arg13) : S4x64.Idx → EReal) (ix2 2 j))
          (fun j => (m ((c : Thread nD τ).loc main_arg14) : S4x64.Idx → EReal) (ix2 2 j)) i j :=
  layer2_named m c i j

end Cert.KernelIdeal.Net
end
-- ==== Proof.KI.Glue.Host10.lean ====
/-
  The host operations before layer 3's first region, read back over whatever contents they are entered with: the bias
  row and the weight matrix are row 3 and matrix 3 of the stacked parameters, the self-weight row is one plus entry 3
  of the self-weights in every column, and the neighbour sum is the composed gather and scatter-add along the two
  vectors of node numbers found in the incoming contents.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The bias row of the first linear map: row 3 of the stack of bias rows. -/
theorem host10_b1 (u : Fin 1) (j : Fin 64) :
    (StableHlo.after hostOps10 Y main_v143 : S1x64.Idx → EReal) (ix2 u j) = (Y main_arg8 : S4x64.Idx → EReal) (ix2 3 j) := by
  have e : (StableHlo.after hostOps10 Y main_v143 : S1x64.Idx → EReal)
      = shapeCast S1x64 (shapeCast S64 (extractStridedSlice S1x64 ![3, 0] (Y main_arg8 : S4x64.Idx → EReal)
          slices_S4x64_S1x64_3_0) shapeCasts_S1x64_S64) shapeCasts_S64_S1x64 := by
    dsimp only [hostOps10]; after_results; rfl
  rw [e, shapeCast_a_1a_apply, shapeCast_1a_a_apply, row_slice_apply 3 (by decide)]
  rfl

/-- The weight matrix of the first linear map: matrix 3 of the stack. -/
theorem host10_W1 (t j : Fin 64) :
    (StableHlo.after hostOps10 Y main_v138 : S64x64.Idx → EReal) (ix2 t j) = (Y main_arg7 : S4x64x64.Idx → EReal) (ix3 3 t j) := by
  have e : (StableHlo.after hostOps10 Y main_v138 : S64x64.Idx → EReal)
      = shapeCast S64x64 (extractStridedSlice S1x64x64 ![3, 0, 0] (Y main_arg7 : S4x64x64.Idx → EReal)
          slices_S4x64x64_S1x64x64_3_0_0) shapeCasts_S1x64x64_S64x64 := by
    dsimp only [hostOps10]; after_results; rfl
  rw [e, shapeCast_1ab_ab_apply, mat_slice_apply 3 (by decide)]
  rfl

/-- The self-weight row: one plus entry 3 of the vector of self-weights, in every column. -/
theorem host10_epsb (u : Fin 1) (j : Fin 64) :
    (StableHlo.after hostOps10 Y main_v142 : S1x64.Idx → EReal) (ix2 u j)
      = ((1 : EReal) + (Y main_arg6 : S4.Idx → EReal) (ix1 3) : EReal) := by
  have e : (StableHlo.after hostOps10 Y main_v142 : S1x64.Idx → EReal)
      = broadcastInDim S1x64 ![] bcast_S_S1x64 (addf (constant (F := Ideal) S_ .f32 0x3F800000#32)
          (shapeCast S_ (extractStridedSlice S1 ![3] (Y main_arg6 : S4.Idx → EReal) slices_S4_S1_3) shapeCasts_S1_S_)) := by
    dsimp only [hostOps10]; after_results; rfl
  rw [e, spread_number_apply, addf_apply, constant_apply, Ideal.ofBits_one_f32, number_of_vec1_apply,
    entry_slice_apply 3 (by decide)]
  rfl

/-- The neighbour sum of the features the stretch is entered with, along the node-number vectors it is entered with. -/
theorem host10_agg :
    (StableHlo.after hostOps10 Y main_v134 : (⟨S50000x64, .f32⟩ : BufTy).Contents (Elt Ideal))
      = aggFrom (Y main_v124) (Y main_v4) (Y main_v6) := by
  dsimp only [hostOps10]; after_results_simp; try rfl

end Cert.KernelIdeal.Glue

end
-- ==== Proof.KI.Glue.Host11.lean ====
/-
  The host operations before layer 3's second region, read back over whatever contents they are entered with: the
  scale and shift rows of the first normalisation, the second weight matrix and its bias row are row 3, or matrix 3, of
  the stacked parameters.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The scale row of the first normalisation: row 3 of the stack. -/
theorem host11_g1 (u : Fin 1) (j : Fin 64) :
    (StableHlo.after hostOps11 Y main_v153 : S1x64.Idx → EReal) (ix2 u j) = (Y main_arg9 : S4x64.Idx → EReal) (ix2 3 j) := by
  have e : (StableHlo.after hostOps11 Y main_v153 : S1x64.Idx → EReal)
      = shapeCast S1x64 (shapeCast S64 (extractStridedSlice S1x64 ![3, 0] (Y main_arg9 : S4x64.Idx → EReal)
          slices_S4x64_S1x64_3_0) shapeCasts_S1x64_S64) shapeCasts_S64_S1x64 := by
    dsimp only [hostOps11]; after_results; rfl
  rw [e, shapeCast_a_1a_apply, shapeCast_1a_a_apply, row_slice_apply 3 (by decide)]
  rfl

/-- The shift row of the first normalisation: row 3 of the stack. -/
theorem host11_be1 (u : Fin 1) (j : Fin 64) :
    (StableHlo.after hostOps11 Y main_v154 : S1x64.Idx → EReal) (ix2 u j) = (Y main_arg10 : S4x64.Idx → EReal) (ix2 3 j) := by
  have e : (StableHlo.after hostOps11 Y main_v154 : S1x64.Idx → EReal)
      = shapeCast S1x64 (shapeCast S64 (extractStridedSlice S1x64 ![3, 0] (Y main_arg10 : S4x64.Idx → EReal)
          slices_S4x64_S1x64_3_0) shapeCasts_S1x64_S64) shapeCasts_S64_S1x64 := by
    dsimp only [hostOps11]; after_results; rfl
  rw [e, shapeCast_a_1a_apply, shapeCast_1a_a_apply, row_slice_apply 3 (by decide)]
  rfl

/-- The weight matrix of the second linear map: matrix 3 of the stack. -/
theorem host11_W2 (t j : Fin 64) :
    (StableHlo.after hostOps11 Y main_v150 : S64x64.Idx → EReal) (ix2 t j) = (Y main_arg11 : S4x64x64.Idx → EReal) (ix3 3 t j) := by
  have e : (StableHlo.after hostOps11 Y main_v150 : S64x64.Idx → EReal)
      = shapeCast S64x64 (extractStridedSlice S1x64x64 ![3, 0, 0] (Y main_arg11 : S4x64x64.Idx → EReal)
          slices_S4x64x64_S1x64x64_3_0_0) shapeCasts_S1x64x64_S64x64 := by
    dsimp only [hostOps11]; after_results; rfl
  rw [e, shapeCast_1ab_ab_apply, mat_slice_apply 3 (by decide)]
  rfl

/-- The bias row of the second linear map: row 3 of the stack. -/
theorem host11_b2 (u : Fin 1) (j : Fin 64) :
    (StableHlo.after hostOps11 Y main_v155 : S1x64.Idx → EReal) (ix2 u j) = (Y main_arg12 : S4x64.Idx → EReal) (ix2 3 j) := by
  have e : (StableHlo.after hostOps11 Y main_v155 : S1x64.Idx → EReal)
      = shapeCast S1x64 (shapeCast S64 (extractStridedSlice S1x64 ![3, 0] (Y main_arg12 : S4x64.Idx → EReal)
          slices_S4x64_S1x64_3_0) shapeCasts_S1x64_S64) shapeCasts_S64_S1x64 := by
    dsimp only [hostOps11]; after_results; rfl
  rw [e, shapeCast_a_1a_apply, shapeCast_1a_a_apply, row_slice_apply 3 (by decide)]
  rfl

end Cert.KernelIdeal.Glue

end
-- ==== Proof.KI.Glue.Host12.lean ====
/-
  The host operations before layer 3's third region, read back over whatever contents they are entered with: the
  scale and shift rows of the second normalisation are row 3 of the stacked parameters.
-/
import proofs.«140206_j52750788330061_1_alg».proof.Proof.Gen.KernelIdeal.Launch
import proofs.«140206_j52750788330061_1_alg».proof.Proof.KI.Glue.Layout
import proofs.«140206_j52750788330061_1_alg».proof.Proof.KI.Glue.AggDef
import Idealize.ShloMosaic.Lib.StableHlo.Run

noncomputable section

namespace Cert.KernelIdeal.Glue

open Idealize.ShloMosaic Idealize.ShloMosaic.TcCoe Idealize.ShloMosaic.ValueIdx
open Cert.KernelIdeal.Gen

variable (Y : Valuation τ sig (Elt Ideal))

/-- The scale row of the second normalisation: row 3 of the stack. -/
theorem host12_g2 (u : Fin 1) (j : Fin 64) :
    (StableHlo.after hostOps12 Y main_v161 : S1x64.Idx → EReal) (ix2 u j) = (Y main_arg13 : S4x64.Idx → EReal) (ix2 3 j) := by
  have e : (StableHlo.after hostOps12 Y main_v161 : S1x64.Idx → EReal)
      = shapeCast S1x64 (shapeCast S64 (extractStridedSlice S1x64 ![3, 0] (Y main_arg13 : S4x64.Idx → EReal)
          slices_S4x64_S1x64_3_0) shapeCasts_S1x64_S64) shapeCasts_S64_S1x64 := by
    dsimp only [hostOps12]; after_results; rfl
  rw [e, shapeCast_a_1a_apply, shapeCast_1a_a_apply, row_slice_apply 3 (by decide)]
  rfl

/-- The shift row of the second normalisation: row 3 of the stack. -/
theorem host12_be2 (u : Fin 1) (j : Fin 64) :
    (StableHlo.after hostOps12 Y main_v162 : S1x64.Idx → EReal) (ix2 u j) = (Y main_arg14 : S4x64.Idx → EReal) (ix2 3 j) := by
  have e : (StableHlo.after hostOps12 Y main_v162 : S1x64.Idx → EReal)
      = shapeCast S1x64 (shapeCast S64 (extractStridedSlice S1x64 ![3, 0] (Y main_arg14 : S4x64.Idx → EReal)
          slices_S4x64_S1x64_3_0) shapeCasts_S1x64_S64) shapeCasts_S64_S1x64 := by
    dsimp only [hostOps12]; after_results; rfl
  rw [e, shapeCast_a_1a_apply, shapeCast_1a_a_apply, row_slice_apply 3 (by decide)]
  rfl

end Cert.KernelIdeal.Glue

end
-- ==== Proof.KI.Glue.Layer3.lean ====
/-
  What layer 3's three regions are entered with, in terms of the launch memory and of what the region before left.
  A window that stages a previous region's output holds that output, since the host stretch in between does not write
  it.  A parameter window holds row 3 (or matrix 3) of the stacked parameter it was cut from, the parameter being an
  argument that nothing writes.  The self-weight row is one plus entry 3 of the self-weights.  The neighbour-sum window
  is the composed gather and scatter-add of the features the layer before left, along the edge list, whose two vectors
  of node numbers were cut before layer 0 and left alone since.
-/
import proofs.«140206_j52750788330061_1_alg».proof.Proof.KI.Glue.Edges
import proofs.«140206_j52750788330061_1_alg».proof.Proof.KI.Glue.Host10
import proofs.«140206_j52750788330061_1_alg».proof.Proof.KI.Glue.Host11
import proofs.«140206_j52750788330061_1_alg».proof.Proof.KI.Glue.Host12

noncomputable section

namespace Cert.KernelIdeal.Glue

open Idealize.ShloMosaic Idealize.ShloMosaic.TcCoe Idealize.ShloMosaic.ValueIdx
open Idealize.SL Idealize.SL.Sem
open Cert.KernelIdeal.Gen

variable (m : (ℓ : Loc nD τ sig) → Buf (Elt Ideal) ℓ) (c : Dev nD)

/-! ### The first region of layer 3 (region 10), entered at `X21` -/

/-- The features window: what region 9 left. -/
theorem X21_h : X21 m c main_v124 = X20 m c main_v124 := X21_of m c main_v124 (by decide)

/-- The neighbour-sum window. -/
theorem X21_agg :
    (X21 m c main_v134 : (⟨S50000x64, .f32⟩ : BufTy).Contents (Elt Ideal))
      = aggK (X20 m c main_v124) (m ((c : Thread nD τ).loc main_arg2)) :=
  (host10_agg (X20 m c)).trans (by rw [X20_src m c, X20_dst m c]; rfl)

/-- The self-weight window. -/
theorem X21_epsb (u : Fin 1) (j : Fin 64) :
    (X21 m c main_v142 : S1x64.Idx → EReal) (ix2 u j)
      = ((1 : EReal) + (m ((c : Thread nD τ).loc main_arg6) : S4.Idx → EReal) (ix1 3) : EReal) :=
  (host10_epsb (X20 m c) u j).trans (by rw [X20_launch m c main_arg6 (by decide)])

/-- The first weight window. -/
theorem X21_W1 (t j : Fin 64) :
    (X21 m c main_v138 : S64x64.Idx → EReal) (ix2 t j)
      = (m ((c : Thread nD τ).loc main_arg7) : S4x64x64.Idx → EReal) (ix3 3 t j) :=
  (host10_W1 (X20 m c) t j).trans (by rw [X20_launch m c main_arg7 (by decide)])

/-- The first bias window. -/
theorem X21_b1 (u : Fin 1) (j : Fin 64) :
    (X21 m c main_v143 : S1x64.Idx → EReal) (ix2 u j)
      = (m ((c : Thread nD τ).loc main_arg8) : S4x64.Idx → EReal) (ix2 3 j) :=
  (host10_b1 (X20 m c) u j).trans (by rw [X20_launch m c main_arg8 (by decide)])

/-! ### The second region of layer 3 (region 11), entered at `X23` -/

/-- The pre-activation window: what region 10 left. -/
theorem X23_z : X23 m c main_v144_0 = X22 m c main_v144_0 := X23_of m c main_v144_0 (by decide)
/-- The column-sum window: what region 10 left. -/
theorem X23_s : X23 m c main_v144_1 = X22 m c main_v144_1 := X23_of m c main_v144_1 (by decide)
/-- The column-sum-of-squares window: what region 10 left. -/
theorem X23_ss : X23 m c main_v144_2 = X22 m c main_v144_2 := X23_of m c main_v144_2 (by decide)

/-- The first scale window. -/
theorem X23_g1 (u : Fin 1) (j : Fin 64) :
    (X23 m c main_v153 : S1x64.Idx → EReal) (ix2 u j)
      = (m ((c : Thread nD τ).loc main_arg9) : S4x64.Idx → EReal) (ix2 3 j) :=
  (host11_g1 (X22 m c) u j).trans (by rw [X22_launch m c main_arg9 (by decide)])

/-- The first shift window. -/
theorem X23_be1 (u : Fin 1) (j : Fin 64) :
    (X23 m c main_v154 : S1x64.Idx → EReal) (ix2 u j)
      = (m ((c : Thread nD τ).loc main_arg10) : S4x64.Idx → EReal) (ix2 3 j) :=
  (host11_be1 (X22 m c) u j).trans (by rw [X22_launch m c main_arg10 (by decide)])

/-- The second weight window. -/
theorem X23_W2 (t j : Fin 64) :
    (X23 m c main_v150 : S64x64.Idx → EReal) (ix2 t j)
      = (m ((c : Thread nD τ).loc main_arg11) : S4x64x64.Idx → EReal) (ix3 3 t j) :=
  (host11_W2 (X22 m c) t j).trans (by rw [X22_launch m c main_arg11 (by decide)])

/-- The second bias window. -/
theorem X23_b2 (u : Fin 1) (j : Fin 64) :
    (X23 m c main_v155 : S1x64.Idx → EReal) (ix2 u j)
      = (m ((c : Thread nD τ).loc main_arg12) : S4x64.Idx → EReal) (ix2 3 j) :=
  (host11_b2 (X22 m c) u j).trans (by rw [X22_launch m c main_arg12 (by decide)])

/-! ### The third region of layer 3 (region 12), entered at `X25` -/

/-- The pre-activation window: what region 11 left. -/
theorem X25_z : X25 m c main_v156_0 = X24 m c main_v156_0 := X25_of m c main_v156_0 (by decide)
/-- The column-sum window: what region 11 left. -/
theorem X25_s : X25 m c main_v156_1 = X24 m c main_v156_1 := X25_of m c main_v156_1 (by decide)
/-- The column-sum-of-squares window: what region 11 left. -/
theorem X25_ss : X25 m c main_v156_2 = X24 m c main_v156_2 := X25_of m c main_v156_2 (by decide)

/-- The second scale window. -/
theorem X25_g2 (u : Fin 1) (j : Fin 64) :
    (X25 m c main_v161 : S1x64.Idx → EReal) (ix2 u j)
      = (m ((c : Thread nD τ).loc main_arg13) : S4x64.Idx → EReal) (ix2 3 j) :=
  (host12_g2 (X24 m c) u j).trans (by rw [X24_launch m c main_arg13 (by decide)])

/-- The second shift window. -/
theorem X25_be2 (u : Fin 1) (j : Fin 64) :
    (X25 m c main_v162 : S1x64.Idx → EReal) (ix2 u j)
      = (m ((c : Thread nD τ).loc main_arg14) : S4x64.Idx → EReal) (ix2 3 j) :=
  (host12_be2 (X24 m c) u j).trans (by rw [X24_launch m c main_arg14 (by decide)])

end Cert.KernelIdeal.Glue

end
-- ==== Proof.KI.Pay10.lean ====
/-
  The linear-with-statistics body, read at one entry on the extended reals.

  From the scale row e, the node block h, the neighbour block agg, the weight W and the bias b the body forms
  z = (e * h + agg) W + b on its 5000 x 64 row block; it adds the column sums of z to one running row and hands
  the column sums of z * z on to be added to a second running row; at the first grid point both running rows
  are set to zero.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The layer's product has the plain dimension numbers: left contracted on axis 1, right on axis 0. -/
theorem k10_dot_plain : dot_S5000x64_S64x64_S5000x64_1_0_0_1_n_n = DotDims.plain 5000 64 64 := rfl

/-- The block written back: the mixed features times the weight, plus the bias. -/
theorem k10_pay4_apply (v3 : Vec Ideal S1x64 .f32) (v5 : Vec Ideal S5000x64 .f32) (v9 : Vec Ideal S5000x64 .f32)
    (v13 : Vec Ideal S64x64 .f32) (v17 : Vec Ideal S1x64 .f32) (p : Fin 5000) (q : Fin 64) :
    Gen.k10_pay4 (F := Ideal) v3 v5 v9 v13 v17 (ix2 p q)
      = affine (mix (fun j => v3 (ix2 0 j)) (fun i j => v5 (ix2 i j)) (fun i j => v9 (ix2 i j)))
          (fun t j => v13 (ix2 t j)) (fun j => v17 (ix2 0 j)) p q := by
  unfold Gen.k10_pay4
  rw [addf_apply, k10_dot_plain, Cert.PayLib.plainProduct_apply, broadcastTo_1b_ab_apply]
  simp only [truncf_apply, addf_apply, mulf_apply, shapeCast_self, broadcastTo_1b_ab_apply]
  rfl

/-- The first running row after the body: its old value plus the column sums of the block. -/
theorem k10_pay5_apply (v3 : Vec Ideal S1x64 .f32) (v5 : Vec Ideal S5000x64 .f32) (v9 : Vec Ideal S5000x64 .f32)
    (v13 : Vec Ideal S64x64 .f32) (v17 : Vec Ideal S1x64 .f32) (v22 : Vec Ideal S1x64 .f32) (q : Fin 64) :
    Gen.k10_pay5 (F := Ideal) v3 v5 v9 v13 v17 v22 (ix2 0 q)
      = v22 (ix2 0 q) + colSum (fun i j => Gen.k10_pay4 (F := Ideal) v3 v5 v9 v13 v17 (ix2 i j)) q := by
  unfold Gen.k10_pay5
  dsimp only
  rw [shapeCast_self, addf_apply, shapeCast_a_1a_apply, Cert.PayLib.rowSum_apply]
  rfl

/-- The row handed on to the second running row: the column sums of the block's squares. -/
theorem k10_pay6_apply (v3 : Vec Ideal S1x64 .f32) (v5 : Vec Ideal S5000x64 .f32) (v9 : Vec Ideal S5000x64 .f32)
    (v13 : Vec Ideal S64x64 .f32) (v17 : Vec Ideal S1x64 .f32) (q : Fin 64) :
    Gen.k10_pay6 (F := Ideal) v3 v5 v9 v13 v17 (ix2 0 q)
      = colSumSq (fun i j => Gen.k10_pay4 (F := Ideal) v3 v5 v9 v13 v17 (ix2 i j)) q := by
  unfold Gen.k10_pay6
  dsimp only
  rw [shapeCast_a_1a_apply, Cert.PayLib.rowSum_apply]
  rfl

/-- The second running row after the body: its old value plus the row handed on. -/
theorem k10_pay1_apply (v29 : Vec Ideal S1x64 .f32) (v32 : FVec Ideal S1x64 .f32) (q : Fin 64) :
    Gen.k10_pay1 (F := Ideal) v29 v32 (ix2 0 q) = v29 (ix2 0 q) + v32 (ix2 0 q) := by
  unfold Gen.k10_pay1
  rw [shapeCast_self, addf_apply]

/-- At the first grid point the first running row is set to zero. -/
theorem k10_pay2_apply (q : Fin 64) : Gen.k10_pay2 (F := Ideal) (ix2 0 q) = 0 := by
  unfold Gen.k10_pay2
  rw [shapeCast_self, broadcast_apply]
  exact Ideal.ofBits_zero_f32

/-- At the first grid point the second running row is set to zero. -/
theorem k10_pay3_apply (q : Fin 64) : Gen.k10_pay3 (F := Ideal) (ix2 0 q) = 0 := by
  unfold Gen.k10_pay3
  rw [shapeCast_self, broadcast_apply]
  exact Ideal.ofBits_zero_f32

end Cert.KernelIdeal.PayVal

end
-- ==== Proof.KI.Val10.lean ====
/-
  From row blocks to whole arrays, for the linear-with-statistics region, on the extended reals.

  The region walks ten grid points; point t stages rows t * 5000 … t * 5000 + 4999 of the node features and of the
  neighbour features, and the whole of the scale row, the weight and the bias row.  What the body writes back at
  point t is therefore rows t * 5000 … of one matrix over all 50000 rows, the linear layer's output
  Z = (e * h + agg) W + b; the ten blocks tile the output array, so the array ends holding Z.  The two running rows
  start at zero, point t adds the column sums (the column sums of squares) of its rows of Z, and the last point alone
  writes them back; so the two statistics arrays end holding the column sums and the column sums of squares of Z.
-/
import proofs.«140206_j52750788330061_1_alg».proof.Proof.KI.Reg10
import proofs.«140206_j52750788330061_1_alg».proof.Proof.KI.Pay10
import proofs.«140206_j52750788330061_1_alg».proof.Proof.KI.ValLib
import proofs.«140206_j52750788330061_1_alg».proof.Proof.Spec
import proofs.«140206_j52750788330061_1_alg».proof.Proof.SpecAlg
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Spec

variable (V : (c : Dev nD) → (b : Ref sig .tc) → Buf (Elt Ideal) ((c : Thread nD τ).loc b))

/-! ## Where the windows' blocks lie -/

/-- Where the index maps put each window's block at grid point t: the three row-block windows (node features,
    neighbour features, output) at block row t, the five whole-array windows at the origin. -/
theorem idx10_facts : ∀ t : Fin cfg10.N,
    win10_0.index t 0 = t.val ∧ win10_0.index t 1 = 0 ∧ win10_1.index t 0 = t.val ∧ win10_1.index t 1 = 0
    ∧ win10_2.index t 0 = 0 ∧ win10_2.index t 1 = 0 ∧ win10_3.index t 0 = 0 ∧ win10_3.index t 1 = 0
    ∧ win10_4.index t 0 = 0 ∧ win10_4.index t 1 = 0 ∧ win10_5.index t 0 = t.val ∧ win10_5.index t 1 = 0
    ∧ win10_6.index t 0 = 0 ∧ win10_6.index t 1 = 0 ∧ win10_7.index t 0 = 0 ∧ win10_7.index t 1 = 0 :=
  (by decide +kernel : ∀ t : Fin grid10.N, _)

/-- Row p of block t is a row of the array. -/
theorem rows10_lt (t : Fin cfg10.N) (p : Fin 5000) : t.val * 5000 + p.val < 50000 := by
  have ht : t.val < 10 := lt_of_lt_of_eq t.isLt N_10
  have hp := p.isLt
  omega

/-- The node-feature block at point t is rows t * 5000 … of the node-feature array. -/
theorem iblk10_0_apply (c : Dev nD) (t : Fin cfg10.N) (p : Fin 5000) (q : Fin 64) :
    (iblk10 V c 0 t : Vec Ideal S5000x64 .f32) (ix2 p q)
      = V c (Pipeline.arrRef spec10 0) (ix2 ⟨t.val * 5000 + p.val, rows10_lt t p⟩ q) := by
  unfold iblk10
  rw [View.read_apply]
  show V c (Pipeline.arrRef spec10 0) _ = V c (Pipeline.arrRef spec10 0) _
  congr 1
  funext a
  apply Fin.ext
  obtain ⟨e0, e1, -⟩ := idx10_facts t
  match a with
  | ⟨0, _⟩ => show win10_0.index t 0 * 5000 + 1 * p.val = t.val * 5000 + p.val; rw [e0]; omega
  | ⟨1, _⟩ => show win10_0.index t 1 * 64 + 1 * q.val = q.val; rw [e1]; omega

/-- The neighbour-feature block at point t is rows t * 5000 … of the neighbour-feature array. -/
theorem iblk10_1_apply (c : Dev nD) (t : Fin cfg10.N) (p : Fin 5000) (q : Fin 64) :
    (iblk10 V c 1 t : Vec Ideal S5000x64 .f32) (ix2 p q)
      = V c (Pipeline.arrRef spec10 1) (ix2 ⟨t.val * 5000 + p.val, rows10_lt t p⟩ q) := by
  unfold iblk10
  rw [View.read_apply]
  show V c (Pipeline.arrRef spec10 1) _ = V c (Pipeline.arrRef spec10 1) _
  congr 1
  funext a
  apply Fin.ext
  obtain ⟨-, -, e0, e1, -⟩ := idx10_facts t
  match a with
  | ⟨0, _⟩ => show win10_1.index t 0 * 5000 + 1 * p.val = t.val * 5000 + p.val; rw [e0]; omega
  | ⟨1, _⟩ => show win10_1.index t 1 * 64 + 1 * q.val = q.val; rw [e1]; omega

/-- The scale row's block at every point is the scale row. -/
theorem iblk10_2_apply (c : Dev nD) (t : Fin cfg10.N) (q : Fin 64) :
    (iblk10 V c 2 t : Vec Ideal S1x64 .f32) (ix2 0 q) = V c (Pipeline.arrRef spec10 2) (ix2 0 q) := by
  unfold iblk10
  rw [View.read_apply]
  show V c (Pipeline.arrRef spec10 2) _ = V c (Pipeline.arrRef spec10 2) _
  congr 1
  funext a
  apply Fin.ext
  obtain ⟨-, -, -, -, e0, e1, -⟩ := idx10_facts t
  match a with
  | ⟨0, _⟩ => show win10_2.index t 0 * 1 + 1 * 0 = 0; rw [e0]
  | ⟨1, _⟩ => show win10_2.index t 1 * 64 + 1 * q.val = q.val; rw [e1]; omega

/-- The weight's block at every point is the weight. -/
theorem iblk10_3_apply (c : Dev nD) (t : Fin cfg10.N) (a' : Fin 64) (q : Fin 64) :
    (iblk10 V c 3 t : Vec Ideal S64x64 .f32) (ix2 a' q) = V c (Pipeline.arrRef spec10 3) (ix2 a' q) := by
  unfold iblk10
  rw [View.read_apply]
  show V c (Pipeline.arrRef spec10 3) _ = V c (Pipeline.arrRef spec10 3) _
  congr 1
  funext a
  apply Fin.ext
  obtain ⟨-, -, -, -, -, -, e0, e1, -⟩ := idx10_facts t
  match a with
  | ⟨0, _⟩ => show win10_3.index t 0 * 64 + 1 * a'.val = a'.val; rw [e0]; omega
  | ⟨1, _⟩ => show win10_3.index t 1 * 64 + 1 * q.val = q.val; rw [e1]; omega

/-- The bias row's block at every point is the bias row. -/
theorem iblk10_4_apply (c : Dev nD) (t : Fin cfg10.N) (q : Fin 64) :
    (iblk10 V c 4 t : Vec Ideal S1x64 .f32) (ix2 0 q) = V c (Pipeline.arrRef spec10 4) (ix2 0 q) := by
  unfold iblk10
  rw [View.read_apply]
  show V c (Pipeline.arrRef spec10 4) _ = V c (Pipeline.arrRef spec10 4) _
  congr 1
  funext a
  apply Fin.ext
  obtain ⟨-, -, -, -, -, -, -, -, e0, e1, -⟩ := idx10_facts t
  match a with
  | ⟨0, _⟩ => show win10_4.index t 0 * 1 + 1 * 0 = 0; rw [e0]
  | ⟨1, _⟩ => show win10_4.index t 1 * 64 + 1 * q.val = q.val; rw [e1]; omega

/-! ## The linear layer's output over the whole array -/

/-- The linear layer's output: the mixed features of all 50000 rows times the weight, plus the bias. -/
abbrev Z10 (c : Dev nD) : Mat 50000 64 :=
  affine (mix (fun j => V c (Pipeline.arrRef spec10 2) (ix2 0 j)) (fun i j => V c (Pipeline.arrRef spec10 0) (ix2 i j))
      (fun i j => V c (Pipeline.arrRef spec10 1) (ix2 i j)))
    (fun t j => V c (Pipeline.arrRef spec10 3) (ix2 t j)) (fun j => V c (Pipeline.arrRef spec10 4) (ix2 0 j))

/-- What the body computes from the blocks at point t is rows t * 5000 … of that output. -/
theorem block10_z (c : Dev nD) (t : Fin cfg10.N) (p : Fin 5000) (q : Fin 64) :
    k10_pay4 (F := Ideal) (iblk10 V c 2 t) (iblk10 V c 0 t) (iblk10 V c 1 t) (iblk10 V c 3 t) (iblk10 V c 4 t) (ix2 p q)
      = Z10 V c ⟨t.val * 5000 + p.val, rows10_lt t p⟩ q :=
  (PayVal.k10_pay4_apply (iblk10 V c 2 t) (iblk10 V c 0 t) (iblk10 V c 1 t) (iblk10 V c 3 t) (iblk10 V c 4 t) p q).trans
    (Cert.ValLib.affine_mix_congr _ _ _ _ _ _ _ _ _ _ p ⟨t.val * 5000 + p.val, rows10_lt t p⟩
      (fun s => iblk10_2_apply V c t s) (fun s => iblk10_0_apply V c t p s) (fun s => iblk10_1_apply V c t p s)
      (fun s s' => iblk10_3_apply V c t s s') (fun s => iblk10_4_apply V c t s) q)

/-- What point t writes back to the output array is block t of the linear layer's output. -/
theorem flushed10_z (c : Dev nD) (t : Fin cfg10.N) :
    (dat10 V c).flushed 5 t
      = ((cfg10.win 5).blk t).view.read (Elt Ideal) (fun i : S50000x64.Idx => Z10 V c (i 0) (i 1)) := by
  show (cfg10.win 5).cut (grid10.coords t) ((dat10 V c).after 5 t) = _
  rw [after10_big]
  refine funext fun (y : S5000x64.Idx) => ?_
  obtain ⟨p, q, rfl⟩ : ∃ (p : Fin 5000) (q : Fin 64), y = ix2 p q := ⟨y 0, y 1, eq_ix2 y⟩
  rw [View.read_apply]
  refine (block10_z V c t p q).trans ?_
  rw [cast_eq]
  obtain ⟨-, -, -, -, -, -, -, -, -, -, e0, e1, -⟩ := idx10_facts t
  have h0 : t.val * 5000 + p.val = ((((cfg10.win 5).blk t).view.emb (ix2 p q) : S50000x64.Idx) 0).val := by
    show _ = win10_5.index t 0 * 5000 + 1 * p.val
    rw [e0]; omega
  have h1 : q.val = ((((cfg10.win 5).blk t).view.emb (ix2 p q) : S50000x64.Idx) 1).val := by
    show _ = win10_5.index t 1 * 64 + 1 * q.val
    rw [e1]; omega
  exact congrArg₂ (Z10 V c) (Fin.ext h0) (Fin.ext h1)

/-- Every row of the output array lies in the block of the point that is the row's number divided by 5000. -/
theorem cover10_z (i : S50000x64.Idx) :
    ∃ t : Fin cfg10.N, (cfg10.win 5).flush t = true ∧ i ∈ ((cfg10.win 5).blk t).view.set := by
  have hi : (i 0).val < 50000 := (i 0).isLt
  have hq : (i 1).val < 64 := (i 1).isLt
  have hN : cfg10.N = 10 := N_10
  have ht : (i 0).val / 5000 < cfg10.N := by rw [hN]; omega
  refine ⟨⟨(i 0).val / 5000, ht⟩, flush10_5 _, ?_⟩
  show i ∈ ((View.whole (Pipeline.arrRef spec10 5)).slice (win10_5.rect ⟨(i 0).val / 5000, ht⟩)).set
  rw [View.set_slice_whole, Rect.mem_set_unit]
  obtain ⟨-, -, -, -, -, -, -, -, -, -, e0, e1, -⟩ := idx10_facts ⟨(i 0).val / 5000, ht⟩
  intro a
  match a with
  | ⟨0, _⟩ =>
    show win10_5.index ⟨(i 0).val / 5000, ht⟩ 0 * 5000 ≤ (i 0).val
      ∧ (i 0).val < win10_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win10_5.index ⟨(i 0).val / 5000, ht⟩ 1 * 64 ≤ (i 1).val
      ∧ (i 1).val < win10_5.index ⟨(i 0).val / 5000, ht⟩ 1 * 64 + 64
    rw [e1]; omega

/-- After the region the output array holds the linear layer's output. -/
theorem arrAt10_z (c : Dev nD) (i : Fin 50000) (j : Fin 64) : (dat10 V c).arrAt 5 cfg10.N (ix2 i j) = Z10 V c i j :=
  congrFun ((dat10 V c).arrAt_eq_of_cover 5 (fun i : S50000x64.Idx => Z10 V c (i 0) (i 1)) (fun t _ => flushed10_z V c t)
    (cover10_z)) (ix2 i j)

/-! ## The two statistics rows -/

/-- One point's step of the first running row: it adds the column sums of the point's rows of the output. -/
theorem acc10_s_step (c : Dev nD) (n : ℕ) (h : n < cfg10.N) (q : Fin 64) :
    (acc10 V c (n + 1)).1 (ix2 0 q)
      = (acc10 V c n).1 (ix2 0 q)
        + colSum (fun (r : Fin 5000) j => Z10 V c ⟨n * 5000 + r.val, rows10_lt ⟨n, h⟩ r⟩ j) q := by
  rw [acc10_succ V c n h]
  refine (PayVal.k10_pay5_apply (iblk10 V c 2 ⟨n, h⟩) (iblk10 V c 0 ⟨n, h⟩) (iblk10 V c 1 ⟨n, h⟩) (iblk10 V c 3 ⟨n, h⟩)
    (iblk10 V c 4 ⟨n, h⟩) (acc10 V c n).1 q).trans ?_
  refine congrArg (_ + ·) ?_
  unfold colSum
  exact Finset.sum_congr rfl fun r _ => block10_z V c ⟨n, h⟩ r q

/-- One point's step of the second running row: it adds the column sums of squares of the point's rows. -/
theorem acc10_ss_step (c : Dev nD) (n : ℕ) (h : n < cfg10.N) (q : Fin 64) :
    (acc10 V c (n + 1)).2 (ix2 0 q)
      = (acc10 V c n).2 (ix2 0 q)
        + colSumSq (fun (r : Fin 5000) j => Z10 V c ⟨n * 5000 + r.val, rows10_lt ⟨n, h⟩ r⟩ j) q := by
  rw [acc10_succ V c n h]
  refine (PayVal.k10_pay1_apply (acc10 V c n).2 (k10_pay6 (F := Ideal) (iblk10 V c 2 ⟨n, h⟩) (iblk10 V c 0 ⟨n, h⟩)
    (iblk10 V c 1 ⟨n, h⟩) (iblk10 V c 3 ⟨n, h⟩) (iblk10 V c 4 ⟨n, h⟩)) q).trans ?_
  refine congrArg (_ + ·) ?_
  refine (PayVal.k10_pay6_apply (iblk10 V c 2 ⟨n, h⟩) (iblk10 V c 0 ⟨n, h⟩) (iblk10 V c 1 ⟨n, h⟩) (iblk10 V c 3 ⟨n, h⟩)
    (iblk10 V c 4 ⟨n, h⟩) q).trans ?_
  unfold colSumSq
  exact Finset.sum_congr rfl fun r _ =>
    congrArg₂ (· * ·) (block10_z V c ⟨n, h⟩ r q) (block10_z V c ⟨n, h⟩ r q)

/-- The only point that writes a statistics row back is the last one. -/
theorem last10_of_flush (t : Fin cfg10.N) (h : t.val % 10 = 9) : t.val + 1 = 10 := by
  have h2 : t.val < 10 := lt_of_lt_of_eq t.isLt N_10
  omega

/-- After the region the first statistics array holds the first running row after all ten points. -/
theorem arrAt10_6_eq (c : Dev nD) : (dat10 V c).arrAt 6 cfg10.N = (acc10 V c 10).1 := by
  refine (dat10 V c).arrAt_eq_of_cover 6 ((acc10 V c 10).1) (fun t hf => ?_) (fun i => ?_)
  · show (cfg10.win 6).cut (grid10.coords t) ((dat10 V c).after 6 t) = _
    rw [after10_6, last10_of_flush t ((flush10_6 t).mp hf)]
    refine funext fun (y : S1x64.Idx) => ?_
    rw [View.read_apply, cast_eq]
    refine congrArg (acc10 V c 10).1 (?_ : y = ((cfg10.win 6).blk t).view.emb y)
    obtain ⟨-, -, -, -, -, -, -, -, -, -, -, -, e0, e1, -⟩ := idx10_facts t
    funext a
    apply Fin.ext
    match a with
    | ⟨0, _⟩ => show (y 0).val = win10_6.index t 0 * 1 + 1 * (y 0).val; rw [e0]; omega
    | ⟨1, _⟩ => show (y 1).val = win10_6.index t 1 * 64 + 1 * (y 1).val; rw [e1]; omega
  · refine ⟨t10_9, (flush10_6 t10_9).mpr rfl, ?_⟩
    show i ∈ ((View.whole (Pipeline.arrRef spec10 6)).slice (win10_6.rect t10_9)).set
    rw [View.set_slice_whole, Rect.mem_set_unit]
    obtain ⟨-, -, -, -, -, -, -, -, -, -, -, -, e0, e1, -⟩ := idx10_facts t10_9
    have h0 : (i 0).val < 1 := (i 0).isLt
    have h1 : (i 1).val < 64 := (i 1).isLt
    intro a
    match a with
    | ⟨0, _⟩ => show win10_6.index t10_9 0 * 1 ≤ (i 0).val ∧ (i 0).val < win10_6.index t10_9 0 * 1 + 1; rw [e0]; omega
    | ⟨1, _⟩ => show win10_6.index t10_9 1 * 64 ≤ (i 1).val ∧ (i 1).val < win10_6.index t10_9 1 * 64 + 64; rw [e1]; omega

/-- After the region the second statistics array holds the second running row after all ten points. -/
theorem arrAt10_7_eq (c : Dev nD) : (dat10 V c).arrAt 7 cfg10.N = (acc10 V c 10).2 := by
  refine (dat10 V c).arrAt_eq_of_cover 7 ((acc10 V c 10).2) (fun t hf => ?_) (fun i => ?_)
  · show (cfg10.win 7).cut (grid10.coords t) ((dat10 V c).after 7 t) = _
    rw [after10_7, last10_of_flush t ((flush10_7 t).mp hf)]
    refine funext fun (y : S1x64.Idx) => ?_
    rw [View.read_apply, cast_eq]
    refine congrArg (acc10 V c 10).2 (?_ : y = ((cfg10.win 7).blk t).view.emb y)
    obtain ⟨-, -, -, -, -, -, -, -, -, -, -, -, -, -, e0, e1⟩ := idx10_facts t
    funext a
    apply Fin.ext
    match a with
    | ⟨0, _⟩ => show (y 0).val = win10_7.index t 0 * 1 + 1 * (y 0).val; rw [e0]; omega
    | ⟨1, _⟩ => show (y 1).val = win10_7.index t 1 * 64 + 1 * (y 1).val; rw [e1]; omega
  · refine ⟨t10_9, (flush10_7 t10_9).mpr rfl, ?_⟩
    show i ∈ ((View.whole (Pipeline.arrRef spec10 7)).slice (win10_7.rect t10_9)).set
    rw [View.set_slice_whole, Rect.mem_set_unit]
    obtain ⟨-, -, -, -, -, -, -, -, -, -, -, -, -, -, e0, e1⟩ := idx10_facts t10_9
    have h0 : (i 0).val < 1 := (i 0).isLt
    have h1 : (i 1).val < 64 := (i 1).isLt
    intro a
    match a with
    | ⟨0, _⟩ => show win10_7.index t10_9 0 * 1 ≤ (i 0).val ∧ (i 0).val < win10_7.index t10_9 0 * 1 + 1; rw [e0]; omega
    | ⟨1, _⟩ => show win10_7.index t10_9 1 * 64 ≤ (i 1).val ∧ (i 1).val < win10_7.index t10_9 1 * 64 + 64; rw [e1]; omega

/-- After the region the first statistics array holds the column sums of the linear layer's output. -/
theorem arrAt10_s (c : Dev nD) (j : Fin 64) : (dat10 V c).arrAt 6 cfg10.N (ix2 0 j) = colSum (Z10 V c) j := by
  rw [arrAt10_6_eq]
  exact Cert.ValLib.colSum_running 10 5000 (by decide) (Z10 V c) (fun n q => (acc10 V c n).1 (ix2 0 q))
    (fun t ht r c' => Z10 V c ⟨t * 5000 + r.val, rows10_lt ⟨t, lt_of_lt_of_eq ht N_10.symm⟩ r⟩ c') (fun _ _ _ _ => rfl)
    (fun q => by
      show (acc10 V c 0).1 (ix2 0 q) = 0
      rw [acc10_zero]
      exact PayVal.k10_pay2_apply q)
    (fun t ht q => acc10_s_step V c t (lt_of_lt_of_eq ht N_10.symm) q) j

/-- After the region the second statistics array holds the column sums of squares of the linear layer's output. -/
theorem arrAt10_ss (c : Dev nD) (j : Fin 64) : (dat10 V c).arrAt 7 cfg10.N (ix2 0 j) = colSumSq (Z10 V c) j := by
  rw [arrAt10_7_eq]
  exact Cert.ValLib.colSumSq_running 10 5000 (by decide) (Z10 V c) (fun n q => (acc10 V c n).2 (ix2 0 q))
    (fun t ht r c' => Z10 V c ⟨t * 5000 + r.val, rows10_lt ⟨t, lt_of_lt_of_eq ht N_10.symm⟩ r⟩ c') (fun _ _ _ _ => rfl)
    (fun q => by
      show (acc10 V c 0).2 (ix2 0 q) = 0
      rw [acc10_zero]
      exact PayVal.k10_pay3_apply q)
    (fun t ht q => acc10_ss_step V c t (lt_of_lt_of_eq ht N_10.symm) q) j

end Cert.KernelIdeal.Val

end
-- ==== Proof.KI.Pay11.lean ====
/-
  The normalise-multiply-with-statistics body, read at one entry on the extended reals.

  From the statistics rows s and ss of the incoming block z, the scale row g and the shift row be, the body forms
  a = max ((z - mean) * rsqrt (variance + eps) * g + be) 0 with mean s * c and variance ss * c - (s * c) * (s * c),
  c the named reciprocal of the row count; it multiplies a by the weight W, and only then, in a second step, adds
  the bias row b to give the block y it writes back.  It adds the column sums of y to one running row and the
  column sums of y * y to a second running row; at the first grid point both running rows are set to zero.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The layer's product has the plain dimension numbers: left contracted on axis 1, right on axis 0. -/
theorem k11_dot_plain : dot_S5000x64_S64x64_S5000x64_1_0_0_1_n_n = DotDims.plain 5000 64 64 := rfl

/-- The product alone, before the bias: the normalised, clipped block times the weight. -/
theorem k11_pay6_apply (v3 : Vec Ideal S1x64 .f32) (v7 : Vec Ideal S1x64 .f32) (v13 : Vec Ideal S5000x64 .f32)
    (v22 : Vec Ideal S1x64 .f32) (v26 : Vec Ideal S1x64 .f32) (v33 : Vec Ideal S64x64 .f32) (p : Fin 5000) (q : Fin 64) :
    Gen.k11_pay6 (F := Ideal) v3 v7 v13 v22 v26 v33 (ix2 p q)
      = ∑ t : Fin 64, bnStats (Named.named (F := Ideal) κ "inv_50000" (φ := .f32) 0x37A7C5AC#32) (Ideal.ofBits .f32 0x3727C5AC#32)
          (fun i j => v13 (ix2 i j)) (fun j => v3 (ix2 0 j)) (fun j => v7 (ix2 0 j)) (fun j => v22 (ix2 0 j))
          (fun j => v26 (ix2 0 j)) p t * v33 (ix2 t q) := by
  unfold Gen.k11_pay6
  rw [k11_dot_plain, Cert.PayLib.plainProduct_apply]
  simp only [truncf_apply, maximumf_apply, addf_apply, mulf_apply, subf_apply, broadcastTo_1b_ab_apply, shapeCast_self,
    broadcast_apply, Cert.PayLib.rsqrt_apply]
  simp only [show Scalar.ofBits (F := Ideal) .f32 0x00000000#32 = (0 : EReal) from Ideal.ofBits_zero_f32]
  rfl

/-- The block written back: the product plus the bias row. -/
theorem k11_pay1_apply (v36 : FVec Ideal S5000x64 .f32) (v37 : Vec Ideal S1x64 .f32) (p : Fin 5000) (q : Fin 64) :
    Gen.k11_pay1 (F := Ideal) v36 v37 (ix2 p q) = v36 (ix2 p q) + v37 (ix2 0 q) := by
  unfold Gen.k11_pay1
  rw [addf_apply, broadcastTo_1b_ab_apply, shapeCast_self]

/-- The two steps together: the block written back is the normalised, clipped block through the weight and bias. -/
theorem k11_pay1_pay6_apply (v3 : Vec Ideal S1x64 .f32) (v7 : Vec Ideal S1x64 .f32) (v13 : Vec Ideal S5000x64 .f32)
    (v22 : Vec Ideal S1x64 .f32) (v26 : Vec Ideal S1x64 .f32) (v33 : Vec Ideal S64x64 .f32) (v37 : Vec Ideal S1x64 .f32)
    (p : Fin 5000) (q : Fin 64) :
    Gen.k11_pay1 (F := Ideal) (Gen.k11_pay6 (F := Ideal) v3 v7 v13 v22 v26 v33) v37 (ix2 p q)
      = affine (bnStats (Named.named (F := Ideal) κ "inv_50000" (φ := .f32) 0x37A7C5AC#32) (Ideal.ofBits .f32 0x3727C5AC#32)
          (fun i j => v13 (ix2 i j)) (fun j => v3 (ix2 0 j)) (fun j => v7 (ix2 0 j)) (fun j => v22 (ix2 0 j))
          (fun j => v26 (ix2 0 j))) (fun t j => v33 (ix2 t j)) (fun j => v37 (ix2 0 j)) p q := by
  rw [k11_pay1_apply]
  simp only [k11_pay6_apply]
  rfl

/-- The first running row after the body: its old value plus the column sums of the block written back. -/
theorem k11_pay2_apply (v36 : FVec Ideal S5000x64 .f32) (v37 : Vec Ideal S1x64 .f32) (v42 : Vec Ideal S1x64 .f32) (q : Fin 64) :
    Gen.k11_pay2 (F := Ideal) v36 v37 v42 (ix2 0 q)
      = v42 (ix2 0 q) + colSum (fun i j => Gen.k11_pay1 (F := Ideal) v36 v37 (ix2 i j)) q := by
  unfold Gen.k11_pay2
  dsimp only
  rw [shapeCast_self, addf_apply, shapeCast_a_1a_apply, Cert.PayLib.rowSum_apply]
  rfl

/-- The second running row after the body: its old value plus the column sums of the block's squares. -/
theorem k11_pay3_apply (v36 : FVec Ideal S5000x64 .f32) (v37 : Vec Ideal S1x64 .f32) (v49 : Vec Ideal S1x64 .f32) (q : Fin 64) :
    Gen.k11_pay3 (F := Ideal) v36 v37 v49 (ix2 0 q)
      = v49 (ix2 0 q) + colSumSq (fun i j => Gen.k11_pay1 (F := Ideal) v36 v37 (ix2 i j)) q := by
  unfold Gen.k11_pay3
  dsimp only
  rw [shapeCast_self, addf_apply, shapeCast_a_1a_apply, Cert.PayLib.rowSum_apply]
  rfl

/-- At the first grid point the first running row is set to zero. -/
theorem k11_pay4_apply (q : Fin 64) : Gen.k11_pay4 (F := Ideal) (ix2 0 q) = 0 := by
  unfold Gen.k11_pay4
  rw [shapeCast_self, broadcast_apply]
  exact Ideal.ofBits_zero_f32

/-- At the first grid point the second running row is set to zero. -/
theorem k11_pay5_apply (q : Fin 64) : Gen.k11_pay5 (F := Ideal) (ix2 0 q) = 0 := by
  unfold Gen.k11_pay5
  rw [shapeCast_self, broadcast_apply]
  exact Ideal.ofBits_zero_f32

end Cert.KernelIdeal.PayVal

end
-- ==== Proof.KI.Val11.lean ====
/-
  From row blocks to whole arrays, for the normalise-multiply-with-statistics region, on the extended reals.

  The region walks ten grid points; point t stages rows t * 5000 … t * 5000 + 4999 of the incoming matrix z, and the
  whole of six small operands: the column sums and column sums of squares of z over all rows, the scale and shift rows,
  the weight and the bias row.  Batch normalisation by given statistics is entrywise, and a product with a weight reads
  only a row of its left factor; so what the body writes back at point t is rows t * 5000 … of one matrix over all
  50000 rows, Z = relu (bn z) W + b, and the ten blocks tile the output array.  The two running rows start at zero,
  point t adds the column sums (the column sums of squares) of its rows of Z, and the last point alone writes them
  back; so the two statistics arrays end holding the column sums and the column sums of squares of Z.
-/
import proofs.«140206_j52750788330061_1_alg».proof.Proof.KI.Reg11
import proofs.«140206_j52750788330061_1_alg».proof.Proof.KI.Pay11
import proofs.«140206_j52750788330061_1_alg».proof.Proof.KI.ValLib
import proofs.«140206_j52750788330061_1_alg».proof.Proof.Spec
import proofs.«140206_j52750788330061_1_alg».proof.Proof.SpecAlg
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx Cert.Spec

variable (V : (c : Dev nD) → (b : Ref sig .tc) → Buf (Elt Ideal) ((c : Thread nD τ).loc b))

/-! ## Where the windows' blocks lie

The two row-block windows (the incoming matrix, the output) sit at block row t at grid point t; the eight whole-array
windows sit at the origin at every point. -/

theorem idx11_0 : ∀ t : Fin cfg11.N, win11_0.index t 0 = t.val ∧ win11_0.index t 1 = 0 :=
  (by decide +kernel : ∀ t : Fin grid11.N, _)
theorem idx11_1 : ∀ t : Fin cfg11.N, win11_1.index t 0 = 0 ∧ win11_1.index t 1 = 0 :=
  (by decide +kernel : ∀ t : Fin grid11.N, _)
theorem idx11_2 : ∀ t : Fin cfg11.N, win11_2.index t 0 = 0 ∧ win11_2.index t 1 = 0 :=
  (by decide +kernel : ∀ t : Fin grid11.N, _)
theorem idx11_3 : ∀ t : Fin cfg11.N, win11_3.index t 0 = 0 ∧ win11_3.index t 1 = 0 :=
  (by decide +kernel : ∀ t : Fin grid11.N, _)
theorem idx11_4 : ∀ t : Fin cfg11.N, win11_4.index t 0 = 0 ∧ win11_4.index t 1 = 0 :=
  (by decide +kernel : ∀ t : Fin grid11.N, _)
theorem idx11_5 : ∀ t : Fin cfg11.N, win11_5.index t 0 = 0 ∧ win11_5.index t 1 = 0 :=
  (by decide +kernel : ∀ t : Fin grid11.N, _)
theorem idx11_6 : ∀ t : Fin cfg11.N, win11_6.index t 0 = 0 ∧ win11_6.index t 1 = 0 :=
  (by decide +kernel : ∀ t : Fin grid11.N, _)
theorem idx11_7 : ∀ t : Fin cfg11.N, win11_7.index t 0 = t.val ∧ win11_7.index t 1 = 0 :=
  (by decide +kernel : ∀ t : Fin grid11.N, _)
theorem idx11_8 : ∀ t : Fin cfg11.N, win11_8.index t 0 = 0 ∧ win11_8.index t 1 = 0 :=
  (by decide +kernel : ∀ t : Fin grid11.N, _)
theorem idx11_9 : ∀ t : Fin cfg11.N, win11_9.index t 0 = 0 ∧ win11_9.index t 1 = 0 :=
  (by decide +kernel : ∀ t : Fin grid11.N, _)

/-- Row p of block t is a row of the array. -/
theorem rows11_lt (t : Fin cfg11.N) (p : Fin 5000) : t.val * 5000 + p.val < 50000 := by
  have ht : t.val < 10 := lt_of_lt_of_eq t.isLt N_11
  have hp := p.isLt
  omega

/-- The incoming block at point t is rows t * 5000 … of the incoming array. -/
theorem iblk11_0_apply (c : Dev nD) (t : Fin cfg11.N) (p : Fin 5000) (q : Fin 64) :
    (iblk11 V c 0 t : Vec Ideal S5000x64 .f32) (ix2 p q)
      = V c (Pipeline.arrRef spec11 0) (ix2 ⟨t.val * 5000 + p.val, rows11_lt t p⟩ q) := by
  unfold iblk11
  rw [View.read_apply]
  show V c (Pipeline.arrRef spec11 0) _ = V c (Pipeline.arrRef spec11 0) _
  congr 1
  funext a
  apply Fin.ext
  obtain ⟨e0, e1⟩ := idx11_0 t
  match a with
  | ⟨0, _⟩ => show win11_0.index t 0 * 5000 + 1 * p.val = t.val * 5000 + p.val; rw [e0]; omega
  | ⟨1, _⟩ => show win11_0.index t 1 * 64 + 1 * q.val = q.val; rw [e1]; omega

/-- The column-sum row's block at every point is the column-sum row. -/
theorem iblk11_1_apply (c : Dev nD) (t : Fin cfg11.N) (q : Fin 64) :
    (iblk11 V c 1 t : Vec Ideal S1x64 .f32) (ix2 0 q) = V c (Pipeline.arrRef spec11 1) (ix2 0 q) := by
  unfold iblk11
  rw [View.read_apply]
  show V c (Pipeline.arrRef spec11 1) _ = V c (Pipeline.arrRef spec11 1) _
  congr 1
  funext a
  apply Fin.ext
  obtain ⟨e0, e1⟩ := idx11_1 t
  match a with
  | ⟨0, _⟩ => show win11_1.index t 0 * 1 + 1 * 0 = 0; rw [e0]
  | ⟨1, _⟩ => show win11_1.index t 1 * 64 + 1 * q.val = q.val; rw [e1]; omega

/-- The column-sum-of-squares row's block at every point is that row. -/
theorem iblk11_2_apply (c : Dev nD) (t : Fin cfg11.N) (q : Fin 64) :
    (iblk11 V c 2 t : Vec Ideal S1x64 .f32) (ix2 0 q) = V c (Pipeline.arrRef spec11 2) (ix2 0 q) := by
  unfold iblk11
  rw [View.read_apply]
  show V c (Pipeline.arrRef spec11 2) _ = V c (Pipeline.arrRef spec11 2) _
  congr 1
  funext a
  apply Fin.ext
  obtain ⟨e0, e1⟩ := idx11_2 t
  match a with
  | ⟨0, _⟩ => show win11_2.index t 0 * 1 + 1 * 0 = 0; rw [e0]
  | ⟨1, _⟩ => show win11_2.index t 1 * 64 + 1 * q.val = q.val; rw [e1]; omega

/-- The scale row's block at every point is the scale row. -/
theorem iblk11_3_apply (c : Dev nD) (t : Fin cfg11.N) (q : Fin 64) :
    (iblk11 V c 3 t : Vec Ideal S1x64 .f32) (ix2 0 q) = V c (Pipeline.arrRef spec11 3) (ix2 0 q) := by
  unfold iblk11
  rw [View.read_apply]
  show V c (Pipeline.arrRef spec11 3) _ = V c (Pipeline.arrRef spec11 3) _
  congr 1
  funext a
  apply Fin.ext
  obtain ⟨e0, e1⟩ := idx11_3 t
  match a with
  | ⟨0, _⟩ => show win11_3.index t 0 * 1 + 1 * 0 = 0; rw [e0]
  | ⟨1, _⟩ => show win11_3.index t 1 * 64 + 1 * q.val = q.val; rw [e1]; omega

/-- The shift row's block at every point is the shift row. -/
theorem iblk11_4_apply (c : Dev nD) (t : Fin cfg11.N) (q : Fin 64) :
    (iblk11 V c 4 t : Vec Ideal S1x64 .f32) (ix2 0 q) = V c (Pipeline.arrRef spec11 4) (ix2 0 q) := by
  unfold iblk11
  rw [View.read_apply]
  show V c (Pipeline.arrRef spec11 4) _ = V c (Pipeline.arrRef spec11 4) _
  congr 1
  funext a
  apply Fin.ext
  obtain ⟨e0, e1⟩ := idx11_4 t
  match a with
  | ⟨0, _⟩ => show win11_4.index t 0 * 1 + 1 * 0 = 0; rw [e0]
  | ⟨1, _⟩ => show win11_4.index t 1 * 64 + 1 * q.val = q.val; rw [e1]; omega

/-- The weight's block at every point is the weight. -/
theorem iblk11_5_apply (c : Dev nD) (t : Fin cfg11.N) (a' : Fin 64) (q : Fin 64) :
    (iblk11 V c 5 t : Vec Ideal S64x64 .f32) (ix2 a' q) = V c (Pipeline.arrRef spec11 5) (ix2 a' q) := by
  unfold iblk11
  rw [View.read_apply]
  show V c (Pipeline.arrRef spec11 5) _ = V c (Pipeline.arrRef spec11 5) _
  congr 1
  funext a
  apply Fin.ext
  obtain ⟨e0, e1⟩ := idx11_5 t
  match a with
  | ⟨0, _⟩ => show win11_5.index t 0 * 64 + 1 * a'.val = a'.val; rw [e0]; omega
  | ⟨1, _⟩ => show win11_5.index t 1 * 64 + 1 * q.val = q.val; rw [e1]; omega

/-- The bias row's block at every point is the bias row. -/
theorem iblk11_6_apply (c : Dev nD) (t : Fin cfg11.N) (q : Fin 64) :
    (iblk11 V c 6 t : Vec Ideal S1x64 .f32) (ix2 0 q) = V c (Pipeline.arrRef spec11 6) (ix2 0 q) := by
  unfold iblk11
  rw [View.read_apply]
  show V c (Pipeline.arrRef spec11 6) _ = V c (Pipeline.arrRef spec11 6) _
  congr 1
  funext a
  apply Fin.ext
  obtain ⟨e0, e1⟩ := idx11_6 t
  match a with
  | ⟨0, _⟩ => show win11_6.index t 0 * 1 + 1 * 0 = 0; rw [e0]
  | ⟨1, _⟩ => show win11_6.index t 1 * 64 + 1 * q.val = q.val; rw [e1]; omega

/-! ## The region's output over the whole array -/

/-- The region's output: the incoming matrix normalised by the given statistics and clipped, times the weight, plus the
    bias, over all 50000 rows. -/
abbrev Z11 (c : Dev nD) : Mat 50000 64 :=
  affine (bnStats (Named.named (F := Ideal) κ "inv_50000" (φ := .f32) 0x37A7C5AC#32) (Ideal.ofBits .f32 0x3727C5AC#32)
      (fun i j => V c (Pipeline.arrRef spec11 0) (ix2 i j)) (fun j => V c (Pipeline.arrRef spec11 1) (ix2 0 j))
      (fun j => V c (Pipeline.arrRef spec11 2) (ix2 0 j)) (fun j => V c (Pipeline.arrRef spec11 3) (ix2 0 j))
      (fun j => V c (Pipeline.arrRef spec11 4) (ix2 0 j)))
    (fun t j => V c (Pipeline.arrRef spec11 5) (ix2 t j)) (fun j => V c (Pipeline.arrRef spec11 6) (ix2 0 j))

/-- What the body computes from the blocks at point t is rows t * 5000 … of that output. -/
theorem block11_z (c : Dev nD) (t : Fin cfg11.N) (p : Fin 5000) (q : Fin 64) :
    k11_pay1 (F := Ideal) (k11_pay6 (F := Ideal) (iblk11 V c 1 t) (iblk11 V c 2 t) (iblk11 V c 0 t) (iblk11 V c 3 t) (iblk11 V c 4 t) (iblk11 V c 5 t)) (iblk11 V c 6 t) (ix2 p q)
      = Z11 V c ⟨t.val * 5000 + p.val, rows11_lt t p⟩ q :=
  (PayVal.k11_pay1_pay6_apply (iblk11 V c 1 t) (iblk11 V c 2 t) (iblk11 V c 0 t) (iblk11 V c 3 t) (iblk11 V c 4 t) (iblk11 V c 5 t) (iblk11 V c 6 t) p q).trans
    (Cert.ValLib.affine_congr _ _ _ _ _ _ p ⟨t.val * 5000 + p.val, rows11_lt t p⟩
      (fun s => Cert.ValLib.bnStats_congr _ _ _ _ _ _ _ _ _ _ _ _ p ⟨t.val * 5000 + p.val, rows11_lt t p⟩ s
        (iblk11_0_apply V c t p s) (iblk11_1_apply V c t s) (iblk11_2_apply V c t s) (iblk11_3_apply V c t s)
        (iblk11_4_apply V c t s))
      (fun s s' => iblk11_5_apply V c t s s') (fun s => iblk11_6_apply V c t s) q)

/-- What point t writes back to the output array is block t of the region's output. -/
theorem flushed11_z (c : Dev nD) (t : Fin cfg11.N) :
    (dat11 V c).flushed 7 t
      = ((cfg11.win 7).blk t).view.read (Elt Ideal) (fun i : S50000x64.Idx => Z11 V c (i 0) (i 1)) := by
  show (cfg11.win 7).cut (grid11.coords t) ((dat11 V c).after 7 t) = _
  rw [after11_big, big11_eq]
  refine funext fun (y : S5000x64.Idx) => ?_
  obtain ⟨p, q, rfl⟩ : ∃ (p : Fin 5000) (q : Fin 64), y = ix2 p q := ⟨y 0, y 1, eq_ix2 y⟩
  rw [View.read_apply]
  refine (block11_z V c t p q).trans ?_
  rw [cast_eq]
  obtain ⟨e0, e1⟩ := idx11_7 t
  have h0 : t.val * 5000 + p.val = ((((cfg11.win 7).blk t).view.emb (ix2 p q) : S50000x64.Idx) 0).val := by
    show _ = win11_7.index t 0 * 5000 + 1 * p.val
    rw [e0]; omega
  have h1 : q.val = ((((cfg11.win 7).blk t).view.emb (ix2 p q) : S50000x64.Idx) 1).val := by
    show _ = win11_7.index t 1 * 64 + 1 * q.val
    rw [e1]; omega
  exact congrArg₂ (Z11 V c) (Fin.ext h0) (Fin.ext h1)

/-- Every row of the output array lies in the block of the point that is the row's number divided by 5000. -/
theorem cover11_z (i : S50000x64.Idx) :
    ∃ t : Fin cfg11.N, (cfg11.win 7).flush t = true ∧ i ∈ ((cfg11.win 7).blk t).view.set := by
  have hi : (i 0).val < 50000 := (i 0).isLt
  have hq : (i 1).val < 64 := (i 1).isLt
  have hN : cfg11.N = 10 := N_11
  have ht : (i 0).val / 5000 < cfg11.N := by rw [hN]; omega
  refine ⟨⟨(i 0).val / 5000, ht⟩, flush11_7 _, ?_⟩
  show i ∈ ((View.whole (Pipeline.arrRef spec11 7)).slice (win11_7.rect ⟨(i 0).val / 5000, ht⟩)).set
  rw [View.set_slice_whole, Rect.mem_set_unit]
  obtain ⟨e0, e1⟩ := idx11_7 ⟨(i 0).val / 5000, ht⟩
  intro a
  match a with
  | ⟨0, _⟩ =>
    show win11_7.index ⟨(i 0).val / 5000, ht⟩ 0 * 5000 ≤ (i 0).val
      ∧ (i 0).val < win11_7.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win11_7.index ⟨(i 0).val / 5000, ht⟩ 1 * 64 ≤ (i 1).val
      ∧ (i 1).val < win11_7.index ⟨(i 0).val / 5000, ht⟩ 1 * 64 + 64
    rw [e1]; omega

/-- After the region the output array holds the region's output. -/
theorem arrAt11_z (c : Dev nD) (i : Fin 50000) (j : Fin 64) : (dat11 V c).arrAt 7 cfg11.N (ix2 i j) = Z11 V c i j :=
  congrFun ((dat11 V c).arrAt_eq_of_cover 7 (fun i : S50000x64.Idx => Z11 V c (i 0) (i 1)) (fun t _ => flushed11_z V c t)
    (cover11_z)) (ix2 i j)

/-! ## The two statistics rows -/

/-- One point's step of the first running row: it adds the column sums of the point's rows of the output. -/
theorem acc11_s_step (c : Dev nD) (t : Fin cfg11.N) (q : Fin 64) :
    (acc11 V c (t.val + 1)).1 (ix2 0 q)
      = (acc11 V c t.val).1 (ix2 0 q)
        + colSum (fun (r : Fin 5000) j => Z11 V c ⟨t.val * 5000 + r.val, rows11_lt t r⟩ j) q := by
  rw [acc11_succ V c t]
  refine (PayVal.k11_pay2_apply (k11_pay6 (F := Ideal) (iblk11 V c 1 t) (iblk11 V c 2 t) (iblk11 V c 0 t) (iblk11 V c 3 t) (iblk11 V c 4 t) (iblk11 V c 5 t)) (iblk11 V c 6 t) (acc11 V c t.val).1 q).trans ?_
  refine congrArg (_ + ·) ?_
  unfold colSum
  exact Finset.sum_congr rfl fun r _ => block11_z V c t r q

/-- One point's step of the second running row: it adds the column sums of squares of the point's rows. -/
theorem acc11_ss_step (c : Dev nD) (t : Fin cfg11.N) (q : Fin 64) :
    (acc11 V c (t.val + 1)).2 (ix2 0 q)
      = (acc11 V c t.val).2 (ix2 0 q)
        + colSumSq (fun (r : Fin 5000) j => Z11 V c ⟨t.val * 5000 + r.val, rows11_lt t r⟩ j) q := by
  rw [acc11_succ V c t]
  refine (PayVal.k11_pay3_apply (k11_pay6 (F := Ideal) (iblk11 V c 1 t) (iblk11 V c 2 t) (iblk11 V c 0 t) (iblk11 V c 3 t) (iblk11 V c 4 t) (iblk11 V c 5 t)) (iblk11 V c 6 t) (acc11 V c t.val).2 q).trans ?_
  refine congrArg (_ + ·) ?_
  unfold colSumSq
  exact Finset.sum_congr rfl fun r _ => congrArg₂ (· * ·) (block11_z V c t r q) (block11_z V c t r q)

/-- The only point that writes a statistics row back is the last one. -/
theorem last11_of_flush (t : Fin cfg11.N) (h : t.val % 10 = 9) : t.val + 1 = 10 := by
  have h2 : t.val < 10 := lt_of_lt_of_eq t.isLt N_11
  omega

/-- After the region the first statistics array holds the first running row after all ten points. -/
theorem arrAt11_8_eq (c : Dev nD) : (dat11 V c).arrAt 8 cfg11.N = (acc11 V c 10).1 := by
  refine (dat11 V c).arrAt_eq_of_cover 8 ((acc11 V c 10).1) (fun t hf => ?_) (fun i => ?_)
  · show (cfg11.win 8).cut (grid11.coords t) ((dat11 V c).after 8 t) = _
    rw [after11_s, last11_of_flush t ((flush11_8 t).mp hf)]
    refine funext fun (y : S1x64.Idx) => ?_
    rw [View.read_apply, cast_eq]
    refine congrArg (acc11 V c 10).1 (?_ : y = ((cfg11.win 8).blk t).view.emb y)
    obtain ⟨e0, e1⟩ := idx11_8 t
    funext a
    apply Fin.ext
    match a with
    | ⟨0, _⟩ => show (y 0).val = win11_8.index t 0 * 1 + 1 * (y 0).val; rw [e0]; omega
    | ⟨1, _⟩ => show (y 1).val = win11_8.index t 1 * 64 + 1 * (y 1).val; rw [e1]; omega
  · refine ⟨t11_9, (flush11_8 t11_9).mpr rfl, ?_⟩
    show i ∈ ((View.whole (Pipeline.arrRef spec11 8)).slice (win11_8.rect t11_9)).set
    rw [View.set_slice_whole, Rect.mem_set_unit]
    obtain ⟨e0, e1⟩ := idx11_8 t11_9
    have h0 : (i 0).val < 1 := (i 0).isLt
    have h1 : (i 1).val < 64 := (i 1).isLt
    intro a
    match a with
    | ⟨0, _⟩ => show win11_8.index t11_9 0 * 1 ≤ (i 0).val ∧ (i 0).val < win11_8.index t11_9 0 * 1 + 1; rw [e0]; omega
    | ⟨1, _⟩ => show win11_8.index t11_9 1 * 64 ≤ (i 1).val ∧ (i 1).val < win11_8.index t11_9 1 * 64 + 64; rw [e1]; omega

/-- After the region the second statistics array holds the second running row after all ten points. -/
theorem arrAt11_9_eq (c : Dev nD) : (dat11 V c).arrAt 9 cfg11.N = (acc11 V c 10).2 := by
  refine (dat11 V c).arrAt_eq_of_cover 9 ((acc11 V c 10).2) (fun t hf => ?_) (fun i => ?_)
  · show (cfg11.win 9).cut (grid11.coords t) ((dat11 V c).after 9 t) = _
    rw [after11_ss, last11_of_flush t ((flush11_9 t).mp hf)]
    refine funext fun (y : S1x64.Idx) => ?_
    rw [View.read_apply, cast_eq]
    refine congrArg (acc11 V c 10).2 (?_ : y = ((cfg11.win 9).blk t).view.emb y)
    obtain ⟨e0, e1⟩ := idx11_9 t
    funext a
    apply Fin.ext
    match a with
    | ⟨0, _⟩ => show (y 0).val = win11_9.index t 0 * 1 + 1 * (y 0).val; rw [e0]; omega
    | ⟨1, _⟩ => show (y 1).val = win11_9.index t 1 * 64 + 1 * (y 1).val; rw [e1]; omega
  · refine ⟨t11_9, (flush11_9 t11_9).mpr rfl, ?_⟩
    show i ∈ ((View.whole (Pipeline.arrRef spec11 9)).slice (win11_9.rect t11_9)).set
    rw [View.set_slice_whole, Rect.mem_set_unit]
    obtain ⟨e0, e1⟩ := idx11_9 t11_9
    have h0 : (i 0).val < 1 := (i 0).isLt
    have h1 : (i 1).val < 64 := (i 1).isLt
    intro a
    match a with
    | ⟨0, _⟩ => show win11_9.index t11_9 0 * 1 ≤ (i 0).val ∧ (i 0).val < win11_9.index t11_9 0 * 1 + 1; rw [e0]; omega
    | ⟨1, _⟩ => show win11_9.index t11_9 1 * 64 ≤ (i 1).val ∧ (i 1).val < win11_9.index t11_9 1 * 64 + 64; rw [e1]; omega

/-- After the region the first statistics array holds the column sums of the region's output. -/
theorem arrAt11_s (c : Dev nD) (j : Fin 64) : (dat11 V c).arrAt 8 cfg11.N (ix2 0 j) = colSum (Z11 V c) j := by
  rw [arrAt11_8_eq]
  exact Cert.ValLib.colSum_running 10 5000 (by decide) (Z11 V c) (fun n q => (acc11 V c n).1 (ix2 0 q))
    (fun t ht r c' => Z11 V c ⟨t * 5000 + r.val, rows11_lt ⟨t, lt_of_lt_of_eq ht N_11.symm⟩ r⟩ c') (fun _ _ _ _ => rfl)
    (fun q => by
      show (acc11 V c 0).1 (ix2 0 q) = 0
      rw [acc11_zero]
      exact PayVal.k11_pay4_apply q)
    (fun t ht q => acc11_s_step V c ⟨t, lt_of_lt_of_eq ht N_11.symm⟩ q) j

/-- After the region the second statistics array holds the column sums of squares of the region's output. -/
theorem arrAt11_ss (c : Dev nD) (j : Fin 64) : (dat11 V c).arrAt 9 cfg11.N (ix2 0 j) = colSumSq (Z11 V c) j := by
  rw [arrAt11_9_eq]
  exact Cert.ValLib.colSumSq_running 10 5000 (by decide) (Z11 V c) (fun n q => (acc11 V c n).2 (ix2 0 q))
    (fun t ht r c' => Z11 V c ⟨t * 5000 + r.val, rows11_lt ⟨t, lt_of_lt_of_eq ht N_11.symm⟩ r⟩ c') (fun _ _ _ _ => rfl)
    (fun q => by
      show (acc11 V c 0).2 (ix2 0 q) = 0
      rw [acc11_zero]
      exact PayVal.k11_pay5_apply q)
    (fun t ht q => acc11_ss_step V c ⟨t, lt_of_lt_of_eq ht N_11.symm⟩ q) j

end Cert.KernelIdeal.Val

end
-- ==== Proof.KI.Pay12.lean ====
/-
  The normalise-and-clip body, read at one entry on the extended reals.

  From the column-sum row s, the column-sum-of-squares row ss, the block z, the scale row g and the shift row be,
  the body forms the mean s * c and the variance ss * c - (s * c) * (s * c), where c is the reciprocal of the row
  count that the program carries under a name, and writes max ((z - mean) * rsqrt (variance + eps) * g + be) 0.
-/
import proofs.«140206_j52750788330061_1_alg».proof.Proof.Gen.KernelIdeal.Skeleton
import proofs.«140206_j52750788330061_1_alg».proof.Proof.Spec
import proofs.«140206_j52750788330061_1_alg».proof.Proof.KI.PayLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.Spec

/-- The block written back: batch normalisation from the two statistics rows, then the positive part. -/
theorem k12_pay1_apply (v0 : Vec Ideal S1x64 .f32) (v4 : Vec Ideal S1x64 .f32) (v10 : Vec Ideal S5000x64 .f32)
    (v19 : Vec Ideal S1x64 .f32) (v23 : Vec Ideal S1x64 .f32) (p : Fin 5000) (q : Fin 64) :
    Gen.k12_pay1 (F := Ideal) v0 v4 v10 v19 v23 (ix2 p q)
      = bnStats (Named.named (F := Ideal) κ "inv_50000" (φ := .f32) 0x37A7C5AC#32) (Ideal.ofBits .f32 0x3727C5AC#32)
          (fun i j => v10 (ix2 i j)) (fun j => v0 (ix2 0 j)) (fun j => v4 (ix2 0 j)) (fun j => v19 (ix2 0 j))
          (fun j => v23 (ix2 0 j)) p q := by
  unfold Gen.k12_pay1
  simp only [maximumf_apply, addf_apply, mulf_apply, subf_apply, broadcastTo_1b_ab_apply, shapeCast_self,
    broadcast_apply, Cert.PayLib.rsqrt_apply]
  rw [show Scalar.ofBits (F := Ideal) .f32 0x00000000#32 = 0 from Ideal.ofBits_zero_f32]
  rfl

end Cert.KernelIdeal.PayVal

end
-- ==== Proof.KI.Val12.lean ====
/-
  The batch-normalisation region of a layer, from blocks to the array, on the extended reals.

  The region's grid has ten points; point t works on rows t * 5000 .. t * 5000 + 4999 of a 50000 x 64 matrix. Its
  matrix windows (the input and the output) show row block t; its four row windows (column sums, column sums of
  squares, scale, shift) show the one 1 x 64 row at every point. At each point the body writes, over the whole
  output block, batch normalisation with the positive part of the input block by the four rows. Because that
  function is entrywise in the matrix and columnwise in the rows, block t of the output is block t of ONE function
  of the whole input arrays; the ten blocks tile the output array (row r lies in block r / 5000); so after the last
  write-back the output array is that function of the input arrays as the region found them, entry by entry.
-/
import proofs.«140206_j52750788330061_1_alg».proof.Proof.KI.Reg12
import proofs.«140206_j52750788330061_1_alg».proof.Proof.KI.Pay12
import proofs.«140206_j52750788330061_1_alg».proof.Proof.Spec
import Idealize.ShloMosaic.Lib.ValueIdx
import Idealize.ShloMosaic.Lib.Pipeline.Value
import Idealize.ShloMosaic.Lib.Tactic

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- A whole block is read and written from its origin. -/
theorem origin12 : (![0, 0] : Fin 2 → Nat) = fun _ => 0 := funext fun a => by fin_cases a <;> rfl

/-- Batch normalisation with the positive part is entrywise in the matrix and columnwise in the four rows: two
    instances agree at an entry as soon as the matrix entries and the four row entries there agree. -/
theorem bnEntry12 {n n' : Nat} (inv eps : EReal) (z : Mat n 64) (z' : Mat n' 64) (s ss g be s' ss' g' be' : Row)
    (i : Fin n) (i' : Fin n') (j : Fin 64) (hz : z i j = z' i' j) (hs : s j = s' j) (hss : ss j = ss' j)
    (hg : g j = g' j) (hbe : be j = be' j) :
    bnStats inv eps z s ss g be i j = bnStats inv eps z' s' ss' g' be' i' j := by
  unfold bnStats; rw [hz, hs, hss, hg, hbe]

/-- The output array of the region as one function of the five input arrays as the region finds them: batch
    normalisation of the 50000 x 64 matrix by the two statistics rows, the scale row and the shift row. -/
def bnArr12 (c : Dev nD) : S50000x64.Idx → EReal := fun k =>
  bnStats (Named.named (F := Ideal) κ "inv_50000" (φ := .f32) 0x37A7C5AC#32) (Ideal.ofBits .f32 0x3727C5AC#32)
    (fun i j => V c (Pipeline.arrRef spec12 0) (ix2 i j)) (fun j => V c (Pipeline.arrRef spec12 1) (ix2 0 j))
    (fun j => V c (Pipeline.arrRef spec12 2) (ix2 0 j)) (fun j => V c (Pipeline.arrRef spec12 3) (ix2 0 j))
    (fun j => V c (Pipeline.arrRef spec12 4) (ix2 0 j)) (k 0) (k 1)

/-- The block indices over the grid: the matrix windows (input 0, output 5) are at row block t, column block 0; the
    four row windows stay at block (0, 0). -/
theorem blockIndex12 : ∀ t : Fin cfg12.N,
    win12_0.index t (0 : Fin 2) = t.val ∧ win12_0.index t (1 : Fin 2) = 0
    ∧ win12_5.index t (0 : Fin 2) = t.val ∧ win12_5.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0 :=
  (by decide +kernel : ∀ t : Fin grid12.N, _)

/-- The matrix block at point t, entry (p, q), is the matrix at row t * 5000 + p, column q. -/
theorem matBlock12_apply (c : Dev nD) (t : Fin cfg12.N) (p : Fin 5000) (q : Fin 64) (k : S50000x64.Idx)
    (hk0 : (k 0).val = t.val * 5000 + p.val) (hk1 : (k 1).val = q.val) :
    (iblk12 V c 0 t : Vec Ideal S5000x64 .f32) (ix2 p q) = (V c (Pipeline.arrRef spec12 0) : S50000x64.Idx → EReal) k := by
  obtain ⟨e0, e1, -⟩ := blockIndex12 t
  unfold iblk12
  rw [View.read_apply]
  refine congrArg (V c (Pipeline.arrRef spec12 0) : S50000x64.Idx → EReal) ?_
  funext a
  apply Fin.ext
  match a with
  | ⟨0, _⟩ => show win12_0.index t 0 * 5000 + 1 * p.val = (k 0).val; rw [e0, hk0]; omega
  | ⟨1, _⟩ => show win12_0.index t 1 * 64 + 1 * q.val = (k 1).val; rw [e1, hk1]; omega

/-- The column-sum row window shows the whole row at every point. -/
theorem rowBlock12_1_apply (c : Dev nD) (t : Fin cfg12.N) (q : Fin 64) :
    (iblk12 V c 1 t : Vec Ideal S1x64 .f32) (ix2 0 q) = (V c (Pipeline.arrRef spec12 1) : S1x64.Idx → EReal) (ix2 0 q) := by
  obtain ⟨-, -, -, -, e0, e1, -, -, -, -, -, -⟩ := blockIndex12 t
  unfold iblk12
  rw [View.read_apply]
  refine congrArg (V c (Pipeline.arrRef spec12 1) : S1x64.Idx → EReal) ?_
  funext a
  apply Fin.ext
  match a with
  | ⟨0, _⟩ => show win12_1.index t 0 * 1 + 1 * 0 = 0; rw [e0]
  | ⟨1, _⟩ => show win12_1.index t 1 * 64 + 1 * q.val = q.val; rw [e1]; omega

/-- The sum-of-squares row window shows the whole row at every point. -/
theorem rowBlock12_2_apply (c : Dev nD) (t : Fin cfg12.N) (q : Fin 64) :
    (iblk12 V c 2 t : Vec Ideal S1x64 .f32) (ix2 0 q) = (V c (Pipeline.arrRef spec12 2) : S1x64.Idx → EReal) (ix2 0 q) := by
  obtain ⟨-, -, -, -, -, -, e0, e1, -, -, -, -⟩ := blockIndex12 t
  unfold iblk12
  rw [View.read_apply]
  refine congrArg (V c (Pipeline.arrRef spec12 2) : S1x64.Idx → EReal) ?_
  funext a
  apply Fin.ext
  match a with
  | ⟨0, _⟩ => show win12_2.index t 0 * 1 + 1 * 0 = 0; rw [e0]
  | ⟨1, _⟩ => show win12_2.index t 1 * 64 + 1 * q.val = q.val; rw [e1]; omega

/-- The scale row window shows the whole row at every point. -/
theorem rowBlock12_3_apply (c : Dev nD) (t : Fin cfg12.N) (q : Fin 64) :
    (iblk12 V c 3 t : Vec Ideal S1x64 .f32) (ix2 0 q) = (V c (Pipeline.arrRef spec12 3) : S1x64.Idx → EReal) (ix2 0 q) := by
  obtain ⟨-, -, -, -, -, -, -, -, e0, e1, -, -⟩ := blockIndex12 t
  unfold iblk12
  rw [View.read_apply]
  refine congrArg (V c (Pipeline.arrRef spec12 3) : S1x64.Idx → EReal) ?_
  funext a
  apply Fin.ext
  match a with
  | ⟨0, _⟩ => show win12_3.index t 0 * 1 + 1 * 0 = 0; rw [e0]
  | ⟨1, _⟩ => show win12_3.index t 1 * 64 + 1 * q.val = q.val; rw [e1]; omega

/-- The shift row window shows the whole row at every point. -/
theorem rowBlock12_4_apply (c : Dev nD) (t : Fin cfg12.N) (q : Fin 64) :
    (iblk12 V c 4 t : Vec Ideal S1x64 .f32) (ix2 0 q) = (V c (Pipeline.arrRef spec12 4) : S1x64.Idx → EReal) (ix2 0 q) := by
  obtain ⟨-, -, -, -, -, -, -, -, -, -, e0, e1⟩ := blockIndex12 t
  unfold iblk12
  rw [View.read_apply]
  refine congrArg (V c (Pipeline.arrRef spec12 4) : S1x64.Idx → EReal) ?_
  funext a
  apply Fin.ext
  match a with
  | ⟨0, _⟩ => show win12_4.index t 0 * 1 + 1 * 0 = 0; rw [e0]
  | ⟨1, _⟩ => show win12_4.index t 1 * 64 + 1 * q.val = q.val; rw [e1]; omega

/-- What point t writes back is block t of the region's output function. The body's one store leaves its payload
    over the whole block; at entry (p, q) the payload is batch normalisation of the blocks, which reads the matrix
    block at (p, q) and the four rows at q; the matrix block's entry (p, q) is the matrix entry in row
    t * 5000 + p, which is where the output block's entry (p, q) lies in the output array. -/
theorem flushed12_eq (c : Dev nD) (t : Fin cfg12.N) :
    (dat12 V c).flushed 5 t = ((cfg12.win 5).blk t).view.read (Elt Ideal) (bnArr12 V c) := by
  show (cfg12.win 5).cut (grid12.coords t) ((dat12 V c).after 5 t) = _
  rw [after12_5]
  unfold out12_5
  rw [View.canon_unit_zero origin12]
  simp only [View.ld_unit_zero (S := S5000x64) origin12, View.ld_unit_zero (S := S1x64) origin12]
  obtain ⟨-, -, e0, e1, -⟩ := blockIndex12 t
  funext y
  obtain ⟨p, q, rfl⟩ : ∃ (p : Fin 5000) (q : Fin 64), y = ix2 p q := ⟨y 0, y 1, eq_ix2 y⟩
  show k12_pay1 (iblk12 V c 1 t) (iblk12 V c 2 t) (iblk12 V c 0 t) (iblk12 V c 3 t) (iblk12 V c 4 t) (ix2 p q)
    = bnArr12 V c (((cfg12.win 5).blk t).view.emb (ix2 p q))
  refine (Cert.KernelIdeal.PayVal.k12_pay1_apply _ _ _ _ _ p q).trans ?_
  unfold bnArr12
  have hrow : ((((cfg12.win 5).blk t).view.emb (ix2 p q) : S50000x64.Idx) 0).val = t.val * 5000 + p.val := by
    show win12_5.index t 0 * 5000 + 1 * p.val = _; rw [e0]; omega
  have hcol : ((((cfg12.win 5).blk t).view.emb (ix2 p q) : S50000x64.Idx) 1).val = q.val := by
    show win12_5.index t 1 * 64 + 1 * q.val = _; rw [e1]; omega
  have hq : ((((cfg12.win 5).blk t).view.emb (ix2 p q) : S50000x64.Idx) 1) = q := Fin.ext hcol
  rw [hq]
  refine bnEntry12 _ _ _ _ _ _ _ _ _ _ _ _ _ _ q ?_ ?_ ?_ ?_ ?_
  · exact (matBlock12_apply V c t p q _ hrow hcol).trans (congrArg _ (Shape.idx_ext₂ rfl hcol))
  · exact rowBlock12_1_apply V c t q
  · exact rowBlock12_2_apply V c t q
  · exact rowBlock12_3_apply V c t q
  · exact rowBlock12_4_apply V c t q

/-- An index of the output array lies in point t's block exactly when each coordinate lies in the block's range. -/
theorem mem_blk12 (t : Fin cfg12.N) (i : S50000x64.Idx) :
    i ∈ ((cfg12.win 5).blk t).view.set ↔ ∀ a : Fin 2, win12_5.index t a * S5000x64.size a ≤ (i a).val ∧ (i a).val < win12_5.index t a * S5000x64.size a + S5000x64.size a := by
  show i ∈ ((View.whole (Pipeline.arrRef spec12 5)).slice (win12_5.rect t)).set ↔ _
  rw [View.set_slice_whole, Rect.mem_set_unit]
  exact Iff.rfl

/-- Every index of the output array lies in the block of a point that writes back: row r lies in the block of
    point r / 5000, and the one column block spans all 64 columns. -/
theorem cover12 (i : S50000x64.Idx) :
    ∃ t : Fin cfg12.N, (cfg12.win 5).flush t = true ∧ i ∈ ((cfg12.win 5).blk t).view.set := by
  have h0 : (i 0).val < 50000 := (i 0).isLt
  have h1 : (i 1).val < 64 := (i 1).isLt
  have hN : grid12.N = 10 := N_12
  let t : Fin cfg12.N := ⟨(i 0).val / 5000, by show _ < grid12.N; rw [hN]; omega⟩
  obtain ⟨-, -, e0, e1, -⟩ := blockIndex12 t
  have ht : t.val = (i 0).val / 5000 := rfl
  refine ⟨t, flush12_5 t, ?_⟩
  rw [mem_blk12]
  intro a
  match a with
  | ⟨0, _⟩ => show win12_5.index t 0 * 5000 ≤ (i 0).val ∧ (i 0).val < win12_5.index t 0 * 5000 + 5000; rw [e0, ht]; omega
  | ⟨1, _⟩ => show win12_5.index t 1 * 64 ≤ (i 1).val ∧ (i 1).val < win12_5.index t 1 * 64 + 64; rw [e1]; omega

/-- The output array after the region's last write-back is the region's output function of the input arrays. -/
theorem arrAt12_eq (c : Dev nD) : (dat12 (F := Ideal) V c).arrAt 5 cfg12.N = bnArr12 V c :=
  (dat12 V c).arrAt_eq_of_cover 5 (bnArr12 V c) (fun t _ => flushed12_eq V c t) (cover12)

/-- Entry (i, j) of the output array after the region: batch normalisation with the positive part of the matrix
    the region finds in its first window, by the statistics, scale and shift rows it finds in the next four. -/
theorem arrAt12_apply (c : Dev nD) (i : Fin 50000) (j : Fin 64) :
    (dat12 (F := Ideal) V c).arrAt 5 cfg12.N (ix2 i j)
      = bnStats (Named.named (F := Ideal) κ "inv_50000" (φ := .f32) 0x37A7C5AC#32) (Ideal.ofBits .f32 0x3727C5AC#32)
          (fun i j => V c (Pipeline.arrRef spec12 0) (ix2 i j)) (fun j => V c (Pipeline.arrRef spec12 1) (ix2 0 j))
          (fun j => V c (Pipeline.arrRef spec12 2) (ix2 0 j)) (fun j => V c (Pipeline.arrRef spec12 3) (ix2 0 j))
          (fun j => V c (Pipeline.arrRef spec12 4) (ix2 0 j)) i j := by
  rw [arrAt12_eq]
  rfl

end Cert.KernelIdeal.Val
end
-- ==== Proof.KI.Layer3.lean ====
/-
  The kernel side of layer 3 as one equation.  The layer is three kernel regions with host stretches between them.  The
  first leaves the linear map of the mixed features and that matrix's column sums and column sums of squares; the
  second normalises by those statistics, takes the positive part, applies the second linear map and leaves its two
  column statistics; the third normalises by them.  Each region's arrays are read through its value lemma at the
  contents it is entered with; what it is entered with is, window by window, what the region before left (the host
  stretch in between does not write it) or a row of a stacked parameter that nothing writes.  Chaining the three
  gives the layer's output as one layer by column statistics of the features the layer before left.  Every intermediate
  matrix is kept under a name, and each step is a congruence on the entries an expression reads; nothing is unfolded.
-/
import proofs.«140206_j52750788330061_1_alg».proof.Proof.KI.Fold
import proofs.«140206_j52750788330061_1_alg».proof.Proof.KI.Glue.Layer3
import proofs.«140206_j52750788330061_1_alg».proof.Proof.KI.ValLib
import proofs.«140206_j52750788330061_1_alg».proof.Proof.KI.Val10
import proofs.«140206_j52750788330061_1_alg».proof.Proof.KI.Val11
import proofs.«140206_j52750788330061_1_alg».proof.Proof.KI.Val12
import proofs.«140206_j52750788330061_1_alg».proof.Proof.Agg
import proofs.«140206_j52750788330061_1_alg».proof.Proof.Spec
import Idealize.ShloMosaic.Lib.ValueIdx

noncomputable section

namespace Cert.KernelIdeal.Net

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Glue Cert.Spec

variable (m : (ℓ : Loc nD τ sig) → Buf (Elt Ideal) ℓ) (c : Dev nD)

/-- The reciprocal of the row count and the variance offset, as the program spells them. -/
abbrev INV_L3 : EReal := Named.named (F := Ideal) κ "inv_50000" (φ := .f32) 0x37A7C5AC#32
abbrev EPS_L3 : EReal := Ideal.ofBits .f32 0x3727C5AC#32

/-! ## Layer 3's operands, off the launch memory and the features the layer before left -/

/-- The self-weight row: one plus entry 3 of the self-weights, in every column. -/
def e_L3 : Row := fun _ => 1 + (m ((c : Thread nD τ).loc main_arg6) : S4.Idx → EReal) (ix1 3)
/-- The node features the layer is entered with. -/
def h_L3 : Mat 50000 64 := fun i j => (X20 m c main_v124 : S50000x64.Idx → EReal) (ix2 i j)
/-- Their sums over each node's neighbours along the edge list. -/
def ag_L3 : Mat 50000 64 := fun i j => Cert.Agg.aggOf (X20 m c main_v124) (m ((c : Thread nD τ).loc main_arg2)) (ix2 i j)
/-- The layer's two weight matrices and its bias, scale and shift rows: matrix 3, row 3 of the stacked parameters. -/
def w1_L3 : Mat 64 64 := fun t j => (m ((c : Thread nD τ).loc main_arg7) : S4x64x64.Idx → EReal) (ix3 3 t j)
def b1_L3 : Row := fun j => (m ((c : Thread nD τ).loc main_arg8) : S4x64.Idx → EReal) (ix2 3 j)
def g1_L3 : Row := fun j => (m ((c : Thread nD τ).loc main_arg9) : S4x64.Idx → EReal) (ix2 3 j)
def be1_L3 : Row := fun j => (m ((c : Thread nD τ).loc main_arg10) : S4x64.Idx → EReal) (ix2 3 j)
def w2_L3 : Mat 64 64 := fun t j => (m ((c : Thread nD τ).loc main_arg11) : S4x64x64.Idx → EReal) (ix3 3 t j)
def b2_L3 : Row := fun j => (m ((c : Thread nD τ).loc main_arg12) : S4x64.Idx → EReal) (ix2 3 j)
def g2_L3 : Row := fun j => (m ((c : Thread nD τ).loc main_arg13) : S4x64.Idx → EReal) (ix2 3 j)
def be2_L3 : Row := fun j => (m ((c : Thread nD τ).loc main_arg14) : S4x64.Idx → EReal) (ix2 3 j)

/-! ## The layer's intermediate matrices, named -/

/-- The first linear map of the mixed features. -/
def z1_L3 : Mat 50000 64 := affine (mix (e_L3 m c) (h_L3 m c) (ag_L3 m c)) (w1_L3 m c) (b1_L3 m c)
/-- Its batch normalisation by its own column statistics, positive part. -/
def a1_L3 : Mat 50000 64 := bnStats INV_L3 EPS_L3 (z1_L3 m c) (colSum (z1_L3 m c)) (colSumSq (z1_L3 m c)) (g1_L3 m c) (be1_L3 m c)
/-- The second linear map. -/
def z2_L3 : Mat 50000 64 := affine (a1_L3 m c) (w2_L3 m c) (b2_L3 m c)

/-! ## Arrays read as matrices and rows -/

/-- A `[50000,64]` array as a matrix, a `[1,64]` array as its row, a `[64,64]` array as a matrix. -/
abbrev mat_L3 (X : S50000x64.Idx → EReal) : Mat 50000 64 := fun i j => X (ix2 i j)
abbrev row_L3 (X : S1x64.Idx → EReal) : Row := fun j => X (ix2 0 j)
abbrev sqm_L3 (X : S64x64.Idx → EReal) : Mat 64 64 := fun t j => X (ix2 t j)

/-! ## What each region's value lemma reads its entry contents as -/

/-- Region 1's affine matrix, read off the contents `V` the region is entered with. -/
abbrev z1V_L3 (V : (c : Dev nD) → (b : Ref sig .tc) → Buf (Elt Ideal) ((c : Thread nD τ).loc b)) (c : Dev nD) : Mat 50000 64 :=
  affine (mix (row_L3 (V c main_v142)) (mat_L3 (V c main_v124)) (mat_L3 (V c main_v134))) (sqm_L3 (V c main_v138)) (row_L3 (V c main_v143))

/-- Region 2's affine matrix, read off the contents `V` the region is entered with. -/
abbrev z2V_L3 (V : (c : Dev nD) → (b : Ref sig .tc) → Buf (Elt Ideal) ((c : Thread nD τ).loc b)) (c : Dev nD) : Mat 50000 64 :=
  affine (bnStats INV_L3 EPS_L3 (mat_L3 (V c main_v144_0)) (row_L3 (V c main_v144_1)) (row_L3 (V c main_v144_2)) (row_L3 (V c main_v153)) (row_L3 (V c main_v154)))
    (sqm_L3 (V c main_v150)) (row_L3 (V c main_v155))

/-! ## Region 1: the first linear map and its two column statistics -/

/-! What region 1 is entered with (`X21`), window by window, as the layer's operands. -/
theorem e_atA_L3 (t : Fin 64) : row_L3 (X21 m c main_v142) t = e_L3 m c t := X21_epsb m c 0 t
theorem h_atA_L3 (i : Fin 50000) (t : Fin 64) : mat_L3 (X21 m c main_v124) i t = h_L3 m c i t := congrFun (X21_h m c) (ix2 i t)
theorem ag_atA_L3 (i : Fin 50000) (t : Fin 64) : mat_L3 (X21 m c main_v134) i t = ag_L3 m c i t := by
  unfold ag_L3; rw [X21_agg, Cert.Agg.aggK_eq_aggOf]
theorem w1_atA_L3 (t q : Fin 64) : sqm_L3 (X21 m c main_v138) t q = w1_L3 m c t q := X21_W1 m c t q
theorem b1_atA_L3 (q : Fin 64) : row_L3 (X21 m c main_v143) q = b1_L3 m c q := X21_b1 m c 0 q

/-- So region 1's affine matrix is the layer's first linear map. -/
theorem z1_entry_L3 (i : Fin 50000) (j : Fin 64) : z1V_L3 (tcOf (X21 m)) c i j = z1_L3 m c i j :=
  Cert.ValLib.affine_mix_congr (row_L3 (X21 m c main_v142)) (e_L3 m c) (mat_L3 (X21 m c main_v124)) (mat_L3 (X21 m c main_v134)) (h_L3 m c) (ag_L3 m c)
    (sqm_L3 (X21 m c main_v138)) (w1_L3 m c) (row_L3 (X21 m c main_v143)) (b1_L3 m c) i i
    (e_atA_L3 m c) (h_atA_L3 m c i) (ag_atA_L3 m c i) (w1_atA_L3 m c) (b1_atA_L3 m c) j

theorem z1_fun_L3 : z1V_L3 (tcOf (X21 m)) c = z1_L3 m c := funext fun i => funext fun j => z1_entry_L3 m c i j

/-- What region 1 leaves in its three output arrays. -/
theorem xa_z_L3 : X22 m c main_v144_0 = (dat10 (F := Ideal) (tcOf (X21 m)) c).arrAt 5 cfg10.N := by
  unfold X22; exact upd3_a _ _ _ _ _ _ _ (by decide) (by decide)
theorem xa_s_L3 : X22 m c main_v144_1 = (dat10 (F := Ideal) (tcOf (X21 m)) c).arrAt 6 cfg10.N := by
  unfold X22; exact upd3_b _ _ _ _ _ _ _ (by decide)
theorem xa_ss_L3 : X22 m c main_v144_2 = (dat10 (F := Ideal) (tcOf (X21 m)) c).arrAt 7 cfg10.N := by
  unfold X22; exact upd3_c _ _ _ _ _ _ _

theorem ra_z_L3 (i : Fin 50000) (j : Fin 64) : mat_L3 (X22 m c main_v144_0) i j = z1_L3 m c i j := by
  rw [xa_z_L3]; exact (Cert.KernelIdeal.Val.arrAt10_z (tcOf (X21 m)) c i j).trans (z1_entry_L3 m c i j)
theorem ra_s_L3 (j : Fin 64) : row_L3 (X22 m c main_v144_1) j = colSum (z1_L3 m c) j := by
  rw [xa_s_L3]; exact (Cert.KernelIdeal.Val.arrAt10_s (tcOf (X21 m)) c j).trans (congrArg (fun y => colSum y j) (z1_fun_L3 m c))
theorem ra_ss_L3 (j : Fin 64) : row_L3 (X22 m c main_v144_2) j = colSumSq (z1_L3 m c) j := by
  rw [xa_ss_L3]; exact (Cert.KernelIdeal.Val.arrAt10_ss (tcOf (X21 m)) c j).trans (congrArg (fun y => colSumSq y j) (z1_fun_L3 m c))

/-! ## Region 2: the normalised activations and the second linear map -/

/-! What region 2 is entered with (`X23`): region 1's three arrays, carried through the host stretch, and row 3 / matrix 3
    of the next parameters. -/
theorem z_atB_L3 (i : Fin 50000) (t : Fin 64) : mat_L3 (X23 m c main_v144_0) i t = z1_L3 m c i t :=
  (congrFun (X23_z m c) (ix2 i t)).trans (ra_z_L3 m c i t)
theorem s_atB_L3 (t : Fin 64) : row_L3 (X23 m c main_v144_1) t = colSum (z1_L3 m c) t :=
  (congrFun (X23_s m c) (ix2 0 t)).trans (ra_s_L3 m c t)
theorem ss_atB_L3 (t : Fin 64) : row_L3 (X23 m c main_v144_2) t = colSumSq (z1_L3 m c) t :=
  (congrFun (X23_ss m c) (ix2 0 t)).trans (ra_ss_L3 m c t)
theorem g1_atB_L3 (t : Fin 64) : row_L3 (X23 m c main_v153) t = g1_L3 m c t := X23_g1 m c 0 t
theorem be1_atB_L3 (t : Fin 64) : row_L3 (X23 m c main_v154) t = be1_L3 m c t := X23_be1 m c 0 t
theorem w2_atB_L3 (t q : Fin 64) : sqm_L3 (X23 m c main_v150) t q = w2_L3 m c t q := X23_W2 m c t q
theorem b2_atB_L3 (q : Fin 64) : row_L3 (X23 m c main_v155) q = b2_L3 m c q := X23_b2 m c 0 q

/-- Region 2 normalises what region 1 left by region 1's own column statistics. -/
theorem a1_entry_L3 (i : Fin 50000) (t : Fin 64) :
    bnStats INV_L3 EPS_L3 (mat_L3 (X23 m c main_v144_0)) (row_L3 (X23 m c main_v144_1)) (row_L3 (X23 m c main_v144_2)) (row_L3 (X23 m c main_v153)) (row_L3 (X23 m c main_v154)) i t
      = a1_L3 m c i t :=
  Cert.ValLib.bnStats_congr INV_L3 EPS_L3 (mat_L3 (X23 m c main_v144_0)) (z1_L3 m c) (row_L3 (X23 m c main_v144_1)) (colSum (z1_L3 m c))
    (row_L3 (X23 m c main_v144_2)) (colSumSq (z1_L3 m c)) (row_L3 (X23 m c main_v153)) (g1_L3 m c) (row_L3 (X23 m c main_v154)) (be1_L3 m c) i i t
    (z_atB_L3 m c i t) (s_atB_L3 m c t) (ss_atB_L3 m c t) (g1_atB_L3 m c t) (be1_atB_L3 m c t)

/-- So region 2's affine matrix is the layer's second linear map. -/
theorem z2_entry_L3 (i : Fin 50000) (j : Fin 64) : z2V_L3 (tcOf (X23 m)) c i j = z2_L3 m c i j :=
  Cert.ValLib.affine_congr
    (bnStats INV_L3 EPS_L3 (mat_L3 (X23 m c main_v144_0)) (row_L3 (X23 m c main_v144_1)) (row_L3 (X23 m c main_v144_2)) (row_L3 (X23 m c main_v153)) (row_L3 (X23 m c main_v154)))
    (a1_L3 m c) (sqm_L3 (X23 m c main_v150)) (w2_L3 m c) (row_L3 (X23 m c main_v155)) (b2_L3 m c) i i
    (a1_entry_L3 m c i) (w2_atB_L3 m c) (b2_atB_L3 m c) j

theorem z2_fun_L3 : z2V_L3 (tcOf (X23 m)) c = z2_L3 m c := funext fun i => funext fun j => z2_entry_L3 m c i j

/-- What region 2 leaves in its three output arrays. -/
theorem xb_z_L3 : X24 m c main_v156_0 = (dat11 (F := Ideal) (tcOf (X23 m)) c).arrAt 7 cfg11.N := by
  unfold X24; exact upd3_a _ _ _ _ _ _ _ (by decide) (by decide)
theorem xb_s_L3 : X24 m c main_v156_1 = (dat11 (F := Ideal) (tcOf (X23 m)) c).arrAt 8 cfg11.N := by
  unfold X24; exact upd3_b _ _ _ _ _ _ _ (by decide)
theorem xb_ss_L3 : X24 m c main_v156_2 = (dat11 (F := Ideal) (tcOf (X23 m)) c).arrAt 9 cfg11.N := by
  unfold X24; exact upd3_c _ _ _ _ _ _ _

theorem rb_z_L3 (i : Fin 50000) (j : Fin 64) : mat_L3 (X24 m c main_v156_0) i j = z2_L3 m c i j := by
  rw [xb_z_L3]; exact (Cert.KernelIdeal.Val.arrAt11_z (tcOf (X23 m)) c i j).trans (z2_entry_L3 m c i j)
theorem rb_s_L3 (j : Fin 64) : row_L3 (X24 m c main_v156_1) j = colSum (z2_L3 m c) j := by
  rw [xb_s_L3]; exact (Cert.KernelIdeal.Val.arrAt11_s (tcOf (X23 m)) c j).trans (congrArg (fun y => colSum y j) (z2_fun_L3 m c))
theorem rb_ss_L3 (j : Fin 64) : row_L3 (X24 m c main_v156_2) j = colSumSq (z2_L3 m c) j := by
  rw [xb_ss_L3]; exact (Cert.KernelIdeal.Val.arrAt11_ss (tcOf (X23 m)) c j).trans (congrArg (fun y => colSumSq y j) (z2_fun_L3 m c))

/-! ## Region 3: the layer's output -/

/-! What region 3 is entered with (`X25`): region 2's three arrays and row 3 of the second scale and shift. -/
theorem z_atC_L3 (i : Fin 50000) (j : Fin 64) : mat_L3 (X25 m c main_v156_0) i j = z2_L3 m c i j :=
  (congrFun (X25_z m c) (ix2 i j)).trans (rb_z_L3 m c i j)
theorem s_atC_L3 (j : Fin 64) : row_L3 (X25 m c main_v156_1) j = colSum (z2_L3 m c) j :=
  (congrFun (X25_s m c) (ix2 0 j)).trans (rb_s_L3 m c j)
theorem ss_atC_L3 (j : Fin 64) : row_L3 (X25 m c main_v156_2) j = colSumSq (z2_L3 m c) j :=
  (congrFun (X25_ss m c) (ix2 0 j)).trans (rb_ss_L3 m c j)
theorem g2_atC_L3 (j : Fin 64) : row_L3 (X25 m c main_v161) j = g2_L3 m c j := X25_g2 m c 0 j
theorem be2_atC_L3 (j : Fin 64) : row_L3 (X25 m c main_v162) j = be2_L3 m c j := X25_be2 m c 0 j

/-- What region 3 leaves in its output array. -/
theorem xc_out_L3 : X26 m c main_v163 = (dat12 (F := Ideal) (tcOf (X25 m)) c).arrAt 5 cfg12.N := by
  unfold X26; exact upd1_a _ _ _

/-- The layer's output, over the named intermediates. -/
theorem layer3_named (i : Fin 50000) (j : Fin 64) :
    mat_L3 (X26 m c main_v163) i j
      = bnStats INV_L3 EPS_L3 (z2_L3 m c) (colSum (z2_L3 m c)) (colSumSq (z2_L3 m c)) (g2_L3 m c) (be2_L3 m c) i j := by
  rw [xc_out_L3]
  exact (Cert.KernelIdeal.Val.arrAt12_apply (tcOf (X25 m)) c i j).trans
    (Cert.ValLib.bnStats_congr INV_L3 EPS_L3 (mat_L3 (X25 m c main_v156_0)) (z2_L3 m c) (row_L3 (X25 m c main_v156_1)) (colSum (z2_L3 m c))
      (row_L3 (X25 m c main_v156_2)) (colSumSq (z2_L3 m c)) (row_L3 (X25 m c main_v161)) (g2_L3 m c) (row_L3 (X25 m c main_v162)) (be2_L3 m c) i i j
      (z_atC_L3 m c i j) (s_atC_L3 m c j) (ss_atC_L3 m c j) (g2_atC_L3 m c j) (be2_atC_L3 m c j))

/-- THE KERNEL SIDE OF LAYER 3 AS ONE EQUATION: what region 3 leaves, entry by entry, is one layer by column statistics of
    the features the layer before left, their neighbour sums, and matrix 3 / row 3 of the stacked parameters. -/
theorem layer3 (i : Fin 50000) (j : Fin 64) :
    (X26 m c main_v163 : S50000x64.Idx → EReal) (ix2 i j)
      = Cert.Spec.layerStats INV_L3 EPS_L3
          (fun _ => 1 + (m ((c : Thread nD τ).loc main_arg6) : S4.Idx → EReal) (ix1 3))
          (fun i j => (X20 m c main_v124 : S50000x64.Idx → EReal) (ix2 i j))
          (fun i j => Cert.Agg.aggOf (X20 m c main_v124) (m ((c : Thread nD τ).loc main_arg2)) (ix2 i j))
          (fun t j => (m ((c : Thread nD τ).loc main_arg7) : S4x64x64.Idx → EReal) (ix3 3 t j))
          (fun j => (m ((c : Thread nD τ).loc main_arg8) : S4x64.Idx → EReal) (ix2 3 j))
          (fun j => (m ((c : Thread nD τ).loc main_arg9) : S4x64.Idx → EReal) (ix2 3 j))
          (fun j => (m ((c : Thread nD τ).loc main_arg10) : S4x64.Idx → EReal) (ix2 3 j))
          (fun t j => (m ((c : Thread nD τ).loc main_arg11) : S4x64x64.Idx → EReal) (ix3 3 t j))
          (fun j => (m ((c : Thread nD τ).loc main_arg12) : S4x64.Idx → EReal) (ix2 3 j))
          (fun j => (m ((c : Thread nD τ).loc main_arg13) : S4x64.Idx → EReal) (ix2 3 j))
          (fun j => (m ((c : Thread nD τ).loc main_arg14) : S4x64.Idx → EReal) (ix2 3 j)) i j :=
  layer3_named m c i j

end Cert.KernelIdeal.Net
end
-- ==== Proof.FinalTop.lean ====
/-
  The certificate's fifth claim, closed: the interface of the kernel program's stages is filled with the seven facts
  proved where each stage is read (the embedding, the four layers, the classifier, the zero array), the reciprocal
  row count the program carries under a name is the rational 1/50000, and the claim follows from the assembly.
-/
import proofs.«140206_j52750788330061_1_alg».proof.Proof.Final
import proofs.«140206_j52750788330061_1_alg».proof.Proof.KI.Ends
import proofs.«140206_j52750788330061_1_alg».proof.Proof.KI.Layer0
import proofs.«140206_j52750788330061_1_alg».proof.Proof.KI.Layer1
import proofs.«140206_j52750788330061_1_alg».proof.Proof.KI.Layer2
import proofs.«140206_j52750788330061_1_alg».proof.Proof.KI.Layer3
import proofs.«140206_j52750788330061_1_alg».proof.Proof.KI.PayConst

noncomputable section

namespace Cert.Final

open Idealize.ShloMosaic Idealize.ShloMosaic.ValueIdx Idealize.ShloMosaic.TcCoe Idealize.SL.Sem
open Cert.Spec

/-- The kernel program's stages, read: the interface's seven facts, each proved where its stage is read. -/
theorem kernelStages (m : (ℓ : Loc Cert.KernelIdeal.nD Cert.KernelIdeal.τ Cert.KernelIdeal.sig) → Buf (Elt Ideal) ℓ) (c : Dev Cert.KernelIdeal.nD) :
    KernelStages m c (Named.named (F := Ideal) Cert.KernelIdeal.κ "inv_50000" (φ := .f32) 0x37A7C5AC#32) :=
  ⟨Cert.KernelIdeal.Net.embedK m c, Cert.KernelIdeal.Net.layer0 m c, Cert.KernelIdeal.Net.layer1 m c, Cert.KernelIdeal.Net.layer2 m c, Cert.KernelIdeal.Net.layer3 m c,
    Cert.KernelIdeal.Net.tailK m c, Cert.KernelIdeal.Net.zeroK m c⟩

/-- The two programs' results are equal: the line of host operations of the one leaves, in its two result arrays,
    the last contents of the other's two result arrays. -/
theorem values_eq [hPre : Cert.Pre_finite_inputs.Facts] (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (c : Dev Cert.KernelIdeal.nD) :
    (StableHlo.after (Cert.ReferenceIdeal.RefRun.ops (F := Ideal)) (StableHlo.launchContents m' c) (Proc.devRef .tc Cert.ReferenceIdeal.main_v350) : Cert.ReferenceIdeal.S512x10.Idx → EReal) = Cert.KernelIdeal.Gen.X28 m c Cert.KernelIdeal.main_v178
    ∧ (StableHlo.after (Cert.ReferenceIdeal.RefRun.ops (F := Ideal)) (StableHlo.launchContents m' c) (Proc.devRef .tc Cert.ReferenceIdeal.main_v9) : Cert.ReferenceIdeal.S1.Idx → EReal) = Cert.KernelIdeal.Gen.X28 m c Cert.KernelIdeal.main_v7 :=
  values_eq_of m m' hpre hagree c _ Cert.KernelIdeal.PayVal.inv_50000 (kernelStages m c)

/-- The certificate's fifth claim. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal :=
  algebraic_of _ Cert.KernelIdeal.PayVal.inv_50000 kernelStages

end Cert.Final

end
-- ==== Proof.lean ====
/-
  A four-layer graph isomorphism network on 50000 nodes and 800000 edges, its dense part in fourteen kernel launches,
  against the plain array program.  Each layer adds the aggregated neighbour features to the scaled node features,
  applies a 64×64 affine map, batch normalisation over all nodes and the positive part, a second affine map, a second
  batch normalisation and positive part; a mean pool per graph and a two-layer classifier follow.  The launches compute
  the batch statistics as column sums and column sums of squares accumulated over ten row blocks, the mean by the
  reciprocal of the row count and the variance as the mean of squares minus the squared mean; the array program divides
  the column sum by the row count and takes the mean of the centred squares.  Over the reals the two agree, and every
  value of the network is a real number when the float arguments are finite (the variance is then a nonnegative real
  and the square root's reciprocal of variance plus epsilon a real); the neighbour aggregation, the pooling and the
  classifier are the same operations in both programs.  The frames: each launch's pipeline runs its ten grid points
  (one for the classifier), the two accumulators of a statistics launch carried in scratch memory between points; the
  host stretches between launches are straight-line; no item writes an argument array.
-/
import proofs.«140206_j52750788330061_1_alg».proof.Defs
import proofs.«140206_j52750788330061_1_alg».proof.Proof.Gen.Kernel
import proofs.«140206_j52750788330061_1_alg».proof.Proof.Gen.KernelIdeal
import proofs.«140206_j52750788330061_1_alg».proof.Proof.Gen.ReferenceIdeal
import proofs.«140206_j52750788330061_1_alg».proof.Proof.Gen.Pre_finite_inputs
import proofs.«140206_j52750788330061_1_alg».proof.Proof.KB.Frame
import proofs.«140206_j52750788330061_1_alg».proof.Proof.KI.Frame
import proofs.«140206_j52750788330061_1_alg».proof.Proof.RefRun.Frame
import proofs.«140206_j52750788330061_1_alg».proof.Proof.FinalTop
import Idealize.ShloMosaic.Adequacy
import Idealize.ShloMosaic.Init

noncomputable section

namespace Cert.Proof

open Idealize.ShloMosaic Idealize.SL.Sem

/-- The reciprocal of the row count, named in the idealised launches, denotes 1/50000: one statement per site. -/
theorem preserves : Cert.preserves_Kernel_KernelIdeal :=
  ⟨IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl⟩

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.RefRun.frame_ref,
    preserves,
    Cert.Final.algebraic⟩

end Cert.Proof

end
